-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v442) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000x128 : Shape := ⟨2, ![320000, 128]⟩
abbrev S128x128 : Shape := ⟨2, ![128, 128]⟩
abbrev S128 : Shape := ⟨1, ![128]⟩
abbrev S3x5x128x128 : Shape := ⟨4, ![3, 5, 128, 128]⟩
abbrev S3x5x128 : Shape := ⟨3, ![3, 5, 128]⟩
abbrev S3x2x128 : Shape := ⟨3, ![3, 2, 128]⟩
abbrev S128x64 : Shape := ⟨2, ![128, 64]⟩
abbrev S64 : Shape := ⟨1, ![64]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x5x128x128 : S_.BroadcastsInDim S3x5x128x128 (![] : Fin 0 → Fin S3x5x128x128.rank)
  reducesTo_S3x5x128x128_S_d0_1_2_3 : S3x5x128x128.ReducesTo [0, 1, 2, 3] S_
  bcast_S_S3x5x128 : S_.BroadcastsInDim S3x5x128 (![] : Fin 0 → Fin S3x5x128.rank)
  reducesTo_S3x5x128_S_d0_1_2 : S3x5x128.ReducesTo [0, 1, 2] S_
  bcast_S_S3x2x128 : S_.BroadcastsInDim S3x2x128 (![] : Fin 0 → Fin S3x2x128.rank)
  reducesTo_S3x2x128_S_d0_1_2 : S3x2x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg1 : IVec S2x320000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x320000 32 := broadcastInDim S2x320000 ![] bcast_S_S2x320000 main_c_26
  let main_v70 : IVec S2x320000 1 := cmpi .sge main_arg1 main_v69
  let main_c_27 : IVec S_ 1 := constantI S_ 1 1#1
  let main_v71 : IVec S_ 1 := (fun x v => Host.reduce IntOp.andi x v reducesTo_S2x320000_S_d0_1 h_S_) main_v70 main_c_27
  let main_v72 : IVec S_ 1 := andi main_v68 main_v71
  let main_c_28 : IVec S_ 32 := constantI S_ 32 20000#32
  let main_v73 : IVec S2x320000 32 := broadcastInDim S2x320000 ![] bcast_S_S2x320000 main_c_28
  let main_v74 : IVec S2x320000 1 := cmpi .slt main_arg1 main_v73
  let main_c_29 : IVec S_ 1 := constantI S_ 1 1#1
  let main_v75 : IVec S_ 1 := (fun x v => Host.reduce IntOp.andi x v reducesTo_S2x320000_S_d0_1 h_S_) main_v74 main_c_29
  let main_v76 : IVec S_ 1 := andi main_v72 main_v75
  main_v76

def fn_part3 {F : FTy → Type} [FloatOps F] (main_arg1 : IVec S2x320000 32) (main_arg12 : FVec F S128 .f32) (main_arg13 : FVec F S128x64 .f32) (main_arg14 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_v63 main_v67

def fn_part2 {F : FTy → Type} [FloatOps F] (main_arg1 : IVec S2x320000 32) (main_arg8 : FVec F S3x5x128 .f32) (main_arg9 : FVec F S3x2x128 .f32) (main_arg10 : FVec F S3x2x128 .f32) (main_arg11 : FVec F S128x128 .f32) (main_arg12 : FVec F S128 .f32) (main_arg13 : FVec F S128x64 .f32) (main_arg14 : FVec F S64 .f32) (main_v33 : IVec S_ 1) : IVec S_ 1 :=
  let main_v34 : FVec F S3x5x128 .f32 := Host.absf main_arg8
  let main_cst_12 : FVec F S_ .f32 := constant S_ .f32 0x7F800000#32
  let main_v35 : FVec F S3x5x128 .f32 := broadcastInDim S3x5x128 ![] bcast_S_S3x5x128 main_cst_12
  let main_v36 : IVec S3x5x128 1 := cmpf .olt main_v34 main_v35
  let main_c_13 : IVec S_ 1 := constantI S_ 1 1#1
  let main_v37 : IVec S_ 1 := (fun x v => Host.reduce IntOp.andi x v reducesTo_S3x5x128_S_d0_1_2 h_S_) main_v36 main_c_13
  let main_v38 : IVec S_ 1 := andi main_v33 main_v37
  let main_v39 : FVec F S3x2x128 .f32 := Host.absf main_arg9
  let main_cst_14 : FVec F S_ .f32 := constant S_ .f32 0x7F800000#32
  let main_v40 : FVec F S3x2x128 .f32 := broadcastInDim S3x2x128 ![] bcast_S_S3x2x128 main_cst_14
  let main_v41 : IVec S3x2x128 1 := cmpf .olt main_v39 main_v40
  let main_c_15 : IVec S_ 1 := constantI S_ 1 1#1
  let main_v42 : IVec S_ 1 := (fun x v => Host.reduce IntOp.andi x v reducesTo_S3x2x128_S_d0_1_2 h_S_) main_v41 main_c_15
  let main_v43 : IVec S_ 1 := andi main_v38 main_v42
  let main_v44 : FVec F S3x2x128 .f32 := Host.absf main_arg10
  let main_cst_16 : FVec F S_ .f32 := constant S_ .f32 0x7F800000#32
  let main_v45 : FVec F S3x2x128 .f32 := broadcastInDim S3x2x128 ![] bcast_S_S3x2x128 main_cst_16
  let main_v46 : IVec S3x2x128 1 := cmpf .olt main_v44 main_v45
  let main_c_17 : IVec S_ 1 := constantI S_ 1 1#1
  let main_v47 : IVec S_ 1 := (fun x v => Host.reduce IntOp.andi x v reducesTo_S3x2x128_S_d0_1_2 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : IVec S2x320000 32) (main_arg5 : FVec F S128x128 .f32) (main_arg6 : FVec F S128 .f32) (main_arg7 : FVec F S3x5x128x128 .f32) (main_arg8 : FVec F S3x5x128 .f32) (main_arg9 : FVec F S3x2x128 .f32) (main_arg10 : FVec F S3x2x128 .f32) (main_arg11 : FVec F S128x128 .f32) (main_arg12 : FVec F S128 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x5x128x128 .f32 := Host.absf main_arg7
  let main_cst_10 : FVec F S_ .f32 := constant S_ .f32 0x7F800000#32
  let main_v30 : FVec F S3x5x128x128 .f32 := broadcastInDim S3x5x128x128 ![] bcast_S_S3x5x128x128 main_cst_10
  let main_v31 : IVec S3x5x128x128 1 := cmpf .olt main_v29 main_v30
  let main_c_11 : IVec S_ 1 := constantI S_ 1 1#1
  let main_v32 : IVec S_ 1 := (fun x v => Host.reduce IntOp.andi x v reducesTo_S3x5x128x128_S_d0_1_2_3 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S20000x128 .f32) (main_arg1 : IVec S2x320000 32) (main_arg2 : FVec F S320000x128 .f32) (main_arg3 : FVec F S128x128 .f32) (main_arg4 : FVec F S128 .f32) (main_arg5 : FVec F S128x128 .f32) (main_arg6 : FVec F S128 .f32) (main_arg7 : FVec F S3x5x128x128 .f32) (main_arg8 : FVec F S3x5x128 .f32) (main_arg9 : FVec F S3x2x128 .f32) (main_arg10 : FVec F S3x2x128 .f32) (main_arg11 : FVec F S128x128 .f32) (main_arg12 : FVec F S128 .f32) (main_arg13 : FVec F S128x64 .f32) (main_arg14 : FVec F S64 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg2
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S20000x128 : Shape := ⟨2, ![20000, 128]⟩
abbrev S2x320000 : Shape := ⟨2, ![2, 320000]⟩
abbrev S320000x128 : Shape := ⟨2, ![320000, 128]⟩
abbrev S128x128 : Shape := ⟨2, ![128, 128]⟩
abbrev S128 : Shape := ⟨1, ![128]⟩
abbrev S3x5x128x128 : Shape := ⟨4, ![3, 5, 128, 128]⟩
abbrev S3x5x128 : Shape := ⟨3, ![3, 5, 128]⟩
abbrev S3x2x128 : Shape := ⟨3, ![3, 2, 128]⟩
abbrev S128x64 : Shape := ⟨2, ![128, 64]⟩
abbrev S64 : Shape := ⟨1, ![64]⟩
abbrev S1x320000 : Shape := ⟨2, ![1, 320000]⟩
abbrev S320000 : Shape := ⟨1, ![320000]⟩
abbrev S1x128 : Shape := ⟨2, ![1, 128]⟩
abbrev S2000x128 : Shape := ⟨2, ![2000, 128]⟩
abbrev S4000x128 : Shape := ⟨2, ![4000, 128]⟩
abbrev S1x5x128x128 : Shape := ⟨4, ![1, 5, 128, 128]⟩
abbrev S5x128x128 : Shape := ⟨3, ![5, 128, 128]⟩
abbrev S1x5x128 : Shape := ⟨3, ![1, 5, 128]⟩
abbrev S5x128 : Shape := ⟨2, ![5, 128]⟩
abbrev S1x128x128 : Shape := ⟨3, ![1, 128, 128]⟩
abbrev S128x512 : Shape := ⟨2, ![128, 512]⟩
abbrev S512 : Shape := ⟨1, ![512]⟩
abbrev S1x512 : Shape := ⟨2, ![1, 512]⟩
abbrev S20000x512 : Shape := ⟨2, ![20000, 512]⟩
abbrev S2000x512 : Shape := ⟨2, ![2000, 512]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S1x1x128 : Shape := ⟨3, ![1, 1, 128]⟩
abbrev S1x64 : Shape := ⟨2, ![1, 64]⟩

abbrev nBuf : Space → Nat
  | .hbm => 422
  | .vmem => 180
  | .smem => 0
  | _ => 0

abbrev hbmTy0_0 (i : Nat) : BufTy := match i % 128 with
  | 0 => ⟨S20000x128, .f32⟩
  | 1 => ⟨S2x320000, .i32⟩
  | 2 => ⟨S320000x128, .f32⟩
  | 3 => ⟨S128x128, .f32⟩
  | 4 => ⟨S128, .f32⟩
  | 5 => ⟨S128x128, .f32⟩
  | 6 => ⟨S128, .f32⟩
  | 7 => ⟨S3x5x128x128, .f32⟩
  | 8 => ⟨S3x5x128, .f32⟩
  | 9 => ⟨S3x2x128, .f32⟩
  | 10 => ⟨S3x2x128, .f32⟩
  | 11 => ⟨S128x128, .f32⟩
  | 12 => ⟨S128, .f32⟩
  | 13 => ⟨S128x64, .f32⟩
  | 14 => ⟨S64, .f32⟩
  | 15 => ⟨S1x320000, .i32⟩
  | 16 => ⟨S320000, .i32⟩
  | 17 => ⟨S1x320000, .i32⟩
  | 18 => ⟨S320000, .i32⟩
  | 19 => ⟨S1x128, .f32⟩
  | 20 => ⟨S20000x128, .f32⟩
  | 21 => ⟨S1x128, .f32⟩
  | 22 => ⟨S320000x128, .f32⟩
  | 23 => ⟨S1x5x128x128, .f32⟩
  | 24 => ⟨S5x128x128, .f32⟩
  | 25 => ⟨S1x5x128, .f32⟩
  | 26 => ⟨S5x128, .f32⟩
  | 27 => ⟨S1x128x128, .f32⟩
  | 28 => ⟨S128x128, .f32⟩
  | 29 => ⟨S1x128x128, .f32⟩
  | 30 => ⟨S128x128, .f32⟩
  | 31 => ⟨S1x128x128, .f32⟩
  | 32 => ⟨S128x128, .f32⟩
  | 33 => ⟨S1x128x128, .f32⟩
  | 34 => ⟨S128x128, .f32⟩
  | 35 => ⟨S128x512, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S512, .f32⟩
  | 45 => ⟨S1x512, .f32⟩
  | 46 => ⟨S20000x512, .f32⟩
  | 47 => ⟨S20000x128, .f32⟩
  | 48 => ⟨S20000x128, .f32⟩
  | 49 => ⟨S20000x128, .f32⟩
  | 50 => ⟨S20000x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S320000x128, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S1, .i32⟩
  | 66 => ⟨S_, .i32⟩
  | 67 => ⟨S320000x1, .i32⟩
  | 68 => ⟨S320000x1, .i1⟩
  | 69 => ⟨S1x1, .i32⟩
  | 70 => ⟨S320000x1, .i32⟩
  | 71 => ⟨S320000x1, .i1⟩
  | 72 => ⟨S320000x1, .i1⟩
  | 73 => ⟨S_, .i1⟩
  | 74 => ⟨S320000, .i1⟩
  | 75 => ⟨S320000x128, .f32⟩
  | 76 => ⟨S320000x128, .i1⟩
  | 77 => ⟨S_, .f32⟩
  | 78 => ⟨S320000x128, .f32⟩
  | 79 => ⟨S320000x128, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S1, .i32⟩
  | 89 => ⟨S_, .i32⟩
  | 90 => ⟨S320000x1, .i32⟩
  | 91 => ⟨S320000x1, .i1⟩
  | 92 => ⟨S1x1, .i32⟩
  | 93 => ⟨S320000x1, .i32⟩
  | 94 => ⟨S320000x1, .i1⟩
  | 95 => ⟨S320000x1, .i1⟩
  | 96 => ⟨S_, .i1⟩
  | 97 => ⟨S320000, .i1⟩
  | 98 => ⟨S320000x128, .f32⟩
  | 99 => ⟨S320000x128, .i1⟩
  | 100 => ⟨S_, .f32⟩
  | 101 => ⟨S320000x128, .f32⟩
  | 102 => ⟨S320000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S1, .i32⟩
  | 112 => ⟨S_, .i32⟩
  | 113 => ⟨S320000x1, .i32⟩
  | 114 => ⟨S320000x1, .i1⟩
  | 115 => ⟨S1x1, .i32⟩
  | 116 => ⟨S320000x1, .i32⟩
  | 117 => ⟨S320000x1, .i1⟩
  | 118 => ⟨S320000x1, .i1⟩
  | 119 => ⟨S_, .i1⟩
  | 120 => ⟨S320000, .i1⟩
  | 121 => ⟨S320000x128, .f32⟩
  | 122 => ⟨S320000x128, .i1⟩
  | 123 => ⟨S_, .f32⟩
  | 124 => ⟨S320000x128, .f32⟩
  | 125 => ⟨S320000x128, .f32⟩
  | 126 => ⟨S320000x128, .f32⟩
  | 127 => ⟨S320000x128, .f32⟩
  | _ => ⟨S20000x128, .f32⟩

abbrev hbmTy0_1 (i : Nat) : BufTy := match i % 128 with
  | 0 => ⟨S1x128, .f32⟩
  | 1 => ⟨S1x128, .f32⟩
  | 2 => ⟨S1x1x128, .f32⟩
  | 3 => ⟨S128, .f32⟩
  | 4 => ⟨S1x128, .f32⟩
  | 5 => ⟨S1x1x128, .f32⟩
  | 6 => ⟨S128, .f32⟩
  | 7 => ⟨S1x128, .f32⟩
  | 8 => ⟨S320000x128, .f32⟩
  | 9 => ⟨S_, .f32⟩
  | 10 => ⟨S20000x128, .f32⟩
  | 11 => ⟨S320000x1, .i32⟩
  | 12 => ⟨S20000x128, .f32⟩
  | 13 => ⟨S20000x128, .f32⟩
  | 14 => ⟨S1x128, .f32⟩
  | 15 => ⟨S1x128, .f32⟩
  | 16 => ⟨S1x1x128, .f32⟩
  | 17 => ⟨S128, .f32⟩
  | 18 => ⟨S1x128, .f32⟩
  | 19 => ⟨S1x1x128, .f32⟩
  | 20 => ⟨S128, .f32⟩
  | 21 => ⟨S1x128, .f32⟩
  | 22 => ⟨S20000x128, .f32⟩
  | 23 => ⟨S1x5x128x128, .f32⟩
  | 24 => ⟨S5x128x128, .f32⟩
  | 25 => ⟨S1x5x128, .f32⟩
  | 26 => ⟨S5x128, .f32⟩
  | 27 => ⟨S1x128x128, .f32⟩
  | 28 => ⟨S128x128, .f32⟩
  | 29 => ⟨S1x128x128, .f32⟩
  | 30 => ⟨S128x128, .f32⟩
  | 31 => ⟨S1x128x128, .f32⟩
  | 32 => ⟨S128x128, .f32⟩
  | 33 => ⟨S1x128x128, .f32⟩
  | 34 => ⟨S128x128, .f32⟩
  | 35 => ⟨S128x512, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S512, .f32⟩
  | 45 => ⟨S1x512, .f32⟩
  | 46 => ⟨S20000x512, .f32⟩
  | 47 => ⟨S20000x128, .f32⟩
  | 48 => ⟨S20000x128, .f32⟩
  | 49 => ⟨S20000x128, .f32⟩
  | 50 => ⟨S20000x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S320000x128, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S1, .i32⟩
  | 66 => ⟨S_, .i32⟩
  | 67 => ⟨S320000x1, .i32⟩
  | 68 => ⟨S320000x1, .i1⟩
  | 69 => ⟨S1x1, .i32⟩
  | 70 => ⟨S320000x1, .i32⟩
  | 71 => ⟨S320000x1, .i1⟩
  | 72 => ⟨S320000x1, .i1⟩
  | 73 => ⟨S_, .i1⟩
  | 74 => ⟨S320000, .i1⟩
  | 75 => ⟨S320000x128, .f32⟩
  | 76 => ⟨S320000x128, .i1⟩
  | 77 => ⟨S_, .f32⟩
  | 78 => ⟨S320000x128, .f32⟩
  | 79 => ⟨S320000x128, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S1, .i32⟩
  | 89 => ⟨S_, .i32⟩
  | 90 => ⟨S320000x1, .i32⟩
  | 91 => ⟨S320000x1, .i1⟩
  | 92 => ⟨S1x1, .i32⟩
  | 93 => ⟨S320000x1, .i32⟩
  | 94 => ⟨S320000x1, .i1⟩
  | 95 => ⟨S320000x1, .i1⟩
  | 96 => ⟨S_, .i1⟩
  | 97 => ⟨S320000, .i1⟩
  | 98 => ⟨S320000x128, .f32⟩
  | 99 => ⟨S320000x128, .i1⟩
  | 100 => ⟨S_, .f32⟩
  | 101 => ⟨S320000x128, .f32⟩
  | 102 => ⟨S320000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S1, .i32⟩
  | 112 => ⟨S_, .i32⟩
  | 113 => ⟨S320000x1, .i32⟩
  | 114 => ⟨S320000x1, .i1⟩
  | 115 => ⟨S1x1, .i32⟩
  | 116 => ⟨S320000x1, .i32⟩
  | 117 => ⟨S320000x1, .i1⟩
  | 118 => ⟨S320000x1, .i1⟩
  | 119 => ⟨S_, .i1⟩
  | 120 => ⟨S320000, .i1⟩
  | 121 => ⟨S320000x128, .f32⟩
  | 122 => ⟨S320000x128, .i1⟩
  | 123 => ⟨S_, .f32⟩
  | 124 => ⟨S320000x128, .f32⟩
  | 125 => ⟨S320000x128, .f32⟩
  | 126 => ⟨S320000x128, .f32⟩
  | 127 => ⟨S320000x128, .f32⟩
  | _ => ⟨S20000x128, .f32⟩

abbrev hbmTy0_2 (i : Nat) : BufTy := match i % 128 with
  | 0 => ⟨S1x128, .f32⟩
  | 1 => ⟨S1x128, .f32⟩
  | 2 => ⟨S1x1x128, .f32⟩
  | 3 => ⟨S128, .f32⟩
  | 4 => ⟨S1x128, .f32⟩
  | 5 => ⟨S1x1x128, .f32⟩
  | 6 => ⟨S128, .f32⟩
  | 7 => ⟨S1x128, .f32⟩
  | 8 => ⟨S320000x128, .f32⟩
  | 9 => ⟨S_, .f32⟩
  | 10 => ⟨S20000x128, .f32⟩
  | 11 => ⟨S320000x1, .i32⟩
  | 12 => ⟨S20000x128, .f32⟩
  | 13 => ⟨S20000x128, .f32⟩
  | 14 => ⟨S1x128, .f32⟩
  | 15 => ⟨S1x128, .f32⟩
  | 16 => ⟨S1x1x128, .f32⟩
  | 17 => ⟨S128, .f32⟩
  | 18 => ⟨S1x128, .f32⟩
  | 19 => ⟨S1x1x128, .f32⟩
  | 20 => ⟨S128, .f32⟩
  | 21 => ⟨S1x128, .f32⟩
  | 22 => ⟨S20000x128, .f32⟩
  | 23 => ⟨S1x5x128x128, .f32⟩
  | 24 => ⟨S5x128x128, .f32⟩
  | 25 => ⟨S1x5x128, .f32⟩
  | 26 => ⟨S5x128, .f32⟩
  | 27 => ⟨S1x128x128, .f32⟩
  | 28 => ⟨S128x128, .f32⟩
  | 29 => ⟨S1x128x128, .f32⟩
  | 30 => ⟨S128x128, .f32⟩
  | 31 => ⟨S1x128x128, .f32⟩
  | 32 => ⟨S128x128, .f32⟩
  | 33 => ⟨S1x128x128, .f32⟩
  | 34 => ⟨S128x128, .f32⟩
  | 35 => ⟨S128x512, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S512, .f32⟩
  | 45 => ⟨S1x512, .f32⟩
  | 46 => ⟨S20000x512, .f32⟩
  | 47 => ⟨S20000x128, .f32⟩
  | 48 => ⟨S20000x128, .f32⟩
  | 49 => ⟨S20000x128, .f32⟩
  | 50 => ⟨S20000x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S320000x128, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S1, .i32⟩
  | 66 => ⟨S_, .i32⟩
  | 67 => ⟨S320000x1, .i32⟩
  | 68 => ⟨S320000x1, .i1⟩
  | 69 => ⟨S1x1, .i32⟩
  | 70 => ⟨S320000x1, .i32⟩
  | 71 => ⟨S320000x1, .i1⟩
  | 72 => ⟨S320000x1, .i1⟩
  | 73 => ⟨S_, .i1⟩
  | 74 => ⟨S320000, .i1⟩
  | 75 => ⟨S320000x128, .f32⟩
  | 76 => ⟨S320000x128, .i1⟩
  | 77 => ⟨S_, .f32⟩
  | 78 => ⟨S320000x128, .f32⟩
  | 79 => ⟨S320000x128, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S1, .i32⟩
  | 89 => ⟨S_, .i32⟩
  | 90 => ⟨S320000x1, .i32⟩
  | 91 => ⟨S320000x1, .i1⟩
  | 92 => ⟨S1x1, .i32⟩
  | 93 => ⟨S320000x1, .i32⟩
  | 94 => ⟨S320000x1, .i1⟩
  | 95 => ⟨S320000x1, .i1⟩
  | 96 => ⟨S_, .i1⟩
  | 97 => ⟨S320000, .i1⟩
  | 98 => ⟨S320000x128, .f32⟩
  | 99 => ⟨S320000x128, .i1⟩
  | 100 => ⟨S_, .f32⟩
  | 101 => ⟨S320000x128, .f32⟩
  | 102 => ⟨S320000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S1, .i32⟩
  | 112 => ⟨S_, .i32⟩
  | 113 => ⟨S320000x1, .i32⟩
  | 114 => ⟨S320000x1, .i1⟩
  | 115 => ⟨S1x1, .i32⟩
  | 116 => ⟨S320000x1, .i32⟩
  | 117 => ⟨S320000x1, .i1⟩
  | 118 => ⟨S320000x1, .i1⟩
  | 119 => ⟨S_, .i1⟩
  | 120 => ⟨S320000, .i1⟩
  | 121 => ⟨S320000x128, .f32⟩
  | 122 => ⟨S320000x128, .i1⟩
  | 123 => ⟨S_, .f32⟩
  | 124 => ⟨S320000x128, .f32⟩
  | 125 => ⟨S320000x128, .f32⟩
  | 126 => ⟨S320000x128, .f32⟩
  | 127 => ⟨S320000x128, .f32⟩
  | _ => ⟨S20000x128, .f32⟩

abbrev hbmTy0_3 (i : Nat) : BufTy := match i % 128 with
  | 0 => ⟨S1x128, .f32⟩
  | 1 => ⟨S1x128, .f32⟩
  | 2 => ⟨S1x1x128, .f32⟩
  | 3 => ⟨S128, .f32⟩
  | 4 => ⟨S1x128, .f32⟩
  | 5 => ⟨S1x1x128, .f32⟩
  | 6 => ⟨S128, .f32⟩
  | 7 => ⟨S1x128, .f32⟩
  | 8 => ⟨S320000x128, .f32⟩
  | 9 => ⟨S_, .f32⟩
  | 10 => ⟨S20000x128, .f32⟩
  | 11 => ⟨S320000x1, .i32⟩
  | 12 => ⟨S20000x128, .f32⟩
  | 13 => ⟨S20000x128, .f32⟩
  | 14 => ⟨S1x128, .f32⟩
  | 15 => ⟨S1x128, .f32⟩
  | 16 => ⟨S1x1x128, .f32⟩
  | 17 => ⟨S128, .f32⟩
  | 18 => ⟨S1x128, .f32⟩
  | 19 => ⟨S1x1x128, .f32⟩
  | 20 => ⟨S128, .f32⟩
  | 21 => ⟨S1x128, .f32⟩
  | 22 => ⟨S20000x128, .f32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x64, .f32⟩
  | 36 => ⟨S1x64, .f32⟩
  | 37 => ⟨S1x64, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev vmemTy0_0 (i : Nat) : BufTy := match i % 128 with
  | 0 => ⟨S2000x128, .f32⟩
  | 1 => ⟨S2000x128, .f32⟩
  | 2 => ⟨S128x128, .f32⟩
  | 3 => ⟨S1x128, .f32⟩
  | 4 => ⟨S2000x128, .f32⟩
  | 5 => ⟨S2000x128, .f32⟩
  | 6 => ⟨S4000x128, .f32⟩
  | 7 => ⟨S4000x128, .f32⟩
  | 8 => ⟨S128x128, .f32⟩
  | 9 => ⟨S1x128, .f32⟩
  | 10 => ⟨S4000x128, .f32⟩
  | 11 => ⟨S4000x128, .f32⟩
  | 12 => ⟨S2000x128, .f32⟩
  | 13 => ⟨S2000x128, .f32⟩
  | 14 => ⟨S128x512, .f32⟩
  | 15 => ⟨S1x512, .f32⟩
  | 16 => ⟨S2000x512, .f32⟩
  | 17 => ⟨S2000x512, .f32⟩
  | 18 => ⟨S4000x128, .f32⟩
  | 19 => ⟨S4000x128, .f32⟩
  | 20 => ⟨S128x128, .f32⟩
  | 21 => ⟨S1x128, .f32⟩
  | 22 => ⟨S4000x128, .f32⟩
  | 23 => ⟨S4000x128, .f32⟩
  | 24 => ⟨S4000x128, .f32⟩
  | 25 => ⟨S4000x128, .f32⟩
  | 26 => ⟨S4000x128, .f32⟩
  | 27 => ⟨S4000x128, .f32⟩
  | 28 => ⟨S4000x128, .f32⟩
  | 29 => ⟨S4000x128, .f32⟩
  | 30 => ⟨S4000x128, .f32⟩
  | 31 => ⟨S4000x128, .f32⟩
  | 32 => ⟨S4000x128, .f32⟩
  | 33 => ⟨S4000x128, .f32⟩
  | 34 => ⟨S4000x128, .f32⟩
  | 35 => ⟨S4000x128, .f32⟩
  | 36 => ⟨S4000x128, .f32⟩
  | 37 => ⟨S4000x128, .f32⟩
  | 38 => ⟨S1x128, .f32⟩
  | 39 => ⟨S1x128, .f32⟩
  | 40 => ⟨S1x128, .f32⟩
  | 41 => ⟨S1x128, .f32⟩
  | 42 => ⟨S4000x128, .f32⟩
  | 43 => ⟨S4000x128, .f32⟩
  | 44 => ⟨S4000x128, .f32⟩
  | 45 => ⟨S4000x128, .f32⟩
  | 46 => ⟨S1x128, .f32⟩
  | 47 => ⟨S1x128, .f32⟩
  | 48 => ⟨S1x128, .f32⟩
  | 49 => ⟨S1x128, .f32⟩
  | 50 => ⟨S4000x128, .f32⟩
  | 51 => ⟨S4000x128, .f32⟩
  | 52 => ⟨S2000x128, .f32⟩
  | 53 => ⟨S2000x128, .f32⟩
  | 54 => ⟨S1x128, .f32⟩
  | 55 => ⟨S1x128, .f32⟩
  | 56 => ⟨S1x128, .f32⟩
  | 57 => ⟨S1x128, .f32⟩
  | 58 => ⟨S2000x128, .f32⟩
  | 59 => ⟨S2000x128, .f32⟩
  | 60 => ⟨S2000x128, .f32⟩
  | 61 => ⟨S2000x128, .f32⟩
  | 62 => ⟨S1x128, .f32⟩
  | 63 => ⟨S1x128, .f32⟩
  | 64 => ⟨S1x128, .f32⟩
  | 65 => ⟨S1x128, .f32⟩
  | 66 => ⟨S2000x128, .f32⟩
  | 67 => ⟨S2000x128, .f32⟩
  | 68 => ⟨S2000x128, .f32⟩
  | 69 => ⟨S2000x128, .f32⟩
  | 70 => ⟨S128x512, .f32⟩
  | 71 => ⟨S1x512, .f32⟩
  | 72 => ⟨S2000x512, .f32⟩
  | 73 => ⟨S2000x512, .f32⟩
  | 74 => ⟨S4000x128, .f32⟩
  | 75 => ⟨S4000x128, .f32⟩
  | 76 => ⟨S128x128, .f32⟩
  | 77 => ⟨S1x128, .f32⟩
  | 78 => ⟨S4000x128, .f32⟩
  | 79 => ⟨S4000x128, .f32⟩
  | 80 => ⟨S4000x128, .f32⟩
  | 81 => ⟨S4000x128, .f32⟩
  | 82 => ⟨S4000x128, .f32⟩
  | 83 => ⟨S4000x128, .f32⟩
  | 84 => ⟨S4000x128, .f32⟩
  | 85 => ⟨S4000x128, .f32⟩
  | 86 => ⟨S4000x128, .f32⟩
  | 87 => ⟨S4000x128, .f32⟩
  | 88 => ⟨S4000x128, .f32⟩
  | 89 => ⟨S4000x128, .f32⟩
  | 90 => ⟨S4000x128, .f32⟩
  | 91 => ⟨S4000x128, .f32⟩
  | 92 => ⟨S4000x128, .f32⟩
  | 93 => ⟨S4000x128, .f32⟩
  | 94 => ⟨S1x128, .f32⟩
  | 95 => ⟨S1x128, .f32⟩
  | 96 => ⟨S1x128, .f32⟩
  | 97 => ⟨S1x128, .f32⟩
  | 98 => ⟨S4000x128, .f32⟩
  | 99 => ⟨S4000x128, .f32⟩
  | 100 => ⟨S4000x128, .f32⟩
  | 101 => ⟨S4000x128, .f32⟩
  | 102 => ⟨S1x128, .f32⟩
  | 103 => ⟨S1x128, .f32⟩
  | 104 => ⟨S1x128, .f32⟩
  | 105 => ⟨S1x128, .f32⟩
  | 106 => ⟨S4000x128, .f32⟩
  | 107 => ⟨S4000x128, .f32⟩
  | 108 => ⟨S2000x128, .f32⟩
  | 109 => ⟨S2000x128, .f32⟩
  | 110 => ⟨S1x128, .f32⟩
  | 111 => ⟨S1x128, .f32⟩
  | 112 => ⟨S1x128, .f32⟩
  | 113 => ⟨S1x128, .f32⟩
  | 114 => ⟨S2000x128, .f32⟩
  | 115 => ⟨S2000x128, .f32⟩
  | 116 => ⟨S2000x128, .f32⟩
  | 117 => ⟨S2000x128, .f32⟩
  | 118 => ⟨S1x128, .f32⟩
  | 119 => ⟨S1x128, .f32⟩
  | 120 => ⟨S1x128, .f32⟩
  | 121 => ⟨S1x128, .f32⟩
  | 122 => ⟨S2000x128, .f32⟩
  | 123 => ⟨S2000x128, .f32⟩
  | 124 => ⟨S2000x128, .f32⟩
  | 125 => ⟨S2000x128, .f32⟩
  | 126 => ⟨S128x512, .f32⟩
  | 127 => ⟨S1x512, .f32⟩
  | _ => ⟨S20000x128, .f32⟩

abbrev vmemTy0_1 (i : Nat) : BufTy := match i % 128 with
  | 0 => ⟨S2000x512, .f32⟩
  | 1 => ⟨S2000x512, .f32⟩
  | 2 => ⟨S4000x128, .f32⟩
  | 3 => ⟨S4000x128, .f32⟩
  | 4 => ⟨S128x128, .f32⟩
  | 5 => ⟨S1x128, .f32⟩
  | 6 => ⟨S4000x128, .f32⟩
  | 7 => ⟨S4000x128, .f32⟩
  | 8 => ⟨S4000x128, .f32⟩
  | 9 => ⟨S4000x128, .f32⟩
  | 10 => ⟨S4000x128, .f32⟩
  | 11 => ⟨S4000x128, .f32⟩
  | 12 => ⟨S4000x128, .f32⟩
  | 13 => ⟨S4000x128, .f32⟩
  | 14 => ⟨S4000x128, .f32⟩
  | 15 => ⟨S4000x128, .f32⟩
  | 16 => ⟨S4000x128, .f32⟩
  | 17 => ⟨S4000x128, .f32⟩
  | 18 => ⟨S4000x128, .f32⟩
  | 19 => ⟨S4000x128, .f32⟩
  | 20 => ⟨S4000x128, .f32⟩
  | 21 => ⟨S4000x128, .f32⟩
  | 22 => ⟨S1x128, .f32⟩
  | 23 => ⟨S1x128, .f32⟩
  | 24 => ⟨S1x128, .f32⟩
  | 25 => ⟨S1x128, .f32⟩
  | 26 => ⟨S4000x128, .f32⟩
  | 27 => ⟨S4000x128, .f32⟩
  | 28 => ⟨S4000x128, .f32⟩
  | 29 => ⟨S4000x128, .f32⟩
  | 30 => ⟨S1x128, .f32⟩
  | 31 => ⟨S1x128, .f32⟩
  | 32 => ⟨S1x128, .f32⟩
  | 33 => ⟨S1x128, .f32⟩
  | 34 => ⟨S4000x128, .f32⟩
  | 35 => ⟨S4000x128, .f32⟩
  | 36 => ⟨S2000x128, .f32⟩
  | 37 => ⟨S2000x128, .f32⟩
  | 38 => ⟨S1x128, .f32⟩
  | 39 => ⟨S1x128, .f32⟩
  | 40 => ⟨S1x128, .f32⟩
  | 41 => ⟨S1x128, .f32⟩
  | 42 => ⟨S2000x128, .f32⟩
  | 43 => ⟨S2000x128, .f32⟩
  | 44 => ⟨S2000x128, .f32⟩
  | 45 => ⟨S2000x128, .f32⟩
  | 46 => ⟨S1x128, .f32⟩
  | 47 => ⟨S1x128, .f32⟩
  | 48 => ⟨S1x128, .f32⟩
  | 49 => ⟨S1x128, .f32⟩
  | 50 => ⟨S2000x128, .f32⟩
  | 51 => ⟨S2000x128, .f32⟩
  | _ => ⟨S20000x128, .f32⟩

abbrev vmemTy (i : Nat) : BufTy := match i / 128 with
  | 0 => vmemTy0_0 i
  | 1 => vmemTy0_1 i
  | _ => ⟨S20000x128, .f32⟩

abbrev bufTy : (tb : Table) → Fin (tcTables nBuf tb) → BufTy
  | .hbm, ⟨i, _⟩ => hbmTy i
  | .local _ .vmem, ⟨i, _⟩ => vmemTy i
  | _, _ => ⟨S20000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_c : Ref sig .tc := ⟨.hbm, 57, rfl⟩
abbrev main_call0_v0 : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_c_1 : Ref sig .tc := ⟨.hbm, 65, rfl⟩
abbrev main_call0_c_2 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_3 : Ref sig .tc := ⟨.hbm, 73, rfl⟩
abbrev main_call0_v12 : Ref sig .tc := ⟨.hbm, 74, rfl⟩
abbrev main_call0_v13 : Ref sig .tc := ⟨.hbm, 75, rfl⟩
abbrev main_call0_v14 : Ref sig .tc := ⟨.hbm, 76, rfl⟩
abbrev main_call0_cst : Ref sig .tc := ⟨.hbm, 77, rfl⟩
abbrev main_call0_v15 : Ref sig .tc := ⟨.hbm, 78, rfl⟩
abbrev main_v42 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v43 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v44 : Ref sig .tc := ⟨.hbm, 125, rfl⟩
abbrev main_v45_0 : Ref sig .tc := ⟨.hbm, 126, rfl⟩
abbrev main_v45_1 : Ref sig .tc := ⟨.hbm, 127, rfl⟩
abbrev main_v46_0 : Ref sig .tc := ⟨.hbm, 128, rfl⟩
abbrev main_v46_1 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_cst : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58_0 : Ref sig .tc := ⟨.hbm, 142, rfl⟩
abbrev main_v58_1 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_call3_c : Ref sig .tc := ⟨.hbm, 185, rfl⟩
abbrev main_call3_v0 : Ref sig .tc := ⟨.hbm, 186, rfl⟩
abbrev main_call3_v1 : Ref sig .tc := ⟨.hbm, 187, rfl⟩
abbrev main_call3_c_0 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_v5 : Ref sig .tc := ⟨.hbm, 192, rfl⟩
abbrev main_call3_c_1 : Ref sig .tc := ⟨.hbm, 193, rfl⟩
abbrev main_call3_c_2 : Ref sig .tc := ⟨.hbm, 194, rfl⟩
abbrev main_call3_v6 : Ref sig .tc := ⟨.hbm, 195, rfl⟩
abbrev main_call3_v7 : Ref sig .tc := ⟨.hbm, 196, rfl⟩
abbrev main_call3_v8 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_c_3 : Ref sig .tc := ⟨.hbm, 201, rfl⟩
abbrev main_call3_v12 : Ref sig .tc := ⟨.hbm, 202, rfl⟩
abbrev main_call3_v13 : Ref sig .tc := ⟨.hbm, 203, rfl⟩
abbrev main_call3_v14 : Ref sig .tc := ⟨.hbm, 204, rfl⟩
abbrev main_call3_cst : Ref sig .tc := ⟨.hbm, 205, rfl⟩
abbrev main_call3_v15 : Ref sig .tc := ⟨.hbm, 206, rfl⟩
abbrev main_v100 : Ref sig .tc := ⟨.hbm, 207, rfl⟩
abbrev main_call4_c : Ref sig .tc := ⟨.hbm, 208, rfl⟩
abbrev main_call4_v0 : Ref sig .tc := ⟨.hbm, 209, rfl⟩
abbrev main_call4_v1 : Ref sig .tc := ⟨.hbm, 210, rfl⟩
abbrev main_call4_c_0 : Ref sig .tc := ⟨.hbm, 211, rfl⟩
abbrev main_call4_v2 : Ref sig .tc := ⟨.hbm, 212, rfl⟩
abbrev main_call4_v3 : Ref sig .tc := ⟨.hbm, 213, rfl⟩
abbrev main_call4_v4 : Ref sig .tc := ⟨.hbm, 214, rfl⟩
abbrev main_call4_v5 : Ref sig .tc := ⟨.hbm, 215, rfl⟩
abbrev main_call4_c_1 : Ref sig .tc := ⟨.hbm, 216, rfl⟩
abbrev main_call4_c_2 : Ref sig .tc := ⟨.hbm, 217, rfl⟩
abbrev main_call4_v6 : Ref sig .tc := ⟨.hbm, 218, rfl⟩
abbrev main_call4_v7 : Ref sig .tc := ⟨.hbm, 219, rfl⟩
abbrev main_call4_v8 : Ref sig .tc := ⟨.hbm, 220, rfl⟩
abbrev main_call4_v9 : Ref sig .tc := ⟨.hbm, 221, rfl⟩
abbrev main_call4_v10 : Ref sig .tc := ⟨.hbm, 222, rfl⟩
abbrev main_call4_v11 : Ref sig .tc := ⟨.hbm, 223, rfl⟩
abbrev main_call4_c_3 : Ref sig .tc := ⟨.hbm, 224, rfl⟩
abbrev main_call4_v12 : Ref sig .tc := ⟨.hbm, 225, rfl⟩
abbrev main_call4_v13 : Ref sig .tc := ⟨.hbm, 226, rfl⟩
abbrev main_call4_v14 : Ref sig .tc := ⟨.hbm, 227, rfl⟩
abbrev main_call4_cst : Ref sig .tc := ⟨.hbm, 228, rfl⟩
abbrev main_call4_v15 : Ref sig .tc := ⟨.hbm, 229, rfl⟩
abbrev main_v101 : Ref sig .tc := ⟨.hbm, 230, rfl⟩
abbrev main_call5_c : Ref sig .tc := ⟨.hbm, 231, rfl⟩
abbrev main_call5_v0 : Ref sig .tc := ⟨.hbm, 232, rfl⟩
abbrev main_call5_v1 : Ref sig .tc := ⟨.hbm, 233, rfl⟩
abbrev main_call5_c_0 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_c_1 : Ref sig .tc := ⟨.hbm, 239, rfl⟩
abbrev main_call5_c_2 : Ref sig .tc := ⟨.hbm, 240, rfl⟩
abbrev main_call5_v6 : Ref sig .tc := ⟨.hbm, 241, rfl⟩
abbrev main_call5_v7 : Ref sig .tc := ⟨.hbm, 242, rfl⟩
abbrev main_call5_v8 : Ref sig .tc := ⟨.hbm, 243, rfl⟩
abbrev main_call5_v9 : Ref sig .tc := ⟨.hbm, 244, rfl⟩
abbrev main_call5_v10 : Ref sig .tc := ⟨.hbm, 245, rfl⟩
abbrev main_call5_v11 : Ref sig .tc := ⟨.hbm, 246, rfl⟩
abbrev main_call5_c_3 : Ref sig .tc := ⟨.hbm, 247, rfl⟩
abbrev main_call5_v12 : Ref sig .tc := ⟨.hbm, 248, rfl⟩
abbrev main_call5_v13 : Ref sig .tc := ⟨.hbm, 249, rfl⟩
abbrev main_call5_v14 : Ref sig .tc := ⟨.hbm, 250, rfl⟩
abbrev main_call5_cst : Ref sig .tc := ⟨.hbm, 251, rfl⟩
abbrev main_call5_v15 : Ref sig .tc := ⟨.hbm, 252, rfl⟩
abbrev main_v102 : Ref sig .tc := ⟨.hbm, 253, rfl⟩
abbrev main_v103_0 : Ref sig .tc := ⟨.hbm, 254, rfl⟩
abbrev main_v103_1 : Ref sig .tc := ⟨.hbm, 255, rfl⟩
abbrev main_v104_0 : Ref sig .tc := ⟨.hbm, 256, rfl⟩
abbrev main_v104_1 : Ref sig .tc := ⟨.hbm, 257, rfl⟩
abbrev main_v105 : Ref sig .tc := ⟨.hbm, 258, rfl⟩
abbrev main_v106 : Ref sig .tc := ⟨.hbm, 259, rfl⟩
abbrev main_v107 : Ref sig .tc := ⟨.hbm, 260, rfl⟩
abbrev main_v108 : Ref sig .tc := ⟨.hbm, 261, rfl⟩
abbrev main_v109 : Ref sig .tc := ⟨.hbm, 262, rfl⟩
abbrev main_v110 : Ref sig .tc := ⟨.hbm, 263, rfl⟩
abbrev main_v111 : Ref sig .tc := ⟨.hbm, 264, rfl⟩
abbrev main_cst_0 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_v116_0 : Ref sig .tc := ⟨.hbm, 270, rfl⟩
abbrev main_v116_1 : Ref sig .tc := ⟨.hbm, 271, rfl⟩
abbrev main_v117 : Ref sig .tc := ⟨.hbm, 272, rfl⟩
abbrev main_v118 : Ref sig .tc := ⟨.hbm, 273, rfl⟩
abbrev main_v119 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_v125 : Ref sig .tc := ⟨.hbm, 280, rfl⟩
abbrev main_v126 : Ref sig .tc := ⟨.hbm, 281, rfl⟩
abbrev main_v127 : Ref sig .tc := ⟨.hbm, 282, rfl⟩
abbrev main_v128 : Ref sig .tc := ⟨.hbm, 283, rfl⟩
abbrev main_v129 : Ref sig .tc := ⟨.hbm, 284, rfl⟩
abbrev main_v130 : Ref sig .tc := ⟨.hbm, 285, rfl⟩
abbrev main_v131 : Ref sig .tc := ⟨.hbm, 286, rfl⟩
abbrev main_v132 : Ref sig .tc := ⟨.hbm, 287, rfl⟩
abbrev main_v133 : Ref sig .tc := ⟨.hbm, 288, rfl⟩
abbrev main_v134 : Ref sig .tc := ⟨.hbm, 289, rfl⟩
abbrev main_v135 : Ref sig .tc := ⟨.hbm, 290, rfl⟩
abbrev main_v136 : Ref sig .tc := ⟨.hbm, 291, rfl⟩
abbrev main_v137 : Ref sig .tc := ⟨.hbm, 292, rfl⟩
abbrev main_v138 : Ref sig .tc := ⟨.hbm, 293, rfl⟩
abbrev main_v139 : Ref sig .tc := ⟨.hbm, 294, rfl⟩
abbrev main_v140 : Ref sig .tc := ⟨.hbm, 295, rfl⟩
abbrev main_v141 : Ref sig .tc := ⟨.hbm, 296, rfl⟩
abbrev main_v142 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_v148 : Ref sig .tc := ⟨.hbm, 303, rfl⟩
abbrev main_v149 : Ref sig .tc := ⟨.hbm, 304, rfl⟩
abbrev main_v150 : Ref sig .tc := ⟨.hbm, 305, rfl⟩
abbrev main_v151 : Ref sig .tc := ⟨.hbm, 306, rfl⟩
abbrev main_v152 : Ref sig .tc := ⟨.hbm, 307, rfl⟩
abbrev main_v153 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_v157 : Ref sig .tc := ⟨.hbm, 312, rfl⟩
abbrev main_call6_c : Ref sig .tc := ⟨.hbm, 313, rfl⟩
abbrev main_call6_v0 : Ref sig .tc := ⟨.hbm, 314, rfl⟩
abbrev main_call6_v1 : Ref sig .tc := ⟨.hbm, 315, rfl⟩
abbrev main_call6_c_0 : Ref sig .tc := ⟨.hbm, 316, rfl⟩
abbrev main_call6_v2 : Ref sig .tc := ⟨.hbm, 317, rfl⟩
abbrev main_call6_v3 : Ref sig .tc := ⟨.hbm, 318, rfl⟩
abbrev main_call6_v4 : Ref sig .tc := ⟨.hbm, 319, rfl⟩
abbrev main_call6_v5 : Ref sig .tc := ⟨.hbm, 320, rfl⟩
abbrev main_call6_c_1 : Ref sig .tc := ⟨.hbm, 321, rfl⟩
abbrev main_call6_c_2 : Ref sig .tc := ⟨.hbm, 322, rfl⟩
abbrev main_call6_v6 : Ref sig .tc := ⟨.hbm, 323, rfl⟩
abbrev main_call6_v7 : Ref sig .tc := ⟨.hbm, 324, rfl⟩
abbrev main_call6_v8 : Ref sig .tc := ⟨.hbm, 325, rfl⟩
abbrev main_call6_v9 : Ref sig .tc := ⟨.hbm, 326, rfl⟩
abbrev main_call6_v10 : Ref sig .tc := ⟨.hbm, 327, rfl⟩
abbrev main_call6_v11 : Ref sig .tc := ⟨.hbm, 328, rfl⟩
abbrev main_call6_c_3 : Ref sig .tc := ⟨.hbm, 329, rfl⟩
abbrev main_call6_v12 : Ref sig .tc := ⟨.hbm, 330, rfl⟩
abbrev main_call6_v13 : Ref sig .tc := ⟨.hbm, 331, rfl⟩
abbrev main_call6_v14 : Ref sig .tc := ⟨.hbm, 332, rfl⟩
abbrev main_call6_cst : Ref sig .tc := ⟨.hbm, 333, rfl⟩
abbrev main_call6_v15 : Ref sig .tc := ⟨.hbm, 334, rfl⟩
abbrev main_v158 : Ref sig .tc := ⟨.hbm, 335, rfl⟩
abbrev main_call7_c : Ref sig .tc := ⟨.hbm, 336, rfl⟩
abbrev main_call7_v0 : Ref sig .tc := ⟨.hbm, 337, rfl⟩
abbrev main_call7_v1 : Ref sig .tc := ⟨.hbm, 338, rfl⟩
abbrev main_call7_c_0 : Ref sig .tc := ⟨.hbm, 339, rfl⟩
abbrev main_call7_v2 : Ref sig .tc := ⟨.hbm, 340, rfl⟩
abbrev main_call7_v3 : Ref sig .tc := ⟨.hbm, 341, rfl⟩
abbrev main_call7_v4 : Ref sig .tc := ⟨.hbm, 342, rfl⟩
abbrev main_call7_v5 : Ref sig .tc := ⟨.hbm, 343, rfl⟩
abbrev main_call7_c_1 : Ref sig .tc := ⟨.hbm, 344, rfl⟩
abbrev main_call7_c_2 : Ref sig .tc := ⟨.hbm, 345, rfl⟩
abbrev main_call7_v6 : Ref sig .tc := ⟨.hbm, 346, rfl⟩
abbrev main_call7_v7 : Ref sig .tc := ⟨.hbm, 347, rfl⟩
abbrev main_call7_v8 : Ref sig .tc := ⟨.hbm, 348, rfl⟩
abbrev main_call7_v9 : Ref sig .tc := ⟨.hbm, 349, rfl⟩
abbrev main_call7_v10 : Ref sig .tc := ⟨.hbm, 350, rfl⟩
abbrev main_call7_v11 : Ref sig .tc := ⟨.hbm, 351, rfl⟩
abbrev main_call7_c_3 : Ref sig .tc := ⟨.hbm, 352, rfl⟩
abbrev main_call7_v12 : Ref sig .tc := ⟨.hbm, 353, rfl⟩
abbrev main_call7_v13 : Ref sig .tc := ⟨.hbm, 354, rfl⟩
abbrev main_call7_v14 : Ref sig .tc := ⟨.hbm, 355, rfl⟩
abbrev main_call7_cst : Ref sig .tc := ⟨.hbm, 356, rfl⟩
abbrev main_call7_v15 : Ref sig .tc := ⟨.hbm, 357, rfl⟩
abbrev main_v159 : Ref sig .tc := ⟨.hbm, 358, rfl⟩
abbrev main_call8_c : Ref sig .tc := ⟨.hbm, 359, rfl⟩
abbrev main_call8_v0 : Ref sig .tc := ⟨.hbm, 360, rfl⟩
abbrev main_call8_v1 : Ref sig .tc := ⟨.hbm, 361, rfl⟩
abbrev main_call8_c_0 : Ref sig .tc := ⟨.hbm, 362, rfl⟩
abbrev main_call8_v2 : Ref sig .tc := ⟨.hbm, 363, rfl⟩
abbrev main_call8_v3 : Ref sig .tc := ⟨.hbm, 364, rfl⟩
abbrev main_call8_v4 : Ref sig .tc := ⟨.hbm, 365, rfl⟩
abbrev main_call8_v5 : Ref sig .tc := ⟨.hbm, 366, rfl⟩
abbrev main_call8_c_1 : Ref sig .tc := ⟨.hbm, 367, rfl⟩
abbrev main_call8_c_2 : Ref sig .tc := ⟨.hbm, 368, rfl⟩
abbrev main_call8_v6 : Ref sig .tc := ⟨.hbm, 369, rfl⟩
abbrev main_call8_v7 : Ref sig .tc := ⟨.hbm, 370, rfl⟩
abbrev main_call8_v8 : Ref sig .tc := ⟨.hbm, 371, rfl⟩
abbrev main_call8_v9 : Ref sig .tc := ⟨.hbm, 372, rfl⟩
abbrev main_call8_v10 : Ref sig .tc := ⟨.hbm, 373, rfl⟩
abbrev main_call8_v11 : Ref sig .tc := ⟨.hbm, 374, rfl⟩
abbrev main_call8_c_3 : Ref sig .tc := ⟨.hbm, 375, rfl⟩
abbrev main_call8_v12 : Ref sig .tc := ⟨.hbm, 376, rfl⟩
abbrev main_call8_v13 : Ref sig .tc := ⟨.hbm, 377, rfl⟩
abbrev main_call8_v14 : Ref sig .tc := ⟨.hbm, 378, rfl⟩
abbrev main_call8_cst : Ref sig .tc := ⟨.hbm, 379, rfl⟩
abbrev main_call8_v15 : Ref sig .tc := ⟨.hbm, 380, rfl⟩
abbrev main_v160 : Ref sig .tc := ⟨.hbm, 381, rfl⟩
abbrev main_v161_0 : Ref sig .tc := ⟨.hbm, 382, rfl⟩
abbrev main_v161_1 : Ref sig .tc := ⟨.hbm, 383, rfl⟩
abbrev main_v162_0 : Ref sig .tc := ⟨.hbm, 384, rfl⟩
abbrev main_v162_1 : Ref sig .tc := ⟨.hbm, 385, rfl⟩
abbrev main_v163 : Ref sig .tc := ⟨.hbm, 386, rfl⟩
abbrev main_v164 : Ref sig .tc := ⟨.hbm, 387, rfl⟩
abbrev main_v165 : Ref sig .tc := ⟨.hbm, 388, rfl⟩
abbrev main_v166 : Ref sig .tc := ⟨.hbm, 389, rfl⟩
abbrev main_v167 : Ref sig .tc := ⟨.hbm, 390, rfl⟩
abbrev main_v168 : Ref sig .tc := ⟨.hbm, 391, rfl⟩
abbrev main_v169 : Ref sig .tc := ⟨.hbm, 392, rfl⟩
abbrev main_cst_1 : Ref sig .tc := ⟨.hbm, 393, rfl⟩
abbrev main_v170 : Ref sig .tc := ⟨.hbm, 394, rfl⟩
abbrev main_v171 : Ref sig .tc := ⟨.hbm, 395, rfl⟩
abbrev main_v172 : Ref sig .tc := ⟨.hbm, 396, rfl⟩
abbrev main_v173 : Ref sig .tc := ⟨.hbm, 397, rfl⟩
abbrev main_v174_0 : Ref sig .tc := ⟨.hbm, 398, rfl⟩
abbrev main_v174_1 : Ref sig .tc := ⟨.hbm, 399, rfl⟩
abbrev main_v175 : Ref sig .tc := ⟨.hbm, 400, rfl⟩
abbrev main_v176 : Ref sig .tc := ⟨.hbm, 401, rfl⟩
abbrev main_v177 : Ref sig .tc := ⟨.hbm, 402, rfl⟩
abbrev main_v178 : Ref sig .tc := ⟨.hbm, 403, rfl⟩
abbrev main_v179 : Ref sig .tc := ⟨.hbm, 404, rfl⟩
abbrev main_v180 : Ref sig .tc := ⟨.hbm, 405, rfl⟩
abbrev main_v181 : Ref sig .tc := ⟨.hbm, 406, rfl⟩
abbrev main_cst_2 : Ref sig .tc := ⟨.hbm, 407, rfl⟩
abbrev main_v182 : Ref sig .tc := ⟨.hbm, 408, rfl⟩
abbrev main_v183 : Ref sig .tc := ⟨.hbm, 409, rfl⟩
abbrev main_cst_3 : Ref sig .tc := ⟨.hbm, 410, rfl⟩
abbrev main_v184 : Ref sig .tc := ⟨.hbm, 411, rfl⟩
abbrev main_v185 : Ref sig .tc := ⟨.hbm, 412, rfl⟩
abbrev main_v186 : Ref sig .tc := ⟨.hbm, 413, rfl⟩
abbrev main_v187 : Ref sig .tc := ⟨.hbm, 414, rfl⟩
abbrev main_v188 : Ref sig .tc := ⟨.hbm, 415, rfl⟩
abbrev main_call9_cst : Ref sig .tc := ⟨.hbm, 416, rfl⟩
abbrev main_call9_v0 : Ref sig .tc := ⟨.hbm, 417, rfl⟩
abbrev main_v189 : Ref sig .tc := ⟨.hbm, 418, rfl⟩
abbrev main_v190 : Ref sig .tc := ⟨.hbm, 419, rfl⟩
abbrev main_v191 : Ref sig .tc := ⟨.hbm, 420, rfl⟩
abbrev main_v192 : Ref sig .tc := ⟨.hbm, 421, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_scratch0 : Ref sig .tc := ⟨.vmem, 40, rfl⟩
abbrev cc5_scratch1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_scratch0 : Ref sig .tc := ⟨.vmem, 56, rfl⟩
abbrev cc7_scratch1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg5_0 : Ref sig .tc := ⟨.vmem, 65, rfl⟩
abbrev cc8_stg6_0 : Ref sig .tc := ⟨.vmem, 66, rfl⟩
abbrev cc8_stg6_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg3_1 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg2_0 : Ref sig .tc := ⟨.vmem, 77, rfl⟩
abbrev cc10_stg3_0 : Ref sig .tc := ⟨.vmem, 78, rfl⟩
abbrev cc10_stg3_1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_stg2_1 : Ref sig .tc := ⟨.vmem, 85, rfl⟩
abbrev cc11_stg3_0 : Ref sig .tc := ⟨.vmem, 86, rfl⟩
abbrev cc11_stg3_1 : Ref sig .tc := ⟨.vmem, 87, rfl⟩
abbrev cc11_stg4_0 : Ref sig .tc := ⟨.vmem, 88, rfl⟩
abbrev cc11_stg4_1 : Ref sig .tc := ⟨.vmem, 89, rfl⟩
abbrev cc11_stg5_0 : Ref sig .tc := ⟨.vmem, 90, rfl⟩
abbrev cc11_stg5_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg2_0 : Ref sig .tc := ⟨.vmem, 95, rfl⟩
abbrev cc12_scratch0 : Ref sig .tc := ⟨.vmem, 96, rfl⟩
abbrev cc12_scratch1 : Ref sig .tc := ⟨.vmem, 97, rfl⟩
abbrev cc13_stg0_0 : Ref sig .tc := ⟨.vmem, 98, rfl⟩
abbrev cc13_stg0_1 : Ref sig .tc := ⟨.vmem, 99, rfl⟩
abbrev cc13_stg1_0 : Ref sig .tc := ⟨.vmem, 100, rfl⟩
abbrev cc13_stg1_1 : Ref sig .tc := ⟨.vmem, 101, rfl⟩
abbrev cc13_stg2_0 : Ref sig .tc := ⟨.vmem, 102, rfl⟩
abbrev cc13_stg3_0 : Ref sig .tc := ⟨.vmem, 103, rfl⟩
abbrev cc13_stg4_0 : Ref sig .tc := ⟨.vmem, 104, rfl⟩
abbrev cc13_stg5_0 : Ref sig .tc := ⟨.vmem, 105, rfl⟩
abbrev cc13_stg6_0 : Ref sig .tc := ⟨.vmem, 106, rfl⟩
abbrev cc13_stg6_1 : Ref sig .tc := ⟨.vmem, 107, rfl⟩
abbrev cc14_stg0_0 : Ref sig .tc := ⟨.vmem, 108, rfl⟩
abbrev cc14_stg0_1 : Ref sig .tc := ⟨.vmem, 109, rfl⟩
abbrev cc14_stg1_0 : Ref sig .tc := ⟨.vmem, 110, rfl⟩
abbrev cc14_stg2_0 : Ref sig .tc := ⟨.vmem, 111, rfl⟩
abbrev cc14_scratch0 : Ref sig .tc := ⟨.vmem, 112, rfl⟩
abbrev cc14_scratch1 : Ref sig .tc := ⟨.vmem, 113, rfl⟩
abbrev cc15_stg0_0 : Ref sig .tc := ⟨.vmem, 114, rfl⟩
abbrev cc15_stg0_1 : Ref sig .tc := ⟨.vmem, 115, rfl⟩
abbrev cc15_stg1_0 : Ref sig .tc := ⟨.vmem, 116, rfl⟩
abbrev cc15_stg1_1 : Ref sig .tc := ⟨.vmem, 117, rfl⟩
abbrev cc15_stg2_0 : Ref sig .tc := ⟨.vmem, 118, rfl⟩
abbrev cc15_stg3_0 : Ref sig .tc := ⟨.vmem, 119, rfl⟩
abbrev cc15_stg4_0 : Ref sig .tc := ⟨.vmem, 120, rfl⟩
abbrev cc15_stg5_0 : Ref sig .tc := ⟨.vmem, 121, rfl⟩
abbrev cc15_stg6_0 : Ref sig .tc := ⟨.vmem, 122, rfl⟩
abbrev cc15_stg6_1 : Ref sig .tc := ⟨.vmem, 123, rfl⟩
abbrev cc16_stg0_0 : Ref sig .tc := ⟨.vmem, 124, rfl⟩
abbrev cc16_stg0_1 : Ref sig .tc := ⟨.vmem, 125, rfl⟩
abbrev cc16_stg1_0 : Ref sig .tc := ⟨.vmem, 126, rfl⟩
abbrev cc16_stg2_0 : Ref sig .tc := ⟨.vmem, 127, rfl⟩
abbrev cc16_stg3_0 : Ref sig .tc := ⟨.vmem, 128, rfl⟩
abbrev cc16_stg3_1 : Ref sig .tc := ⟨.vmem, 129, rfl⟩
abbrev cc17_stg0_0 : Ref sig .tc := ⟨.vmem, 130, rfl⟩
abbrev cc17_stg0_1 : Ref sig .tc := ⟨.vmem, 131, rfl⟩
abbrev cc17_stg1_0 : Ref sig .tc := ⟨.vmem, 132, rfl⟩
abbrev cc17_stg2_0 : Ref sig .tc := ⟨.vmem, 133, rfl⟩
abbrev cc17_stg3_0 : Ref sig .tc := ⟨.vmem, 134, rfl⟩
abbrev cc17_stg3_1 : Ref sig .tc := ⟨.vmem, 135, rfl⟩
abbrev cc18_stg0_0 : Ref sig .tc := ⟨.vmem, 136, rfl⟩
abbrev cc18_stg0_1 : Ref sig .tc := ⟨.vmem, 137, rfl⟩
abbrev cc18_stg1_0 : Ref sig .tc := ⟨.vmem, 138, rfl⟩
abbrev cc18_stg1_1 : Ref sig .tc := ⟨.vmem, 139, rfl⟩
abbrev cc18_stg2_0 : Ref sig .tc := ⟨.vmem, 140, rfl⟩
abbrev cc18_stg2_1 : Ref sig .tc := ⟨.vmem, 141, rfl⟩
abbrev cc18_stg3_0 : Ref sig .tc := ⟨.vmem, 142, rfl⟩
abbrev cc18_stg3_1 : Ref sig .tc := ⟨.vmem, 143, rfl⟩
abbrev cc18_stg4_0 : Ref sig .tc := ⟨.vmem, 144, rfl⟩
abbrev cc18_stg4_1 : Ref sig .tc := ⟨.vmem, 145, rfl⟩
abbrev cc18_stg5_0 : Ref sig .tc := ⟨.vmem, 146, rfl⟩
abbrev cc18_stg5_1 : Ref sig .tc := ⟨.vmem, 147, rfl⟩
abbrev cc19_stg0_0 : Ref sig .tc := ⟨.vmem, 148, rfl⟩
abbrev cc19_stg0_1 : Ref sig .tc := ⟨.vmem, 149, rfl⟩
abbrev cc19_stg1_0 : Ref sig .tc := ⟨.vmem, 150, rfl⟩
abbrev cc19_stg2_0 : Ref sig .tc := ⟨.vmem, 151, rfl⟩
abbrev cc19_scratch0 : Ref sig .tc := ⟨.vmem, 152, rfl⟩
abbrev cc19_scratch1 : Ref sig .tc := ⟨.vmem, 153, rfl⟩
abbrev cc20_stg0_0 : Ref sig .tc := ⟨.vmem, 154, rfl⟩
abbrev cc20_stg0_1 : Ref sig .tc := ⟨.vmem, 155, rfl⟩
abbrev cc20_stg1_0 : Ref sig .tc := ⟨.vmem, 156, rfl⟩
abbrev cc20_stg1_1 : Ref sig .tc := ⟨.vmem, 157, rfl⟩
abbrev cc20_stg2_0 : Ref sig .tc := ⟨.vmem, 158, rfl⟩
abbrev cc20_stg3_0 : Ref sig .tc := ⟨.vmem, 159, rfl⟩
abbrev cc20_stg4_0 : Ref sig .tc := ⟨.vmem, 160, rfl⟩
abbrev cc20_stg5_0 : Ref sig .tc := ⟨.vmem, 161, rfl⟩
abbrev cc20_stg6_0 : Ref sig .tc := ⟨.vmem, 162, rfl⟩
abbrev cc20_stg6_1 : Ref sig .tc := ⟨.vmem, 163, rfl⟩
abbrev cc21_stg0_0 : Ref sig .tc := ⟨.vmem, 164, rfl⟩
abbrev cc21_stg0_1 : Ref sig .tc := ⟨.vmem, 165, rfl⟩
abbrev cc21_stg1_0 : Ref sig .tc := ⟨.vmem, 166, rfl⟩
abbrev cc21_stg2_0 : Ref sig .tc := ⟨.vmem, 167, rfl⟩
abbrev cc21_scratch0 : Ref sig .tc := ⟨.vmem, 168, rfl⟩
abbrev cc21_scratch1 : Ref sig .tc := ⟨.vmem, 169, rfl⟩
abbrev cc22_stg0_0 : Ref sig .tc := ⟨.vmem, 170, rfl⟩
abbrev cc22_stg0_1 : Ref sig .tc := ⟨.vmem, 171, rfl⟩
abbrev cc22_stg1_0 : Ref sig .tc := ⟨.vmem, 172, rfl⟩
abbrev cc22_stg1_1 : Ref sig .tc := ⟨.vmem, 173, rfl⟩
abbrev cc22_stg2_0 : Ref sig .tc := ⟨.vmem, 174, rfl⟩
abbrev cc22_stg3_0 : Ref sig .tc := ⟨.vmem, 175, rfl⟩
abbrev cc22_stg4_0 : Ref sig .tc := ⟨.vmem, 176, rfl⟩
abbrev cc22_stg5_0 : Ref sig .tc := ⟨.vmem, 177, rfl⟩
abbrev cc22_stg6_0 : Ref sig .tc := ⟨.vmem, 178, rfl⟩
abbrev cc22_stg6_1 : Ref sig .tc := ⟨.vmem, 179, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem6_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc8_sem4_0 : DmaSem sig := 60
abbrev cc8_sem5_0 : DmaSem sig := 61
abbrev cc8_sem6_0 : DmaSem sig := 62
abbrev cc8_sem6_1 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem3_0 : DmaSem sig := 74
abbrev cc10_sem3_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc11_sem2_0 : DmaSem sig := 80
abbrev cc11_sem2_1 : DmaSem sig := 81
abbrev cc11_sem3_0 : DmaSem sig := 82
abbrev cc11_sem3_1 : DmaSem sig := 83
abbrev cc11_sem4_0 : DmaSem sig := 84
abbrev cc11_sem4_1 : DmaSem sig := 85
abbrev cc11_sem5_0 : DmaSem sig := 86
abbrev cc11_sem5_1 : DmaSem sig := 87
abbrev cc12_sem0_0 : DmaSem sig := 88
abbrev cc12_sem0_1 : DmaSem sig := 89
abbrev cc12_sem1_0 : DmaSem sig := 90
abbrev cc12_sem2_0 : DmaSem sig := 91
abbrev cc13_sem0_0 : DmaSem sig := 92
abbrev cc13_sem0_1 : DmaSem sig := 93
abbrev cc13_sem1_0 : DmaSem sig := 94
abbrev cc13_sem1_1 : DmaSem sig := 95
abbrev cc13_sem2_0 : DmaSem sig := 96
abbrev cc13_sem3_0 : DmaSem sig := 97
abbrev cc13_sem4_0 : DmaSem sig := 98
abbrev cc13_sem5_0 : DmaSem sig := 99
abbrev cc13_sem6_0 : DmaSem sig := 100
abbrev cc13_sem6_1 : DmaSem sig := 101
abbrev cc14_sem0_0 : DmaSem sig := 102
abbrev cc14_sem0_1 : DmaSem sig := 103
abbrev cc14_sem1_0 : DmaSem sig := 104
abbrev cc14_sem2_0 : DmaSem sig := 105
abbrev cc15_sem0_0 : DmaSem sig := 106
abbrev cc15_sem0_1 : DmaSem sig := 107
abbrev cc15_sem1_0 : DmaSem sig := 108
abbrev cc15_sem1_1 : DmaSem sig := 109
abbrev cc15_sem2_0 : DmaSem sig := 110
abbrev cc15_sem3_0 : DmaSem sig := 111
abbrev cc15_sem4_0 : DmaSem sig := 112
abbrev cc15_sem5_0 : DmaSem sig := 113
abbrev cc15_sem6_0 : DmaSem sig := 114
abbrev cc15_sem6_1 : DmaSem sig := 115
abbrev cc16_sem0_0 : DmaSem sig := 116
abbrev cc16_sem0_1 : DmaSem sig := 117
abbrev cc16_sem1_0 : DmaSem sig := 118
abbrev cc16_sem2_0 : DmaSem sig := 119
abbrev cc16_sem3_0 : DmaSem sig := 120
abbrev cc16_sem3_1 : DmaSem sig := 121
abbrev cc17_sem0_0 : DmaSem sig := 122
abbrev cc17_sem0_1 : DmaSem sig := 123
abbrev cc17_sem1_0 : DmaSem sig := 124
abbrev cc17_sem2_0 : DmaSem sig := 125
abbrev cc17_sem3_0 : DmaSem sig := 126
abbrev cc17_sem3_1 : DmaSem sig := 127
abbrev cc18_sem0_0 : DmaSem sig := 128
abbrev cc18_sem0_1 : DmaSem sig := 129
abbrev cc18_sem1_0 : DmaSem sig := 130
abbrev cc18_sem1_1 : DmaSem sig := 131
abbrev cc18_sem2_0 : DmaSem sig := 132
abbrev cc18_sem2_1 : DmaSem sig := 133
abbrev cc18_sem3_0 : DmaSem sig := 134
abbrev cc18_sem3_1 : DmaSem sig := 135
abbrev cc18_sem4_0 : DmaSem sig := 136
abbrev cc18_sem4_1 : DmaSem sig := 137
abbrev cc18_sem5_0 : DmaSem sig := 138
abbrev cc18_sem5_1 : DmaSem sig := 139
abbrev cc19_sem0_0 : DmaSem sig := 140
abbrev cc19_sem0_1 : DmaSem sig := 141
abbrev cc19_sem1_0 : DmaSem sig := 142
abbrev cc19_sem2_0 : DmaSem sig := 143
abbrev cc20_sem0_0 : DmaSem sig := 144
abbrev cc20_sem0_1 : DmaSem sig := 145
abbrev cc20_sem1_0 : DmaSem sig := 146
abbrev cc20_sem1_1 : DmaSem sig := 147
abbrev cc20_sem2_0 : DmaSem sig := 148
abbrev cc20_sem3_0 : DmaSem sig := 149
abbrev cc20_sem4_0 : DmaSem sig := 150
abbrev cc20_sem5_0 : DmaSem sig := 151
abbrev cc20_sem6_0 : DmaSem sig := 152
abbrev cc20_sem6_1 : DmaSem sig := 153
abbrev cc21_sem0_0 : DmaSem sig := 154
abbrev cc21_sem0_1 : DmaSem sig := 155
abbrev cc21_sem1_0 : DmaSem sig := 156
abbrev cc21_sem2_0 : DmaSem sig := 157
abbrev cc22_sem0_0 : DmaSem sig := 158
abbrev cc22_sem0_1 : DmaSem sig := 159
abbrev cc22_sem1_0 : DmaSem sig := 160
abbrev cc22_sem1_1 : DmaSem sig := 161
abbrev cc22_sem2_0 : DmaSem sig := 162
abbrev cc22_sem3_0 : DmaSem sig := 163
abbrev cc22_sem4_0 : DmaSem sig := 164
abbrev cc22_sem5_0 : DmaSem sig := 165
abbrev cc22_sem6_0 : DmaSem sig := 166
abbrev cc22_sem6_1 : DmaSem sig := 167

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![80], ![false]⟩

def k5_cond2 (i : grid5.Coords) : BitVec 1 :=
  let arg0 : BitVec 32 := BitVec.ofNat 32 (i 0).val
  let c79_i32 : BitVec 32 := 79#32
  let v20 : BitVec 1 := Scalar.cmpi .eq arg0 c79_i32
  let v21 : BitVec 32 := Scalar.extui v20
  let c0_i32_11 : BitVec 32 := 0#32
  let v22 : BitVec 1 := Scalar.cmpi .ne v21 c0_i32_11
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![80], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![80], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S4000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S4000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S4000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![80], ![false]⟩

def k12_cond2 (i : grid12.Coords) : BitVec 1 :=
  let arg0 : BitVec 32 := BitVec.ofNat 32 (i 0).val
  let c79_i32 : BitVec 32 := 79#32
  let v20 : BitVec 1 := Scalar.cmpi .eq arg0 c79_i32
  let v21 : BitVec 32 := Scalar.extui v20
  let c0_i32_11 : BitVec 32 := 0#32
  let v22 : BitVec 1 := Scalar.cmpi .ne v21 c0_i32_11
  v22

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S4000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![80], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S4000x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def k14_cond2 (i : grid14.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 2 → Memref sig .tc .vmem S2000x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x512 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x512 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S2000x512 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![80], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S4000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![80], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S4000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S4000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 2 → Memref sig .tc .vmem S4000x128 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S4000x128 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev stage18_5 : Fin 2 → Memref sig .tc .vmem S4000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![80], ![false]⟩

def k19_cond2 (i : grid19.Coords) : BitVec 1 :=
  let arg0 : BitVec 32 := BitVec.ofNat 32 (i 0).val
  let c79_i32 : BitVec 32 := 79#32
  let v20 : BitVec 1 := Scalar.cmpi .eq arg0 c79_i32
  let v21 : BitVec 32 := Scalar.extui v20
  let c0_i32_11 : BitVec 32 := 0#32
  let v22 : BitVec 1 := Scalar.cmpi .ne v21 c0_i32_11
  v22

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage19_0 : Fin 2 → Memref sig .tc .vmem S4000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev grid20 : Pipeline.Grid := ⟨1, ![80], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S4000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S4000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x128 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 2 → Memref sig .tc .vmem S4000x128 .f32 := fun | 0 => Memref.whole cc20_stg6_0 | 1 => Memref.whole cc20_stg6_1 | ⟨_ + 2, h⟩ => absurd h (Nat.not_lt.2 (Nat.le_add_left _ _))
abbrev sem20_6 : Fin 2 → DmaSem sig := fun | 0 => cc20_sem6_0 | 1 => cc20_sem6_1 | ⟨_ + 2, h⟩ => absurd h (Nat.not_lt.2 (Nat.le_add_left _ _))
abbrev reads20_6 : Fin grid20.rank → Bool := ![true]

abbrev grid21 : Pipeline.Grid := ⟨1, ![10], ![false]⟩

def k21_cond2 (i : grid21.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage21_0 : Fin 2 → Memref sig .tc .vmem S2000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S2000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S2000x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S1x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S1x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x128 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S1x128 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 2 → Memref sig .tc .vmem S2000x128 .f32 := fun | 0 => Memref.whole cc22_stg6_0 | 1 => Memref.whole cc22_stg6_1 | ⟨_ + 2, h⟩ => absurd h (Nat.not_lt.2 (Nat.le_add_left _ _))
abbrev sem22_6 : Fin 2 → DmaSem sig := fun | 0 => cc22_sem6_0 | 1 => cc22_sem6_1 | ⟨_ + 2, h⟩ => absurd h (Nat.not_lt.2 (Nat.le_add_left _ _))
abbrev reads22_6 : Fin grid22.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  slices_S3x5x128x128_S1x5x128x128_0_0_0_0 : S3x5x128x128.Slices ![0, 0, 0, 0] S1x5x128x128
  shapeCasts_S1x5x128x128_S5x128x128 : S1x5x128x128.ShapeCasts S5x128x128
  slices_S3x5x128_S1x5x128_0_0_0 : S3x5x128.Slices ![0, 0, 0] S1x5x128
  shapeCasts_S1x5x128_S5x128 : S1x5x128.ShapeCasts S5x128
  slices_S5x128x128_S1x128x128_0_0_0 : S5x128x128.Slices ![0, 0, 0] S1x128x128
  shapeCasts_S1x128x128_S128x128 : S1x128x128.ShapeCasts S128x128
  slices_S5x128x128_S1x128x128_1_0_0 : S5x128x128.Slices ![1, 0, 0] S1x128x128
  slices_S5x128x128_S1x128x128_3_0_0 : S5x128x128.Slices ![3, 0, 0] S1x128x128
  slices_S5x128x128_S1x128x128_4_0_0 : S5x128x128.Slices ![4, 0, 0] S1x128x128
  concatenates_S128x128_S128x128_S128x128_S128x128_S128x512_d1 : Shape.Concatenates [S128x128, S128x128, S128x128, S128x128] S128x512 1
  slices_S5x128_S1x128_0_0 : S5x128.Slices ![0, 0] S1x128
  shapeCasts_S1x128_S128 : S1x128.ShapeCasts S128
  slices_S5x128_S1x128_1_0 : S5x128.Slices ![1, 0] S1x128
  slices_S5x128_S1x128_3_0 : S5x128.Slices ![3, 0] S1x128
  slices_S5x128_S1x128_4_0 : S5x128.Slices ![4, 0] S1x128
  concatenates_S128_S128_S128_S128_S512_d0 : Shape.Concatenates [S128, S128, S128, S128] S512 0
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S20000x512_S20000x128_0_0 : S20000x512.Slices ![0, 0] S20000x128
  slices_S20000x512_S20000x128_0_128 : S20000x512.Slices ![0, 128] S20000x128
  slices_S20000x512_S20000x128_0_256 : S20000x512.Slices ![0, 256] S20000x128
  slices_S20000x512_S20000x128_0_384 : S20000x512.Slices ![0, 384] S20000x128
  slices_S5x128x128_S1x128x128_2_0_0 : S5x128x128.Slices ![2, 0, 0] S1x128x128
  slices_S5x128_S1x128_2_0 : S5x128.Slices ![2, 0] S1x128
  shapeCasts_S4000x128_S4000x128 : S4000x128.ShapeCasts S4000x128
  shapeCasts_S128x128_S128x128 : S128x128.ShapeCasts S128x128
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  reduces_S4000x128_S128 : S4000x128.Reduces [0] S128
  slices_S3x2x128_S1x1x128_0_1_0 : S3x2x128.Slices ![0, 1, 0] S1x1x128
  shapeCasts_S1x1x128_S128 : S1x1x128.ShapeCasts S128
  bcast_S_S20000x128 : S_.BroadcastsInDim S20000x128 (![] : Fin 0 → Fin S20000x128.rank)
  reduces_S2000x128_S128 : S2000x128.Reduces [0] S128
  slices_S3x2x128_S1x1x128_0_0_0 : S3x2x128.Slices ![0, 0, 0] S1x1x128
  slices_S3x5x128x128_S1x5x128x128_1_0_0_0 : S3x5x128x128.Slices ![1, 0, 0, 0] S1x5x128x128
  slices_S3x5x128_S1x5x128_1_0_0 : S3x5x128.Slices ![1, 0, 0] S1x5x128
  slices_S3x2x128_S1x1x128_1_1_0 : S3x2x128.Slices ![1, 1, 0] S1x1x128
  slices_S3x2x128_S1x1x128_1_0_0 : S3x2x128.Slices ![1, 0, 0] S1x1x128
  slices_S3x5x128x128_S1x5x128x128_2_0_0_0 : S3x5x128x128.Slices ![2, 0, 0, 0] S1x5x128x128
  slices_S3x5x128_S1x5x128_2_0_0 : S3x5x128.Slices ![2, 0, 0] S1x5x128
  slices_S3x2x128_S1x1x128_2_1_0 : S3x2x128.Slices ![2, 1, 0] S1x1x128
  slices_S3x2x128_S1x1x128_2_0_0 : S3x2x128.Slices ![2, 0, 0] S1x1x128
  reducesTo_S20000x128_S128_d0 : S20000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S64_S1x64_1 : S64.BroadcastsInDim S1x64 (![1] : Fin 1 → Fin S1x64.rank)
  dot_S2000x128_S128x128_S2000x128_1_0_0_1_n_n_wf : DotDims.WF S2000x128 S128x128 S2000x128 [1] [0] [0] [1] [] []
  dot_S4000x128_S128x128_S4000x128_1_0_0_1_n_n_wf : DotDims.WF S4000x128 S128x128 S4000x128 [1] [0] [0] [1] [] []
  dot_S2000x128_S128x512_S2000x512_1_0_0_1_n_n_wf : DotDims.WF S2000x128 S128x512 S2000x512 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S1x128_S128x128_S1x128_1_0_0_1_n_n_wf : DotDims.WF S1x128 S128x128 S1x128 [1] [0] [0] [1] [] []
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S320000x128.size a
  hwx1_0 : ∀ i : grid1.Coords, EltTy.bits .f32 = 32 ∨ (Rect.block (s := S320000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S320000x128.size a
  hwx1_3 : ∀ i : grid1.Coords, EltTy.bits .f32 = 32 ∨ (Rect.block (s := S320000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S20000x512.size a
  hwx2_3 : ∀ i : grid2.Coords, EltTy.bits .f32 = 32 ∨ (Rect.block (s := S20000x512) S2000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S320000x128.size a
  hwx3_0 : ∀ i : grid3.Coords, EltTy.bits .f32 = 32 ∨ (Rect.block (s := S320000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S320000x128.size a
  hwx3_3 : ∀ i : grid3.Coords, EltTy.bits .f32 = 32 ∨ (Rect.block (s := S320000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S320000x128.size a
  hwx4_0 : ∀ i : grid4.Coords, EltTy.bits .f32 = 32 ∨ (Rect.block (s := S320000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S320000x128.size a
  hwx4_1 : ∀ i : grid4.Coords, EltTy.bits .f32 = 32 ∨ (Rect.block (s := S320000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S320000x128.size a
  hwx4_2 : ∀ i : grid4.Coords, EltTy.bits .f32 = 32 ∨ (Rect.block (s := S320000x128) S4000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S320000x128.size a
  hwx4_3 : ∀ i : grid4.Coords, EltTy.bits .f32 = 32 ∨ (Rect.block (s := S320000x128) S4000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S320000x128.size a
  hwx4_4 : ∀ i : grid4.Coords, EltTy.bits .f32 = 32 ∨ (Rect.block (s := S320000x128) S4000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S320000x128.size a
  hwx4_5 : ∀ i : grid4.Coords, EltTy.bits .f32 = 32 ∨ (Rect.block (s := S320000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S320000x128.size a
  hwx5_0 : ∀ i : grid5.Coords, EltTy.bits .f32 = 32 ∨ (Rect.block (s := S320000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S320000x128.size a
  hwx6_0 : ∀ i : grid6.Coords, EltTy.bits .f32 = 32 ∨ (Rect.block (s := S320000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S320000x128.size a
  hwx6_1 : ∀ i : grid6.Coords, EltTy.bits .f32 = 32 ∨ (Rect.block (s := S320000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S320000x128.size a
  hwx6_6 : ∀ i : grid6.Coords, EltTy.bits .f32 = 32 ∨ (Rect.block (s := S320000x128) S4000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S20000x128.size a
  hwx8_0 : ∀ i : grid8.Coords, EltTy.bits .f32 = 32 ∨ (Rect.block (s := S20000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S20000x128.size a
  hwx8_1 : ∀ i : grid8.Coords, EltTy.bits .f32 = 32 ∨ (Rect.block (s := S20000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S20000x128.size a
  hwx8_6 : ∀ i : grid8.Coords, EltTy.bits .f32 = 32 ∨ (Rect.block (s := S20000x128) S2000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x512.size a ≤ S128x512.size a
  hwx9_1 : ∀ i : grid9.Coords, EltTy.bits .f32 = 32 ∨ (Rect.block (s := S128x512) S128x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x512.size a ≤ S20000x512.size a
  hwx9_3 : ∀ i : grid9.Coords, EltTy.bits .f32 = 32 ∨ (Rect.block (s := S20000x512) S2000x512.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S320000x128.size a
  hwx10_0 : ∀ i : grid10.Coords, EltTy.bits .f32 = 32 ∨ (Rect.block (s := S320000x128) S4000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x128.size a ≤ S320000x128.size a
  hwx10_3 : ∀ i : grid10.Coords, EltTy.bits .f32 = 32 ∨ (Rect.block (s := S320000x128) S4000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S320000x128.size a
  hwx11_0 : ∀ i : grid11.Coords, EltTy.bits .f32 = 32 ∨ (Rect.block (s := S320000x128) S4000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x128.size a ≤ S320000x128.size a
  hwx11_1 : ∀ i : grid11.Coords, EltTy.bits .f32 = 32 ∨ (Rect.block (s := S320000x128) S4000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x128.size a ≤ S320000x128.size a
  hwx11_2 : ∀ i : grid11.Coords, EltTy.bits .f32 = 32 ∨ (Rect.block (s := S320000x128) S4000x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4000x128.size a ≤ S320000x128.size a
  hwx11_3 : ∀ i : grid11.Coords, EltTy.bits .f32 = 32 ∨ (Rect.block (s := S320000x128) S4000x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4000x128.size a ≤ S320000x128.size a
  hwx11_4 : ∀ i : grid11.Coords, EltTy.bits .f32 = 32 ∨ (Rect.block (s := S320000x128) S4000x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S4000x128.size a ≤ S320000x128.size a
  hwx11_5 : ∀ i : grid11.Coords, EltTy.bits .f32 = 32 ∨ (Rect.block (s := S320000x128) S4000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x128.size a ≤ S320000x128.size a
  hwx12_0 : ∀ i : grid12.Coords, EltTy.bits .f32 = 32 ∨ (Rect.block (s := S320000x128) S4000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S320000x128.size a
  hwx13_0 : ∀ i : grid13.Coords, EltTy.bits .f32 = 32 ∨ (Rect.block (s := S320000x128) S4000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x128.size a ≤ S320000x128.size a
  hwx13_1 : ∀ i : grid13.Coords, EltTy.bits .f32 = 32 ∨ (Rect.block (s := S320000x128) S4000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S4000x128.size a ≤ S320000x128.size a
  hwx13_6 : ∀ i : grid13.Coords, EltTy.bits .f32 = 32 ∨ (Rect.block (s := S320000x128) S4000x128.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S20000x128.size a
  hwx14_0 : ∀ i : grid14.Coords, EltTy.bits .f32 = 32 ∨ (Rect.block (s := S20000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S20000x128.size a
  hwx15_0 : ∀ i : grid15.Coords, EltTy.bits .f32 = 32 ∨ (Rect.block (s := S20000x128) S2000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x128.size a ≤ S20000x128.size a
  hwx15_1 : ∀ i : grid15.Coords, EltTy.bits .f32 = 32 ∨ (Rect.block (s := S20000x128) S2000x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x128.size a ≤ S1x128.size a
  hwx15_5 : ∀ i : grid15.Coords, EltTy.bits .f32 = 32 ∨ (Rect.block (s := S1x128) S1x128.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S2000x128.size a ≤ S20000x128.size a
  hwx15_6 : ∀ i : grid15.Coords, EltTy.bits .f32 = 32 ∨ (Rect.block (s := S20000x128) S2000x128.size (cc15_transform_6 i) (hinb15_6 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x128.size a ≤ S20000x128.size a
  hwx16_0 : ∀ i : grid16.Coords, EltTy.bits .f32 = 32 ∨ (Rect.block (s := S20000x128) S2000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x512.size a ≤ S128x512.size a
  hwx16_1 : ∀ i : grid16.Coords, EltTy.bits .f32 = 32 ∨ (Rect.block (s := S128x512) S128x512.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x512.size a ≤ S1x512.size a
  hwx16_2 : ∀ i : grid16.Coords, EltTy.bits .f32 = 32 ∨ (Rect.block (s := S1x512) S1x512.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x512.size a ≤ S20000x512.size a
  hwx16_3 : ∀ i : grid16.Coords, EltTy.bits .f32 = 32 ∨ (Rect.block (s := S20000x512) S2000x512.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4000x128.size a ≤ S320000x128.size a
  hwx17_0 : ∀ i : grid17.Coords, EltTy.bits .f32 = 32 ∨ (Rect.block (s := S320000x128) S4000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x128.size a ≤ S128x128.size a
  hwx17_1 : ∀ i : grid17.Coords, EltTy.bits .f32 = 32 ∨ (Rect.block (s := S128x128) S128x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S4000x128.size a ≤ S320000x128.size a
  hwx17_3 : ∀ i : grid17.Coords, EltTy.bits .f32 = 32 ∨ (Rect.block (s := S320000x128) S4000x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4000x128.size a ≤ S320000x128.size a
  hwx18_0 : ∀ i : grid18.Coords, EltTy.bits .f32 = 32 ∨ (Rect.block (s := S320000x128) S4000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S4000x128.size a ≤ S320000x128.size a
  hwx18_1 : ∀ i : grid18.Coords, EltTy.bits .f32 = 32 ∨ (Rect.block (s := S320000x128) S4000x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S4000x128.size a ≤ S320000x128.size a
  hwx18_2 : ∀ i : grid18.Coords, EltTy.bits .f32 = 32 ∨ (Rect.block (s := S320000x128) S4000x128.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S4000x128.size a ≤ S320000x128.size a
  hwx18_3 : ∀ i : grid18.Coords, EltTy.bits .f32 = 32 ∨ (Rect.block (s := S320000x128) S4000x128.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S4000x128.size a ≤ S320000x128.size a
  hwx18_4 : ∀ i : grid18.Coords, EltTy.bits .f32 = 32 ∨ (Rect.block (s := S320000x128) S4000x128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S4000x128.size a ≤ S320000x128.size a
  hwx18_5 : ∀ i : grid18.Coords, EltTy.bits .f32 = 32 ∨ (Rect.block (s := S320000x128) S4000x128.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4000x128.size a ≤ S320000x128.size a
  hwx19_0 : ∀ i : grid19.Coords, EltTy.bits .f32 = 32 ∨ (Rect.block (s := S320000x128) S4000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S4000x128.size a ≤ S320000x128.size a
  hwx20_0 : ∀ i : grid20.Coords, EltTy.bits .f32 = 32 ∨ (Rect.block (s := S320000x128) S4000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S4000x128.size a ≤ S320000x128.size a
  hwx20_1 : ∀ i : grid20.Coords, EltTy.bits .f32 = 32 ∨ (Rect.block (s := S320000x128) S4000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x128.size a ≤ S1x128.size a
  hwx20_3 : ∀ i : grid20.Coords, EltTy.bits .f32 = 32 ∨ (Rect.block (s := S1x128) S1x128.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x128.size a ≤ S1x128.size a
  hwx20_4 : ∀ i : grid20.Coords, EltTy.bits .f32 = 32 ∨ (Rect.block (s := S1x128) S1x128.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x128.size a ≤ S1x128.size a
  hwx20_5 : ∀ i : grid20.Coords, EltTy.bits .f32 = 32 ∨ (Rect.block (s := S1x128) S1x128.size (cc20_transform_5 i) (hinb20_5 i)).WholeWords (EltTy.packing .f32)
  hstage20_6 : ∀ j, (stage20_6 j).IsWhole
  nbuf20_6 : grid20.bufCount reads20_6 false = 2
  hreads20_6 : ∀ i i' : grid20.Coords, (∀ a, reads20_6 a = true → i a = i' a) → cc20_transform_6 i = cc20_transform_6 i'
  hinb20_6 : ∀ (i : grid20.Coords) a, (cc20_transform_6 i a + 1) * S4000x128.size a ≤ S320000x128.size a
  hwx20_6 : ∀ i : grid20.Coords, EltTy.bits .f32 = 32 ∨ (Rect.block (s := S320000x128) S4000x128.size (cc20_transform_6 i) (hinb20_6 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x128.size a ≤ S20000x128.size a
  hwx21_0 : ∀ i : grid21.Coords, EltTy.bits .f32 = 32 ∨ (Rect.block (s := S20000x128) S2000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x128.size a ≤ S1x128.size a
  hwx21_1 : ∀ i : grid21.Coords, EltTy.bits .f32 = 32 ∨ (Rect.block (s := S1x128) S1x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S2000x128.size a ≤ S20000x128.size a
  hwx22_0 : ∀ i : grid22.Coords, EltTy.bits .f32 = 32 ∨ (Rect.block (s := S20000x128) S2000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S2000x128.size a ≤ S20000x128.size a
  hwx22_1 : ∀ i : grid22.Coords, EltTy.bits .f32 = 32 ∨ (Rect.block (s := S20000x128) S2000x128.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x128.size a ≤ S1x128.size a
  hwx22_2 : ∀ i : grid22.Coords, EltTy.bits .f32 = 32 ∨ (Rect.block (s := S1x128) S1x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S1x128.size a ≤ S1x128.size a
  hwx22_3 : ∀ i : grid22.Coords, EltTy.bits .f32 = 32 ∨ (Rect.block (s := S1x128) S1x128.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x128.size a ≤ S1x128.size a
  hwx22_4 : ∀ i : grid22.Coords, EltTy.bits .f32 = 32 ∨ (Rect.block (s := S1x128) S1x128.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S1x128.size a ≤ S1x128.size a
  hwx22_5 : ∀ i : grid22.Coords, EltTy.bits .f32 = 32 ∨ (Rect.block (s := S1x128) S1x128.size (cc22_transform_5 i) (hinb22_5 i)).WholeWords (EltTy.packing .f32)
  hstage22_6 : ∀ j, (stage22_6 j).IsWhole
  nbuf22_6 : grid22.bufCount reads22_6 false = 2
  hreads22_6 : ∀ i i' : grid22.Coords, (∀ a, reads22_6 a = true → i a = i' a) → cc22_transform_6 i = cc22_transform_6 i'
  hinb22_6 : ∀ (i : grid22.Coords) a, (cc22_transform_6 i a + 1) * S2000x128.size a ≤ S20000x128.size a
  hwx22_6 : ∀ i : grid22.Coords, EltTy.bits .f32 = 32 ∨ (Rect.block (s := S20000x128) S2000x128.size (cc22_transform_6 i) (hinb22_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S4000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v45_0) S4000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v45_1) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v45_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v46_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun i => !(k5_cond2 i == 1#1) | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v45_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v46_0) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v46_1) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v49) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v52) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v53) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v57) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v58_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v58_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v57) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v5) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v58_0) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v58_1) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v61) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v64) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v65) S2000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v65) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v78) S128x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v88) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v89) S2000x512.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v53) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v95) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v98) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v99) S4000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v99) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v100) S4000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v101) S4000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v102) S4000x128.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v103_0) S4000x128.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v103_1) S4000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v103_0) S4000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v104_0) S1x128.size cc12_transform_1 reads12_1 true true 1 stage12_1 sem12_1
    hrank12 hreads12_1 hinb12_1 nbuf12_1 (Memref.isWhole_whole _) hwx12_1 hstage12_1

abbrev win12_2 : Pipeline.Window sig grid12 :=
  Pipeline.Window.ofSpec (Memref.whole main_v104_1) S1x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun i => !(k12_cond2 i == 1#1) | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v103_0) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v53) S4000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v104_0) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v104_1) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v107) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v110) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v111) S4000x128.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v115) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v116_0) S1x128.size cc14_transform_1 reads14_1 true true 1 stage14_1 sem14_1
    hrank14 hreads14_1 hinb14_1 nbuf14_1 (Memref.isWhole_whole _) hwx14_1 hstage14_1

abbrev win14_2 : Pipeline.Window sig grid14 :=
  Pipeline.Window.ofSpec (Memref.whole main_v116_1) S1x128.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun i => !(k14_cond2 i == 1#1) | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v115) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v65) S2000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v116_0) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v116_1) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v119) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v122) S1x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v123) S2000x128.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v123) S2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v136) S128x512.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v146) S1x512.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v147) S2000x512.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v111) S4000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v153) S128x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v156) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v157) S4000x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v157) S4000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v158) S4000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v159) S4000x128.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v160) S4000x128.size cc18_transform_3 reads18_3 false false 2 stage18_3 sem18_3
    hrank18 hreads18_3 hinb18_3 nbuf18_3 (Memref.isWhole_whole _) hwx18_3 hstage18_3

abbrev win18_4 : Pipeline.Window sig grid18 :=
  Pipeline.Window.ofSpec (Memref.whole main_v161_0) S4000x128.size cc18_transform_4 reads18_4 true false 2 stage18_4 sem18_4
    hrank18 hreads18_4 hinb18_4 nbuf18_4 (Memref.isWhole_whole _) hwx18_4 hstage18_4

abbrev win18_5 : Pipeline.Window sig grid18 :=
  Pipeline.Window.ofSpec (Memref.whole main_v161_1) S4000x128.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v161_0) S4000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v162_0) S1x128.size cc19_transform_1 reads19_1 true true 1 stage19_1 sem19_1
    hrank19 hreads19_1 hinb19_1 nbuf19_1 (Memref.isWhole_whole _) hwx19_1 hstage19_1

abbrev win19_2 : Pipeline.Window sig grid19 :=
  Pipeline.Window.ofSpec (Memref.whole main_v162_1) S1x128.size cc19_transform_2 reads19_2 true true 1 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev idle19 : Fin 3 → grid19.Coords → Bool := fun | 0 => fun _ => false | 1 => fun i => !(k19_cond2 i == 1#1) | 2 => fun i => !(k19_cond2 i == 1#1) | ⟨_ + 3, h⟩ => absurd h (Nat.not_lt.2 (Nat.le_add_left _ _))

abbrev win20_0 : Pipeline.Window sig grid20 :=
  Pipeline.Window.ofSpec (Memref.whole main_v161_0) S4000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v111) S4000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v162_0) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v162_1) S1x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v165) S1x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v168) S1x128.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v169) S4000x128.size cc20_transform_6 reads20_6 true false 2 stage20_6 sem20_6
    hrank20 hreads20_6 hinb20_6 nbuf20_6 (Memref.isWhole_whole _) hwx20_6 hstage20_6

abbrev win20 : Fin 7 → Pipeline.Window sig grid20 := fun | 0 => win20_0 | 1 => win20_1 | 2 => win20_2 | 3 => win20_3 | 4 => win20_4 | 5 => win20_5 | 6 => win20_6 | ⟨_ + 7, h⟩ => absurd h (Nat.not_lt.2 (Nat.le_add_left _ _))
abbrev spec20 : Fin 7 → Pipeline.WinSpec sig grid20.rank := fun w => (win20 w).toWinSpec

abbrev win21_0 : Pipeline.Window sig grid21 :=
  Pipeline.Window.ofSpec (Memref.whole main_v173) S2000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v174_0) S1x128.size cc21_transform_1 reads21_1 true true 1 stage21_1 sem21_1
    hrank21 hreads21_1 hinb21_1 nbuf21_1 (Memref.isWhole_whole _) hwx21_1 hstage21_1

abbrev win21_2 : Pipeline.Window sig grid21 :=
  Pipeline.Window.ofSpec (Memref.whole main_v174_1) S1x128.size cc21_transform_2 reads21_2 true true 1 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev idle21 : Fin 3 → grid21.Coords → Bool := fun | 0 => fun _ => false | 1 => fun i => !(k21_cond2 i == 1#1) | 2 => fun i => !(k21_cond2 i == 1#1) | ⟨_ + 3, h⟩ => absurd h (Nat.not_lt.2 (Nat.le_add_left _ _))

abbrev win22_0 : Pipeline.Window sig grid22 :=
  Pipeline.Window.ofSpec (Memref.whole main_v173) S2000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v123) S2000x128.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v174_0) S1x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v174_1) S1x128.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v177) S1x128.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v180) S1x128.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v181) S2000x128.size cc22_transform_6 reads22_6 true false 2 stage22_6 sem22_6
    hrank22 hreads22_6 hinb22_6 nbuf22_6 (Memref.isWhole_whole _) hwx22_6 hstage22_6

abbrev win22 : Fin 7 → Pipeline.Window sig grid22 := fun | 0 => win22_0 | 1 => win22_1 | 2 => win22_2 | 3 => win22_3 | 4 => win22_4 | 5 => win22_5 | 6 => win22_6 | ⟨_ + 7, h⟩ => absurd h (Nat.not_lt.2 (Nat.le_add_left _ _))
abbrev spec22 : Fin 7 → Pipeline.WinSpec sig grid22.rank := fun w => (win22 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000x128 : Shape := ⟨2, ![320000, 128]⟩
abbrev S128x128 : Shape := ⟨2, ![128, 128]⟩
abbrev S128 : Shape := ⟨1, ![128]⟩
abbrev S3x5x128x128 : Shape := ⟨4, ![3, 5, 128, 128]⟩
abbrev S3x5x128 : Shape := ⟨3, ![3, 5, 128]⟩
abbrev S3x2x128 : Shape := ⟨3, ![3, 2, 128]⟩
abbrev S128x64 : Shape := ⟨2, ![128, 64]⟩
abbrev S64 : Shape := ⟨1, ![64]⟩
abbrev S1x320000 : Shape := ⟨2, ![1, 320000]⟩
abbrev S320000 : Shape := ⟨1, ![320000]⟩
abbrev S1x128 : Shape := ⟨2, ![1, 128]⟩
abbrev S1x5x128x128 : Shape := ⟨4, ![1, 5, 128, 128]⟩
abbrev S5x128x128 : Shape := ⟨3, ![5, 128, 128]⟩
abbrev S1x5x128 : Shape := ⟨3, ![1, 5, 128]⟩
abbrev S5x128 : Shape := ⟨2, ![5, 128]⟩
abbrev S1x128x128 : Shape := ⟨3, ![1, 128, 128]⟩
abbrev S_ : Shape := ⟨0, ![]⟩
abbrev S320000x1 : Shape := ⟨2, ![320000, 1]⟩
abbrev S1x1x128 : Shape := ⟨3, ![1, 1, 128]⟩
abbrev S1x64 : Shape := ⟨2, ![1, 64]⟩

abbrev nBuf : Space → Nat
  | .hbm => 531
  | .vmem => 0
  | .smem => 0
  | _ => 0

abbrev hbmTy0_0 (i : Nat) : BufTy := match i % 128 with
  | 0 => ⟨S20000x128, .f32⟩
  | 1 => ⟨S2x320000, .i32⟩
  | 2 => ⟨S320000x128, .f32⟩
  | 3 => ⟨S128x128, .f32⟩
  | 4 => ⟨S128, .f32⟩
  | 5 => ⟨S128x128, .f32⟩
  | 6 => ⟨S128, .f32⟩
  | 7 => ⟨S3x5x128x128, .f32⟩
  | 8 => ⟨S3x5x128, .f32⟩
  | 9 => ⟨S3x2x128, .f32⟩
  | 10 => ⟨S3x2x128, .f32⟩
  | 11 => ⟨S128x128, .f32⟩
  | 12 => ⟨S128, .f32⟩
  | 13 => ⟨S128x64, .f32⟩
  | 14 => ⟨S64, .f32⟩
  | 15 => ⟨S1x320000, .i32⟩
  | 16 => ⟨S320000, .i32⟩
  | 17 => ⟨S1x320000, .i32⟩
  | 18 => ⟨S320000, .i32⟩
  | 19 => ⟨S20000x128, .f32⟩
  | 20 => ⟨S1x128, .f32⟩
  | 21 => ⟨S20000x128, .f32⟩
  | 22 => ⟨S20000x128, .f32⟩
  | 23 => ⟨S320000x128, .f32⟩
  | 24 => ⟨S1x128, .f32⟩
  | 25 => ⟨S320000x128, .f32⟩
  | 26 => ⟨S320000x128, .f32⟩
  | 27 => ⟨S1x5x128x128, .f32⟩
  | 28 => ⟨S5x128x128, .f32⟩
  | 29 => ⟨S1x5x128, .f32⟩
  | 30 => ⟨S5x128, .f32⟩
  | 31 => ⟨S1x128x128, .f32⟩
  | 32 => ⟨S128x128, .f32⟩
  | 33 => ⟨S20000x128, .f32⟩
  | 34 => ⟨S1x128, .f32⟩
  | 35 => ⟨S128, .f32⟩
  | 36 => ⟨S1x128, .f32⟩
  | 37 => ⟨S20000x128, .f32⟩
  | 38 => ⟨S20000x128, .f32⟩
  | 39 => ⟨S1x128x128, .f32⟩
  | 40 => ⟨S128x128, .f32⟩
  | 41 => ⟨S20000x128, .f32⟩
  | 42 => ⟨S1x128, .f32⟩
  | 43 => ⟨S128, .f32⟩
  | 44 => ⟨S1x128, .f32⟩
  | 45 => ⟨S20000x128, .f32⟩
  | 46 => ⟨S20000x128, .f32⟩
  | 47 => ⟨S1x128x128, .f32⟩
  | 48 => ⟨S128x128, .f32⟩
  | 49 => ⟨S320000x128, .f32⟩
  | 50 => ⟨S1x128, .f32⟩
  | 51 => ⟨S128, .f32⟩
  | 52 => ⟨S1x128, .f32⟩
  | 53 => ⟨S320000x128, .f32⟩
  | 54 => ⟨S320000x128, .f32⟩
  | 55 => ⟨S1x128x128, .f32⟩
  | 56 => ⟨S128x128, .f32⟩
  | 57 => ⟨S20000x128, .f32⟩
  | 58 => ⟨S1x128, .f32⟩
  | 59 => ⟨S128, .f32⟩
  | 60 => ⟨S1x128, .f32⟩
  | 61 => ⟨S20000x128, .f32⟩
  | 62 => ⟨S20000x128, .f32⟩
  | 63 => ⟨S1x128x128, .f32⟩
  | 64 => ⟨S128x128, .f32⟩
  | 65 => ⟨S20000x128, .f32⟩
  | 66 => ⟨S1x128, .f32⟩
  | 67 => ⟨S128, .f32⟩
  | 68 => ⟨S1x128, .f32⟩
  | 69 => ⟨S20000x128, .f32⟩
  | 70 => ⟨S20000x128, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x128, .f32⟩
  | 80 => ⟨S320000x128, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x128, .f32⟩
  | 90 => ⟨S320000x128, .f32⟩
  | 91 => ⟨S320000x128, .f32⟩
  | 92 => ⟨S320000x128, .f32⟩
  | 93 => ⟨S_, .f32⟩
  | 94 => ⟨S320000x128, .f32⟩
  | 95 => ⟨S320000x128, .f32⟩
  | 96 => ⟨S_, .f32⟩
  | 97 => ⟨S320000x128, .f32⟩
  | 98 => ⟨S320000x128, .f32⟩
  | 99 => ⟨S1x1x128, .f32⟩
  | 100 => ⟨S128, .f32⟩
  | 101 => ⟨S1x1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S320000x128, .f32⟩
  | 110 => ⟨S320000x128, .f32⟩
  | 111 => ⟨S320000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S320000x128, .f32⟩
  | 119 => ⟨S320000x128, .f32⟩
  | 120 => ⟨S1x128, .f32⟩
  | 121 => ⟨S320000x128, .f32⟩
  | 122 => ⟨S320000x128, .f32⟩
  | 123 => ⟨S_, .f32⟩
  | 124 => ⟨S128, .f32⟩
  | 125 => ⟨S128, .f32⟩
  | 126 => ⟨S128, .f32⟩
  | 127 => ⟨S1x128, .f32⟩
  | _ => ⟨S20000x128, .f32⟩

abbrev hbmTy0_1 (i : Nat) : BufTy := match i % 128 with
  | 0 => ⟨S320000x128, .f32⟩
  | 1 => ⟨S320000x128, .f32⟩
  | 2 => ⟨S1x128, .f32⟩
  | 3 => ⟨S320000x128, .f32⟩
  | 4 => ⟨S320000x128, .f32⟩
  | 5 => ⟨S_, .f32⟩
  | 6 => ⟨S320000x128, .f32⟩
  | 7 => ⟨S320000x128, .f32⟩
  | 8 => ⟨S320000x128, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x128, .f32⟩
  | 18 => ⟨S320000x128, .f32⟩
  | 19 => ⟨S_, .f32⟩
  | 20 => ⟨S20000x128, .f32⟩
  | 21 => ⟨S320000x1, .i32⟩
  | 22 => ⟨S20000x128, .f32⟩
  | 23 => ⟨S20000x128, .f32⟩
  | 24 => ⟨S1x1x128, .f32⟩
  | 25 => ⟨S128, .f32⟩
  | 26 => ⟨S1x1x128, .f32⟩
  | 27 => ⟨S128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S20000x128, .f32⟩
  | 35 => ⟨S20000x128, .f32⟩
  | 36 => ⟨S20000x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S20000x128, .f32⟩
  | 44 => ⟨S20000x128, .f32⟩
  | 45 => ⟨S1x128, .f32⟩
  | 46 => ⟨S20000x128, .f32⟩
  | 47 => ⟨S20000x128, .f32⟩
  | 48 => ⟨S_, .f32⟩
  | 49 => ⟨S128, .f32⟩
  | 50 => ⟨S128, .f32⟩
  | 51 => ⟨S128, .f32⟩
  | 52 => ⟨S1x128, .f32⟩
  | 53 => ⟨S20000x128, .f32⟩
  | 54 => ⟨S20000x128, .f32⟩
  | 55 => ⟨S1x128, .f32⟩
  | 56 => ⟨S20000x128, .f32⟩
  | 57 => ⟨S20000x128, .f32⟩
  | 58 => ⟨S_, .f32⟩
  | 59 => ⟨S20000x128, .f32⟩
  | 60 => ⟨S20000x128, .f32⟩
  | 61 => ⟨S20000x128, .f32⟩
  | 62 => ⟨S1x5x128x128, .f32⟩
  | 63 => ⟨S5x128x128, .f32⟩
  | 64 => ⟨S1x5x128, .f32⟩
  | 65 => ⟨S5x128, .f32⟩
  | 66 => ⟨S1x128x128, .f32⟩
  | 67 => ⟨S128x128, .f32⟩
  | 68 => ⟨S20000x128, .f32⟩
  | 69 => ⟨S1x128, .f32⟩
  | 70 => ⟨S128, .f32⟩
  | 71 => ⟨S1x128, .f32⟩
  | 72 => ⟨S20000x128, .f32⟩
  | 73 => ⟨S20000x128, .f32⟩
  | 74 => ⟨S1x128x128, .f32⟩
  | 75 => ⟨S128x128, .f32⟩
  | 76 => ⟨S20000x128, .f32⟩
  | 77 => ⟨S1x128, .f32⟩
  | 78 => ⟨S128, .f32⟩
  | 79 => ⟨S1x128, .f32⟩
  | 80 => ⟨S20000x128, .f32⟩
  | 81 => ⟨S20000x128, .f32⟩
  | 82 => ⟨S1x128x128, .f32⟩
  | 83 => ⟨S128x128, .f32⟩
  | 84 => ⟨S320000x128, .f32⟩
  | 85 => ⟨S1x128, .f32⟩
  | 86 => ⟨S128, .f32⟩
  | 87 => ⟨S1x128, .f32⟩
  | 88 => ⟨S320000x128, .f32⟩
  | 89 => ⟨S320000x128, .f32⟩
  | 90 => ⟨S1x128x128, .f32⟩
  | 91 => ⟨S128x128, .f32⟩
  | 92 => ⟨S20000x128, .f32⟩
  | 93 => ⟨S1x128, .f32⟩
  | 94 => ⟨S128, .f32⟩
  | 95 => ⟨S1x128, .f32⟩
  | 96 => ⟨S20000x128, .f32⟩
  | 97 => ⟨S20000x128, .f32⟩
  | 98 => ⟨S1x128x128, .f32⟩
  | 99 => ⟨S128x128, .f32⟩
  | 100 => ⟨S20000x128, .f32⟩
  | 101 => ⟨S1x128, .f32⟩
  | 102 => ⟨S128, .f32⟩
  | 103 => ⟨S1x128, .f32⟩
  | 104 => ⟨S20000x128, .f32⟩
  | 105 => ⟨S20000x128, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x128, .f32⟩
  | 115 => ⟨S320000x128, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x128, .f32⟩
  | 125 => ⟨S320000x128, .f32⟩
  | 126 => ⟨S320000x128, .f32⟩
  | 127 => ⟨S320000x128, .f32⟩
  | _ => ⟨S20000x128, .f32⟩

abbrev hbmTy0_2 (i : Nat) : BufTy := match i % 128 with
  | 0 => ⟨S_, .f32⟩
  | 1 => ⟨S320000x128, .f32⟩
  | 2 => ⟨S320000x128, .f32⟩
  | 3 => ⟨S_, .f32⟩
  | 4 => ⟨S320000x128, .f32⟩
  | 5 => ⟨S320000x128, .f32⟩
  | 6 => ⟨S1x1x128, .f32⟩
  | 7 => ⟨S128, .f32⟩
  | 8 => ⟨S1x1x128, .f32⟩
  | 9 => ⟨S128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S320000x128, .f32⟩
  | 17 => ⟨S320000x128, .f32⟩
  | 18 => ⟨S320000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S320000x128, .f32⟩
  | 26 => ⟨S320000x128, .f32⟩
  | 27 => ⟨S1x128, .f32⟩
  | 28 => ⟨S320000x128, .f32⟩
  | 29 => ⟨S320000x128, .f32⟩
  | 30 => ⟨S_, .f32⟩
  | 31 => ⟨S128, .f32⟩
  | 32 => ⟨S128, .f32⟩
  | 33 => ⟨S128, .f32⟩
  | 34 => ⟨S1x128, .f32⟩
  | 35 => ⟨S320000x128, .f32⟩
  | 36 => ⟨S320000x128, .f32⟩
  | 37 => ⟨S1x128, .f32⟩
  | 38 => ⟨S320000x128, .f32⟩
  | 39 => ⟨S320000x128, .f32⟩
  | 40 => ⟨S_, .f32⟩
  | 41 => ⟨S320000x128, .f32⟩
  | 42 => ⟨S320000x128, .f32⟩
  | 43 => ⟨S320000x128, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x128, .f32⟩
  | 53 => ⟨S320000x128, .f32⟩
  | 54 => ⟨S_, .f32⟩
  | 55 => ⟨S20000x128, .f32⟩
  | 56 => ⟨S320000x1, .i32⟩
  | 57 => ⟨S20000x128, .f32⟩
  | 58 => ⟨S20000x128, .f32⟩
  | 59 => ⟨S1x1x128, .f32⟩
  | 60 => ⟨S128, .f32⟩
  | 61 => ⟨S1x1x128, .f32⟩
  | 62 => ⟨S128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S20000x128, .f32⟩
  | 70 => ⟨S20000x128, .f32⟩
  | 71 => ⟨S20000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S20000x128, .f32⟩
  | 79 => ⟨S20000x128, .f32⟩
  | 80 => ⟨S1x128, .f32⟩
  | 81 => ⟨S20000x128, .f32⟩
  | 82 => ⟨S20000x128, .f32⟩
  | 83 => ⟨S_, .f32⟩
  | 84 => ⟨S128, .f32⟩
  | 85 => ⟨S128, .f32⟩
  | 86 => ⟨S128, .f32⟩
  | 87 => ⟨S1x128, .f32⟩
  | 88 => ⟨S20000x128, .f32⟩
  | 89 => ⟨S20000x128, .f32⟩
  | 90 => ⟨S1x128, .f32⟩
  | 91 => ⟨S20000x128, .f32⟩
  | 92 => ⟨S20000x128, .f32⟩
  | 93 => ⟨S_, .f32⟩
  | 94 => ⟨S20000x128, .f32⟩
  | 95 => ⟨S20000x128, .f32⟩
  | 96 => ⟨S20000x128, .f32⟩
  | 97 => ⟨S1x5x128x128, .f32⟩
  | 98 => ⟨S5x128x128, .f32⟩
  | 99 => ⟨S1x5x128, .f32⟩
  | 100 => ⟨S5x128, .f32⟩
  | 101 => ⟨S1x128x128, .f32⟩
  | 102 => ⟨S128x128, .f32⟩
  | 103 => ⟨S20000x128, .f32⟩
  | 104 => ⟨S1x128, .f32⟩
  | 105 => ⟨S128, .f32⟩
  | 106 => ⟨S1x128, .f32⟩
  | 107 => ⟨S20000x128, .f32⟩
  | 108 => ⟨S20000x128, .f32⟩
  | 109 => ⟨S1x128x128, .f32⟩
  | 110 => ⟨S128x128, .f32⟩
  | 111 => ⟨S20000x128, .f32⟩
  | 112 => ⟨S1x128, .f32⟩
  | 113 => ⟨S128, .f32⟩
  | 114 => ⟨S1x128, .f32⟩
  | 115 => ⟨S20000x128, .f32⟩
  | 116 => ⟨S20000x128, .f32⟩
  | 117 => ⟨S1x128x128, .f32⟩
  | 118 => ⟨S128x128, .f32⟩
  | 119 => ⟨S320000x128, .f32⟩
  | 120 => ⟨S1x128, .f32⟩
  | 121 => ⟨S128, .f32⟩
  | 122 => ⟨S1x128, .f32⟩
  | 123 => ⟨S320000x128, .f32⟩
  | 124 => ⟨S320000x128, .f32⟩
  | 125 => ⟨S1x128x128, .f32⟩
  | 126 => ⟨S128x128, .f32⟩
  | 127 => ⟨S20000x128, .f32⟩
  | _ => ⟨S20000x128, .f32⟩

abbrev hbmTy0_3 (i : Nat) : BufTy := match i % 128 with
  | 0 => ⟨S1x128, .f32⟩
  | 1 => ⟨S128, .f32⟩
  | 2 => ⟨S1x128, .f32⟩
  | 3 => ⟨S20000x128, .f32⟩
  | 4 => ⟨S20000x128, .f32⟩
  | 5 => ⟨S1x128x128, .f32⟩
  | 6 => ⟨S128x128, .f32⟩
  | 7 => ⟨S20000x128, .f32⟩
  | 8 => ⟨S1x128, .f32⟩
  | 9 => ⟨S128, .f32⟩
  | 10 => ⟨S1x128, .f32⟩
  | 11 => ⟨S20000x128, .f32⟩
  | 12 => ⟨S20000x128, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x128, .f32⟩
  | 22 => ⟨S320000x128, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x128, .f32⟩
  | 32 => ⟨S320000x128, .f32⟩
  | 33 => ⟨S320000x128, .f32⟩
  | 34 => ⟨S320000x128, .f32⟩
  | 35 => ⟨S_, .f32⟩
  | 36 => ⟨S320000x128, .f32⟩
  | 37 => ⟨S320000x128, .f32⟩
  | 38 => ⟨S_, .f32⟩
  | 39 => ⟨S320000x128, .f32⟩
  | 40 => ⟨S320000x128, .f32⟩
  | 41 => ⟨S1x1x128, .f32⟩
  | 42 => ⟨S128, .f32⟩
  | 43 => ⟨S1x1x128, .f32⟩
  | 44 => ⟨S128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S320000x128, .f32⟩
  | 52 => ⟨S320000x128, .f32⟩
  | 53 => ⟨S320000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S320000x128, .f32⟩
  | 61 => ⟨S320000x128, .f32⟩
  | 62 => ⟨S1x128, .f32⟩
  | 63 => ⟨S320000x128, .f32⟩
  | 64 => ⟨S320000x128, .f32⟩
  | 65 => ⟨S_, .f32⟩
  | 66 => ⟨S128, .f32⟩
  | 67 => ⟨S128, .f32⟩
  | 68 => ⟨S128, .f32⟩
  | 69 => ⟨S1x128, .f32⟩
  | 70 => ⟨S320000x128, .f32⟩
  | 71 => ⟨S320000x128, .f32⟩
  | 72 => ⟨S1x128, .f32⟩
  | 73 => ⟨S320000x128, .f32⟩
  | 74 => ⟨S320000x128, .f32⟩
  | 75 => ⟨S_, .f32⟩
  | 76 => ⟨S320000x128, .f32⟩
  | 77 => ⟨S320000x128, .f32⟩
  | 78 => ⟨S320000x128, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x128, .f32⟩
  | 88 => ⟨S320000x128, .f32⟩
  | 89 => ⟨S_, .f32⟩
  | 90 => ⟨S20000x128, .f32⟩
  | 91 => ⟨S320000x1, .i32⟩
  | 92 => ⟨S20000x128, .f32⟩
  | 93 => ⟨S20000x128, .f32⟩
  | 94 => ⟨S1x1x128, .f32⟩
  | 95 => ⟨S128, .f32⟩
  | 96 => ⟨S1x1x128, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S1x128, .f32⟩
  | 104 => ⟨S20000x128, .f32⟩
  | 105 => ⟨S20000x128, .f32⟩
  | 106 => ⟨S20000x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S20000x128, .f32⟩
  | 114 => ⟨S20000x128, .f32⟩
  | 115 => ⟨S1x128, .f32⟩
  | 116 => ⟨S20000x128, .f32⟩
  | 117 => ⟨S20000x128, .f32⟩
  | 118 => ⟨S_, .f32⟩
  | 119 => ⟨S128, .f32⟩
  | 120 => ⟨S128, .f32⟩
  | 121 => ⟨S128, .f32⟩
  | 122 => ⟨S1x128, .f32⟩
  | 123 => ⟨S20000x128, .f32⟩
  | 124 => ⟨S20000x128, .f32⟩
  | 125 => ⟨S1x128, .f32⟩
  | 126 => ⟨S20000x128, .f32⟩
  | 127 => ⟨S20000x128, .f32⟩
  | _ => ⟨S20000x128, .f32⟩

abbrev hbmTy0_4 (i : Nat) : BufTy := match i % 128 with
  | 0 => ⟨S_, .f32⟩
  | 1 => ⟨S20000x128, .f32⟩
  | 2 => ⟨S20000x128, .f32⟩
  | 3 => ⟨S20000x128, .f32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x64, .f32⟩
  | 17 => ⟨S1x64, .f32⟩
  | 18 => ⟨S1x64, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c : Ref sig .tc := ⟨.hbm, 71, rfl⟩
abbrev main_v56 : Ref sig .tc := ⟨.hbm, 72, rfl⟩
abbrev main_v57 : Ref sig .tc := ⟨.hbm, 73, rfl⟩
abbrev main_c_0 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_1 : Ref sig .tc := ⟨.hbm, 81, rfl⟩
abbrev main_v64 : Ref sig .tc := ⟨.hbm, 82, rfl⟩
abbrev main_v65 : Ref sig .tc := ⟨.hbm, 83, rfl⟩
abbrev main_c_2 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst : Ref sig .tc := ⟨.hbm, 93, rfl⟩
abbrev main_v74 : Ref sig .tc := ⟨.hbm, 94, rfl⟩
abbrev main_v75 : Ref sig .tc := ⟨.hbm, 95, rfl⟩
abbrev main_cst_3 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_4 : Ref sig .tc := ⟨.hbm, 103, rfl⟩
abbrev main_v82 : Ref sig .tc := ⟨.hbm, 104, rfl⟩
abbrev main_cst_5 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_6 : Ref sig .tc := ⟨.hbm, 112, rfl⟩
abbrev main_v89 : Ref sig .tc := ⟨.hbm, 113, rfl⟩
abbrev main_cst_7 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_8 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_call0_cst : Ref sig .tc := ⟨.hbm, 133, rfl⟩
abbrev main_call0_v0 : Ref sig .tc := ⟨.hbm, 134, rfl⟩
abbrev main_v107 : Ref sig .tc := ⟨.hbm, 135, rfl⟩
abbrev main_v108 : Ref sig .tc := ⟨.hbm, 136, rfl⟩
abbrev main_c_9 : Ref sig .tc := ⟨.hbm, 137, rfl⟩
abbrev main_v109 : Ref sig .tc := ⟨.hbm, 138, rfl⟩
abbrev main_v110 : Ref sig .tc := ⟨.hbm, 139, rfl⟩
abbrev main_c_10 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_11 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_12 : Ref sig .tc := ⟨.hbm, 156, rfl⟩
abbrev main_v125 : Ref sig .tc := ⟨.hbm, 157, rfl⟩
abbrev main_cst_13 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_14 : Ref sig .tc := ⟨.hbm, 165, rfl⟩
abbrev main_v132 : Ref sig .tc := ⟨.hbm, 166, rfl⟩
abbrev main_cst_15 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_16 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_call1_cst : Ref sig .tc := ⟨.hbm, 186, rfl⟩
abbrev main_call1_v0 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_c_17 : Ref sig .tc := ⟨.hbm, 234, rfl⟩
abbrev main_v196 : Ref sig .tc := ⟨.hbm, 235, rfl⟩
abbrev main_v197 : Ref sig .tc := ⟨.hbm, 236, rfl⟩
abbrev main_c_18 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_c_19 : Ref sig .tc := ⟨.hbm, 244, rfl⟩
abbrev main_v204 : Ref sig .tc := ⟨.hbm, 245, rfl⟩
abbrev main_v205 : Ref sig .tc := ⟨.hbm, 246, rfl⟩
abbrev main_c_20 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_21 : Ref sig .tc := ⟨.hbm, 256, rfl⟩
abbrev main_v214 : Ref sig .tc := ⟨.hbm, 257, rfl⟩
abbrev main_v215 : Ref sig .tc := ⟨.hbm, 258, rfl⟩
abbrev main_cst_22 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_cst_23 : Ref sig .tc := ⟨.hbm, 266, rfl⟩
abbrev main_v222 : Ref sig .tc := ⟨.hbm, 267, rfl⟩
abbrev main_cst_24 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_cst_25 : Ref sig .tc := ⟨.hbm, 275, rfl⟩
abbrev main_v229 : Ref sig .tc := ⟨.hbm, 276, rfl⟩
abbrev main_cst_26 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_cst_27 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_call2_cst : Ref sig .tc := ⟨.hbm, 296, rfl⟩
abbrev main_call2_v0 : Ref sig .tc := ⟨.hbm, 297, rfl⟩
abbrev main_v247 : Ref sig .tc := ⟨.hbm, 298, rfl⟩
abbrev main_v248 : Ref sig .tc := ⟨.hbm, 299, rfl⟩
abbrev main_c_28 : Ref sig .tc := ⟨.hbm, 300, rfl⟩
abbrev main_v249 : Ref sig .tc := ⟨.hbm, 301, rfl⟩
abbrev main_v250 : Ref sig .tc := ⟨.hbm, 302, rfl⟩
abbrev main_c_29 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_cst_30 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_cst_31 : Ref sig .tc := ⟨.hbm, 319, rfl⟩
abbrev main_v265 : Ref sig .tc := ⟨.hbm, 320, rfl⟩
abbrev main_cst_32 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_cst_33 : Ref sig .tc := ⟨.hbm, 328, rfl⟩
abbrev main_v272 : Ref sig .tc := ⟨.hbm, 329, rfl⟩
abbrev main_cst_34 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_cst_35 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_call3_cst : Ref sig .tc := ⟨.hbm, 349, rfl⟩
abbrev main_call3_v0 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_v331 : Ref sig .tc := ⟨.hbm, 392, rfl⟩
abbrev main_v332 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_c_36 : Ref sig .tc := ⟨.hbm, 397, rfl⟩
abbrev main_v336 : Ref sig .tc := ⟨.hbm, 398, rfl⟩
abbrev main_v337 : Ref sig .tc := ⟨.hbm, 399, rfl⟩
abbrev main_c_37 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩
abbrev main_v343 : Ref sig .tc := ⟨.hbm, 406, rfl⟩
abbrev main_c_38 : Ref sig .tc := ⟨.hbm, 407, rfl⟩
abbrev main_v344 : Ref sig .tc := ⟨.hbm, 408, rfl⟩
abbrev main_v345 : Ref sig .tc := ⟨.hbm, 409, rfl⟩
abbrev main_c_39 : Ref sig .tc := ⟨.hbm, 410, rfl⟩
abbrev main_v346 : Ref sig .tc := ⟨.hbm, 411, rfl⟩
abbrev main_v347 : Ref sig .tc := ⟨.hbm, 412, rfl⟩
abbrev main_v348 : Ref sig .tc := ⟨.hbm, 413, rfl⟩
abbrev main_v349 : Ref sig .tc := ⟨.hbm, 414, rfl⟩
abbrev main_v350 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_cst_40 : Ref sig .tc := ⟨.hbm, 419, rfl⟩
abbrev main_v354 : Ref sig .tc := ⟨.hbm, 420, rfl⟩
abbrev main_v355 : Ref sig .tc := ⟨.hbm, 421, rfl⟩
abbrev main_cst_41 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_cst_42 : Ref sig .tc := ⟨.hbm, 429, rfl⟩
abbrev main_v362 : Ref sig .tc := ⟨.hbm, 430, rfl⟩
abbrev main_cst_43 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_v368 : Ref sig .tc := ⟨.hbm, 437, rfl⟩
abbrev main_cst_44 : Ref sig .tc := ⟨.hbm, 438, rfl⟩
abbrev main_v369 : Ref sig .tc := ⟨.hbm, 439, rfl⟩
abbrev main_cst_45 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_cst_46 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_call4_cst : Ref sig .tc := ⟨.hbm, 459, rfl⟩
abbrev main_call4_v0 : Ref sig .tc := ⟨.hbm, 460, rfl⟩
abbrev main_v387 : Ref sig .tc := ⟨.hbm, 461, rfl⟩
abbrev main_v388 : Ref sig .tc := ⟨.hbm, 462, rfl⟩
abbrev main_c_47 : Ref sig .tc := ⟨.hbm, 463, rfl⟩
abbrev main_v389 : Ref sig .tc := ⟨.hbm, 464, rfl⟩
abbrev main_v390 : Ref sig .tc := ⟨.hbm, 465, rfl⟩
abbrev main_c_48 : Ref sig .tc := ⟨.hbm, 466, rfl⟩
abbrev main_v391 : Ref sig .tc := ⟨.hbm, 467, rfl⟩
abbrev main_v392 : Ref sig .tc := ⟨.hbm, 468, rfl⟩
abbrev main_v393 : Ref sig .tc := ⟨.hbm, 469, rfl⟩
abbrev main_v394 : Ref sig .tc := ⟨.hbm, 470, rfl⟩
abbrev main_v395 : Ref sig .tc := ⟨.hbm, 471, rfl⟩
abbrev main_v396 : Ref sig .tc := ⟨.hbm, 472, rfl⟩
abbrev main_cst_49 : Ref sig .tc := ⟨.hbm, 473, rfl⟩
abbrev main_v397 : Ref sig .tc := ⟨.hbm, 474, rfl⟩
abbrev main_v398 : Ref sig .tc := ⟨.hbm, 475, rfl⟩
abbrev main_v399 : Ref sig .tc := ⟨.hbm, 476, rfl⟩
abbrev main_v400 : Ref sig .tc := ⟨.hbm, 477, rfl⟩
abbrev main_v401 : Ref sig .tc := ⟨.hbm, 478, rfl⟩
abbrev main_v402 : Ref sig .tc := ⟨.hbm, 479, rfl⟩
abbrev main_v403 : Ref sig .tc := ⟨.hbm, 480, rfl⟩
abbrev main_v404 : Ref sig .tc := ⟨.hbm, 481, rfl⟩
abbrev main_cst_50 : Ref sig .tc := ⟨.hbm, 482, rfl⟩
abbrev main_v405 : Ref sig .tc := ⟨.hbm, 483, rfl⟩
abbrev main_cst_51 : Ref sig .tc := ⟨.hbm, 484, rfl⟩
abbrev main_v406 : Ref sig .tc := ⟨.hbm, 485, rfl⟩
abbrev main_v407 : Ref sig .tc := ⟨.hbm, 486, rfl⟩
abbrev main_v408 : Ref sig .tc := ⟨.hbm, 487, rfl⟩
abbrev main_v409 : Ref sig .tc := ⟨.hbm, 488, rfl⟩
abbrev main_v410 : Ref sig .tc := ⟨.hbm, 489, rfl⟩
abbrev main_v411 : Ref sig .tc := ⟨.hbm, 490, rfl⟩
abbrev main_cst_52 : Ref sig .tc := ⟨.hbm, 491, rfl⟩
abbrev main_v412 : Ref sig .tc := ⟨.hbm, 492, rfl⟩
abbrev main_cst_53 : Ref sig .tc := ⟨.hbm, 493, rfl⟩
abbrev main_v413 : Ref sig .tc := ⟨.hbm, 494, rfl⟩
abbrev main_v414 : Ref sig .tc := ⟨.hbm, 495, rfl⟩
abbrev main_v415 : Ref sig .tc := ⟨.hbm, 496, rfl⟩
abbrev main_v416 : Ref sig .tc := ⟨.hbm, 497, rfl⟩
abbrev main_v417 : Ref sig .tc := ⟨.hbm, 498, rfl⟩
abbrev main_v418 : Ref sig .tc := ⟨.hbm, 499, rfl⟩
abbrev main_v419 : Ref sig .tc := ⟨.hbm, 500, rfl⟩
abbrev main_v420 : Ref sig .tc := ⟨.hbm, 501, rfl⟩
abbrev main_cst_54 : Ref sig .tc := ⟨.hbm, 502, rfl⟩
abbrev main_v421 : Ref sig .tc := ⟨.hbm, 503, rfl⟩
abbrev main_v422 : Ref sig .tc := ⟨.hbm, 504, rfl⟩
abbrev main_v423 : Ref sig .tc := ⟨.hbm, 505, rfl⟩
abbrev main_v424 : Ref sig .tc := ⟨.hbm, 506, rfl⟩
abbrev main_v425 : Ref sig .tc := ⟨.hbm, 507, rfl⟩
abbrev main_v426 : Ref sig .tc := ⟨.hbm, 508, rfl⟩
abbrev main_v427 : Ref sig .tc := ⟨.hbm, 509, rfl⟩
abbrev main_v428 : Ref sig .tc := ⟨.hbm, 510, rfl⟩
abbrev main_v429 : Ref sig .tc := ⟨.hbm, 511, rfl⟩
abbrev main_call5_cst : Ref sig .tc := ⟨.hbm, 512, rfl⟩
abbrev main_call5_v0 : Ref sig .tc := ⟨.hbm, 513, rfl⟩
abbrev main_v430 : Ref sig .tc := ⟨.hbm, 514, rfl⟩
abbrev main_v431 : Ref sig .tc := ⟨.hbm, 515, rfl⟩
abbrev main_cst_55 : Ref sig .tc := ⟨.hbm, 516, rfl⟩
abbrev main_v432 : Ref sig .tc := ⟨.hbm, 517, rfl⟩
abbrev main_v433 : Ref sig .tc := ⟨.hbm, 518, rfl⟩
abbrev main_cst_56 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_call6_cst : Ref sig .tc := ⟨.hbm, 525, rfl⟩
abbrev main_call6_v0 : Ref sig .tc := ⟨.hbm, 526, rfl⟩
abbrev main_v439 : Ref sig .tc := ⟨.hbm, 527, rfl⟩
abbrev main_v440 : Ref sig .tc := ⟨.hbm, 528, rfl⟩
abbrev main_v441 : Ref sig .tc := ⟨.hbm, 529, rfl⟩
abbrev main_v442 : Ref sig .tc := ⟨.hbm, 530, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S320000x128_0_1 : S1x128.BroadcastsInDim S320000x128 (![0, 1] : Fin 2 → Fin S320000x128.rank)
  slices_S3x5x128x128_S1x5x128x128_0_0_0_0 : S3x5x128x128.Slices ![0, 0, 0, 0] S1x5x128x128
  shapeCasts_S1x5x128x128_S5x128x128 : S1x5x128x128.ShapeCasts S5x128x128
  slices_S3x5x128_S1x5x128_0_0_0 : S3x5x128.Slices ![0, 0, 0] S1x5x128
  shapeCasts_S1x5x128_S5x128 : S1x5x128.ShapeCasts S5x128
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S320000 : S_.BroadcastsInDim S320000 (![] : Fin 0 → Fin S320000.rank)
  bcast_S320000_S320000x1_0 : S320000.BroadcastsInDim S320000x1 (![0] : Fin 1 → Fin S320000x1.rank)
  bcast_S_S320000x128 : S_.BroadcastsInDim S320000x128 (![] : Fin 0 → Fin S320000x128.rank)
  slices_S3x2x128_S1x1x128_0_1_0 : S3x2x128.Slices ![0, 1, 0] S1x1x128
  shapeCasts_S1x1x128_S128 : S1x1x128.ShapeCasts S128
  reducesTo_S320000x128_S128_d0 : S320000x128.ReducesTo [0] S128
  h_S_ : 0 < S_.numel
  bcast_S_S128 : S_.BroadcastsInDim S128 (![] : Fin 0 → Fin S128.rank)
  bcast_S_S20000x128 : S_.BroadcastsInDim S20000x128 (![] : Fin 0 → Fin S20000x128.rank)
  slices_S3x2x128_S1x1x128_0_0_0 : S3x2x128.Slices ![0, 0, 0] S1x1x128
  reducesTo_S20000x128_S128_d0 : S20000x128.ReducesTo [0] S128
  slices_S3x5x128x128_S1x5x128x128_1_0_0_0 : S3x5x128x128.Slices ![1, 0, 0, 0] S1x5x128x128
  slices_S3x5x128_S1x5x128_1_0_0 : S3x5x128.Slices ![1, 0, 0] S1x5x128
  slices_S3x2x128_S1x1x128_1_1_0 : S3x2x128.Slices ![1, 1, 0] S1x1x128
  slices_S3x2x128_S1x1x128_1_0_0 : S3x2x128.Slices ![1, 0, 0] S1x1x128
  slices_S3x5x128x128_S1x5x128x128_2_0_0_0 : S3x5x128x128.Slices ![2, 0, 0, 0] S1x5x128x128
  slices_S3x5x128_S1x5x128_2_0_0 : S3x5x128.Slices ![2, 0, 0] S1x5x128
  slices_S3x2x128_S1x1x128_2_1_0 : S3x2x128.Slices ![2, 1, 0] S1x1x128
  slices_S3x2x128_S1x1x128_2_0_0 : S3x2x128.Slices ![2, 0, 0] S1x1x128
  bcast_S_S1x128 : S_.BroadcastsInDim S1x128 (![] : Fin 0 → Fin S1x128.rank)
  bcast_S64_S1x64_1 : S64.BroadcastsInDim S1x64 (![1] : Fin 1 → Fin S1x64.rank)
  dot_S20000x128_S128x128_S20000x128_1_0_0_1_n_n_wf : DotDims.WF S20000x128 S128x128 S20000x128 [1] [0] [0] [1] [] []
  dot_S320000x128_S128x128_S320000x128_1_0_0_1_n_n_wf : DotDims.WF S320000x128 S128x128 S320000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S1x128_S128x128_S1x128_1_0_0_1_n_n_wf : DotDims.WF S1x128 S128x128 S1x128 [1] [0] [0] [1] [] []
  dot_S1x128_S128x64_S1x64_1_0_0_1_n_n_wf : DotDims.WF S1x128 S128x64 S1x64 [1] [0] [0] [1] [] []

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

class Facts : Prop extends Facts₀ where

variable [Facts]
-- ==== Proof.KRg0.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0: the affine map, one row block per grid point

Region 0 computes o = x·W + b over 10 grid points. At point t the body reads the t-th block of 2000 rows
of x (window 0), the whole 128x128 matrix W (window 1) and the 1x128 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The blocks the windows show -/

/-- The block of window w at grid point t: the window's view at t read off the window's array as the
    region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was
    fetched at that point or carried over from the point before (then the block index has not moved), for any
    proof data whose array is V's and whose body leaves the block where it is. Window 0: the rows of x. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, the matrix W, whose block is the whole array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for window 2, the bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer, whole -/

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-! ## What the body leaves in the output block -/

/-- The output block after the body, as a function of the three input blocks: the body's single store,
    of the affine payload of the three blocks read whole, laid over the whole buffer. -/
def out0_3 (x0 : Vec F S2000x128 .f32) (x1 : Vec F S128x128 .f32) (x2 : Vec F S1x128 .f32) : Vec F S2000x128 .f32 :=
  View.canon [⟨r0_x, k0_pay1 (View.ld x0 r0_x) (View.ld x1 r0_w) (View.ld x2 r0_b)⟩]

/-- The single store tiles the output buffer, so every index of the buffer lies in it. -/
theorem cover0_3 (p0 : Vec F S2000x128 .f32) (y : S2000x128.Idx) :
    ∃ pc ∈ ([⟨r0_x, p0⟩] : List (View.Piece (Elt F) S2000x128 .f32)), y ∈ pc.1.set :=
  View.cover_of_tiled [⟨r0_x, p0⟩] S2000x128.size (by rfl) y

/-! ## The body's triple -/

set_option maxHeartbeats 1000000 in
/-- The body, run on whole staging buffers with the three inputs at contents x0, x1, x2 and the output at
    any contents, reaches its continuation with the inputs as they were and the output at out0_3 of the inputs.
    The body also reads the output buffer before its store; the value read is not used. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of region 0 on core c: the arrays as the region finds them; after the body at point t
    each input buffer still at its block and the output buffer at out0_3 of the three input blocks; the
    invariant is the class's (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- The invariant at every point is the class invariant. -/
theorem Phi0_eq (c : Dev nD) (t : Fin (cfg0.N + 1)) : (dat0 V c).Φ t = Pipeline.ΦA spec0 c := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point t: the invariant, the core's debt, and the four staging buffers,
    each at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point t. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Rg

end
-- ==== Proof.KRg1.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 1: the affine map, one row block per grid point

Region 1 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The blocks the windows show -/

/-- The block of window w at grid point t: the window's view at t read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was
    fetched at that point or carried over from the point before (then the block index has not moved), for any
    proof data whose array is V's and whose body leaves the block where it is. Window 0: the rows of x. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the matrix W, whose block is the whole array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the bias row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer, whole -/

abbrev r1_x : Rect S4000x128 := Rect.unit (s := S4000x128) ![0, 0] S4000x128.size inb_S4000x128_S4000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out1_3 (x0 : Vec F S4000x128 .f32) (x1 : Vec F S128x128 .f32) (x2 : Vec F S1x128 .f32) : Vec F S4000x128 .f32 :=
  View.canon [⟨r1_o, k1_pay1 (View.ld x0 r1_x) (View.ld x1 r1_w) (View.ld x2 r1_b)⟩]

/-- The single store tiles the output buffer, so every index of the buffer lies in it. -/
theorem cover1_3 (p0 : Vec F S4000x128 .f32) (y : S4000x128.Idx) :
    ∃ pc ∈ ([⟨r1_o, p0⟩] : List (View.Piece (Elt F) S4000x128 .f32)), y ∈ pc.1.set :=
  View.cover_of_tiled [⟨r1_o, p0⟩] S4000x128.size (by rfl) y

/-! ## The body's triple -/

set_option maxHeartbeats 1000000 in
/-- The body, run on whole staging buffers with the three inputs at contents x0, x1, x2 and the output at
    any contents, reaches its continuation with the inputs as they were and the output at out1_3 of the inputs.
    The body also reads the output buffer before its store; the value read is not used. -/
theorem sound_kernel1 (c : Dev nD) (E : Set ℕ) (i : grid1.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of region 1 on core c: the arrays as the region finds them; after the body at point t
    each input buffer still at its block and the output buffer at out1_3 of the three input blocks; the
    invariant is the class's (the scoped rest and the generator register, untouched); nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- The invariant at every point is the class invariant. -/
theorem Phi1_eq (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point t: the invariant, the core's debt, and the four staging buffers,
    each at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns at point t. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Rg

end
-- ==== Proof.KRg2.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 2: the affine map, one row block per grid point

Region 2 computes o = x·W + b over 10 grid points. At point t the body reads the t-th block of 2000 rows
of x (window 0), the whole 128x512 matrix W (window 1) and the 1x512 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The blocks the windows show -/

/-- The block of window w at grid point t: the window's view at t read off the window's array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the block was
    fetched at that point or carried over from the point before (then the block index has not moved), for any
    proof data whose array is V's and whose body leaves the block where it is. Window 0: the rows of x. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for window 1, the matrix W, whose block is the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for window 2, the bias row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer, whole -/

abbrev r2_x : Rect S2000x128 := Rect.unit (s := S2000x128) ![0, 0] S2000x128.size inb_S2000x128_S2000x128_0_0
abbrev r2_w : Rect S128x512 := Rect.unit (s := S128x512) ![0, 0] S128x512.size inb_S128x512_S128x512_0_0
abbrev r2_b : Rect S1x512 := Rect.unit (s := S1x512) ![0, 0] S1x512.size inb_S1x512_S1x512_0_0
abbrev r2_o : Rect S2000x512 := Rect.unit (s := S2000x512) ![0, 0] S2000x512.size inb_S2000x512_S2000x512_0_0

/-! ## What the body leaves in the output block -/

/-- The output block after the body, as a function of the three input blocks: the body's single store,
    of the affine payload of the three blocks read whole, laid over the whole buffer. -/
def out2_3 (x0 : Vec F S2000x128 .f32) (x1 : Vec F S128x512 .f32) (x2 : Vec F S1x512 .f32) : Vec F S2000x512 .f32 :=
  View.canon [⟨r2_o, k2_pay1 (View.ld x0 r2_x) (View.ld x1 r2_w) (View.ld x2 r2_b)⟩]

/-- The single store tiles the output buffer, so every index of the buffer lies in it. -/
theorem cover2_3 (p0 : Vec F S2000x512 .f32) (y : S2000x512.Idx) :
    ∃ pc ∈ ([⟨r2_o, p0⟩] : List (View.Piece (Elt F) S2000x512 .f32)), y ∈ pc.1.set :=
  View.cover_of_tiled [⟨r2_o, p0⟩] S2000x512.size (by rfl) y

/-! ## The body's triple -/

set_option maxHeartbeats 1000000 in
/-- The body, run on whole staging buffers with the three inputs at contents x0, x1, x2 and the output at
    any contents, reaches its continuation with the inputs as they were and the output at out2_3 of the inputs.
    The body also reads the output buffer before its store; the value read is not used. -/
theorem sound_kernel2 (c : Dev nD) (E : Set ℕ) (i : grid2.Coords)
    (arg1 : Memref sig .tc .vmem S2000x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core c: the arrays as the region finds them; after the body at point t
    each input buffer still at its block and the output buffer at out2_3 of the three input blocks; the
    invariant is the class's (the scoped rest and the generator register, untouched); nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- The invariant at every point is the class invariant. -/
theorem Phi2_eq (c : Dev nD) (t : Fin (cfg2.N + 1)) : (dat2 V c).Φ t = Pipeline.ΦA spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point t: the invariant, the core's debt, and the four staging buffers,
    each at what the pipeline has put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns at point t. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant
    and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Rg

end
-- ==== Proof.KRg3.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: the affine map, one row block per grid point

Region 3 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The blocks the windows show -/

/-- The block of window w at grid point t: the window's view at t read off the window's array as the
    region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether the block was
    fetched at that point or carried over from the point before (then the block index has not moved), for any
    proof data whose array is V's and whose body leaves the block where it is. Window 0: the rows of x. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for window 1, the matrix W, whose block is the whole array at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for window 2, the bias row. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer, whole -/

abbrev r3_x : Rect S4000x128 := Rect.unit (s := S4000x128) ![0, 0] S4000x128.size inb_S4000x128_S4000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0
abbrev r3_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out3_3 (x0 : Vec F S4000x128 .f32) (x1 : Vec F S128x128 .f32) (x2 : Vec F S1x128 .f32) : Vec F S4000x128 .f32 :=
  View.canon [⟨r3_o, k3_pay1 (View.ld x0 r3_x) (View.ld x1 r3_w) (View.ld x2 r3_b)⟩]

/-- The single store tiles the output buffer, so every index of the buffer lies in it. -/
theorem cover3_3 (p0 : Vec F S4000x128 .f32) (y : S4000x128.Idx) :
    ∃ pc ∈ ([⟨r3_o, p0⟩] : List (View.Piece (Elt F) S4000x128 .f32)), y ∈ pc.1.set :=
  View.cover_of_tiled [⟨r3_o, p0⟩] S4000x128.size (by rfl) y

/-! ## The body's triple -/

set_option maxHeartbeats 1000000 in
/-- The body, run on whole staging buffers with the three inputs at contents x0, x1, x2 and the output at
    any contents, reaches its continuation with the inputs as they were and the output at out3_3 of the inputs.
    The body also reads the output buffer before its store; the value read is not used. -/
theorem sound_kernel3 (c : Dev nD) (E : Set ℕ) (i : grid3.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of region 3 on core c: the arrays as the region finds them; after the body at point t
    each input buffer still at its block and the output buffer at out3_3 of the three input blocks; the
    invariant is the class's (the scoped rest and the generator register, untouched); nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the contents at the region's entry. -/
theorem A_eq3 (c : Dev nD) (w : Fin cfg3.W) : (dat3 V c).A w = V c (Pipeline.arrRef spec3 w) := by
  dsimp only [dat3]

/-- The invariant at every point is the class invariant. -/
theorem Phi3_eq (c : Dev nD) (t : Fin (cfg3.N + 1)) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point t: the invariant, the core's debt, and the four staging buffers,
    each at what the pipeline has put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body returns at point t. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the body's triple applies; the invariant
    and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Rg

end
-- ==== Proof.KRg4.lean ====
/- The frame half of kernel region 4 (the gate kernel) of the program's run, generic in the float family: at the
   TensorCore's buffer contents V on entry, each window's block at a point of the grid, what the body leaves in its
   two output staging buffers as functions of the four input blocks, the body's triple, the region's exact proof data
   and the body obligation at every point. -/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! # Region 4: ehat = ce + dh + eh, msg = logistic ehat * bh, row block by row block -/

/-- The block of window w at grid point t, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, for any proof data whose array
    is the entry contents and whose body leaves the block where it found it: the window is uncut and has no idle point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 4000 x 128 block as a rectangle of itself: every load and store of the body is at it. -/
abbrev r4_0 : Rect S4000x128 := Rect.unit (s := S4000x128) ![0, 0] S4000x128.size inb_S4000x128_S4000x128_0_0

/-- The pre-activation block the body leaves in window 4's buffer, from the blocks of ce, dh, eh. -/
def out4_4 (x0 x1 x2 : Vec F S4000x128 .f32) : Vec F S4000x128 .f32 :=
  View.canon [⟨r4_0, k4_pay1 (View.ld x0 r4_0) (View.ld x1 r4_0) (View.ld x2 r4_0)⟩]

/-- The gated message block the body leaves in window 5's buffer, from the blocks of ce, dh, eh, bh. -/
def out4_5 (x0 x1 x2 x3 : Vec F S4000x128 .f32) : Vec F S4000x128 .f32 :=
  View.canon [⟨r4_0, k4_pay2 (View.ld x0 r4_0) (View.ld x1 r4_0) (View.ld x2 r4_0) (View.ld x3 r4_0)⟩]

/-- The one whole-block store covers the buffer. -/
theorem cover4 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

set_option maxHeartbeats 1000000 in
/-- The body on whole staging memrefs, the four inputs' at contents x0 … x3 and the two outputs' at anything, runs to
    a state with the inputs' as they were and the outputs' at out4_4 and out4_5 of the inputs'. The body reads each
    output memref once before it stores to it; the value read is not used. -/
theorem sound_kernel4 (c : Dev nD) (E : Set ℕ) (i : grid4.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2)
            ∗ owns (c : Thread nD τ) arg6 fullShare (out4_5 x0 x1 x2 x3)) -∗ K ⟨⟩))
      ⊢ wp frame (wpE (defs₀ (F := F)) Variants.none c none) E (cc4__gate_kernel i arg1 harg1 arg2 harg2 arg3 harg3 arg4 harg4 arg5 harg5 arg6 harg6) K := by
  simp only [cc4__gate_kernel_eq_skeleton]; unfold cc4__gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  iexists _; isplitr
  swap; · iexact H5
  ipureintro
  exact View.read_writes_eq_canon _ _ _ (cover4 _)

/-- The proof data of region 4 on core c: the arrays as the region finds them; after the body at point t each input's
    buffer at its block and the outputs' at out4_4, out4_5 of the input blocks; the class invariant; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t)
    | ⟨5, _⟩ => out4_5 (iblk4 V c 0 t) (iblk4 V c 1 t) (iblk4 V c 2 t) (iblk4 V c 3 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- The invariant is the class's at every point. -/
theorem Phi4_eq (c : Dev nD) (t : Fin (cfg4.N + 1)) : (dat4 V c).Φ t = Pipeline.ΦA spec4 c := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) := by dsimp only [dat4]
theorem after4_5 (c : Dev nD) (t : Fin cfg4.N) :
    (dat4 V c).after 5 t = out4_5 (iblk4 V c 0 t) (iblk4 V c 1 t) (iblk4 V c 2 t) (iblk4 V c 3 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Rg

end
-- ==== Proof.KRg5.lean ====
/-
  Region 5 of the kernel program: the batch statistics of a 320000 x 128 array, accumulated over 80 row blocks of
  4000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-row rectangle of a 1x128 buffer and the whole-block rectangle of a 4000x128 buffer. -/
abbrev rS5 : Rect S1x128 := Rect.unit (s := S1x128) ![0, 0] S1x128.size inb_S1x128_S1x128_0_0
abbrev rX5 : Rect S4000x128 := Rect.unit (s := S4000x128) ![0, 0] S4000x128.size inb_S4000x128_S4000x128_0_0

/-- The first conditional's condition (the grid coordinate is 0), as the kernel computes it. -/
def k5_cond1 (i : grid5.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 79): decided over the 80 points. -/
theorem hcond5_1 : ∀ t : Fin cfg5.N, k5_cond1 (grid5.coords t) = 1#1 ↔ t.val = 0 :=
  (by decide +kernel : ∀ t : Fin grid5.N, k5_cond1 (grid5.coords t) = 1#1 ↔ t.val = 0)
theorem hcond5_2 : ∀ t : Fin cfg5.N, k5_cond2 (grid5.coords t) = 1#1 ↔ t.val = 79 :=
  (by decide +kernel : ∀ t : Fin grid5.N, k5_cond2 (grid5.coords t) = 1#1 ↔ t.val = 79)

/-- One point's step of the two running rows: the row held so far plus the block's column sums (of the entries, of their squares). -/
def step5_0 (x : Vec F S4000x128 .f32) (s0 : Vec F S1x128 .f32) : Vec F S1x128 .f32 :=
  View.canon [⟨rS5, k5_pay4 (View.ld x rX5) (View.ld s0 rS5)⟩]
def step5_1 (x : Vec F S4000x128 .f32) (s1 : Vec F S1x128 .f32) : Vec F S1x128 .f32 :=
  View.canon [⟨rS5, k5_pay5 (View.ld x rX5) (View.ld s1 rS5)⟩]

/-- A store of the whole row covers the 1x128 buffer. -/
theorem coverS5 (p0 : Vec F S1x128 .f32) (y : S1x128.Idx) :
    ∃ pc ∈ ([⟨rS5, p0⟩] : List (View.Piece (Elt F) S1x128 .f32)), y ∈ pc.1.set :=
  View.cover_of_tiled [⟨rS5, p0⟩] S1x128.size (by rfl) y

set_option maxHeartbeats 1000000 in
/-- The body at a point that is neither first nor last: both conditionals fall through; the block and the two output rows are left as found, each scratch row steps. -/
theorem sound_kernel5_mid (c : Dev nD) (E : Set ℕ) (i : grid5.Coords) (hc1 : ¬ k5_cond1 i = 1#1) (hc2 : ¬ k5_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S4000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x ∗ owns (c : Thread nD τ) arg2 fullShare y1 ∗ owns (c : Thread nD τ) arg3 fullShare y2
            ∗ owns (c : Thread nD τ) arg4 fullShare (step5_0 x s0) ∗ owns (c : Thread nD τ) arg5 fullShare (step5_1 x s1)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f1, %hf1, H1⟩, H2, H3, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS5 _)
  iexists _; isplitr
  swap; · iexact H5
  ipureintro
  exact View.read_writes_eq_canon _ _ _ (coverS5 _)

/-- A whole-row store hides every earlier store: the contents are the last payload's. -/
theorem canon_headS5 (p : Vec F S1x128 .f32) (L : List (View.Piece (Elt F) S1x128 .f32)) :
    View.canon (⟨rS5, p⟩ :: L) = View.canon [⟨rS5, p⟩] := by
  funext y
  obtain ⟨pc, hm, hy⟩ := coverS5 p y
  rw [List.mem_singleton] at hm; subst hm
  obtain ⟨x, rfl⟩ := rS5.exists_idx_of_mem hy
  exact (View.canon_cons_emb rS5 p L x).trans (View.canon_cons_emb rS5 p [] x).symm

/-- What a buffer reads after a list of stores whose last is a whole-row store. -/
theorem read_writes_headS5 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS5, p⟩ :: L)) = View.canon [⟨rS5, p⟩] :=
  (View.read_writes_eq_canon v f _ (fun y => by
    obtain ⟨pc, hm, hy⟩ := coverS5 p y
    rw [List.mem_singleton] at hm; subst hm
    exact ⟨_, List.mem_cons_self, hy⟩)).trans (canon_headS5 p L)

/-- The zero rows the first point resets the two scratch rows to. -/
def init5_0 : Vec F S1x128 .f32 := View.canon [⟨rS5, k5_pay1 (F := F)⟩]
def init5_1 : Vec F S1x128 .f32 := View.canon [⟨rS5, k5_pay2 (F := F)⟩]

set_option maxHeartbeats 1000000 in
/-- The body at the first point: the scratch rows, found at anything, are reset to zero and then step; the output rows are left as found. -/
theorem sound_kernel5_first (c : Dev nD) (E : Set ℕ) (i : grid5.Coords) (hc1 : k5_cond1 i = 1#1) (hc2 : ¬ k5_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S4000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y1 ∗ owns (c : Thread nD τ) arg3 fullShare y2
            ∗ owns (c : Thread nD τ) arg4 fullShare (step5_0 x init5_0) ∗ owns (c : Thread nD τ) arg5 fullShare (step5_1 x init5_1)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f1, %hf1, H1⟩, H2, H3, ⟨%d4, %f4, -, H4⟩, ⟨%d5, %f5, -, H5⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel5_first.sl.v5 sound_kernel5_first.sl.H4_1
    rw [View.readCov_eq_canon_ld _ _ _ (coverS5 _)]
    exact read_writes_headS5 _ _ _ _
  iexists _; isplitr
  swap; · iexact H5
  ipureintro
  unfold sound_kernel5_first.sl.v12 sound_kernel5_first.sl.H5_1
  rw [View.readCov_eq_canon_ld _ _ _ (coverS5 _)]
  exact read_writes_headS5 _ _ _ _

/-- The output rows as the last point computes them from the final running rows: the mean is the column sum over the count; the variance is the sum of squares over the count minus the squared mean. -/
def out5_1 (s0 : Vec F S1x128 .f32) : Vec F S1x128 .f32 :=
  View.canon [⟨rS5, k5_pay6 (View.ld s0 rS5)⟩]
def out5_2 (s0 s1 : Vec F S1x128 .f32) : Vec F S1x128 .f32 :=
  View.canon [⟨rS5, k5_pay7 (View.ld s0 rS5) (View.ld s1 rS5)⟩]

set_option maxHeartbeats 1000000 in
/-- The body at the last point: the scratch rows step, then the two output rows, found at anything, are stored from the stepped rows. -/
theorem sound_kernel5_last (c : Dev nD) (E : Set ℕ) (i : grid5.Coords) (hc1 : ¬ k5_cond1 i = 1#1) (hc2 : k5_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S4000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (out5_1 (step5_0 x s0))
            ∗ owns (c : Thread nD τ) arg3 fullShare (out5_2 (step5_0 x s0) (step5_1 x s1))
            ∗ owns (c : Thread nD τ) arg4 fullShare (step5_0 x s0) ∗ owns (c : Thread nD τ) arg5 fullShare (step5_1 x s1)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel5_last.sl.v23 sound_kernel5_last.sl.H4_1
    rw [View.readCov_eq_canon_ld _ _ _ (coverS5 _)]
    exact View.read_writes_eq_canon _ _ _ (coverS5 _)
  isplitl [H3]
  · iexists _; isplitr
    swap; · iexact H3
    ipureintro
    unfold sound_kernel5_last.sl.v23 sound_kernel5_last.sl.v26 sound_kernel5_last.sl.H4_1 sound_kernel5_last.sl.H5_1
    rw [View.readCov_eq_canon_ld _ _ _ (coverS5 _), View.readCov_eq_canon_ld _ _ _ (coverS5 _)]
    exact View.read_writes_eq_canon _ _ _ (coverS5 _)
  isplitl [H4]
  · iexists _; isplitr
    swap; · iexact H4
    ipureintro
    exact View.read_writes_eq_canon _ _ _ (coverS5 _)
  iexists _; isplitr
  swap; · iexact H5
  ipureintro
  exact View.read_writes_eq_canon _ _ _ (coverS5 _)

section Regions
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current buffer holds its block at every point, for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- THE ACCUMULATION. The two scratch rows after point n: at point 0 one step from the zero rows, afterwards one step from what the point before left. -/
def acc5 (c : Dev nD) : (n : ℕ) → n < cfg5.N → Vec F S1x128 .f32 × Vec F S1x128 .f32
  | 0, hn => (step5_0 (iblk5 V c 0 ⟨0, hn⟩) init5_0, step5_1 (iblk5 V c 0 ⟨0, hn⟩) init5_1)
  | n + 1, hn => (step5_0 (iblk5 V c 0 ⟨n + 1, hn⟩) (acc5 c n (Nat.lt_of_succ_lt hn)).1,
      step5_1 (iblk5 V c 0 ⟨n + 1, hn⟩) (acc5 c n (Nat.lt_of_succ_lt hn)).2)

/-- The accumulation at the first point, and at a later point over the point before. -/
theorem acc5_zero (c : Dev nD) (t : Fin cfg5.N) (h0 : t.val = 0) :
    acc5 V c t.val t.isLt = (step5_0 (iblk5 V c 0 t) init5_0, step5_1 (iblk5 V c 0 t) init5_1) := by
  obtain ⟨n, hn⟩ := t
  cases n with
  | zero => rfl
  | succ n => exact absurd h0 (Nat.succ_ne_zero n)

theorem acc5_pos (c : Dev nD) (t : Fin cfg5.N) (h0 : t.val ≠ 0) :
    acc5 V c t.val t.isLt = (step5_0 (iblk5 V c 0 t) (acc5 V c (t.val - 1) (Nat.lt_of_le_of_lt (Nat.sub_le _ _) t.isLt)).1,
      step5_1 (iblk5 V c 0 t) (acc5 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM5_0 : Memref sig .tc .vmem S1x128 .f32 := Memref.whole cc5_scratch0
abbrev scM5_1 : Memref sig .tc .vmem S1x128 .f32 := Memref.whole cc5_scratch1

/-- What enters the invariant besides the scoped buffers: the generator register at some state. -/
def X5 (c : Dev nD) : sProp 𝕄 := iprop(∃ r, prngReg c r)

/-- The region invariant before position n: the generator register, the scoped buffers other than the two scratch rows, and the two scratch rows — at anything before the first point, afterwards at what the point before left. -/
def PhiS5 (c : Dev nD) : (n : ℕ) → n ≤ cfg5.N → sProp 𝕄
  | 0, _ => iprop(X5 (F := F) c ∗ Pipeline.scopedRestBut spec5 c [cc5_scratch0, cc5_scratch1]
      ∗ (∃ d, owns (c : Thread nD τ) scM5_0 fullShare d) ∗ (∃ d, owns (c : Thread nD τ) scM5_1 fullShare d))
  | n + 1, hn => iprop(X5 (F := F) c ∗ Pipeline.scopedRestBut spec5 c [cc5_scratch0, cc5_scratch1]
      ∗ owns (c : Thread nD τ) scM5_0 fullShare (acc5 V c n hn).1 ∗ owns (c : Thread nD τ) scM5_1 fullShare (acc5 V c n hn).2)

/-- The invariant's three readings: before the first point, after point n, before a later point. -/
theorem PhiS5_zero (c : Dev nD) (n : ℕ) (h : n ≤ cfg5.N) (hz : n = 0) :
    PhiS5 V c n h = iprop(X5 (F := F) c ∗ Pipeline.scopedRestBut spec5 c [cc5_scratch0, cc5_scratch1]
      ∗ (∃ d, owns (c : Thread nD τ) scM5_0 fullShare d) ∗ (∃ d, owns (c : Thread nD τ) scM5_1 fullShare d)) := by
  subst hz; rfl

theorem PhiS5_succ (c : Dev nD) (n : ℕ) (hn : n < cfg5.N) :
    PhiS5 V c (n + 1) hn = iprop(X5 (F := F) c ∗ Pipeline.scopedRestBut spec5 c [cc5_scratch0, cc5_scratch1]
      ∗ owns (c : Thread nD τ) scM5_0 fullShare (acc5 V c n hn).1 ∗ owns (c : Thread nD τ) scM5_1 fullShare (acc5 V c n hn).2) := rfl

theorem PhiS5_pos (c : Dev nD) (n : ℕ) (h : n ≤ cfg5.N) (hz : n ≠ 0) :
    PhiS5 V c n h = iprop(X5 (F := F) c ∗ Pipeline.scopedRestBut spec5 c [cc5_scratch0, cc5_scratch1]
      ∗ owns (c : Thread nD τ) scM5_0 fullShare (acc5 V c (n - 1) (by omega)).1 ∗ owns (c : Thread nD τ) scM5_1 fullShare (acc5 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (acc5 V c t.val t.isLt).1
    | ⟨2, _⟩ => out5_2 (acc5 V c t.val t.isLt).1 (acc5 V c t.val t.isLt).2
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = out5_1 (acc5 V c t.val t.isLt).1 := by dsimp only [dat5]
theorem after5_2 (c : Dev nD) (t : Fin cfg5.N) : (dat5 V c).after 2 t = out5_2 (acc5 V c t.val t.isLt).1 (acc5 V c t.val t.isLt).2 := by dsimp only [dat5]

/-- The input's current buffer holds its block at every point. -/
theorem before5_0 (c : Dev nD) (t : Fin cfg5.N) (d) : (dat5 V c).before 0 t d = iblk5 V c 0 t :=
  before5_0_of V (dat5 V c) (A_eq5 V c 0) (after5_0 V c) t d

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- Where the windows are idle: the input never; each output row exactly off the last point, where it is not written back either. -/
theorem liveAt5_0 (t : Fin cfg5.N) : cfg5.idle 0 (cfg5.grid.coords t) = false := rfl

theorem idleAt5_1 (t : Fin cfg5.N) (h : ¬ k5_cond2 (grid5.coords t) = 1#1) : cfg5.idle 1 (cfg5.grid.coords t) = true := by
  show (!(k5_cond2 (grid5.coords t) == 1#1)) = true
  rw [Bool.not_eq_true', beq_eq_false_iff_ne]; exact h
theorem idleAt5_2 (t : Fin cfg5.N) (h : ¬ k5_cond2 (grid5.coords t) = 1#1) : cfg5.idle 2 (cfg5.grid.coords t) = true := by
  show (!(k5_cond2 (grid5.coords t) == 1#1)) = true
  rw [Bool.not_eq_true', beq_eq_false_iff_ne]; exact h
theorem liveAt5_1 (t : Fin cfg5.N) (h : k5_cond2 (grid5.coords t) = 1#1) : cfg5.idle 1 (cfg5.grid.coords t) = false := by
  show (!(k5_cond2 (grid5.coords t) == 1#1)) = false
  rw [h]; rfl
theorem liveAt5_2 (t : Fin cfg5.N) (h : k5_cond2 (grid5.coords t) = 1#1) : cfg5.idle 2 (cfg5.grid.coords t) = false := by
  show (!(k5_cond2 (grid5.coords t) == 1#1)) = false
  rw [h]; rfl

theorem noFlush5_1 (t : Fin cfg5.N) (h : t.val ≠ 79) : (cfg5.win 1).flush t = false := by
  have hN : t.val < 80 := lt_of_lt_of_eq t.isLt (show cfg5.N = 80 from N_5)
  cases hf : (cfg5.win 1).flush t with
  | false => rfl
  | true => exact absurd ((flush5_1 t).mp hf) (by omega)
theorem noFlush5_2 (t : Fin cfg5.N) (h : t.val ≠ 79) : (cfg5.win 2).flush t = false := by
  have hN : t.val < 80 := lt_of_lt_of_eq t.isLt (show cfg5.N = 80 from N_5)
  cases hf : (cfg5.win 2).flush t with
  | false => rfl
  | true => exact absurd ((flush5_2 t).mp hf) (by omega)

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
/-- The body at any point, by the point's position: first (scratch at anything, reset), last (the output rows stored), or between; the invariant hands the scratch rows over at what the point before left and takes them back stepped. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
    unfold Dat.leavesExact; rw [liveAt5_0 t], after5_0]
  have hN : t.val < 80 := lt_of_lt_of_eq t.isLt (show cfg5.N = 80 from N_5)
  by_cases h0 : t.val = 0
  · have hc1 : k5_cond1 (grid5.coords t) = 1#1 := (hcond5_1 t).mpr h0
    have hc2 : ¬ k5_cond2 (grid5.coords t) = 1#1 := fun h => by have := (hcond5_2 t).mp h; omega
    rw [Dat.leavesExact_idle (dat5 V c) 1 t (idleAt5_1 t hc2) (noFlush5_1 t (by omega)),
      Dat.leavesExact_idle (dat5 V c) 2 t (idleAt5_2 t hc2) (noFlush5_2 t (by omega))]
    rw [acc5_zero V c t h0]
    rw [PhiS5_castSucc V c t, PhiS5_zero V c _ _ h0]
    iintro ⟨⟨HX, HR, HS0, HS1⟩, Ho, ⟨%d0, H0⟩, ⟨%d1, H1⟩, ⟨%d2, H2⟩⟩
    iapply (sound_kernel5_first c Set.univ (grid5.coords t) hc1 hc2 _ _ _ _ _ _ _ _ _ _ (iblk5 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k5_cond1 (grid5.coords t) = 1#1 := fun h => h0 ((hcond5_1 t).mp h)
    rw [acc5_pos V c t h0]
    rw [PhiS5_castSucc V c t, PhiS5_pos V c _ _ h0]
    by_cases h79 : t.val = 79
    · have hc2 : k5_cond2 (grid5.coords t) = 1#1 := (hcond5_2 t).mpr h79
      rw [show (dat5 V c).leavesExact 1 t = owns (c : Thread nD τ) (st5_1 t) fullShare ((dat5 V c).after 1 t) from by
        unfold Dat.leavesExact; rw [liveAt5_1 t hc2], after5_1]
      rw [show (dat5 V c).leavesExact 2 t = owns (c : Thread nD τ) (st5_2 t) fullShare ((dat5 V c).after 2 t) from by
        unfold Dat.leavesExact; rw [liveAt5_2 t hc2], after5_2]
      rw [acc5_pos V c t h0]
      iintro ⟨⟨HX, HR, HS0, HS1⟩, Ho, ⟨%d0, H0⟩, ⟨%d1, H1⟩, ⟨%d2, H2⟩⟩
      iapply (sound_kernel5_last c Set.univ (grid5.coords t) hc1 hc2 _ _ _ _ _ _ _ _ _ _ (iblk5 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k5_cond2 (grid5.coords t) = 1#1 := fun h => h79 ((hcond5_2 t).mp h)
      rw [Dat.leavesExact_idle (dat5 V c) 1 t (idleAt5_1 t hc2) (noFlush5_1 t h79),
        Dat.leavesExact_idle (dat5 V c) 2 t (idleAt5_2 t hc2) (noFlush5_2 t h79)]
      iintro ⟨⟨HX, HR, HS0, HS1⟩, Ho, ⟨%d0, H0⟩, ⟨%d1, H1⟩, ⟨%d2, H2⟩⟩
      iapply (sound_kernel5_mid c Set.univ (grid5.coords t) hc1 hc2 _ _ _ _ _ _ _ _ _ _ (iblk5 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

/-- Entry: the generator register and the scoped buffers (the two scratch rows among them, at anything) make the invariant before the first point. -/
theorem hin5 (c : Dev nD) : iprop(X5 (F := F) c ∗ Pipeline.scopedRest spec5 c) ⊢ (dat5 V c).Φ 0 := by
  rw [show (dat5 V c).Φ 0 = PhiS5 V c 0 (Nat.zero_le _) from rfl, PhiS5_zero V c 0 _ rfl, scopedRest5_split]
  simp only [scM5_0, scM5_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout5 (c : Dev nD) : (dat5 V c).Φ (Fin.last cfg5.N) ⊢ iprop(X5 (F := F) c ∗ Pipeline.scopedRest spec5 c) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 80 := N_5; omega), scopedRest5_split]
  simp only [scM5_0, scM5_1, owns_whole]
  iintro ⟨HX, HR, HS0, HS1⟩
  isplitl [HX]; · iexact HX
  isplitl [HS0 HS1]
  · isplitl [HS0]; · iexists _; iexact HS0
    iexists _; iexact HS1
  iexact HR

end Regions

end Cert.Kernel.Rg

end
-- ==== Proof.KRg6.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 6: normalise, rectify, add the residual — the frame half

Region 6 walks the 320000 rows of its operands in 80 blocks of 4000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses -/

/-- The whole 4000x128 block, -/
abbrev r6_big : Rect S4000x128 := Rect.unit (s := S4000x128) ![0, 0] S4000x128.size inb_S4000x128_S4000x128_0_0
/-- and the whole 1x128 row. -/
abbrev r6_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out6_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r6_big, k6_pay1 (View.ld x0 r6_big) (View.ld x4 r6_row) (View.ld x2 r6_row) (View.ld x3 r6_row) (View.ld x5 r6_row) (View.ld x1 r6_big)⟩]

/-- The one store is of the whole block, so it covers it. -/
theorem cover6_6 (p0 : Vec F S4000x128 .f32) (y : S4000x128.Idx) :
    ∃ pc ∈ ([⟨r6_big, p0⟩] : List (View.Piece (Elt F) S4000x128 .f32)), y ∈ pc.1.set :=
  View.cover_of_tiled [⟨r6_big, p0⟩] S4000x128.size (by rfl) y

/-! ## The body's triple -/

set_option maxHeartbeats 1000000 in
/-- The body, run on whole staging buffers holding the six input blocks and an output buffer holding anything,
    returns the inputs' buffers unchanged and the output's buffer at out6_6 of the inputs. -/
theorem sound_kernel6 (c : Dev nD) (E : Set ℕ) (i : grid6.Coords)
    (arg1 : Memref sig .tc .vmem S4000x128 .f32) (harg1 : arg1.IsWhole) (arg2 : Memref sig .tc .vmem S4000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E (cc6__bn_relu_residual_kernel i arg1 harg1 arg2 harg2 arg3 harg3 arg4 harg4 arg5 harg5 arg6 harg6 arg7 harg7) K := by
  simp only [cc6__bn_relu_residual_kernel_eq_skeleton]; unfold cc6__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The region's proof data -/

/-- The proof data of region 6 on core c: the arrays as the region finds them; after the body at point t each
    input's buffer at its block and the output's at out6_6 of the six input blocks; the invariant the untouched
    rest of the core's state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- The invariant is the same at every point: the rest of the core's state, untouched. -/
theorem Phi6_eq (c : Dev nD) (t : Fin (cfg6.N + 1)) : (dat6 V c).Φ t = Pipeline.ΦA spec6 c := rfl

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t
    = out6_6 (iblk6 V c 0 t) (iblk6 V c 1 t) (iblk6 V c 2 t) (iblk6 V c 3 t) (iblk6 V c 4 t) (iblk6 V c 5 t) := by dsimp only [dat6]

/-- Each input's staging buffer holds its block at every point, whether or not the block was fetched at that
    point: a window not fetched at a point has the block index of the point before, and the body leaves an
    input's buffer as it found it. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6 V c 0]; try rfl) t d).trans
    (by unfold Dat.fetched Dat.blockOf iblk6; rw [A_eq6 V c 0]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6 V c 1]; try rfl) t d).trans
    (by unfold Dat.fetched Dat.blockOf iblk6; rw [A_eq6 V c 1]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6 V c 2]; try rfl) t d).trans
    (by unfold Dat.fetched Dat.blockOf iblk6; rw [A_eq6 V c 2]; try rfl)
theorem before6_3 (c : Dev nD) (t : Fin cfg6.N) (d) : (dat6 V c).before 3 t d = iblk6 V c 3 t :=
  ((dat6 V c).before_in_eq_fetched 3 rfl (fun _ => rfl) (fun _ _ _ => rfl)
      (fun t => by rw [after6_3]; unfold Dat.blockOf iblk6; rw [A_eq6 V c 3]; try rfl) t d).trans
    (by unfold Dat.fetched Dat.blockOf iblk6; rw [A_eq6 V c 3]; try rfl)
theorem before6_4 (c : Dev nD) (t : Fin cfg6.N) (d) : (dat6 V c).before 4 t d = iblk6 V c 4 t :=
  ((dat6 V c).before_in_eq_fetched 4 rfl (fun _ => rfl) (fun _ _ _ => rfl)
      (fun t => by rw [after6_4]; unfold Dat.blockOf iblk6; rw [A_eq6 V c 4]; try rfl) t d).trans
    (by unfold Dat.fetched Dat.blockOf iblk6; rw [A_eq6 V c 4]; try rfl)
theorem before6_5 (c : Dev nD) (t : Fin cfg6.N) (d) : (dat6 V c).before 5 t d = iblk6 V c 5 t :=
  ((dat6 V c).before_in_eq_fetched 5 rfl (fun _ => rfl) (fun _ _ _ => rfl)
      (fun t => by rw [after6_5]; unfold Dat.blockOf iblk6; rw [A_eq6 V c 5]; try rfl) t d).trans
    (by unfold Dat.fetched Dat.blockOf iblk6; rw [A_eq6 V c 5]; try rfl)

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Rg

end
-- ==== Proof.KRg7.lean ====
/-
  Region 7 of the kernel program: the batch statistics of a 20000 x 128 array, accumulated over 10 row blocks of
  2000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-row rectangle of a 1x128 buffer and the whole-block rectangle of a 2000x128 buffer. -/
abbrev rS7 : Rect S1x128 := Rect.unit (s := S1x128) ![0, 0] S1x128.size inb_S1x128_S1x128_0_0
abbrev rX7 : Rect S2000x128 := Rect.unit (s := S2000x128) ![0, 0] S2000x128.size inb_S2000x128_S2000x128_0_0

/-- The first conditional's condition (the grid coordinate is 0), as the kernel computes it. -/
def k7_cond1 (i : grid7.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 9): decided over the 10 points. -/
theorem hcond7_1 : ∀ t : Fin cfg7.N, k7_cond1 (grid7.coords t) = 1#1 ↔ t.val = 0 :=
  (by decide +kernel : ∀ t : Fin grid7.N, k7_cond1 (grid7.coords t) = 1#1 ↔ t.val = 0)
theorem hcond7_2 : ∀ t : Fin cfg7.N, k7_cond2 (grid7.coords t) = 1#1 ↔ t.val = 9 :=
  (by decide +kernel : ∀ t : Fin grid7.N, k7_cond2 (grid7.coords t) = 1#1 ↔ t.val = 9)

/-- One point's step of the two running rows: the row held so far plus the block's column sums (of the entries, of their squares). -/
def step7_0 (x : Vec F S2000x128 .f32) (s0 : Vec F S1x128 .f32) : Vec F S1x128 .f32 :=
  View.canon [⟨rS7, k7_pay4 (View.ld x rX7) (View.ld s0 rS7)⟩]
def step7_1 (x : Vec F S2000x128 .f32) (s1 : Vec F S1x128 .f32) : Vec F S1x128 .f32 :=
  View.canon [⟨rS7, k7_pay5 (View.ld x rX7) (View.ld s1 rS7)⟩]

/-- A store of the whole row covers the 1x128 buffer. -/
theorem coverS7 (p0 : Vec F S1x128 .f32) (y : S1x128.Idx) :
    ∃ pc ∈ ([⟨rS7, p0⟩] : List (View.Piece (Elt F) S1x128 .f32)), y ∈ pc.1.set :=
  View.cover_of_tiled [⟨rS7, p0⟩] S1x128.size (by rfl) y

set_option maxHeartbeats 1000000 in
/-- The body at a point that is neither first nor last: both conditionals fall through; the block and the two output rows are left as found, each scratch row steps. -/
theorem sound_kernel7_mid (c : Dev nD) (E : Set ℕ) (i : grid7.Coords) (hc1 : ¬ k7_cond1 i = 1#1) (hc2 : ¬ k7_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg7 : Memref sig .tc .vmem S1x128 .f32) (harg7 : arg7.IsWhole)
    (x : Vec F S2000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg7 fullShare s1
        ∗ (iprop(owns (c : Thread nD τ) arg1 fullShare x ∗ owns (c : Thread nD τ) arg2 fullShare y1 ∗ owns (c : Thread nD τ) arg3 fullShare y2
            ∗ owns (c : Thread nD τ) arg4 fullShare (step7_0 x s0) ∗ owns (c : Thread nD τ) arg7 fullShare (step7_1 x s1)) -∗ K ⟨⟩))
      ⊢ wp frame (wpE (defs₀ (F := F)) Variants.none c none) E (cc7_kernel i arg1 harg1 arg2 harg2 arg3 harg3 arg4 harg4 arg7 harg7) K := by
  simp only [cc7_kernel_eq_skeleton]; unfold cc7_kernel_skel
  unfold owns
  iintro ⟨⟨%f1, %hf1, H1⟩, H2, H3, ⟨%f4, %hf4, H4⟩, ⟨%f7, %hf7, H7⟩, Hk⟩
  subst hf1; subst hf4; subst hf7
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS7 _)
  iexists _; isplitr
  swap; · iexact H7
  ipureintro
  exact View.read_writes_eq_canon _ _ _ (coverS7 _)

/-- A whole-row store hides every earlier store: the contents are the last payload's. -/
theorem canon_headS7 (p : Vec F S1x128 .f32) (L : List (View.Piece (Elt F) S1x128 .f32)) :
    View.canon (⟨rS7, p⟩ :: L) = View.canon [⟨rS7, p⟩] := by
  funext y
  obtain ⟨pc, hm, hy⟩ := coverS7 p y
  rw [List.mem_singleton] at hm; subst hm
  obtain ⟨x, rfl⟩ := rS7.exists_idx_of_mem hy
  exact (View.canon_cons_emb rS7 p L x).trans (View.canon_cons_emb rS7 p [] x).symm

/-- What a buffer reads after a list of stores whose last is a whole-row store. -/
theorem read_writes_headS7 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS7, p⟩ :: L)) = View.canon [⟨rS7, p⟩] :=
  (View.read_writes_eq_canon v f _ (fun y => by
    obtain ⟨pc, hm, hy⟩ := coverS7 p y
    rw [List.mem_singleton] at hm; subst hm
    exact ⟨_, List.mem_cons_self, hy⟩)).trans (canon_headS7 p L)

/-- The zero rows the first point resets the two scratch rows to. -/
def init7_0 : Vec F S1x128 .f32 := View.canon [⟨rS7, k7_pay1 (F := F)⟩]
def init7_1 : Vec F S1x128 .f32 := View.canon [⟨rS7, k7_pay2 (F := F)⟩]

set_option maxHeartbeats 1000000 in
/-- The body at the first point: the scratch rows, found at anything, are reset to zero and then step; the output rows are left as found. -/
theorem sound_kernel7_first (c : Dev nD) (E : Set ℕ) (i : grid7.Coords) (hc1 : k7_cond1 i = 1#1) (hc2 : ¬ k7_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg7 : Memref sig .tc .vmem S1x128 .f32) (harg7 : arg7.IsWhole)
    (x : Vec F S2000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg7 fullShare d)
        ∗ (iprop(owns (c : Thread nD τ) arg1 fullShare x ∗ owns (c : Thread nD τ) arg2 fullShare y1 ∗ owns (c : Thread nD τ) arg3 fullShare y2
            ∗ owns (c : Thread nD τ) arg4 fullShare (step7_0 x init7_0) ∗ owns (c : Thread nD τ) arg7 fullShare (step7_1 x init7_1)) -∗ K ⟨⟩))
      ⊢ wp frame (wpE (defs₀ (F := F)) Variants.none c none) E (cc7_kernel i arg1 harg1 arg2 harg2 arg3 harg3 arg4 harg4 arg7 harg7) K := by
  simp only [cc7_kernel_eq_skeleton]; unfold cc7_kernel_skel
  unfold owns
  iintro ⟨⟨%f1, %hf1, H1⟩, H2, H3, ⟨%d4, %f4, -, H4⟩, ⟨%d7, %f7, -, H7⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel7_first.sl.v5 sound_kernel7_first.sl.H4_1
    rw [View.readCov_eq_canon_ld _ _ _ (coverS7 _)]
    exact read_writes_headS7 _ _ _ _
  iexists _; isplitr
  swap; · iexact H7
  ipureintro
  unfold sound_kernel7_first.sl.v12 sound_kernel7_first.sl.H7_1
  rw [View.readCov_eq_canon_ld _ _ _ (coverS7 _)]
  exact read_writes_headS7 _ _ _ _

/-- The output rows as the last point computes them from the final running rows: the mean is the column sum over the count; the variance is the sum of squares over the count minus the squared mean. -/
def out7_1 (s0 : Vec F S1x128 .f32) : Vec F S1x128 .f32 :=
  View.canon [⟨rS7, k7_pay6 (View.ld s0 rS7)⟩]
def out7_2 (s0 s1 : Vec F S1x128 .f32) : Vec F S1x128 .f32 :=
  View.canon [⟨rS7, k7_pay7 (View.ld s0 rS7) (View.ld s1 rS7)⟩]

set_option maxHeartbeats 1000000 in
/-- The body at the last point: the scratch rows step, then the two output rows, found at anything, are stored from the stepped rows. -/
theorem sound_kernel7_last (c : Dev nD) (E : Set ℕ) (i : grid7.Coords) (hc1 : ¬ k7_cond1 i = 1#1) (hc2 : k7_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg7 : Memref sig .tc .vmem S1x128 .f32) (harg7 : arg7.IsWhole)
    (x : Vec F S2000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg7 fullShare s1
        ∗ (iprop(owns (c : Thread nD τ) arg1 fullShare x ∗ owns (c : Thread nD τ) arg2 fullShare (out7_1 (step7_0 x s0))
            ∗ owns (c : Thread nD τ) arg3 fullShare (out7_2 (step7_0 x s0) (step7_1 x s1))
            ∗ owns (c : Thread nD τ) arg4 fullShare (step7_0 x s0) ∗ owns (c : Thread nD τ) arg7 fullShare (step7_1 x s1)) -∗ K ⟨⟩))
      ⊢ wp frame (wpE (defs₀ (F := F)) Variants.none c none) E (cc7_kernel i arg1 harg1 arg2 harg2 arg3 harg3 arg4 harg4 arg7 harg7) K := by
  simp only [cc7_kernel_eq_skeleton]; unfold cc7_kernel_skel
  unfold owns
  iintro ⟨⟨%f1, %hf1, H1⟩, ⟨%d2, %f2, -, H2⟩, ⟨%d3, %f3, -, H3⟩, ⟨%f4, %hf4, H4⟩, ⟨%f7, %hf7, H7⟩, Hk⟩
  subst hf1; subst hf4; subst hf7
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel7_last.sl.v23 sound_kernel7_last.sl.H4_1
    rw [View.readCov_eq_canon_ld _ _ _ (coverS7 _)]
    exact View.read_writes_eq_canon _ _ _ (coverS7 _)
  isplitl [H3]
  · iexists _; isplitr
    swap; · iexact H3
    ipureintro
    unfold sound_kernel7_last.sl.v23 sound_kernel7_last.sl.v26 sound_kernel7_last.sl.H4_1 sound_kernel7_last.sl.H7_1
    rw [View.readCov_eq_canon_ld _ _ _ (coverS7 _), View.readCov_eq_canon_ld _ _ _ (coverS7 _)]
    exact View.read_writes_eq_canon _ _ _ (coverS7 _)
  isplitl [H4]
  · iexists _; isplitr
    swap; · iexact H4
    ipureintro
    exact View.read_writes_eq_canon _ _ _ (coverS7 _)
  iexists _; isplitr
  swap; · iexact H7
  ipureintro
  exact View.read_writes_eq_canon _ _ _ (coverS7 _)

section Regions
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current buffer holds its block at every point, for any proof data over these arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- THE ACCUMULATION. The two scratch rows after point n: at point 0 one step from the zero rows, afterwards one step from what the point before left. -/
def acc7 (c : Dev nD) : (n : ℕ) → n < cfg7.N → Vec F S1x128 .f32 × Vec F S1x128 .f32
  | 0, hn => (step7_0 (iblk7 V c 0 ⟨0, hn⟩) init7_0, step7_1 (iblk7 V c 0 ⟨0, hn⟩) init7_1)
  | n + 1, hn => (step7_0 (iblk7 V c 0 ⟨n + 1, hn⟩) (acc7 c n (Nat.lt_of_succ_lt hn)).1,
      step7_1 (iblk7 V c 0 ⟨n + 1, hn⟩) (acc7 c n (Nat.lt_of_succ_lt hn)).2)

/-- The accumulation at the first point, and at a later point over the point before. -/
theorem acc7_zero (c : Dev nD) (t : Fin cfg7.N) (h0 : t.val = 0) :
    acc7 V c t.val t.isLt = (step7_0 (iblk7 V c 0 t) init7_0, step7_1 (iblk7 V c 0 t) init7_1) := by
  obtain ⟨n, hn⟩ := t
  cases n with
  | zero => rfl
  | succ n => exact absurd h0 (Nat.succ_ne_zero n)

theorem acc7_pos (c : Dev nD) (t : Fin cfg7.N) (h0 : t.val ≠ 0) :
    acc7 V c t.val t.isLt = (step7_0 (iblk7 V c 0 t) (acc7 V c (t.val - 1) (Nat.lt_of_le_of_lt (Nat.sub_le _ _) t.isLt)).1,
      step7_1 (iblk7 V c 0 t) (acc7 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM7_0 : Memref sig .tc .vmem S1x128 .f32 := Memref.whole cc7_scratch0
abbrev scM7_1 : Memref sig .tc .vmem S1x128 .f32 := Memref.whole cc7_scratch1

/-- What enters the invariant besides the scoped buffers: the generator register at some state. -/
def X7 (c : Dev nD) : sProp 𝕄 := iprop(∃ r, prngReg c r)

/-- The region invariant before position n: the generator register, the scoped buffers other than the two scratch rows, and the two scratch rows — at anything before the first point, afterwards at what the point before left. -/
def PhiS7 (c : Dev nD) : (n : ℕ) → n ≤ cfg7.N → sProp 𝕄
  | 0, _ => iprop(X7 (F := F) c ∗ Pipeline.scopedRestBut spec7 c [cc7_scratch0, cc7_scratch1]
      ∗ (∃ d, owns (c : Thread nD τ) scM7_0 fullShare d) ∗ (∃ d, owns (c : Thread nD τ) scM7_1 fullShare d))
  | n + 1, hn => iprop(X7 (F := F) c ∗ Pipeline.scopedRestBut spec7 c [cc7_scratch0, cc7_scratch1]
      ∗ owns (c : Thread nD τ) scM7_0 fullShare (acc7 V c n hn).1 ∗ owns (c : Thread nD τ) scM7_1 fullShare (acc7 V c n hn).2)

/-- The invariant's three readings: before the first point, after point n, before a later point. -/
theorem PhiS7_zero (c : Dev nD) (n : ℕ) (h : n ≤ cfg7.N) (hz : n = 0) :
    PhiS7 V c n h = iprop(X7 (F := F) c ∗ Pipeline.scopedRestBut spec7 c [cc7_scratch0, cc7_scratch1]
      ∗ (∃ d, owns (c : Thread nD τ) scM7_0 fullShare d) ∗ (∃ d, owns (c : Thread nD τ) scM7_1 fullShare d)) := by
  subst hz; rfl

theorem PhiS7_succ (c : Dev nD) (n : ℕ) (hn : n < cfg7.N) :
    PhiS7 V c (n + 1) hn = iprop(X7 (F := F) c ∗ Pipeline.scopedRestBut spec7 c [cc7_scratch0, cc7_scratch1]
      ∗ owns (c : Thread nD τ) scM7_0 fullShare (acc7 V c n hn).1 ∗ owns (c : Thread nD τ) scM7_1 fullShare (acc7 V c n hn).2) := rfl

theorem PhiS7_pos (c : Dev nD) (n : ℕ) (h : n ≤ cfg7.N) (hz : n ≠ 0) :
    PhiS7 V c n h = iprop(X7 (F := F) c ∗ Pipeline.scopedRestBut spec7 c [cc7_scratch0, cc7_scratch1]
      ∗ owns (c : Thread nD τ) scM7_0 fullShare (acc7 V c (n - 1) (by omega)).1 ∗ owns (c : Thread nD τ) scM7_1 fullShare (acc7 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (acc7 V c t.val t.isLt).1
    | ⟨2, _⟩ => out7_2 (acc7 V c t.val t.isLt).1 (acc7 V c t.val t.isLt).2
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = out7_1 (acc7 V c t.val t.isLt).1 := by dsimp only [dat7]
theorem after7_2 (c : Dev nD) (t : Fin cfg7.N) : (dat7 V c).after 2 t = out7_2 (acc7 V c t.val t.isLt).1 (acc7 V c t.val t.isLt).2 := by dsimp only [dat7]

/-- The input's current buffer holds its block at every point. -/
theorem before7_0 (c : Dev nD) (t : Fin cfg7.N) (d) : (dat7 V c).before 0 t d = iblk7 V c 0 t :=
  before7_0_of V (dat7 V c) (A_eq7 V c 0) (after7_0 V c) t d

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- Where the windows are idle: the input never; each output row exactly off the last point, where it is not written back either. -/
theorem liveAt7_0 (t : Fin cfg7.N) : cfg7.idle 0 (cfg7.grid.coords t) = false := rfl

theorem idleAt7_1 (t : Fin cfg7.N) (h : ¬ k7_cond2 (grid7.coords t) = 1#1) : cfg7.idle 1 (cfg7.grid.coords t) = true := by
  show (!(k7_cond2 (grid7.coords t) == 1#1)) = true
  rw [Bool.not_eq_true', beq_eq_false_iff_ne]; exact h
theorem idleAt7_2 (t : Fin cfg7.N) (h : ¬ k7_cond2 (grid7.coords t) = 1#1) : cfg7.idle 2 (cfg7.grid.coords t) = true := by
  show (!(k7_cond2 (grid7.coords t) == 1#1)) = true
  rw [Bool.not_eq_true', beq_eq_false_iff_ne]; exact h
theorem liveAt7_1 (t : Fin cfg7.N) (h : k7_cond2 (grid7.coords t) = 1#1) : cfg7.idle 1 (cfg7.grid.coords t) = false := by
  show (!(k7_cond2 (grid7.coords t) == 1#1)) = false
  rw [h]; rfl
theorem liveAt7_2 (t : Fin cfg7.N) (h : k7_cond2 (grid7.coords t) = 1#1) : cfg7.idle 2 (cfg7.grid.coords t) = false := by
  show (!(k7_cond2 (grid7.coords t) == 1#1)) = false
  rw [h]; rfl

theorem noFlush7_1 (t : Fin cfg7.N) (h : t.val ≠ 9) : (cfg7.win 1).flush t = false := by
  have hN : t.val < 10 := lt_of_lt_of_eq t.isLt (show cfg7.N = 10 from N_7)
  cases hf : (cfg7.win 1).flush t with
  | false => rfl
  | true => exact absurd ((flush7_1 t).mp hf) (by omega)
theorem noFlush7_2 (t : Fin cfg7.N) (h : t.val ≠ 9) : (cfg7.win 2).flush t = false := by
  have hN : t.val < 10 := lt_of_lt_of_eq t.isLt (show cfg7.N = 10 from N_7)
  cases hf : (cfg7.win 2).flush t with
  | false => rfl
  | true => exact absurd ((flush7_2 t).mp hf) (by omega)

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point, by the point's position: first (scratch at anything, reset), last (the output rows stored), or between; the invariant hands the scratch rows over at what the point before left and takes them back stepped. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  have hN : t.val < 10 := lt_of_lt_of_eq t.isLt (show cfg7.N = 10 from N_7)
  by_cases h0 : t.val = 0
  · have hc1 : k7_cond1 (grid7.coords t) = 1#1 := (hcond7_1 t).mpr h0
    have hc2 : ¬ k7_cond2 (grid7.coords t) = 1#1 := fun h => by have := (hcond7_2 t).mp h; omega
    rw [Dat.leavesExact_idle (dat7 V c) 1 t (idleAt7_1 t hc2) (noFlush7_1 t (by omega)),
      Dat.leavesExact_idle (dat7 V c) 2 t (idleAt7_2 t hc2) (noFlush7_2 t (by omega))]
    rw [acc7_zero V c t h0]
    rw [PhiS7_castSucc V c t, PhiS7_zero V c _ _ h0]
    iintro ⟨⟨HX, HR, HS0, HS1⟩, Ho, ⟨%d0, H0⟩, ⟨%d1, H1⟩, ⟨%d2, H2⟩⟩
    iapply (sound_kernel7_first c Set.univ (grid7.coords t) hc1 hc2 _ _ _ _ _ _ _ _ _ _ (iblk7 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k7_cond1 (grid7.coords t) = 1#1 := fun h => h0 ((hcond7_1 t).mp h)
    rw [acc7_pos V c t h0]
    rw [PhiS7_castSucc V c t, PhiS7_pos V c _ _ h0]
    by_cases h79 : t.val = 9
    · have hc2 : k7_cond2 (grid7.coords t) = 1#1 := (hcond7_2 t).mpr h79
      rw [show (dat7 V c).leavesExact 1 t = owns (c : Thread nD τ) (st7_1 t) fullShare ((dat7 V c).after 1 t) from by
        unfold Dat.leavesExact; rw [liveAt7_1 t hc2], after7_1]
      rw [show (dat7 V c).leavesExact 2 t = owns (c : Thread nD τ) (st7_2 t) fullShare ((dat7 V c).after 2 t) from by
        unfold Dat.leavesExact; rw [liveAt7_2 t hc2], after7_2]
      rw [acc7_pos V c t h0]
      iintro ⟨⟨HX, HR, HS0, HS1⟩, Ho, ⟨%d0, H0⟩, ⟨%d1, H1⟩, ⟨%d2, H2⟩⟩
      iapply (sound_kernel7_last c Set.univ (grid7.coords t) hc1 hc2 _ _ _ _ _ _ _ _ _ _ (iblk7 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k7_cond2 (grid7.coords t) = 1#1 := fun h => h79 ((hcond7_2 t).mp h)
      rw [Dat.leavesExact_idle (dat7 V c) 1 t (idleAt7_1 t hc2) (noFlush7_1 t h79),
        Dat.leavesExact_idle (dat7 V c) 2 t (idleAt7_2 t hc2) (noFlush7_2 t h79)]
      iintro ⟨⟨HX, HR, HS0, HS1⟩, Ho, ⟨%d0, H0⟩, ⟨%d1, H1⟩, ⟨%d2, H2⟩⟩
      iapply (sound_kernel7_mid c Set.univ (grid7.coords t) hc1 hc2 _ _ _ _ _ _ _ _ _ _ (iblk7 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

/-- Entry: the generator register and the scoped buffers (the two scratch rows among them, at anything) make the invariant before the first point. -/
theorem hin7 (c : Dev nD) : iprop(X7 (F := F) c ∗ Pipeline.scopedRest spec7 c) ⊢ (dat7 V c).Φ 0 := by
  rw [show (dat7 V c).Φ 0 = PhiS7 V c 0 (Nat.zero_le _) from rfl, PhiS7_zero V c 0 _ rfl, scopedRest7_split]
  simp only [scM7_0, scM7_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout7 (c : Dev nD) : (dat7 V c).Φ (Fin.last cfg7.N) ⊢ iprop(X7 (F := F) c ∗ Pipeline.scopedRest spec7 c) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 10 := N_7; omega), scopedRest7_split]
  simp only [scM7_0, scM7_1, owns_whole]
  iintro ⟨HX, HR, HS0, HS1⟩
  isplitl [HX]; · iexact HX
  isplitl [HS0 HS1]
  · isplitl [HS0]; · iexists _; iexact HS0
    iexists _; iexact HS1
  iexact HR

end Regions

end Cert.Kernel.Rg

end
-- ==== Proof.KRg8.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 8: normalise, rectify, add the residual — the frame half

Region 8 walks the 20000 rows of its operands in 10 blocks of 2000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses -/

/-- The whole 4000x128 block, -/
abbrev r8_big : Rect S2000x128 := Rect.unit (s := S2000x128) ![0, 0] S2000x128.size inb_S2000x128_S2000x128_0_0
/-- and the whole 1x128 row. -/
abbrev r8_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out8_6 (x0 : Vec F S2000x128 .f32) (x1 : Vec F S2000x128 .f32) (x2 : Vec F S1x128 .f32) (x3 : Vec F S1x128 .f32)
    (x4 : Vec F S1x128 .f32) (x5 : Vec F S1x128 .f32) : Vec F S2000x128 .f32 :=
  View.canon [⟨r8_big, k8_pay1 (View.ld x0 r8_big) (View.ld x4 r8_row) (View.ld x2 r8_row) (View.ld x3 r8_row) (View.ld x5 r8_row) (View.ld x1 r8_big)⟩]

/-- The one store is of the whole block, so it covers it. -/
theorem cover8_6 (p0 : Vec F S2000x128 .f32) (y : S2000x128.Idx) :
    ∃ pc ∈ ([⟨r8_big, p0⟩] : List (View.Piece (Elt F) S2000x128 .f32)), y ∈ pc.1.set :=
  View.cover_of_tiled [⟨r8_big, p0⟩] S2000x128.size (by rfl) y

/-! ## The body's triple -/

set_option maxHeartbeats 1000000 in
/-- The body, run on whole staging buffers holding the six input blocks and an output buffer holding anything,
    returns the inputs' buffers unchanged and the output's buffer at out8_6 of the inputs. -/
theorem sound_kernel8 (c : Dev nD) (E : Set ℕ) (i : grid8.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__bn_relu_residual_kernel i arg1 harg1 arg2 harg2 arg3 harg3 arg4 harg4 arg5 harg5 arg6 harg6 arg7 harg7) K := by
  simp only [cc8__bn_relu_residual_kernel_eq_skeleton]; unfold cc8__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The region's proof data -/

/-- The proof data of region 8 on core c: the arrays as the region finds them; after the body at point t each
    input's buffer at its block and the output's at out8_6 of the six input blocks; the invariant the untouched
    rest of the core's state; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- The invariant is the same at every point: the rest of the core's state, untouched. -/
theorem Phi8_eq (c : Dev nD) (t : Fin (cfg8.N + 1)) : (dat8 V c).Φ t = Pipeline.ΦA spec8 c := rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t
    = out8_6 (iblk8 V c 0 t) (iblk8 V c 1 t) (iblk8 V c 2 t) (iblk8 V c 3 t) (iblk8 V c 4 t) (iblk8 V c 5 t) := by dsimp only [dat8]

/-- Each input's staging buffer holds its block at every point, whether or not the block was fetched at that
    point: a window not fetched at a point has the block index of the point before, and the body leaves an
    input's buffer as it found it. -/
theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8 V c 0]; try rfl) t d).trans
    (by unfold Dat.fetched Dat.blockOf iblk8; rw [A_eq8 V c 0]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8 V c 1]; try rfl) t d).trans
    (by unfold Dat.fetched Dat.blockOf iblk8; rw [A_eq8 V c 1]; try rfl)
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2]; unfold Dat.blockOf iblk8; rw [A_eq8 V c 2]; try rfl) t d).trans
    (by unfold Dat.fetched Dat.blockOf iblk8; rw [A_eq8 V c 2]; try rfl)
theorem before8_3 (c : Dev nD) (t : Fin cfg8.N) (d) : (dat8 V c).before 3 t d = iblk8 V c 3 t :=
  ((dat8 V c).before_in_eq_fetched 3 rfl (fun _ => rfl) (fun _ _ _ => rfl)
      (fun t => by rw [after8_3]; unfold Dat.blockOf iblk8; rw [A_eq8 V c 3]; try rfl) t d).trans
    (by unfold Dat.fetched Dat.blockOf iblk8; rw [A_eq8 V c 3]; try rfl)
theorem before8_4 (c : Dev nD) (t : Fin cfg8.N) (d) : (dat8 V c).before 4 t d = iblk8 V c 4 t :=
  ((dat8 V c).before_in_eq_fetched 4 rfl (fun _ => rfl) (fun _ _ _ => rfl)
      (fun t => by rw [after8_4]; unfold Dat.blockOf iblk8; rw [A_eq8 V c 4]; try rfl) t d).trans
    (by unfold Dat.fetched Dat.blockOf iblk8; rw [A_eq8 V c 4]; try rfl)
theorem before8_5 (c : Dev nD) (t : Fin cfg8.N) (d) : (dat8 V c).before 5 t d = iblk8 V c 5 t :=
  ((dat8 V c).before_in_eq_fetched 5 rfl (fun _ => rfl) (fun _ _ _ => rfl)
      (fun t => by rw [after8_5]; unfold Dat.blockOf iblk8; rw [A_eq8 V c 5]; try rfl) t d).trans
    (by unfold Dat.fetched Dat.blockOf iblk8; rw [A_eq8 V c 5]; try rfl)

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation8 (c : Dev nD) : BodyObligation (dat8 (F := F) V c) (defs₀ (F := F)) Variants.none () Set.univ := fun t => by
  rw [bigSep_W8, bigSep_W8]
  exact sound_body8 V c t

end Region8

end Cert.Kernel.Rg

end
-- ==== Proof.KRg9.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 9: the affine map, one row block per grid point

Region 9 computes o = x·W + b over 10 grid points. At point t the body reads the t-th block of 2000 rows
of x (window 0), the whole 128x512 matrix W (window 1) and the 1x512 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

/-! ## The blocks the windows show -/

/-- The block of window w at grid point t: the window's view at t read off the window's array as the
    region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's block at every point, whether the block was
    fetched at that point or carried over from the point before (then the block index has not moved), for any
    proof data whose array is V's and whose body leaves the block where it is. Window 0: the rows of x. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The same for window 1, the matrix W, whose block is the whole array at every point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The same for window 2, the bias row. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The rectangles the body reads and writes: each buffer, whole -/

abbrev r9_x : Rect S2000x128 := Rect.unit (s := S2000x128) ![0, 0] S2000x128.size inb_S2000x128_S2000x128_0_0
abbrev r9_w : Rect S128x512 := Rect.unit (s := S128x512) ![0, 0] S128x512.size inb_S128x512_S128x512_0_0
abbrev r9_b : Rect S1x512 := Rect.unit (s := S1x512) ![0, 0] S1x512.size inb_S1x512_S1x512_0_0
abbrev r9_o : Rect S2000x512 := Rect.unit (s := S2000x512) ![0, 0] S2000x512.size inb_S2000x512_S2000x512_0_0

/-! ## What the body leaves in the output block -/

/-- The output block after the body, as a function of the three input blocks: the body's single store,
    of the affine payload of the three blocks read whole, laid over the whole buffer. -/
def out9_3 (x0 : Vec F S2000x128 .f32) (x1 : Vec F S128x512 .f32) (x2 : Vec F S1x512 .f32) : Vec F S2000x512 .f32 :=
  View.canon [⟨r9_o, k9_pay1 (View.ld x0 r9_x) (View.ld x1 r9_w) (View.ld x2 r9_b)⟩]

/-- The single store tiles the output buffer, so every index of the buffer lies in it. -/
theorem cover9_3 (p0 : Vec F S2000x512 .f32) (y : S2000x512.Idx) :
    ∃ pc ∈ ([⟨r9_o, p0⟩] : List (View.Piece (Elt F) S2000x512 .f32)), y ∈ pc.1.set :=
  View.cover_of_tiled [⟨r9_o, p0⟩] S2000x512.size (by rfl) y

/-! ## The body's triple -/

set_option maxHeartbeats 1000000 in
/-- The body, run on whole staging buffers with the three inputs at contents x0, x1, x2 and the output at
    any contents, reaches its continuation with the inputs as they were and the output at out9_3 of the inputs.
    The body also reads the output buffer before its store; the value read is not used. -/
theorem sound_kernel9 (c : Dev nD) (E : Set ℕ) (i : grid9.Coords)
    (arg1 : Memref sig .tc .vmem S2000x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out9_3 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The region's proof data -/

/-- The proof data of region 9 on core c: the arrays as the region finds them; after the body at point t
    each input buffer still at its block and the output buffer at out9_3 of the three input blocks; the
    invariant is the class's (the scoped rest and the generator register, untouched); nothing owed; full
    shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the contents at the region's entry. -/
theorem A_eq9 (c : Dev nD) (w : Fin cfg9.W) : (dat9 V c).A w = V c (Pipeline.arrRef spec9 w) := by
  dsimp only [dat9]

/-- The invariant at every point is the class invariant. -/
theorem Phi9_eq (c : Dev nD) (t : Fin (cfg9.N + 1)) : (dat9 V c).Φ t = Pipeline.ΦA spec9 c := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-- Each input's staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

/-- What the body is called with at point t: the invariant, the core's debt, and the four staging buffers,
    each at what the pipeline has put there. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- What the body returns at point t. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the input buffers hold their blocks, so the body's triple applies; the invariant
    and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.Kernel.Rg

end
-- ==== Proof.KRg10.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 10: the affine map, one row block per grid point

Region 10 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
variable (V : (c : Dev nD) → (b : Ref sig .tc) → Buf (Elt F) ((c : Thread nD τ).loc b))

/-! ## The blocks the windows show -/

/-- The block of window w at grid point t: the window's view at t read off the window's array as the
    region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds the window's block at every point, whether the block was
    fetched at that point or carried over from the point before (then the block index has not moved), for any
    proof data whose array is V's and whose body leaves the block where it is. Window 0: the rows of x. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The same for window 1, the matrix W, whose block is the whole array at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The same for window 2, the bias row. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The rectangles the body reads and writes: each buffer, whole -/

abbrev r10_x : Rect S4000x128 := Rect.unit (s := S4000x128) ![0, 0] S4000x128.size inb_S4000x128_S4000x128_0_0
abbrev r10_w : Rect S128x128 := Rect.unit (s := S128x128) ![0, 0] S128x128.size inb_S128x128_S128x128_0_0
abbrev r10_b : Rect S1x128 := Rect.unit (s := S1x128) ![0, 0] S1x128.size inb_S1x128_S1x128_0_0
abbrev r10_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out10_3 (x0 : Vec F S4000x128 .f32) (x1 : Vec F S128x128 .f32) (x2 : Vec F S1x128 .f32) : Vec F S4000x128 .f32 :=
  View.canon [⟨r10_o, k10_pay1 (View.ld x0 r10_x) (View.ld x1 r10_w) (View.ld x2 r10_b)⟩]

/-- The single store tiles the output buffer, so every index of the buffer lies in it. -/
theorem cover10_3 (p0 : Vec F S4000x128 .f32) (y : S4000x128.Idx) :
    ∃ pc ∈ ([⟨r10_o, p0⟩] : List (View.Piece (Elt F) S4000x128 .f32)), y ∈ pc.1.set :=
  View.cover_of_tiled [⟨r10_o, p0⟩] S4000x128.size (by rfl) y

/-! ## The body's triple -/

set_option maxHeartbeats 1000000 in
/-- The body, run on whole staging buffers with the three inputs at contents x0, x1, x2 and the output at
    any contents, reaches its continuation with the inputs as they were and the output at out10_3 of the inputs.
    The body also reads the output buffer before its store; the value read is not used. -/
theorem sound_kernel10 (c : Dev nD) (E : Set ℕ) (i : grid10.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The region's proof data -/

/-- The proof data of region 10 on core c: the arrays as the region finds them; after the body at point t
    each input buffer still at its block and the output buffer at out10_3 of the three input blocks; the
    invariant is the class's (the scoped rest and the generator register, untouched); nothing owed; full
    shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the contents at the region's entry. -/
theorem A_eq10 (c : Dev nD) (w : Fin cfg10.W) : (dat10 V c).A w = V c (Pipeline.arrRef spec10 w) := by
  dsimp only [dat10]

/-- The invariant at every point is the class invariant. -/
theorem Phi10_eq (c : Dev nD) (t : Fin (cfg10.N + 1)) : (dat10 V c).Φ t = Pipeline.ΦA spec10 c := rfl

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Each input's staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation -/

/-- What the body is called with at point t: the invariant, the core's debt, and the four staging buffers,
    each at what the pipeline has put there. -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- What the body returns at point t. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the input buffers hold their blocks, so the body's triple applies; the invariant
    and the core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Region10

end Cert.Kernel.Rg

end
-- ==== Proof.KRg11.lean ====
/- The frame half of kernel region 11 (the gate kernel) of the program's run, generic in the float family: at the
   TensorCore's buffer contents V on entry, each window's block at a point of the grid, what the body leaves in its
   two output staging buffers as functions of the four input blocks, the body's triple, the region's exact proof data
   and the body obligation at every point. -/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
variable (V : (c : Dev nD) → (b : Ref sig .tc) → Buf (Elt F) ((c : Thread nD τ).loc b))

/-! # Region 11: ehat = ce + dh + eh, msg = logistic ehat * bh, row block by row block -/

/-- The block of window w at grid point t, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds the window's block at every point, for any proof data whose array
    is the entry contents and whose body leaves the block where it found it: the window is uncut and has no idle point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole 4000 x 128 block as a rectangle of itself: every load and store of the body is at it. -/
abbrev r11_0 : Rect S4000x128 := Rect.unit (s := S4000x128) ![0, 0] S4000x128.size inb_S4000x128_S4000x128_0_0

/-- The pre-activation block the body leaves in window 4's buffer, from the blocks of ce, dh, eh. -/
def out11_4 (x0 x1 x2 : Vec F S4000x128 .f32) : Vec F S4000x128 .f32 :=
  View.canon [⟨r11_0, k11_pay1 (View.ld x0 r11_0) (View.ld x1 r11_0) (View.ld x2 r11_0)⟩]

/-- The gated message block the body leaves in window 5's buffer, from the blocks of ce, dh, eh, bh. -/
def out11_5 (x0 x1 x2 x3 : Vec F S4000x128 .f32) : Vec F S4000x128 .f32 :=
  View.canon [⟨r11_0, k11_pay2 (View.ld x0 r11_0) (View.ld x1 r11_0) (View.ld x2 r11_0) (View.ld x3 r11_0)⟩]

/-- The one whole-block store covers the buffer. -/
theorem cover11 (p0 : Vec F S4000x128 .f32) (y : S4000x128.Idx) :
    ∃ pc ∈ ([⟨r11_0, p0⟩] : List (View.Piece (Elt F) S4000x128 .f32)), y ∈ pc.1.set :=
  View.cover_of_tiled [⟨r11_0, p0⟩] S4000x128.size (by rfl) y

set_option maxHeartbeats 1000000 in
/-- The body on whole staging memrefs, the four inputs' at contents x0 … x3 and the two outputs' at anything, runs to
    a state with the inputs' as they were and the outputs' at out11_4 and out11_5 of the inputs'. The body reads each
    output memref once before it stores to it; the value read is not used. -/
theorem sound_kernel11 (c : Dev nD) (E : Set ℕ) (i : grid11.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2)
            ∗ owns (c : Thread nD τ) arg6 fullShare (out11_5 x0 x1 x2 x3)) -∗ K ⟨⟩))
      ⊢ wp frame (wpE (defs₀ (F := F)) Variants.none c none) E (cc11__gate_kernel i arg1 harg1 arg2 harg2 arg3 harg3 arg4 harg4 arg5 harg5 arg6 harg6) K := by
  simp only [cc11__gate_kernel_eq_skeleton]; unfold cc11__gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover11 _)
  iexists _; isplitr
  swap; · iexact H5
  ipureintro
  exact View.read_writes_eq_canon _ _ _ (cover11 _)

/-- The proof data of region 11 on core c: the arrays as the region finds them; after the body at point t each input's
    buffer at its block and the outputs' at out11_4, out11_5 of the input blocks; the class invariant; nothing owed; full
    shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t)
    | ⟨5, _⟩ => out11_5 (iblk11 V c 0 t) (iblk11 V c 1 t) (iblk11 V c 2 t) (iblk11 V c 3 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- The invariant is the class's at every point. -/
theorem Phi11_eq (c : Dev nD) (t : Fin (cfg11.N + 1)) : (dat11 V c).Φ t = Pipeline.ΦA spec11 c := rfl

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) := by dsimp only [dat11]
theorem after11_5 (c : Dev nD) (t : Fin cfg11.N) :
    (dat11 V c).after 5 t = out11_5 (iblk11 V c 0 t) (iblk11 V c 1 t) (iblk11 V c 2 t) (iblk11 V c 3 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Region11

end Cert.Kernel.Rg

end
-- ==== Proof.KRg12.lean ====
/-
  Region 12 of the kernel program: the batch statistics of a 320000 x 128 array, accumulated over 80 row blocks of
  4000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-row rectangle of a 1x128 buffer and the whole-block rectangle of a 4000x128 buffer. -/
abbrev rS12 : Rect S1x128 := Rect.unit (s := S1x128) ![0, 0] S1x128.size inb_S1x128_S1x128_0_0
abbrev rX12 : Rect S4000x128 := Rect.unit (s := S4000x128) ![0, 0] S4000x128.size inb_S4000x128_S4000x128_0_0

/-- The first conditional's condition (the grid coordinate is 0), as the kernel computes it. -/
def k12_cond1 (i : grid12.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 79): decided over the 80 points. -/
theorem hcond12_1 : ∀ t : Fin cfg12.N, k12_cond1 (grid12.coords t) = 1#1 ↔ t.val = 0 :=
  (by decide +kernel : ∀ t : Fin grid12.N, k12_cond1 (grid12.coords t) = 1#1 ↔ t.val = 0)
theorem hcond12_2 : ∀ t : Fin cfg12.N, k12_cond2 (grid12.coords t) = 1#1 ↔ t.val = 79 :=
  (by decide +kernel : ∀ t : Fin grid12.N, k12_cond2 (grid12.coords t) = 1#1 ↔ t.val = 79)

/-- One point's step of the two running rows: the row held so far plus the block's column sums (of the entries, of their squares). -/
def step12_0 (x : Vec F S4000x128 .f32) (s0 : Vec F S1x128 .f32) : Vec F S1x128 .f32 :=
  View.canon [⟨rS12, k12_pay4 (View.ld x rX12) (View.ld s0 rS12)⟩]
def step12_1 (x : Vec F S4000x128 .f32) (s1 : Vec F S1x128 .f32) : Vec F S1x128 .f32 :=
  View.canon [⟨rS12, k12_pay5 (View.ld x rX12) (View.ld s1 rS12)⟩]

/-- A store of the whole row covers the 1x128 buffer. -/
theorem coverS12 (p0 : Vec F S1x128 .f32) (y : S1x128.Idx) :
    ∃ pc ∈ ([⟨rS12, p0⟩] : List (View.Piece (Elt F) S1x128 .f32)), y ∈ pc.1.set :=
  View.cover_of_tiled [⟨rS12, p0⟩] S1x128.size (by rfl) y

set_option maxHeartbeats 1000000 in
/-- The body at a point that is neither first nor last: both conditionals fall through; the block and the two output rows are left as found, each scratch row steps. -/
theorem sound_kernel12_mid (c : Dev nD) (E : Set ℕ) (i : grid12.Coords) (hc1 : ¬ k12_cond1 i = 1#1) (hc2 : ¬ k12_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg12 : Memref sig .tc .vmem S1x128 .f32) (harg12 : arg12.IsWhole)
    (x : Vec F S4000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg12 fullShare s1
        ∗ (iprop(owns (c : Thread nD τ) arg1 fullShare x ∗ owns (c : Thread nD τ) arg2 fullShare y1 ∗ owns (c : Thread nD τ) arg3 fullShare y2
            ∗ owns (c : Thread nD τ) arg4 fullShare (step12_0 x s0) ∗ owns (c : Thread nD τ) arg12 fullShare (step12_1 x s1)) -∗ K ⟨⟩))
      ⊢ wp frame (wpE (defs₀ (F := F)) Variants.none c none) E (cc12_kernel i arg1 harg1 arg2 harg2 arg3 harg3 arg4 harg4 arg12 harg12) K := by
  simp only [cc12_kernel_eq_skeleton]; unfold cc12_kernel_skel
  unfold owns
  iintro ⟨⟨%f1, %hf1, H1⟩, H2, H3, ⟨%f4, %hf4, H4⟩, ⟨%f12, %hf12, H12⟩, Hk⟩
  subst hf1; subst hf4; subst hf12
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS12 _)
  iexists _; isplitr
  swap; · iexact H12
  ipureintro
  exact View.read_writes_eq_canon _ _ _ (coverS12 _)

/-- A whole-row store hides every earlier store: the contents are the last payload's. -/
theorem canon_headS12 (p : Vec F S1x128 .f32) (L : List (View.Piece (Elt F) S1x128 .f32)) :
    View.canon (⟨rS12, p⟩ :: L) = View.canon [⟨rS12, p⟩] := by
  funext y
  obtain ⟨pc, hm, hy⟩ := coverS12 p y
  rw [List.mem_singleton] at hm; subst hm
  obtain ⟨x, rfl⟩ := rS12.exists_idx_of_mem hy
  exact (View.canon_cons_emb rS12 p L x).trans (View.canon_cons_emb rS12 p [] x).symm

/-- What a buffer reads after a list of stores whose last is a whole-row store. -/
theorem read_writes_headS12 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS12, p⟩ :: L)) = View.canon [⟨rS12, p⟩] :=
  (View.read_writes_eq_canon v f _ (fun y => by
    obtain ⟨pc, hm, hy⟩ := coverS12 p y
    rw [List.mem_singleton] at hm; subst hm
    exact ⟨_, List.mem_cons_self, hy⟩)).trans (canon_headS12 p L)

/-- The zero rows the first point resets the two scratch rows to. -/
def init12_0 : Vec F S1x128 .f32 := View.canon [⟨rS12, k12_pay1 (F := F)⟩]
def init12_1 : Vec F S1x128 .f32 := View.canon [⟨rS12, k12_pay2 (F := F)⟩]

set_option maxHeartbeats 1000000 in
/-- The body at the first point: the scratch rows, found at anything, are reset to zero and then step; the output rows are left as found. -/
theorem sound_kernel12_first (c : Dev nD) (E : Set ℕ) (i : grid12.Coords) (hc1 : k12_cond1 i = 1#1) (hc2 : ¬ k12_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg12 : Memref sig .tc .vmem S1x128 .f32) (harg12 : arg12.IsWhole)
    (x : Vec F S4000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg12 fullShare d)
        ∗ (iprop(owns (c : Thread nD τ) arg1 fullShare x ∗ owns (c : Thread nD τ) arg2 fullShare y1 ∗ owns (c : Thread nD τ) arg3 fullShare y2
            ∗ owns (c : Thread nD τ) arg4 fullShare (step12_0 x init12_0) ∗ owns (c : Thread nD τ) arg12 fullShare (step12_1 x init12_1)) -∗ K ⟨⟩))
      ⊢ wp frame (wpE (defs₀ (F := F)) Variants.none c none) E (cc12_kernel i arg1 harg1 arg2 harg2 arg3 harg3 arg4 harg4 arg12 harg12) K := by
  simp only [cc12_kernel_eq_skeleton]; unfold cc12_kernel_skel
  unfold owns
  iintro ⟨⟨%f1, %hf1, H1⟩, H2, H3, ⟨%d4, %f4, -, H4⟩, ⟨%d12, %f12, -, H12⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel12_first.sl.v5 sound_kernel12_first.sl.H4_1
    rw [View.readCov_eq_canon_ld _ _ _ (coverS12 _)]
    exact read_writes_headS12 _ _ _ _
  iexists _; isplitr
  swap; · iexact H12
  ipureintro
  unfold sound_kernel12_first.sl.v12 sound_kernel12_first.sl.H12_1
  rw [View.readCov_eq_canon_ld _ _ _ (coverS12 _)]
  exact read_writes_headS12 _ _ _ _

/-- The output rows as the last point computes them from the final running rows: the mean is the column sum over the count; the variance is the sum of squares over the count minus the squared mean. -/
def out12_1 (s0 : Vec F S1x128 .f32) : Vec F S1x128 .f32 :=
  View.canon [⟨rS12, k12_pay6 (View.ld s0 rS12)⟩]
def out12_2 (s0 s1 : Vec F S1x128 .f32) : Vec F S1x128 .f32 :=
  View.canon [⟨rS12, k12_pay7 (View.ld s0 rS12) (View.ld s1 rS12)⟩]

set_option maxHeartbeats 1000000 in
/-- The body at the last point: the scratch rows step, then the two output rows, found at anything, are stored from the stepped rows. -/
theorem sound_kernel12_last (c : Dev nD) (E : Set ℕ) (i : grid12.Coords) (hc1 : ¬ k12_cond1 i = 1#1) (hc2 : k12_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg12 : Memref sig .tc .vmem S1x128 .f32) (harg12 : arg12.IsWhole)
    (x : Vec F S4000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg12 fullShare s1
        ∗ (iprop(owns (c : Thread nD τ) arg1 fullShare x ∗ owns (c : Thread nD τ) arg2 fullShare (out12_1 (step12_0 x s0))
            ∗ owns (c : Thread nD τ) arg3 fullShare (out12_2 (step12_0 x s0) (step12_1 x s1))
            ∗ owns (c : Thread nD τ) arg4 fullShare (step12_0 x s0) ∗ owns (c : Thread nD τ) arg12 fullShare (step12_1 x s1)) -∗ K ⟨⟩))
      ⊢ wp frame (wpE (defs₀ (F := F)) Variants.none c none) E (cc12_kernel i arg1 harg1 arg2 harg2 arg3 harg3 arg4 harg4 arg12 harg12) K := by
  simp only [cc12_kernel_eq_skeleton]; unfold cc12_kernel_skel
  unfold owns
  iintro ⟨⟨%f1, %hf1, H1⟩, ⟨%d2, %f2, -, H2⟩, ⟨%d3, %f3, -, H3⟩, ⟨%f4, %hf4, H4⟩, ⟨%f12, %hf12, H12⟩, Hk⟩
  subst hf1; subst hf4; subst hf12
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel12_last.sl.v23 sound_kernel12_last.sl.H4_1
    rw [View.readCov_eq_canon_ld _ _ _ (coverS12 _)]
    exact View.read_writes_eq_canon _ _ _ (coverS12 _)
  isplitl [H3]
  · iexists _; isplitr
    swap; · iexact H3
    ipureintro
    unfold sound_kernel12_last.sl.v23 sound_kernel12_last.sl.v26 sound_kernel12_last.sl.H4_1 sound_kernel12_last.sl.H12_1
    rw [View.readCov_eq_canon_ld _ _ _ (coverS12 _), View.readCov_eq_canon_ld _ _ _ (coverS12 _)]
    exact View.read_writes_eq_canon _ _ _ (coverS12 _)
  isplitl [H4]
  · iexists _; isplitr
    swap; · iexact H4
    ipureintro
    exact View.read_writes_eq_canon _ _ _ (coverS12 _)
  iexists _; isplitr
  swap; · iexact H12
  ipureintro
  exact View.read_writes_eq_canon _ _ _ (coverS12 _)

section Regions
variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The input window's current buffer holds its block at every point, for any proof data over these arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- THE ACCUMULATION. The two scratch rows after point n: at point 0 one step from the zero rows, afterwards one step from what the point before left. -/
def acc12 (c : Dev nD) : (n : ℕ) → n < cfg12.N → Vec F S1x128 .f32 × Vec F S1x128 .f32
  | 0, hn => (step12_0 (iblk12 V c 0 ⟨0, hn⟩) init12_0, step12_1 (iblk12 V c 0 ⟨0, hn⟩) init12_1)
  | n + 1, hn => (step12_0 (iblk12 V c 0 ⟨n + 1, hn⟩) (acc12 c n (Nat.lt_of_succ_lt hn)).1,
      step12_1 (iblk12 V c 0 ⟨n + 1, hn⟩) (acc12 c n (Nat.lt_of_succ_lt hn)).2)

/-- The accumulation at the first point, and at a later point over the point before. -/
theorem acc12_zero (c : Dev nD) (t : Fin cfg12.N) (h0 : t.val = 0) :
    acc12 V c t.val t.isLt = (step12_0 (iblk12 V c 0 t) init12_0, step12_1 (iblk12 V c 0 t) init12_1) := by
  obtain ⟨n, hn⟩ := t
  cases n with
  | zero => rfl
  | succ n => exact absurd h0 (Nat.succ_ne_zero n)

theorem acc12_pos (c : Dev nD) (t : Fin cfg12.N) (h0 : t.val ≠ 0) :
    acc12 V c t.val t.isLt = (step12_0 (iblk12 V c 0 t) (acc12 V c (t.val - 1) (Nat.lt_of_le_of_lt (Nat.sub_le _ _) t.isLt)).1,
      step12_1 (iblk12 V c 0 t) (acc12 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM12_0 : Memref sig .tc .vmem S1x128 .f32 := Memref.whole cc12_scratch0
abbrev scM12_1 : Memref sig .tc .vmem S1x128 .f32 := Memref.whole cc12_scratch1

/-- What enters the invariant besides the scoped buffers: the generator register at some state. -/
def X12 (c : Dev nD) : sProp 𝕄 := iprop(∃ r, prngReg c r)

/-- The region invariant before position n: the generator register, the scoped buffers other than the two scratch rows, and the two scratch rows — at anything before the first point, afterwards at what the point before left. -/
def PhiS12 (c : Dev nD) : (n : ℕ) → n ≤ cfg12.N → sProp 𝕄
  | 0, _ => iprop(X12 (F := F) c ∗ Pipeline.scopedRestBut spec12 c [cc12_scratch0, cc12_scratch1]
      ∗ (∃ d, owns (c : Thread nD τ) scM12_0 fullShare d) ∗ (∃ d, owns (c : Thread nD τ) scM12_1 fullShare d))
  | n + 1, hn => iprop(X12 (F := F) c ∗ Pipeline.scopedRestBut spec12 c [cc12_scratch0, cc12_scratch1]
      ∗ owns (c : Thread nD τ) scM12_0 fullShare (acc12 V c n hn).1 ∗ owns (c : Thread nD τ) scM12_1 fullShare (acc12 V c n hn).2)

/-- The invariant's three readings: before the first point, after point n, before a later point. -/
theorem PhiS12_zero (c : Dev nD) (n : ℕ) (h : n ≤ cfg12.N) (hz : n = 0) :
    PhiS12 V c n h = iprop(X12 (F := F) c ∗ Pipeline.scopedRestBut spec12 c [cc12_scratch0, cc12_scratch1]
      ∗ (∃ d, owns (c : Thread nD τ) scM12_0 fullShare d) ∗ (∃ d, owns (c : Thread nD τ) scM12_1 fullShare d)) := by
  subst hz; rfl

theorem PhiS12_succ (c : Dev nD) (n : ℕ) (hn : n < cfg12.N) :
    PhiS12 V c (n + 1) hn = iprop(X12 (F := F) c ∗ Pipeline.scopedRestBut spec12 c [cc12_scratch0, cc12_scratch1]
      ∗ owns (c : Thread nD τ) scM12_0 fullShare (acc12 V c n hn).1 ∗ owns (c : Thread nD τ) scM12_1 fullShare (acc12 V c n hn).2) := rfl

theorem PhiS12_pos (c : Dev nD) (n : ℕ) (h : n ≤ cfg12.N) (hz : n ≠ 0) :
    PhiS12 V c n h = iprop(X12 (F := F) c ∗ Pipeline.scopedRestBut spec12 c [cc12_scratch0, cc12_scratch1]
      ∗ owns (c : Thread nD τ) scM12_0 fullShare (acc12 V c (n - 1) (by omega)).1 ∗ owns (c : Thread nD τ) scM12_1 fullShare (acc12 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => out12_1 (acc12 V c t.val t.isLt).1
    | ⟨2, _⟩ => out12_2 (acc12 V c t.val t.isLt).1 (acc12 V c t.val t.isLt).2
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = out12_1 (acc12 V c t.val t.isLt).1 := by dsimp only [dat12]
theorem after12_2 (c : Dev nD) (t : Fin cfg12.N) : (dat12 V c).after 2 t = out12_2 (acc12 V c t.val t.isLt).1 (acc12 V c t.val t.isLt).2 := by dsimp only [dat12]

/-- The input's current buffer holds its block at every point. -/
theorem before12_0 (c : Dev nD) (t : Fin cfg12.N) (d) : (dat12 V c).before 0 t d = iblk12 V c 0 t :=
  before12_0_of V (dat12 V c) (A_eq12 V c 0) (after12_0 V c) t d

/-- The invariant at a point's start, restated at the point's position. -/
theorem PhiS12_castSucc (c : Dev nD) (t : Fin cfg12.N) :
    (dat12 V c).Φ t.castSucc = PhiS12 V c t.val (Nat.le_of_lt t.isLt) := by
  dsimp only [dat12]; simp only [Fin.coe_castSucc]

/-- Where the windows are idle: the input never; each output row exactly off the last point, where it is not written back either. -/
theorem liveAt12_0 (t : Fin cfg12.N) : cfg12.idle 0 (cfg12.grid.coords t) = false := rfl

theorem idleAt12_1 (t : Fin cfg12.N) (h : ¬ k12_cond2 (grid12.coords t) = 1#1) : cfg12.idle 1 (cfg12.grid.coords t) = true := by
  show (!(k12_cond2 (grid12.coords t) == 1#1)) = true
  rw [Bool.not_eq_true', beq_eq_false_iff_ne]; exact h
theorem idleAt12_2 (t : Fin cfg12.N) (h : ¬ k12_cond2 (grid12.coords t) = 1#1) : cfg12.idle 2 (cfg12.grid.coords t) = true := by
  show (!(k12_cond2 (grid12.coords t) == 1#1)) = true
  rw [Bool.not_eq_true', beq_eq_false_iff_ne]; exact h
theorem liveAt12_1 (t : Fin cfg12.N) (h : k12_cond2 (grid12.coords t) = 1#1) : cfg12.idle 1 (cfg12.grid.coords t) = false := by
  show (!(k12_cond2 (grid12.coords t) == 1#1)) = false
  rw [h]; rfl
theorem liveAt12_2 (t : Fin cfg12.N) (h : k12_cond2 (grid12.coords t) = 1#1) : cfg12.idle 2 (cfg12.grid.coords t) = false := by
  show (!(k12_cond2 (grid12.coords t) == 1#1)) = false
  rw [h]; rfl

theorem noFlush12_1 (t : Fin cfg12.N) (h : t.val ≠ 79) : (cfg12.win 1).flush t = false := by
  have hN : t.val < 80 := lt_of_lt_of_eq t.isLt (show cfg12.N = 80 from N_12)
  cases hf : (cfg12.win 1).flush t with
  | false => rfl
  | true => exact absurd ((flush12_1 t).mp hf) (by omega)
theorem noFlush12_2 (t : Fin cfg12.N) (h : t.val ≠ 79) : (cfg12.win 2).flush t = false := by
  have hN : t.val < 80 := lt_of_lt_of_eq t.isLt (show cfg12.N = 80 from N_12)
  cases hf : (cfg12.win 2).flush t with
  | false => rfl
  | true => exact absurd ((flush12_2 t).mp hf) (by omega)

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4000000 in
/-- The body at any point, by the point's position: first (scratch at anything, reset), last (the output rows stored), or between; the invariant hands the scratch rows over at what the point before left and takes them back stepped. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (st12_0 t) fullShare ((dat12 V c).after 0 t) from by
    unfold Dat.leavesExact; rw [liveAt12_0 t], after12_0]
  have hN : t.val < 80 := lt_of_lt_of_eq t.isLt (show cfg12.N = 80 from N_12)
  by_cases h0 : t.val = 0
  · have hc1 : k12_cond1 (grid12.coords t) = 1#1 := (hcond12_1 t).mpr h0
    have hc2 : ¬ k12_cond2 (grid12.coords t) = 1#1 := fun h => by have := (hcond12_2 t).mp h; omega
    rw [Dat.leavesExact_idle (dat12 V c) 1 t (idleAt12_1 t hc2) (noFlush12_1 t (by omega)),
      Dat.leavesExact_idle (dat12 V c) 2 t (idleAt12_2 t hc2) (noFlush12_2 t (by omega))]
    rw [acc12_zero V c t h0]
    rw [PhiS12_castSucc V c t, PhiS12_zero V c _ _ h0]
    iintro ⟨⟨HX, HR, HS0, HS1⟩, Ho, ⟨%d0, H0⟩, ⟨%d1, H1⟩, ⟨%d2, H2⟩⟩
    iapply (sound_kernel12_first c Set.univ (grid12.coords t) hc1 hc2 _ _ _ _ _ _ _ _ _ _ (iblk12 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k12_cond1 (grid12.coords t) = 1#1 := fun h => h0 ((hcond12_1 t).mp h)
    rw [acc12_pos V c t h0]
    rw [PhiS12_castSucc V c t, PhiS12_pos V c _ _ h0]
    by_cases h79 : t.val = 79
    · have hc2 : k12_cond2 (grid12.coords t) = 1#1 := (hcond12_2 t).mpr h79
      rw [show (dat12 V c).leavesExact 1 t = owns (c : Thread nD τ) (st12_1 t) fullShare ((dat12 V c).after 1 t) from by
        unfold Dat.leavesExact; rw [liveAt12_1 t hc2], after12_1]
      rw [show (dat12 V c).leavesExact 2 t = owns (c : Thread nD τ) (st12_2 t) fullShare ((dat12 V c).after 2 t) from by
        unfold Dat.leavesExact; rw [liveAt12_2 t hc2], after12_2]
      rw [acc12_pos V c t h0]
      iintro ⟨⟨HX, HR, HS0, HS1⟩, Ho, ⟨%d0, H0⟩, ⟨%d1, H1⟩, ⟨%d2, H2⟩⟩
      iapply (sound_kernel12_last c Set.univ (grid12.coords t) hc1 hc2 _ _ _ _ _ _ _ _ _ _ (iblk12 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k12_cond2 (grid12.coords t) = 1#1 := fun h => h79 ((hcond12_2 t).mp h)
      rw [Dat.leavesExact_idle (dat12 V c) 1 t (idleAt12_1 t hc2) (noFlush12_1 t h79),
        Dat.leavesExact_idle (dat12 V c) 2 t (idleAt12_2 t hc2) (noFlush12_2 t h79)]
      iintro ⟨⟨HX, HR, HS0, HS1⟩, Ho, ⟨%d0, H0⟩, ⟨%d1, H1⟩, ⟨%d2, H2⟩⟩
      iapply (sound_kernel12_mid c Set.univ (grid12.coords t) hc1 hc2 _ _ _ _ _ _ _ _ _ _ (iblk12 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation12 (c : Dev nD) : BodyObligation (dat12 (F := F) V c) (defs₀ (F := F)) Variants.none () Set.univ := fun t => by
  rw [bigSep_W12, bigSep_W12]
  exact sound_body12 V c t

/-- Entry: the generator register and the scoped buffers (the two scratch rows among them, at anything) make the invariant before the first point. -/
theorem hin12 (c : Dev nD) : iprop(X12 (F := F) c ∗ Pipeline.scopedRest spec12 c) ⊢ (dat12 V c).Φ 0 := by
  rw [show (dat12 V c).Φ 0 = PhiS12 V c 0 (Nat.zero_le _) from rfl, PhiS12_zero V c 0 _ rfl, scopedRest12_split]
  simp only [scM12_0, scM12_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout12 (c : Dev nD) : (dat12 V c).Φ (Fin.last cfg12.N) ⊢ iprop(X12 (F := F) c ∗ Pipeline.scopedRest spec12 c) := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 80 := N_12; omega), scopedRest12_split]
  simp only [scM12_0, scM12_1, owns_whole]
  iintro ⟨HX, HR, HS0, HS1⟩
  isplitl [HX]; · iexact HX
  isplitl [HS0 HS1]
  · isplitl [HS0]; · iexists _; iexact HS0
    iexists _; iexact HS1
  iexact HR

end Regions

end Cert.Kernel.Rg

end
-- ==== Proof.KRg13.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 13: normalise, rectify, add the residual — the frame half

Region 13 walks the 320000 rows of its operands in 80 blocks of 4000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The body's accesses -/

/-- The whole 4000x128 block, -/
abbrev r13_big : Rect S4000x128 := Rect.unit (s := S4000x128) ![0, 0] S4000x128.size inb_S4000x128_S4000x128_0_0
/-- and the whole 1x128 row. -/
abbrev r13_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out13_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r13_big, k13_pay1 (View.ld x0 r13_big) (View.ld x4 r13_row) (View.ld x2 r13_row) (View.ld x3 r13_row) (View.ld x5 r13_row) (View.ld x1 r13_big)⟩]

/-- The one store is of the whole block, so it covers it. -/
theorem cover13_6 (p0 : Vec F S4000x128 .f32) (y : S4000x128.Idx) :
    ∃ pc ∈ ([⟨r13_big, p0⟩] : List (View.Piece (Elt F) S4000x128 .f32)), y ∈ pc.1.set :=
  View.cover_of_tiled [⟨r13_big, p0⟩] S4000x128.size (by rfl) y

/-! ## The body's triple -/

set_option maxHeartbeats 1000000 in
/-- The body, run on whole staging buffers holding the six input blocks and an output buffer holding anything,
    returns the inputs' buffers unchanged and the output's buffer at out13_6 of the inputs. -/
theorem sound_kernel13 (c : Dev nD) (E : Set ℕ) (i : grid13.Coords)
    (arg1 : Memref sig .tc .vmem S4000x128 .f32) (harg1 : arg1.IsWhole) (arg2 : Memref sig .tc .vmem S4000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out13_6 x0 x1 x2 x3 x4 x5)) -∗ K ⟨⟩))
      ⊢ wp frame (wpE (defs₀ (F := F)) Variants.none c none) E (cc13__bn_relu_residual_kernel i arg1 harg1 arg2 harg2 arg3 harg3 arg4 harg4 arg5 harg5 arg6 harg6 arg7 harg7) K := by
  simp only [cc13__bn_relu_residual_kernel_eq_skeleton]; unfold cc13__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The region's proof data -/

/-- The proof data of region 13 on core c: the arrays as the region finds them; after the body at point t each
    input's buffer at its block and the output's at out13_6 of the six input blocks; the invariant the untouched
    rest of the core's state; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the entry contents. -/
theorem A_eq13 (c : Dev nD) (w : Fin cfg13.W) : (dat13 V c).A w = V c (Pipeline.arrRef spec13 w) := by
  dsimp only [dat13]

/-- The invariant is the same at every point: the rest of the core's state, untouched. -/
theorem Phi13_eq (c : Dev nD) (t : Fin (cfg13.N + 1)) : (dat13 V c).Φ t = Pipeline.ΦA spec13 c := rfl

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t
    = out13_6 (iblk13 V c 0 t) (iblk13 V c 1 t) (iblk13 V c 2 t) (iblk13 V c 3 t) (iblk13 V c 4 t) (iblk13 V c 5 t) := by dsimp only [dat13]

/-- Each input's staging buffer holds its block at every point, whether or not the block was fetched at that
    point: a window not fetched at a point has the block index of the point before, and the body leaves an
    input's buffer as it found it. -/
theorem before13_0 (c : Dev nD) (t : Fin cfg13.N) (d) : (dat13 V c).before 0 t d = iblk13 V c 0 t :=
  ((dat13 V c).before_in_eq_fetched 0 rfl (fun _ => rfl) (fun _ _ _ => rfl)
      (fun t => by rw [after13_0]; unfold Dat.blockOf iblk13; rw [A_eq13 V c 0]; try rfl) t d).trans
    (by unfold Dat.fetched Dat.blockOf iblk13; rw [A_eq13 V c 0]; try rfl)
theorem before13_1 (c : Dev nD) (t : Fin cfg13.N) (d) : (dat13 V c).before 1 t d = iblk13 V c 1 t :=
  ((dat13 V c).before_in_eq_fetched 1 rfl (fun _ => rfl) (fun _ _ _ => rfl)
      (fun t => by rw [after13_1]; unfold Dat.blockOf iblk13; rw [A_eq13 V c 1]; try rfl) t d).trans
    (by unfold Dat.fetched Dat.blockOf iblk13; rw [A_eq13 V c 1]; try rfl)
theorem before13_2 (c : Dev nD) (t : Fin cfg13.N) (d) : (dat13 V c).before 2 t d = iblk13 V c 2 t :=
  ((dat13 V c).before_in_eq_fetched 2 rfl (fun _ => rfl) (fun _ _ _ => rfl)
      (fun t => by rw [after13_2]; unfold Dat.blockOf iblk13; rw [A_eq13 V c 2]; try rfl) t d).trans
    (by unfold Dat.fetched Dat.blockOf iblk13; rw [A_eq13 V c 2]; try rfl)
theorem before13_3 (c : Dev nD) (t : Fin cfg13.N) (d) : (dat13 V c).before 3 t d = iblk13 V c 3 t :=
  ((dat13 V c).before_in_eq_fetched 3 rfl (fun _ => rfl) (fun _ _ _ => rfl)
      (fun t => by rw [after13_3]; unfold Dat.blockOf iblk13; rw [A_eq13 V c 3]; try rfl) t d).trans
    (by unfold Dat.fetched Dat.blockOf iblk13; rw [A_eq13 V c 3]; try rfl)
theorem before13_4 (c : Dev nD) (t : Fin cfg13.N) (d) : (dat13 V c).before 4 t d = iblk13 V c 4 t :=
  ((dat13 V c).before_in_eq_fetched 4 rfl (fun _ => rfl) (fun _ _ _ => rfl)
      (fun t => by rw [after13_4]; unfold Dat.blockOf iblk13; rw [A_eq13 V c 4]; try rfl) t d).trans
    (by unfold Dat.fetched Dat.blockOf iblk13; rw [A_eq13 V c 4]; try rfl)
theorem before13_5 (c : Dev nD) (t : Fin cfg13.N) (d) : (dat13 V c).before 5 t d = iblk13 V c 5 t :=
  ((dat13 V c).before_in_eq_fetched 5 rfl (fun _ => rfl) (fun _ _ _ => rfl)
      (fun t => by rw [after13_5]; unfold Dat.blockOf iblk13; rw [A_eq13 V c 5]; try rfl) t d).trans
    (by unfold Dat.fetched Dat.blockOf iblk13; rw [A_eq13 V c 5]; try rfl)

/-! ## The body obligation, at a generic point -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' buffers hold their blocks, so the body's triple applies; the invariant and
    what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation13 (c : Dev nD) : BodyObligation (dat13 (F := F) V c) (defs₀ (F := F)) Variants.none () Set.univ := fun t => by
  rw [bigSep_W13, bigSep_W13]
  exact sound_body13 V c t

end Region13

end Cert.Kernel.Rg

end
-- ==== Proof.KRg14.lean ====
/-
  Region 14 of the kernel program: the batch statistics of a 20000 x 128 array, accumulated over 10 row blocks of
  2000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-row rectangle of a 1x128 buffer and the whole-block rectangle of a 2000x128 buffer. -/
abbrev rS14 : Rect S1x128 := Rect.unit (s := S1x128) ![0, 0] S1x128.size inb_S1x128_S1x128_0_0
abbrev rX14 : Rect S2000x128 := Rect.unit (s := S2000x128) ![0, 0] S2000x128.size inb_S2000x128_S2000x128_0_0

/-- The first conditional's condition (the grid coordinate is 0), as the kernel computes it. -/
def k14_cond1 (i : grid14.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 9): decided over the 10 points. -/
theorem hcond14_1 : ∀ t : Fin cfg14.N, k14_cond1 (grid14.coords t) = 1#1 ↔ t.val = 0 :=
  (by decide +kernel : ∀ t : Fin grid14.N, k14_cond1 (grid14.coords t) = 1#1 ↔ t.val = 0)
theorem hcond14_2 : ∀ t : Fin cfg14.N, k14_cond2 (grid14.coords t) = 1#1 ↔ t.val = 9 :=
  (by decide +kernel : ∀ t : Fin grid14.N, k14_cond2 (grid14.coords t) = 1#1 ↔ t.val = 9)

/-- One point's step of the two running rows: the row held so far plus the block's column sums (of the entries, of their squares). -/
def step14_0 (x : Vec F S2000x128 .f32) (s0 : Vec F S1x128 .f32) : Vec F S1x128 .f32 :=
  View.canon [⟨rS14, k14_pay4 (View.ld x rX14) (View.ld s0 rS14)⟩]
def step14_1 (x : Vec F S2000x128 .f32) (s1 : Vec F S1x128 .f32) : Vec F S1x128 .f32 :=
  View.canon [⟨rS14, k14_pay5 (View.ld x rX14) (View.ld s1 rS14)⟩]

/-- A store of the whole row covers the 1x128 buffer. -/
theorem coverS14 (p0 : Vec F S1x128 .f32) (y : S1x128.Idx) :
    ∃ pc ∈ ([⟨rS14, p0⟩] : List (View.Piece (Elt F) S1x128 .f32)), y ∈ pc.1.set :=
  View.cover_of_tiled [⟨rS14, p0⟩] S1x128.size (by rfl) y

set_option maxHeartbeats 1000000 in
/-- The body at a point that is neither first nor last: both conditionals fall through; the block and the two output rows are left as found, each scratch row steps. -/
theorem sound_kernel14_mid (c : Dev nD) (E : Set ℕ) (i : grid14.Coords) (hc1 : ¬ k14_cond1 i = 1#1) (hc2 : ¬ k14_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg14 : Memref sig .tc .vmem S1x128 .f32) (harg14 : arg14.IsWhole)
    (x : Vec F S2000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg14 fullShare s1
        ∗ (iprop(owns (c : Thread nD τ) arg1 fullShare x ∗ owns (c : Thread nD τ) arg2 fullShare y1 ∗ owns (c : Thread nD τ) arg3 fullShare y2
            ∗ owns (c : Thread nD τ) arg4 fullShare (step14_0 x s0) ∗ owns (c : Thread nD τ) arg14 fullShare (step14_1 x s1)) -∗ K ⟨⟩))
      ⊢ wp frame (wpE (defs₀ (F := F)) Variants.none c none) E (cc14_kernel i arg1 harg1 arg2 harg2 arg3 harg3 arg4 harg4 arg14 harg14) K := by
  simp only [cc14_kernel_eq_skeleton]; unfold cc14_kernel_skel
  unfold owns
  iintro ⟨⟨%f1, %hf1, H1⟩, H2, H3, ⟨%f4, %hf4, H4⟩, ⟨%f14, %hf14, H14⟩, Hk⟩
  subst hf1; subst hf4; subst hf14
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS14 _)
  iexists _; isplitr
  swap; · iexact H14
  ipureintro
  exact View.read_writes_eq_canon _ _ _ (coverS14 _)

/-- A whole-row store hides every earlier store: the contents are the last payload's. -/
theorem canon_headS14 (p : Vec F S1x128 .f32) (L : List (View.Piece (Elt F) S1x128 .f32)) :
    View.canon (⟨rS14, p⟩ :: L) = View.canon [⟨rS14, p⟩] := by
  funext y
  obtain ⟨pc, hm, hy⟩ := coverS14 p y
  rw [List.mem_singleton] at hm; subst hm
  obtain ⟨x, rfl⟩ := rS14.exists_idx_of_mem hy
  exact (View.canon_cons_emb rS14 p L x).trans (View.canon_cons_emb rS14 p [] x).symm

/-- What a buffer reads after a list of stores whose last is a whole-row store. -/
theorem read_writes_headS14 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS14, p⟩ :: L)) = View.canon [⟨rS14, p⟩] :=
  (View.read_writes_eq_canon v f _ (fun y => by
    obtain ⟨pc, hm, hy⟩ := coverS14 p y
    rw [List.mem_singleton] at hm; subst hm
    exact ⟨_, List.mem_cons_self, hy⟩)).trans (canon_headS14 p L)

/-- The zero rows the first point resets the two scratch rows to. -/
def init14_0 : Vec F S1x128 .f32 := View.canon [⟨rS14, k14_pay1 (F := F)⟩]
def init14_1 : Vec F S1x128 .f32 := View.canon [⟨rS14, k14_pay2 (F := F)⟩]

set_option maxHeartbeats 1000000 in
/-- The body at the first point: the scratch rows, found at anything, are reset to zero and then step; the output rows are left as found. -/
theorem sound_kernel14_first (c : Dev nD) (E : Set ℕ) (i : grid14.Coords) (hc1 : k14_cond1 i = 1#1) (hc2 : ¬ k14_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg14 : Memref sig .tc .vmem S1x128 .f32) (harg14 : arg14.IsWhole)
    (x : Vec F S2000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg14 fullShare d)
        ∗ (iprop(owns (c : Thread nD τ) arg1 fullShare x ∗ owns (c : Thread nD τ) arg2 fullShare y1 ∗ owns (c : Thread nD τ) arg3 fullShare y2
            ∗ owns (c : Thread nD τ) arg4 fullShare (step14_0 x init14_0) ∗ owns (c : Thread nD τ) arg14 fullShare (step14_1 x init14_1)) -∗ K ⟨⟩))
      ⊢ wp frame (wpE (defs₀ (F := F)) Variants.none c none) E (cc14_kernel i arg1 harg1 arg2 harg2 arg3 harg3 arg4 harg4 arg14 harg14) K := by
  simp only [cc14_kernel_eq_skeleton]; unfold cc14_kernel_skel
  unfold owns
  iintro ⟨⟨%f1, %hf1, H1⟩, H2, H3, ⟨%d4, %f4, -, H4⟩, ⟨%d14, %f14, -, H14⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel14_first.sl.v5 sound_kernel14_first.sl.H4_1
    rw [View.readCov_eq_canon_ld _ _ _ (coverS14 _)]
    exact read_writes_headS14 _ _ _ _
  iexists _; isplitr
  swap; · iexact H14
  ipureintro
  unfold sound_kernel14_first.sl.v12 sound_kernel14_first.sl.H14_1
  rw [View.readCov_eq_canon_ld _ _ _ (coverS14 _)]
  exact read_writes_headS14 _ _ _ _

/-- The output rows as the last point computes them from the final running rows: the mean is the column sum over the count; the variance is the sum of squares over the count minus the squared mean. -/
def out14_1 (s0 : Vec F S1x128 .f32) : Vec F S1x128 .f32 :=
  View.canon [⟨rS14, k14_pay6 (View.ld s0 rS14)⟩]
def out14_2 (s0 s1 : Vec F S1x128 .f32) : Vec F S1x128 .f32 :=
  View.canon [⟨rS14, k14_pay7 (View.ld s0 rS14) (View.ld s1 rS14)⟩]

set_option maxHeartbeats 1000000 in
/-- The body at the last point: the scratch rows step, then the two output rows, found at anything, are stored from the stepped rows. -/
theorem sound_kernel14_last (c : Dev nD) (E : Set ℕ) (i : grid14.Coords) (hc1 : ¬ k14_cond1 i = 1#1) (hc2 : k14_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg14 : Memref sig .tc .vmem S1x128 .f32) (harg14 : arg14.IsWhole)
    (x : Vec F S2000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg14 fullShare s1
        ∗ (iprop(owns (c : Thread nD τ) arg1 fullShare x ∗ owns (c : Thread nD τ) arg2 fullShare (out14_1 (step14_0 x s0))
            ∗ owns (c : Thread nD τ) arg3 fullShare (out14_2 (step14_0 x s0) (step14_1 x s1))
            ∗ owns (c : Thread nD τ) arg4 fullShare (step14_0 x s0) ∗ owns (c : Thread nD τ) arg14 fullShare (step14_1 x s1)) -∗ K ⟨⟩))
      ⊢ wp frame (wpE (defs₀ (F := F)) Variants.none c none) E (cc14_kernel i arg1 harg1 arg2 harg2 arg3 harg3 arg4 harg4 arg14 harg14) K := by
  simp only [cc14_kernel_eq_skeleton]; unfold cc14_kernel_skel
  unfold owns
  iintro ⟨⟨%f1, %hf1, H1⟩, ⟨%d2, %f2, -, H2⟩, ⟨%d3, %f3, -, H3⟩, ⟨%f4, %hf4, H4⟩, ⟨%f14, %hf14, H14⟩, Hk⟩
  subst hf1; subst hf4; subst hf14
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel14_last.sl.v23 sound_kernel14_last.sl.H4_1
    rw [View.readCov_eq_canon_ld _ _ _ (coverS14 _)]
    exact View.read_writes_eq_canon _ _ _ (coverS14 _)
  isplitl [H3]
  · iexists _; isplitr
    swap; · iexact H3
    ipureintro
    unfold sound_kernel14_last.sl.v23 sound_kernel14_last.sl.v26 sound_kernel14_last.sl.H4_1 sound_kernel14_last.sl.H14_1
    rw [View.readCov_eq_canon_ld _ _ _ (coverS14 _), View.readCov_eq_canon_ld _ _ _ (coverS14 _)]
    exact View.read_writes_eq_canon _ _ _ (coverS14 _)
  isplitl [H4]
  · iexists _; isplitr
    swap; · iexact H4
    ipureintro
    exact View.read_writes_eq_canon _ _ _ (coverS14 _)
  iexists _; isplitr
  swap; · iexact H14
  ipureintro
  exact View.read_writes_eq_canon _ _ _ (coverS14 _)

section Regions
variable (V : (c : Dev nD) → (b : Ref sig .tc) → Buf (Elt F) ((c : Thread nD τ).loc b))

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The input window's current buffer holds its block at every point, for any proof data over these arrays whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- THE ACCUMULATION. The two scratch rows after point n: at point 0 one step from the zero rows, afterwards one step from what the point before left. -/
def acc14 (c : Dev nD) : (n : ℕ) → n < cfg14.N → Vec F S1x128 .f32 × Vec F S1x128 .f32
  | 0, hn => (step14_0 (iblk14 V c 0 ⟨0, hn⟩) init14_0, step14_1 (iblk14 V c 0 ⟨0, hn⟩) init14_1)
  | n + 1, hn => (step14_0 (iblk14 V c 0 ⟨n + 1, hn⟩) (acc14 c n (Nat.lt_of_succ_lt hn)).1,
      step14_1 (iblk14 V c 0 ⟨n + 1, hn⟩) (acc14 c n (Nat.lt_of_succ_lt hn)).2)

/-- The accumulation at the first point, and at a later point over the point before. -/
theorem acc14_zero (c : Dev nD) (t : Fin cfg14.N) (h0 : t.val = 0) :
    acc14 V c t.val t.isLt = (step14_0 (iblk14 V c 0 t) init14_0, step14_1 (iblk14 V c 0 t) init14_1) := by
  obtain ⟨n, hn⟩ := t
  cases n with
  | zero => rfl
  | succ n => exact absurd h0 (Nat.succ_ne_zero n)

theorem acc14_pos (c : Dev nD) (t : Fin cfg14.N) (h0 : t.val ≠ 0) :
    acc14 V c t.val t.isLt = (step14_0 (iblk14 V c 0 t) (acc14 V c (t.val - 1) (Nat.lt_of_le_of_lt (Nat.sub_le _ _) t.isLt)).1,
      step14_1 (iblk14 V c 0 t) (acc14 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM14_0 : Memref sig .tc .vmem S1x128 .f32 := Memref.whole cc14_scratch0
abbrev scM14_1 : Memref sig .tc .vmem S1x128 .f32 := Memref.whole cc14_scratch1

/-- What enters the invariant besides the scoped buffers: the generator register at some state. -/
def X14 (c : Dev nD) : sProp 𝕄 := iprop(∃ r, prngReg c r)

/-- The region invariant before position n: the generator register, the scoped buffers other than the two scratch rows, and the two scratch rows — at anything before the first point, afterwards at what the point before left. -/
def PhiS14 (c : Dev nD) : (n : ℕ) → n ≤ cfg14.N → sProp 𝕄
  | 0, _ => iprop(X14 (F := F) c ∗ Pipeline.scopedRestBut spec14 c [cc14_scratch0, cc14_scratch1]
      ∗ (∃ d, owns (c : Thread nD τ) scM14_0 fullShare d) ∗ (∃ d, owns (c : Thread nD τ) scM14_1 fullShare d))
  | n + 1, hn => iprop(X14 (F := F) c ∗ Pipeline.scopedRestBut spec14 c [cc14_scratch0, cc14_scratch1]
      ∗ owns (c : Thread nD τ) scM14_0 fullShare (acc14 V c n hn).1 ∗ owns (c : Thread nD τ) scM14_1 fullShare (acc14 V c n hn).2)

/-- The invariant's three readings: before the first point, after point n, before a later point. -/
theorem PhiS14_zero (c : Dev nD) (n : ℕ) (h : n ≤ cfg14.N) (hz : n = 0) :
    PhiS14 V c n h = iprop(X14 (F := F) c ∗ Pipeline.scopedRestBut spec14 c [cc14_scratch0, cc14_scratch1]
      ∗ (∃ d, owns (c : Thread nD τ) scM14_0 fullShare d) ∗ (∃ d, owns (c : Thread nD τ) scM14_1 fullShare d)) := by
  subst hz; rfl

theorem PhiS14_succ (c : Dev nD) (n : ℕ) (hn : n < cfg14.N) :
    PhiS14 V c (n + 1) hn = iprop(X14 (F := F) c ∗ Pipeline.scopedRestBut spec14 c [cc14_scratch0, cc14_scratch1]
      ∗ owns (c : Thread nD τ) scM14_0 fullShare (acc14 V c n hn).1 ∗ owns (c : Thread nD τ) scM14_1 fullShare (acc14 V c n hn).2) := rfl

theorem PhiS14_pos (c : Dev nD) (n : ℕ) (h : n ≤ cfg14.N) (hz : n ≠ 0) :
    PhiS14 V c n h = iprop(X14 (F := F) c ∗ Pipeline.scopedRestBut spec14 c [cc14_scratch0, cc14_scratch1]
      ∗ owns (c : Thread nD τ) scM14_0 fullShare (acc14 V c (n - 1) (by omega)).1 ∗ owns (c : Thread nD τ) scM14_1 fullShare (acc14 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => out14_1 (acc14 V c t.val t.isLt).1
    | ⟨2, _⟩ => out14_2 (acc14 V c t.val t.isLt).1 (acc14 V c t.val t.isLt).2
  Φ t := PhiS14 V c t.val (Nat.le_of_lt_succ t.isLt)
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = out14_1 (acc14 V c t.val t.isLt).1 := by dsimp only [dat14]
theorem after14_2 (c : Dev nD) (t : Fin cfg14.N) : (dat14 V c).after 2 t = out14_2 (acc14 V c t.val t.isLt).1 (acc14 V c t.val t.isLt).2 := by dsimp only [dat14]

/-- The input's current buffer holds its block at every point. -/
theorem before14_0 (c : Dev nD) (t : Fin cfg14.N) (d) : (dat14 V c).before 0 t d = iblk14 V c 0 t :=
  before14_0_of V (dat14 V c) (A_eq14 V c 0) (after14_0 V c) t d

/-- The invariant at a point's start, restated at the point's position. -/
theorem PhiS14_castSucc (c : Dev nD) (t : Fin cfg14.N) :
    (dat14 V c).Φ t.castSucc = PhiS14 V c t.val (Nat.le_of_lt t.isLt) := by
  dsimp only [dat14]; simp only [Fin.coe_castSucc]

/-- Where the windows are idle: the input never; each output row exactly off the last point, where it is not written back either. -/
theorem liveAt14_0 (t : Fin cfg14.N) : cfg14.idle 0 (cfg14.grid.coords t) = false := rfl

theorem idleAt14_1 (t : Fin cfg14.N) (h : ¬ k14_cond2 (grid14.coords t) = 1#1) : cfg14.idle 1 (cfg14.grid.coords t) = true := by
  show (!(k14_cond2 (grid14.coords t) == 1#1)) = true
  rw [Bool.not_eq_true', beq_eq_false_iff_ne]; exact h
theorem idleAt14_2 (t : Fin cfg14.N) (h : ¬ k14_cond2 (grid14.coords t) = 1#1) : cfg14.idle 2 (cfg14.grid.coords t) = true := by
  show (!(k14_cond2 (grid14.coords t) == 1#1)) = true
  rw [Bool.not_eq_true', beq_eq_false_iff_ne]; exact h
theorem liveAt14_1 (t : Fin cfg14.N) (h : k14_cond2 (grid14.coords t) = 1#1) : cfg14.idle 1 (cfg14.grid.coords t) = false := by
  show (!(k14_cond2 (grid14.coords t) == 1#1)) = false
  rw [h]; rfl
theorem liveAt14_2 (t : Fin cfg14.N) (h : k14_cond2 (grid14.coords t) = 1#1) : cfg14.idle 2 (cfg14.grid.coords t) = false := by
  show (!(k14_cond2 (grid14.coords t) == 1#1)) = false
  rw [h]; rfl

theorem noFlush14_1 (t : Fin cfg14.N) (h : t.val ≠ 9) : (cfg14.win 1).flush t = false := by
  have hN : t.val < 10 := lt_of_lt_of_eq t.isLt (show cfg14.N = 10 from N_14)
  cases hf : (cfg14.win 1).flush t with
  | false => rfl
  | true => exact absurd ((flush14_1 t).mp hf) (by omega)
theorem noFlush14_2 (t : Fin cfg14.N) (h : t.val ≠ 9) : (cfg14.win 2).flush t = false := by
  have hN : t.val < 10 := lt_of_lt_of_eq t.isLt (show cfg14.N = 10 from N_14)
  cases hf : (cfg14.win 2).flush t with
  | false => rfl
  | true => exact absurd ((flush14_2 t).mp hf) (by omega)

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4000000 in
/-- The body at any point, by the point's position: first (scratch at anything, reset), last (the output rows stored), or between; the invariant hands the scratch rows over at what the point before left and takes them back stepped. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (st14_0 t) fullShare ((dat14 V c).after 0 t) from by
    unfold Dat.leavesExact; rw [liveAt14_0 t], after14_0]
  have hN : t.val < 10 := lt_of_lt_of_eq t.isLt (show cfg14.N = 10 from N_14)
  by_cases h0 : t.val = 0
  · have hc1 : k14_cond1 (grid14.coords t) = 1#1 := (hcond14_1 t).mpr h0
    have hc2 : ¬ k14_cond2 (grid14.coords t) = 1#1 := fun h => by have := (hcond14_2 t).mp h; omega
    rw [Dat.leavesExact_idle (dat14 V c) 1 t (idleAt14_1 t hc2) (noFlush14_1 t (by omega)),
      Dat.leavesExact_idle (dat14 V c) 2 t (idleAt14_2 t hc2) (noFlush14_2 t (by omega))]
    rw [acc14_zero V c t h0]
    rw [PhiS14_castSucc V c t, PhiS14_zero V c _ _ h0]
    iintro ⟨⟨HX, HR, HS0, HS1⟩, Ho, ⟨%d0, H0⟩, ⟨%d1, H1⟩, ⟨%d2, H2⟩⟩
    iapply (sound_kernel14_first c Set.univ (grid14.coords t) hc1 hc2 _ _ _ _ _ _ _ _ _ _ (iblk14 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k14_cond1 (grid14.coords t) = 1#1 := fun h => h0 ((hcond14_1 t).mp h)
    rw [acc14_pos V c t h0]
    rw [PhiS14_castSucc V c t, PhiS14_pos V c _ _ h0]
    by_cases h79 : t.val = 9
    · have hc2 : k14_cond2 (grid14.coords t) = 1#1 := (hcond14_2 t).mpr h79
      rw [show (dat14 V c).leavesExact 1 t = owns (c : Thread nD τ) (st14_1 t) fullShare ((dat14 V c).after 1 t) from by
        unfold Dat.leavesExact; rw [liveAt14_1 t hc2], after14_1]
      rw [show (dat14 V c).leavesExact 2 t = owns (c : Thread nD τ) (st14_2 t) fullShare ((dat14 V c).after 2 t) from by
        unfold Dat.leavesExact; rw [liveAt14_2 t hc2], after14_2]
      rw [acc14_pos V c t h0]
      iintro ⟨⟨HX, HR, HS0, HS1⟩, Ho, ⟨%d0, H0⟩, ⟨%d1, H1⟩, ⟨%d2, H2⟩⟩
      iapply (sound_kernel14_last c Set.univ (grid14.coords t) hc1 hc2 _ _ _ _ _ _ _ _ _ _ (iblk14 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k14_cond2 (grid14.coords t) = 1#1 := fun h => h79 ((hcond14_2 t).mp h)
      rw [Dat.leavesExact_idle (dat14 V c) 1 t (idleAt14_1 t hc2) (noFlush14_1 t h79),
        Dat.leavesExact_idle (dat14 V c) 2 t (idleAt14_2 t hc2) (noFlush14_2 t h79)]
      iintro ⟨⟨HX, HR, HS0, HS1⟩, Ho, ⟨%d0, H0⟩, ⟨%d1, H1⟩, ⟨%d2, H2⟩⟩
      iapply (sound_kernel14_mid c Set.univ (grid14.coords t) hc1 hc2 _ _ _ _ _ _ _ _ _ _ (iblk14 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation14 (c : Dev nD) : BodyObligation (dat14 (F := F) V c) (defs₀ (F := F)) Variants.none () Set.univ := fun t => by
  rw [bigSep_W14, bigSep_W14]
  exact sound_body14 V c t

/-- Entry: the generator register and the scoped buffers (the two scratch rows among them, at anything) make the invariant before the first point. -/
theorem hin14 (c : Dev nD) : iprop(X14 (F := F) c ∗ Pipeline.scopedRest spec14 c) ⊢ (dat14 V c).Φ 0 := by
  rw [show (dat14 V c).Φ 0 = PhiS14 V c 0 (Nat.zero_le _) from rfl, PhiS14_zero V c 0 _ rfl, scopedRest14_split]
  simp only [scM14_0, scM14_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout14 (c : Dev nD) : (dat14 V c).Φ (Fin.last cfg14.N) ⊢ iprop(X14 (F := F) c ∗ Pipeline.scopedRest spec14 c) := by
  rw [show (dat14 V c).Φ (Fin.last cfg14.N) = PhiS14 V c (Fin.last cfg14.N).val (Nat.le_of_lt_succ (Fin.last cfg14.N).isLt) from rfl,
    PhiS14_pos V c _ _ (by rw [Fin.val_last]; have : cfg14.N = 10 := N_14; omega), scopedRest14_split]
  simp only [scM14_0, scM14_1, owns_whole]
  iintro ⟨HX, HR, HS0, HS1⟩
  isplitl [HX]; · iexact HX
  isplitl [HS0 HS1]
  · isplitl [HS0]; · iexists _; iexact HS0
    iexists _; iexact HS1
  iexact HR

end Regions

end Cert.Kernel.Rg

end
-- ==== Proof.KRg15.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 15: normalise, rectify, add the residual — the frame half

Region 15 walks the 20000 rows of its operands in 10 blocks of 2000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region15
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The body's accesses -/

/-- The whole 4000x128 block, -/
abbrev r15_big : Rect S2000x128 := Rect.unit (s := S2000x128) ![0, 0] S2000x128.size inb_S2000x128_S2000x128_0_0
/-- and the whole 1x128 row. -/
abbrev r15_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out15_6 (x0 : Vec F S2000x128 .f32) (x1 : Vec F S2000x128 .f32) (x2 : Vec F S1x128 .f32) (x3 : Vec F S1x128 .f32)
    (x4 : Vec F S1x128 .f32) (x5 : Vec F S1x128 .f32) : Vec F S2000x128 .f32 :=
  View.canon [⟨r15_big, k15_pay1 (View.ld x0 r15_big) (View.ld x4 r15_row) (View.ld x2 r15_row) (View.ld x3 r15_row) (View.ld x5 r15_row) (View.ld x1 r15_big)⟩]

/-- The one store is of the whole block, so it covers it. -/
theorem cover15_6 (p0 : Vec F S2000x128 .f32) (y : S2000x128.Idx) :
    ∃ pc ∈ ([⟨r15_big, p0⟩] : List (View.Piece (Elt F) S2000x128 .f32)), y ∈ pc.1.set :=
  View.cover_of_tiled [⟨r15_big, p0⟩] S2000x128.size (by rfl) y

/-! ## The body's triple -/

set_option maxHeartbeats 1000000 in
/-- The body, run on whole staging buffers holding the six input blocks and an output buffer holding anything,
    returns the inputs' buffers unchanged and the output's buffer at out15_6 of the inputs. -/
theorem sound_kernel15 (c : Dev nD) (E : Set ℕ) (i : grid15.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out15_6 x0 x1 x2 x3 x4 x5)) -∗ K ⟨⟩))
      ⊢ wp frame (wpE (defs₀ (F := F)) Variants.none c none) E (cc15__bn_relu_residual_kernel i arg1 harg1 arg2 harg2 arg3 harg3 arg4 harg4 arg5 harg5 arg6 harg6 arg7 harg7) K := by
  simp only [cc15__bn_relu_residual_kernel_eq_skeleton]; unfold cc15__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover15_6 _)

/-! ## The region's proof data -/

/-- The proof data of region 15 on core c: the arrays as the region finds them; after the body at point t each
    input's buffer at its block and the output's at out15_6 of the six input blocks; the invariant the untouched
    rest of the core's state; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => out15_6 (iblk15 V c 0 t) (iblk15 V c 1 t) (iblk15 V c 2 t) (iblk15 V c 3 t) (iblk15 V c 4 t) (iblk15 V c 5 t)
  Φ _ := Pipeline.ΦA spec15 c
  q _ := fullShare
  owed _ := 0

/-- The proof data's arrays are the entry contents. -/
theorem A_eq15 (c : Dev nD) (w : Fin cfg15.W) : (dat15 V c).A w = V c (Pipeline.arrRef spec15 w) := by
  dsimp only [dat15]

/-- The invariant is the same at every point: the rest of the core's state, untouched. -/
theorem Phi15_eq (c : Dev nD) (t : Fin (cfg15.N + 1)) : (dat15 V c).Φ t = Pipeline.ΦA spec15 c := rfl

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t
    = out15_6 (iblk15 V c 0 t) (iblk15 V c 1 t) (iblk15 V c 2 t) (iblk15 V c 3 t) (iblk15 V c 4 t) (iblk15 V c 5 t) := by dsimp only [dat15]

/-- Each input's staging buffer holds its block at every point, whether or not the block was fetched at that
    point: a window not fetched at a point has the block index of the point before, and the body leaves an
    input's buffer as it found it. -/
theorem before15_0 (c : Dev nD) (t : Fin cfg15.N) (d) : (dat15 V c).before 0 t d = iblk15 V c 0 t :=
  ((dat15 V c).before_in_eq_fetched 0 rfl (fun _ => rfl) (fun _ _ _ => rfl)
      (fun t => by rw [after15_0]; unfold Dat.blockOf iblk15; rw [A_eq15 V c 0]; try rfl) t d).trans
    (by unfold Dat.fetched Dat.blockOf iblk15; rw [A_eq15 V c 0]; try rfl)
theorem before15_1 (c : Dev nD) (t : Fin cfg15.N) (d) : (dat15 V c).before 1 t d = iblk15 V c 1 t :=
  ((dat15 V c).before_in_eq_fetched 1 rfl (fun _ => rfl) (fun _ _ _ => rfl)
      (fun t => by rw [after15_1]; unfold Dat.blockOf iblk15; rw [A_eq15 V c 1]; try rfl) t d).trans
    (by unfold Dat.fetched Dat.blockOf iblk15; rw [A_eq15 V c 1]; try rfl)
theorem before15_2 (c : Dev nD) (t : Fin cfg15.N) (d) : (dat15 V c).before 2 t d = iblk15 V c 2 t :=
  ((dat15 V c).before_in_eq_fetched 2 rfl (fun _ => rfl) (fun _ _ _ => rfl)
      (fun t => by rw [after15_2]; unfold Dat.blockOf iblk15; rw [A_eq15 V c 2]; try rfl) t d).trans
    (by unfold Dat.fetched Dat.blockOf iblk15; rw [A_eq15 V c 2]; try rfl)
theorem before15_3 (c : Dev nD) (t : Fin cfg15.N) (d) : (dat15 V c).before 3 t d = iblk15 V c 3 t :=
  ((dat15 V c).before_in_eq_fetched 3 rfl (fun _ => rfl) (fun _ _ _ => rfl)
      (fun t => by rw [after15_3]; unfold Dat.blockOf iblk15; rw [A_eq15 V c 3]; try rfl) t d).trans
    (by unfold Dat.fetched Dat.blockOf iblk15; rw [A_eq15 V c 3]; try rfl)
theorem before15_4 (c : Dev nD) (t : Fin cfg15.N) (d) : (dat15 V c).before 4 t d = iblk15 V c 4 t :=
  ((dat15 V c).before_in_eq_fetched 4 rfl (fun _ => rfl) (fun _ _ _ => rfl)
      (fun t => by rw [after15_4]; unfold Dat.blockOf iblk15; rw [A_eq15 V c 4]; try rfl) t d).trans
    (by unfold Dat.fetched Dat.blockOf iblk15; rw [A_eq15 V c 4]; try rfl)
theorem before15_5 (c : Dev nD) (t : Fin cfg15.N) (d) : (dat15 V c).before 5 t d = iblk15 V c 5 t :=
  ((dat15 V c).before_in_eq_fetched 5 rfl (fun _ => rfl) (fun _ _ _ => rfl)
      (fun t => by rw [after15_5]; unfold Dat.blockOf iblk15; rw [A_eq15 V c 5]; try rfl) t d).trans
    (by unfold Dat.fetched Dat.blockOf iblk15; rw [A_eq15 V c 5]; try rfl)

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t))

/-- The body at any point: the inputs' buffers hold their blocks, so the body's triple applies; the invariant and
    what the core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel15 c Set.univ _ _ _ _ _ _ _ _ _ _ _ _ _ _ _ (iblk15 V c 0 t) (iblk15 V c 1 t) (iblk15 V c 2 t) (iblk15 V c 3 t) (iblk15 V c 4 t) (iblk15 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation15 (c : Dev nD) : BodyObligation (dat15 (F := F) V c) (defs₀ (F := F)) Variants.none () Set.univ := fun t => by
  rw [bigSep_W15, bigSep_W15]
  exact sound_body15 V c t

end Region15

end Cert.Kernel.Rg

end
-- ==== Proof.KRg16.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 16: the affine map, one row block per grid point

Region 16 computes o = x·W + b over 10 grid points. At point t the body reads the t-th block of 2000 rows
of x (window 0), the whole 128x512 matrix W (window 1) and the 1x512 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region16
variable (V : (c : Dev nD) → (b : Ref sig .tc) → Buf (Elt F) ((c : Thread nD τ).loc b))

/-! ## The blocks the windows show -/

/-- The block of window w at grid point t: the window's view at t read off the window's array as the
    region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's staging buffer holds the window's block at every point, whether the block was
    fetched at that point or carried over from the point before (then the block index has not moved), for any
    proof data whose array is V's and whose body leaves the block where it is. Window 0: the rows of x. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- The same for window 1, the matrix W, whose block is the whole array at every point. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The same for window 2, the bias row. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-! ## The rectangles the body reads and writes: each buffer, whole -/

abbrev r16_x : Rect S2000x128 := Rect.unit (s := S2000x128) ![0, 0] S2000x128.size inb_S2000x128_S2000x128_0_0
abbrev r16_w : Rect S128x512 := Rect.unit (s := S128x512) ![0, 0] S128x512.size inb_S128x512_S128x512_0_0
abbrev r16_b : Rect S1x512 := Rect.unit (s := S1x512) ![0, 0] S1x512.size inb_S1x512_S1x512_0_0
abbrev r16_o : Rect S2000x512 := Rect.unit (s := S2000x512) ![0, 0] S2000x512.size inb_S2000x512_S2000x512_0_0

/-! ## What the body leaves in the output block -/

/-- The output block after the body, as a function of the three input blocks: the body's single store,
    of the affine payload of the three blocks read whole, laid over the whole buffer. -/
def out16_3 (x0 : Vec F S2000x128 .f32) (x1 : Vec F S128x512 .f32) (x2 : Vec F S1x512 .f32) : Vec F S2000x512 .f32 :=
  View.canon [⟨r16_o, k16_pay1 (View.ld x0 r16_x) (View.ld x1 r16_w) (View.ld x2 r16_b)⟩]

/-- The single store tiles the output buffer, so every index of the buffer lies in it. -/
theorem cover16_3 (p0 : Vec F S2000x512 .f32) (y : S2000x512.Idx) :
    ∃ pc ∈ ([⟨r16_o, p0⟩] : List (View.Piece (Elt F) S2000x512 .f32)), y ∈ pc.1.set :=
  View.cover_of_tiled [⟨r16_o, p0⟩] S2000x512.size (by rfl) y

/-! ## The body's triple -/

set_option maxHeartbeats 1000000 in
/-- The body, run on whole staging buffers with the three inputs at contents x0, x1, x2 and the output at
    any contents, reaches its continuation with the inputs as they were and the output at out16_3 of the inputs.
    The body also reads the output buffer before its store; the value read is not used. -/
theorem sound_kernel16 (c : Dev nD) (E : Set ℕ) (i : grid16.Coords)
    (arg1 : Memref sig .tc .vmem S2000x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out16_3 x0 x1 x2)) -∗ K ⟨⟩))
      ⊢ wp frame (wpE (defs₀ (F := F)) Variants.none c none) E (cc16__linear_kernel i arg1 harg1 arg2 harg2 arg3 harg3 arg4 harg4) K := by
  simp only [cc16__linear_kernel_eq_skeleton]; unfold cc16__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

/-! ## The region's proof data -/

/-- The proof data of region 16 on core c: the arrays as the region finds them; after the body at point t
    each input buffer still at its block and the output buffer at out16_3 of the three input blocks; the
    invariant is the class's (the scoped rest and the generator register, untouched); nothing owed; full
    shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

/-- The proof data's arrays are the contents at the region's entry. -/
theorem A_eq16 (c : Dev nD) (w : Fin cfg16.W) : (dat16 V c).A w = V c (Pipeline.arrRef spec16 w) := by
  dsimp only [dat16]

/-- The invariant at every point is the class invariant. -/
theorem Phi16_eq (c : Dev nD) (t : Fin (cfg16.N + 1)) : (dat16 V c).Φ t = Pipeline.ΦA spec16 c := rfl

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16_3 (iblk16 V c 0 t) (iblk16 V c 1 t) (iblk16 V c 2 t) := by dsimp only [dat16]

/-- Each input's staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-! ## The body obligation -/

/-- What the body is called with at point t: the invariant, the core's debt, and the four staging buffers,
    each at what the pipeline has put there. -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- What the body returns at point t. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

/-- The body at any point: the input buffers hold their blocks, so the body's triple applies; the invariant
    and the core's debt pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation16 (c : Dev nD) : BodyObligation (dat16 (F := F) V c) (defs₀ (F := F)) Variants.none () Set.univ := fun t => by
  rw [bigSep_W16, bigSep_W16]
  exact sound_body16 V c t

end Region16

end Cert.Kernel.Rg

end
-- ==== Proof.KRg17.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 17: the affine map, one row block per grid point

Region 17 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region17
variable (V : (c : Dev nD) → (b : Ref sig .tc) → Buf (Elt F) ((c : Thread nD τ).loc b))

/-! ## The blocks the windows show -/

/-- The block of window w at grid point t: the window's view at t read off the window's array as the
    region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's staging buffer holds the window's block at every point, whether the block was
    fetched at that point or carried over from the point before (then the block index has not moved), for any
    proof data whose array is V's and whose body leaves the block where it is. Window 0: the rows of x. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The same for window 1, the matrix W, whose block is the whole array at every point. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The same for window 2, the bias row. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The rectangles the body reads and writes: each buffer, whole -/

abbrev r17_x : Rect S4000x128 := Rect.unit (s := S4000x128) ![0, 0] S4000x128.size inb_S4000x128_S4000x128_0_0
abbrev r17_w : Rect S128x128 := Rect.unit (s := S128x128) ![0, 0] S128x128.size inb_S128x128_S128x128_0_0
abbrev r17_b : Rect S1x128 := Rect.unit (s := S1x128) ![0, 0] S1x128.size inb_S1x128_S1x128_0_0
abbrev r17_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out17_3 (x0 : Vec F S4000x128 .f32) (x1 : Vec F S128x128 .f32) (x2 : Vec F S1x128 .f32) : Vec F S4000x128 .f32 :=
  View.canon [⟨r17_o, k17_pay1 (View.ld x0 r17_x) (View.ld x1 r17_w) (View.ld x2 r17_b)⟩]

/-- The single store tiles the output buffer, so every index of the buffer lies in it. -/
theorem cover17_3 (p0 : Vec F S4000x128 .f32) (y : S4000x128.Idx) :
    ∃ pc ∈ ([⟨r17_o, p0⟩] : List (View.Piece (Elt F) S4000x128 .f32)), y ∈ pc.1.set :=
  View.cover_of_tiled [⟨r17_o, p0⟩] S4000x128.size (by rfl) y

/-! ## The body's triple -/

set_option maxHeartbeats 1000000 in
/-- The body, run on whole staging buffers with the three inputs at contents x0, x1, x2 and the output at
    any contents, reaches its continuation with the inputs as they were and the output at out17_3 of the inputs.
    The body also reads the output buffer before its store; the value read is not used. -/
theorem sound_kernel17 (c : Dev nD) (E : Set ℕ) (i : grid17.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out17_3 x0 x1 x2)) -∗ K ⟨⟩))
      ⊢ wp frame (wpE (defs₀ (F := F)) Variants.none c none) E (cc17__linear_kernel i arg1 harg1 arg2 harg2 arg3 harg3 arg4 harg4) K := by
  simp only [cc17__linear_kernel_eq_skeleton]; unfold cc17__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The region's proof data -/

/-- The proof data of region 17 on core c: the arrays as the region finds them; after the body at point t
    each input buffer still at its block and the output buffer at out17_3 of the three input blocks; the
    invariant is the class's (the scoped rest and the generator register, untouched); nothing owed; full
    shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the contents at the region's entry. -/
theorem A_eq17 (c : Dev nD) (w : Fin cfg17.W) : (dat17 V c).A w = V c (Pipeline.arrRef spec17 w) := by
  dsimp only [dat17]

/-- The invariant at every point is the class invariant. -/
theorem Phi17_eq (c : Dev nD) (t : Fin (cfg17.N + 1)) : (dat17 V c).Φ t = Pipeline.ΦA spec17 c := rfl

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

/-- Each input's staging buffer holds its block at every point. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation -/

/-- What the body is called with at point t: the invariant, the core's debt, and the four staging buffers,
    each at what the pipeline has put there. -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- What the body returns at point t. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the input buffers hold their blocks, so the body's triple applies; the invariant
    and the core's debt pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation17 (c : Dev nD) : BodyObligation (dat17 (F := F) V c) (defs₀ (F := F)) Variants.none () Set.univ := fun t => by
  rw [bigSep_W17, bigSep_W17]
  exact sound_body17 V c t

end Region17

end Cert.Kernel.Rg

end
-- ==== Proof.KRg18.lean ====
/- The frame half of kernel region 18 (the gate kernel) of the program's run, generic in the float family: at the
   TensorCore's buffer contents V on entry, each window's block at a point of the grid, what the body leaves in its
   two output staging buffers as functions of the four input blocks, the body's triple, the region's exact proof data
   and the body obligation at every point. -/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region18
variable (V : (c : Dev nD) → (b : Ref sig .tc) → Buf (Elt F) ((c : Thread nD τ).loc b))

/-! # Region 18: ehat = ce + dh + eh, msg = logistic ehat * bh, row block by row block -/

/-- The block of window w at grid point t, read off the window's array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds the window's block at every point, for any proof data whose array
    is the entry contents and whose body leaves the block where it found it: the window is uncut and has no idle point. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- The whole 4000 x 128 block as a rectangle of itself: every load and store of the body is at it. -/
abbrev r18_0 : Rect S4000x128 := Rect.unit (s := S4000x128) ![0, 0] S4000x128.size inb_S4000x128_S4000x128_0_0

/-- The pre-activation block the body leaves in window 4's buffer, from the blocks of ce, dh, eh. -/
def out18_4 (x0 x1 x2 : Vec F S4000x128 .f32) : Vec F S4000x128 .f32 :=
  View.canon [⟨r18_0, k18_pay1 (View.ld x0 r18_0) (View.ld x1 r18_0) (View.ld x2 r18_0)⟩]

/-- The gated message block the body leaves in window 5's buffer, from the blocks of ce, dh, eh, bh. -/
def out18_5 (x0 x1 x2 x3 : Vec F S4000x128 .f32) : Vec F S4000x128 .f32 :=
  View.canon [⟨r18_0, k18_pay2 (View.ld x0 r18_0) (View.ld x1 r18_0) (View.ld x2 r18_0) (View.ld x3 r18_0)⟩]

/-- The one whole-block store covers the buffer. -/
theorem cover18 (p0 : Vec F S4000x128 .f32) (y : S4000x128.Idx) :
    ∃ pc ∈ ([⟨r18_0, p0⟩] : List (View.Piece (Elt F) S4000x128 .f32)), y ∈ pc.1.set :=
  View.cover_of_tiled [⟨r18_0, p0⟩] S4000x128.size (by rfl) y

set_option maxHeartbeats 1000000 in
/-- The body on whole staging memrefs, the four inputs' at contents x0 … x3 and the two outputs' at anything, runs to
    a state with the inputs' as they were and the outputs' at out18_4 and out18_5 of the inputs'. The body reads each
    output memref once before it stores to it; the value read is not used. -/
theorem sound_kernel18 (c : Dev nD) (E : Set ℕ) (i : grid18.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out18_4 x0 x1 x2)
            ∗ owns (c : Thread nD τ) arg6 fullShare (out18_5 x0 x1 x2 x3)) -∗ K ⟨⟩))
      ⊢ wp frame (wpE (defs₀ (F := F)) Variants.none c none) E (cc18__gate_kernel i arg1 harg1 arg2 harg2 arg3 harg3 arg4 harg4 arg5 harg5 arg6 harg6) K := by
  simp only [cc18__gate_kernel_eq_skeleton]; unfold cc18__gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover18 _)
  iexists _; isplitr
  swap; · iexact H5
  ipureintro
  exact View.read_writes_eq_canon _ _ _ (cover18 _)

/-- The proof data of region 18 on core c: the arrays as the region finds them; after the body at point t each input's
    buffer at its block and the outputs' at out18_4, out18_5 of the input blocks; the class invariant; nothing owed; full
    shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => out18_4 (iblk18 V c 0 t) (iblk18 V c 1 t) (iblk18 V c 2 t)
    | ⟨5, _⟩ => out18_5 (iblk18 V c 0 t) (iblk18 V c 1 t) (iblk18 V c 2 t) (iblk18 V c 3 t)
  Φ _ := Pipeline.ΦA spec18 c
  q _ := fullShare
  owed _ := 0

/-- The proof data's arrays are the entry contents. -/
theorem A_eq18 (c : Dev nD) (w : Fin cfg18.W) : (dat18 V c).A w = V c (Pipeline.arrRef spec18 w) := by
  dsimp only [dat18]

/-- The invariant is the class's at every point. -/
theorem Phi18_eq (c : Dev nD) (t : Fin (cfg18.N + 1)) : (dat18 V c).Φ t = Pipeline.ΦA spec18 c := rfl

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) :
    (dat18 V c).after 4 t = out18_4 (iblk18 V c 0 t) (iblk18 V c 1 t) (iblk18 V c 2 t) := by dsimp only [dat18]
theorem after18_5 (c : Dev nD) (t : Fin cfg18.N) :
    (dat18 V c).after 5 t = out18_5 (iblk18 V c 0 t) (iblk18 V c 1 t) (iblk18 V c 2 t) (iblk18 V c 3 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d

/-- What the body is called with at point t, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

/-- The body at any point: the inputs' memrefs hold their blocks, so the body's triple applies; the invariant and the
    core's debts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ _ _ _ _ _ _ _ _ _ _ _ _ _ (iblk18 V c 0 t) (iblk18 V c 1 t) (iblk18 V c 2 t) (iblk18 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

end Region18

end Cert.Kernel.Rg

end
-- ==== Proof.KRg19.lean ====
/-
  Region 19 of the kernel program: the batch statistics of a 320000 x 128 array, accumulated over 80 row blocks of
  4000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-row rectangle of a 1x128 buffer and the whole-block rectangle of a 4000x128 buffer. -/
abbrev rS19 : Rect S1x128 := Rect.unit (s := S1x128) ![0, 0] S1x128.size inb_S1x128_S1x128_0_0
abbrev rX19 : Rect S4000x128 := Rect.unit (s := S4000x128) ![0, 0] S4000x128.size inb_S4000x128_S4000x128_0_0

/-- The first conditional's condition (the grid coordinate is 0), as the kernel computes it. -/
def k19_cond1 (i : grid19.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 79): decided over the 80 points. -/
theorem hcond19_1 : ∀ t : Fin cfg19.N, k19_cond1 (grid19.coords t) = 1#1 ↔ t.val = 0 :=
  (by decide +kernel : ∀ t : Fin grid19.N, k19_cond1 (grid19.coords t) = 1#1 ↔ t.val = 0)
theorem hcond19_2 : ∀ t : Fin cfg19.N, k19_cond2 (grid19.coords t) = 1#1 ↔ t.val = 79 :=
  (by decide +kernel : ∀ t : Fin grid19.N, k19_cond2 (grid19.coords t) = 1#1 ↔ t.val = 79)

/-- One point's step of the two running rows: the row held so far plus the block's column sums (of the entries, of their squares). -/
def step19_0 (x : Vec F S4000x128 .f32) (s0 : Vec F S1x128 .f32) : Vec F S1x128 .f32 :=
  View.canon [⟨rS19, k19_pay4 (View.ld x rX19) (View.ld s0 rS19)⟩]
def step19_1 (x : Vec F S4000x128 .f32) (s1 : Vec F S1x128 .f32) : Vec F S1x128 .f32 :=
  View.canon [⟨rS19, k19_pay5 (View.ld x rX19) (View.ld s1 rS19)⟩]

/-- A store of the whole row covers the 1x128 buffer. -/
theorem coverS19 (p0 : Vec F S1x128 .f32) (y : S1x128.Idx) :
    ∃ pc ∈ ([⟨rS19, p0⟩] : List (View.Piece (Elt F) S1x128 .f32)), y ∈ pc.1.set :=
  View.cover_of_tiled [⟨rS19, p0⟩] S1x128.size (by rfl) y

set_option maxHeartbeats 1000000 in
/-- The body at a point that is neither first nor last: both conditionals fall through; the block and the two output rows are left as found, each scratch row steps. -/
theorem sound_kernel19_mid (c : Dev nD) (E : Set ℕ) (i : grid19.Coords) (hc1 : ¬ k19_cond1 i = 1#1) (hc2 : ¬ k19_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg19 : Memref sig .tc .vmem S1x128 .f32) (harg19 : arg19.IsWhole)
    (x : Vec F S4000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg19 fullShare s1
        ∗ (iprop(owns (c : Thread nD τ) arg1 fullShare x ∗ owns (c : Thread nD τ) arg2 fullShare y1 ∗ owns (c : Thread nD τ) arg3 fullShare y2
            ∗ owns (c : Thread nD τ) arg4 fullShare (step19_0 x s0) ∗ owns (c : Thread nD τ) arg19 fullShare (step19_1 x s1)) -∗ K ⟨⟩))
      ⊢ wp frame (wpE (defs₀ (F := F)) Variants.none c none) E (cc19_kernel i arg1 harg1 arg2 harg2 arg3 harg3 arg4 harg4 arg19 harg19) K := by
  simp only [cc19_kernel_eq_skeleton]; unfold cc19_kernel_skel
  unfold owns
  iintro ⟨⟨%f1, %hf1, H1⟩, H2, H3, ⟨%f4, %hf4, H4⟩, ⟨%f19, %hf19, H19⟩, Hk⟩
  subst hf1; subst hf4; subst hf19
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS19 _)
  iexists _; isplitr
  swap; · iexact H19
  ipureintro
  exact View.read_writes_eq_canon _ _ _ (coverS19 _)

/-- A whole-row store hides every earlier store: the contents are the last payload's. -/
theorem canon_headS19 (p : Vec F S1x128 .f32) (L : List (View.Piece (Elt F) S1x128 .f32)) :
    View.canon (⟨rS19, p⟩ :: L) = View.canon [⟨rS19, p⟩] := by
  funext y
  obtain ⟨pc, hm, hy⟩ := coverS19 p y
  rw [List.mem_singleton] at hm; subst hm
  obtain ⟨x, rfl⟩ := rS19.exists_idx_of_mem hy
  exact (View.canon_cons_emb rS19 p L x).trans (View.canon_cons_emb rS19 p [] x).symm

/-- What a buffer reads after a list of stores whose last is a whole-row store. -/
theorem read_writes_headS19 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS19, p⟩ :: L)) = View.canon [⟨rS19, p⟩] :=
  (View.read_writes_eq_canon v f _ (fun y => by
    obtain ⟨pc, hm, hy⟩ := coverS19 p y
    rw [List.mem_singleton] at hm; subst hm
    exact ⟨_, List.mem_cons_self, hy⟩)).trans (canon_headS19 p L)

/-- The zero rows the first point resets the two scratch rows to. -/
def init19_0 : Vec F S1x128 .f32 := View.canon [⟨rS19, k19_pay1 (F := F)⟩]
def init19_1 : Vec F S1x128 .f32 := View.canon [⟨rS19, k19_pay2 (F := F)⟩]

set_option maxHeartbeats 1000000 in
/-- The body at the first point: the scratch rows, found at anything, are reset to zero and then step; the output rows are left as found. -/
theorem sound_kernel19_first (c : Dev nD) (E : Set ℕ) (i : grid19.Coords) (hc1 : k19_cond1 i = 1#1) (hc2 : ¬ k19_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg19 : Memref sig .tc .vmem S1x128 .f32) (harg19 : arg19.IsWhole)
    (x : Vec F S4000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg19 fullShare d)
        ∗ (iprop(owns (c : Thread nD τ) arg1 fullShare x ∗ owns (c : Thread nD τ) arg2 fullShare y1 ∗ owns (c : Thread nD τ) arg3 fullShare y2
            ∗ owns (c : Thread nD τ) arg4 fullShare (step19_0 x init19_0) ∗ owns (c : Thread nD τ) arg19 fullShare (step19_1 x init19_1)) -∗ K ⟨⟩))
      ⊢ wp frame (wpE (defs₀ (F := F)) Variants.none c none) E (cc19_kernel i arg1 harg1 arg2 harg2 arg3 harg3 arg4 harg4 arg19 harg19) K := by
  simp only [cc19_kernel_eq_skeleton]; unfold cc19_kernel_skel
  unfold owns
  iintro ⟨⟨%f1, %hf1, H1⟩, H2, H3, ⟨%d4, %f4, -, H4⟩, ⟨%d19, %f19, -, H19⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel19_first.sl.v5 sound_kernel19_first.sl.H4_1
    rw [View.readCov_eq_canon_ld _ _ _ (coverS19 _)]
    exact read_writes_headS19 _ _ _ _
  iexists _; isplitr
  swap; · iexact H19
  ipureintro
  unfold sound_kernel19_first.sl.v12 sound_kernel19_first.sl.H19_1
  rw [View.readCov_eq_canon_ld _ _ _ (coverS19 _)]
  exact read_writes_headS19 _ _ _ _

/-- The output rows as the last point computes them from the final running rows: the mean is the column sum over the count; the variance is the sum of squares over the count minus the squared mean. -/
def out19_1 (s0 : Vec F S1x128 .f32) : Vec F S1x128 .f32 :=
  View.canon [⟨rS19, k19_pay6 (View.ld s0 rS19)⟩]
def out19_2 (s0 s1 : Vec F S1x128 .f32) : Vec F S1x128 .f32 :=
  View.canon [⟨rS19, k19_pay7 (View.ld s0 rS19) (View.ld s1 rS19)⟩]

set_option maxHeartbeats 1000000 in
/-- The body at the last point: the scratch rows step, then the two output rows, found at anything, are stored from the stepped rows. -/
theorem sound_kernel19_last (c : Dev nD) (E : Set ℕ) (i : grid19.Coords) (hc1 : ¬ k19_cond1 i = 1#1) (hc2 : k19_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg19 : Memref sig .tc .vmem S1x128 .f32) (harg19 : arg19.IsWhole)
    (x : Vec F S4000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg19 fullShare s1
        ∗ (iprop(owns (c : Thread nD τ) arg1 fullShare x ∗ owns (c : Thread nD τ) arg2 fullShare (out19_1 (step19_0 x s0))
            ∗ owns (c : Thread nD τ) arg3 fullShare (out19_2 (step19_0 x s0) (step19_1 x s1))
            ∗ owns (c : Thread nD τ) arg4 fullShare (step19_0 x s0) ∗ owns (c : Thread nD τ) arg19 fullShare (step19_1 x s1)) -∗ K ⟨⟩))
      ⊢ wp frame (wpE (defs₀ (F := F)) Variants.none c none) E (cc19_kernel i arg1 harg1 arg2 harg2 arg3 harg3 arg4 harg4 arg19 harg19) K := by
  simp only [cc19_kernel_eq_skeleton]; unfold cc19_kernel_skel
  unfold owns
  iintro ⟨⟨%f1, %hf1, H1⟩, ⟨%d2, %f2, -, H2⟩, ⟨%d3, %f3, -, H3⟩, ⟨%f4, %hf4, H4⟩, ⟨%f19, %hf19, H19⟩, Hk⟩
  subst hf1; subst hf4; subst hf19
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel19_last.sl.v23 sound_kernel19_last.sl.H4_1
    rw [View.readCov_eq_canon_ld _ _ _ (coverS19 _)]
    exact View.read_writes_eq_canon _ _ _ (coverS19 _)
  isplitl [H3]
  · iexists _; isplitr
    swap; · iexact H3
    ipureintro
    unfold sound_kernel19_last.sl.v23 sound_kernel19_last.sl.v26 sound_kernel19_last.sl.H4_1 sound_kernel19_last.sl.H19_1
    rw [View.readCov_eq_canon_ld _ _ _ (coverS19 _), View.readCov_eq_canon_ld _ _ _ (coverS19 _)]
    exact View.read_writes_eq_canon _ _ _ (coverS19 _)
  isplitl [H4]
  · iexists _; isplitr
    swap; · iexact H4
    ipureintro
    exact View.read_writes_eq_canon _ _ _ (coverS19 _)
  iexists _; isplitr
  swap; · iexact H19
  ipureintro
  exact View.read_writes_eq_canon _ _ _ (coverS19 _)

section Regions
variable (V : (c : Dev nD) → (b : Ref sig .tc) → Buf (Elt F) ((c : Thread nD τ).loc b))

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The input window's current buffer holds its block at every point, for any proof data over these arrays whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- THE ACCUMULATION. The two scratch rows after point n: at point 0 one step from the zero rows, afterwards one step from what the point before left. -/
def acc19 (c : Dev nD) : (n : ℕ) → n < cfg19.N → Vec F S1x128 .f32 × Vec F S1x128 .f32
  | 0, hn => (step19_0 (iblk19 V c 0 ⟨0, hn⟩) init19_0, step19_1 (iblk19 V c 0 ⟨0, hn⟩) init19_1)
  | n + 1, hn => (step19_0 (iblk19 V c 0 ⟨n + 1, hn⟩) (acc19 c n (Nat.lt_of_succ_lt hn)).1,
      step19_1 (iblk19 V c 0 ⟨n + 1, hn⟩) (acc19 c n (Nat.lt_of_succ_lt hn)).2)

/-- The accumulation at the first point, and at a later point over the point before. -/
theorem acc19_zero (c : Dev nD) (t : Fin cfg19.N) (h0 : t.val = 0) :
    acc19 V c t.val t.isLt = (step19_0 (iblk19 V c 0 t) init19_0, step19_1 (iblk19 V c 0 t) init19_1) := by
  obtain ⟨n, hn⟩ := t
  cases n with
  | zero => rfl
  | succ n => exact absurd h0 (Nat.succ_ne_zero n)

theorem acc19_pos (c : Dev nD) (t : Fin cfg19.N) (h0 : t.val ≠ 0) :
    acc19 V c t.val t.isLt = (step19_0 (iblk19 V c 0 t) (acc19 V c (t.val - 1) (Nat.lt_of_le_of_lt (Nat.sub_le _ _) t.isLt)).1,
      step19_1 (iblk19 V c 0 t) (acc19 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM19_0 : Memref sig .tc .vmem S1x128 .f32 := Memref.whole cc19_scratch0
abbrev scM19_1 : Memref sig .tc .vmem S1x128 .f32 := Memref.whole cc19_scratch1

/-- What enters the invariant besides the scoped buffers: the generator register at some state. -/
def X19 (c : Dev nD) : sProp 𝕄 := iprop(∃ r, prngReg c r)

/-- The region invariant before position n: the generator register, the scoped buffers other than the two scratch rows, and the two scratch rows — at anything before the first point, afterwards at what the point before left. -/
def PhiS19 (c : Dev nD) : (n : ℕ) → n ≤ cfg19.N → sProp 𝕄
  | 0, _ => iprop(X19 (F := F) c ∗ Pipeline.scopedRestBut spec19 c [cc19_scratch0, cc19_scratch1]
      ∗ (∃ d, owns (c : Thread nD τ) scM19_0 fullShare d) ∗ (∃ d, owns (c : Thread nD τ) scM19_1 fullShare d))
  | n + 1, hn => iprop(X19 (F := F) c ∗ Pipeline.scopedRestBut spec19 c [cc19_scratch0, cc19_scratch1]
      ∗ owns (c : Thread nD τ) scM19_0 fullShare (acc19 V c n hn).1 ∗ owns (c : Thread nD τ) scM19_1 fullShare (acc19 V c n hn).2)

/-- The invariant's three readings: before the first point, after point n, before a later point. -/
theorem PhiS19_zero (c : Dev nD) (n : ℕ) (h : n ≤ cfg19.N) (hz : n = 0) :
    PhiS19 V c n h = iprop(X19 (F := F) c ∗ Pipeline.scopedRestBut spec19 c [cc19_scratch0, cc19_scratch1]
      ∗ (∃ d, owns (c : Thread nD τ) scM19_0 fullShare d) ∗ (∃ d, owns (c : Thread nD τ) scM19_1 fullShare d)) := by
  subst hz; rfl

theorem PhiS19_succ (c : Dev nD) (n : ℕ) (hn : n < cfg19.N) :
    PhiS19 V c (n + 1) hn = iprop(X19 (F := F) c ∗ Pipeline.scopedRestBut spec19 c [cc19_scratch0, cc19_scratch1]
      ∗ owns (c : Thread nD τ) scM19_0 fullShare (acc19 V c n hn).1 ∗ owns (c : Thread nD τ) scM19_1 fullShare (acc19 V c n hn).2) := rfl

theorem PhiS19_pos (c : Dev nD) (n : ℕ) (h : n ≤ cfg19.N) (hz : n ≠ 0) :
    PhiS19 V c n h = iprop(X19 (F := F) c ∗ Pipeline.scopedRestBut spec19 c [cc19_scratch0, cc19_scratch1]
      ∗ owns (c : Thread nD τ) scM19_0 fullShare (acc19 V c (n - 1) (by omega)).1 ∗ owns (c : Thread nD τ) scM19_1 fullShare (acc19 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => out19_1 (acc19 V c t.val t.isLt).1
    | ⟨2, _⟩ => out19_2 (acc19 V c t.val t.isLt).1 (acc19 V c t.val t.isLt).2
  Φ t := PhiS19 V c t.val (Nat.le_of_lt_succ t.isLt)
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = out19_1 (acc19 V c t.val t.isLt).1 := by dsimp only [dat19]
theorem after19_2 (c : Dev nD) (t : Fin cfg19.N) : (dat19 V c).after 2 t = out19_2 (acc19 V c t.val t.isLt).1 (acc19 V c t.val t.isLt).2 := by dsimp only [dat19]

/-- The input's current buffer holds its block at every point. -/
theorem before19_0 (c : Dev nD) (t : Fin cfg19.N) (d) : (dat19 V c).before 0 t d = iblk19 V c 0 t :=
  before19_0_of V (dat19 V c) (A_eq19 V c 0) (after19_0 V c) t d

/-- The invariant at a point's start, restated at the point's position. -/
theorem PhiS19_castSucc (c : Dev nD) (t : Fin cfg19.N) :
    (dat19 V c).Φ t.castSucc = PhiS19 V c t.val (Nat.le_of_lt t.isLt) := by
  dsimp only [dat19]; simp only [Fin.coe_castSucc]

/-- Where the windows are idle: the input never; each output row exactly off the last point, where it is not written back either. -/
theorem liveAt19_0 (t : Fin cfg19.N) : cfg19.idle 0 (cfg19.grid.coords t) = false := rfl

theorem idleAt19_1 (t : Fin cfg19.N) (h : ¬ k19_cond2 (grid19.coords t) = 1#1) : cfg19.idle 1 (cfg19.grid.coords t) = true := by
  show (!(k19_cond2 (grid19.coords t) == 1#1)) = true
  rw [Bool.not_eq_true', beq_eq_false_iff_ne]; exact h
theorem idleAt19_2 (t : Fin cfg19.N) (h : ¬ k19_cond2 (grid19.coords t) = 1#1) : cfg19.idle 2 (cfg19.grid.coords t) = true := by
  show (!(k19_cond2 (grid19.coords t) == 1#1)) = true
  rw [Bool.not_eq_true', beq_eq_false_iff_ne]; exact h
theorem liveAt19_1 (t : Fin cfg19.N) (h : k19_cond2 (grid19.coords t) = 1#1) : cfg19.idle 1 (cfg19.grid.coords t) = false := by
  show (!(k19_cond2 (grid19.coords t) == 1#1)) = false
  rw [h]; rfl
theorem liveAt19_2 (t : Fin cfg19.N) (h : k19_cond2 (grid19.coords t) = 1#1) : cfg19.idle 2 (cfg19.grid.coords t) = false := by
  show (!(k19_cond2 (grid19.coords t) == 1#1)) = false
  rw [h]; rfl

theorem noFlush19_1 (t : Fin cfg19.N) (h : t.val ≠ 79) : (cfg19.win 1).flush t = false := by
  have hN : t.val < 80 := lt_of_lt_of_eq t.isLt (show cfg19.N = 80 from N_19)
  cases hf : (cfg19.win 1).flush t with
  | false => rfl
  | true => exact absurd ((flush19_1 t).mp hf) (by omega)
theorem noFlush19_2 (t : Fin cfg19.N) (h : t.val ≠ 79) : (cfg19.win 2).flush t = false := by
  have hN : t.val < 80 := lt_of_lt_of_eq t.isLt (show cfg19.N = 80 from N_19)
  cases hf : (cfg19.win 2).flush t with
  | false => rfl
  | true => exact absurd ((flush19_2 t).mp hf) (by omega)

/-- What the body is called with at point t, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4000000 in
/-- The body at any point, by the point's position: first (scratch at anything, reset), last (the output rows stored), or between; the invariant hands the scratch rows over at what the point before left and takes them back stepped. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0]
  rw [show (dat19 V c).owesAt () t.succ = (dat19 V c).owesAt () t.castSucc from rfl]
  rw [show (dat19 V c).Φ t.succ = PhiS19 V c (t.val + 1) t.isLt from rfl, PhiS19_succ]
  rw [show (dat19 V c).leavesExact 0 t = owns (c : Thread nD τ) (st19_0 t) fullShare ((dat19 V c).after 0 t) from by
    unfold Dat.leavesExact; rw [liveAt19_0 t], after19_0]
  have hN : t.val < 80 := lt_of_lt_of_eq t.isLt (show cfg19.N = 80 from N_19)
  by_cases h0 : t.val = 0
  · have hc1 : k19_cond1 (grid19.coords t) = 1#1 := (hcond19_1 t).mpr h0
    have hc2 : ¬ k19_cond2 (grid19.coords t) = 1#1 := fun h => by have := (hcond19_2 t).mp h; omega
    rw [Dat.leavesExact_idle (dat19 V c) 1 t (idleAt19_1 t hc2) (noFlush19_1 t (by omega)),
      Dat.leavesExact_idle (dat19 V c) 2 t (idleAt19_2 t hc2) (noFlush19_2 t (by omega))]
    rw [acc19_zero V c t h0]
    rw [PhiS19_castSucc V c t, PhiS19_zero V c _ _ h0]
    iintro ⟨⟨HX, HR, HS0, HS1⟩, Ho, ⟨%d0, H0⟩, ⟨%d1, H1⟩, ⟨%d2, H2⟩⟩
    iapply (sound_kernel19_first c Set.univ (grid19.coords t) hc1 hc2 _ _ _ _ _ _ _ _ _ _ (iblk19 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k19_cond1 (grid19.coords t) = 1#1 := fun h => h0 ((hcond19_1 t).mp h)
    rw [acc19_pos V c t h0]
    rw [PhiS19_castSucc V c t, PhiS19_pos V c _ _ h0]
    by_cases h79 : t.val = 79
    · have hc2 : k19_cond2 (grid19.coords t) = 1#1 := (hcond19_2 t).mpr h79
      rw [show (dat19 V c).leavesExact 1 t = owns (c : Thread nD τ) (st19_1 t) fullShare ((dat19 V c).after 1 t) from by
        unfold Dat.leavesExact; rw [liveAt19_1 t hc2], after19_1]
      rw [show (dat19 V c).leavesExact 2 t = owns (c : Thread nD τ) (st19_2 t) fullShare ((dat19 V c).after 2 t) from by
        unfold Dat.leavesExact; rw [liveAt19_2 t hc2], after19_2]
      rw [acc19_pos V c t h0]
      iintro ⟨⟨HX, HR, HS0, HS1⟩, Ho, ⟨%d0, H0⟩, ⟨%d1, H1⟩, ⟨%d2, H2⟩⟩
      iapply (sound_kernel19_last c Set.univ (grid19.coords t) hc1 hc2 _ _ _ _ _ _ _ _ _ _ (iblk19 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k19_cond2 (grid19.coords t) = 1#1 := fun h => h79 ((hcond19_2 t).mp h)
      rw [Dat.leavesExact_idle (dat19 V c) 1 t (idleAt19_1 t hc2) (noFlush19_1 t h79),
        Dat.leavesExact_idle (dat19 V c) 2 t (idleAt19_2 t hc2) (noFlush19_2 t h79)]
      iintro ⟨⟨HX, HR, HS0, HS1⟩, Ho, ⟨%d0, H0⟩, ⟨%d1, H1⟩, ⟨%d2, H2⟩⟩
      iapply (sound_kernel19_mid c Set.univ (grid19.coords t) hc1 hc2 _ _ _ _ _ _ _ _ _ _ (iblk19 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation19 (c : Dev nD) : BodyObligation (dat19 (F := F) V c) (defs₀ (F := F)) Variants.none () Set.univ := fun t => by
  rw [bigSep_W19, bigSep_W19]
  exact sound_body19 V c t

/-- Entry: the generator register and the scoped buffers (the two scratch rows among them, at anything) make the invariant before the first point. -/
theorem hin19 (c : Dev nD) : iprop(X19 (F := F) c ∗ Pipeline.scopedRest spec19 c) ⊢ (dat19 V c).Φ 0 := by
  rw [show (dat19 V c).Φ 0 = PhiS19 V c 0 (Nat.zero_le _) from rfl, PhiS19_zero V c 0 _ rfl, scopedRest19_split]
  simp only [scM19_0, scM19_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout19 (c : Dev nD) : (dat19 V c).Φ (Fin.last cfg19.N) ⊢ iprop(X19 (F := F) c ∗ Pipeline.scopedRest spec19 c) := by
  rw [show (dat19 V c).Φ (Fin.last cfg19.N) = PhiS19 V c (Fin.last cfg19.N).val (Nat.le_of_lt_succ (Fin.last cfg19.N).isLt) from rfl,
    PhiS19_pos V c _ _ (by rw [Fin.val_last]; have : cfg19.N = 80 := N_19; omega), scopedRest19_split]
  simp only [scM19_0, scM19_1, owns_whole]
  iintro ⟨HX, HR, HS0, HS1⟩
  isplitl [HX]; · iexact HX
  isplitl [HS0 HS1]
  · isplitl [HS0]; · iexists _; iexact HS0
    iexists _; iexact HS1
  iexact HR

end Regions

end Cert.Kernel.Rg

end
-- ==== Proof.KRg20.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 20: normalise, rectify, add the residual — the frame half

Region 20 walks the 320000 rows of its operands in 80 blocks of 4000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region20
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-! ## The body's accesses -/

/-- The whole 4000x128 block, -/
abbrev r20_big : Rect S4000x128 := Rect.unit (s := S4000x128) ![0, 0] S4000x128.size inb_S4000x128_S4000x128_0_0
/-- and the whole 1x128 row. -/
abbrev r20_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out20_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r20_big, k20_pay1 (View.ld x0 r20_big) (View.ld x4 r20_row) (View.ld x2 r20_row) (View.ld x3 r20_row) (View.ld x5 r20_row) (View.ld x1 r20_big)⟩]

/-- The one store is of the whole block, so it covers it. -/
theorem cover20_6 (p0 : Vec F S4000x128 .f32) (y : S4000x128.Idx) :
    ∃ pc ∈ ([⟨r20_big, p0⟩] : List (View.Piece (Elt F) S4000x128 .f32)), y ∈ pc.1.set :=
  View.cover_of_tiled [⟨r20_big, p0⟩] S4000x128.size (by rfl) y

/-! ## The body's triple -/

set_option maxHeartbeats 1000000 in
/-- The body, run on whole staging buffers holding the six input blocks and an output buffer holding anything,
    returns the inputs' buffers unchanged and the output's buffer at out20_6 of the inputs. -/
theorem sound_kernel20 (c : Dev nD) (E : Set ℕ) (i : grid20.Coords)
    (arg1 : Memref sig .tc .vmem S4000x128 .f32) (harg1 : arg1.IsWhole) (arg2 : Memref sig .tc .vmem S4000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out20_6 x0 x1 x2 x3 x4 x5)) -∗ K ⟨⟩))
      ⊢ wp frame (wpE (defs₀ (F := F)) Variants.none c none) E (cc20__bn_relu_residual_kernel i arg1 harg1 arg2 harg2 arg3 harg3 arg4 harg4 arg5 harg5 arg6 harg6 arg7 harg7) K := by
  simp only [cc20__bn_relu_residual_kernel_eq_skeleton]; unfold cc20__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover20_6 _)

/-! ## The region's proof data -/

/-- The proof data of region 20 on core c: the arrays as the region finds them; after the body at point t each
    input's buffer at its block and the output's at out20_6 of the six input blocks; the invariant the untouched
    rest of the core's state; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => out20_6 (iblk20 V c 0 t) (iblk20 V c 1 t) (iblk20 V c 2 t) (iblk20 V c 3 t) (iblk20 V c 4 t) (iblk20 V c 5 t)
  Φ _ := Pipeline.ΦA spec20 c
  q _ := fullShare
  owed _ := 0

/-- The proof data's arrays are the entry contents. -/
theorem A_eq20 (c : Dev nD) (w : Fin cfg20.W) : (dat20 V c).A w = V c (Pipeline.arrRef spec20 w) := by
  dsimp only [dat20]

/-- The invariant is the same at every point: the rest of the core's state, untouched. -/
theorem Phi20_eq (c : Dev nD) (t : Fin (cfg20.N + 1)) : (dat20 V c).Φ t = Pipeline.ΦA spec20 c := rfl

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t
    = out20_6 (iblk20 V c 0 t) (iblk20 V c 1 t) (iblk20 V c 2 t) (iblk20 V c 3 t) (iblk20 V c 4 t) (iblk20 V c 5 t) := by dsimp only [dat20]

/-- Each input's staging buffer holds its block at every point, whether or not the block was fetched at that
    point: a window not fetched at a point has the block index of the point before, and the body leaves an
    input's buffer as it found it. -/
theorem before20_0 (c : Dev nD) (t : Fin cfg20.N) (d) : (dat20 V c).before 0 t d = iblk20 V c 0 t :=
  ((dat20 V c).before_in_eq_fetched 0 rfl (fun _ => rfl) (fun _ _ _ => rfl)
      (fun t => by rw [after20_0]; unfold Dat.blockOf iblk20; rw [A_eq20 V c 0]; try rfl) t d).trans
    (by unfold Dat.fetched Dat.blockOf iblk20; rw [A_eq20 V c 0]; try rfl)
theorem before20_1 (c : Dev nD) (t : Fin cfg20.N) (d) : (dat20 V c).before 1 t d = iblk20 V c 1 t :=
  ((dat20 V c).before_in_eq_fetched 1 rfl (fun _ => rfl) (fun _ _ _ => rfl)
      (fun t => by rw [after20_1]; unfold Dat.blockOf iblk20; rw [A_eq20 V c 1]; try rfl) t d).trans
    (by unfold Dat.fetched Dat.blockOf iblk20; rw [A_eq20 V c 1]; try rfl)
theorem before20_2 (c : Dev nD) (t : Fin cfg20.N) (d) : (dat20 V c).before 2 t d = iblk20 V c 2 t :=
  ((dat20 V c).before_in_eq_fetched 2 rfl (fun _ => rfl) (fun _ _ _ => rfl)
      (fun t => by rw [after20_2]; unfold Dat.blockOf iblk20; rw [A_eq20 V c 2]; try rfl) t d).trans
    (by unfold Dat.fetched Dat.blockOf iblk20; rw [A_eq20 V c 2]; try rfl)
theorem before20_3 (c : Dev nD) (t : Fin cfg20.N) (d) : (dat20 V c).before 3 t d = iblk20 V c 3 t :=
  ((dat20 V c).before_in_eq_fetched 3 rfl (fun _ => rfl) (fun _ _ _ => rfl)
      (fun t => by rw [after20_3]; unfold Dat.blockOf iblk20; rw [A_eq20 V c 3]; try rfl) t d).trans
    (by unfold Dat.fetched Dat.blockOf iblk20; rw [A_eq20 V c 3]; try rfl)
theorem before20_4 (c : Dev nD) (t : Fin cfg20.N) (d) : (dat20 V c).before 4 t d = iblk20 V c 4 t :=
  ((dat20 V c).before_in_eq_fetched 4 rfl (fun _ => rfl) (fun _ _ _ => rfl)
      (fun t => by rw [after20_4]; unfold Dat.blockOf iblk20; rw [A_eq20 V c 4]; try rfl) t d).trans
    (by unfold Dat.fetched Dat.blockOf iblk20; rw [A_eq20 V c 4]; try rfl)
theorem before20_5 (c : Dev nD) (t : Fin cfg20.N) (d) : (dat20 V c).before 5 t d = iblk20 V c 5 t :=
  ((dat20 V c).before_in_eq_fetched 5 rfl (fun _ => rfl) (fun _ _ _ => rfl)
      (fun t => by rw [after20_5]; unfold Dat.blockOf iblk20; rw [A_eq20 V c 5]; try rfl) t d).trans
    (by unfold Dat.fetched Dat.blockOf iblk20; rw [A_eq20 V c 5]; try rfl)

/-! ## The body obligation, at a generic point -/

/-- What the body is called with at point t, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t))

/-- The body at any point: the inputs' buffers hold their blocks, so the body's triple applies; the invariant and
    what the core owes pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel20 c Set.univ _ _ _ _ _ _ _ _ _ _ _ _ _ _ _ (iblk20 V c 0 t) (iblk20 V c 1 t) (iblk20 V c 2 t) (iblk20 V c 3 t) (iblk20 V c 4 t) (iblk20 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation20 (c : Dev nD) : BodyObligation (dat20 (F := F) V c) (defs₀ (F := F)) Variants.none () Set.univ := fun t => by
  rw [bigSep_W20, bigSep_W20]
  exact sound_body20 V c t

end Region20

end Cert.Kernel.Rg

end
-- ==== Proof.KRg21.lean ====
/-
  Region 21 of the kernel program: the batch statistics of a 20000 x 128 array, accumulated over 10 row blocks of
  2000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-row rectangle of a 1x128 buffer and the whole-block rectangle of a 2000x128 buffer. -/
abbrev rS21 : Rect S1x128 := Rect.unit (s := S1x128) ![0, 0] S1x128.size inb_S1x128_S1x128_0_0
abbrev rX21 : Rect S2000x128 := Rect.unit (s := S2000x128) ![0, 0] S2000x128.size inb_S2000x128_S2000x128_0_0

/-- The first conditional's condition (the grid coordinate is 0), as the kernel computes it. -/
def k21_cond1 (i : grid21.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 9): decided over the 10 points. -/
theorem hcond21_1 : ∀ t : Fin cfg21.N, k21_cond1 (grid21.coords t) = 1#1 ↔ t.val = 0 :=
  (by decide +kernel : ∀ t : Fin grid21.N, k21_cond1 (grid21.coords t) = 1#1 ↔ t.val = 0)
theorem hcond21_2 : ∀ t : Fin cfg21.N, k21_cond2 (grid21.coords t) = 1#1 ↔ t.val = 9 :=
  (by decide +kernel : ∀ t : Fin grid21.N, k21_cond2 (grid21.coords t) = 1#1 ↔ t.val = 9)

/-- One point's step of the two running rows: the row held so far plus the block's column sums (of the entries, of their squares). -/
def step21_0 (x : Vec F S2000x128 .f32) (s0 : Vec F S1x128 .f32) : Vec F S1x128 .f32 :=
  View.canon [⟨rS21, k21_pay4 (View.ld x rX21) (View.ld s0 rS21)⟩]
def step21_1 (x : Vec F S2000x128 .f32) (s1 : Vec F S1x128 .f32) : Vec F S1x128 .f32 :=
  View.canon [⟨rS21, k21_pay5 (View.ld x rX21) (View.ld s1 rS21)⟩]

/-- A store of the whole row covers the 1x128 buffer. -/
theorem coverS21 (p0 : Vec F S1x128 .f32) (y : S1x128.Idx) :
    ∃ pc ∈ ([⟨rS21, p0⟩] : List (View.Piece (Elt F) S1x128 .f32)), y ∈ pc.1.set :=
  View.cover_of_tiled [⟨rS21, p0⟩] S1x128.size (by rfl) y

set_option maxHeartbeats 1000000 in
/-- The body at a point that is neither first nor last: both conditionals fall through; the block and the two output rows are left as found, each scratch row steps. -/
theorem sound_kernel21_mid (c : Dev nD) (E : Set ℕ) (i : grid21.Coords) (hc1 : ¬ k21_cond1 i = 1#1) (hc2 : ¬ k21_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg21 : Memref sig .tc .vmem S1x128 .f32) (harg21 : arg21.IsWhole)
    (x : Vec F S2000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg21 fullShare s1
        ∗ (iprop(owns (c : Thread nD τ) arg1 fullShare x ∗ owns (c : Thread nD τ) arg2 fullShare y1 ∗ owns (c : Thread nD τ) arg3 fullShare y2
            ∗ owns (c : Thread nD τ) arg4 fullShare (step21_0 x s0) ∗ owns (c : Thread nD τ) arg21 fullShare (step21_1 x s1)) -∗ K ⟨⟩))
      ⊢ wp frame (wpE (defs₀ (F := F)) Variants.none c none) E (cc21_kernel i arg1 harg1 arg2 harg2 arg3 harg3 arg4 harg4 arg21 harg21) K := by
  simp only [cc21_kernel_eq_skeleton]; unfold cc21_kernel_skel
  unfold owns
  iintro ⟨⟨%f1, %hf1, H1⟩, H2, H3, ⟨%f4, %hf4, H4⟩, ⟨%f21, %hf21, H21⟩, Hk⟩
  subst hf1; subst hf4; subst hf21
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS21 _)
  iexists _; isplitr
  swap; · iexact H21
  ipureintro
  exact View.read_writes_eq_canon _ _ _ (coverS21 _)

/-- A whole-row store hides every earlier store: the contents are the last payload's. -/
theorem canon_headS21 (p : Vec F S1x128 .f32) (L : List (View.Piece (Elt F) S1x128 .f32)) :
    View.canon (⟨rS21, p⟩ :: L) = View.canon [⟨rS21, p⟩] := by
  funext y
  obtain ⟨pc, hm, hy⟩ := coverS21 p y
  rw [List.mem_singleton] at hm; subst hm
  obtain ⟨x, rfl⟩ := rS21.exists_idx_of_mem hy
  exact (View.canon_cons_emb rS21 p L x).trans (View.canon_cons_emb rS21 p [] x).symm

/-- What a buffer reads after a list of stores whose last is a whole-row store. -/
theorem read_writes_headS21 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS21, p⟩ :: L)) = View.canon [⟨rS21, p⟩] :=
  (View.read_writes_eq_canon v f _ (fun y => by
    obtain ⟨pc, hm, hy⟩ := coverS21 p y
    rw [List.mem_singleton] at hm; subst hm
    exact ⟨_, List.mem_cons_self, hy⟩)).trans (canon_headS21 p L)

/-- The zero rows the first point resets the two scratch rows to. -/
def init21_0 : Vec F S1x128 .f32 := View.canon [⟨rS21, k21_pay1 (F := F)⟩]
def init21_1 : Vec F S1x128 .f32 := View.canon [⟨rS21, k21_pay2 (F := F)⟩]

set_option maxHeartbeats 1000000 in
/-- The body at the first point: the scratch rows, found at anything, are reset to zero and then step; the output rows are left as found. -/
theorem sound_kernel21_first (c : Dev nD) (E : Set ℕ) (i : grid21.Coords) (hc1 : k21_cond1 i = 1#1) (hc2 : ¬ k21_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg21 : Memref sig .tc .vmem S1x128 .f32) (harg21 : arg21.IsWhole)
    (x : Vec F S2000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg21 fullShare d)
        ∗ (iprop(owns (c : Thread nD τ) arg1 fullShare x ∗ owns (c : Thread nD τ) arg2 fullShare y1 ∗ owns (c : Thread nD τ) arg3 fullShare y2
            ∗ owns (c : Thread nD τ) arg4 fullShare (step21_0 x init21_0) ∗ owns (c : Thread nD τ) arg21 fullShare (step21_1 x init21_1)) -∗ K ⟨⟩))
      ⊢ wp frame (wpE (defs₀ (F := F)) Variants.none c none) E (cc21_kernel i arg1 harg1 arg2 harg2 arg3 harg3 arg4 harg4 arg21 harg21) K := by
  simp only [cc21_kernel_eq_skeleton]; unfold cc21_kernel_skel
  unfold owns
  iintro ⟨⟨%f1, %hf1, H1⟩, H2, H3, ⟨%d4, %f4, -, H4⟩, ⟨%d21, %f21, -, H21⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel21_first.sl.v5 sound_kernel21_first.sl.H4_1
    rw [View.readCov_eq_canon_ld _ _ _ (coverS21 _)]
    exact read_writes_headS21 _ _ _ _
  iexists _; isplitr
  swap; · iexact H21
  ipureintro
  unfold sound_kernel21_first.sl.v12 sound_kernel21_first.sl.H21_1
  rw [View.readCov_eq_canon_ld _ _ _ (coverS21 _)]
  exact read_writes_headS21 _ _ _ _

/-- The output rows as the last point computes them from the final running rows: the mean is the column sum over the count; the variance is the sum of squares over the count minus the squared mean. -/
def out21_1 (s0 : Vec F S1x128 .f32) : Vec F S1x128 .f32 :=
  View.canon [⟨rS21, k21_pay6 (View.ld s0 rS21)⟩]
def out21_2 (s0 s1 : Vec F S1x128 .f32) : Vec F S1x128 .f32 :=
  View.canon [⟨rS21, k21_pay7 (View.ld s0 rS21) (View.ld s1 rS21)⟩]

set_option maxHeartbeats 1000000 in
/-- The body at the last point: the scratch rows step, then the two output rows, found at anything, are stored from the stepped rows. -/
theorem sound_kernel21_last (c : Dev nD) (E : Set ℕ) (i : grid21.Coords) (hc1 : ¬ k21_cond1 i = 1#1) (hc2 : k21_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg21 : Memref sig .tc .vmem S1x128 .f32) (harg21 : arg21.IsWhole)
    (x : Vec F S2000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg21 fullShare s1
        ∗ (iprop(owns (c : Thread nD τ) arg1 fullShare x ∗ owns (c : Thread nD τ) arg2 fullShare (out21_1 (step21_0 x s0))
            ∗ owns (c : Thread nD τ) arg3 fullShare (out21_2 (step21_0 x s0) (step21_1 x s1))
            ∗ owns (c : Thread nD τ) arg4 fullShare (step21_0 x s0) ∗ owns (c : Thread nD τ) arg21 fullShare (step21_1 x s1)) -∗ K ⟨⟩))
      ⊢ wp frame (wpE (defs₀ (F := F)) Variants.none c none) E (cc21_kernel i arg1 harg1 arg2 harg2 arg3 harg3 arg4 harg4 arg21 harg21) K := by
  simp only [cc21_kernel_eq_skeleton]; unfold cc21_kernel_skel
  unfold owns
  iintro ⟨⟨%f1, %hf1, H1⟩, ⟨%d2, %f2, -, H2⟩, ⟨%d3, %f3, -, H3⟩, ⟨%f4, %hf4, H4⟩, ⟨%f21, %hf21, H21⟩, Hk⟩
  subst hf1; subst hf4; subst hf21
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel21_last.sl.v23 sound_kernel21_last.sl.H4_1
    rw [View.readCov_eq_canon_ld _ _ _ (coverS21 _)]
    exact View.read_writes_eq_canon _ _ _ (coverS21 _)
  isplitl [H3]
  · iexists _; isplitr
    swap; · iexact H3
    ipureintro
    unfold sound_kernel21_last.sl.v23 sound_kernel21_last.sl.v26 sound_kernel21_last.sl.H4_1 sound_kernel21_last.sl.H21_1
    rw [View.readCov_eq_canon_ld _ _ _ (coverS21 _), View.readCov_eq_canon_ld _ _ _ (coverS21 _)]
    exact View.read_writes_eq_canon _ _ _ (coverS21 _)
  isplitl [H4]
  · iexists _; isplitr
    swap; · iexact H4
    ipureintro
    exact View.read_writes_eq_canon _ _ _ (coverS21 _)
  iexists _; isplitr
  swap; · iexact H21
  ipureintro
  exact View.read_writes_eq_canon _ _ _ (coverS21 _)

section Regions
variable (V : (c : Dev nD) → (b : Ref sig .tc) → Buf (Elt F) ((c : Thread nD τ).loc b))

/-- Window w's block at point t, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- The input window's current buffer holds its block at every point, for any proof data over these arrays whose body leaves the block in place. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- THE ACCUMULATION. The two scratch rows after point n: at point 0 one step from the zero rows, afterwards one step from what the point before left. -/
def acc21 (c : Dev nD) : (n : ℕ) → n < cfg21.N → Vec F S1x128 .f32 × Vec F S1x128 .f32
  | 0, hn => (step21_0 (iblk21 V c 0 ⟨0, hn⟩) init21_0, step21_1 (iblk21 V c 0 ⟨0, hn⟩) init21_1)
  | n + 1, hn => (step21_0 (iblk21 V c 0 ⟨n + 1, hn⟩) (acc21 c n (Nat.lt_of_succ_lt hn)).1,
      step21_1 (iblk21 V c 0 ⟨n + 1, hn⟩) (acc21 c n (Nat.lt_of_succ_lt hn)).2)

/-- The accumulation at the first point, and at a later point over the point before. -/
theorem acc21_zero (c : Dev nD) (t : Fin cfg21.N) (h0 : t.val = 0) :
    acc21 V c t.val t.isLt = (step21_0 (iblk21 V c 0 t) init21_0, step21_1 (iblk21 V c 0 t) init21_1) := by
  obtain ⟨n, hn⟩ := t
  cases n with
  | zero => rfl
  | succ n => exact absurd h0 (Nat.succ_ne_zero n)

theorem acc21_pos (c : Dev nD) (t : Fin cfg21.N) (h0 : t.val ≠ 0) :
    acc21 V c t.val t.isLt = (step21_0 (iblk21 V c 0 t) (acc21 V c (t.val - 1) (Nat.lt_of_le_of_lt (Nat.sub_le _ _) t.isLt)).1,
      step21_1 (iblk21 V c 0 t) (acc21 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM21_0 : Memref sig .tc .vmem S1x128 .f32 := Memref.whole cc21_scratch0
abbrev scM21_1 : Memref sig .tc .vmem S1x128 .f32 := Memref.whole cc21_scratch1

/-- What enters the invariant besides the scoped buffers: the generator register at some state. -/
def X21 (c : Dev nD) : sProp 𝕄 := iprop(∃ r, prngReg c r)

/-- The region invariant before position n: the generator register, the scoped buffers other than the two scratch rows, and the two scratch rows — at anything before the first point, afterwards at what the point before left. -/
def PhiS21 (c : Dev nD) : (n : ℕ) → n ≤ cfg21.N → sProp 𝕄
  | 0, _ => iprop(X21 (F := F) c ∗ Pipeline.scopedRestBut spec21 c [cc21_scratch0, cc21_scratch1]
      ∗ (∃ d, owns (c : Thread nD τ) scM21_0 fullShare d) ∗ (∃ d, owns (c : Thread nD τ) scM21_1 fullShare d))
  | n + 1, hn => iprop(X21 (F := F) c ∗ Pipeline.scopedRestBut spec21 c [cc21_scratch0, cc21_scratch1]
      ∗ owns (c : Thread nD τ) scM21_0 fullShare (acc21 V c n hn).1 ∗ owns (c : Thread nD τ) scM21_1 fullShare (acc21 V c n hn).2)

/-- The invariant's three readings: before the first point, after point n, before a later point. -/
theorem PhiS21_zero (c : Dev nD) (n : ℕ) (h : n ≤ cfg21.N) (hz : n = 0) :
    PhiS21 V c n h = iprop(X21 (F := F) c ∗ Pipeline.scopedRestBut spec21 c [cc21_scratch0, cc21_scratch1]
      ∗ (∃ d, owns (c : Thread nD τ) scM21_0 fullShare d) ∗ (∃ d, owns (c : Thread nD τ) scM21_1 fullShare d)) := by
  subst hz; rfl

theorem PhiS21_succ (c : Dev nD) (n : ℕ) (hn : n < cfg21.N) :
    PhiS21 V c (n + 1) hn = iprop(X21 (F := F) c ∗ Pipeline.scopedRestBut spec21 c [cc21_scratch0, cc21_scratch1]
      ∗ owns (c : Thread nD τ) scM21_0 fullShare (acc21 V c n hn).1 ∗ owns (c : Thread nD τ) scM21_1 fullShare (acc21 V c n hn).2) := rfl

theorem PhiS21_pos (c : Dev nD) (n : ℕ) (h : n ≤ cfg21.N) (hz : n ≠ 0) :
    PhiS21 V c n h = iprop(X21 (F := F) c ∗ Pipeline.scopedRestBut spec21 c [cc21_scratch0, cc21_scratch1]
      ∗ owns (c : Thread nD τ) scM21_0 fullShare (acc21 V c (n - 1) (by omega)).1 ∗ owns (c : Thread nD τ) scM21_1 fullShare (acc21 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => out21_1 (acc21 V c t.val t.isLt).1
    | ⟨2, _⟩ => out21_2 (acc21 V c t.val t.isLt).1 (acc21 V c t.val t.isLt).2
  Φ t := PhiS21 V c t.val (Nat.le_of_lt_succ t.isLt)
  q _ := fullShare
  owed _ := 0

/-- The proof data's arrays are the region-entry contents. -/
theorem A_eq21 (c : Dev nD) (w : Fin cfg21.W) : (dat21 V c).A w = V c (Pipeline.arrRef spec21 w) := by
  dsimp only [dat21]

/-- What the body leaves, window by window. -/
theorem after21_0 (c : Dev nD) (t : Fin cfg21.N) : (dat21 V c).after 0 t = iblk21 V c 0 t := by dsimp only [dat21]
theorem after21_1 (c : Dev nD) (t : Fin cfg21.N) : (dat21 V c).after 1 t = out21_1 (acc21 V c t.val t.isLt).1 := by dsimp only [dat21]
theorem after21_2 (c : Dev nD) (t : Fin cfg21.N) : (dat21 V c).after 2 t = out21_2 (acc21 V c t.val t.isLt).1 (acc21 V c t.val t.isLt).2 := by dsimp only [dat21]

/-- The input's current buffer holds its block at every point. -/
theorem before21_0 (c : Dev nD) (t : Fin cfg21.N) (d) : (dat21 V c).before 0 t d = iblk21 V c 0 t :=
  before21_0_of V (dat21 V c) (A_eq21 V c 0) (after21_0 V c) t d

/-- The invariant at a point's start, restated at the point's position. -/
theorem PhiS21_castSucc (c : Dev nD) (t : Fin cfg21.N) :
    (dat21 V c).Φ t.castSucc = PhiS21 V c t.val (Nat.le_of_lt t.isLt) := by
  dsimp only [dat21]; simp only [Fin.coe_castSucc]

/-- Where the windows are idle: the input never; each output row exactly off the last point, where it is not written back either. -/
theorem liveAt21_0 (t : Fin cfg21.N) : cfg21.idle 0 (cfg21.grid.coords t) = false := rfl

theorem idleAt21_1 (t : Fin cfg21.N) (h : ¬ k21_cond2 (grid21.coords t) = 1#1) : cfg21.idle 1 (cfg21.grid.coords t) = true := by
  show (!(k21_cond2 (grid21.coords t) == 1#1)) = true
  rw [Bool.not_eq_true', beq_eq_false_iff_ne]; exact h
theorem idleAt21_2 (t : Fin cfg21.N) (h : ¬ k21_cond2 (grid21.coords t) = 1#1) : cfg21.idle 2 (cfg21.grid.coords t) = true := by
  show (!(k21_cond2 (grid21.coords t) == 1#1)) = true
  rw [Bool.not_eq_true', beq_eq_false_iff_ne]; exact h
theorem liveAt21_1 (t : Fin cfg21.N) (h : k21_cond2 (grid21.coords t) = 1#1) : cfg21.idle 1 (cfg21.grid.coords t) = false := by
  show (!(k21_cond2 (grid21.coords t) == 1#1)) = false
  rw [h]; rfl
theorem liveAt21_2 (t : Fin cfg21.N) (h : k21_cond2 (grid21.coords t) = 1#1) : cfg21.idle 2 (cfg21.grid.coords t) = false := by
  show (!(k21_cond2 (grid21.coords t) == 1#1)) = false
  rw [h]; rfl

theorem noFlush21_1 (t : Fin cfg21.N) (h : t.val ≠ 9) : (cfg21.win 1).flush t = false := by
  have hN : t.val < 10 := lt_of_lt_of_eq t.isLt (show cfg21.N = 10 from N_21)
  cases hf : (cfg21.win 1).flush t with
  | false => rfl
  | true => exact absurd ((flush21_1 t).mp hf) (by omega)
theorem noFlush21_2 (t : Fin cfg21.N) (h : t.val ≠ 9) : (cfg21.win 2).flush t = false := by
  have hN : t.val < 10 := lt_of_lt_of_eq t.isLt (show cfg21.N = 10 from N_21)
  cases hf : (cfg21.win 2).flush t with
  | false => rfl
  | true => exact absurd ((flush21_2 t).mp hf) (by omega)

/-- What the body is called with at point t, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it returns. -/
def bodyPost21 (c : Dev nD) (t : Fin cfg21.N) : sProp 𝕄 :=
  iprop((dat21 V c).Φ t.succ ∗ (dat21 V c).owesAt () t.succ
    ∗ (dat21 V c).leavesExact 0 t
    ∗ (dat21 V c).leavesExact 1 t
    ∗ (dat21 V c).leavesExact 2 t)

set_option maxHeartbeats 4000000 in
/-- The body at any point, by the point's position: first (scratch at anything, reset), last (the output rows stored), or between; the invariant hands the scratch rows over at what the point before left and takes them back stepped. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0]
  rw [show (dat21 V c).owesAt () t.succ = (dat21 V c).owesAt () t.castSucc from rfl]
  rw [show (dat21 V c).Φ t.succ = PhiS21 V c (t.val + 1) t.isLt from rfl, PhiS21_succ]
  rw [show (dat21 V c).leavesExact 0 t = owns (c : Thread nD τ) (st21_0 t) fullShare ((dat21 V c).after 0 t) from by
    unfold Dat.leavesExact; rw [liveAt21_0 t], after21_0]
  have hN : t.val < 10 := lt_of_lt_of_eq t.isLt (show cfg21.N = 10 from N_21)
  by_cases h0 : t.val = 0
  · have hc1 : k21_cond1 (grid21.coords t) = 1#1 := (hcond21_1 t).mpr h0
    have hc2 : ¬ k21_cond2 (grid21.coords t) = 1#1 := fun h => by have := (hcond21_2 t).mp h; omega
    rw [Dat.leavesExact_idle (dat21 V c) 1 t (idleAt21_1 t hc2) (noFlush21_1 t (by omega)),
      Dat.leavesExact_idle (dat21 V c) 2 t (idleAt21_2 t hc2) (noFlush21_2 t (by omega))]
    rw [acc21_zero V c t h0]
    rw [PhiS21_castSucc V c t, PhiS21_zero V c _ _ h0]
    iintro ⟨⟨HX, HR, HS0, HS1⟩, Ho, ⟨%d0, H0⟩, ⟨%d1, H1⟩, ⟨%d2, H2⟩⟩
    iapply (sound_kernel21_first c Set.univ (grid21.coords t) hc1 hc2 _ _ _ _ _ _ _ _ _ _ (iblk21 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k21_cond1 (grid21.coords t) = 1#1 := fun h => h0 ((hcond21_1 t).mp h)
    rw [acc21_pos V c t h0]
    rw [PhiS21_castSucc V c t, PhiS21_pos V c _ _ h0]
    by_cases h79 : t.val = 9
    · have hc2 : k21_cond2 (grid21.coords t) = 1#1 := (hcond21_2 t).mpr h79
      rw [show (dat21 V c).leavesExact 1 t = owns (c : Thread nD τ) (st21_1 t) fullShare ((dat21 V c).after 1 t) from by
        unfold Dat.leavesExact; rw [liveAt21_1 t hc2], after21_1]
      rw [show (dat21 V c).leavesExact 2 t = owns (c : Thread nD τ) (st21_2 t) fullShare ((dat21 V c).after 2 t) from by
        unfold Dat.leavesExact; rw [liveAt21_2 t hc2], after21_2]
      rw [acc21_pos V c t h0]
      iintro ⟨⟨HX, HR, HS0, HS1⟩, Ho, ⟨%d0, H0⟩, ⟨%d1, H1⟩, ⟨%d2, H2⟩⟩
      iapply (sound_kernel21_last c Set.univ (grid21.coords t) hc1 hc2 _ _ _ _ _ _ _ _ _ _ (iblk21 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k21_cond2 (grid21.coords t) = 1#1 := fun h => h79 ((hcond21_2 t).mp h)
      rw [Dat.leavesExact_idle (dat21 V c) 1 t (idleAt21_1 t hc2) (noFlush21_1 t h79),
        Dat.leavesExact_idle (dat21 V c) 2 t (idleAt21_2 t hc2) (noFlush21_2 t h79)]
      iintro ⟨⟨HX, HR, HS0, HS1⟩, Ho, ⟨%d0, H0⟩, ⟨%d1, H1⟩, ⟨%d2, H2⟩⟩
      iapply (sound_kernel21_mid c Set.univ (grid21.coords t) hc1 hc2 _ _ _ _ _ _ _ _ _ _ (iblk21 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation21 (c : Dev nD) : BodyObligation (dat21 (F := F) V c) (defs₀ (F := F)) Variants.none () Set.univ := fun t => by
  rw [bigSep_W21, bigSep_W21]
  exact sound_body21 V c t

/-- Entry: the generator register and the scoped buffers (the two scratch rows among them, at anything) make the invariant before the first point. -/
theorem hin21 (c : Dev nD) : iprop(X21 (F := F) c ∗ Pipeline.scopedRest spec21 c) ⊢ (dat21 V c).Φ 0 := by
  rw [show (dat21 V c).Φ 0 = PhiS21 V c 0 (Nat.zero_le _) from rfl, PhiS21_zero V c 0 _ rfl, scopedRest21_split]
  simp only [scM21_0, scM21_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout21 (c : Dev nD) : (dat21 V c).Φ (Fin.last cfg21.N) ⊢ iprop(X21 (F := F) c ∗ Pipeline.scopedRest spec21 c) := by
  rw [show (dat21 V c).Φ (Fin.last cfg21.N) = PhiS21 V c (Fin.last cfg21.N).val (Nat.le_of_lt_succ (Fin.last cfg21.N).isLt) from rfl,
    PhiS21_pos V c _ _ (by rw [Fin.val_last]; have : cfg21.N = 10 := N_21; omega), scopedRest21_split]
  simp only [scM21_0, scM21_1, owns_whole]
  iintro ⟨HX, HR, HS0, HS1⟩
  isplitl [HX]; · iexact HX
  isplitl [HS0 HS1]
  · isplitl [HS0]; · iexists _; iexact HS0
    iexists _; iexact HS1
  iexact HR

end Regions

end Cert.Kernel.Rg

end
-- ==== Proof.KRg22.lean ====
import proofs.«418385_j87393994539142_1_alg».proof.Proof.Gen.Kernel.Launch
import proofs.«418385_j87393994539142_1_alg».proof.Proof.Gen.Kernel.Skeleton
import proofs.«418385_j87393994539142_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 22: normalise, rectify, add the residual — the frame half

Region 22 walks the 20000 rows of its operands in 10 blocks of 2000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region22
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-! ## The body's accesses -/

/-- The whole 4000x128 block, -/
abbrev r22_big : Rect S2000x128 := Rect.unit (s := S2000x128) ![0, 0] S2000x128.size inb_S2000x128_S2000x128_0_0
/-- and the whole 1x128 row. -/
abbrev r22_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out22_6 (x0 : Vec F S2000x128 .f32) (x1 : Vec F S2000x128 .f32) (x2 : Vec F S1x128 .f32) (x3 : Vec F S1x128 .f32)
    (x4 : Vec F S1x128 .f32) (x5 : Vec F S1x128 .f32) : Vec F S2000x128 .f32 :=
  View.canon [⟨r22_big, k22_pay1 (View.ld x0 r22_big) (View.ld x4 r22_row) (View.ld x2 r22_row) (View.ld x3 r22_row) (View.ld x5 r22_row) (View.ld x1 r22_big)⟩]

/-- The one store is of the whole block, so it covers it. -/
theorem cover22_6 (p0 : Vec F S2000x128 .f32) (y : S2000x128.Idx) :
    ∃ pc ∈ ([⟨r22_big, p0⟩] : List (View.Piece (Elt F) S2000x128 .f32)), y ∈ pc.1.set :=
  View.cover_of_tiled [⟨r22_big, p0⟩] S2000x128.size (by rfl) y

/-! ## The body's triple -/

set_option maxHeartbeats 1000000 in
/-- The body, run on whole staging buffers holding the six input blocks and an output buffer holding anything,
    returns the inputs' buffers unchanged and the output's buffer at out22_6 of the inputs. -/
theorem sound_kernel22 (c : Dev nD) (E : Set ℕ) (i : grid22.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out22_6 x0 x1 x2 x3 x4 x5)) -∗ K ⟨⟩))
      ⊢ wp frame (wpE (defs₀ (F := F)) Variants.none c none) E (cc22__bn_relu_residual_kernel i arg1 harg1 arg2 harg2 arg3 harg3 arg4 harg4 arg5 harg5 arg6 harg6 arg7 harg7) K := by
  simp only [cc22__bn_relu_residual_kernel_eq_skeleton]; unfold cc22__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover22_6 _)

/-! ## The region's proof data -/

/-- The proof data of region 22 on core c: the arrays as the region finds them; after the body at point t each
    input's buffer at its block and the output's at out22_6 of the six input blocks; the invariant the untouched
    rest of the core's state; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => iblk22 V c 4 t
    | ⟨5, _⟩ => iblk22 V c 5 t
    | ⟨6, _⟩ => out22_6 (iblk22 V c 0 t) (iblk22 V c 1 t) (iblk22 V c 2 t) (iblk22 V c 3 t) (iblk22 V c 4 t) (iblk22 V c 5 t)
  Φ _ := Pipeline.ΦA spec22 c
  q _ := fullShare
  owed _ := 0

/-- The proof data's arrays are the entry contents. -/
theorem A_eq22 (c : Dev nD) (w : Fin cfg22.W) : (dat22 V c).A w = V c (Pipeline.arrRef spec22 w) := by
  dsimp only [dat22]

/-- The invariant is the same at every point: the rest of the core's state, untouched. -/
theorem Phi22_eq (c : Dev nD) (t : Fin (cfg22.N + 1)) : (dat22 V c).Φ t = Pipeline.ΦA spec22 c := rfl

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) : (dat22 V c).after 4 t = iblk22 V c 4 t := by dsimp only [dat22]
theorem after22_5 (c : Dev nD) (t : Fin cfg22.N) : (dat22 V c).after 5 t = iblk22 V c 5 t := by dsimp only [dat22]
theorem after22_6 (c : Dev nD) (t : Fin cfg22.N) : (dat22 V c).after 6 t
    = out22_6 (iblk22 V c 0 t) (iblk22 V c 1 t) (iblk22 V c 2 t) (iblk22 V c 3 t) (iblk22 V c 4 t) (iblk22 V c 5 t) := by dsimp only [dat22]

/-- Each input's staging buffer holds its block at every point, whether or not the block was fetched at that
    point: a window not fetched at a point has the block index of the point before, and the body leaves an
    input's buffer as it found it. -/
theorem before22_0 (c : Dev nD) (t : Fin cfg22.N) (d) : (dat22 V c).before 0 t d = iblk22 V c 0 t :=
  ((dat22 V c).before_in_eq_fetched 0 rfl (fun _ => rfl) (fun _ _ _ => rfl)
      (fun t => by rw [after22_0]; unfold Dat.blockOf iblk22; rw [A_eq22 V c 0]; try rfl) t d).trans
    (by unfold Dat.fetched Dat.blockOf iblk22; rw [A_eq22 V c 0]; try rfl)
theorem before22_1 (c : Dev nD) (t : Fin cfg22.N) (d) : (dat22 V c).before 1 t d = iblk22 V c 1 t :=
  ((dat22 V c).before_in_eq_fetched 1 rfl (fun _ => rfl) (fun _ _ _ => rfl)
      (fun t => by rw [after22_1]; unfold Dat.blockOf iblk22; rw [A_eq22 V c 1]; try rfl) t d).trans
    (by unfold Dat.fetched Dat.blockOf iblk22; rw [A_eq22 V c 1]; try rfl)
theorem before22_2 (c : Dev nD) (t : Fin cfg22.N) (d) : (dat22 V c).before 2 t d = iblk22 V c 2 t :=
  ((dat22 V c).before_in_eq_fetched 2 rfl (fun _ => rfl) (fun _ _ _ => rfl)
      (fun t => by rw [after22_2]; unfold Dat.blockOf iblk22; rw [A_eq22 V c 2]; try rfl) t d).trans
    (by unfold Dat.fetched Dat.blockOf iblk22; rw [A_eq22 V c 2]; try rfl)
theorem before22_3 (c : Dev nD) (t : Fin cfg22.N) (d) : (dat22 V c).before 3 t d = iblk22 V c 3 t :=
  ((dat22 V c).before_in_eq_fetched 3 rfl (fun _ => rfl) (fun _ _ _ => rfl)
      (fun t => by rw [after22_3]; unfold Dat.blockOf iblk22; rw [A_eq22 V c 3]; try rfl) t d).trans
    (by unfold Dat.fetched Dat.blockOf iblk22; rw [A_eq22 V c 3]; try rfl)
theorem before22_4 (c : Dev nD) (t : Fin cfg22.N) (d) : (dat22 V c).before 4 t d = iblk22 V c 4 t :=
  ((dat22 V c).before_in_eq_fetched 4 rfl (fun _ => rfl) (fun _ _ _ => rfl)
      (fun t => by rw [after22_4]; unfold Dat.blockOf iblk22; rw [A_eq22 V c 4]; try rfl) t d).trans
    (by unfold Dat.fetched Dat.blockOf iblk22; rw [A_eq22 V c 4]; try rfl)
theorem before22_5 (c : Dev nD) (t : Fin cfg22.N) (d) : (dat22 V c).before 5 t d = iblk22 V c 5 t :=
  ((dat22 V c).before_in_eq_fetched 5 rfl (fun _ => rfl) (fun _ _ _ => rfl)
      (fun t => by rw [after22_5]; unfold Dat.blockOf iblk22; rw [A_eq22 V c 5]; try rfl) t d).trans
    (by unfold Dat.fetched Dat.blockOf iblk22; rw [A_eq22 V c 5]; try rfl)

/-! ## The body obligation, at a generic point -/

/-- What the body is called with at point t, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d))
    ∗ (∃ d, owns (c : Thread nD τ) (st22_5 t) fullShare ((dat22 V c).before 5 t d))
    ∗ (∃ d, owns (c : Thread nD τ) (st22_6 t) fullShare ((dat22 V c).before 6 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t)
    ∗ owns (c : Thread nD τ) (st22_5 t) fullShare ((dat22 V c).after 5 t)
    ∗ owns (c : Thread nD τ) (st22_6 t) fullShare ((dat22 V c).after 6 t))

/-- The body at any point: the inputs' buffers hold their blocks, so the body's triple applies; the invariant and
    what the core owes pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3, before22_4, before22_5]
  rw [show (dat22 V c).Φ t.succ = (dat22 V c).Φ t.castSucc from rfl,
    show (dat22 V c).owesAt () t.succ = (dat22 V c).owesAt () t.castSucc from rfl,
    after22_0, after22_1, after22_2, after22_3, after22_4, after22_5, after22_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel22 c Set.univ _ _ _ _ _ _ _ _ _ _ _ _ _ _ _ (iblk22 V c 0 t) (iblk22 V c 1 t) (iblk22 V c 2 t) (iblk22 V c 3 t) (iblk22 V c 4 t) (iblk22 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation22 (c : Dev nD) : BodyObligation (dat22 (F := F) V c) (defs₀ (F := F)) Variants.none () Set.univ := fun t => by
  rw [bigSep_W22, bigSep_W22]
  exact sound_body22 V c t

end Region22

end Cert.Kernel.Rg

end
-- ==== Proof.KernelAsmCore.lean ====
import proofs.«418385_j87393994539142_1_alg».proof.Proof.KernelRegionsP
import proofs.«418385_j87393994539142_1_alg».proof.Proof.KRg0
import proofs.«418385_j87393994539142_1_alg».proof.Proof.KRg1
import proofs.«418385_j87393994539142_1_alg».proof.Proof.KRg2
import proofs.«418385_j87393994539142_1_alg».proof.Proof.KRg3
import proofs.«418385_j87393994539142_1_alg».proof.Proof.KRg4
import proofs.«418385_j87393994539142_1_alg».proof.Proof.KRg5
import proofs.«418385_j87393994539142_1_alg».proof.Proof.KRg6
import proofs.«418385_j87393994539142_1_alg».proof.Proof.KRg7
import proofs.«418385_j87393994539142_1_alg».proof.Proof.KRg8
import proofs.«418385_j87393994539142_1_alg».proof.Proof.KRg9
import proofs.«418385_j87393994539142_1_alg».proof.Proof.KRg10
import proofs.«418385_j87393994539142_1_alg».proof.Proof.KRg11
import proofs.«418385_j87393994539142_1_alg».proof.Proof.KRg12
import proofs.«418385_j87393994539142_1_alg».proof.Proof.KRg13
import proofs.«418385_j87393994539142_1_alg».proof.Proof.KRg14
import proofs.«418385_j87393994539142_1_alg».proof.Proof.KRg15
import proofs.«418385_j87393994539142_1_alg».proof.Proof.KRg16
import proofs.«418385_j87393994539142_1_alg».proof.Proof.KRg17
import proofs.«418385_j87393994539142_1_alg».proof.Proof.KRg18
import proofs.«418385_j87393994539142_1_alg».proof.Proof.KRg19
import proofs.«418385_j87393994539142_1_alg».proof.Proof.KRg20
import proofs.«418385_j87393994539142_1_alg».proof.Proof.KRg21
import proofs.«418385_j87393994539142_1_alg».proof.Proof.KRg22
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No variant, no level: no core owes another anything. -/
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A valuation read at the core's own references. -/
abbrev asV (W : Dev nD → Valuation τ sig (Elt F)) : (c : Dev nD) → (b : Ref sig .tc) → Buf (Elt F) ((c : Thread nD τ).loc b) := fun c b => W c b

/-! ## What the regions leave, stage by stage -/

/-- Before any region: every entry a placeholder. -/
def oInit : Outs (F := F) := fun _ r c => V0 m c r

/-- After region 0: its output arrays at what its write-backs leave, from the valuation it is entered from. -/
def o0 : Outs (F := F) := fun J r c =>
  if J = 2 then (Function.update (V1 m c) main_v5 ((dat0 (asV (V1 m)) c).arrAt 3 cfg0.N)) r else oInit m J r c

/-- After region 1: its output arrays at what its write-backs leave, from the valuation it is entered from. -/
def o1 : Outs (F := F) := fun J r c =>
  if J = 4 then (Function.update (V3 m (o0 m) c) main_v7 ((dat1 (asV (V3 m (o0 m))) c).arrAt 3 cfg1.N)) r else o0 m J r c

/-- After region 2: its output arrays at what its write-backs leave, from the valuation it is entered from. -/
def o2 : Outs (F := F) := fun J r c =>
  if J = 6 then (Function.update (V5 m (o1 m) c) main_v31 ((dat2 (asV (V5 m (o1 m))) c).arrAt 3 cfg2.N)) r else o1 m J r c

/-- After region 3: its output arrays at what its write-backs leave, from the valuation it is entered from. -/
def o3 : Outs (F := F) := fun J r c =>
  if J = 8 then (Function.update (V7 m (o2 m) c) main_v41 ((dat3 (asV (V7 m (o2 m))) c).arrAt 3 cfg3.N)) r else o2 m J r c

/-- After region 4: its output arrays at what its write-backs leave, from the valuation it is entered from. -/
def o4 : Outs (F := F) := fun J r c =>
  if J = 12 then (Function.update (Function.update (V11 m (o3 m) c) main_v45_0 ((dat4 (asV (V11 m (o3 m))) c).arrAt 4 cfg4.N)) main_v45_1 ((dat4 (asV (V11 m (o3 m))) c).arrAt 5 cfg4.N)) r else o3 m J r c

/-- After region 5: its output arrays at what its write-backs leave, from the valuation it is entered from. -/
def o5 : Outs (F := F) := fun J r c =>
  if J = 13 then (Function.update (Function.update (V12 m (o4 m) c) main_v46_0 ((dat5 (asV (V12 m (o4 m))) c).arrAt 1 cfg5.N)) main_v46_1 ((dat5 (asV (V12 m (o4 m))) c).arrAt 2 cfg5.N)) r else o4 m J r c

/-- After region 6: its output arrays at what its write-backs leave, from the valuation it is entered from. -/
def o6 : Outs (F := F) := fun J r c =>
  if J = 15 then (Function.update (V14 m (o5 m) c) main_v53 ((dat6 (asV (V14 m (o5 m))) c).arrAt 6 cfg6.N)) r else o5 m J r c

/-- After region 7: its output arrays at what its write-backs leave, from the valuation it is entered from. -/
def o7 : Outs (F := F) := fun J r c =>
  if J = 17 then (Function.update (Function.update (V16 m (o6 m) c) main_v58_0 ((dat7 (asV (V16 m (o6 m))) c).arrAt 1 cfg7.N)) main_v58_1 ((dat7 (asV (V16 m (o6 m))) c).arrAt 2 cfg7.N)) r else o6 m J r c

/-- After region 8: its output arrays at what its write-backs leave, from the valuation it is entered from. -/
def o8 : Outs (F := F) := fun J r c =>
  if J = 19 then (Function.update (V18 m (o7 m) c) main_v65 ((dat8 (asV (V18 m (o7 m))) c).arrAt 6 cfg8.N)) r else o7 m J r c

/-- After region 9: its output arrays at what its write-backs leave, from the valuation it is entered from. -/
def o9 : Outs (F := F) := fun J r c =>
  if J = 21 then (Function.update (V20 m (o8 m) c) main_v89 ((dat9 (asV (V20 m (o8 m))) c).arrAt 3 cfg9.N)) r else o8 m J r c

/-- After region 10: its output arrays at what its write-backs leave, from the valuation it is entered from. -/
def o10 : Outs (F := F) := fun J r c =>
  if J = 23 then (Function.update (V22 m (o9 m) c) main_v99 ((dat10 (asV (V22 m (o9 m))) c).arrAt 3 cfg10.N)) r else o9 m J r c

/-- After region 11: its output arrays at what its write-backs leave, from the valuation it is entered from. -/
def o11 : Outs (F := F) := fun J r c =>
  if J = 27 then (Function.update (Function.update (V26 m (o10 m) c) main_v103_0 ((dat11 (asV (V26 m (o10 m))) c).arrAt 4 cfg11.N)) main_v103_1 ((dat11 (asV (V26 m (o10 m))) c).arrAt 5 cfg11.N)) r else o10 m J r c

/-- After region 12: its output arrays at what its write-backs leave, from the valuation it is entered from. -/
def o12 : Outs (F := F) := fun J r c =>
  if J = 28 then (Function.update (Function.update (V27 m (o11 m) c) main_v104_0 ((dat12 (asV (V27 m (o11 m))) c).arrAt 1 cfg12.N)) main_v104_1 ((dat12 (asV (V27 m (o11 m))) c).arrAt 2 cfg12.N)) r else o11 m J r c

/-- After region 13: its output arrays at what its write-backs leave, from the valuation it is entered from. -/
def o13 : Outs (F := F) := fun J r c =>
  if J = 30 then (Function.update (V29 m (o12 m) c) main_v111 ((dat13 (asV (V29 m (o12 m))) c).arrAt 6 cfg13.N)) r else o12 m J r c

/-- After region 14: its output arrays at what its write-backs leave, from the valuation it is entered from. -/
def o14 : Outs (F := F) := fun J r c =>
  if J = 32 then (Function.update (Function.update (V31 m (o13 m) c) main_v116_0 ((dat14 (asV (V31 m (o13 m))) c).arrAt 1 cfg14.N)) main_v116_1 ((dat14 (asV (V31 m (o13 m))) c).arrAt 2 cfg14.N)) r else o13 m J r c

/-- After region 15: its output arrays at what its write-backs leave, from the valuation it is entered from. -/
def o15 : Outs (F := F) := fun J r c =>
  if J = 34 then (Function.update (V33 m (o14 m) c) main_v123 ((dat15 (asV (V33 m (o14 m))) c).arrAt 6 cfg15.N)) r else o14 m J r c

/-- After region 16: its output arrays at what its write-backs leave, from the valuation it is entered from. -/
def o16 : Outs (F := F) := fun J r c =>
  if J = 36 then (Function.update (V35 m (o15 m) c) main_v147 ((dat16 (asV (V35 m (o15 m))) c).arrAt 3 cfg16.N)) r else o15 m J r c

/-- After region 17: its output arrays at what its write-backs leave, from the valuation it is entered from. -/
def o17 : Outs (F := F) := fun J r c =>
  if J = 38 then (Function.update (V37 m (o16 m) c) main_v157 ((dat17 (asV (V37 m (o16 m))) c).arrAt 3 cfg17.N)) r else o16 m J r c

/-- After region 18: its output arrays at what its write-backs leave, from the valuation it is entered from. -/
def o18 : Outs (F := F) := fun J r c =>
  if J = 42 then (Function.update (Function.update (V41 m (o17 m) c) main_v161_0 ((dat18 (asV (V41 m (o17 m))) c).arrAt 4 cfg18.N)) main_v161_1 ((dat18 (asV (V41 m (o17 m))) c).arrAt 5 cfg18.N)) r else o17 m J r c

/-- After region 19: its output arrays at what its write-backs leave, from the valuation it is entered from. -/
def o19 : Outs (F := F) := fun J r c =>
  if J = 43 then (Function.update (Function.update (V42 m (o18 m) c) main_v162_0 ((dat19 (asV (V42 m (o18 m))) c).arrAt 1 cfg19.N)) main_v162_1 ((dat19 (asV (V42 m (o18 m))) c).arrAt 2 cfg19.N)) r else o18 m J r c

/-- After region 20: its output arrays at what its write-backs leave, from the valuation it is entered from. -/
def o20 : Outs (F := F) := fun J r c =>
  if J = 45 then (Function.update (V44 m (o19 m) c) main_v169 ((dat20 (asV (V44 m (o19 m))) c).arrAt 6 cfg20.N)) r else o19 m J r c

/-- After region 21: its output arrays at what its write-backs leave, from the valuation it is entered from. -/
def o21 : Outs (F := F) := fun J r c =>
  if J = 47 then (Function.update (Function.update (V46 m (o20 m) c) main_v174_0 ((dat21 (asV (V46 m (o20 m))) c).arrAt 1 cfg21.N)) main_v174_1 ((dat21 (asV (V46 m (o20 m))) c).arrAt 2 cfg21.N)) r else o20 m J r c

/-- After region 22: its output arrays at what its write-backs leave, from the valuation it is entered from. -/
def o22 : Outs (F := F) := fun J r c =>
  if J = 49 then (Function.update (V48 m (o21 m) c) main_v181 ((dat22 (asV (V48 m (o21 m))) c).arrAt 6 cfg22.N)) r else o21 m J r c

/-- The contents every region leaves. -/
def outs : Outs (F := F) := o22 m

/-! ## A stage agrees with the one before it away from its own item -/

theorem o0_ne (J : ℕ) (r : Ref sig .tc) (c : Dev nD) (h : J ≠ 2) : o0 m J r c = oInit m J r c := by
  unfold o0; exact if_neg h
theorem o1_ne (J : ℕ) (r : Ref sig .tc) (c : Dev nD) (h : J ≠ 4) : o1 m J r c = o0 m J r c := by
  unfold o1; exact if_neg h
theorem o2_ne (J : ℕ) (r : Ref sig .tc) (c : Dev nD) (h : J ≠ 6) : o2 m J r c = o1 m J r c := by
  unfold o2; exact if_neg h
theorem o3_ne (J : ℕ) (r : Ref sig .tc) (c : Dev nD) (h : J ≠ 8) : o3 m J r c = o2 m J r c := by
  unfold o3; exact if_neg h
theorem o4_ne (J : ℕ) (r : Ref sig .tc) (c : Dev nD) (h : J ≠ 12) : o4 m J r c = o3 m J r c := by
  unfold o4; exact if_neg h
theorem o5_ne (J : ℕ) (r : Ref sig .tc) (c : Dev nD) (h : J ≠ 13) : o5 m J r c = o4 m J r c := by
  unfold o5; exact if_neg h
theorem o6_ne (J : ℕ) (r : Ref sig .tc) (c : Dev nD) (h : J ≠ 15) : o6 m J r c = o5 m J r c := by
  unfold o6; exact if_neg h
theorem o7_ne (J : ℕ) (r : Ref sig .tc) (c : Dev nD) (h : J ≠ 17) : o7 m J r c = o6 m J r c := by
  unfold o7; exact if_neg h
theorem o8_ne (J : ℕ) (r : Ref sig .tc) (c : Dev nD) (h : J ≠ 19) : o8 m J r c = o7 m J r c := by
  unfold o8; exact if_neg h
theorem o9_ne (J : ℕ) (r : Ref sig .tc) (c : Dev nD) (h : J ≠ 21) : o9 m J r c = o8 m J r c := by
  unfold o9; exact if_neg h
theorem o10_ne (J : ℕ) (r : Ref sig .tc) (c : Dev nD) (h : J ≠ 23) : o10 m J r c = o9 m J r c := by
  unfold o10; exact if_neg h
theorem o11_ne (J : ℕ) (r : Ref sig .tc) (c : Dev nD) (h : J ≠ 27) : o11 m J r c = o10 m J r c := by
  unfold o11; exact if_neg h
theorem o12_ne (J : ℕ) (r : Ref sig .tc) (c : Dev nD) (h : J ≠ 28) : o12 m J r c = o11 m J r c := by
  unfold o12; exact if_neg h
theorem o13_ne (J : ℕ) (r : Ref sig .tc) (c : Dev nD) (h : J ≠ 30) : o13 m J r c = o12 m J r c := by
  unfold o13; exact if_neg h
theorem o14_ne (J : ℕ) (r : Ref sig .tc) (c : Dev nD) (h : J ≠ 32) : o14 m J r c = o13 m J r c := by
  unfold o14; exact if_neg h
theorem o15_ne (J : ℕ) (r : Ref sig .tc) (c : Dev nD) (h : J ≠ 34) : o15 m J r c = o14 m J r c := by
  unfold o15; exact if_neg h
theorem o16_ne (J : ℕ) (r : Ref sig .tc) (c : Dev nD) (h : J ≠ 36) : o16 m J r c = o15 m J r c := by
  unfold o16; exact if_neg h
theorem o17_ne (J : ℕ) (r : Ref sig .tc) (c : Dev nD) (h : J ≠ 38) : o17 m J r c = o16 m J r c := by
  unfold o17; exact if_neg h
theorem o18_ne (J : ℕ) (r : Ref sig .tc) (c : Dev nD) (h : J ≠ 42) : o18 m J r c = o17 m J r c := by
  unfold o18; exact if_neg h
theorem o19_ne (J : ℕ) (r : Ref sig .tc) (c : Dev nD) (h : J ≠ 43) : o19 m J r c = o18 m J r c := by
  unfold o19; exact if_neg h
theorem o20_ne (J : ℕ) (r : Ref sig .tc) (c : Dev nD) (h : J ≠ 45) : o20 m J r c = o19 m J r c := by
  unfold o20; exact if_neg h
theorem o21_ne (J : ℕ) (r : Ref sig .tc) (c : Dev nD) (h : J ≠ 47) : o21 m J r c = o20 m J r c := by
  unfold o21; exact if_neg h
theorem o22_ne (J : ℕ) (r : Ref sig .tc) (c : Dev nD) (h : J ≠ 49) : o22 m J r c = o21 m J r c := by
  unfold o22; exact if_neg h

/-- Below a region's item the final contents are the stage before that region. -/
theorem outs_below22 (J : ℕ) (r : Ref sig .tc) (c : Dev nD) (h : J < 49) : outs m J r c = o21 m J r c :=
  (show outs m J r c = o22 m J r c from rfl).trans (o22_ne m J r c (by omega))
theorem outs_below21 (J : ℕ) (r : Ref sig .tc) (c : Dev nD) (h : J < 47) : outs m J r c = o20 m J r c :=
  (outs_below22 m J r c (by omega)).trans (o21_ne m J r c (by omega))
theorem outs_below20 (J : ℕ) (r : Ref sig .tc) (c : Dev nD) (h : J < 45) : outs m J r c = o19 m J r c :=
  (outs_below21 m J r c (by omega)).trans (o20_ne m J r c (by omega))
theorem outs_below19 (J : ℕ) (r : Ref sig .tc) (c : Dev nD) (h : J < 43) : outs m J r c = o18 m J r c :=
  (outs_below20 m J r c (by omega)).trans (o19_ne m J r c (by omega))
theorem outs_below18 (J : ℕ) (r : Ref sig .tc) (c : Dev nD) (h : J < 42) : outs m J r c = o17 m J r c :=
  (outs_below19 m J r c (by omega)).trans (o18_ne m J r c (by omega))
theorem outs_below17 (J : ℕ) (r : Ref sig .tc) (c : Dev nD) (h : J < 38) : outs m J r c = o16 m J r c :=
  (outs_below18 m J r c (by omega)).trans (o17_ne m J r c (by omega))
theorem outs_below16 (J : ℕ) (r : Ref sig .tc) (c : Dev nD) (h : J < 36) : outs m J r c = o15 m J r c :=
  (outs_below17 m J r c (by omega)).trans (o16_ne m J r c (by omega))
theorem outs_below15 (J : ℕ) (r : Ref sig .tc) (c : Dev nD) (h : J < 34) : outs m J r c = o14 m J r c :=
  (outs_below16 m J r c (by omega)).trans (o15_ne m J r c (by omega))
theorem outs_below14 (J : ℕ) (r : Ref sig .tc) (c : Dev nD) (h : J < 32) : outs m J r c = o13 m J r c :=
  (outs_below15 m J r c (by omega)).trans (o14_ne m J r c (by omega))
theorem outs_below13 (J : ℕ) (r : Ref sig .tc) (c : Dev nD) (h : J < 30) : outs m J r c = o12 m J r c :=
  (outs_below14 m J r c (by omega)).trans (o13_ne m J r c (by omega))
theorem outs_below12 (J : ℕ) (r : Ref sig .tc) (c : Dev nD) (h : J < 28) : outs m J r c = o11 m J r c :=
  (outs_below13 m J r c (by omega)).trans (o12_ne m J r c (by omega))
theorem outs_below11 (J : ℕ) (r : Ref sig .tc) (c : Dev nD) (h : J < 27) : outs m J r c = o10 m J r c :=
  (outs_below12 m J r c (by omega)).trans (o11_ne m J r c (by omega))
theorem outs_below10 (J : ℕ) (r : Ref sig .tc) (c : Dev nD) (h : J < 23) : outs m J r c = o9 m J r c :=
  (outs_below11 m J r c (by omega)).trans (o10_ne m J r c (by omega))
theorem outs_below9 (J : ℕ) (r : Ref sig .tc) (c : Dev nD) (h : J < 21) : outs m J r c = o8 m J r c :=
  (outs_below10 m J r c (by omega)).trans (o9_ne m J r c (by omega))
theorem outs_below8 (J : ℕ) (r : Ref sig .tc) (c : Dev nD) (h : J < 19) : outs m J r c = o7 m J r c :=
  (outs_below9 m J r c (by omega)).trans (o8_ne m J r c (by omega))
theorem outs_below7 (J : ℕ) (r : Ref sig .tc) (c : Dev nD) (h : J < 17) : outs m J r c = o6 m J r c :=
  (outs_below8 m J r c (by omega)).trans (o7_ne m J r c (by omega))
theorem outs_below6 (J : ℕ) (r : Ref sig .tc) (c : Dev nD) (h : J < 15) : outs m J r c = o5 m J r c :=
  (outs_below7 m J r c (by omega)).trans (o6_ne m J r c (by omega))
theorem outs_below5 (J : ℕ) (r : Ref sig .tc) (c : Dev nD) (h : J < 13) : outs m J r c = o4 m J r c :=
  (outs_below6 m J r c (by omega)).trans (o5_ne m J r c (by omega))
theorem outs_below4 (J : ℕ) (r : Ref sig .tc) (c : Dev nD) (h : J < 12) : outs m J r c = o3 m J r c :=
  (outs_below5 m J r c (by omega)).trans (o4_ne m J r c (by omega))
theorem outs_below3 (J : ℕ) (r : Ref sig .tc) (c : Dev nD) (h : J < 8) : outs m J r c = o2 m J r c :=
  (outs_below4 m J r c (by omega)).trans (o3_ne m J r c (by omega))
theorem outs_below2 (J : ℕ) (r : Ref sig .tc) (c : Dev nD) (h : J < 6) : outs m J r c = o1 m J r c :=
  (outs_below3 m J r c (by omega)).trans (o2_ne m J r c (by omega))
theorem outs_below1 (J : ℕ) (r : Ref sig .tc) (c : Dev nD) (h : J < 4) : outs m J r c = o0 m J r c :=
  (outs_below2 m J r c (by omega)).trans (o1_ne m J r c (by omega))
theorem outs_below0 (J : ℕ) (r : Ref sig .tc) (c : Dev nD) (h : J < 2) : outs m J r c = oInit m J r c :=
  (outs_below1 m J r c (by omega)).trans (o0_ne m J r c (by omega))

/-- At a region's own item the final contents are that region's stage. -/
theorem outs_at0 (r : Ref sig .tc) (c : Dev nD) : outs m 2 r c = o0 m 2 r c := outs_below1 m 2 r c (by omega)
theorem outs_at1 (r : Ref sig .tc) (c : Dev nD) : outs m 4 r c = o1 m 4 r c := outs_below2 m 4 r c (by omega)
theorem outs_at2 (r : Ref sig .tc) (c : Dev nD) : outs m 6 r c = o2 m 6 r c := outs_below3 m 6 r c (by omega)
theorem outs_at3 (r : Ref sig .tc) (c : Dev nD) : outs m 8 r c = o3 m 8 r c := outs_below4 m 8 r c (by omega)
theorem outs_at4 (r : Ref sig .tc) (c : Dev nD) : outs m 12 r c = o4 m 12 r c := outs_below5 m 12 r c (by omega)
theorem outs_at5 (r : Ref sig .tc) (c : Dev nD) : outs m 13 r c = o5 m 13 r c := outs_below6 m 13 r c (by omega)
theorem outs_at6 (r : Ref sig .tc) (c : Dev nD) : outs m 15 r c = o6 m 15 r c := outs_below7 m 15 r c (by omega)
theorem outs_at7 (r : Ref sig .tc) (c : Dev nD) : outs m 17 r c = o7 m 17 r c := outs_below8 m 17 r c (by omega)
theorem outs_at8 (r : Ref sig .tc) (c : Dev nD) : outs m 19 r c = o8 m 19 r c := outs_below9 m 19 r c (by omega)
theorem outs_at9 (r : Ref sig .tc) (c : Dev nD) : outs m 21 r c = o9 m 21 r c := outs_below10 m 21 r c (by omega)
theorem outs_at10 (r : Ref sig .tc) (c : Dev nD) : outs m 23 r c = o10 m 23 r c := outs_below11 m 23 r c (by omega)
theorem outs_at11 (r : Ref sig .tc) (c : Dev nD) : outs m 27 r c = o11 m 27 r c := outs_below12 m 27 r c (by omega)
theorem outs_at12 (r : Ref sig .tc) (c : Dev nD) : outs m 28 r c = o12 m 28 r c := outs_below13 m 28 r c (by omega)
theorem outs_at13 (r : Ref sig .tc) (c : Dev nD) : outs m 30 r c = o13 m 30 r c := outs_below14 m 30 r c (by omega)
theorem outs_at14 (r : Ref sig .tc) (c : Dev nD) : outs m 32 r c = o14 m 32 r c := outs_below15 m 32 r c (by omega)
theorem outs_at15 (r : Ref sig .tc) (c : Dev nD) : outs m 34 r c = o15 m 34 r c := outs_below16 m 34 r c (by omega)
theorem outs_at16 (r : Ref sig .tc) (c : Dev nD) : outs m 36 r c = o16 m 36 r c := outs_below17 m 36 r c (by omega)
theorem outs_at17 (r : Ref sig .tc) (c : Dev nD) : outs m 38 r c = o17 m 38 r c := outs_below18 m 38 r c (by omega)
theorem outs_at18 (r : Ref sig .tc) (c : Dev nD) : outs m 42 r c = o18 m 42 r c := outs_below19 m 42 r c (by omega)
theorem outs_at19 (r : Ref sig .tc) (c : Dev nD) : outs m 43 r c = o19 m 43 r c := outs_below20 m 43 r c (by omega)
theorem outs_at20 (r : Ref sig .tc) (c : Dev nD) : outs m 45 r c = o20 m 45 r c := outs_below21 m 45 r c (by omega)
theorem outs_at21 (r : Ref sig .tc) (c : Dev nD) : outs m 47 r c = o21 m 47 r c := outs_below22 m 47 r c (by omega)
theorem outs_at22 (r : Ref sig .tc) (c : Dev nD) : outs m 49 r c = o22 m 49 r c := rfl

/-! ## A valuation depends on the contents the regions leave only up to its own item -/

theorem V2_congr (o o' : Outs (F := F)) (h : ∀ J' r c, J' ≤ 2 → o J' r c = o' J' r c) (c : Dev nD) : V2 m o c = V2 m o' c := by
  show Function.update (V1 m c) main_v5 (o 2 main_v5 c) = Function.update (V1 m c) main_v5 (o' 2 main_v5 c)
  rw [h 2 main_v5 c (le_refl _)]

theorem V3_congr (o o' : Outs (F := F)) (h : ∀ J' r c, J' ≤ 3 → o J' r c = o' J' r c) (c : Dev nD) : V3 m o c = V3 m o' c := by
  show StableHlo.after hostOps1 (V2 m o c) = StableHlo.after hostOps1 (V2 m o' c)
  rw [V2_congr m o o' (fun J' r c hJ => h J' r c (by omega)) c]

theorem V4_congr (o o' : Outs (F := F)) (h : ∀ J' r c, J' ≤ 4 → o J' r c = o' J' r c) (c : Dev nD) : V4 m o c = V4 m o' c := by
  show Function.update (V3 m o c) main_v7 (o 4 main_v7 c) = Function.update (V3 m o' c) main_v7 (o' 4 main_v7 c)
  rw [V3_congr m o o' (fun J' r c hJ => h J' r c (by omega)) c, h 4 main_v7 c (le_refl _)]

theorem V5_congr (o o' : Outs (F := F)) (h : ∀ J' r c, J' ≤ 5 → o J' r c = o' J' r c) (c : Dev nD) : V5 m o c = V5 m o' c := by
  show StableHlo.after hostOps2 (V4 m o c) = StableHlo.after hostOps2 (V4 m o' c)
  rw [V4_congr m o o' (fun J' r c hJ => h J' r c (by omega)) c]

theorem V6_congr (o o' : Outs (F := F)) (h : ∀ J' r c, J' ≤ 6 → o J' r c = o' J' r c) (c : Dev nD) : V6 m o c = V6 m o' c := by
  show Function.update (V5 m o c) main_v31 (o 6 main_v31 c) = Function.update (V5 m o' c) main_v31 (o' 6 main_v31 c)
  rw [V5_congr m o o' (fun J' r c hJ => h J' r c (by omega)) c, h 6 main_v31 c (le_refl _)]

theorem V7_congr (o o' : Outs (F := F)) (h : ∀ J' r c, J' ≤ 7 → o J' r c = o' J' r c) (c : Dev nD) : V7 m o c = V7 m o' c := by
  show StableHlo.after hostOps3 (V6 m o c) = StableHlo.after hostOps3 (V6 m o' c)
  rw [V6_congr m o o' (fun J' r c hJ => h J' r c (by omega)) c]

theorem V8_congr (o o' : Outs (F := F)) (h : ∀ J' r c, J' ≤ 8 → o J' r c = o' J' r c) (c : Dev nD) : V8 m o c = V8 m o' c := by
  show Function.update (V7 m o c) main_v41 (o 8 main_v41 c) = Function.update (V7 m o' c) main_v41 (o' 8 main_v41 c)
  rw [V7_congr m o o' (fun J' r c hJ => h J' r c (by omega)) c, h 8 main_v41 c (le_refl _)]

theorem V9_congr (o o' : Outs (F := F)) (h : ∀ J' r c, J' ≤ 9 → o J' r c = o' J' r c) (c : Dev nD) : V9 m o c = V9 m o' c := by
  show StableHlo.after hostOps4 (V8 m o c) = StableHlo.after hostOps4 (V8 m o' c)
  rw [V8_congr m o o' (fun J' r c hJ => h J' r c (by omega)) c]

theorem V10_congr (o o' : Outs (F := F)) (h : ∀ J' r c, J' ≤ 10 → o J' r c = o' J' r c) (c : Dev nD) : V10 m o c = V10 m o' c := by
  show StableHlo.after hostOps4_1 (V9 m o c) = StableHlo.after hostOps4_1 (V9 m o' c)
  rw [V9_congr m o o' (fun J' r c hJ => h J' r c (by omega)) c]

theorem V11_congr (o o' : Outs (F := F)) (h : ∀ J' r c, J' ≤ 11 → o J' r c = o' J' r c) (c : Dev nD) : V11 m o c = V11 m o' c := by
  show StableHlo.after hostOps4_2 (V10 m o c) = StableHlo.after hostOps4_2 (V10 m o' c)
  rw [V10_congr m o o' (fun J' r c hJ => h J' r c (by omega)) c]

theorem V12_congr (o o' : Outs (F := F)) (h : ∀ J' r c, J' ≤ 12 → o J' r c = o' J' r c) (c : Dev nD) : V12 m o c = V12 m o' c := by
  show Function.update (Function.update (V11 m o c) main_v45_0 (o 12 main_v45_0 c)) main_v45_1 (o 12 main_v45_1 c) = Function.update (Function.update (V11 m o' c) main_v45_0 (o' 12 main_v45_0 c)) main_v45_1 (o' 12 main_v45_1 c)
  rw [V11_congr m o o' (fun J' r c hJ => h J' r c (by omega)) c, h 12 main_v45_0 c (le_refl _), h 12 main_v45_1 c (le_refl _)]

theorem V13_congr (o o' : Outs (F := F)) (h : ∀ J' r c, J' ≤ 13 → o J' r c = o' J' r c) (c : Dev nD) : V13 m o c = V13 m o' c := by
  show Function.update (Function.update (V12 m o c) main_v46_0 (o 13 main_v46_0 c)) main_v46_1 (o 13 main_v46_1 c) = Function.update (Function.update (V12 m o' c) main_v46_0 (o' 13 main_v46_0 c)) main_v46_1 (o' 13 main_v46_1 c)
  rw [V12_congr m o o' (fun J' r c hJ => h J' r c (by omega)) c, h 13 main_v46_0 c (le_refl _), h 13 main_v46_1 c (le_refl _)]

theorem V14_congr (o o' : Outs (F := F)) (h : ∀ J' r c, J' ≤ 14 → o J' r c = o' J' r c) (c : Dev nD) : V14 m o c = V14 m o' c := by
  show StableHlo.after hostOps6 (V13 m o c) = StableHlo.after hostOps6 (V13 m o' c)
  rw [V13_congr m o o' (fun J' r c hJ => h J' r c (by omega)) c]

theorem V15_congr (o o' : Outs (F := F)) (h : ∀ J' r c, J' ≤ 15 → o J' r c = o' J' r c) (c : Dev nD) : V15 m o c = V15 m o' c := by
  show Function.update (V14 m o c) main_v53 (o 15 main_v53 c) = Function.update (V14 m o' c) main_v53 (o' 15 main_v53 c)
  rw [V14_congr m o o' (fun J' r c hJ => h J' r c (by omega)) c, h 15 main_v53 c (le_refl _)]

theorem V16_congr (o o' : Outs (F := F)) (h : ∀ J' r c, J' ≤ 16 → o J' r c = o' J' r c) (c : Dev nD) : V16 m o c = V16 m o' c := by
  show StableHlo.after hostOps7 (V15 m o c) = StableHlo.after hostOps7 (V15 m o' c)
  rw [V15_congr m o o' (fun J' r c hJ => h J' r c (by omega)) c]

theorem V17_congr (o o' : Outs (F := F)) (h : ∀ J' r c, J' ≤ 17 → o J' r c = o' J' r c) (c : Dev nD) : V17 m o c = V17 m o' c := by
  show Function.update (Function.update (V16 m o c) main_v58_0 (o 17 main_v58_0 c)) main_v58_1 (o 17 main_v58_1 c) = Function.update (Function.update (V16 m o' c) main_v58_0 (o' 17 main_v58_0 c)) main_v58_1 (o' 17 main_v58_1 c)
  rw [V16_congr m o o' (fun J' r c hJ => h J' r c (by omega)) c, h 17 main_v58_0 c (le_refl _), h 17 main_v58_1 c (le_refl _)]

theorem V18_congr (o o' : Outs (F := F)) (h : ∀ J' r c, J' ≤ 18 → o J' r c = o' J' r c) (c : Dev nD) : V18 m o c = V18 m o' c := by
  show StableHlo.after hostOps8 (V17 m o c) = StableHlo.after hostOps8 (V17 m o' c)
  rw [V17_congr m o o' (fun J' r c hJ => h J' r c (by omega)) c]

theorem V19_congr (o o' : Outs (F := F)) (h : ∀ J' r c, J' ≤ 19 → o J' r c = o' J' r c) (c : Dev nD) : V19 m o c = V19 m o' c := by
  show Function.update (V18 m o c) main_v65 (o 19 main_v65 c) = Function.update (V18 m o' c) main_v65 (o' 19 main_v65 c)
  rw [V18_congr m o o' (fun J' r c hJ => h J' r c (by omega)) c, h 19 main_v65 c (le_refl _)]

theorem V20_congr (o o' : Outs (F := F)) (h : ∀ J' r c, J' ≤ 20 → o J' r c = o' J' r c) (c : Dev nD) : V20 m o c = V20 m o' c := by
  show StableHlo.after hostOps9 (V19 m o c) = StableHlo.after hostOps9 (V19 m o' c)
  rw [V19_congr m o o' (fun J' r c hJ => h J' r c (by omega)) c]

theorem V21_congr (o o' : Outs (F := F)) (h : ∀ J' r c, J' ≤ 21 → o J' r c = o' J' r c) (c : Dev nD) : V21 m o c = V21 m o' c := by
  show Function.update (V20 m o c) main_v89 (o 21 main_v89 c) = Function.update (V20 m o' c) main_v89 (o' 21 main_v89 c)
  rw [V20_congr m o o' (fun J' r c hJ => h J' r c (by omega)) c, h 21 main_v89 c (le_refl _)]

theorem V22_congr (o o' : Outs (F := F)) (h : ∀ J' r c, J' ≤ 22 → o J' r c = o' J' r c) (c : Dev nD) : V22 m o c = V22 m o' c := by
  show StableHlo.after hostOps10 (V21 m o c) = StableHlo.after hostOps10 (V21 m o' c)
  rw [V21_congr m o o' (fun J' r c hJ => h J' r c (by omega)) c]

theorem V23_congr (o o' : Outs (F := F)) (h : ∀ J' r c, J' ≤ 23 → o J' r c = o' J' r c) (c : Dev nD) : V23 m o c = V23 m o' c := by
  show Function.update (V22 m o c) main_v99 (o 23 main_v99 c) = Function.update (V22 m o' c) main_v99 (o' 23 main_v99 c)
  rw [V22_congr m o o' (fun J' r c hJ => h J' r c (by omega)) c, h 23 main_v99 c (le_refl _)]

theorem V24_congr (o o' : Outs (F := F)) (h : ∀ J' r c, J' ≤ 24 → o J' r c = o' J' r c) (c : Dev nD) : V24 m o c = V24 m o' c := by
  show StableHlo.after hostOps11 (V23 m o c) = StableHlo.after hostOps11 (V23 m o' c)
  rw [V23_congr m o o' (fun J' r c hJ => h J' r c (by omega)) c]

theorem V25_congr (o o' : Outs (F := F)) (h : ∀ J' r c, J' ≤ 25 → o J' r c = o' J' r c) (c : Dev nD) : V25 m o c = V25 m o' c := by
  show StableHlo.after hostOps11_1 (V24 m o c) = StableHlo.after hostOps11_1 (V24 m o' c)
  rw [V24_congr m o o' (fun J' r c hJ => h J' r c (by omega)) c]

theorem V26_congr (o o' : Outs (F := F)) (h : ∀ J' r c, J' ≤ 26 → o J' r c = o' J' r c) (c : Dev nD) : V26 m o c = V26 m o' c := by
  show StableHlo.after hostOps11_2 (V25 m o c) = StableHlo.after hostOps11_2 (V25 m o' c)
  rw [V25_congr m o o' (fun J' r c hJ => h J' r c (by omega)) c]

theorem V27_congr (o o' : Outs (F := F)) (h : ∀ J' r c, J' ≤ 27 → o J' r c = o' J' r c) (c : Dev nD) : V27 m o c = V27 m o' c := by
  show Function.update (Function.update (V26 m o c) main_v103_0 (o 27 main_v103_0 c)) main_v103_1 (o 27 main_v103_1 c) = Function.update (Function.update (V26 m o' c) main_v103_0 (o' 27 main_v103_0 c)) main_v103_1 (o' 27 main_v103_1 c)
  rw [V26_congr m o o' (fun J' r c hJ => h J' r c (by omega)) c, h 27 main_v103_0 c (le_refl _), h 27 main_v103_1 c (le_refl _)]

theorem V28_congr (o o' : Outs (F := F)) (h : ∀ J' r c, J' ≤ 28 → o J' r c = o' J' r c) (c : Dev nD) : V28 m o c = V28 m o' c := by
  show Function.update (Function.update (V27 m o c) main_v104_0 (o 28 main_v104_0 c)) main_v104_1 (o 28 main_v104_1 c) = Function.update (Function.update (V27 m o' c) main_v104_0 (o' 28 main_v104_0 c)) main_v104_1 (o' 28 main_v104_1 c)
  rw [V27_congr m o o' (fun J' r c hJ => h J' r c (by omega)) c, h 28 main_v104_0 c (le_refl _), h 28 main_v104_1 c (le_refl _)]

theorem V29_congr (o o' : Outs (F := F)) (h : ∀ J' r c, J' ≤ 29 → o J' r c = o' J' r c) (c : Dev nD) : V29 m o c = V29 m o' c := by
  show StableHlo.after hostOps13 (V28 m o c) = StableHlo.after hostOps13 (V28 m o' c)
  rw [V28_congr m o o' (fun J' r c hJ => h J' r c (by omega)) c]

theorem V30_congr (o o' : Outs (F := F)) (h : ∀ J' r c, J' ≤ 30 → o J' r c = o' J' r c) (c : Dev nD) : V30 m o c = V30 m o' c := by
  show Function.update (V29 m o c) main_v111 (o 30 main_v111 c) = Function.update (V29 m o' c) main_v111 (o' 30 main_v111 c)
  rw [V29_congr m o o' (fun J' r c hJ => h J' r c (by omega)) c, h 30 main_v111 c (le_refl _)]

theorem V31_congr (o o' : Outs (F := F)) (h : ∀ J' r c, J' ≤ 31 → o J' r c = o' J' r c) (c : Dev nD) : V31 m o c = V31 m o' c := by
  show StableHlo.after hostOps14 (V30 m o c) = StableHlo.after hostOps14 (V30 m o' c)
  rw [V30_congr m o o' (fun J' r c hJ => h J' r c (by omega)) c]

theorem V32_congr (o o' : Outs (F := F)) (h : ∀ J' r c, J' ≤ 32 → o J' r c = o' J' r c) (c : Dev nD) : V32 m o c = V32 m o' c := by
  show Function.update (Function.update (V31 m o c) main_v116_0 (o 32 main_v116_0 c)) main_v116_1 (o 32 main_v116_1 c) = Function.update (Function.update (V31 m o' c) main_v116_0 (o' 32 main_v116_0 c)) main_v116_1 (o' 32 main_v116_1 c)
  rw [V31_congr m o o' (fun J' r c hJ => h J' r c (by omega)) c, h 32 main_v116_0 c (le_refl _), h 32 main_v116_1 c (le_refl _)]

theorem V33_congr (o o' : Outs (F := F)) (h : ∀ J' r c, J' ≤ 33 → o J' r c = o' J' r c) (c : Dev nD) : V33 m o c = V33 m o' c := by
  show StableHlo.after hostOps15 (V32 m o c) = StableHlo.after hostOps15 (V32 m o' c)
  rw [V32_congr m o o' (fun J' r c hJ => h J' r c (by omega)) c]

theorem V34_congr (o o' : Outs (F := F)) (h : ∀ J' r c, J' ≤ 34 → o J' r c = o' J' r c) (c : Dev nD) : V34 m o c = V34 m o' c := by
  show Function.update (V33 m o c) main_v123 (o 34 main_v123 c) = Function.update (V33 m o' c) main_v123 (o' 34 main_v123 c)
  rw [V33_congr m o o' (fun J' r c hJ => h J' r c (by omega)) c, h 34 main_v123 c (le_refl _)]

theorem V35_congr (o o' : Outs (F := F)) (h : ∀ J' r c, J' ≤ 35 → o J' r c = o' J' r c) (c : Dev nD) : V35 m o c = V35 m o' c := by
  show StableHlo.after hostOps16 (V34 m o c) = StableHlo.after hostOps16 (V34 m o' c)
  rw [V34_congr m o o' (fun J' r c hJ => h J' r c (by omega)) c]

theorem V36_congr (o o' : Outs (F := F)) (h : ∀ J' r c, J' ≤ 36 → o J' r c = o' J' r c) (c : Dev nD) : V36 m o c = V36 m o' c := by
  show Function.update (V35 m o c) main_v147 (o 36 main_v147 c) = Function.update (V35 m o' c) main_v147 (o' 36 main_v147 c)
  rw [V35_congr m o o' (fun J' r c hJ => h J' r c (by omega)) c, h 36 main_v147 c (le_refl _)]

theorem V37_congr (o o' : Outs (F := F)) (h : ∀ J' r c, J' ≤ 37 → o J' r c = o' J' r c) (c : Dev nD) : V37 m o c = V37 m o' c := by
  show StableHlo.after hostOps17 (V36 m o c) = StableHlo.after hostOps17 (V36 m o' c)
  rw [V36_congr m o o' (fun J' r c hJ => h J' r c (by omega)) c]

theorem V38_congr (o o' : Outs (F := F)) (h : ∀ J' r c, J' ≤ 38 → o J' r c = o' J' r c) (c : Dev nD) : V38 m o c = V38 m o' c := by
  show Function.update (V37 m o c) main_v157 (o 38 main_v157 c) = Function.update (V37 m o' c) main_v157 (o' 38 main_v157 c)
  rw [V37_congr m o o' (fun J' r c hJ => h J' r c (by omega)) c, h 38 main_v157 c (le_refl _)]

theorem V39_congr (o o' : Outs (F := F)) (h : ∀ J' r c, J' ≤ 39 → o J' r c = o' J' r c) (c : Dev nD) : V39 m o c = V39 m o' c := by
  show StableHlo.after hostOps18 (V38 m o c) = StableHlo.after hostOps18 (V38 m o' c)
  rw [V38_congr m o o' (fun J' r c hJ => h J' r c (by omega)) c]

theorem V40_congr (o o' : Outs (F := F)) (h : ∀ J' r c, J' ≤ 40 → o J' r c = o' J' r c) (c : Dev nD) : V40 m o c = V40 m o' c := by
  show StableHlo.after hostOps18_1 (V39 m o c) = StableHlo.after hostOps18_1 (V39 m o' c)
  rw [V39_congr m o o' (fun J' r c hJ => h J' r c (by omega)) c]

theorem V41_congr (o o' : Outs (F := F)) (h : ∀ J' r c, J' ≤ 41 → o J' r c = o' J' r c) (c : Dev nD) : V41 m o c = V41 m o' c := by
  show StableHlo.after hostOps18_2 (V40 m o c) = StableHlo.after hostOps18_2 (V40 m o' c)
  rw [V40_congr m o o' (fun J' r c hJ => h J' r c (by omega)) c]

theorem V42_congr (o o' : Outs (F := F)) (h : ∀ J' r c, J' ≤ 42 → o J' r c = o' J' r c) (c : Dev nD) : V42 m o c = V42 m o' c := by
  show Function.update (Function.update (V41 m o c) main_v161_0 (o 42 main_v161_0 c)) main_v161_1 (o 42 main_v161_1 c) = Function.update (Function.update (V41 m o' c) main_v161_0 (o' 42 main_v161_0 c)) main_v161_1 (o' 42 main_v161_1 c)
  rw [V41_congr m o o' (fun J' r c hJ => h J' r c (by omega)) c, h 42 main_v161_0 c (le_refl _), h 42 main_v161_1 c (le_refl _)]

theorem V43_congr (o o' : Outs (F := F)) (h : ∀ J' r c, J' ≤ 43 → o J' r c = o' J' r c) (c : Dev nD) : V43 m o c = V43 m o' c := by
  show Function.update (Function.update (V42 m o c) main_v162_0 (o 43 main_v162_0 c)) main_v162_1 (o 43 main_v162_1 c) = Function.update (Function.update (V42 m o' c) main_v162_0 (o' 43 main_v162_0 c)) main_v162_1 (o' 43 main_v162_1 c)
  rw [V42_congr m o o' (fun J' r c hJ => h J' r c (by omega)) c, h 43 main_v162_0 c (le_refl _), h 43 main_v162_1 c (le_refl _)]

theorem V44_congr (o o' : Outs (F := F)) (h : ∀ J' r c, J' ≤ 44 → o J' r c = o' J' r c) (c : Dev nD) : V44 m o c = V44 m o' c := by
  show StableHlo.after hostOps20 (V43 m o c) = StableHlo.after hostOps20 (V43 m o' c)
  rw [V43_congr m o o' (fun J' r c hJ => h J' r c (by omega)) c]

theorem V45_congr (o o' : Outs (F := F)) (h : ∀ J' r c, J' ≤ 45 → o J' r c = o' J' r c) (c : Dev nD) : V45 m o c = V45 m o' c := by
  show Function.update (V44 m o c) main_v169 (o 45 main_v169 c) = Function.update (V44 m o' c) main_v169 (o' 45 main_v169 c)
  rw [V44_congr m o o' (fun J' r c hJ => h J' r c (by omega)) c, h 45 main_v169 c (le_refl _)]

theorem V46_congr (o o' : Outs (F := F)) (h : ∀ J' r c, J' ≤ 46 → o J' r c = o' J' r c) (c : Dev nD) : V46 m o c = V46 m o' c := by
  show StableHlo.after hostOps21 (V45 m o c) = StableHlo.after hostOps21 (V45 m o' c)
  rw [V45_congr m o o' (fun J' r c hJ => h J' r c (by omega)) c]

theorem V47_congr (o o' : Outs (F := F)) (h : ∀ J' r c, J' ≤ 47 → o J' r c = o' J' r c) (c : Dev nD) : V47 m o c = V47 m o' c := by
  show Function.update (Function.update (V46 m o c) main_v174_0 (o 47 main_v174_0 c)) main_v174_1 (o 47 main_v174_1 c) = Function.update (Function.update (V46 m o' c) main_v174_0 (o' 47 main_v174_0 c)) main_v174_1 (o' 47 main_v174_1 c)
  rw [V46_congr m o o' (fun J' r c hJ => h J' r c (by omega)) c, h 47 main_v174_0 c (le_refl _), h 47 main_v174_1 c (le_refl _)]

theorem V48_congr (o o' : Outs (F := F)) (h : ∀ J' r c, J' ≤ 48 → o J' r c = o' J' r c) (c : Dev nD) : V48 m o c = V48 m o' c := by
  show StableHlo.after hostOps22 (V47 m o c) = StableHlo.after hostOps22 (V47 m o' c)
  rw [V47_congr m o o' (fun J' r c hJ => h J' r c (by omega)) c]

theorem V49_congr (o o' : Outs (F := F)) (h : ∀ J' r c, J' ≤ 49 → o J' r c = o' J' r c) (c : Dev nD) : V49 m o c = V49 m o' c := by
  show Function.update (V48 m o c) main_v181 (o 49 main_v181 c) = Function.update (V48 m o' c) main_v181 (o' 49 main_v181 c)
  rw [V48_congr m o o' (fun J' r c hJ => h J' r c (by omega)) c, h 49 main_v181 c (le_refl _)]

/-! ## The valuation a region is entered from does not depend on later regions -/

theorem Vin1 : V3 m (outs m) = V3 m (o0 m) := funext fun c =>
  V3_congr m (outs m) (o0 m) (fun J' r c hJ => outs_below1 m J' r c (by omega)) c
theorem Vin2 : V5 m (outs m) = V5 m (o1 m) := funext fun c =>
  V5_congr m (outs m) (o1 m) (fun J' r c hJ => outs_below2 m J' r c (by omega)) c
theorem Vin3 : V7 m (outs m) = V7 m (o2 m) := funext fun c =>
  V7_congr m (outs m) (o2 m) (fun J' r c hJ => outs_below3 m J' r c (by omega)) c
theorem Vin4 : V11 m (outs m) = V11 m (o3 m) := funext fun c =>
  V11_congr m (outs m) (o3 m) (fun J' r c hJ => outs_below4 m J' r c (by omega)) c
theorem Vin5 : V12 m (outs m) = V12 m (o4 m) := funext fun c =>
  V12_congr m (outs m) (o4 m) (fun J' r c hJ => outs_below5 m J' r c (by omega)) c
theorem Vin6 : V14 m (outs m) = V14 m (o5 m) := funext fun c =>
  V14_congr m (outs m) (o5 m) (fun J' r c hJ => outs_below6 m J' r c (by omega)) c
theorem Vin7 : V16 m (outs m) = V16 m (o6 m) := funext fun c =>
  V16_congr m (outs m) (o6 m) (fun J' r c hJ => outs_below7 m J' r c (by omega)) c
theorem Vin8 : V18 m (outs m) = V18 m (o7 m) := funext fun c =>
  V18_congr m (outs m) (o7 m) (fun J' r c hJ => outs_below8 m J' r c (by omega)) c
theorem Vin9 : V20 m (outs m) = V20 m (o8 m) := funext fun c =>
  V20_congr m (outs m) (o8 m) (fun J' r c hJ => outs_below9 m J' r c (by omega)) c
theorem Vin10 : V22 m (outs m) = V22 m (o9 m) := funext fun c =>
  V22_congr m (outs m) (o9 m) (fun J' r c hJ => outs_below10 m J' r c (by omega)) c
theorem Vin11 : V26 m (outs m) = V26 m (o10 m) := funext fun c =>
  V26_congr m (outs m) (o10 m) (fun J' r c hJ => outs_below11 m J' r c (by omega)) c
theorem Vin12 : V27 m (outs m) = V27 m (o11 m) := funext fun c =>
  V27_congr m (outs m) (o11 m) (fun J' r c hJ => outs_below12 m J' r c (by omega)) c
theorem Vin13 : V29 m (outs m) = V29 m (o12 m) := funext fun c =>
  V29_congr m (outs m) (o12 m) (fun J' r c hJ => outs_below13 m J' r c (by omega)) c
theorem Vin14 : V31 m (outs m) = V31 m (o13 m) := funext fun c =>
  V31_congr m (outs m) (o13 m) (fun J' r c hJ => outs_below14 m J' r c (by omega)) c
theorem Vin15 : V33 m (outs m) = V33 m (o14 m) := funext fun c =>
  V33_congr m (outs m) (o14 m) (fun J' r c hJ => outs_below15 m J' r c (by omega)) c
theorem Vin16 : V35 m (outs m) = V35 m (o15 m) := funext fun c =>
  V35_congr m (outs m) (o15 m) (fun J' r c hJ => outs_below16 m J' r c (by omega)) c
theorem Vin17 : V37 m (outs m) = V37 m (o16 m) := funext fun c =>
  V37_congr m (outs m) (o16 m) (fun J' r c hJ => outs_below17 m J' r c (by omega)) c
theorem Vin18 : V41 m (outs m) = V41 m (o17 m) := funext fun c =>
  V41_congr m (outs m) (o17 m) (fun J' r c hJ => outs_below18 m J' r c (by omega)) c
theorem Vin19 : V42 m (outs m) = V42 m (o18 m) := funext fun c =>
  V42_congr m (outs m) (o18 m) (fun J' r c hJ => outs_below19 m J' r c (by omega)) c
theorem Vin20 : V44 m (outs m) = V44 m (o19 m) := funext fun c =>
  V44_congr m (outs m) (o19 m) (fun J' r c hJ => outs_below20 m J' r c (by omega)) c
theorem Vin21 : V46 m (outs m) = V46 m (o20 m) := funext fun c =>
  V46_congr m (outs m) (o20 m) (fun J' r c hJ => outs_below21 m J' r c (by omega)) c
theorem Vin22 : V48 m (outs m) = V48 m (o21 m) := funext fun c =>
  V48_congr m (outs m) (o21 m) (fun J' r c hJ => outs_below22 m J' r c (by omega)) c

/-! ## Every region's proof data, at the valuation it is entered from -/

def pdats : (p : Fin 23) → (c : Dev nD) → Dat τ (Elt F) Unit ℕ (UR sig nD τ) ℕ (cfgs p) c
  | ⟨0, _⟩ => fun c => dat0 (asV (V1 m)) c
  | ⟨1, _⟩ => fun c => dat1 (asV (V3 m (outs m))) c
  | ⟨2, _⟩ => fun c => dat2 (asV (V5 m (outs m))) c
  | ⟨3, _⟩ => fun c => dat3 (asV (V7 m (outs m))) c
  | ⟨4, _⟩ => fun c => dat4 (asV (V11 m (outs m))) c
  | ⟨5, _⟩ => fun c => dat5 (asV (V12 m (outs m))) c
  | ⟨6, _⟩ => fun c => dat6 (asV (V14 m (outs m))) c
  | ⟨7, _⟩ => fun c => dat7 (asV (V16 m (outs m))) c
  | ⟨8, _⟩ => fun c => dat8 (asV (V18 m (outs m))) c
  | ⟨9, _⟩ => fun c => dat9 (asV (V20 m (outs m))) c
  | ⟨10, _⟩ => fun c => dat10 (asV (V22 m (outs m))) c
  | ⟨11, _⟩ => fun c => dat11 (asV (V26 m (outs m))) c
  | ⟨12, _⟩ => fun c => dat12 (asV (V27 m (outs m))) c
  | ⟨13, _⟩ => fun c => dat13 (asV (V29 m (outs m))) c
  | ⟨14, _⟩ => fun c => dat14 (asV (V31 m (outs m))) c
  | ⟨15, _⟩ => fun c => dat15 (asV (V33 m (outs m))) c
  | ⟨16, _⟩ => fun c => dat16 (asV (V35 m (outs m))) c
  | ⟨17, _⟩ => fun c => dat17 (asV (V37 m (outs m))) c
  | ⟨18, _⟩ => fun c => dat18 (asV (V41 m (outs m))) c
  | ⟨19, _⟩ => fun c => dat19 (asV (V42 m (outs m))) c
  | ⟨20, _⟩ => fun c => dat20 (asV (V44 m (outs m))) c
  | ⟨21, _⟩ => fun c => dat21 (asV (V46 m (outs m))) c
  | ⟨22, _⟩ => fun c => dat22 (asV (V48 m (outs m))) c
  | ⟨_ + 23, h⟩ => absurd h (Nat.not_lt.2 (Nat.le_add_left _ _))

end Cert.Kernel.Asm

end
-- ==== Proof.KernelAsmR0.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 0 -/

set_option maxRecDepth 400000 in
set_option maxHeartbeats 2000000 in
/-- What region 0 leaves in main_v5. -/
theorem outs0_3 (c : Dev nD) : outs m 2 main_v5 c = (pdats m 0 c).arrAt 3 cfg0.N := by
  rw [outs_at0 m main_v5 c]
  unfold o0
  rw [if_pos rfl]
  rw [Function.update_self]
  rfl

set_option maxRecDepth 400000 in
set_option maxHeartbeats 2000000 in
/-- At region 0's exit each of its arrays holds what the pipeline leaves. -/
theorem hF0 (c : Dev nD) (w : Fin cfg0.W) : (pdats m 0 c).arrAt w cfg0.N = asV (V2 m (outs m)) c (Pipeline.arrRef spec0 w) := by
  match w with
  | ⟨0, _⟩ => exact ((pdats m 0 c).arrAt_in 0 rfl _).trans (Function.update_of_ne (show (Proc.devRef .tc main_arg0 : DevRef τ sig) ≠ Proc.devRef .tc main_v5 from by decide) (outs m 2 main_v5 c) (V1 m c)).symm
  | ⟨1, _⟩ => exact ((pdats m 0 c).arrAt_in 1 rfl _).trans (Function.update_of_ne (show (Proc.devRef .tc main_arg3 : DevRef τ sig) ≠ Proc.devRef .tc main_v5 from by decide) (outs m 2 main_v5 c) (V1 m c)).symm
  | ⟨2, _⟩ => exact ((pdats m 0 c).arrAt_in 2 rfl _).trans (Function.update_of_ne (show (Proc.devRef .tc main_v4 : DevRef τ sig) ≠ Proc.devRef .tc main_v5 from by decide) (outs m 2 main_v5 c) (V1 m c)).symm
  | ⟨3, _⟩ => exact (outs0_3 m c).symm.trans (Function.update_self (Proc.devRef .tc main_v5 : DevRef τ sig) (outs m 2 main_v5 c) (V1 m c)).symm

set_option maxRecDepth 400000 in
set_option maxHeartbeats 2000000 in
/-- Every other buffer holds at the exit what it held at the entry. -/
theorem hrest0 (c : Dev nD) : ∀ b, b ∉ Finset.univ.image (Pipeline.arrRef spec0) → asV (V2 m (outs m)) c b = asV (V1 m) c b := fun b hb => by
  have h3 : (Proc.devRef .tc b : DevRef τ sig) ≠ Proc.devRef .tc main_v5 := fun e => hb (Finset.mem_image.mpr ⟨3, Finset.mem_univ _, (Proc.devRef_injective _ e).symm⟩)
  exact Function.update_of_ne h3 (outs m 2 main_v5 c) (V1 m c)

set_option maxRecDepth 400000 in
set_option maxHeartbeats 2000000 in
set_option backward.isDefEq.respectTransparency.types false in
/-- Region 0 as a segment: entered from the buffers at the valuation before it, left at the one after it; its arrays split
    out of the buffers at entry and put back at exit; the generator register through the invariant; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (asV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (asV (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (V1 m) c) (asV (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR1.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 1 -/

set_option maxRecDepth 400000 in
set_option maxHeartbeats 2000000 in
/-- What region 1 leaves in main_v7. -/
theorem outs1_3 (c : Dev nD) : outs m 4 main_v7 c = (pdats m 1 c).arrAt 3 cfg1.N := by
  rw [outs_at1 m main_v7 c]
  unfold o1
  rw [if_pos rfl]
  rw [Function.update_self]
  show (dat1 (asV (V3 m (o0 m))) c).arrAt 3 cfg1.N = (dat1 (asV (V3 m (outs m))) c).arrAt 3 cfg1.N
  rw [Vin1]

set_option maxRecDepth 400000 in
set_option maxHeartbeats 2000000 in
/-- At region 1's exit each of its arrays holds what the pipeline leaves. -/
theorem hF1 (c : Dev nD) (w : Fin cfg1.W) : (pdats m 1 c).arrAt w cfg1.N = asV (V4 m (outs m)) c (Pipeline.arrRef spec1 w) := by
  match w with
  | ⟨0, _⟩ => exact ((pdats m 1 c).arrAt_in 0 rfl _).trans (Function.update_of_ne (show (Proc.devRef .tc main_arg2 : DevRef τ sig) ≠ Proc.devRef .tc main_v7 from by decide) (outs m 4 main_v7 c) (V3 m (outs m) c)).symm
  | ⟨1, _⟩ => exact ((pdats m 1 c).arrAt_in 1 rfl _).trans (Function.update_of_ne (show (Proc.devRef .tc main_arg5 : DevRef τ sig) ≠ Proc.devRef .tc main_v7 from by decide) (outs m 4 main_v7 c) (V3 m (outs m) c)).symm
  | ⟨2, _⟩ => exact ((pdats m 1 c).arrAt_in 2 rfl _).trans (Function.update_of_ne (show (Proc.devRef .tc main_v6 : DevRef τ sig) ≠ Proc.devRef .tc main_v7 from by decide) (outs m 4 main_v7 c) (V3 m (outs m) c)).symm
  | ⟨3, _⟩ => exact (outs1_3 m c).symm.trans (Function.update_self (Proc.devRef .tc main_v7 : DevRef τ sig) (outs m 4 main_v7 c) (V3 m (outs m) c)).symm

set_option maxRecDepth 400000 in
set_option maxHeartbeats 2000000 in
/-- Every other buffer holds at the exit what it held at the entry. -/
theorem hrest1 (c : Dev nD) : ∀ b, b ∉ Finset.univ.image (Pipeline.arrRef spec1) → asV (V4 m (outs m)) c b = asV (V3 m (outs m)) c b := fun b hb => by
  have h3 : (Proc.devRef .tc b : DevRef τ sig) ≠ Proc.devRef .tc main_v7 := fun e => hb (Finset.mem_image.mpr ⟨3, Finset.mem_univ _, (Proc.devRef_injective _ e).symm⟩)
  exact Function.update_of_ne h3 (outs m 4 main_v7 c) (V3 m (outs m) c)

set_option maxRecDepth 400000 in
set_option maxHeartbeats 2000000 in
set_option backward.isDefEq.respectTransparency.types false in
/-- Region 1 as a segment: entered from the buffers at the valuation before it, left at the one after it; its arrays split
    out of the buffers at entry and put back at exit; the generator register through the invariant; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (asV (V3 m (outs m))) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (asV (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (V3 m (outs m)) c) (asV (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR2.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 2 -/

set_option maxRecDepth 400000 in
set_option maxHeartbeats 2000000 in
/-- What region 2 leaves in main_v31. -/
theorem outs2_3 (c : Dev nD) : outs m 6 main_v31 c = (pdats m 2 c).arrAt 3 cfg2.N := by
  rw [outs_at2 m main_v31 c]
  unfold o2
  rw [if_pos rfl]
  rw [Function.update_self]
  show (dat2 (asV (V5 m (o1 m))) c).arrAt 3 cfg2.N = (dat2 (asV (V5 m (outs m))) c).arrAt 3 cfg2.N
  rw [Vin2]

set_option maxRecDepth 400000 in
set_option maxHeartbeats 2000000 in
/-- At region 2's exit each of its arrays holds what the pipeline leaves. -/
theorem hF2 (c : Dev nD) (w : Fin cfg2.W) : (pdats m 2 c).arrAt w cfg2.N = asV (V6 m (outs m)) c (Pipeline.arrRef spec2 w) := by
  match w with
  | ⟨0, _⟩ => exact ((pdats m 2 c).arrAt_in 0 rfl _).trans (Function.update_of_ne (show (Proc.devRef .tc main_v5 : DevRef τ sig) ≠ Proc.devRef .tc main_v31 from by decide) (outs m 6 main_v31 c) (V5 m (outs m) c)).symm
  | ⟨1, _⟩ => exact ((pdats m 2 c).arrAt_in 1 rfl _).trans (Function.update_of_ne (show (Proc.devRef .tc main_v20 : DevRef τ sig) ≠ Proc.devRef .tc main_v31 from by decide) (outs m 6 main_v31 c) (V5 m (outs m) c)).symm
  | ⟨2, _⟩ => exact ((pdats m 2 c).arrAt_in 2 rfl _).trans (Function.update_of_ne (show (Proc.devRef .tc main_v30 : DevRef τ sig) ≠ Proc.devRef .tc main_v31 from by decide) (outs m 6 main_v31 c) (V5 m (outs m) c)).symm
  | ⟨3, _⟩ => exact (outs2_3 m c).symm.trans (Function.update_self (Proc.devRef .tc main_v31 : DevRef τ sig) (outs m 6 main_v31 c) (V5 m (outs m) c)).symm

set_option maxRecDepth 400000 in
set_option maxHeartbeats 2000000 in
/-- Every other buffer holds at the exit what it held at the entry. -/
theorem hrest2 (c : Dev nD) : ∀ b, b ∉ Finset.univ.image (Pipeline.arrRef spec2) → asV (V6 m (outs m)) c b = asV (V5 m (outs m)) c b := fun b hb => by
  have h3 : (Proc.devRef .tc b : DevRef τ sig) ≠ Proc.devRef .tc main_v31 := fun e => hb (Finset.mem_image.mpr ⟨3, Finset.mem_univ _, (Proc.devRef_injective _ e).symm⟩)
  exact Function.update_of_ne h3 (outs m 6 main_v31 c) (V5 m (outs m) c)

set_option maxRecDepth 400000 in
set_option maxHeartbeats 2000000 in
set_option backward.isDefEq.respectTransparency.types false in
/-- Region 2 as a segment: entered from the buffers at the valuation before it, left at the one after it; its arrays split
    out of the buffers at entry and put back at exit; the generator register through the invariant; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (asV (V5 m (outs m))) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (asV (V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (V5 m (outs m)) c) (asV (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR3.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 3 -/

set_option maxRecDepth 400000 in
set_option maxHeartbeats 2000000 in
/-- What region 3 leaves in main_v41. -/
theorem outs3_3 (c : Dev nD) : outs m 8 main_v41 c = (pdats m 3 c).arrAt 3 cfg3.N := by
  rw [outs_at3 m main_v41 c]
  unfold o3
  rw [if_pos rfl]
  rw [Function.update_self]
  show (dat3 (asV (V7 m (o2 m))) c).arrAt 3 cfg3.N = (dat3 (asV (V7 m (outs m))) c).arrAt 3 cfg3.N
  rw [Vin3]

set_option maxRecDepth 400000 in
set_option maxHeartbeats 2000000 in
/-- At region 3's exit each of its arrays holds what the pipeline leaves. -/
theorem hF3 (c : Dev nD) (w : Fin cfg3.W) : (pdats m 3 c).arrAt w cfg3.N = asV (V8 m (outs m)) c (Pipeline.arrRef spec3 w) := by
  match w with
  | ⟨0, _⟩ => exact ((pdats m 3 c).arrAt_in 0 rfl _).trans (Function.update_of_ne (show (Proc.devRef .tc main_v7 : DevRef τ sig) ≠ Proc.devRef .tc main_v41 from by decide) (outs m 8 main_v41 c) (V7 m (outs m) c)).symm
  | ⟨1, _⟩ => exact ((pdats m 3 c).arrAt_in 1 rfl _).trans (Function.update_of_ne (show (Proc.devRef .tc main_v37 : DevRef τ sig) ≠ Proc.devRef .tc main_v41 from by decide) (outs m 8 main_v41 c) (V7 m (outs m) c)).symm
  | ⟨2, _⟩ => exact ((pdats m 3 c).arrAt_in 2 rfl _).trans (Function.update_of_ne (show (Proc.devRef .tc main_v40 : DevRef τ sig) ≠ Proc.devRef .tc main_v41 from by decide) (outs m 8 main_v41 c) (V7 m (outs m) c)).symm
  | ⟨3, _⟩ => exact (outs3_3 m c).symm.trans (Function.update_self (Proc.devRef .tc main_v41 : DevRef τ sig) (outs m 8 main_v41 c) (V7 m (outs m) c)).symm

set_option maxRecDepth 400000 in
set_option maxHeartbeats 2000000 in
/-- Every other buffer holds at the exit what it held at the entry. -/
theorem hrest3 (c : Dev nD) : ∀ b, b ∉ Finset.univ.image (Pipeline.arrRef spec3) → asV (V8 m (outs m)) c b = asV (V7 m (outs m)) c b := fun b hb => by
  have h3 : (Proc.devRef .tc b : DevRef τ sig) ≠ Proc.devRef .tc main_v41 := fun e => hb (Finset.mem_image.mpr ⟨3, Finset.mem_univ _, (Proc.devRef_injective _ e).symm⟩)
  exact Function.update_of_ne h3 (outs m 8 main_v41 c) (V7 m (outs m) c)

set_option maxRecDepth 400000 in
set_option maxHeartbeats 2000000 in
set_option backward.isDefEq.respectTransparency.types false in
/-- Region 3 as a segment: entered from the buffers at the valuation before it, left at the one after it; its arrays split
    out of the buffers at entry and put back at exit; the generator register through the invariant; nothing owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (asV (V7 m (outs m))) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (asV (V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asV (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asV (V7 m (outs m)) c) (asV (V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR4.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 4 -/

set_option maxRecDepth 400000 in
set_option maxHeartbeats 2000000 in
/-- What region 4 leaves in main_v45_0. -/
theorem outs4_4 (c : Dev nD) : outs m 12 main_v45_0 c = (pdats m 4 c).arrAt 4 cfg4.N := by
  rw [outs_at4 m main_v45_0 c]
  unfold o4
  rw [if_pos rfl]
  rw [Function.update_of_ne (show (Proc.devRef .tc main_v45_0 : DevRef τ sig) ≠ Proc.devRef .tc main_v45_1 from by decide)]
  rw [Function.update_self]
  show (dat4 (asV (V11 m (o3 m))) c).arrAt 4 cfg4.N = (dat4 (asV (V11 m (outs m))) c).arrAt 4 cfg4.N
  rw [Vin4]

set_option maxRecDepth 400000 in
set_option maxHeartbeats 2000000 in
/-- What region 4 leaves in main_v45_1. -/
theorem outs4_5 (c : Dev nD) : outs m 12 main_v45_1 c = (pdats m 4 c).arrAt 5 cfg4.N := by
  rw [outs_at4 m main_v45_1 c]
  unfold o4
  rw [if_pos rfl]
  rw [Function.update_self]
  show (dat4 (asV (V11 m (o3 m))) c).arrAt 5 cfg4.N = (dat4 (asV (V11 m (outs m))) c).arrAt 5 cfg4.N
  rw [Vin4]

set_option maxRecDepth 400000 in
set_option maxHeartbeats 2000000 in
/-- At region 4's exit each of its arrays holds what the pipeline leaves. -/
theorem hF4 (c : Dev nD) (w : Fin cfg4.W) : (pdats m 4 c).arrAt w cfg4.N = asV (V12 m (outs m)) c (Pipeline.arrRef spec4 w) := by
  match w with
  | ⟨0, _⟩ => exact ((pdats m 4 c).arrAt_in 0 rfl _).trans ((Function.update_of_ne (show (Proc.devRef .tc main_v41 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v41 : DevRef τ sig) ≠ Proc.devRef .tc main_v45_0 from by decide) (outs m 12 main_v45_0 c) (V11 m (outs m) c))).symm
  | ⟨1, _⟩ => exact ((pdats m 4 c).arrAt_in 1 rfl _).trans ((Function.update_of_ne (show (Proc.devRef .tc main_v42 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v42 : DevRef τ sig) ≠ Proc.devRef .tc main_v45_0 from by decide) (outs m 12 main_v45_0 c) (V11 m (outs m) c))).symm
  | ⟨2, _⟩ => exact ((pdats m 4 c).arrAt_in 2 rfl _).trans ((Function.update_of_ne (show (Proc.devRef .tc main_v43 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v43 : DevRef τ sig) ≠ Proc.devRef .tc main_v45_0 from by decide) (outs m 12 main_v45_0 c) (V11 m (outs m) c))).symm
  | ⟨3, _⟩ => exact ((pdats m 4 c).arrAt_in 3 rfl _).trans ((Function.update_of_ne (show (Proc.devRef .tc main_v44 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v44 : DevRef τ sig) ≠ Proc.devRef .tc main_v45_0 from by decide) (outs m 12 main_v45_0 c) (V11 m (outs m) c))).symm
  | ⟨4, _⟩ => exact (outs4_4 m c).symm.trans ((Function.update_of_ne (show (Proc.devRef .tc main_v45_0 : DevRef τ sig) ≠ Proc.devRef .tc main_v45_1 from by decide) (outs m 12 main_v45_1 c) (Function.update (V11 m (outs m) c) (Proc.devRef .tc main_v45_0 : DevRef τ sig) (outs m 12 main_v45_0 c))).trans (Function.update_self (Proc.devRef .tc main_v45_0 : DevRef τ sig) (outs m 12 main_v45_0 c) (V11 m (outs m) c))).symm
  | ⟨5, _⟩ => exact (outs4_5 m c).symm.trans (Function.update_self (Proc.devRef .tc main_v45_1 : DevRef τ sig) (outs m 12 main_v45_1 c) (Function.update (V11 m (outs m) c) (Proc.devRef .tc main_v45_0 : DevRef τ sig) (outs m 12 main_v45_0 c))).symm

set_option maxRecDepth 400000 in
set_option maxHeartbeats 2000000 in
/-- Every other buffer holds at the exit what it held at the entry. -/
theorem hrest4 (c : Dev nD) : ∀ b, b ∉ Finset.univ.image (Pipeline.arrRef spec4) → asV (V12 m (outs m)) c b = asV (V11 m (outs m)) c b := fun b hb => by
  have h4 : (Proc.devRef .tc b : DevRef τ sig) ≠ Proc.devRef .tc main_v45_0 := fun e => hb (Finset.mem_image.mpr ⟨4, Finset.mem_univ _, (Proc.devRef_injective _ e).symm⟩)
  have h5 : (Proc.devRef .tc b : DevRef τ sig) ≠ Proc.devRef .tc main_v45_1 := fun e => hb (Finset.mem_image.mpr ⟨5, Finset.mem_univ _, (Proc.devRef_injective _ e).symm⟩)
  exact (Function.update_of_ne h5 (outs m 12 main_v45_1 c) (Function.update (V11 m (outs m) c) (Proc.devRef .tc main_v45_0 : DevRef τ sig) (outs m 12 main_v45_0 c))).trans (Function.update_of_ne h4 (outs m 12 main_v45_0 c) (V11 m (outs m) c))

set_option maxRecDepth 400000 in
set_option maxHeartbeats 2000000 in
set_option backward.isDefEq.respectTransparency.types false in
/-- Region 4 as a segment: entered from the buffers at the valuation before it, left at the one after it; its arrays split
    out of the buffers at entry and put back at exit; the generator register through the invariant; nothing owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (asV (V11 m (outs m))) c).loose
  hwaits := Pipeline.hwaits_of_owed_zero _ _ _ _ L lv 4 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec4 c (asV (V11 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asV (V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asV (V11 m (outs m)) c) (asV (V12 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR5.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 5 -/

set_option maxRecDepth 400000 in
set_option maxHeartbeats 2000000 in
/-- What region 5 leaves in main_v46_0. -/
theorem outs5_1 (c : Dev nD) : outs m 13 main_v46_0 c = (pdats m 5 c).arrAt 1 cfg5.N := by
  rw [outs_at5 m main_v46_0 c]
  unfold o5
  rw [if_pos rfl]
  rw [Function.update_of_ne (show (Proc.devRef .tc main_v46_0 : DevRef τ sig) ≠ Proc.devRef .tc main_v46_1 from by decide)]
  rw [Function.update_self]
  show (dat5 (asV (V12 m (o4 m))) c).arrAt 1 cfg5.N = (dat5 (asV (V12 m (outs m))) c).arrAt 1 cfg5.N
  rw [Vin5]

set_option maxRecDepth 400000 in
set_option maxHeartbeats 2000000 in
/-- What region 5 leaves in main_v46_1. -/
theorem outs5_2 (c : Dev nD) : outs m 13 main_v46_1 c = (pdats m 5 c).arrAt 2 cfg5.N := by
  rw [outs_at5 m main_v46_1 c]
  unfold o5
  rw [if_pos rfl]
  rw [Function.update_self]
  show (dat5 (asV (V12 m (o4 m))) c).arrAt 2 cfg5.N = (dat5 (asV (V12 m (outs m))) c).arrAt 2 cfg5.N
  rw [Vin5]

set_option maxRecDepth 400000 in
set_option maxHeartbeats 2000000 in
/-- At region 5's exit each of its arrays holds what the pipeline leaves. -/
theorem hF5 (c : Dev nD) (w : Fin cfg5.W) : (pdats m 5 c).arrAt w cfg5.N = asV (V13 m (outs m)) c (Pipeline.arrRef spec5 w) := by
  match w with
  | ⟨0, _⟩ => exact ((pdats m 5 c).arrAt_in 0 rfl _).trans ((Function.update_of_ne (show (Proc.devRef .tc main_v45_0 : DevRef τ sig) ≠ Proc.devRef .tc main_v46_1 from by decide) (outs m 13 main_v46_1 c) (Function.update (V12 m (outs m) c) (Proc.devRef .tc main_v46_0 : DevRef τ sig) (outs m 13 main_v46_0 c))).trans (Function.update_of_ne (show (Proc.devRef .tc main_v45_0 : DevRef τ sig) ≠ Proc.devRef .tc main_v46_0 from by decide) (outs m 13 main_v46_0 c) (V12 m (outs m) c))).symm
  | ⟨1, _⟩ => exact (outs5_1 m c).symm.trans ((Function.update_of_ne (show (Proc.devRef .tc main_v46_0 : DevRef τ sig) ≠ Proc.devRef .tc main_v46_1 from by decide) (outs m 13 main_v46_1 c) (Function.update (V12 m (outs m) c) (Proc.devRef .tc main_v46_0 : DevRef τ sig) (outs m 13 main_v46_0 c))).trans (Function.update_self (Proc.devRef .tc main_v46_0 : DevRef τ sig) (outs m 13 main_v46_0 c) (V12 m (outs m) c))).symm
  | ⟨2, _⟩ => exact (outs5_2 m c).symm.trans (Function.update_self (Proc.devRef .tc main_v46_1 : DevRef τ sig) (outs m 13 main_v46_1 c) (Function.update (V12 m (outs m) c) (Proc.devRef .tc main_v46_0 : DevRef τ sig) (outs m 13 main_v46_0 c))).symm

set_option maxRecDepth 400000 in
set_option maxHeartbeats 2000000 in
/-- Every other buffer holds at the exit what it held at the entry. -/
theorem hrest5 (c : Dev nD) : ∀ b, b ∉ Finset.univ.image (Pipeline.arrRef spec5) → asV (V13 m (outs m)) c b = asV (V12 m (outs m)) c b := fun b hb => by
  have h1 : (Proc.devRef .tc b : DevRef τ sig) ≠ Proc.devRef .tc main_v46_0 := fun e => hb (Finset.mem_image.mpr ⟨1, Finset.mem_univ _, (Proc.devRef_injective _ e).symm⟩)
  have h2 : (Proc.devRef .tc b : DevRef τ sig) ≠ Proc.devRef .tc main_v46_1 := fun e => hb (Finset.mem_image.mpr ⟨2, Finset.mem_univ _, (Proc.devRef_injective _ e).symm⟩)
  exact (Function.update_of_ne h2 (outs m 13 main_v46_1 c) (Function.update (V12 m (outs m) c) (Proc.devRef .tc main_v46_0 : DevRef τ sig) (outs m 13 main_v46_0 c))).trans (Function.update_of_ne h1 (outs m 13 main_v46_0 c) (V12 m (outs m) c))

set_option maxRecDepth 400000 in
set_option maxHeartbeats 2000000 in
set_option backward.isDefEq.respectTransparency.types false in
/-- Region 5 as a segment: entered from the buffers at the valuation before it, left at the one after it; its arrays split
    out of the buffers at entry and put back at exit; the generator register through the invariant; nothing owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (asV (V12 m (outs m))) c).loose
  hwaits := Pipeline.hwaits_of_owed_zero _ _ _ _ L lv 5 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec5 c (asV (V12 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (asV (V12 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat5 (asV (V12 m (outs m))) c).Φ 0
    iintro ⟨Hp, -, Hr⟩
    iapply (hin5 (asV (V12 m (outs m))) c)
    unfold X5
    isplitl [Hp]; · iexact Hp
    iexact Hr
  hout c := by
    rw [Pipeline.ownSems0_none]
    exact (hout5 (asV (V12 m (outs m))) c).trans (by
      unfold X5
      iintro ⟨Hp, Hr⟩
      isplitl [Hp]; · iexact Hp
      isplitr; · iempintro
      iexact Hr)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (asV (V12 m (outs m)) c) (asV (V13 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR6.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 6 -/

set_option maxRecDepth 400000 in
set_option maxHeartbeats 2000000 in
/-- What region 6 leaves in main_v53. -/
theorem outs6_6 (c : Dev nD) : outs m 15 main_v53 c = (pdats m 6 c).arrAt 6 cfg6.N := by
  rw [outs_at6 m main_v53 c]
  unfold o6
  rw [if_pos rfl]
  rw [Function.update_self]
  show (dat6 (asV (V14 m (o5 m))) c).arrAt 6 cfg6.N = (dat6 (asV (V14 m (outs m))) c).arrAt 6 cfg6.N
  rw [Vin6]

set_option maxRecDepth 400000 in
set_option maxHeartbeats 2000000 in
/-- At region 6's exit each of its arrays holds what the pipeline leaves. -/
theorem hF6 (c : Dev nD) (w : Fin cfg6.W) : (pdats m 6 c).arrAt w cfg6.N = asV (V15 m (outs m)) c (Pipeline.arrRef spec6 w) := by
  match w with
  | ⟨0, _⟩ => exact ((pdats m 6 c).arrAt_in 0 rfl _).trans (Function.update_of_ne (show (Proc.devRef .tc main_v45_0 : DevRef τ sig) ≠ Proc.devRef .tc main_v53 from by decide) (outs m 15 main_v53 c) (V14 m (outs m) c)).symm
  | ⟨1, _⟩ => exact ((pdats m 6 c).arrAt_in 1 rfl _).trans (Function.update_of_ne (show (Proc.devRef .tc main_v7 : DevRef τ sig) ≠ Proc.devRef .tc main_v53 from by decide) (outs m 15 main_v53 c) (V14 m (outs m) c)).symm
  | ⟨2, _⟩ => exact ((pdats m 6 c).arrAt_in 2 rfl _).trans (Function.update_of_ne (show (Proc.devRef .tc main_v46_0 : DevRef τ sig) ≠ Proc.devRef .tc main_v53 from by decide) (outs m 15 main_v53 c) (V14 m (outs m) c)).symm
  | ⟨3, _⟩ => exact ((pdats m 6 c).arrAt_in 3 rfl _).trans (Function.update_of_ne (show (Proc.devRef .tc main_v46_1 : DevRef τ sig) ≠ Proc.devRef .tc main_v53 from by decide) (outs m 15 main_v53 c) (V14 m (outs m) c)).symm
  | ⟨4, _⟩ => exact ((pdats m 6 c).arrAt_in 4 rfl _).trans (Function.update_of_ne (show (Proc.devRef .tc main_v49 : DevRef τ sig) ≠ Proc.devRef .tc main_v53 from by decide) (outs m 15 main_v53 c) (V14 m (outs m) c)).symm
  | ⟨5, _⟩ => exact ((pdats m 6 c).arrAt_in 5 rfl _).trans (Function.update_of_ne (show (Proc.devRef .tc main_v52 : DevRef τ sig) ≠ Proc.devRef .tc main_v53 from by decide) (outs m 15 main_v53 c) (V14 m (outs m) c)).symm
  | ⟨6, _⟩ => exact (outs6_6 m c).symm.trans (Function.update_self (Proc.devRef .tc main_v53 : DevRef τ sig) (outs m 15 main_v53 c) (V14 m (outs m) c)).symm

set_option maxRecDepth 400000 in
set_option maxHeartbeats 2000000 in
/-- Every other buffer holds at the exit what it held at the entry. -/
theorem hrest6 (c : Dev nD) : ∀ b, b ∉ Finset.univ.image (Pipeline.arrRef spec6) → asV (V15 m (outs m)) c b = asV (V14 m (outs m)) c b := fun b hb => by
  have h6 : (Proc.devRef .tc b : DevRef τ sig) ≠ Proc.devRef .tc main_v53 := fun e => hb (Finset.mem_image.mpr ⟨6, Finset.mem_univ _, (Proc.devRef_injective _ e).symm⟩)
  exact Function.update_of_ne h6 (outs m 15 main_v53 c) (V14 m (outs m) c)

set_option maxRecDepth 400000 in
set_option maxHeartbeats 2000000 in
set_option backward.isDefEq.respectTransparency.types false in
/-- Region 6 as a segment: entered from the buffers at the valuation before it, left at the one after it; its arrays split
    out of the buffers at entry and put back at exit; the generator register through the invariant; nothing owed. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (asV (V14 m (outs m))) c).loose
  hwaits := Pipeline.hwaits_of_owed_zero _ _ _ _ L lv 6 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec6 c (asV (V14 m (outs m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) (asV (V14 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (asV (V14 m (outs m)) c) (asV (V15 m (outs m)) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR7.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 7 -/

set_option maxRecDepth 400000 in
set_option maxHeartbeats 2000000 in
/-- What region 7 leaves in main_v58_0. -/
theorem outs7_1 (c : Dev nD) : outs m 17 main_v58_0 c = (pdats m 7 c).arrAt 1 cfg7.N := by
  rw [outs_at7 m main_v58_0 c]
  unfold o7
  rw [if_pos rfl]
  rw [Function.update_of_ne (show (Proc.devRef .tc main_v58_0 : DevRef τ sig) ≠ Proc.devRef .tc main_v58_1 from by decide)]
  rw [Function.update_self]
  show (dat7 (asV (V16 m (o6 m))) c).arrAt 1 cfg7.N = (dat7 (asV (V16 m (outs m))) c).arrAt 1 cfg7.N
  rw [Vin7]

set_option maxRecDepth 400000 in
set_option maxHeartbeats 2000000 in
/-- What region 7 leaves in main_v58_1. -/
theorem outs7_2 (c : Dev nD) : outs m 17 main_v58_1 c = (pdats m 7 c).arrAt 2 cfg7.N := by
  rw [outs_at7 m main_v58_1 c]
  unfold o7
  rw [if_pos rfl]
  rw [Function.update_self]
  show (dat7 (asV (V16 m (o6 m))) c).arrAt 2 cfg7.N = (dat7 (asV (V16 m (outs m))) c).arrAt 2 cfg7.N
  rw [Vin7]

set_option maxRecDepth 400000 in
set_option maxHeartbeats 2000000 in
/-- At region 7's exit each of its arrays holds what the pipeline leaves. -/
theorem hF7 (c : Dev nD) (w : Fin cfg7.W) : (pdats m 7 c).arrAt w cfg7.N = asV (V17 m (outs m)) c (Pipeline.arrRef spec7 w) := by
  match w with
  | ⟨0, _⟩ => exact ((pdats m 7 c).arrAt_in 0 rfl _).trans ((Function.update_of_ne (show (Proc.devRef .tc main_v57 : DevRef τ sig) ≠ Proc.devRef .tc main_v58_1 from by decide) (outs m 17 main_v58_1 c) (Function.update (V16 m (outs m) c) (Proc.devRef .tc main_v58_0 : DevRef τ sig) (outs m 17 main_v58_0 c))).trans (Function.update_of_ne (show (Proc.devRef .tc main_v57 : DevRef τ sig) ≠ Proc.devRef .tc main_v58_0 from by decide) (outs m 17 main_v58_0 c) (V16 m (outs m) c))).symm
  | ⟨1, _⟩ => exact (outs7_1 m c).symm.trans ((Function.update_of_ne (show (Proc.devRef .tc main_v58_0 : DevRef τ sig) ≠ Proc.devRef .tc main_v58_1 from by decide) (outs m 17 main_v58_1 c) (Function.update (V16 m (outs m) c) (Proc.devRef .tc main_v58_0 : DevRef τ sig) (outs m 17 main_v58_0 c))).trans (Function.update_self (Proc.devRef .tc main_v58_0 : DevRef τ sig) (outs m 17 main_v58_0 c) (V16 m (outs m) c))).symm
  | ⟨2, _⟩ => exact (outs7_2 m c).symm.trans (Function.update_self (Proc.devRef .tc main_v58_1 : DevRef τ sig) (outs m 17 main_v58_1 c) (Function.update (V16 m (outs m) c) (Proc.devRef .tc main_v58_0 : DevRef τ sig) (outs m 17 main_v58_0 c))).symm

set_option maxRecDepth 400000 in
set_option maxHeartbeats 2000000 in
/-- Every other buffer holds at the exit what it held at the entry. -/
theorem hrest7 (c : Dev nD) : ∀ b, b ∉ Finset.univ.image (Pipeline.arrRef spec7) → asV (V17 m (outs m)) c b = asV (V16 m (outs m)) c b := fun b hb => by
  have h1 : (Proc.devRef .tc b : DevRef τ sig) ≠ Proc.devRef .tc main_v58_0 := fun e => hb (Finset.mem_image.mpr ⟨1, Finset.mem_univ _, (Proc.devRef_injective _ e).symm⟩)
  have h2 : (Proc.devRef .tc b : DevRef τ sig) ≠ Proc.devRef .tc main_v58_1 := fun e => hb (Finset.mem_image.mpr ⟨2, Finset.mem_univ _, (Proc.devRef_injective _ e).symm⟩)
  exact (Function.update_of_ne h2 (outs m 17 main_v58_1 c) (Function.update (V16 m (outs m) c) (Proc.devRef .tc main_v58_0 : DevRef τ sig) (outs m 17 main_v58_0 c))).trans (Function.update_of_ne h1 (outs m 17 main_v58_0 c) (V16 m (outs m) c))

set_option maxRecDepth 400000 in
set_option maxHeartbeats 2000000 in
set_option backward.isDefEq.respectTransparency.types false in
/-- Region 7 as a segment: entered from the buffers at the valuation before it, left at the one after it; its arrays split
    out of the buffers at entry and put back at exit; the generator register through the invariant; nothing owed. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (asV (V16 m (outs m))) c).loose
  hwaits := Pipeline.hwaits_of_owed_zero _ _ _ _ L lv 7 fun _ _ => rfl
  pre c := iprop(StableHlo.held (c : Thread nD τ) (Pipeline.ucRefs τ sig) (V16 m (outs m) c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec7 c (asV (V16 m (outs m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) (asV (V16 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat7 (asV (V16 m (outs m))) c).Φ 0
    iintro ⟨Hp, -, Hr⟩
    iapply (hin7 (asV (V16 m (outs m))) c)
    unfold X7
    isplitl [Hp]; · iexact Hp
    iexact Hr
  hout c := by
    rw [Pipeline.ownSems0_none]
    exact (hout7 (asV (V16 m (outs m))) c).trans (by
      unfold X7
      iintro ⟨Hp, Hr⟩
      isplitl [Hp]; · iexact Hp
      isplitr; · iempintro
      iexact Hr)
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (asV (V16 m (outs m)) c) (asV (V17 m (outs m)) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR8.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 8 -/

set_option maxRecDepth 400000 in
set_option maxHeartbeats 2000000 in
/-- What region 8 leaves in main_v65. -/
theorem outs8_6 (c : Dev nD) : outs m 19 main_v65 c = (pdats m 8 c).arrAt 6 cfg8.N := by
  rw [outs_at8 m main_v65 c]
  unfold o8
  rw [if_pos rfl]
  rw [Function.update_self]
  show (dat8 (asV (V18 m (o7 m))) c).arrAt 6 cfg8.N = (dat8 (asV (V18 m (outs m))) c).arrAt 6 cfg8.N
  rw [Vin8]

set_option maxRecDepth 400000 in
set_option maxHeartbeats 2000000 in
/-- At region 8's exit each of its arrays holds what the pipeline leaves. -/
theorem hF8 (c : Dev nD) (w : Fin cfg8.W) : (pdats m 8 c).arrAt w cfg8.N = asV (V19 m (outs m)) c (Pipeline.arrRef spec8 w) := by
  match w with
  | ⟨0, _⟩ => exact ((pdats m 8 c).arrAt_in 0 rfl _).trans (Function.update_of_ne (show (Proc.devRef .tc main_v57 : DevRef τ sig) ≠ Proc.devRef .tc main_v65 from by decide) (outs m 19 main_v65 c) (V18 m (outs m) c)).symm
  | ⟨1, _⟩ => exact ((pdats m 8 c).arrAt_in 1 rfl _).trans (Function.update_of_ne (show (Proc.devRef .tc main_v5 : DevRef τ sig) ≠ Proc.devRef .tc main_v65 from by decide) (outs m 19 main_v65 c) (V18 m (outs m) c)).symm
  | ⟨2, _⟩ => exact ((pdats m 8 c).arrAt_in 2 rfl _).trans (Function.update_of_ne (show (Proc.devRef .tc main_v58_0 : DevRef τ sig) ≠ Proc.devRef .tc main_v65 from by decide) (outs m 19 main_v65 c) (V18 m (outs m) c)).symm
  | ⟨3, _⟩ => exact ((pdats m 8 c).arrAt_in 3 rfl _).trans (Function.update_of_ne (show (Proc.devRef .tc main_v58_1 : DevRef τ sig) ≠ Proc.devRef .tc main_v65 from by decide) (outs m 19 main_v65 c) (V18 m (outs m) c)).symm
  | ⟨4, _⟩ => exact ((pdats m 8 c).arrAt_in 4 rfl _).trans (Function.update_of_ne (show (Proc.devRef .tc main_v61 : DevRef τ sig) ≠ Proc.devRef .tc main_v65 from by decide) (outs m 19 main_v65 c) (V18 m (outs m) c)).symm
  | ⟨5, _⟩ => exact ((pdats m 8 c).arrAt_in 5 rfl _).trans (Function.update_of_ne (show (Proc.devRef .tc main_v64 : DevRef τ sig) ≠ Proc.devRef .tc main_v65 from by decide) (outs m 19 main_v65 c) (V18 m (outs m) c)).symm
  | ⟨6, _⟩ => exact (outs8_6 m c).symm.trans (Function.update_self (Proc.devRef .tc main_v65 : DevRef τ sig) (outs m 19 main_v65 c) (V18 m (outs m) c)).symm

set_option maxRecDepth 400000 in
set_option maxHeartbeats 2000000 in
/-- Every other buffer holds at the exit what it held at the entry. -/
theorem hrest8 (c : Dev nD) : ∀ b, b ∉ Finset.univ.image (Pipeline.arrRef spec8) → asV (V19 m (outs m)) c b = asV (V18 m (outs m)) c b := fun b hb => by
  have h6 : (Proc.devRef .tc b : DevRef τ sig) ≠ Proc.devRef .tc main_v65 := fun e => hb (Finset.mem_image.mpr ⟨6, Finset.mem_univ _, (Proc.devRef_injective _ e).symm⟩)
  exact Function.update_of_ne h6 (outs m 19 main_v65 c) (V18 m (outs m) c)

set_option maxRecDepth 400000 in
set_option maxHeartbeats 2000000 in
set_option backward.isDefEq.respectTransparency.types false in
/-- Region 8 as a segment: entered from the buffers at the valuation before it, left at the one after it; its arrays split
    out of the buffers at entry and put back at exit; the generator register through the invariant; nothing owed. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (asV (V18 m (outs m))) c).loose
  hwaits := Pipeline.hwaits_of_owed_zero _ _ _ _ L lv 8 fun _ _ => rfl
  pre c := iprop(StableHlo.held (c : Thread nD τ) (Pipeline.ucRefs τ sig) (V18 m (outs m) c) ∗ R c)
  post c := iprop(StableHlo.held (c : Thread nD τ) (Pipeline.ucRefs τ sig) (V19 m (outs m) c) ∗ R c)
  X c := iprop(∃ r, prngReg c r)
  Y c := iprop(∃ r, prngReg c r)
  Z c := Pipeline.unscopedRest (Ix := Unit) (Name := ℕ) (U := UR sig nD τ) (Lvl := ℕ) spec8 c (asV (V18 m (outs m)) c)
  hentry c := by
    rw [Pipeline.ownSems0_none]
    have hsplit := Pipeline.arrays_of_unscopedBufs (p := 8) (pcfgs (F := F)) adm (pdats m) launch8.win launch8.arr_whole c
      ((pdats m 8 c).share_full fun _ => rfl) (asV (V18 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (asV (V18 m (outs m)) c) (asV (V19 m (outs m)) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR9.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 9 -/

set_option maxRecDepth 400000 in
set_option maxHeartbeats 2000000 in
/-- What region 9 leaves in main_v89. -/
theorem outs9_3 (c : Dev nD) : outs m 21 main_v89 c = (pdats m 9 c).arrAt 3 cfg9.N := by
  rw [outs_at9 m main_v89 c]
  unfold o9
  rw [if_pos rfl]
  rw [Function.update_self]
  show (dat9 (asV (V20 m (o8 m))) c).arrAt 3 cfg9.N = (dat9 (asV (V20 m (outs m))) c).arrAt 3 cfg9.N
  rw [Vin9]

set_option maxRecDepth 400000 in
set_option maxHeartbeats 2000000 in
/-- At region 9's exit each of its arrays holds what the pipeline leaves. -/
theorem hF9 (c : Dev nD) (w : Fin cfg9.W) : (pdats m 9 c).arrAt w cfg9.N = asV (V21 m (outs m)) c (Pipeline.arrRef spec9 w) := by
  match w with
  | ⟨0, _⟩ => exact ((pdats m 9 c).arrAt_in 0 rfl _).trans (Function.update_of_ne (show (Proc.devRef .tc main_v65 : DevRef τ sig) ≠ Proc.devRef .tc main_v89 from by decide) (outs m 21 main_v89 c) (V20 m (outs m) c)).symm
  | ⟨1, _⟩ => exact ((pdats m 9 c).arrAt_in 1 rfl _).trans (Function.update_of_ne (show (Proc.devRef .tc main_v78 : DevRef τ sig) ≠ Proc.devRef .tc main_v89 from by decide) (outs m 21 main_v89 c) (V20 m (outs m) c)).symm
  | ⟨2, _⟩ => exact ((pdats m 9 c).arrAt_in 2 rfl _).trans (Function.update_of_ne (show (Proc.devRef .tc main_v88 : DevRef τ sig) ≠ Proc.devRef .tc main_v89 from by decide) (outs m 21 main_v89 c) (V20 m (outs m) c)).symm
  | ⟨3, _⟩ => exact (outs9_3 m c).symm.trans (Function.update_self (Proc.devRef .tc main_v89 : DevRef τ sig) (outs m 21 main_v89 c) (V20 m (outs m) c)).symm

set_option maxRecDepth 400000 in
set_option maxHeartbeats 2000000 in
/-- Every other buffer holds at the exit what it held at the entry. -/
theorem hrest9 (c : Dev nD) : ∀ b, b ∉ Finset.univ.image (Pipeline.arrRef spec9) → asV (V21 m (outs m)) c b = asV (V20 m (outs m)) c b := fun b hb => by
  have h3 : (Proc.devRef .tc b : DevRef τ sig) ≠ Proc.devRef .tc main_v89 := fun e => hb (Finset.mem_image.mpr ⟨3, Finset.mem_univ _, (Proc.devRef_injective _ e).symm⟩)
  exact Function.update_of_ne h3 (outs m 21 main_v89 c) (V20 m (outs m) c)

set_option maxRecDepth 400000 in
set_option maxHeartbeats 2000000 in
set_option backward.isDefEq.respectTransparency.types false in
/-- Region 9 as a segment: entered from the buffers at the valuation before it, left at the one after it; its arrays split
    out of the buffers at entry and put back at exit; the generator register through the invariant; nothing owed. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (asV (V20 m (outs m))) c).loose
  hwaits := Pipeline.hwaits_of_owed_zero _ _ _ _ L lv 9 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec9 c (asV (V20 m (outs m)) c)
  hentry c := by
    rw [Pipeline.ownSems0_none]
    have hsplit := Pipeline.arrays_of_unscopedBufs (p := 9) (pcfgs (F := F)) adm (pdats m) launch9.win launch9.arr_whole c
      ((pdats m 9 c).share_full fun _ => rfl) (asV (V20 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (asV (V20 m (outs m)) c) (asV (V21 m (outs m)) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR10.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 10 -/

set_option maxRecDepth 400000 in
set_option maxHeartbeats 2000000 in
/-- What region 10 leaves in main_v99. -/
theorem outs10_3 (c : Dev nD) : outs m 23 main_v99 c = (pdats m 10 c).arrAt 3 cfg10.N := by
  rw [outs_at10 m main_v99 c]
  unfold o10
  rw [if_pos rfl]
  rw [Function.update_self]
  show (dat10 (asV (V22 m (o9 m))) c).arrAt 3 cfg10.N = (dat10 (asV (V22 m (outs m))) c).arrAt 3 cfg10.N
  rw [Vin10]

set_option maxRecDepth 400000 in
set_option maxHeartbeats 2000000 in
/-- At region 10's exit each of its arrays holds what the pipeline leaves. -/
theorem hF10 (c : Dev nD) (w : Fin cfg10.W) : (pdats m 10 c).arrAt w cfg10.N = asV (V23 m (outs m)) c (Pipeline.arrRef spec10 w) := by
  match w with
  | ⟨0, _⟩ => exact ((pdats m 10 c).arrAt_in 0 rfl _).trans (Function.update_of_ne (show (Proc.devRef .tc main_v53 : DevRef τ sig) ≠ Proc.devRef .tc main_v99 from by decide) (outs m 23 main_v99 c) (V22 m (outs m) c)).symm
  | ⟨1, _⟩ => exact ((pdats m 10 c).arrAt_in 1 rfl _).trans (Function.update_of_ne (show (Proc.devRef .tc main_v95 : DevRef τ sig) ≠ Proc.devRef .tc main_v99 from by decide) (outs m 23 main_v99 c) (V22 m (outs m) c)).symm
  | ⟨2, _⟩ => exact ((pdats m 10 c).arrAt_in 2 rfl _).trans (Function.update_of_ne (show (Proc.devRef .tc main_v98 : DevRef τ sig) ≠ Proc.devRef .tc main_v99 from by decide) (outs m 23 main_v99 c) (V22 m (outs m) c)).symm
  | ⟨3, _⟩ => exact (outs10_3 m c).symm.trans (Function.update_self (Proc.devRef .tc main_v99 : DevRef τ sig) (outs m 23 main_v99 c) (V22 m (outs m) c)).symm

set_option maxRecDepth 400000 in
set_option maxHeartbeats 2000000 in
/-- Every other buffer holds at the exit what it held at the entry. -/
theorem hrest10 (c : Dev nD) : ∀ b, b ∉ Finset.univ.image (Pipeline.arrRef spec10) → asV (V23 m (outs m)) c b = asV (V22 m (outs m)) c b := fun b hb => by
  have h3 : (Proc.devRef .tc b : DevRef τ sig) ≠ Proc.devRef .tc main_v99 := fun e => hb (Finset.mem_image.mpr ⟨3, Finset.mem_univ _, (Proc.devRef_injective _ e).symm⟩)
  exact Function.update_of_ne h3 (outs m 23 main_v99 c) (V22 m (outs m) c)

set_option maxRecDepth 400000 in
set_option maxHeartbeats 2000000 in
set_option backward.isDefEq.respectTransparency.types false in
/-- Region 10 as a segment: entered from the buffers at the valuation before it, left at the one after it; its arrays split
    out of the buffers at entry and put back at exit; the generator register through the invariant; nothing owed. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (asV (V22 m (outs m))) c).loose
  hwaits := Pipeline.hwaits_of_owed_zero _ _ _ _ L lv 10 fun _ _ => rfl
  pre c := iprop(StableHlo.held (c : Thread nD τ) (Pipeline.ucRefs τ sig) (V22 m (outs m) c) ∗ R c)
  post c := iprop(StableHlo.held (c : Thread nD τ) (Pipeline.ucRefs τ sig) (V23 m (outs m) c) ∗ R c)
  X c := iprop(∃ r, prngReg c r)
  Y c := iprop(∃ r, prngReg c r)
  Z c := Pipeline.unscopedRest (Ix := Unit) (Name := ℕ) (U := UR sig nD τ) (Lvl := ℕ) spec10 c (asV (V22 m (outs m)) c)
  hentry c := by
    rw [Pipeline.ownSems0_none]
    have hsplit := Pipeline.arrays_of_unscopedBufs (p := 10) (pcfgs (F := F)) adm (pdats m) launch10.win launch10.arr_whole c
      ((pdats m 10 c).share_full fun _ => rfl) (asV (V22 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (asV (V22 m (outs m)) c) (asV (V23 m (outs m)) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR11.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 11 -/

set_option maxRecDepth 400000 in
set_option maxHeartbeats 2000000 in
/-- What region 11 leaves in main_v103_0. -/
theorem outs11_4 (c : Dev nD) : outs m 27 main_v103_0 c = (pdats m 11 c).arrAt 4 cfg11.N := by
  rw [outs_at11 m main_v103_0 c]
  unfold o11
  rw [if_pos rfl]
  rw [Function.update_of_ne (show (Proc.devRef .tc main_v103_0 : DevRef τ sig) ≠ Proc.devRef .tc main_v103_1 from by decide)]
  rw [Function.update_self]
  show (dat11 (asV (V26 m (o10 m))) c).arrAt 4 cfg11.N = (dat11 (asV (V26 m (outs m))) c).arrAt 4 cfg11.N
  rw [Vin11]

set_option maxRecDepth 400000 in
set_option maxHeartbeats 2000000 in
/-- What region 11 leaves in main_v103_1. -/
theorem outs11_5 (c : Dev nD) : outs m 27 main_v103_1 c = (pdats m 11 c).arrAt 5 cfg11.N := by
  rw [outs_at11 m main_v103_1 c]
  unfold o11
  rw [if_pos rfl]
  rw [Function.update_self]
  show (dat11 (asV (V26 m (o10 m))) c).arrAt 5 cfg11.N = (dat11 (asV (V26 m (outs m))) c).arrAt 5 cfg11.N
  rw [Vin11]

set_option maxRecDepth 400000 in
set_option maxHeartbeats 2000000 in
/-- At region 11's exit each of its arrays holds what the pipeline leaves. -/
theorem hF11 (c : Dev nD) (w : Fin cfg11.W) : (pdats m 11 c).arrAt w cfg11.N = asV (V27 m (outs m)) c (Pipeline.arrRef spec11 w) := by
  match w with
  | ⟨0, _⟩ => exact ((pdats m 11 c).arrAt_in 0 rfl _).trans ((Function.update_of_ne (show (Proc.devRef .tc main_v99 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v99 : DevRef τ sig) ≠ Proc.devRef .tc main_v103_0 from by decide) (outs m 27 main_v103_0 c) (V26 m (outs m) c))).symm
  | ⟨1, _⟩ => exact ((pdats m 11 c).arrAt_in 1 rfl _).trans ((Function.update_of_ne (show (Proc.devRef .tc main_v100 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v100 : DevRef τ sig) ≠ Proc.devRef .tc main_v103_0 from by decide) (outs m 27 main_v103_0 c) (V26 m (outs m) c))).symm
  | ⟨2, _⟩ => exact ((pdats m 11 c).arrAt_in 2 rfl _).trans ((Function.update_of_ne (show (Proc.devRef .tc main_v101 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v101 : DevRef τ sig) ≠ Proc.devRef .tc main_v103_0 from by decide) (outs m 27 main_v103_0 c) (V26 m (outs m) c))).symm
  | ⟨3, _⟩ => exact ((pdats m 11 c).arrAt_in 3 rfl _).trans ((Function.update_of_ne (show (Proc.devRef .tc main_v102 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v102 : DevRef τ sig) ≠ Proc.devRef .tc main_v103_0 from by decide) (outs m 27 main_v103_0 c) (V26 m (outs m) c))).symm
  | ⟨4, _⟩ => exact (outs11_4 m c).symm.trans ((Function.update_of_ne (show (Proc.devRef .tc main_v103_0 : DevRef τ sig) ≠ Proc.devRef .tc main_v103_1 from by decide) (outs m 27 main_v103_1 c) (Function.update (V26 m (outs m) c) (Proc.devRef .tc main_v103_0 : DevRef τ sig) (outs m 27 main_v103_0 c))).trans (Function.update_self (Proc.devRef .tc main_v103_0 : DevRef τ sig) (outs m 27 main_v103_0 c) (V26 m (outs m) c))).symm
  | ⟨5, _⟩ => exact (outs11_5 m c).symm.trans (Function.update_self (Proc.devRef .tc main_v103_1 : DevRef τ sig) (outs m 27 main_v103_1 c) (Function.update (V26 m (outs m) c) (Proc.devRef .tc main_v103_0 : DevRef τ sig) (outs m 27 main_v103_0 c))).symm

set_option maxRecDepth 400000 in
set_option maxHeartbeats 2000000 in
/-- Every other buffer holds at the exit what it held at the entry. -/
theorem hrest11 (c : Dev nD) : ∀ b, b ∉ Finset.univ.image (Pipeline.arrRef spec11) → asV (V27 m (outs m)) c b = asV (V26 m (outs m)) c b := fun b hb => by
  have h4 : (Proc.devRef .tc b : DevRef τ sig) ≠ Proc.devRef .tc main_v103_0 := fun e => hb (Finset.mem_image.mpr ⟨4, Finset.mem_univ _, (Proc.devRef_injective _ e).symm⟩)
  have h5 : (Proc.devRef .tc b : DevRef τ sig) ≠ Proc.devRef .tc main_v103_1 := fun e => hb (Finset.mem_image.mpr ⟨5, Finset.mem_univ _, (Proc.devRef_injective _ e).symm⟩)
  exact (Function.update_of_ne h5 (outs m 27 main_v103_1 c) (Function.update (V26 m (outs m) c) (Proc.devRef .tc main_v103_0 : DevRef τ sig) (outs m 27 main_v103_0 c))).trans (Function.update_of_ne h4 (outs m 27 main_v103_0 c) (V26 m (outs m) c))

set_option maxRecDepth 400000 in
set_option maxHeartbeats 2000000 in
set_option backward.isDefEq.respectTransparency.types false in
/-- Region 11 as a segment: entered from the buffers at the valuation before it, left at the one after it; its arrays split
    out of the buffers at entry and put back at exit; the generator register through the invariant; nothing owed. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (asV (V26 m (outs m))) c).loose
  hwaits := Pipeline.hwaits_of_owed_zero _ _ _ _ L lv 11 fun _ _ => rfl
  pre c := iprop(StableHlo.held (c : Thread nD τ) (Pipeline.ucRefs τ sig) (V26 m (outs m) c) ∗ R c)
  post c := iprop(StableHlo.held (c : Thread nD τ) (Pipeline.ucRefs τ sig) (V27 m (outs m) c) ∗ R c)
  X c := iprop(∃ r, prngReg c r)
  Y c := iprop(∃ r, prngReg c r)
  Z c := Pipeline.unscopedRest (Ix := Unit) (Name := ℕ) (U := UR sig nD τ) (Lvl := ℕ) spec11 c (asV (V26 m (outs m)) c)
  hentry c := by
    rw [Pipeline.ownSems0_none]
    have hsplit := Pipeline.arrays_of_unscopedBufs (p := 11) (pcfgs (F := F)) adm (pdats m) launch11.win launch11.arr_whole c
      ((pdats m 11 c).share_full fun _ => rfl) (asV (V26 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (asV (V26 m (outs m)) c) (asV (V27 m (outs m)) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR12.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 12 -/

set_option maxRecDepth 400000 in
set_option maxHeartbeats 2000000 in
/-- What region 12 leaves in main_v104_0. -/
theorem outs12_1 (c : Dev nD) : outs m 28 main_v104_0 c = (pdats m 12 c).arrAt 1 cfg12.N := by
  rw [outs_at12 m main_v104_0 c]
  unfold o12
  rw [if_pos rfl]
  rw [Function.update_of_ne (show (Proc.devRef .tc main_v104_0 : DevRef τ sig) ≠ Proc.devRef .tc main_v104_1 from by decide)]
  rw [Function.update_self]
  show (dat12 (asV (V27 m (o11 m))) c).arrAt 1 cfg12.N = (dat12 (asV (V27 m (outs m))) c).arrAt 1 cfg12.N
  rw [Vin12]

set_option maxRecDepth 400000 in
set_option maxHeartbeats 2000000 in
/-- What region 12 leaves in main_v104_1. -/
theorem outs12_2 (c : Dev nD) : outs m 28 main_v104_1 c = (pdats m 12 c).arrAt 2 cfg12.N := by
  rw [outs_at12 m main_v104_1 c]
  unfold o12
  rw [if_pos rfl]
  rw [Function.update_self]
  show (dat12 (asV (V27 m (o11 m))) c).arrAt 2 cfg12.N = (dat12 (asV (V27 m (outs m))) c).arrAt 2 cfg12.N
  rw [Vin12]

set_option maxRecDepth 400000 in
set_option maxHeartbeats 2000000 in
/-- At region 12's exit each of its arrays holds what the pipeline leaves. -/
theorem hF12 (c : Dev nD) (w : Fin cfg12.W) : (pdats m 12 c).arrAt w cfg12.N = asV (V28 m (outs m)) c (Pipeline.arrRef spec12 w) := by
  match w with
  | ⟨0, _⟩ => exact ((pdats m 12 c).arrAt_in 0 rfl _).trans ((Function.update_of_ne (show (Proc.devRef .tc main_v103_0 : DevRef τ sig) ≠ Proc.devRef .tc main_v104_1 from by decide) (outs m 28 main_v104_1 c) (Function.update (V27 m (outs m) c) (Proc.devRef .tc main_v104_0 : DevRef τ sig) (outs m 28 main_v104_0 c))).trans (Function.update_of_ne (show (Proc.devRef .tc main_v103_0 : DevRef τ sig) ≠ Proc.devRef .tc main_v104_0 from by decide) (outs m 28 main_v104_0 c) (V27 m (outs m) c))).symm
  | ⟨1, _⟩ => exact (outs12_1 m c).symm.trans ((Function.update_of_ne (show (Proc.devRef .tc main_v104_0 : DevRef τ sig) ≠ Proc.devRef .tc main_v104_1 from by decide) (outs m 28 main_v104_1 c) (Function.update (V27 m (outs m) c) (Proc.devRef .tc main_v104_0 : DevRef τ sig) (outs m 28 main_v104_0 c))).trans (Function.update_self (Proc.devRef .tc main_v104_0 : DevRef τ sig) (outs m 28 main_v104_0 c) (V27 m (outs m) c))).symm
  | ⟨2, _⟩ => exact (outs12_2 m c).symm.trans (Function.update_self (Proc.devRef .tc main_v104_1 : DevRef τ sig) (outs m 28 main_v104_1 c) (Function.update (V27 m (outs m) c) (Proc.devRef .tc main_v104_0 : DevRef τ sig) (outs m 28 main_v104_0 c))).symm

set_option maxRecDepth 400000 in
set_option maxHeartbeats 2000000 in
/-- Every other buffer holds at the exit what it held at the entry. -/
theorem hrest12 (c : Dev nD) : ∀ b, b ∉ Finset.univ.image (Pipeline.arrRef spec12) → asV (V28 m (outs m)) c b = asV (V27 m (outs m)) c b := fun b hb => by
  have h1 : (Proc.devRef .tc b : DevRef τ sig) ≠ Proc.devRef .tc main_v104_0 := fun e => hb (Finset.mem_image.mpr ⟨1, Finset.mem_univ _, (Proc.devRef_injective _ e).symm⟩)
  have h2 : (Proc.devRef .tc b : DevRef τ sig) ≠ Proc.devRef .tc main_v104_1 := fun e => hb (Finset.mem_image.mpr ⟨2, Finset.mem_univ _, (Proc.devRef_injective _ e).symm⟩)
  exact (Function.update_of_ne h2 (outs m 28 main_v104_1 c) (Function.update (V27 m (outs m) c) (Proc.devRef .tc main_v104_0 : DevRef τ sig) (outs m 28 main_v104_0 c))).trans (Function.update_of_ne h1 (outs m 28 main_v104_0 c) (V27 m (outs m) c))

set_option maxRecDepth 400000 in
set_option maxHeartbeats 2000000 in
set_option backward.isDefEq.respectTransparency.types false in
/-- Region 12 as a segment: entered from the buffers at the valuation before it, left at the one after it; its arrays split
    out of the buffers at entry and put back at exit; the generator register through the invariant; nothing owed. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (asV (V27 m (outs m))) c).loose
  hwaits := Pipeline.hwaits_of_owed_zero _ _ _ _ L lv 12 fun _ _ => rfl
  pre c := iprop(StableHlo.held (c : Thread nD τ) (Pipeline.ucRefs τ sig) (V27 m (outs m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec12 c (asV (V27 m (outs m)) c)
  hentry c := by
    rw [Pipeline.ownSems0_none]
    have hsplit := Pipeline.arrays_of_unscopedBufs (p := 12) (pcfgs (F := F)) adm (pdats m) launch12.win launch12.arr_whole c
      ((pdats m 12 c).share_full fun _ => rfl) (asV (V27 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat12 (asV (V27 m (outs m))) c).Φ 0
    iintro ⟨Hp, -, Hr⟩
    iapply (hin12 (asV (V27 m (outs m))) c)
    unfold X12
    isplitl [Hp]; · iexact Hp
    iexact Hr
  hout c := by
    rw [Pipeline.ownSems0_none]
    exact (hout12 (asV (V27 m (outs m))) c).trans (by
      unfold X12
      iintro ⟨Hp, Hr⟩
      isplitl [Hp]; · iexact Hp
      isplitr; · iempintro
      iexact Hr)
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (asV (V27 m (outs m)) c) (asV (V28 m (outs m)) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR13.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 13 -/

set_option maxRecDepth 400000 in
set_option maxHeartbeats 2000000 in
/-- What region 13 leaves in main_v111. -/
theorem outs13_6 (c : Dev nD) : outs m 30 main_v111 c = (pdats m 13 c).arrAt 6 cfg13.N := by
  rw [outs_at13 m main_v111 c]
  unfold o13
  rw [if_pos rfl]
  rw [Function.update_self]
  show (dat13 (asV (V29 m (o12 m))) c).arrAt 6 cfg13.N = (dat13 (asV (V29 m (outs m))) c).arrAt 6 cfg13.N
  rw [Vin13]

set_option maxRecDepth 400000 in
set_option maxHeartbeats 2000000 in
/-- At region 13's exit each of its arrays holds what the pipeline leaves. -/
theorem hF13 (c : Dev nD) (w : Fin cfg13.W) : (pdats m 13 c).arrAt w cfg13.N = asV (V30 m (outs m)) c (Pipeline.arrRef spec13 w) := by
  match w with
  | ⟨0, _⟩ => exact ((pdats m 13 c).arrAt_in 0 rfl _).trans (Function.update_of_ne (show (Proc.devRef .tc main_v103_0 : DevRef τ sig) ≠ Proc.devRef .tc main_v111 from by decide) (outs m 30 main_v111 c) (V29 m (outs m) c)).symm
  | ⟨1, _⟩ => exact ((pdats m 13 c).arrAt_in 1 rfl _).trans (Function.update_of_ne (show (Proc.devRef .tc main_v53 : DevRef τ sig) ≠ Proc.devRef .tc main_v111 from by decide) (outs m 30 main_v111 c) (V29 m (outs m) c)).symm
  | ⟨2, _⟩ => exact ((pdats m 13 c).arrAt_in 2 rfl _).trans (Function.update_of_ne (show (Proc.devRef .tc main_v104_0 : DevRef τ sig) ≠ Proc.devRef .tc main_v111 from by decide) (outs m 30 main_v111 c) (V29 m (outs m) c)).symm
  | ⟨3, _⟩ => exact ((pdats m 13 c).arrAt_in 3 rfl _).trans (Function.update_of_ne (show (Proc.devRef .tc main_v104_1 : DevRef τ sig) ≠ Proc.devRef .tc main_v111 from by decide) (outs m 30 main_v111 c) (V29 m (outs m) c)).symm
  | ⟨4, _⟩ => exact ((pdats m 13 c).arrAt_in 4 rfl _).trans (Function.update_of_ne (show (Proc.devRef .tc main_v107 : DevRef τ sig) ≠ Proc.devRef .tc main_v111 from by decide) (outs m 30 main_v111 c) (V29 m (outs m) c)).symm
  | ⟨5, _⟩ => exact ((pdats m 13 c).arrAt_in 5 rfl _).trans (Function.update_of_ne (show (Proc.devRef .tc main_v110 : DevRef τ sig) ≠ Proc.devRef .tc main_v111 from by decide) (outs m 30 main_v111 c) (V29 m (outs m) c)).symm
  | ⟨6, _⟩ => exact (outs13_6 m c).symm.trans (Function.update_self (Proc.devRef .tc main_v111 : DevRef τ sig) (outs m 30 main_v111 c) (V29 m (outs m) c)).symm

set_option maxRecDepth 400000 in
set_option maxHeartbeats 2000000 in
/-- Every other buffer holds at the exit what it held at the entry. -/
theorem hrest13 (c : Dev nD) : ∀ b, b ∉ Finset.univ.image (Pipeline.arrRef spec13) → asV (V30 m (outs m)) c b = asV (V29 m (outs m)) c b := fun b hb => by
  have h6 : (Proc.devRef .tc b : DevRef τ sig) ≠ Proc.devRef .tc main_v111 := fun e => hb (Finset.mem_image.mpr ⟨6, Finset.mem_univ _, (Proc.devRef_injective _ e).symm⟩)
  exact Function.update_of_ne h6 (outs m 30 main_v111 c) (V29 m (outs m) c)

set_option maxRecDepth 400000 in
set_option maxHeartbeats 2000000 in
set_option backward.isDefEq.respectTransparency.types false in
/-- Region 13 as a segment: entered from the buffers at the valuation before it, left at the one after it; its arrays split
    out of the buffers at entry and put back at exit; the generator register through the invariant; nothing owed. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (asV (V29 m (outs m))) c).loose
  hwaits := Pipeline.hwaits_of_owed_zero _ _ _ _ L lv 13 fun _ _ => rfl
  pre c := iprop(StableHlo.held (c : Thread nD τ) (Pipeline.ucRefs τ sig) (V29 m (outs m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec13 c (asV (V29 m (outs m)) c)
  hentry c := by
    rw [Pipeline.ownSems0_none]
    have hsplit := Pipeline.arrays_of_unscopedBufs (p := 13) (pcfgs (F := F)) adm (pdats m) launch13.win launch13.arr_whole c
      ((pdats m 13 c).share_full fun _ => rfl) (asV (V29 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (asV (V29 m (outs m)) c) (asV (V30 m (outs m)) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR14.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 14 -/

set_option maxRecDepth 400000 in
set_option maxHeartbeats 2000000 in
/-- What region 14 leaves in main_v116_0. -/
theorem outs14_1 (c : Dev nD) : outs m 32 main_v116_0 c = (pdats m 14 c).arrAt 1 cfg14.N := by
  rw [outs_at14 m main_v116_0 c]
  unfold o14
  rw [if_pos rfl]
  rw [Function.update_of_ne (show (Proc.devRef .tc main_v116_0 : DevRef τ sig) ≠ Proc.devRef .tc main_v116_1 from by decide)]
  rw [Function.update_self]
  show (dat14 (asV (V31 m (o13 m))) c).arrAt 1 cfg14.N = (dat14 (asV (V31 m (outs m))) c).arrAt 1 cfg14.N
  rw [Vin14]

set_option maxRecDepth 400000 in
set_option maxHeartbeats 2000000 in
/-- What region 14 leaves in main_v116_1. -/
theorem outs14_2 (c : Dev nD) : outs m 32 main_v116_1 c = (pdats m 14 c).arrAt 2 cfg14.N := by
  rw [outs_at14 m main_v116_1 c]
  unfold o14
  rw [if_pos rfl]
  rw [Function.update_self]
  show (dat14 (asV (V31 m (o13 m))) c).arrAt 2 cfg14.N = (dat14 (asV (V31 m (outs m))) c).arrAt 2 cfg14.N
  rw [Vin14]

set_option maxRecDepth 400000 in
set_option maxHeartbeats 2000000 in
/-- At region 14's exit each of its arrays holds what the pipeline leaves. -/
theorem hF14 (c : Dev nD) (w : Fin cfg14.W) : (pdats m 14 c).arrAt w cfg14.N = asV (V32 m (outs m)) c (Pipeline.arrRef spec14 w) := by
  match w with
  | ⟨0, _⟩ => exact ((pdats m 14 c).arrAt_in 0 rfl _).trans ((Function.update_of_ne (show (Proc.devRef .tc main_v115 : DevRef τ sig) ≠ Proc.devRef .tc main_v116_1 from by decide) (outs m 32 main_v116_1 c) (Function.update (V31 m (outs m) c) (Proc.devRef .tc main_v116_0 : DevRef τ sig) (outs m 32 main_v116_0 c))).trans (Function.update_of_ne (show (Proc.devRef .tc main_v115 : DevRef τ sig) ≠ Proc.devRef .tc main_v116_0 from by decide) (outs m 32 main_v116_0 c) (V31 m (outs m) c))).symm
  | ⟨1, _⟩ => exact (outs14_1 m c).symm.trans ((Function.update_of_ne (show (Proc.devRef .tc main_v116_0 : DevRef τ sig) ≠ Proc.devRef .tc main_v116_1 from by decide) (outs m 32 main_v116_1 c) (Function.update (V31 m (outs m) c) (Proc.devRef .tc main_v116_0 : DevRef τ sig) (outs m 32 main_v116_0 c))).trans (Function.update_self (Proc.devRef .tc main_v116_0 : DevRef τ sig) (outs m 32 main_v116_0 c) (V31 m (outs m) c))).symm
  | ⟨2, _⟩ => exact (outs14_2 m c).symm.trans (Function.update_self (Proc.devRef .tc main_v116_1 : DevRef τ sig) (outs m 32 main_v116_1 c) (Function.update (V31 m (outs m) c) (Proc.devRef .tc main_v116_0 : DevRef τ sig) (outs m 32 main_v116_0 c))).symm

set_option maxRecDepth 400000 in
set_option maxHeartbeats 2000000 in
/-- Every other buffer holds at the exit what it held at the entry. -/
theorem hrest14 (c : Dev nD) : ∀ b, b ∉ Finset.univ.image (Pipeline.arrRef spec14) → asV (V32 m (outs m)) c b = asV (V31 m (outs m)) c b := fun b hb => by
  have h1 : (Proc.devRef .tc b : DevRef τ sig) ≠ Proc.devRef .tc main_v116_0 := fun e => hb (Finset.mem_image.mpr ⟨1, Finset.mem_univ _, (Proc.devRef_injective _ e).symm⟩)
  have h2 : (Proc.devRef .tc b : DevRef τ sig) ≠ Proc.devRef .tc main_v116_1 := fun e => hb (Finset.mem_image.mpr ⟨2, Finset.mem_univ _, (Proc.devRef_injective _ e).symm⟩)
  exact (Function.update_of_ne h2 (outs m 32 main_v116_1 c) (Function.update (V31 m (outs m) c) (Proc.devRef .tc main_v116_0 : DevRef τ sig) (outs m 32 main_v116_0 c))).trans (Function.update_of_ne h1 (outs m 32 main_v116_0 c) (V31 m (outs m) c))

set_option maxRecDepth 400000 in
set_option maxHeartbeats 2000000 in
set_option backward.isDefEq.respectTransparency.types false in
/-- Region 14 as a segment: entered from the buffers at the valuation before it, left at the one after it; its arrays split
    out of the buffers at entry and put back at exit; the generator register through the invariant; nothing owed. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (asV (V31 m (outs m))) c).loose
  hwaits := Pipeline.hwaits_of_owed_zero _ _ _ _ L lv 14 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec14 c (asV (V31 m (outs m)) c)
  hentry c := by
    rw [Pipeline.ownSems0_none]
    have hsplit := Pipeline.arrays_of_unscopedBufs (p := 14) (pcfgs (F := F)) adm (pdats m) launch14.win launch14.arr_whole c
      ((pdats m 14 c).share_full fun _ => rfl) (asV (V31 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat14 (asV (V31 m (outs m))) c).Φ 0
    iintro ⟨Hp, -, Hr⟩
    iapply (hin14 (asV (V31 m (outs m))) c)
    unfold X14
    isplitl [Hp]; · iexact Hp
    iexact Hr
  hout c := by
    rw [Pipeline.ownSems0_none]
    exact (hout14 (asV (V31 m (outs m))) c).trans (by
      unfold X14
      iintro ⟨Hp, Hr⟩
      isplitl [Hp]; · iexact Hp
      isplitr; · iempintro
      iexact Hr)
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (asV (V31 m (outs m)) c) (asV (V32 m (outs m)) c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR15.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 15 -/

set_option maxRecDepth 400000 in
set_option maxHeartbeats 2000000 in
/-- What region 15 leaves in main_v123. -/
theorem outs15_6 (c : Dev nD) : outs m 34 main_v123 c = (pdats m 15 c).arrAt 6 cfg15.N := by
  rw [outs_at15 m main_v123 c]
  unfold o15
  rw [if_pos rfl]
  rw [Function.update_self]
  show (dat15 (asV (V33 m (o14 m))) c).arrAt 6 cfg15.N = (dat15 (asV (V33 m (outs m))) c).arrAt 6 cfg15.N
  rw [Vin15]

set_option maxRecDepth 400000 in
set_option maxHeartbeats 2000000 in
/-- At region 15's exit each of its arrays holds what the pipeline leaves. -/
theorem hF15 (c : Dev nD) (w : Fin cfg15.W) : (pdats m 15 c).arrAt w cfg15.N = asV (V34 m (outs m)) c (Pipeline.arrRef spec15 w) := by
  match w with
  | ⟨0, _⟩ => exact ((pdats m 15 c).arrAt_in 0 rfl _).trans (Function.update_of_ne (show (Proc.devRef .tc main_v115 : DevRef τ sig) ≠ Proc.devRef .tc main_v123 from by decide) (outs m 34 main_v123 c) (V33 m (outs m) c)).symm
  | ⟨1, _⟩ => exact ((pdats m 15 c).arrAt_in 1 rfl _).trans (Function.update_of_ne (show (Proc.devRef .tc main_v65 : DevRef τ sig) ≠ Proc.devRef .tc main_v123 from by decide) (outs m 34 main_v123 c) (V33 m (outs m) c)).symm
  | ⟨2, _⟩ => exact ((pdats m 15 c).arrAt_in 2 rfl _).trans (Function.update_of_ne (show (Proc.devRef .tc main_v116_0 : DevRef τ sig) ≠ Proc.devRef .tc main_v123 from by decide) (outs m 34 main_v123 c) (V33 m (outs m) c)).symm
  | ⟨3, _⟩ => exact ((pdats m 15 c).arrAt_in 3 rfl _).trans (Function.update_of_ne (show (Proc.devRef .tc main_v116_1 : DevRef τ sig) ≠ Proc.devRef .tc main_v123 from by decide) (outs m 34 main_v123 c) (V33 m (outs m) c)).symm
  | ⟨4, _⟩ => exact ((pdats m 15 c).arrAt_in 4 rfl _).trans (Function.update_of_ne (show (Proc.devRef .tc main_v119 : DevRef τ sig) ≠ Proc.devRef .tc main_v123 from by decide) (outs m 34 main_v123 c) (V33 m (outs m) c)).symm
  | ⟨5, _⟩ => exact ((pdats m 15 c).arrAt_in 5 rfl _).trans (Function.update_of_ne (show (Proc.devRef .tc main_v122 : DevRef τ sig) ≠ Proc.devRef .tc main_v123 from by decide) (outs m 34 main_v123 c) (V33 m (outs m) c)).symm
  | ⟨6, _⟩ => exact (outs15_6 m c).symm.trans (Function.update_self (Proc.devRef .tc main_v123 : DevRef τ sig) (outs m 34 main_v123 c) (V33 m (outs m) c)).symm

set_option maxRecDepth 400000 in
set_option maxHeartbeats 2000000 in
/-- Every other buffer holds at the exit what it held at the entry. -/
theorem hrest15 (c : Dev nD) : ∀ b, b ∉ Finset.univ.image (Pipeline.arrRef spec15) → asV (V34 m (outs m)) c b = asV (V33 m (outs m)) c b := fun b hb => by
  have h6 : (Proc.devRef .tc b : DevRef τ sig) ≠ Proc.devRef .tc main_v123 := fun e => hb (Finset.mem_image.mpr ⟨6, Finset.mem_univ _, (Proc.devRef_injective _ e).symm⟩)
  exact Function.update_of_ne h6 (outs m 34 main_v123 c) (V33 m (outs m) c)

set_option maxRecDepth 400000 in
set_option maxHeartbeats 2000000 in
set_option backward.isDefEq.respectTransparency.types false in
/-- Region 15 as a segment: entered from the buffers at the valuation before it, left at the one after it; its arrays split
    out of the buffers at entry and put back at exit; the generator register through the invariant; nothing owed. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (asV (V33 m (outs m))) c).loose
  hwaits := Pipeline.hwaits_of_owed_zero _ _ _ _ L lv 15 fun _ _ => rfl
  pre c := iprop(StableHlo.held (c : Thread nD τ) (Pipeline.ucRefs τ sig) (V33 m (outs m) c) ∗ R c)
  post c := iprop(StableHlo.held (c : Thread nD τ) (Pipeline.ucRefs τ sig) (V34 m (outs m) c) ∗ R c)
  X c := iprop(∃ r, prngReg c r)
  Y c := iprop(∃ r, prngReg c r)
  Z c := Pipeline.unscopedRest (Ix := Unit) (Name := ℕ) (U := UR sig nD τ) (Lvl := ℕ) spec15 c (asV (V33 m (outs m)) c)
  hentry c := by
    rw [Pipeline.ownSems0_none]
    have hsplit := Pipeline.arrays_of_unscopedBufs (p := 15) (pcfgs (F := F)) adm (pdats m) launch15.win launch15.arr_whole c
      ((pdats m 15 c).share_full fun _ => rfl) (asV (V33 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (asV (V33 m (outs m)) c) (asV (V34 m (outs m)) c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR16.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 16 -/

set_option maxRecDepth 400000 in
set_option maxHeartbeats 2000000 in
/-- What region 16 leaves in main_v147. -/
theorem outs16_3 (c : Dev nD) : outs m 36 main_v147 c = (pdats m 16 c).arrAt 3 cfg16.N := by
  rw [outs_at16 m main_v147 c]
  unfold o16
  rw [if_pos rfl]
  rw [Function.update_self]
  show (dat16 (asV (V35 m (o15 m))) c).arrAt 3 cfg16.N = (dat16 (asV (V35 m (outs m))) c).arrAt 3 cfg16.N
  rw [Vin16]

set_option maxRecDepth 400000 in
set_option maxHeartbeats 2000000 in
/-- At region 16's exit each of its arrays holds what the pipeline leaves. -/
theorem hF16 (c : Dev nD) (w : Fin cfg16.W) : (pdats m 16 c).arrAt w cfg16.N = asV (V36 m (outs m)) c (Pipeline.arrRef spec16 w) := by
  match w with
  | ⟨0, _⟩ => exact ((pdats m 16 c).arrAt_in 0 rfl _).trans (Function.update_of_ne (show (Proc.devRef .tc main_v123 : DevRef τ sig) ≠ Proc.devRef .tc main_v147 from by decide) (outs m 36 main_v147 c) (V35 m (outs m) c)).symm
  | ⟨1, _⟩ => exact ((pdats m 16 c).arrAt_in 1 rfl _).trans (Function.update_of_ne (show (Proc.devRef .tc main_v136 : DevRef τ sig) ≠ Proc.devRef .tc main_v147 from by decide) (outs m 36 main_v147 c) (V35 m (outs m) c)).symm
  | ⟨2, _⟩ => exact ((pdats m 16 c).arrAt_in 2 rfl _).trans (Function.update_of_ne (show (Proc.devRef .tc main_v146 : DevRef τ sig) ≠ Proc.devRef .tc main_v147 from by decide) (outs m 36 main_v147 c) (V35 m (outs m) c)).symm
  | ⟨3, _⟩ => exact (outs16_3 m c).symm.trans (Function.update_self (Proc.devRef .tc main_v147 : DevRef τ sig) (outs m 36 main_v147 c) (V35 m (outs m) c)).symm

set_option maxRecDepth 400000 in
set_option maxHeartbeats 2000000 in
/-- Every other buffer holds at the exit what it held at the entry. -/
theorem hrest16 (c : Dev nD) : ∀ b, b ∉ Finset.univ.image (Pipeline.arrRef spec16) → asV (V36 m (outs m)) c b = asV (V35 m (outs m)) c b := fun b hb => by
  have h3 : (Proc.devRef .tc b : DevRef τ sig) ≠ Proc.devRef .tc main_v147 := fun e => hb (Finset.mem_image.mpr ⟨3, Finset.mem_univ _, (Proc.devRef_injective _ e).symm⟩)
  exact Function.update_of_ne h3 (outs m 36 main_v147 c) (V35 m (outs m) c)

set_option maxRecDepth 400000 in
set_option maxHeartbeats 2000000 in
set_option backward.isDefEq.respectTransparency.types false in
/-- Region 16 as a segment: entered from the buffers at the valuation before it, left at the one after it; its arrays split
    out of the buffers at entry and put back at exit; the generator register through the invariant; nothing owed. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (asV (V35 m (outs m))) c).loose
  hwaits := Pipeline.hwaits_of_owed_zero _ _ _ _ L lv 16 fun _ _ => rfl
  pre c := iprop(StableHlo.held (c : Thread nD τ) (Pipeline.ucRefs τ sig) (V35 m (outs m) c) ∗ R c)
  post c := iprop(StableHlo.held (c : Thread nD τ) (Pipeline.ucRefs τ sig) (V36 m (outs m) c) ∗ R c)
  X c := iprop(∃ r, prngReg c r)
  Y c := iprop(∃ r, prngReg c r)
  Z c := Pipeline.unscopedRest (Ix := Unit) (Name := ℕ) (U := UR sig nD τ) (Lvl := ℕ) spec16 c (asV (V35 m (outs m)) c)
  hentry c := by
    rw [Pipeline.ownSems0_none]
    have hsplit := Pipeline.arrays_of_unscopedBufs (p := 16) (pcfgs (F := F)) adm (pdats m) launch16.win launch16.arr_whole c
      ((pdats m 16 c).share_full fun _ => rfl) (asV (V35 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (asV (V35 m (outs m)) c) (asV (V36 m (outs m)) c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR17.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 17 -/

set_option maxRecDepth 400000 in
set_option maxHeartbeats 2000000 in
/-- What region 17 leaves in main_v157. -/
theorem outs17_3 (c : Dev nD) : outs m 38 main_v157 c = (pdats m 17 c).arrAt 3 cfg17.N := by
  rw [outs_at17 m main_v157 c]
  unfold o17
  rw [if_pos rfl]
  rw [Function.update_self]
  show (dat17 (asV (V37 m (o16 m))) c).arrAt 3 cfg17.N = (dat17 (asV (V37 m (outs m))) c).arrAt 3 cfg17.N
  rw [Vin17]

set_option maxRecDepth 400000 in
set_option maxHeartbeats 2000000 in
/-- At region 17's exit each of its arrays holds what the pipeline leaves. -/
theorem hF17 (c : Dev nD) (w : Fin cfg17.W) : (pdats m 17 c).arrAt w cfg17.N = asV (V38 m (outs m)) c (Pipeline.arrRef spec17 w) := by
  match w with
  | ⟨0, _⟩ => exact ((pdats m 17 c).arrAt_in 0 rfl _).trans (Function.update_of_ne (show (Proc.devRef .tc main_v111 : DevRef τ sig) ≠ Proc.devRef .tc main_v157 from by decide) (outs m 38 main_v157 c) (V37 m (outs m) c)).symm
  | ⟨1, _⟩ => exact ((pdats m 17 c).arrAt_in 1 rfl _).trans (Function.update_of_ne (show (Proc.devRef .tc main_v153 : DevRef τ sig) ≠ Proc.devRef .tc main_v157 from by decide) (outs m 38 main_v157 c) (V37 m (outs m) c)).symm
  | ⟨2, _⟩ => exact ((pdats m 17 c).arrAt_in 2 rfl _).trans (Function.update_of_ne (show (Proc.devRef .tc main_v156 : DevRef τ sig) ≠ Proc.devRef .tc main_v157 from by decide) (outs m 38 main_v157 c) (V37 m (outs m) c)).symm
  | ⟨3, _⟩ => exact (outs17_3 m c).symm.trans (Function.update_self (Proc.devRef .tc main_v157 : DevRef τ sig) (outs m 38 main_v157 c) (V37 m (outs m) c)).symm

set_option maxRecDepth 400000 in
set_option maxHeartbeats 2000000 in
/-- Every other buffer holds at the exit what it held at the entry. -/
theorem hrest17 (c : Dev nD) : ∀ b, b ∉ Finset.univ.image (Pipeline.arrRef spec17) → asV (V38 m (outs m)) c b = asV (V37 m (outs m)) c b := fun b hb => by
  have h3 : (Proc.devRef .tc b : DevRef τ sig) ≠ Proc.devRef .tc main_v157 := fun e => hb (Finset.mem_image.mpr ⟨3, Finset.mem_univ _, (Proc.devRef_injective _ e).symm⟩)
  exact Function.update_of_ne h3 (outs m 38 main_v157 c) (V37 m (outs m) c)

set_option maxRecDepth 400000 in
set_option maxHeartbeats 2000000 in
set_option backward.isDefEq.respectTransparency.types false in
/-- Region 17 as a segment: entered from the buffers at the valuation before it, left at the one after it; its arrays split
    out of the buffers at entry and put back at exit; the generator register through the invariant; nothing owed. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (asV (V37 m (outs m))) c).loose
  hwaits := Pipeline.hwaits_of_owed_zero _ _ _ _ L lv 17 fun _ _ => rfl
  pre c := iprop(StableHlo.held (c : Thread nD τ) (Pipeline.ucRefs τ sig) (V37 m (outs m) c) ∗ R c)
  post c := iprop(StableHlo.held (c : Thread nD τ) (Pipeline.ucRefs τ sig) (V38 m (outs m) c) ∗ R c)
  X c := iprop(∃ r, prngReg c r)
  Y c := iprop(∃ r, prngReg c r)
  Z c := Pipeline.unscopedRest (Ix := Unit) (Name := ℕ) (U := UR sig nD τ) (Lvl := ℕ) spec17 c (asV (V37 m (outs m)) c)
  hentry c := by
    rw [Pipeline.ownSems0_none]
    have hsplit := Pipeline.arrays_of_unscopedBufs (p := 17) (pcfgs (F := F)) adm (pdats m) launch17.win launch17.arr_whole c
      ((pdats m 17 c).share_full fun _ => rfl) (asV (V37 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (asV (V37 m (outs m)) c) (asV (V38 m (outs m)) c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR18.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 18 -/

set_option maxRecDepth 400000 in
set_option maxHeartbeats 2000000 in
/-- What region 18 leaves in main_v161_0. -/
theorem outs18_4 (c : Dev nD) : outs m 42 main_v161_0 c = (pdats m 18 c).arrAt 4 cfg18.N := by
  rw [outs_at18 m main_v161_0 c]
  unfold o18
  rw [if_pos rfl]
  rw [Function.update_of_ne (show (Proc.devRef .tc main_v161_0 : DevRef τ sig) ≠ Proc.devRef .tc main_v161_1 from by decide)]
  rw [Function.update_self]
  show (dat18 (asV (V41 m (o17 m))) c).arrAt 4 cfg18.N = (dat18 (asV (V41 m (outs m))) c).arrAt 4 cfg18.N
  rw [Vin18]

set_option maxRecDepth 400000 in
set_option maxHeartbeats 2000000 in
/-- What region 18 leaves in main_v161_1. -/
theorem outs18_5 (c : Dev nD) : outs m 42 main_v161_1 c = (pdats m 18 c).arrAt 5 cfg18.N := by
  rw [outs_at18 m main_v161_1 c]
  unfold o18
  rw [if_pos rfl]
  rw [Function.update_self]
  show (dat18 (asV (V41 m (o17 m))) c).arrAt 5 cfg18.N = (dat18 (asV (V41 m (outs m))) c).arrAt 5 cfg18.N
  rw [Vin18]

set_option maxRecDepth 400000 in
set_option maxHeartbeats 2000000 in
/-- At region 18's exit each of its arrays holds what the pipeline leaves. -/
theorem hF18 (c : Dev nD) (w : Fin cfg18.W) : (pdats m 18 c).arrAt w cfg18.N = asV (V42 m (outs m)) c (Pipeline.arrRef spec18 w) := by
  match w with
  | ⟨0, _⟩ => exact ((pdats m 18 c).arrAt_in 0 rfl _).trans ((Function.update_of_ne (show (Proc.devRef .tc main_v157 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v157 : DevRef τ sig) ≠ Proc.devRef .tc main_v161_0 from by decide) (outs m 42 main_v161_0 c) (V41 m (outs m) c))).symm
  | ⟨1, _⟩ => exact ((pdats m 18 c).arrAt_in 1 rfl _).trans ((Function.update_of_ne (show (Proc.devRef .tc main_v158 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v158 : DevRef τ sig) ≠ Proc.devRef .tc main_v161_0 from by decide) (outs m 42 main_v161_0 c) (V41 m (outs m) c))).symm
  | ⟨2, _⟩ => exact ((pdats m 18 c).arrAt_in 2 rfl _).trans ((Function.update_of_ne (show (Proc.devRef .tc main_v159 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v159 : DevRef τ sig) ≠ Proc.devRef .tc main_v161_0 from by decide) (outs m 42 main_v161_0 c) (V41 m (outs m) c))).symm
  | ⟨3, _⟩ => exact ((pdats m 18 c).arrAt_in 3 rfl _).trans ((Function.update_of_ne (show (Proc.devRef .tc main_v160 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v160 : DevRef τ sig) ≠ Proc.devRef .tc main_v161_0 from by decide) (outs m 42 main_v161_0 c) (V41 m (outs m) c))).symm
  | ⟨4, _⟩ => exact (outs18_4 m c).symm.trans ((Function.update_of_ne (show (Proc.devRef .tc main_v161_0 : DevRef τ sig) ≠ Proc.devRef .tc main_v161_1 from by decide) (outs m 42 main_v161_1 c) (Function.update (V41 m (outs m) c) (Proc.devRef .tc main_v161_0 : DevRef τ sig) (outs m 42 main_v161_0 c))).trans (Function.update_self (Proc.devRef .tc main_v161_0 : DevRef τ sig) (outs m 42 main_v161_0 c) (V41 m (outs m) c))).symm
  | ⟨5, _⟩ => exact (outs18_5 m c).symm.trans (Function.update_self (Proc.devRef .tc main_v161_1 : DevRef τ sig) (outs m 42 main_v161_1 c) (Function.update (V41 m (outs m) c) (Proc.devRef .tc main_v161_0 : DevRef τ sig) (outs m 42 main_v161_0 c))).symm

set_option maxRecDepth 400000 in
set_option maxHeartbeats 2000000 in
/-- Every other buffer holds at the exit what it held at the entry. -/
theorem hrest18 (c : Dev nD) : ∀ b, b ∉ Finset.univ.image (Pipeline.arrRef spec18) → asV (V42 m (outs m)) c b = asV (V41 m (outs m)) c b := fun b hb => by
  have h4 : (Proc.devRef .tc b : DevRef τ sig) ≠ Proc.devRef .tc main_v161_0 := fun e => hb (Finset.mem_image.mpr ⟨4, Finset.mem_univ _, (Proc.devRef_injective _ e).symm⟩)
  have h5 : (Proc.devRef .tc b : DevRef τ sig) ≠ Proc.devRef .tc main_v161_1 := fun e => hb (Finset.mem_image.mpr ⟨5, Finset.mem_univ _, (Proc.devRef_injective _ e).symm⟩)
  exact (Function.update_of_ne h5 (outs m 42 main_v161_1 c) (Function.update (V41 m (outs m) c) (Proc.devRef .tc main_v161_0 : DevRef τ sig) (outs m 42 main_v161_0 c))).trans (Function.update_of_ne h4 (outs m 42 main_v161_0 c) (V41 m (outs m) c))

set_option maxRecDepth 400000 in
set_option maxHeartbeats 2000000 in
set_option backward.isDefEq.respectTransparency.types false in
/-- Region 18 as a segment: entered from the buffers at the valuation before it, left at the one after it; its arrays split
    out of the buffers at entry and put back at exit; the generator register through the invariant; nothing owed. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (asV (V41 m (outs m))) c).loose
  hwaits := Pipeline.hwaits_of_owed_zero _ _ _ _ L lv 18 fun _ _ => rfl
  pre c := iprop(StableHlo.held (c : Thread nD τ) (Pipeline.ucRefs τ sig) (V41 m (outs m) c) ∗ R c)
  post c := iprop(StableHlo.held (c : Thread nD τ) (Pipeline.ucRefs τ sig) (V42 m (outs m) c) ∗ R c)
  X c := iprop(∃ r, prngReg c r)
  Y c := iprop(∃ r, prngReg c r)
  Z c := Pipeline.unscopedRest (Ix := Unit) (Name := ℕ) (U := UR sig nD τ) (Lvl := ℕ) spec18 c (asV (V41 m (outs m)) c)
  hentry c := by
    rw [Pipeline.ownSems0_none]
    have hsplit := Pipeline.arrays_of_unscopedBufs (p := 18) (pcfgs (F := F)) adm (pdats m) launch18.win launch18.arr_whole c
      ((pdats m 18 c).share_full fun _ => rfl) (asV (V41 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (asV (V41 m (outs m)) c) (asV (V42 m (outs m)) c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR19.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 19 -/

set_option maxRecDepth 400000 in
set_option maxHeartbeats 2000000 in
/-- What region 19 leaves in main_v162_0. -/
theorem outs19_1 (c : Dev nD) : outs m 43 main_v162_0 c = (pdats m 19 c).arrAt 1 cfg19.N := by
  rw [outs_at19 m main_v162_0 c]
  unfold o19
  rw [if_pos rfl]
  rw [Function.update_of_ne (show (Proc.devRef .tc main_v162_0 : DevRef τ sig) ≠ Proc.devRef .tc main_v162_1 from by decide)]
  rw [Function.update_self]
  show (dat19 (asV (V42 m (o18 m))) c).arrAt 1 cfg19.N = (dat19 (asV (V42 m (outs m))) c).arrAt 1 cfg19.N
  rw [Vin19]

set_option maxRecDepth 400000 in
set_option maxHeartbeats 2000000 in
/-- What region 19 leaves in main_v162_1. -/
theorem outs19_2 (c : Dev nD) : outs m 43 main_v162_1 c = (pdats m 19 c).arrAt 2 cfg19.N := by
  rw [outs_at19 m main_v162_1 c]
  unfold o19
  rw [if_pos rfl]
  rw [Function.update_self]
  show (dat19 (asV (V42 m (o18 m))) c).arrAt 2 cfg19.N = (dat19 (asV (V42 m (outs m))) c).arrAt 2 cfg19.N
  rw [Vin19]

set_option maxRecDepth 400000 in
set_option maxHeartbeats 2000000 in
/-- At region 19's exit each of its arrays holds what the pipeline leaves. -/
theorem hF19 (c : Dev nD) (w : Fin cfg19.W) : (pdats m 19 c).arrAt w cfg19.N = asV (V43 m (outs m)) c (Pipeline.arrRef spec19 w) := by
  match w with
  | ⟨0, _⟩ => exact ((pdats m 19 c).arrAt_in 0 rfl _).trans ((Function.update_of_ne (show (Proc.devRef .tc main_v161_0 : DevRef τ sig) ≠ Proc.devRef .tc main_v162_1 from by decide) (outs m 43 main_v162_1 c) (Function.update (V42 m (outs m) c) (Proc.devRef .tc main_v162_0 : DevRef τ sig) (outs m 43 main_v162_0 c))).trans (Function.update_of_ne (show (Proc.devRef .tc main_v161_0 : DevRef τ sig) ≠ Proc.devRef .tc main_v162_0 from by decide) (outs m 43 main_v162_0 c) (V42 m (outs m) c))).symm
  | ⟨1, _⟩ => exact (outs19_1 m c).symm.trans ((Function.update_of_ne (show (Proc.devRef .tc main_v162_0 : DevRef τ sig) ≠ Proc.devRef .tc main_v162_1 from by decide) (outs m 43 main_v162_1 c) (Function.update (V42 m (outs m) c) (Proc.devRef .tc main_v162_0 : DevRef τ sig) (outs m 43 main_v162_0 c))).trans (Function.update_self (Proc.devRef .tc main_v162_0 : DevRef τ sig) (outs m 43 main_v162_0 c) (V42 m (outs m) c))).symm
  | ⟨2, _⟩ => exact (outs19_2 m c).symm.trans (Function.update_self (Proc.devRef .tc main_v162_1 : DevRef τ sig) (outs m 43 main_v162_1 c) (Function.update (V42 m (outs m) c) (Proc.devRef .tc main_v162_0 : DevRef τ sig) (outs m 43 main_v162_0 c))).symm

set_option maxRecDepth 400000 in
set_option maxHeartbeats 2000000 in
/-- Every other buffer holds at the exit what it held at the entry. -/
theorem hrest19 (c : Dev nD) : ∀ b, b ∉ Finset.univ.image (Pipeline.arrRef spec19) → asV (V43 m (outs m)) c b = asV (V42 m (outs m)) c b := fun b hb => by
  have h1 : (Proc.devRef .tc b : DevRef τ sig) ≠ Proc.devRef .tc main_v162_0 := fun e => hb (Finset.mem_image.mpr ⟨1, Finset.mem_univ _, (Proc.devRef_injective _ e).symm⟩)
  have h2 : (Proc.devRef .tc b : DevRef τ sig) ≠ Proc.devRef .tc main_v162_1 := fun e => hb (Finset.mem_image.mpr ⟨2, Finset.mem_univ _, (Proc.devRef_injective _ e).symm⟩)
  exact (Function.update_of_ne h2 (outs m 43 main_v162_1 c) (Function.update (V42 m (outs m) c) (Proc.devRef .tc main_v162_0 : DevRef τ sig) (outs m 43 main_v162_0 c))).trans (Function.update_of_ne h1 (outs m 43 main_v162_0 c) (V42 m (outs m) c))

set_option maxRecDepth 400000 in
set_option maxHeartbeats 2000000 in
set_option backward.isDefEq.respectTransparency.types false in
/-- Region 19 as a segment: entered from the buffers at the valuation before it, left at the one after it; its arrays split
    out of the buffers at entry and put back at exit; the generator register through the invariant; nothing owed. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (asV (V42 m (outs m))) c).loose
  hwaits := Pipeline.hwaits_of_owed_zero _ _ _ _ L lv 19 fun _ _ => rfl
  pre c := iprop(StableHlo.held (c : Thread nD τ) (Pipeline.ucRefs τ sig) (V42 m (outs m) c) ∗ R c)
  post c := iprop(StableHlo.held (c : Thread nD τ) (Pipeline.ucRefs τ sig) (V43 m (outs m) c) ∗ R c)
  X c := iprop(∃ r, prngReg c r)
  Y c := iprop(∃ r, prngReg c r)
  Z c := Pipeline.unscopedRest (Ix := Unit) (Name := ℕ) (U := UR sig nD τ) (Lvl := ℕ) spec19 c (asV (V42 m (outs m)) c)
  hentry c := by
    rw [Pipeline.ownSems0_none]
    have hsplit := Pipeline.arrays_of_unscopedBufs (p := 19) (pcfgs (F := F)) adm (pdats m) launch19.win launch19.arr_whole c
      ((pdats m 19 c).share_full fun _ => rfl) (asV (V42 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat19 (asV (V42 m (outs m))) c).Φ 0
    iintro ⟨Hp, -, Hr⟩
    iapply (hin19 (asV (V42 m (outs m))) c)
    unfold X19
    isplitl [Hp]; · iexact Hp
    iexact Hr
  hout c := by
    rw [Pipeline.ownSems0_none]
    exact (hout19 (asV (V42 m (outs m))) c).trans (by
      unfold X19
      iintro ⟨Hp, Hr⟩
      isplitl [Hp]; · iexact Hp
      isplitr; · iempintro
      iexact Hr)
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (asV (V42 m (outs m)) c) (asV (V43 m (outs m)) c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR20.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 20 -/

set_option maxRecDepth 400000 in
set_option maxHeartbeats 2000000 in
/-- What region 20 leaves in main_v169. -/
theorem outs20_6 (c : Dev nD) : outs m 45 main_v169 c = (pdats m 20 c).arrAt 6 cfg20.N := by
  rw [outs_at20 m main_v169 c]
  unfold o20
  rw [if_pos rfl]
  rw [Function.update_self]
  show (dat20 (asV (V44 m (o19 m))) c).arrAt 6 cfg20.N = (dat20 (asV (V44 m (outs m))) c).arrAt 6 cfg20.N
  rw [Vin20]

set_option maxRecDepth 400000 in
set_option maxHeartbeats 2000000 in
/-- At region 20's exit each of its arrays holds what the pipeline leaves. -/
theorem hF20 (c : Dev nD) (w : Fin cfg20.W) : (pdats m 20 c).arrAt w cfg20.N = asV (V45 m (outs m)) c (Pipeline.arrRef spec20 w) := by
  match w with
  | ⟨0, _⟩ => exact ((pdats m 20 c).arrAt_in 0 rfl _).trans (Function.update_of_ne (show (Proc.devRef .tc main_v161_0 : DevRef τ sig) ≠ Proc.devRef .tc main_v169 from by decide) (outs m 45 main_v169 c) (V44 m (outs m) c)).symm
  | ⟨1, _⟩ => exact ((pdats m 20 c).arrAt_in 1 rfl _).trans (Function.update_of_ne (show (Proc.devRef .tc main_v111 : DevRef τ sig) ≠ Proc.devRef .tc main_v169 from by decide) (outs m 45 main_v169 c) (V44 m (outs m) c)).symm
  | ⟨2, _⟩ => exact ((pdats m 20 c).arrAt_in 2 rfl _).trans (Function.update_of_ne (show (Proc.devRef .tc main_v162_0 : DevRef τ sig) ≠ Proc.devRef .tc main_v169 from by decide) (outs m 45 main_v169 c) (V44 m (outs m) c)).symm
  | ⟨3, _⟩ => exact ((pdats m 20 c).arrAt_in 3 rfl _).trans (Function.update_of_ne (show (Proc.devRef .tc main_v162_1 : DevRef τ sig) ≠ Proc.devRef .tc main_v169 from by decide) (outs m 45 main_v169 c) (V44 m (outs m) c)).symm
  | ⟨4, _⟩ => exact ((pdats m 20 c).arrAt_in 4 rfl _).trans (Function.update_of_ne (show (Proc.devRef .tc main_v165 : DevRef τ sig) ≠ Proc.devRef .tc main_v169 from by decide) (outs m 45 main_v169 c) (V44 m (outs m) c)).symm
  | ⟨5, _⟩ => exact ((pdats m 20 c).arrAt_in 5 rfl _).trans (Function.update_of_ne (show (Proc.devRef .tc main_v168 : DevRef τ sig) ≠ Proc.devRef .tc main_v169 from by decide) (outs m 45 main_v169 c) (V44 m (outs m) c)).symm
  | ⟨6, _⟩ => exact (outs20_6 m c).symm.trans (Function.update_self (Proc.devRef .tc main_v169 : DevRef τ sig) (outs m 45 main_v169 c) (V44 m (outs m) c)).symm

set_option maxRecDepth 400000 in
set_option maxHeartbeats 2000000 in
/-- Every other buffer holds at the exit what it held at the entry. -/
theorem hrest20 (c : Dev nD) : ∀ b, b ∉ Finset.univ.image (Pipeline.arrRef spec20) → asV (V45 m (outs m)) c b = asV (V44 m (outs m)) c b := fun b hb => by
  have h6 : (Proc.devRef .tc b : DevRef τ sig) ≠ Proc.devRef .tc main_v169 := fun e => hb (Finset.mem_image.mpr ⟨6, Finset.mem_univ _, (Proc.devRef_injective _ e).symm⟩)
  exact Function.update_of_ne h6 (outs m 45 main_v169 c) (V44 m (outs m) c)

set_option maxRecDepth 400000 in
set_option maxHeartbeats 2000000 in
set_option backward.isDefEq.respectTransparency.types false in
/-- Region 20 as a segment: entered from the buffers at the valuation before it, left at the one after it; its arrays split
    out of the buffers at entry and put back at exit; the generator register through the invariant; nothing owed. -/
def reg20 : Pipeline.RegionSeg (pcfgs (F := F)) adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (asV (V44 m (outs m))) c).loose
  hwaits := Pipeline.hwaits_of_owed_zero _ _ _ _ L lv 20 fun _ _ => rfl
  pre c := iprop(StableHlo.held (c : Thread nD τ) (Pipeline.ucRefs τ sig) (V44 m (outs m) c) ∗ R c)
  post c := iprop(StableHlo.held (c : Thread nD τ) (Pipeline.ucRefs τ sig) (V45 m (outs m) c) ∗ R c)
  X c := iprop(∃ r, prngReg c r)
  Y c := iprop(∃ r, prngReg c r)
  Z c := Pipeline.unscopedRest (Ix := Unit) (Name := ℕ) (U := UR sig nD τ) (Lvl := ℕ) spec20 c (asV (V44 m (outs m)) c)
  hentry c := by
    rw [Pipeline.ownSems0_none]
    have hsplit := Pipeline.arrays_of_unscopedBufs (p := 20) (pcfgs (F := F)) adm (pdats m) launch20.win launch20.arr_whole c
      ((pdats m 20 c).share_full fun _ => rfl) (asV (V44 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m) ((pdats m 20 c).share_full fun _ => rfl)
      (asV (V44 m (outs m)) c) (asV (V45 m (outs m)) c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR21.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 21 -/

set_option maxRecDepth 400000 in
set_option maxHeartbeats 2000000 in
/-- What region 21 leaves in main_v174_0. -/
theorem outs21_1 (c : Dev nD) : outs m 47 main_v174_0 c = (pdats m 21 c).arrAt 1 cfg21.N := by
  rw [outs_at21 m main_v174_0 c]
  unfold o21
  rw [if_pos rfl]
  rw [Function.update_of_ne (show (Proc.devRef .tc main_v174_0 : DevRef τ sig) ≠ Proc.devRef .tc main_v174_1 from by decide)]
  rw [Function.update_self]
  show (dat21 (asV (V46 m (o20 m))) c).arrAt 1 cfg21.N = (dat21 (asV (V46 m (outs m))) c).arrAt 1 cfg21.N
  rw [Vin21]

set_option maxRecDepth 400000 in
set_option maxHeartbeats 2000000 in
/-- What region 21 leaves in main_v174_1. -/
theorem outs21_2 (c : Dev nD) : outs m 47 main_v174_1 c = (pdats m 21 c).arrAt 2 cfg21.N := by
  rw [outs_at21 m main_v174_1 c]
  unfold o21
  rw [if_pos rfl]
  rw [Function.update_self]
  show (dat21 (asV (V46 m (o20 m))) c).arrAt 2 cfg21.N = (dat21 (asV (V46 m (outs m))) c).arrAt 2 cfg21.N
  rw [Vin21]

set_option maxRecDepth 400000 in
set_option maxHeartbeats 2000000 in
/-- At region 21's exit each of its arrays holds what the pipeline leaves. -/
theorem hF21 (c : Dev nD) (w : Fin cfg21.W) : (pdats m 21 c).arrAt w cfg21.N = asV (V47 m (outs m)) c (Pipeline.arrRef spec21 w) := by
  match w with
  | ⟨0, _⟩ => exact ((pdats m 21 c).arrAt_in 0 rfl _).trans ((Function.update_of_ne (show (Proc.devRef .tc main_v173 : DevRef τ sig) ≠ Proc.devRef .tc main_v174_1 from by decide) (outs m 47 main_v174_1 c) (Function.update (V46 m (outs m) c) (Proc.devRef .tc main_v174_0 : DevRef τ sig) (outs m 47 main_v174_0 c))).trans (Function.update_of_ne (show (Proc.devRef .tc main_v173 : DevRef τ sig) ≠ Proc.devRef .tc main_v174_0 from by decide) (outs m 47 main_v174_0 c) (V46 m (outs m) c))).symm
  | ⟨1, _⟩ => exact (outs21_1 m c).symm.trans ((Function.update_of_ne (show (Proc.devRef .tc main_v174_0 : DevRef τ sig) ≠ Proc.devRef .tc main_v174_1 from by decide) (outs m 47 main_v174_1 c) (Function.update (V46 m (outs m) c) (Proc.devRef .tc main_v174_0 : DevRef τ sig) (outs m 47 main_v174_0 c))).trans (Function.update_self (Proc.devRef .tc main_v174_0 : DevRef τ sig) (outs m 47 main_v174_0 c) (V46 m (outs m) c))).symm
  | ⟨2, _⟩ => exact (outs21_2 m c).symm.trans (Function.update_self (Proc.devRef .tc main_v174_1 : DevRef τ sig) (outs m 47 main_v174_1 c) (Function.update (V46 m (outs m) c) (Proc.devRef .tc main_v174_0 : DevRef τ sig) (outs m 47 main_v174_0 c))).symm

set_option maxRecDepth 400000 in
set_option maxHeartbeats 2000000 in
/-- Every other buffer holds at the exit what it held at the entry. -/
theorem hrest21 (c : Dev nD) : ∀ b, b ∉ Finset.univ.image (Pipeline.arrRef spec21) → asV (V47 m (outs m)) c b = asV (V46 m (outs m)) c b := fun b hb => by
  have h1 : (Proc.devRef .tc b : DevRef τ sig) ≠ Proc.devRef .tc main_v174_0 := fun e => hb (Finset.mem_image.mpr ⟨1, Finset.mem_univ _, (Proc.devRef_injective _ e).symm⟩)
  have h2 : (Proc.devRef .tc b : DevRef τ sig) ≠ Proc.devRef .tc main_v174_1 := fun e => hb (Finset.mem_image.mpr ⟨2, Finset.mem_univ _, (Proc.devRef_injective _ e).symm⟩)
  exact (Function.update_of_ne h2 (outs m 47 main_v174_1 c) (Function.update (V46 m (outs m) c) (Proc.devRef .tc main_v174_0 : DevRef τ sig) (outs m 47 main_v174_0 c))).trans (Function.update_of_ne h1 (outs m 47 main_v174_0 c) (V46 m (outs m) c))

set_option maxRecDepth 400000 in
set_option maxHeartbeats 2000000 in
set_option backward.isDefEq.respectTransparency.types false in
/-- Region 21 as a segment: entered from the buffers at the valuation before it, left at the one after it; its arrays split
    out of the buffers at entry and put back at exit; the generator register through the invariant; nothing owed. -/
def reg21 : Pipeline.RegionSeg (pcfgs (F := F)) adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (asV (V46 m (outs m))) c).loose
  hwaits := Pipeline.hwaits_of_owed_zero _ _ _ _ L lv 21 fun _ _ => rfl
  pre c := iprop(StableHlo.held (c : Thread nD τ) (Pipeline.ucRefs τ sig) (V46 m (outs m) c) ∗ R c)
  post c := iprop(StableHlo.held (c : Thread nD τ) (Pipeline.ucRefs τ sig) (V47 m (outs m) c) ∗ R c)
  X c := iprop(∃ r, prngReg c r)
  Y c := iprop(∃ r, prngReg c r)
  Z c := Pipeline.unscopedRest (Ix := Unit) (Name := ℕ) (U := UR sig nD τ) (Lvl := ℕ) spec21 c (asV (V46 m (outs m)) c)
  hentry c := by
    rw [Pipeline.ownSems0_none]
    have hsplit := Pipeline.arrays_of_unscopedBufs (p := 21) (pcfgs (F := F)) adm (pdats m) launch21.win launch21.arr_whole c
      ((pdats m 21 c).share_full fun _ => rfl) (asV (V46 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat21 (asV (V46 m (outs m))) c).Φ 0
    iintro ⟨Hp, -, Hr⟩
    iapply (hin21 (asV (V46 m (outs m))) c)
    unfold X21
    isplitl [Hp]; · iexact Hp
    iexact Hr
  hout c := by
    rw [Pipeline.ownSems0_none]
    exact (hout21 (asV (V46 m (outs m))) c).trans (by
      unfold X21
      iintro ⟨Hp, Hr⟩
      isplitl [Hp]; · iexact Hp
      isplitr; · iempintro
      iexact Hr)
  hexit c := by
    have hjoin := Pipeline.unscopedBufs_of_arrays (p := 21) (pcfgs (F := F)) adm (Ix := Unit) (Name := ℕ) (U := UR sig nD τ) (Lvl := ℕ)
      launch21.win launch21.arr_whole c (pdats m) ((pdats m 21 c).share_full fun _ => rfl)
      (asV (V46 m (outs m)) c) (asV (V47 m (outs m)) c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsmR22.lean ====
import proofs.«418385_j87393994539142_1_alg».proof.Proof.KernelAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 22 -/

set_option maxRecDepth 400000 in
set_option maxHeartbeats 2000000 in
/-- What region 22 leaves in main_v181. -/
theorem outs22_6 (c : Dev nD) : outs m 49 main_v181 c = (pdats m 22 c).arrAt 6 cfg22.N := by
  rw [outs_at22 m main_v181 c]
  unfold o22
  rw [if_pos rfl]
  rw [Function.update_self]
  show (dat22 (asV (V48 m (o21 m))) c).arrAt 6 cfg22.N = (dat22 (asV (V48 m (outs m))) c).arrAt 6 cfg22.N
  rw [Vin22]

set_option maxRecDepth 400000 in
set_option maxHeartbeats 2000000 in
/-- At region 22's exit each of its arrays holds what the pipeline leaves. -/
theorem hF22 (c : Dev nD) (w : Fin cfg22.W) : (pdats m 22 c).arrAt w cfg22.N = asV (V49 m (outs m)) c (Pipeline.arrRef spec22 w) := by
  match w with
  | ⟨0, _⟩ => exact ((pdats m 22 c).arrAt_in 0 rfl _).trans (Function.update_of_ne (show (Proc.devRef .tc main_v173 : DevRef τ sig) ≠ Proc.devRef .tc main_v181 from by decide) (outs m 49 main_v181 c) (V48 m (outs m) c)).symm
  | ⟨1, _⟩ => exact ((pdats m 22 c).arrAt_in 1 rfl _).trans (Function.update_of_ne (show (Proc.devRef .tc main_v123 : DevRef τ sig) ≠ Proc.devRef .tc main_v181 from by decide) (outs m 49 main_v181 c) (V48 m (outs m) c)).symm
  | ⟨2, _⟩ => exact ((pdats m 22 c).arrAt_in 2 rfl _).trans (Function.update_of_ne (show (Proc.devRef .tc main_v174_0 : DevRef τ sig) ≠ Proc.devRef .tc main_v181 from by decide) (outs m 49 main_v181 c) (V48 m (outs m) c)).symm
  | ⟨3, _⟩ => exact ((pdats m 22 c).arrAt_in 3 rfl _).trans (Function.update_of_ne (show (Proc.devRef .tc main_v174_1 : DevRef τ sig) ≠ Proc.devRef .tc main_v181 from by decide) (outs m 49 main_v181 c) (V48 m (outs m) c)).symm
  | ⟨4, _⟩ => exact ((pdats m 22 c).arrAt_in 4 rfl _).trans (Function.update_of_ne (show (Proc.devRef .tc main_v177 : DevRef τ sig) ≠ Proc.devRef .tc main_v181 from by decide) (outs m 49 main_v181 c) (V48 m (outs m) c)).symm
  | ⟨5, _⟩ => exact ((pdats m 22 c).arrAt_in 5 rfl _).trans (Function.update_of_ne (show (Proc.devRef .tc main_v180 : DevRef τ sig) ≠ Proc.devRef .tc main_v181 from by decide) (outs m 49 main_v181 c) (V48 m (outs m) c)).symm
  | ⟨6, _⟩ => exact (outs22_6 m c).symm.trans (Function.update_self (Proc.devRef .tc main_v181 : DevRef τ sig) (outs m 49 main_v181 c) (V48 m (outs m) c)).symm

set_option maxRecDepth 400000 in
set_option maxHeartbeats 2000000 in
/-- Every other buffer holds at the exit what it held at the entry. -/
theorem hrest22 (c : Dev nD) : ∀ b, b ∉ Finset.univ.image (Pipeline.arrRef spec22) → asV (V49 m (outs m)) c b = asV (V48 m (outs m)) c b := fun b hb => by
  have h6 : (Proc.devRef .tc b : DevRef τ sig) ≠ Proc.devRef .tc main_v181 := fun e => hb (Finset.mem_image.mpr ⟨6, Finset.mem_univ _, (Proc.devRef_injective _ e).symm⟩)
  exact Function.update_of_ne h6 (outs m 49 main_v181 c) (V48 m (outs m) c)

set_option maxRecDepth 400000 in
set_option maxHeartbeats 2000000 in
set_option backward.isDefEq.respectTransparency.types false in
/-- Region 22 as a segment: entered from the buffers at the valuation before it, left at the one after it; its arrays split
    out of the buffers at entry and put back at exit; the generator register through the invariant; nothing owed. -/
def reg22 : Pipeline.RegionSeg (pcfgs (F := F)) adm (pdats m) () defs₀ 𝒱₀ L lv 22 where
  win := launch22.win.to₀
  block_pos := launch22.block_pos
  stage_whole := launch22.stage_whole
  K := PEmpty
  osem k := k.elim
  ho := Pipeline.OwnSemFacts.none _
  hbody c := (body_obligation22 (asV (V48 m (outs m))) c).loose
  hwaits := Pipeline.hwaits_of_owed_zero _ _ _ _ L lv 22 fun _ _ => rfl
  pre c := iprop(StableHlo.held (c : Thread nD τ) (Pipeline.ucRefs τ sig) (V48 m (outs m) c) ∗ R c)
  post c := iprop(StableHlo.held (c : Thread nD τ) (Pipeline.ucRefs τ sig) (V49 m (outs m) c) ∗ R c)
  X c := iprop(∃ r, prngReg c r)
  Y c := iprop(∃ r, prngReg c r)
  Z c := Pipeline.unscopedRest (Ix := Unit) (Name := ℕ) (U := UR sig nD τ) (Lvl := ℕ) spec22 c (asV (V48 m (outs m)) c)
  hentry c := by
    rw [Pipeline.ownSems0_none]
    have hsplit := Pipeline.arrays_of_unscopedBufs (p := 22) (pcfgs (F := F)) adm (pdats m) launch22.win launch22.arr_whole c
      ((pdats m 22 c).share_full fun _ => rfl) (asV (V48 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m) ((pdats m 22 c).share_full fun _ => rfl)
      (asV (V48 m (outs m)) c) (asV (V49 m (outs m)) c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelAsm.lean ====
import proofs.«418385_j87393994539142_1_alg».proof.Proof.KernelAsmR0
import proofs.«418385_j87393994539142_1_alg».proof.Proof.KernelAsmR1
import proofs.«418385_j87393994539142_1_alg».proof.Proof.KernelAsmR2
import proofs.«418385_j87393994539142_1_alg».proof.Proof.KernelAsmR3
import proofs.«418385_j87393994539142_1_alg».proof.Proof.KernelAsmR4
import proofs.«418385_j87393994539142_1_alg».proof.Proof.KernelAsmR5
import proofs.«418385_j87393994539142_1_alg».proof.Proof.KernelAsmR6
import proofs.«418385_j87393994539142_1_alg».proof.Proof.KernelAsmR7
import proofs.«418385_j87393994539142_1_alg».proof.Proof.KernelAsmR8
import proofs.«418385_j87393994539142_1_alg».proof.Proof.KernelAsmR9
import proofs.«418385_j87393994539142_1_alg».proof.Proof.KernelAsmR10
import proofs.«418385_j87393994539142_1_alg».proof.Proof.KernelAsmR11
import proofs.«418385_j87393994539142_1_alg».proof.Proof.KernelAsmR12
import proofs.«418385_j87393994539142_1_alg».proof.Proof.KernelAsmR13
import proofs.«418385_j87393994539142_1_alg».proof.Proof.KernelAsmR14
import proofs.«418385_j87393994539142_1_alg».proof.Proof.KernelAsmR15
import proofs.«418385_j87393994539142_1_alg».proof.Proof.KernelAsmR16
import proofs.«418385_j87393994539142_1_alg».proof.Proof.KernelAsmR17
import proofs.«418385_j87393994539142_1_alg».proof.Proof.KernelAsmR18
import proofs.«418385_j87393994539142_1_alg».proof.Proof.KernelAsmR19
import proofs.«418385_j87393994539142_1_alg».proof.Proof.KernelAsmR20
import proofs.«418385_j87393994539142_1_alg».proof.Proof.KernelAsmR21
import proofs.«418385_j87393994539142_1_alg».proof.Proof.KernelAsmR22

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.Kernel.Asm

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The run -/

set_option backward.isDefEq.respectTransparency.types false in
set_option maxHeartbeats 0 in
/-- Every weakly fair execution of the main function terminates; the result buffer ends at the last valuation's contents and
    every argument as launched. -/
theorem run (ρ : Dev nD → PrngReg) : θ_run defs (onTc (τ := τ) (main (F := F))) ⟨m, fun _ => 0, ρ⟩ (fun r => ∀ c : Dev nD,
      r.2.mem ((c.tc : Thread nD τ).loc main_v192) = V52 m (outs m) c main_v192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) ?hu (E := fun _ c => R c) ?hE0 (fun c => ?hE23)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)
    (reg11 m) (fun _ => .rfl) (fun _ => .rfl)
    (reg12 m) (fun _ => .rfl) (fun _ => .rfl)
    (reg13 m) (fun _ => .rfl) (fun _ => .rfl)
    (reg14 m) (fun _ => .rfl) (fun _ => .rfl)
    (reg15 m) (fun _ => .rfl) (fun _ => .rfl)
    (reg16 m) (fun _ => .rfl) (fun _ => .rfl)
    (reg17 m) (fun _ => .rfl) (fun _ => .rfl)
    (reg18 m) (fun _ => .rfl) (fun _ => .rfl)
    (reg19 m) (fun _ => .rfl) (fun _ => .rfl)
    (reg20 m) (fun _ => .rfl) (fun _ => .rfl)
    (reg21 m) (fun _ => .rfl) (fun _ => .rfl)
    (reg22 m) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE23 =>
    iintro ⟨-, HO⟩
    iexact HO

end Cert.Kernel.Asm

end
-- ==== Proof.Rg0.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0: the affine map, one row block per grid point

Region 0 computes o = x·W + b over 10 grid points. At point t the body reads the t-th block of 2000 rows
of x (window 0), the whole 128x128 matrix W (window 1) and the 1x128 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The blocks the windows show -/

/-- The block of window w at grid point t: the window's view at t read off the window's array as the
    region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was
    fetched at that point or carried over from the point before (then the block index has not moved), for any
    proof data whose array is V's and whose body leaves the block where it is. Window 0: the rows of x. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, the matrix W, whose block is the whole array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for window 2, the bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer, whole -/

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-! ## What the body leaves in the output block -/

/-- The output block after the body, as a function of the three input blocks: the body's single store,
    of the affine payload of the three blocks read whole, laid over the whole buffer. -/
def out0_3 (x0 : Vec F S2000x128 .f32) (x1 : Vec F S128x128 .f32) (x2 : Vec F S1x128 .f32) : Vec F S2000x128 .f32 :=
  View.canon [⟨r0_x, k0_pay1 (View.ld x0 r0_x) (View.ld x1 r0_w) (View.ld x2 r0_b)⟩]

/-- The single store tiles the output buffer, so every index of the buffer lies in it. -/
theorem cover0_3 (p0 : Vec F S2000x128 .f32) (y : S2000x128.Idx) :
    ∃ pc ∈ ([⟨r0_x, p0⟩] : List (View.Piece (Elt F) S2000x128 .f32)), y ∈ pc.1.set :=
  View.cover_of_tiled [⟨r0_x, p0⟩] S2000x128.size (by rfl) y

/-! ## The body's triple -/

set_option maxHeartbeats 1000000 in
/-- The body, run on whole staging buffers with the three inputs at contents x0, x1, x2 and the output at
    any contents, reaches its continuation with the inputs as they were and the output at out0_3 of the inputs.
    The body also reads the output buffer before its store; the value read is not used. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of region 0 on core c: the arrays as the region finds them; after the body at point t
    each input buffer still at its block and the output buffer at out0_3 of the three input blocks; the
    invariant is the class's (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- The invariant at every point is the class invariant. -/
theorem Phi0_eq (c : Dev nD) (t : Fin (cfg0.N + 1)) : (dat0 V c).Φ t = Pipeline.ΦA spec0 c := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point t: the invariant, the core's debt, and the four staging buffers,
    each at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point t. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Rg

end
-- ==== Proof.Rg1.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 1: the affine map, one row block per grid point

Region 1 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The blocks the windows show -/

/-- The block of window w at grid point t: the window's view at t read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was
    fetched at that point or carried over from the point before (then the block index has not moved), for any
    proof data whose array is V's and whose body leaves the block where it is. Window 0: the rows of x. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the matrix W, whose block is the whole array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the bias row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer, whole -/

abbrev r1_x : Rect S4000x128 := Rect.unit (s := S4000x128) ![0, 0] S4000x128.size inb_S4000x128_S4000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out1_3 (x0 : Vec F S4000x128 .f32) (x1 : Vec F S128x128 .f32) (x2 : Vec F S1x128 .f32) : Vec F S4000x128 .f32 :=
  View.canon [⟨r1_o, k1_pay1 (View.ld x0 r1_x) (View.ld x1 r1_w) (View.ld x2 r1_b)⟩]

/-- The single store tiles the output buffer, so every index of the buffer lies in it. -/
theorem cover1_3 (p0 : Vec F S4000x128 .f32) (y : S4000x128.Idx) :
    ∃ pc ∈ ([⟨r1_o, p0⟩] : List (View.Piece (Elt F) S4000x128 .f32)), y ∈ pc.1.set :=
  View.cover_of_tiled [⟨r1_o, p0⟩] S4000x128.size (by rfl) y

/-! ## The body's triple -/

set_option maxHeartbeats 1000000 in
/-- The body, run on whole staging buffers with the three inputs at contents x0, x1, x2 and the output at
    any contents, reaches its continuation with the inputs as they were and the output at out1_3 of the inputs.
    The body also reads the output buffer before its store; the value read is not used. -/
theorem sound_kernel1 (c : Dev nD) (E : Set ℕ) (i : grid1.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of region 1 on core c: the arrays as the region finds them; after the body at point t
    each input buffer still at its block and the output buffer at out1_3 of the three input blocks; the
    invariant is the class's (the scoped rest and the generator register, untouched); nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- The invariant at every point is the class invariant. -/
theorem Phi1_eq (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point t: the invariant, the core's debt, and the four staging buffers,
    each at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns at point t. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Rg

end
-- ==== Proof.Rg2.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 2: the affine map, one row block per grid point

Region 2 computes o = x·W + b over 10 grid points. At point t the body reads the t-th block of 2000 rows
of x (window 0), the whole 128x512 matrix W (window 1) and the 1x512 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The blocks the windows show -/

/-- The block of window w at grid point t: the window's view at t read off the window's array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the block was
    fetched at that point or carried over from the point before (then the block index has not moved), for any
    proof data whose array is V's and whose body leaves the block where it is. Window 0: the rows of x. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for window 1, the matrix W, whose block is the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for window 2, the bias row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer, whole -/

abbrev r2_x : Rect S2000x128 := Rect.unit (s := S2000x128) ![0, 0] S2000x128.size inb_S2000x128_S2000x128_0_0
abbrev r2_w : Rect S128x512 := Rect.unit (s := S128x512) ![0, 0] S128x512.size inb_S128x512_S128x512_0_0
abbrev r2_b : Rect S1x512 := Rect.unit (s := S1x512) ![0, 0] S1x512.size inb_S1x512_S1x512_0_0
abbrev r2_o : Rect S2000x512 := Rect.unit (s := S2000x512) ![0, 0] S2000x512.size inb_S2000x512_S2000x512_0_0

/-! ## What the body leaves in the output block -/

/-- The output block after the body, as a function of the three input blocks: the body's single store,
    of the affine payload of the three blocks read whole, laid over the whole buffer. -/
def out2_3 (x0 : Vec F S2000x128 .f32) (x1 : Vec F S128x512 .f32) (x2 : Vec F S1x512 .f32) : Vec F S2000x512 .f32 :=
  View.canon [⟨r2_o, k2_pay1 (View.ld x0 r2_x) (View.ld x1 r2_w) (View.ld x2 r2_b)⟩]

/-- The single store tiles the output buffer, so every index of the buffer lies in it. -/
theorem cover2_3 (p0 : Vec F S2000x512 .f32) (y : S2000x512.Idx) :
    ∃ pc ∈ ([⟨r2_o, p0⟩] : List (View.Piece (Elt F) S2000x512 .f32)), y ∈ pc.1.set :=
  View.cover_of_tiled [⟨r2_o, p0⟩] S2000x512.size (by rfl) y

/-! ## The body's triple -/

set_option maxHeartbeats 1000000 in
/-- The body, run on whole staging buffers with the three inputs at contents x0, x1, x2 and the output at
    any contents, reaches its continuation with the inputs as they were and the output at out2_3 of the inputs.
    The body also reads the output buffer before its store; the value read is not used. -/
theorem sound_kernel2 (c : Dev nD) (E : Set ℕ) (i : grid2.Coords)
    (arg1 : Memref sig .tc .vmem S2000x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core c: the arrays as the region finds them; after the body at point t
    each input buffer still at its block and the output buffer at out2_3 of the three input blocks; the
    invariant is the class's (the scoped rest and the generator register, untouched); nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- The invariant at every point is the class invariant. -/
theorem Phi2_eq (c : Dev nD) (t : Fin (cfg2.N + 1)) : (dat2 V c).Φ t = Pipeline.ΦA spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point t: the invariant, the core's debt, and the four staging buffers,
    each at what the pipeline has put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns at point t. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant
    and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Rg

end
-- ==== Proof.Rg3.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: the affine map, one row block per grid point

Region 3 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The blocks the windows show -/

/-- The block of window w at grid point t: the window's view at t read off the window's array as the
    region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether the block was
    fetched at that point or carried over from the point before (then the block index has not moved), for any
    proof data whose array is V's and whose body leaves the block where it is. Window 0: the rows of x. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for window 1, the matrix W, whose block is the whole array at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for window 2, the bias row. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer, whole -/

abbrev r3_x : Rect S4000x128 := Rect.unit (s := S4000x128) ![0, 0] S4000x128.size inb_S4000x128_S4000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0
abbrev r3_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out3_3 (x0 : Vec F S4000x128 .f32) (x1 : Vec F S128x128 .f32) (x2 : Vec F S1x128 .f32) : Vec F S4000x128 .f32 :=
  View.canon [⟨r3_o, k3_pay1 (View.ld x0 r3_x) (View.ld x1 r3_w) (View.ld x2 r3_b)⟩]

/-- The single store tiles the output buffer, so every index of the buffer lies in it. -/
theorem cover3_3 (p0 : Vec F S4000x128 .f32) (y : S4000x128.Idx) :
    ∃ pc ∈ ([⟨r3_o, p0⟩] : List (View.Piece (Elt F) S4000x128 .f32)), y ∈ pc.1.set :=
  View.cover_of_tiled [⟨r3_o, p0⟩] S4000x128.size (by rfl) y

/-! ## The body's triple -/

set_option maxHeartbeats 1000000 in
/-- The body, run on whole staging buffers with the three inputs at contents x0, x1, x2 and the output at
    any contents, reaches its continuation with the inputs as they were and the output at out3_3 of the inputs.
    The body also reads the output buffer before its store; the value read is not used. -/
theorem sound_kernel3 (c : Dev nD) (E : Set ℕ) (i : grid3.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of region 3 on core c: the arrays as the region finds them; after the body at point t
    each input buffer still at its block and the output buffer at out3_3 of the three input blocks; the
    invariant is the class's (the scoped rest and the generator register, untouched); nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the contents at the region's entry. -/
theorem A_eq3 (c : Dev nD) (w : Fin cfg3.W) : (dat3 V c).A w = V c (Pipeline.arrRef spec3 w) := by
  dsimp only [dat3]

/-- The invariant at every point is the class invariant. -/
theorem Phi3_eq (c : Dev nD) (t : Fin (cfg3.N + 1)) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point t: the invariant, the core's debt, and the four staging buffers,
    each at what the pipeline has put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body returns at point t. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the body's triple applies; the invariant
    and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Rg

end
-- ==== Proof.Rg4.lean ====
/- The frame half of kernel region 4 (the gate kernel) of the program's run, generic in the float family: at the
   TensorCore's buffer contents V on entry, each window's block at a point of the grid, what the body leaves in its
   two output staging buffers as functions of the four input blocks, the body's triple, the region's exact proof data
   and the body obligation at every point. -/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! # Region 4: ehat = ce + dh + eh, msg = logistic ehat * bh, row block by row block -/

/-- The block of window w at grid point t, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, for any proof data whose array
    is the entry contents and whose body leaves the block where it found it: the window is uncut and has no idle point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 4000 x 128 block as a rectangle of itself: every load and store of the body is at it. -/
abbrev r4_0 : Rect S4000x128 := Rect.unit (s := S4000x128) ![0, 0] S4000x128.size inb_S4000x128_S4000x128_0_0

/-- The pre-activation block the body leaves in window 4's buffer, from the blocks of ce, dh, eh. -/
def out4_4 (x0 x1 x2 : Vec F S4000x128 .f32) : Vec F S4000x128 .f32 :=
  View.canon [⟨r4_0, k4_pay1 (View.ld x0 r4_0) (View.ld x1 r4_0) (View.ld x2 r4_0)⟩]

/-- The gated message block the body leaves in window 5's buffer, from the blocks of ce, dh, eh, bh. -/
def out4_5 (x0 x1 x2 x3 : Vec F S4000x128 .f32) : Vec F S4000x128 .f32 :=
  View.canon [⟨r4_0, k4_pay2 (View.ld x0 r4_0) (View.ld x1 r4_0) (View.ld x2 r4_0) (View.ld x3 r4_0)⟩]

/-- The one whole-block store covers the buffer. -/
theorem cover4 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

set_option maxHeartbeats 1000000 in
/-- The body on whole staging memrefs, the four inputs' at contents x0 … x3 and the two outputs' at anything, runs to
    a state with the inputs' as they were and the outputs' at out4_4 and out4_5 of the inputs'. The body reads each
    output memref once before it stores to it; the value read is not used. -/
theorem sound_kernel4 (c : Dev nD) (E : Set ℕ) (i : grid4.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2)
            ∗ owns (c : Thread nD τ) arg6 fullShare (out4_5 x0 x1 x2 x3)) -∗ K ⟨⟩))
      ⊢ wp frame (wpE (defs₀ (F := F)) Variants.none c none) E (cc4__gate_kernel i arg1 harg1 arg2 harg2 arg3 harg3 arg4 harg4 arg5 harg5 arg6 harg6) K := by
  simp only [cc4__gate_kernel_eq_skeleton]; unfold cc4__gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  iexists _; isplitr
  swap; · iexact H5
  ipureintro
  exact View.read_writes_eq_canon _ _ _ (cover4 _)

/-- The proof data of region 4 on core c: the arrays as the region finds them; after the body at point t each input's
    buffer at its block and the outputs' at out4_4, out4_5 of the input blocks; the class invariant; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t)
    | ⟨5, _⟩ => out4_5 (iblk4 V c 0 t) (iblk4 V c 1 t) (iblk4 V c 2 t) (iblk4 V c 3 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- The invariant is the class's at every point. -/
theorem Phi4_eq (c : Dev nD) (t : Fin (cfg4.N + 1)) : (dat4 V c).Φ t = Pipeline.ΦA spec4 c := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) := by dsimp only [dat4]
theorem after4_5 (c : Dev nD) (t : Fin cfg4.N) :
    (dat4 V c).after 5 t = out4_5 (iblk4 V c 0 t) (iblk4 V c 1 t) (iblk4 V c 2 t) (iblk4 V c 3 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Rg

end
-- ==== Proof.Rg5.lean ====
/-
  Region 5 of the kernel program: the batch statistics of a 320000 x 128 array, accumulated over 80 row blocks of
  4000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-row rectangle of a 1x128 buffer and the whole-block rectangle of a 4000x128 buffer. -/
abbrev rS5 : Rect S1x128 := Rect.unit (s := S1x128) ![0, 0] S1x128.size inb_S1x128_S1x128_0_0
abbrev rX5 : Rect S4000x128 := Rect.unit (s := S4000x128) ![0, 0] S4000x128.size inb_S4000x128_S4000x128_0_0

/-- The first conditional's condition (the grid coordinate is 0), as the kernel computes it. -/
def k5_cond1 (i : grid5.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 79): decided over the 80 points. -/
theorem hcond5_1 : ∀ t : Fin cfg5.N, k5_cond1 (grid5.coords t) = 1#1 ↔ t.val = 0 :=
  (by decide +kernel : ∀ t : Fin grid5.N, k5_cond1 (grid5.coords t) = 1#1 ↔ t.val = 0)
theorem hcond5_2 : ∀ t : Fin cfg5.N, k5_cond2 (grid5.coords t) = 1#1 ↔ t.val = 79 :=
  (by decide +kernel : ∀ t : Fin grid5.N, k5_cond2 (grid5.coords t) = 1#1 ↔ t.val = 79)

/-- One point's step of the two running rows: the row held so far plus the block's column sums (of the entries, of their squares). -/
def step5_0 (x : Vec F S4000x128 .f32) (s0 : Vec F S1x128 .f32) : Vec F S1x128 .f32 :=
  View.canon [⟨rS5, k5_pay4 (View.ld x rX5) (View.ld s0 rS5)⟩]
def step5_1 (x : Vec F S4000x128 .f32) (s1 : Vec F S1x128 .f32) : Vec F S1x128 .f32 :=
  View.canon [⟨rS5, k5_pay5 (View.ld x rX5) (View.ld s1 rS5)⟩]

/-- A store of the whole row covers the 1x128 buffer. -/
theorem coverS5 (p0 : Vec F S1x128 .f32) (y : S1x128.Idx) :
    ∃ pc ∈ ([⟨rS5, p0⟩] : List (View.Piece (Elt F) S1x128 .f32)), y ∈ pc.1.set :=
  View.cover_of_tiled [⟨rS5, p0⟩] S1x128.size (by rfl) y

set_option maxHeartbeats 1000000 in
/-- The body at a point that is neither first nor last: both conditionals fall through; the block and the two output rows are left as found, each scratch row steps. -/
theorem sound_kernel5_mid (c : Dev nD) (E : Set ℕ) (i : grid5.Coords) (hc1 : ¬ k5_cond1 i = 1#1) (hc2 : ¬ k5_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S4000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x ∗ owns (c : Thread nD τ) arg2 fullShare y1 ∗ owns (c : Thread nD τ) arg3 fullShare y2
            ∗ owns (c : Thread nD τ) arg4 fullShare (step5_0 x s0) ∗ owns (c : Thread nD τ) arg5 fullShare (step5_1 x s1)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f1, %hf1, H1⟩, H2, H3, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS5 _)
  iexists _; isplitr
  swap; · iexact H5
  ipureintro
  exact View.read_writes_eq_canon _ _ _ (coverS5 _)

/-- A whole-row store hides every earlier store: the contents are the last payload's. -/
theorem canon_headS5 (p : Vec F S1x128 .f32) (L : List (View.Piece (Elt F) S1x128 .f32)) :
    View.canon (⟨rS5, p⟩ :: L) = View.canon [⟨rS5, p⟩] := by
  funext y
  obtain ⟨pc, hm, hy⟩ := coverS5 p y
  rw [List.mem_singleton] at hm; subst hm
  obtain ⟨x, rfl⟩ := rS5.exists_idx_of_mem hy
  exact (View.canon_cons_emb rS5 p L x).trans (View.canon_cons_emb rS5 p [] x).symm

/-- What a buffer reads after a list of stores whose last is a whole-row store. -/
theorem read_writes_headS5 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS5, p⟩ :: L)) = View.canon [⟨rS5, p⟩] :=
  (View.read_writes_eq_canon v f _ (fun y => by
    obtain ⟨pc, hm, hy⟩ := coverS5 p y
    rw [List.mem_singleton] at hm; subst hm
    exact ⟨_, List.mem_cons_self, hy⟩)).trans (canon_headS5 p L)

/-- The zero rows the first point resets the two scratch rows to. -/
def init5_0 : Vec F S1x128 .f32 := View.canon [⟨rS5, k5_pay1 (F := F)⟩]
def init5_1 : Vec F S1x128 .f32 := View.canon [⟨rS5, k5_pay2 (F := F)⟩]

set_option maxHeartbeats 1000000 in
/-- The body at the first point: the scratch rows, found at anything, are reset to zero and then step; the output rows are left as found. -/
theorem sound_kernel5_first (c : Dev nD) (E : Set ℕ) (i : grid5.Coords) (hc1 : k5_cond1 i = 1#1) (hc2 : ¬ k5_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S4000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y1 ∗ owns (c : Thread nD τ) arg3 fullShare y2
            ∗ owns (c : Thread nD τ) arg4 fullShare (step5_0 x init5_0) ∗ owns (c : Thread nD τ) arg5 fullShare (step5_1 x init5_1)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f1, %hf1, H1⟩, H2, H3, ⟨%d4, %f4, -, H4⟩, ⟨%d5, %f5, -, H5⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel5_first.sl.v5 sound_kernel5_first.sl.H4_1
    rw [View.readCov_eq_canon_ld _ _ _ (coverS5 _)]
    exact read_writes_headS5 _ _ _ _
  iexists _; isplitr
  swap; · iexact H5
  ipureintro
  unfold sound_kernel5_first.sl.v12 sound_kernel5_first.sl.H5_1
  rw [View.readCov_eq_canon_ld _ _ _ (coverS5 _)]
  exact read_writes_headS5 _ _ _ _

/-- The output rows as the last point computes them from the final running rows: the mean is the column sum over the count; the variance is the sum of squares over the count minus the squared mean. -/
def out5_1 (s0 : Vec F S1x128 .f32) : Vec F S1x128 .f32 :=
  View.canon [⟨rS5, k5_pay6 (View.ld s0 rS5)⟩]
def out5_2 (s0 s1 : Vec F S1x128 .f32) : Vec F S1x128 .f32 :=
  View.canon [⟨rS5, k5_pay7 (View.ld s0 rS5) (View.ld s1 rS5)⟩]

set_option maxHeartbeats 1000000 in
/-- The body at the last point: the scratch rows step, then the two output rows, found at anything, are stored from the stepped rows. -/
theorem sound_kernel5_last (c : Dev nD) (E : Set ℕ) (i : grid5.Coords) (hc1 : ¬ k5_cond1 i = 1#1) (hc2 : k5_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S4000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (out5_1 (step5_0 x s0))
            ∗ owns (c : Thread nD τ) arg3 fullShare (out5_2 (step5_0 x s0) (step5_1 x s1))
            ∗ owns (c : Thread nD τ) arg4 fullShare (step5_0 x s0) ∗ owns (c : Thread nD τ) arg5 fullShare (step5_1 x s1)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel5_last.sl.v23 sound_kernel5_last.sl.H4_1
    rw [View.readCov_eq_canon_ld _ _ _ (coverS5 _)]
    exact View.read_writes_eq_canon _ _ _ (coverS5 _)
  isplitl [H3]
  · iexists _; isplitr
    swap; · iexact H3
    ipureintro
    unfold sound_kernel5_last.sl.v23 sound_kernel5_last.sl.v26 sound_kernel5_last.sl.H4_1 sound_kernel5_last.sl.H5_1
    rw [View.readCov_eq_canon_ld _ _ _ (coverS5 _), View.readCov_eq_canon_ld _ _ _ (coverS5 _)]
    exact View.read_writes_eq_canon _ _ _ (coverS5 _)
  isplitl [H4]
  · iexists _; isplitr
    swap; · iexact H4
    ipureintro
    exact View.read_writes_eq_canon _ _ _ (coverS5 _)
  iexists _; isplitr
  swap; · iexact H5
  ipureintro
  exact View.read_writes_eq_canon _ _ _ (coverS5 _)

section Regions
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current buffer holds its block at every point, for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- THE ACCUMULATION. The two scratch rows after point n: at point 0 one step from the zero rows, afterwards one step from what the point before left. -/
def acc5 (c : Dev nD) : (n : ℕ) → n < cfg5.N → Vec F S1x128 .f32 × Vec F S1x128 .f32
  | 0, hn => (step5_0 (iblk5 V c 0 ⟨0, hn⟩) init5_0, step5_1 (iblk5 V c 0 ⟨0, hn⟩) init5_1)
  | n + 1, hn => (step5_0 (iblk5 V c 0 ⟨n + 1, hn⟩) (acc5 c n (Nat.lt_of_succ_lt hn)).1,
      step5_1 (iblk5 V c 0 ⟨n + 1, hn⟩) (acc5 c n (Nat.lt_of_succ_lt hn)).2)

/-- The accumulation at the first point, and at a later point over the point before. -/
theorem acc5_zero (c : Dev nD) (t : Fin cfg5.N) (h0 : t.val = 0) :
    acc5 V c t.val t.isLt = (step5_0 (iblk5 V c 0 t) init5_0, step5_1 (iblk5 V c 0 t) init5_1) := by
  obtain ⟨n, hn⟩ := t
  cases n with
  | zero => rfl
  | succ n => exact absurd h0 (Nat.succ_ne_zero n)

theorem acc5_pos (c : Dev nD) (t : Fin cfg5.N) (h0 : t.val ≠ 0) :
    acc5 V c t.val t.isLt = (step5_0 (iblk5 V c 0 t) (acc5 V c (t.val - 1) (Nat.lt_of_le_of_lt (Nat.sub_le _ _) t.isLt)).1,
      step5_1 (iblk5 V c 0 t) (acc5 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM5_0 : Memref sig .tc .vmem S1x128 .f32 := Memref.whole cc5_scratch0
abbrev scM5_1 : Memref sig .tc .vmem S1x128 .f32 := Memref.whole cc5_scratch1

/-- What enters the invariant besides the scoped buffers: the generator register at some state. -/
def X5 (c : Dev nD) : sProp 𝕄 := iprop(∃ r, prngReg c r)

/-- The region invariant before position n: the generator register, the scoped buffers other than the two scratch rows, and the two scratch rows — at anything before the first point, afterwards at what the point before left. -/
def PhiS5 (c : Dev nD) : (n : ℕ) → n ≤ cfg5.N → sProp 𝕄
  | 0, _ => iprop(X5 (F := F) c ∗ Pipeline.scopedRestBut spec5 c [cc5_scratch0, cc5_scratch1]
      ∗ (∃ d, owns (c : Thread nD τ) scM5_0 fullShare d) ∗ (∃ d, owns (c : Thread nD τ) scM5_1 fullShare d))
  | n + 1, hn => iprop(X5 (F := F) c ∗ Pipeline.scopedRestBut spec5 c [cc5_scratch0, cc5_scratch1]
      ∗ owns (c : Thread nD τ) scM5_0 fullShare (acc5 V c n hn).1 ∗ owns (c : Thread nD τ) scM5_1 fullShare (acc5 V c n hn).2)

/-- The invariant's three readings: before the first point, after point n, before a later point. -/
theorem PhiS5_zero (c : Dev nD) (n : ℕ) (h : n ≤ cfg5.N) (hz : n = 0) :
    PhiS5 V c n h = iprop(X5 (F := F) c ∗ Pipeline.scopedRestBut spec5 c [cc5_scratch0, cc5_scratch1]
      ∗ (∃ d, owns (c : Thread nD τ) scM5_0 fullShare d) ∗ (∃ d, owns (c : Thread nD τ) scM5_1 fullShare d)) := by
  subst hz; rfl

theorem PhiS5_succ (c : Dev nD) (n : ℕ) (hn : n < cfg5.N) :
    PhiS5 V c (n + 1) hn = iprop(X5 (F := F) c ∗ Pipeline.scopedRestBut spec5 c [cc5_scratch0, cc5_scratch1]
      ∗ owns (c : Thread nD τ) scM5_0 fullShare (acc5 V c n hn).1 ∗ owns (c : Thread nD τ) scM5_1 fullShare (acc5 V c n hn).2) := rfl

theorem PhiS5_pos (c : Dev nD) (n : ℕ) (h : n ≤ cfg5.N) (hz : n ≠ 0) :
    PhiS5 V c n h = iprop(X5 (F := F) c ∗ Pipeline.scopedRestBut spec5 c [cc5_scratch0, cc5_scratch1]
      ∗ owns (c : Thread nD τ) scM5_0 fullShare (acc5 V c (n - 1) (by omega)).1 ∗ owns (c : Thread nD τ) scM5_1 fullShare (acc5 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (acc5 V c t.val t.isLt).1
    | ⟨2, _⟩ => out5_2 (acc5 V c t.val t.isLt).1 (acc5 V c t.val t.isLt).2
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = out5_1 (acc5 V c t.val t.isLt).1 := by dsimp only [dat5]
theorem after5_2 (c : Dev nD) (t : Fin cfg5.N) : (dat5 V c).after 2 t = out5_2 (acc5 V c t.val t.isLt).1 (acc5 V c t.val t.isLt).2 := by dsimp only [dat5]

/-- The input's current buffer holds its block at every point. -/
theorem before5_0 (c : Dev nD) (t : Fin cfg5.N) (d) : (dat5 V c).before 0 t d = iblk5 V c 0 t :=
  before5_0_of V (dat5 V c) (A_eq5 V c 0) (after5_0 V c) t d

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- Where the windows are idle: the input never; each output row exactly off the last point, where it is not written back either. -/
theorem liveAt5_0 (t : Fin cfg5.N) : cfg5.idle 0 (cfg5.grid.coords t) = false := rfl

theorem idleAt5_1 (t : Fin cfg5.N) (h : ¬ k5_cond2 (grid5.coords t) = 1#1) : cfg5.idle 1 (cfg5.grid.coords t) = true := by
  show (!(k5_cond2 (grid5.coords t) == 1#1)) = true
  rw [Bool.not_eq_true', beq_eq_false_iff_ne]; exact h
theorem idleAt5_2 (t : Fin cfg5.N) (h : ¬ k5_cond2 (grid5.coords t) = 1#1) : cfg5.idle 2 (cfg5.grid.coords t) = true := by
  show (!(k5_cond2 (grid5.coords t) == 1#1)) = true
  rw [Bool.not_eq_true', beq_eq_false_iff_ne]; exact h
theorem liveAt5_1 (t : Fin cfg5.N) (h : k5_cond2 (grid5.coords t) = 1#1) : cfg5.idle 1 (cfg5.grid.coords t) = false := by
  show (!(k5_cond2 (grid5.coords t) == 1#1)) = false
  rw [h]; rfl
theorem liveAt5_2 (t : Fin cfg5.N) (h : k5_cond2 (grid5.coords t) = 1#1) : cfg5.idle 2 (cfg5.grid.coords t) = false := by
  show (!(k5_cond2 (grid5.coords t) == 1#1)) = false
  rw [h]; rfl

theorem noFlush5_1 (t : Fin cfg5.N) (h : t.val ≠ 79) : (cfg5.win 1).flush t = false := by
  have hN : t.val < 80 := lt_of_lt_of_eq t.isLt (show cfg5.N = 80 from N_5)
  cases hf : (cfg5.win 1).flush t with
  | false => rfl
  | true => exact absurd ((flush5_1 t).mp hf) (by omega)
theorem noFlush5_2 (t : Fin cfg5.N) (h : t.val ≠ 79) : (cfg5.win 2).flush t = false := by
  have hN : t.val < 80 := lt_of_lt_of_eq t.isLt (show cfg5.N = 80 from N_5)
  cases hf : (cfg5.win 2).flush t with
  | false => rfl
  | true => exact absurd ((flush5_2 t).mp hf) (by omega)

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
/-- The body at any point, by the point's position: first (scratch at anything, reset), last (the output rows stored), or between; the invariant hands the scratch rows over at what the point before left and takes them back stepped. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
    unfold Dat.leavesExact; rw [liveAt5_0 t], after5_0]
  have hN : t.val < 80 := lt_of_lt_of_eq t.isLt (show cfg5.N = 80 from N_5)
  by_cases h0 : t.val = 0
  · have hc1 : k5_cond1 (grid5.coords t) = 1#1 := (hcond5_1 t).mpr h0
    have hc2 : ¬ k5_cond2 (grid5.coords t) = 1#1 := fun h => by have := (hcond5_2 t).mp h; omega
    rw [Dat.leavesExact_idle (dat5 V c) 1 t (idleAt5_1 t hc2) (noFlush5_1 t (by omega)),
      Dat.leavesExact_idle (dat5 V c) 2 t (idleAt5_2 t hc2) (noFlush5_2 t (by omega))]
    rw [acc5_zero V c t h0]
    rw [PhiS5_castSucc V c t, PhiS5_zero V c _ _ h0]
    iintro ⟨⟨HX, HR, HS0, HS1⟩, Ho, ⟨%d0, H0⟩, ⟨%d1, H1⟩, ⟨%d2, H2⟩⟩
    iapply (sound_kernel5_first c Set.univ (grid5.coords t) hc1 hc2 _ _ _ _ _ _ _ _ _ _ (iblk5 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k5_cond1 (grid5.coords t) = 1#1 := fun h => h0 ((hcond5_1 t).mp h)
    rw [acc5_pos V c t h0]
    rw [PhiS5_castSucc V c t, PhiS5_pos V c _ _ h0]
    by_cases h79 : t.val = 79
    · have hc2 : k5_cond2 (grid5.coords t) = 1#1 := (hcond5_2 t).mpr h79
      rw [show (dat5 V c).leavesExact 1 t = owns (c : Thread nD τ) (st5_1 t) fullShare ((dat5 V c).after 1 t) from by
        unfold Dat.leavesExact; rw [liveAt5_1 t hc2], after5_1]
      rw [show (dat5 V c).leavesExact 2 t = owns (c : Thread nD τ) (st5_2 t) fullShare ((dat5 V c).after 2 t) from by
        unfold Dat.leavesExact; rw [liveAt5_2 t hc2], after5_2]
      rw [acc5_pos V c t h0]
      iintro ⟨⟨HX, HR, HS0, HS1⟩, Ho, ⟨%d0, H0⟩, ⟨%d1, H1⟩, ⟨%d2, H2⟩⟩
      iapply (sound_kernel5_last c Set.univ (grid5.coords t) hc1 hc2 _ _ _ _ _ _ _ _ _ _ (iblk5 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k5_cond2 (grid5.coords t) = 1#1 := fun h => h79 ((hcond5_2 t).mp h)
      rw [Dat.leavesExact_idle (dat5 V c) 1 t (idleAt5_1 t hc2) (noFlush5_1 t h79),
        Dat.leavesExact_idle (dat5 V c) 2 t (idleAt5_2 t hc2) (noFlush5_2 t h79)]
      iintro ⟨⟨HX, HR, HS0, HS1⟩, Ho, ⟨%d0, H0⟩, ⟨%d1, H1⟩, ⟨%d2, H2⟩⟩
      iapply (sound_kernel5_mid c Set.univ (grid5.coords t) hc1 hc2 _ _ _ _ _ _ _ _ _ _ (iblk5 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

/-- Entry: the generator register and the scoped buffers (the two scratch rows among them, at anything) make the invariant before the first point. -/
theorem hin5 (c : Dev nD) : iprop(X5 (F := F) c ∗ Pipeline.scopedRest spec5 c) ⊢ (dat5 V c).Φ 0 := by
  rw [show (dat5 V c).Φ 0 = PhiS5 V c 0 (Nat.zero_le _) from rfl, PhiS5_zero V c 0 _ rfl, scopedRest5_split]
  simp only [scM5_0, scM5_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout5 (c : Dev nD) : (dat5 V c).Φ (Fin.last cfg5.N) ⊢ iprop(X5 (F := F) c ∗ Pipeline.scopedRest spec5 c) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 80 := N_5; omega), scopedRest5_split]
  simp only [scM5_0, scM5_1, owns_whole]
  iintro ⟨HX, HR, HS0, HS1⟩
  isplitl [HX]; · iexact HX
  isplitl [HS0 HS1]
  · isplitl [HS0]; · iexists _; iexact HS0
    iexists _; iexact HS1
  iexact HR

end Regions

end Cert.KernelIdeal.Rg

end
-- ==== Proof.Rg6.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 6: normalise, rectify, add the residual — the frame half

Region 6 walks the 320000 rows of its operands in 80 blocks of 4000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses -/

/-- The whole 4000x128 block, -/
abbrev r6_big : Rect S4000x128 := Rect.unit (s := S4000x128) ![0, 0] S4000x128.size inb_S4000x128_S4000x128_0_0
/-- and the whole 1x128 row. -/
abbrev r6_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out6_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r6_big, k6_pay1 (View.ld x0 r6_big) (View.ld x4 r6_row) (View.ld x2 r6_row) (View.ld x3 r6_row) (View.ld x5 r6_row) (View.ld x1 r6_big)⟩]

/-- The one store is of the whole block, so it covers it. -/
theorem cover6_6 (p0 : Vec F S4000x128 .f32) (y : S4000x128.Idx) :
    ∃ pc ∈ ([⟨r6_big, p0⟩] : List (View.Piece (Elt F) S4000x128 .f32)), y ∈ pc.1.set :=
  View.cover_of_tiled [⟨r6_big, p0⟩] S4000x128.size (by rfl) y

/-! ## The body's triple -/

set_option maxHeartbeats 1000000 in
/-- The body, run on whole staging buffers holding the six input blocks and an output buffer holding anything,
    returns the inputs' buffers unchanged and the output's buffer at out6_6 of the inputs. -/
theorem sound_kernel6 (c : Dev nD) (E : Set ℕ) (i : grid6.Coords)
    (arg1 : Memref sig .tc .vmem S4000x128 .f32) (harg1 : arg1.IsWhole) (arg2 : Memref sig .tc .vmem S4000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E (cc6__bn_relu_residual_kernel i arg1 harg1 arg2 harg2 arg3 harg3 arg4 harg4 arg5 harg5 arg6 harg6 arg7 harg7) K := by
  simp only [cc6__bn_relu_residual_kernel_eq_skeleton]; unfold cc6__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The region's proof data -/

/-- The proof data of region 6 on core c: the arrays as the region finds them; after the body at point t each
    input's buffer at its block and the output's at out6_6 of the six input blocks; the invariant the untouched
    rest of the core's state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- The invariant is the same at every point: the rest of the core's state, untouched. -/
theorem Phi6_eq (c : Dev nD) (t : Fin (cfg6.N + 1)) : (dat6 V c).Φ t = Pipeline.ΦA spec6 c := rfl

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t
    = out6_6 (iblk6 V c 0 t) (iblk6 V c 1 t) (iblk6 V c 2 t) (iblk6 V c 3 t) (iblk6 V c 4 t) (iblk6 V c 5 t) := by dsimp only [dat6]

/-- Each input's staging buffer holds its block at every point, whether or not the block was fetched at that
    point: a window not fetched at a point has the block index of the point before, and the body leaves an
    input's buffer as it found it. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6 V c 0]; try rfl) t d).trans
    (by unfold Dat.fetched Dat.blockOf iblk6; rw [A_eq6 V c 0]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6 V c 1]; try rfl) t d).trans
    (by unfold Dat.fetched Dat.blockOf iblk6; rw [A_eq6 V c 1]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6 V c 2]; try rfl) t d).trans
    (by unfold Dat.fetched Dat.blockOf iblk6; rw [A_eq6 V c 2]; try rfl)
theorem before6_3 (c : Dev nD) (t : Fin cfg6.N) (d) : (dat6 V c).before 3 t d = iblk6 V c 3 t :=
  ((dat6 V c).before_in_eq_fetched 3 rfl (fun _ => rfl) (fun _ _ _ => rfl)
      (fun t => by rw [after6_3]; unfold Dat.blockOf iblk6; rw [A_eq6 V c 3]; try rfl) t d).trans
    (by unfold Dat.fetched Dat.blockOf iblk6; rw [A_eq6 V c 3]; try rfl)
theorem before6_4 (c : Dev nD) (t : Fin cfg6.N) (d) : (dat6 V c).before 4 t d = iblk6 V c 4 t :=
  ((dat6 V c).before_in_eq_fetched 4 rfl (fun _ => rfl) (fun _ _ _ => rfl)
      (fun t => by rw [after6_4]; unfold Dat.blockOf iblk6; rw [A_eq6 V c 4]; try rfl) t d).trans
    (by unfold Dat.fetched Dat.blockOf iblk6; rw [A_eq6 V c 4]; try rfl)
theorem before6_5 (c : Dev nD) (t : Fin cfg6.N) (d) : (dat6 V c).before 5 t d = iblk6 V c 5 t :=
  ((dat6 V c).before_in_eq_fetched 5 rfl (fun _ => rfl) (fun _ _ _ => rfl)
      (fun t => by rw [after6_5]; unfold Dat.blockOf iblk6; rw [A_eq6 V c 5]; try rfl) t d).trans
    (by unfold Dat.fetched Dat.blockOf iblk6; rw [A_eq6 V c 5]; try rfl)

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Rg

end
-- ==== Proof.Rg7.lean ====
/-
  Region 7 of the kernel program: the batch statistics of a 20000 x 128 array, accumulated over 10 row blocks of
  2000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-row rectangle of a 1x128 buffer and the whole-block rectangle of a 2000x128 buffer. -/
abbrev rS7 : Rect S1x128 := Rect.unit (s := S1x128) ![0, 0] S1x128.size inb_S1x128_S1x128_0_0
abbrev rX7 : Rect S2000x128 := Rect.unit (s := S2000x128) ![0, 0] S2000x128.size inb_S2000x128_S2000x128_0_0

/-- The first conditional's condition (the grid coordinate is 0), as the kernel computes it. -/
def k7_cond1 (i : grid7.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 9): decided over the 10 points. -/
theorem hcond7_1 : ∀ t : Fin cfg7.N, k7_cond1 (grid7.coords t) = 1#1 ↔ t.val = 0 :=
  (by decide +kernel : ∀ t : Fin grid7.N, k7_cond1 (grid7.coords t) = 1#1 ↔ t.val = 0)
theorem hcond7_2 : ∀ t : Fin cfg7.N, k7_cond2 (grid7.coords t) = 1#1 ↔ t.val = 9 :=
  (by decide +kernel : ∀ t : Fin grid7.N, k7_cond2 (grid7.coords t) = 1#1 ↔ t.val = 9)

/-- One point's step of the two running rows: the row held so far plus the block's column sums (of the entries, of their squares). -/
def step7_0 (x : Vec F S2000x128 .f32) (s0 : Vec F S1x128 .f32) : Vec F S1x128 .f32 :=
  View.canon [⟨rS7, k7_pay4 (View.ld x rX7) (View.ld s0 rS7)⟩]
def step7_1 (x : Vec F S2000x128 .f32) (s1 : Vec F S1x128 .f32) : Vec F S1x128 .f32 :=
  View.canon [⟨rS7, k7_pay5 (View.ld x rX7) (View.ld s1 rS7)⟩]

/-- A store of the whole row covers the 1x128 buffer. -/
theorem coverS7 (p0 : Vec F S1x128 .f32) (y : S1x128.Idx) :
    ∃ pc ∈ ([⟨rS7, p0⟩] : List (View.Piece (Elt F) S1x128 .f32)), y ∈ pc.1.set :=
  View.cover_of_tiled [⟨rS7, p0⟩] S1x128.size (by rfl) y

set_option maxHeartbeats 1000000 in
/-- The body at a point that is neither first nor last: both conditionals fall through; the block and the two output rows are left as found, each scratch row steps. -/
theorem sound_kernel7_mid (c : Dev nD) (E : Set ℕ) (i : grid7.Coords) (hc1 : ¬ k7_cond1 i = 1#1) (hc2 : ¬ k7_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg7 : Memref sig .tc .vmem S1x128 .f32) (harg7 : arg7.IsWhole)
    (x : Vec F S2000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg7 fullShare s1
        ∗ (iprop(owns (c : Thread nD τ) arg1 fullShare x ∗ owns (c : Thread nD τ) arg2 fullShare y1 ∗ owns (c : Thread nD τ) arg3 fullShare y2
            ∗ owns (c : Thread nD τ) arg4 fullShare (step7_0 x s0) ∗ owns (c : Thread nD τ) arg7 fullShare (step7_1 x s1)) -∗ K ⟨⟩))
      ⊢ wp frame (wpE (defs₀ (F := F)) Variants.none c none) E (cc7_kernel i arg1 harg1 arg2 harg2 arg3 harg3 arg4 harg4 arg7 harg7) K := by
  simp only [cc7_kernel_eq_skeleton]; unfold cc7_kernel_skel
  unfold owns
  iintro ⟨⟨%f1, %hf1, H1⟩, H2, H3, ⟨%f4, %hf4, H4⟩, ⟨%f7, %hf7, H7⟩, Hk⟩
  subst hf1; subst hf4; subst hf7
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS7 _)
  iexists _; isplitr
  swap; · iexact H7
  ipureintro
  exact View.read_writes_eq_canon _ _ _ (coverS7 _)

/-- A whole-row store hides every earlier store: the contents are the last payload's. -/
theorem canon_headS7 (p : Vec F S1x128 .f32) (L : List (View.Piece (Elt F) S1x128 .f32)) :
    View.canon (⟨rS7, p⟩ :: L) = View.canon [⟨rS7, p⟩] := by
  funext y
  obtain ⟨pc, hm, hy⟩ := coverS7 p y
  rw [List.mem_singleton] at hm; subst hm
  obtain ⟨x, rfl⟩ := rS7.exists_idx_of_mem hy
  exact (View.canon_cons_emb rS7 p L x).trans (View.canon_cons_emb rS7 p [] x).symm

/-- What a buffer reads after a list of stores whose last is a whole-row store. -/
theorem read_writes_headS7 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS7, p⟩ :: L)) = View.canon [⟨rS7, p⟩] :=
  (View.read_writes_eq_canon v f _ (fun y => by
    obtain ⟨pc, hm, hy⟩ := coverS7 p y
    rw [List.mem_singleton] at hm; subst hm
    exact ⟨_, List.mem_cons_self, hy⟩)).trans (canon_headS7 p L)

/-- The zero rows the first point resets the two scratch rows to. -/
def init7_0 : Vec F S1x128 .f32 := View.canon [⟨rS7, k7_pay1 (F := F)⟩]
def init7_1 : Vec F S1x128 .f32 := View.canon [⟨rS7, k7_pay2 (F := F)⟩]

set_option maxHeartbeats 1000000 in
/-- The body at the first point: the scratch rows, found at anything, are reset to zero and then step; the output rows are left as found. -/
theorem sound_kernel7_first (c : Dev nD) (E : Set ℕ) (i : grid7.Coords) (hc1 : k7_cond1 i = 1#1) (hc2 : ¬ k7_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg7 : Memref sig .tc .vmem S1x128 .f32) (harg7 : arg7.IsWhole)
    (x : Vec F S2000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg7 fullShare d)
        ∗ (iprop(owns (c : Thread nD τ) arg1 fullShare x ∗ owns (c : Thread nD τ) arg2 fullShare y1 ∗ owns (c : Thread nD τ) arg3 fullShare y2
            ∗ owns (c : Thread nD τ) arg4 fullShare (step7_0 x init7_0) ∗ owns (c : Thread nD τ) arg7 fullShare (step7_1 x init7_1)) -∗ K ⟨⟩))
      ⊢ wp frame (wpE (defs₀ (F := F)) Variants.none c none) E (cc7_kernel i arg1 harg1 arg2 harg2 arg3 harg3 arg4 harg4 arg7 harg7) K := by
  simp only [cc7_kernel_eq_skeleton]; unfold cc7_kernel_skel
  unfold owns
  iintro ⟨⟨%f1, %hf1, H1⟩, H2, H3, ⟨%d4, %f4, -, H4⟩, ⟨%d7, %f7, -, H7⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel7_first.sl.v5 sound_kernel7_first.sl.H4_1
    rw [View.readCov_eq_canon_ld _ _ _ (coverS7 _)]
    exact read_writes_headS7 _ _ _ _
  iexists _; isplitr
  swap; · iexact H7
  ipureintro
  unfold sound_kernel7_first.sl.v12 sound_kernel7_first.sl.H7_1
  rw [View.readCov_eq_canon_ld _ _ _ (coverS7 _)]
  exact read_writes_headS7 _ _ _ _

/-- The output rows as the last point computes them from the final running rows: the mean is the column sum over the count; the variance is the sum of squares over the count minus the squared mean. -/
def out7_1 (s0 : Vec F S1x128 .f32) : Vec F S1x128 .f32 :=
  View.canon [⟨rS7, k7_pay6 (View.ld s0 rS7)⟩]
def out7_2 (s0 s1 : Vec F S1x128 .f32) : Vec F S1x128 .f32 :=
  View.canon [⟨rS7, k7_pay7 (View.ld s0 rS7) (View.ld s1 rS7)⟩]

set_option maxHeartbeats 1000000 in
/-- The body at the last point: the scratch rows step, then the two output rows, found at anything, are stored from the stepped rows. -/
theorem sound_kernel7_last (c : Dev nD) (E : Set ℕ) (i : grid7.Coords) (hc1 : ¬ k7_cond1 i = 1#1) (hc2 : k7_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg7 : Memref sig .tc .vmem S1x128 .f32) (harg7 : arg7.IsWhole)
    (x : Vec F S2000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg7 fullShare s1
        ∗ (iprop(owns (c : Thread nD τ) arg1 fullShare x ∗ owns (c : Thread nD τ) arg2 fullShare (out7_1 (step7_0 x s0))
            ∗ owns (c : Thread nD τ) arg3 fullShare (out7_2 (step7_0 x s0) (step7_1 x s1))
            ∗ owns (c : Thread nD τ) arg4 fullShare (step7_0 x s0) ∗ owns (c : Thread nD τ) arg7 fullShare (step7_1 x s1)) -∗ K ⟨⟩))
      ⊢ wp frame (wpE (defs₀ (F := F)) Variants.none c none) E (cc7_kernel i arg1 harg1 arg2 harg2 arg3 harg3 arg4 harg4 arg7 harg7) K := by
  simp only [cc7_kernel_eq_skeleton]; unfold cc7_kernel_skel
  unfold owns
  iintro ⟨⟨%f1, %hf1, H1⟩, ⟨%d2, %f2, -, H2⟩, ⟨%d3, %f3, -, H3⟩, ⟨%f4, %hf4, H4⟩, ⟨%f7, %hf7, H7⟩, Hk⟩
  subst hf1; subst hf4; subst hf7
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel7_last.sl.v23 sound_kernel7_last.sl.H4_1
    rw [View.readCov_eq_canon_ld _ _ _ (coverS7 _)]
    exact View.read_writes_eq_canon _ _ _ (coverS7 _)
  isplitl [H3]
  · iexists _; isplitr
    swap; · iexact H3
    ipureintro
    unfold sound_kernel7_last.sl.v23 sound_kernel7_last.sl.v26 sound_kernel7_last.sl.H4_1 sound_kernel7_last.sl.H7_1
    rw [View.readCov_eq_canon_ld _ _ _ (coverS7 _), View.readCov_eq_canon_ld _ _ _ (coverS7 _)]
    exact View.read_writes_eq_canon _ _ _ (coverS7 _)
  isplitl [H4]
  · iexists _; isplitr
    swap; · iexact H4
    ipureintro
    exact View.read_writes_eq_canon _ _ _ (coverS7 _)
  iexists _; isplitr
  swap; · iexact H7
  ipureintro
  exact View.read_writes_eq_canon _ _ _ (coverS7 _)

section Regions
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current buffer holds its block at every point, for any proof data over these arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- THE ACCUMULATION. The two scratch rows after point n: at point 0 one step from the zero rows, afterwards one step from what the point before left. -/
def acc7 (c : Dev nD) : (n : ℕ) → n < cfg7.N → Vec F S1x128 .f32 × Vec F S1x128 .f32
  | 0, hn => (step7_0 (iblk7 V c 0 ⟨0, hn⟩) init7_0, step7_1 (iblk7 V c 0 ⟨0, hn⟩) init7_1)
  | n + 1, hn => (step7_0 (iblk7 V c 0 ⟨n + 1, hn⟩) (acc7 c n (Nat.lt_of_succ_lt hn)).1,
      step7_1 (iblk7 V c 0 ⟨n + 1, hn⟩) (acc7 c n (Nat.lt_of_succ_lt hn)).2)

/-- The accumulation at the first point, and at a later point over the point before. -/
theorem acc7_zero (c : Dev nD) (t : Fin cfg7.N) (h0 : t.val = 0) :
    acc7 V c t.val t.isLt = (step7_0 (iblk7 V c 0 t) init7_0, step7_1 (iblk7 V c 0 t) init7_1) := by
  obtain ⟨n, hn⟩ := t
  cases n with
  | zero => rfl
  | succ n => exact absurd h0 (Nat.succ_ne_zero n)

theorem acc7_pos (c : Dev nD) (t : Fin cfg7.N) (h0 : t.val ≠ 0) :
    acc7 V c t.val t.isLt = (step7_0 (iblk7 V c 0 t) (acc7 V c (t.val - 1) (Nat.lt_of_le_of_lt (Nat.sub_le _ _) t.isLt)).1,
      step7_1 (iblk7 V c 0 t) (acc7 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM7_0 : Memref sig .tc .vmem S1x128 .f32 := Memref.whole cc7_scratch0
abbrev scM7_1 : Memref sig .tc .vmem S1x128 .f32 := Memref.whole cc7_scratch1

/-- What enters the invariant besides the scoped buffers: the generator register at some state. -/
def X7 (c : Dev nD) : sProp 𝕄 := iprop(∃ r, prngReg c r)

/-- The region invariant before position n: the generator register, the scoped buffers other than the two scratch rows, and the two scratch rows — at anything before the first point, afterwards at what the point before left. -/
def PhiS7 (c : Dev nD) : (n : ℕ) → n ≤ cfg7.N → sProp 𝕄
  | 0, _ => iprop(X7 (F := F) c ∗ Pipeline.scopedRestBut spec7 c [cc7_scratch0, cc7_scratch1]
      ∗ (∃ d, owns (c : Thread nD τ) scM7_0 fullShare d) ∗ (∃ d, owns (c : Thread nD τ) scM7_1 fullShare d))
  | n + 1, hn => iprop(X7 (F := F) c ∗ Pipeline.scopedRestBut spec7 c [cc7_scratch0, cc7_scratch1]
      ∗ owns (c : Thread nD τ) scM7_0 fullShare (acc7 V c n hn).1 ∗ owns (c : Thread nD τ) scM7_1 fullShare (acc7 V c n hn).2)

/-- The invariant's three readings: before the first point, after point n, before a later point. -/
theorem PhiS7_zero (c : Dev nD) (n : ℕ) (h : n ≤ cfg7.N) (hz : n = 0) :
    PhiS7 V c n h = iprop(X7 (F := F) c ∗ Pipeline.scopedRestBut spec7 c [cc7_scratch0, cc7_scratch1]
      ∗ (∃ d, owns (c : Thread nD τ) scM7_0 fullShare d) ∗ (∃ d, owns (c : Thread nD τ) scM7_1 fullShare d)) := by
  subst hz; rfl

theorem PhiS7_succ (c : Dev nD) (n : ℕ) (hn : n < cfg7.N) :
    PhiS7 V c (n + 1) hn = iprop(X7 (F := F) c ∗ Pipeline.scopedRestBut spec7 c [cc7_scratch0, cc7_scratch1]
      ∗ owns (c : Thread nD τ) scM7_0 fullShare (acc7 V c n hn).1 ∗ owns (c : Thread nD τ) scM7_1 fullShare (acc7 V c n hn).2) := rfl

theorem PhiS7_pos (c : Dev nD) (n : ℕ) (h : n ≤ cfg7.N) (hz : n ≠ 0) :
    PhiS7 V c n h = iprop(X7 (F := F) c ∗ Pipeline.scopedRestBut spec7 c [cc7_scratch0, cc7_scratch1]
      ∗ owns (c : Thread nD τ) scM7_0 fullShare (acc7 V c (n - 1) (by omega)).1 ∗ owns (c : Thread nD τ) scM7_1 fullShare (acc7 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (acc7 V c t.val t.isLt).1
    | ⟨2, _⟩ => out7_2 (acc7 V c t.val t.isLt).1 (acc7 V c t.val t.isLt).2
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = out7_1 (acc7 V c t.val t.isLt).1 := by dsimp only [dat7]
theorem after7_2 (c : Dev nD) (t : Fin cfg7.N) : (dat7 V c).after 2 t = out7_2 (acc7 V c t.val t.isLt).1 (acc7 V c t.val t.isLt).2 := by dsimp only [dat7]

/-- The input's current buffer holds its block at every point. -/
theorem before7_0 (c : Dev nD) (t : Fin cfg7.N) (d) : (dat7 V c).before 0 t d = iblk7 V c 0 t :=
  before7_0_of V (dat7 V c) (A_eq7 V c 0) (after7_0 V c) t d

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- Where the windows are idle: the input never; each output row exactly off the last point, where it is not written back either. -/
theorem liveAt7_0 (t : Fin cfg7.N) : cfg7.idle 0 (cfg7.grid.coords t) = false := rfl

theorem idleAt7_1 (t : Fin cfg7.N) (h : ¬ k7_cond2 (grid7.coords t) = 1#1) : cfg7.idle 1 (cfg7.grid.coords t) = true := by
  show (!(k7_cond2 (grid7.coords t) == 1#1)) = true
  rw [Bool.not_eq_true', beq_eq_false_iff_ne]; exact h
theorem idleAt7_2 (t : Fin cfg7.N) (h : ¬ k7_cond2 (grid7.coords t) = 1#1) : cfg7.idle 2 (cfg7.grid.coords t) = true := by
  show (!(k7_cond2 (grid7.coords t) == 1#1)) = true
  rw [Bool.not_eq_true', beq_eq_false_iff_ne]; exact h
theorem liveAt7_1 (t : Fin cfg7.N) (h : k7_cond2 (grid7.coords t) = 1#1) : cfg7.idle 1 (cfg7.grid.coords t) = false := by
  show (!(k7_cond2 (grid7.coords t) == 1#1)) = false
  rw [h]; rfl
theorem liveAt7_2 (t : Fin cfg7.N) (h : k7_cond2 (grid7.coords t) = 1#1) : cfg7.idle 2 (cfg7.grid.coords t) = false := by
  show (!(k7_cond2 (grid7.coords t) == 1#1)) = false
  rw [h]; rfl

theorem noFlush7_1 (t : Fin cfg7.N) (h : t.val ≠ 9) : (cfg7.win 1).flush t = false := by
  have hN : t.val < 10 := lt_of_lt_of_eq t.isLt (show cfg7.N = 10 from N_7)
  cases hf : (cfg7.win 1).flush t with
  | false => rfl
  | true => exact absurd ((flush7_1 t).mp hf) (by omega)
theorem noFlush7_2 (t : Fin cfg7.N) (h : t.val ≠ 9) : (cfg7.win 2).flush t = false := by
  have hN : t.val < 10 := lt_of_lt_of_eq t.isLt (show cfg7.N = 10 from N_7)
  cases hf : (cfg7.win 2).flush t with
  | false => rfl
  | true => exact absurd ((flush7_2 t).mp hf) (by omega)

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point, by the point's position: first (scratch at anything, reset), last (the output rows stored), or between; the invariant hands the scratch rows over at what the point before left and takes them back stepped. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  have hN : t.val < 10 := lt_of_lt_of_eq t.isLt (show cfg7.N = 10 from N_7)
  by_cases h0 : t.val = 0
  · have hc1 : k7_cond1 (grid7.coords t) = 1#1 := (hcond7_1 t).mpr h0
    have hc2 : ¬ k7_cond2 (grid7.coords t) = 1#1 := fun h => by have := (hcond7_2 t).mp h; omega
    rw [Dat.leavesExact_idle (dat7 V c) 1 t (idleAt7_1 t hc2) (noFlush7_1 t (by omega)),
      Dat.leavesExact_idle (dat7 V c) 2 t (idleAt7_2 t hc2) (noFlush7_2 t (by omega))]
    rw [acc7_zero V c t h0]
    rw [PhiS7_castSucc V c t, PhiS7_zero V c _ _ h0]
    iintro ⟨⟨HX, HR, HS0, HS1⟩, Ho, ⟨%d0, H0⟩, ⟨%d1, H1⟩, ⟨%d2, H2⟩⟩
    iapply (sound_kernel7_first c Set.univ (grid7.coords t) hc1 hc2 _ _ _ _ _ _ _ _ _ _ (iblk7 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k7_cond1 (grid7.coords t) = 1#1 := fun h => h0 ((hcond7_1 t).mp h)
    rw [acc7_pos V c t h0]
    rw [PhiS7_castSucc V c t, PhiS7_pos V c _ _ h0]
    by_cases h79 : t.val = 9
    · have hc2 : k7_cond2 (grid7.coords t) = 1#1 := (hcond7_2 t).mpr h79
      rw [show (dat7 V c).leavesExact 1 t = owns (c : Thread nD τ) (st7_1 t) fullShare ((dat7 V c).after 1 t) from by
        unfold Dat.leavesExact; rw [liveAt7_1 t hc2], after7_1]
      rw [show (dat7 V c).leavesExact 2 t = owns (c : Thread nD τ) (st7_2 t) fullShare ((dat7 V c).after 2 t) from by
        unfold Dat.leavesExact; rw [liveAt7_2 t hc2], after7_2]
      rw [acc7_pos V c t h0]
      iintro ⟨⟨HX, HR, HS0, HS1⟩, Ho, ⟨%d0, H0⟩, ⟨%d1, H1⟩, ⟨%d2, H2⟩⟩
      iapply (sound_kernel7_last c Set.univ (grid7.coords t) hc1 hc2 _ _ _ _ _ _ _ _ _ _ (iblk7 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k7_cond2 (grid7.coords t) = 1#1 := fun h => h79 ((hcond7_2 t).mp h)
      rw [Dat.leavesExact_idle (dat7 V c) 1 t (idleAt7_1 t hc2) (noFlush7_1 t h79),
        Dat.leavesExact_idle (dat7 V c) 2 t (idleAt7_2 t hc2) (noFlush7_2 t h79)]
      iintro ⟨⟨HX, HR, HS0, HS1⟩, Ho, ⟨%d0, H0⟩, ⟨%d1, H1⟩, ⟨%d2, H2⟩⟩
      iapply (sound_kernel7_mid c Set.univ (grid7.coords t) hc1 hc2 _ _ _ _ _ _ _ _ _ _ (iblk7 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

/-- Entry: the generator register and the scoped buffers (the two scratch rows among them, at anything) make the invariant before the first point. -/
theorem hin7 (c : Dev nD) : iprop(X7 (F := F) c ∗ Pipeline.scopedRest spec7 c) ⊢ (dat7 V c).Φ 0 := by
  rw [show (dat7 V c).Φ 0 = PhiS7 V c 0 (Nat.zero_le _) from rfl, PhiS7_zero V c 0 _ rfl, scopedRest7_split]
  simp only [scM7_0, scM7_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout7 (c : Dev nD) : (dat7 V c).Φ (Fin.last cfg7.N) ⊢ iprop(X7 (F := F) c ∗ Pipeline.scopedRest spec7 c) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 10 := N_7; omega), scopedRest7_split]
  simp only [scM7_0, scM7_1, owns_whole]
  iintro ⟨HX, HR, HS0, HS1⟩
  isplitl [HX]; · iexact HX
  isplitl [HS0 HS1]
  · isplitl [HS0]; · iexists _; iexact HS0
    iexists _; iexact HS1
  iexact HR

end Regions

end Cert.KernelIdeal.Rg

end
-- ==== Proof.Rg8.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 8: normalise, rectify, add the residual — the frame half

Region 8 walks the 20000 rows of its operands in 10 blocks of 2000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses -/

/-- The whole 4000x128 block, -/
abbrev r8_big : Rect S2000x128 := Rect.unit (s := S2000x128) ![0, 0] S2000x128.size inb_S2000x128_S2000x128_0_0
/-- and the whole 1x128 row. -/
abbrev r8_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out8_6 (x0 : Vec F S2000x128 .f32) (x1 : Vec F S2000x128 .f32) (x2 : Vec F S1x128 .f32) (x3 : Vec F S1x128 .f32)
    (x4 : Vec F S1x128 .f32) (x5 : Vec F S1x128 .f32) : Vec F S2000x128 .f32 :=
  View.canon [⟨r8_big, k8_pay1 (View.ld x0 r8_big) (View.ld x4 r8_row) (View.ld x2 r8_row) (View.ld x3 r8_row) (View.ld x5 r8_row) (View.ld x1 r8_big)⟩]

/-- The one store is of the whole block, so it covers it. -/
theorem cover8_6 (p0 : Vec F S2000x128 .f32) (y : S2000x128.Idx) :
    ∃ pc ∈ ([⟨r8_big, p0⟩] : List (View.Piece (Elt F) S2000x128 .f32)), y ∈ pc.1.set :=
  View.cover_of_tiled [⟨r8_big, p0⟩] S2000x128.size (by rfl) y

/-! ## The body's triple -/

set_option maxHeartbeats 1000000 in
/-- The body, run on whole staging buffers holding the six input blocks and an output buffer holding anything,
    returns the inputs' buffers unchanged and the output's buffer at out8_6 of the inputs. -/
theorem sound_kernel8 (c : Dev nD) (E : Set ℕ) (i : grid8.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__bn_relu_residual_kernel i arg1 harg1 arg2 harg2 arg3 harg3 arg4 harg4 arg5 harg5 arg6 harg6 arg7 harg7) K := by
  simp only [cc8__bn_relu_residual_kernel_eq_skeleton]; unfold cc8__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The region's proof data -/

/-- The proof data of region 8 on core c: the arrays as the region finds them; after the body at point t each
    input's buffer at its block and the output's at out8_6 of the six input blocks; the invariant the untouched
    rest of the core's state; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- The invariant is the same at every point: the rest of the core's state, untouched. -/
theorem Phi8_eq (c : Dev nD) (t : Fin (cfg8.N + 1)) : (dat8 V c).Φ t = Pipeline.ΦA spec8 c := rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t
    = out8_6 (iblk8 V c 0 t) (iblk8 V c 1 t) (iblk8 V c 2 t) (iblk8 V c 3 t) (iblk8 V c 4 t) (iblk8 V c 5 t) := by dsimp only [dat8]

/-- Each input's staging buffer holds its block at every point, whether or not the block was fetched at that
    point: a window not fetched at a point has the block index of the point before, and the body leaves an
    input's buffer as it found it. -/
theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8 V c 0]; try rfl) t d).trans
    (by unfold Dat.fetched Dat.blockOf iblk8; rw [A_eq8 V c 0]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8 V c 1]; try rfl) t d).trans
    (by unfold Dat.fetched Dat.blockOf iblk8; rw [A_eq8 V c 1]; try rfl)
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2]; unfold Dat.blockOf iblk8; rw [A_eq8 V c 2]; try rfl) t d).trans
    (by unfold Dat.fetched Dat.blockOf iblk8; rw [A_eq8 V c 2]; try rfl)
theorem before8_3 (c : Dev nD) (t : Fin cfg8.N) (d) : (dat8 V c).before 3 t d = iblk8 V c 3 t :=
  ((dat8 V c).before_in_eq_fetched 3 rfl (fun _ => rfl) (fun _ _ _ => rfl)
      (fun t => by rw [after8_3]; unfold Dat.blockOf iblk8; rw [A_eq8 V c 3]; try rfl) t d).trans
    (by unfold Dat.fetched Dat.blockOf iblk8; rw [A_eq8 V c 3]; try rfl)
theorem before8_4 (c : Dev nD) (t : Fin cfg8.N) (d) : (dat8 V c).before 4 t d = iblk8 V c 4 t :=
  ((dat8 V c).before_in_eq_fetched 4 rfl (fun _ => rfl) (fun _ _ _ => rfl)
      (fun t => by rw [after8_4]; unfold Dat.blockOf iblk8; rw [A_eq8 V c 4]; try rfl) t d).trans
    (by unfold Dat.fetched Dat.blockOf iblk8; rw [A_eq8 V c 4]; try rfl)
theorem before8_5 (c : Dev nD) (t : Fin cfg8.N) (d) : (dat8 V c).before 5 t d = iblk8 V c 5 t :=
  ((dat8 V c).before_in_eq_fetched 5 rfl (fun _ => rfl) (fun _ _ _ => rfl)
      (fun t => by rw [after8_5]; unfold Dat.blockOf iblk8; rw [A_eq8 V c 5]; try rfl) t d).trans
    (by unfold Dat.fetched Dat.blockOf iblk8; rw [A_eq8 V c 5]; try rfl)

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation8 (c : Dev nD) : BodyObligation (dat8 (F := F) V c) (defs₀ (F := F)) Variants.none () Set.univ := fun t => by
  rw [bigSep_W8, bigSep_W8]
  exact sound_body8 V c t

end Region8

end Cert.KernelIdeal.Rg

end
-- ==== Proof.Rg9.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 9: the affine map, one row block per grid point

Region 9 computes o = x·W + b over 10 grid points. At point t the body reads the t-th block of 2000 rows
of x (window 0), the whole 128x512 matrix W (window 1) and the 1x512 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

/-! ## The blocks the windows show -/

/-- The block of window w at grid point t: the window's view at t read off the window's array as the
    region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's block at every point, whether the block was
    fetched at that point or carried over from the point before (then the block index has not moved), for any
    proof data whose array is V's and whose body leaves the block where it is. Window 0: the rows of x. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The same for window 1, the matrix W, whose block is the whole array at every point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The same for window 2, the bias row. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The rectangles the body reads and writes: each buffer, whole -/

abbrev r9_x : Rect S2000x128 := Rect.unit (s := S2000x128) ![0, 0] S2000x128.size inb_S2000x128_S2000x128_0_0
abbrev r9_w : Rect S128x512 := Rect.unit (s := S128x512) ![0, 0] S128x512.size inb_S128x512_S128x512_0_0
abbrev r9_b : Rect S1x512 := Rect.unit (s := S1x512) ![0, 0] S1x512.size inb_S1x512_S1x512_0_0
abbrev r9_o : Rect S2000x512 := Rect.unit (s := S2000x512) ![0, 0] S2000x512.size inb_S2000x512_S2000x512_0_0

/-! ## What the body leaves in the output block -/

/-- The output block after the body, as a function of the three input blocks: the body's single store,
    of the affine payload of the three blocks read whole, laid over the whole buffer. -/
def out9_3 (x0 : Vec F S2000x128 .f32) (x1 : Vec F S128x512 .f32) (x2 : Vec F S1x512 .f32) : Vec F S2000x512 .f32 :=
  View.canon [⟨r9_o, k9_pay1 (View.ld x0 r9_x) (View.ld x1 r9_w) (View.ld x2 r9_b)⟩]

/-- The single store tiles the output buffer, so every index of the buffer lies in it. -/
theorem cover9_3 (p0 : Vec F S2000x512 .f32) (y : S2000x512.Idx) :
    ∃ pc ∈ ([⟨r9_o, p0⟩] : List (View.Piece (Elt F) S2000x512 .f32)), y ∈ pc.1.set :=
  View.cover_of_tiled [⟨r9_o, p0⟩] S2000x512.size (by rfl) y

/-! ## The body's triple -/

set_option maxHeartbeats 1000000 in
/-- The body, run on whole staging buffers with the three inputs at contents x0, x1, x2 and the output at
    any contents, reaches its continuation with the inputs as they were and the output at out9_3 of the inputs.
    The body also reads the output buffer before its store; the value read is not used. -/
theorem sound_kernel9 (c : Dev nD) (E : Set ℕ) (i : grid9.Coords)
    (arg1 : Memref sig .tc .vmem S2000x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out9_3 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The region's proof data -/

/-- The proof data of region 9 on core c: the arrays as the region finds them; after the body at point t
    each input buffer still at its block and the output buffer at out9_3 of the three input blocks; the
    invariant is the class's (the scoped rest and the generator register, untouched); nothing owed; full
    shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the contents at the region's entry. -/
theorem A_eq9 (c : Dev nD) (w : Fin cfg9.W) : (dat9 V c).A w = V c (Pipeline.arrRef spec9 w) := by
  dsimp only [dat9]

/-- The invariant at every point is the class invariant. -/
theorem Phi9_eq (c : Dev nD) (t : Fin (cfg9.N + 1)) : (dat9 V c).Φ t = Pipeline.ΦA spec9 c := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-- Each input's staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

/-- What the body is called with at point t: the invariant, the core's debt, and the four staging buffers,
    each at what the pipeline has put there. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- What the body returns at point t. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the input buffers hold their blocks, so the body's triple applies; the invariant
    and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.KernelIdeal.Rg

end
-- ==== Proof.Rg10.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 10: the affine map, one row block per grid point

Region 10 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
variable (V : (c : Dev nD) → (b : Ref sig .tc) → Buf (Elt F) ((c : Thread nD τ).loc b))

/-! ## The blocks the windows show -/

/-- The block of window w at grid point t: the window's view at t read off the window's array as the
    region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds the window's block at every point, whether the block was
    fetched at that point or carried over from the point before (then the block index has not moved), for any
    proof data whose array is V's and whose body leaves the block where it is. Window 0: the rows of x. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The same for window 1, the matrix W, whose block is the whole array at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The same for window 2, the bias row. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The rectangles the body reads and writes: each buffer, whole -/

abbrev r10_x : Rect S4000x128 := Rect.unit (s := S4000x128) ![0, 0] S4000x128.size inb_S4000x128_S4000x128_0_0
abbrev r10_w : Rect S128x128 := Rect.unit (s := S128x128) ![0, 0] S128x128.size inb_S128x128_S128x128_0_0
abbrev r10_b : Rect S1x128 := Rect.unit (s := S1x128) ![0, 0] S1x128.size inb_S1x128_S1x128_0_0
abbrev r10_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out10_3 (x0 : Vec F S4000x128 .f32) (x1 : Vec F S128x128 .f32) (x2 : Vec F S1x128 .f32) : Vec F S4000x128 .f32 :=
  View.canon [⟨r10_o, k10_pay1 (View.ld x0 r10_x) (View.ld x1 r10_w) (View.ld x2 r10_b)⟩]

/-- The single store tiles the output buffer, so every index of the buffer lies in it. -/
theorem cover10_3 (p0 : Vec F S4000x128 .f32) (y : S4000x128.Idx) :
    ∃ pc ∈ ([⟨r10_o, p0⟩] : List (View.Piece (Elt F) S4000x128 .f32)), y ∈ pc.1.set :=
  View.cover_of_tiled [⟨r10_o, p0⟩] S4000x128.size (by rfl) y

/-! ## The body's triple -/

set_option maxHeartbeats 1000000 in
/-- The body, run on whole staging buffers with the three inputs at contents x0, x1, x2 and the output at
    any contents, reaches its continuation with the inputs as they were and the output at out10_3 of the inputs.
    The body also reads the output buffer before its store; the value read is not used. -/
theorem sound_kernel10 (c : Dev nD) (E : Set ℕ) (i : grid10.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The region's proof data -/

/-- The proof data of region 10 on core c: the arrays as the region finds them; after the body at point t
    each input buffer still at its block and the output buffer at out10_3 of the three input blocks; the
    invariant is the class's (the scoped rest and the generator register, untouched); nothing owed; full
    shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the contents at the region's entry. -/
theorem A_eq10 (c : Dev nD) (w : Fin cfg10.W) : (dat10 V c).A w = V c (Pipeline.arrRef spec10 w) := by
  dsimp only [dat10]

/-- The invariant at every point is the class invariant. -/
theorem Phi10_eq (c : Dev nD) (t : Fin (cfg10.N + 1)) : (dat10 V c).Φ t = Pipeline.ΦA spec10 c := rfl

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

/-- Each input's staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation -/

/-- What the body is called with at point t: the invariant, the core's debt, and the four staging buffers,
    each at what the pipeline has put there. -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- What the body returns at point t. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the input buffers hold their blocks, so the body's triple applies; the invariant
    and the core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Region10

end Cert.KernelIdeal.Rg

end
-- ==== Proof.Rg11.lean ====
/- The frame half of kernel region 11 (the gate kernel) of the program's run, generic in the float family: at the
   TensorCore's buffer contents V on entry, each window's block at a point of the grid, what the body leaves in its
   two output staging buffers as functions of the four input blocks, the body's triple, the region's exact proof data
   and the body obligation at every point. -/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
variable (V : (c : Dev nD) → (b : Ref sig .tc) → Buf (Elt F) ((c : Thread nD τ).loc b))

/-! # Region 11: ehat = ce + dh + eh, msg = logistic ehat * bh, row block by row block -/

/-- The block of window w at grid point t, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds the window's block at every point, for any proof data whose array
    is the entry contents and whose body leaves the block where it found it: the window is uncut and has no idle point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole 4000 x 128 block as a rectangle of itself: every load and store of the body is at it. -/
abbrev r11_0 : Rect S4000x128 := Rect.unit (s := S4000x128) ![0, 0] S4000x128.size inb_S4000x128_S4000x128_0_0

/-- The pre-activation block the body leaves in window 4's buffer, from the blocks of ce, dh, eh. -/
def out11_4 (x0 x1 x2 : Vec F S4000x128 .f32) : Vec F S4000x128 .f32 :=
  View.canon [⟨r11_0, k11_pay1 (View.ld x0 r11_0) (View.ld x1 r11_0) (View.ld x2 r11_0)⟩]

/-- The gated message block the body leaves in window 5's buffer, from the blocks of ce, dh, eh, bh. -/
def out11_5 (x0 x1 x2 x3 : Vec F S4000x128 .f32) : Vec F S4000x128 .f32 :=
  View.canon [⟨r11_0, k11_pay2 (View.ld x0 r11_0) (View.ld x1 r11_0) (View.ld x2 r11_0) (View.ld x3 r11_0)⟩]

/-- The one whole-block store covers the buffer. -/
theorem cover11 (p0 : Vec F S4000x128 .f32) (y : S4000x128.Idx) :
    ∃ pc ∈ ([⟨r11_0, p0⟩] : List (View.Piece (Elt F) S4000x128 .f32)), y ∈ pc.1.set :=
  View.cover_of_tiled [⟨r11_0, p0⟩] S4000x128.size (by rfl) y

set_option maxHeartbeats 1000000 in
/-- The body on whole staging memrefs, the four inputs' at contents x0 … x3 and the two outputs' at anything, runs to
    a state with the inputs' as they were and the outputs' at out11_4 and out11_5 of the inputs'. The body reads each
    output memref once before it stores to it; the value read is not used. -/
theorem sound_kernel11 (c : Dev nD) (E : Set ℕ) (i : grid11.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2)
            ∗ owns (c : Thread nD τ) arg6 fullShare (out11_5 x0 x1 x2 x3)) -∗ K ⟨⟩))
      ⊢ wp frame (wpE (defs₀ (F := F)) Variants.none c none) E (cc11__gate_kernel i arg1 harg1 arg2 harg2 arg3 harg3 arg4 harg4 arg5 harg5 arg6 harg6) K := by
  simp only [cc11__gate_kernel_eq_skeleton]; unfold cc11__gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover11 _)
  iexists _; isplitr
  swap; · iexact H5
  ipureintro
  exact View.read_writes_eq_canon _ _ _ (cover11 _)

/-- The proof data of region 11 on core c: the arrays as the region finds them; after the body at point t each input's
    buffer at its block and the outputs' at out11_4, out11_5 of the input blocks; the class invariant; nothing owed; full
    shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t)
    | ⟨5, _⟩ => out11_5 (iblk11 V c 0 t) (iblk11 V c 1 t) (iblk11 V c 2 t) (iblk11 V c 3 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- The invariant is the class's at every point. -/
theorem Phi11_eq (c : Dev nD) (t : Fin (cfg11.N + 1)) : (dat11 V c).Φ t = Pipeline.ΦA spec11 c := rfl

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) := by dsimp only [dat11]
theorem after11_5 (c : Dev nD) (t : Fin cfg11.N) :
    (dat11 V c).after 5 t = out11_5 (iblk11 V c 0 t) (iblk11 V c 1 t) (iblk11 V c 2 t) (iblk11 V c 3 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Region11

end Cert.KernelIdeal.Rg

end
-- ==== Proof.Rg12.lean ====
/-
  Region 12 of the kernel program: the batch statistics of a 320000 x 128 array, accumulated over 80 row blocks of
  4000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-row rectangle of a 1x128 buffer and the whole-block rectangle of a 4000x128 buffer. -/
abbrev rS12 : Rect S1x128 := Rect.unit (s := S1x128) ![0, 0] S1x128.size inb_S1x128_S1x128_0_0
abbrev rX12 : Rect S4000x128 := Rect.unit (s := S4000x128) ![0, 0] S4000x128.size inb_S4000x128_S4000x128_0_0

/-- The first conditional's condition (the grid coordinate is 0), as the kernel computes it. -/
def k12_cond1 (i : grid12.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 79): decided over the 80 points. -/
theorem hcond12_1 : ∀ t : Fin cfg12.N, k12_cond1 (grid12.coords t) = 1#1 ↔ t.val = 0 :=
  (by decide +kernel : ∀ t : Fin grid12.N, k12_cond1 (grid12.coords t) = 1#1 ↔ t.val = 0)
theorem hcond12_2 : ∀ t : Fin cfg12.N, k12_cond2 (grid12.coords t) = 1#1 ↔ t.val = 79 :=
  (by decide +kernel : ∀ t : Fin grid12.N, k12_cond2 (grid12.coords t) = 1#1 ↔ t.val = 79)

/-- One point's step of the two running rows: the row held so far plus the block's column sums (of the entries, of their squares). -/
def step12_0 (x : Vec F S4000x128 .f32) (s0 : Vec F S1x128 .f32) : Vec F S1x128 .f32 :=
  View.canon [⟨rS12, k12_pay4 (View.ld x rX12) (View.ld s0 rS12)⟩]
def step12_1 (x : Vec F S4000x128 .f32) (s1 : Vec F S1x128 .f32) : Vec F S1x128 .f32 :=
  View.canon [⟨rS12, k12_pay5 (View.ld x rX12) (View.ld s1 rS12)⟩]

/-- A store of the whole row covers the 1x128 buffer. -/
theorem coverS12 (p0 : Vec F S1x128 .f32) (y : S1x128.Idx) :
    ∃ pc ∈ ([⟨rS12, p0⟩] : List (View.Piece (Elt F) S1x128 .f32)), y ∈ pc.1.set :=
  View.cover_of_tiled [⟨rS12, p0⟩] S1x128.size (by rfl) y

set_option maxHeartbeats 1000000 in
/-- The body at a point that is neither first nor last: both conditionals fall through; the block and the two output rows are left as found, each scratch row steps. -/
theorem sound_kernel12_mid (c : Dev nD) (E : Set ℕ) (i : grid12.Coords) (hc1 : ¬ k12_cond1 i = 1#1) (hc2 : ¬ k12_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg12 : Memref sig .tc .vmem S1x128 .f32) (harg12 : arg12.IsWhole)
    (x : Vec F S4000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg12 fullShare s1
        ∗ (iprop(owns (c : Thread nD τ) arg1 fullShare x ∗ owns (c : Thread nD τ) arg2 fullShare y1 ∗ owns (c : Thread nD τ) arg3 fullShare y2
            ∗ owns (c : Thread nD τ) arg4 fullShare (step12_0 x s0) ∗ owns (c : Thread nD τ) arg12 fullShare (step12_1 x s1)) -∗ K ⟨⟩))
      ⊢ wp frame (wpE (defs₀ (F := F)) Variants.none c none) E (cc12_kernel i arg1 harg1 arg2 harg2 arg3 harg3 arg4 harg4 arg12 harg12) K := by
  simp only [cc12_kernel_eq_skeleton]; unfold cc12_kernel_skel
  unfold owns
  iintro ⟨⟨%f1, %hf1, H1⟩, H2, H3, ⟨%f4, %hf4, H4⟩, ⟨%f12, %hf12, H12⟩, Hk⟩
  subst hf1; subst hf4; subst hf12
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS12 _)
  iexists _; isplitr
  swap; · iexact H12
  ipureintro
  exact View.read_writes_eq_canon _ _ _ (coverS12 _)

/-- A whole-row store hides every earlier store: the contents are the last payload's. -/
theorem canon_headS12 (p : Vec F S1x128 .f32) (L : List (View.Piece (Elt F) S1x128 .f32)) :
    View.canon (⟨rS12, p⟩ :: L) = View.canon [⟨rS12, p⟩] := by
  funext y
  obtain ⟨pc, hm, hy⟩ := coverS12 p y
  rw [List.mem_singleton] at hm; subst hm
  obtain ⟨x, rfl⟩ := rS12.exists_idx_of_mem hy
  exact (View.canon_cons_emb rS12 p L x).trans (View.canon_cons_emb rS12 p [] x).symm

/-- What a buffer reads after a list of stores whose last is a whole-row store. -/
theorem read_writes_headS12 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS12, p⟩ :: L)) = View.canon [⟨rS12, p⟩] :=
  (View.read_writes_eq_canon v f _ (fun y => by
    obtain ⟨pc, hm, hy⟩ := coverS12 p y
    rw [List.mem_singleton] at hm; subst hm
    exact ⟨_, List.mem_cons_self, hy⟩)).trans (canon_headS12 p L)

/-- The zero rows the first point resets the two scratch rows to. -/
def init12_0 : Vec F S1x128 .f32 := View.canon [⟨rS12, k12_pay1 (F := F)⟩]
def init12_1 : Vec F S1x128 .f32 := View.canon [⟨rS12, k12_pay2 (F := F)⟩]

set_option maxHeartbeats 1000000 in
/-- The body at the first point: the scratch rows, found at anything, are reset to zero and then step; the output rows are left as found. -/
theorem sound_kernel12_first (c : Dev nD) (E : Set ℕ) (i : grid12.Coords) (hc1 : k12_cond1 i = 1#1) (hc2 : ¬ k12_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg12 : Memref sig .tc .vmem S1x128 .f32) (harg12 : arg12.IsWhole)
    (x : Vec F S4000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg12 fullShare d)
        ∗ (iprop(owns (c : Thread nD τ) arg1 fullShare x ∗ owns (c : Thread nD τ) arg2 fullShare y1 ∗ owns (c : Thread nD τ) arg3 fullShare y2
            ∗ owns (c : Thread nD τ) arg4 fullShare (step12_0 x init12_0) ∗ owns (c : Thread nD τ) arg12 fullShare (step12_1 x init12_1)) -∗ K ⟨⟩))
      ⊢ wp frame (wpE (defs₀ (F := F)) Variants.none c none) E (cc12_kernel i arg1 harg1 arg2 harg2 arg3 harg3 arg4 harg4 arg12 harg12) K := by
  simp only [cc12_kernel_eq_skeleton]; unfold cc12_kernel_skel
  unfold owns
  iintro ⟨⟨%f1, %hf1, H1⟩, H2, H3, ⟨%d4, %f4, -, H4⟩, ⟨%d12, %f12, -, H12⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel12_first.sl.v5 sound_kernel12_first.sl.H4_1
    rw [View.readCov_eq_canon_ld _ _ _ (coverS12 _)]
    exact read_writes_headS12 _ _ _ _
  iexists _; isplitr
  swap; · iexact H12
  ipureintro
  unfold sound_kernel12_first.sl.v12 sound_kernel12_first.sl.H12_1
  rw [View.readCov_eq_canon_ld _ _ _ (coverS12 _)]
  exact read_writes_headS12 _ _ _ _

/-- The output rows as the last point computes them from the final running rows: the mean is the column sum over the count; the variance is the sum of squares over the count minus the squared mean. -/
def out12_1 (s0 : Vec F S1x128 .f32) : Vec F S1x128 .f32 :=
  View.canon [⟨rS12, k12_pay6 (View.ld s0 rS12)⟩]
def out12_2 (s0 s1 : Vec F S1x128 .f32) : Vec F S1x128 .f32 :=
  View.canon [⟨rS12, k12_pay7 (View.ld s0 rS12) (View.ld s1 rS12)⟩]

set_option maxHeartbeats 1000000 in
/-- The body at the last point: the scratch rows step, then the two output rows, found at anything, are stored from the stepped rows. -/
theorem sound_kernel12_last (c : Dev nD) (E : Set ℕ) (i : grid12.Coords) (hc1 : ¬ k12_cond1 i = 1#1) (hc2 : k12_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg12 : Memref sig .tc .vmem S1x128 .f32) (harg12 : arg12.IsWhole)
    (x : Vec F S4000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg12 fullShare s1
        ∗ (iprop(owns (c : Thread nD τ) arg1 fullShare x ∗ owns (c : Thread nD τ) arg2 fullShare (out12_1 (step12_0 x s0))
            ∗ owns (c : Thread nD τ) arg3 fullShare (out12_2 (step12_0 x s0) (step12_1 x s1))
            ∗ owns (c : Thread nD τ) arg4 fullShare (step12_0 x s0) ∗ owns (c : Thread nD τ) arg12 fullShare (step12_1 x s1)) -∗ K ⟨⟩))
      ⊢ wp frame (wpE (defs₀ (F := F)) Variants.none c none) E (cc12_kernel i arg1 harg1 arg2 harg2 arg3 harg3 arg4 harg4 arg12 harg12) K := by
  simp only [cc12_kernel_eq_skeleton]; unfold cc12_kernel_skel
  unfold owns
  iintro ⟨⟨%f1, %hf1, H1⟩, ⟨%d2, %f2, -, H2⟩, ⟨%d3, %f3, -, H3⟩, ⟨%f4, %hf4, H4⟩, ⟨%f12, %hf12, H12⟩, Hk⟩
  subst hf1; subst hf4; subst hf12
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel12_last.sl.v23 sound_kernel12_last.sl.H4_1
    rw [View.readCov_eq_canon_ld _ _ _ (coverS12 _)]
    exact View.read_writes_eq_canon _ _ _ (coverS12 _)
  isplitl [H3]
  · iexists _; isplitr
    swap; · iexact H3
    ipureintro
    unfold sound_kernel12_last.sl.v23 sound_kernel12_last.sl.v26 sound_kernel12_last.sl.H4_1 sound_kernel12_last.sl.H12_1
    rw [View.readCov_eq_canon_ld _ _ _ (coverS12 _), View.readCov_eq_canon_ld _ _ _ (coverS12 _)]
    exact View.read_writes_eq_canon _ _ _ (coverS12 _)
  isplitl [H4]
  · iexists _; isplitr
    swap; · iexact H4
    ipureintro
    exact View.read_writes_eq_canon _ _ _ (coverS12 _)
  iexists _; isplitr
  swap; · iexact H12
  ipureintro
  exact View.read_writes_eq_canon _ _ _ (coverS12 _)

section Regions
variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The input window's current buffer holds its block at every point, for any proof data over these arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- THE ACCUMULATION. The two scratch rows after point n: at point 0 one step from the zero rows, afterwards one step from what the point before left. -/
def acc12 (c : Dev nD) : (n : ℕ) → n < cfg12.N → Vec F S1x128 .f32 × Vec F S1x128 .f32
  | 0, hn => (step12_0 (iblk12 V c 0 ⟨0, hn⟩) init12_0, step12_1 (iblk12 V c 0 ⟨0, hn⟩) init12_1)
  | n + 1, hn => (step12_0 (iblk12 V c 0 ⟨n + 1, hn⟩) (acc12 c n (Nat.lt_of_succ_lt hn)).1,
      step12_1 (iblk12 V c 0 ⟨n + 1, hn⟩) (acc12 c n (Nat.lt_of_succ_lt hn)).2)

/-- The accumulation at the first point, and at a later point over the point before. -/
theorem acc12_zero (c : Dev nD) (t : Fin cfg12.N) (h0 : t.val = 0) :
    acc12 V c t.val t.isLt = (step12_0 (iblk12 V c 0 t) init12_0, step12_1 (iblk12 V c 0 t) init12_1) := by
  obtain ⟨n, hn⟩ := t
  cases n with
  | zero => rfl
  | succ n => exact absurd h0 (Nat.succ_ne_zero n)

theorem acc12_pos (c : Dev nD) (t : Fin cfg12.N) (h0 : t.val ≠ 0) :
    acc12 V c t.val t.isLt = (step12_0 (iblk12 V c 0 t) (acc12 V c (t.val - 1) (Nat.lt_of_le_of_lt (Nat.sub_le _ _) t.isLt)).1,
      step12_1 (iblk12 V c 0 t) (acc12 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM12_0 : Memref sig .tc .vmem S1x128 .f32 := Memref.whole cc12_scratch0
abbrev scM12_1 : Memref sig .tc .vmem S1x128 .f32 := Memref.whole cc12_scratch1

/-- What enters the invariant besides the scoped buffers: the generator register at some state. -/
def X12 (c : Dev nD) : sProp 𝕄 := iprop(∃ r, prngReg c r)

/-- The region invariant before position n: the generator register, the scoped buffers other than the two scratch rows, and the two scratch rows — at anything before the first point, afterwards at what the point before left. -/
def PhiS12 (c : Dev nD) : (n : ℕ) → n ≤ cfg12.N → sProp 𝕄
  | 0, _ => iprop(X12 (F := F) c ∗ Pipeline.scopedRestBut spec12 c [cc12_scratch0, cc12_scratch1]
      ∗ (∃ d, owns (c : Thread nD τ) scM12_0 fullShare d) ∗ (∃ d, owns (c : Thread nD τ) scM12_1 fullShare d))
  | n + 1, hn => iprop(X12 (F := F) c ∗ Pipeline.scopedRestBut spec12 c [cc12_scratch0, cc12_scratch1]
      ∗ owns (c : Thread nD τ) scM12_0 fullShare (acc12 V c n hn).1 ∗ owns (c : Thread nD τ) scM12_1 fullShare (acc12 V c n hn).2)

/-- The invariant's three readings: before the first point, after point n, before a later point. -/
theorem PhiS12_zero (c : Dev nD) (n : ℕ) (h : n ≤ cfg12.N) (hz : n = 0) :
    PhiS12 V c n h = iprop(X12 (F := F) c ∗ Pipeline.scopedRestBut spec12 c [cc12_scratch0, cc12_scratch1]
      ∗ (∃ d, owns (c : Thread nD τ) scM12_0 fullShare d) ∗ (∃ d, owns (c : Thread nD τ) scM12_1 fullShare d)) := by
  subst hz; rfl

theorem PhiS12_succ (c : Dev nD) (n : ℕ) (hn : n < cfg12.N) :
    PhiS12 V c (n + 1) hn = iprop(X12 (F := F) c ∗ Pipeline.scopedRestBut spec12 c [cc12_scratch0, cc12_scratch1]
      ∗ owns (c : Thread nD τ) scM12_0 fullShare (acc12 V c n hn).1 ∗ owns (c : Thread nD τ) scM12_1 fullShare (acc12 V c n hn).2) := rfl

theorem PhiS12_pos (c : Dev nD) (n : ℕ) (h : n ≤ cfg12.N) (hz : n ≠ 0) :
    PhiS12 V c n h = iprop(X12 (F := F) c ∗ Pipeline.scopedRestBut spec12 c [cc12_scratch0, cc12_scratch1]
      ∗ owns (c : Thread nD τ) scM12_0 fullShare (acc12 V c (n - 1) (by omega)).1 ∗ owns (c : Thread nD τ) scM12_1 fullShare (acc12 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => out12_1 (acc12 V c t.val t.isLt).1
    | ⟨2, _⟩ => out12_2 (acc12 V c t.val t.isLt).1 (acc12 V c t.val t.isLt).2
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = out12_1 (acc12 V c t.val t.isLt).1 := by dsimp only [dat12]
theorem after12_2 (c : Dev nD) (t : Fin cfg12.N) : (dat12 V c).after 2 t = out12_2 (acc12 V c t.val t.isLt).1 (acc12 V c t.val t.isLt).2 := by dsimp only [dat12]

/-- The input's current buffer holds its block at every point. -/
theorem before12_0 (c : Dev nD) (t : Fin cfg12.N) (d) : (dat12 V c).before 0 t d = iblk12 V c 0 t :=
  before12_0_of V (dat12 V c) (A_eq12 V c 0) (after12_0 V c) t d

/-- The invariant at a point's start, restated at the point's position. -/
theorem PhiS12_castSucc (c : Dev nD) (t : Fin cfg12.N) :
    (dat12 V c).Φ t.castSucc = PhiS12 V c t.val (Nat.le_of_lt t.isLt) := by
  dsimp only [dat12]; simp only [Fin.coe_castSucc]

/-- Where the windows are idle: the input never; each output row exactly off the last point, where it is not written back either. -/
theorem liveAt12_0 (t : Fin cfg12.N) : cfg12.idle 0 (cfg12.grid.coords t) = false := rfl

theorem idleAt12_1 (t : Fin cfg12.N) (h : ¬ k12_cond2 (grid12.coords t) = 1#1) : cfg12.idle 1 (cfg12.grid.coords t) = true := by
  show (!(k12_cond2 (grid12.coords t) == 1#1)) = true
  rw [Bool.not_eq_true', beq_eq_false_iff_ne]; exact h
theorem idleAt12_2 (t : Fin cfg12.N) (h : ¬ k12_cond2 (grid12.coords t) = 1#1) : cfg12.idle 2 (cfg12.grid.coords t) = true := by
  show (!(k12_cond2 (grid12.coords t) == 1#1)) = true
  rw [Bool.not_eq_true', beq_eq_false_iff_ne]; exact h
theorem liveAt12_1 (t : Fin cfg12.N) (h : k12_cond2 (grid12.coords t) = 1#1) : cfg12.idle 1 (cfg12.grid.coords t) = false := by
  show (!(k12_cond2 (grid12.coords t) == 1#1)) = false
  rw [h]; rfl
theorem liveAt12_2 (t : Fin cfg12.N) (h : k12_cond2 (grid12.coords t) = 1#1) : cfg12.idle 2 (cfg12.grid.coords t) = false := by
  show (!(k12_cond2 (grid12.coords t) == 1#1)) = false
  rw [h]; rfl

theorem noFlush12_1 (t : Fin cfg12.N) (h : t.val ≠ 79) : (cfg12.win 1).flush t = false := by
  have hN : t.val < 80 := lt_of_lt_of_eq t.isLt (show cfg12.N = 80 from N_12)
  cases hf : (cfg12.win 1).flush t with
  | false => rfl
  | true => exact absurd ((flush12_1 t).mp hf) (by omega)
theorem noFlush12_2 (t : Fin cfg12.N) (h : t.val ≠ 79) : (cfg12.win 2).flush t = false := by
  have hN : t.val < 80 := lt_of_lt_of_eq t.isLt (show cfg12.N = 80 from N_12)
  cases hf : (cfg12.win 2).flush t with
  | false => rfl
  | true => exact absurd ((flush12_2 t).mp hf) (by omega)

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4000000 in
/-- The body at any point, by the point's position: first (scratch at anything, reset), last (the output rows stored), or between; the invariant hands the scratch rows over at what the point before left and takes them back stepped. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (st12_0 t) fullShare ((dat12 V c).after 0 t) from by
    unfold Dat.leavesExact; rw [liveAt12_0 t], after12_0]
  have hN : t.val < 80 := lt_of_lt_of_eq t.isLt (show cfg12.N = 80 from N_12)
  by_cases h0 : t.val = 0
  · have hc1 : k12_cond1 (grid12.coords t) = 1#1 := (hcond12_1 t).mpr h0
    have hc2 : ¬ k12_cond2 (grid12.coords t) = 1#1 := fun h => by have := (hcond12_2 t).mp h; omega
    rw [Dat.leavesExact_idle (dat12 V c) 1 t (idleAt12_1 t hc2) (noFlush12_1 t (by omega)),
      Dat.leavesExact_idle (dat12 V c) 2 t (idleAt12_2 t hc2) (noFlush12_2 t (by omega))]
    rw [acc12_zero V c t h0]
    rw [PhiS12_castSucc V c t, PhiS12_zero V c _ _ h0]
    iintro ⟨⟨HX, HR, HS0, HS1⟩, Ho, ⟨%d0, H0⟩, ⟨%d1, H1⟩, ⟨%d2, H2⟩⟩
    iapply (sound_kernel12_first c Set.univ (grid12.coords t) hc1 hc2 _ _ _ _ _ _ _ _ _ _ (iblk12 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k12_cond1 (grid12.coords t) = 1#1 := fun h => h0 ((hcond12_1 t).mp h)
    rw [acc12_pos V c t h0]
    rw [PhiS12_castSucc V c t, PhiS12_pos V c _ _ h0]
    by_cases h79 : t.val = 79
    · have hc2 : k12_cond2 (grid12.coords t) = 1#1 := (hcond12_2 t).mpr h79
      rw [show (dat12 V c).leavesExact 1 t = owns (c : Thread nD τ) (st12_1 t) fullShare ((dat12 V c).after 1 t) from by
        unfold Dat.leavesExact; rw [liveAt12_1 t hc2], after12_1]
      rw [show (dat12 V c).leavesExact 2 t = owns (c : Thread nD τ) (st12_2 t) fullShare ((dat12 V c).after 2 t) from by
        unfold Dat.leavesExact; rw [liveAt12_2 t hc2], after12_2]
      rw [acc12_pos V c t h0]
      iintro ⟨⟨HX, HR, HS0, HS1⟩, Ho, ⟨%d0, H0⟩, ⟨%d1, H1⟩, ⟨%d2, H2⟩⟩
      iapply (sound_kernel12_last c Set.univ (grid12.coords t) hc1 hc2 _ _ _ _ _ _ _ _ _ _ (iblk12 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k12_cond2 (grid12.coords t) = 1#1 := fun h => h79 ((hcond12_2 t).mp h)
      rw [Dat.leavesExact_idle (dat12 V c) 1 t (idleAt12_1 t hc2) (noFlush12_1 t h79),
        Dat.leavesExact_idle (dat12 V c) 2 t (idleAt12_2 t hc2) (noFlush12_2 t h79)]
      iintro ⟨⟨HX, HR, HS0, HS1⟩, Ho, ⟨%d0, H0⟩, ⟨%d1, H1⟩, ⟨%d2, H2⟩⟩
      iapply (sound_kernel12_mid c Set.univ (grid12.coords t) hc1 hc2 _ _ _ _ _ _ _ _ _ _ (iblk12 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation12 (c : Dev nD) : BodyObligation (dat12 (F := F) V c) (defs₀ (F := F)) Variants.none () Set.univ := fun t => by
  rw [bigSep_W12, bigSep_W12]
  exact sound_body12 V c t

/-- Entry: the generator register and the scoped buffers (the two scratch rows among them, at anything) make the invariant before the first point. -/
theorem hin12 (c : Dev nD) : iprop(X12 (F := F) c ∗ Pipeline.scopedRest spec12 c) ⊢ (dat12 V c).Φ 0 := by
  rw [show (dat12 V c).Φ 0 = PhiS12 V c 0 (Nat.zero_le _) from rfl, PhiS12_zero V c 0 _ rfl, scopedRest12_split]
  simp only [scM12_0, scM12_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout12 (c : Dev nD) : (dat12 V c).Φ (Fin.last cfg12.N) ⊢ iprop(X12 (F := F) c ∗ Pipeline.scopedRest spec12 c) := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 80 := N_12; omega), scopedRest12_split]
  simp only [scM12_0, scM12_1, owns_whole]
  iintro ⟨HX, HR, HS0, HS1⟩
  isplitl [HX]; · iexact HX
  isplitl [HS0 HS1]
  · isplitl [HS0]; · iexists _; iexact HS0
    iexists _; iexact HS1
  iexact HR

end Regions

end Cert.KernelIdeal.Rg

end
-- ==== Proof.Rg13.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 13: normalise, rectify, add the residual — the frame half

Region 13 walks the 320000 rows of its operands in 80 blocks of 4000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The body's accesses -/

/-- The whole 4000x128 block, -/
abbrev r13_big : Rect S4000x128 := Rect.unit (s := S4000x128) ![0, 0] S4000x128.size inb_S4000x128_S4000x128_0_0
/-- and the whole 1x128 row. -/
abbrev r13_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out13_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r13_big, k13_pay1 (View.ld x0 r13_big) (View.ld x4 r13_row) (View.ld x2 r13_row) (View.ld x3 r13_row) (View.ld x5 r13_row) (View.ld x1 r13_big)⟩]

/-- The one store is of the whole block, so it covers it. -/
theorem cover13_6 (p0 : Vec F S4000x128 .f32) (y : S4000x128.Idx) :
    ∃ pc ∈ ([⟨r13_big, p0⟩] : List (View.Piece (Elt F) S4000x128 .f32)), y ∈ pc.1.set :=
  View.cover_of_tiled [⟨r13_big, p0⟩] S4000x128.size (by rfl) y

/-! ## The body's triple -/

set_option maxHeartbeats 1000000 in
/-- The body, run on whole staging buffers holding the six input blocks and an output buffer holding anything,
    returns the inputs' buffers unchanged and the output's buffer at out13_6 of the inputs. -/
theorem sound_kernel13 (c : Dev nD) (E : Set ℕ) (i : grid13.Coords)
    (arg1 : Memref sig .tc .vmem S4000x128 .f32) (harg1 : arg1.IsWhole) (arg2 : Memref sig .tc .vmem S4000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out13_6 x0 x1 x2 x3 x4 x5)) -∗ K ⟨⟩))
      ⊢ wp frame (wpE (defs₀ (F := F)) Variants.none c none) E (cc13__bn_relu_residual_kernel i arg1 harg1 arg2 harg2 arg3 harg3 arg4 harg4 arg5 harg5 arg6 harg6 arg7 harg7) K := by
  simp only [cc13__bn_relu_residual_kernel_eq_skeleton]; unfold cc13__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The region's proof data -/

/-- The proof data of region 13 on core c: the arrays as the region finds them; after the body at point t each
    input's buffer at its block and the output's at out13_6 of the six input blocks; the invariant the untouched
    rest of the core's state; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the entry contents. -/
theorem A_eq13 (c : Dev nD) (w : Fin cfg13.W) : (dat13 V c).A w = V c (Pipeline.arrRef spec13 w) := by
  dsimp only [dat13]

/-- The invariant is the same at every point: the rest of the core's state, untouched. -/
theorem Phi13_eq (c : Dev nD) (t : Fin (cfg13.N + 1)) : (dat13 V c).Φ t = Pipeline.ΦA spec13 c := rfl

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t
    = out13_6 (iblk13 V c 0 t) (iblk13 V c 1 t) (iblk13 V c 2 t) (iblk13 V c 3 t) (iblk13 V c 4 t) (iblk13 V c 5 t) := by dsimp only [dat13]

/-- Each input's staging buffer holds its block at every point, whether or not the block was fetched at that
    point: a window not fetched at a point has the block index of the point before, and the body leaves an
    input's buffer as it found it. -/
theorem before13_0 (c : Dev nD) (t : Fin cfg13.N) (d) : (dat13 V c).before 0 t d = iblk13 V c 0 t :=
  ((dat13 V c).before_in_eq_fetched 0 rfl (fun _ => rfl) (fun _ _ _ => rfl)
      (fun t => by rw [after13_0]; unfold Dat.blockOf iblk13; rw [A_eq13 V c 0]; try rfl) t d).trans
    (by unfold Dat.fetched Dat.blockOf iblk13; rw [A_eq13 V c 0]; try rfl)
theorem before13_1 (c : Dev nD) (t : Fin cfg13.N) (d) : (dat13 V c).before 1 t d = iblk13 V c 1 t :=
  ((dat13 V c).before_in_eq_fetched 1 rfl (fun _ => rfl) (fun _ _ _ => rfl)
      (fun t => by rw [after13_1]; unfold Dat.blockOf iblk13; rw [A_eq13 V c 1]; try rfl) t d).trans
    (by unfold Dat.fetched Dat.blockOf iblk13; rw [A_eq13 V c 1]; try rfl)
theorem before13_2 (c : Dev nD) (t : Fin cfg13.N) (d) : (dat13 V c).before 2 t d = iblk13 V c 2 t :=
  ((dat13 V c).before_in_eq_fetched 2 rfl (fun _ => rfl) (fun _ _ _ => rfl)
      (fun t => by rw [after13_2]; unfold Dat.blockOf iblk13; rw [A_eq13 V c 2]; try rfl) t d).trans
    (by unfold Dat.fetched Dat.blockOf iblk13; rw [A_eq13 V c 2]; try rfl)
theorem before13_3 (c : Dev nD) (t : Fin cfg13.N) (d) : (dat13 V c).before 3 t d = iblk13 V c 3 t :=
  ((dat13 V c).before_in_eq_fetched 3 rfl (fun _ => rfl) (fun _ _ _ => rfl)
      (fun t => by rw [after13_3]; unfold Dat.blockOf iblk13; rw [A_eq13 V c 3]; try rfl) t d).trans
    (by unfold Dat.fetched Dat.blockOf iblk13; rw [A_eq13 V c 3]; try rfl)
theorem before13_4 (c : Dev nD) (t : Fin cfg13.N) (d) : (dat13 V c).before 4 t d = iblk13 V c 4 t :=
  ((dat13 V c).before_in_eq_fetched 4 rfl (fun _ => rfl) (fun _ _ _ => rfl)
      (fun t => by rw [after13_4]; unfold Dat.blockOf iblk13; rw [A_eq13 V c 4]; try rfl) t d).trans
    (by unfold Dat.fetched Dat.blockOf iblk13; rw [A_eq13 V c 4]; try rfl)
theorem before13_5 (c : Dev nD) (t : Fin cfg13.N) (d) : (dat13 V c).before 5 t d = iblk13 V c 5 t :=
  ((dat13 V c).before_in_eq_fetched 5 rfl (fun _ => rfl) (fun _ _ _ => rfl)
      (fun t => by rw [after13_5]; unfold Dat.blockOf iblk13; rw [A_eq13 V c 5]; try rfl) t d).trans
    (by unfold Dat.fetched Dat.blockOf iblk13; rw [A_eq13 V c 5]; try rfl)

/-! ## The body obligation, at a generic point -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' buffers hold their blocks, so the body's triple applies; the invariant and
    what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation13 (c : Dev nD) : BodyObligation (dat13 (F := F) V c) (defs₀ (F := F)) Variants.none () Set.univ := fun t => by
  rw [bigSep_W13, bigSep_W13]
  exact sound_body13 V c t

end Region13

end Cert.KernelIdeal.Rg

end
-- ==== Proof.Rg14.lean ====
/-
  Region 14 of the kernel program: the batch statistics of a 20000 x 128 array, accumulated over 10 row blocks of
  2000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-row rectangle of a 1x128 buffer and the whole-block rectangle of a 2000x128 buffer. -/
abbrev rS14 : Rect S1x128 := Rect.unit (s := S1x128) ![0, 0] S1x128.size inb_S1x128_S1x128_0_0
abbrev rX14 : Rect S2000x128 := Rect.unit (s := S2000x128) ![0, 0] S2000x128.size inb_S2000x128_S2000x128_0_0

/-- The first conditional's condition (the grid coordinate is 0), as the kernel computes it. -/
def k14_cond1 (i : grid14.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 9): decided over the 10 points. -/
theorem hcond14_1 : ∀ t : Fin cfg14.N, k14_cond1 (grid14.coords t) = 1#1 ↔ t.val = 0 :=
  (by decide +kernel : ∀ t : Fin grid14.N, k14_cond1 (grid14.coords t) = 1#1 ↔ t.val = 0)
theorem hcond14_2 : ∀ t : Fin cfg14.N, k14_cond2 (grid14.coords t) = 1#1 ↔ t.val = 9 :=
  (by decide +kernel : ∀ t : Fin grid14.N, k14_cond2 (grid14.coords t) = 1#1 ↔ t.val = 9)

/-- One point's step of the two running rows: the row held so far plus the block's column sums (of the entries, of their squares). -/
def step14_0 (x : Vec F S2000x128 .f32) (s0 : Vec F S1x128 .f32) : Vec F S1x128 .f32 :=
  View.canon [⟨rS14, k14_pay4 (View.ld x rX14) (View.ld s0 rS14)⟩]
def step14_1 (x : Vec F S2000x128 .f32) (s1 : Vec F S1x128 .f32) : Vec F S1x128 .f32 :=
  View.canon [⟨rS14, k14_pay5 (View.ld x rX14) (View.ld s1 rS14)⟩]

/-- A store of the whole row covers the 1x128 buffer. -/
theorem coverS14 (p0 : Vec F S1x128 .f32) (y : S1x128.Idx) :
    ∃ pc ∈ ([⟨rS14, p0⟩] : List (View.Piece (Elt F) S1x128 .f32)), y ∈ pc.1.set :=
  View.cover_of_tiled [⟨rS14, p0⟩] S1x128.size (by rfl) y

set_option maxHeartbeats 1000000 in
/-- The body at a point that is neither first nor last: both conditionals fall through; the block and the two output rows are left as found, each scratch row steps. -/
theorem sound_kernel14_mid (c : Dev nD) (E : Set ℕ) (i : grid14.Coords) (hc1 : ¬ k14_cond1 i = 1#1) (hc2 : ¬ k14_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg14 : Memref sig .tc .vmem S1x128 .f32) (harg14 : arg14.IsWhole)
    (x : Vec F S2000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg14 fullShare s1
        ∗ (iprop(owns (c : Thread nD τ) arg1 fullShare x ∗ owns (c : Thread nD τ) arg2 fullShare y1 ∗ owns (c : Thread nD τ) arg3 fullShare y2
            ∗ owns (c : Thread nD τ) arg4 fullShare (step14_0 x s0) ∗ owns (c : Thread nD τ) arg14 fullShare (step14_1 x s1)) -∗ K ⟨⟩))
      ⊢ wp frame (wpE (defs₀ (F := F)) Variants.none c none) E (cc14_kernel i arg1 harg1 arg2 harg2 arg3 harg3 arg4 harg4 arg14 harg14) K := by
  simp only [cc14_kernel_eq_skeleton]; unfold cc14_kernel_skel
  unfold owns
  iintro ⟨⟨%f1, %hf1, H1⟩, H2, H3, ⟨%f4, %hf4, H4⟩, ⟨%f14, %hf14, H14⟩, Hk⟩
  subst hf1; subst hf4; subst hf14
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS14 _)
  iexists _; isplitr
  swap; · iexact H14
  ipureintro
  exact View.read_writes_eq_canon _ _ _ (coverS14 _)

/-- A whole-row store hides every earlier store: the contents are the last payload's. -/
theorem canon_headS14 (p : Vec F S1x128 .f32) (L : List (View.Piece (Elt F) S1x128 .f32)) :
    View.canon (⟨rS14, p⟩ :: L) = View.canon [⟨rS14, p⟩] := by
  funext y
  obtain ⟨pc, hm, hy⟩ := coverS14 p y
  rw [List.mem_singleton] at hm; subst hm
  obtain ⟨x, rfl⟩ := rS14.exists_idx_of_mem hy
  exact (View.canon_cons_emb rS14 p L x).trans (View.canon_cons_emb rS14 p [] x).symm

/-- What a buffer reads after a list of stores whose last is a whole-row store. -/
theorem read_writes_headS14 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS14, p⟩ :: L)) = View.canon [⟨rS14, p⟩] :=
  (View.read_writes_eq_canon v f _ (fun y => by
    obtain ⟨pc, hm, hy⟩ := coverS14 p y
    rw [List.mem_singleton] at hm; subst hm
    exact ⟨_, List.mem_cons_self, hy⟩)).trans (canon_headS14 p L)

/-- The zero rows the first point resets the two scratch rows to. -/
def init14_0 : Vec F S1x128 .f32 := View.canon [⟨rS14, k14_pay1 (F := F)⟩]
def init14_1 : Vec F S1x128 .f32 := View.canon [⟨rS14, k14_pay2 (F := F)⟩]

set_option maxHeartbeats 1000000 in
/-- The body at the first point: the scratch rows, found at anything, are reset to zero and then step; the output rows are left as found. -/
theorem sound_kernel14_first (c : Dev nD) (E : Set ℕ) (i : grid14.Coords) (hc1 : k14_cond1 i = 1#1) (hc2 : ¬ k14_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg14 : Memref sig .tc .vmem S1x128 .f32) (harg14 : arg14.IsWhole)
    (x : Vec F S2000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg14 fullShare d)
        ∗ (iprop(owns (c : Thread nD τ) arg1 fullShare x ∗ owns (c : Thread nD τ) arg2 fullShare y1 ∗ owns (c : Thread nD τ) arg3 fullShare y2
            ∗ owns (c : Thread nD τ) arg4 fullShare (step14_0 x init14_0) ∗ owns (c : Thread nD τ) arg14 fullShare (step14_1 x init14_1)) -∗ K ⟨⟩))
      ⊢ wp frame (wpE (defs₀ (F := F)) Variants.none c none) E (cc14_kernel i arg1 harg1 arg2 harg2 arg3 harg3 arg4 harg4 arg14 harg14) K := by
  simp only [cc14_kernel_eq_skeleton]; unfold cc14_kernel_skel
  unfold owns
  iintro ⟨⟨%f1, %hf1, H1⟩, H2, H3, ⟨%d4, %f4, -, H4⟩, ⟨%d14, %f14, -, H14⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel14_first.sl.v5 sound_kernel14_first.sl.H4_1
    rw [View.readCov_eq_canon_ld _ _ _ (coverS14 _)]
    exact read_writes_headS14 _ _ _ _
  iexists _; isplitr
  swap; · iexact H14
  ipureintro
  unfold sound_kernel14_first.sl.v12 sound_kernel14_first.sl.H14_1
  rw [View.readCov_eq_canon_ld _ _ _ (coverS14 _)]
  exact read_writes_headS14 _ _ _ _

/-- The output rows as the last point computes them from the final running rows: the mean is the column sum over the count; the variance is the sum of squares over the count minus the squared mean. -/
def out14_1 (s0 : Vec F S1x128 .f32) : Vec F S1x128 .f32 :=
  View.canon [⟨rS14, k14_pay6 (View.ld s0 rS14)⟩]
def out14_2 (s0 s1 : Vec F S1x128 .f32) : Vec F S1x128 .f32 :=
  View.canon [⟨rS14, k14_pay7 (View.ld s0 rS14) (View.ld s1 rS14)⟩]

set_option maxHeartbeats 1000000 in
/-- The body at the last point: the scratch rows step, then the two output rows, found at anything, are stored from the stepped rows. -/
theorem sound_kernel14_last (c : Dev nD) (E : Set ℕ) (i : grid14.Coords) (hc1 : ¬ k14_cond1 i = 1#1) (hc2 : k14_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg14 : Memref sig .tc .vmem S1x128 .f32) (harg14 : arg14.IsWhole)
    (x : Vec F S2000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg14 fullShare s1
        ∗ (iprop(owns (c : Thread nD τ) arg1 fullShare x ∗ owns (c : Thread nD τ) arg2 fullShare (out14_1 (step14_0 x s0))
            ∗ owns (c : Thread nD τ) arg3 fullShare (out14_2 (step14_0 x s0) (step14_1 x s1))
            ∗ owns (c : Thread nD τ) arg4 fullShare (step14_0 x s0) ∗ owns (c : Thread nD τ) arg14 fullShare (step14_1 x s1)) -∗ K ⟨⟩))
      ⊢ wp frame (wpE (defs₀ (F := F)) Variants.none c none) E (cc14_kernel i arg1 harg1 arg2 harg2 arg3 harg3 arg4 harg4 arg14 harg14) K := by
  simp only [cc14_kernel_eq_skeleton]; unfold cc14_kernel_skel
  unfold owns
  iintro ⟨⟨%f1, %hf1, H1⟩, ⟨%d2, %f2, -, H2⟩, ⟨%d3, %f3, -, H3⟩, ⟨%f4, %hf4, H4⟩, ⟨%f14, %hf14, H14⟩, Hk⟩
  subst hf1; subst hf4; subst hf14
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel14_last.sl.v23 sound_kernel14_last.sl.H4_1
    rw [View.readCov_eq_canon_ld _ _ _ (coverS14 _)]
    exact View.read_writes_eq_canon _ _ _ (coverS14 _)
  isplitl [H3]
  · iexists _; isplitr
    swap; · iexact H3
    ipureintro
    unfold sound_kernel14_last.sl.v23 sound_kernel14_last.sl.v26 sound_kernel14_last.sl.H4_1 sound_kernel14_last.sl.H14_1
    rw [View.readCov_eq_canon_ld _ _ _ (coverS14 _), View.readCov_eq_canon_ld _ _ _ (coverS14 _)]
    exact View.read_writes_eq_canon _ _ _ (coverS14 _)
  isplitl [H4]
  · iexists _; isplitr
    swap; · iexact H4
    ipureintro
    exact View.read_writes_eq_canon _ _ _ (coverS14 _)
  iexists _; isplitr
  swap; · iexact H14
  ipureintro
  exact View.read_writes_eq_canon _ _ _ (coverS14 _)

section Regions
variable (V : (c : Dev nD) → (b : Ref sig .tc) → Buf (Elt F) ((c : Thread nD τ).loc b))

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The input window's current buffer holds its block at every point, for any proof data over these arrays whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- THE ACCUMULATION. The two scratch rows after point n: at point 0 one step from the zero rows, afterwards one step from what the point before left. -/
def acc14 (c : Dev nD) : (n : ℕ) → n < cfg14.N → Vec F S1x128 .f32 × Vec F S1x128 .f32
  | 0, hn => (step14_0 (iblk14 V c 0 ⟨0, hn⟩) init14_0, step14_1 (iblk14 V c 0 ⟨0, hn⟩) init14_1)
  | n + 1, hn => (step14_0 (iblk14 V c 0 ⟨n + 1, hn⟩) (acc14 c n (Nat.lt_of_succ_lt hn)).1,
      step14_1 (iblk14 V c 0 ⟨n + 1, hn⟩) (acc14 c n (Nat.lt_of_succ_lt hn)).2)

/-- The accumulation at the first point, and at a later point over the point before. -/
theorem acc14_zero (c : Dev nD) (t : Fin cfg14.N) (h0 : t.val = 0) :
    acc14 V c t.val t.isLt = (step14_0 (iblk14 V c 0 t) init14_0, step14_1 (iblk14 V c 0 t) init14_1) := by
  obtain ⟨n, hn⟩ := t
  cases n with
  | zero => rfl
  | succ n => exact absurd h0 (Nat.succ_ne_zero n)

theorem acc14_pos (c : Dev nD) (t : Fin cfg14.N) (h0 : t.val ≠ 0) :
    acc14 V c t.val t.isLt = (step14_0 (iblk14 V c 0 t) (acc14 V c (t.val - 1) (Nat.lt_of_le_of_lt (Nat.sub_le _ _) t.isLt)).1,
      step14_1 (iblk14 V c 0 t) (acc14 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM14_0 : Memref sig .tc .vmem S1x128 .f32 := Memref.whole cc14_scratch0
abbrev scM14_1 : Memref sig .tc .vmem S1x128 .f32 := Memref.whole cc14_scratch1

/-- What enters the invariant besides the scoped buffers: the generator register at some state. -/
def X14 (c : Dev nD) : sProp 𝕄 := iprop(∃ r, prngReg c r)

/-- The region invariant before position n: the generator register, the scoped buffers other than the two scratch rows, and the two scratch rows — at anything before the first point, afterwards at what the point before left. -/
def PhiS14 (c : Dev nD) : (n : ℕ) → n ≤ cfg14.N → sProp 𝕄
  | 0, _ => iprop(X14 (F := F) c ∗ Pipeline.scopedRestBut spec14 c [cc14_scratch0, cc14_scratch1]
      ∗ (∃ d, owns (c : Thread nD τ) scM14_0 fullShare d) ∗ (∃ d, owns (c : Thread nD τ) scM14_1 fullShare d))
  | n + 1, hn => iprop(X14 (F := F) c ∗ Pipeline.scopedRestBut spec14 c [cc14_scratch0, cc14_scratch1]
      ∗ owns (c : Thread nD τ) scM14_0 fullShare (acc14 V c n hn).1 ∗ owns (c : Thread nD τ) scM14_1 fullShare (acc14 V c n hn).2)

/-- The invariant's three readings: before the first point, after point n, before a later point. -/
theorem PhiS14_zero (c : Dev nD) (n : ℕ) (h : n ≤ cfg14.N) (hz : n = 0) :
    PhiS14 V c n h = iprop(X14 (F := F) c ∗ Pipeline.scopedRestBut spec14 c [cc14_scratch0, cc14_scratch1]
      ∗ (∃ d, owns (c : Thread nD τ) scM14_0 fullShare d) ∗ (∃ d, owns (c : Thread nD τ) scM14_1 fullShare d)) := by
  subst hz; rfl

theorem PhiS14_succ (c : Dev nD) (n : ℕ) (hn : n < cfg14.N) :
    PhiS14 V c (n + 1) hn = iprop(X14 (F := F) c ∗ Pipeline.scopedRestBut spec14 c [cc14_scratch0, cc14_scratch1]
      ∗ owns (c : Thread nD τ) scM14_0 fullShare (acc14 V c n hn).1 ∗ owns (c : Thread nD τ) scM14_1 fullShare (acc14 V c n hn).2) := rfl

theorem PhiS14_pos (c : Dev nD) (n : ℕ) (h : n ≤ cfg14.N) (hz : n ≠ 0) :
    PhiS14 V c n h = iprop(X14 (F := F) c ∗ Pipeline.scopedRestBut spec14 c [cc14_scratch0, cc14_scratch1]
      ∗ owns (c : Thread nD τ) scM14_0 fullShare (acc14 V c (n - 1) (by omega)).1 ∗ owns (c : Thread nD τ) scM14_1 fullShare (acc14 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => out14_1 (acc14 V c t.val t.isLt).1
    | ⟨2, _⟩ => out14_2 (acc14 V c t.val t.isLt).1 (acc14 V c t.val t.isLt).2
  Φ t := PhiS14 V c t.val (Nat.le_of_lt_succ t.isLt)
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = out14_1 (acc14 V c t.val t.isLt).1 := by dsimp only [dat14]
theorem after14_2 (c : Dev nD) (t : Fin cfg14.N) : (dat14 V c).after 2 t = out14_2 (acc14 V c t.val t.isLt).1 (acc14 V c t.val t.isLt).2 := by dsimp only [dat14]

/-- The input's current buffer holds its block at every point. -/
theorem before14_0 (c : Dev nD) (t : Fin cfg14.N) (d) : (dat14 V c).before 0 t d = iblk14 V c 0 t :=
  before14_0_of V (dat14 V c) (A_eq14 V c 0) (after14_0 V c) t d

/-- The invariant at a point's start, restated at the point's position. -/
theorem PhiS14_castSucc (c : Dev nD) (t : Fin cfg14.N) :
    (dat14 V c).Φ t.castSucc = PhiS14 V c t.val (Nat.le_of_lt t.isLt) := by
  dsimp only [dat14]; simp only [Fin.coe_castSucc]

/-- Where the windows are idle: the input never; each output row exactly off the last point, where it is not written back either. -/
theorem liveAt14_0 (t : Fin cfg14.N) : cfg14.idle 0 (cfg14.grid.coords t) = false := rfl

theorem idleAt14_1 (t : Fin cfg14.N) (h : ¬ k14_cond2 (grid14.coords t) = 1#1) : cfg14.idle 1 (cfg14.grid.coords t) = true := by
  show (!(k14_cond2 (grid14.coords t) == 1#1)) = true
  rw [Bool.not_eq_true', beq_eq_false_iff_ne]; exact h
theorem idleAt14_2 (t : Fin cfg14.N) (h : ¬ k14_cond2 (grid14.coords t) = 1#1) : cfg14.idle 2 (cfg14.grid.coords t) = true := by
  show (!(k14_cond2 (grid14.coords t) == 1#1)) = true
  rw [Bool.not_eq_true', beq_eq_false_iff_ne]; exact h
theorem liveAt14_1 (t : Fin cfg14.N) (h : k14_cond2 (grid14.coords t) = 1#1) : cfg14.idle 1 (cfg14.grid.coords t) = false := by
  show (!(k14_cond2 (grid14.coords t) == 1#1)) = false
  rw [h]; rfl
theorem liveAt14_2 (t : Fin cfg14.N) (h : k14_cond2 (grid14.coords t) = 1#1) : cfg14.idle 2 (cfg14.grid.coords t) = false := by
  show (!(k14_cond2 (grid14.coords t) == 1#1)) = false
  rw [h]; rfl

theorem noFlush14_1 (t : Fin cfg14.N) (h : t.val ≠ 9) : (cfg14.win 1).flush t = false := by
  have hN : t.val < 10 := lt_of_lt_of_eq t.isLt (show cfg14.N = 10 from N_14)
  cases hf : (cfg14.win 1).flush t with
  | false => rfl
  | true => exact absurd ((flush14_1 t).mp hf) (by omega)
theorem noFlush14_2 (t : Fin cfg14.N) (h : t.val ≠ 9) : (cfg14.win 2).flush t = false := by
  have hN : t.val < 10 := lt_of_lt_of_eq t.isLt (show cfg14.N = 10 from N_14)
  cases hf : (cfg14.win 2).flush t with
  | false => rfl
  | true => exact absurd ((flush14_2 t).mp hf) (by omega)

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4000000 in
/-- The body at any point, by the point's position: first (scratch at anything, reset), last (the output rows stored), or between; the invariant hands the scratch rows over at what the point before left and takes them back stepped. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (st14_0 t) fullShare ((dat14 V c).after 0 t) from by
    unfold Dat.leavesExact; rw [liveAt14_0 t], after14_0]
  have hN : t.val < 10 := lt_of_lt_of_eq t.isLt (show cfg14.N = 10 from N_14)
  by_cases h0 : t.val = 0
  · have hc1 : k14_cond1 (grid14.coords t) = 1#1 := (hcond14_1 t).mpr h0
    have hc2 : ¬ k14_cond2 (grid14.coords t) = 1#1 := fun h => by have := (hcond14_2 t).mp h; omega
    rw [Dat.leavesExact_idle (dat14 V c) 1 t (idleAt14_1 t hc2) (noFlush14_1 t (by omega)),
      Dat.leavesExact_idle (dat14 V c) 2 t (idleAt14_2 t hc2) (noFlush14_2 t (by omega))]
    rw [acc14_zero V c t h0]
    rw [PhiS14_castSucc V c t, PhiS14_zero V c _ _ h0]
    iintro ⟨⟨HX, HR, HS0, HS1⟩, Ho, ⟨%d0, H0⟩, ⟨%d1, H1⟩, ⟨%d2, H2⟩⟩
    iapply (sound_kernel14_first c Set.univ (grid14.coords t) hc1 hc2 _ _ _ _ _ _ _ _ _ _ (iblk14 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k14_cond1 (grid14.coords t) = 1#1 := fun h => h0 ((hcond14_1 t).mp h)
    rw [acc14_pos V c t h0]
    rw [PhiS14_castSucc V c t, PhiS14_pos V c _ _ h0]
    by_cases h79 : t.val = 9
    · have hc2 : k14_cond2 (grid14.coords t) = 1#1 := (hcond14_2 t).mpr h79
      rw [show (dat14 V c).leavesExact 1 t = owns (c : Thread nD τ) (st14_1 t) fullShare ((dat14 V c).after 1 t) from by
        unfold Dat.leavesExact; rw [liveAt14_1 t hc2], after14_1]
      rw [show (dat14 V c).leavesExact 2 t = owns (c : Thread nD τ) (st14_2 t) fullShare ((dat14 V c).after 2 t) from by
        unfold Dat.leavesExact; rw [liveAt14_2 t hc2], after14_2]
      rw [acc14_pos V c t h0]
      iintro ⟨⟨HX, HR, HS0, HS1⟩, Ho, ⟨%d0, H0⟩, ⟨%d1, H1⟩, ⟨%d2, H2⟩⟩
      iapply (sound_kernel14_last c Set.univ (grid14.coords t) hc1 hc2 _ _ _ _ _ _ _ _ _ _ (iblk14 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k14_cond2 (grid14.coords t) = 1#1 := fun h => h79 ((hcond14_2 t).mp h)
      rw [Dat.leavesExact_idle (dat14 V c) 1 t (idleAt14_1 t hc2) (noFlush14_1 t h79),
        Dat.leavesExact_idle (dat14 V c) 2 t (idleAt14_2 t hc2) (noFlush14_2 t h79)]
      iintro ⟨⟨HX, HR, HS0, HS1⟩, Ho, ⟨%d0, H0⟩, ⟨%d1, H1⟩, ⟨%d2, H2⟩⟩
      iapply (sound_kernel14_mid c Set.univ (grid14.coords t) hc1 hc2 _ _ _ _ _ _ _ _ _ _ (iblk14 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation14 (c : Dev nD) : BodyObligation (dat14 (F := F) V c) (defs₀ (F := F)) Variants.none () Set.univ := fun t => by
  rw [bigSep_W14, bigSep_W14]
  exact sound_body14 V c t

/-- Entry: the generator register and the scoped buffers (the two scratch rows among them, at anything) make the invariant before the first point. -/
theorem hin14 (c : Dev nD) : iprop(X14 (F := F) c ∗ Pipeline.scopedRest spec14 c) ⊢ (dat14 V c).Φ 0 := by
  rw [show (dat14 V c).Φ 0 = PhiS14 V c 0 (Nat.zero_le _) from rfl, PhiS14_zero V c 0 _ rfl, scopedRest14_split]
  simp only [scM14_0, scM14_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout14 (c : Dev nD) : (dat14 V c).Φ (Fin.last cfg14.N) ⊢ iprop(X14 (F := F) c ∗ Pipeline.scopedRest spec14 c) := by
  rw [show (dat14 V c).Φ (Fin.last cfg14.N) = PhiS14 V c (Fin.last cfg14.N).val (Nat.le_of_lt_succ (Fin.last cfg14.N).isLt) from rfl,
    PhiS14_pos V c _ _ (by rw [Fin.val_last]; have : cfg14.N = 10 := N_14; omega), scopedRest14_split]
  simp only [scM14_0, scM14_1, owns_whole]
  iintro ⟨HX, HR, HS0, HS1⟩
  isplitl [HX]; · iexact HX
  isplitl [HS0 HS1]
  · isplitl [HS0]; · iexists _; iexact HS0
    iexists _; iexact HS1
  iexact HR

end Regions

end Cert.KernelIdeal.Rg

end
-- ==== Proof.Rg15.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 15: normalise, rectify, add the residual — the frame half

Region 15 walks the 20000 rows of its operands in 10 blocks of 2000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region15
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-! ## The body's accesses -/

/-- The whole 4000x128 block, -/
abbrev r15_big : Rect S2000x128 := Rect.unit (s := S2000x128) ![0, 0] S2000x128.size inb_S2000x128_S2000x128_0_0
/-- and the whole 1x128 row. -/
abbrev r15_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out15_6 (x0 : Vec F S2000x128 .f32) (x1 : Vec F S2000x128 .f32) (x2 : Vec F S1x128 .f32) (x3 : Vec F S1x128 .f32)
    (x4 : Vec F S1x128 .f32) (x5 : Vec F S1x128 .f32) : Vec F S2000x128 .f32 :=
  View.canon [⟨r15_big, k15_pay1 (View.ld x0 r15_big) (View.ld x4 r15_row) (View.ld x2 r15_row) (View.ld x3 r15_row) (View.ld x5 r15_row) (View.ld x1 r15_big)⟩]

/-- The one store is of the whole block, so it covers it. -/
theorem cover15_6 (p0 : Vec F S2000x128 .f32) (y : S2000x128.Idx) :
    ∃ pc ∈ ([⟨r15_big, p0⟩] : List (View.Piece (Elt F) S2000x128 .f32)), y ∈ pc.1.set :=
  View.cover_of_tiled [⟨r15_big, p0⟩] S2000x128.size (by rfl) y

/-! ## The body's triple -/

set_option maxHeartbeats 1000000 in
/-- The body, run on whole staging buffers holding the six input blocks and an output buffer holding anything,
    returns the inputs' buffers unchanged and the output's buffer at out15_6 of the inputs. -/
theorem sound_kernel15 (c : Dev nD) (E : Set ℕ) (i : grid15.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out15_6 x0 x1 x2 x3 x4 x5)) -∗ K ⟨⟩))
      ⊢ wp frame (wpE (defs₀ (F := F)) Variants.none c none) E (cc15__bn_relu_residual_kernel i arg1 harg1 arg2 harg2 arg3 harg3 arg4 harg4 arg5 harg5 arg6 harg6 arg7 harg7) K := by
  simp only [cc15__bn_relu_residual_kernel_eq_skeleton]; unfold cc15__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover15_6 _)

/-! ## The region's proof data -/

/-- The proof data of region 15 on core c: the arrays as the region finds them; after the body at point t each
    input's buffer at its block and the output's at out15_6 of the six input blocks; the invariant the untouched
    rest of the core's state; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => out15_6 (iblk15 V c 0 t) (iblk15 V c 1 t) (iblk15 V c 2 t) (iblk15 V c 3 t) (iblk15 V c 4 t) (iblk15 V c 5 t)
  Φ _ := Pipeline.ΦA spec15 c
  q _ := fullShare
  owed _ := 0

/-- The proof data's arrays are the entry contents. -/
theorem A_eq15 (c : Dev nD) (w : Fin cfg15.W) : (dat15 V c).A w = V c (Pipeline.arrRef spec15 w) := by
  dsimp only [dat15]

/-- The invariant is the same at every point: the rest of the core's state, untouched. -/
theorem Phi15_eq (c : Dev nD) (t : Fin (cfg15.N + 1)) : (dat15 V c).Φ t = Pipeline.ΦA spec15 c := rfl

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t
    = out15_6 (iblk15 V c 0 t) (iblk15 V c 1 t) (iblk15 V c 2 t) (iblk15 V c 3 t) (iblk15 V c 4 t) (iblk15 V c 5 t) := by dsimp only [dat15]

/-- Each input's staging buffer holds its block at every point, whether or not the block was fetched at that
    point: a window not fetched at a point has the block index of the point before, and the body leaves an
    input's buffer as it found it. -/
theorem before15_0 (c : Dev nD) (t : Fin cfg15.N) (d) : (dat15 V c).before 0 t d = iblk15 V c 0 t :=
  ((dat15 V c).before_in_eq_fetched 0 rfl (fun _ => rfl) (fun _ _ _ => rfl)
      (fun t => by rw [after15_0]; unfold Dat.blockOf iblk15; rw [A_eq15 V c 0]; try rfl) t d).trans
    (by unfold Dat.fetched Dat.blockOf iblk15; rw [A_eq15 V c 0]; try rfl)
theorem before15_1 (c : Dev nD) (t : Fin cfg15.N) (d) : (dat15 V c).before 1 t d = iblk15 V c 1 t :=
  ((dat15 V c).before_in_eq_fetched 1 rfl (fun _ => rfl) (fun _ _ _ => rfl)
      (fun t => by rw [after15_1]; unfold Dat.blockOf iblk15; rw [A_eq15 V c 1]; try rfl) t d).trans
    (by unfold Dat.fetched Dat.blockOf iblk15; rw [A_eq15 V c 1]; try rfl)
theorem before15_2 (c : Dev nD) (t : Fin cfg15.N) (d) : (dat15 V c).before 2 t d = iblk15 V c 2 t :=
  ((dat15 V c).before_in_eq_fetched 2 rfl (fun _ => rfl) (fun _ _ _ => rfl)
      (fun t => by rw [after15_2]; unfold Dat.blockOf iblk15; rw [A_eq15 V c 2]; try rfl) t d).trans
    (by unfold Dat.fetched Dat.blockOf iblk15; rw [A_eq15 V c 2]; try rfl)
theorem before15_3 (c : Dev nD) (t : Fin cfg15.N) (d) : (dat15 V c).before 3 t d = iblk15 V c 3 t :=
  ((dat15 V c).before_in_eq_fetched 3 rfl (fun _ => rfl) (fun _ _ _ => rfl)
      (fun t => by rw [after15_3]; unfold Dat.blockOf iblk15; rw [A_eq15 V c 3]; try rfl) t d).trans
    (by unfold Dat.fetched Dat.blockOf iblk15; rw [A_eq15 V c 3]; try rfl)
theorem before15_4 (c : Dev nD) (t : Fin cfg15.N) (d) : (dat15 V c).before 4 t d = iblk15 V c 4 t :=
  ((dat15 V c).before_in_eq_fetched 4 rfl (fun _ => rfl) (fun _ _ _ => rfl)
      (fun t => by rw [after15_4]; unfold Dat.blockOf iblk15; rw [A_eq15 V c 4]; try rfl) t d).trans
    (by unfold Dat.fetched Dat.blockOf iblk15; rw [A_eq15 V c 4]; try rfl)
theorem before15_5 (c : Dev nD) (t : Fin cfg15.N) (d) : (dat15 V c).before 5 t d = iblk15 V c 5 t :=
  ((dat15 V c).before_in_eq_fetched 5 rfl (fun _ => rfl) (fun _ _ _ => rfl)
      (fun t => by rw [after15_5]; unfold Dat.blockOf iblk15; rw [A_eq15 V c 5]; try rfl) t d).trans
    (by unfold Dat.fetched Dat.blockOf iblk15; rw [A_eq15 V c 5]; try rfl)

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t))

/-- The body at any point: the inputs' buffers hold their blocks, so the body's triple applies; the invariant and
    what the core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel15 c Set.univ _ _ _ _ _ _ _ _ _ _ _ _ _ _ _ (iblk15 V c 0 t) (iblk15 V c 1 t) (iblk15 V c 2 t) (iblk15 V c 3 t) (iblk15 V c 4 t) (iblk15 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation15 (c : Dev nD) : BodyObligation (dat15 (F := F) V c) (defs₀ (F := F)) Variants.none () Set.univ := fun t => by
  rw [bigSep_W15, bigSep_W15]
  exact sound_body15 V c t

end Region15

end Cert.KernelIdeal.Rg

end
-- ==== Proof.Rg16.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 16: the affine map, one row block per grid point

Region 16 computes o = x·W + b over 10 grid points. At point t the body reads the t-th block of 2000 rows
of x (window 0), the whole 128x512 matrix W (window 1) and the 1x512 bias row (window 2), and writes the t-th
block of 2000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region16
variable (V : (c : Dev nD) → (b : Ref sig .tc) → Buf (Elt F) ((c : Thread nD τ).loc b))

/-! ## The blocks the windows show -/

/-- The block of window w at grid point t: the window's view at t read off the window's array as the
    region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's staging buffer holds the window's block at every point, whether the block was
    fetched at that point or carried over from the point before (then the block index has not moved), for any
    proof data whose array is V's and whose body leaves the block where it is. Window 0: the rows of x. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- The same for window 1, the matrix W, whose block is the whole array at every point. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The same for window 2, the bias row. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-! ## The rectangles the body reads and writes: each buffer, whole -/

abbrev r16_x : Rect S2000x128 := Rect.unit (s := S2000x128) ![0, 0] S2000x128.size inb_S2000x128_S2000x128_0_0
abbrev r16_w : Rect S128x512 := Rect.unit (s := S128x512) ![0, 0] S128x512.size inb_S128x512_S128x512_0_0
abbrev r16_b : Rect S1x512 := Rect.unit (s := S1x512) ![0, 0] S1x512.size inb_S1x512_S1x512_0_0
abbrev r16_o : Rect S2000x512 := Rect.unit (s := S2000x512) ![0, 0] S2000x512.size inb_S2000x512_S2000x512_0_0

/-! ## What the body leaves in the output block -/

/-- The output block after the body, as a function of the three input blocks: the body's single store,
    of the affine payload of the three blocks read whole, laid over the whole buffer. -/
def out16_3 (x0 : Vec F S2000x128 .f32) (x1 : Vec F S128x512 .f32) (x2 : Vec F S1x512 .f32) : Vec F S2000x512 .f32 :=
  View.canon [⟨r16_o, k16_pay1 (View.ld x0 r16_x) (View.ld x1 r16_w) (View.ld x2 r16_b)⟩]

/-- The single store tiles the output buffer, so every index of the buffer lies in it. -/
theorem cover16_3 (p0 : Vec F S2000x512 .f32) (y : S2000x512.Idx) :
    ∃ pc ∈ ([⟨r16_o, p0⟩] : List (View.Piece (Elt F) S2000x512 .f32)), y ∈ pc.1.set :=
  View.cover_of_tiled [⟨r16_o, p0⟩] S2000x512.size (by rfl) y

/-! ## The body's triple -/

set_option maxHeartbeats 1000000 in
/-- The body, run on whole staging buffers with the three inputs at contents x0, x1, x2 and the output at
    any contents, reaches its continuation with the inputs as they were and the output at out16_3 of the inputs.
    The body also reads the output buffer before its store; the value read is not used. -/
theorem sound_kernel16 (c : Dev nD) (E : Set ℕ) (i : grid16.Coords)
    (arg1 : Memref sig .tc .vmem S2000x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out16_3 x0 x1 x2)) -∗ K ⟨⟩))
      ⊢ wp frame (wpE (defs₀ (F := F)) Variants.none c none) E (cc16__linear_kernel i arg1 harg1 arg2 harg2 arg3 harg3 arg4 harg4) K := by
  simp only [cc16__linear_kernel_eq_skeleton]; unfold cc16__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover16_3 _)

/-! ## The region's proof data -/

/-- The proof data of region 16 on core c: the arrays as the region finds them; after the body at point t
    each input buffer still at its block and the output buffer at out16_3 of the three input blocks; the
    invariant is the class's (the scoped rest and the generator register, untouched); nothing owed; full
    shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

/-- The proof data's arrays are the contents at the region's entry. -/
theorem A_eq16 (c : Dev nD) (w : Fin cfg16.W) : (dat16 V c).A w = V c (Pipeline.arrRef spec16 w) := by
  dsimp only [dat16]

/-- The invariant at every point is the class invariant. -/
theorem Phi16_eq (c : Dev nD) (t : Fin (cfg16.N + 1)) : (dat16 V c).Φ t = Pipeline.ΦA spec16 c := rfl

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16_3 (iblk16 V c 0 t) (iblk16 V c 1 t) (iblk16 V c 2 t) := by dsimp only [dat16]

/-- Each input's staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-! ## The body obligation -/

/-- What the body is called with at point t: the invariant, the core's debt, and the four staging buffers,
    each at what the pipeline has put there. -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- What the body returns at point t. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

/-- The body at any point: the input buffers hold their blocks, so the body's triple applies; the invariant
    and the core's debt pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation16 (c : Dev nD) : BodyObligation (dat16 (F := F) V c) (defs₀ (F := F)) Variants.none () Set.univ := fun t => by
  rw [bigSep_W16, bigSep_W16]
  exact sound_body16 V c t

end Region16

end Cert.KernelIdeal.Rg

end
-- ==== Proof.Rg17.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 17: the affine map, one row block per grid point

Region 17 computes o = x·W + b over 80 grid points. At point t the body reads the t-th block of 4000 rows
of x (window 0), the whole 128x128 matrix W (window 1) and the 1x128 bias row (window 2), and writes the t-th
block of 4000 rows of o (window 3), which is written back at every point. This file gives, for any float
family and for any contents V of the core's buffers at the region's entry: the block each window shows at
each point, what the body leaves in the output block as a function of the three input blocks, the body's
triple, the region's proof data and its body obligation. -/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region17
variable (V : (c : Dev nD) → (b : Ref sig .tc) → Buf (Elt F) ((c : Thread nD τ).loc b))

/-! ## The blocks the windows show -/

/-- The block of window w at grid point t: the window's view at t read off the window's array as the
    region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's staging buffer holds the window's block at every point, whether the block was
    fetched at that point or carried over from the point before (then the block index has not moved), for any
    proof data whose array is V's and whose body leaves the block where it is. Window 0: the rows of x. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The same for window 1, the matrix W, whose block is the whole array at every point. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The same for window 2, the bias row. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The rectangles the body reads and writes: each buffer, whole -/

abbrev r17_x : Rect S4000x128 := Rect.unit (s := S4000x128) ![0, 0] S4000x128.size inb_S4000x128_S4000x128_0_0
abbrev r17_w : Rect S128x128 := Rect.unit (s := S128x128) ![0, 0] S128x128.size inb_S128x128_S128x128_0_0
abbrev r17_b : Rect S1x128 := Rect.unit (s := S1x128) ![0, 0] S1x128.size inb_S1x128_S1x128_0_0
abbrev r17_o : Rect S4000x128 := Rect.unit (s := S4000x128) ![0, 0] S4000x128.size inb_S4000x128_S4000x128_0_0

/-! ## What the body leaves in the output block -/

/-- The output block after the body, as a function of the three input blocks: the body's single store,
    of the affine payload of the three blocks read whole, laid over the whole buffer. -/
def out17_3 (x0 : Vec F S4000x128 .f32) (x1 : Vec F S128x128 .f32) (x2 : Vec F S1x128 .f32) : Vec F S4000x128 .f32 :=
  View.canon [⟨r17_o, k17_pay1 (View.ld x0 r17_x) (View.ld x1 r17_w) (View.ld x2 r17_b)⟩]

/-- The single store tiles the output buffer, so every index of the buffer lies in it. -/
theorem cover17_3 (p0 : Vec F S4000x128 .f32) (y : S4000x128.Idx) :
    ∃ pc ∈ ([⟨r17_o, p0⟩] : List (View.Piece (Elt F) S4000x128 .f32)), y ∈ pc.1.set :=
  View.cover_of_tiled [⟨r17_o, p0⟩] S4000x128.size (by rfl) y

/-! ## The body's triple -/

set_option maxHeartbeats 1000000 in
/-- The body, run on whole staging buffers with the three inputs at contents x0, x1, x2 and the output at
    any contents, reaches its continuation with the inputs as they were and the output at out17_3 of the inputs.
    The body also reads the output buffer before its store; the value read is not used. -/
theorem sound_kernel17 (c : Dev nD) (E : Set ℕ) (i : grid17.Coords)
    (arg1 : Memref sig .tc .vmem S4000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out17_3 x0 x1 x2)) -∗ K ⟨⟩))
      ⊢ wp frame (wpE (defs₀ (F := F)) Variants.none c none) E (cc17__linear_kernel i arg1 harg1 arg2 harg2 arg3 harg3 arg4 harg4) K := by
  simp only [cc17__linear_kernel_eq_skeleton]; unfold cc17__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The region's proof data -/

/-- The proof data of region 17 on core c: the arrays as the region finds them; after the body at point t
    each input buffer still at its block and the output buffer at out17_3 of the three input blocks; the
    invariant is the class's (the scoped rest and the generator register, untouched); nothing owed; full
    shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the contents at the region's entry. -/
theorem A_eq17 (c : Dev nD) (w : Fin cfg17.W) : (dat17 V c).A w = V c (Pipeline.arrRef spec17 w) := by
  dsimp only [dat17]

/-- The invariant at every point is the class invariant. -/
theorem Phi17_eq (c : Dev nD) (t : Fin (cfg17.N + 1)) : (dat17 V c).Φ t = Pipeline.ΦA spec17 c := rfl

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) :
    (dat17 V c).after 3 t = out17_3 (iblk17 V c 0 t) (iblk17 V c 1 t) (iblk17 V c 2 t) := by dsimp only [dat17]

/-- Each input's staging buffer holds its block at every point. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation -/

/-- What the body is called with at point t: the invariant, the core's debt, and the four staging buffers,
    each at what the pipeline has put there. -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- What the body returns at point t. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the input buffers hold their blocks, so the body's triple applies; the invariant
    and the core's debt pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation17 (c : Dev nD) : BodyObligation (dat17 (F := F) V c) (defs₀ (F := F)) Variants.none () Set.univ := fun t => by
  rw [bigSep_W17, bigSep_W17]
  exact sound_body17 V c t

end Region17

end Cert.KernelIdeal.Rg

end
-- ==== Proof.Rg18.lean ====
/- The frame half of kernel region 18 (the gate kernel) of the program's run, generic in the float family: at the
   TensorCore's buffer contents V on entry, each window's block at a point of the grid, what the body leaves in its
   two output staging buffers as functions of the four input blocks, the body's triple, the region's exact proof data
   and the body obligation at every point. -/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region18
variable (V : (c : Dev nD) → (b : Ref sig .tc) → Buf (Elt F) ((c : Thread nD τ).loc b))

/-! # Region 18: ehat = ce + dh + eh, msg = logistic ehat * bh, row block by row block -/

/-- The block of window w at grid point t, read off the window's array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds the window's block at every point, for any proof data whose array
    is the entry contents and whose body leaves the block where it found it: the window is uncut and has no idle point. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- The whole 4000 x 128 block as a rectangle of itself: every load and store of the body is at it. -/
abbrev r18_0 : Rect S4000x128 := Rect.unit (s := S4000x128) ![0, 0] S4000x128.size inb_S4000x128_S4000x128_0_0

/-- The pre-activation block the body leaves in window 4's buffer, from the blocks of ce, dh, eh. -/
def out18_4 (x0 x1 x2 : Vec F S4000x128 .f32) : Vec F S4000x128 .f32 :=
  View.canon [⟨r18_0, k18_pay1 (View.ld x0 r18_0) (View.ld x1 r18_0) (View.ld x2 r18_0)⟩]

/-- The gated message block the body leaves in window 5's buffer, from the blocks of ce, dh, eh, bh. -/
def out18_5 (x0 x1 x2 x3 : Vec F S4000x128 .f32) : Vec F S4000x128 .f32 :=
  View.canon [⟨r18_0, k18_pay2 (View.ld x0 r18_0) (View.ld x1 r18_0) (View.ld x2 r18_0) (View.ld x3 r18_0)⟩]

/-- The one whole-block store covers the buffer. -/
theorem cover18 (p0 : Vec F S4000x128 .f32) (y : S4000x128.Idx) :
    ∃ pc ∈ ([⟨r18_0, p0⟩] : List (View.Piece (Elt F) S4000x128 .f32)), y ∈ pc.1.set :=
  View.cover_of_tiled [⟨r18_0, p0⟩] S4000x128.size (by rfl) y

set_option maxHeartbeats 1000000 in
/-- The body on whole staging memrefs, the four inputs' at contents x0 … x3 and the two outputs' at anything, runs to
    a state with the inputs' as they were and the outputs' at out18_4 and out18_5 of the inputs'. The body reads each
    output memref once before it stores to it; the value read is not used. -/
theorem sound_kernel18 (c : Dev nD) (E : Set ℕ) (i : grid18.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S4000x128 .f32) (harg6 : arg6.IsWhole)
    (x0 x1 x2 x3 : Vec F S4000x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out18_4 x0 x1 x2)
            ∗ owns (c : Thread nD τ) arg6 fullShare (out18_5 x0 x1 x2 x3)) -∗ K ⟨⟩))
      ⊢ wp frame (wpE (defs₀ (F := F)) Variants.none c none) E (cc18__gate_kernel i arg1 harg1 arg2 harg2 arg3 harg3 arg4 harg4 arg5 harg5 arg6 harg6) K := by
  simp only [cc18__gate_kernel_eq_skeleton]; unfold cc18__gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover18 _)
  iexists _; isplitr
  swap; · iexact H5
  ipureintro
  exact View.read_writes_eq_canon _ _ _ (cover18 _)

/-- The proof data of region 18 on core c: the arrays as the region finds them; after the body at point t each input's
    buffer at its block and the outputs' at out18_4, out18_5 of the input blocks; the class invariant; nothing owed; full
    shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => out18_4 (iblk18 V c 0 t) (iblk18 V c 1 t) (iblk18 V c 2 t)
    | ⟨5, _⟩ => out18_5 (iblk18 V c 0 t) (iblk18 V c 1 t) (iblk18 V c 2 t) (iblk18 V c 3 t)
  Φ _ := Pipeline.ΦA spec18 c
  q _ := fullShare
  owed _ := 0

/-- The proof data's arrays are the entry contents. -/
theorem A_eq18 (c : Dev nD) (w : Fin cfg18.W) : (dat18 V c).A w = V c (Pipeline.arrRef spec18 w) := by
  dsimp only [dat18]

/-- The invariant is the class's at every point. -/
theorem Phi18_eq (c : Dev nD) (t : Fin (cfg18.N + 1)) : (dat18 V c).Φ t = Pipeline.ΦA spec18 c := rfl

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) :
    (dat18 V c).after 4 t = out18_4 (iblk18 V c 0 t) (iblk18 V c 1 t) (iblk18 V c 2 t) := by dsimp only [dat18]
theorem after18_5 (c : Dev nD) (t : Fin cfg18.N) :
    (dat18 V c).after 5 t = out18_5 (iblk18 V c 0 t) (iblk18 V c 1 t) (iblk18 V c 2 t) (iblk18 V c 3 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d

/-- What the body is called with at point t, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

/-- The body at any point: the inputs' memrefs hold their blocks, so the body's triple applies; the invariant and the
    core's debts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ _ _ _ _ _ _ _ _ _ _ _ _ _ (iblk18 V c 0 t) (iblk18 V c 1 t) (iblk18 V c 2 t) (iblk18 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

end Region18

end Cert.KernelIdeal.Rg

end
-- ==== Proof.Rg19.lean ====
/-
  Region 19 of the kernel program: the batch statistics of a 320000 x 128 array, accumulated over 80 row blocks of
  4000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-row rectangle of a 1x128 buffer and the whole-block rectangle of a 4000x128 buffer. -/
abbrev rS19 : Rect S1x128 := Rect.unit (s := S1x128) ![0, 0] S1x128.size inb_S1x128_S1x128_0_0
abbrev rX19 : Rect S4000x128 := Rect.unit (s := S4000x128) ![0, 0] S4000x128.size inb_S4000x128_S4000x128_0_0

/-- The first conditional's condition (the grid coordinate is 0), as the kernel computes it. -/
def k19_cond1 (i : grid19.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 79): decided over the 80 points. -/
theorem hcond19_1 : ∀ t : Fin cfg19.N, k19_cond1 (grid19.coords t) = 1#1 ↔ t.val = 0 :=
  (by decide +kernel : ∀ t : Fin grid19.N, k19_cond1 (grid19.coords t) = 1#1 ↔ t.val = 0)
theorem hcond19_2 : ∀ t : Fin cfg19.N, k19_cond2 (grid19.coords t) = 1#1 ↔ t.val = 79 :=
  (by decide +kernel : ∀ t : Fin grid19.N, k19_cond2 (grid19.coords t) = 1#1 ↔ t.val = 79)

/-- One point's step of the two running rows: the row held so far plus the block's column sums (of the entries, of their squares). -/
def step19_0 (x : Vec F S4000x128 .f32) (s0 : Vec F S1x128 .f32) : Vec F S1x128 .f32 :=
  View.canon [⟨rS19, k19_pay4 (View.ld x rX19) (View.ld s0 rS19)⟩]
def step19_1 (x : Vec F S4000x128 .f32) (s1 : Vec F S1x128 .f32) : Vec F S1x128 .f32 :=
  View.canon [⟨rS19, k19_pay5 (View.ld x rX19) (View.ld s1 rS19)⟩]

/-- A store of the whole row covers the 1x128 buffer. -/
theorem coverS19 (p0 : Vec F S1x128 .f32) (y : S1x128.Idx) :
    ∃ pc ∈ ([⟨rS19, p0⟩] : List (View.Piece (Elt F) S1x128 .f32)), y ∈ pc.1.set :=
  View.cover_of_tiled [⟨rS19, p0⟩] S1x128.size (by rfl) y

set_option maxHeartbeats 1000000 in
/-- The body at a point that is neither first nor last: both conditionals fall through; the block and the two output rows are left as found, each scratch row steps. -/
theorem sound_kernel19_mid (c : Dev nD) (E : Set ℕ) (i : grid19.Coords) (hc1 : ¬ k19_cond1 i = 1#1) (hc2 : ¬ k19_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg19 : Memref sig .tc .vmem S1x128 .f32) (harg19 : arg19.IsWhole)
    (x : Vec F S4000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg19 fullShare s1
        ∗ (iprop(owns (c : Thread nD τ) arg1 fullShare x ∗ owns (c : Thread nD τ) arg2 fullShare y1 ∗ owns (c : Thread nD τ) arg3 fullShare y2
            ∗ owns (c : Thread nD τ) arg4 fullShare (step19_0 x s0) ∗ owns (c : Thread nD τ) arg19 fullShare (step19_1 x s1)) -∗ K ⟨⟩))
      ⊢ wp frame (wpE (defs₀ (F := F)) Variants.none c none) E (cc19_kernel i arg1 harg1 arg2 harg2 arg3 harg3 arg4 harg4 arg19 harg19) K := by
  simp only [cc19_kernel_eq_skeleton]; unfold cc19_kernel_skel
  unfold owns
  iintro ⟨⟨%f1, %hf1, H1⟩, H2, H3, ⟨%f4, %hf4, H4⟩, ⟨%f19, %hf19, H19⟩, Hk⟩
  subst hf1; subst hf4; subst hf19
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS19 _)
  iexists _; isplitr
  swap; · iexact H19
  ipureintro
  exact View.read_writes_eq_canon _ _ _ (coverS19 _)

/-- A whole-row store hides every earlier store: the contents are the last payload's. -/
theorem canon_headS19 (p : Vec F S1x128 .f32) (L : List (View.Piece (Elt F) S1x128 .f32)) :
    View.canon (⟨rS19, p⟩ :: L) = View.canon [⟨rS19, p⟩] := by
  funext y
  obtain ⟨pc, hm, hy⟩ := coverS19 p y
  rw [List.mem_singleton] at hm; subst hm
  obtain ⟨x, rfl⟩ := rS19.exists_idx_of_mem hy
  exact (View.canon_cons_emb rS19 p L x).trans (View.canon_cons_emb rS19 p [] x).symm

/-- What a buffer reads after a list of stores whose last is a whole-row store. -/
theorem read_writes_headS19 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS19, p⟩ :: L)) = View.canon [⟨rS19, p⟩] :=
  (View.read_writes_eq_canon v f _ (fun y => by
    obtain ⟨pc, hm, hy⟩ := coverS19 p y
    rw [List.mem_singleton] at hm; subst hm
    exact ⟨_, List.mem_cons_self, hy⟩)).trans (canon_headS19 p L)

/-- The zero rows the first point resets the two scratch rows to. -/
def init19_0 : Vec F S1x128 .f32 := View.canon [⟨rS19, k19_pay1 (F := F)⟩]
def init19_1 : Vec F S1x128 .f32 := View.canon [⟨rS19, k19_pay2 (F := F)⟩]

set_option maxHeartbeats 1000000 in
/-- The body at the first point: the scratch rows, found at anything, are reset to zero and then step; the output rows are left as found. -/
theorem sound_kernel19_first (c : Dev nD) (E : Set ℕ) (i : grid19.Coords) (hc1 : k19_cond1 i = 1#1) (hc2 : ¬ k19_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg19 : Memref sig .tc .vmem S1x128 .f32) (harg19 : arg19.IsWhole)
    (x : Vec F S4000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg19 fullShare d)
        ∗ (iprop(owns (c : Thread nD τ) arg1 fullShare x ∗ owns (c : Thread nD τ) arg2 fullShare y1 ∗ owns (c : Thread nD τ) arg3 fullShare y2
            ∗ owns (c : Thread nD τ) arg4 fullShare (step19_0 x init19_0) ∗ owns (c : Thread nD τ) arg19 fullShare (step19_1 x init19_1)) -∗ K ⟨⟩))
      ⊢ wp frame (wpE (defs₀ (F := F)) Variants.none c none) E (cc19_kernel i arg1 harg1 arg2 harg2 arg3 harg3 arg4 harg4 arg19 harg19) K := by
  simp only [cc19_kernel_eq_skeleton]; unfold cc19_kernel_skel
  unfold owns
  iintro ⟨⟨%f1, %hf1, H1⟩, H2, H3, ⟨%d4, %f4, -, H4⟩, ⟨%d19, %f19, -, H19⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel19_first.sl.v5 sound_kernel19_first.sl.H4_1
    rw [View.readCov_eq_canon_ld _ _ _ (coverS19 _)]
    exact read_writes_headS19 _ _ _ _
  iexists _; isplitr
  swap; · iexact H19
  ipureintro
  unfold sound_kernel19_first.sl.v12 sound_kernel19_first.sl.H19_1
  rw [View.readCov_eq_canon_ld _ _ _ (coverS19 _)]
  exact read_writes_headS19 _ _ _ _

/-- The output rows as the last point computes them from the final running rows: the mean is the column sum over the count; the variance is the sum of squares over the count minus the squared mean. -/
def out19_1 (s0 : Vec F S1x128 .f32) : Vec F S1x128 .f32 :=
  View.canon [⟨rS19, k19_pay6 (View.ld s0 rS19)⟩]
def out19_2 (s0 s1 : Vec F S1x128 .f32) : Vec F S1x128 .f32 :=
  View.canon [⟨rS19, k19_pay7 (View.ld s0 rS19) (View.ld s1 rS19)⟩]

set_option maxHeartbeats 1000000 in
/-- The body at the last point: the scratch rows step, then the two output rows, found at anything, are stored from the stepped rows. -/
theorem sound_kernel19_last (c : Dev nD) (E : Set ℕ) (i : grid19.Coords) (hc1 : ¬ k19_cond1 i = 1#1) (hc2 : k19_cond2 i = 1#1)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg19 : Memref sig .tc .vmem S1x128 .f32) (harg19 : arg19.IsWhole)
    (x : Vec F S4000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg19 fullShare s1
        ∗ (iprop(owns (c : Thread nD τ) arg1 fullShare x ∗ owns (c : Thread nD τ) arg2 fullShare (out19_1 (step19_0 x s0))
            ∗ owns (c : Thread nD τ) arg3 fullShare (out19_2 (step19_0 x s0) (step19_1 x s1))
            ∗ owns (c : Thread nD τ) arg4 fullShare (step19_0 x s0) ∗ owns (c : Thread nD τ) arg19 fullShare (step19_1 x s1)) -∗ K ⟨⟩))
      ⊢ wp frame (wpE (defs₀ (F := F)) Variants.none c none) E (cc19_kernel i arg1 harg1 arg2 harg2 arg3 harg3 arg4 harg4 arg19 harg19) K := by
  simp only [cc19_kernel_eq_skeleton]; unfold cc19_kernel_skel
  unfold owns
  iintro ⟨⟨%f1, %hf1, H1⟩, ⟨%d2, %f2, -, H2⟩, ⟨%d3, %f3, -, H3⟩, ⟨%f4, %hf4, H4⟩, ⟨%f19, %hf19, H19⟩, Hk⟩
  subst hf1; subst hf4; subst hf19
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel19_last.sl.v23 sound_kernel19_last.sl.H4_1
    rw [View.readCov_eq_canon_ld _ _ _ (coverS19 _)]
    exact View.read_writes_eq_canon _ _ _ (coverS19 _)
  isplitl [H3]
  · iexists _; isplitr
    swap; · iexact H3
    ipureintro
    unfold sound_kernel19_last.sl.v23 sound_kernel19_last.sl.v26 sound_kernel19_last.sl.H4_1 sound_kernel19_last.sl.H19_1
    rw [View.readCov_eq_canon_ld _ _ _ (coverS19 _), View.readCov_eq_canon_ld _ _ _ (coverS19 _)]
    exact View.read_writes_eq_canon _ _ _ (coverS19 _)
  isplitl [H4]
  · iexists _; isplitr
    swap; · iexact H4
    ipureintro
    exact View.read_writes_eq_canon _ _ _ (coverS19 _)
  iexists _; isplitr
  swap; · iexact H19
  ipureintro
  exact View.read_writes_eq_canon _ _ _ (coverS19 _)

section Regions
variable (V : (c : Dev nD) → (b : Ref sig .tc) → Buf (Elt F) ((c : Thread nD τ).loc b))

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The input window's current buffer holds its block at every point, for any proof data over these arrays whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- THE ACCUMULATION. The two scratch rows after point n: at point 0 one step from the zero rows, afterwards one step from what the point before left. -/
def acc19 (c : Dev nD) : (n : ℕ) → n < cfg19.N → Vec F S1x128 .f32 × Vec F S1x128 .f32
  | 0, hn => (step19_0 (iblk19 V c 0 ⟨0, hn⟩) init19_0, step19_1 (iblk19 V c 0 ⟨0, hn⟩) init19_1)
  | n + 1, hn => (step19_0 (iblk19 V c 0 ⟨n + 1, hn⟩) (acc19 c n (Nat.lt_of_succ_lt hn)).1,
      step19_1 (iblk19 V c 0 ⟨n + 1, hn⟩) (acc19 c n (Nat.lt_of_succ_lt hn)).2)

/-- The accumulation at the first point, and at a later point over the point before. -/
theorem acc19_zero (c : Dev nD) (t : Fin cfg19.N) (h0 : t.val = 0) :
    acc19 V c t.val t.isLt = (step19_0 (iblk19 V c 0 t) init19_0, step19_1 (iblk19 V c 0 t) init19_1) := by
  obtain ⟨n, hn⟩ := t
  cases n with
  | zero => rfl
  | succ n => exact absurd h0 (Nat.succ_ne_zero n)

theorem acc19_pos (c : Dev nD) (t : Fin cfg19.N) (h0 : t.val ≠ 0) :
    acc19 V c t.val t.isLt = (step19_0 (iblk19 V c 0 t) (acc19 V c (t.val - 1) (Nat.lt_of_le_of_lt (Nat.sub_le _ _) t.isLt)).1,
      step19_1 (iblk19 V c 0 t) (acc19 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM19_0 : Memref sig .tc .vmem S1x128 .f32 := Memref.whole cc19_scratch0
abbrev scM19_1 : Memref sig .tc .vmem S1x128 .f32 := Memref.whole cc19_scratch1

/-- What enters the invariant besides the scoped buffers: the generator register at some state. -/
def X19 (c : Dev nD) : sProp 𝕄 := iprop(∃ r, prngReg c r)

/-- The region invariant before position n: the generator register, the scoped buffers other than the two scratch rows, and the two scratch rows — at anything before the first point, afterwards at what the point before left. -/
def PhiS19 (c : Dev nD) : (n : ℕ) → n ≤ cfg19.N → sProp 𝕄
  | 0, _ => iprop(X19 (F := F) c ∗ Pipeline.scopedRestBut spec19 c [cc19_scratch0, cc19_scratch1]
      ∗ (∃ d, owns (c : Thread nD τ) scM19_0 fullShare d) ∗ (∃ d, owns (c : Thread nD τ) scM19_1 fullShare d))
  | n + 1, hn => iprop(X19 (F := F) c ∗ Pipeline.scopedRestBut spec19 c [cc19_scratch0, cc19_scratch1]
      ∗ owns (c : Thread nD τ) scM19_0 fullShare (acc19 V c n hn).1 ∗ owns (c : Thread nD τ) scM19_1 fullShare (acc19 V c n hn).2)

/-- The invariant's three readings: before the first point, after point n, before a later point. -/
theorem PhiS19_zero (c : Dev nD) (n : ℕ) (h : n ≤ cfg19.N) (hz : n = 0) :
    PhiS19 V c n h = iprop(X19 (F := F) c ∗ Pipeline.scopedRestBut spec19 c [cc19_scratch0, cc19_scratch1]
      ∗ (∃ d, owns (c : Thread nD τ) scM19_0 fullShare d) ∗ (∃ d, owns (c : Thread nD τ) scM19_1 fullShare d)) := by
  subst hz; rfl

theorem PhiS19_succ (c : Dev nD) (n : ℕ) (hn : n < cfg19.N) :
    PhiS19 V c (n + 1) hn = iprop(X19 (F := F) c ∗ Pipeline.scopedRestBut spec19 c [cc19_scratch0, cc19_scratch1]
      ∗ owns (c : Thread nD τ) scM19_0 fullShare (acc19 V c n hn).1 ∗ owns (c : Thread nD τ) scM19_1 fullShare (acc19 V c n hn).2) := rfl

theorem PhiS19_pos (c : Dev nD) (n : ℕ) (h : n ≤ cfg19.N) (hz : n ≠ 0) :
    PhiS19 V c n h = iprop(X19 (F := F) c ∗ Pipeline.scopedRestBut spec19 c [cc19_scratch0, cc19_scratch1]
      ∗ owns (c : Thread nD τ) scM19_0 fullShare (acc19 V c (n - 1) (by omega)).1 ∗ owns (c : Thread nD τ) scM19_1 fullShare (acc19 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => out19_1 (acc19 V c t.val t.isLt).1
    | ⟨2, _⟩ => out19_2 (acc19 V c t.val t.isLt).1 (acc19 V c t.val t.isLt).2
  Φ t := PhiS19 V c t.val (Nat.le_of_lt_succ t.isLt)
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = out19_1 (acc19 V c t.val t.isLt).1 := by dsimp only [dat19]
theorem after19_2 (c : Dev nD) (t : Fin cfg19.N) : (dat19 V c).after 2 t = out19_2 (acc19 V c t.val t.isLt).1 (acc19 V c t.val t.isLt).2 := by dsimp only [dat19]

/-- The input's current buffer holds its block at every point. -/
theorem before19_0 (c : Dev nD) (t : Fin cfg19.N) (d) : (dat19 V c).before 0 t d = iblk19 V c 0 t :=
  before19_0_of V (dat19 V c) (A_eq19 V c 0) (after19_0 V c) t d

/-- The invariant at a point's start, restated at the point's position. -/
theorem PhiS19_castSucc (c : Dev nD) (t : Fin cfg19.N) :
    (dat19 V c).Φ t.castSucc = PhiS19 V c t.val (Nat.le_of_lt t.isLt) := by
  dsimp only [dat19]; simp only [Fin.coe_castSucc]

/-- Where the windows are idle: the input never; each output row exactly off the last point, where it is not written back either. -/
theorem liveAt19_0 (t : Fin cfg19.N) : cfg19.idle 0 (cfg19.grid.coords t) = false := rfl

theorem idleAt19_1 (t : Fin cfg19.N) (h : ¬ k19_cond2 (grid19.coords t) = 1#1) : cfg19.idle 1 (cfg19.grid.coords t) = true := by
  show (!(k19_cond2 (grid19.coords t) == 1#1)) = true
  rw [Bool.not_eq_true', beq_eq_false_iff_ne]; exact h
theorem idleAt19_2 (t : Fin cfg19.N) (h : ¬ k19_cond2 (grid19.coords t) = 1#1) : cfg19.idle 2 (cfg19.grid.coords t) = true := by
  show (!(k19_cond2 (grid19.coords t) == 1#1)) = true
  rw [Bool.not_eq_true', beq_eq_false_iff_ne]; exact h
theorem liveAt19_1 (t : Fin cfg19.N) (h : k19_cond2 (grid19.coords t) = 1#1) : cfg19.idle 1 (cfg19.grid.coords t) = false := by
  show (!(k19_cond2 (grid19.coords t) == 1#1)) = false
  rw [h]; rfl
theorem liveAt19_2 (t : Fin cfg19.N) (h : k19_cond2 (grid19.coords t) = 1#1) : cfg19.idle 2 (cfg19.grid.coords t) = false := by
  show (!(k19_cond2 (grid19.coords t) == 1#1)) = false
  rw [h]; rfl

theorem noFlush19_1 (t : Fin cfg19.N) (h : t.val ≠ 79) : (cfg19.win 1).flush t = false := by
  have hN : t.val < 80 := lt_of_lt_of_eq t.isLt (show cfg19.N = 80 from N_19)
  cases hf : (cfg19.win 1).flush t with
  | false => rfl
  | true => exact absurd ((flush19_1 t).mp hf) (by omega)
theorem noFlush19_2 (t : Fin cfg19.N) (h : t.val ≠ 79) : (cfg19.win 2).flush t = false := by
  have hN : t.val < 80 := lt_of_lt_of_eq t.isLt (show cfg19.N = 80 from N_19)
  cases hf : (cfg19.win 2).flush t with
  | false => rfl
  | true => exact absurd ((flush19_2 t).mp hf) (by omega)

/-- What the body is called with at point t, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4000000 in
/-- The body at any point, by the point's position: first (scratch at anything, reset), last (the output rows stored), or between; the invariant hands the scratch rows over at what the point before left and takes them back stepped. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0]
  rw [show (dat19 V c).owesAt () t.succ = (dat19 V c).owesAt () t.castSucc from rfl]
  rw [show (dat19 V c).Φ t.succ = PhiS19 V c (t.val + 1) t.isLt from rfl, PhiS19_succ]
  rw [show (dat19 V c).leavesExact 0 t = owns (c : Thread nD τ) (st19_0 t) fullShare ((dat19 V c).after 0 t) from by
    unfold Dat.leavesExact; rw [liveAt19_0 t], after19_0]
  have hN : t.val < 80 := lt_of_lt_of_eq t.isLt (show cfg19.N = 80 from N_19)
  by_cases h0 : t.val = 0
  · have hc1 : k19_cond1 (grid19.coords t) = 1#1 := (hcond19_1 t).mpr h0
    have hc2 : ¬ k19_cond2 (grid19.coords t) = 1#1 := fun h => by have := (hcond19_2 t).mp h; omega
    rw [Dat.leavesExact_idle (dat19 V c) 1 t (idleAt19_1 t hc2) (noFlush19_1 t (by omega)),
      Dat.leavesExact_idle (dat19 V c) 2 t (idleAt19_2 t hc2) (noFlush19_2 t (by omega))]
    rw [acc19_zero V c t h0]
    rw [PhiS19_castSucc V c t, PhiS19_zero V c _ _ h0]
    iintro ⟨⟨HX, HR, HS0, HS1⟩, Ho, ⟨%d0, H0⟩, ⟨%d1, H1⟩, ⟨%d2, H2⟩⟩
    iapply (sound_kernel19_first c Set.univ (grid19.coords t) hc1 hc2 _ _ _ _ _ _ _ _ _ _ (iblk19 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k19_cond1 (grid19.coords t) = 1#1 := fun h => h0 ((hcond19_1 t).mp h)
    rw [acc19_pos V c t h0]
    rw [PhiS19_castSucc V c t, PhiS19_pos V c _ _ h0]
    by_cases h79 : t.val = 79
    · have hc2 : k19_cond2 (grid19.coords t) = 1#1 := (hcond19_2 t).mpr h79
      rw [show (dat19 V c).leavesExact 1 t = owns (c : Thread nD τ) (st19_1 t) fullShare ((dat19 V c).after 1 t) from by
        unfold Dat.leavesExact; rw [liveAt19_1 t hc2], after19_1]
      rw [show (dat19 V c).leavesExact 2 t = owns (c : Thread nD τ) (st19_2 t) fullShare ((dat19 V c).after 2 t) from by
        unfold Dat.leavesExact; rw [liveAt19_2 t hc2], after19_2]
      rw [acc19_pos V c t h0]
      iintro ⟨⟨HX, HR, HS0, HS1⟩, Ho, ⟨%d0, H0⟩, ⟨%d1, H1⟩, ⟨%d2, H2⟩⟩
      iapply (sound_kernel19_last c Set.univ (grid19.coords t) hc1 hc2 _ _ _ _ _ _ _ _ _ _ (iblk19 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k19_cond2 (grid19.coords t) = 1#1 := fun h => h79 ((hcond19_2 t).mp h)
      rw [Dat.leavesExact_idle (dat19 V c) 1 t (idleAt19_1 t hc2) (noFlush19_1 t h79),
        Dat.leavesExact_idle (dat19 V c) 2 t (idleAt19_2 t hc2) (noFlush19_2 t h79)]
      iintro ⟨⟨HX, HR, HS0, HS1⟩, Ho, ⟨%d0, H0⟩, ⟨%d1, H1⟩, ⟨%d2, H2⟩⟩
      iapply (sound_kernel19_mid c Set.univ (grid19.coords t) hc1 hc2 _ _ _ _ _ _ _ _ _ _ (iblk19 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation19 (c : Dev nD) : BodyObligation (dat19 (F := F) V c) (defs₀ (F := F)) Variants.none () Set.univ := fun t => by
  rw [bigSep_W19, bigSep_W19]
  exact sound_body19 V c t

/-- Entry: the generator register and the scoped buffers (the two scratch rows among them, at anything) make the invariant before the first point. -/
theorem hin19 (c : Dev nD) : iprop(X19 (F := F) c ∗ Pipeline.scopedRest spec19 c) ⊢ (dat19 V c).Φ 0 := by
  rw [show (dat19 V c).Φ 0 = PhiS19 V c 0 (Nat.zero_le _) from rfl, PhiS19_zero V c 0 _ rfl, scopedRest19_split]
  simp only [scM19_0, scM19_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout19 (c : Dev nD) : (dat19 V c).Φ (Fin.last cfg19.N) ⊢ iprop(X19 (F := F) c ∗ Pipeline.scopedRest spec19 c) := by
  rw [show (dat19 V c).Φ (Fin.last cfg19.N) = PhiS19 V c (Fin.last cfg19.N).val (Nat.le_of_lt_succ (Fin.last cfg19.N).isLt) from rfl,
    PhiS19_pos V c _ _ (by rw [Fin.val_last]; have : cfg19.N = 80 := N_19; omega), scopedRest19_split]
  simp only [scM19_0, scM19_1, owns_whole]
  iintro ⟨HX, HR, HS0, HS1⟩
  isplitl [HX]; · iexact HX
  isplitl [HS0 HS1]
  · isplitl [HS0]; · iexists _; iexact HS0
    iexists _; iexact HS1
  iexact HR

end Regions

end Cert.KernelIdeal.Rg

end
-- ==== Proof.Rg20.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 20: normalise, rectify, add the residual — the frame half

Region 20 walks the 320000 rows of its operands in 80 blocks of 4000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region20
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-! ## The body's accesses -/

/-- The whole 4000x128 block, -/
abbrev r20_big : Rect S4000x128 := Rect.unit (s := S4000x128) ![0, 0] S4000x128.size inb_S4000x128_S4000x128_0_0
/-- and the whole 1x128 row. -/
abbrev r20_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out20_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r20_big, k20_pay1 (View.ld x0 r20_big) (View.ld x4 r20_row) (View.ld x2 r20_row) (View.ld x3 r20_row) (View.ld x5 r20_row) (View.ld x1 r20_big)⟩]

/-- The one store is of the whole block, so it covers it. -/
theorem cover20_6 (p0 : Vec F S4000x128 .f32) (y : S4000x128.Idx) :
    ∃ pc ∈ ([⟨r20_big, p0⟩] : List (View.Piece (Elt F) S4000x128 .f32)), y ∈ pc.1.set :=
  View.cover_of_tiled [⟨r20_big, p0⟩] S4000x128.size (by rfl) y

/-! ## The body's triple -/

set_option maxHeartbeats 1000000 in
/-- The body, run on whole staging buffers holding the six input blocks and an output buffer holding anything,
    returns the inputs' buffers unchanged and the output's buffer at out20_6 of the inputs. -/
theorem sound_kernel20 (c : Dev nD) (E : Set ℕ) (i : grid20.Coords)
    (arg1 : Memref sig .tc .vmem S4000x128 .f32) (harg1 : arg1.IsWhole) (arg2 : Memref sig .tc .vmem S4000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out20_6 x0 x1 x2 x3 x4 x5)) -∗ K ⟨⟩))
      ⊢ wp frame (wpE (defs₀ (F := F)) Variants.none c none) E (cc20__bn_relu_residual_kernel i arg1 harg1 arg2 harg2 arg3 harg3 arg4 harg4 arg5 harg5 arg6 harg6 arg7 harg7) K := by
  simp only [cc20__bn_relu_residual_kernel_eq_skeleton]; unfold cc20__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover20_6 _)

/-! ## The region's proof data -/

/-- The proof data of region 20 on core c: the arrays as the region finds them; after the body at point t each
    input's buffer at its block and the output's at out20_6 of the six input blocks; the invariant the untouched
    rest of the core's state; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => out20_6 (iblk20 V c 0 t) (iblk20 V c 1 t) (iblk20 V c 2 t) (iblk20 V c 3 t) (iblk20 V c 4 t) (iblk20 V c 5 t)
  Φ _ := Pipeline.ΦA spec20 c
  q _ := fullShare
  owed _ := 0

/-- The proof data's arrays are the entry contents. -/
theorem A_eq20 (c : Dev nD) (w : Fin cfg20.W) : (dat20 V c).A w = V c (Pipeline.arrRef spec20 w) := by
  dsimp only [dat20]

/-- The invariant is the same at every point: the rest of the core's state, untouched. -/
theorem Phi20_eq (c : Dev nD) (t : Fin (cfg20.N + 1)) : (dat20 V c).Φ t = Pipeline.ΦA spec20 c := rfl

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t
    = out20_6 (iblk20 V c 0 t) (iblk20 V c 1 t) (iblk20 V c 2 t) (iblk20 V c 3 t) (iblk20 V c 4 t) (iblk20 V c 5 t) := by dsimp only [dat20]

/-- Each input's staging buffer holds its block at every point, whether or not the block was fetched at that
    point: a window not fetched at a point has the block index of the point before, and the body leaves an
    input's buffer as it found it. -/
theorem before20_0 (c : Dev nD) (t : Fin cfg20.N) (d) : (dat20 V c).before 0 t d = iblk20 V c 0 t :=
  ((dat20 V c).before_in_eq_fetched 0 rfl (fun _ => rfl) (fun _ _ _ => rfl)
      (fun t => by rw [after20_0]; unfold Dat.blockOf iblk20; rw [A_eq20 V c 0]; try rfl) t d).trans
    (by unfold Dat.fetched Dat.blockOf iblk20; rw [A_eq20 V c 0]; try rfl)
theorem before20_1 (c : Dev nD) (t : Fin cfg20.N) (d) : (dat20 V c).before 1 t d = iblk20 V c 1 t :=
  ((dat20 V c).before_in_eq_fetched 1 rfl (fun _ => rfl) (fun _ _ _ => rfl)
      (fun t => by rw [after20_1]; unfold Dat.blockOf iblk20; rw [A_eq20 V c 1]; try rfl) t d).trans
    (by unfold Dat.fetched Dat.blockOf iblk20; rw [A_eq20 V c 1]; try rfl)
theorem before20_2 (c : Dev nD) (t : Fin cfg20.N) (d) : (dat20 V c).before 2 t d = iblk20 V c 2 t :=
  ((dat20 V c).before_in_eq_fetched 2 rfl (fun _ => rfl) (fun _ _ _ => rfl)
      (fun t => by rw [after20_2]; unfold Dat.blockOf iblk20; rw [A_eq20 V c 2]; try rfl) t d).trans
    (by unfold Dat.fetched Dat.blockOf iblk20; rw [A_eq20 V c 2]; try rfl)
theorem before20_3 (c : Dev nD) (t : Fin cfg20.N) (d) : (dat20 V c).before 3 t d = iblk20 V c 3 t :=
  ((dat20 V c).before_in_eq_fetched 3 rfl (fun _ => rfl) (fun _ _ _ => rfl)
      (fun t => by rw [after20_3]; unfold Dat.blockOf iblk20; rw [A_eq20 V c 3]; try rfl) t d).trans
    (by unfold Dat.fetched Dat.blockOf iblk20; rw [A_eq20 V c 3]; try rfl)
theorem before20_4 (c : Dev nD) (t : Fin cfg20.N) (d) : (dat20 V c).before 4 t d = iblk20 V c 4 t :=
  ((dat20 V c).before_in_eq_fetched 4 rfl (fun _ => rfl) (fun _ _ _ => rfl)
      (fun t => by rw [after20_4]; unfold Dat.blockOf iblk20; rw [A_eq20 V c 4]; try rfl) t d).trans
    (by unfold Dat.fetched Dat.blockOf iblk20; rw [A_eq20 V c 4]; try rfl)
theorem before20_5 (c : Dev nD) (t : Fin cfg20.N) (d) : (dat20 V c).before 5 t d = iblk20 V c 5 t :=
  ((dat20 V c).before_in_eq_fetched 5 rfl (fun _ => rfl) (fun _ _ _ => rfl)
      (fun t => by rw [after20_5]; unfold Dat.blockOf iblk20; rw [A_eq20 V c 5]; try rfl) t d).trans
    (by unfold Dat.fetched Dat.blockOf iblk20; rw [A_eq20 V c 5]; try rfl)

/-! ## The body obligation, at a generic point -/

/-- What the body is called with at point t, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t))

/-- The body at any point: the inputs' buffers hold their blocks, so the body's triple applies; the invariant and
    what the core owes pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel20 c Set.univ _ _ _ _ _ _ _ _ _ _ _ _ _ _ _ (iblk20 V c 0 t) (iblk20 V c 1 t) (iblk20 V c 2 t) (iblk20 V c 3 t) (iblk20 V c 4 t) (iblk20 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation20 (c : Dev nD) : BodyObligation (dat20 (F := F) V c) (defs₀ (F := F)) Variants.none () Set.univ := fun t => by
  rw [bigSep_W20, bigSep_W20]
  exact sound_body20 V c t

end Region20

end Cert.KernelIdeal.Rg

end
-- ==== Proof.Rg21.lean ====
/-
  Region 21 of the kernel program: the batch statistics of a 20000 x 128 array, accumulated over 10 row blocks of
  2000 rows in two scratch rows (the column sums and the column sums of squares), and divided out at the last block
  into the column mean and the column variance (mean of squares minus squared mean). This module is the region's
  frame half at any float family: the body's triple in its three control cases, the running rows point by point, the
  proof data whose invariant carries them, the body obligation, and the invariant's entry and exit.
-/
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-row rectangle of a 1x128 buffer and the whole-block rectangle of a 2000x128 buffer. -/
abbrev rS21 : Rect S1x128 := Rect.unit (s := S1x128) ![0, 0] S1x128.size inb_S1x128_S1x128_0_0
abbrev rX21 : Rect S2000x128 := Rect.unit (s := S2000x128) ![0, 0] S2000x128.size inb_S2000x128_S2000x128_0_0

/-- The first conditional's condition (the grid coordinate is 0), as the kernel computes it. -/
def k21_cond1 (i : grid21.Coords) : BitVec 1 :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2

/-- The first condition holds exactly at the grid's first point, the second exactly at its last (point 9): decided over the 10 points. -/
theorem hcond21_1 : ∀ t : Fin cfg21.N, k21_cond1 (grid21.coords t) = 1#1 ↔ t.val = 0 :=
  (by decide +kernel : ∀ t : Fin grid21.N, k21_cond1 (grid21.coords t) = 1#1 ↔ t.val = 0)
theorem hcond21_2 : ∀ t : Fin cfg21.N, k21_cond2 (grid21.coords t) = 1#1 ↔ t.val = 9 :=
  (by decide +kernel : ∀ t : Fin grid21.N, k21_cond2 (grid21.coords t) = 1#1 ↔ t.val = 9)

/-- One point's step of the two running rows: the row held so far plus the block's column sums (of the entries, of their squares). -/
def step21_0 (x : Vec F S2000x128 .f32) (s0 : Vec F S1x128 .f32) : Vec F S1x128 .f32 :=
  View.canon [⟨rS21, k21_pay4 (View.ld x rX21) (View.ld s0 rS21)⟩]
def step21_1 (x : Vec F S2000x128 .f32) (s1 : Vec F S1x128 .f32) : Vec F S1x128 .f32 :=
  View.canon [⟨rS21, k21_pay5 (View.ld x rX21) (View.ld s1 rS21)⟩]

/-- A store of the whole row covers the 1x128 buffer. -/
theorem coverS21 (p0 : Vec F S1x128 .f32) (y : S1x128.Idx) :
    ∃ pc ∈ ([⟨rS21, p0⟩] : List (View.Piece (Elt F) S1x128 .f32)), y ∈ pc.1.set :=
  View.cover_of_tiled [⟨rS21, p0⟩] S1x128.size (by rfl) y

set_option maxHeartbeats 1000000 in
/-- The body at a point that is neither first nor last: both conditionals fall through; the block and the two output rows are left as found, each scratch row steps. -/
theorem sound_kernel21_mid (c : Dev nD) (E : Set ℕ) (i : grid21.Coords) (hc1 : ¬ k21_cond1 i = 1#1) (hc2 : ¬ k21_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg21 : Memref sig .tc .vmem S1x128 .f32) (harg21 : arg21.IsWhole)
    (x : Vec F S2000x128 .f32) (y1 y2 s0 s1 : Vec F S1x128 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg21 fullShare s1
        ∗ (iprop(owns (c : Thread nD τ) arg1 fullShare x ∗ owns (c : Thread nD τ) arg2 fullShare y1 ∗ owns (c : Thread nD τ) arg3 fullShare y2
            ∗ owns (c : Thread nD τ) arg4 fullShare (step21_0 x s0) ∗ owns (c : Thread nD τ) arg21 fullShare (step21_1 x s1)) -∗ K ⟨⟩))
      ⊢ wp frame (wpE (defs₀ (F := F)) Variants.none c none) E (cc21_kernel i arg1 harg1 arg2 harg2 arg3 harg3 arg4 harg4 arg21 harg21) K := by
  simp only [cc21_kernel_eq_skeleton]; unfold cc21_kernel_skel
  unfold owns
  iintro ⟨⟨%f1, %hf1, H1⟩, H2, H3, ⟨%f4, %hf4, H4⟩, ⟨%f21, %hf21, H21⟩, Hk⟩
  subst hf1; subst hf4; subst hf21
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    exact View.read_writes_eq_canon _ _ _ (coverS21 _)
  iexists _; isplitr
  swap; · iexact H21
  ipureintro
  exact View.read_writes_eq_canon _ _ _ (coverS21 _)

/-- A whole-row store hides every earlier store: the contents are the last payload's. -/
theorem canon_headS21 (p : Vec F S1x128 .f32) (L : List (View.Piece (Elt F) S1x128 .f32)) :
    View.canon (⟨rS21, p⟩ :: L) = View.canon [⟨rS21, p⟩] := by
  funext y
  obtain ⟨pc, hm, hy⟩ := coverS21 p y
  rw [List.mem_singleton] at hm; subst hm
  obtain ⟨x, rfl⟩ := rS21.exists_idx_of_mem hy
  exact (View.canon_cons_emb rS21 p L x).trans (View.canon_cons_emb rS21 p [] x).symm

/-- What a buffer reads after a list of stores whose last is a whole-row store. -/
theorem read_writes_headS21 {sig' : RefSig} {κ : Kind} {sp : Space} (v : View sig' κ sp S1x128 .f32) (f : v.ty.Contents (Elt F)) (p : Vec F S1x128 .f32)
    (L : List (View.Piece (Elt F) S1x128 .f32)) :
    v.read (Elt F) (v.writes (Elt F) f (⟨rS21, p⟩ :: L)) = View.canon [⟨rS21, p⟩] :=
  (View.read_writes_eq_canon v f _ (fun y => by
    obtain ⟨pc, hm, hy⟩ := coverS21 p y
    rw [List.mem_singleton] at hm; subst hm
    exact ⟨_, List.mem_cons_self, hy⟩)).trans (canon_headS21 p L)

/-- The zero rows the first point resets the two scratch rows to. -/
def init21_0 : Vec F S1x128 .f32 := View.canon [⟨rS21, k21_pay1 (F := F)⟩]
def init21_1 : Vec F S1x128 .f32 := View.canon [⟨rS21, k21_pay2 (F := F)⟩]

set_option maxHeartbeats 1000000 in
/-- The body at the first point: the scratch rows, found at anything, are reset to zero and then step; the output rows are left as found. -/
theorem sound_kernel21_first (c : Dev nD) (E : Set ℕ) (i : grid21.Coords) (hc1 : k21_cond1 i = 1#1) (hc2 : ¬ k21_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg21 : Memref sig .tc .vmem S1x128 .f32) (harg21 : arg21.IsWhole)
    (x : Vec F S2000x128 .f32) (y1 y2 : Vec F S1x128 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg21 fullShare d)
        ∗ (iprop(owns (c : Thread nD τ) arg1 fullShare x ∗ owns (c : Thread nD τ) arg2 fullShare y1 ∗ owns (c : Thread nD τ) arg3 fullShare y2
            ∗ owns (c : Thread nD τ) arg4 fullShare (step21_0 x init21_0) ∗ owns (c : Thread nD τ) arg21 fullShare (step21_1 x init21_1)) -∗ K ⟨⟩))
      ⊢ wp frame (wpE (defs₀ (F := F)) Variants.none c none) E (cc21_kernel i arg1 harg1 arg2 harg2 arg3 harg3 arg4 harg4 arg21 harg21) K := by
  simp only [cc21_kernel_eq_skeleton]; unfold cc21_kernel_skel
  unfold owns
  iintro ⟨⟨%f1, %hf1, H1⟩, H2, H3, ⟨%d4, %f4, -, H4⟩, ⟨%d21, %f21, -, H21⟩, Hk⟩
  subst hf1
  sl_exec (disch := first | exact hc1 | exact hc2)
  sl_step
  iapply Hk
  isplitl [H1]
  · iexists f1; isplitr; · ipureintro; rfl
    iexact H1
  isplitl [H2]; · iexact H2
  isplitl [H3]; · iexact H3
  isplitl [H4]
  · iexists _; isplitr
    swap; · iexact H4
    ipureintro
    unfold sound_kernel21_first.sl.v5 sound_kernel21_first.sl.H4_1
    rw [View.readCov_eq_canon_ld _ _ _ (coverS21 _)]
    exact read_writes_headS21 _ _ _ _
  iexists _; isplitr
  swap; · iexact H21
  ipureintro
  unfold sound_kernel21_first.sl.v12 sound_kernel21_first.sl.H21_1
  rw [View.readCov_eq_canon_ld _ _ _ (coverS21 _)]
  exact read_writes_headS21 _ _ _ _

/-- The output rows as the last point computes them from the final running rows: the mean is the column sum over the count; the variance is the sum of squares over the count minus the squared mean. -/
def out21_1 (s0 : Vec F S1x128 .f32) : Vec F S1x128 .f32 :=
  View.canon [⟨rS21, k21_pay6 (View.ld s0 rS21)⟩]
def out21_2 (s0 s1 : Vec F S1x128 .f32) : Vec F S1x128 .f32 :=
  View.canon [⟨rS21, k21_pay7 (View.ld s0 rS21) (View.ld s1 rS21)⟩]

set_option maxHeartbeats 1000000 in
/-- The body at the last point: the scratch rows step, then the two output rows, found at anything, are stored from the stepped rows. -/
theorem sound_kernel21_last (c : Dev nD) (E : Set ℕ) (i : grid21.Coords) (hc1 : ¬ k21_cond1 i = 1#1) (hc2 : k21_cond2 i = 1#1)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg21 : Memref sig .tc .vmem S1x128 .f32) (harg21 : arg21.IsWhole)
    (x : Vec F S2000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg21 fullShare s1
        ∗ (iprop(owns (c : Thread nD τ) arg1 fullShare x ∗ owns (c : Thread nD τ) arg2 fullShare (out21_1 (step21_0 x s0))
            ∗ owns (c : Thread nD τ) arg3 fullShare (out21_2 (step21_0 x s0) (step21_1 x s1))
            ∗ owns (c : Thread nD τ) arg4 fullShare (step21_0 x s0) ∗ owns (c : Thread nD τ) arg21 fullShare (step21_1 x s1)) -∗ K ⟨⟩))
      ⊢ wp frame (wpE (defs₀ (F := F)) Variants.none c none) E (cc21_kernel i arg1 harg1 arg2 harg2 arg3 harg3 arg4 harg4 arg21 harg21) K := by
  simp only [cc21_kernel_eq_skeleton]; unfold cc21_kernel_skel
  unfold owns
  iintro ⟨⟨%f1, %hf1, H1⟩, ⟨%d2, %f2, -, H2⟩, ⟨%d3, %f3, -, H3⟩, ⟨%f4, %hf4, H4⟩, ⟨%f21, %hf21, H21⟩, Hk⟩
  subst hf1; subst hf4; subst hf21
  sl_exec (disch := first | exact hc1 | exact hc2)
  sl_step
  iapply Hk
  isplitl [H1]
  · iexists f1; isplitr; · ipureintro; rfl
    iexact H1
  isplitl [H2]
  · iexists _; isplitr
    swap; · iexact H2
    ipureintro
    unfold sound_kernel21_last.sl.v23 sound_kernel21_last.sl.H4_1
    rw [View.readCov_eq_canon_ld _ _ _ (coverS21 _)]
    exact View.read_writes_eq_canon _ _ _ (coverS21 _)
  isplitl [H3]
  · iexists _; isplitr
    swap; · iexact H3
    ipureintro
    unfold sound_kernel21_last.sl.v23 sound_kernel21_last.sl.v26 sound_kernel21_last.sl.H4_1 sound_kernel21_last.sl.H21_1
    rw [View.readCov_eq_canon_ld _ _ _ (coverS21 _), View.readCov_eq_canon_ld _ _ _ (coverS21 _)]
    exact View.read_writes_eq_canon _ _ _ (coverS21 _)
  isplitl [H4]
  · iexists _; isplitr
    swap; · iexact H4
    ipureintro
    exact View.read_writes_eq_canon _ _ _ (coverS21 _)
  iexists _; isplitr
  swap; · iexact H21
  ipureintro
  exact View.read_writes_eq_canon _ _ _ (coverS21 _)

section Regions
variable (V : (c : Dev nD) → (b : Ref sig .tc) → Buf (Elt F) ((c : Thread nD τ).loc b))

/-- Window w's block at point t, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- The input window's current buffer holds its block at every point, for any proof data over these arrays whose body leaves the block in place. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- THE ACCUMULATION. The two scratch rows after point n: at point 0 one step from the zero rows, afterwards one step from what the point before left. -/
def acc21 (c : Dev nD) : (n : ℕ) → n < cfg21.N → Vec F S1x128 .f32 × Vec F S1x128 .f32
  | 0, hn => (step21_0 (iblk21 V c 0 ⟨0, hn⟩) init21_0, step21_1 (iblk21 V c 0 ⟨0, hn⟩) init21_1)
  | n + 1, hn => (step21_0 (iblk21 V c 0 ⟨n + 1, hn⟩) (acc21 c n (Nat.lt_of_succ_lt hn)).1,
      step21_1 (iblk21 V c 0 ⟨n + 1, hn⟩) (acc21 c n (Nat.lt_of_succ_lt hn)).2)

/-- The accumulation at the first point, and at a later point over the point before. -/
theorem acc21_zero (c : Dev nD) (t : Fin cfg21.N) (h0 : t.val = 0) :
    acc21 V c t.val t.isLt = (step21_0 (iblk21 V c 0 t) init21_0, step21_1 (iblk21 V c 0 t) init21_1) := by
  obtain ⟨n, hn⟩ := t
  cases n with
  | zero => rfl
  | succ n => exact absurd h0 (Nat.succ_ne_zero n)

theorem acc21_pos (c : Dev nD) (t : Fin cfg21.N) (h0 : t.val ≠ 0) :
    acc21 V c t.val t.isLt = (step21_0 (iblk21 V c 0 t) (acc21 V c (t.val - 1) (Nat.lt_of_le_of_lt (Nat.sub_le _ _) t.isLt)).1,
      step21_1 (iblk21 V c 0 t) (acc21 V c (t.val - 1) (Nat.lt_of_le_of_lt (Nat.sub_le _ _) t.isLt)).2) := by
  obtain ⟨n, hn⟩ := t
  cases n with
  | zero => exact absurd rfl h0
  | succ n => rfl

/-- The two scratch rows as whole memrefs. -/
abbrev scM21_0 : Memref sig .tc .vmem S1x128 .f32 := Memref.whole cc21_scratch0
abbrev scM21_1 : Memref sig .tc .vmem S1x128 .f32 := Memref.whole cc21_scratch1

/-- What enters the invariant besides the scoped buffers: the generator register at some state. -/
def X21 (c : Dev nD) : sProp 𝕄 := iprop(∃ r, prngReg c r)

/-- The region invariant before position n: the generator register, the scoped buffers other than the two scratch rows, and the two scratch rows — at anything before the first point, afterwards at what the point before left. -/
def PhiS21 (c : Dev nD) : (n : ℕ) → n ≤ cfg21.N → sProp 𝕄
  | 0, _ => iprop(X21 (F := F) c ∗ Pipeline.scopedRestBut spec21 c [cc21_scratch0, cc21_scratch1]
      ∗ (∃ d, owns (c : Thread nD τ) scM21_0 fullShare d) ∗ (∃ d, owns (c : Thread nD τ) scM21_1 fullShare d))
  | n + 1, hn => iprop(X21 (F := F) c ∗ Pipeline.scopedRestBut spec21 c [cc21_scratch0, cc21_scratch1]
      ∗ owns (c : Thread nD τ) scM21_0 fullShare (acc21 V c n hn).1 ∗ owns (c : Thread nD τ) scM21_1 fullShare (acc21 V c n hn).2)

/-- The invariant's three readings: before the first point, after point n, before a later point. -/
theorem PhiS21_zero (c : Dev nD) (n : ℕ) (h : n ≤ cfg21.N) (hz : n = 0) :
    PhiS21 V c n h = iprop(X21 (F := F) c ∗ Pipeline.scopedRestBut spec21 c [cc21_scratch0, cc21_scratch1]
      ∗ (∃ d, owns (c : Thread nD τ) scM21_0 fullShare d) ∗ (∃ d, owns (c : Thread nD τ) scM21_1 fullShare d)) := by
  subst hz; rfl

theorem PhiS21_succ (c : Dev nD) (n : ℕ) (hn : n < cfg21.N) :
    PhiS21 V c (n + 1) hn = iprop(X21 (F := F) c ∗ Pipeline.scopedRestBut spec21 c [cc21_scratch0, cc21_scratch1]
      ∗ owns (c : Thread nD τ) scM21_0 fullShare (acc21 V c n hn).1 ∗ owns (c : Thread nD τ) scM21_1 fullShare (acc21 V c n hn).2) := rfl

theorem PhiS21_pos (c : Dev nD) (n : ℕ) (h : n ≤ cfg21.N) (hz : n ≠ 0) :
    PhiS21 V c n h = iprop(X21 (F := F) c ∗ Pipeline.scopedRestBut spec21 c [cc21_scratch0, cc21_scratch1]
      ∗ owns (c : Thread nD τ) scM21_0 fullShare (acc21 V c (n - 1) (by omega)).1 ∗ owns (c : Thread nD τ) scM21_1 fullShare (acc21 V c (n - 1) (by omega)).2) := by
  cases n with
  | zero => exact absurd rfl hz
  | succ n => rfl

/-- The proof data: the arrays as the region finds them; after the body the input's buffer at its block and the two output rows at the mean and variance of the running rows after that point (consulted only where the rows are written back, at the last point; elsewhere those windows are idle); the invariant carries the running rows; nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => out21_1 (acc21 V c t.val t.isLt).1
    | ⟨2, _⟩ => out21_2 (acc21 V c t.val t.isLt).1 (acc21 V c t.val t.isLt).2
  Φ t := PhiS21 V c t.val (Nat.le_of_lt_succ t.isLt)
  q _ := fullShare
  owed _ := 0

/-- The proof data's arrays are the region-entry contents. -/
theorem A_eq21 (c : Dev nD) (w : Fin cfg21.W) : (dat21 V c).A w = V c (Pipeline.arrRef spec21 w) := by
  dsimp only [dat21]

/-- What the body leaves, window by window. -/
theorem after21_0 (c : Dev nD) (t : Fin cfg21.N) : (dat21 V c).after 0 t = iblk21 V c 0 t := by dsimp only [dat21]
theorem after21_1 (c : Dev nD) (t : Fin cfg21.N) : (dat21 V c).after 1 t = out21_1 (acc21 V c t.val t.isLt).1 := by dsimp only [dat21]
theorem after21_2 (c : Dev nD) (t : Fin cfg21.N) : (dat21 V c).after 2 t = out21_2 (acc21 V c t.val t.isLt).1 (acc21 V c t.val t.isLt).2 := by dsimp only [dat21]

/-- The input's current buffer holds its block at every point. -/
theorem before21_0 (c : Dev nD) (t : Fin cfg21.N) (d) : (dat21 V c).before 0 t d = iblk21 V c 0 t :=
  before21_0_of V (dat21 V c) (A_eq21 V c 0) (after21_0 V c) t d

/-- The invariant at a point's start, restated at the point's position. -/
theorem PhiS21_castSucc (c : Dev nD) (t : Fin cfg21.N) :
    (dat21 V c).Φ t.castSucc = PhiS21 V c t.val (Nat.le_of_lt t.isLt) := by
  dsimp only [dat21]; simp only [Fin.coe_castSucc]

/-- Where the windows are idle: the input never; each output row exactly off the last point, where it is not written back either. -/
theorem liveAt21_0 (t : Fin cfg21.N) : cfg21.idle 0 (cfg21.grid.coords t) = false := rfl

theorem idleAt21_1 (t : Fin cfg21.N) (h : ¬ k21_cond2 (grid21.coords t) = 1#1) : cfg21.idle 1 (cfg21.grid.coords t) = true := by
  show (!(k21_cond2 (grid21.coords t) == 1#1)) = true
  rw [Bool.not_eq_true', beq_eq_false_iff_ne]; exact h
theorem idleAt21_2 (t : Fin cfg21.N) (h : ¬ k21_cond2 (grid21.coords t) = 1#1) : cfg21.idle 2 (cfg21.grid.coords t) = true := by
  show (!(k21_cond2 (grid21.coords t) == 1#1)) = true
  rw [Bool.not_eq_true', beq_eq_false_iff_ne]; exact h
theorem liveAt21_1 (t : Fin cfg21.N) (h : k21_cond2 (grid21.coords t) = 1#1) : cfg21.idle 1 (cfg21.grid.coords t) = false := by
  show (!(k21_cond2 (grid21.coords t) == 1#1)) = false
  rw [h]; rfl
theorem liveAt21_2 (t : Fin cfg21.N) (h : k21_cond2 (grid21.coords t) = 1#1) : cfg21.idle 2 (cfg21.grid.coords t) = false := by
  show (!(k21_cond2 (grid21.coords t) == 1#1)) = false
  rw [h]; rfl

theorem noFlush21_1 (t : Fin cfg21.N) (h : t.val ≠ 9) : (cfg21.win 1).flush t = false := by
  have hN : t.val < 10 := lt_of_lt_of_eq t.isLt (show cfg21.N = 10 from N_21)
  cases hf : (cfg21.win 1).flush t with
  | false => rfl
  | true => exact absurd ((flush21_1 t).mp hf) (by omega)
theorem noFlush21_2 (t : Fin cfg21.N) (h : t.val ≠ 9) : (cfg21.win 2).flush t = false := by
  have hN : t.val < 10 := lt_of_lt_of_eq t.isLt (show cfg21.N = 10 from N_21)
  cases hf : (cfg21.win 2).flush t with
  | false => rfl
  | true => exact absurd ((flush21_2 t).mp hf) (by omega)

/-- What the body is called with at point t, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it returns. -/
def bodyPost21 (c : Dev nD) (t : Fin cfg21.N) : sProp 𝕄 :=
  iprop((dat21 V c).Φ t.succ ∗ (dat21 V c).owesAt () t.succ
    ∗ (dat21 V c).leavesExact 0 t
    ∗ (dat21 V c).leavesExact 1 t
    ∗ (dat21 V c).leavesExact 2 t)

set_option maxHeartbeats 4000000 in
/-- The body at any point, by the point's position: first (scratch at anything, reset), last (the output rows stored), or between; the invariant hands the scratch rows over at what the point before left and takes them back stepped. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0]
  rw [show (dat21 V c).owesAt () t.succ = (dat21 V c).owesAt () t.castSucc from rfl]
  rw [show (dat21 V c).Φ t.succ = PhiS21 V c (t.val + 1) t.isLt from rfl, PhiS21_succ]
  rw [show (dat21 V c).leavesExact 0 t = owns (c : Thread nD τ) (st21_0 t) fullShare ((dat21 V c).after 0 t) from by
    unfold Dat.leavesExact; rw [liveAt21_0 t], after21_0]
  have hN : t.val < 10 := lt_of_lt_of_eq t.isLt (show cfg21.N = 10 from N_21)
  by_cases h0 : t.val = 0
  · have hc1 : k21_cond1 (grid21.coords t) = 1#1 := (hcond21_1 t).mpr h0
    have hc2 : ¬ k21_cond2 (grid21.coords t) = 1#1 := fun h => by have := (hcond21_2 t).mp h; omega
    rw [Dat.leavesExact_idle (dat21 V c) 1 t (idleAt21_1 t hc2) (noFlush21_1 t (by omega)),
      Dat.leavesExact_idle (dat21 V c) 2 t (idleAt21_2 t hc2) (noFlush21_2 t (by omega))]
    rw [acc21_zero V c t h0]
    rw [PhiS21_castSucc V c t, PhiS21_zero V c _ _ h0]
    iintro ⟨⟨HX, HR, HS0, HS1⟩, Ho, ⟨%d0, H0⟩, ⟨%d1, H1⟩, ⟨%d2, H2⟩⟩
    iapply (sound_kernel21_first c Set.univ (grid21.coords t) hc1 hc2 _ _ _ _ _ _ _ _ _ _ (iblk21 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HX HR HS0 HS1]
    · isplitl [HX]; · iexact HX
      isplitl [HR]; · iexact HR
      isplitl [HS0]; · iexact HS0
      iexact HS1
    isplitl [Ho]; · iexact Ho
    isplitl [H0]; · iexact H0
    isplitl [H1]; · iexists _; iexact H1
    iexists _; iexact H2
  · have hc1 : ¬ k21_cond1 (grid21.coords t) = 1#1 := fun h => h0 ((hcond21_1 t).mp h)
    rw [acc21_pos V c t h0]
    rw [PhiS21_castSucc V c t, PhiS21_pos V c _ _ h0]
    by_cases h79 : t.val = 9
    · have hc2 : k21_cond2 (grid21.coords t) = 1#1 := (hcond21_2 t).mpr h79
      rw [show (dat21 V c).leavesExact 1 t = owns (c : Thread nD τ) (st21_1 t) fullShare ((dat21 V c).after 1 t) from by
        unfold Dat.leavesExact; rw [liveAt21_1 t hc2], after21_1]
      rw [show (dat21 V c).leavesExact 2 t = owns (c : Thread nD τ) (st21_2 t) fullShare ((dat21 V c).after 2 t) from by
        unfold Dat.leavesExact; rw [liveAt21_2 t hc2], after21_2]
      rw [acc21_pos V c t h0]
      iintro ⟨⟨HX, HR, HS0, HS1⟩, Ho, ⟨%d0, H0⟩, ⟨%d1, H1⟩, ⟨%d2, H2⟩⟩
      iapply (sound_kernel21_last c Set.univ (grid21.coords t) hc1 hc2 _ _ _ _ _ _ _ _ _ _ (iblk21 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexact H1
      iexact H2
    · have hc2 : ¬ k21_cond2 (grid21.coords t) = 1#1 := fun h => h79 ((hcond21_2 t).mp h)
      rw [Dat.leavesExact_idle (dat21 V c) 1 t (idleAt21_1 t hc2) (noFlush21_1 t h79),
        Dat.leavesExact_idle (dat21 V c) 2 t (idleAt21_2 t hc2) (noFlush21_2 t h79)]
      iintro ⟨⟨HX, HR, HS0, HS1⟩, Ho, ⟨%d0, H0⟩, ⟨%d1, H1⟩, ⟨%d2, H2⟩⟩
      iapply (sound_kernel21_mid c Set.univ (grid21.coords t) hc1 hc2 _ _ _ _ _ _ _ _ _ _ (iblk21 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HX HR HS0 HS1]
      · isplitl [HX]; · iexact HX
        isplitl [HR]; · iexact HR
        isplitl [HS0]; · iexact HS0
        iexact HS1
      isplitl [Ho]; · iexact Ho
      isplitl [H0]; · iexact H0
      isplitl [H1]; · iexists _; iexact H1
      iexists _; iexact H2

/-- The body obligation, at every point. -/
theorem body_obligation21 (c : Dev nD) : BodyObligation (dat21 (F := F) V c) (defs₀ (F := F)) Variants.none () Set.univ := fun t => by
  rw [bigSep_W21, bigSep_W21]
  exact sound_body21 V c t

/-- Entry: the generator register and the scoped buffers (the two scratch rows among them, at anything) make the invariant before the first point. -/
theorem hin21 (c : Dev nD) : iprop(X21 (F := F) c ∗ Pipeline.scopedRest spec21 c) ⊢ (dat21 V c).Φ 0 := by
  rw [show (dat21 V c).Φ 0 = PhiS21 V c 0 (Nat.zero_le _) from rfl, PhiS21_zero V c 0 _ rfl, scopedRest21_split]
  simp only [scM21_0, scM21_1, owns_whole]
  iintro ⟨HX, ⟨HS0, HS1⟩, HR⟩
  isplitl [HX]; · iexact HX
  isplitl [HR]; · iexact HR
  isplitl [HS0]; · iexact HS0
  iexact HS1

/-- Exit: after the last point the invariant gives them back, the scratch rows' contents forgotten. -/
theorem hout21 (c : Dev nD) : (dat21 V c).Φ (Fin.last cfg21.N) ⊢ iprop(X21 (F := F) c ∗ Pipeline.scopedRest spec21 c) := by
  rw [show (dat21 V c).Φ (Fin.last cfg21.N) = PhiS21 V c (Fin.last cfg21.N).val (Nat.le_of_lt_succ (Fin.last cfg21.N).isLt) from rfl,
    PhiS21_pos V c _ _ (by rw [Fin.val_last]; have : cfg21.N = 10 := N_21; omega), scopedRest21_split]
  simp only [scM21_0, scM21_1, owns_whole]
  iintro ⟨HX, HR, HS0, HS1⟩
  isplitl [HX]; · iexact HX
  isplitl [HS0 HS1]
  · isplitl [HS0]; · iexists _; iexact HS0
    iexists _; iexact HS1
  iexact HR

end Regions

end Cert.KernelIdeal.Rg

end
-- ==== Proof.Rg22.lean ====
import proofs.«418385_j87393994539142_1_alg».proof.Proof.Gen.KernelIdeal.Launch
import proofs.«418385_j87393994539142_1_alg».proof.Proof.Gen.KernelIdeal.Skeleton
import proofs.«418385_j87393994539142_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 22: normalise, rectify, add the residual — the frame half

Region 22 walks the 20000 rows of its operands in 10 blocks of 2000 rows. At each block it reads the block of
the operand x and of the residual r, the four 1x128 rows mean, variance, gamma and beta (the same row at every
block), and leaves in the output block  r + max (gamma * (x - mean) * rsqrt (variance + eps) + beta) 0.

This module states, for any float family, what the body leaves in the output's block as a function of the six
blocks it reads, proves that the body run on whole staging buffers does leave exactly that, and packages the
result as the region's proof data together with the obligation the several-region launch asks of a body.
-/

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region22
-- the contents of the core's buffers when the region is entered
variable (V : (c : Dev nD) → (b : Ref sig .tc) → Buf (Elt F) ((c : Thread nD τ).loc b))

/-! ## The blocks the region reads -/

/-- The block of window w at grid point t, cut out of the window's array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-! ## The body's accesses -/

/-- The whole 4000x128 block, -/
abbrev r22_big : Rect S2000x128 := Rect.unit (s := S2000x128) ![0, 0] S2000x128.size inb_S2000x128_S2000x128_0_0
/-- and the whole 1x128 row. -/
abbrev r22_row : Rect S1x128 := Rect.unit (s := S1x128) ![0, 0] S1x128.size inb_S1x128_S1x128_0_0

/-! ## What the body leaves in the output block -/

/-- The output's staging buffer after the body, from the six blocks read (x, residual, mean, variance, gamma,
    beta in window order): one store of the whole block, whose value is the kernel's payload at the six loads. -/
def out22_6 (x0 : Vec F S2000x128 .f32) (x1 : Vec F S2000x128 .f32) (x2 : Vec F S1x128 .f32) (x3 : Vec F S1x128 .f32)
    (x4 : Vec F S1x128 .f32) (x5 : Vec F S1x128 .f32) : Vec F S2000x128 .f32 :=
  View.canon [⟨r22_big, k22_pay1 (View.ld x0 r22_big) (View.ld x4 r22_row) (View.ld x2 r22_row) (View.ld x3 r22_row) (View.ld x5 r22_row) (View.ld x1 r22_big)⟩]

/-- The one store is of the whole block, so it covers it. -/
theorem cover22_6 (p0 : Vec F S2000x128 .f32) (y : S2000x128.Idx) :
    ∃ pc ∈ ([⟨r22_big, p0⟩] : List (View.Piece (Elt F) S2000x128 .f32)), y ∈ pc.1.set :=
  View.cover_of_tiled [⟨r22_big, p0⟩] S2000x128.size (by rfl) y

/-! ## The body's triple -/

set_option maxHeartbeats 1000000 in
/-- The body, run on whole staging buffers holding the six input blocks and an output buffer holding anything,
    returns the inputs' buffers unchanged and the output's buffer at out22_6 of the inputs. -/
theorem sound_kernel22 (c : Dev nD) (E : Set ℕ) (i : grid22.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S2000x128 .f32) (harg7 : arg7.IsWhole)
    (x0 : Vec F S2000x128 .f32) (x1 : Vec F S2000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out22_6 x0 x1 x2 x3 x4 x5)) -∗ K ⟨⟩))
      ⊢ wp frame (wpE (defs₀ (F := F)) Variants.none c none) E (cc22__bn_relu_residual_kernel i arg1 harg1 arg2 harg2 arg3 harg3 arg4 harg4 arg5 harg5 arg6 harg6 arg7 harg7) K := by
  simp only [cc22__bn_relu_residual_kernel_eq_skeleton]; unfold cc22__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover22_6 _)

/-! ## The region's proof data -/

/-- The proof data of region 22 on core c: the arrays as the region finds them; after the body at point t each
    input's buffer at its block and the output's at out22_6 of the six input blocks; the invariant the untouched
    rest of the core's state; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => iblk22 V c 4 t
    | ⟨5, _⟩ => iblk22 V c 5 t
    | ⟨6, _⟩ => out22_6 (iblk22 V c 0 t) (iblk22 V c 1 t) (iblk22 V c 2 t) (iblk22 V c 3 t) (iblk22 V c 4 t) (iblk22 V c 5 t)
  Φ _ := Pipeline.ΦA spec22 c
  q _ := fullShare
  owed _ := 0

/-- The proof data's arrays are the entry contents. -/
theorem A_eq22 (c : Dev nD) (w : Fin cfg22.W) : (dat22 V c).A w = V c (Pipeline.arrRef spec22 w) := by
  dsimp only [dat22]

/-- The invariant is the same at every point: the rest of the core's state, untouched. -/
theorem Phi22_eq (c : Dev nD) (t : Fin (cfg22.N + 1)) : (dat22 V c).Φ t = Pipeline.ΦA spec22 c := rfl

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) : (dat22 V c).after 4 t = iblk22 V c 4 t := by dsimp only [dat22]
theorem after22_5 (c : Dev nD) (t : Fin cfg22.N) : (dat22 V c).after 5 t = iblk22 V c 5 t := by dsimp only [dat22]
theorem after22_6 (c : Dev nD) (t : Fin cfg22.N) : (dat22 V c).after 6 t
    = out22_6 (iblk22 V c 0 t) (iblk22 V c 1 t) (iblk22 V c 2 t) (iblk22 V c 3 t) (iblk22 V c 4 t) (iblk22 V c 5 t) := by dsimp only [dat22]

/-- Each input's staging buffer holds its block at every point, whether or not the block was fetched at that
    point: a window not fetched at a point has the block index of the point before, and the body leaves an
    input's buffer as it found it. -/
theorem before22_0 (c : Dev nD) (t : Fin cfg22.N) (d) : (dat22 V c).before 0 t d = iblk22 V c 0 t :=
  ((dat22 V c).before_in_eq_fetched 0 rfl (fun _ => rfl) (fun _ _ _ => rfl)
      (fun t => by rw [after22_0]; unfold Dat.blockOf iblk22; rw [A_eq22 V c 0]; try rfl) t d).trans
    (by unfold Dat.fetched Dat.blockOf iblk22; rw [A_eq22 V c 0]; try rfl)
theorem before22_1 (c : Dev nD) (t : Fin cfg22.N) (d) : (dat22 V c).before 1 t d = iblk22 V c 1 t :=
  ((dat22 V c).before_in_eq_fetched 1 rfl (fun _ => rfl) (fun _ _ _ => rfl)
      (fun t => by rw [after22_1]; unfold Dat.blockOf iblk22; rw [A_eq22 V c 1]; try rfl) t d).trans
    (by unfold Dat.fetched Dat.blockOf iblk22; rw [A_eq22 V c 1]; try rfl)
theorem before22_2 (c : Dev nD) (t : Fin cfg22.N) (d) : (dat22 V c).before 2 t d = iblk22 V c 2 t :=
  ((dat22 V c).before_in_eq_fetched 2 rfl (fun _ => rfl) (fun _ _ _ => rfl)
      (fun t => by rw [after22_2]; unfold Dat.blockOf iblk22; rw [A_eq22 V c 2]; try rfl) t d).trans
    (by unfold Dat.fetched Dat.blockOf iblk22; rw [A_eq22 V c 2]; try rfl)
theorem before22_3 (c : Dev nD) (t : Fin cfg22.N) (d) : (dat22 V c).before 3 t d = iblk22 V c 3 t :=
  ((dat22 V c).before_in_eq_fetched 3 rfl (fun _ => rfl) (fun _ _ _ => rfl)
      (fun t => by rw [after22_3]; unfold Dat.blockOf iblk22; rw [A_eq22 V c 3]; try rfl) t d).trans
    (by unfold Dat.fetched Dat.blockOf iblk22; rw [A_eq22 V c 3]; try rfl)
theorem before22_4 (c : Dev nD) (t : Fin cfg22.N) (d) : (dat22 V c).before 4 t d = iblk22 V c 4 t :=
  ((dat22 V c).before_in_eq_fetched 4 rfl (fun _ => rfl) (fun _ _ _ => rfl)
      (fun t => by rw [after22_4]; unfold Dat.blockOf iblk22; rw [A_eq22 V c 4]; try rfl) t d).trans
    (by unfold Dat.fetched Dat.blockOf iblk22; rw [A_eq22 V c 4]; try rfl)
theorem before22_5 (c : Dev nD) (t : Fin cfg22.N) (d) : (dat22 V c).before 5 t d = iblk22 V c 5 t :=
  ((dat22 V c).before_in_eq_fetched 5 rfl (fun _ => rfl) (fun _ _ _ => rfl)
      (fun t => by rw [after22_5]; unfold Dat.blockOf iblk22; rw [A_eq22 V c 5]; try rfl) t d).trans
    (by unfold Dat.fetched Dat.blockOf iblk22; rw [A_eq22 V c 5]; try rfl)

/-! ## The body obligation, at a generic point -/

/-- What the body is called with at point t, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d))
    ∗ (∃ d, owns (c : Thread nD τ) (st22_5 t) fullShare ((dat22 V c).before 5 t d))
    ∗ (∃ d, owns (c : Thread nD τ) (st22_6 t) fullShare ((dat22 V c).before 6 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t)
    ∗ owns (c : Thread nD τ) (st22_5 t) fullShare ((dat22 V c).after 5 t)
    ∗ owns (c : Thread nD τ) (st22_6 t) fullShare ((dat22 V c).after 6 t))

/-- The body at any point: the inputs' buffers hold their blocks, so the body's triple applies; the invariant and
    what the core owes pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3, before22_4, before22_5]
  rw [show (dat22 V c).Φ t.succ = (dat22 V c).Φ t.castSucc from rfl,
    show (dat22 V c).owesAt () t.succ = (dat22 V c).owesAt () t.castSucc from rfl,
    after22_0, after22_1, after22_2, after22_3, after22_4, after22_5, after22_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel22 c Set.univ _ _ _ _ _ _ _ _ _ _ _ _ _ _ _ (iblk22 V c 0 t) (iblk22 V c 1 t) (iblk22 V c 2 t) (iblk22 V c 3 t) (iblk22 V c 4 t) (iblk22 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the several-region launch asks of the body, at every point. -/
theorem body_obligation22 (c : Dev nD) : BodyObligation (dat22 (F := F) V c) (defs₀ (F := F)) Variants.none () Set.univ := fun t => by
  rw [bigSep_W22, bigSep_W22]
  exact sound_body22 V c t

end Region22

end Cert.KernelIdeal.Rg

end
-- ==== Proof.KernelIdealAsmCore.lean ====
import proofs.«418385_j87393994539142_1_alg».proof.Proof.KernelIdealRegionsP
import proofs.«418385_j87393994539142_1_alg».proof.Proof.Rg0
import proofs.«418385_j87393994539142_1_alg».proof.Proof.Rg1
import proofs.«418385_j87393994539142_1_alg».proof.Proof.Rg2
import proofs.«418385_j87393994539142_1_alg».proof.Proof.Rg3
import proofs.«418385_j87393994539142_1_alg».proof.Proof.Rg4
import proofs.«418385_j87393994539142_1_alg».proof.Proof.Rg5
import proofs.«418385_j87393994539142_1_alg».proof.Proof.Rg6
import proofs.«418385_j87393994539142_1_alg».proof.Proof.Rg7
import proofs.«418385_j87393994539142_1_alg».proof.Proof.Rg8
import proofs.«418385_j87393994539142_1_alg».proof.Proof.Rg9
import proofs.«418385_j87393994539142_1_alg».proof.Proof.Rg10
import proofs.«418385_j87393994539142_1_alg».proof.Proof.Rg11
import proofs.«418385_j87393994539142_1_alg».proof.Proof.Rg12
import proofs.«418385_j87393994539142_1_alg».proof.Proof.Rg13
import proofs.«418385_j87393994539142_1_alg».proof.Proof.Rg14
import proofs.«418385_j87393994539142_1_alg».proof.Proof.Rg15
import proofs.«418385_j87393994539142_1_alg».proof.Proof.Rg16
import proofs.«418385_j87393994539142_1_alg».proof.Proof.Rg17
import proofs.«418385_j87393994539142_1_alg».proof.Proof.Rg18
import proofs.«418385_j87393994539142_1_alg».proof.Proof.Rg19
import proofs.«418385_j87393994539142_1_alg».proof.Proof.Rg20
import proofs.«418385_j87393994539142_1_alg».proof.Proof.Rg21
import proofs.«418385_j87393994539142_1_alg».proof.Proof.Rg22
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No variant, no level: no core owes another anything. -/
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A valuation read at the core's own references. -/
abbrev asV (W : Dev nD → Valuation τ sig (Elt F)) : (c : Dev nD) → (b : Ref sig .tc) → Buf (Elt F) ((c : Thread nD τ).loc b) := fun c b => W c b

/-! ## What the regions leave, stage by stage -/

/-- Before any region: every entry a placeholder. -/
def oInit : Outs (F := F) := fun _ r c => V0 m c r

/-- After region 0: its output arrays at what its write-backs leave, from the valuation it is entered from. -/
def o0 : Outs (F := F) := fun J r c =>
  if J = 2 then (Function.update (V1 m c) main_v5 ((dat0 (asV (V1 m)) c).arrAt 3 cfg0.N)) r else oInit m J r c

/-- After region 1: its output arrays at what its write-backs leave, from the valuation it is entered from. -/
def o1 : Outs (F := F) := fun J r c =>
  if J = 4 then (Function.update (V3 m (o0 m) c) main_v7 ((dat1 (asV (V3 m (o0 m))) c).arrAt 3 cfg1.N)) r else o0 m J r c

/-- After region 2: its output arrays at what its write-backs leave, from the valuation it is entered from. -/
def o2 : Outs (F := F) := fun J r c =>
  if J = 6 then (Function.update (V5 m (o1 m) c) main_v31 ((dat2 (asV (V5 m (o1 m))) c).arrAt 3 cfg2.N)) r else o1 m J r c

/-- After region 3: its output arrays at what its write-backs leave, from the valuation it is entered from. -/
def o3 : Outs (F := F) := fun J r c =>
  if J = 8 then (Function.update (V7 m (o2 m) c) main_v41 ((dat3 (asV (V7 m (o2 m))) c).arrAt 3 cfg3.N)) r else o2 m J r c

/-- After region 4: its output arrays at what its write-backs leave, from the valuation it is entered from. -/
def o4 : Outs (F := F) := fun J r c =>
  if J = 12 then (Function.update (Function.update (V11 m (o3 m) c) main_v45_0 ((dat4 (asV (V11 m (o3 m))) c).arrAt 4 cfg4.N)) main_v45_1 ((dat4 (asV (V11 m (o3 m))) c).arrAt 5 cfg4.N)) r else o3 m J r c

/-- After region 5: its output arrays at what its write-backs leave, from the valuation it is entered from. -/
def o5 : Outs (F := F) := fun J r c =>
  if J = 13 then (Function.update (Function.update (V12 m (o4 m) c) main_v46_0 ((dat5 (asV (V12 m (o4 m))) c).arrAt 1 cfg5.N)) main_v46_1 ((dat5 (asV (V12 m (o4 m))) c).arrAt 2 cfg5.N)) r else o4 m J r c

/-- After region 6: its output arrays at what its write-backs leave, from the valuation it is entered from. -/
def o6 : Outs (F := F) := fun J r c =>
  if J = 15 then (Function.update (V14 m (o5 m) c) main_v53 ((dat6 (asV (V14 m (o5 m))) c).arrAt 6 cfg6.N)) r else o5 m J r c

/-- After region 7: its output arrays at what its write-backs leave, from the valuation it is entered from. -/
def o7 : Outs (F := F) := fun J r c =>
  if J = 17 then (Function.update (Function.update (V16 m (o6 m) c) main_v58_0 ((dat7 (asV (V16 m (o6 m))) c).arrAt 1 cfg7.N)) main_v58_1 ((dat7 (asV (V16 m (o6 m))) c).arrAt 2 cfg7.N)) r else o6 m J r c

/-- After region 8: its output arrays at what its write-backs leave, from the valuation it is entered from. -/
def o8 : Outs (F := F) := fun J r c =>
  if J = 19 then (Function.update (V18 m (o7 m) c) main_v65 ((dat8 (asV (V18 m (o7 m))) c).arrAt 6 cfg8.N)) r else o7 m J r c

/-- After region 9: its output arrays at what its write-backs leave, from the valuation it is entered from. -/
def o9 : Outs (F := F) := fun J r c =>
  if J = 21 then (Function.update (V20 m (o8 m) c) main_v89 ((dat9 (asV (V20 m (o8 m))) c).arrAt 3 cfg9.N)) r else o8 m J r c

/-- After region 10: its output arrays at what its write-backs leave, from the valuation it is entered from. -/
def o10 : Outs (F := F) := fun J r c =>
  if J = 23 then (Function.update (V22 m (o9 m) c) main_v99 ((dat10 (asV (V22 m (o9 m))) c).arrAt 3 cfg10.N)) r else o9 m J r c

/-- After region 11: its output arrays at what its write-backs leave, from the valuation it is entered from. -/
def o11 : Outs (F := F) := fun J r c =>
  if J = 27 then (Function.update (Function.update (V26 m (o10 m) c) main_v103_0 ((dat11 (asV (V26 m (o10 m))) c).arrAt 4 cfg11.N)) main_v103_1 ((dat11 (asV (V26 m (o10 m))) c).arrAt 5 cfg11.N)) r else o10 m J r c

/-- After region 12: its output arrays at what its write-backs leave, from the valuation it is entered from. -/
def o12 : Outs (F := F) := fun J r c =>
  if J = 28 then (Function.update (Function.update (V27 m (o11 m) c) main_v104_0 ((dat12 (asV (V27 m (o11 m))) c).arrAt 1 cfg12.N)) main_v104_1 ((dat12 (asV (V27 m (o11 m))) c).arrAt 2 cfg12.N)) r else o11 m J r c

/-- After region 13: its output arrays at what its write-backs leave, from the valuation it is entered from. -/
def o13 : Outs (F := F) := fun J r c =>
  if J = 30 then (Function.update (V29 m (o12 m) c) main_v111 ((dat13 (asV (V29 m (o12 m))) c).arrAt 6 cfg13.N)) r else o12 m J r c

/-- After region 14: its output arrays at what its write-backs leave, from the valuation it is entered from. -/
def o14 : Outs (F := F) := fun J r c =>
  if J = 32 then (Function.update (Function.update (V31 m (o13 m) c) main_v116_0 ((dat14 (asV (V31 m (o13 m))) c).arrAt 1 cfg14.N)) main_v116_1 ((dat14 (asV (V31 m (o13 m))) c).arrAt 2 cfg14.N)) r else o13 m J r c

/-- After region 15: its output arrays at what its write-backs leave, from the valuation it is entered from. -/
def o15 : Outs (F := F) := fun J r c =>
  if J = 34 then (Function.update (V33 m (o14 m) c) main_v123 ((dat15 (asV (V33 m (o14 m))) c).arrAt 6 cfg15.N)) r else o14 m J r c

/-- After region 16: its output arrays at what its write-backs leave, from the valuation it is entered from. -/
def o16 : Outs (F := F) := fun J r c =>
  if J = 36 then (Function.update (V35 m (o15 m) c) main_v147 ((dat16 (asV (V35 m (o15 m))) c).arrAt 3 cfg16.N)) r else o15 m J r c

/-- After region 17: its output arrays at what its write-backs leave, from the valuation it is entered from. -/
def o17 : Outs (F := F) := fun J r c =>
  if J = 38 then (Function.update (V37 m (o16 m) c) main_v157 ((dat17 (asV (V37 m (o16 m))) c).arrAt 3 cfg17.N)) r else o16 m J r c

/-- After region 18: its output arrays at what its write-backs leave, from the valuation it is entered from. -/
def o18 : Outs (F := F) := fun J r c =>
  if J = 42 then (Function.update (Function.update (V41 m (o17 m) c) main_v161_0 ((dat18 (asV (V41 m (o17 m))) c).arrAt 4 cfg18.N)) main_v161_1 ((dat18 (asV (V41 m (o17 m))) c).arrAt 5 cfg18.N)) r else o17 m J r c

/-- After region 19: its output arrays at what its write-backs leave, from the valuation it is entered from. -/
def o19 : Outs (F := F) := fun J r c =>
  if J = 43 then (Function.update (Function.update (V42 m (o18 m) c) main_v162_0 ((dat19 (asV (V42 m (o18 m))) c).arrAt 1 cfg19.N)) main_v162_1 ((dat19 (asV (V42 m (o18 m))) c).arrAt 2 cfg19.N)) r else o18 m J r c

/-- After region 20: its output arrays at what its write-backs leave, from the valuation it is entered from. -/
def o20 : Outs (F := F) := fun J r c =>
  if J = 45 then (Function.update (V44 m (o19 m) c) main_v169 ((dat20 (asV (V44 m (o19 m))) c).arrAt 6 cfg20.N)) r else o19 m J r c

/-- After region 21: its output arrays at what its write-backs leave, from the valuation it is entered from. -/
def o21 : Outs (F := F) := fun J r c =>
  if J = 47 then (Function.update (Function.update (V46 m (o20 m) c) main_v174_0 ((dat21 (asV (V46 m (o20 m))) c).arrAt 1 cfg21.N)) main_v174_1 ((dat21 (asV (V46 m (o20 m))) c).arrAt 2 cfg21.N)) r else o20 m J r c

/-- After region 22: its output arrays at what its write-backs leave, from the valuation it is entered from. -/
def o22 : Outs (F := F) := fun J r c =>
  if J = 49 then (Function.update (V48 m (o21 m) c) main_v181 ((dat22 (asV (V48 m (o21 m))) c).arrAt 6 cfg22.N)) r else o21 m J r c

/-- The contents every region leaves. -/
def outs : Outs (F := F) := o22 m

/-! ## A stage agrees with the one before it away from its own item -/

theorem o0_ne (J : ℕ) (r : Ref sig .tc) (c : Dev nD) (h : J ≠ 2) : o0 m J r c = oInit m J r c := by
  unfold o0; exact if_neg h
theorem o1_ne (J : ℕ) (r : Ref sig .tc) (c : Dev nD) (h : J ≠ 4) : o1 m J r c = o0 m J r c := by
  unfold o1; exact if_neg h
theorem o2_ne (J : ℕ) (r : Ref sig .tc) (c : Dev nD) (h : J ≠ 6) : o2 m J r c = o1 m J r c := by
  unfold o2; exact if_neg h
theorem o3_ne (J : ℕ) (r : Ref sig .tc) (c : Dev nD) (h : J ≠ 8) : o3 m J r c = o2 m J r c := by
  unfold o3; exact if_neg h
theorem o4_ne (J : ℕ) (r : Ref sig .tc) (c : Dev nD) (h : J ≠ 12) : o4 m J r c = o3 m J r c := by
  unfold o4; exact if_neg h
theorem o5_ne (J : ℕ) (r : Ref sig .tc) (c : Dev nD) (h : J ≠ 13) : o5 m J r c = o4 m J r c := by
  unfold o5; exact if_neg h
theorem o6_ne (J : ℕ) (r : Ref sig .tc) (c : Dev nD) (h : J ≠ 15) : o6 m J r c = o5 m J r c := by
  unfold o6; exact if_neg h
theorem o7_ne (J : ℕ) (r : Ref sig .tc) (c : Dev nD) (h : J ≠ 17) : o7 m J r c = o6 m J r c := by
  unfold o7; exact if_neg h
theorem o8_ne (J : ℕ) (r : Ref sig .tc) (c : Dev nD) (h : J ≠ 19) : o8 m J r c = o7 m J r c := by
  unfold o8; exact if_neg h
theorem o9_ne (J : ℕ) (r : Ref sig .tc) (c : Dev nD) (h : J ≠ 21) : o9 m J r c = o8 m J r c := by
  unfold o9; exact if_neg h
theorem o10_ne (J : ℕ) (r : Ref sig .tc) (c : Dev nD) (h : J ≠ 23) : o10 m J r c = o9 m J r c := by
  unfold o10; exact if_neg h
theorem o11_ne (J : ℕ) (r : Ref sig .tc) (c : Dev nD) (h : J ≠ 27) : o11 m J r c = o10 m J r c := by
  unfold o11; exact if_neg h
theorem o12_ne (J : ℕ) (r : Ref sig .tc) (c : Dev nD) (h : J ≠ 28) : o12 m J r c = o11 m J r c := by
  unfold o12; exact if_neg h
theorem o13_ne (J : ℕ) (r : Ref sig .tc) (c : Dev nD) (h : J ≠ 30) : o13 m J r c = o12 m J r c := by
  unfold o13; exact if_neg h
theorem o14_ne (J : ℕ) (r : Ref sig .tc) (c : Dev nD) (h : J ≠ 32) : o14 m J r c = o13 m J r c := by
  unfold o14; exact if_neg h
theorem o15_ne (J : ℕ) (r : Ref sig .tc) (c : Dev nD) (h : J ≠ 34) : o15 m J r c = o14 m J r c := by
  unfold o15; exact if_neg h
theorem o16_ne (J : ℕ) (r : Ref sig .tc) (c : Dev nD) (h : J ≠ 36) : o16 m J r c = o15 m J r c := by
  unfold o16; exact if_neg h
theorem o17_ne (J : ℕ) (r : Ref sig .tc) (c : Dev nD) (h : J ≠ 38) : o17 m J r c = o16 m J r c := by
  unfold o17; exact if_neg h
theorem o18_ne (J : ℕ) (r : Ref sig .tc) (c : Dev nD) (h : J ≠ 42) : o18 m J r c = o17 m J r c := by
  unfold o18; exact if_neg h
theorem o19_ne (J : ℕ) (r : Ref sig .tc) (c : Dev nD) (h : J ≠ 43) : o19 m J r c = o18 m J r c := by
  unfold o19; exact if_neg h
theorem o20_ne (J : ℕ) (r : Ref sig .tc) (c : Dev nD) (h : J ≠ 45) : o20 m J r c = o19 m J r c := by
  unfold o20; exact if_neg h
theorem o21_ne (J : ℕ) (r : Ref sig .tc) (c : Dev nD) (h : J ≠ 47) : o21 m J r c = o20 m J r c := by
  unfold o21; exact if_neg h
theorem o22_ne (J : ℕ) (r : Ref sig .tc) (c : Dev nD) (h : J ≠ 49) : o22 m J r c = o21 m J r c := by
  unfold o22; exact if_neg h

/-- Below a region's item the final contents are the stage before that region. -/
theorem outs_below22 (J : ℕ) (r : Ref sig .tc) (c : Dev nD) (h : J < 49) : outs m J r c = o21 m J r c :=
  (show outs m J r c = o22 m J r c from rfl).trans (o22_ne m J r c (by omega))
theorem outs_below21 (J : ℕ) (r : Ref sig .tc) (c : Dev nD) (h : J < 47) : outs m J r c = o20 m J r c :=
  (outs_below22 m J r c (by omega)).trans (o21_ne m J r c (by omega))
theorem outs_below20 (J : ℕ) (r : Ref sig .tc) (c : Dev nD) (h : J < 45) : outs m J r c = o19 m J r c :=
  (outs_below21 m J r c (by omega)).trans (o20_ne m J r c (by omega))
theorem outs_below19 (J : ℕ) (r : Ref sig .tc) (c : Dev nD) (h : J < 43) : outs m J r c = o18 m J r c :=
  (outs_below20 m J r c (by omega)).trans (o19_ne m J r c (by omega))
theorem outs_below18 (J : ℕ) (r : Ref sig .tc) (c : Dev nD) (h : J < 42) : outs m J r c = o17 m J r c :=
  (outs_below19 m J r c (by omega)).trans (o18_ne m J r c (by omega))
theorem outs_below17 (J : ℕ) (r : Ref sig .tc) (c : Dev nD) (h : J < 38) : outs m J r c = o16 m J r c :=
  (outs_below18 m J r c (by omega)).trans (o17_ne m J r c (by omega))
theorem outs_below16 (J : ℕ) (r : Ref sig .tc) (c : Dev nD) (h : J < 36) : outs m J r c = o15 m J r c :=
  (outs_below17 m J r c (by omega)).trans (o16_ne m J r c (by omega))
theorem outs_below15 (J : ℕ) (r : Ref sig .tc) (c : Dev nD) (h : J < 34) : outs m J r c = o14 m J r c :=
  (outs_below16 m J r c (by omega)).trans (o15_ne m J r c (by omega))
theorem outs_below14 (J : ℕ) (r : Ref sig .tc) (c : Dev nD) (h : J < 32) : outs m J r c = o13 m J r c :=
  (outs_below15 m J r c (by omega)).trans (o14_ne m J r c (by omega))
theorem outs_below13 (J : ℕ) (r : Ref sig .tc) (c : Dev nD) (h : J < 30) : outs m J r c = o12 m J r c :=
  (outs_below14 m J r c (by omega)).trans (o13_ne m J r c (by omega))
theorem outs_below12 (J : ℕ) (r : Ref sig .tc) (c : Dev nD) (h : J < 28) : outs m J r c = o11 m J r c :=
  (outs_below13 m J r c (by omega)).trans (o12_ne m J r c (by omega))
theorem outs_below11 (J : ℕ) (r : Ref sig .tc) (c : Dev nD) (h : J < 27) : outs m J r c = o10 m J r c :=
  (outs_below12 m J r c (by omega)).trans (o11_ne m J r c (by omega))
theorem outs_below10 (J : ℕ) (r : Ref sig .tc) (c : Dev nD) (h : J < 23) : outs m J r c = o9 m J r c :=
  (outs_below11 m J r c (by omega)).trans (o10_ne m J r c (by omega))
theorem outs_below9 (J : ℕ) (r : Ref sig .tc) (c : Dev nD) (h : J < 21) : outs m J r c = o8 m J r c :=
  (outs_below10 m J r c (by omega)).trans (o9_ne m J r c (by omega))
theorem outs_below8 (J : ℕ) (r : Ref sig .tc) (c : Dev nD) (h : J < 19) : outs m J r c = o7 m J r c :=
  (outs_below9 m J r c (by omega)).trans (o8_ne m J r c (by omega))
theorem outs_below7 (J : ℕ) (r : Ref sig .tc) (c : Dev nD) (h : J < 17) : outs m J r c = o6 m J r c :=
  (outs_below8 m J r c (by omega)).trans (o7_ne m J r c (by omega))
theorem outs_below6 (J : ℕ) (r : Ref sig .tc) (c : Dev nD) (h : J < 15) : outs m J r c = o5 m J r c :=
  (outs_below7 m J r c (by omega)).trans (o6_ne m J r c (by omega))
theorem outs_below5 (J : ℕ) (r : Ref sig .tc) (c : Dev nD) (h : J < 13) : outs m J r c = o4 m J r c :=
  (outs_below6 m J r c (by omega)).trans (o5_ne m J r c (by omega))
theorem outs_below4 (J : ℕ) (r : Ref sig .tc) (c : Dev nD) (h : J < 12) : outs m J r c = o3 m J r c :=
  (outs_below5 m J r c (by omega)).trans (o4_ne m J r c (by omega))
theorem outs_below3 (J : ℕ) (r : Ref sig .tc) (c : Dev nD) (h : J < 8) : outs m J r c = o2 m J r c :=
  (outs_below4 m J r c (by omega)).trans (o3_ne m J r c (by omega))
theorem outs_below2 (J : ℕ) (r : Ref sig .tc) (c : Dev nD) (h : J < 6) : outs m J r c = o1 m J r c :=
  (outs_below3 m J r c (by omega)).trans (o2_ne m J r c (by omega))
theorem outs_below1 (J : ℕ) (r : Ref sig .tc) (c : Dev nD) (h : J < 4) : outs m J r c = o0 m J r c :=
  (outs_below2 m J r c (by omega)).trans (o1_ne m J r c (by omega))
theorem outs_below0 (J : ℕ) (r : Ref sig .tc) (c : Dev nD) (h : J < 2) : outs m J r c = oInit m J r c :=
  (outs_below1 m J r c (by omega)).trans (o0_ne m J r c (by omega))

/-- At a region's own item the final contents are that region's stage. -/
theorem outs_at0 (r : Ref sig .tc) (c : Dev nD) : outs m 2 r c = o0 m 2 r c := outs_below1 m 2 r c (by omega)
theorem outs_at1 (r : Ref sig .tc) (c : Dev nD) : outs m 4 r c = o1 m 4 r c := outs_below2 m 4 r c (by omega)
theorem outs_at2 (r : Ref sig .tc) (c : Dev nD) : outs m 6 r c = o2 m 6 r c := outs_below3 m 6 r c (by omega)
theorem outs_at3 (r : Ref sig .tc) (c : Dev nD) : outs m 8 r c = o3 m 8 r c := outs_below4 m 8 r c (by omega)
theorem outs_at4 (r : Ref sig .tc) (c : Dev nD) : outs m 12 r c = o4 m 12 r c := outs_below5 m 12 r c (by omega)
theorem outs_at5 (r : Ref sig .tc) (c : Dev nD) : outs m 13 r c = o5 m 13 r c := outs_below6 m 13 r c (by omega)
theorem outs_at6 (r : Ref sig .tc) (c : Dev nD) : outs m 15 r c = o6 m 15 r c := outs_below7 m 15 r c (by omega)
theorem outs_at7 (r : Ref sig .tc) (c : Dev nD) : outs m 17 r c = o7 m 17 r c := outs_below8 m 17 r c (by omega)
theorem outs_at8 (r : Ref sig .tc) (c : Dev nD) : outs m 19 r c = o8 m 19 r c := outs_below9 m 19 r c (by omega)
theorem outs_at9 (r : Ref sig .tc) (c : Dev nD) : outs m 21 r c = o9 m 21 r c := outs_below10 m 21 r c (by omega)
theorem outs_at10 (r : Ref sig .tc) (c : Dev nD) : outs m 23 r c = o10 m 23 r c := outs_below11 m 23 r c (by omega)
theorem outs_at11 (r : Ref sig .tc) (c : Dev nD) : outs m 27 r c = o11 m 27 r c := outs_below12 m 27 r c (by omega)
theorem outs_at12 (r : Ref sig .tc) (c : Dev nD) : outs m 28 r c = o12 m 28 r c := outs_below13 m 28 r c (by omega)
theorem outs_at13 (r : Ref sig .tc) (c : Dev nD) : outs m 30 r c = o13 m 30 r c := outs_below14 m 30 r c (by omega)
theorem outs_at14 (r : Ref sig .tc) (c : Dev nD) : outs m 32 r c = o14 m 32 r c := outs_below15 m 32 r c (by omega)
theorem outs_at15 (r : Ref sig .tc) (c : Dev nD) : outs m 34 r c = o15 m 34 r c := outs_below16 m 34 r c (by omega)
theorem outs_at16 (r : Ref sig .tc) (c : Dev nD) : outs m 36 r c = o16 m 36 r c := outs_below17 m 36 r c (by omega)
theorem outs_at17 (r : Ref sig .tc) (c : Dev nD) : outs m 38 r c = o17 m 38 r c := outs_below18 m 38 r c (by omega)
theorem outs_at18 (r : Ref sig .tc) (c : Dev nD) : outs m 42 r c = o18 m 42 r c := outs_below19 m 42 r c (by omega)
theorem outs_at19 (r : Ref sig .tc) (c : Dev nD) : outs m 43 r c = o19 m 43 r c := outs_below20 m 43 r c (by omega)
theorem outs_at20 (r : Ref sig .tc) (c : Dev nD) : outs m 45 r c = o20 m 45 r c := outs_below21 m 45 r c (by omega)
theorem outs_at21 (r : Ref sig .tc) (c : Dev nD) : outs m 47 r c = o21 m 47 r c := outs_below22 m 47 r c (by omega)
theorem outs_at22 (r : Ref sig .tc) (c : Dev nD) : outs m 49 r c = o22 m 49 r c := rfl

/-! ## A valuation depends on the contents the regions leave only up to its own item -/

theorem V2_congr (o o' : Outs (F := F)) (h : ∀ J' r c, J' ≤ 2 → o J' r c = o' J' r c) (c : Dev nD) : V2 m o c = V2 m o' c := by
  show Function.update (V1 m c) main_v5 (o 2 main_v5 c) = Function.update (V1 m c) main_v5 (o' 2 main_v5 c)
  rw [h 2 main_v5 c (le_refl _)]

theorem V3_congr (o o' : Outs (F := F)) (h : ∀ J' r c, J' ≤ 3 → o J' r c = o' J' r c) (c : Dev nD) : V3 m o c = V3 m o' c := by
  show StableHlo.after hostOps1 (V2 m o c) = StableHlo.after hostOps1 (V2 m o' c)
  rw [V2_congr m o o' (fun J' r c hJ => h J' r c (by omega)) c]

theorem V4_congr (o o' : Outs (F := F)) (h : ∀ J' r c, J' ≤ 4 → o J' r c = o' J' r c) (c : Dev nD) : V4 m o c = V4 m o' c := by
  show Function.update (V3 m o c) main_v7 (o 4 main_v7 c) = Function.update (V3 m o' c) main_v7 (o' 4 main_v7 c)
  rw [V3_congr m o o' (fun J' r c hJ => h J' r c (by omega)) c, h 4 main_v7 c (le_refl _)]

theorem V5_congr (o o' : Outs (F := F)) (h : ∀ J' r c, J' ≤ 5 → o J' r c = o' J' r c) (c : Dev nD) : V5 m o c = V5 m o' c := by
  show StableHlo.after hostOps2 (V4 m o c) = StableHlo.after hostOps2 (V4 m o' c)
  rw [V4_congr m o o' (fun J' r c hJ => h J' r c (by omega)) c]

theorem V6_congr (o o' : Outs (F := F)) (h : ∀ J' r c, J' ≤ 6 → o J' r c = o' J' r c) (c : Dev nD) : V6 m o c = V6 m o' c := by
  show Function.update (V5 m o c) main_v31 (o 6 main_v31 c) = Function.update (V5 m o' c) main_v31 (o' 6 main_v31 c)
  rw [V5_congr m o o' (fun J' r c hJ => h J' r c (by omega)) c, h 6 main_v31 c (le_refl _)]

theorem V7_congr (o o' : Outs (F := F)) (h : ∀ J' r c, J' ≤ 7 → o J' r c = o' J' r c) (c : Dev nD) : V7 m o c = V7 m o' c := by
  show StableHlo.after hostOps3 (V6 m o c) = StableHlo.after hostOps3 (V6 m o' c)
  rw [V6_congr m o o' (fun J' r c hJ => h J' r c (by omega)) c]

theorem V8_congr (o o' : Outs (F := F)) (h : ∀ J' r c, J' ≤ 8 → o J' r c = o' J' r c) (c : Dev nD) : V8 m o c = V8 m o' c := by
  show Function.update (V7 m o c) main_v41 (o 8 main_v41 c) = Function.update (V7 m o' c) main_v41 (o' 8 main_v41 c)
  rw [V7_congr m o o' (fun J' r c hJ => h J' r c (by omega)) c, h 8 main_v41 c (le_refl _)]

theorem V9_congr (o o' : Outs (F := F)) (h : ∀ J' r c, J' ≤ 9 → o J' r c = o' J' r c) (c : Dev nD) : V9 m o c = V9 m o' c := by
  show StableHlo.after hostOps4 (V8 m o c) = StableHlo.after hostOps4 (V8 m o' c)
  rw [V8_congr m o o' (fun J' r c hJ => h J' r c (by omega)) c]

theorem V10_congr (o o' : Outs (F := F)) (h : ∀ J' r c, J' ≤ 10 → o J' r c = o' J' r c) (c : Dev nD) : V10 m o c = V10 m o' c := by
  show StableHlo.after hostOps4_1 (V9 m o c) = StableHlo.after hostOps4_1 (V9 m o' c)
  rw [V9_congr m o o' (fun J' r c hJ => h J' r c (by omega)) c]

theorem V11_congr (o o' : Outs (F := F)) (h : ∀ J' r c, J' ≤ 11 → o J' r c = o' J' r c) (c : Dev nD) : V11 m o c = V11 m o' c := by
  show StableHlo.after hostOps4_2 (V10 m o c) = StableHlo.after hostOps4_2 (V10 m o' c)
  rw [V10_congr m o o' (fun J' r c hJ => h J' r c (by omega)) c]

theorem V12_congr (o o' : Outs (F := F)) (h : ∀ J' r c, J' ≤ 12 → o J' r c = o' J' r c) (c : Dev nD) : V12 m o c = V12 m o' c := by
  show Function.update (Function.update (V11 m o c) main_v45_0 (o 12 main_v45_0 c)) main_v45_1 (o 12 main_v45_1 c) = Function.update (Function.update (V11 m o' c) main_v45_0 (o' 12 main_v45_0 c)) main_v45_1 (o' 12 main_v45_1 c)
  rw [V11_congr m o o' (fun J' r c hJ => h J' r c (by omega)) c, h 12 main_v45_0 c (le_refl _), h 12 main_v45_1 c (le_refl _)]

theorem V13_congr (o o' : Outs (F := F)) (h : ∀ J' r c, J' ≤ 13 → o J' r c = o' J' r c) (c : Dev nD) : V13 m o c = V13 m o' c := by
  show Function.update (Function.update (V12 m o c) main_v46_0 (o 13 main_v46_0 c)) main_v46_1 (o 13 main_v46_1 c) = Function.update (Function.update (V12 m o' c) main_v46_0 (o' 13 main_v46_0 c)) main_v46_1 (o' 13 main_v46_1 c)
  rw [V12_congr m o o' (fun J' r c hJ => h J' r c (by omega)) c, h 13 main_v46_0 c (le_refl _), h 13 main_v46_1 c (le_refl _)]

theorem V14_congr (o o' : Outs (F := F)) (h : ∀ J' r c, J' ≤ 14 → o J' r c = o' J' r c) (c : Dev nD) : V14 m o c = V14 m o' c := by
  show StableHlo.after hostOps6 (V13 m o c) = StableHlo.after hostOps6 (V13 m o' c)
  rw [V13_congr m o o' (fun J' r c hJ => h J' r c (by omega)) c]

theorem V15_congr (o o' : Outs (F := F)) (h : ∀ J' r c, J' ≤ 15 → o J' r c = o' J' r c) (c : Dev nD) : V15 m o c = V15 m o' c := by
  show Function.update (V14 m o c) main_v53 (o 15 main_v53 c) = Function.update (V14 m o' c) main_v53 (o' 15 main_v53 c)
  rw [V14_congr m o o' (fun J' r c hJ => h J' r c (by omega)) c, h 15 main_v53 c (le_refl _)]

theorem V16_congr (o o' : Outs (F := F)) (h : ∀ J' r c, J' ≤ 16 → o J' r c = o' J' r c) (c : Dev nD) : V16 m o c = V16 m o' c := by
  show StableHlo.after hostOps7 (V15 m o c) = StableHlo.after hostOps7 (V15 m o' c)
  rw [V15_congr m o o' (fun J' r c hJ => h J' r c (by omega)) c]

theorem V17_congr (o o' : Outs (F := F)) (h : ∀ J' r c, J' ≤ 17 → o J' r c = o' J' r c) (c : Dev nD) : V17 m o c = V17 m o' c := by
  show Function.update (Function.update (V16 m o c) main_v58_0 (o 17 main_v58_0 c)) main_v58_1 (o 17 main_v58_1 c) = Function.update (Function.update (V16 m o' c) main_v58_0 (o' 17 main_v58_0 c)) main_v58_1 (o' 17 main_v58_1 c)
  rw [V16_congr m o o' (fun J' r c hJ => h J' r c (by omega)) c, h 17 main_v58_0 c (le_refl _), h 17 main_v58_1 c (le_refl _)]

theorem V18_congr (o o' : Outs (F := F)) (h : ∀ J' r c, J' ≤ 18 → o J' r c = o' J' r c) (c : Dev nD) : V18 m o c = V18 m o' c := by
  show StableHlo.after hostOps8 (V17 m o c) = StableHlo.after hostOps8 (V17 m o' c)
  rw [V17_congr m o o' (fun J' r c hJ => h J' r c (by omega)) c]

theorem V19_congr (o o' : Outs (F := F)) (h : ∀ J' r c, J' ≤ 19 → o J' r c = o' J' r c) (c : Dev nD) : V19 m o c = V19 m o' c := by
  show Function.update (V18 m o c) main_v65 (o 19 main_v65 c) = Function.update (V18 m o' c) main_v65 (o' 19 main_v65 c)
  rw [V18_congr m o o' (fun J' r c hJ => h J' r c (by omega)) c, h 19 main_v65 c (le_refl _)]

theorem V20_congr (o o' : Outs (F := F)) (h : ∀ J' r c, J' ≤ 20 → o J' r c = o' J' r c) (c : Dev nD) : V20 m o c = V20 m o' c := by
  show StableHlo.after hostOps9 (V19 m o c) = StableHlo.after hostOps9 (V19 m o' c)
  rw [V19_congr m o o' (fun J' r c hJ => h J' r c (by omega)) c]

theorem V21_congr (o o' : Outs (F := F)) (h : ∀ J' r c, J' ≤ 21 → o J' r c = o' J' r c) (c : Dev nD) : V21 m o c = V21 m o' c := by
  show Function.update (V20 m o c) main_v89 (o 21 main_v89 c) = Function.update (V20 m o' c) main_v89 (o' 21 main_v89 c)
  rw [V20_congr m o o' (fun J' r c hJ => h J' r c (by omega)) c, h 21 main_v89 c (le_refl _)]

theorem V22_congr (o o' : Outs (F := F)) (h : ∀ J' r c, J' ≤ 22 → o J' r c = o' J' r c) (c : Dev nD) : V22 m o c = V22 m o' c := by
  show StableHlo.after hostOps10 (V21 m o c) = StableHlo.after hostOps10 (V21 m o' c)
  rw [V21_congr m o o' (fun J' r c hJ => h J' r c (by omega)) c]

theorem V23_congr (o o' : Outs (F := F)) (h : ∀ J' r c, J' ≤ 23 → o J' r c = o' J' r c) (c : Dev nD) : V23 m o c = V23 m o' c := by
  show Function.update (V22 m o c) main_v99 (o 23 main_v99 c) = Function.update (V22 m o' c) main_v99 (o' 23 main_v99 c)
  rw [V22_congr m o o' (fun J' r c hJ => h J' r c (by omega)) c, h 23 main_v99 c (le_refl _)]

theorem V24_congr (o o' : Outs (F := F)) (h : ∀ J' r c, J' ≤ 24 → o J' r c = o' J' r c) (c : Dev nD) : V24 m o c = V24 m o' c := by
  show StableHlo.after hostOps11 (V23 m o c) = StableHlo.after hostOps11 (V23 m o' c)
  rw [V23_congr m o o' (fun J' r c hJ => h J' r c (by omega)) c]

theorem V25_congr (o o' : Outs (F := F)) (h : ∀ J' r c, J' ≤ 25 → o J' r c = o' J' r c) (c : Dev nD) : V25 m o c = V25 m o' c := by
  show StableHlo.after hostOps11_1 (V24 m o c) = StableHlo.after hostOps11_1 (V24 m o' c)
  rw [V24_congr m o o' (fun J' r c hJ => h J' r c (by omega)) c]

theorem V26_congr (o o' : Outs (F := F)) (h : ∀ J' r c, J' ≤ 26 → o J' r c = o' J' r c) (c : Dev nD) : V26 m o c = V26 m o' c := by
  show StableHlo.after hostOps11_2 (V25 m o c) = StableHlo.after hostOps11_2 (V25 m o' c)
  rw [V25_congr m o o' (fun J' r c hJ => h J' r c (by omega)) c]

theorem V27_congr (o o' : Outs (F := F)) (h : ∀ J' r c, J' ≤ 27 → o J' r c = o' J' r c) (c : Dev nD) : V27 m o c = V27 m o' c := by
  show Function.update (Function.update (V26 m o c) main_v103_0 (o 27 main_v103_0 c)) main_v103_1 (o 27 main_v103_1 c) = Function.update (Function.update (V26 m o' c) main_v103_0 (o' 27 main_v103_0 c)) main_v103_1 (o' 27 main_v103_1 c)
  rw [V26_congr m o o' (fun J' r c hJ => h J' r c (by omega)) c, h 27 main_v103_0 c (le_refl _), h 27 main_v103_1 c (le_refl _)]

theorem V28_congr (o o' : Outs (F := F)) (h : ∀ J' r c, J' ≤ 28 → o J' r c = o' J' r c) (c : Dev nD) : V28 m o c = V28 m o' c := by
  show Function.update (Function.update (V27 m o c) main_v104_0 (o 28 main_v104_0 c)) main_v104_1 (o 28 main_v104_1 c) = Function.update (Function.update (V27 m o' c) main_v104_0 (o' 28 main_v104_0 c)) main_v104_1 (o' 28 main_v104_1 c)
  rw [V27_congr m o o' (fun J' r c hJ => h J' r c (by omega)) c, h 28 main_v104_0 c (le_refl _), h 28 main_v104_1 c (le_refl _)]

theorem V29_congr (o o' : Outs (F := F)) (h : ∀ J' r c, J' ≤ 29 → o J' r c = o' J' r c) (c : Dev nD) : V29 m o c = V29 m o' c := by
  show StableHlo.after hostOps13 (V28 m o c) = StableHlo.after hostOps13 (V28 m o' c)
  rw [V28_congr m o o' (fun J' r c hJ => h J' r c (by omega)) c]

theorem V30_congr (o o' : Outs (F := F)) (h : ∀ J' r c, J' ≤ 30 → o J' r c = o' J' r c) (c : Dev nD) : V30 m o c = V30 m o' c := by
  show Function.update (V29 m o c) main_v111 (o 30 main_v111 c) = Function.update (V29 m o' c) main_v111 (o' 30 main_v111 c)
  rw [V29_congr m o o' (fun J' r c hJ => h J' r c (by omega)) c, h 30 main_v111 c (le_refl _)]

theorem V31_congr (o o' : Outs (F := F)) (h : ∀ J' r c, J' ≤ 31 → o J' r c = o' J' r c) (c : Dev nD) : V31 m o c = V31 m o' c := by
  show StableHlo.after hostOps14 (V30 m o c) = StableHlo.after hostOps14 (V30 m o' c)
  rw [V30_congr m o o' (fun J' r c hJ => h J' r c (by omega)) c]

theorem V32_congr (o o' : Outs (F := F)) (h : ∀ J' r c, J' ≤ 32 → o J' r c = o' J' r c) (c : Dev nD) : V32 m o c = V32 m o' c := by
  show Function.update (Function.update (V31 m o c) main_v116_0 (o 32 main_v116_0 c)) main_v116_1 (o 32 main_v116_1 c) = Function.update (Function.update (V31 m o' c) main_v116_0 (o' 32 main_v116_0 c)) main_v116_1 (o' 32 main_v116_1 c)
  rw [V31_congr m o o' (fun J' r c hJ => h J' r c (by omega)) c, h 32 main_v116_0 c (le_refl _), h 32 main_v116_1 c (le_refl _)]

theorem V33_congr (o o' : Outs (F := F)) (h : ∀ J' r c, J' ≤ 33 → o J' r c = o' J' r c) (c : Dev nD) : V33 m o c = V33 m o' c := by
  show StableHlo.after hostOps15 (V32 m o c) = StableHlo.after hostOps15 (V32 m o' c)
  rw [V32_congr m o o' (fun J' r c hJ => h J' r c (by omega)) c]

theorem V34_congr (o o' : Outs (F := F)) (h : ∀ J' r c, J' ≤ 34 → o J' r c = o' J' r c) (c : Dev nD) : V34 m o c = V34 m o' c := by
  show Function.update (V33 m o c) main_v123 (o 34 main_v123 c) = Function.update (V33 m o' c) main_v123 (o' 34 main_v123 c)
  rw [V33_congr m o o' (fun J' r c hJ => h J' r c (by omega)) c, h 34 main_v123 c (le_refl _)]

theorem V35_congr (o o' : Outs (F := F)) (h : ∀ J' r c, J' ≤ 35 → o J' r c = o' J' r c) (c : Dev nD) : V35 m o c = V35 m o' c := by
  show StableHlo.after hostOps16 (V34 m o c) = StableHlo.after hostOps16 (V34 m o' c)
  rw [V34_congr m o o' (fun J' r c hJ => h J' r c (by omega)) c]

theorem V36_congr (o o' : Outs (F := F)) (h : ∀ J' r c, J' ≤ 36 → o J' r c = o' J' r c) (c : Dev nD) : V36 m o c = V36 m o' c := by
  show Function.update (V35 m o c) main_v147 (o 36 main_v147 c) = Function.update (V35 m o' c) main_v147 (o' 36 main_v147 c)
  rw [V35_congr m o o' (fun J' r c hJ => h J' r c (by omega)) c, h 36 main_v147 c (le_refl _)]

theorem V37_congr (o o' : Outs (F := F)) (h : ∀ J' r c, J' ≤ 37 → o J' r c = o' J' r c) (c : Dev nD) : V37 m o c = V37 m o' c := by
  show StableHlo.after hostOps17 (V36 m o c) = StableHlo.after hostOps17 (V36 m o' c)
  rw [V36_congr m o o' (fun J' r c hJ => h J' r c (by omega)) c]

theorem V38_congr (o o' : Outs (F := F)) (h : ∀ J' r c, J' ≤ 38 → o J' r c = o' J' r c) (c : Dev nD) : V38 m o c = V38 m o' c := by
  show Function.update (V37 m o c) main_v157 (o 38 main_v157 c) = Function.update (V37 m o' c) main_v157 (o' 38 main_v157 c)
  rw [V37_congr m o o' (fun J' r c hJ => h J' r c (by omega)) c, h 38 main_v157 c (le_refl _)]

theorem V39_congr (o o' : Outs (F := F)) (h : ∀ J' r c, J' ≤ 39 → o J' r c = o' J' r c) (c : Dev nD) : V39 m o c = V39 m o' c := by
  show StableHlo.after hostOps18 (V38 m o c) = StableHlo.after hostOps18 (V38 m o' c)
  rw [V38_congr m o o' (fun J' r c hJ => h J' r c (by omega)) c]

theorem V40_congr (o o' : Outs (F := F)) (h : ∀ J' r c, J' ≤ 40 → o J' r c = o' J' r c) (c : Dev nD) : V40 m o c = V40 m o' c := by
  show StableHlo.after hostOps18_1 (V39 m o c) = StableHlo.after hostOps18_1 (V39 m o' c)
  rw [V39_congr m o o' (fun J' r c hJ => h J' r c (by omega)) c]

theorem V41_congr (o o' : Outs (F := F)) (h : ∀ J' r c, J' ≤ 41 → o J' r c = o' J' r c) (c : Dev nD) : V41 m o c = V41 m o' c := by
  show StableHlo.after hostOps18_2 (V40 m o c) = StableHlo.after hostOps18_2 (V40 m o' c)
  rw [V40_congr m o o' (fun J' r c hJ => h J' r c (by omega)) c]

theorem V42_congr (o o' : Outs (F := F)) (h : ∀ J' r c, J' ≤ 42 → o J' r c = o' J' r c) (c : Dev nD) : V42 m o c = V42 m o' c := by
  show Function.update (Function.update (V41 m o c) main_v161_0 (o 42 main_v161_0 c)) main_v161_1 (o 42 main_v161_1 c) = Function.update (Function.update (V41 m o' c) main_v161_0 (o' 42 main_v161_0 c)) main_v161_1 (o' 42 main_v161_1 c)
  rw [V41_congr m o o' (fun J' r c hJ => h J' r c (by omega)) c, h 42 main_v161_0 c (le_refl _), h 42 main_v161_1 c (le_refl _)]

theorem V43_congr (o o' : Outs (F := F)) (h : ∀ J' r c, J' ≤ 43 → o J' r c = o' J' r c) (c : Dev nD) : V43 m o c = V43 m o' c := by
  show Function.update (Function.update (V42 m o c) main_v162_0 (o 43 main_v162_0 c)) main_v162_1 (o 43 main_v162_1 c) = Function.update (Function.update (V42 m o' c) main_v162_0 (o' 43 main_v162_0 c)) main_v162_1 (o' 43 main_v162_1 c)
  rw [V42_congr m o o' (fun J' r c hJ => h J' r c (by omega)) c, h 43 main_v162_0 c (le_refl _), h 43 main_v162_1 c (le_refl _)]

theorem V44_congr (o o' : Outs (F := F)) (h : ∀ J' r c, J' ≤ 44 → o J' r c = o' J' r c) (c : Dev nD) : V44 m o c = V44 m o' c := by
  show StableHlo.after hostOps20 (V43 m o c) = StableHlo.after hostOps20 (V43 m o' c)
  rw [V43_congr m o o' (fun J' r c hJ => h J' r c (by omega)) c]

theorem V45_congr (o o' : Outs (F := F)) (h : ∀ J' r c, J' ≤ 45 → o J' r c = o' J' r c) (c : Dev nD) : V45 m o c = V45 m o' c := by
  show Function.update (V44 m o c) main_v169 (o 45 main_v169 c) = Function.update (V44 m o' c) main_v169 (o' 45 main_v169 c)
  rw [V44_congr m o o' (fun J' r c hJ => h J' r c (by omega)) c, h 45 main_v169 c (le_refl _)]

theorem V46_congr (o o' : Outs (F := F)) (h : ∀ J' r c, J' ≤ 46 → o J' r c = o' J' r c) (c : Dev nD) : V46 m o c = V46 m o' c := by
  show StableHlo.after hostOps21 (V45 m o c) = StableHlo.after hostOps21 (V45 m o' c)
  rw [V45_congr m o o' (fun J' r c hJ => h J' r c (by omega)) c]

theorem V47_congr (o o' : Outs (F := F)) (h : ∀ J' r c, J' ≤ 47 → o J' r c = o' J' r c) (c : Dev nD) : V47 m o c = V47 m o' c := by
  show Function.update (Function.update (V46 m o c) main_v174_0 (o 47 main_v174_0 c)) main_v174_1 (o 47 main_v174_1 c) = Function.update (Function.update (V46 m o' c) main_v174_0 (o' 47 main_v174_0 c)) main_v174_1 (o' 47 main_v174_1 c)
  rw [V46_congr m o o' (fun J' r c hJ => h J' r c (by omega)) c, h 47 main_v174_0 c (le_refl _), h 47 main_v174_1 c (le_refl _)]

theorem V48_congr (o o' : Outs (F := F)) (h : ∀ J' r c, J' ≤ 48 → o J' r c = o' J' r c) (c : Dev nD) : V48 m o c = V48 m o' c := by
  show StableHlo.after hostOps22 (V47 m o c) = StableHlo.after hostOps22 (V47 m o' c)
  rw [V47_congr m o o' (fun J' r c hJ => h J' r c (by omega)) c]

theorem V49_congr (o o' : Outs (F := F)) (h : ∀ J' r c, J' ≤ 49 → o J' r c = o' J' r c) (c : Dev nD) : V49 m o c = V49 m o' c := by
  show Function.update (V48 m o c) main_v181 (o 49 main_v181 c) = Function.update (V48 m o' c) main_v181 (o' 49 main_v181 c)
  rw [V48_congr m o o' (fun J' r c hJ => h J' r c (by omega)) c, h 49 main_v181 c (le_refl _)]

/-! ## The valuation a region is entered from does not depend on later regions -/

theorem Vin1 : V3 m (outs m) = V3 m (o0 m) := funext fun c =>
  V3_congr m (outs m) (o0 m) (fun J' r c hJ => outs_below1 m J' r c (by omega)) c
theorem Vin2 : V5 m (outs m) = V5 m (o1 m) := funext fun c =>
  V5_congr m (outs m) (o1 m) (fun J' r c hJ => outs_below2 m J' r c (by omega)) c
theorem Vin3 : V7 m (outs m) = V7 m (o2 m) := funext fun c =>
  V7_congr m (outs m) (o2 m) (fun J' r c hJ => outs_below3 m J' r c (by omega)) c
theorem Vin4 : V11 m (outs m) = V11 m (o3 m) := funext fun c =>
  V11_congr m (outs m) (o3 m) (fun J' r c hJ => outs_below4 m J' r c (by omega)) c
theorem Vin5 : V12 m (outs m) = V12 m (o4 m) := funext fun c =>
  V12_congr m (outs m) (o4 m) (fun J' r c hJ => outs_below5 m J' r c (by omega)) c
theorem Vin6 : V14 m (outs m) = V14 m (o5 m) := funext fun c =>
  V14_congr m (outs m) (o5 m) (fun J' r c hJ => outs_below6 m J' r c (by omega)) c
theorem Vin7 : V16 m (outs m) = V16 m (o6 m) := funext fun c =>
  V16_congr m (outs m) (o6 m) (fun J' r c hJ => outs_below7 m J' r c (by omega)) c
theorem Vin8 : V18 m (outs m) = V18 m (o7 m) := funext fun c =>
  V18_congr m (outs m) (o7 m) (fun J' r c hJ => outs_below8 m J' r c (by omega)) c
theorem Vin9 : V20 m (outs m) = V20 m (o8 m) := funext fun c =>
  V20_congr m (outs m) (o8 m) (fun J' r c hJ => outs_below9 m J' r c (by omega)) c
theorem Vin10 : V22 m (outs m) = V22 m (o9 m) := funext fun c =>
  V22_congr m (outs m) (o9 m) (fun J' r c hJ => outs_below10 m J' r c (by omega)) c
theorem Vin11 : V26 m (outs m) = V26 m (o10 m) := funext fun c =>
  V26_congr m (outs m) (o10 m) (fun J' r c hJ => outs_below11 m J' r c (by omega)) c
theorem Vin12 : V27 m (outs m) = V27 m (o11 m) := funext fun c =>
  V27_congr m (outs m) (o11 m) (fun J' r c hJ => outs_below12 m J' r c (by omega)) c
theorem Vin13 : V29 m (outs m) = V29 m (o12 m) := funext fun c =>
  V29_congr m (outs m) (o12 m) (fun J' r c hJ => outs_below13 m J' r c (by omega)) c
theorem Vin14 : V31 m (outs m) = V31 m (o13 m) := funext fun c =>
  V31_congr m (outs m) (o13 m) (fun J' r c hJ => outs_below14 m J' r c (by omega)) c
theorem Vin15 : V33 m (outs m) = V33 m (o14 m) := funext fun c =>
  V33_congr m (outs m) (o14 m) (fun J' r c hJ => outs_below15 m J' r c (by omega)) c
theorem Vin16 : V35 m (outs m) = V35 m (o15 m) := funext fun c =>
  V35_congr m (outs m) (o15 m) (fun J' r c hJ => outs_below16 m J' r c (by omega)) c
theorem Vin17 : V37 m (outs m) = V37 m (o16 m) := funext fun c =>
  V37_congr m (outs m) (o16 m) (fun J' r c hJ => outs_below17 m J' r c (by omega)) c
theorem Vin18 : V41 m (outs m) = V41 m (o17 m) := funext fun c =>
  V41_congr m (outs m) (o17 m) (fun J' r c hJ => outs_below18 m J' r c (by omega)) c
theorem Vin19 : V42 m (outs m) = V42 m (o18 m) := funext fun c =>
  V42_congr m (outs m) (o18 m) (fun J' r c hJ => outs_below19 m J' r c (by omega)) c
theorem Vin20 : V44 m (outs m) = V44 m (o19 m) := funext fun c =>
  V44_congr m (outs m) (o19 m) (fun J' r c hJ => outs_below20 m J' r c (by omega)) c
theorem Vin21 : V46 m (outs m) = V46 m (o20 m) := funext fun c =>
  V46_congr m (outs m) (o20 m) (fun J' r c hJ => outs_below21 m J' r c (by omega)) c
theorem Vin22 : V48 m (outs m) = V48 m (o21 m) := funext fun c =>
  V48_congr m (outs m) (o21 m) (fun J' r c hJ => outs_below22 m J' r c (by omega)) c

/-! ## Every region's proof data, at the valuation it is entered from -/

def pdats : (p : Fin 23) → (c : Dev nD) → Dat τ (Elt F) Unit ℕ (UR sig nD τ) ℕ (cfgs p) c
  | ⟨0, _⟩ => fun c => dat0 (asV (V1 m)) c
  | ⟨1, _⟩ => fun c => dat1 (asV (V3 m (outs m))) c
  | ⟨2, _⟩ => fun c => dat2 (asV (V5 m (outs m))) c
  | ⟨3, _⟩ => fun c => dat3 (asV (V7 m (outs m))) c
  | ⟨4, _⟩ => fun c => dat4 (asV (V11 m (outs m))) c
  | ⟨5, _⟩ => fun c => dat5 (asV (V12 m (outs m))) c
  | ⟨6, _⟩ => fun c => dat6 (asV (V14 m (outs m))) c
  | ⟨7, _⟩ => fun c => dat7 (asV (V16 m (outs m))) c
  | ⟨8, _⟩ => fun c => dat8 (asV (V18 m (outs m))) c
  | ⟨9, _⟩ => fun c => dat9 (asV (V20 m (outs m))) c
  | ⟨10, _⟩ => fun c => dat10 (asV (V22 m (outs m))) c
  | ⟨11, _⟩ => fun c => dat11 (asV (V26 m (outs m))) c
  | ⟨12, _⟩ => fun c => dat12 (asV (V27 m (outs m))) c
  | ⟨13, _⟩ => fun c => dat13 (asV (V29 m (outs m))) c
  | ⟨14, _⟩ => fun c => dat14 (asV (V31 m (outs m))) c
  | ⟨15, _⟩ => fun c => dat15 (asV (V33 m (outs m))) c
  | ⟨16, _⟩ => fun c => dat16 (asV (V35 m (outs m))) c
  | ⟨17, _⟩ => fun c => dat17 (asV (V37 m (outs m))) c
  | ⟨18, _⟩ => fun c => dat18 (asV (V41 m (outs m))) c
  | ⟨19, _⟩ => fun c => dat19 (asV (V42 m (outs m))) c
  | ⟨20, _⟩ => fun c => dat20 (asV (V44 m (outs m))) c
  | ⟨21, _⟩ => fun c => dat21 (asV (V46 m (outs m))) c
  | ⟨22, _⟩ => fun c => dat22 (asV (V48 m (outs m))) c
  | ⟨_ + 23, h⟩ => absurd h (Nat.not_lt.2 (Nat.le_add_left _ _))

end Cert.KernelIdeal.Asm

end
-- ==== Proof.KernelIdealAsmR0.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 0 -/

set_option maxRecDepth 400000 in
set_option maxHeartbeats 2000000 in
/-- What region 0 leaves in main_v5. -/
theorem outs0_3 (c : Dev nD) : outs m 2 main_v5 c = (pdats m 0 c).arrAt 3 cfg0.N := by
  rw [outs_at0 m main_v5 c]
  unfold o0
  rw [if_pos rfl]
  rw [Function.update_self]
  rfl

set_option maxRecDepth 400000 in
set_option maxHeartbeats 2000000 in
/-- At region 0's exit each of its arrays holds what the pipeline leaves. -/
theorem hF0 (c : Dev nD) (w : Fin cfg0.W) : (pdats m 0 c).arrAt w cfg0.N = asV (V2 m (outs m)) c (Pipeline.arrRef spec0 w) := by
  match w with
  | ⟨0, _⟩ => exact ((pdats m 0 c).arrAt_in 0 rfl _).trans (Function.update_of_ne (show (Proc.devRef .tc main_arg0 : DevRef τ sig) ≠ Proc.devRef .tc main_v5 from by decide) (outs m 2 main_v5 c) (V1 m c)).symm
  | ⟨1, _⟩ => exact ((pdats m 0 c).arrAt_in 1 rfl _).trans (Function.update_of_ne (show (Proc.devRef .tc main_arg3 : DevRef τ sig) ≠ Proc.devRef .tc main_v5 from by decide) (outs m 2 main_v5 c) (V1 m c)).symm
  | ⟨2, _⟩ => exact ((pdats m 0 c).arrAt_in 2 rfl _).trans (Function.update_of_ne (show (Proc.devRef .tc main_v4 : DevRef τ sig) ≠ Proc.devRef .tc main_v5 from by decide) (outs m 2 main_v5 c) (V1 m c)).symm
  | ⟨3, _⟩ => exact (outs0_3 m c).symm.trans (Function.update_self (Proc.devRef .tc main_v5 : DevRef τ sig) (outs m 2 main_v5 c) (V1 m c)).symm

set_option maxRecDepth 400000 in
set_option maxHeartbeats 2000000 in
/-- Every other buffer holds at the exit what it held at the entry. -/
theorem hrest0 (c : Dev nD) : ∀ b, b ∉ Finset.univ.image (Pipeline.arrRef spec0) → asV (V2 m (outs m)) c b = asV (V1 m) c b := fun b hb => by
  have h3 : (Proc.devRef .tc b : DevRef τ sig) ≠ Proc.devRef .tc main_v5 := fun e => hb (Finset.mem_image.mpr ⟨3, Finset.mem_univ _, (Proc.devRef_injective _ e).symm⟩)
  exact Function.update_of_ne h3 (outs m 2 main_v5 c) (V1 m c)

set_option maxRecDepth 400000 in
set_option maxHeartbeats 2000000 in
set_option backward.isDefEq.respectTransparency.types false in
/-- Region 0 as a segment: entered from the buffers at the valuation before it, left at the one after it; its arrays split
    out of the buffers at entry and put back at exit; the generator register through the invariant; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (asV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (asV (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (V1 m) c) (asV (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR1.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 1 -/

set_option maxRecDepth 400000 in
set_option maxHeartbeats 2000000 in
/-- What region 1 leaves in main_v7. -/
theorem outs1_3 (c : Dev nD) : outs m 4 main_v7 c = (pdats m 1 c).arrAt 3 cfg1.N := by
  rw [outs_at1 m main_v7 c]
  unfold o1
  rw [if_pos rfl]
  rw [Function.update_self]
  show (dat1 (asV (V3 m (o0 m))) c).arrAt 3 cfg1.N = (dat1 (asV (V3 m (outs m))) c).arrAt 3 cfg1.N
  rw [Vin1]

set_option maxRecDepth 400000 in
set_option maxHeartbeats 2000000 in
/-- At region 1's exit each of its arrays holds what the pipeline leaves. -/
theorem hF1 (c : Dev nD) (w : Fin cfg1.W) : (pdats m 1 c).arrAt w cfg1.N = asV (V4 m (outs m)) c (Pipeline.arrRef spec1 w) := by
  match w with
  | ⟨0, _⟩ => exact ((pdats m 1 c).arrAt_in 0 rfl _).trans (Function.update_of_ne (show (Proc.devRef .tc main_arg2 : DevRef τ sig) ≠ Proc.devRef .tc main_v7 from by decide) (outs m 4 main_v7 c) (V3 m (outs m) c)).symm
  | ⟨1, _⟩ => exact ((pdats m 1 c).arrAt_in 1 rfl _).trans (Function.update_of_ne (show (Proc.devRef .tc main_arg5 : DevRef τ sig) ≠ Proc.devRef .tc main_v7 from by decide) (outs m 4 main_v7 c) (V3 m (outs m) c)).symm
  | ⟨2, _⟩ => exact ((pdats m 1 c).arrAt_in 2 rfl _).trans (Function.update_of_ne (show (Proc.devRef .tc main_v6 : DevRef τ sig) ≠ Proc.devRef .tc main_v7 from by decide) (outs m 4 main_v7 c) (V3 m (outs m) c)).symm
  | ⟨3, _⟩ => exact (outs1_3 m c).symm.trans (Function.update_self (Proc.devRef .tc main_v7 : DevRef τ sig) (outs m 4 main_v7 c) (V3 m (outs m) c)).symm

set_option maxRecDepth 400000 in
set_option maxHeartbeats 2000000 in
/-- Every other buffer holds at the exit what it held at the entry. -/
theorem hrest1 (c : Dev nD) : ∀ b, b ∉ Finset.univ.image (Pipeline.arrRef spec1) → asV (V4 m (outs m)) c b = asV (V3 m (outs m)) c b := fun b hb => by
  have h3 : (Proc.devRef .tc b : DevRef τ sig) ≠ Proc.devRef .tc main_v7 := fun e => hb (Finset.mem_image.mpr ⟨3, Finset.mem_univ _, (Proc.devRef_injective _ e).symm⟩)
  exact Function.update_of_ne h3 (outs m 4 main_v7 c) (V3 m (outs m) c)

set_option maxRecDepth 400000 in
set_option maxHeartbeats 2000000 in
set_option backward.isDefEq.respectTransparency.types false in
/-- Region 1 as a segment: entered from the buffers at the valuation before it, left at the one after it; its arrays split
    out of the buffers at entry and put back at exit; the generator register through the invariant; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (asV (V3 m (outs m))) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (asV (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (V3 m (outs m)) c) (asV (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR2.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 2 -/

set_option maxRecDepth 400000 in
set_option maxHeartbeats 2000000 in
/-- What region 2 leaves in main_v31. -/
theorem outs2_3 (c : Dev nD) : outs m 6 main_v31 c = (pdats m 2 c).arrAt 3 cfg2.N := by
  rw [outs_at2 m main_v31 c]
  unfold o2
  rw [if_pos rfl]
  rw [Function.update_self]
  show (dat2 (asV (V5 m (o1 m))) c).arrAt 3 cfg2.N = (dat2 (asV (V5 m (outs m))) c).arrAt 3 cfg2.N
  rw [Vin2]

set_option maxRecDepth 400000 in
set_option maxHeartbeats 2000000 in
/-- At region 2's exit each of its arrays holds what the pipeline leaves. -/
theorem hF2 (c : Dev nD) (w : Fin cfg2.W) : (pdats m 2 c).arrAt w cfg2.N = asV (V6 m (outs m)) c (Pipeline.arrRef spec2 w) := by
  match w with
  | ⟨0, _⟩ => exact ((pdats m 2 c).arrAt_in 0 rfl _).trans (Function.update_of_ne (show (Proc.devRef .tc main_v5 : DevRef τ sig) ≠ Proc.devRef .tc main_v31 from by decide) (outs m 6 main_v31 c) (V5 m (outs m) c)).symm
  | ⟨1, _⟩ => exact ((pdats m 2 c).arrAt_in 1 rfl _).trans (Function.update_of_ne (show (Proc.devRef .tc main_v20 : DevRef τ sig) ≠ Proc.devRef .tc main_v31 from by decide) (outs m 6 main_v31 c) (V5 m (outs m) c)).symm
  | ⟨2, _⟩ => exact ((pdats m 2 c).arrAt_in 2 rfl _).trans (Function.update_of_ne (show (Proc.devRef .tc main_v30 : DevRef τ sig) ≠ Proc.devRef .tc main_v31 from by decide) (outs m 6 main_v31 c) (V5 m (outs m) c)).symm
  | ⟨3, _⟩ => exact (outs2_3 m c).symm.trans (Function.update_self (Proc.devRef .tc main_v31 : DevRef τ sig) (outs m 6 main_v31 c) (V5 m (outs m) c)).symm

set_option maxRecDepth 400000 in
set_option maxHeartbeats 2000000 in
/-- Every other buffer holds at the exit what it held at the entry. -/
theorem hrest2 (c : Dev nD) : ∀ b, b ∉ Finset.univ.image (Pipeline.arrRef spec2) → asV (V6 m (outs m)) c b = asV (V5 m (outs m)) c b := fun b hb => by
  have h3 : (Proc.devRef .tc b : DevRef τ sig) ≠ Proc.devRef .tc main_v31 := fun e => hb (Finset.mem_image.mpr ⟨3, Finset.mem_univ _, (Proc.devRef_injective _ e).symm⟩)
  exact Function.update_of_ne h3 (outs m 6 main_v31 c) (V5 m (outs m) c)

set_option maxRecDepth 400000 in
set_option maxHeartbeats 2000000 in
set_option backward.isDefEq.respectTransparency.types false in
/-- Region 2 as a segment: entered from the buffers at the valuation before it, left at the one after it; its arrays split
    out of the buffers at entry and put back at exit; the generator register through the invariant; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (asV (V5 m (outs m))) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (asV (V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (V5 m (outs m)) c) (asV (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR3.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 3 -/

set_option maxRecDepth 400000 in
set_option maxHeartbeats 2000000 in
/-- What region 3 leaves in main_v41. -/
theorem outs3_3 (c : Dev nD) : outs m 8 main_v41 c = (pdats m 3 c).arrAt 3 cfg3.N := by
  rw [outs_at3 m main_v41 c]
  unfold o3
  rw [if_pos rfl]
  rw [Function.update_self]
  show (dat3 (asV (V7 m (o2 m))) c).arrAt 3 cfg3.N = (dat3 (asV (V7 m (outs m))) c).arrAt 3 cfg3.N
  rw [Vin3]

set_option maxRecDepth 400000 in
set_option maxHeartbeats 2000000 in
/-- At region 3's exit each of its arrays holds what the pipeline leaves. -/
theorem hF3 (c : Dev nD) (w : Fin cfg3.W) : (pdats m 3 c).arrAt w cfg3.N = asV (V8 m (outs m)) c (Pipeline.arrRef spec3 w) := by
  match w with
  | ⟨0, _⟩ => exact ((pdats m 3 c).arrAt_in 0 rfl _).trans (Function.update_of_ne (show (Proc.devRef .tc main_v7 : DevRef τ sig) ≠ Proc.devRef .tc main_v41 from by decide) (outs m 8 main_v41 c) (V7 m (outs m) c)).symm
  | ⟨1, _⟩ => exact ((pdats m 3 c).arrAt_in 1 rfl _).trans (Function.update_of_ne (show (Proc.devRef .tc main_v37 : DevRef τ sig) ≠ Proc.devRef .tc main_v41 from by decide) (outs m 8 main_v41 c) (V7 m (outs m) c)).symm
  | ⟨2, _⟩ => exact ((pdats m 3 c).arrAt_in 2 rfl _).trans (Function.update_of_ne (show (Proc.devRef .tc main_v40 : DevRef τ sig) ≠ Proc.devRef .tc main_v41 from by decide) (outs m 8 main_v41 c) (V7 m (outs m) c)).symm
  | ⟨3, _⟩ => exact (outs3_3 m c).symm.trans (Function.update_self (Proc.devRef .tc main_v41 : DevRef τ sig) (outs m 8 main_v41 c) (V7 m (outs m) c)).symm

set_option maxRecDepth 400000 in
set_option maxHeartbeats 2000000 in
/-- Every other buffer holds at the exit what it held at the entry. -/
theorem hrest3 (c : Dev nD) : ∀ b, b ∉ Finset.univ.image (Pipeline.arrRef spec3) → asV (V8 m (outs m)) c b = asV (V7 m (outs m)) c b := fun b hb => by
  have h3 : (Proc.devRef .tc b : DevRef τ sig) ≠ Proc.devRef .tc main_v41 := fun e => hb (Finset.mem_image.mpr ⟨3, Finset.mem_univ _, (Proc.devRef_injective _ e).symm⟩)
  exact Function.update_of_ne h3 (outs m 8 main_v41 c) (V7 m (outs m) c)

set_option maxRecDepth 400000 in
set_option maxHeartbeats 2000000 in
set_option backward.isDefEq.respectTransparency.types false in
/-- Region 3 as a segment: entered from the buffers at the valuation before it, left at the one after it; its arrays split
    out of the buffers at entry and put back at exit; the generator register through the invariant; nothing owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (asV (V7 m (outs m))) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (asV (V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asV (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asV (V7 m (outs m)) c) (asV (V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR4.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 4 -/

set_option maxRecDepth 400000 in
set_option maxHeartbeats 2000000 in
/-- What region 4 leaves in main_v45_0. -/
theorem outs4_4 (c : Dev nD) : outs m 12 main_v45_0 c = (pdats m 4 c).arrAt 4 cfg4.N := by
  rw [outs_at4 m main_v45_0 c]
  unfold o4
  rw [if_pos rfl]
  rw [Function.update_of_ne (show (Proc.devRef .tc main_v45_0 : DevRef τ sig) ≠ Proc.devRef .tc main_v45_1 from by decide)]
  rw [Function.update_self]
  show (dat4 (asV (V11 m (o3 m))) c).arrAt 4 cfg4.N = (dat4 (asV (V11 m (outs m))) c).arrAt 4 cfg4.N
  rw [Vin4]

set_option maxRecDepth 400000 in
set_option maxHeartbeats 2000000 in
/-- What region 4 leaves in main_v45_1. -/
theorem outs4_5 (c : Dev nD) : outs m 12 main_v45_1 c = (pdats m 4 c).arrAt 5 cfg4.N := by
  rw [outs_at4 m main_v45_1 c]
  unfold o4
  rw [if_pos rfl]
  rw [Function.update_self]
  show (dat4 (asV (V11 m (o3 m))) c).arrAt 5 cfg4.N = (dat4 (asV (V11 m (outs m))) c).arrAt 5 cfg4.N
  rw [Vin4]

set_option maxRecDepth 400000 in
set_option maxHeartbeats 2000000 in
/-- At region 4's exit each of its arrays holds what the pipeline leaves. -/
theorem hF4 (c : Dev nD) (w : Fin cfg4.W) : (pdats m 4 c).arrAt w cfg4.N = asV (V12 m (outs m)) c (Pipeline.arrRef spec4 w) := by
  match w with
  | ⟨0, _⟩ => exact ((pdats m 4 c).arrAt_in 0 rfl _).trans ((Function.update_of_ne (show (Proc.devRef .tc main_v41 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v41 : DevRef τ sig) ≠ Proc.devRef .tc main_v45_0 from by decide) (outs m 12 main_v45_0 c) (V11 m (outs m) c))).symm
  | ⟨1, _⟩ => exact ((pdats m 4 c).arrAt_in 1 rfl _).trans ((Function.update_of_ne (show (Proc.devRef .tc main_v42 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v42 : DevRef τ sig) ≠ Proc.devRef .tc main_v45_0 from by decide) (outs m 12 main_v45_0 c) (V11 m (outs m) c))).symm
  | ⟨2, _⟩ => exact ((pdats m 4 c).arrAt_in 2 rfl _).trans ((Function.update_of_ne (show (Proc.devRef .tc main_v43 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v43 : DevRef τ sig) ≠ Proc.devRef .tc main_v45_0 from by decide) (outs m 12 main_v45_0 c) (V11 m (outs m) c))).symm
  | ⟨3, _⟩ => exact ((pdats m 4 c).arrAt_in 3 rfl _).trans ((Function.update_of_ne (show (Proc.devRef .tc main_v44 : DevRef τ sig) ≠ Proc.devRef .tc main_v45_1 from by decide) (outs m 12 main_v45_1 c) (Function.update (V11 m (outs m) c) (Proc.devRef .tc main_v45_0 : DevRef τ sig) (outs m 12 main_v45_0 c))).trans (Function.update_of_ne (show (Proc.devRef .tc main_v44 : DevRef τ sig) ≠ Proc.devRef .tc main_v45_0 from by decide) (outs m 12 main_v45_0 c) (V11 m (outs m) c))).symm
  | ⟨4, _⟩ => exact (outs4_4 m c).symm.trans ((Function.update_of_ne (show (Proc.devRef .tc main_v45_0 : DevRef τ sig) ≠ Proc.devRef .tc main_v45_1 from by decide) (outs m 12 main_v45_1 c) (Function.update (V11 m (outs m) c) (Proc.devRef .tc main_v45_0 : DevRef τ sig) (outs m 12 main_v45_0 c))).trans (Function.update_self (Proc.devRef .tc main_v45_0 : DevRef τ sig) (outs m 12 main_v45_0 c) (V11 m (outs m) c))).symm
  | ⟨5, _⟩ => exact (outs4_5 m c).symm.trans (Function.update_self (Proc.devRef .tc main_v45_1 : DevRef τ sig) (outs m 12 main_v45_1 c) (Function.update (V11 m (outs m) c) (Proc.devRef .tc main_v45_0 : DevRef τ sig) (outs m 12 main_v45_0 c))).symm

set_option maxRecDepth 400000 in
set_option maxHeartbeats 2000000 in
/-- Every other buffer holds at the exit what it held at the entry. -/
theorem hrest4 (c : Dev nD) : ∀ b, b ∉ Finset.univ.image (Pipeline.arrRef spec4) → asV (V12 m (outs m)) c b = asV (V11 m (outs m)) c b := fun b hb => by
  have h4 : (Proc.devRef .tc b : DevRef τ sig) ≠ Proc.devRef .tc main_v45_0 := fun e => hb (Finset.mem_image.mpr ⟨4, Finset.mem_univ _, (Proc.devRef_injective _ e).symm⟩)
  have h5 : (Proc.devRef .tc b : DevRef τ sig) ≠ Proc.devRef .tc main_v45_1 := fun e => hb (Finset.mem_image.mpr ⟨5, Finset.mem_univ _, (Proc.devRef_injective _ e).symm⟩)
  exact (Function.update_of_ne h5 (outs m 12 main_v45_1 c) (Function.update (V11 m (outs m) c) (Proc.devRef .tc main_v45_0 : DevRef τ sig) (outs m 12 main_v45_0 c))).trans (Function.update_of_ne h4 (outs m 12 main_v45_0 c) (V11 m (outs m) c))

set_option maxRecDepth 400000 in
set_option maxHeartbeats 2000000 in
set_option backward.isDefEq.respectTransparency.types false in
/-- Region 4 as a segment: entered from the buffers at the valuation before it, left at the one after it; its arrays split
    out of the buffers at entry and put back at exit; the generator register through the invariant; nothing owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (asV (V11 m (outs m))) c).loose
  hwaits := Pipeline.hwaits_of_owed_zero _ _ _ _ L lv 4 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec4 c (asV (V11 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asV (V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asV (V11 m (outs m)) c) (asV (V12 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR5.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 5 -/

set_option maxRecDepth 400000 in
set_option maxHeartbeats 2000000 in
/-- What region 5 leaves in main_v46_0. -/
theorem outs5_1 (c : Dev nD) : outs m 13 main_v46_0 c = (pdats m 5 c).arrAt 1 cfg5.N := by
  rw [outs_at5 m main_v46_0 c]
  unfold o5
  rw [if_pos rfl]
  rw [Function.update_of_ne (show (Proc.devRef .tc main_v46_0 : DevRef τ sig) ≠ Proc.devRef .tc main_v46_1 from by decide)]
  rw [Function.update_self]
  show (dat5 (asV (V12 m (o4 m))) c).arrAt 1 cfg5.N = (dat5 (asV (V12 m (outs m))) c).arrAt 1 cfg5.N
  rw [Vin5]

set_option maxRecDepth 400000 in
set_option maxHeartbeats 2000000 in
/-- What region 5 leaves in main_v46_1. -/
theorem outs5_2 (c : Dev nD) : outs m 13 main_v46_1 c = (pdats m 5 c).arrAt 2 cfg5.N := by
  rw [outs_at5 m main_v46_1 c]
  unfold o5
  rw [if_pos rfl]
  rw [Function.update_self]
  show (dat5 (asV (V12 m (o4 m))) c).arrAt 2 cfg5.N = (dat5 (asV (V12 m (outs m))) c).arrAt 2 cfg5.N
  rw [Vin5]

set_option maxRecDepth 400000 in
set_option maxHeartbeats 2000000 in
/-- At region 5's exit each of its arrays holds what the pipeline leaves. -/
theorem hF5 (c : Dev nD) (w : Fin cfg5.W) : (pdats m 5 c).arrAt w cfg5.N = asV (V13 m (outs m)) c (Pipeline.arrRef spec5 w) := by
  match w with
  | ⟨0, _⟩ => exact ((pdats m 5 c).arrAt_in 0 rfl _).trans ((Function.update_of_ne (show (Proc.devRef .tc main_v45_0 : DevRef τ sig) ≠ Proc.devRef .tc main_v46_1 from by decide) (outs m 13 main_v46_1 c) (Function.update (V12 m (outs m) c) (Proc.devRef .tc main_v46_0 : DevRef τ sig) (outs m 13 main_v46_0 c))).trans (Function.update_of_ne (show (Proc.devRef .tc main_v45_0 : DevRef τ sig) ≠ Proc.devRef .tc main_v46_0 from by decide) (outs m 13 main_v46_0 c) (V12 m (outs m) c))).symm
  | ⟨1, _⟩ => exact (outs5_1 m c).symm.trans ((Function.update_of_ne (show (Proc.devRef .tc main_v46_0 : DevRef τ sig) ≠ Proc.devRef .tc main_v46_1 from by decide) (outs m 13 main_v46_1 c) (Function.update (V12 m (outs m) c) (Proc.devRef .tc main_v46_0 : DevRef τ sig) (outs m 13 main_v46_0 c))).trans (Function.update_self (Proc.devRef .tc main_v46_0 : DevRef τ sig) (outs m 13 main_v46_0 c) (V12 m (outs m) c))).symm
  | ⟨2, _⟩ => exact (outs5_2 m c).symm.trans (Function.update_self (Proc.devRef .tc main_v46_1 : DevRef τ sig) (outs m 13 main_v46_1 c) (Function.update (V12 m (outs m) c) (Proc.devRef .tc main_v46_0 : DevRef τ sig) (outs m 13 main_v46_0 c))).symm

set_option maxRecDepth 400000 in
set_option maxHeartbeats 2000000 in
/-- Every other buffer holds at the exit what it held at the entry. -/
theorem hrest5 (c : Dev nD) : ∀ b, b ∉ Finset.univ.image (Pipeline.arrRef spec5) → asV (V13 m (outs m)) c b = asV (V12 m (outs m)) c b := fun b hb => by
  have h1 : (Proc.devRef .tc b : DevRef τ sig) ≠ Proc.devRef .tc main_v46_0 := fun e => hb (Finset.mem_image.mpr ⟨1, Finset.mem_univ _, (Proc.devRef_injective _ e).symm⟩)
  have h2 : (Proc.devRef .tc b : DevRef τ sig) ≠ Proc.devRef .tc main_v46_1 := fun e => hb (Finset.mem_image.mpr ⟨2, Finset.mem_univ _, (Proc.devRef_injective _ e).symm⟩)
  exact (Function.update_of_ne h2 (outs m 13 main_v46_1 c) (Function.update (V12 m (outs m) c) (Proc.devRef .tc main_v46_0 : DevRef τ sig) (outs m 13 main_v46_0 c))).trans (Function.update_of_ne h1 (outs m 13 main_v46_0 c) (V12 m (outs m) c))

set_option maxRecDepth 400000 in
set_option maxHeartbeats 2000000 in
set_option backward.isDefEq.respectTransparency.types false in
/-- Region 5 as a segment: entered from the buffers at the valuation before it, left at the one after it; its arrays split
    out of the buffers at entry and put back at exit; the generator register through the invariant; nothing owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (asV (V12 m (outs m))) c).loose
  hwaits := Pipeline.hwaits_of_owed_zero _ _ _ _ L lv 5 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec5 c (asV (V12 m (outs m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (asV (V12 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat5 (asV (V12 m (outs m))) c).Φ 0
    iintro ⟨Hp, -, Hr⟩
    iapply (hin5 (asV (V12 m (outs m))) c)
    unfold X5
    isplitl [Hp]; · iexact Hp
    iexact Hr
  hout c := by
    rw [Pipeline.ownSems0_none]
    exact (hout5 (asV (V12 m (outs m))) c).trans (by
      unfold X5
      iintro ⟨Hp, Hr⟩
      isplitl [Hp]; · iexact Hp
      isplitr; · iempintro
      iexact Hr)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (asV (V12 m (outs m)) c) (asV (V13 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR6.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 6 -/

set_option maxRecDepth 400000 in
set_option maxHeartbeats 2000000 in
/-- What region 6 leaves in main_v53. -/
theorem outs6_6 (c : Dev nD) : outs m 15 main_v53 c = (pdats m 6 c).arrAt 6 cfg6.N := by
  rw [outs_at6 m main_v53 c]
  unfold o6
  rw [if_pos rfl]
  rw [Function.update_self]
  show (dat6 (asV (V14 m (o5 m))) c).arrAt 6 cfg6.N = (dat6 (asV (V14 m (outs m))) c).arrAt 6 cfg6.N
  rw [Vin6]

set_option maxRecDepth 400000 in
set_option maxHeartbeats 2000000 in
/-- At region 6's exit each of its arrays holds what the pipeline leaves. -/
theorem hF6 (c : Dev nD) (w : Fin cfg6.W) : (pdats m 6 c).arrAt w cfg6.N = asV (V15 m (outs m)) c (Pipeline.arrRef spec6 w) := by
  match w with
  | ⟨0, _⟩ => exact ((pdats m 6 c).arrAt_in 0 rfl _).trans (Function.update_of_ne (show (Proc.devRef .tc main_v45_0 : DevRef τ sig) ≠ Proc.devRef .tc main_v53 from by decide) (outs m 15 main_v53 c) (V14 m (outs m) c)).symm
  | ⟨1, _⟩ => exact ((pdats m 6 c).arrAt_in 1 rfl _).trans (Function.update_of_ne (show (Proc.devRef .tc main_v7 : DevRef τ sig) ≠ Proc.devRef .tc main_v53 from by decide) (outs m 15 main_v53 c) (V14 m (outs m) c)).symm
  | ⟨2, _⟩ => exact ((pdats m 6 c).arrAt_in 2 rfl _).trans (Function.update_of_ne (show (Proc.devRef .tc main_v46_0 : DevRef τ sig) ≠ Proc.devRef .tc main_v53 from by decide) (outs m 15 main_v53 c) (V14 m (outs m) c)).symm
  | ⟨3, _⟩ => exact ((pdats m 6 c).arrAt_in 3 rfl _).trans (Function.update_of_ne (show (Proc.devRef .tc main_v46_1 : DevRef τ sig) ≠ Proc.devRef .tc main_v53 from by decide) (outs m 15 main_v53 c) (V14 m (outs m) c)).symm
  | ⟨4, _⟩ => exact ((pdats m 6 c).arrAt_in 4 rfl _).trans (Function.update_of_ne (show (Proc.devRef .tc main_v49 : DevRef τ sig) ≠ Proc.devRef .tc main_v53 from by decide) (outs m 15 main_v53 c) (V14 m (outs m) c)).symm
  | ⟨5, _⟩ => exact ((pdats m 6 c).arrAt_in 5 rfl _).trans (Function.update_of_ne (show (Proc.devRef .tc main_v52 : DevRef τ sig) ≠ Proc.devRef .tc main_v53 from by decide) (outs m 15 main_v53 c) (V14 m (outs m) c)).symm
  | ⟨6, _⟩ => exact (outs6_6 m c).symm.trans (Function.update_self (Proc.devRef .tc main_v53 : DevRef τ sig) (outs m 15 main_v53 c) (V14 m (outs m) c)).symm

set_option maxRecDepth 400000 in
set_option maxHeartbeats 2000000 in
/-- Every other buffer holds at the exit what it held at the entry. -/
theorem hrest6 (c : Dev nD) : ∀ b, b ∉ Finset.univ.image (Pipeline.arrRef spec6) → asV (V15 m (outs m)) c b = asV (V14 m (outs m)) c b := fun b hb => by
  have h6 : (Proc.devRef .tc b : DevRef τ sig) ≠ Proc.devRef .tc main_v53 := fun e => hb (Finset.mem_image.mpr ⟨6, Finset.mem_univ _, (Proc.devRef_injective _ e).symm⟩)
  exact Function.update_of_ne h6 (outs m 15 main_v53 c) (V14 m (outs m) c)

set_option maxRecDepth 400000 in
set_option maxHeartbeats 2000000 in
set_option backward.isDefEq.respectTransparency.types false in
/-- Region 6 as a segment: entered from the buffers at the valuation before it, left at the one after it; its arrays split
    out of the buffers at entry and put back at exit; the generator register through the invariant; nothing owed. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (asV (V14 m (outs m))) c).loose
  hwaits := Pipeline.hwaits_of_owed_zero _ _ _ _ L lv 6 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec6 c (asV (V14 m (outs m)) c)
  hentry c := by
    rw [Pipeline.ownSems0_none]
    have hsplit := Pipeline.arrays_of_unscopedBufs (p := 6) (pcfgs (F := F)) adm (pdats m) launch6.win launch6.arr_whole c
      ((pdats m 6 c).share_full fun _ => rfl) (asV (V14 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (asV (V14 m (outs m)) c) (asV (V15 m (outs m)) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR7.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 7 -/

set_option maxRecDepth 400000 in
set_option maxHeartbeats 2000000 in
/-- What region 7 leaves in main_v58_0. -/
theorem outs7_1 (c : Dev nD) : outs m 17 main_v58_0 c = (pdats m 7 c).arrAt 1 cfg7.N := by
  rw [outs_at7 m main_v58_0 c]
  unfold o7
  rw [if_pos rfl]
  rw [Function.update_of_ne (show (Proc.devRef .tc main_v58_0 : DevRef τ sig) ≠ Proc.devRef .tc main_v58_1 from by decide)]
  rw [Function.update_self]
  show (dat7 (asV (V16 m (o6 m))) c).arrAt 1 cfg7.N = (dat7 (asV (V16 m (outs m))) c).arrAt 1 cfg7.N
  rw [Vin7]

set_option maxRecDepth 400000 in
set_option maxHeartbeats 2000000 in
/-- What region 7 leaves in main_v58_1. -/
theorem outs7_2 (c : Dev nD) : outs m 17 main_v58_1 c = (pdats m 7 c).arrAt 2 cfg7.N := by
  rw [outs_at7 m main_v58_1 c]
  unfold o7
  rw [if_pos rfl]
  rw [Function.update_self]
  show (dat7 (asV (V16 m (o6 m))) c).arrAt 2 cfg7.N = (dat7 (asV (V16 m (outs m))) c).arrAt 2 cfg7.N
  rw [Vin7]

set_option maxRecDepth 400000 in
set_option maxHeartbeats 2000000 in
/-- At region 7's exit each of its arrays holds what the pipeline leaves. -/
theorem hF7 (c : Dev nD) (w : Fin cfg7.W) : (pdats m 7 c).arrAt w cfg7.N = asV (V17 m (outs m)) c (Pipeline.arrRef spec7 w) := by
  match w with
  | ⟨0, _⟩ => exact ((pdats m 7 c).arrAt_in 0 rfl _).trans ((Function.update_of_ne (show (Proc.devRef .tc main_v57 : DevRef τ sig) ≠ Proc.devRef .tc main_v58_1 from by decide) (outs m 17 main_v58_1 c) (Function.update (V16 m (outs m) c) (Proc.devRef .tc main_v58_0 : DevRef τ sig) (outs m 17 main_v58_0 c))).trans (Function.update_of_ne (show (Proc.devRef .tc main_v57 : DevRef τ sig) ≠ Proc.devRef .tc main_v58_0 from by decide) (outs m 17 main_v58_0 c) (V16 m (outs m) c))).symm
  | ⟨1, _⟩ => exact (outs7_1 m c).symm.trans ((Function.update_of_ne (show (Proc.devRef .tc main_v58_0 : DevRef τ sig) ≠ Proc.devRef .tc main_v58_1 from by decide) (outs m 17 main_v58_1 c) (Function.update (V16 m (outs m) c) (Proc.devRef .tc main_v58_0 : DevRef τ sig) (outs m 17 main_v58_0 c))).trans (Function.update_self (Proc.devRef .tc main_v58_0 : DevRef τ sig) (outs m 17 main_v58_0 c) (V16 m (outs m) c))).symm
  | ⟨2, _⟩ => exact (outs7_2 m c).symm.trans (Function.update_self (Proc.devRef .tc main_v58_1 : DevRef τ sig) (outs m 17 main_v58_1 c) (Function.update (V16 m (outs m) c) (Proc.devRef .tc main_v58_0 : DevRef τ sig) (outs m 17 main_v58_0 c))).symm

set_option maxRecDepth 400000 in
set_option maxHeartbeats 2000000 in
/-- Every other buffer holds at the exit what it held at the entry. -/
theorem hrest7 (c : Dev nD) : ∀ b, b ∉ Finset.univ.image (Pipeline.arrRef spec7) → asV (V17 m (outs m)) c b = asV (V16 m (outs m)) c b := fun b hb => by
  have h1 : (Proc.devRef .tc b : DevRef τ sig) ≠ Proc.devRef .tc main_v58_0 := fun e => hb (Finset.mem_image.mpr ⟨1, Finset.mem_univ _, (Proc.devRef_injective _ e).symm⟩)
  have h2 : (Proc.devRef .tc b : DevRef τ sig) ≠ Proc.devRef .tc main_v58_1 := fun e => hb (Finset.mem_image.mpr ⟨2, Finset.mem_univ _, (Proc.devRef_injective _ e).symm⟩)
  exact (Function.update_of_ne h2 (outs m 17 main_v58_1 c) (Function.update (V16 m (outs m) c) (Proc.devRef .tc main_v58_0 : DevRef τ sig) (outs m 17 main_v58_0 c))).trans (Function.update_of_ne h1 (outs m 17 main_v58_0 c) (V16 m (outs m) c))

set_option maxRecDepth 400000 in
set_option maxHeartbeats 2000000 in
set_option backward.isDefEq.respectTransparency.types false in
/-- Region 7 as a segment: entered from the buffers at the valuation before it, left at the one after it; its arrays split
    out of the buffers at entry and put back at exit; the generator register through the invariant; nothing owed. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (asV (V16 m (outs m))) c).loose
  hwaits := Pipeline.hwaits_of_owed_zero _ _ _ _ L lv 7 fun _ _ => rfl
  pre c := iprop(StableHlo.held (c : Thread nD τ) (Pipeline.ucRefs τ sig) (V16 m (outs m) c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec7 c (asV (V16 m (outs m)) c)
  hentry c := by
    rw [Pipeline.ownSems0_none]
    have hsplit := Pipeline.arrays_of_unscopedBufs (p := 7) (pcfgs (F := F)) adm (pdats m) launch7.win launch7.arr_whole c
      ((pdats m 7 c).share_full fun _ => rfl) (asV (V16 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat7 (asV (V16 m (outs m))) c).Φ 0
    iintro ⟨Hp, -, Hr⟩
    iapply (hin7 (asV (V16 m (outs m))) c)
    unfold X7
    isplitl [Hp]; · iexact Hp
    iexact Hr
  hout c := by
    rw [Pipeline.ownSems0_none]
    exact (hout7 (asV (V16 m (outs m))) c).trans (by
      unfold X7
      iintro ⟨Hp, Hr⟩
      isplitl [Hp]; · iexact Hp
      isplitr; · iempintro
      iexact Hr)
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (asV (V16 m (outs m)) c) (asV (V17 m (outs m)) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR8.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 8 -/

set_option maxRecDepth 400000 in
set_option maxHeartbeats 2000000 in
/-- What region 8 leaves in main_v65. -/
theorem outs8_6 (c : Dev nD) : outs m 19 main_v65 c = (pdats m 8 c).arrAt 6 cfg8.N := by
  rw [outs_at8 m main_v65 c]
  unfold o8
  rw [if_pos rfl]
  rw [Function.update_self]
  show (dat8 (asV (V18 m (o7 m))) c).arrAt 6 cfg8.N = (dat8 (asV (V18 m (outs m))) c).arrAt 6 cfg8.N
  rw [Vin8]

set_option maxRecDepth 400000 in
set_option maxHeartbeats 2000000 in
/-- At region 8's exit each of its arrays holds what the pipeline leaves. -/
theorem hF8 (c : Dev nD) (w : Fin cfg8.W) : (pdats m 8 c).arrAt w cfg8.N = asV (V19 m (outs m)) c (Pipeline.arrRef spec8 w) := by
  match w with
  | ⟨0, _⟩ => exact ((pdats m 8 c).arrAt_in 0 rfl _).trans (Function.update_of_ne (show (Proc.devRef .tc main_v57 : DevRef τ sig) ≠ Proc.devRef .tc main_v65 from by decide) (outs m 19 main_v65 c) (V18 m (outs m) c)).symm
  | ⟨1, _⟩ => exact ((pdats m 8 c).arrAt_in 1 rfl _).trans (Function.update_of_ne (show (Proc.devRef .tc main_v5 : DevRef τ sig) ≠ Proc.devRef .tc main_v65 from by decide) (outs m 19 main_v65 c) (V18 m (outs m) c)).symm
  | ⟨2, _⟩ => exact ((pdats m 8 c).arrAt_in 2 rfl _).trans (Function.update_of_ne (show (Proc.devRef .tc main_v58_0 : DevRef τ sig) ≠ Proc.devRef .tc main_v65 from by decide) (outs m 19 main_v65 c) (V18 m (outs m) c)).symm
  | ⟨3, _⟩ => exact ((pdats m 8 c).arrAt_in 3 rfl _).trans (Function.update_of_ne (show (Proc.devRef .tc main_v58_1 : DevRef τ sig) ≠ Proc.devRef .tc main_v65 from by decide) (outs m 19 main_v65 c) (V18 m (outs m) c)).symm
  | ⟨4, _⟩ => exact ((pdats m 8 c).arrAt_in 4 rfl _).trans (Function.update_of_ne (show (Proc.devRef .tc main_v61 : DevRef τ sig) ≠ Proc.devRef .tc main_v65 from by decide) (outs m 19 main_v65 c) (V18 m (outs m) c)).symm
  | ⟨5, _⟩ => exact ((pdats m 8 c).arrAt_in 5 rfl _).trans (Function.update_of_ne (show (Proc.devRef .tc main_v64 : DevRef τ sig) ≠ Proc.devRef .tc main_v65 from by decide) (outs m 19 main_v65 c) (V18 m (outs m) c)).symm
  | ⟨6, _⟩ => exact (outs8_6 m c).symm.trans (Function.update_self (Proc.devRef .tc main_v65 : DevRef τ sig) (outs m 19 main_v65 c) (V18 m (outs m) c)).symm

set_option maxRecDepth 400000 in
set_option maxHeartbeats 2000000 in
/-- Every other buffer holds at the exit what it held at the entry. -/
theorem hrest8 (c : Dev nD) : ∀ b, b ∉ Finset.univ.image (Pipeline.arrRef spec8) → asV (V19 m (outs m)) c b = asV (V18 m (outs m)) c b := fun b hb => by
  have h6 : (Proc.devRef .tc b : DevRef τ sig) ≠ Proc.devRef .tc main_v65 := fun e => hb (Finset.mem_image.mpr ⟨6, Finset.mem_univ _, (Proc.devRef_injective _ e).symm⟩)
  exact Function.update_of_ne h6 (outs m 19 main_v65 c) (V18 m (outs m) c)

set_option maxRecDepth 400000 in
set_option maxHeartbeats 2000000 in
set_option backward.isDefEq.respectTransparency.types false in
/-- Region 8 as a segment: entered from the buffers at the valuation before it, left at the one after it; its arrays split
    out of the buffers at entry and put back at exit; the generator register through the invariant; nothing owed. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (asV (V18 m (outs m))) c).loose
  hwaits := Pipeline.hwaits_of_owed_zero _ _ _ _ L lv 8 fun _ _ => rfl
  pre c := iprop(StableHlo.held (c : Thread nD τ) (Pipeline.ucRefs τ sig) (V18 m (outs m) c) ∗ R c)
  post c := iprop(StableHlo.held (c : Thread nD τ) (Pipeline.ucRefs τ sig) (V19 m (outs m) c) ∗ R c)
  X c := iprop(∃ r, prngReg c r)
  Y c := iprop(∃ r, prngReg c r)
  Z c := Pipeline.unscopedRest (Ix := Unit) (Name := ℕ) (U := UR sig nD τ) (Lvl := ℕ) spec8 c (asV (V18 m (outs m)) c)
  hentry c := by
    rw [Pipeline.ownSems0_none]
    have hsplit := Pipeline.arrays_of_unscopedBufs (p := 8) (pcfgs (F := F)) adm (pdats m) launch8.win launch8.arr_whole c
      ((pdats m 8 c).share_full fun _ => rfl) (asV (V18 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (asV (V18 m (outs m)) c) (asV (V19 m (outs m)) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR9.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 9 -/

set_option maxRecDepth 400000 in
set_option maxHeartbeats 2000000 in
/-- What region 9 leaves in main_v89. -/
theorem outs9_3 (c : Dev nD) : outs m 21 main_v89 c = (pdats m 9 c).arrAt 3 cfg9.N := by
  rw [outs_at9 m main_v89 c]
  unfold o9
  rw [if_pos rfl]
  rw [Function.update_self]
  show (dat9 (asV (V20 m (o8 m))) c).arrAt 3 cfg9.N = (dat9 (asV (V20 m (outs m))) c).arrAt 3 cfg9.N
  rw [Vin9]

set_option maxRecDepth 400000 in
set_option maxHeartbeats 2000000 in
/-- At region 9's exit each of its arrays holds what the pipeline leaves. -/
theorem hF9 (c : Dev nD) (w : Fin cfg9.W) : (pdats m 9 c).arrAt w cfg9.N = asV (V21 m (outs m)) c (Pipeline.arrRef spec9 w) := by
  match w with
  | ⟨0, _⟩ => exact ((pdats m 9 c).arrAt_in 0 rfl _).trans (Function.update_of_ne (show (Proc.devRef .tc main_v65 : DevRef τ sig) ≠ Proc.devRef .tc main_v89 from by decide) (outs m 21 main_v89 c) (V20 m (outs m) c)).symm
  | ⟨1, _⟩ => exact ((pdats m 9 c).arrAt_in 1 rfl _).trans (Function.update_of_ne (show (Proc.devRef .tc main_v78 : DevRef τ sig) ≠ Proc.devRef .tc main_v89 from by decide) (outs m 21 main_v89 c) (V20 m (outs m) c)).symm
  | ⟨2, _⟩ => exact ((pdats m 9 c).arrAt_in 2 rfl _).trans (Function.update_of_ne (show (Proc.devRef .tc main_v88 : DevRef τ sig) ≠ Proc.devRef .tc main_v89 from by decide) (outs m 21 main_v89 c) (V20 m (outs m) c)).symm
  | ⟨3, _⟩ => exact (outs9_3 m c).symm.trans (Function.update_self (Proc.devRef .tc main_v89 : DevRef τ sig) (outs m 21 main_v89 c) (V20 m (outs m) c)).symm

set_option maxRecDepth 400000 in
set_option maxHeartbeats 2000000 in
/-- Every other buffer holds at the exit what it held at the entry. -/
theorem hrest9 (c : Dev nD) : ∀ b, b ∉ Finset.univ.image (Pipeline.arrRef spec9) → asV (V21 m (outs m)) c b = asV (V20 m (outs m)) c b := fun b hb => by
  have h3 : (Proc.devRef .tc b : DevRef τ sig) ≠ Proc.devRef .tc main_v89 := fun e => hb (Finset.mem_image.mpr ⟨3, Finset.mem_univ _, (Proc.devRef_injective _ e).symm⟩)
  exact Function.update_of_ne h3 (outs m 21 main_v89 c) (V20 m (outs m) c)

set_option maxRecDepth 400000 in
set_option maxHeartbeats 2000000 in
set_option backward.isDefEq.respectTransparency.types false in
/-- Region 9 as a segment: entered from the buffers at the valuation before it, left at the one after it; its arrays split
    out of the buffers at entry and put back at exit; the generator register through the invariant; nothing owed. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (asV (V20 m (outs m))) c).loose
  hwaits := Pipeline.hwaits_of_owed_zero _ _ _ _ L lv 9 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec9 c (asV (V20 m (outs m)) c)
  hentry c := by
    rw [Pipeline.ownSems0_none]
    have hsplit := Pipeline.arrays_of_unscopedBufs (p := 9) (pcfgs (F := F)) adm (pdats m) launch9.win launch9.arr_whole c
      ((pdats m 9 c).share_full fun _ => rfl) (asV (V20 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (asV (V20 m (outs m)) c) (asV (V21 m (outs m)) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR10.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 10 -/

set_option maxRecDepth 400000 in
set_option maxHeartbeats 2000000 in
/-- What region 10 leaves in main_v99. -/
theorem outs10_3 (c : Dev nD) : outs m 23 main_v99 c = (pdats m 10 c).arrAt 3 cfg10.N := by
  rw [outs_at10 m main_v99 c]
  unfold o10
  rw [if_pos rfl]
  rw [Function.update_self]
  show (dat10 (asV (V22 m (o9 m))) c).arrAt 3 cfg10.N = (dat10 (asV (V22 m (outs m))) c).arrAt 3 cfg10.N
  rw [Vin10]

set_option maxRecDepth 400000 in
set_option maxHeartbeats 2000000 in
/-- At region 10's exit each of its arrays holds what the pipeline leaves. -/
theorem hF10 (c : Dev nD) (w : Fin cfg10.W) : (pdats m 10 c).arrAt w cfg10.N = asV (V23 m (outs m)) c (Pipeline.arrRef spec10 w) := by
  match w with
  | ⟨0, _⟩ => exact ((pdats m 10 c).arrAt_in 0 rfl _).trans (Function.update_of_ne (show (Proc.devRef .tc main_v53 : DevRef τ sig) ≠ Proc.devRef .tc main_v99 from by decide) (outs m 23 main_v99 c) (V22 m (outs m) c)).symm
  | ⟨1, _⟩ => exact ((pdats m 10 c).arrAt_in 1 rfl _).trans (Function.update_of_ne (show (Proc.devRef .tc main_v95 : DevRef τ sig) ≠ Proc.devRef .tc main_v99 from by decide) (outs m 23 main_v99 c) (V22 m (outs m) c)).symm
  | ⟨2, _⟩ => exact ((pdats m 10 c).arrAt_in 2 rfl _).trans (Function.update_of_ne (show (Proc.devRef .tc main_v98 : DevRef τ sig) ≠ Proc.devRef .tc main_v99 from by decide) (outs m 23 main_v99 c) (V22 m (outs m) c)).symm
  | ⟨3, _⟩ => exact (outs10_3 m c).symm.trans (Function.update_self (Proc.devRef .tc main_v99 : DevRef τ sig) (outs m 23 main_v99 c) (V22 m (outs m) c)).symm

set_option maxRecDepth 400000 in
set_option maxHeartbeats 2000000 in
/-- Every other buffer holds at the exit what it held at the entry. -/
theorem hrest10 (c : Dev nD) : ∀ b, b ∉ Finset.univ.image (Pipeline.arrRef spec10) → asV (V23 m (outs m)) c b = asV (V22 m (outs m)) c b := fun b hb => by
  have h3 : (Proc.devRef .tc b : DevRef τ sig) ≠ Proc.devRef .tc main_v99 := fun e => hb (Finset.mem_image.mpr ⟨3, Finset.mem_univ _, (Proc.devRef_injective _ e).symm⟩)
  exact Function.update_of_ne h3 (outs m 23 main_v99 c) (V22 m (outs m) c)

set_option maxRecDepth 400000 in
set_option maxHeartbeats 2000000 in
set_option backward.isDefEq.respectTransparency.types false in
/-- Region 10 as a segment: entered from the buffers at the valuation before it, left at the one after it; its arrays split
    out of the buffers at entry and put back at exit; the generator register through the invariant; nothing owed. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (asV (V22 m (outs m))) c).loose
  hwaits := Pipeline.hwaits_of_owed_zero _ _ _ _ L lv 10 fun _ _ => rfl
  pre c := iprop(StableHlo.held (c : Thread nD τ) (Pipeline.ucRefs τ sig) (V22 m (outs m) c) ∗ R c)
  post c := iprop(StableHlo.held (c : Thread nD τ) (Pipeline.ucRefs τ sig) (V23 m (outs m) c) ∗ R c)
  X c := iprop(∃ r, prngReg c r)
  Y c := iprop(∃ r, prngReg c r)
  Z c := Pipeline.unscopedRest (Ix := Unit) (Name := ℕ) (U := UR sig nD τ) (Lvl := ℕ) spec10 c (asV (V22 m (outs m)) c)
  hentry c := by
    rw [Pipeline.ownSems0_none]
    have hsplit := Pipeline.arrays_of_unscopedBufs (p := 10) (pcfgs (F := F)) adm (pdats m) launch10.win launch10.arr_whole c
      ((pdats m 10 c).share_full fun _ => rfl) (asV (V22 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (asV (V22 m (outs m)) c) (asV (V23 m (outs m)) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR11.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 11 -/

set_option maxRecDepth 400000 in
set_option maxHeartbeats 2000000 in
/-- What region 11 leaves in main_v103_0. -/
theorem outs11_4 (c : Dev nD) : outs m 27 main_v103_0 c = (pdats m 11 c).arrAt 4 cfg11.N := by
  rw [outs_at11 m main_v103_0 c]
  unfold o11
  rw [if_pos rfl]
  rw [Function.update_of_ne (show (Proc.devRef .tc main_v103_0 : DevRef τ sig) ≠ Proc.devRef .tc main_v103_1 from by decide)]
  rw [Function.update_self]
  show (dat11 (asV (V26 m (o10 m))) c).arrAt 4 cfg11.N = (dat11 (asV (V26 m (outs m))) c).arrAt 4 cfg11.N
  rw [Vin11]

set_option maxRecDepth 400000 in
set_option maxHeartbeats 2000000 in
/-- What region 11 leaves in main_v103_1. -/
theorem outs11_5 (c : Dev nD) : outs m 27 main_v103_1 c = (pdats m 11 c).arrAt 5 cfg11.N := by
  rw [outs_at11 m main_v103_1 c]
  unfold o11
  rw [if_pos rfl]
  rw [Function.update_self]
  show (dat11 (asV (V26 m (o10 m))) c).arrAt 5 cfg11.N = (dat11 (asV (V26 m (outs m))) c).arrAt 5 cfg11.N
  rw [Vin11]

set_option maxRecDepth 400000 in
set_option maxHeartbeats 2000000 in
/-- At region 11's exit each of its arrays holds what the pipeline leaves. -/
theorem hF11 (c : Dev nD) (w : Fin cfg11.W) : (pdats m 11 c).arrAt w cfg11.N = asV (V27 m (outs m)) c (Pipeline.arrRef spec11 w) := by
  match w with
  | ⟨0, _⟩ => exact ((pdats m 11 c).arrAt_in 0 rfl _).trans ((Function.update_of_ne (show (Proc.devRef .tc main_v99 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v99 : DevRef τ sig) ≠ Proc.devRef .tc main_v103_0 from by decide) (outs m 27 main_v103_0 c) (V26 m (outs m) c))).symm
  | ⟨1, _⟩ => exact ((pdats m 11 c).arrAt_in 1 rfl _).trans ((Function.update_of_ne (show (Proc.devRef .tc main_v100 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v100 : DevRef τ sig) ≠ Proc.devRef .tc main_v103_0 from by decide) (outs m 27 main_v103_0 c) (V26 m (outs m) c))).symm
  | ⟨2, _⟩ => exact ((pdats m 11 c).arrAt_in 2 rfl _).trans ((Function.update_of_ne (show (Proc.devRef .tc main_v101 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v101 : DevRef τ sig) ≠ Proc.devRef .tc main_v103_0 from by decide) (outs m 27 main_v103_0 c) (V26 m (outs m) c))).symm
  | ⟨3, _⟩ => exact ((pdats m 11 c).arrAt_in 3 rfl _).trans ((Function.update_of_ne (show (Proc.devRef .tc main_v102 : DevRef τ sig) ≠ Proc.devRef .tc main_v103_1 from by decide) (outs m 27 main_v103_1 c) (Function.update (V26 m (outs m) c) (Proc.devRef .tc main_v103_0 : DevRef τ sig) (outs m 27 main_v103_0 c))).trans (Function.update_of_ne (show (Proc.devRef .tc main_v102 : DevRef τ sig) ≠ Proc.devRef .tc main_v103_0 from by decide) (outs m 27 main_v103_0 c) (V26 m (outs m) c))).symm
  | ⟨4, _⟩ => exact (outs11_4 m c).symm.trans ((Function.update_of_ne (show (Proc.devRef .tc main_v103_0 : DevRef τ sig) ≠ Proc.devRef .tc main_v103_1 from by decide) (outs m 27 main_v103_1 c) (Function.update (V26 m (outs m) c) (Proc.devRef .tc main_v103_0 : DevRef τ sig) (outs m 27 main_v103_0 c))).trans (Function.update_self (Proc.devRef .tc main_v103_0 : DevRef τ sig) (outs m 27 main_v103_0 c) (V26 m (outs m) c))).symm
  | ⟨5, _⟩ => exact (outs11_5 m c).symm.trans (Function.update_self (Proc.devRef .tc main_v103_1 : DevRef τ sig) (outs m 27 main_v103_1 c) (Function.update (V26 m (outs m) c) (Proc.devRef .tc main_v103_0 : DevRef τ sig) (outs m 27 main_v103_0 c))).symm

set_option maxRecDepth 400000 in
set_option maxHeartbeats 2000000 in
/-- Every other buffer holds at the exit what it held at the entry. -/
theorem hrest11 (c : Dev nD) : ∀ b, b ∉ Finset.univ.image (Pipeline.arrRef spec11) → asV (V27 m (outs m)) c b = asV (V26 m (outs m)) c b := fun b hb => by
  have h4 : (Proc.devRef .tc b : DevRef τ sig) ≠ Proc.devRef .tc main_v103_0 := fun e => hb (Finset.mem_image.mpr ⟨4, Finset.mem_univ _, (Proc.devRef_injective _ e).symm⟩)
  have h5 : (Proc.devRef .tc b : DevRef τ sig) ≠ Proc.devRef .tc main_v103_1 := fun e => hb (Finset.mem_image.mpr ⟨5, Finset.mem_univ _, (Proc.devRef_injective _ e).symm⟩)
  exact (Function.update_of_ne h5 (outs m 27 main_v103_1 c) (Function.update (V26 m (outs m) c) (Proc.devRef .tc main_v103_0 : DevRef τ sig) (outs m 27 main_v103_0 c))).trans (Function.update_of_ne h4 (outs m 27 main_v103_0 c) (V26 m (outs m) c))

set_option maxRecDepth 400000 in
set_option maxHeartbeats 2000000 in
set_option backward.isDefEq.respectTransparency.types false in
/-- Region 11 as a segment: entered from the buffers at the valuation before it, left at the one after it; its arrays split
    out of the buffers at entry and put back at exit; the generator register through the invariant; nothing owed. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (asV (V26 m (outs m))) c).loose
  hwaits := Pipeline.hwaits_of_owed_zero _ _ _ _ L lv 11 fun _ _ => rfl
  pre c := iprop(StableHlo.held (c : Thread nD τ) (Pipeline.ucRefs τ sig) (V26 m (outs m) c) ∗ R c)
  post c := iprop(StableHlo.held (c : Thread nD τ) (Pipeline.ucRefs τ sig) (V27 m (outs m) c) ∗ R c)
  X c := iprop(∃ r, prngReg c r)
  Y c := iprop(∃ r, prngReg c r)
  Z c := Pipeline.unscopedRest (Ix := Unit) (Name := ℕ) (U := UR sig nD τ) (Lvl := ℕ) spec11 c (asV (V26 m (outs m)) c)
  hentry c := by
    rw [Pipeline.ownSems0_none]
    have hsplit := Pipeline.arrays_of_unscopedBufs (p := 11) (pcfgs (F := F)) adm (pdats m) launch11.win launch11.arr_whole c
      ((pdats m 11 c).share_full fun _ => rfl) (asV (V26 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (asV (V26 m (outs m)) c) (asV (V27 m (outs m)) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR12.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 12 -/

set_option maxRecDepth 400000 in
set_option maxHeartbeats 2000000 in
/-- What region 12 leaves in main_v104_0. -/
theorem outs12_1 (c : Dev nD) : outs m 28 main_v104_0 c = (pdats m 12 c).arrAt 1 cfg12.N := by
  rw [outs_at12 m main_v104_0 c]
  unfold o12
  rw [if_pos rfl]
  rw [Function.update_of_ne (show (Proc.devRef .tc main_v104_0 : DevRef τ sig) ≠ Proc.devRef .tc main_v104_1 from by decide)]
  rw [Function.update_self]
  show (dat12 (asV (V27 m (o11 m))) c).arrAt 1 cfg12.N = (dat12 (asV (V27 m (outs m))) c).arrAt 1 cfg12.N
  rw [Vin12]

set_option maxRecDepth 400000 in
set_option maxHeartbeats 2000000 in
/-- What region 12 leaves in main_v104_1. -/
theorem outs12_2 (c : Dev nD) : outs m 28 main_v104_1 c = (pdats m 12 c).arrAt 2 cfg12.N := by
  rw [outs_at12 m main_v104_1 c]
  unfold o12
  rw [if_pos rfl]
  rw [Function.update_self]
  show (dat12 (asV (V27 m (o11 m))) c).arrAt 2 cfg12.N = (dat12 (asV (V27 m (outs m))) c).arrAt 2 cfg12.N
  rw [Vin12]

set_option maxRecDepth 400000 in
set_option maxHeartbeats 2000000 in
/-- At region 12's exit each of its arrays holds what the pipeline leaves. -/
theorem hF12 (c : Dev nD) (w : Fin cfg12.W) : (pdats m 12 c).arrAt w cfg12.N = asV (V28 m (outs m)) c (Pipeline.arrRef spec12 w) := by
  match w with
  | ⟨0, _⟩ => exact ((pdats m 12 c).arrAt_in 0 rfl _).trans ((Function.update_of_ne (show (Proc.devRef .tc main_v103_0 : DevRef τ sig) ≠ Proc.devRef .tc main_v104_1 from by decide) (outs m 28 main_v104_1 c) (Function.update (V27 m (outs m) c) (Proc.devRef .tc main_v104_0 : DevRef τ sig) (outs m 28 main_v104_0 c))).trans (Function.update_of_ne (show (Proc.devRef .tc main_v103_0 : DevRef τ sig) ≠ Proc.devRef .tc main_v104_0 from by decide) (outs m 28 main_v104_0 c) (V27 m (outs m) c))).symm
  | ⟨1, _⟩ => exact (outs12_1 m c).symm.trans ((Function.update_of_ne (show (Proc.devRef .tc main_v104_0 : DevRef τ sig) ≠ Proc.devRef .tc main_v104_1 from by decide) (outs m 28 main_v104_1 c) (Function.update (V27 m (outs m) c) (Proc.devRef .tc main_v104_0 : DevRef τ sig) (outs m 28 main_v104_0 c))).trans (Function.update_self (Proc.devRef .tc main_v104_0 : DevRef τ sig) (outs m 28 main_v104_0 c) (V27 m (outs m) c))).symm
  | ⟨2, _⟩ => exact (outs12_2 m c).symm.trans (Function.update_self (Proc.devRef .tc main_v104_1 : DevRef τ sig) (outs m 28 main_v104_1 c) (Function.update (V27 m (outs m) c) (Proc.devRef .tc main_v104_0 : DevRef τ sig) (outs m 28 main_v104_0 c))).symm

set_option maxRecDepth 400000 in
set_option maxHeartbeats 2000000 in
/-- Every other buffer holds at the exit what it held at the entry. -/
theorem hrest12 (c : Dev nD) : ∀ b, b ∉ Finset.univ.image (Pipeline.arrRef spec12) → asV (V28 m (outs m)) c b = asV (V27 m (outs m)) c b := fun b hb => by
  have h1 : (Proc.devRef .tc b : DevRef τ sig) ≠ Proc.devRef .tc main_v104_0 := fun e => hb (Finset.mem_image.mpr ⟨1, Finset.mem_univ _, (Proc.devRef_injective _ e).symm⟩)
  have h2 : (Proc.devRef .tc b : DevRef τ sig) ≠ Proc.devRef .tc main_v104_1 := fun e => hb (Finset.mem_image.mpr ⟨2, Finset.mem_univ _, (Proc.devRef_injective _ e).symm⟩)
  exact (Function.update_of_ne h2 (outs m 28 main_v104_1 c) (Function.update (V27 m (outs m) c) (Proc.devRef .tc main_v104_0 : DevRef τ sig) (outs m 28 main_v104_0 c))).trans (Function.update_of_ne h1 (outs m 28 main_v104_0 c) (V27 m (outs m) c))

set_option maxRecDepth 400000 in
set_option maxHeartbeats 2000000 in
set_option backward.isDefEq.respectTransparency.types false in
/-- Region 12 as a segment: entered from the buffers at the valuation before it, left at the one after it; its arrays split
    out of the buffers at entry and put back at exit; the generator register through the invariant; nothing owed. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (asV (V27 m (outs m))) c).loose
  hwaits := Pipeline.hwaits_of_owed_zero _ _ _ _ L lv 12 fun _ _ => rfl
  pre c := iprop(StableHlo.held (c : Thread nD τ) (Pipeline.ucRefs τ sig) (V27 m (outs m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec12 c (asV (V27 m (outs m)) c)
  hentry c := by
    rw [Pipeline.ownSems0_none]
    have hsplit := Pipeline.arrays_of_unscopedBufs (p := 12) (pcfgs (F := F)) adm (pdats m) launch12.win launch12.arr_whole c
      ((pdats m 12 c).share_full fun _ => rfl) (asV (V27 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat12 (asV (V27 m (outs m))) c).Φ 0
    iintro ⟨Hp, -, Hr⟩
    iapply (hin12 (asV (V27 m (outs m))) c)
    unfold X12
    isplitl [Hp]; · iexact Hp
    iexact Hr
  hout c := by
    rw [Pipeline.ownSems0_none]
    exact (hout12 (asV (V27 m (outs m))) c).trans (by
      unfold X12
      iintro ⟨Hp, Hr⟩
      isplitl [Hp]; · iexact Hp
      isplitr; · iempintro
      iexact Hr)
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (asV (V27 m (outs m)) c) (asV (V28 m (outs m)) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR13.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 13 -/

set_option maxRecDepth 400000 in
set_option maxHeartbeats 2000000 in
/-- What region 13 leaves in main_v111. -/
theorem outs13_6 (c : Dev nD) : outs m 30 main_v111 c = (pdats m 13 c).arrAt 6 cfg13.N := by
  rw [outs_at13 m main_v111 c]
  unfold o13
  rw [if_pos rfl]
  rw [Function.update_self]
  show (dat13 (asV (V29 m (o12 m))) c).arrAt 6 cfg13.N = (dat13 (asV (V29 m (outs m))) c).arrAt 6 cfg13.N
  rw [Vin13]

set_option maxRecDepth 400000 in
set_option maxHeartbeats 2000000 in
/-- At region 13's exit each of its arrays holds what the pipeline leaves. -/
theorem hF13 (c : Dev nD) (w : Fin cfg13.W) : (pdats m 13 c).arrAt w cfg13.N = asV (V30 m (outs m)) c (Pipeline.arrRef spec13 w) := by
  match w with
  | ⟨0, _⟩ => exact ((pdats m 13 c).arrAt_in 0 rfl _).trans (Function.update_of_ne (show (Proc.devRef .tc main_v103_0 : DevRef τ sig) ≠ Proc.devRef .tc main_v111 from by decide) (outs m 30 main_v111 c) (V29 m (outs m) c)).symm
  | ⟨1, _⟩ => exact ((pdats m 13 c).arrAt_in 1 rfl _).trans (Function.update_of_ne (show (Proc.devRef .tc main_v53 : DevRef τ sig) ≠ Proc.devRef .tc main_v111 from by decide) (outs m 30 main_v111 c) (V29 m (outs m) c)).symm
  | ⟨2, _⟩ => exact ((pdats m 13 c).arrAt_in 2 rfl _).trans (Function.update_of_ne (show (Proc.devRef .tc main_v104_0 : DevRef τ sig) ≠ Proc.devRef .tc main_v111 from by decide) (outs m 30 main_v111 c) (V29 m (outs m) c)).symm
  | ⟨3, _⟩ => exact ((pdats m 13 c).arrAt_in 3 rfl _).trans (Function.update_of_ne (show (Proc.devRef .tc main_v104_1 : DevRef τ sig) ≠ Proc.devRef .tc main_v111 from by decide) (outs m 30 main_v111 c) (V29 m (outs m) c)).symm
  | ⟨4, _⟩ => exact ((pdats m 13 c).arrAt_in 4 rfl _).trans (Function.update_of_ne (show (Proc.devRef .tc main_v107 : DevRef τ sig) ≠ Proc.devRef .tc main_v111 from by decide) (outs m 30 main_v111 c) (V29 m (outs m) c)).symm
  | ⟨5, _⟩ => exact ((pdats m 13 c).arrAt_in 5 rfl _).trans (Function.update_of_ne (show (Proc.devRef .tc main_v110 : DevRef τ sig) ≠ Proc.devRef .tc main_v111 from by decide) (outs m 30 main_v111 c) (V29 m (outs m) c)).symm
  | ⟨6, _⟩ => exact (outs13_6 m c).symm.trans (Function.update_self (Proc.devRef .tc main_v111 : DevRef τ sig) (outs m 30 main_v111 c) (V29 m (outs m) c)).symm

set_option maxRecDepth 400000 in
set_option maxHeartbeats 2000000 in
/-- Every other buffer holds at the exit what it held at the entry. -/
theorem hrest13 (c : Dev nD) : ∀ b, b ∉ Finset.univ.image (Pipeline.arrRef spec13) → asV (V30 m (outs m)) c b = asV (V29 m (outs m)) c b := fun b hb => by
  have h6 : (Proc.devRef .tc b : DevRef τ sig) ≠ Proc.devRef .tc main_v111 := fun e => hb (Finset.mem_image.mpr ⟨6, Finset.mem_univ _, (Proc.devRef_injective _ e).symm⟩)
  exact Function.update_of_ne h6 (outs m 30 main_v111 c) (V29 m (outs m) c)

set_option maxRecDepth 400000 in
set_option maxHeartbeats 2000000 in
set_option backward.isDefEq.respectTransparency.types false in
/-- Region 13 as a segment: entered from the buffers at the valuation before it, left at the one after it; its arrays split
    out of the buffers at entry and put back at exit; the generator register through the invariant; nothing owed. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (asV (V29 m (outs m))) c).loose
  hwaits := Pipeline.hwaits_of_owed_zero _ _ _ _ L lv 13 fun _ _ => rfl
  pre c := iprop(StableHlo.held (c : Thread nD τ) (Pipeline.ucRefs τ sig) (V29 m (outs m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec13 c (asV (V29 m (outs m)) c)
  hentry c := by
    rw [Pipeline.ownSems0_none]
    have hsplit := Pipeline.arrays_of_unscopedBufs (p := 13) (pcfgs (F := F)) adm (pdats m) launch13.win launch13.arr_whole c
      ((pdats m 13 c).share_full fun _ => rfl) (asV (V29 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (asV (V29 m (outs m)) c) (asV (V30 m (outs m)) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR14.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 14 -/

set_option maxRecDepth 400000 in
set_option maxHeartbeats 2000000 in
/-- What region 14 leaves in main_v116_0. -/
theorem outs14_1 (c : Dev nD) : outs m 32 main_v116_0 c = (pdats m 14 c).arrAt 1 cfg14.N := by
  rw [outs_at14 m main_v116_0 c]
  unfold o14
  rw [if_pos rfl]
  rw [Function.update_of_ne (show (Proc.devRef .tc main_v116_0 : DevRef τ sig) ≠ Proc.devRef .tc main_v116_1 from by decide)]
  rw [Function.update_self]
  show (dat14 (asV (V31 m (o13 m))) c).arrAt 1 cfg14.N = (dat14 (asV (V31 m (outs m))) c).arrAt 1 cfg14.N
  rw [Vin14]

set_option maxRecDepth 400000 in
set_option maxHeartbeats 2000000 in
/-- What region 14 leaves in main_v116_1. -/
theorem outs14_2 (c : Dev nD) : outs m 32 main_v116_1 c = (pdats m 14 c).arrAt 2 cfg14.N := by
  rw [outs_at14 m main_v116_1 c]
  unfold o14
  rw [if_pos rfl]
  rw [Function.update_self]
  show (dat14 (asV (V31 m (o13 m))) c).arrAt 2 cfg14.N = (dat14 (asV (V31 m (outs m))) c).arrAt 2 cfg14.N
  rw [Vin14]

set_option maxRecDepth 400000 in
set_option maxHeartbeats 2000000 in
/-- At region 14's exit each of its arrays holds what the pipeline leaves. -/
theorem hF14 (c : Dev nD) (w : Fin cfg14.W) : (pdats m 14 c).arrAt w cfg14.N = asV (V32 m (outs m)) c (Pipeline.arrRef spec14 w) := by
  match w with
  | ⟨0, _⟩ => exact ((pdats m 14 c).arrAt_in 0 rfl _).trans ((Function.update_of_ne (show (Proc.devRef .tc main_v115 : DevRef τ sig) ≠ Proc.devRef .tc main_v116_1 from by decide) (outs m 32 main_v116_1 c) (Function.update (V31 m (outs m) c) (Proc.devRef .tc main_v116_0 : DevRef τ sig) (outs m 32 main_v116_0 c))).trans (Function.update_of_ne (show (Proc.devRef .tc main_v115 : DevRef τ sig) ≠ Proc.devRef .tc main_v116_0 from by decide) (outs m 32 main_v116_0 c) (V31 m (outs m) c))).symm
  | ⟨1, _⟩ => exact (outs14_1 m c).symm.trans ((Function.update_of_ne (show (Proc.devRef .tc main_v116_0 : DevRef τ sig) ≠ Proc.devRef .tc main_v116_1 from by decide) (outs m 32 main_v116_1 c) (Function.update (V31 m (outs m) c) (Proc.devRef .tc main_v116_0 : DevRef τ sig) (outs m 32 main_v116_0 c))).trans (Function.update_self (Proc.devRef .tc main_v116_0 : DevRef τ sig) (outs m 32 main_v116_0 c) (V31 m (outs m) c))).symm
  | ⟨2, _⟩ => exact (outs14_2 m c).symm.trans (Function.update_self (Proc.devRef .tc main_v116_1 : DevRef τ sig) (outs m 32 main_v116_1 c) (Function.update (V31 m (outs m) c) (Proc.devRef .tc main_v116_0 : DevRef τ sig) (outs m 32 main_v116_0 c))).symm

set_option maxRecDepth 400000 in
set_option maxHeartbeats 2000000 in
/-- Every other buffer holds at the exit what it held at the entry. -/
theorem hrest14 (c : Dev nD) : ∀ b, b ∉ Finset.univ.image (Pipeline.arrRef spec14) → asV (V32 m (outs m)) c b = asV (V31 m (outs m)) c b := fun b hb => by
  have h1 : (Proc.devRef .tc b : DevRef τ sig) ≠ Proc.devRef .tc main_v116_0 := fun e => hb (Finset.mem_image.mpr ⟨1, Finset.mem_univ _, (Proc.devRef_injective _ e).symm⟩)
  have h2 : (Proc.devRef .tc b : DevRef τ sig) ≠ Proc.devRef .tc main_v116_1 := fun e => hb (Finset.mem_image.mpr ⟨2, Finset.mem_univ _, (Proc.devRef_injective _ e).symm⟩)
  exact (Function.update_of_ne h2 (outs m 32 main_v116_1 c) (Function.update (V31 m (outs m) c) (Proc.devRef .tc main_v116_0 : DevRef τ sig) (outs m 32 main_v116_0 c))).trans (Function.update_of_ne h1 (outs m 32 main_v116_0 c) (V31 m (outs m) c))

set_option maxRecDepth 400000 in
set_option maxHeartbeats 2000000 in
set_option backward.isDefEq.respectTransparency.types false in
/-- Region 14 as a segment: entered from the buffers at the valuation before it, left at the one after it; its arrays split
    out of the buffers at entry and put back at exit; the generator register through the invariant; nothing owed. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (asV (V31 m (outs m))) c).loose
  hwaits := Pipeline.hwaits_of_owed_zero _ _ _ _ L lv 14 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec14 c (asV (V31 m (outs m)) c)
  hentry c := by
    rw [Pipeline.ownSems0_none]
    have hsplit := Pipeline.arrays_of_unscopedBufs (p := 14) (pcfgs (F := F)) adm (pdats m) launch14.win launch14.arr_whole c
      ((pdats m 14 c).share_full fun _ => rfl) (asV (V31 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat14 (asV (V31 m (outs m))) c).Φ 0
    iintro ⟨Hp, -, Hr⟩
    iapply (hin14 (asV (V31 m (outs m))) c)
    unfold X14
    isplitl [Hp]; · iexact Hp
    iexact Hr
  hout c := by
    rw [Pipeline.ownSems0_none]
    exact (hout14 (asV (V31 m (outs m))) c).trans (by
      unfold X14
      iintro ⟨Hp, Hr⟩
      isplitl [Hp]; · iexact Hp
      isplitr; · iempintro
      iexact Hr)
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (asV (V31 m (outs m)) c) (asV (V32 m (outs m)) c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR15.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 15 -/

set_option maxRecDepth 400000 in
set_option maxHeartbeats 2000000 in
/-- What region 15 leaves in main_v123. -/
theorem outs15_6 (c : Dev nD) : outs m 34 main_v123 c = (pdats m 15 c).arrAt 6 cfg15.N := by
  rw [outs_at15 m main_v123 c]
  unfold o15
  rw [if_pos rfl]
  rw [Function.update_self]
  show (dat15 (asV (V33 m (o14 m))) c).arrAt 6 cfg15.N = (dat15 (asV (V33 m (outs m))) c).arrAt 6 cfg15.N
  rw [Vin15]

set_option maxRecDepth 400000 in
set_option maxHeartbeats 2000000 in
/-- At region 15's exit each of its arrays holds what the pipeline leaves. -/
theorem hF15 (c : Dev nD) (w : Fin cfg15.W) : (pdats m 15 c).arrAt w cfg15.N = asV (V34 m (outs m)) c (Pipeline.arrRef spec15 w) := by
  match w with
  | ⟨0, _⟩ => exact ((pdats m 15 c).arrAt_in 0 rfl _).trans (Function.update_of_ne (show (Proc.devRef .tc main_v115 : DevRef τ sig) ≠ Proc.devRef .tc main_v123 from by decide) (outs m 34 main_v123 c) (V33 m (outs m) c)).symm
  | ⟨1, _⟩ => exact ((pdats m 15 c).arrAt_in 1 rfl _).trans (Function.update_of_ne (show (Proc.devRef .tc main_v65 : DevRef τ sig) ≠ Proc.devRef .tc main_v123 from by decide) (outs m 34 main_v123 c) (V33 m (outs m) c)).symm
  | ⟨2, _⟩ => exact ((pdats m 15 c).arrAt_in 2 rfl _).trans (Function.update_of_ne (show (Proc.devRef .tc main_v116_0 : DevRef τ sig) ≠ Proc.devRef .tc main_v123 from by decide) (outs m 34 main_v123 c) (V33 m (outs m) c)).symm
  | ⟨3, _⟩ => exact ((pdats m 15 c).arrAt_in 3 rfl _).trans (Function.update_of_ne (show (Proc.devRef .tc main_v116_1 : DevRef τ sig) ≠ Proc.devRef .tc main_v123 from by decide) (outs m 34 main_v123 c) (V33 m (outs m) c)).symm
  | ⟨4, _⟩ => exact ((pdats m 15 c).arrAt_in 4 rfl _).trans (Function.update_of_ne (show (Proc.devRef .tc main_v119 : DevRef τ sig) ≠ Proc.devRef .tc main_v123 from by decide) (outs m 34 main_v123 c) (V33 m (outs m) c)).symm
  | ⟨5, _⟩ => exact ((pdats m 15 c).arrAt_in 5 rfl _).trans (Function.update_of_ne (show (Proc.devRef .tc main_v122 : DevRef τ sig) ≠ Proc.devRef .tc main_v123 from by decide) (outs m 34 main_v123 c) (V33 m (outs m) c)).symm
  | ⟨6, _⟩ => exact (outs15_6 m c).symm.trans (Function.update_self (Proc.devRef .tc main_v123 : DevRef τ sig) (outs m 34 main_v123 c) (V33 m (outs m) c)).symm

set_option maxRecDepth 400000 in
set_option maxHeartbeats 2000000 in
/-- Every other buffer holds at the exit what it held at the entry. -/
theorem hrest15 (c : Dev nD) : ∀ b, b ∉ Finset.univ.image (Pipeline.arrRef spec15) → asV (V34 m (outs m)) c b = asV (V33 m (outs m)) c b := fun b hb => by
  have h6 : (Proc.devRef .tc b : DevRef τ sig) ≠ Proc.devRef .tc main_v123 := fun e => hb (Finset.mem_image.mpr ⟨6, Finset.mem_univ _, (Proc.devRef_injective _ e).symm⟩)
  exact Function.update_of_ne h6 (outs m 34 main_v123 c) (V33 m (outs m) c)

set_option maxRecDepth 400000 in
set_option maxHeartbeats 2000000 in
set_option backward.isDefEq.respectTransparency.types false in
/-- Region 15 as a segment: entered from the buffers at the valuation before it, left at the one after it; its arrays split
    out of the buffers at entry and put back at exit; the generator register through the invariant; nothing owed. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (asV (V33 m (outs m))) c).loose
  hwaits := Pipeline.hwaits_of_owed_zero _ _ _ _ L lv 15 fun _ _ => rfl
  pre c := iprop(StableHlo.held (c : Thread nD τ) (Pipeline.ucRefs τ sig) (V33 m (outs m) c) ∗ R c)
  post c := iprop(StableHlo.held (c : Thread nD τ) (Pipeline.ucRefs τ sig) (V34 m (outs m) c) ∗ R c)
  X c := iprop(∃ r, prngReg c r)
  Y c := iprop(∃ r, prngReg c r)
  Z c := Pipeline.unscopedRest (Ix := Unit) (Name := ℕ) (U := UR sig nD τ) (Lvl := ℕ) spec15 c (asV (V33 m (outs m)) c)
  hentry c := by
    rw [Pipeline.ownSems0_none]
    have hsplit := Pipeline.arrays_of_unscopedBufs (p := 15) (pcfgs (F := F)) adm (pdats m) launch15.win launch15.arr_whole c
      ((pdats m 15 c).share_full fun _ => rfl) (asV (V33 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (asV (V33 m (outs m)) c) (asV (V34 m (outs m)) c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR16.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 16 -/

set_option maxRecDepth 400000 in
set_option maxHeartbeats 2000000 in
/-- What region 16 leaves in main_v147. -/
theorem outs16_3 (c : Dev nD) : outs m 36 main_v147 c = (pdats m 16 c).arrAt 3 cfg16.N := by
  rw [outs_at16 m main_v147 c]
  unfold o16
  rw [if_pos rfl]
  rw [Function.update_self]
  show (dat16 (asV (V35 m (o15 m))) c).arrAt 3 cfg16.N = (dat16 (asV (V35 m (outs m))) c).arrAt 3 cfg16.N
  rw [Vin16]

set_option maxRecDepth 400000 in
set_option maxHeartbeats 2000000 in
/-- At region 16's exit each of its arrays holds what the pipeline leaves. -/
theorem hF16 (c : Dev nD) (w : Fin cfg16.W) : (pdats m 16 c).arrAt w cfg16.N = asV (V36 m (outs m)) c (Pipeline.arrRef spec16 w) := by
  match w with
  | ⟨0, _⟩ => exact ((pdats m 16 c).arrAt_in 0 rfl _).trans (Function.update_of_ne (show (Proc.devRef .tc main_v123 : DevRef τ sig) ≠ Proc.devRef .tc main_v147 from by decide) (outs m 36 main_v147 c) (V35 m (outs m) c)).symm
  | ⟨1, _⟩ => exact ((pdats m 16 c).arrAt_in 1 rfl _).trans (Function.update_of_ne (show (Proc.devRef .tc main_v136 : DevRef τ sig) ≠ Proc.devRef .tc main_v147 from by decide) (outs m 36 main_v147 c) (V35 m (outs m) c)).symm
  | ⟨2, _⟩ => exact ((pdats m 16 c).arrAt_in 2 rfl _).trans (Function.update_of_ne (show (Proc.devRef .tc main_v146 : DevRef τ sig) ≠ Proc.devRef .tc main_v147 from by decide) (outs m 36 main_v147 c) (V35 m (outs m) c)).symm
  | ⟨3, _⟩ => exact (outs16_3 m c).symm.trans (Function.update_self (Proc.devRef .tc main_v147 : DevRef τ sig) (outs m 36 main_v147 c) (V35 m (outs m) c)).symm

set_option maxRecDepth 400000 in
set_option maxHeartbeats 2000000 in
/-- Every other buffer holds at the exit what it held at the entry. -/
theorem hrest16 (c : Dev nD) : ∀ b, b ∉ Finset.univ.image (Pipeline.arrRef spec16) → asV (V36 m (outs m)) c b = asV (V35 m (outs m)) c b := fun b hb => by
  have h3 : (Proc.devRef .tc b : DevRef τ sig) ≠ Proc.devRef .tc main_v147 := fun e => hb (Finset.mem_image.mpr ⟨3, Finset.mem_univ _, (Proc.devRef_injective _ e).symm⟩)
  exact Function.update_of_ne h3 (outs m 36 main_v147 c) (V35 m (outs m) c)

set_option maxRecDepth 400000 in
set_option maxHeartbeats 2000000 in
set_option backward.isDefEq.respectTransparency.types false in
/-- Region 16 as a segment: entered from the buffers at the valuation before it, left at the one after it; its arrays split
    out of the buffers at entry and put back at exit; the generator register through the invariant; nothing owed. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (asV (V35 m (outs m))) c).loose
  hwaits := Pipeline.hwaits_of_owed_zero _ _ _ _ L lv 16 fun _ _ => rfl
  pre c := iprop(StableHlo.held (c : Thread nD τ) (Pipeline.ucRefs τ sig) (V35 m (outs m) c) ∗ R c)
  post c := iprop(StableHlo.held (c : Thread nD τ) (Pipeline.ucRefs τ sig) (V36 m (outs m) c) ∗ R c)
  X c := iprop(∃ r, prngReg c r)
  Y c := iprop(∃ r, prngReg c r)
  Z c := Pipeline.unscopedRest (Ix := Unit) (Name := ℕ) (U := UR sig nD τ) (Lvl := ℕ) spec16 c (asV (V35 m (outs m)) c)
  hentry c := by
    rw [Pipeline.ownSems0_none]
    have hsplit := Pipeline.arrays_of_unscopedBufs (p := 16) (pcfgs (F := F)) adm (pdats m) launch16.win launch16.arr_whole c
      ((pdats m 16 c).share_full fun _ => rfl) (asV (V35 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (asV (V35 m (outs m)) c) (asV (V36 m (outs m)) c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR17.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 17 -/

set_option maxRecDepth 400000 in
set_option maxHeartbeats 2000000 in
/-- What region 17 leaves in main_v157. -/
theorem outs17_3 (c : Dev nD) : outs m 38 main_v157 c = (pdats m 17 c).arrAt 3 cfg17.N := by
  rw [outs_at17 m main_v157 c]
  unfold o17
  rw [if_pos rfl]
  rw [Function.update_self]
  show (dat17 (asV (V37 m (o16 m))) c).arrAt 3 cfg17.N = (dat17 (asV (V37 m (outs m))) c).arrAt 3 cfg17.N
  rw [Vin17]

set_option maxRecDepth 400000 in
set_option maxHeartbeats 2000000 in
/-- At region 17's exit each of its arrays holds what the pipeline leaves. -/
theorem hF17 (c : Dev nD) (w : Fin cfg17.W) : (pdats m 17 c).arrAt w cfg17.N = asV (V38 m (outs m)) c (Pipeline.arrRef spec17 w) := by
  match w with
  | ⟨0, _⟩ => exact ((pdats m 17 c).arrAt_in 0 rfl _).trans (Function.update_of_ne (show (Proc.devRef .tc main_v111 : DevRef τ sig) ≠ Proc.devRef .tc main_v157 from by decide) (outs m 38 main_v157 c) (V37 m (outs m) c)).symm
  | ⟨1, _⟩ => exact ((pdats m 17 c).arrAt_in 1 rfl _).trans (Function.update_of_ne (show (Proc.devRef .tc main_v153 : DevRef τ sig) ≠ Proc.devRef .tc main_v157 from by decide) (outs m 38 main_v157 c) (V37 m (outs m) c)).symm
  | ⟨2, _⟩ => exact ((pdats m 17 c).arrAt_in 2 rfl _).trans (Function.update_of_ne (show (Proc.devRef .tc main_v156 : DevRef τ sig) ≠ Proc.devRef .tc main_v157 from by decide) (outs m 38 main_v157 c) (V37 m (outs m) c)).symm
  | ⟨3, _⟩ => exact (outs17_3 m c).symm.trans (Function.update_self (Proc.devRef .tc main_v157 : DevRef τ sig) (outs m 38 main_v157 c) (V37 m (outs m) c)).symm

set_option maxRecDepth 400000 in
set_option maxHeartbeats 2000000 in
/-- Every other buffer holds at the exit what it held at the entry. -/
theorem hrest17 (c : Dev nD) : ∀ b, b ∉ Finset.univ.image (Pipeline.arrRef spec17) → asV (V38 m (outs m)) c b = asV (V37 m (outs m)) c b := fun b hb => by
  have h3 : (Proc.devRef .tc b : DevRef τ sig) ≠ Proc.devRef .tc main_v157 := fun e => hb (Finset.mem_image.mpr ⟨3, Finset.mem_univ _, (Proc.devRef_injective _ e).symm⟩)
  exact Function.update_of_ne h3 (outs m 38 main_v157 c) (V37 m (outs m) c)

set_option maxRecDepth 400000 in
set_option maxHeartbeats 2000000 in
set_option backward.isDefEq.respectTransparency.types false in
/-- Region 17 as a segment: entered from the buffers at the valuation before it, left at the one after it; its arrays split
    out of the buffers at entry and put back at exit; the generator register through the invariant; nothing owed. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (asV (V37 m (outs m))) c).loose
  hwaits := Pipeline.hwaits_of_owed_zero _ _ _ _ L lv 17 fun _ _ => rfl
  pre c := iprop(StableHlo.held (c : Thread nD τ) (Pipeline.ucRefs τ sig) (V37 m (outs m) c) ∗ R c)
  post c := iprop(StableHlo.held (c : Thread nD τ) (Pipeline.ucRefs τ sig) (V38 m (outs m) c) ∗ R c)
  X c := iprop(∃ r, prngReg c r)
  Y c := iprop(∃ r, prngReg c r)
  Z c := Pipeline.unscopedRest (Ix := Unit) (Name := ℕ) (U := UR sig nD τ) (Lvl := ℕ) spec17 c (asV (V37 m (outs m)) c)
  hentry c := by
    rw [Pipeline.ownSems0_none]
    have hsplit := Pipeline.arrays_of_unscopedBufs (p := 17) (pcfgs (F := F)) adm (pdats m) launch17.win launch17.arr_whole c
      ((pdats m 17 c).share_full fun _ => rfl) (asV (V37 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (asV (V37 m (outs m)) c) (asV (V38 m (outs m)) c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR18.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 18 -/

set_option maxRecDepth 400000 in
set_option maxHeartbeats 2000000 in
/-- What region 18 leaves in main_v161_0. -/
theorem outs18_4 (c : Dev nD) : outs m 42 main_v161_0 c = (pdats m 18 c).arrAt 4 cfg18.N := by
  rw [outs_at18 m main_v161_0 c]
  unfold o18
  rw [if_pos rfl]
  rw [Function.update_of_ne (show (Proc.devRef .tc main_v161_0 : DevRef τ sig) ≠ Proc.devRef .tc main_v161_1 from by decide)]
  rw [Function.update_self]
  show (dat18 (asV (V41 m (o17 m))) c).arrAt 4 cfg18.N = (dat18 (asV (V41 m (outs m))) c).arrAt 4 cfg18.N
  rw [Vin18]

set_option maxRecDepth 400000 in
set_option maxHeartbeats 2000000 in
/-- What region 18 leaves in main_v161_1. -/
theorem outs18_5 (c : Dev nD) : outs m 42 main_v161_1 c = (pdats m 18 c).arrAt 5 cfg18.N := by
  rw [outs_at18 m main_v161_1 c]
  unfold o18
  rw [if_pos rfl]
  rw [Function.update_self]
  show (dat18 (asV (V41 m (o17 m))) c).arrAt 5 cfg18.N = (dat18 (asV (V41 m (outs m))) c).arrAt 5 cfg18.N
  rw [Vin18]

set_option maxRecDepth 400000 in
set_option maxHeartbeats 2000000 in
/-- At region 18's exit each of its arrays holds what the pipeline leaves. -/
theorem hF18 (c : Dev nD) (w : Fin cfg18.W) : (pdats m 18 c).arrAt w cfg18.N = asV (V42 m (outs m)) c (Pipeline.arrRef spec18 w) := by
  match w with
  | ⟨0, _⟩ => exact ((pdats m 18 c).arrAt_in 0 rfl _).trans ((Function.update_of_ne (show (Proc.devRef .tc main_v157 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v157 : DevRef τ sig) ≠ Proc.devRef .tc main_v161_0 from by decide) (outs m 42 main_v161_0 c) (V41 m (outs m) c))).symm
  | ⟨1, _⟩ => exact ((pdats m 18 c).arrAt_in 1 rfl _).trans ((Function.update_of_ne (show (Proc.devRef .tc main_v158 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v158 : DevRef τ sig) ≠ Proc.devRef .tc main_v161_0 from by decide) (outs m 42 main_v161_0 c) (V41 m (outs m) c))).symm
  | ⟨2, _⟩ => exact ((pdats m 18 c).arrAt_in 2 rfl _).trans ((Function.update_of_ne (show (Proc.devRef .tc main_v159 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v159 : DevRef τ sig) ≠ Proc.devRef .tc main_v161_0 from by decide) (outs m 42 main_v161_0 c) (V41 m (outs m) c))).symm
  | ⟨3, _⟩ => exact ((pdats m 18 c).arrAt_in 3 rfl _).trans ((Function.update_of_ne (show (Proc.devRef .tc main_v160 : DevRef τ sig) ≠ Proc.devRef .tc main_v161_1 from by decide) (outs m 42 main_v161_1 c) (Function.update (V41 m (outs m) c) (Proc.devRef .tc main_v161_0 : DevRef τ sig) (outs m 42 main_v161_0 c))).trans (Function.update_of_ne (show (Proc.devRef .tc main_v160 : DevRef τ sig) ≠ Proc.devRef .tc main_v161_0 from by decide) (outs m 42 main_v161_0 c) (V41 m (outs m) c))).symm
  | ⟨4, _⟩ => exact (outs18_4 m c).symm.trans ((Function.update_of_ne (show (Proc.devRef .tc main_v161_0 : DevRef τ sig) ≠ Proc.devRef .tc main_v161_1 from by decide) (outs m 42 main_v161_1 c) (Function.update (V41 m (outs m) c) (Proc.devRef .tc main_v161_0 : DevRef τ sig) (outs m 42 main_v161_0 c))).trans (Function.update_self (Proc.devRef .tc main_v161_0 : DevRef τ sig) (outs m 42 main_v161_0 c) (V41 m (outs m) c))).symm
  | ⟨5, _⟩ => exact (outs18_5 m c).symm.trans (Function.update_self (Proc.devRef .tc main_v161_1 : DevRef τ sig) (outs m 42 main_v161_1 c) (Function.update (V41 m (outs m) c) (Proc.devRef .tc main_v161_0 : DevRef τ sig) (outs m 42 main_v161_0 c))).symm

set_option maxRecDepth 400000 in
set_option maxHeartbeats 2000000 in
/-- Every other buffer holds at the exit what it held at the entry. -/
theorem hrest18 (c : Dev nD) : ∀ b, b ∉ Finset.univ.image (Pipeline.arrRef spec18) → asV (V42 m (outs m)) c b = asV (V41 m (outs m)) c b := fun b hb => by
  have h4 : (Proc.devRef .tc b : DevRef τ sig) ≠ Proc.devRef .tc main_v161_0 := fun e => hb (Finset.mem_image.mpr ⟨4, Finset.mem_univ _, (Proc.devRef_injective _ e).symm⟩)
  have h5 : (Proc.devRef .tc b : DevRef τ sig) ≠ Proc.devRef .tc main_v161_1 := fun e => hb (Finset.mem_image.mpr ⟨5, Finset.mem_univ _, (Proc.devRef_injective _ e).symm⟩)
  exact (Function.update_of_ne h5 (outs m 42 main_v161_1 c) (Function.update (V41 m (outs m) c) (Proc.devRef .tc main_v161_0 : DevRef τ sig) (outs m 42 main_v161_0 c))).trans (Function.update_of_ne h4 (outs m 42 main_v161_0 c) (V41 m (outs m) c))

set_option maxRecDepth 400000 in
set_option maxHeartbeats 2000000 in
set_option backward.isDefEq.respectTransparency.types false in
/-- Region 18 as a segment: entered from the buffers at the valuation before it, left at the one after it; its arrays split
    out of the buffers at entry and put back at exit; the generator register through the invariant; nothing owed. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (asV (V41 m (outs m))) c).loose
  hwaits := Pipeline.hwaits_of_owed_zero _ _ _ _ L lv 18 fun _ _ => rfl
  pre c := iprop(StableHlo.held (c : Thread nD τ) (Pipeline.ucRefs τ sig) (V41 m (outs m) c) ∗ R c)
  post c := iprop(StableHlo.held (c : Thread nD τ) (Pipeline.ucRefs τ sig) (V42 m (outs m) c) ∗ R c)
  X c := iprop(∃ r, prngReg c r)
  Y c := iprop(∃ r, prngReg c r)
  Z c := Pipeline.unscopedRest (Ix := Unit) (Name := ℕ) (U := UR sig nD τ) (Lvl := ℕ) spec18 c (asV (V41 m (outs m)) c)
  hentry c := by
    rw [Pipeline.ownSems0_none]
    have hsplit := Pipeline.arrays_of_unscopedBufs (p := 18) (pcfgs (F := F)) adm (pdats m) launch18.win launch18.arr_whole c
      ((pdats m 18 c).share_full fun _ => rfl) (asV (V41 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (asV (V41 m (outs m)) c) (asV (V42 m (outs m)) c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR19.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 19 -/

set_option maxRecDepth 400000 in
set_option maxHeartbeats 2000000 in
/-- What region 19 leaves in main_v162_0. -/
theorem outs19_1 (c : Dev nD) : outs m 43 main_v162_0 c = (pdats m 19 c).arrAt 1 cfg19.N := by
  rw [outs_at19 m main_v162_0 c]
  unfold o19
  rw [if_pos rfl]
  rw [Function.update_of_ne (show (Proc.devRef .tc main_v162_0 : DevRef τ sig) ≠ Proc.devRef .tc main_v162_1 from by decide)]
  rw [Function.update_self]
  show (dat19 (asV (V42 m (o18 m))) c).arrAt 1 cfg19.N = (dat19 (asV (V42 m (outs m))) c).arrAt 1 cfg19.N
  rw [Vin19]

set_option maxRecDepth 400000 in
set_option maxHeartbeats 2000000 in
/-- What region 19 leaves in main_v162_1. -/
theorem outs19_2 (c : Dev nD) : outs m 43 main_v162_1 c = (pdats m 19 c).arrAt 2 cfg19.N := by
  rw [outs_at19 m main_v162_1 c]
  unfold o19
  rw [if_pos rfl]
  rw [Function.update_self]
  show (dat19 (asV (V42 m (o18 m))) c).arrAt 2 cfg19.N = (dat19 (asV (V42 m (outs m))) c).arrAt 2 cfg19.N
  rw [Vin19]

set_option maxRecDepth 400000 in
set_option maxHeartbeats 2000000 in
/-- At region 19's exit each of its arrays holds what the pipeline leaves. -/
theorem hF19 (c : Dev nD) (w : Fin cfg19.W) : (pdats m 19 c).arrAt w cfg19.N = asV (V43 m (outs m)) c (Pipeline.arrRef spec19 w) := by
  match w with
  | ⟨0, _⟩ => exact ((pdats m 19 c).arrAt_in 0 rfl _).trans ((Function.update_of_ne (show (Proc.devRef .tc main_v161_0 : DevRef τ sig) ≠ Proc.devRef .tc main_v162_1 from by decide) (outs m 43 main_v162_1 c) (Function.update (V42 m (outs m) c) (Proc.devRef .tc main_v162_0 : DevRef τ sig) (outs m 43 main_v162_0 c))).trans (Function.update_of_ne (show (Proc.devRef .tc main_v161_0 : DevRef τ sig) ≠ Proc.devRef .tc main_v162_0 from by decide) (outs m 43 main_v162_0 c) (V42 m (outs m) c))).symm
  | ⟨1, _⟩ => exact (outs19_1 m c).symm.trans ((Function.update_of_ne (show (Proc.devRef .tc main_v162_0 : DevRef τ sig) ≠ Proc.devRef .tc main_v162_1 from by decide) (outs m 43 main_v162_1 c) (Function.update (V42 m (outs m) c) (Proc.devRef .tc main_v162_0 : DevRef τ sig) (outs m 43 main_v162_0 c))).trans (Function.update_self (Proc.devRef .tc main_v162_0 : DevRef τ sig) (outs m 43 main_v162_0 c) (V42 m (outs m) c))).symm
  | ⟨2, _⟩ => exact (outs19_2 m c).symm.trans (Function.update_self (Proc.devRef .tc main_v162_1 : DevRef τ sig) (outs m 43 main_v162_1 c) (Function.update (V42 m (outs m) c) (Proc.devRef .tc main_v162_0 : DevRef τ sig) (outs m 43 main_v162_0 c))).symm

set_option maxRecDepth 400000 in
set_option maxHeartbeats 2000000 in
/-- Every other buffer holds at the exit what it held at the entry. -/
theorem hrest19 (c : Dev nD) : ∀ b, b ∉ Finset.univ.image (Pipeline.arrRef spec19) → asV (V43 m (outs m)) c b = asV (V42 m (outs m)) c b := fun b hb => by
  have h1 : (Proc.devRef .tc b : DevRef τ sig) ≠ Proc.devRef .tc main_v162_0 := fun e => hb (Finset.mem_image.mpr ⟨1, Finset.mem_univ _, (Proc.devRef_injective _ e).symm⟩)
  have h2 : (Proc.devRef .tc b : DevRef τ sig) ≠ Proc.devRef .tc main_v162_1 := fun e => hb (Finset.mem_image.mpr ⟨2, Finset.mem_univ _, (Proc.devRef_injective _ e).symm⟩)
  exact (Function.update_of_ne h2 (outs m 43 main_v162_1 c) (Function.update (V42 m (outs m) c) (Proc.devRef .tc main_v162_0 : DevRef τ sig) (outs m 43 main_v162_0 c))).trans (Function.update_of_ne h1 (outs m 43 main_v162_0 c) (V42 m (outs m) c))

set_option maxRecDepth 400000 in
set_option maxHeartbeats 2000000 in
set_option backward.isDefEq.respectTransparency.types false in
/-- Region 19 as a segment: entered from the buffers at the valuation before it, left at the one after it; its arrays split
    out of the buffers at entry and put back at exit; the generator register through the invariant; nothing owed. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (asV (V42 m (outs m))) c).loose
  hwaits := Pipeline.hwaits_of_owed_zero _ _ _ _ L lv 19 fun _ _ => rfl
  pre c := iprop(StableHlo.held (c : Thread nD τ) (Pipeline.ucRefs τ sig) (V42 m (outs m) c) ∗ R c)
  post c := iprop(StableHlo.held (c : Thread nD τ) (Pipeline.ucRefs τ sig) (V43 m (outs m) c) ∗ R c)
  X c := iprop(∃ r, prngReg c r)
  Y c := iprop(∃ r, prngReg c r)
  Z c := Pipeline.unscopedRest (Ix := Unit) (Name := ℕ) (U := UR sig nD τ) (Lvl := ℕ) spec19 c (asV (V42 m (outs m)) c)
  hentry c := by
    rw [Pipeline.ownSems0_none]
    have hsplit := Pipeline.arrays_of_unscopedBufs (p := 19) (pcfgs (F := F)) adm (pdats m) launch19.win launch19.arr_whole c
      ((pdats m 19 c).share_full fun _ => rfl) (asV (V42 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat19 (asV (V42 m (outs m))) c).Φ 0
    iintro ⟨Hp, -, Hr⟩
    iapply (hin19 (asV (V42 m (outs m))) c)
    unfold X19
    isplitl [Hp]; · iexact Hp
    iexact Hr
  hout c := by
    rw [Pipeline.ownSems0_none]
    exact (hout19 (asV (V42 m (outs m))) c).trans (by
      unfold X19
      iintro ⟨Hp, Hr⟩
      isplitl [Hp]; · iexact Hp
      isplitr; · iempintro
      iexact Hr)
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (asV (V42 m (outs m)) c) (asV (V43 m (outs m)) c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR20.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 20 -/

set_option maxRecDepth 400000 in
set_option maxHeartbeats 2000000 in
/-- What region 20 leaves in main_v169. -/
theorem outs20_6 (c : Dev nD) : outs m 45 main_v169 c = (pdats m 20 c).arrAt 6 cfg20.N := by
  rw [outs_at20 m main_v169 c]
  unfold o20
  rw [if_pos rfl]
  rw [Function.update_self]
  show (dat20 (asV (V44 m (o19 m))) c).arrAt 6 cfg20.N = (dat20 (asV (V44 m (outs m))) c).arrAt 6 cfg20.N
  rw [Vin20]

set_option maxRecDepth 400000 in
set_option maxHeartbeats 2000000 in
/-- At region 20's exit each of its arrays holds what the pipeline leaves. -/
theorem hF20 (c : Dev nD) (w : Fin cfg20.W) : (pdats m 20 c).arrAt w cfg20.N = asV (V45 m (outs m)) c (Pipeline.arrRef spec20 w) := by
  match w with
  | ⟨0, _⟩ => exact ((pdats m 20 c).arrAt_in 0 rfl _).trans (Function.update_of_ne (show (Proc.devRef .tc main_v161_0 : DevRef τ sig) ≠ Proc.devRef .tc main_v169 from by decide) (outs m 45 main_v169 c) (V44 m (outs m) c)).symm
  | ⟨1, _⟩ => exact ((pdats m 20 c).arrAt_in 1 rfl _).trans (Function.update_of_ne (show (Proc.devRef .tc main_v111 : DevRef τ sig) ≠ Proc.devRef .tc main_v169 from by decide) (outs m 45 main_v169 c) (V44 m (outs m) c)).symm
  | ⟨2, _⟩ => exact ((pdats m 20 c).arrAt_in 2 rfl _).trans (Function.update_of_ne (show (Proc.devRef .tc main_v162_0 : DevRef τ sig) ≠ Proc.devRef .tc main_v169 from by decide) (outs m 45 main_v169 c) (V44 m (outs m) c)).symm
  | ⟨3, _⟩ => exact ((pdats m 20 c).arrAt_in 3 rfl _).trans (Function.update_of_ne (show (Proc.devRef .tc main_v162_1 : DevRef τ sig) ≠ Proc.devRef .tc main_v169 from by decide) (outs m 45 main_v169 c) (V44 m (outs m) c)).symm
  | ⟨4, _⟩ => exact ((pdats m 20 c).arrAt_in 4 rfl _).trans (Function.update_of_ne (show (Proc.devRef .tc main_v165 : DevRef τ sig) ≠ Proc.devRef .tc main_v169 from by decide) (outs m 45 main_v169 c) (V44 m (outs m) c)).symm
  | ⟨5, _⟩ => exact ((pdats m 20 c).arrAt_in 5 rfl _).trans (Function.update_of_ne (show (Proc.devRef .tc main_v168 : DevRef τ sig) ≠ Proc.devRef .tc main_v169 from by decide) (outs m 45 main_v169 c) (V44 m (outs m) c)).symm
  | ⟨6, _⟩ => exact (outs20_6 m c).symm.trans (Function.update_self (Proc.devRef .tc main_v169 : DevRef τ sig) (outs m 45 main_v169 c) (V44 m (outs m) c)).symm

set_option maxRecDepth 400000 in
set_option maxHeartbeats 2000000 in
/-- Every other buffer holds at the exit what it held at the entry. -/
theorem hrest20 (c : Dev nD) : ∀ b, b ∉ Finset.univ.image (Pipeline.arrRef spec20) → asV (V45 m (outs m)) c b = asV (V44 m (outs m)) c b := fun b hb => by
  have h6 : (Proc.devRef .tc b : DevRef τ sig) ≠ Proc.devRef .tc main_v169 := fun e => hb (Finset.mem_image.mpr ⟨6, Finset.mem_univ _, (Proc.devRef_injective _ e).symm⟩)
  exact Function.update_of_ne h6 (outs m 45 main_v169 c) (V44 m (outs m) c)

set_option maxRecDepth 400000 in
set_option maxHeartbeats 2000000 in
set_option backward.isDefEq.respectTransparency.types false in
/-- Region 20 as a segment: entered from the buffers at the valuation before it, left at the one after it; its arrays split
    out of the buffers at entry and put back at exit; the generator register through the invariant; nothing owed. -/
def reg20 : Pipeline.RegionSeg (pcfgs (F := F)) adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (asV (V44 m (outs m))) c).loose
  hwaits := Pipeline.hwaits_of_owed_zero _ _ _ _ L lv 20 fun _ _ => rfl
  pre c := iprop(StableHlo.held (c : Thread nD τ) (Pipeline.ucRefs τ sig) (V44 m (outs m) c) ∗ R c)
  post c := iprop(StableHlo.held (c : Thread nD τ) (Pipeline.ucRefs τ sig) (V45 m (outs m) c) ∗ R c)
  X c := iprop(∃ r, prngReg c r)
  Y c := iprop(∃ r, prngReg c r)
  Z c := Pipeline.unscopedRest (Ix := Unit) (Name := ℕ) (U := UR sig nD τ) (Lvl := ℕ) spec20 c (asV (V44 m (outs m)) c)
  hentry c := by
    rw [Pipeline.ownSems0_none]
    have hsplit := Pipeline.arrays_of_unscopedBufs (p := 20) (pcfgs (F := F)) adm (pdats m) launch20.win launch20.arr_whole c
      ((pdats m 20 c).share_full fun _ => rfl) (asV (V44 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m) ((pdats m 20 c).share_full fun _ => rfl)
      (asV (V44 m (outs m)) c) (asV (V45 m (outs m)) c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR21.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 21 -/

set_option maxRecDepth 400000 in
set_option maxHeartbeats 2000000 in
/-- What region 21 leaves in main_v174_0. -/
theorem outs21_1 (c : Dev nD) : outs m 47 main_v174_0 c = (pdats m 21 c).arrAt 1 cfg21.N := by
  rw [outs_at21 m main_v174_0 c]
  unfold o21
  rw [if_pos rfl]
  rw [Function.update_of_ne (show (Proc.devRef .tc main_v174_0 : DevRef τ sig) ≠ Proc.devRef .tc main_v174_1 from by decide)]
  rw [Function.update_self]
  show (dat21 (asV (V46 m (o20 m))) c).arrAt 1 cfg21.N = (dat21 (asV (V46 m (outs m))) c).arrAt 1 cfg21.N
  rw [Vin21]

set_option maxRecDepth 400000 in
set_option maxHeartbeats 2000000 in
/-- What region 21 leaves in main_v174_1. -/
theorem outs21_2 (c : Dev nD) : outs m 47 main_v174_1 c = (pdats m 21 c).arrAt 2 cfg21.N := by
  rw [outs_at21 m main_v174_1 c]
  unfold o21
  rw [if_pos rfl]
  rw [Function.update_self]
  show (dat21 (asV (V46 m (o20 m))) c).arrAt 2 cfg21.N = (dat21 (asV (V46 m (outs m))) c).arrAt 2 cfg21.N
  rw [Vin21]

set_option maxRecDepth 400000 in
set_option maxHeartbeats 2000000 in
/-- At region 21's exit each of its arrays holds what the pipeline leaves. -/
theorem hF21 (c : Dev nD) (w : Fin cfg21.W) : (pdats m 21 c).arrAt w cfg21.N = asV (V47 m (outs m)) c (Pipeline.arrRef spec21 w) := by
  match w with
  | ⟨0, _⟩ => exact ((pdats m 21 c).arrAt_in 0 rfl _).trans ((Function.update_of_ne (show (Proc.devRef .tc main_v173 : DevRef τ sig) ≠ Proc.devRef .tc main_v174_1 from by decide) (outs m 47 main_v174_1 c) (Function.update (V46 m (outs m) c) (Proc.devRef .tc main_v174_0 : DevRef τ sig) (outs m 47 main_v174_0 c))).trans (Function.update_of_ne (show (Proc.devRef .tc main_v173 : DevRef τ sig) ≠ Proc.devRef .tc main_v174_0 from by decide) (outs m 47 main_v174_0 c) (V46 m (outs m) c))).symm
  | ⟨1, _⟩ => exact (outs21_1 m c).symm.trans ((Function.update_of_ne (show (Proc.devRef .tc main_v174_0 : DevRef τ sig) ≠ Proc.devRef .tc main_v174_1 from by decide) (outs m 47 main_v174_1 c) (Function.update (V46 m (outs m) c) (Proc.devRef .tc main_v174_0 : DevRef τ sig) (outs m 47 main_v174_0 c))).trans (Function.update_self (Proc.devRef .tc main_v174_0 : DevRef τ sig) (outs m 47 main_v174_0 c) (V46 m (outs m) c))).symm
  | ⟨2, _⟩ => exact (outs21_2 m c).symm.trans (Function.update_self (Proc.devRef .tc main_v174_1 : DevRef τ sig) (outs m 47 main_v174_1 c) (Function.update (V46 m (outs m) c) (Proc.devRef .tc main_v174_0 : DevRef τ sig) (outs m 47 main_v174_0 c))).symm

set_option maxRecDepth 400000 in
set_option maxHeartbeats 2000000 in
/-- Every other buffer holds at the exit what it held at the entry. -/
theorem hrest21 (c : Dev nD) : ∀ b, b ∉ Finset.univ.image (Pipeline.arrRef spec21) → asV (V47 m (outs m)) c b = asV (V46 m (outs m)) c b := fun b hb => by
  have h1 : (Proc.devRef .tc b : DevRef τ sig) ≠ Proc.devRef .tc main_v174_0 := fun e => hb (Finset.mem_image.mpr ⟨1, Finset.mem_univ _, (Proc.devRef_injective _ e).symm⟩)
  have h2 : (Proc.devRef .tc b : DevRef τ sig) ≠ Proc.devRef .tc main_v174_1 := fun e => hb (Finset.mem_image.mpr ⟨2, Finset.mem_univ _, (Proc.devRef_injective _ e).symm⟩)
  exact (Function.update_of_ne h2 (outs m 47 main_v174_1 c) (Function.update (V46 m (outs m) c) (Proc.devRef .tc main_v174_0 : DevRef τ sig) (outs m 47 main_v174_0 c))).trans (Function.update_of_ne h1 (outs m 47 main_v174_0 c) (V46 m (outs m) c))

set_option maxRecDepth 400000 in
set_option maxHeartbeats 2000000 in
set_option backward.isDefEq.respectTransparency.types false in
/-- Region 21 as a segment: entered from the buffers at the valuation before it, left at the one after it; its arrays split
    out of the buffers at entry and put back at exit; the generator register through the invariant; nothing owed. -/
def reg21 : Pipeline.RegionSeg (pcfgs (F := F)) adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (asV (V46 m (outs m))) c).loose
  hwaits := Pipeline.hwaits_of_owed_zero _ _ _ _ L lv 21 fun _ _ => rfl
  pre c := iprop(StableHlo.held (c : Thread nD τ) (Pipeline.ucRefs τ sig) (V46 m (outs m) c) ∗ R c)
  post c := iprop(StableHlo.held (c : Thread nD τ) (Pipeline.ucRefs τ sig) (V47 m (outs m) c) ∗ R c)
  X c := iprop(∃ r, prngReg c r)
  Y c := iprop(∃ r, prngReg c r)
  Z c := Pipeline.unscopedRest (Ix := Unit) (Name := ℕ) (U := UR sig nD τ) (Lvl := ℕ) spec21 c (asV (V46 m (outs m)) c)
  hentry c := by
    rw [Pipeline.ownSems0_none]
    have hsplit := Pipeline.arrays_of_unscopedBufs (p := 21) (pcfgs (F := F)) adm (pdats m) launch21.win launch21.arr_whole c
      ((pdats m 21 c).share_full fun _ => rfl) (asV (V46 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ (dat21 (asV (V46 m (outs m))) c).Φ 0
    iintro ⟨Hp, -, Hr⟩
    iapply (hin21 (asV (V46 m (outs m))) c)
    unfold X21
    isplitl [Hp]; · iexact Hp
    iexact Hr
  hout c := by
    rw [Pipeline.ownSems0_none]
    exact (hout21 (asV (V46 m (outs m))) c).trans (by
      unfold X21
      iintro ⟨Hp, Hr⟩
      isplitl [Hp]; · iexact Hp
      isplitr; · iempintro
      iexact Hr)
  hexit c := by
    have hjoin := Pipeline.unscopedBufs_of_arrays (p := 21) (pcfgs (F := F)) adm (Ix := Unit) (Name := ℕ) (U := UR sig nD τ) (Lvl := ℕ)
      launch21.win launch21.arr_whole c (pdats m) ((pdats m 21 c).share_full fun _ => rfl)
      (asV (V46 m (outs m)) c) (asV (V47 m (outs m)) c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsmR22.lean ====
import proofs.«418385_j87393994539142_1_alg».proof.Proof.KernelIdealAsmCore

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## Region 22 -/

set_option maxRecDepth 400000 in
set_option maxHeartbeats 2000000 in
/-- What region 22 leaves in main_v181. -/
theorem outs22_6 (c : Dev nD) : outs m 49 main_v181 c = (pdats m 22 c).arrAt 6 cfg22.N := by
  rw [outs_at22 m main_v181 c]
  unfold o22
  rw [if_pos rfl]
  rw [Function.update_self]
  show (dat22 (asV (V48 m (o21 m))) c).arrAt 6 cfg22.N = (dat22 (asV (V48 m (outs m))) c).arrAt 6 cfg22.N
  rw [Vin22]

set_option maxRecDepth 400000 in
set_option maxHeartbeats 2000000 in
/-- At region 22's exit each of its arrays holds what the pipeline leaves. -/
theorem hF22 (c : Dev nD) (w : Fin cfg22.W) : (pdats m 22 c).arrAt w cfg22.N = asV (V49 m (outs m)) c (Pipeline.arrRef spec22 w) := by
  match w with
  | ⟨0, _⟩ => exact ((pdats m 22 c).arrAt_in 0 rfl _).trans (Function.update_of_ne (show (Proc.devRef .tc main_v173 : DevRef τ sig) ≠ Proc.devRef .tc main_v181 from by decide) (outs m 49 main_v181 c) (V48 m (outs m) c)).symm
  | ⟨1, _⟩ => exact ((pdats m 22 c).arrAt_in 1 rfl _).trans (Function.update_of_ne (show (Proc.devRef .tc main_v123 : DevRef τ sig) ≠ Proc.devRef .tc main_v181 from by decide) (outs m 49 main_v181 c) (V48 m (outs m) c)).symm
  | ⟨2, _⟩ => exact ((pdats m 22 c).arrAt_in 2 rfl _).trans (Function.update_of_ne (show (Proc.devRef .tc main_v174_0 : DevRef τ sig) ≠ Proc.devRef .tc main_v181 from by decide) (outs m 49 main_v181 c) (V48 m (outs m) c)).symm
  | ⟨3, _⟩ => exact ((pdats m 22 c).arrAt_in 3 rfl _).trans (Function.update_of_ne (show (Proc.devRef .tc main_v174_1 : DevRef τ sig) ≠ Proc.devRef .tc main_v181 from by decide) (outs m 49 main_v181 c) (V48 m (outs m) c)).symm
  | ⟨4, _⟩ => exact ((pdats m 22 c).arrAt_in 4 rfl _).trans (Function.update_of_ne (show (Proc.devRef .tc main_v177 : DevRef τ sig) ≠ Proc.devRef .tc main_v181 from by decide) (outs m 49 main_v181 c) (V48 m (outs m) c)).symm
  | ⟨5, _⟩ => exact ((pdats m 22 c).arrAt_in 5 rfl _).trans (Function.update_of_ne (show (Proc.devRef .tc main_v180 : DevRef τ sig) ≠ Proc.devRef .tc main_v181 from by decide) (outs m 49 main_v181 c) (V48 m (outs m) c)).symm
  | ⟨6, _⟩ => exact (outs22_6 m c).symm.trans (Function.update_self (Proc.devRef .tc main_v181 : DevRef τ sig) (outs m 49 main_v181 c) (V48 m (outs m) c)).symm

set_option maxRecDepth 400000 in
set_option maxHeartbeats 2000000 in
/-- Every other buffer holds at the exit what it held at the entry. -/
theorem hrest22 (c : Dev nD) : ∀ b, b ∉ Finset.univ.image (Pipeline.arrRef spec22) → asV (V49 m (outs m)) c b = asV (V48 m (outs m)) c b := fun b hb => by
  have h6 : (Proc.devRef .tc b : DevRef τ sig) ≠ Proc.devRef .tc main_v181 := fun e => hb (Finset.mem_image.mpr ⟨6, Finset.mem_univ _, (Proc.devRef_injective _ e).symm⟩)
  exact Function.update_of_ne h6 (outs m 49 main_v181 c) (V48 m (outs m) c)

set_option maxRecDepth 400000 in
set_option maxHeartbeats 2000000 in
set_option backward.isDefEq.respectTransparency.types false in
/-- Region 22 as a segment: entered from the buffers at the valuation before it, left at the one after it; its arrays split
    out of the buffers at entry and put back at exit; the generator register through the invariant; nothing owed. -/
def reg22 : Pipeline.RegionSeg (pcfgs (F := F)) adm (pdats m) () defs₀ 𝒱₀ L lv 22 where
  win := launch22.win.to₀
  block_pos := launch22.block_pos
  stage_whole := launch22.stage_whole
  K := PEmpty
  osem k := k.elim
  ho := Pipeline.OwnSemFacts.none _
  hbody c := (body_obligation22 (asV (V48 m (outs m))) c).loose
  hwaits := Pipeline.hwaits_of_owed_zero _ _ _ _ L lv 22 fun _ _ => rfl
  pre c := iprop(StableHlo.held (c : Thread nD τ) (Pipeline.ucRefs τ sig) (V48 m (outs m) c) ∗ R c)
  post c := iprop(StableHlo.held (c : Thread nD τ) (Pipeline.ucRefs τ sig) (V49 m (outs m) c) ∗ R c)
  X c := iprop(∃ r, prngReg c r)
  Y c := iprop(∃ r, prngReg c r)
  Z c := Pipeline.unscopedRest (Ix := Unit) (Name := ℕ) (U := UR sig nD τ) (Lvl := ℕ) spec22 c (asV (V48 m (outs m)) c)
  hentry c := by
    rw [Pipeline.ownSems0_none]
    have hsplit := Pipeline.arrays_of_unscopedBufs (p := 22) (pcfgs (F := F)) adm (pdats m) launch22.win launch22.arr_whole c
      ((pdats m 22 c).share_full fun _ => rfl) (asV (V48 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m) ((pdats m 22 c).share_full fun _ => rfl)
      (asV (V48 m (outs m)) c) (asV (V49 m (outs m)) c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealAsm.lean ====
import proofs.«418385_j87393994539142_1_alg».proof.Proof.KernelIdealAsmR0
import proofs.«418385_j87393994539142_1_alg».proof.Proof.KernelIdealAsmR1
import proofs.«418385_j87393994539142_1_alg».proof.Proof.KernelIdealAsmR2
import proofs.«418385_j87393994539142_1_alg».proof.Proof.KernelIdealAsmR3
import proofs.«418385_j87393994539142_1_alg».proof.Proof.KernelIdealAsmR4
import proofs.«418385_j87393994539142_1_alg».proof.Proof.KernelIdealAsmR5
import proofs.«418385_j87393994539142_1_alg».proof.Proof.KernelIdealAsmR6
import proofs.«418385_j87393994539142_1_alg».proof.Proof.KernelIdealAsmR7
import proofs.«418385_j87393994539142_1_alg».proof.Proof.KernelIdealAsmR8
import proofs.«418385_j87393994539142_1_alg».proof.Proof.KernelIdealAsmR9
import proofs.«418385_j87393994539142_1_alg».proof.Proof.KernelIdealAsmR10
import proofs.«418385_j87393994539142_1_alg».proof.Proof.KernelIdealAsmR11
import proofs.«418385_j87393994539142_1_alg».proof.Proof.KernelIdealAsmR12
import proofs.«418385_j87393994539142_1_alg».proof.Proof.KernelIdealAsmR13
import proofs.«418385_j87393994539142_1_alg».proof.Proof.KernelIdealAsmR14
import proofs.«418385_j87393994539142_1_alg».proof.Proof.KernelIdealAsmR15
import proofs.«418385_j87393994539142_1_alg».proof.Proof.KernelIdealAsmR16
import proofs.«418385_j87393994539142_1_alg».proof.Proof.KernelIdealAsmR17
import proofs.«418385_j87393994539142_1_alg».proof.Proof.KernelIdealAsmR18
import proofs.«418385_j87393994539142_1_alg».proof.Proof.KernelIdealAsmR19
import proofs.«418385_j87393994539142_1_alg».proof.Proof.KernelIdealAsmR20
import proofs.«418385_j87393994539142_1_alg».proof.Proof.KernelIdealAsmR21
import proofs.«418385_j87393994539142_1_alg».proof.Proof.KernelIdealAsmR22

/-! # The program's run assembled from its 23 regions

Between two items of the main function a core's buffers hold a valuation; a host stretch maps it through its
operations, a region overwrites its output arrays with what its write-backs leave. Here the contents the regions
leave are named stage by stage (region K's outputs are a function of the valuation it is entered from, which
only depends on the regions before it), every region's proof data is placed at the valuation it is entered from,
and each region's record says how its arrays are split out of the buffers at entry and put back at exit. -/

set_option maxRecDepth 16384

noncomputable section

namespace Cert.KernelIdeal.Asm

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The run -/

set_option backward.isDefEq.respectTransparency.types false in
set_option maxHeartbeats 0 in
/-- Every weakly fair execution of the main function terminates; the result buffer ends at the last valuation's contents and
    every argument as launched. -/
theorem run (ρ : Dev nD → PrngReg) : θ_run defs (onTc (τ := τ) (main (F := F))) ⟨m, fun _ => 0, ρ⟩ (fun r => ∀ c : Dev nD,
      r.2.mem ((c.tc : Thread nD τ).loc main_v192) = V52 m (outs m) c main_v192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) ?hu (E := fun _ c => R c) ?hE0 (fun c => ?hE23)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)
    (reg11 m) (fun _ => .rfl) (fun _ => .rfl)
    (reg12 m) (fun _ => .rfl) (fun _ => .rfl)
    (reg13 m) (fun _ => .rfl) (fun _ => .rfl)
    (reg14 m) (fun _ => .rfl) (fun _ => .rfl)
    (reg15 m) (fun _ => .rfl) (fun _ => .rfl)
    (reg16 m) (fun _ => .rfl) (fun _ => .rfl)
    (reg17 m) (fun _ => .rfl) (fun _ => .rfl)
    (reg18 m) (fun _ => .rfl) (fun _ => .rfl)
    (reg19 m) (fun _ => .rfl) (fun _ => .rfl)
    (reg20 m) (fun _ => .rfl) (fun _ => .rfl)
    (reg21 m) (fun _ => .rfl) (fun _ => .rfl)
    (reg22 m) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE23 =>
    iintro ⟨-, HO⟩
    iexact HO

end Cert.KernelIdeal.Asm

end
-- ==== Proof.RefRunInv.lean ====
import proofs.«418385_j87393994539142_1_alg».proof.Proof.RefRunOps
import proofs.«418385_j87393994539142_1_alg».proof.Proof.RefRead

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! The reference program's run, stage by stage: the tables. The buffers of the device are read at the boundaries
    between the windows of @main. At a boundary every buffer a later operation still reads holds the value its operation
    computes from the arguments (the staged functions val_‹buffer›), and every argument its launch contents: InvK.
    A window's operations write their own buffers only (keep_K), so what a window does not write is carried over
    unchanged; what it writes is computed from what the boundary before it holds. -/

/-- The buffers that window 0's operations write. -/
abbrev ops_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_c, main_v56, main_v57, main_c_0]
set_option maxRecDepth 8192 in
theorem ops_0_writes : (ops_0 : List (HloOp τ sig (Elt F))).Forall fun op => op.writes ⊆ (ops_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 0 does not write keeps its contents through it. -/
theorem keep_0 (W : Valuation τ sig (Elt F)) (r : Ref sig .tc) (h : r ∉ ops_0_W) :
    after ops_0 W (Proc.devRef .tc r) = W (Proc.devRef .tc r) :=
  after_of_writes_sub ops_0 W ops_0_writes h

/-- The buffers that window 1's operations write. -/
abbrev ops_1_W : List (Ref sig .tc) := [main_v58, main_v59, main_v60, main_v61, main_v62, main_v63, main_c_1, main_v64, main_v65, main_c_2, main_v66, main_v67, main_v68, main_v69, main_v70, main_v71, main_v72, main_v73, main_cst, main_v74, main_v75, main_cst_3, main_v76, main_v77, main_v78, main_v79, main_v80, main_v81, main_cst_4, main_v82, main_cst_5, main_v83, main_v84, main_v85, main_v86, main_v87, main_v88, main_cst_6, main_v89, main_cst_7, main_v90, main_v91, main_v92, main_v93, main_v94, main_v95, main_v96, main_v97, main_cst_8, main_v98, main_v99, main_v100, main_v101, main_v102, main_v103, main_v104, main_v105, main_v106, main_call0_cst, main_call0_v0, main_v107, main_v108]
set_option maxRecDepth 8192 in
theorem ops_1_writes : (ops_1 : List (HloOp τ sig (Elt F))).Forall fun op => op.writes ⊆ (ops_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem keep_1 (W : Valuation τ sig (Elt F)) (r : Ref sig .tc) (h : r ∉ ops_1_W) :
    after ops_1 W (Proc.devRef .tc r) = W (Proc.devRef .tc r) :=
  after_of_writes_sub ops_1 W ops_1_writes h

/-- The buffers that window 2's operations write. -/
abbrev ops_2_W : List (Ref sig .tc) := [main_c_9, main_v109, main_v110, main_c_10, main_v111, main_v112, main_v113, main_v114, main_v115, main_v116, main_cst_11, main_v117, main_v118, main_v119, main_v120, main_v121, main_v122, main_v123, main_v124, main_cst_12, main_v125, main_cst_13, main_v126, main_v127, main_v128, main_v129, main_v130, main_v131, main_cst_14, main_v132, main_cst_15, main_v133, main_v134, main_v135, main_v136, main_v137, main_v138, main_v139, main_v140, main_cst_16, main_v141, main_v142, main_v143, main_v144, main_v145, main_v146, main_v147, main_v148, main_v149, main_call1_cst, main_call1_v0, main_v150, main_v151, main_v152, main_v153, main_v154, main_v155, main_v156, main_v157, main_v158, main_v159, main_v160]
set_option maxRecDepth 8192 in
theorem ops_2_writes : (ops_2 : List (HloOp τ sig (Elt F))).Forall fun op => op.writes ⊆ (ops_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 2 does not write keeps its contents through it. -/
theorem keep_2 (W : Valuation τ sig (Elt F)) (r : Ref sig .tc) (h : r ∉ ops_2_W) :
    after ops_2 W (Proc.devRef .tc r) = W (Proc.devRef .tc r) :=
  after_of_writes_sub ops_2 W ops_2_writes h

/-- The buffers that window 3's operations write. -/
abbrev ops_3_W : List (Ref sig .tc) := [main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_c_17, main_v196, main_v197, main_c_18, main_v198, main_v199, main_v200, main_v201, main_v202, main_v203, main_c_19, main_v204, main_v205, main_c_20, main_v206, main_v207, main_v208, main_v209, main_v210, main_v211, main_v212, main_v213, main_cst_21, main_v214, main_v215]
set_option maxRecDepth 8192 in
theorem ops_3_writes : (ops_3 : List (HloOp τ sig (Elt F))).Forall fun op => op.writes ⊆ (ops_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 3 does not write keeps its contents through it. -/
theorem keep_3 (W : Valuation τ sig (Elt F)) (r : Ref sig .tc) (h : r ∉ ops_3_W) :
    after ops_3 W (Proc.devRef .tc r) = W (Proc.devRef .tc r) :=
  after_of_writes_sub ops_3 W ops_3_writes h

/-- The buffers that window 4's operations write. -/
abbrev ops_4_W : List (Ref sig .tc) := [main_cst_22, main_v216, main_v217, main_v218, main_v219, main_v220, main_v221, main_cst_23, main_v222, main_cst_24, main_v223, main_v224, main_v225, main_v226, main_v227, main_v228, main_cst_25, main_v229, main_cst_26, main_v230, main_v231, main_v232, main_v233, main_v234, main_v235, main_v236, main_v237, main_cst_27, main_v238, main_v239, main_v240, main_v241, main_v242, main_v243, main_v244, main_v245, main_v246, main_call2_cst, main_call2_v0, main_v247, main_v248, main_c_28, main_v249, main_v250, main_c_29, main_v251, main_v252, main_v253, main_v254, main_v255, main_v256, main_cst_30, main_v257, main_v258, main_v259, main_v260, main_v261, main_v262, main_v263, main_v264, main_cst_31, main_v265]
set_option maxRecDepth 8192 in
theorem ops_4_writes : (ops_4 : List (HloOp τ sig (Elt F))).Forall fun op => op.writes ⊆ (ops_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 4 does not write keeps its contents through it. -/
theorem keep_4 (W : Valuation τ sig (Elt F)) (r : Ref sig .tc) (h : r ∉ ops_4_W) :
    after ops_4 W (Proc.devRef .tc r) = W (Proc.devRef .tc r) :=
  after_of_writes_sub ops_4 W ops_4_writes h

/-- The buffers that window 5's operations write. -/
abbrev ops_5_W : List (Ref sig .tc) := [main_cst_32, main_v266, main_v267, main_v268, main_v269, main_v270, main_v271, main_cst_33, main_v272, main_cst_34, main_v273, main_v274, main_v275, main_v276, main_v277, main_v278, main_v279, main_v280, main_cst_35, main_v281, main_v282, main_v283, main_v284, main_v285, main_v286, main_v287, main_v288, main_v289, main_call3_cst, main_call3_v0, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321]
set_option maxRecDepth 8192 in
theorem ops_5_writes : (ops_5 : List (HloOp τ sig (Elt F))).Forall fun op => op.writes ⊆ (ops_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 5 does not write keeps its contents through it. -/
theorem keep_5 (W : Valuation τ sig (Elt F)) (r : Ref sig .tc) (h : r ∉ ops_5_W) :
    after ops_5 W (Proc.devRef .tc r) = W (Proc.devRef .tc r) :=
  after_of_writes_sub ops_5 W ops_5_writes h

/-- The buffers that window 6's operations write. -/
abbrev ops_6_W : List (Ref sig .tc) := [main_v322, main_v323, main_v324, main_v325, main_v326, main_v327, main_v328, main_v329, main_v330, main_v331, main_v332, main_v333, main_v334, main_v335, main_c_36, main_v336, main_v337, main_c_37, main_v338, main_v339, main_v340, main_v341, main_v342, main_v343, main_c_38, main_v344, main_v345, main_c_39, main_v346, main_v347, main_v348, main_v349, main_v350, main_v351, main_v352, main_v353, main_cst_40, main_v354, main_v355, main_cst_41, main_v356, main_v357, main_v358, main_v359, main_v360, main_v361, main_cst_42, main_v362, main_cst_43, main_v363, main_v364, main_v365, main_v366, main_v367, main_v368, main_cst_44, main_v369, main_cst_45, main_v370, main_v371]
set_option maxRecDepth 8192 in
theorem ops_6_writes : (ops_6 : List (HloOp τ sig (Elt F))).Forall fun op => op.writes ⊆ (ops_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 6 does not write keeps its contents through it. -/
theorem keep_6 (W : Valuation τ sig (Elt F)) (r : Ref sig .tc) (h : r ∉ ops_6_W) :
    after ops_6 W (Proc.devRef .tc r) = W (Proc.devRef .tc r) :=
  after_of_writes_sub ops_6 W ops_6_writes h

/-- The buffers that window 7's operations write. -/
abbrev ops_7_W : List (Ref sig .tc) := [main_v372, main_v373, main_v374, main_v375, main_v376, main_v377, main_cst_46, main_v378, main_v379, main_v380, main_v381, main_v382, main_v383, main_v384, main_v385, main_v386, main_call4_cst, main_call4_v0, main_v387, main_v388, main_c_47, main_v389, main_v390, main_c_48, main_v391, main_v392, main_v393, main_v394, main_v395, main_v396, main_cst_49, main_v397, main_v398, main_v399, main_v400, main_v401, main_v402, main_v403, main_v404, main_cst_50, main_v405, main_cst_51, main_v406, main_v407, main_v408, main_v409, main_v410, main_v411, main_cst_52, main_v412, main_cst_53, main_v413, main_v414, main_v415, main_v416, main_v417, main_v418, main_v419, main_v420, main_cst_54, main_v421, main_v422]
set_option maxRecDepth 8192 in
theorem ops_7_writes : (ops_7 : List (HloOp τ sig (Elt F))).Forall fun op => op.writes ⊆ (ops_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 7 does not write keeps its contents through it. -/
theorem keep_7 (W : Valuation τ sig (Elt F)) (r : Ref sig .tc) (h : r ∉ ops_7_W) :
    after ops_7 W (Proc.devRef .tc r) = W (Proc.devRef .tc r) :=
  after_of_writes_sub ops_7 W ops_7_writes h

/-- The buffers that window 8's operations write. -/
abbrev ops_8_W : List (Ref sig .tc) := [main_v423, main_v424, main_v425, main_v426, main_v427, main_v428, main_v429, main_call5_cst, main_call5_v0, main_v430, main_v431, main_cst_55, main_v432, main_v433, main_cst_56, main_v434, main_v435, main_v436, main_v437, main_v438, main_call6_cst, main_call6_v0, main_v439, main_v440, main_v441, main_v442]
set_option maxRecDepth 8192 in
theorem ops_8_writes : (ops_8 : List (HloOp τ sig (Elt F))).Forall fun op => op.writes ⊆ (ops_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 8 does not write keeps its contents through it. -/
theorem keep_8 (W : Valuation τ sig (Elt F)) (r : Ref sig .tc) (h : r ∉ ops_8_W) :
    after ops_8 W (Proc.devRef .tc r) = W (Proc.devRef .tc r) :=
  after_of_writes_sub ops_8 W ops_8_writes h

/-- What the device's buffers hold at the boundary before window 0: each argument its launch contents, each buffer still to be read the value its operation computes from the arguments. -/
structure Inv0 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14

/-- What the device's buffers hold at the boundary before window 1: each argument its launch contents, each buffer still to be read the value its operation computes from the arguments. -/
structure Inv1 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v7 : W (Proc.devRef .tc main_v7) = val_main_v7 (F := F) x0 x3 x4
  main_v11 : W (Proc.devRef .tc main_v11) = val_main_v11 (F := F) x2 x5 x6
  main_v23 : W (Proc.devRef .tc main_v23) = val_main_v23 (F := F) x0 x3 x4 x7 x8
  main_v31 : W (Proc.devRef .tc main_v31) = val_main_v31 (F := F) x0 x3 x4 x7 x8
  main_v39 : W (Proc.devRef .tc main_v39) = val_main_v39 (F := F) x2 x5 x6 x7 x8
  main_v47 : W (Proc.devRef .tc main_v47) = val_main_v47 (F := F) x0 x3 x4 x7 x8
  main_v55 : W (Proc.devRef .tc main_v55) = val_main_v55 (F := F) x0 x3 x4 x7 x8
  main_v57 : W (Proc.devRef .tc main_v57) = val_main_v57 (F := F) x1
  main_c_0 : W (Proc.devRef .tc main_c_0) = val_main_c_0 (F := F)

/-- What the device's buffers hold at the boundary before window 2: each argument its launch contents, each buffer still to be read the value its operation computes from the arguments. -/
structure Inv2 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v7 : W (Proc.devRef .tc main_v7) = val_main_v7 (F := F) x0 x3 x4
  main_v23 : W (Proc.devRef .tc main_v23) = val_main_v23 (F := F) x0 x3 x4 x7 x8
  main_v31 : W (Proc.devRef .tc main_v31) = val_main_v31 (F := F) x0 x3 x4 x7 x8
  main_v77 : W (Proc.devRef .tc main_v77) = val_main_v77 (F := F) x0 x1 x2 x3 x4 x5 x6 x7 x8
  main_v108 : W (Proc.devRef .tc main_v108) = val_main_v108 (F := F) x0 x1 x2 x3 x4 x5 x6 x7 x8 x9 x10

/-- What the device's buffers hold at the boundary before window 3: each argument its launch contents, each buffer still to be read the value its operation computes from the arguments. -/
structure Inv3 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v108 : W (Proc.devRef .tc main_v108) = val_main_v108 (F := F) x0 x1 x2 x3 x4 x5 x6 x7 x8 x9 x10
  main_v151 : W (Proc.devRef .tc main_v151) = val_main_v151 (F := F) x0 x1 x2 x3 x4 x5 x6 x7 x8 x9 x10
  main_v153 : W (Proc.devRef .tc main_v153) = val_main_v153 (F := F) x7
  main_v155 : W (Proc.devRef .tc main_v155) = val_main_v155 (F := F) x8
  main_v158 : W (Proc.devRef .tc main_v158) = val_main_v158 (F := F) x0 x1 x2 x3 x4 x5 x6 x7 x8 x9 x10
  main_v160 : W (Proc.devRef .tc main_v160) = val_main_v160 (F := F) x8

/-- What the device's buffers hold at the boundary before window 4: each argument its launch contents, each buffer still to be read the value its operation computes from the arguments. -/
structure Inv4 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v108 : W (Proc.devRef .tc main_v108) = val_main_v108 (F := F) x0 x1 x2 x3 x4 x5 x6 x7 x8 x9 x10
  main_v151 : W (Proc.devRef .tc main_v151) = val_main_v151 (F := F) x0 x1 x2 x3 x4 x5 x6 x7 x8 x9 x10
  main_v163 : W (Proc.devRef .tc main_v163) = val_main_v163 (F := F) x0 x1 x2 x3 x4 x5 x6 x7 x8 x9 x10
  main_v171 : W (Proc.devRef .tc main_v171) = val_main_v171 (F := F) x0 x1 x2 x3 x4 x5 x6 x7 x8 x9 x10
  main_v211 : W (Proc.devRef .tc main_v211) = val_main_v211 (F := F) x0 x1 x2 x3 x4 x5 x6 x7 x8 x9 x10
  main_v215 : W (Proc.devRef .tc main_v215) = val_main_v215 (F := F) x0 x1 x2 x3 x4 x5 x6 x7 x8 x9 x10

/-- What the device's buffers hold at the boundary before window 5: each argument its launch contents, each buffer still to be read the value its operation computes from the arguments. -/
structure Inv5 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v151 : W (Proc.devRef .tc main_v151) = val_main_v151 (F := F) x0 x1 x2 x3 x4 x5 x6 x7 x8 x9 x10
  main_v248 : W (Proc.devRef .tc main_v248) = val_main_v248 (F := F) x0 x1 x2 x3 x4 x5 x6 x7 x8 x9 x10
  main_v260 : W (Proc.devRef .tc main_v260) = val_main_v260 (F := F) x0 x1 x2 x3 x4 x5 x6 x7 x8 x9 x10
  main_v262 : W (Proc.devRef .tc main_v262) = val_main_v262 (F := F) x9
  main_v264 : W (Proc.devRef .tc main_v264) = val_main_v264 (F := F) x10
  main_v265 : W (Proc.devRef .tc main_v265) = val_main_v265 (F := F) x0 x1 x2 x3 x4 x5 x6 x7 x8 x9 x10

/-- What the device's buffers hold at the boundary before window 6: each argument its launch contents, each buffer still to be read the value its operation computes from the arguments. -/
structure Inv6 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v248 : W (Proc.devRef .tc main_v248) = val_main_v248 (F := F) x0 x1 x2 x3 x4 x5 x6 x7 x8 x9 x10
  main_v291 : W (Proc.devRef .tc main_v291) = val_main_v291 (F := F) x0 x1 x2 x3 x4 x5 x6 x7 x8 x9 x10
  main_v293 : W (Proc.devRef .tc main_v293) = val_main_v293 (F := F) x7
  main_v295 : W (Proc.devRef .tc main_v295) = val_main_v295 (F := F) x8
  main_v303 : W (Proc.devRef .tc main_v303) = val_main_v303 (F := F) x0 x1 x2 x3 x4 x5 x6 x7 x8 x9 x10
  main_v311 : W (Proc.devRef .tc main_v311) = val_main_v311 (F := F) x0 x1 x2 x3 x4 x5 x6 x7 x8 x9 x10
  main_v319 : W (Proc.devRef .tc main_v319) = val_main_v319 (F := F) x0 x1 x2 x3 x4 x5 x6 x7 x8 x9 x10
  main_v321 : W (Proc.devRef .tc main_v321) = val_main_v321 (F := F) x7

/-- What the device's buffers hold at the boundary before window 7: each argument its launch contents, each buffer still to be read the value its operation computes from the arguments. -/
structure Inv7 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v1 : W (Proc.devRef .tc main_v1) = val_main_v1 (F := F) x1
  main_v3 : W (Proc.devRef .tc main_v3) = val_main_v3 (F := F) x1
  main_v248 : W (Proc.devRef .tc main_v248) = val_main_v248 (F := F) x0 x1 x2 x3 x4 x5 x6 x7 x8 x9 x10
  main_v291 : W (Proc.devRef .tc main_v291) = val_main_v291 (F := F) x0 x1 x2 x3 x4 x5 x6 x7 x8 x9 x10
  main_v303 : W (Proc.devRef .tc main_v303) = val_main_v303 (F := F) x0 x1 x2 x3 x4 x5 x6 x7 x8 x9 x10
  main_v311 : W (Proc.devRef .tc main_v311) = val_main_v311 (F := F) x0 x1 x2 x3 x4 x5 x6 x7 x8 x9 x10
  main_v351 : W (Proc.devRef .tc main_v351) = val_main_v351 (F := F) x0 x1 x2 x3 x4 x5 x6 x7 x8 x9 x10
  main_v357 : W (Proc.devRef .tc main_v357) = val_main_v357 (F := F) x0 x1 x2 x3 x4 x5 x6 x7 x8 x9 x10
  main_v359 : W (Proc.devRef .tc main_v359) = val_main_v359 (F := F) x9
  main_v361 : W (Proc.devRef .tc main_v361) = val_main_v361 (F := F) x10
  main_v364 : W (Proc.devRef .tc main_v364) = val_main_v364 (F := F) x0 x1 x2 x3 x4 x5 x6 x7 x8 x9 x10
  main_v371 : W (Proc.devRef .tc main_v371) = val_main_v371 (F := F) x0 x1 x2 x3 x4 x5 x6 x7 x8 x9 x10

/-- What the device's buffers hold at the boundary before window 8: each argument its launch contents, each buffer still to be read the value its operation computes from the arguments. -/
structure Inv8 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v291 : W (Proc.devRef .tc main_v291) = val_main_v291 (F := F) x0 x1 x2 x3 x4 x5 x6 x7 x8 x9 x10
  main_v404 : W (Proc.devRef .tc main_v404) = val_main_v404 (F := F) x10
  main_v420 : W (Proc.devRef .tc main_v420) = val_main_v420 (F := F) x0 x1 x2 x3 x4 x5 x6 x7 x8 x9 x10
  main_v422 : W (Proc.devRef .tc main_v422) = val_main_v422 (F := F) x0 x1 x2 x3 x4 x5 x6 x7 x8 x9 x10

/-- What the device's buffers hold at the boundary before window 9 (the end): each argument its launch contents, each buffer still to be read the value its operation computes from the arguments. -/
structure Inv9 (W : Valuation τ sig (Elt F)) (x0 : (⟨S20000x128, .f32⟩ : BufTy).Contents (Elt F)) (x1 : (⟨S2x320000, .i32⟩ : BufTy).Contents (Elt F)) (x2 : (⟨S320000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x5x128x128, .f32⟩ : BufTy).Contents (Elt F)) (x8 : (⟨S3x5x128, .f32⟩ : BufTy).Contents (Elt F)) (x9 : (⟨S3x2x128, .f32⟩ : BufTy).Contents (Elt F)) (x10 : (⟨S3x2x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) : Prop where
  main_arg0 : W (Proc.devRef .tc main_arg0) = x0
  main_arg1 : W (Proc.devRef .tc main_arg1) = x1
  main_arg2 : W (Proc.devRef .tc main_arg2) = x2
  main_arg3 : W (Proc.devRef .tc main_arg3) = x3
  main_arg4 : W (Proc.devRef .tc main_arg4) = x4
  main_arg5 : W (Proc.devRef .tc main_arg5) = x5
  main_arg6 : W (Proc.devRef .tc main_arg6) = x6
  main_arg7 : W (Proc.devRef .tc main_arg7) = x7
  main_arg8 : W (Proc.devRef .tc main_arg8) = x8
  main_arg9 : W (Proc.devRef .tc main_arg9) = x9
  main_arg10 : W (Proc.devRef .tc main_arg10) = x10
  main_arg11 : W (Proc.devRef .tc main_arg11) = x11
  main_arg12 : W (Proc.devRef .tc main_arg12) = x12
  main_arg13 : W (Proc.devRef .tc main_arg13) = x13
  main_arg14 : W (Proc.devRef .tc main_arg14) = x14
  main_v442 : W (Proc.devRef .tc main_v442) = val_main_v442 (F := F) x0 x1 x2 x3 x4 x5 x6 x7 x8 x9 x10 x11 x12 x13 x14

end Cert.RefRun

end
-- ==== Proof.RefRunW0.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 0 carries the invariant from its first operation to its last. -/
theorem step_0 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv0 W x0 x1 x2 x3 x4 x5 x6 x7 x8 x9 x10 x11 x12 x13 x14) : Inv1 (after ops_0 W) x0 x1 x2 x3 x4 x5 x6 x7 x8 x9 x10 x11 x12 x13 x14 where
  main_arg0 := (keep_0 W main_arg0 (by decide)).trans h.main_arg0
  main_arg1 := (keep_0 W main_arg1 (by decide)).trans h.main_arg1
  main_arg2 := (keep_0 W main_arg2 (by decide)).trans h.main_arg2
  main_arg3 := (keep_0 W main_arg3 (by decide)).trans h.main_arg3
  main_arg4 := (keep_0 W main_arg4 (by decide)).trans h.main_arg4
  main_arg5 := (keep_0 W main_arg5 (by decide)).trans h.main_arg5
  main_arg6 := (keep_0 W main_arg6 (by decide)).trans h.main_arg6
  main_arg7 := (keep_0 W main_arg7 (by decide)).trans h.main_arg7
  main_arg8 := (keep_0 W main_arg8 (by decide)).trans h.main_arg8
  main_arg9 := (keep_0 W main_arg9 (by decide)).trans h.main_arg9
  main_arg10 := (keep_0 W main_arg10 (by decide)).trans h.main_arg10
  main_arg11 := (keep_0 W main_arg11 (by decide)).trans h.main_arg11
  main_arg12 := (keep_0 W main_arg12 (by decide)).trans h.main_arg12
  main_arg13 := (keep_0 W main_arg13 (by decide)).trans h.main_arg13
  main_arg14 := (keep_0 W main_arg14 (by decide)).trans h.main_arg14
  main_v1 := by
    simp only [ops_0]
    after_results_simp
    simp only [h.main_arg1] <;> rfl
  main_v3 := by
    simp only [ops_0]
    after_results_simp
    simp only [h.main_arg1] <;> rfl
  main_v7 := by
    simp only [ops_0]
    after_results_simp
    simp only [h.main_arg4, h.main_arg3, h.main_arg0] <;> rfl
  main_v11 := by
    simp only [ops_0]
    after_results_simp
    simp only [h.main_arg6, h.main_arg5, h.main_arg2] <;> rfl
  main_v23 := by
    simp only [ops_0]
    after_results_simp
    simp only [h.main_arg8, h.main_arg7, h.main_arg4, h.main_arg3, h.main_arg0] <;> rfl
  main_v31 := by
    simp only [ops_0]
    after_results_simp
    simp only [h.main_arg8, h.main_arg7, h.main_arg4, h.main_arg3, h.main_arg0] <;> rfl
  main_v39 := by
    simp only [ops_0]
    after_results_simp
    simp only [h.main_arg8, h.main_arg7, h.main_arg6, h.main_arg5, h.main_arg2] <;> rfl
  main_v47 := by
    simp only [ops_0]
    after_results_simp
    simp only [h.main_arg8, h.main_arg7, h.main_arg4, h.main_arg3, h.main_arg0] <;> rfl
  main_v55 := by
    simp only [ops_0]
    after_results_simp
    simp only [h.main_arg8, h.main_arg7, h.main_arg4, h.main_arg3, h.main_arg0] <;> rfl
  main_v57 := by
    simp only [ops_0]
    after_results_simp
    simp only [h.main_arg1] <;> rfl
  main_c_0 := by
    simp only [ops_0]
    after_results_simp
    all_goals rfl

end Cert.RefRun

end
-- ==== Proof.RefRunW1.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 1 carries the invariant from its first operation to its last. -/
theorem step_1 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv1 W x0 x1 x2 x3 x4 x5 x6 x7 x8 x9 x10 x11 x12 x13 x14) : Inv2 (after ops_1 W) x0 x1 x2 x3 x4 x5 x6 x7 x8 x9 x10 x11 x12 x13 x14 where
  main_arg0 := (keep_1 W main_arg0 (by decide)).trans h.main_arg0
  main_arg1 := (keep_1 W main_arg1 (by decide)).trans h.main_arg1
  main_arg2 := (keep_1 W main_arg2 (by decide)).trans h.main_arg2
  main_arg3 := (keep_1 W main_arg3 (by decide)).trans h.main_arg3
  main_arg4 := (keep_1 W main_arg4 (by decide)).trans h.main_arg4
  main_arg5 := (keep_1 W main_arg5 (by decide)).trans h.main_arg5
  main_arg6 := (keep_1 W main_arg6 (by decide)).trans h.main_arg6
  main_arg7 := (keep_1 W main_arg7 (by decide)).trans h.main_arg7
  main_arg8 := (keep_1 W main_arg8 (by decide)).trans h.main_arg8
  main_arg9 := (keep_1 W main_arg9 (by decide)).trans h.main_arg9
  main_arg10 := (keep_1 W main_arg10 (by decide)).trans h.main_arg10
  main_arg11 := (keep_1 W main_arg11 (by decide)).trans h.main_arg11
  main_arg12 := (keep_1 W main_arg12 (by decide)).trans h.main_arg12
  main_arg13 := (keep_1 W main_arg13 (by decide)).trans h.main_arg13
  main_arg14 := (keep_1 W main_arg14 (by decide)).trans h.main_arg14
  main_v1 := (keep_1 W main_v1 (by decide)).trans h.main_v1
  main_v3 := (keep_1 W main_v3 (by decide)).trans h.main_v3
  main_v7 := (keep_1 W main_v7 (by decide)).trans h.main_v7
  main_v23 := (keep_1 W main_v23 (by decide)).trans h.main_v23
  main_v31 := (keep_1 W main_v31 (by decide)).trans h.main_v31
  main_v77 := by
    simp only [ops_1]
    after_results_simp
    simp only [h.main_v1, h.main_v55, h.main_v3, h.main_c_0, h.main_v57, h.main_v47, h.main_v39] <;> rfl
  main_v108 := by
    simp only [ops_1]
    after_results_simp
    simp only [h.main_arg10, h.main_v1, h.main_v55, h.main_v3, h.main_c_0, h.main_v57, h.main_v47, h.main_v39, h.main_arg9, h.main_v11] <;> (try simp only [TRef.ofBuf, TRef.toBuf, cast_eq]) <;> rfl

end Cert.RefRun

end
-- ==== Proof.RefRunW2.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 2 carries the invariant from its first operation to its last. -/
theorem step_2 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv2 W x0 x1 x2 x3 x4 x5 x6 x7 x8 x9 x10 x11 x12 x13 x14) : Inv3 (after ops_2 W) x0 x1 x2 x3 x4 x5 x6 x7 x8 x9 x10 x11 x12 x13 x14 where
  main_arg0 := (keep_2 W main_arg0 (by decide)).trans h.main_arg0
  main_arg1 := (keep_2 W main_arg1 (by decide)).trans h.main_arg1
  main_arg2 := (keep_2 W main_arg2 (by decide)).trans h.main_arg2
  main_arg3 := (keep_2 W main_arg3 (by decide)).trans h.main_arg3
  main_arg4 := (keep_2 W main_arg4 (by decide)).trans h.main_arg4
  main_arg5 := (keep_2 W main_arg5 (by decide)).trans h.main_arg5
  main_arg6 := (keep_2 W main_arg6 (by decide)).trans h.main_arg6
  main_arg7 := (keep_2 W main_arg7 (by decide)).trans h.main_arg7
  main_arg8 := (keep_2 W main_arg8 (by decide)).trans h.main_arg8
  main_arg9 := (keep_2 W main_arg9 (by decide)).trans h.main_arg9
  main_arg10 := (keep_2 W main_arg10 (by decide)).trans h.main_arg10
  main_arg11 := (keep_2 W main_arg11 (by decide)).trans h.main_arg11
  main_arg12 := (keep_2 W main_arg12 (by decide)).trans h.main_arg12
  main_arg13 := (keep_2 W main_arg13 (by decide)).trans h.main_arg13
  main_arg14 := (keep_2 W main_arg14 (by decide)).trans h.main_arg14
  main_v1 := (keep_2 W main_v1 (by decide)).trans h.main_v1
  main_v3 := (keep_2 W main_v3 (by decide)).trans h.main_v3
  main_v108 := (keep_2 W main_v108 (by decide)).trans h.main_v108
  main_v151 := by
    simp only [ops_2]
    after_results_simp
    simp only [h.main_arg10, h.main_v1, h.main_v31, h.main_v77, h.main_v3, h.main_v23, h.main_arg9, h.main_v7] <;> (try simp only [TRef.ofBuf, TRef.toBuf, cast_eq]) <;> rfl
  main_v153 := by
    simp only [ops_2]
    after_results_simp
    simp only [h.main_arg7] <;> rfl
  main_v155 := by
    simp only [ops_2]
    after_results_simp
    simp only [h.main_arg8] <;> rfl
  main_v158 := by
    simp only [ops_2]
    after_results_simp
    simp only [h.main_arg7, h.main_arg10, h.main_v1, h.main_v31, h.main_v77, h.main_v3, h.main_v23, h.main_arg9, h.main_v7] <;> (try simp only [TRef.ofBuf, TRef.toBuf, cast_eq]) <;> rfl
  main_v160 := by
    simp only [ops_2]
    after_results_simp
    simp only [h.main_arg8] <;> rfl

end Cert.RefRun

end
-- ==== Proof.RefRunW3.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 3 carries the invariant from its first operation to its last. -/
theorem step_3 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv3 W x0 x1 x2 x3 x4 x5 x6 x7 x8 x9 x10 x11 x12 x13 x14) : Inv4 (after ops_3 W) x0 x1 x2 x3 x4 x5 x6 x7 x8 x9 x10 x11 x12 x13 x14 where
  main_arg0 := (keep_3 W main_arg0 (by decide)).trans h.main_arg0
  main_arg1 := (keep_3 W main_arg1 (by decide)).trans h.main_arg1
  main_arg2 := (keep_3 W main_arg2 (by decide)).trans h.main_arg2
  main_arg3 := (keep_3 W main_arg3 (by decide)).trans h.main_arg3
  main_arg4 := (keep_3 W main_arg4 (by decide)).trans h.main_arg4
  main_arg5 := (keep_3 W main_arg5 (by decide)).trans h.main_arg5
  main_arg6 := (keep_3 W main_arg6 (by decide)).trans h.main_arg6
  main_arg7 := (keep_3 W main_arg7 (by decide)).trans h.main_arg7
  main_arg8 := (keep_3 W main_arg8 (by decide)).trans h.main_arg8
  main_arg9 := (keep_3 W main_arg9 (by decide)).trans h.main_arg9
  main_arg10 := (keep_3 W main_arg10 (by decide)).trans h.main_arg10
  main_arg11 := (keep_3 W main_arg11 (by decide)).trans h.main_arg11
  main_arg12 := (keep_3 W main_arg12 (by decide)).trans h.main_arg12
  main_arg13 := (keep_3 W main_arg13 (by decide)).trans h.main_arg13
  main_arg14 := (keep_3 W main_arg14 (by decide)).trans h.main_arg14
  main_v1 := (keep_3 W main_v1 (by decide)).trans h.main_v1
  main_v3 := (keep_3 W main_v3 (by decide)).trans h.main_v3
  main_v108 := (keep_3 W main_v108 (by decide)).trans h.main_v108
  main_v151 := (keep_3 W main_v151 (by decide)).trans h.main_v151
  main_v163 := by
    simp only [ops_3]
    after_results_simp
    simp only [h.main_v160, h.main_v158] <;> rfl
  main_v171 := by
    simp only [ops_3]
    after_results_simp
    simp only [h.main_v155, h.main_v153, h.main_v151] <;> rfl
  main_v211 := by
    simp only [ops_3]
    after_results_simp
    simp only [h.main_v1, h.main_v155, h.main_v153, h.main_v151, h.main_v3, h.main_v108] <;> rfl
  main_v215 := by
    simp only [ops_3]
    after_results_simp
    simp only [h.main_v1, h.main_v155, h.main_v153, h.main_v151, h.main_v3, h.main_v108] <;> rfl

end Cert.RefRun

end
-- ==== Proof.RefRunW4.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 4 carries the invariant from its first operation to its last. -/
theorem step_4 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv4 W x0 x1 x2 x3 x4 x5 x6 x7 x8 x9 x10 x11 x12 x13 x14) : Inv5 (after ops_4 W) x0 x1 x2 x3 x4 x5 x6 x7 x8 x9 x10 x11 x12 x13 x14 where
  main_arg0 := (keep_4 W main_arg0 (by decide)).trans h.main_arg0
  main_arg1 := (keep_4 W main_arg1 (by decide)).trans h.main_arg1
  main_arg2 := (keep_4 W main_arg2 (by decide)).trans h.main_arg2
  main_arg3 := (keep_4 W main_arg3 (by decide)).trans h.main_arg3
  main_arg4 := (keep_4 W main_arg4 (by decide)).trans h.main_arg4
  main_arg5 := (keep_4 W main_arg5 (by decide)).trans h.main_arg5
  main_arg6 := (keep_4 W main_arg6 (by decide)).trans h.main_arg6
  main_arg7 := (keep_4 W main_arg7 (by decide)).trans h.main_arg7
  main_arg8 := (keep_4 W main_arg8 (by decide)).trans h.main_arg8
  main_arg9 := (keep_4 W main_arg9 (by decide)).trans h.main_arg9
  main_arg10 := (keep_4 W main_arg10 (by decide)).trans h.main_arg10
  main_arg11 := (keep_4 W main_arg11 (by decide)).trans h.main_arg11
  main_arg12 := (keep_4 W main_arg12 (by decide)).trans h.main_arg12
  main_arg13 := (keep_4 W main_arg13 (by decide)).trans h.main_arg13
  main_arg14 := (keep_4 W main_arg14 (by decide)).trans h.main_arg14
  main_v1 := (keep_4 W main_v1 (by decide)).trans h.main_v1
  main_v3 := (keep_4 W main_v3 (by decide)).trans h.main_v3
  main_v151 := (keep_4 W main_v151 (by decide)).trans h.main_v151
  main_v248 := by
    simp only [ops_4]
    after_results_simp
    simp only [h.main_arg10, h.main_v211, h.main_arg9, h.main_v108] <;> (try simp only [TRef.ofBuf, TRef.toBuf, cast_eq]) <;> rfl
  main_v260 := by
    simp only [ops_4]
    after_results_simp
    simp only [h.main_v1, h.main_v171, h.main_v215, h.main_v3, h.main_v163] <;> rfl
  main_v262 := by
    simp only [ops_4]
    after_results_simp
    simp only [h.main_arg9] <;> rfl
  main_v264 := by
    simp only [ops_4]
    after_results_simp
    simp only [h.main_arg10] <;> rfl
  main_v265 := by
    simp only [ops_4]
    after_results_simp
    simp only [h.main_v1, h.main_v171, h.main_v215, h.main_v3, h.main_v163] <;> rfl

end Cert.RefRun

end
-- ==== Proof.RefRunW5.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 5 carries the invariant from its first operation to its last. -/
theorem step_5 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv5 W x0 x1 x2 x3 x4 x5 x6 x7 x8 x9 x10 x11 x12 x13 x14) : Inv6 (after ops_5 W) x0 x1 x2 x3 x4 x5 x6 x7 x8 x9 x10 x11 x12 x13 x14 where
  main_arg0 := (keep_5 W main_arg0 (by decide)).trans h.main_arg0
  main_arg1 := (keep_5 W main_arg1 (by decide)).trans h.main_arg1
  main_arg2 := (keep_5 W main_arg2 (by decide)).trans h.main_arg2
  main_arg3 := (keep_5 W main_arg3 (by decide)).trans h.main_arg3
  main_arg4 := (keep_5 W main_arg4 (by decide)).trans h.main_arg4
  main_arg5 := (keep_5 W main_arg5 (by decide)).trans h.main_arg5
  main_arg6 := (keep_5 W main_arg6 (by decide)).trans h.main_arg6
  main_arg7 := (keep_5 W main_arg7 (by decide)).trans h.main_arg7
  main_arg8 := (keep_5 W main_arg8 (by decide)).trans h.main_arg8
  main_arg9 := (keep_5 W main_arg9 (by decide)).trans h.main_arg9
  main_arg10 := (keep_5 W main_arg10 (by decide)).trans h.main_arg10
  main_arg11 := (keep_5 W main_arg11 (by decide)).trans h.main_arg11
  main_arg12 := (keep_5 W main_arg12 (by decide)).trans h.main_arg12
  main_arg13 := (keep_5 W main_arg13 (by decide)).trans h.main_arg13
  main_arg14 := (keep_5 W main_arg14 (by decide)).trans h.main_arg14
  main_v1 := (keep_5 W main_v1 (by decide)).trans h.main_v1
  main_v3 := (keep_5 W main_v3 (by decide)).trans h.main_v3
  main_v248 := (keep_5 W main_v248 (by decide)).trans h.main_v248
  main_v291 := by
    simp only [ops_5]
    after_results_simp
    simp only [h.main_v264, h.main_v265, h.main_v260, h.main_v262, h.main_v151] <;> (try simp only [TRef.ofBuf, TRef.toBuf, cast_eq]) <;> rfl
  main_v293 := by
    simp only [ops_5]
    after_results_simp
    simp only [h.main_arg7] <;> rfl
  main_v295 := by
    simp only [ops_5]
    after_results_simp
    simp only [h.main_arg8] <;> rfl
  main_v303 := by
    simp only [ops_5]
    after_results_simp
    simp only [h.main_arg8, h.main_arg7, h.main_v264, h.main_v265, h.main_v260, h.main_v262, h.main_v151] <;> (try simp only [TRef.ofBuf, TRef.toBuf, cast_eq]) <;> rfl
  main_v311 := by
    simp only [ops_5]
    after_results_simp
    simp only [h.main_arg8, h.main_arg7, h.main_v264, h.main_v265, h.main_v260, h.main_v262, h.main_v151] <;> (try simp only [TRef.ofBuf, TRef.toBuf, cast_eq]) <;> rfl
  main_v319 := by
    simp only [ops_5]
    after_results_simp
    simp only [h.main_arg8, h.main_arg7, h.main_v248] <;> rfl
  main_v321 := by
    simp only [ops_5]
    after_results_simp
    simp only [h.main_arg7] <;> rfl

end Cert.RefRun

end
-- ==== Proof.RefRunW6.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 6 carries the invariant from its first operation to its last. -/
theorem step_6 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv6 W x0 x1 x2 x3 x4 x5 x6 x7 x8 x9 x10 x11 x12 x13 x14) : Inv7 (after ops_6 W) x0 x1 x2 x3 x4 x5 x6 x7 x8 x9 x10 x11 x12 x13 x14 where
  main_arg0 := (keep_6 W main_arg0 (by decide)).trans h.main_arg0
  main_arg1 := (keep_6 W main_arg1 (by decide)).trans h.main_arg1
  main_arg2 := (keep_6 W main_arg2 (by decide)).trans h.main_arg2
  main_arg3 := (keep_6 W main_arg3 (by decide)).trans h.main_arg3
  main_arg4 := (keep_6 W main_arg4 (by decide)).trans h.main_arg4
  main_arg5 := (keep_6 W main_arg5 (by decide)).trans h.main_arg5
  main_arg6 := (keep_6 W main_arg6 (by decide)).trans h.main_arg6
  main_arg7 := (keep_6 W main_arg7 (by decide)).trans h.main_arg7
  main_arg8 := (keep_6 W main_arg8 (by decide)).trans h.main_arg8
  main_arg9 := (keep_6 W main_arg9 (by decide)).trans h.main_arg9
  main_arg10 := (keep_6 W main_arg10 (by decide)).trans h.main_arg10
  main_arg11 := (keep_6 W main_arg11 (by decide)).trans h.main_arg11
  main_arg12 := (keep_6 W main_arg12 (by decide)).trans h.main_arg12
  main_arg13 := (keep_6 W main_arg13 (by decide)).trans h.main_arg13
  main_arg14 := (keep_6 W main_arg14 (by decide)).trans h.main_arg14
  main_v1 := (keep_6 W main_v1 (by decide)).trans h.main_v1
  main_v3 := (keep_6 W main_v3 (by decide)).trans h.main_v3
  main_v248 := (keep_6 W main_v248 (by decide)).trans h.main_v248
  main_v291 := (keep_6 W main_v291 (by decide)).trans h.main_v291
  main_v303 := (keep_6 W main_v303 (by decide)).trans h.main_v303
  main_v311 := (keep_6 W main_v311 (by decide)).trans h.main_v311
  main_v351 := by
    simp only [ops_6]
    after_results_simp
    simp only [h.main_v1, h.main_v295, h.main_v293, h.main_v291, h.main_v3, h.main_v321, h.main_v319] <;> rfl
  main_v357 := by
    simp only [ops_6]
    after_results_simp
    simp only [h.main_v1, h.main_v295, h.main_v293, h.main_v291, h.main_v3, h.main_v321, h.main_v319] <;> rfl
  main_v359 := by
    simp only [ops_6]
    after_results_simp
    simp only [h.main_arg9] <;> rfl
  main_v361 := by
    simp only [ops_6]
    after_results_simp
    simp only [h.main_arg10] <;> rfl
  main_v364 := by
    simp only [ops_6]
    after_results_simp
    simp only [h.main_v1, h.main_v295, h.main_v293, h.main_v291, h.main_v3, h.main_v321, h.main_v319] <;> rfl
  main_v371 := by
    simp only [ops_6]
    after_results_simp
    simp only [h.main_v1, h.main_v295, h.main_v293, h.main_v291, h.main_v3, h.main_v321, h.main_v319] <;> rfl

end Cert.RefRun

end
-- ==== Proof.RefRunW7.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 7 carries the invariant from its first operation to its last. -/
theorem step_7 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv7 W x0 x1 x2 x3 x4 x5 x6 x7 x8 x9 x10 x11 x12 x13 x14) : Inv8 (after ops_7 W) x0 x1 x2 x3 x4 x5 x6 x7 x8 x9 x10 x11 x12 x13 x14 where
  main_arg0 := (keep_7 W main_arg0 (by decide)).trans h.main_arg0
  main_arg1 := (keep_7 W main_arg1 (by decide)).trans h.main_arg1
  main_arg2 := (keep_7 W main_arg2 (by decide)).trans h.main_arg2
  main_arg3 := (keep_7 W main_arg3 (by decide)).trans h.main_arg3
  main_arg4 := (keep_7 W main_arg4 (by decide)).trans h.main_arg4
  main_arg5 := (keep_7 W main_arg5 (by decide)).trans h.main_arg5
  main_arg6 := (keep_7 W main_arg6 (by decide)).trans h.main_arg6
  main_arg7 := (keep_7 W main_arg7 (by decide)).trans h.main_arg7
  main_arg8 := (keep_7 W main_arg8 (by decide)).trans h.main_arg8
  main_arg9 := (keep_7 W main_arg9 (by decide)).trans h.main_arg9
  main_arg10 := (keep_7 W main_arg10 (by decide)).trans h.main_arg10
  main_arg11 := (keep_7 W main_arg11 (by decide)).trans h.main_arg11
  main_arg12 := (keep_7 W main_arg12 (by decide)).trans h.main_arg12
  main_arg13 := (keep_7 W main_arg13 (by decide)).trans h.main_arg13
  main_arg14 := (keep_7 W main_arg14 (by decide)).trans h.main_arg14
  main_v291 := (keep_7 W main_v291 (by decide)).trans h.main_v291
  main_v404 := by
    simp only [ops_7]
    after_results_simp
    simp only [h.main_arg10] <;> rfl
  main_v420 := by
    simp only [ops_7]
    after_results_simp
    simp only [h.main_v1, h.main_v311, h.main_v357, h.main_v3, h.main_v303, h.main_arg9] <;> rfl
  main_v422 := by
    simp only [ops_7]
    after_results_simp
    simp only [h.main_v1, h.main_v311, h.main_v357, h.main_v3, h.main_v303] <;> rfl

end Cert.RefRun

end
-- ==== Proof.RefRunW8.lean ====
import proofs.«418385_j87393994539142_1_alg».proof.Proof.RefRunInv

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 8000000 in
/-- Window 8 carries the invariant from its first operation to its last. -/
theorem step_8 {W : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv8 W x0 x1 x2 x3 x4 x5 x6 x7 x8 x9 x10 x11 x12 x13 x14) : Inv9 (after ops_8 W) x0 x1 x2 x3 x4 x5 x6 x7 x8 x9 x10 x11 x12 x13 x14 where
  main_arg0 := (keep_8 W main_arg0 (by decide)).trans h.main_arg0
  main_arg1 := (keep_8 W main_arg1 (by decide)).trans h.main_arg1
  main_arg2 := (keep_8 W main_arg2 (by decide)).trans h.main_arg2
  main_arg3 := (keep_8 W main_arg3 (by decide)).trans h.main_arg3
  main_arg4 := (keep_8 W main_arg4 (by decide)).trans h.main_arg4
  main_arg5 := (keep_8 W main_arg5 (by decide)).trans h.main_arg5
  main_arg6 := (keep_8 W main_arg6 (by decide)).trans h.main_arg6
  main_arg7 := (keep_8 W main_arg7 (by decide)).trans h.main_arg7
  main_arg8 := (keep_8 W main_arg8 (by decide)).trans h.main_arg8
  main_arg9 := (keep_8 W main_arg9 (by decide)).trans h.main_arg9
  main_arg10 := (keep_8 W main_arg10 (by decide)).trans h.main_arg10
  main_arg11 := (keep_8 W main_arg11 (by decide)).trans h.main_arg11
  main_arg12 := (keep_8 W main_arg12 (by decide)).trans h.main_arg12
  main_arg13 := (keep_8 W main_arg13 (by decide)).trans h.main_arg13
  main_arg14 := (keep_8 W main_arg14 (by decide)).trans h.main_arg14
  main_v442 := by
    simp only [ops_8]
    after_results_simp
    simp only [h.main_arg14, h.main_arg13, h.main_arg12, h.main_arg11, h.main_v404, h.main_v422, h.main_v420, h.main_v291] <;> (try simp only [TRef.ofBuf, TRef.toBuf, cast_eq]) <;> rfl

end Cert.RefRun

end
-- ==== Proof.RefRun.lean ====
import proofs.«418385_j87393994539142_1_alg».proof.Proof.RefRunW0
import proofs.«418385_j87393994539142_1_alg».proof.Proof.RefRunW1
import proofs.«418385_j87393994539142_1_alg».proof.Proof.RefRunW2
import proofs.«418385_j87393994539142_1_alg».proof.Proof.RefRunW3
import proofs.«418385_j87393994539142_1_alg».proof.Proof.RefRunW4
import proofs.«418385_j87393994539142_1_alg».proof.Proof.RefRunW5
import proofs.«418385_j87393994539142_1_alg».proof.Proof.RefRunW6
import proofs.«418385_j87393994539142_1_alg».proof.Proof.RefRunW7
import proofs.«418385_j87393994539142_1_alg».proof.Proof.RefRunW8

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! The reference program's run, stage by stage. @main is a straight line of 516 host operations, each writing one
    buffer of its own from buffers written before it. Read at the boundaries between its nine windows, the device's
    buffers satisfy an invariant (`InvK`): every argument still holds its launch contents and every buffer a later
    operation reads holds the value its operation computes from the arguments (the staged functions `val_‹buffer›`).
    Each window carries the invariant from one boundary to the next (`step_K`); at the launch it is the arguments'
    contents themselves, and at the end it gives the result buffer at `val_main_v442` of the arguments. -/

/-- The contents after two lists of operations in a row are the second list's from the first list's. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- From the launch to the end of @main: the nine windows in a row, each carrying the invariant to the next boundary. -/
theorem inv_end {V0 : Valuation τ sig (Elt F)} {x0 : (⟨S20000x128, .f32⟩ : BufTy).Contents (Elt F)} {x1 : (⟨S2x320000, .i32⟩ : BufTy).Contents (Elt F)} {x2 : (⟨S320000x128, .f32⟩ : BufTy).Contents (Elt F)} {x3 : (⟨S128x128, .f32⟩ : BufTy).Contents (Elt F)} {x4 : (⟨S128, .f32⟩ : BufTy).Contents (Elt F)} {x5 : (⟨S128x128, .f32⟩ : BufTy).Contents (Elt F)} {x6 : (⟨S128, .f32⟩ : BufTy).Contents (Elt F)} {x7 : (⟨S3x5x128x128, .f32⟩ : BufTy).Contents (Elt F)} {x8 : (⟨S3x5x128, .f32⟩ : BufTy).Contents (Elt F)} {x9 : (⟨S3x2x128, .f32⟩ : BufTy).Contents (Elt F)} {x10 : (⟨S3x2x128, .f32⟩ : BufTy).Contents (Elt F)} {x11 : (⟨S128x128, .f32⟩ : BufTy).Contents (Elt F)} {x12 : (⟨S128, .f32⟩ : BufTy).Contents (Elt F)} {x13 : (⟨S128x64, .f32⟩ : BufTy).Contents (Elt F)} {x14 : (⟨S64, .f32⟩ : BufTy).Contents (Elt F)}
    (h : Inv0 V0 x0 x1 x2 x3 x4 x5 x6 x7 x8 x9 x10 x11 x12 x13 x14) : Inv9 (after (ops (F := F)) V0) x0 x1 x2 x3 x4 x5 x6 x7 x8 x9 x10 x11 x12 x13 x14 := by
  have e : after (ops (F := F)) V0 = after ops_8 (after ops_7 (after ops_6 (after ops_5 (after ops_4 (after ops_3 (after ops_2 (after ops_1 (after ops_0 (V0))))))))) := by
    simp only [ops, after_app]
  rw [e]
  exact step_8 (step_7 (step_6 (step_5 (step_4 (step_3 (step_2 (step_1 (step_0 (h)))))))))

set_option maxRecDepth 8192 in
/-- On every device, for any float values, from any memory with zero counters: every weakly fair execution of
    @main terminates with the result buffer at its staged value of the arguments' launch contents and the arguments
    unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v442) = Cert.ReferenceIdeal.Read.val_main_v442 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      have hI := inv_end (F := F) (V0 := launchContents m c) (x0 := m ((c.tc : Thread nD τ).loc main_arg0)) (x1 := m ((c.tc : Thread nD τ).loc main_arg1)) (x2 := m ((c.tc : Thread nD τ).loc main_arg2)) (x3 := m ((c.tc : Thread nD τ).loc main_arg3)) (x4 := m ((c.tc : Thread nD τ).loc main_arg4)) (x5 := m ((c.tc : Thread nD τ).loc main_arg5)) (x6 := m ((c.tc : Thread nD τ).loc main_arg6)) (x7 := m ((c.tc : Thread nD τ).loc main_arg7)) (x8 := m ((c.tc : Thread nD τ).loc main_arg8)) (x9 := m ((c.tc : Thread nD τ).loc main_arg9)) (x10 := m ((c.tc : Thread nD τ).loc main_arg10)) (x11 := m ((c.tc : Thread nD τ).loc main_arg11)) (x12 := m ((c.tc : Thread nD τ).loc main_arg12)) (x13 := m ((c.tc : Thread nD τ).loc main_arg13)) (x14 := m ((c.tc : Thread nD τ).loc main_arg14))
        ⟨rfl, rfl, rfl, rfl, rfl, rfl, rfl, rfl, rfl, rfl, rfl, rfl, rfl, rfl, rfl⟩
      exact ⟨(h c main_v442).trans hI.main_v442,
        (h c main_arg0).trans hI.main_arg0,
        (h c main_arg1).trans hI.main_arg1,
        (h c main_arg2).trans hI.main_arg2,
        (h c main_arg3).trans hI.main_arg3,
        (h c main_arg4).trans hI.main_arg4,
        (h c main_arg5).trans hI.main_arg5,
        (h c main_arg6).trans hI.main_arg6,
        (h c main_arg7).trans hI.main_arg7,
        (h c main_arg8).trans hI.main_arg8,
        (h c main_arg9).trans hI.main_arg9,
        (h c main_arg10).trans hI.main_arg10,
        (h c main_arg11).trans hI.main_arg11,
        (h c main_arg12).trans hI.main_arg12,
        (h c main_arg13).trans hI.main_arg13,
        (h c main_arg14).trans hI.main_arg14⟩)
    (run_seq scopedRefs_eq scopedSems_eq defs main (fun _ => ops) main_eq (fun _ => ops_sub) m ρ (fun _ => ops_fresh))

end Cert.RefRun

end
-- ==== Proof.Stage.lean ====
/-
  The network's stages as functions of matrices of extended reals, index by index.

  A graph network layer is made of five kinds of stage: an affine map of rows (a matrix product plus a bias row),
  a selection of rows by an index list, entrywise gates, per-column batch statistics with the normalisation that
  uses them, and a sum of edge rows into the node each edge points at. Both programs compute compositions of
  these stages; they differ in how the column variance is spelt (mean of squares minus squared mean, against mean of
  squared deviations) and in how the four node projections are laid out (one wide product against four narrow ones).
-/
import Idealize.ShloMosaic.PureOps.Ideal
import Idealize.ShloMosaic.Lib.ValueIdx

noncomputable section

open scoped BigOperators

namespace Cert.Stage

open Idealize.ShloMosaic Idealize.ShloMosaic.ValueIdx

/-- An R × C matrix of extended reals. -/
abbrev Mat (R C : Nat) : Type := Fin R → Fin C → EReal
/-- A row of C extended reals. -/
abbrev Row (C : Nat) : Type := Fin C → EReal

/-- A rank-2 array read as a matrix. -/
def toMat {R C : Nat} (a : (⟨2, ![R, C]⟩ : Shape).Idx → EReal) : Mat R C := fun i j => a (ix2 i j)
/-- A rank-1 array read as a row. -/
def toRow {C : Nat} (a : (⟨1, ![C]⟩ : Shape).Idx → EReal) : Row C := fun j => a (ix1 j)
/-- A 1 × C array read as a row. -/
def toRow1 {C : Nat} (a : (⟨2, ![1, C]⟩ : Shape).Idx → EReal) : Row C := fun j => a (ix2 (0 : Fin 1) j)

/-- The affine map of rows: entry (i, j) is the inner product of row i of x with column j of W, plus b j. -/
def lin {R K D : Nat} (x : Mat R K) (W : Mat K D) (b : Row D) : Mat R D := fun i j => (∑ k, x i k * W k j) + b j

/-- The rows of x an index list names. -/
def rows {N E D : Nat} (x : Mat N D) (idx : Fin E → Fin N) : Mat E D := fun e j => x (idx e) j

/-- The edge pre-activation: the edge's own projection plus its target's and its source's. -/
def ehat {E D : Nat} (ce dh eh : Mat E D) : Mat E D := fun e j => ce e j + dh e j + eh e j

/-- The gated message: the logistic of the pre-activation times the source's projection. -/
def msg {E D : Nat} (eh bh : Mat E D) : Mat E D := fun e j => Ideal.logistic (eh e j) * bh e j

/-- The column mean: the column's sum divided by cnt (the row count as an extended real). -/
def colMean {R D : Nat} (cnt : EReal) (x : Mat R D) : Row D := fun j => Ideal.div (∑ i, x i j) cnt

/-- The column variance as mean of squares minus squared mean. -/
def colVarSq {R D : Nat} (cnt : EReal) (x : Mat R D) : Row D :=
  fun j => Ideal.div (∑ i, x i j * x i j) cnt - colMean cnt x j * colMean cnt x j

/-- The column variance as mean of squared deviations from the mean. -/
def colVarDev {R D : Nat} (cnt : EReal) (x : Mat R D) : Row D :=
  fun j => Ideal.div (∑ i, (x i j - colMean cnt x j) * (x i j - colMean cnt x j)) cnt

/-- Normalise, scale, shift, clamp at zero, add the residual. -/
def bnRelu {R D : Nat} (eps : EReal) (x res : Mat R D) (mu var g be : Row D) : Mat R D :=
  fun i j => res i j + max (g j * (x i j - mu j) * Ideal.rsqrt (var j + eps) + be j) 0

/-- The sum of the update rows that point at each node. -/
def segSum {E N D : Nat} (u : Mat E D) (dst : Fin E → Fin N) : Mat N D :=
  fun n j => ∑ e ∈ Finset.univ.filter (fun e : Fin E => dst e = n), u e j

/-- Entrywise sum of two matrices. -/
def madd {R D : Nat} (a b : Mat R D) : Mat R D := fun i j => a i j + b i j

/-- Columns lo … lo + D − 1 of a wider matrix. -/
def cols {R W D : Nat} (lo : Nat) (h : lo + D ≤ W) (x : Mat R W) : Mat R D :=
  fun i j => x i ⟨lo + j.val, by have := j.isLt; omega⟩

/-- Every entry of a matrix is a real number. -/
def MFin {R C : Nat} (x : Mat R C) : Prop := ∀ i j, ∃ r : ℝ, x i j = (r : EReal)
/-- Every entry of a row is a real number. -/
def RFin {C : Nat} (x : Row C) : Prop := ∀ j, ∃ r : ℝ, x j = (r : EReal)

end Cert.Stage

end
-- ==== Proof.Algebra.lean ====
/-
  The algebra of one layer over the extended reals.

  Every stage of the layer maps matrices of real numbers to matrices of real numbers, so a layer fed real
  inputs never meets an infinity. On real entries the two spellings of the column variance agree (mean of
  squares minus squared mean equals mean of squared deviations, when the divisor is the number of rows), and a
  block of columns of one wide affine map is the affine map with that block of the weights. Hence the layer
  written with either variance, and with either layout of the projections, is one function on real inputs.
-/
import proofs.«418385_j87393994539142_1_alg».proof.Proof.Stage
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real
import Mathlib.Tactic.Ring
import Mathlib.Tactic.FieldSimp
import Mathlib.Tactic.Positivity

noncomputable section

open scoped BigOperators

namespace Cert.Alg

open Cert.Stage Idealize.ShloMosaic

/-! ### Finite sums of reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is real. -/
theorem sum_fin {ι : Type*} (s : Finset ι) (g : ι → EReal) (hg : ∀ i, ∃ r : ℝ, g i = (r : EReal)) :
    ∃ r : ℝ, ∑ i ∈ s, g i = (r : EReal) := by
  choose f hf using hg
  exact ⟨∑ i ∈ s, f i, by rw [coe_sum]; exact Finset.sum_congr rfl (fun i _ => hf i)⟩

/-- The maximum of two reals, coerced, is the maximum of the coercions. -/
theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-! ### Every stage keeps real entries real -/

theorem lin_fin {R K D : Nat} {x : Mat R K} {W : Mat K D} {b : Row D}
    (hx : MFin x) (hW : MFin W) (hb : RFin b) : MFin (lin x W b) := by
  intro i j
  obtain ⟨s, hs⟩ := sum_fin Finset.univ (fun k => x i k * W k j) (fun k => by
    obtain ⟨a, ha⟩ := hx i k
    obtain ⟨c, hc⟩ := hW k j
    exact ⟨a * c, by rw [ha, hc, EReal.coe_mul]⟩)
  obtain ⟨c, hc⟩ := hb j
  exact ⟨s + c, by show (∑ k, x i k * W k j) + b j = _; rw [hs, hc, EReal.coe_add]⟩

theorem rows_fin {N E D : Nat} {x : Mat N D} (hx : MFin x) (idx : Fin E → Fin N) : MFin (rows x idx) :=
  fun e j => hx (idx e) j

theorem ehat_fin {E D : Nat} {ce dh eh : Mat E D} (hc : MFin ce) (hd : MFin dh) (he : MFin eh) :
    MFin (ehat ce dh eh) := by
  intro e j
  obtain ⟨a, ha⟩ := hc e j
  obtain ⟨b, hb⟩ := hd e j
  obtain ⟨c, hc'⟩ := he e j
  exact ⟨a + b + c, by show ce e j + dh e j + eh e j = _; rw [ha, hb, hc', EReal.coe_add, EReal.coe_add]⟩

theorem msg_fin {E D : Nat} {eh bh : Mat E D} (he : MFin eh) (hb : MFin bh) : MFin (msg eh bh) := by
  intro e j
  obtain ⟨a, ha⟩ := he e j
  obtain ⟨b, hb'⟩ := hb e j
  exact ⟨(1 + Real.exp (-a))⁻¹ * b, by
    show Ideal.logistic (eh e j) * bh e j = _
    rw [ha, hb', Ideal.logistic_coe, EReal.coe_mul]⟩

theorem madd_fin {R D : Nat} {a b : Mat R D} (ha : MFin a) (hb : MFin b) : MFin (madd a b) := by
  intro i j
  obtain ⟨r, hr⟩ := ha i j
  obtain ⟨s, hs⟩ := hb i j
  exact ⟨r + s, by show a i j + b i j = _; rw [hr, hs, EReal.coe_add]⟩

theorem cols_fin {R W D : Nat} (lo : Nat) (h : lo + D ≤ W) {x : Mat R W} (hx : MFin x) :
    MFin (cols lo h x) :=
  fun i j => hx i _

theorem segSum_fin {E N D : Nat} {u : Mat E D} (hu : MFin u) (dst : Fin E → Fin N) :
    MFin (segSum u dst) :=
  fun n j => sum_fin _ (fun e => u e j) (fun e => hu e j)

theorem colMean_fin {R D : Nat} {cnt : EReal} {n : ℝ} (hc : cnt = ((n : ℝ) : EReal)) (hn : n ≠ 0)
    {x : Mat R D} (hx : MFin x) : RFin (colMean cnt x) := by
  intro j
  obtain ⟨s, hs⟩ := sum_fin Finset.univ (fun i => x i j) (fun i => hx i j)
  exact ⟨s * (1 / n), by
    show Ideal.div (∑ i, x i j) cnt = _
    rw [hc, Ideal.div_coe hn, hs, EReal.coe_mul]⟩

/-- The mean of squared deviations of real entries over a positive count is a real number, and not negative. -/
theorem colVarDev_nonneg {R D : Nat} {cnt : EReal} {n : ℝ} (hc : cnt = ((n : ℝ) : EReal)) (hn : 0 < n)
    {x : Mat R D} (hx : MFin x) : ∀ j, ∃ v : ℝ, 0 ≤ v ∧ colVarDev cnt x j = (v : EReal) := by
  intro j
  obtain ⟨m, hm⟩ := colMean_fin hc hn.ne' hx j
  choose X hX using fun i => hx i j
  refine ⟨(∑ i, (X i - m) * (X i - m)) * (1 / n), ?_, ?_⟩
  · exact mul_nonneg (Finset.sum_nonneg (fun i _ => mul_self_nonneg _)) (by positivity)
  · show Ideal.div (∑ i, (x i j - colMean cnt x j) * (x i j - colMean cnt x j)) cnt = _
    rw [hc, Ideal.div_coe hn.ne', EReal.coe_mul, coe_sum]
    congr 1
    refine Finset.sum_congr rfl (fun i _ => ?_)
    rw [← hc, hm, hX i, ← EReal.coe_sub, ← EReal.coe_mul]

theorem colVarDev_fin {R D : Nat} {cnt : EReal} {n : ℝ} (hc : cnt = ((n : ℝ) : EReal)) (hn : 0 < n)
    {x : Mat R D} (hx : MFin x) : RFin (colVarDev cnt x) :=
  fun j => (colVarDev_nonneg hc hn hx j).imp (fun _ h => h.2)

theorem bnRelu_fin {R D : Nat} {eps : EReal} {e : ℝ} (he : eps = ((e : ℝ) : EReal)) (hpos : 0 < e)
    {x res : Mat R D} {mu var g be : Row D} (hx : MFin x) (hres : MFin res) (hmu : RFin mu)
    (hvar : ∀ j, ∃ v : ℝ, 0 ≤ v ∧ var j = (v : EReal)) (hg : RFin g) (hbe : RFin be) :
    MFin (bnRelu eps x res mu var g be) := by
  intro i j
  obtain ⟨a, ha⟩ := hx i j
  obtain ⟨r, hr⟩ := hres i j
  obtain ⟨m, hm⟩ := hmu j
  obtain ⟨v, hv0, hv⟩ := hvar j
  obtain ⟨c, hg'⟩ := hg j
  obtain ⟨b, hb⟩ := hbe j
  have hve : 0 < v + e := by linarith
  have hrs : Ideal.rsqrt (var j + eps) = (((Real.sqrt (v + e))⁻¹ : ℝ) : EReal) := by
    rw [hv, he, ← EReal.coe_add, Ideal.rsqrt_coe, if_neg (not_lt.mpr hve.le), if_neg hve.ne']
  refine ⟨r + max (c * (a - m) * (Real.sqrt (v + e))⁻¹ + b) 0, ?_⟩
  show res i j + max (g j * (x i j - mu j) * Ideal.rsqrt (var j + eps) + be j) 0 = _
  rw [hrs, ha, hr, hm, hg', hb, EReal.coe_add, coe_max', EReal.coe_add, EReal.coe_mul, EReal.coe_mul,
    EReal.coe_sub, EReal.coe_zero]

/-! ### The two spellings of the column variance agree on real entries -/

/-- In the reals: the mean of squares minus the squared mean is the mean of squared deviations, when the
    divisor is the number of terms. -/
theorem real_var_eq {R : Nat} (X : Fin R → ℝ) (n : ℝ) (hn0 : n ≠ 0) (hn : n = (R : ℝ)) :
    (∑ i, X i * X i) * (1 / n) - ((∑ i, X i) * (1 / n)) * ((∑ i, X i) * (1 / n))
      = (∑ i, (X i - (∑ i, X i) * (1 / n)) * (X i - (∑ i, X i) * (1 / n))) * (1 / n) := by
  set S : ℝ := ∑ i, X i with hS
  set m : ℝ := S * (1 / n) with hm
  have key : ∑ i, (X i - m) * (X i - m) = (∑ i, X i * X i) - 2 * m * S + n * (m * m) := by
    have h1 : ∀ i, (X i - m) * (X i - m) = X i * X i - 2 * m * X i + m * m := fun i => by ring
    simp only [h1, Finset.sum_add_distrib, Finset.sum_sub_distrib, ← Finset.mul_sum, Finset.sum_const,
      Finset.card_univ, Fintype.card_fin, nsmul_eq_mul, ← hS, ← hn]
    ring
  rw [key, hm]
  field_simp
  ring

theorem colVar_eq {R D : Nat} (n : ℝ) (cnt : EReal) (hc : cnt = ((n : ℝ) : EReal)) (hn0 : n ≠ 0)
    (hn : n = (R : ℝ)) (x : Mat R D) (hx : MFin x) : colVarSq cnt x = colVarDev cnt x := by
  funext j
  choose X hX using fun i => hx i j
  have hmean : colMean cnt x j = (((∑ i, X i) * (1 / n) : ℝ) : EReal) := by
    show Ideal.div (∑ i, x i j) cnt = _
    rw [hc, Ideal.div_coe hn0, EReal.coe_mul, coe_sum]
    congr 1
    exact Finset.sum_congr rfl (fun i _ => hX i)
  have hsumsq : ∑ i, x i j * x i j = ((∑ i, X i * X i : ℝ) : EReal) := by
    rw [coe_sum]
    exact Finset.sum_congr rfl (fun i _ => by rw [hX i, EReal.coe_mul])
  have hsumdev : ∑ i, (x i j - colMean cnt x j) * (x i j - colMean cnt x j)
      = ((∑ i, (X i - (∑ i, X i) * (1 / n)) * (X i - (∑ i, X i) * (1 / n)) : ℝ) : EReal) := by
    rw [coe_sum]
    exact Finset.sum_congr rfl (fun i _ => by rw [hmean, hX i, ← EReal.coe_sub, ← EReal.coe_mul])
  have hsq : colVarSq cnt x j
      = (((∑ i, X i * X i) * (1 / n) - ((∑ i, X i) * (1 / n)) * ((∑ i, X i) * (1 / n)) : ℝ) : EReal) := by
    show Ideal.div (∑ i, x i j * x i j) cnt - colMean cnt x j * colMean cnt x j = _
    rw [hmean, hsumsq, hc, Ideal.div_coe hn0, ← EReal.coe_mul, ← EReal.coe_mul, ← EReal.coe_sub]
  have hdev : colVarDev cnt x j
      = (((∑ i, (X i - (∑ i, X i) * (1 / n)) * (X i - (∑ i, X i) * (1 / n))) * (1 / n) : ℝ) : EReal) := by
    show Ideal.div (∑ i, (x i j - colMean cnt x j) * (x i j - colMean cnt x j)) cnt = _
    rw [hsumdev, hc, Ideal.div_coe hn0, ← EReal.coe_mul]
  rw [hsq, hdev, real_var_eq X n hn0 hn]

/-! ### A block of columns of a wide affine map -/

theorem cols_lin {R K W D : Nat} (lo : Nat) (h : lo + D ≤ W) (x : Mat R K) (Wc : Mat K W) (bc : Row W) :
    cols lo h (lin x Wc bc)
      = lin x (fun k j => Wc k ⟨lo + j.val, by have := j.isLt; omega⟩)
          (fun j => bc ⟨lo + j.val, by have := j.isLt; omega⟩) :=
  rfl

/-! ### One layer -/

/-- The weights of one layer: five square matrices with their bias rows, and the scale and shift rows of
    the node and edge normalisations. -/
structure LayerW (D : Nat) where
  (W0 W1 W2 W3 W4 : Mat D D)
  (b0 b1 b2 b3 b4 : Row D)
  (gN beN gE beE : Row D)

/-- Every weight of the layer is a real number. -/
structure LayerW.AllFin {D : Nat} (p : LayerW D) : Prop where
  W0 : MFin p.W0
  W1 : MFin p.W1
  W2 : MFin p.W2
  W3 : MFin p.W3
  W4 : MFin p.W4
  b0 : RFin p.b0
  b1 : RFin p.b1
  b2 : RFin p.b2
  b3 : RFin p.b3
  b4 : RFin p.b4
  gN : RFin p.gN
  beN : RFin p.beN
  gE : RFin p.gE
  beE : RFin p.beE

/-- The layer with the variance as mean of squared deviations. -/
def RLayer {N E D : Nat} (cN cE eps : EReal) (p : LayerW D) (src dst : Fin E → Fin N)
    (h : Mat N D) (e : Mat E D) : Mat N D × Mat E D :=
  let Ah := lin h p.W0 p.b0
  let Bh := lin h p.W1 p.b1
  let Ce := lin e p.W2 p.b2
  let Dh := lin h p.W3 p.b3
  let Eh := lin h p.W4 p.b4
  let eh := ehat Ce (rows Dh dst) (rows Eh src)
  let e' := bnRelu eps eh e (colMean cE eh) (colVarDev cE eh) p.gE p.beE
  let agg := segSum (msg eh (rows Bh src)) dst
  let xa := madd Ah agg
  let h' := bnRelu eps xa h (colMean cN xa) (colVarDev cN xa) p.gN p.beN
  (h', e')

/-- The layer with the variance as mean of squares minus squared mean. -/
def KLayer {N E D : Nat} (cN cE eps : EReal) (p : LayerW D) (src dst : Fin E → Fin N)
    (h : Mat N D) (e : Mat E D) : Mat N D × Mat E D :=
  let Ah := lin h p.W0 p.b0
  let Bh := lin h p.W1 p.b1
  let Ce := lin e p.W2 p.b2
  let Dh := lin h p.W3 p.b3
  let Eh := lin h p.W4 p.b4
  let eh := ehat Ce (rows Dh dst) (rows Eh src)
  let e' := bnRelu eps eh e (colMean cE eh) (colVarSq cE eh) p.gE p.beE
  let agg := segSum (msg eh (rows Bh src)) dst
  let xa := madd Ah agg
  let h' := bnRelu eps xa h (colMean cN xa) (colVarSq cN xa) p.gN p.beN
  (h', e')

/-- On real inputs and real weights the two layers are equal, and their outputs are real. -/
theorem layer_eq {N E D : Nat} (cN cE eps : EReal) (ε : ℝ)
    (hcN : cN = (((N : ℝ)) : EReal)) (hcE : cE = (((E : ℝ)) : EReal)) (hN : 0 < N) (hE : 0 < E)
    (heps : eps = ((ε : ℝ) : EReal)) (hε : 0 < ε)
    (p : LayerW D) (hp : p.AllFin) (src dst : Fin E → Fin N)
    (h : Mat N D) (e : Mat E D) (hh : MFin h) (he : MFin e) :
    KLayer cN cE eps p src dst h e = RLayer cN cE eps p src dst h e
      ∧ MFin (RLayer cN cE eps p src dst h e).1 ∧ MFin (RLayer cN cE eps p src dst h e).2 := by
  have hNr : (0 : ℝ) < (N : ℝ) := by exact_mod_cast hN
  have hEr : (0 : ℝ) < (E : ℝ) := by exact_mod_cast hE
  have hAh : MFin (lin h p.W0 p.b0) := lin_fin hh hp.W0 hp.b0
  have hBh : MFin (lin h p.W1 p.b1) := lin_fin hh hp.W1 hp.b1
  have hCe : MFin (lin e p.W2 p.b2) := lin_fin he hp.W2 hp.b2
  have hDh : MFin (lin h p.W3 p.b3) := lin_fin hh hp.W3 hp.b3
  have hEh : MFin (lin h p.W4 p.b4) := lin_fin hh hp.W4 hp.b4
  have heh : MFin (ehat (lin e p.W2 p.b2) (rows (lin h p.W3 p.b3) dst) (rows (lin h p.W4 p.b4) src)) :=
    ehat_fin hCe (rows_fin hDh dst) (rows_fin hEh src)
  have hxa : MFin (madd (lin h p.W0 p.b0)
      (segSum (msg (ehat (lin e p.W2 p.b2) (rows (lin h p.W3 p.b3) dst) (rows (lin h p.W4 p.b4) src))
        (rows (lin h p.W1 p.b1) src)) dst)) :=
    madd_fin hAh (segSum_fin (msg_fin heh (rows_fin hBh src)) dst)
  refine ⟨?_, ?_, ?_⟩
  · simp only [KLayer, RLayer]
    rw [colVar_eq (N : ℝ) cN hcN hNr.ne' rfl _ hxa, colVar_eq (E : ℝ) cE hcE hEr.ne' rfl _ heh]
  · exact bnRelu_fin heps hε hxa hh (colMean_fin hcN hNr.ne' hxa) (colVarDev_nonneg hcN hNr hxa) hp.gN hp.beN
  · exact bnRelu_fin heps hε heh he (colMean_fin hcE hEr.ne' heh) (colVarDev_nonneg hcE hEr heh) hp.gE hp.beE

end Cert.Alg

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.Net.lean ====
/-
  The whole network as a function of its fifteen arguments, in the two spellings the two programs compute.

  Both programs embed the node and edge features by an affine map, run three gated layers, and finish with the
  column mean of the node features pushed through two affine maps with a clamp at zero between them. The layers of
  the first spelling use the variance as mean of squares minus squared mean, those of the second as mean of squared
  deviations; everything else is shared.
-/
import proofs.«418385_j87393994539142_1_alg».proof.Proof.Algebra
import proofs.«418385_j87393994539142_1_alg».proof.Proof.LibGatherScatter

noncomputable section

open scoped BigOperators

namespace Cert.Net

open Idealize.ShloMosaic Idealize.ShloMosaic.ValueIdx Cert.Stage Cert.Alg

/-- The row count of the node arrays, of the edge arrays, and the variance's guard, as the literal words both
    programs carry (20000.0, 320000.0 and the single-precision neighbour of 1e-5). -/
def cN : EReal := Ideal.ofBits .f32 0x469C4000#32
def cE : EReal := Ideal.ofBits .f32 0x489C4000#32
def eps : EReal := Ideal.ofBits .f32 0x3727C5AC#32

/-- Everything the network is a function of. -/
structure Params where
  x0 : Mat 20000 128
  ea : Mat 320000 128
  nW : Mat 128 128
  nb : Row 128
  eW : Mat 128 128
  eb : Row 128
  L : Fin 3 → LayerW 128
  cW1 : Mat 128 128
  cb1 : Row 128
  cW2 : Mat 128 64
  cb2 : Row 64
  src : Fin 320000 → Fin 20000
  dst : Fin 320000 → Fin 20000

/-- The node an index word names: the word read signed, clamped into the 20000 nodes. -/
def node (w : BitVec 32) : Fin 20000 := Cert.LibGS.rowOf 20000 (by decide) w

/-- The parameters read off the fifteen argument arrays: layer l's five weight matrices and bias rows are the
    slices (l, k, ·, ·) and (l, k, ·) of the stacked arrays, its node and edge scale and shift rows the slices
    (l, 0, ·) and (l, 1, ·); an edge's source and target are rows 0 and 1 of the index array. -/
def paramsOf
    (a0 : (⟨2, ![20000, 128]⟩ : Shape).Idx → EReal) (a1 : IVec ⟨2, ![2, 320000]⟩ 32)
    (a2 : (⟨2, ![320000, 128]⟩ : Shape).Idx → EReal) (a3 : (⟨2, ![128, 128]⟩ : Shape).Idx → EReal)
    (a4 : (⟨1, ![128]⟩ : Shape).Idx → EReal) (a5 : (⟨2, ![128, 128]⟩ : Shape).Idx → EReal)
    (a6 : (⟨1, ![128]⟩ : Shape).Idx → EReal) (a7 : (⟨4, ![3, 5, 128, 128]⟩ : Shape).Idx → EReal)
    (a8 : (⟨3, ![3, 5, 128]⟩ : Shape).Idx → EReal) (a9 : (⟨3, ![3, 2, 128]⟩ : Shape).Idx → EReal)
    (a10 : (⟨3, ![3, 2, 128]⟩ : Shape).Idx → EReal) (a11 : (⟨2, ![128, 128]⟩ : Shape).Idx → EReal)
    (a12 : (⟨1, ![128]⟩ : Shape).Idx → EReal) (a13 : (⟨2, ![128, 64]⟩ : Shape).Idx → EReal)
    (a14 : (⟨1, ![64]⟩ : Shape).Idx → EReal) : Params where
  x0 := toMat a0
  ea := toMat a2
  nW := toMat a3
  nb := toRow a4
  eW := toMat a5
  eb := toRow a6
  L l :=
    { W0 := fun k j => a7 (ix4 l (0 : Fin 5) k j), W1 := fun k j => a7 (ix4 l (1 : Fin 5) k j),
      W2 := fun k j => a7 (ix4 l (2 : Fin 5) k j), W3 := fun k j => a7 (ix4 l (3 : Fin 5) k j),
      W4 := fun k j => a7 (ix4 l (4 : Fin 5) k j),
      b0 := fun j => a8 (ix3 l (0 : Fin 5) j), b1 := fun j => a8 (ix3 l (1 : Fin 5) j),
      b2 := fun j => a8 (ix3 l (2 : Fin 5) j), b3 := fun j => a8 (ix3 l (3 : Fin 5) j),
      b4 := fun j => a8 (ix3 l (4 : Fin 5) j),
      gN := fun j => a9 (ix3 l (0 : Fin 2) j), beN := fun j => a10 (ix3 l (0 : Fin 2) j),
      gE := fun j => a9 (ix3 l (1 : Fin 2) j), beE := fun j => a10 (ix3 l (1 : Fin 2) j) }
  cW1 := toMat a11
  cb1 := toRow a12
  cW2 := toMat a13
  cb2 := toRow a14
  src e := node (a1 (ix2 (0 : Fin 2) e))
  dst e := node (a1 (ix2 (1 : Fin 2) e))

/-- The head both programs share: the column mean of the node features as one row, an affine map, a clamp at
    zero, a second affine map. -/
def tail (P : Params) (h : Mat 20000 128) : Mat 1 64 :=
  lin (fun i j => max (lin (fun (_ : Fin 1) k => colMean cN h k) P.cW1 P.cb1 i j) 0) P.cW2 P.cb2

/-- The embedded node and edge features. -/
def emb (P : Params) : Mat 20000 128 × Mat 320000 128 := (lin P.x0 P.nW P.nb, lin P.ea P.eW P.eb)

/-- The network with the variance as mean of squared deviations in every layer. -/
def RNet (P : Params) : Mat 1 64 :=
  let s0 := emb P
  let s1 := RLayer cN cE eps (P.L 0) P.src P.dst s0.1 s0.2
  let s2 := RLayer cN cE eps (P.L 1) P.src P.dst s1.1 s1.2
  let s3 := RLayer cN cE eps (P.L 2) P.src P.dst s2.1 s2.2
  tail P s3.1

/-- The network with the variance as mean of squares minus squared mean in every layer. -/
def KNet (P : Params) : Mat 1 64 :=
  let s0 := emb P
  let s1 := KLayer cN cE eps (P.L 0) P.src P.dst s0.1 s0.2
  let s2 := KLayer cN cE eps (P.L 1) P.src P.dst s1.1 s1.2
  let s3 := KLayer cN cE eps (P.L 2) P.src P.dst s2.1 s2.2
  tail P s3.1

end Cert.Net

end
-- ==== Proof.KValCore.lean ====
/-
  The kernel program's result as the network of its arguments, given what each kernel region leaves.

  Between two kernel regions the host program moves data: it slices the stacked weights, joins four of a layer's
  weight matrices side by side, cuts the wide product back into four blocks of columns, selects rows by the edge
  list, sums messages into their target nodes. A region's output depends only on the buffers it reads at its entry,
  and a buffer no item writes keeps its contents. Following each buffer from where it is written to where it is read,
  each layer's seven regions with the host stretches between them are the layer of the network (with the variance
  as mean of squares minus squared mean), the two regions before them are the embedding, and the host stretches after
  them are the head.
-/
import proofs.«418385_j87393994539142_1_alg».proof.Proof.KernelIdealRegionsP
import proofs.«418385_j87393994539142_1_alg».proof.Proof.Net

set_option maxRecDepth 16384

noncomputable section

open scoped BigOperators

namespace Cert.KVal

open Cert.KernelIdeal Cert.KernelIdeal.Gen
open Idealize.ShloMosaic Idealize.ShloMosaic.TcCoe Idealize.ShloMosaic.ValueIdx
open Cert.Stage Cert.Alg Cert.Net

/-! ### A layer from its parts -/

/-- A layer assembled from its parts. If the wide product's weight and bias blocks are four of the layer's
    projections' weights and biases, the four column blocks of the wide product are read out, the edge projection,
    the three row selections, the gate, the two pairs of column statistics, the two normalisations and the sum of
    messages into their targets are each the stage they should be, then the pair of outputs is the layer (with the
    variance as mean of squares minus squared mean) applied to the pair of inputs. -/
theorem klayer_of_parts {N E D W : Nat} (cN cE eps : EReal) (p : LayerW D) (src dst : Fin E → Fin N)
    (h : Mat N D) (e : Mat E D)
    (o0 o1 o2 o3 : Nat) (h0 : o0 + D ≤ W) (h1 : o1 + D ≤ W) (h2 : o2 + D ≤ W) (h3 : o3 + D ≤ W)
    (Wc : Mat D W) (bc : Row W) (nc : Mat N W) (A B Dm Em : Mat N D)
    (W2m : Mat D D) (b2r : Row D) (Ce Dd Es Bs eh ms : Mat E D) (mue vre gEr beEr : Row D) (e' : Mat E D)
    (xa : Mat N D) (muh vrh gNr beNr : Row D) (h' : Mat N D)
    (Hnc : nc = lin h Wc bc)
    (HW0 : ∀ k j, Wc k ⟨o0 + j.val, by have := j.isLt; omega⟩ = p.W0 k j)
    (HW1 : ∀ k j, Wc k ⟨o1 + j.val, by have := j.isLt; omega⟩ = p.W1 k j)
    (HW3 : ∀ k j, Wc k ⟨o2 + j.val, by have := j.isLt; omega⟩ = p.W3 k j)
    (HW4 : ∀ k j, Wc k ⟨o3 + j.val, by have := j.isLt; omega⟩ = p.W4 k j)
    (Hb0 : ∀ j, bc ⟨o0 + j.val, by have := j.isLt; omega⟩ = p.b0 j)
    (Hb1 : ∀ j, bc ⟨o1 + j.val, by have := j.isLt; omega⟩ = p.b1 j)
    (Hb3 : ∀ j, bc ⟨o2 + j.val, by have := j.isLt; omega⟩ = p.b3 j)
    (Hb4 : ∀ j, bc ⟨o3 + j.val, by have := j.isLt; omega⟩ = p.b4 j)
    (HA : ∀ i j, A i j = nc i ⟨o0 + j.val, by have := j.isLt; omega⟩)
    (HB : ∀ i j, B i j = nc i ⟨o1 + j.val, by have := j.isLt; omega⟩)
    (HD : ∀ i j, Dm i j = nc i ⟨o2 + j.val, by have := j.isLt; omega⟩)
    (HE : ∀ i j, Em i j = nc i ⟨o3 + j.val, by have := j.isLt; omega⟩)
    (HCe : Ce = lin e W2m b2r) (HW2 : ∀ k j, W2m k j = p.W2 k j) (Hb2 : ∀ j, b2r j = p.b2 j)
    (HtD : ∀ x j, Dd x j = Dm (dst x) j) (HtE : ∀ x j, Es x j = Em (src x) j)
    (HtB : ∀ x j, Bs x j = B (src x) j)
    (Heh : eh = ehat Ce Dd Es) (Hms : ms = msg eh Bs)
    (Hmue : mue = colMean cE eh) (Hvre : vre = colVarSq cE eh)
    (HgE : ∀ j, gEr j = p.gE j) (HbeE : ∀ j, beEr j = p.beE j)
    (He' : e' = bnRelu eps eh e mue vre gEr beEr)
    (Hxa : ∀ i j, xa i j = A i j + ∑ x ∈ Finset.univ.filter (fun x : Fin E => dst x = i), ms x j)
    (Hmuh : muh = colMean cN xa) (Hvrh : vrh = colVarSq cN xa)
    (HgN : ∀ j, gNr j = p.gN j) (HbeN : ∀ j, beNr j = p.beN j)
    (Hh' : h' = bnRelu eps xa h muh vrh gNr beNr) :
    (h', e') = KLayer cN cE eps p src dst h e := by
  have eA : A = lin h p.W0 p.b0 := by
    have : A = cols o0 h0 nc := funext fun i => funext fun j => HA i j
    rw [this, Hnc, cols_lin]
    congr 1
    · exact funext fun k => funext fun j => HW0 k j
    · exact funext fun j => Hb0 j
  have eB : B = lin h p.W1 p.b1 := by
    have : B = cols o1 h1 nc := funext fun i => funext fun j => HB i j
    rw [this, Hnc, cols_lin]
    congr 1
    · exact funext fun k => funext fun j => HW1 k j
    · exact funext fun j => Hb1 j
  have eD : Dm = lin h p.W3 p.b3 := by
    have : Dm = cols o2 h2 nc := funext fun i => funext fun j => HD i j
    rw [this, Hnc, cols_lin]
    congr 1
    · exact funext fun k => funext fun j => HW3 k j
    · exact funext fun j => Hb3 j
  have eE : Em = lin h p.W4 p.b4 := by
    have : Em = cols o3 h3 nc := funext fun i => funext fun j => HE i j
    rw [this, Hnc, cols_lin]
    congr 1
    · exact funext fun k => funext fun j => HW4 k j
    · exact funext fun j => Hb4 j
  have eC : Ce = lin e p.W2 p.b2 := by
    rw [HCe]
    congr 1
    · exact funext fun k => funext fun j => HW2 k j
    · exact funext fun j => Hb2 j
  have eDd : Dd = rows Dm dst := funext fun x => funext fun j => HtD x j
  have eEs : Es = rows Em src := funext fun x => funext fun j => HtE x j
  have eBs : Bs = rows B src := funext fun x => funext fun j => HtB x j
  have egE : gEr = p.gE := funext HgE
  have ebeE : beEr = p.beE := funext HbeE
  have egN : gNr = p.gN := funext HgN
  have ebeN : beNr = p.beN := funext HbeN
  have exa : xa = madd A (segSum ms dst) := funext fun i => funext fun j => Hxa i j
  subst Hh' He' Hmuh Hvrh Hmue Hvre
  subst exa Hms Heh eDd eEs eBs
  subst eA eB eD eE eC egE ebeE egN ebeN
  rfl

/-! ### Two updates of a function -/

/-- After two updates at different points, the first point holds the first value. -/
theorem upd2_fst {α : Type*} [DecidableEq α] {β : α → Type*} (f : ∀ a, β a) (a b : α) (va : β a) (vb : β b)
    (h : a ≠ b) : Function.update (Function.update f a va) b vb a = va := by
  rw [Function.update_of_ne h]; exact Function.update_self _ _ _

/-! ### The arguments, the regions' outputs, the host stretches' outputs -/

section
variable (m : (ℓ : Loc nD τ sig) → Buf (Elt Ideal) ℓ) (outs : Outs (F := Ideal)) (c : Dev nD)

/-- Argument 0 on core c at launch. -/
abbrev arg0 := m ((c : Thread nD τ).loc main_arg0)
/-- Argument 1 on core c at launch. -/
abbrev arg1 := m ((c : Thread nD τ).loc main_arg1)
/-- Argument 2 on core c at launch. -/
abbrev arg2 := m ((c : Thread nD τ).loc main_arg2)
/-- Argument 3 on core c at launch. -/
abbrev arg3 := m ((c : Thread nD τ).loc main_arg3)
/-- Argument 4 on core c at launch. -/
abbrev arg4 := m ((c : Thread nD τ).loc main_arg4)
/-- Argument 5 on core c at launch. -/
abbrev arg5 := m ((c : Thread nD τ).loc main_arg5)
/-- Argument 6 on core c at launch. -/
abbrev arg6 := m ((c : Thread nD τ).loc main_arg6)
/-- Argument 7 on core c at launch. -/
abbrev arg7 := m ((c : Thread nD τ).loc main_arg7)
/-- Argument 8 on core c at launch. -/
abbrev arg8 := m ((c : Thread nD τ).loc main_arg8)
/-- Argument 9 on core c at launch. -/
abbrev arg9 := m ((c : Thread nD τ).loc main_arg9)
/-- Argument 10 on core c at launch. -/
abbrev arg10 := m ((c : Thread nD τ).loc main_arg10)
/-- Argument 11 on core c at launch. -/
abbrev arg11 := m ((c : Thread nD τ).loc main_arg11)
/-- Argument 12 on core c at launch. -/
abbrev arg12 := m ((c : Thread nD τ).loc main_arg12)
/-- Argument 13 on core c at launch. -/
abbrev arg13 := m ((c : Thread nD τ).loc main_arg13)
/-- Argument 14 on core c at launch. -/
abbrev arg14 := m ((c : Thread nD τ).loc main_arg14)

/-- The network's parameters read off the fifteen arguments. -/
abbrev P : Params :=
  paramsOf (arg0 m c) (arg1 m c) (arg2 m c) (arg3 m c) (arg4 m c) (arg5 m c) (arg6 m c) (arg7 m c) (arg8 m c) (arg9 m c) (arg10 m c) (arg11 m c) (arg12 m c) (arg13 m c) (arg14 m c)

/-- What each kernel region leaves, as a stage of the network applied to the buffers it reads at its entry. -/
structure RegionVals : Prop where
  r0 : toMat (outs 2 main_v5 c) = lin (toMat (V1 m c main_arg0)) (toMat (V1 m c main_arg3)) (toRow1 (V1 m c main_v4))
  r1 : toMat (outs 4 main_v7 c) = lin (toMat (V3 m outs c main_arg2)) (toMat (V3 m outs c main_arg5)) (toRow1 (V3 m outs c main_v6))
  r2 : toMat (outs 6 main_v31 c) = lin (toMat (V5 m outs c main_v5)) (toMat (V5 m outs c main_v20)) (toRow1 (V5 m outs c main_v30))
  r3 : toMat (outs 8 main_v41 c) = lin (toMat (V7 m outs c main_v7)) (toMat (V7 m outs c main_v37)) (toRow1 (V7 m outs c main_v40))
  r4a : toMat (outs 12 main_v45_0 c) = ehat (toMat (V11 m outs c main_v41)) (toMat (V11 m outs c main_v42)) (toMat (V11 m outs c main_v43))
  r4b : toMat (outs 12 main_v45_1 c) = msg (ehat (toMat (V11 m outs c main_v41)) (toMat (V11 m outs c main_v42)) (toMat (V11 m outs c main_v43))) (toMat (V11 m outs c main_v44))
  r5a : toRow1 (outs 13 main_v46_0 c) = colMean cE (toMat (V12 m outs c main_v45_0))
  r5b : toRow1 (outs 13 main_v46_1 c) = colVarSq cE (toMat (V12 m outs c main_v45_0))
  r6 : toMat (outs 15 main_v53 c) = bnRelu eps (toMat (V14 m outs c main_v45_0)) (toMat (V14 m outs c main_v7)) (toRow1 (V14 m outs c main_v46_0)) (toRow1 (V14 m outs c main_v46_1)) (toRow1 (V14 m outs c main_v49)) (toRow1 (V14 m outs c main_v52))
  r7a : toRow1 (outs 17 main_v58_0 c) = colMean cN (toMat (V16 m outs c main_v57))
  r7b : toRow1 (outs 17 main_v58_1 c) = colVarSq cN (toMat (V16 m outs c main_v57))
  r8 : toMat (outs 19 main_v65 c) = bnRelu eps (toMat (V18 m outs c main_v57)) (toMat (V18 m outs c main_v5)) (toRow1 (V18 m outs c main_v58_0)) (toRow1 (V18 m outs c main_v58_1)) (toRow1 (V18 m outs c main_v61)) (toRow1 (V18 m outs c main_v64))
  r9 : toMat (outs 21 main_v89 c) = lin (toMat (V20 m outs c main_v65)) (toMat (V20 m outs c main_v78)) (toRow1 (V20 m outs c main_v88))
  r10 : toMat (outs 23 main_v99 c) = lin (toMat (V22 m outs c main_v53)) (toMat (V22 m outs c main_v95)) (toRow1 (V22 m outs c main_v98))
  r11a : toMat (outs 27 main_v103_0 c) = ehat (toMat (V26 m outs c main_v99)) (toMat (V26 m outs c main_v100)) (toMat (V26 m outs c main_v101))
  r11b : toMat (outs 27 main_v103_1 c) = msg (ehat (toMat (V26 m outs c main_v99)) (toMat (V26 m outs c main_v100)) (toMat (V26 m outs c main_v101))) (toMat (V26 m outs c main_v102))
  r12a : toRow1 (outs 28 main_v104_0 c) = colMean cE (toMat (V27 m outs c main_v103_0))
  r12b : toRow1 (outs 28 main_v104_1 c) = colVarSq cE (toMat (V27 m outs c main_v103_0))
  r13 : toMat (outs 30 main_v111 c) = bnRelu eps (toMat (V29 m outs c main_v103_0)) (toMat (V29 m outs c main_v53)) (toRow1 (V29 m outs c main_v104_0)) (toRow1 (V29 m outs c main_v104_1)) (toRow1 (V29 m outs c main_v107)) (toRow1 (V29 m outs c main_v110))
  r14a : toRow1 (outs 32 main_v116_0 c) = colMean cN (toMat (V31 m outs c main_v115))
  r14b : toRow1 (outs 32 main_v116_1 c) = colVarSq cN (toMat (V31 m outs c main_v115))
  r15 : toMat (outs 34 main_v123 c) = bnRelu eps (toMat (V33 m outs c main_v115)) (toMat (V33 m outs c main_v65)) (toRow1 (V33 m outs c main_v116_0)) (toRow1 (V33 m outs c main_v116_1)) (toRow1 (V33 m outs c main_v119)) (toRow1 (V33 m outs c main_v122))
  r16 : toMat (outs 36 main_v147 c) = lin (toMat (V35 m outs c main_v123)) (toMat (V35 m outs c main_v136)) (toRow1 (V35 m outs c main_v146))
  r17 : toMat (outs 38 main_v157 c) = lin (toMat (V37 m outs c main_v111)) (toMat (V37 m outs c main_v153)) (toRow1 (V37 m outs c main_v156))
  r18a : toMat (outs 42 main_v161_0 c) = ehat (toMat (V41 m outs c main_v157)) (toMat (V41 m outs c main_v158)) (toMat (V41 m outs c main_v159))
  r18b : toMat (outs 42 main_v161_1 c) = msg (ehat (toMat (V41 m outs c main_v157)) (toMat (V41 m outs c main_v158)) (toMat (V41 m outs c main_v159))) (toMat (V41 m outs c main_v160))
  r19a : toRow1 (outs 43 main_v162_0 c) = colMean cE (toMat (V42 m outs c main_v161_0))
  r19b : toRow1 (outs 43 main_v162_1 c) = colVarSq cE (toMat (V42 m outs c main_v161_0))
  r20 : toMat (outs 45 main_v169 c) = bnRelu eps (toMat (V44 m outs c main_v161_0)) (toMat (V44 m outs c main_v111)) (toRow1 (V44 m outs c main_v162_0)) (toRow1 (V44 m outs c main_v162_1)) (toRow1 (V44 m outs c main_v165)) (toRow1 (V44 m outs c main_v168))
  r21a : toRow1 (outs 47 main_v174_0 c) = colMean cN (toMat (V46 m outs c main_v173))
  r21b : toRow1 (outs 47 main_v174_1 c) = colVarSq cN (toMat (V46 m outs c main_v173))
  r22 : toMat (outs 49 main_v181 c) = bnRelu eps (toMat (V48 m outs c main_v173)) (toMat (V48 m outs c main_v123)) (toRow1 (V48 m outs c main_v174_0)) (toRow1 (V48 m outs c main_v174_1)) (toRow1 (V48 m outs c main_v177)) (toRow1 (V48 m outs c main_v180))

/-- What the host stretches leave: slices of the arguments, blocks of columns, selected rows, sums into nodes, the head. -/
structure HostVals : Prop where
  b_node : ∀ (j : Fin 128), toRow1 (V1 m c main_v4) j = arg4 m c (ix1 j)
  b_edge : ∀ (j : Fin 128), toRow1 (V3 m outs c main_v6) j = arg6 m c (ix1 j)
  l0_wcat_0 : ∀ (k j : Fin 128), toMat (V5 m outs c main_v20) k ⟨0 + j.val, by have := j.isLt; omega⟩ = arg7 m c (ix4 (0 : Fin 3) (0 : Fin 5) k j)
  l0_wcat_1 : ∀ (k j : Fin 128), toMat (V5 m outs c main_v20) k ⟨128 + j.val, by have := j.isLt; omega⟩ = arg7 m c (ix4 (0 : Fin 3) (1 : Fin 5) k j)
  l0_wcat_2 : ∀ (k j : Fin 128), toMat (V5 m outs c main_v20) k ⟨256 + j.val, by have := j.isLt; omega⟩ = arg7 m c (ix4 (0 : Fin 3) (3 : Fin 5) k j)
  l0_wcat_3 : ∀ (k j : Fin 128), toMat (V5 m outs c main_v20) k ⟨384 + j.val, by have := j.isLt; omega⟩ = arg7 m c (ix4 (0 : Fin 3) (4 : Fin 5) k j)
  l0_bcat_0 : ∀ (j : Fin 128), toRow1 (V5 m outs c main_v30) ⟨0 + j.val, by have := j.isLt; omega⟩ = arg8 m c (ix3 (0 : Fin 3) (0 : Fin 5) j)
  l0_bcat_1 : ∀ (j : Fin 128), toRow1 (V5 m outs c main_v30) ⟨128 + j.val, by have := j.isLt; omega⟩ = arg8 m c (ix3 (0 : Fin 3) (1 : Fin 5) j)
  l0_bcat_2 : ∀ (j : Fin 128), toRow1 (V5 m outs c main_v30) ⟨256 + j.val, by have := j.isLt; omega⟩ = arg8 m c (ix3 (0 : Fin 3) (3 : Fin 5) j)
  l0_bcat_3 : ∀ (j : Fin 128), toRow1 (V5 m outs c main_v30) ⟨384 + j.val, by have := j.isLt; omega⟩ = arg8 m c (ix3 (0 : Fin 3) (4 : Fin 5) j)
  l0_cols_0 : ∀ (i : Fin 20000) (j : Fin 128), toMat (V7 m outs c main_v32) i j = toMat (V6 m outs c main_v31) i ⟨0 + j.val, by have := j.isLt; omega⟩
  l0_cols_1 : ∀ (i : Fin 20000) (j : Fin 128), toMat (V7 m outs c main_v33) i j = toMat (V6 m outs c main_v31) i ⟨128 + j.val, by have := j.isLt; omega⟩
  l0_cols_2 : ∀ (i : Fin 20000) (j : Fin 128), toMat (V7 m outs c main_v34) i j = toMat (V6 m outs c main_v31) i ⟨256 + j.val, by have := j.isLt; omega⟩
  l0_cols_3 : ∀ (i : Fin 20000) (j : Fin 128), toMat (V7 m outs c main_v35) i j = toMat (V6 m outs c main_v31) i ⟨384 + j.val, by have := j.isLt; omega⟩
  l0_w2 : ∀ (k j : Fin 128), toMat (V7 m outs c main_v37) k j = arg7 m c (ix4 (0 : Fin 3) (2 : Fin 5) k j)
  l0_b2 : ∀ (j : Fin 128), toRow1 (V7 m outs c main_v40) j = arg8 m c (ix3 (0 : Fin 3) (2 : Fin 5) j)
  l0_gE : ∀ (j : Fin 128), toRow1 (V14 m outs c main_v49) j = arg9 m c (ix3 (0 : Fin 3) (1 : Fin 2) j)
  l0_beE : ∀ (j : Fin 128), toRow1 (V14 m outs c main_v52) j = arg10 m c (ix3 (0 : Fin 3) (1 : Fin 2) j)
  l0_gN : ∀ (j : Fin 128), toRow1 (V18 m outs c main_v61) j = arg9 m c (ix3 (0 : Fin 3) (0 : Fin 2) j)
  l0_beN : ∀ (j : Fin 128), toRow1 (V18 m outs c main_v64) j = arg10 m c (ix3 (0 : Fin 3) (0 : Fin 2) j)
  l0_take_D : ∀ (x : Fin 320000) (j : Fin 128), toMat (V9 m outs c main_v42) x j = toMat (V8 m outs c main_v34) (node (arg1 m c (ix2 (1 : Fin 2) x))) j
  l0_take_E : ∀ (x : Fin 320000) (j : Fin 128), toMat (V10 m outs c main_v43) x j = toMat (V8 m outs c main_v35) (node (arg1 m c (ix2 (0 : Fin 2) x))) j
  l0_take_B : ∀ (x : Fin 320000) (j : Fin 128), toMat (V11 m outs c main_v44) x j = toMat (V8 m outs c main_v33) (node (arg1 m c (ix2 (0 : Fin 2) x))) j
  l0_xadd : ∀ (i : Fin 20000) (j : Fin 128), toMat (V16 m outs c main_v57) i j = toMat (V15 m outs c main_v32) i j + ∑ x ∈ Finset.univ.filter (fun x : Fin 320000 => node (arg1 m c (ix2 (1 : Fin 2) x)) = i), toMat (V15 m outs c main_v45_1) x j
  l1_wcat_0 : ∀ (k j : Fin 128), toMat (V20 m outs c main_v78) k ⟨0 + j.val, by have := j.isLt; omega⟩ = arg7 m c (ix4 (1 : Fin 3) (0 : Fin 5) k j)
  l1_wcat_1 : ∀ (k j : Fin 128), toMat (V20 m outs c main_v78) k ⟨128 + j.val, by have := j.isLt; omega⟩ = arg7 m c (ix4 (1 : Fin 3) (1 : Fin 5) k j)
  l1_wcat_2 : ∀ (k j : Fin 128), toMat (V20 m outs c main_v78) k ⟨256 + j.val, by have := j.isLt; omega⟩ = arg7 m c (ix4 (1 : Fin 3) (3 : Fin 5) k j)
  l1_wcat_3 : ∀ (k j : Fin 128), toMat (V20 m outs c main_v78) k ⟨384 + j.val, by have := j.isLt; omega⟩ = arg7 m c (ix4 (1 : Fin 3) (4 : Fin 5) k j)
  l1_bcat_0 : ∀ (j : Fin 128), toRow1 (V20 m outs c main_v88) ⟨0 + j.val, by have := j.isLt; omega⟩ = arg8 m c (ix3 (1 : Fin 3) (0 : Fin 5) j)
  l1_bcat_1 : ∀ (j : Fin 128), toRow1 (V20 m outs c main_v88) ⟨128 + j.val, by have := j.isLt; omega⟩ = arg8 m c (ix3 (1 : Fin 3) (1 : Fin 5) j)
  l1_bcat_2 : ∀ (j : Fin 128), toRow1 (V20 m outs c main_v88) ⟨256 + j.val, by have := j.isLt; omega⟩ = arg8 m c (ix3 (1 : Fin 3) (3 : Fin 5) j)
  l1_bcat_3 : ∀ (j : Fin 128), toRow1 (V20 m outs c main_v88) ⟨384 + j.val, by have := j.isLt; omega⟩ = arg8 m c (ix3 (1 : Fin 3) (4 : Fin 5) j)
  l1_cols_0 : ∀ (i : Fin 20000) (j : Fin 128), toMat (V22 m outs c main_v90) i j = toMat (V21 m outs c main_v89) i ⟨0 + j.val, by have := j.isLt; omega⟩
  l1_cols_1 : ∀ (i : Fin 20000) (j : Fin 128), toMat (V22 m outs c main_v91) i j = toMat (V21 m outs c main_v89) i ⟨128 + j.val, by have := j.isLt; omega⟩
  l1_cols_2 : ∀ (i : Fin 20000) (j : Fin 128), toMat (V22 m outs c main_v92) i j = toMat (V21 m outs c main_v89) i ⟨256 + j.val, by have := j.isLt; omega⟩
  l1_cols_3 : ∀ (i : Fin 20000) (j : Fin 128), toMat (V22 m outs c main_v93) i j = toMat (V21 m outs c main_v89) i ⟨384 + j.val, by have := j.isLt; omega⟩
  l1_w2 : ∀ (k j : Fin 128), toMat (V22 m outs c main_v95) k j = arg7 m c (ix4 (1 : Fin 3) (2 : Fin 5) k j)
  l1_b2 : ∀ (j : Fin 128), toRow1 (V22 m outs c main_v98) j = arg8 m c (ix3 (1 : Fin 3) (2 : Fin 5) j)
  l1_gE : ∀ (j : Fin 128), toRow1 (V29 m outs c main_v107) j = arg9 m c (ix3 (1 : Fin 3) (1 : Fin 2) j)
  l1_beE : ∀ (j : Fin 128), toRow1 (V29 m outs c main_v110) j = arg10 m c (ix3 (1 : Fin 3) (1 : Fin 2) j)
  l1_gN : ∀ (j : Fin 128), toRow1 (V33 m outs c main_v119) j = arg9 m c (ix3 (1 : Fin 3) (0 : Fin 2) j)
  l1_beN : ∀ (j : Fin 128), toRow1 (V33 m outs c main_v122) j = arg10 m c (ix3 (1 : Fin 3) (0 : Fin 2) j)
  l1_take_D : ∀ (x : Fin 320000) (j : Fin 128), toMat (V24 m outs c main_v100) x j = toMat (V23 m outs c main_v92) (node (arg1 m c (ix2 (1 : Fin 2) x))) j
  l1_take_E : ∀ (x : Fin 320000) (j : Fin 128), toMat (V25 m outs c main_v101) x j = toMat (V23 m outs c main_v93) (node (arg1 m c (ix2 (0 : Fin 2) x))) j
  l1_take_B : ∀ (x : Fin 320000) (j : Fin 128), toMat (V26 m outs c main_v102) x j = toMat (V23 m outs c main_v91) (node (arg1 m c (ix2 (0 : Fin 2) x))) j
  l1_xadd : ∀ (i : Fin 20000) (j : Fin 128), toMat (V31 m outs c main_v115) i j = toMat (V30 m outs c main_v90) i j + ∑ x ∈ Finset.univ.filter (fun x : Fin 320000 => node (arg1 m c (ix2 (1 : Fin 2) x)) = i), toMat (V30 m outs c main_v103_1) x j
  l2_wcat_0 : ∀ (k j : Fin 128), toMat (V35 m outs c main_v136) k ⟨0 + j.val, by have := j.isLt; omega⟩ = arg7 m c (ix4 (2 : Fin 3) (0 : Fin 5) k j)
  l2_wcat_1 : ∀ (k j : Fin 128), toMat (V35 m outs c main_v136) k ⟨128 + j.val, by have := j.isLt; omega⟩ = arg7 m c (ix4 (2 : Fin 3) (1 : Fin 5) k j)
  l2_wcat_2 : ∀ (k j : Fin 128), toMat (V35 m outs c main_v136) k ⟨256 + j.val, by have := j.isLt; omega⟩ = arg7 m c (ix4 (2 : Fin 3) (3 : Fin 5) k j)
  l2_wcat_3 : ∀ (k j : Fin 128), toMat (V35 m outs c main_v136) k ⟨384 + j.val, by have := j.isLt; omega⟩ = arg7 m c (ix4 (2 : Fin 3) (4 : Fin 5) k j)
  l2_bcat_0 : ∀ (j : Fin 128), toRow1 (V35 m outs c main_v146) ⟨0 + j.val, by have := j.isLt; omega⟩ = arg8 m c (ix3 (2 : Fin 3) (0 : Fin 5) j)
  l2_bcat_1 : ∀ (j : Fin 128), toRow1 (V35 m outs c main_v146) ⟨128 + j.val, by have := j.isLt; omega⟩ = arg8 m c (ix3 (2 : Fin 3) (1 : Fin 5) j)
  l2_bcat_2 : ∀ (j : Fin 128), toRow1 (V35 m outs c main_v146) ⟨256 + j.val, by have := j.isLt; omega⟩ = arg8 m c (ix3 (2 : Fin 3) (3 : Fin 5) j)
  l2_bcat_3 : ∀ (j : Fin 128), toRow1 (V35 m outs c main_v146) ⟨384 + j.val, by have := j.isLt; omega⟩ = arg8 m c (ix3 (2 : Fin 3) (4 : Fin 5) j)
  l2_cols_0 : ∀ (i : Fin 20000) (j : Fin 128), toMat (V37 m outs c main_v148) i j = toMat (V36 m outs c main_v147) i ⟨0 + j.val, by have := j.isLt; omega⟩
  l2_cols_1 : ∀ (i : Fin 20000) (j : Fin 128), toMat (V37 m outs c main_v149) i j = toMat (V36 m outs c main_v147) i ⟨128 + j.val, by have := j.isLt; omega⟩
  l2_cols_2 : ∀ (i : Fin 20000) (j : Fin 128), toMat (V37 m outs c main_v150) i j = toMat (V36 m outs c main_v147) i ⟨256 + j.val, by have := j.isLt; omega⟩
  l2_cols_3 : ∀ (i : Fin 20000) (j : Fin 128), toMat (V37 m outs c main_v151) i j = toMat (V36 m outs c main_v147) i ⟨384 + j.val, by have := j.isLt; omega⟩
  l2_w2 : ∀ (k j : Fin 128), toMat (V37 m outs c main_v153) k j = arg7 m c (ix4 (2 : Fin 3) (2 : Fin 5) k j)
  l2_b2 : ∀ (j : Fin 128), toRow1 (V37 m outs c main_v156) j = arg8 m c (ix3 (2 : Fin 3) (2 : Fin 5) j)
  l2_gE : ∀ (j : Fin 128), toRow1 (V44 m outs c main_v165) j = arg9 m c (ix3 (2 : Fin 3) (1 : Fin 2) j)
  l2_beE : ∀ (j : Fin 128), toRow1 (V44 m outs c main_v168) j = arg10 m c (ix3 (2 : Fin 3) (1 : Fin 2) j)
  l2_gN : ∀ (j : Fin 128), toRow1 (V48 m outs c main_v177) j = arg9 m c (ix3 (2 : Fin 3) (0 : Fin 2) j)
  l2_beN : ∀ (j : Fin 128), toRow1 (V48 m outs c main_v180) j = arg10 m c (ix3 (2 : Fin 3) (0 : Fin 2) j)
  l2_take_D : ∀ (x : Fin 320000) (j : Fin 128), toMat (V39 m outs c main_v158) x j = toMat (V38 m outs c main_v150) (node (arg1 m c (ix2 (1 : Fin 2) x))) j
  l2_take_E : ∀ (x : Fin 320000) (j : Fin 128), toMat (V40 m outs c main_v159) x j = toMat (V38 m outs c main_v151) (node (arg1 m c (ix2 (0 : Fin 2) x))) j
  l2_take_B : ∀ (x : Fin 320000) (j : Fin 128), toMat (V41 m outs c main_v160) x j = toMat (V38 m outs c main_v149) (node (arg1 m c (ix2 (0 : Fin 2) x))) j
  l2_xadd : ∀ (i : Fin 20000) (j : Fin 128), toMat (V46 m outs c main_v173) i j = toMat (V45 m outs c main_v148) i j + ∑ x ∈ Finset.univ.filter (fun x : Fin 320000 => node (arg1 m c (ix2 (1 : Fin 2) x)) = i), toMat (V45 m outs c main_v161_1) x j
  head : toMat (V52 m outs c main_v192) = tail (P m c) (toMat (V49 m outs c main_v181))

/-! ### The embedding -/

/-- The first two regions leave the embedded node and edge features. -/
theorem kemb (HV : HostVals m outs c) (H : RegionVals m outs c) :
    (toMat (V4 m outs c main_v5), toMat (V4 m outs c main_v7)) = emb (P m c) := by
  have p_h : V4 m outs c main_v5 = V2 m outs c main_v5 := (V4_of m outs c main_v5 (by decide)).trans <| (V3_of m outs c main_v5 (by decide))
  have u_h : V2 m outs c main_v5 = outs 2 main_v5 c := Function.update_self _ _ _
  have u_e : V4 m outs c main_v7 = outs 4 main_v7 c := Function.update_self _ _ _
  have a0 : V1 m c main_arg0 = arg0 m c := V1_of m c main_arg0 (by decide)
  have a3 : V1 m c main_arg3 = arg3 m c := V1_of m c main_arg3 (by decide)
  have a2 : V3 m outs c main_arg2 = arg2 m c := (V3_of m outs c main_arg2 (by decide)).trans <| (V2_of m outs c main_arg2 (by decide)).trans <| (V1_of m c main_arg2 (by decide))
  have a5 : V3 m outs c main_arg5 = arg5 m c := (V3_of m outs c main_arg5 (by decide)).trans <| (V2_of m outs c main_arg5 (by decide)).trans <| (V1_of m c main_arg5 (by decide))
  have bn : toRow1 (V1 m c main_v4) = toRow (arg4 m c) := funext fun j => HV.b_node j
  have be : toRow1 (V3 m outs c main_v6) = toRow (arg6 m c) := funext fun j => HV.b_edge j
  have h1 := H.r0
  rw [← u_h, ← p_h, a0, a3, bn] at h1
  have h2 := H.r1
  rw [← u_e, a2, a5, be] at h2
  exact Prod.ext h1 h2

/-! ### The three layers -/

/-- Layer 0: what the seven regions and the host stretches between them leave is the layer applied to what they found. -/
theorem klayer0 (HV : HostVals m outs c) (H : RegionVals m outs c) :
    ((toMat (V19 m outs c main_v65)), (toMat (V19 m outs c main_v53)))
      = KLayer cN cE eps ((P m c).L 0) (P m c).src (P m c).dst (toMat (V4 m outs c main_v5)) (toMat (V4 m outs c main_v7)) := by
  have u_nc : V6 m outs c main_v31 = outs 6 main_v31 c := Function.update_self _ _ _
  have p_hin5 : V5 m outs c main_v5 = V4 m outs c main_v5 := (V5_of m outs c main_v5 (by decide))
  have u_Ce : V8 m outs c main_v41 = outs 8 main_v41 c := Function.update_self _ _ _
  have p_ein7 : V7 m outs c main_v7 = V4 m outs c main_v7 := (V7_of m outs c main_v7 (by decide)).trans <| (V6_of m outs c main_v7 (by decide)).trans <| (V5_of m outs c main_v7 (by decide))
  have p_Dm8 : V8 m outs c main_v34 = V7 m outs c main_v34 := (V8_of m outs c main_v34 (by decide))
  have p_Em8 : V8 m outs c main_v35 = V7 m outs c main_v35 := (V8_of m outs c main_v35 (by decide))
  have p_B8 : V8 m outs c main_v33 = V7 m outs c main_v33 := (V8_of m outs c main_v33 (by decide))
  have u_eh : V12 m outs c main_v45_0 = outs 12 main_v45_0 c := upd2_fst _ _ _ _ _ (by decide)
  have u_ms : V12 m outs c main_v45_1 = outs 12 main_v45_1 c := Function.update_self _ _ _
  have p_Ce11 : V11 m outs c main_v41 = V8 m outs c main_v41 := (V11_of m outs c main_v41 (by decide)).trans <| (V10_of m outs c main_v41 (by decide)).trans <| (V9_of m outs c main_v41 (by decide))
  have p_Dd11 : V11 m outs c main_v42 = V9 m outs c main_v42 := (V11_of m outs c main_v42 (by decide)).trans <| (V10_of m outs c main_v42 (by decide))
  have p_Es11 : V11 m outs c main_v43 = V10 m outs c main_v43 := (V11_of m outs c main_v43 (by decide))
  have u_mue : V13 m outs c main_v46_0 = outs 13 main_v46_0 c := upd2_fst _ _ _ _ _ (by decide)
  have u_vre : V13 m outs c main_v46_1 = outs 13 main_v46_1 c := Function.update_self _ _ _
  have u_eo : V15 m outs c main_v53 = outs 15 main_v53 c := Function.update_self _ _ _
  have p_eo19 : V19 m outs c main_v53 = V15 m outs c main_v53 := (V19_of m outs c main_v53 (by decide)).trans <| (V18_of m outs c main_v53 (by decide)).trans <| (V17_of m outs c main_v53 (by decide)).trans <| (V16_of m outs c main_v53 (by decide))
  have p_eh14 : V14 m outs c main_v45_0 = V12 m outs c main_v45_0 := (V14_of m outs c main_v45_0 (by decide)).trans <| (V13_of m outs c main_v45_0 (by decide))
  have p_ein14 : V14 m outs c main_v7 = V4 m outs c main_v7 := (V14_of m outs c main_v7 (by decide)).trans <| (V13_of m outs c main_v7 (by decide)).trans <| (V12_of m outs c main_v7 (by decide)).trans <| (V11_of m outs c main_v7 (by decide)).trans <| (V10_of m outs c main_v7 (by decide)).trans <| (V9_of m outs c main_v7 (by decide)).trans <| (V8_of m outs c main_v7 (by decide)).trans <| (V7_of m outs c main_v7 (by decide)).trans <| (V6_of m outs c main_v7 (by decide)).trans <| (V5_of m outs c main_v7 (by decide))
  have p_mue14 : V14 m outs c main_v46_0 = V13 m outs c main_v46_0 := (V14_of m outs c main_v46_0 (by decide))
  have p_vre14 : V14 m outs c main_v46_1 = V13 m outs c main_v46_1 := (V14_of m outs c main_v46_1 (by decide))
  have p_A15 : V15 m outs c main_v32 = V7 m outs c main_v32 := (V15_of m outs c main_v32 (by decide)).trans <| (V14_of m outs c main_v32 (by decide)).trans <| (V13_of m outs c main_v32 (by decide)).trans <| (V12_of m outs c main_v32 (by decide)).trans <| (V11_of m outs c main_v32 (by decide)).trans <| (V10_of m outs c main_v32 (by decide)).trans <| (V9_of m outs c main_v32 (by decide)).trans <| (V8_of m outs c main_v32 (by decide))
  have p_ms15 : V15 m outs c main_v45_1 = V12 m outs c main_v45_1 := (V15_of m outs c main_v45_1 (by decide)).trans <| (V14_of m outs c main_v45_1 (by decide)).trans <| (V13_of m outs c main_v45_1 (by decide))
  have u_muh : V17 m outs c main_v58_0 = outs 17 main_v58_0 c := upd2_fst _ _ _ _ _ (by decide)
  have u_vrh : V17 m outs c main_v58_1 = outs 17 main_v58_1 c := Function.update_self _ _ _
  have u_ho : V19 m outs c main_v65 = outs 19 main_v65 c := Function.update_self _ _ _
  have p_xa18 : V18 m outs c main_v57 = V16 m outs c main_v57 := (V18_of m outs c main_v57 (by decide)).trans <| (V17_of m outs c main_v57 (by decide))
  have p_hin18 : V18 m outs c main_v5 = V4 m outs c main_v5 := (V18_of m outs c main_v5 (by decide)).trans <| (V17_of m outs c main_v5 (by decide)).trans <| (V16_of m outs c main_v5 (by decide)).trans <| (V15_of m outs c main_v5 (by decide)).trans <| (V14_of m outs c main_v5 (by decide)).trans <| (V13_of m outs c main_v5 (by decide)).trans <| (V12_of m outs c main_v5 (by decide)).trans <| (V11_of m outs c main_v5 (by decide)).trans <| (V10_of m outs c main_v5 (by decide)).trans <| (V9_of m outs c main_v5 (by decide)).trans <| (V8_of m outs c main_v5 (by decide)).trans <| (V7_of m outs c main_v5 (by decide)).trans <| (V6_of m outs c main_v5 (by decide)).trans <| (V5_of m outs c main_v5 (by decide))
  have p_muh18 : V18 m outs c main_v58_0 = V17 m outs c main_v58_0 := (V18_of m outs c main_v58_0 (by decide))
  have p_vrh18 : V18 m outs c main_v58_1 = V17 m outs c main_v58_1 := (V18_of m outs c main_v58_1 (by decide))
  refine klayer_of_parts cN cE eps ((P m c).L 0) (P m c).src (P m c).dst (toMat (V4 m outs c main_v5)) (toMat (V4 m outs c main_v7))
    0 128 256 384 (by omega) (by omega) (by omega) (by omega)
    (toMat (V5 m outs c main_v20)) (toRow1 (V5 m outs c main_v30)) (toMat (V6 m outs c main_v31)) (toMat (V7 m outs c main_v32)) (toMat (V7 m outs c main_v33)) (toMat (V7 m outs c main_v34)) (toMat (V7 m outs c main_v35))
    (toMat (V7 m outs c main_v37)) (toRow1 (V7 m outs c main_v40)) (toMat (V8 m outs c main_v41)) (toMat (V9 m outs c main_v42)) (toMat (V10 m outs c main_v43)) (toMat (V11 m outs c main_v44)) (toMat (V12 m outs c main_v45_0)) (toMat (V12 m outs c main_v45_1))
    (toRow1 (V13 m outs c main_v46_0)) (toRow1 (V13 m outs c main_v46_1)) (toRow1 (V14 m outs c main_v49)) (toRow1 (V14 m outs c main_v52)) (toMat (V19 m outs c main_v53))
    (toMat (V16 m outs c main_v57)) (toRow1 (V17 m outs c main_v58_0)) (toRow1 (V17 m outs c main_v58_1)) (toRow1 (V18 m outs c main_v61)) (toRow1 (V18 m outs c main_v64)) (toMat (V19 m outs c main_v65))
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · -- the wide product
    have := H.r2
    rw [← u_nc, p_hin5] at this
    exact this
  · -- weight block 0
    exact fun k j => HV.l0_wcat_0 k j
  · -- weight block 1
    exact fun k j => HV.l0_wcat_1 k j
  · -- weight block 2
    exact fun k j => HV.l0_wcat_2 k j
  · -- weight block 3
    exact fun k j => HV.l0_wcat_3 k j
  · -- bias block 0
    exact fun j => HV.l0_bcat_0 j
  · -- bias block 1
    exact fun j => HV.l0_bcat_1 j
  · -- bias block 2
    exact fun j => HV.l0_bcat_2 j
  · -- bias block 3
    exact fun j => HV.l0_bcat_3 j
  · -- column block 0
    exact fun i j => HV.l0_cols_0 i j
  · -- column block 1
    exact fun i j => HV.l0_cols_1 i j
  · -- column block 2
    exact fun i j => HV.l0_cols_2 i j
  · -- column block 3
    exact fun i j => HV.l0_cols_3 i j
  · -- the edge projection
    have := H.r3
    rw [← u_Ce, p_ein7] at this
    exact this
  · -- its weight
    exact fun k j => HV.l0_w2 k j
  · -- its bias
    exact fun j => HV.l0_b2 j
  · -- target rows
    intro x j
    have := HV.l0_take_D x j
    rw [p_Dm8] at this
    exact this
  · -- source rows
    intro x j
    have := HV.l0_take_E x j
    rw [p_Em8] at this
    exact this
  · -- source rows of the second projection
    intro x j
    have := HV.l0_take_B x j
    rw [p_B8] at this
    exact this
  · -- the pre-activation
    have := H.r4a
    rw [← u_eh, p_Ce11, p_Dd11, p_Es11] at this
    exact this
  · -- the message
    have := H.r4b
    rw [← H.r4a, ← u_eh, ← u_ms] at this
    exact this
  · -- edge mean
    have := H.r5a
    rw [← u_mue] at this
    exact this
  · -- edge variance
    have := H.r5b
    rw [← u_vre] at this
    exact this
  · -- edge scale
    exact fun j => HV.l0_gE j
  · -- edge shift
    exact fun j => HV.l0_beE j
  · -- the new edge features
    have := H.r6
    rw [← u_eo, ← p_eo19, p_eh14, p_ein14, p_mue14, p_vre14] at this
    exact this
  · -- the sum of messages into each node
    intro i j
    have := HV.l0_xadd i j
    rw [p_A15, p_ms15] at this
    exact this
  · -- node mean
    have := H.r7a
    rw [← u_muh] at this
    exact this
  · -- node variance
    have := H.r7b
    rw [← u_vrh] at this
    exact this
  · -- node scale
    exact fun j => HV.l0_gN j
  · -- node shift
    exact fun j => HV.l0_beN j
  · -- the new node features
    have := H.r8
    rw [← u_ho, p_xa18, p_hin18, p_muh18, p_vrh18] at this
    exact this

/-- Layer 1: what the seven regions and the host stretches between them leave is the layer applied to what they found. -/
theorem klayer1 (HV : HostVals m outs c) (H : RegionVals m outs c) :
    ((toMat (V34 m outs c main_v123)), (toMat (V34 m outs c main_v111)))
      = KLayer cN cE eps ((P m c).L 1) (P m c).src (P m c).dst (toMat (V19 m outs c main_v65)) (toMat (V19 m outs c main_v53)) := by
  have u_nc : V21 m outs c main_v89 = outs 21 main_v89 c := Function.update_self _ _ _
  have p_hin5 : V20 m outs c main_v65 = V19 m outs c main_v65 := (V20_of m outs c main_v65 (by decide))
  have u_Ce : V23 m outs c main_v99 = outs 23 main_v99 c := Function.update_self _ _ _
  have p_ein7 : V22 m outs c main_v53 = V19 m outs c main_v53 := (V22_of m outs c main_v53 (by decide)).trans <| (V21_of m outs c main_v53 (by decide)).trans <| (V20_of m outs c main_v53 (by decide))
  have p_Dm8 : V23 m outs c main_v92 = V22 m outs c main_v92 := (V23_of m outs c main_v92 (by decide))
  have p_Em8 : V23 m outs c main_v93 = V22 m outs c main_v93 := (V23_of m outs c main_v93 (by decide))
  have p_B8 : V23 m outs c main_v91 = V22 m outs c main_v91 := (V23_of m outs c main_v91 (by decide))
  have u_eh : V27 m outs c main_v103_0 = outs 27 main_v103_0 c := upd2_fst _ _ _ _ _ (by decide)
  have u_ms : V27 m outs c main_v103_1 = outs 27 main_v103_1 c := Function.update_self _ _ _
  have p_Ce11 : V26 m outs c main_v99 = V23 m outs c main_v99 := (V26_of m outs c main_v99 (by decide)).trans <| (V25_of m outs c main_v99 (by decide)).trans <| (V24_of m outs c main_v99 (by decide))
  have p_Dd11 : V26 m outs c main_v100 = V24 m outs c main_v100 := (V26_of m outs c main_v100 (by decide)).trans <| (V25_of m outs c main_v100 (by decide))
  have p_Es11 : V26 m outs c main_v101 = V25 m outs c main_v101 := (V26_of m outs c main_v101 (by decide))
  have u_mue : V28 m outs c main_v104_0 = outs 28 main_v104_0 c := upd2_fst _ _ _ _ _ (by decide)
  have u_vre : V28 m outs c main_v104_1 = outs 28 main_v104_1 c := Function.update_self _ _ _
  have u_eo : V30 m outs c main_v111 = outs 30 main_v111 c := Function.update_self _ _ _
  have p_eo19 : V34 m outs c main_v111 = V30 m outs c main_v111 := (V34_of m outs c main_v111 (by decide)).trans <| (V33_of m outs c main_v111 (by decide)).trans <| (V32_of m outs c main_v111 (by decide)).trans <| (V31_of m outs c main_v111 (by decide))
  have p_eh14 : V29 m outs c main_v103_0 = V27 m outs c main_v103_0 := (V29_of m outs c main_v103_0 (by decide)).trans <| (V28_of m outs c main_v103_0 (by decide))
  have p_ein14 : V29 m outs c main_v53 = V19 m outs c main_v53 := (V29_of m outs c main_v53 (by decide)).trans <| (V28_of m outs c main_v53 (by decide)).trans <| (V27_of m outs c main_v53 (by decide)).trans <| (V26_of m outs c main_v53 (by decide)).trans <| (V25_of m outs c main_v53 (by decide)).trans <| (V24_of m outs c main_v53 (by decide)).trans <| (V23_of m outs c main_v53 (by decide)).trans <| (V22_of m outs c main_v53 (by decide)).trans <| (V21_of m outs c main_v53 (by decide)).trans <| (V20_of m outs c main_v53 (by decide))
  have p_mue14 : V29 m outs c main_v104_0 = V28 m outs c main_v104_0 := (V29_of m outs c main_v104_0 (by decide))
  have p_vre14 : V29 m outs c main_v104_1 = V28 m outs c main_v104_1 := (V29_of m outs c main_v104_1 (by decide))
  have p_A15 : V30 m outs c main_v90 = V22 m outs c main_v90 := (V30_of m outs c main_v90 (by decide)).trans <| (V29_of m outs c main_v90 (by decide)).trans <| (V28_of m outs c main_v90 (by decide)).trans <| (V27_of m outs c main_v90 (by decide)).trans <| (V26_of m outs c main_v90 (by decide)).trans <| (V25_of m outs c main_v90 (by decide)).trans <| (V24_of m outs c main_v90 (by decide)).trans <| (V23_of m outs c main_v90 (by decide))
  have p_ms15 : V30 m outs c main_v103_1 = V27 m outs c main_v103_1 := (V30_of m outs c main_v103_1 (by decide)).trans <| (V29_of m outs c main_v103_1 (by decide)).trans <| (V28_of m outs c main_v103_1 (by decide))
  have u_muh : V32 m outs c main_v116_0 = outs 32 main_v116_0 c := upd2_fst _ _ _ _ _ (by decide)
  have u_vrh : V32 m outs c main_v116_1 = outs 32 main_v116_1 c := Function.update_self _ _ _
  have u_ho : V34 m outs c main_v123 = outs 34 main_v123 c := Function.update_self _ _ _
  have p_xa18 : V33 m outs c main_v115 = V31 m outs c main_v115 := (V33_of m outs c main_v115 (by decide)).trans <| (V32_of m outs c main_v115 (by decide))
  have p_hin18 : V33 m outs c main_v65 = V19 m outs c main_v65 := (V33_of m outs c main_v65 (by decide)).trans <| (V32_of m outs c main_v65 (by decide)).trans <| (V31_of m outs c main_v65 (by decide)).trans <| (V30_of m outs c main_v65 (by decide)).trans <| (V29_of m outs c main_v65 (by decide)).trans <| (V28_of m outs c main_v65 (by decide)).trans <| (V27_of m outs c main_v65 (by decide)).trans <| (V26_of m outs c main_v65 (by decide)).trans <| (V25_of m outs c main_v65 (by decide)).trans <| (V24_of m outs c main_v65 (by decide)).trans <| (V23_of m outs c main_v65 (by decide)).trans <| (V22_of m outs c main_v65 (by decide)).trans <| (V21_of m outs c main_v65 (by decide)).trans <| (V20_of m outs c main_v65 (by decide))
  have p_muh18 : V33 m outs c main_v116_0 = V32 m outs c main_v116_0 := (V33_of m outs c main_v116_0 (by decide))
  have p_vrh18 : V33 m outs c main_v116_1 = V32 m outs c main_v116_1 := (V33_of m outs c main_v116_1 (by decide))
  refine klayer_of_parts cN cE eps ((P m c).L 1) (P m c).src (P m c).dst (toMat (V19 m outs c main_v65)) (toMat (V19 m outs c main_v53))
    0 128 256 384 (by omega) (by omega) (by omega) (by omega)
    (toMat (V20 m outs c main_v78)) (toRow1 (V20 m outs c main_v88)) (toMat (V21 m outs c main_v89)) (toMat (V22 m outs c main_v90)) (toMat (V22 m outs c main_v91)) (toMat (V22 m outs c main_v92)) (toMat (V22 m outs c main_v93))
    (toMat (V22 m outs c main_v95)) (toRow1 (V22 m outs c main_v98)) (toMat (V23 m outs c main_v99)) (toMat (V24 m outs c main_v100)) (toMat (V25 m outs c main_v101)) (toMat (V26 m outs c main_v102)) (toMat (V27 m outs c main_v103_0)) (toMat (V27 m outs c main_v103_1))
    (toRow1 (V28 m outs c main_v104_0)) (toRow1 (V28 m outs c main_v104_1)) (toRow1 (V29 m outs c main_v107)) (toRow1 (V29 m outs c main_v110)) (toMat (V34 m outs c main_v111))
    (toMat (V31 m outs c main_v115)) (toRow1 (V32 m outs c main_v116_0)) (toRow1 (V32 m outs c main_v116_1)) (toRow1 (V33 m outs c main_v119)) (toRow1 (V33 m outs c main_v122)) (toMat (V34 m outs c main_v123))
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · -- the wide product
    have := H.r9
    rw [← u_nc, p_hin5] at this
    exact this
  · -- weight block 0
    exact fun k j => HV.l1_wcat_0 k j
  · -- weight block 1
    exact fun k j => HV.l1_wcat_1 k j
  · -- weight block 2
    exact fun k j => HV.l1_wcat_2 k j
  · -- weight block 3
    exact fun k j => HV.l1_wcat_3 k j
  · -- bias block 0
    exact fun j => HV.l1_bcat_0 j
  · -- bias block 1
    exact fun j => HV.l1_bcat_1 j
  · -- bias block 2
    exact fun j => HV.l1_bcat_2 j
  · -- bias block 3
    exact fun j => HV.l1_bcat_3 j
  · -- column block 0
    exact fun i j => HV.l1_cols_0 i j
  · -- column block 1
    exact fun i j => HV.l1_cols_1 i j
  · -- column block 2
    exact fun i j => HV.l1_cols_2 i j
  · -- column block 3
    exact fun i j => HV.l1_cols_3 i j
  · -- the edge projection
    have := H.r10
    rw [← u_Ce, p_ein7] at this
    exact this
  · -- its weight
    exact fun k j => HV.l1_w2 k j
  · -- its bias
    exact fun j => HV.l1_b2 j
  · -- target rows
    intro x j
    have := HV.l1_take_D x j
    rw [p_Dm8] at this
    exact this
  · -- source rows
    intro x j
    have := HV.l1_take_E x j
    rw [p_Em8] at this
    exact this
  · -- source rows of the second projection
    intro x j
    have := HV.l1_take_B x j
    rw [p_B8] at this
    exact this
  · -- the pre-activation
    have := H.r11a
    rw [← u_eh, p_Ce11, p_Dd11, p_Es11] at this
    exact this
  · -- the message
    have := H.r11b
    rw [← H.r11a, ← u_eh, ← u_ms] at this
    exact this
  · -- edge mean
    have := H.r12a
    rw [← u_mue] at this
    exact this
  · -- edge variance
    have := H.r12b
    rw [← u_vre] at this
    exact this
  · -- edge scale
    exact fun j => HV.l1_gE j
  · -- edge shift
    exact fun j => HV.l1_beE j
  · -- the new edge features
    have := H.r13
    rw [← u_eo, ← p_eo19, p_eh14, p_ein14, p_mue14, p_vre14] at this
    exact this
  · -- the sum of messages into each node
    intro i j
    have := HV.l1_xadd i j
    rw [p_A15, p_ms15] at this
    exact this
  · -- node mean
    have := H.r14a
    rw [← u_muh] at this
    exact this
  · -- node variance
    have := H.r14b
    rw [← u_vrh] at this
    exact this
  · -- node scale
    exact fun j => HV.l1_gN j
  · -- node shift
    exact fun j => HV.l1_beN j
  · -- the new node features
    have := H.r15
    rw [← u_ho, p_xa18, p_hin18, p_muh18, p_vrh18] at this
    exact this

/-- Layer 2: what the seven regions and the host stretches between them leave is the layer applied to what they found. -/
theorem klayer2 (HV : HostVals m outs c) (H : RegionVals m outs c) :
    ((toMat (V49 m outs c main_v181)), (toMat (V49 m outs c main_v169)))
      = KLayer cN cE eps ((P m c).L 2) (P m c).src (P m c).dst (toMat (V34 m outs c main_v123)) (toMat (V34 m outs c main_v111)) := by
  have u_nc : V36 m outs c main_v147 = outs 36 main_v147 c := Function.update_self _ _ _
  have p_hin5 : V35 m outs c main_v123 = V34 m outs c main_v123 := (V35_of m outs c main_v123 (by decide))
  have u_Ce : V38 m outs c main_v157 = outs 38 main_v157 c := Function.update_self _ _ _
  have p_ein7 : V37 m outs c main_v111 = V34 m outs c main_v111 := (V37_of m outs c main_v111 (by decide)).trans <| (V36_of m outs c main_v111 (by decide)).trans <| (V35_of m outs c main_v111 (by decide))
  have p_Dm8 : V38 m outs c main_v150 = V37 m outs c main_v150 := (V38_of m outs c main_v150 (by decide))
  have p_Em8 : V38 m outs c main_v151 = V37 m outs c main_v151 := (V38_of m outs c main_v151 (by decide))
  have p_B8 : V38 m outs c main_v149 = V37 m outs c main_v149 := (V38_of m outs c main_v149 (by decide))
  have u_eh : V42 m outs c main_v161_0 = outs 42 main_v161_0 c := upd2_fst _ _ _ _ _ (by decide)
  have u_ms : V42 m outs c main_v161_1 = outs 42 main_v161_1 c := Function.update_self _ _ _
  have p_Ce11 : V41 m outs c main_v157 = V38 m outs c main_v157 := (V41_of m outs c main_v157 (by decide)).trans <| (V40_of m outs c main_v157 (by decide)).trans <| (V39_of m outs c main_v157 (by decide))
  have p_Dd11 : V41 m outs c main_v158 = V39 m outs c main_v158 := (V41_of m outs c main_v158 (by decide)).trans <| (V40_of m outs c main_v158 (by decide))
  have p_Es11 : V41 m outs c main_v159 = V40 m outs c main_v159 := (V41_of m outs c main_v159 (by decide))
  have u_mue : V43 m outs c main_v162_0 = outs 43 main_v162_0 c := upd2_fst _ _ _ _ _ (by decide)
  have u_vre : V43 m outs c main_v162_1 = outs 43 main_v162_1 c := Function.update_self _ _ _
  have u_eo : V45 m outs c main_v169 = outs 45 main_v169 c := Function.update_self _ _ _
  have p_eo19 : V49 m outs c main_v169 = V45 m outs c main_v169 := (V49_of m outs c main_v169 (by decide)).trans <| (V48_of m outs c main_v169 (by decide)).trans <| (V47_of m outs c main_v169 (by decide)).trans <| (V46_of m outs c main_v169 (by decide))
  have p_eh14 : V44 m outs c main_v161_0 = V42 m outs c main_v161_0 := (V44_of m outs c main_v161_0 (by decide)).trans <| (V43_of m outs c main_v161_0 (by decide))
  have p_ein14 : V44 m outs c main_v111 = V34 m outs c main_v111 := (V44_of m outs c main_v111 (by decide)).trans <| (V43_of m outs c main_v111 (by decide)).trans <| (V42_of m outs c main_v111 (by decide)).trans <| (V41_of m outs c main_v111 (by decide)).trans <| (V40_of m outs c main_v111 (by decide)).trans <| (V39_of m outs c main_v111 (by decide)).trans <| (V38_of m outs c main_v111 (by decide)).trans <| (V37_of m outs c main_v111 (by decide)).trans <| (V36_of m outs c main_v111 (by decide)).trans <| (V35_of m outs c main_v111 (by decide))
  have p_mue14 : V44 m outs c main_v162_0 = V43 m outs c main_v162_0 := (V44_of m outs c main_v162_0 (by decide))
  have p_vre14 : V44 m outs c main_v162_1 = V43 m outs c main_v162_1 := (V44_of m outs c main_v162_1 (by decide))
  have p_A15 : V45 m outs c main_v148 = V37 m outs c main_v148 := (V45_of m outs c main_v148 (by decide)).trans <| (V44_of m outs c main_v148 (by decide)).trans <| (V43_of m outs c main_v148 (by decide)).trans <| (V42_of m outs c main_v148 (by decide)).trans <| (V41_of m outs c main_v148 (by decide)).trans <| (V40_of m outs c main_v148 (by decide)).trans <| (V39_of m outs c main_v148 (by decide)).trans <| (V38_of m outs c main_v148 (by decide))
  have p_ms15 : V45 m outs c main_v161_1 = V42 m outs c main_v161_1 := (V45_of m outs c main_v161_1 (by decide)).trans <| (V44_of m outs c main_v161_1 (by decide)).trans <| (V43_of m outs c main_v161_1 (by decide))
  have u_muh : V47 m outs c main_v174_0 = outs 47 main_v174_0 c := upd2_fst _ _ _ _ _ (by decide)
  have u_vrh : V47 m outs c main_v174_1 = outs 47 main_v174_1 c := Function.update_self _ _ _
  have u_ho : V49 m outs c main_v181 = outs 49 main_v181 c := Function.update_self _ _ _
  have p_xa18 : V48 m outs c main_v173 = V46 m outs c main_v173 := (V48_of m outs c main_v173 (by decide)).trans <| (V47_of m outs c main_v173 (by decide))
  have p_hin18 : V48 m outs c main_v123 = V34 m outs c main_v123 := (V48_of m outs c main_v123 (by decide)).trans <| (V47_of m outs c main_v123 (by decide)).trans <| (V46_of m outs c main_v123 (by decide)).trans <| (V45_of m outs c main_v123 (by decide)).trans <| (V44_of m outs c main_v123 (by decide)).trans <| (V43_of m outs c main_v123 (by decide)).trans <| (V42_of m outs c main_v123 (by decide)).trans <| (V41_of m outs c main_v123 (by decide)).trans <| (V40_of m outs c main_v123 (by decide)).trans <| (V39_of m outs c main_v123 (by decide)).trans <| (V38_of m outs c main_v123 (by decide)).trans <| (V37_of m outs c main_v123 (by decide)).trans <| (V36_of m outs c main_v123 (by decide)).trans <| (V35_of m outs c main_v123 (by decide))
  have p_muh18 : V48 m outs c main_v174_0 = V47 m outs c main_v174_0 := (V48_of m outs c main_v174_0 (by decide))
  have p_vrh18 : V48 m outs c main_v174_1 = V47 m outs c main_v174_1 := (V48_of m outs c main_v174_1 (by decide))
  refine klayer_of_parts cN cE eps ((P m c).L 2) (P m c).src (P m c).dst (toMat (V34 m outs c main_v123)) (toMat (V34 m outs c main_v111))
    0 128 256 384 (by omega) (by omega) (by omega) (by omega)
    (toMat (V35 m outs c main_v136)) (toRow1 (V35 m outs c main_v146)) (toMat (V36 m outs c main_v147)) (toMat (V37 m outs c main_v148)) (toMat (V37 m outs c main_v149)) (toMat (V37 m outs c main_v150)) (toMat (V37 m outs c main_v151))
    (toMat (V37 m outs c main_v153)) (toRow1 (V37 m outs c main_v156)) (toMat (V38 m outs c main_v157)) (toMat (V39 m outs c main_v158)) (toMat (V40 m outs c main_v159)) (toMat (V41 m outs c main_v160)) (toMat (V42 m outs c main_v161_0)) (toMat (V42 m outs c main_v161_1))
    (toRow1 (V43 m outs c main_v162_0)) (toRow1 (V43 m outs c main_v162_1)) (toRow1 (V44 m outs c main_v165)) (toRow1 (V44 m outs c main_v168)) (toMat (V49 m outs c main_v169))
    (toMat (V46 m outs c main_v173)) (toRow1 (V47 m outs c main_v174_0)) (toRow1 (V47 m outs c main_v174_1)) (toRow1 (V48 m outs c main_v177)) (toRow1 (V48 m outs c main_v180)) (toMat (V49 m outs c main_v181))
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · -- the wide product
    have := H.r16
    rw [← u_nc, p_hin5] at this
    exact this
  · -- weight block 0
    exact fun k j => HV.l2_wcat_0 k j
  · -- weight block 1
    exact fun k j => HV.l2_wcat_1 k j
  · -- weight block 2
    exact fun k j => HV.l2_wcat_2 k j
  · -- weight block 3
    exact fun k j => HV.l2_wcat_3 k j
  · -- bias block 0
    exact fun j => HV.l2_bcat_0 j
  · -- bias block 1
    exact fun j => HV.l2_bcat_1 j
  · -- bias block 2
    exact fun j => HV.l2_bcat_2 j
  · -- bias block 3
    exact fun j => HV.l2_bcat_3 j
  · -- column block 0
    exact fun i j => HV.l2_cols_0 i j
  · -- column block 1
    exact fun i j => HV.l2_cols_1 i j
  · -- column block 2
    exact fun i j => HV.l2_cols_2 i j
  · -- column block 3
    exact fun i j => HV.l2_cols_3 i j
  · -- the edge projection
    have := H.r17
    rw [← u_Ce, p_ein7] at this
    exact this
  · -- its weight
    exact fun k j => HV.l2_w2 k j
  · -- its bias
    exact fun j => HV.l2_b2 j
  · -- target rows
    intro x j
    have := HV.l2_take_D x j
    rw [p_Dm8] at this
    exact this
  · -- source rows
    intro x j
    have := HV.l2_take_E x j
    rw [p_Em8] at this
    exact this
  · -- source rows of the second projection
    intro x j
    have := HV.l2_take_B x j
    rw [p_B8] at this
    exact this
  · -- the pre-activation
    have := H.r18a
    rw [← u_eh, p_Ce11, p_Dd11, p_Es11] at this
    exact this
  · -- the message
    have := H.r18b
    rw [← H.r18a, ← u_eh, ← u_ms] at this
    exact this
  · -- edge mean
    have := H.r19a
    rw [← u_mue] at this
    exact this
  · -- edge variance
    have := H.r19b
    rw [← u_vre] at this
    exact this
  · -- edge scale
    exact fun j => HV.l2_gE j
  · -- edge shift
    exact fun j => HV.l2_beE j
  · -- the new edge features
    have := H.r20
    rw [← u_eo, ← p_eo19, p_eh14, p_ein14, p_mue14, p_vre14] at this
    exact this
  · -- the sum of messages into each node
    intro i j
    have := HV.l2_xadd i j
    rw [p_A15, p_ms15] at this
    exact this
  · -- node mean
    have := H.r21a
    rw [← u_muh] at this
    exact this
  · -- node variance
    have := H.r21b
    rw [← u_vrh] at this
    exact this
  · -- node scale
    exact fun j => HV.l2_gN j
  · -- node shift
    exact fun j => HV.l2_beN j
  · -- the new node features
    have := H.r22
    rw [← u_ho, p_xa18, p_hin18, p_muh18, p_vrh18] at this
    exact this

/-! ### The whole program -/

/-- The result buffer holds the network (variance as mean of squares minus squared mean) of the arguments. -/
theorem kval_of (HV : HostVals m outs c) (H : RegionVals m outs c) :
    toMat (V52 m outs c main_v192) = KNet (P m c) := by
  have e0 := kemb m outs c HV H
  have l0 := klayer0 m outs c HV H
  have l1 := klayer1 m outs c HV H
  have l2 := klayer2 m outs c HV H
  have s0h := congrArg Prod.fst e0
  have s0e := congrArg Prod.snd e0
  dsimp only at s0h s0e
  rw [s0h, s0e] at l0
  have s1h := congrArg Prod.fst l0
  have s1e := congrArg Prod.snd l0
  dsimp only at s1h s1e
  rw [s1h, s1e] at l1
  have s2h := congrArg Prod.fst l1
  have s2e := congrArg Prod.snd l1
  dsimp only at s2h s2e
  rw [s2h, s2e] at l2
  have s3h := congrArg Prod.fst l2
  dsimp only at s3h
  exact HV.head.trans (congrArg (tail (P m c)) s3h)

end

end Cert.KVal

end
-- ==== Proof.Rg0Val.lean ====
import proofs.«418385_j87393994539142_1_alg».proof.Proof.Rg0
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 0 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 10 points tile the array. -/

/-! ## The matrix product of a row block at an entry -/

/-- On the result's row axis the left operand reads the result's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- On its column axis the left operand reads the contraction position. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- On its row axis the right operand reads the contraction position. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- On its column axis the right operand reads the result's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a row block with the matrix into a zero accumulator, at entry (p, q): the inner product of
    row p of the block with column q of the matrix. -/
theorem mm0_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul _ _ _ _ _ _ = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-- The bias row spread over the block's rows, at entry (p, q): the row's entry q. -/
theorem bias0_apply (b : Vec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's payload at entry (p, q) of the block: row p of the x block against column q of W, plus the
    bias at q. A change of float format is the identity on the extended reals, and so is a change of shape to
    the same shape. -/
theorem pay0_apply (x0 : Vec Ideal S2000x128 .f32) (x1 : Vec Ideal S128x128 .f32) (x2 : Vec Ideal S1x128 .f32) (p : Fin 2000) (q : Fin 128) :
    k0_pay1 (F := Ideal) x0 x1 x2 (ix2 p q) = (∑ k : Fin 128, x0 (ix2 p k) * x1 (ix2 k q)) + x2 (ix2 (0 : Fin 1) q) := by
  unfold k0_pay1
  simp only [shapeCast_self]
  rw [addf_apply, mm0_apply, bias0_apply]
  rfl

/-! ## The blocks over the grid -/

theorem hz0 : (![0, 0] : Fin 2 → Nat) = fun _ => 0 := funext fun a => by fin_cases a <;> rfl

/-- The windows' block indices over the grid: the x block and the output block sit at row block t, column
    block 0; W and the bias are at block (0, 0) at every point. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- An index of the output array is in point t's block iff each coordinate is in the block's range. -/
theorem mem_blk0 (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Every row of the output array lies in the block of the point its row block names. -/
theorem cover0 (i : S20000x128.Idx) : ∃ t : Fin cfg0.N, (cfg0.win 3).flush t = true ∧ i ∈ ((cfg0.win 3).blk t).view.set := by
  have hi0 : (i 0).val < 20000 := (i 0).isLt
  have hi1 : (i 1).val < 128 := (i 1).isLt
  let t : Fin cfg0.N := ⟨(i 0).val / 2000, by show (i 0).val / 2000 < grid0.N; rw [N_0]; omega⟩
  obtain ⟨-, -, -, -, -, -, e6, e7⟩ := idx_facts0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-! ## The arrays after the run -/

/-- The affine map of whole arrays, index by index: entry i is the inner product of row i 0 of x with column
    i 1 of W, plus the bias at i 1. -/
def G0 (a0 : S20000x128.Idx → EReal) (a1 : S128x128.Idx → EReal) (a2 : S1x128.Idx → EReal) : S20000x128.Idx → EReal :=
  fun i => (∑ k : Fin 128, a0 (ix2 (n0 := 20000) (i 0) k) * a1 (ix2 k (n1 := 128) (i 1))) + a2 (ix2 (0 : Fin 1) (n1 := 128) (i 1))

section Region0
variable (V : (c : Dev nD) → (b : Ref sig .tc) → Buf (Elt Ideal) ((c : Thread nD τ).loc b))

/-- The array of x is never written back. -/
theorem arrAt0_in_0 (c : Dev nD) : (dat0 (F := Ideal) V c).arrAt 0 cfg0.N = V c (Pipeline.arrRef spec0 0) :=
  ((dat0 (F := Ideal) V c).arrAt_in 0 rfl _).trans (A_eq0 V c 0)
/-- The array of W is never written back. -/
theorem arrAt0_in_1 (c : Dev nD) : (dat0 (F := Ideal) V c).arrAt 1 cfg0.N = V c (Pipeline.arrRef spec0 1) :=
  ((dat0 (F := Ideal) V c).arrAt_in 1 rfl _).trans (A_eq0 V c 1)
/-- The array of the bias is never written back. -/
theorem arrAt0_in_2 (c : Dev nD) : (dat0 (F := Ideal) V c).arrAt 2 cfg0.N = V c (Pipeline.arrRef spec0 2) :=
  ((dat0 (F := Ideal) V c).arrAt_in 2 rfl _).trans (A_eq0 V c 2)

/-- What point t writes back is block t of the affine map of the arrays as the region finds them: the x block's
    row p is row p of the output block's row range, W and the bias are read whole. -/
theorem flushed0_eq (c : Dev nD) (t : Fin cfg0.N) :
    (dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz0]
  simp only [View.ld_unit_zero (S := S2000x128) hz0, View.ld_unit_zero (S := S128x128) hz0, View.ld_unit_zero (S := S1x128) hz0]
  obtain ⟨e0, e1, e2, e3, e4, e5, e6, e7⟩ := idx_facts0 t
  funext j
  obtain ⟨p, q, rfl⟩ : ∃ (p : Fin 2000) (q : Fin 128), j = ix2 p q := ⟨j 0, j 1, eq_ix2 j⟩
  refine (pay0_apply _ _ _ p q).trans ?_
  have hx : ∀ k : Fin 128, iblk0 V c 0 t (ix2 p k)
      = V c (Pipeline.arrRef spec0 0) (ix2 (n0 := 20000) ((((cfg0.win 3).blk t).view.emb (ix2 p q)) 0) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have hw : ∀ k : Fin 128, iblk0 V c 1 t (ix2 k q)
      = V c (Pipeline.arrRef spec0 1) (ix2 k (n1 := 128) ((((cfg0.win 3).blk t).view.emb (ix2 p q)) 1)) := fun k => by
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hb : iblk0 V c 2 t (ix2 (0 : Fin 1) q)
      = V c (Pipeline.arrRef spec0 2) (ix2 (0 : Fin 1) (n1 := 128) ((((cfg0.win 3).blk t).view.emb (ix2 p q)) 1)) := by
    show V c (Pipeline.arrRef spec0 2) (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [hb, Finset.sum_congr rfl fun k _ => by rw [hx k, hw k]]
  rfl

/-- The output array after the run is the affine map of the arrays as the region finds them. -/
theorem final0 (c : Dev nD) : (dat0 (F := Ideal) V c).arrAt 3 cfg0.N
    = G0 (V c (Pipeline.arrRef spec0 0)) (V c (Pipeline.arrRef spec0 1)) (V c (Pipeline.arrRef spec0 2)) :=
  (dat0 (F := Ideal) V c).arrAt_eq_of_cover 3 _ (fun t _ => flushed0_eq V c t) cover0

/-- The output array after the run, as a matrix: the affine map of rows of the matrices the input arrays hold. -/
theorem arrAt0_out (c : Dev nD) : Cert.Stage.toMat ((dat0 (F := Ideal) V c).arrAt 3 cfg0.N)
    = Cert.Stage.lin (Cert.Stage.toMat (V c (Pipeline.arrRef spec0 0))) (Cert.Stage.toMat (V c (Pipeline.arrRef spec0 1)))
        (Cert.Stage.toRow1 (V c (Pipeline.arrRef spec0 2))) := by
  rw [final0]
  rfl

end Region0

end Cert.KernelIdeal.RgVal

end
-- ==== Proof.Rg1Val.lean ====
import proofs.«418385_j87393994539142_1_alg».proof.Proof.Rg1
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 1 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 80 points tile the array. -/

/-! ## The matrix product of a row block at an entry -/

/-- On the result's row axis the left operand reads the result's row. -/
theorem lhs_mm1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- On its column axis the left operand reads the contraction position. -/
theorem lhs_mm1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- On its row axis the right operand reads the contraction position. -/
theorem rhs_mm1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- On its column axis the right operand reads the result's column. -/
theorem rhs_mm1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a row block with the matrix into a zero accumulator, at entry (p, q): the inner product of
    row p of the block with column q of the matrix. -/
theorem mm1_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x0#32) (ix2 p q)
      = ∑ k : Fin 128, l (ix2 p k) * r (ix2 k q) := by
  show FloatOps.matmul _ _ _ _ _ _ = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

/-- The bias row spread over the block's rows, at entry (p, q): the row's entry q. -/
theorem bias1_apply (b : Vec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's payload at entry (p, q) of the block: row p of the x block against column q of W, plus the
    bias at q. A change of float format is the identity on the extended reals, and so is a change of shape to
    the same shape. -/
theorem pay1_apply (x0 : Vec Ideal S4000x128 .f32) (x1 : Vec Ideal S128x128 .f32) (x2 : Vec Ideal S1x128 .f32) (p : Fin 4000) (q : Fin 128) :
    k1_pay1 (F := Ideal) x0 x1 x2 (ix2 p q) = (∑ k : Fin 128, x0 (ix2 p k) * x1 (ix2 k q)) + x2 (ix2 (0 : Fin 1) q) := by
  unfold k1_pay1
  simp only [shapeCast_self]
  rw [addf_apply, mm1_apply, bias1_apply]
  rfl

/-! ## The blocks over the grid -/

theorem hz1 : (![0, 0] : Fin 2 → Nat) = fun _ => 0 := funext fun a => by fin_cases a <;> rfl

/-- The windows' block indices over the grid: the x block and the output block sit at row block t, column
    block 0; W and the bias are at block (0, 0) at every point. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- An index of the output array is in point t's block iff each coordinate is in the block's range. -/
theorem mem_blk1 (t : Fin cfg1.N) (i : S320000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v7).slice (win1_3.rect t)).set ↔ _
  rw [View.set_slice_whole, Rect.mem_set_unit]
  exact Iff.rfl

/-- Every row of the output array lies in the block of the point its row block names. -/
theorem cover1 (i : S320000x128.Idx) : ∃ t : Fin cfg1.N, (cfg1.win 3).flush t = true ∧ i ∈ ((cfg1.win 3).blk t).view.set := by
  have hi0 : (i 0).val < 320000 := (i 0).isLt
  have hi1 : (i 1).val < 128 := (i 1).isLt
  let t : Fin cfg1.N := ⟨(i 0).val / 4000, by show (i 0).val / 4000 < grid1.N; rw [N_1]; omega⟩
  obtain ⟨-, -, -, -, -, -, e6, e7⟩ := idx_facts1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-! ## The arrays after the run -/

/-- The affine map of whole arrays, index by index: entry i is the inner product of row i 0 of x with column
    i 1 of W, plus the bias at i 1. -/
def G1 (a0 : S320000x128.Idx → EReal) (a1 : S128x128.Idx → EReal) (a2 : S1x128.Idx → EReal) : S320000x128.Idx → EReal :=
  fun i => (∑ k : Fin 128, a0 (ix2 (n0 := 320000) (i 0) k) * a1 (ix2 k (n1 := 128) (i 1))) + a2 (ix2 (0 : Fin 1) (n1 := 128) (i 1))

section Region1
variable (V : (c : Dev nD) → (b : Ref sig .tc) → Buf (Elt Ideal) ((c : Thread nD τ).loc b))

/-- The array of x is never written back. -/
theorem arrAt1_in_0 (c : Dev nD) : (dat1 (F := Ideal) V c).arrAt 0 cfg1.N = V c (Pipeline.arrRef spec1 0) :=
  ((dat1 (F := Ideal) V c).arrAt_in 0 rfl _).trans (A_eq1 V c 0)
/-- The array of W is never written back. -/
theorem arrAt1_in_1 (c : Dev nD) : (dat1 (F := Ideal) V c).arrAt 1 cfg1.N = V c (Pipeline.arrRef spec1 1) :=
  ((dat1 (F := Ideal) V c).arrAt_in 1 rfl _).trans (A_eq1 V c 1)
/-- The array of the bias is never written back. -/
theorem arrAt1_in_2 (c : Dev nD) : (dat1 (F := Ideal) V c).arrAt 2 cfg1.N = V c (Pipeline.arrRef spec1 2) :=
  ((dat1 (F := Ideal) V c).arrAt_in 2 rfl _).trans (A_eq1 V c 2)

/-- What point t writes back is block t of the affine map of the arrays as the region finds them: the x block's
    row p is row p of the output block's row range, W and the bias are read whole. -/
theorem flushed1_eq (c : Dev nD) (t : Fin cfg1.N) :
    (dat1 (F := Ideal) V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz1]
  simp only [View.ld_unit_zero (S := S4000x128) hz1, View.ld_unit_zero (S := S128x128) hz1, View.ld_unit_zero (S := S1x128) hz1]
  obtain ⟨e0, e1, e2, e3, e4, e5, e6, e7⟩ := idx_facts1 t
  funext j
  obtain ⟨p, q, rfl⟩ : ∃ (p : Fin 4000) (q : Fin 128), j = ix2 p q := ⟨j 0, j 1, eq_ix2 j⟩
  refine (pay1_apply _ _ _ p q).trans ?_
  have hx : ∀ k : Fin 128, iblk1 V c 0 t (ix2 p k)
      = V c (Pipeline.arrRef spec1 0) (ix2 (n0 := 320000) ((((cfg1.win 3).blk t).view.emb (ix2 p q)) 0) k) := fun k => by
    show V c (Pipeline.arrRef spec1 0) (((cfg1.win 0).blk t).view.emb (ix2 p k)) = _
    refine congrArg _ (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * k.val = k.val; omega
  have hw : ∀ k : Fin 128, iblk1 V c 1 t (ix2 k q)
      = V c (Pipeline.arrRef spec1 1) (ix2 k (n1 := 128) ((((cfg1.win 3).blk t).view.emb (ix2 p q)) 1)) := fun k => by
    show V c (Pipeline.arrRef spec1 1) (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have hb : iblk1 V c 2 t (ix2 (0 : Fin 1) q)
      = V c (Pipeline.arrRef spec1 2) (ix2 (0 : Fin 1) (n1 := 128) ((((cfg1.win 3).blk t).view.emb (ix2 p q)) 1)) := by
    show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [hb, Finset.sum_congr rfl fun k _ => by rw [hx k, hw k]]
  rfl

/-- The output array after the run is the affine map of the arrays as the region finds them. -/
theorem final1 (c : Dev nD) : (dat1 (F := Ideal) V c).arrAt 3 cfg1.N
    = G1 (V c (Pipeline.arrRef spec1 0)) (V c (Pipeline.arrRef spec1 1)) (V c (Pipeline.arrRef spec1 2)) :=
  (dat1 (F := Ideal) V c).arrAt_eq_of_cover 3 _ (fun t _ => flushed1_eq V c t) cover1

/-- The output array after the run, as a matrix: the affine map of rows of the matrices the input arrays hold. -/
theorem arrAt1_out (c : Dev nD) : Cert.Stage.toMat ((dat1 (F := Ideal) V c).arrAt 3 cfg1.N)
    = Cert.Stage.lin (Cert.Stage.toMat (V c (Pipeline.arrRef spec1 0))) (Cert.Stage.toMat (V c (Pipeline.arrRef spec1 1)))
        (Cert.Stage.toRow1 (V c (Pipeline.arrRef spec1 2))) := by
  rw [final1]
  rfl

end Region1

end Cert.KernelIdeal.RgVal

end
-- ==== Proof.Rg2Val.lean ====
import proofs.«418385_j87393994539142_1_alg».proof.Proof.Rg2
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 2 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 10 points tile the array. -/

/-! ## The matrix product of a row block at an entry -/

/-- On the result's row axis the left operand reads the result's row. -/
theorem lhs_mm2_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- On its column axis the left operand reads the contraction position. -/
theorem lhs_mm2_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
/-- On its row axis the right operand reads the contraction position. -/
theorem rhs_mm2_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
/-- On its column axis the right operand reads the result's column. -/
theorem rhs_mm2_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The product of a row block with the matrix into a zero accumulator, at entry (p, q): the inner product of
    row p of the block with column q of the matrix. -/
theorem mm2_apply {φ₁ φ₂ : FTy} (l : FVec Ideal S2000x128 φ₁) (r : FVec Ideal S128x512 φ₂) (p : Fin 2000) (q : Fin 512) :
    matmul dot_S2000x128_S128x512_S2000x512_1_0_0_1_n_n none l r (constant (F := Ideal) S2000x512 .f32 0x00000000#32) (ix2 p q)
      = ∑ k : Fin 128, l (ix2 p k) * r (ix2 k q) := by
  show FloatOps.matmul _ _ _ _ _ _ = _
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-- The bias row spread over the block's rows, at entry (p, q): the row's entry q. -/
theorem bias2_apply (b : Vec Ideal S1x512 .f32) (p : Fin 2000) (q : Fin 512) :
    broadcastTo S2000x512 b broadcasts_S1x512_S2000x512 (ix2 p q) = b (ix2 (0 : Fin 1) q) :=
  broadcastTo_apply b broadcasts_S1x512_S2000x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The body's payload at entry (p, q) of the block: row p of the x block against column q of W, plus the
    bias at q. A change of float format is the identity on the extended reals, and so is a change of shape to
    the same shape. -/
theorem pay2_apply (x0 : Vec Ideal S2000x128 .f32) (x1 : Vec Ideal S128x512 .f32) (x2 : Vec Ideal S1x512 .f32) (p : Fin 2000) (q : Fin 512) :
    k2_pay1 (F := Ideal) x0 x1 x2 (ix2 p q) = (∑ k : Fin 128, x0 (ix2 p k) * x1 (ix2 k q)) + x2 (ix2 (0 : Fin 1) q) := by
  unfold k2_pay1
  simp only [shapeCast_self]
  rw [addf_apply, mm2_apply, bias2_apply]
  rfl

/-! ## The blocks over the grid -/

theorem hz2 : (![0, 0] : Fin 2 → Nat) = fun _ => 0 := funext fun a => by fin_cases a <;> rfl

/-- The windows' block indices over the grid: the x block and the output block sit at row block t, column
    block 0; W and the bias are at block (0, 0) at every point. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- An index of the output array is in point t's block iff each coordinate is in the block's range. -/
theorem mem_blk2 (t : Fin cfg2.N) (i : S20000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v31).slice (win2_3.rect t)).set ↔ _
  rw [View.set_slice_whole, Rect.mem_set_unit]
  exact Iff.rfl

/-- Every row of the output array lies in the block of the point its row block names. -/
theorem cover2 (i : S20000x512.Idx) : ∃ t : Fin cfg2.N, (cfg2.win 3).flush t = true ∧ i ∈ ((cfg2.win 3).blk t).view.set := by
  have hi0 : (i 0).val < 20000 := (i 0).isLt
  have hi1 : (i 1).val < 512 := (i 1).isLt
  let t : Fin cfg2.N := ⟨(i 0).val / 2000, by show (i 0).val / 2000 < grid2.N; rw [N_2]; omega⟩
  obtain ⟨-, -, -, -, -, -, e6, e7⟩ := idx_facts2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 512 ≤ (i 1).val ∧ (i 1).val < win2_3.index t (1 : Fin 2) * 512 + 512; omega

/-! ## The arrays after the run -/

/-- The affine map of whole arrays, index by index: entry i is the inner product of row i 0 of x with column
    i 1 of W, plus the bias at i 1. -/
def G2 (a0 : S20000x128.Idx → EReal) (a1 : S128x512.Idx → EReal) (a2 : S1x512.Idx → EReal) : S20000x512.Idx → EReal :=
  fun i => (∑ k : Fin 128, a0 (ix2 (n0 := 20000) (i 0) k) * a1 (ix2 k (n1 := 512) (i 1))) + a2 (ix2 (0 : Fin 1) (n1 := 512) (i 1))

section Region2
variable (V : (c : Dev nD) → (b : Ref sig .tc) → Buf (Elt Ideal) ((c : Thread nD τ).loc b))

/-- The array of x is never written back. -/
theorem arrAt2_in_0 (c : Dev nD) : (dat2 (F := Ideal) V c).arrAt 0 cfg2.N = V c (Pipeline.arrRef spec2 0) :=
  ((dat2 (F := Ideal) V c).arrAt_in 0 rfl _).trans (A_eq2 V c 0)
/-- The array of W is never written back. -/
theorem arrAt2_in_1 (c : Dev nD) : (dat2 (F := Ideal) V c).arrAt 1 cfg2.N = V c (Pipeline.arrRef spec2 1) :=
  ((dat2 (F := Ideal) V c).arrAt_in 1 rfl _).trans (A_eq2 V c 1)
/-- The array of the bias is never written back. -/
theorem arrAt2_in_2 (c : Dev nD) : (dat2 (F := Ideal) V c).arrAt 2 cfg2.N = V c (Pipeline.arrRef spec2 2) :=
  ((dat2 (F := Ideal) V c).arrAt_in 2 rfl _).trans (A_eq2 V c 2)

/-- What point t writes back is block t of the affine map of the arrays as the region finds them: the x block's
    row p is row p of the output block's row range, W and the bias are read whole. -/
theorem flushed2_eq (c : Dev nD) (t : Fin cfg2.N) :
    (dat2 (F := Ideal) V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz2]
  simp only [View.ld_unit_zero (S := S2000x128) hz2, View.ld_unit_zero (S := S128x512) hz2, View.ld_unit_zero (S := S1x512) hz2]
  obtain ⟨e0, e1, e2, e3, e4, e5, e6, e7⟩ := idx_facts2 t
  funext j
  obtain ⟨p, q, rfl⟩ : ∃ (p : Fin 2000) (q : Fin 512), j = ix2 p q := ⟨j 0, j 1, eq_ix2 j⟩
  refine (pay2_apply _ _ _ p q).trans ?_
  have hx : ∀ k : Fin 128, iblk2 V c 0 t (ix2 p k)
      = V c (Pipeline.arrRef spec2 0) (ix2 (n0 := 20000) ((((cfg2.win 3).blk t).view.emb (ix2 p q)) 0) k) := fun k => by
    show V c (Pipeline.arrRef spec2 0) (((cfg2.win 0).blk t).view.emb (ix2 p k)) = _
    refine congrArg _ (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  have hw : ∀ k : Fin 128, iblk2 V c 1 t (ix2 k q)
      = V c (Pipeline.arrRef spec2 1) (ix2 k (n1 := 512) ((((cfg2.win 3).blk t).view.emb (ix2 p q)) 1)) := fun k => by
    show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 512 + 1 * q.val = win2_3.index t (1 : Fin 2) * 512 + 1 * q.val; omega
  have hb : iblk2 V c 2 t (ix2 (0 : Fin 1) q)
      = V c (Pipeline.arrRef spec2 2) (ix2 (0 : Fin 1) (n1 := 512) ((((cfg2.win 3).blk t).view.emb (ix2 p q)) 1)) := by
    show V c (Pipeline.arrRef spec2 2) (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 512 + 1 * q.val = win2_3.index t (1 : Fin 2) * 512 + 1 * q.val; omega
  rw [hb, Finset.sum_congr rfl fun k _ => by rw [hx k, hw k]]
  rfl

/-- The output array after the run is the affine map of the arrays as the region finds them. -/
theorem final2 (c : Dev nD) : (dat2 (F := Ideal) V c).arrAt 3 cfg2.N
    = G2 (V c (Pipeline.arrRef spec2 0)) (V c (Pipeline.arrRef spec2 1)) (V c (Pipeline.arrRef spec2 2)) :=
  (dat2 (F := Ideal) V c).arrAt_eq_of_cover 3 _ (fun t _ => flushed2_eq V c t) cover2

/-- The output array after the run, as a matrix: the affine map of rows of the matrices the input arrays hold. -/
theorem arrAt2_out (c : Dev nD) : Cert.Stage.toMat ((dat2 (F := Ideal) V c).arrAt 3 cfg2.N)
    = Cert.Stage.lin (Cert.Stage.toMat (V c (Pipeline.arrRef spec2 0))) (Cert.Stage.toMat (V c (Pipeline.arrRef spec2 1)))
        (Cert.Stage.toRow1 (V c (Pipeline.arrRef spec2 2))) := by
  rw [final2]
  rfl

end Region2

end Cert.KernelIdeal.RgVal

end
-- ==== Proof.Rg3Val.lean ====
import proofs.«418385_j87393994539142_1_alg».proof.Proof.Rg3
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 3 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 80 points tile the array. -/

/-! ## The matrix product of a row block at an entry -/

/-- On the result's row axis the left operand reads the result's row. -/
theorem lhs_mm3_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- On its column axis the left operand reads the contraction position. -/
theorem lhs_mm3_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- On its row axis the right operand reads the contraction position. -/
theorem rhs_mm3_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- On its column axis the right operand reads the result's column. -/
theorem rhs_mm3_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a row block with the matrix into a zero accumulator, at entry (p, q): the inner product of
    row p of the block with column q of the matrix. -/
theorem mm3_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x0#32) (ix2 p q)
      = ∑ k : Fin 128, l (ix2 p k) * r (ix2 k q) := by
  show FloatOps.matmul _ _ _ _ _ _ = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_mm3_0 _ _
    | ⟨1, _⟩ => exact (lhs_mm3_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_mm3_0 _ _).trans hk
    | ⟨1, _⟩ => exact rhs_mm3_1 _ _)
  rw [el, er]

/-- The bias row spread over the block's rows, at entry (p, q): the row's entry q. -/
theorem bias3_apply (b : Vec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's payload at entry (p, q) of the block: row p of the x block against column q of W, plus the
    bias at q. A change of float format is the identity on the extended reals, and so is a change of shape to
    the same shape. -/
theorem pay3_apply (x0 : Vec Ideal S4000x128 .f32) (x1 : Vec Ideal S128x128 .f32) (x2 : Vec Ideal S1x128 .f32) (p : Fin 4000) (q : Fin 128) :
    k3_pay1 (F := Ideal) x0 x1 x2 (ix2 p q) = (∑ k : Fin 128, x0 (ix2 p k) * x1 (ix2 k q)) + x2 (ix2 (0 : Fin 1) q) := by
  unfold k3_pay1
  simp only [shapeCast_self]
  rw [addf_apply, mm3_apply, bias3_apply]
  rfl

/-! ## The blocks over the grid -/

theorem hz3 : (![0, 0] : Fin 2 → Nat) = fun _ => 0 := funext fun a => by fin_cases a <;> rfl

/-- The windows' block indices over the grid: the x block and the output block sit at row block t, column
    block 0; W and the bias are at block (0, 0) at every point. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- An index of the output array is in point t's block iff each coordinate is in the block's range. -/
theorem mem_blk3 (t : Fin cfg3.N) (i : S320000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v41).slice (win3_3.rect t)).set ↔ _
  rw [View.set_slice_whole, Rect.mem_set_unit]
  exact Iff.rfl

/-- Every row of the output array lies in the block of the point its row block names. -/
theorem cover3 (i : S320000x128.Idx) : ∃ t : Fin cfg3.N, (cfg3.win 3).flush t = true ∧ i ∈ ((cfg3.win 3).blk t).view.set := by
  have hi0 : (i 0).val < 320000 := (i 0).isLt
  have hi1 : (i 1).val < 128 := (i 1).isLt
  let t : Fin cfg3.N := ⟨(i 0).val / 4000, by show (i 0).val / 4000 < grid3.N; rw [N_3]; omega⟩
  obtain ⟨-, -, -, -, -, -, e6, e7⟩ := idx_facts3 t
  have ht : t.val = (i 0).val / 4000 := rfl
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 128 ≤ (i 1).val ∧ (i 1).val < win3_3.index t (1 : Fin 2) * 128 + 128; omega

/-! ## The arrays after the run -/

/-- The affine map of whole arrays, index by index: entry i is the inner product of row i 0 of x with column
    i 1 of W, plus the bias at i 1. -/
def G3 (a0 : S320000x128.Idx → EReal) (a1 : S128x128.Idx → EReal) (a2 : S1x128.Idx → EReal) : S320000x128.Idx → EReal :=
  fun i => (∑ k : Fin 128, a0 (ix2 (n0 := 320000) (i 0) k) * a1 (ix2 k (n1 := 128) (i 1))) + a2 (ix2 (0 : Fin 1) (n1 := 128) (i 1))

section Region3
variable (V : (c : Dev nD) → (b : Ref sig .tc) → Buf (Elt Ideal) ((c : Thread nD τ).loc b))

/-- The array of x is never written back. -/
theorem arrAt3_in_0 (c : Dev nD) : (dat3 (F := Ideal) V c).arrAt 0 cfg3.N = V c (Pipeline.arrRef spec3 0) :=
  ((dat3 (F := Ideal) V c).arrAt_in 0 rfl _).trans (A_eq3 V c 0)
/-- The array of W is never written back. -/
theorem arrAt3_in_1 (c : Dev nD) : (dat3 (F := Ideal) V c).arrAt 1 cfg3.N = V c (Pipeline.arrRef spec3 1) :=
  ((dat3 (F := Ideal) V c).arrAt_in 1 rfl _).trans (A_eq3 V c 1)
/-- The array of the bias is never written back. -/
theorem arrAt3_in_2 (c : Dev nD) : (dat3 (F := Ideal) V c).arrAt 2 cfg3.N = V c (Pipeline.arrRef spec3 2) :=
  ((dat3 (F := Ideal) V c).arrAt_in 2 rfl _).trans (A_eq3 V c 2)

/-- What point t writes back is block t of the affine map of the arrays as the region finds them: the x block's
    row p is row p of the output block's row range, W and the bias are read whole. -/
theorem flushed3_eq (c : Dev nD) (t : Fin cfg3.N) :
    (dat3 (F := Ideal) V c).flushed 3 t = ((cfg3.win 3).blk t).view.read (Elt Ideal)
      (G3 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz3]
  simp only [View.ld_unit_zero (S := S4000x128) hz3, View.ld_unit_zero (S := S128x128) hz3, View.ld_unit_zero (S := S1x128) hz3]
  obtain ⟨e0, e1, e2, e3, e4, e5, e6, e7⟩ := idx_facts3 t
  funext j
  obtain ⟨p, q, rfl⟩ : ∃ (p : Fin 4000) (q : Fin 128), j = ix2 p q := ⟨j 0, j 1, eq_ix2 j⟩
  refine (pay3_apply _ _ _ p q).trans ?_
  have hx : ∀ k : Fin 128, iblk3 V c 0 t (ix2 p k)
      = V c (Pipeline.arrRef spec3 0) (ix2 (n0 := 320000) ((((cfg3.win 3).blk t).view.emb (ix2 p q)) 0) k) := fun k => by
    show V c (Pipeline.arrRef spec3 0) (((cfg3.win 0).blk t).view.emb (ix2 p k)) = _
    refine congrArg _ (funext fun a => Fin.ext ?_)
    match a with
    | ⟨0, _⟩ => show win3_0.index t (0 : Fin 2) * 4000 + 1 * p.val = win3_3.index t (0 : Fin 2) * 4000 + 1 * p.val; omega
    | ⟨1, _⟩ => show win3_0.index t (1 : Fin 2) * 128 + 1 * k.val = k.val; omega
  have hw : ∀ k : Fin 128, iblk3 V c 1 t (ix2 k q)
      = V c (Pipeline.arrRef spec3 1) (ix2 k (n1 := 128) ((((cfg3.win 3).blk t).view.emb (ix2 p q)) 1)) := fun k => by
    show V c (Pipeline.arrRef spec3 1) (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  have hb : iblk3 V c 2 t (ix2 (0 : Fin 1) q)
      = V c (Pipeline.arrRef spec3 2) (ix2 (0 : Fin 1) (n1 := 128) ((((cfg3.win 3).blk t).view.emb (ix2 p q)) 1)) := by
    show V c (Pipeline.arrRef spec3 2) (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  rw [hb, Finset.sum_congr rfl fun k _ => by rw [hx k, hw k]]
  rfl

/-- The output array after the run is the affine map of the arrays as the region finds them. -/
theorem final3 (c : Dev nD) : (dat3 (F := Ideal) V c).arrAt 3 cfg3.N
    = G3 (V c (Pipeline.arrRef spec3 0)) (V c (Pipeline.arrRef spec3 1)) (V c (Pipeline.arrRef spec3 2)) :=
  (dat3 (F := Ideal) V c).arrAt_eq_of_cover 3 _ (fun t _ => flushed3_eq V c t) cover3

/-- The output array after the run, as a matrix: the affine map of rows of the matrices the input arrays hold. -/
theorem arrAt3_out (c : Dev nD) : Cert.Stage.toMat ((dat3 (F := Ideal) V c).arrAt 3 cfg3.N)
    = Cert.Stage.lin (Cert.Stage.toMat (V c (Pipeline.arrRef spec3 0))) (Cert.Stage.toMat (V c (Pipeline.arrRef spec3 1)))
        (Cert.Stage.toRow1 (V c (Pipeline.arrRef spec3 2))) := by
  rw [final3]
  rfl

end Region3

end Cert.KernelIdeal.RgVal

end
-- ==== Proof.Rg4Val.lean ====
/- What kernel region 4 (the gate kernel) leaves in its arrays, at the extended reals: the four input arrays are as the
   region found them; the first output array is the entrywise sum of the first three inputs, the second the logistic of
   that sum times the fourth input, both as whole 320000 x 128 matrices. Row r of an output is written by the grid point
   r / 4000, whose block is rows 4000 t … 4000 t + 3999 of each array. -/
import proofs.«418385_j87393994539142_1_alg».proof.Proof.Rg4
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region4
variable (V : (c : Dev nD) → (b : Ref sig .tc) → Buf (Elt Ideal) ((c : Thread nD τ).loc b))

/-! # The input arrays are never written back -/

theorem arrAt4_in_0 (c : Dev nD) : (dat4 (F := Ideal) V c).arrAt 0 cfg4.N = V c (Pipeline.arrRef spec4 0) :=
  ((dat4 (F := Ideal) V c).arrAt_in 0 rfl cfg4.N).trans (A_eq4 V c 0)
theorem arrAt4_in_1 (c : Dev nD) : (dat4 (F := Ideal) V c).arrAt 1 cfg4.N = V c (Pipeline.arrRef spec4 1) :=
  ((dat4 (F := Ideal) V c).arrAt_in 1 rfl cfg4.N).trans (A_eq4 V c 1)
theorem arrAt4_in_2 (c : Dev nD) : (dat4 (F := Ideal) V c).arrAt 2 cfg4.N = V c (Pipeline.arrRef spec4 2) :=
  ((dat4 (F := Ideal) V c).arrAt_in 2 rfl cfg4.N).trans (A_eq4 V c 2)
theorem arrAt4_in_3 (c : Dev nD) : (dat4 (F := Ideal) V c).arrAt 3 cfg4.N = V c (Pipeline.arrRef spec4 3) :=
  ((dat4 (F := Ideal) V c).arrAt_in 3 rfl cfg4.N).trans (A_eq4 V c 3)

/-! # The output arrays as functions of the input arrays, index by index -/

/-- The zero offsets of a whole-block rectangle. -/
theorem hz4 : (![0, 0] : Fin 2 → Nat) = fun _ => 0 := funext fun a => by fin_cases a <;> rfl

/-- The pre-activation array: the entrywise sum of three arrays. -/
def sum3_4 (a0 a1 a2 : S320000x128.Idx → EReal) : S320000x128.Idx → EReal := fun i => a0 i + a1 i + a2 i

/-- The message array: the logistic of the pre-activation times a fourth array, entrywise. -/
def gated4 (a0 a1 a2 a3 : S320000x128.Idx → EReal) : S320000x128.Idx → EReal :=
  fun i => Ideal.logistic (a0 i + a1 i + a2 i) * a3 i

/-- The body's first payload is the entrywise sum of its three loaded blocks. -/
theorem pay1_4_eq (x0 x1 x2 : Vec Ideal S4000x128 .f32) :
    k4_pay1 x0 x1 x2 = fun j => x0 j + x1 j + x2 j := by
  unfold k4_pay1
  simp only [shapeCast_self]
  rfl

/-- The body's second payload is the logistic of that sum times the fourth loaded block, entrywise. -/
theorem pay2_4_eq (x0 x1 x2 x3 : Vec Ideal S4000x128 .f32) :
    k4_pay2 x0 x1 x2 x3 = fun j => Ideal.logistic (x0 j + x1 j + x2 j) * x3 j := by
  unfold k4_pay2
  rw [pay1_4_eq]
  simp only [shapeCast_self]
  rfl

/-- Every window's block at grid point t is row block t, column block 0 (decided over the 80 points). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- An index of window w's block at point t sits in the array where the same index of window w' 's block does. -/
theorem emb4_0_4 (t : Fin cfg4.N) (j : S4000x128.Idx) : ((cfg4.win 0).blk t).view.emb j = ((cfg4.win 4).blk t).view.emb j := by
  obtain ⟨a0, a1, b0, b1, c0, c1, d0, d1, e0, e1, f0, f1⟩ := idx_facts4 t
  funext a; apply Fin.ext
  match a with
  | ⟨0, _⟩ => show win4_0.index t (0 : Fin 2) * 4000 + 1 * (j 0).val = win4_4.index t (0 : Fin 2) * 4000 + 1 * (j 0).val; omega
  | ⟨1, _⟩ => show win4_0.index t (1 : Fin 2) * 128 + 1 * (j 1).val = win4_4.index t (1 : Fin 2) * 128 + 1 * (j 1).val; omega
theorem emb4_1_4 (t : Fin cfg4.N) (j : S4000x128.Idx) : ((cfg4.win 1).blk t).view.emb j = ((cfg4.win 4).blk t).view.emb j := by
  obtain ⟨a0, a1, b0, b1, c0, c1, d0, d1, e0, e1, f0, f1⟩ := idx_facts4 t
  funext a; apply Fin.ext
  match a with
  | ⟨0, _⟩ => show win4_1.index t (0 : Fin 2) * 4000 + 1 * (j 0).val = win4_4.index t (0 : Fin 2) * 4000 + 1 * (j 0).val; omega
  | ⟨1, _⟩ => show win4_1.index t (1 : Fin 2) * 128 + 1 * (j 1).val = win4_4.index t (1 : Fin 2) * 128 + 1 * (j 1).val; omega
theorem emb4_2_4 (t : Fin cfg4.N) (j : S4000x128.Idx) : ((cfg4.win 2).blk t).view.emb j = ((cfg4.win 4).blk t).view.emb j := by
  obtain ⟨a0, a1, b0, b1, c0, c1, d0, d1, e0, e1, f0, f1⟩ := idx_facts4 t
  funext a; apply Fin.ext
  match a with
  | ⟨0, _⟩ => show win4_2.index t (0 : Fin 2) * 4000 + 1 * (j 0).val = win4_4.index t (0 : Fin 2) * 4000 + 1 * (j 0).val; omega
  | ⟨1, _⟩ => show win4_2.index t (1 : Fin 2) * 128 + 1 * (j 1).val = win4_4.index t (1 : Fin 2) * 128 + 1 * (j 1).val; omega
theorem emb4_0_5 (t : Fin cfg4.N) (j : S4000x128.Idx) : ((cfg4.win 0).blk t).view.emb j = ((cfg4.win 5).blk t).view.emb j := by
  obtain ⟨a0, a1, b0, b1, c0, c1, d0, d1, e0, e1, f0, f1⟩ := idx_facts4 t
  funext a; apply Fin.ext
  match a with
  | ⟨0, _⟩ => show win4_0.index t (0 : Fin 2) * 4000 + 1 * (j 0).val = win4_5.index t (0 : Fin 2) * 4000 + 1 * (j 0).val; omega
  | ⟨1, _⟩ => show win4_0.index t (1 : Fin 2) * 128 + 1 * (j 1).val = win4_5.index t (1 : Fin 2) * 128 + 1 * (j 1).val; omega
theorem emb4_1_5 (t : Fin cfg4.N) (j : S4000x128.Idx) : ((cfg4.win 1).blk t).view.emb j = ((cfg4.win 5).blk t).view.emb j := by
  obtain ⟨a0, a1, b0, b1, c0, c1, d0, d1, e0, e1, f0, f1⟩ := idx_facts4 t
  funext a; apply Fin.ext
  match a with
  | ⟨0, _⟩ => show win4_1.index t (0 : Fin 2) * 4000 + 1 * (j 0).val = win4_5.index t (0 : Fin 2) * 4000 + 1 * (j 0).val; omega
  | ⟨1, _⟩ => show win4_1.index t (1 : Fin 2) * 128 + 1 * (j 1).val = win4_5.index t (1 : Fin 2) * 128 + 1 * (j 1).val; omega
theorem emb4_2_5 (t : Fin cfg4.N) (j : S4000x128.Idx) : ((cfg4.win 2).blk t).view.emb j = ((cfg4.win 5).blk t).view.emb j := by
  obtain ⟨a0, a1, b0, b1, c0, c1, d0, d1, e0, e1, f0, f1⟩ := idx_facts4 t
  funext a; apply Fin.ext
  match a with
  | ⟨0, _⟩ => show win4_2.index t (0 : Fin 2) * 4000 + 1 * (j 0).val = win4_5.index t (0 : Fin 2) * 4000 + 1 * (j 0).val; omega
  | ⟨1, _⟩ => show win4_2.index t (1 : Fin 2) * 128 + 1 * (j 1).val = win4_5.index t (1 : Fin 2) * 128 + 1 * (j 1).val; omega
theorem emb4_3_5 (t : Fin cfg4.N) (j : S4000x128.Idx) : ((cfg4.win 3).blk t).view.emb j = ((cfg4.win 5).blk t).view.emb j := by
  obtain ⟨a0, a1, b0, b1, c0, c1, d0, d1, e0, e1, f0, f1⟩ := idx_facts4 t
  funext a; apply Fin.ext
  match a with
  | ⟨0, _⟩ => show win4_3.index t (0 : Fin 2) * 4000 + 1 * (j 0).val = win4_5.index t (0 : Fin 2) * 4000 + 1 * (j 0).val; omega
  | ⟨1, _⟩ => show win4_3.index t (1 : Fin 2) * 128 + 1 * (j 1).val = win4_5.index t (1 : Fin 2) * 128 + 1 * (j 1).val; omega

/-- Block t of the entrywise sum of three arrays is the body's first payload of their blocks at t. -/
theorem blk4_sum3 (a0 a1 a2 : S320000x128.Idx → EReal) (t : Fin cfg4.N) :
    k4_pay1 (F := Ideal) (((cfg4.win 0).blk t).view.read (Elt Ideal) a0) (((cfg4.win 1).blk t).view.read (Elt Ideal) a1)
        (((cfg4.win 2).blk t).view.read (Elt Ideal) a2)
      = ((cfg4.win 4).blk t).view.read (Elt Ideal) (sum3_4 a0 a1 a2) := by
  rw [pay1_4_eq]
  funext j
  show a0 (((cfg4.win 0).blk t).view.emb j) + a1 (((cfg4.win 1).blk t).view.emb j) + a2 (((cfg4.win 2).blk t).view.emb j)
    = a0 (((cfg4.win 4).blk t).view.emb j) + a1 (((cfg4.win 4).blk t).view.emb j) + a2 (((cfg4.win 4).blk t).view.emb j)
  rw [emb4_0_4, emb4_1_4, emb4_2_4]

/-- Block t of the gated message of four arrays is the body's second payload of their blocks at t. -/
theorem blk4_gated (a0 a1 a2 a3 : S320000x128.Idx → EReal) (t : Fin cfg4.N) :
    k4_pay2 (F := Ideal) (((cfg4.win 0).blk t).view.read (Elt Ideal) a0) (((cfg4.win 1).blk t).view.read (Elt Ideal) a1)
        (((cfg4.win 2).blk t).view.read (Elt Ideal) a2) (((cfg4.win 3).blk t).view.read (Elt Ideal) a3)
      = ((cfg4.win 5).blk t).view.read (Elt Ideal) (gated4 a0 a1 a2 a3) := by
  rw [pay2_4_eq]
  funext j
  show Ideal.logistic (a0 (((cfg4.win 0).blk t).view.emb j) + a1 (((cfg4.win 1).blk t).view.emb j) + a2 (((cfg4.win 2).blk t).view.emb j))
      * a3 (((cfg4.win 3).blk t).view.emb j)
    = Ideal.logistic (a0 (((cfg4.win 5).blk t).view.emb j) + a1 (((cfg4.win 5).blk t).view.emb j) + a2 (((cfg4.win 5).blk t).view.emb j))
      * a3 (((cfg4.win 5).blk t).view.emb j)
  rw [emb4_0_5, emb4_1_5, emb4_2_5, emb4_3_5]

/-- What point t writes back to the first output array is block t of the sum of the three input arrays. -/
theorem flushed4_4_eq (c : Dev nD) (t : Fin cfg4.N) :
    (dat4 (F := Ideal) V c).flushed 4 t = ((cfg4.win 4).blk t).view.read (Elt Ideal)
      (sum3_4 (V c (Pipeline.arrRef spec4 0)) (V c (Pipeline.arrRef spec4 1)) (V c (Pipeline.arrRef spec4 2))) := by
  show (cfg4.win 4).cut (grid4.coords t) ((dat4 (F := Ideal) V c).after 4 t) = _
  rw [after4_4]
  unfold out4_4
  rw [View.canon_unit_zero hz4]
  simp only [View.ld_unit_zero (S := S4000x128) hz4]
  unfold iblk4
  exact blk4_sum3 _ _ _ t

/-- What point t writes back to the second output array is block t of the gated message of the four input arrays. -/
theorem flushed4_5_eq (c : Dev nD) (t : Fin cfg4.N) :
    (dat4 (F := Ideal) V c).flushed 5 t = ((cfg4.win 5).blk t).view.read (Elt Ideal)
      (gated4 (V c (Pipeline.arrRef spec4 0)) (V c (Pipeline.arrRef spec4 1)) (V c (Pipeline.arrRef spec4 2)) (V c (Pipeline.arrRef spec4 3))) := by
  show (cfg4.win 5).cut (grid4.coords t) ((dat4 (F := Ideal) V c).after 5 t) = _
  rw [after4_5]
  unfold out4_5
  rw [View.canon_unit_zero hz4]
  simp only [View.ld_unit_zero (S := S4000x128) hz4]
  unfold iblk4
  exact blk4_gated _ _ _ _ t

/-- An index of the array is in point t's block of an output window iff each coordinate is in the block's range. -/
theorem mem_blk4_4 (t : Fin cfg4.N) (i : S320000x128.Idx) :
    i ∈ ((cfg4.win 4).blk t).view.set ↔ ∀ a : Fin 2, win4_4.index t a * S4000x128.size a ≤ (i a).val ∧ (i a).val < win4_4.index t a * S4000x128.size a + S4000x128.size a := by
  show i ∈ ((View.whole main_v45_0).slice (win4_4.rect t)).set ↔ _
  rw [View.set_slice_whole, Rect.mem_set_unit]
  exact Iff.rfl
theorem mem_blk4_5 (t : Fin cfg4.N) (i : S320000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v45_1).slice (win4_5.rect t)).set ↔ _
  rw [View.set_slice_whole, Rect.mem_set_unit]
  exact Iff.rfl

/-- Row r of an output array lies in the block of the point r / 4000. -/
theorem cover4_4 (i : S320000x128.Idx) : ∃ t : Fin cfg4.N, (cfg4.win 4).flush t = true ∧ i ∈ ((cfg4.win 4).blk t).view.set := by
  have hi0 : (i 0).val < 320000 := (i 0).isLt
  have hi1 : (i 1).val < 128 := (i 1).isLt
  have hN : cfg4.N = 80 := N_4
  let t : Fin cfg4.N := ⟨(i 0).val / 4000, by rw [hN]; omega⟩
  have ht : t.val = (i 0).val / 4000 := rfl
  obtain ⟨a0, a1, b0, b1, c0, c1, d0, d1, e0, e1, f0, f1⟩ := idx_facts4 t
  refine ⟨t, flush4_4 t, ?_⟩
  rw [mem_blk4_4]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 128 ≤ (i 1).val ∧ (i 1).val < win4_4.index t (1 : Fin 2) * 128 + 128; omega
theorem cover4_5 (i : S320000x128.Idx) : ∃ t : Fin cfg4.N, (cfg4.win 5).flush t = true ∧ i ∈ ((cfg4.win 5).blk t).view.set := by
  have hi0 : (i 0).val < 320000 := (i 0).isLt
  have hi1 : (i 1).val < 128 := (i 1).isLt
  have hN : cfg4.N = 80 := N_4
  let t : Fin cfg4.N := ⟨(i 0).val / 4000, by rw [hN]; omega⟩
  have ht : t.val = (i 0).val / 4000 := rfl
  obtain ⟨a0, a1, b0, b1, c0, c1, d0, d1, e0, e1, f0, f1⟩ := idx_facts4 t
  refine ⟨t, flush4_5 t, ?_⟩
  rw [mem_blk4_5]
  intro a
  match a with
  | ⟨0, _⟩ => show win4_5.index t (0 : Fin 2) * 4000 ≤ (i 0).val ∧ (i 0).val < win4_5.index t (0 : Fin 2) * 4000 + 4000; omega
  | ⟨1, _⟩ => show win4_5.index t (1 : Fin 2) * 128 ≤ (i 1).val ∧ (i 1).val < win4_5.index t (1 : Fin 2) * 128 + 128; omega

/-- The first output array after the run: the sum of the three input arrays. -/
theorem final4_4 (c : Dev nD) : (dat4 (F := Ideal) V c).arrAt 4 cfg4.N
    = sum3_4 (V c (Pipeline.arrRef spec4 0)) (V c (Pipeline.arrRef spec4 1)) (V c (Pipeline.arrRef spec4 2)) :=
  (dat4 (F := Ideal) V c).arrAt_eq_of_cover 4 _ (fun t _ => flushed4_4_eq V c t) cover4_4

/-- The second output array after the run: the gated message of the four input arrays. -/
theorem final4_5 (c : Dev nD) : (dat4 (F := Ideal) V c).arrAt 5 cfg4.N
    = gated4 (V c (Pipeline.arrRef spec4 0)) (V c (Pipeline.arrRef spec4 1)) (V c (Pipeline.arrRef spec4 2)) (V c (Pipeline.arrRef spec4 3)) :=
  (dat4 (F := Ideal) V c).arrAt_eq_of_cover 5 _ (fun t _ => flushed4_5_eq V c t) cover4_5

/-- The first output array, as a matrix, is the edge pre-activation of the three input matrices. -/
theorem arrAt4_out4 (c : Dev nD) :
    Cert.Stage.toMat ((dat4 (F := Ideal) V c).arrAt 4 cfg4.N)
      = Cert.Stage.ehat (Cert.Stage.toMat (V c (Pipeline.arrRef spec4 0))) (Cert.Stage.toMat (V c (Pipeline.arrRef spec4 1)))
          (Cert.Stage.toMat (V c (Pipeline.arrRef spec4 2))) := by
  rw [final4_4]; rfl

/-- The second output array, as a matrix, is the gated message of that pre-activation and the fourth input matrix. -/
theorem arrAt4_out5 (c : Dev nD) :
    Cert.Stage.toMat ((dat4 (F := Ideal) V c).arrAt 5 cfg4.N)
      = Cert.Stage.msg (Cert.Stage.ehat (Cert.Stage.toMat (V c (Pipeline.arrRef spec4 0))) (Cert.Stage.toMat (V c (Pipeline.arrRef spec4 1)))
          (Cert.Stage.toMat (V c (Pipeline.arrRef spec4 2)))) (Cert.Stage.toMat (V c (Pipeline.arrRef spec4 3))) := by
  rw [final4_5]; rfl

end Region4

end Cert.KernelIdeal.RgVal

end
-- ==== Proof.Rg5Val.lean ====
/-
  Region 5 of the kernel program, its values at the extended reals: the two output rows the region leaves are the
  column mean of its 320000 x 128 input over all rows and the column variance as mean of squares minus squared mean.
  The 80 block sums of 4000 rows regroup into one sum over 320000 rows (row = 4000 * block + offset); addition of
  extended reals is commutative and associative, so no finiteness is needed.
-/
import proofs.«418385_j87393994539142_1_alg».proof.Proof.Rg5
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.RgVal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx
open Cert.KernelIdeal Cert.KernelIdeal.Gen Cert.KernelIdeal.Rg
open scoped BigOperators

theorem hz5 : (![0, 0] : Fin 2 → Nat) = fun _ => 0 := funext fun a => by fin_cases a <;> rfl

/-- The row count 320000 as the kernel's f32 literal. -/
abbrev cnt5 : EReal := Ideal.ofBits .f32 0x489C4000#32

/-- Summing 80 blocks of 4000 consecutive terms is summing all 320000 terms (row = 4000 * block + offset). -/
theorem sum_blocks5 {M : Type} [AddCommMonoid M] (f : Fin 320000 → M) :
    ∑ s : Fin 80, ∑ r : Fin 4000, f ⟨4000 * s.val + r.val, by have := s.isLt; have := r.isLt; omega⟩ = ∑ i : Fin 320000, f i := by
  have e := Equiv.sum_comp (finProdFinEquiv : Fin 80 × Fin 4000 ≃ Fin (80 * 4000)) f
  rw [← e, Fintype.sum_prod_type]
  refine Finset.sum_congr rfl fun s _ => Finset.sum_congr rfl fun r _ => congrArg f (Fin.ext ?_)
  show 4000 * s.val + r.val = r.val + 4000 * s.val
  omega

/-- A lane sum over the 4000 rows of a block, at column q. -/
theorem colsum5_apply (x : FVec Ideal S4000x128 .f32) (hφ : FKind.Formats .f32)
    (hacc : (0x00000000#32 : BitVec FTy.f32.bits) = FKind.add.neutral .f32 hφ) (q : Fin 128) :
    multiReduction (F := Ideal) .add [0] S128 x 0x00000000#32 reduces_S4000x128_S128 hφ hacc (ix1 q) = ∑ r : Fin 4000, x (ix2 r q) := by
  refine (Ideal.multiReduction_add_single x 0x00000000#32 reduces_S4000x128_S128 hφ hacc (ix1 q)).trans ?_
  exact Finset.sum_congr rfl fun r _ => congrArg x (funext fun a => by match a with | ⟨0, _⟩ => rfl | ⟨1, _⟩ => rfl)

theorem payZ0_5_apply (q : Fin 128) : k5_pay1 (F := Ideal) (ix2 (0 : Fin 1) q) = 0 := by
  unfold k5_pay1
  simp only [shapeCast_self, broadcast_apply]
  exact Ideal.ofBits_zero_f32
theorem payZ1_5_apply (q : Fin 128) : k5_pay2 (F := Ideal) (ix2 (0 : Fin 1) q) = 0 := by
  unfold k5_pay2
  simp only [shapeCast_self, broadcast_apply]
  exact Ideal.ofBits_zero_f32

theorem payAdd_5_apply (x : Vec Ideal S4000x128 .f32) (s : Vec Ideal S1x128 .f32) (q : Fin 128) :
    k5_pay4 (F := Ideal) x s (ix2 (0 : Fin 1) q) = s (ix2 0 q) + ∑ r : Fin 4000, x (ix2 r q) := by
  unfold k5_pay4 k5_pay3
  simp only [shapeCast_self, addf_apply]
  rw [shapeCast_a_1a_apply]
  exact congrArg _ (colsum5_apply _ _ _ q)

theorem paySq_5_apply (x : Vec Ideal S4000x128 .f32) (s : Vec Ideal S1x128 .f32) (q : Fin 128) :
    k5_pay5 (F := Ideal) x s (ix2 (0 : Fin 1) q) = s (ix2 0 q) + ∑ r : Fin 4000, x (ix2 r q) * x (ix2 r q) := by
  unfold k5_pay5 k5_pay3
  simp only [shapeCast_self, addf_apply]
  rw [shapeCast_a_1a_apply]
  refine congrArg _ ((colsum5_apply _ _ _ q).trans ?_)
  exact Finset.sum_congr rfl fun r _ => mulf_apply _ _ _

theorem payMean_5_apply (s : Vec Ideal S1x128 .f32) (q : Fin 128) :
    k5_pay6 (F := Ideal) s (ix2 (0 : Fin 1) q) = Ideal.div (s (ix2 0 q)) cnt5 := by
  unfold k5_pay6
  simp only [divf_apply, broadcast_apply]
  rfl

theorem payVar_5_apply (s0 s1 : Vec Ideal S1x128 .f32) (q : Fin 128) :
    k5_pay7 (F := Ideal) s0 s1 (ix2 (0 : Fin 1) q)
      = Ideal.div (s1 (ix2 0 q)) cnt5 - Ideal.div (s0 (ix2 0 q)) cnt5 * Ideal.div (s0 (ix2 0 q)) cnt5 := by
  unfold k5_pay7
  simp only [subf_apply, mulf_apply, divf_apply, broadcast_apply, payMean_5_apply]
  rfl

theorem init5_0_apply (q : Fin 128) : init5_0 (F := Ideal) (ix2 (0 : Fin 1) q) = 0 := by
  unfold init5_0; rw [View.canon_unit_zero hz5]; exact payZ0_5_apply q
theorem init5_1_apply (q : Fin 128) : init5_1 (F := Ideal) (ix2 (0 : Fin 1) q) = 0 := by
  unfold init5_1; rw [View.canon_unit_zero hz5]; exact payZ1_5_apply q

theorem step5_0_apply (x : Vec Ideal S4000x128 .f32) (s : Vec Ideal S1x128 .f32) (q : Fin 128) :
    step5_0 x s (ix2 (0 : Fin 1) q) = s (ix2 0 q) + ∑ r : Fin 4000, x (ix2 r q) := by
  unfold step5_0; rw [View.canon_unit_zero hz5]
  simp only [View.ld_unit_zero (S := S4000x128) hz5, View.ld_unit_zero (S := S1x128) hz5]
  exact payAdd_5_apply x s q
theorem step5_1_apply (x : Vec Ideal S4000x128 .f32) (s : Vec Ideal S1x128 .f32) (q : Fin 128) :
    step5_1 x s (ix2 (0 : Fin 1) q) = s (ix2 0 q) + ∑ r : Fin 4000, x (ix2 r q) * x (ix2 r q) := by
  unfold step5_1; rw [View.canon_unit_zero hz5]
  simp only [View.ld_unit_zero (S := S4000x128) hz5, View.ld_unit_zero (S := S1x128) hz5]
  exact paySq_5_apply x s q
theorem out5_1_apply (s : Vec Ideal S1x128 .f32) (q : Fin 128) :
    out5_1 s (ix2 (0 : Fin 1) q) = Ideal.div (s (ix2 0 q)) cnt5 := by
  unfold out5_1; rw [View.canon_unit_zero hz5]
  simp only [View.ld_unit_zero (S := S1x128) hz5]
  exact payMean_5_apply s q
theorem out5_2_apply (s0 s1 : Vec Ideal S1x128 .f32) (q : Fin 128) :
    out5_2 s0 s1 (ix2 (0 : Fin 1) q)
      = Ideal.div (s1 (ix2 0 q)) cnt5 - Ideal.div (s0 (ix2 0 q)) cnt5 * Ideal.div (s0 (ix2 0 q)) cnt5 := by
  unfold out5_2; rw [View.canon_unit_zero hz5]
  simp only [View.ld_unit_zero (S := S1x128) hz5]
  exact payVar_5_apply s0 s1 q

section Regions
variable (V : (c : Dev nD) → (b : Ref sig .tc) → Buf (Elt Ideal) ((c : Thread nD τ).loc b))

/-- The input array is never written back. -/
theorem arrAt5_in_0 (c : Dev nD) : (dat5 (F := Ideal) V c).arrAt 0 cfg5.N = V c (Pipeline.arrRef spec5 0) :=
  ((dat5 (F := Ideal) V c).arrAt_in 0 rfl cfg5.N).trans (A_eq5 V c 0)

/-- The block index maps over the grid: the input's row block is the point, its column block 0; each output row is one block. -/
theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)
theorem idx5_1 : ∀ t : Fin cfg5.N, win5_1.index t (0 : Fin 2) = 0 ∧ win5_1.index t (1 : Fin 2) = 0 :=
  (by decide +kernel : ∀ t : Fin grid5.N, win5_1.index t (0 : Fin 2) = 0 ∧ win5_1.index t (1 : Fin 2) = 0)
theorem idx5_2 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)

/-- The input array, indexed by row and column. -/
abbrev X5in (c : Dev nD) : S320000x128.Idx → EReal := V c (Pipeline.arrRef spec5 0)

/-- The input's block at a point, indexed by row and column. -/
abbrev blk5 (c : Dev nD) (t : Fin cfg5.N) : S4000x128.Idx → EReal := iblk5 V c 0 t

/-- Row r of block t is row 4000 t + r of the array. -/
theorem iblk5_0_apply (c : Dev nD) (t : Fin cfg5.N) (r : Fin 4000) (q : Fin 128) :
    blk5 V c t (ix2 r q)
      = X5in V c (ix2 ⟨4000 * t.val + r.val, by have := lt_of_lt_of_eq t.isLt (show cfg5.N = 80 from N_5); have := r.isLt; omega⟩ q) := by
  show V c (Pipeline.arrRef spec5 0) (((cfg5.win 0).blk t).view.emb (ix2 r q)) = V c (Pipeline.arrRef spec5 0) _
  refine congrArg _ (funext fun a => Fin.ext ?_)
  match a with
  | ⟨0, _⟩ => show win5_0.index t (0 : Fin 2) * 4000 + 1 * r.val = 4000 * t.val + r.val; have := (idx5_0 t).1; omega
  | ⟨1, _⟩ => show win5_0.index t (1 : Fin 2) * 128 + 1 * q.val = q.val; have := (idx5_0 t).2; omega

/-- Block s's column sums, of the entries and of their squares (zero past the grid). -/
def bsum5 (c : Dev nD) (q : Fin 128) (s : ℕ) : EReal :=
  if h : s < cfg5.N then ∑ r : Fin 4000, blk5 V c ⟨s, h⟩ (ix2 r q) else 0
def bsq5 (c : Dev nD) (q : Fin 128) (s : ℕ) : EReal :=
  if h : s < cfg5.N then ∑ r : Fin 4000, blk5 V c ⟨s, h⟩ (ix2 r q) * blk5 V c ⟨s, h⟩ (ix2 r q) else 0

theorem acc5_at_zero (c : Dev nD) (hn : 0 < cfg5.N) :
    acc5 V c 0 hn = (step5_0 (iblk5 V c 0 ⟨0, hn⟩) init5_0, step5_1 (iblk5 V c 0 ⟨0, hn⟩) init5_1) := rfl
theorem acc5_at_succ (c : Dev nD) (n : ℕ) (hn : n + 1 < cfg5.N) :
    acc5 V c (n + 1) hn = (step5_0 (iblk5 V c 0 ⟨n + 1, hn⟩) (acc5 V c n (Nat.lt_of_succ_lt hn)).1,
      step5_1 (iblk5 V c 0 ⟨n + 1, hn⟩) (acc5 V c n (Nat.lt_of_succ_lt hn)).2) := rfl

/-- The running rows after point n are the sums of the blocks' column sums up to n. -/
theorem acc5_fst (c : Dev nD) (q : Fin 128) : ∀ (n : ℕ) (hn : n < cfg5.N),
    (acc5 V c n hn).1 (ix2 (0 : Fin 1) q) = ∑ s ∈ Finset.range (n + 1), bsum5 V c q s
  | 0, hn => by
    rw [acc5_at_zero, Finset.sum_range_one]
    refine (step5_0_apply (iblk5 V c 0 ⟨0, hn⟩) init5_0 q).trans ?_
    rw [init5_0_apply, zero_add]; unfold bsum5; rw [dif_pos hn]
  | n + 1, hn => by
    rw [acc5_at_succ, Finset.sum_range_succ, ← acc5_fst c q n (Nat.lt_of_succ_lt hn)]
    refine (step5_0_apply (iblk5 V c 0 ⟨n + 1, hn⟩) _ q).trans ?_
    unfold bsum5; rw [dif_pos hn]
theorem acc5_snd (c : Dev nD) (q : Fin 128) : ∀ (n : ℕ) (hn : n < cfg5.N),
    (acc5 V c n hn).2 (ix2 (0 : Fin 1) q) = ∑ s ∈ Finset.range (n + 1), bsq5 V c q s
  | 0, hn => by
    rw [acc5_at_zero, Finset.sum_range_one]
    refine (step5_1_apply (iblk5 V c 0 ⟨0, hn⟩) init5_1 q).trans ?_
    rw [init5_1_apply, zero_add]; unfold bsq5; rw [dif_pos hn]
  | n + 1, hn => by
    rw [acc5_at_succ, Finset.sum_range_succ, ← acc5_snd c q n (Nat.lt_of_succ_lt hn)]
    refine (step5_1_apply (iblk5 V c 0 ⟨n + 1, hn⟩) _ q).trans ?_
    unfold bsq5; rw [dif_pos hn]

/-- After the last point they are the sums over all 320000 rows. -/
theorem acc5_fst_last (c : Dev nD) (q : Fin 128) (hn : 79 < cfg5.N) :
    (acc5 V c 79 hn).1 (ix2 (0 : Fin 1) q) = ∑ i : Fin 320000, X5in V c (ix2 i q) := by
  rw [acc5_fst V c q 79 hn]
  show ∑ s ∈ Finset.range 80, bsum5 V c q s = _
  rw [Finset.sum_range, ← sum_blocks5 (fun i => X5in V c (ix2 i q))]
  refine Finset.sum_congr rfl fun s _ => ?_
  have hs : s.val < cfg5.N := lt_of_lt_of_eq s.isLt (show cfg5.N = 80 from N_5).symm
  unfold bsum5; rw [dif_pos hs]
  exact Finset.sum_congr rfl fun r _ => iblk5_0_apply V c ⟨s.val, hs⟩ r q
theorem acc5_snd_last (c : Dev nD) (q : Fin 128) (hn : 79 < cfg5.N) :
    (acc5 V c 79 hn).2 (ix2 (0 : Fin 1) q) = ∑ i : Fin 320000, X5in V c (ix2 i q) * X5in V c (ix2 i q) := by
  rw [acc5_snd V c q 79 hn]
  show ∑ s ∈ Finset.range 80, bsq5 V c q s = _
  rw [Finset.sum_range, ← sum_blocks5 (fun i => X5in V c (ix2 i q) * X5in V c (ix2 i q))]
  refine Finset.sum_congr rfl fun s _ => ?_
  have hs : s.val < cfg5.N := lt_of_lt_of_eq s.isLt (show cfg5.N = 80 from N_5).symm
  unfold bsq5; rw [dif_pos hs]
  exact Finset.sum_congr rfl fun r _ => by rw [iblk5_0_apply V c ⟨s.val, hs⟩ r q]

/-- An index of an output row's array is in point t's block iff each coordinate is in the block's range. -/
theorem mem_blk5_1 (t : Fin cfg5.N) (i : S1x128.Idx) :
    i ∈ ((cfg5.win 1).blk t).view.set ↔ ∀ a : Fin 2, win5_1.index t a * S1x128.size a ≤ (i a).val ∧ (i a).val < win5_1.index t a * S1x128.size a + S1x128.size a := by
  show i ∈ ((View.whole (Pipeline.arrRef spec5 1)).slice (win5_1.rect t)).set ↔ _
  rw [View.set_slice_whole, Rect.mem_set_unit]
  exact Iff.rfl
theorem mem_blk5_2 (t : Fin cfg5.N) (i : S1x128.Idx) :
    i ∈ ((cfg5.win 2).blk t).view.set ↔ ∀ a : Fin 2, win5_2.index t a * S1x128.size a ≤ (i a).val ∧ (i a).val < win5_2.index t a * S1x128.size a + S1x128.size a := by
  show i ∈ ((View.whole (Pipeline.arrRef spec5 2)).slice (win5_2.rect t)).set ↔ _
  rw [View.set_slice_whole, Rect.mem_set_unit]
  exact Iff.rfl

/-- The two output rows as functions of the input array: the column mean, and the mean of squares minus the squared mean. -/
def G5_1 (c : Dev nD) : S1x128.Idx → EReal := fun i =>
  Ideal.div (∑ r : Fin 320000, X5in V c (ix2 r ⟨(i 1).val, idx2_lt1 i⟩)) cnt5
def G5_2 (c : Dev nD) : S1x128.Idx → EReal := fun i =>
  Ideal.div (∑ r : Fin 320000, X5in V c (ix2 r ⟨(i 1).val, idx2_lt1 i⟩) * X5in V c (ix2 r ⟨(i 1).val, idx2_lt1 i⟩)) cnt5
    - Ideal.div (∑ r : Fin 320000, X5in V c (ix2 r ⟨(i 1).val, idx2_lt1 i⟩)) cnt5
      * Ideal.div (∑ r : Fin 320000, X5in V c (ix2 r ⟨(i 1).val, idx2_lt1 i⟩)) cnt5

/-- What the last point writes back into output row 1 is that row of the input array. -/
theorem flushed5_1_eq (c : Dev nD) (t : Fin cfg5.N) (hf : (cfg5.win 1).flush t = true) :
    (dat5 (F := Ideal) V c).flushed 1 t = ((cfg5.win 1).blk t).view.read (Elt Ideal) (G5_1 V c) := by
  have h79 : t.val = 79 := by
    have := (flush5_1 t).mp hf; have := lt_of_lt_of_eq t.isLt (show cfg5.N = 80 from N_5); omega
  show (cfg5.win 1).cut (grid5.coords t) ((dat5 (F := Ideal) V c).after 1 t) = _
  rw [after5_1]
  funext j
  obtain ⟨p, q, rfl⟩ : ∃ (p : Fin 1) (q : Fin 128), j = ix2 p q := ⟨j 0, j 1, eq_ix2 j⟩
  obtain rfl : p = 0 := Subsingleton.elim _ _
  show out5_1 (acc5 V c t.val t.isLt).1 (ix2 0 q) = G5_1 V c (((cfg5.win 1).blk t).view.emb (ix2 0 q))
  rw [out5_1_apply]
  have e : (acc5 V c t.val t.isLt).1 (ix2 (0 : Fin 1) q) = ∑ i : Fin 320000, X5in V c (ix2 i q) := by
    obtain ⟨n, hn⟩ := t
    obtain rfl : n = 79 := h79
    exact acc5_fst_last V c q hn
  rw [e]
  unfold G5_1
  have hq : (⟨((((cfg5.win 1).blk t).view.emb (ix2 (0 : Fin 1) q)) 1).val, idx2_lt1 _⟩ : Fin 128) = q :=
    Fin.ext (by show win5_1.index t (1 : Fin 2) * 128 + 1 * q.val = q.val; have := (idx5_1 t).2; omega)
  rw [hq]

theorem flushed5_2_eq (c : Dev nD) (t : Fin cfg5.N) (hf : (cfg5.win 2).flush t = true) :
    (dat5 (F := Ideal) V c).flushed 2 t = ((cfg5.win 2).blk t).view.read (Elt Ideal) (G5_2 V c) := by
  have h79 : t.val = 79 := by
    have := (flush5_2 t).mp hf; have := lt_of_lt_of_eq t.isLt (show cfg5.N = 80 from N_5); omega
  show (cfg5.win 2).cut (grid5.coords t) ((dat5 (F := Ideal) V c).after 2 t) = _
  rw [after5_2]
  funext j
  obtain ⟨p, q, rfl⟩ : ∃ (p : Fin 1) (q : Fin 128), j = ix2 p q := ⟨j 0, j 1, eq_ix2 j⟩
  obtain rfl : p = 0 := Subsingleton.elim _ _
  show out5_2 (acc5 V c t.val t.isLt).1 (acc5 V c t.val t.isLt).2 (ix2 0 q) = G5_2 V c (((cfg5.win 2).blk t).view.emb (ix2 0 q))
  rw [out5_2_apply]
  have e0 : (acc5 V c t.val t.isLt).1 (ix2 (0 : Fin 1) q) = ∑ i : Fin 320000, X5in V c (ix2 i q) := by
    obtain ⟨n, hn⟩ := t
    obtain rfl : n = 79 := h79
    exact acc5_fst_last V c q hn
  have e1 : (acc5 V c t.val t.isLt).2 (ix2 (0 : Fin 1) q) = ∑ i : Fin 320000, X5in V c (ix2 i q) * X5in V c (ix2 i q) := by
    obtain ⟨n, hn⟩ := t
    obtain rfl : n = 79 := h79
    exact acc5_snd_last V c q hn
  rw [e0, e1]
  unfold G5_2
  have hq : (⟨((((cfg5.win 2).blk t).view.emb (ix2 (0 : Fin 1) q)) 1).val, idx2_lt1 _⟩ : Fin 128) = q :=
    Fin.ext (by show win5_2.index t (1 : Fin 2) * 128 + 1 * q.val = q.val; have := (idx5_2 t).2; omega)
  rw [hq]

/-- Every index of an output row is in the last point's block. -/
theorem cover5_1 (i : S1x128.Idx) : ∃ t : Fin cfg5.N, (cfg5.win 1).flush t = true ∧ i ∈ ((cfg5.win 1).blk t).view.set := by
  refine ⟨⟨79, by decide⟩, (flush5_1 _).mpr rfl, ?_⟩
  rw [mem_blk5_1]
  intro a
  match a with
  | ⟨0, _⟩ => show win5_1.index _ (0 : Fin 2) * 1 ≤ (i 0).val ∧ (i 0).val < win5_1.index _ (0 : Fin 2) * 1 + 1; have := (idx5_1 ⟨79, by decide⟩).1; have := idx2_lt0 i; omega
  | ⟨1, _⟩ => show win5_1.index _ (1 : Fin 2) * 128 ≤ (i 1).val ∧ (i 1).val < win5_1.index _ (1 : Fin 2) * 128 + 128; have := (idx5_1 ⟨79, by decide⟩).2; have := idx2_lt1 i; omega
theorem cover5_2 (i : S1x128.Idx) : ∃ t : Fin cfg5.N, (cfg5.win 2).flush t = true ∧ i ∈ ((cfg5.win 2).blk t).view.set := by
  refine ⟨⟨79, by decide⟩, (flush5_2 _).mpr rfl, ?_⟩
  rw [mem_blk5_2]
  intro a
  match a with
  | ⟨0, _⟩ => show win5_2.index _ (0 : Fin 2) * 1 ≤ (i 0).val ∧ (i 0).val < win5_2.index _ (0 : Fin 2) * 1 + 1; have := (idx5_2 ⟨79, by decide⟩).1; have := idx2_lt0 i; omega
  | ⟨1, _⟩ => show win5_2.index _ (1 : Fin 2) * 128 ≤ (i 1).val ∧ (i 1).val < win5_2.index _ (1 : Fin 2) * 128 + 128; have := (idx5_2 ⟨79, by decide⟩).2; have := idx2_lt1 i; omega

/-- The output rows after the region. -/
theorem final5_1 (c : Dev nD) : (dat5 (F := Ideal) V c).arrAt 1 cfg5.N = G5_1 V c :=
  (dat5 (F := Ideal) V c).arrAt_eq_of_cover 1 (G5_1 V c) (fun t hf => flushed5_1_eq V c t hf) cover5_1
theorem final5_2 (c : Dev nD) : (dat5 (F := Ideal) V c).arrAt 2 cfg5.N = G5_2 V c :=
  (dat5 (F := Ideal) V c).arrAt_eq_of_cover 2 (G5_2 V c) (fun t hf => flushed5_2_eq V c t hf) cover5_2

/-- Output row 1 after the region is the column mean of the input array over all 320000 rows. -/
theorem arrAt5_out1 (c : Dev nD) :
    Cert.Stage.toRow1 ((dat5 (F := Ideal) V c).arrAt 1 cfg5.N) = Cert.Stage.colMean cnt5 (Cert.Stage.toMat (V c (Pipeline.arrRef spec5 0))) := by
  rw [final5_1]; rfl
/-- Output row 2 after the region is its column variance, as mean of squares minus squared mean. -/
theorem arrAt5_out2 (c : Dev nD) :
    Cert.Stage.toRow1 ((dat5 (F := Ideal) V c).arrAt 2 cfg5.N) = Cert.Stage.colVarSq cnt5 (Cert.Stage.toMat (V c (Pipeline.arrRef spec5 0))) := by
  rw [final5_2]; rfl

end Regions

end Cert.KernelIdeal.RgVal

end
-- ==== Proof.Rg6Val.lean ====
import proofs.«418385_j87393994539142_1_alg».proof.Proof.Rg6
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

/-!
# Kernel region 6: what the region leaves in its arrays, over the extended reals

The six arrays the region reads are never written back, so they end as they were found. The output array is
written back block by block, 80 blocks of 4000 rows; block t holds, at row p and column q, the normalised,
rectified value of row 4000 t + p of the operand plus the same row of the residual. The blocks tile the 320000
rows, so the whole output array is one function of the six input arrays: the stage  res + max (g (x - mu)
rsqrt (var + eps) + be) 0  taken entry by entry, the four rows read at the entry's column.
-/

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region6
variable (V : (c : Dev nD) → (b : Ref sig .tc) → Buf (Elt Ideal) ((c : Thread nD τ).loc b))

/-! ## The arrays the region only reads -/

theorem arrAt6_in_0 (c : Dev nD) : (dat6 (F := Ideal) V c).arrAt 0 cfg6.N = V c (Pipeline.arrRef spec6 0) :=
  ((dat6 V c).arrAt_in 0 rfl _).trans (A_eq6 V c 0)
theorem arrAt6_in_1 (c : Dev nD) : (dat6 (F := Ideal) V c).arrAt 1 cfg6.N = V c (Pipeline.arrRef spec6 1) :=
  ((dat6 V c).arrAt_in 1 rfl _).trans (A_eq6 V c 1)
theorem arrAt6_in_2 (c : Dev nD) : (dat6 (F := Ideal) V c).arrAt 2 cfg6.N = V c (Pipeline.arrRef spec6 2) :=
  ((dat6 V c).arrAt_in 2 rfl _).trans (A_eq6 V c 2)
theorem arrAt6_in_3 (c : Dev nD) : (dat6 (F := Ideal) V c).arrAt 3 cfg6.N = V c (Pipeline.arrRef spec6 3) :=
  ((dat6 V c).arrAt_in 3 rfl _).trans (A_eq6 V c 3)
theorem arrAt6_in_4 (c : Dev nD) : (dat6 (F := Ideal) V c).arrAt 4 cfg6.N = V c (Pipeline.arrRef spec6 4) :=
  ((dat6 V c).arrAt_in 4 rfl _).trans (A_eq6 V c 4)
theorem arrAt6_in_5 (c : Dev nD) : (dat6 (F := Ideal) V c).arrAt 5 cfg6.N = V c (Pipeline.arrRef spec6 5) :=
  ((dat6 V c).arrAt_in 5 rfl _).trans (A_eq6 V c 5)

/-! ## The body's value at an entry of the block -/

theorem zeros6 : (![0, 0] : Fin 2 → Nat) = fun _ => 0 := funext fun a => by fin_cases a <;> rfl

/-- The value the body stores at row p, column q of the block, from the six blocks it loads: the residual plus
    the rectified normalised operand, the four rows read at column q. The zero the rectifier compares with is the
    real number zero; the small constant added to the variance stays the word it is printed as. -/
theorem pay6_apply (x r : Vec Ideal S4000x128 .f32) (mu var g be : Vec Ideal S1x128 .f32) (p : Fin 4000) (q : Fin 128) :
    k6_pay1 x g mu var be r (ix2 p q)
      = r (ix2 p q) + max (g (ix2 (0 : Fin 1) q) * (x (ix2 p q) - mu (ix2 (0 : Fin 1) q))
          * Ideal.rsqrt (var (ix2 (0 : Fin 1) q) + Ideal.ofBits .f32 0x3727C5AC#32) + be (ix2 (0 : Fin 1) q)) 0 := by
  unfold k6_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply, broadcast_apply]
  show _ + max (_ * _ * Ideal.rsqrt (var (ix2 (0 : Fin 1) q) + Ideal.ofBits .f32 0x3727C5AC#32) + _) (Ideal.ofBits .f32 0x00000000#32) = _
  rw [Ideal.ofBits_zero_f32]

/-! ## The output array as one function of the input arrays -/

/-- The stage, entry by entry, as a function of the six whole arrays. -/
def bn6 (a0 a1 : S320000x128.Idx → EReal) (a2 a3 a4 a5 : S1x128.Idx → EReal) : S320000x128.Idx → EReal :=
  fun i => Cert.Stage.bnRelu (Ideal.ofBits .f32 0x3727C5AC#32) (Cert.Stage.toMat a0) (Cert.Stage.toMat a1)
    (Cert.Stage.toRow1 a2) (Cert.Stage.toRow1 a3) (Cert.Stage.toRow1 a4) (Cert.Stage.toRow1 a5) (i 0) (i 1)

/-- The stage at row P, column q, spelt out. -/
theorem bn6_apply (a0 a1 : S320000x128.Idx → EReal) (a2 a3 a4 a5 : S1x128.Idx → EReal) (P : Fin 320000) (q : Fin 128) :
    bn6 a0 a1 a2 a3 a4 a5 (ix2 P q)
      = a1 (ix2 P q) + max (a4 (ix2 (0 : Fin 1) q) * (a0 (ix2 P q) - a2 (ix2 (0 : Fin 1) q))
          * Ideal.rsqrt (a3 (ix2 (0 : Fin 1) q) + Ideal.ofBits .f32 0x3727C5AC#32) + a5 (ix2 (0 : Fin 1) q)) 0 := rfl

/-- Where each window's block sits at grid point t: the two operands and the output at row block t, the four
    rows at the one block there is. Decided over the 80 points. -/
theorem index6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row p of block t is row 4000 t + p of the array. -/
theorem row6_lt (t : Fin cfg6.N) (p : Fin 4000) : 4000 * t.val + p.val < 320000 := by
  have ht : t.val < 80 := Nat.lt_of_lt_of_eq t.isLt N_6
  have hp := p.isLt
  omega

/-- An operand block (window 0 or 1) at row p, column q is the array at row 4000 t + p, column q. -/
theorem iblk6_0_apply (c : Dev nD) (t : Fin cfg6.N) (p : Fin 4000) (q : Fin 128) :
    (iblk6 V c 0 t : Vec Ideal S4000x128 .f32) (ix2 p q)
      = (V c (Pipeline.arrRef spec6 0) : S320000x128.Idx → EReal) (ix2 ⟨4000 * t.val + p.val, row6_lt t p⟩ q) := by
  obtain ⟨e00, e01, -⟩ := index6 t
  unfold iblk6
  rw [View.read_apply]
  refine congrArg (V c (Pipeline.arrRef spec6 0) : S320000x128.Idx → EReal) (funext fun a => Fin.ext ?_)
  match a with
  | ⟨0, _⟩ => show win6_0.index t (0 : Fin 2) * 4000 + 1 * p.val = 4000 * t.val + p.val; omega
  | ⟨1, _⟩ => show win6_0.index t (1 : Fin 2) * 128 + 1 * q.val = q.val; omega

theorem iblk6_1_apply (c : Dev nD) (t : Fin cfg6.N) (p : Fin 4000) (q : Fin 128) :
    (iblk6 V c 1 t : Vec Ideal S4000x128 .f32) (ix2 p q)
      = (V c (Pipeline.arrRef spec6 1) : S320000x128.Idx → EReal) (ix2 ⟨4000 * t.val + p.val, row6_lt t p⟩ q) := by
  obtain ⟨-, -, e10, e11, -⟩ := index6 t
  unfold iblk6
  rw [View.read_apply]
  refine congrArg (V c (Pipeline.arrRef spec6 1) : S320000x128.Idx → EReal) (funext fun a => Fin.ext ?_)
  match a with
  | ⟨0, _⟩ => show win6_1.index t (0 : Fin 2) * 4000 + 1 * p.val = 4000 * t.val + p.val; omega
  | ⟨1, _⟩ => show win6_1.index t (1 : Fin 2) * 128 + 1 * q.val = q.val; omega

/-- A row block (windows 2 to 5) at column q is the one-row array at column q, at every point. -/
theorem iblk6_2_apply (c : Dev nD) (t : Fin cfg6.N) (q : Fin 128) :
    (iblk6 V c 2 t : Vec Ideal S1x128 .f32) (ix2 (0 : Fin 1) q)
      = (V c (Pipeline.arrRef spec6 2) : S1x128.Idx → EReal) (ix2 (0 : Fin 1) q) := by
  obtain ⟨-, -, -, -, e20, e21, -⟩ := index6 t
  unfold iblk6
  rw [View.read_apply]
  refine congrArg (V c (Pipeline.arrRef spec6 2) : S1x128.Idx → EReal) (funext fun a => Fin.ext ?_)
  match a with
  | ⟨0, _⟩ => show win6_2.index t (0 : Fin 2) * 1 + 1 * 0 = 0; omega
  | ⟨1, _⟩ => show win6_2.index t (1 : Fin 2) * 128 + 1 * q.val = q.val; omega

theorem iblk6_3_apply (c : Dev nD) (t : Fin cfg6.N) (q : Fin 128) :
    (iblk6 V c 3 t : Vec Ideal S1x128 .f32) (ix2 (0 : Fin 1) q)
      = (V c (Pipeline.arrRef spec6 3) : S1x128.Idx → EReal) (ix2 (0 : Fin 1) q) := by
  obtain ⟨-, -, -, -, -, -, e30, e31, -⟩ := index6 t
  unfold iblk6
  rw [View.read_apply]
  refine congrArg (V c (Pipeline.arrRef spec6 3) : S1x128.Idx → EReal) (funext fun a => Fin.ext ?_)
  match a with
  | ⟨0, _⟩ => show win6_3.index t (0 : Fin 2) * 1 + 1 * 0 = 0; omega
  | ⟨1, _⟩ => show win6_3.index t (1 : Fin 2) * 128 + 1 * q.val = q.val; omega

theorem iblk6_4_apply (c : Dev nD) (t : Fin cfg6.N) (q : Fin 128) :
    (iblk6 V c 4 t : Vec Ideal S1x128 .f32) (ix2 (0 : Fin 1) q)
      = (V c (Pipeline.arrRef spec6 4) : S1x128.Idx → EReal) (ix2 (0 : Fin 1) q) := by
  obtain ⟨-, -, -, -, -, -, -, -, e40, e41, -⟩ := index6 t
  unfold iblk6
  rw [View.read_apply]
  refine congrArg (V c (Pipeline.arrRef spec6 4) : S1x128.Idx → EReal) (funext fun a => Fin.ext ?_)
  match a with
  | ⟨0, _⟩ => show win6_4.index t (0 : Fin 2) * 1 + 1 * 0 = 0; omega
  | ⟨1, _⟩ => show win6_4.index t (1 : Fin 2) * 128 + 1 * q.val = q.val; omega

theorem iblk6_5_apply (c : Dev nD) (t : Fin cfg6.N) (q : Fin 128) :
    (iblk6 V c 5 t : Vec Ideal S1x128 .f32) (ix2 (0 : Fin 1) q)
      = (V c (Pipeline.arrRef spec6 5) : S1x128.Idx → EReal) (ix2 (0 : Fin 1) q) := by
  obtain ⟨-, -, -, -, -, -, -, -, -, -, e50, e51, -⟩ := index6 t
  unfold iblk6
  rw [View.read_apply]
  refine congrArg (V c (Pipeline.arrRef spec6 5) : S1x128.Idx → EReal) (funext fun a => Fin.ext ?_)
  match a with
  | ⟨0, _⟩ => show win6_5.index t (0 : Fin 2) * 1 + 1 * 0 = 0; omega
  | ⟨1, _⟩ => show win6_5.index t (1 : Fin 2) * 128 + 1 * q.val = q.val; omega

/-- Row p, column q of the output's block t sits at row 4000 t + p, column q of the output array. -/
theorem emb6_out (t : Fin cfg6.N) (p : Fin 4000) (q : Fin 128) :
    (((cfg6.win 6).blk t).view.emb (ix2 p q) : S320000x128.Idx) = ix2 ⟨4000 * t.val + p.val, row6_lt t p⟩ q := by
  obtain ⟨-, -, -, -, -, -, -, -, -, -, -, -, e60, e61⟩ := index6 t
  refine funext fun a => Fin.ext ?_
  match a with
  | ⟨0, _⟩ => show win6_6.index t (0 : Fin 2) * 4000 + 1 * p.val = 4000 * t.val + p.val; omega
  | ⟨1, _⟩ => show win6_6.index t (1 : Fin 2) * 128 + 1 * q.val = q.val; omega

/-- What point t writes back is block t of the stage of the six arrays as the region finds them. -/
theorem flushed6_eq (c : Dev nD) (t : Fin cfg6.N) :
    (dat6 (F := Ideal) V c).flushed 6 t = ((cfg6.win 6).blk t).view.read (Elt Ideal)
      (bn6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero zeros6]
  simp only [View.ld_unit_zero (S := S4000x128) zeros6, View.ld_unit_zero (S := S1x128) zeros6]
  funext j
  obtain ⟨p, q, rfl⟩ : ∃ (p : Fin 4000) (q : Fin 128), j = ix2 p q := ⟨j 0, j 1, eq_ix2 j⟩
  refine (pay6_apply _ _ _ _ _ _ p q).trans ?_
  rw [View.read_apply, emb6_out, bn6_apply, iblk6_0_apply, iblk6_1_apply, iblk6_2_apply, iblk6_3_apply, iblk6_4_apply, iblk6_5_apply]
  rfl

/-- An index of the output array is in point t's block exactly when each coordinate is in the block's range. -/
theorem mem_blk6 (t : Fin cfg6.N) (i : S320000x128.Idx) :
    i ∈ ((cfg6.win 6).blk t).view.set ↔ ∀ a : Fin 2, win6_6.index t a * S4000x128.size a ≤ (i a).val
      ∧ (i a).val < win6_6.index t a * S4000x128.size a + S4000x128.size a := by
  show i ∈ ((View.whole main_v53).slice (win6_6.rect t)).set ↔ _
  rw [View.set_slice_whole, Rect.mem_set_unit]
  exact Iff.rfl

/-- Every row of the output array is in some point's block: row P in the block of point P / 4000. -/
theorem cover6 (i : S320000x128.Idx) :
    ∃ t : Fin cfg6.N, (cfg6.win 6).flush t = true ∧ i ∈ ((cfg6.win 6).blk t).view.set := by
  have hi0 : (i 0).val < 320000 := (i 0).isLt
  have hi1 : (i 1).val < 128 := (i 1).isLt
  have hlt : (i 0).val / 4000 < cfg6.N := by rw [show cfg6.N = 80 from N_6]; omega
  obtain ⟨-, -, -, -, -, -, -, -, -, -, -, -, e60, e61⟩ := index6 ⟨(i 0).val / 4000, hlt⟩
  refine ⟨⟨(i 0).val / 4000, hlt⟩, flush6_6 _, ?_⟩
  rw [mem_blk6]
  intro a
  match a with
  | ⟨0, _⟩ =>
    show win6_6.index ⟨(i 0).val / 4000, hlt⟩ (0 : Fin 2) * 4000 ≤ (i 0).val
      ∧ (i 0).val < win6_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win6_6.index ⟨(i 0).val / 4000, hlt⟩ (1 : Fin 2) * 128 ≤ (i 1).val
      ∧ (i 1).val < win6_6.index ⟨(i 0).val / 4000, hlt⟩ (1 : Fin 2) * 128 + 128
    rw [e61]; omega

/-- The output array after the run is the stage of the six input arrays. -/
theorem final6 (c : Dev nD) : (dat6 (F := Ideal) V c).arrAt 6 cfg6.N
    = bn6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) :=
  (dat6 V c).arrAt_eq_of_cover 6 _ (fun t _ => flushed6_eq V c t) cover6

/-- The same, read as matrices and rows. -/
theorem arrAt6_out (c : Dev nD) :
    Cert.Stage.toMat ((dat6 (F := Ideal) V c).arrAt 6 cfg6.N)
      = Cert.Stage.bnRelu (Ideal.ofBits .f32 0x3727C5AC#32) (Cert.Stage.toMat (V c (Pipeline.arrRef spec6 0)))
          (Cert.Stage.toMat (V c (Pipeline.arrRef spec6 1))) (Cert.Stage.toRow1 (V c (Pipeline.arrRef spec6 2)))
          (Cert.Stage.toRow1 (V c (Pipeline.arrRef spec6 3))) (Cert.Stage.toRow1 (V c (Pipeline.arrRef spec6 4)))
          (Cert.Stage.toRow1 (V c (Pipeline.arrRef spec6 5))) := by
  rw [final6]
  rfl

end Region6

end Cert.KernelIdeal.RgVal

end
-- ==== Proof.Rg7Val.lean ====
/-
  Region 7 of the kernel program, its values at the extended reals: the two output rows the region leaves are the
  column mean of its 20000 x 128 input over all rows and the column variance as mean of squares minus squared mean.
  The 10 block sums of 2000 rows regroup into one sum over 20000 rows (row = 2000 * block + offset); addition of
  extended reals is commutative and associative, so no finiteness is needed.
-/
import proofs.«418385_j87393994539142_1_alg».proof.Proof.Rg7
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.RgVal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx
open Cert.KernelIdeal Cert.KernelIdeal.Gen Cert.KernelIdeal.Rg
open scoped BigOperators

theorem hz7 : (![0, 0] : Fin 2 → Nat) = fun _ => 0 := funext fun a => by fin_cases a <;> rfl

/-- The row count 20000 as the kernel's f32 literal. -/
abbrev cnt7 : EReal := Ideal.ofBits .f32 0x469C4000#32

/-- Summing 10 blocks of 2000 consecutive terms is summing all 20000 terms (row = 2000 * block + offset). -/
theorem sum_blocks7 {M : Type} [AddCommMonoid M] (f : Fin 20000 → M) :
    ∑ s : Fin 10, ∑ r : Fin 2000, f ⟨2000 * s.val + r.val, by have := s.isLt; have := r.isLt; omega⟩ = ∑ i : Fin 20000, f i := by
  have e := Equiv.sum_comp (finProdFinEquiv : Fin 10 × Fin 2000 ≃ Fin (10 * 2000)) f
  rw [← e, Fintype.sum_prod_type]
  refine Finset.sum_congr rfl fun s _ => Finset.sum_congr rfl fun r _ => congrArg f (Fin.ext ?_)
  show 2000 * s.val + r.val = r.val + 2000 * s.val
  omega

/-- A lane sum over the 2000 rows of a block, at column q. -/
theorem colsum7_apply (x : FVec Ideal S2000x128 .f32) (hφ : FKind.Formats .f32)
    (hacc : (0x00000000#32 : BitVec FTy.f32.bits) = FKind.add.neutral .f32 hφ) (q : Fin 128) :
    multiReduction (F := Ideal) .add [0] S128 x 0x00000000#32 reduces_S2000x128_S128 hφ hacc (ix1 q) = ∑ r : Fin 2000, x (ix2 r q) := by
  refine (Ideal.multiReduction_add_single x 0x00000000#32 reduces_S2000x128_S128 hφ hacc (ix1 q)).trans ?_
  exact Finset.sum_congr rfl fun r _ => congrArg x (funext fun a => by match a with | ⟨0, _⟩ => rfl | ⟨1, _⟩ => rfl)

theorem payZ0_7_apply (q : Fin 128) : k7_pay1 (F := Ideal) (ix2 (0 : Fin 1) q) = 0 := by
  unfold k7_pay1
  simp only [shapeCast_self, broadcast_apply]
  exact Ideal.ofBits_zero_f32
theorem payZ1_7_apply (q : Fin 128) : k7_pay2 (F := Ideal) (ix2 (0 : Fin 1) q) = 0 := by
  unfold k7_pay2
  simp only [shapeCast_self, broadcast_apply]
  exact Ideal.ofBits_zero_f32

theorem payAdd_7_apply (x : Vec Ideal S2000x128 .f32) (s : Vec Ideal S1x128 .f32) (q : Fin 128) :
    k7_pay4 (F := Ideal) x s (ix2 (0 : Fin 1) q) = s (ix2 0 q) + ∑ r : Fin 2000, x (ix2 r q) := by
  unfold k7_pay4 k7_pay3
  simp only [shapeCast_self, addf_apply]
  rw [shapeCast_a_1a_apply]
  exact congrArg _ (colsum7_apply _ _ _ q)

theorem paySq_7_apply (x : Vec Ideal S2000x128 .f32) (s : Vec Ideal S1x128 .f32) (q : Fin 128) :
    k7_pay5 (F := Ideal) x s (ix2 (0 : Fin 1) q) = s (ix2 0 q) + ∑ r : Fin 2000, x (ix2 r q) * x (ix2 r q) := by
  unfold k7_pay5 k7_pay3
  simp only [shapeCast_self, addf_apply]
  rw [shapeCast_a_1a_apply]
  refine congrArg _ ((colsum7_apply _ _ _ q).trans ?_)
  exact Finset.sum_congr rfl fun r _ => mulf_apply _ _ _

theorem payMean_7_apply (s : Vec Ideal S1x128 .f32) (q : Fin 128) :
    k7_pay6 (F := Ideal) s (ix2 (0 : Fin 1) q) = Ideal.div (s (ix2 0 q)) cnt7 := by
  unfold k7_pay6
  simp only [divf_apply, broadcast_apply]
  rfl

theorem payVar_7_apply (s0 s1 : Vec Ideal S1x128 .f32) (q : Fin 128) :
    k7_pay7 (F := Ideal) s0 s1 (ix2 (0 : Fin 1) q)
      = Ideal.div (s1 (ix2 0 q)) cnt7 - Ideal.div (s0 (ix2 0 q)) cnt7 * Ideal.div (s0 (ix2 0 q)) cnt7 := by
  unfold k7_pay7
  simp only [subf_apply, mulf_apply, divf_apply, broadcast_apply, payMean_7_apply]
  rfl

theorem init7_0_apply (q : Fin 128) : init7_0 (F := Ideal) (ix2 (0 : Fin 1) q) = 0 := by
  unfold init7_0; rw [View.canon_unit_zero hz7]; exact payZ0_7_apply q
theorem init7_1_apply (q : Fin 128) : init7_1 (F := Ideal) (ix2 (0 : Fin 1) q) = 0 := by
  unfold init7_1; rw [View.canon_unit_zero hz7]; exact payZ1_7_apply q

theorem step7_0_apply (x : Vec Ideal S2000x128 .f32) (s : Vec Ideal S1x128 .f32) (q : Fin 128) :
    step7_0 x s (ix2 (0 : Fin 1) q) = s (ix2 0 q) + ∑ r : Fin 2000, x (ix2 r q) := by
  unfold step7_0; rw [View.canon_unit_zero hz7]
  simp only [View.ld_unit_zero (S := S2000x128) hz7, View.ld_unit_zero (S := S1x128) hz7]
  exact payAdd_7_apply x s q
theorem step7_1_apply (x : Vec Ideal S2000x128 .f32) (s : Vec Ideal S1x128 .f32) (q : Fin 128) :
    step7_1 x s (ix2 (0 : Fin 1) q) = s (ix2 0 q) + ∑ r : Fin 2000, x (ix2 r q) * x (ix2 r q) := by
  unfold step7_1; rw [View.canon_unit_zero hz7]
  simp only [View.ld_unit_zero (S := S2000x128) hz7, View.ld_unit_zero (S := S1x128) hz7]
  exact paySq_7_apply x s q
theorem out7_1_apply (s : Vec Ideal S1x128 .f32) (q : Fin 128) :
    out7_1 s (ix2 (0 : Fin 1) q) = Ideal.div (s (ix2 0 q)) cnt7 := by
  unfold out7_1; rw [View.canon_unit_zero hz7]
  simp only [View.ld_unit_zero (S := S1x128) hz7]
  exact payMean_7_apply s q
theorem out7_2_apply (s0 s1 : Vec Ideal S1x128 .f32) (q : Fin 128) :
    out7_2 s0 s1 (ix2 (0 : Fin 1) q)
      = Ideal.div (s1 (ix2 0 q)) cnt7 - Ideal.div (s0 (ix2 0 q)) cnt7 * Ideal.div (s0 (ix2 0 q)) cnt7 := by
  unfold out7_2; rw [View.canon_unit_zero hz7]
  simp only [View.ld_unit_zero (S := S1x128) hz7]
  exact payVar_7_apply s0 s1 q

section Regions
variable (V : (c : Dev nD) → (b : Ref sig .tc) → Buf (Elt Ideal) ((c : Thread nD τ).loc b))

/-- The input array is never written back. -/
theorem arrAt7_in_0 (c : Dev nD) : (dat7 (F := Ideal) V c).arrAt 0 cfg7.N = V c (Pipeline.arrRef spec7 0) :=
  ((dat7 (F := Ideal) V c).arrAt_in 0 rfl cfg7.N).trans (A_eq7 V c 0)

/-- The block index maps over the grid: the input's row block is the point, its column block 0; each output row is one block. -/
theorem idx7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)
theorem idx7_1 : ∀ t : Fin cfg7.N, win7_1.index t (0 : Fin 2) = 0 ∧ win7_1.index t (1 : Fin 2) = 0 :=
  (by decide +kernel : ∀ t : Fin grid7.N, win7_1.index t (0 : Fin 2) = 0 ∧ win7_1.index t (1 : Fin 2) = 0)
theorem idx7_2 : ∀ t : Fin cfg7.N, win7_2.index t (0 : Fin 2) = 0 ∧ win7_2.index t (1 : Fin 2) = 0 :=
  (by decide +kernel : ∀ t : Fin grid7.N, win7_2.index t (0 : Fin 2) = 0 ∧ win7_2.index t (1 : Fin 2) = 0)

/-- The input array, indexed by row and column. -/
abbrev X7in (c : Dev nD) : S20000x128.Idx → EReal := V c (Pipeline.arrRef spec7 0)

/-- The input's block at a point, indexed by row and column. -/
abbrev blk7 (c : Dev nD) (t : Fin cfg7.N) : S2000x128.Idx → EReal := iblk7 V c 0 t

/-- Row r of block t is row 2000 t + r of the array. -/
theorem iblk7_0_apply (c : Dev nD) (t : Fin cfg7.N) (r : Fin 2000) (q : Fin 128) :
    blk7 V c t (ix2 r q)
      = X7in V c (ix2 ⟨2000 * t.val + r.val, by have := lt_of_lt_of_eq t.isLt (show cfg7.N = 10 from N_7); have := r.isLt; omega⟩ q) := by
  show V c (Pipeline.arrRef spec7 0) (((cfg7.win 0).blk t).view.emb (ix2 r q)) = V c (Pipeline.arrRef spec7 0) _
  refine congrArg _ (funext fun a => Fin.ext ?_)
  match a with
  | ⟨0, _⟩ => show win7_0.index t (0 : Fin 2) * 2000 + 1 * r.val = 2000 * t.val + r.val; have := (idx7_0 t).1; omega
  | ⟨1, _⟩ => show win7_0.index t (1 : Fin 2) * 128 + 1 * q.val = q.val; have := (idx7_0 t).2; omega

/-- Block s's column sums, of the entries and of their squares (zero past the grid). -/
def bsum7 (c : Dev nD) (q : Fin 128) (s : ℕ) : EReal :=
  if h : s < cfg7.N then ∑ r : Fin 2000, blk7 V c ⟨s, h⟩ (ix2 r q) else 0
def bsq7 (c : Dev nD) (q : Fin 128) (s : ℕ) : EReal :=
  if h : s < cfg7.N then ∑ r : Fin 2000, blk7 V c ⟨s, h⟩ (ix2 r q) * blk7 V c ⟨s, h⟩ (ix2 r q) else 0

theorem acc7_at_zero (c : Dev nD) (hn : 0 < cfg7.N) :
    acc7 V c 0 hn = (step7_0 (iblk7 V c 0 ⟨0, hn⟩) init7_0, step7_1 (iblk7 V c 0 ⟨0, hn⟩) init7_1) := rfl
theorem acc7_at_succ (c : Dev nD) (n : ℕ) (hn : n + 1 < cfg7.N) :
    acc7 V c (n + 1) hn = (step7_0 (iblk7 V c 0 ⟨n + 1, hn⟩) (acc7 V c n (Nat.lt_of_succ_lt hn)).1,
      step7_1 (iblk7 V c 0 ⟨n + 1, hn⟩) (acc7 V c n (Nat.lt_of_succ_lt hn)).2) := rfl

/-- The running rows after point n are the sums of the blocks' column sums up to n. -/
theorem acc7_fst (c : Dev nD) (q : Fin 128) : ∀ (n : ℕ) (hn : n < cfg7.N),
    (acc7 V c n hn).1 (ix2 (0 : Fin 1) q) = ∑ s ∈ Finset.range (n + 1), bsum7 V c q s
  | 0, hn => by
    rw [acc7_at_zero, Finset.sum_range_one]
    refine (step7_0_apply (iblk7 V c 0 ⟨0, hn⟩) init7_0 q).trans ?_
    rw [init7_0_apply, zero_add]; unfold bsum7; rw [dif_pos hn]
  | n + 1, hn => by
    rw [acc7_at_succ, Finset.sum_range_succ, ← acc7_fst c q n (Nat.lt_of_succ_lt hn)]
    refine (step7_0_apply (iblk7 V c 0 ⟨n + 1, hn⟩) _ q).trans ?_
    unfold bsum7; rw [dif_pos hn]
theorem acc7_snd (c : Dev nD) (q : Fin 128) : ∀ (n : ℕ) (hn : n < cfg7.N),
    (acc7 V c n hn).2 (ix2 (0 : Fin 1) q) = ∑ s ∈ Finset.range (n + 1), bsq7 V c q s
  | 0, hn => by
    rw [acc7_at_zero, Finset.sum_range_one]
    refine (step7_1_apply (iblk7 V c 0 ⟨0, hn⟩) init7_1 q).trans ?_
    rw [init7_1_apply, zero_add]; unfold bsq7; rw [dif_pos hn]
  | n + 1, hn => by
    rw [acc7_at_succ, Finset.sum_range_succ, ← acc7_snd c q n (Nat.lt_of_succ_lt hn)]
    refine (step7_1_apply (iblk7 V c 0 ⟨n + 1, hn⟩) _ q).trans ?_
    unfold bsq7; rw [dif_pos hn]

/-- After the last point they are the sums over all 20000 rows. -/
theorem acc7_fst_last (c : Dev nD) (q : Fin 128) (hn : 9 < cfg7.N) :
    (acc7 V c 9 hn).1 (ix2 (0 : Fin 1) q) = ∑ i : Fin 20000, X7in V c (ix2 i q) := by
  rw [acc7_fst V c q 9 hn]
  show ∑ s ∈ Finset.range 10, bsum7 V c q s = _
  rw [Finset.sum_range, ← sum_blocks7 (fun i => X7in V c (ix2 i q))]
  refine Finset.sum_congr rfl fun s _ => ?_
  have hs : s.val < cfg7.N := lt_of_lt_of_eq s.isLt (show cfg7.N = 10 from N_7).symm
  unfold bsum7; rw [dif_pos hs]
  exact Finset.sum_congr rfl fun r _ => iblk7_0_apply V c ⟨s.val, hs⟩ r q
theorem acc7_snd_last (c : Dev nD) (q : Fin 128) (hn : 9 < cfg7.N) :
    (acc7 V c 9 hn).2 (ix2 (0 : Fin 1) q) = ∑ i : Fin 20000, X7in V c (ix2 i q) * X7in V c (ix2 i q) := by
  rw [acc7_snd V c q 9 hn]
  show ∑ s ∈ Finset.range 10, bsq7 V c q s = _
  rw [Finset.sum_range, ← sum_blocks7 (fun i => X7in V c (ix2 i q) * X7in V c (ix2 i q))]
  refine Finset.sum_congr rfl fun s _ => ?_
  have hs : s.val < cfg7.N := lt_of_lt_of_eq s.isLt (show cfg7.N = 10 from N_7).symm
  unfold bsq7; rw [dif_pos hs]
  exact Finset.sum_congr rfl fun r _ => by rw [iblk7_0_apply V c ⟨s.val, hs⟩ r q]

/-- An index of an output row's array is in point t's block iff each coordinate is in the block's range. -/
theorem mem_blk7_1 (t : Fin cfg7.N) (i : S1x128.Idx) :
    i ∈ ((cfg7.win 1).blk t).view.set ↔ ∀ a : Fin 2, win7_1.index t a * S1x128.size a ≤ (i a).val ∧ (i a).val < win7_1.index t a * S1x128.size a + S1x128.size a := by
  show i ∈ ((View.whole (Pipeline.arrRef spec7 1)).slice (win7_1.rect t)).set ↔ _
  rw [View.set_slice_whole, Rect.mem_set_unit]
  exact Iff.rfl
theorem mem_blk7_2 (t : Fin cfg7.N) (i : S1x128.Idx) :
    i ∈ ((cfg7.win 2).blk t).view.set ↔ ∀ a : Fin 2, win7_2.index t a * S1x128.size a ≤ (i a).val ∧ (i a).val < win7_2.index t a * S1x128.size a + S1x128.size a := by
  show i ∈ ((View.whole (Pipeline.arrRef spec7 2)).slice (win7_2.rect t)).set ↔ _
  rw [View.set_slice_whole, Rect.mem_set_unit]
  exact Iff.rfl

/-- The two output rows as functions of the input array: the column mean, and the mean of squares minus the squared mean. -/
def G7_1 (c : Dev nD) : S1x128.Idx → EReal := fun i =>
  Ideal.div (∑ r : Fin 20000, X7in V c (ix2 r ⟨(i 1).val, idx2_lt1 i⟩)) cnt7
def G7_2 (c : Dev nD) : S1x128.Idx → EReal := fun i =>
  Ideal.div (∑ r : Fin 20000, X7in V c (ix2 r ⟨(i 1).val, idx2_lt1 i⟩) * X7in V c (ix2 r ⟨(i 1).val, idx2_lt1 i⟩)) cnt7
    - Ideal.div (∑ r : Fin 20000, X7in V c (ix2 r ⟨(i 1).val, idx2_lt1 i⟩)) cnt7
      * Ideal.div (∑ r : Fin 20000, X7in V c (ix2 r ⟨(i 1).val, idx2_lt1 i⟩)) cnt7

/-- What the last point writes back into output row 1 is that row of the input array. -/
theorem flushed7_1_eq (c : Dev nD) (t : Fin cfg7.N) (hf : (cfg7.win 1).flush t = true) :
    (dat7 (F := Ideal) V c).flushed 1 t = ((cfg7.win 1).blk t).view.read (Elt Ideal) (G7_1 V c) := by
  have h79 : t.val = 9 := by
    have := (flush7_1 t).mp hf; have := lt_of_lt_of_eq t.isLt (show cfg7.N = 10 from N_7); omega
  show (cfg7.win 1).cut (grid7.coords t) ((dat7 (F := Ideal) V c).after 1 t) = _
  rw [after7_1]
  funext j
  obtain ⟨p, q, rfl⟩ : ∃ (p : Fin 1) (q : Fin 128), j = ix2 p q := ⟨j 0, j 1, eq_ix2 j⟩
  obtain rfl : p = 0 := Subsingleton.elim _ _
  show out7_1 (acc7 V c t.val t.isLt).1 (ix2 0 q) = G7_1 V c (((cfg7.win 1).blk t).view.emb (ix2 0 q))
  rw [out7_1_apply]
  have e : (acc7 V c t.val t.isLt).1 (ix2 (0 : Fin 1) q) = ∑ i : Fin 20000, X7in V c (ix2 i q) := by
    obtain ⟨n, hn⟩ := t
    obtain rfl : n = 9 := h79
    exact acc7_fst_last V c q hn
  rw [e]
  unfold G7_1
  have hq : (⟨((((cfg7.win 1).blk t).view.emb (ix2 (0 : Fin 1) q)) 1).val, idx2_lt1 _⟩ : Fin 128) = q :=
    Fin.ext (by show win7_1.index t (1 : Fin 2) * 128 + 1 * q.val = q.val; have := (idx7_1 t).2; omega)
  rw [hq]

theorem flushed7_2_eq (c : Dev nD) (t : Fin cfg7.N) (hf : (cfg7.win 2).flush t = true) :
    (dat7 (F := Ideal) V c).flushed 2 t = ((cfg7.win 2).blk t).view.read (Elt Ideal) (G7_2 V c) := by
  have h79 : t.val = 9 := by
    have := (flush7_2 t).mp hf; have := lt_of_lt_of_eq t.isLt (show cfg7.N = 10 from N_7); omega
  show (cfg7.win 2).cut (grid7.coords t) ((dat7 (F := Ideal) V c).after 2 t) = _
  rw [after7_2]
  funext j
  obtain ⟨p, q, rfl⟩ : ∃ (p : Fin 1) (q : Fin 128), j = ix2 p q := ⟨j 0, j 1, eq_ix2 j⟩
  obtain rfl : p = 0 := Subsingleton.elim _ _
  show out7_2 (acc7 V c t.val t.isLt).1 (acc7 V c t.val t.isLt).2 (ix2 0 q) = G7_2 V c (((cfg7.win 2).blk t).view.emb (ix2 0 q))
  rw [out7_2_apply]
  have e0 : (acc7 V c t.val t.isLt).1 (ix2 (0 : Fin 1) q) = ∑ i : Fin 20000, X7in V c (ix2 i q) := by
    obtain ⟨n, hn⟩ := t
    obtain rfl : n = 9 := h79
    exact acc7_fst_last V c q hn
  have e1 : (acc7 V c t.val t.isLt).2 (ix2 (0 : Fin 1) q) = ∑ i : Fin 20000, X7in V c (ix2 i q) * X7in V c (ix2 i q) := by
    obtain ⟨n, hn⟩ := t
    obtain rfl : n = 9 := h79
    exact acc7_snd_last V c q hn
  rw [e0, e1]
  unfold G7_2
  have hq : (⟨((((cfg7.win 2).blk t).view.emb (ix2 (0 : Fin 1) q)) 1).val, idx2_lt1 _⟩ : Fin 128) = q :=
    Fin.ext (by show win7_2.index t (1 : Fin 2) * 128 + 1 * q.val = q.val; have := (idx7_2 t).2; omega)
  rw [hq]

/-- Every index of an output row is in the last point's block. -/
theorem cover7_1 (i : S1x128.Idx) : ∃ t : Fin cfg7.N, (cfg7.win 1).flush t = true ∧ i ∈ ((cfg7.win 1).blk t).view.set := by
  refine ⟨⟨9, by decide⟩, (flush7_1 _).mpr rfl, ?_⟩
  rw [mem_blk7_1]
  intro a
  match a with
  | ⟨0, _⟩ => show win7_1.index _ (0 : Fin 2) * 1 ≤ (i 0).val ∧ (i 0).val < win7_1.index _ (0 : Fin 2) * 1 + 1; have := (idx7_1 ⟨9, by decide⟩).1; have := idx2_lt0 i; omega
  | ⟨1, _⟩ => show win7_1.index _ (1 : Fin 2) * 128 ≤ (i 1).val ∧ (i 1).val < win7_1.index _ (1 : Fin 2) * 128 + 128; have := (idx7_1 ⟨9, by decide⟩).2; have := idx2_lt1 i; omega
theorem cover7_2 (i : S1x128.Idx) : ∃ t : Fin cfg7.N, (cfg7.win 2).flush t = true ∧ i ∈ ((cfg7.win 2).blk t).view.set := by
  refine ⟨⟨9, by decide⟩, (flush7_2 _).mpr rfl, ?_⟩
  rw [mem_blk7_2]
  intro a
  match a with
  | ⟨0, _⟩ => show win7_2.index _ (0 : Fin 2) * 1 ≤ (i 0).val ∧ (i 0).val < win7_2.index _ (0 : Fin 2) * 1 + 1; have := (idx7_2 ⟨9, by decide⟩).1; have := idx2_lt0 i; omega
  | ⟨1, _⟩ => show win7_2.index _ (1 : Fin 2) * 128 ≤ (i 1).val ∧ (i 1).val < win7_2.index _ (1 : Fin 2) * 128 + 128; have := (idx7_2 ⟨9, by decide⟩).2; have := idx2_lt1 i; omega

/-- The output rows after the region. -/
theorem final7_1 (c : Dev nD) : (dat7 (F := Ideal) V c).arrAt 1 cfg7.N = G7_1 V c :=
  (dat7 (F := Ideal) V c).arrAt_eq_of_cover 1 (G7_1 V c) (fun t hf => flushed7_1_eq V c t hf) cover7_1
theorem final7_2 (c : Dev nD) : (dat7 (F := Ideal) V c).arrAt 2 cfg7.N = G7_2 V c :=
  (dat7 (F := Ideal) V c).arrAt_eq_of_cover 2 (G7_2 V c) (fun t hf => flushed7_2_eq V c t hf) cover7_2

/-- Output row 1 after the region is the column mean of the input array over all 20000 rows. -/
theorem arrAt7_out1 (c : Dev nD) :
    Cert.Stage.toRow1 ((dat7 (F := Ideal) V c).arrAt 1 cfg7.N) = Cert.Stage.colMean cnt7 (Cert.Stage.toMat (V c (Pipeline.arrRef spec7 0))) := by
  rw [final7_1]; rfl
/-- Output row 2 after the region is its column variance, as mean of squares minus squared mean. -/
theorem arrAt7_out2 (c : Dev nD) :
    Cert.Stage.toRow1 ((dat7 (F := Ideal) V c).arrAt 2 cfg7.N) = Cert.Stage.colVarSq cnt7 (Cert.Stage.toMat (V c (Pipeline.arrRef spec7 0))) := by
  rw [final7_2]; rfl

end Regions

end Cert.KernelIdeal.RgVal

end
-- ==== Proof.Rg8Val.lean ====
import proofs.«418385_j87393994539142_1_alg».proof.Proof.Rg8
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

/-!
# Kernel region 8: what the region leaves in its arrays, over the extended reals

The six arrays the region reads are never written back, so they end as they were found. The output array is
written back block by block, 10 blocks of 2000 rows; block t holds, at row p and column q, the normalised,
rectified value of row 2000 t + p of the operand plus the same row of the residual. The blocks tile the 20000
rows, so the whole output array is one function of the six input arrays: the stage  res + max (g (x - mu)
rsqrt (var + eps) + be) 0  taken entry by entry, the four rows read at the entry's column.
-/

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region8
variable (V : (c : Dev nD) → (b : Ref sig .tc) → Buf (Elt Ideal) ((c : Thread nD τ).loc b))

/-! ## The arrays the region only reads -/

theorem arrAt8_in_0 (c : Dev nD) : (dat8 (F := Ideal) V c).arrAt 0 cfg8.N = V c (Pipeline.arrRef spec8 0) :=
  ((dat8 V c).arrAt_in 0 rfl _).trans (A_eq8 V c 0)
theorem arrAt8_in_1 (c : Dev nD) : (dat8 (F := Ideal) V c).arrAt 1 cfg8.N = V c (Pipeline.arrRef spec8 1) :=
  ((dat8 V c).arrAt_in 1 rfl _).trans (A_eq8 V c 1)
theorem arrAt8_in_2 (c : Dev nD) : (dat8 (F := Ideal) V c).arrAt 2 cfg8.N = V c (Pipeline.arrRef spec8 2) :=
  ((dat8 V c).arrAt_in 2 rfl _).trans (A_eq8 V c 2)
theorem arrAt8_in_3 (c : Dev nD) : (dat8 (F := Ideal) V c).arrAt 3 cfg8.N = V c (Pipeline.arrRef spec8 3) :=
  ((dat8 V c).arrAt_in 3 rfl _).trans (A_eq8 V c 3)
theorem arrAt8_in_4 (c : Dev nD) : (dat8 (F := Ideal) V c).arrAt 4 cfg8.N = V c (Pipeline.arrRef spec8 4) :=
  ((dat8 V c).arrAt_in 4 rfl _).trans (A_eq8 V c 4)
theorem arrAt8_in_5 (c : Dev nD) : (dat8 (F := Ideal) V c).arrAt 5 cfg8.N = V c (Pipeline.arrRef spec8 5) :=
  ((dat8 V c).arrAt_in 5 rfl _).trans (A_eq8 V c 5)

/-! ## The body's value at an entry of the block -/

theorem zeros8 : (![0, 0] : Fin 2 → Nat) = fun _ => 0 := funext fun a => by fin_cases a <;> rfl

/-- The value the body stores at row p, column q of the block, from the six blocks it loads: the residual plus
    the rectified normalised operand, the four rows read at column q. The zero the rectifier compares with is the
    real number zero; the small constant added to the variance stays the word it is printed as. -/
theorem pay8_apply (x r : Vec Ideal S2000x128 .f32) (mu var g be : Vec Ideal S1x128 .f32) (p : Fin 2000) (q : Fin 128) :
    k8_pay1 x g mu var be r (ix2 p q)
      = r (ix2 p q) + max (g (ix2 (0 : Fin 1) q) * (x (ix2 p q) - mu (ix2 (0 : Fin 1) q))
          * Ideal.rsqrt (var (ix2 (0 : Fin 1) q) + Ideal.ofBits .f32 0x3727C5AC#32) + be (ix2 (0 : Fin 1) q)) 0 := by
  unfold k8_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply, broadcast_apply]
  show _ + max (_ * _ * Ideal.rsqrt (var (ix2 (0 : Fin 1) q) + Ideal.ofBits .f32 0x3727C5AC#32) + _) (Ideal.ofBits .f32 0x00000000#32) = _
  rw [Ideal.ofBits_zero_f32]

/-! ## The output array as one function of the input arrays -/

/-- The stage, entry by entry, as a function of the six whole arrays. -/
def bn8 (a0 a1 : S20000x128.Idx → EReal) (a2 a3 a4 a5 : S1x128.Idx → EReal) : S20000x128.Idx → EReal :=
  fun i => Cert.Stage.bnRelu (Ideal.ofBits .f32 0x3727C5AC#32) (Cert.Stage.toMat a0) (Cert.Stage.toMat a1)
    (Cert.Stage.toRow1 a2) (Cert.Stage.toRow1 a3) (Cert.Stage.toRow1 a4) (Cert.Stage.toRow1 a5) (i 0) (i 1)

/-- The stage at row P, column q, spelt out. -/
theorem bn8_apply (a0 a1 : S20000x128.Idx → EReal) (a2 a3 a4 a5 : S1x128.Idx → EReal) (P : Fin 20000) (q : Fin 128) :
    bn8 a0 a1 a2 a3 a4 a5 (ix2 P q)
      = a1 (ix2 P q) + max (a4 (ix2 (0 : Fin 1) q) * (a0 (ix2 P q) - a2 (ix2 (0 : Fin 1) q))
          * Ideal.rsqrt (a3 (ix2 (0 : Fin 1) q) + Ideal.ofBits .f32 0x3727C5AC#32) + a5 (ix2 (0 : Fin 1) q)) 0 := rfl

/-- Where each window's block sits at grid point t: the two operands and the output at row block t, the four
    rows at the one block there is. Decided over the 10 points. -/
theorem index8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Row p of block t is row 2000 t + p of the array. -/
theorem row8_lt (t : Fin cfg8.N) (p : Fin 2000) : 2000 * t.val + p.val < 20000 := by
  have ht : t.val < 10 := Nat.lt_of_lt_of_eq t.isLt N_8
  have hp := p.isLt
  omega

/-- An operand block (window 0 or 1) at row p, column q is the array at row 2000 t + p, column q. -/
theorem iblk8_0_apply (c : Dev nD) (t : Fin cfg8.N) (p : Fin 2000) (q : Fin 128) :
    (iblk8 V c 0 t : Vec Ideal S2000x128 .f32) (ix2 p q)
      = (V c (Pipeline.arrRef spec8 0) : S20000x128.Idx → EReal) (ix2 ⟨2000 * t.val + p.val, row8_lt t p⟩ q) := by
  obtain ⟨e00, e01, -⟩ := index8 t
  unfold iblk8
  rw [View.read_apply]
  refine congrArg (V c (Pipeline.arrRef spec8 0) : S20000x128.Idx → EReal) (funext fun a => Fin.ext ?_)
  match a with
  | ⟨0, _⟩ => show win8_0.index t (0 : Fin 2) * 2000 + 1 * p.val = 2000 * t.val + p.val; omega
  | ⟨1, _⟩ => show win8_0.index t (1 : Fin 2) * 128 + 1 * q.val = q.val; omega

theorem iblk8_1_apply (c : Dev nD) (t : Fin cfg8.N) (p : Fin 2000) (q : Fin 128) :
    (iblk8 V c 1 t : Vec Ideal S2000x128 .f32) (ix2 p q)
      = (V c (Pipeline.arrRef spec8 1) : S20000x128.Idx → EReal) (ix2 ⟨2000 * t.val + p.val, row8_lt t p⟩ q) := by
  obtain ⟨-, -, e10, e11, -⟩ := index8 t
  unfold iblk8
  rw [View.read_apply]
  refine congrArg (V c (Pipeline.arrRef spec8 1) : S20000x128.Idx → EReal) (funext fun a => Fin.ext ?_)
  match a with
  | ⟨0, _⟩ => show win8_1.index t (0 : Fin 2) * 2000 + 1 * p.val = 2000 * t.val + p.val; omega
  | ⟨1, _⟩ => show win8_1.index t (1 : Fin 2) * 128 + 1 * q.val = q.val; omega

/-- A row block (windows 2 to 5) at column q is the one-row array at column q, at every point. -/
theorem iblk8_2_apply (c : Dev nD) (t : Fin cfg8.N) (q : Fin 128) :
    (iblk8 V c 2 t : Vec Ideal S1x128 .f32) (ix2 (0 : Fin 1) q)
      = (V c (Pipeline.arrRef spec8 2) : S1x128.Idx → EReal) (ix2 (0 : Fin 1) q) := by
  obtain ⟨-, -, -, -, e20, e21, -⟩ := index8 t
  unfold iblk8
  rw [View.read_apply]
  refine congrArg (V c (Pipeline.arrRef spec8 2) : S1x128.Idx → EReal) (funext fun a => Fin.ext ?_)
  match a with
  | ⟨0, _⟩ => show win8_2.index t (0 : Fin 2) * 1 + 1 * 0 = 0; omega
  | ⟨1, _⟩ => show win8_2.index t (1 : Fin 2) * 128 + 1 * q.val = q.val; omega

theorem iblk8_3_apply (c : Dev nD) (t : Fin cfg8.N) (q : Fin 128) :
    (iblk8 V c 3 t : Vec Ideal S1x128 .f32) (ix2 (0 : Fin 1) q)
      = (V c (Pipeline.arrRef spec8 3) : S1x128.Idx → EReal) (ix2 (0 : Fin 1) q) := by
  obtain ⟨-, -, -, -, -, -, e30, e31, -⟩ := index8 t
  unfold iblk8
  rw [View.read_apply]
  refine congrArg (V c (Pipeline.arrRef spec8 3) : S1x128.Idx → EReal) (funext fun a => Fin.ext ?_)
  match a with
  | ⟨0, _⟩ => show win8_3.index t (0 : Fin 2) * 1 + 1 * 0 = 0; omega
  | ⟨1, _⟩ => show win8_3.index t (1 : Fin 2) * 128 + 1 * q.val = q.val; omega

theorem iblk8_4_apply (c : Dev nD) (t : Fin cfg8.N) (q : Fin 128) :
    (iblk8 V c 4 t : Vec Ideal S1x128 .f32) (ix2 (0 : Fin 1) q)
      = (V c (Pipeline.arrRef spec8 4) : S1x128.Idx → EReal) (ix2 (0 : Fin 1) q) := by
  obtain ⟨-, -, -, -, -, -, -, -, e40, e41, -⟩ := index8 t
  unfold iblk8
  rw [View.read_apply]
  refine congrArg (V c (Pipeline.arrRef spec8 4) : S1x128.Idx → EReal) (funext fun a => Fin.ext ?_)
  match a with
  | ⟨0, _⟩ => show win8_4.index t (0 : Fin 2) * 1 + 1 * 0 = 0; omega
  | ⟨1, _⟩ => show win8_4.index t (1 : Fin 2) * 128 + 1 * q.val = q.val; omega

theorem iblk8_5_apply (c : Dev nD) (t : Fin cfg8.N) (q : Fin 128) :
    (iblk8 V c 5 t : Vec Ideal S1x128 .f32) (ix2 (0 : Fin 1) q)
      = (V c (Pipeline.arrRef spec8 5) : S1x128.Idx → EReal) (ix2 (0 : Fin 1) q) := by
  obtain ⟨-, -, -, -, -, -, -, -, -, -, e50, e51, -⟩ := index8 t
  unfold iblk8
  rw [View.read_apply]
  refine congrArg (V c (Pipeline.arrRef spec8 5) : S1x128.Idx → EReal) (funext fun a => Fin.ext ?_)
  match a with
  | ⟨0, _⟩ => show win8_5.index t (0 : Fin 2) * 1 + 1 * 0 = 0; omega
  | ⟨1, _⟩ => show win8_5.index t (1 : Fin 2) * 128 + 1 * q.val = q.val; omega

/-- Row p, column q of the output's block t sits at row 2000 t + p, column q of the output array. -/
theorem emb8_out (t : Fin cfg8.N) (p : Fin 2000) (q : Fin 128) :
    (((cfg8.win 6).blk t).view.emb (ix2 p q) : S20000x128.Idx) = ix2 ⟨2000 * t.val + p.val, row8_lt t p⟩ q := by
  obtain ⟨-, -, -, -, -, -, -, -, -, -, -, -, e60, e61⟩ := index8 t
  refine funext fun a => Fin.ext ?_
  match a with
  | ⟨0, _⟩ => show win8_6.index t (0 : Fin 2) * 2000 + 1 * p.val = 2000 * t.val + p.val; omega
  | ⟨1, _⟩ => show win8_6.index t (1 : Fin 2) * 128 + 1 * q.val = q.val; omega

/-- What point t writes back is block t of the stage of the six arrays as the region finds them. -/
theorem flushed8_eq (c : Dev nD) (t : Fin cfg8.N) :
    (dat8 (F := Ideal) V c).flushed 6 t = ((cfg8.win 6).blk t).view.read (Elt Ideal)
      (bn8 (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero zeros8]
  simp only [View.ld_unit_zero (S := S2000x128) zeros8, View.ld_unit_zero (S := S1x128) zeros8]
  funext j
  obtain ⟨p, q, rfl⟩ : ∃ (p : Fin 2000) (q : Fin 128), j = ix2 p q := ⟨j 0, j 1, eq_ix2 j⟩
  refine (pay8_apply _ _ _ _ _ _ p q).trans ?_
  rw [View.read_apply, emb8_out, bn8_apply, iblk8_0_apply, iblk8_1_apply, iblk8_2_apply, iblk8_3_apply, iblk8_4_apply, iblk8_5_apply]
  rfl

/-- An index of the output array is in point t's block exactly when each coordinate is in the block's range. -/
theorem mem_blk8 (t : Fin cfg8.N) (i : S20000x128.Idx) :
    i ∈ ((cfg8.win 6).blk t).view.set ↔ ∀ a : Fin 2, win8_6.index t a * S2000x128.size a ≤ (i a).val
      ∧ (i a).val < win8_6.index t a * S2000x128.size a + S2000x128.size a := by
  show i ∈ ((View.whole main_v65).slice (win8_6.rect t)).set ↔ _
  rw [View.set_slice_whole, Rect.mem_set_unit]
  exact Iff.rfl

/-- Every row of the output array is in some point's block: row P in the block of point P / 2000. -/
theorem cover8 (i : S20000x128.Idx) :
    ∃ t : Fin cfg8.N, (cfg8.win 6).flush t = true ∧ i ∈ ((cfg8.win 6).blk t).view.set := by
  have hi0 : (i 0).val < 20000 := (i 0).isLt
  have hi1 : (i 1).val < 128 := (i 1).isLt
  have hlt : (i 0).val / 2000 < cfg8.N := by rw [show cfg8.N = 10 from N_8]; omega
  obtain ⟨-, -, -, -, -, -, -, -, -, -, -, -, e60, e61⟩ := index8 ⟨(i 0).val / 2000, hlt⟩
  refine ⟨⟨(i 0).val / 2000, hlt⟩, flush8_6 _, ?_⟩
  rw [mem_blk8]
  intro a
  match a with
  | ⟨0, _⟩ =>
    show win8_6.index ⟨(i 0).val / 2000, hlt⟩ (0 : Fin 2) * 2000 ≤ (i 0).val
      ∧ (i 0).val < win8_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win8_6.index ⟨(i 0).val / 2000, hlt⟩ (1 : Fin 2) * 128 ≤ (i 1).val
      ∧ (i 1).val < win8_6.index ⟨(i 0).val / 2000, hlt⟩ (1 : Fin 2) * 128 + 128
    rw [e61]; omega

/-- The output array after the run is the stage of the six input arrays. -/
theorem final8 (c : Dev nD) : (dat8 (F := Ideal) V c).arrAt 6 cfg8.N
    = bn8 (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) :=
  (dat8 V c).arrAt_eq_of_cover 6 _ (fun t _ => flushed8_eq V c t) cover8

/-- The same, read as matrices and rows. -/
theorem arrAt8_out (c : Dev nD) :
    Cert.Stage.toMat ((dat8 (F := Ideal) V c).arrAt 6 cfg8.N)
      = Cert.Stage.bnRelu (Ideal.ofBits .f32 0x3727C5AC#32) (Cert.Stage.toMat (V c (Pipeline.arrRef spec8 0)))
          (Cert.Stage.toMat (V c (Pipeline.arrRef spec8 1))) (Cert.Stage.toRow1 (V c (Pipeline.arrRef spec8 2)))
          (Cert.Stage.toRow1 (V c (Pipeline.arrRef spec8 3))) (Cert.Stage.toRow1 (V c (Pipeline.arrRef spec8 4)))
          (Cert.Stage.toRow1 (V c (Pipeline.arrRef spec8 5))) := by
  rw [final8]
  rfl

end Region8

end Cert.KernelIdeal.RgVal

end
-- ==== Proof.Rg9Val.lean ====
import proofs.«418385_j87393994539142_1_alg».proof.Proof.Rg9
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 9 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 10 points tile the array. -/

/-! ## The matrix product of a row block at an entry -/

/-- On the result's row axis the left operand reads the result's row. -/
theorem lhs_mm9_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- On its column axis the left operand reads the contraction position. -/
theorem lhs_mm9_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
/-- On its row axis the right operand reads the contraction position. -/
theorem rhs_mm9_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
/-- On its column axis the right operand reads the result's column. -/
theorem rhs_mm9_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The product of a row block with the matrix into a zero accumulator, at entry (p, q): the inner product of
    row p of the block with column q of the matrix. -/
theorem mm9_apply {φ₁ φ₂ : FTy} (l : FVec Ideal S2000x128 φ₁) (r : FVec Ideal S128x512 φ₂) (p : Fin 2000) (q : Fin 512) :
    matmul dot_S2000x128_S128x512_S2000x512_1_0_0_1_n_n none l r (constant (F := Ideal) S2000x512 .f32 0x0#32) (ix2 p q)
      = ∑ k : Fin 128, l (ix2 p k) * r (ix2 k q) := by
  show FloatOps.matmul _ _ _ _ _ _ = _
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact lhs_mm9_0 _ _
    | ⟨1, _⟩ => exact (lhs_mm9_1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (rhs_mm9_0 _ _).trans hk
    | ⟨1, _⟩ => exact rhs_mm9_1 _ _)
  rw [el, er]

/-- The bias row spread over the block's rows, at entry (p, q): the row's entry q. -/
theorem bias9_apply (b : Vec Ideal S1x512 .f32) (p : Fin 2000) (q : Fin 512) :
    broadcastTo S2000x512 b broadcasts_S1x512_S2000x512 (ix2 p q) = b (ix2 (0 : Fin 1) q) :=
  broadcastTo_apply b broadcasts_S1x512_S2000x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The body's payload at entry (p, q) of the block: row p of the x block against column q of W, plus the
    bias at q. A change of float format is the identity on the extended reals, and so is a change of shape to
    the same shape. -/
theorem pay9_apply (x0 : Vec Ideal S2000x128 .f32) (x1 : Vec Ideal S128x512 .f32) (x2 : Vec Ideal S1x512 .f32) (p : Fin 2000) (q : Fin 512) :
    k9_pay1 (F := Ideal) x0 x1 x2 (ix2 p q) = (∑ k : Fin 128, x0 (ix2 p k) * x1 (ix2 k q)) + x2 (ix2 (0 : Fin 1) q) := by
  unfold k9_pay1
  simp only [shapeCast_self]
  rw [addf_apply, mm9_apply, bias9_apply]
  rfl

/-! ## The blocks over the grid -/

theorem hz9 : (![0, 0] : Fin 2 → Nat) = fun _ => 0 := funext fun a => by fin_cases a <;> rfl

/-- The windows' block indices over the grid: the x block and the output block sit at row block t, column
    block 0; W and the bias are at block (0, 0) at every point. -/
theorem idx_facts9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

/-- An index of the output array is in point t's block iff each coordinate is in the block's range. -/
theorem mem_blk9 (t : Fin cfg9.N) (i : S20000x512.Idx) :
    i ∈ ((cfg9.win 3).blk t).view.set ↔ ∀ a : Fin 2, win9_3.index t a * S2000x512.size a ≤ (i a).val ∧ (i a).val < win9_3.index t a * S2000x512.size a + S2000x512.size a := by
  show i ∈ ((View.whole main_v89).slice (win9_3.rect t)).set ↔ _
  rw [View.set_slice_whole, Rect.mem_set_unit]
  exact Iff.rfl

/-- Every row of the output array lies in the block of the point its row block names. -/
theorem cover9 (i : S20000x512.Idx) : ∃ t : Fin cfg9.N, (cfg9.win 3).flush t = true ∧ i ∈ ((cfg9.win 3).blk t).view.set := by
  have hi0 : (i 0).val < 20000 := (i 0).isLt
  have hi1 : (i 1).val < 512 := (i 1).isLt
  let t : Fin cfg9.N := ⟨(i 0).val / 2000, by show (i 0).val / 2000 < grid9.N; rw [N_9]; omega⟩
  obtain ⟨-, -, -, -, -, -, e6, e7⟩ := idx_facts9 t
  have ht : t.val = (i 0).val / 2000 := rfl
  refine ⟨t, flush9_3 t, ?_⟩
  rw [mem_blk9]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 512 ≤ (i 1).val ∧ (i 1).val < win9_3.index t (1 : Fin 2) * 512 + 512; omega

/-! ## The arrays after the run -/

/-- The affine map of whole arrays, index by index: entry i is the inner product of row i 0 of x with column
    i 1 of W, plus the bias at i 1. -/
def G9 (a0 : S20000x128.Idx → EReal) (a1 : S128x512.Idx → EReal) (a2 : S1x512.Idx → EReal) : S20000x512.Idx → EReal :=
  fun i => (∑ k : Fin 128, a0 (ix2 (n0 := 20000) (i 0) k) * a1 (ix2 k (n1 := 512) (i 1))) + a2 (ix2 (0 : Fin 1) (n1 := 512) (i 1))

section Region9
variable (V : (c : Dev nD) → (b : Ref sig .tc) → Buf (Elt Ideal) ((c : Thread nD τ).loc b))

/-- The array of x is never written back. -/
theorem arrAt9_in_0 (c : Dev nD) : (dat9 (F := Ideal) V c).arrAt 0 cfg9.N = V c (Pipeline.arrRef spec9 0) :=
  ((dat9 (F := Ideal) V c).arrAt_in 0 rfl _).trans (A_eq9 V c 0)
/-- The array of W is never written back. -/
theorem arrAt9_in_1 (c : Dev nD) : (dat9 (F := Ideal) V c).arrAt 1 cfg9.N = V c (Pipeline.arrRef spec9 1) :=
  ((dat9 (F := Ideal) V c).arrAt_in 1 rfl _).trans (A_eq9 V c 1)
/-- The array of the bias is never written back. -/
theorem arrAt9_in_2 (c : Dev nD) : (dat9 (F := Ideal) V c).arrAt 2 cfg9.N = V c (Pipeline.arrRef spec9 2) :=
  ((dat9 (F := Ideal) V c).arrAt_in 2 rfl _).trans (A_eq9 V c 2)

/-- What point t writes back is block t of the affine map of the arrays as the region finds them: the x block's
    row p is row p of the output block's row range, W and the bias are read whole. -/
theorem flushed9_eq (c : Dev nD) (t : Fin cfg9.N) :
    (dat9 (F := Ideal) V c).flushed 3 t = ((cfg9.win 3).blk t).view.read (Elt Ideal)
      (G9 (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero hz9]
  simp only [View.ld_unit_zero (S := S2000x128) hz9, View.ld_unit_zero (S := S128x512) hz9, View.ld_unit_zero (S := S1x512) hz9]
  obtain ⟨e0, e1, e2, e3, e4, e5, e6, e7⟩ := idx_facts9 t
  funext j
  obtain ⟨p, q, rfl⟩ : ∃ (p : Fin 2000) (q : Fin 512), j = ix2 p q := ⟨j 0, j 1, eq_ix2 j⟩
  refine (pay9_apply _ _ _ p q).trans ?_
  have hx : ∀ k : Fin 128, iblk9 V c 0 t (ix2 p k)
      = V c (Pipeline.arrRef spec9 0) (ix2 (n0 := 20000) ((((cfg9.win 3).blk t).view.emb (ix2 p q)) 0) k) := fun k => by
    show V c (Pipeline.arrRef spec9 0) (((cfg9.win 0).blk t).view.emb (ix2 p k)) = _
    refine congrArg _ (funext fun a => Fin.ext ?_)
    match a with
    | ⟨0, _⟩ => show win9_0.index t (0 : Fin 2) * 2000 + 1 * p.val = win9_3.index t (0 : Fin 2) * 2000 + 1 * p.val; omega
    | ⟨1, _⟩ => show win9_0.index t (1 : Fin 2) * 128 + 1 * k.val = k.val; omega
  have hw : ∀ k : Fin 128, iblk9 V c 1 t (ix2 k q)
      = V c (Pipeline.arrRef spec9 1) (ix2 k (n1 := 512) ((((cfg9.win 3).blk t).view.emb (ix2 p q)) 1)) := fun k => by
    show V c (Pipeline.arrRef spec9 1) (((cfg9.win 1).blk t).view.emb (ix2 k q)) = _
    refine congrArg _ (funext fun a => Fin.ext ?_)
    match a with
    | ⟨0, _⟩ => show win9_1.index t (0 : Fin 2) * 128 + 1 * k.val = k.val; omega
    | ⟨1, _⟩ => show win9_1.index t (1 : Fin 2) * 512 + 1 * q.val = win9_3.index t (1 : Fin 2) * 512 + 1 * q.val; omega
  have hb : iblk9 V c 2 t (ix2 (0 : Fin 1) q)
      = V c (Pipeline.arrRef spec9 2) (ix2 (0 : Fin 1) (n1 := 512) ((((cfg9.win 3).blk t).view.emb (ix2 p q)) 1)) := by
    show V c (Pipeline.arrRef spec9 2) (((cfg9.win 2).blk t).view.emb (ix2 (0 : Fin 1) q)) = _
    refine congrArg _ (funext fun a => Fin.ext ?_)
    match a with
    | ⟨0, _⟩ => show win9_2.index t (0 : Fin 2) * 1 + 1 * 0 = 0; omega
    | ⟨1, _⟩ => show win9_2.index t (1 : Fin 2) * 512 + 1 * q.val = win9_3.index t (1 : Fin 2) * 512 + 1 * q.val; omega
  rw [hb, Finset.sum_congr rfl fun k _ => by rw [hx k, hw k]]
  rfl

/-- The output array after the run is the affine map of the arrays as the region finds them. -/
theorem final9 (c : Dev nD) : (dat9 (F := Ideal) V c).arrAt 3 cfg9.N
    = G9 (V c (Pipeline.arrRef spec9 0)) (V c (Pipeline.arrRef spec9 1)) (V c (Pipeline.arrRef spec9 2)) :=
  (dat9 (F := Ideal) V c).arrAt_eq_of_cover 3 _ (fun t _ => flushed9_eq V c t) cover9

/-- The output array after the run, as a matrix: the affine map of rows of the matrices the input arrays hold. -/
theorem arrAt9_out (c : Dev nD) : Cert.Stage.toMat ((dat9 (F := Ideal) V c).arrAt 3 cfg9.N)
    = Cert.Stage.lin (Cert.Stage.toMat (V c (Pipeline.arrRef spec9 0))) (Cert.Stage.toMat (V c (Pipeline.arrRef spec9 1)))
        (Cert.Stage.toRow1 (V c (Pipeline.arrRef spec9 2))) := by
  rw [final9]
  rfl

end Region9

end Cert.KernelIdeal.RgVal

end
-- ==== Proof.Rg10Val.lean ====
import proofs.«418385_j87393994539142_1_alg».proof.Proof.Rg10
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 10 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 80 points tile the array. -/

/-! ## The matrix product of a row block at an entry -/

/-- On the result's row axis the left operand reads the result's row. -/
theorem lhs_mm10_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- On its column axis the left operand reads the contraction position. -/
theorem lhs_mm10_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- On its row axis the right operand reads the contraction position. -/
theorem rhs_mm10_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- On its column axis the right operand reads the result's column. -/
theorem rhs_mm10_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a row block with the matrix into a zero accumulator, at entry (p, q): the inner product of
    row p of the block with column q of the matrix. -/
theorem mm10_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x0#32) (ix2 p q)
      = ∑ k : Fin 128, l (ix2 p k) * r (ix2 k q) := by
  show FloatOps.matmul _ _ _ _ _ _ = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_mm10_0 _ _
    | ⟨1, _⟩ => exact (lhs_mm10_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_mm10_0 _ _).trans hk
    | ⟨1, _⟩ => exact rhs_mm10_1 _ _)
  rw [el, er]

/-- The bias row spread over the block's rows, at entry (p, q): the row's entry q. -/
theorem bias10_apply (b : Vec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's payload at entry (p, q) of the block: row p of the x block against column q of W, plus the
    bias at q. A change of float format is the identity on the extended reals, and so is a change of shape to
    the same shape. -/
theorem pay10_apply (x0 : Vec Ideal S4000x128 .f32) (x1 : Vec Ideal S128x128 .f32) (x2 : Vec Ideal S1x128 .f32) (p : Fin 4000) (q : Fin 128) :
    k10_pay1 (F := Ideal) x0 x1 x2 (ix2 p q) = (∑ k : Fin 128, x0 (ix2 p k) * x1 (ix2 k q)) + x2 (ix2 (0 : Fin 1) q) := by
  unfold k10_pay1
  simp only [shapeCast_self]
  rw [addf_apply, mm10_apply, bias10_apply]
  rfl

/-! ## The blocks over the grid -/

theorem hz10 : (![0, 0] : Fin 2 → Nat) = fun _ => 0 := funext fun a => by fin_cases a <;> rfl

/-- The windows' block indices over the grid: the x block and the output block sit at row block t, column
    block 0; W and the bias are at block (0, 0) at every point. -/
theorem idx_facts10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0 :=
  (by decide +kernel : ∀ t : Fin grid10.N, _)

/-- An index of the output array is in point t's block iff each coordinate is in the block's range. -/
theorem mem_blk10 (t : Fin cfg10.N) (i : S320000x128.Idx) :
    i ∈ ((cfg10.win 3).blk t).view.set ↔ ∀ a : Fin 2, win10_3.index t a * S4000x128.size a ≤ (i a).val ∧ (i a).val < win10_3.index t a * S4000x128.size a + S4000x128.size a := by
  show i ∈ ((View.whole main_v99).slice (win10_3.rect t)).set ↔ _
  rw [View.set_slice_whole, Rect.mem_set_unit]
  exact Iff.rfl

/-- Every row of the output array lies in the block of the point its row block names. -/
theorem cover10 (i : S320000x128.Idx) : ∃ t : Fin cfg10.N, (cfg10.win 3).flush t = true ∧ i ∈ ((cfg10.win 3).blk t).view.set := by
  have hi0 : (i 0).val < 320000 := (i 0).isLt
  have hi1 : (i 1).val < 128 := (i 1).isLt
  let t : Fin cfg10.N := ⟨(i 0).val / 4000, by show (i 0).val / 4000 < grid10.N; rw [N_10]; omega⟩
  obtain ⟨-, -, -, -, -, -, e6, e7⟩ := idx_facts10 t
  have ht : t.val = (i 0).val / 4000 := rfl
  refine ⟨t, flush10_3 t, ?_⟩
  rw [mem_blk10]
  intro a
  match a with
  | ⟨0, _⟩ => show win10_3.index t (0 : Fin 2) * 4000 ≤ (i 0).val ∧ (i 0).val < win10_3.index t (0 : Fin 2) * 4000 + 4000; omega
  | ⟨1, _⟩ => show win10_3.index t (1 : Fin 2) * 128 ≤ (i 1).val ∧ (i 1).val < win10_3.index t (1 : Fin 2) * 128 + 128; omega

/-! ## The arrays after the run -/

/-- The affine map of whole arrays, index by index: entry i is the inner product of row i 0 of x with column
    i 1 of W, plus the bias at i 1. -/
def G10 (a0 : S320000x128.Idx → EReal) (a1 : S128x128.Idx → EReal) (a2 : S1x128.Idx → EReal) : S320000x128.Idx → EReal :=
  fun i => (∑ k : Fin 128, a0 (ix2 (n0 := 320000) (i 0) k) * a1 (ix2 k (n1 := 128) (i 1))) + a2 (ix2 (0 : Fin 1) (n1 := 128) (i 1))

section Region10
variable (V : (c : Dev nD) → (b : Ref sig .tc) → Buf (Elt Ideal) ((c : Thread nD τ).loc b))

/-- The array of x is never written back. -/
theorem arrAt10_in_0 (c : Dev nD) : (dat10 (F := Ideal) V c).arrAt 0 cfg10.N = V c (Pipeline.arrRef spec10 0) :=
  ((dat10 (F := Ideal) V c).arrAt_in 0 rfl _).trans (A_eq10 V c 0)
/-- The array of W is never written back. -/
theorem arrAt10_in_1 (c : Dev nD) : (dat10 (F := Ideal) V c).arrAt 1 cfg10.N = V c (Pipeline.arrRef spec10 1) :=
  ((dat10 (F := Ideal) V c).arrAt_in 1 rfl _).trans (A_eq10 V c 1)
/-- The array of the bias is never written back. -/
theorem arrAt10_in_2 (c : Dev nD) : (dat10 (F := Ideal) V c).arrAt 2 cfg10.N = V c (Pipeline.arrRef spec10 2) :=
  ((dat10 (F := Ideal) V c).arrAt_in 2 rfl _).trans (A_eq10 V c 2)

/-- What point t writes back is block t of the affine map of the arrays as the region finds them: the x block's
    row p is row p of the output block's row range, W and the bias are read whole. -/
theorem flushed10_eq (c : Dev nD) (t : Fin cfg10.N) :
    (dat10 (F := Ideal) V c).flushed 3 t = ((cfg10.win 3).blk t).view.read (Elt Ideal)
      (G10 (V c (Pipeline.arrRef spec10 0)) (V c (Pipeline.arrRef spec10 1)) (V c (Pipeline.arrRef spec10 2))) := by
  show (cfg10.win 3).cut (grid10.coords t) ((dat10 (F := Ideal) V c).after 3 t) = _
  rw [after10_3]
  unfold out10_3
  rw [View.canon_unit_zero hz10]
  simp only [View.ld_unit_zero (S := S4000x128) hz10, View.ld_unit_zero (S := S128x128) hz10, View.ld_unit_zero (S := S1x128) hz10]
  obtain ⟨e0, e1, e2, e3, e4, e5, e6, e7⟩ := idx_facts10 t
  funext j
  obtain ⟨p, q, rfl⟩ : ∃ (p : Fin 4000) (q : Fin 128), j = ix2 p q := ⟨j 0, j 1, eq_ix2 j⟩
  refine (pay10_apply _ _ _ p q).trans ?_
  have hx : ∀ k : Fin 128, iblk10 V c 0 t (ix2 p k)
      = V c (Pipeline.arrRef spec10 0) (ix2 (n0 := 320000) ((((cfg10.win 3).blk t).view.emb (ix2 p q)) 0) k) := fun k => by
    show V c (Pipeline.arrRef spec10 0) (((cfg10.win 0).blk t).view.emb (ix2 p k)) = _
    refine congrArg _ (funext fun a => Fin.ext ?_)
    match a with
    | ⟨0, _⟩ => show win10_0.index t (0 : Fin 2) * 4000 + 1 * p.val = win10_3.index t (0 : Fin 2) * 4000 + 1 * p.val; omega
    | ⟨1, _⟩ => show win10_0.index t (1 : Fin 2) * 128 + 1 * k.val = k.val; omega
  have hw : ∀ k : Fin 128, iblk10 V c 1 t (ix2 k q)
      = V c (Pipeline.arrRef spec10 1) (ix2 k (n1 := 128) ((((cfg10.win 3).blk t).view.emb (ix2 p q)) 1)) := fun k => by
    show V c (Pipeline.arrRef spec10 1) (((cfg10.win 1).blk t).view.emb (ix2 k q)) = _
    refine congrArg _ (funext fun a => Fin.ext ?_)
    match a with
    | ⟨0, _⟩ => show win10_1.index t (0 : Fin 2) * 128 + 1 * k.val = k.val; omega
    | ⟨1, _⟩ => show win10_1.index t (1 : Fin 2) * 128 + 1 * q.val = win10_3.index t (1 : Fin 2) * 128 + 1 * q.val; omega
  have hb : iblk10 V c 2 t (ix2 (0 : Fin 1) q)
      = V c (Pipeline.arrRef spec10 2) (ix2 (0 : Fin 1) (n1 := 128) ((((cfg10.win 3).blk t).view.emb (ix2 p q)) 1)) := by
    show V c (Pipeline.arrRef spec10 2) (((cfg10.win 2).blk t).view.emb (ix2 (0 : Fin 1) q)) = _
    refine congrArg _ (funext fun a => Fin.ext ?_)
    match a with
    | ⟨0, _⟩ => show win10_2.index t (0 : Fin 2) * 1 + 1 * 0 = 0; omega
    | ⟨1, _⟩ => show win10_2.index t (1 : Fin 2) * 128 + 1 * q.val = win10_3.index t (1 : Fin 2) * 128 + 1 * q.val; omega
  rw [hb, Finset.sum_congr rfl fun k _ => by rw [hx k, hw k]]
  rfl

/-- The output array after the run is the affine map of the arrays as the region finds them. -/
theorem final10 (c : Dev nD) : (dat10 (F := Ideal) V c).arrAt 3 cfg10.N
    = G10 (V c (Pipeline.arrRef spec10 0)) (V c (Pipeline.arrRef spec10 1)) (V c (Pipeline.arrRef spec10 2)) :=
  (dat10 (F := Ideal) V c).arrAt_eq_of_cover 3 _ (fun t _ => flushed10_eq V c t) cover10

/-- The output array after the run, as a matrix: the affine map of rows of the matrices the input arrays hold. -/
theorem arrAt10_out (c : Dev nD) : Cert.Stage.toMat ((dat10 (F := Ideal) V c).arrAt 3 cfg10.N)
    = Cert.Stage.lin (Cert.Stage.toMat (V c (Pipeline.arrRef spec10 0))) (Cert.Stage.toMat (V c (Pipeline.arrRef spec10 1)))
        (Cert.Stage.toRow1 (V c (Pipeline.arrRef spec10 2))) := by
  rw [final10]
  rfl

end Region10

end Cert.KernelIdeal.RgVal

end
-- ==== Proof.Rg11Val.lean ====
/- What kernel region 11 (the gate kernel) leaves in its arrays, at the extended reals: the four input arrays are as the
   region found them; the first output array is the entrywise sum of the first three inputs, the second the logistic of
   that sum times the fourth input, both as whole 320000 x 128 matrices. Row r of an output is written by the grid point
   r / 4000, whose block is rows 4000 t … 4000 t + 3999 of each array. -/
import proofs.«418385_j87393994539142_1_alg».proof.Proof.Rg11
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region11
variable (V : (c : Dev nD) → (b : Ref sig .tc) → Buf (Elt Ideal) ((c : Thread nD τ).loc b))

/-! # The input arrays are never written back -/

theorem arrAt11_in_0 (c : Dev nD) : (dat11 (F := Ideal) V c).arrAt 0 cfg11.N = V c (Pipeline.arrRef spec11 0) :=
  ((dat11 (F := Ideal) V c).arrAt_in 0 rfl cfg11.N).trans (A_eq11 V c 0)
theorem arrAt11_in_1 (c : Dev nD) : (dat11 (F := Ideal) V c).arrAt 1 cfg11.N = V c (Pipeline.arrRef spec11 1) :=
  ((dat11 (F := Ideal) V c).arrAt_in 1 rfl cfg11.N).trans (A_eq11 V c 1)
theorem arrAt11_in_2 (c : Dev nD) : (dat11 (F := Ideal) V c).arrAt 2 cfg11.N = V c (Pipeline.arrRef spec11 2) :=
  ((dat11 (F := Ideal) V c).arrAt_in 2 rfl cfg11.N).trans (A_eq11 V c 2)
theorem arrAt11_in_3 (c : Dev nD) : (dat11 (F := Ideal) V c).arrAt 3 cfg11.N = V c (Pipeline.arrRef spec11 3) :=
  ((dat11 (F := Ideal) V c).arrAt_in 3 rfl cfg11.N).trans (A_eq11 V c 3)

/-! # The output arrays as functions of the input arrays, index by index -/

/-- The zero offsets of a whole-block rectangle. -/
theorem hz11 : (![0, 0] : Fin 2 → Nat) = fun _ => 0 := funext fun a => by fin_cases a <;> rfl

/-- The pre-activation array: the entrywise sum of three arrays. -/
def sum3_11 (a0 a1 a2 : S320000x128.Idx → EReal) : S320000x128.Idx → EReal := fun i => a0 i + a1 i + a2 i

/-- The message array: the logistic of the pre-activation times a fourth array, entrywise. -/
def gated11 (a0 a1 a2 a3 : S320000x128.Idx → EReal) : S320000x128.Idx → EReal :=
  fun i => Ideal.logistic (a0 i + a1 i + a2 i) * a3 i

/-- The body's first payload is the entrywise sum of its three loaded blocks. -/
theorem pay1_11_eq (x0 x1 x2 : Vec Ideal S4000x128 .f32) :
    k11_pay1 x0 x1 x2 = fun j => x0 j + x1 j + x2 j := by
  unfold k11_pay1
  simp only [shapeCast_self]
  rfl

/-- The body's second payload is the logistic of that sum times the fourth loaded block, entrywise. -/
theorem pay2_11_eq (x0 x1 x2 x3 : Vec Ideal S4000x128 .f32) :
    k11_pay2 x0 x1 x2 x3 = fun j => Ideal.logistic (x0 j + x1 j + x2 j) * x3 j := by
  unfold k11_pay2
  rw [pay1_11_eq]
  simp only [shapeCast_self]
  rfl

/-- Every window's block at grid point t is row block t, column block 0 (decided over the 80 points). -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0 :=
  (by decide +kernel : ∀ t : Fin grid11.N, _)

/-- An index of window w's block at point t sits in the array where the same index of window w' 's block does. -/
theorem emb11_0_4 (t : Fin cfg11.N) (j : S4000x128.Idx) : ((cfg11.win 0).blk t).view.emb j = ((cfg11.win 4).blk t).view.emb j := by
  obtain ⟨a0, a1, b0, b1, c0, c1, d0, d1, e0, e1, f0, f1⟩ := idx_facts11 t
  funext a; apply Fin.ext
  match a with
  | ⟨0, _⟩ => show win11_0.index t (0 : Fin 2) * 4000 + 1 * (j 0).val = win11_4.index t (0 : Fin 2) * 4000 + 1 * (j 0).val; omega
  | ⟨1, _⟩ => show win11_0.index t (1 : Fin 2) * 128 + 1 * (j 1).val = win11_4.index t (1 : Fin 2) * 128 + 1 * (j 1).val; omega
theorem emb11_1_4 (t : Fin cfg11.N) (j : S4000x128.Idx) : ((cfg11.win 1).blk t).view.emb j = ((cfg11.win 4).blk t).view.emb j := by
  obtain ⟨a0, a1, b0, b1, c0, c1, d0, d1, e0, e1, f0, f1⟩ := idx_facts11 t
  funext a; apply Fin.ext
  match a with
  | ⟨0, _⟩ => show win11_1.index t (0 : Fin 2) * 4000 + 1 * (j 0).val = win11_4.index t (0 : Fin 2) * 4000 + 1 * (j 0).val; omega
  | ⟨1, _⟩ => show win11_1.index t (1 : Fin 2) * 128 + 1 * (j 1).val = win11_4.index t (1 : Fin 2) * 128 + 1 * (j 1).val; omega
theorem emb11_2_4 (t : Fin cfg11.N) (j : S4000x128.Idx) : ((cfg11.win 2).blk t).view.emb j = ((cfg11.win 4).blk t).view.emb j := by
  obtain ⟨a0, a1, b0, b1, c0, c1, d0, d1, e0, e1, f0, f1⟩ := idx_facts11 t
  funext a; apply Fin.ext
  match a with
  | ⟨0, _⟩ => show win11_2.index t (0 : Fin 2) * 4000 + 1 * (j 0).val = win11_4.index t (0 : Fin 2) * 4000 + 1 * (j 0).val; omega
  | ⟨1, _⟩ => show win11_2.index t (1 : Fin 2) * 128 + 1 * (j 1).val = win11_4.index t (1 : Fin 2) * 128 + 1 * (j 1).val; omega
theorem emb11_0_5 (t : Fin cfg11.N) (j : S4000x128.Idx) : ((cfg11.win 0).blk t).view.emb j = ((cfg11.win 5).blk t).view.emb j := by
  obtain ⟨a0, a1, b0, b1, c0, c1, d0, d1, e0, e1, f0, f1⟩ := idx_facts11 t
  funext a; apply Fin.ext
  match a with
  | ⟨0, _⟩ => show win11_0.index t (0 : Fin 2) * 4000 + 1 * (j 0).val = win11_5.index t (0 : Fin 2) * 4000 + 1 * (j 0).val; omega
  | ⟨1, _⟩ => show win11_0.index t (1 : Fin 2) * 128 + 1 * (j 1).val = win11_5.index t (1 : Fin 2) * 128 + 1 * (j 1).val; omega
theorem emb11_1_5 (t : Fin cfg11.N) (j : S4000x128.Idx) : ((cfg11.win 1).blk t).view.emb j = ((cfg11.win 5).blk t).view.emb j := by
  obtain ⟨a0, a1, b0, b1, c0, c1, d0, d1, e0, e1, f0, f1⟩ := idx_facts11 t
  funext a; apply Fin.ext
  match a with
  | ⟨0, _⟩ => show win11_1.index t (0 : Fin 2) * 4000 + 1 * (j 0).val = win11_5.index t (0 : Fin 2) * 4000 + 1 * (j 0).val; omega
  | ⟨1, _⟩ => show win11_1.index t (1 : Fin 2) * 128 + 1 * (j 1).val = win11_5.index t (1 : Fin 2) * 128 + 1 * (j 1).val; omega
theorem emb11_2_5 (t : Fin cfg11.N) (j : S4000x128.Idx) : ((cfg11.win 2).blk t).view.emb j = ((cfg11.win 5).blk t).view.emb j := by
  obtain ⟨a0, a1, b0, b1, c0, c1, d0, d1, e0, e1, f0, f1⟩ := idx_facts11 t
  funext a; apply Fin.ext
  match a with
  | ⟨0, _⟩ => show win11_2.index t (0 : Fin 2) * 4000 + 1 * (j 0).val = win11_5.index t (0 : Fin 2) * 4000 + 1 * (j 0).val; omega
  | ⟨1, _⟩ => show win11_2.index t (1 : Fin 2) * 128 + 1 * (j 1).val = win11_5.index t (1 : Fin 2) * 128 + 1 * (j 1).val; omega
theorem emb11_3_5 (t : Fin cfg11.N) (j : S4000x128.Idx) : ((cfg11.win 3).blk t).view.emb j = ((cfg11.win 5).blk t).view.emb j := by
  obtain ⟨a0, a1, b0, b1, c0, c1, d0, d1, e0, e1, f0, f1⟩ := idx_facts11 t
  funext a; apply Fin.ext
  match a with
  | ⟨0, _⟩ => show win11_3.index t (0 : Fin 2) * 4000 + 1 * (j 0).val = win11_5.index t (0 : Fin 2) * 4000 + 1 * (j 0).val; omega
  | ⟨1, _⟩ => show win11_3.index t (1 : Fin 2) * 128 + 1 * (j 1).val = win11_5.index t (1 : Fin 2) * 128 + 1 * (j 1).val; omega

/-- Block t of the entrywise sum of three arrays is the body's first payload of their blocks at t. -/
theorem blk11_sum3 (a0 a1 a2 : S320000x128.Idx → EReal) (t : Fin cfg11.N) :
    k11_pay1 (F := Ideal) (((cfg11.win 0).blk t).view.read (Elt Ideal) a0) (((cfg11.win 1).blk t).view.read (Elt Ideal) a1)
        (((cfg11.win 2).blk t).view.read (Elt Ideal) a2)
      = ((cfg11.win 4).blk t).view.read (Elt Ideal) (sum3_11 a0 a1 a2) := by
  rw [pay1_11_eq]
  funext j
  show a0 (((cfg11.win 0).blk t).view.emb j) + a1 (((cfg11.win 1).blk t).view.emb j) + a2 (((cfg11.win 2).blk t).view.emb j)
    = a0 (((cfg11.win 4).blk t).view.emb j) + a1 (((cfg11.win 4).blk t).view.emb j) + a2 (((cfg11.win 4).blk t).view.emb j)
  rw [emb11_0_4, emb11_1_4, emb11_2_4]

/-- Block t of the gated message of four arrays is the body's second payload of their blocks at t. -/
theorem blk11_gated (a0 a1 a2 a3 : S320000x128.Idx → EReal) (t : Fin cfg11.N) :
    k11_pay2 (F := Ideal) (((cfg11.win 0).blk t).view.read (Elt Ideal) a0) (((cfg11.win 1).blk t).view.read (Elt Ideal) a1)
        (((cfg11.win 2).blk t).view.read (Elt Ideal) a2) (((cfg11.win 3).blk t).view.read (Elt Ideal) a3)
      = ((cfg11.win 5).blk t).view.read (Elt Ideal) (gated11 a0 a1 a2 a3) := by
  rw [pay2_11_eq]
  funext j
  show Ideal.logistic (a0 (((cfg11.win 0).blk t).view.emb j) + a1 (((cfg11.win 1).blk t).view.emb j) + a2 (((cfg11.win 2).blk t).view.emb j))
      * a3 (((cfg11.win 3).blk t).view.emb j)
    = Ideal.logistic (a0 (((cfg11.win 5).blk t).view.emb j) + a1 (((cfg11.win 5).blk t).view.emb j) + a2 (((cfg11.win 5).blk t).view.emb j))
      * a3 (((cfg11.win 5).blk t).view.emb j)
  rw [emb11_0_5, emb11_1_5, emb11_2_5, emb11_3_5]

/-- What point t writes back to the first output array is block t of the sum of the three input arrays. -/
theorem flushed11_4_eq (c : Dev nD) (t : Fin cfg11.N) :
    (dat11 (F := Ideal) V c).flushed 4 t = ((cfg11.win 4).blk t).view.read (Elt Ideal)
      (sum3_11 (V c (Pipeline.arrRef spec11 0)) (V c (Pipeline.arrRef spec11 1)) (V c (Pipeline.arrRef spec11 2))) := by
  show (cfg11.win 4).cut (grid11.coords t) ((dat11 (F := Ideal) V c).after 4 t) = _
  rw [after11_4]
  unfold out11_4
  rw [View.canon_unit_zero hz11]
  simp only [View.ld_unit_zero (S := S4000x128) hz11]
  unfold iblk11
  exact blk11_sum3 _ _ _ t

/-- What point t writes back to the second output array is block t of the gated message of the four input arrays. -/
theorem flushed11_5_eq (c : Dev nD) (t : Fin cfg11.N) :
    (dat11 (F := Ideal) V c).flushed 5 t = ((cfg11.win 5).blk t).view.read (Elt Ideal)
      (gated11 (V c (Pipeline.arrRef spec11 0)) (V c (Pipeline.arrRef spec11 1)) (V c (Pipeline.arrRef spec11 2)) (V c (Pipeline.arrRef spec11 3))) := by
  show (cfg11.win 5).cut (grid11.coords t) ((dat11 (F := Ideal) V c).after 5 t) = _
  rw [after11_5]
  unfold out11_5
  rw [View.canon_unit_zero hz11]
  simp only [View.ld_unit_zero (S := S4000x128) hz11]
  unfold iblk11
  exact blk11_gated _ _ _ _ t

/-- An index of the array is in point t's block of an output window iff each coordinate is in the block's range. -/
theorem mem_blk11_4 (t : Fin cfg11.N) (i : S320000x128.Idx) :
    i ∈ ((cfg11.win 4).blk t).view.set ↔ ∀ a : Fin 2, win11_4.index t a * S4000x128.size a ≤ (i a).val ∧ (i a).val < win11_4.index t a * S4000x128.size a + S4000x128.size a := by
  show i ∈ ((View.whole main_v103_0).slice (win11_4.rect t)).set ↔ _
  rw [View.set_slice_whole, Rect.mem_set_unit]
  exact Iff.rfl
theorem mem_blk11_5 (t : Fin cfg11.N) (i : S320000x128.Idx) :
    i ∈ ((cfg11.win 5).blk t).view.set ↔ ∀ a : Fin 2, win11_5.index t a * S4000x128.size a ≤ (i a).val ∧ (i a).val < win11_5.index t a * S4000x128.size a + S4000x128.size a := by
  show i ∈ ((View.whole main_v103_1).slice (win11_5.rect t)).set ↔ _
  rw [View.set_slice_whole, Rect.mem_set_unit]
  exact Iff.rfl

/-- Row r of an output array lies in the block of the point r / 4000. -/
theorem cover11_4 (i : S320000x128.Idx) : ∃ t : Fin cfg11.N, (cfg11.win 4).flush t = true ∧ i ∈ ((cfg11.win 4).blk t).view.set := by
  have hi0 : (i 0).val < 320000 := (i 0).isLt
  have hi1 : (i 1).val < 128 := (i 1).isLt
  have hN : cfg11.N = 80 := N_11
  let t : Fin cfg11.N := ⟨(i 0).val / 4000, by rw [hN]; omega⟩
  have ht : t.val = (i 0).val / 4000 := rfl
  obtain ⟨a0, a1, b0, b1, c0, c1, d0, d1, e0, e1, f0, f1⟩ := idx_facts11 t
  refine ⟨t, flush11_4 t, ?_⟩
  rw [mem_blk11_4]
  intro a
  match a with
  | ⟨0, _⟩ => show win11_4.index t (0 : Fin 2) * 4000 ≤ (i 0).val ∧ (i 0).val < win11_4.index t (0 : Fin 2) * 4000 + 4000; omega
  | ⟨1, _⟩ => show win11_4.index t (1 : Fin 2) * 128 ≤ (i 1).val ∧ (i 1).val < win11_4.index t (1 : Fin 2) * 128 + 128; omega
theorem cover11_5 (i : S320000x128.Idx) : ∃ t : Fin cfg11.N, (cfg11.win 5).flush t = true ∧ i ∈ ((cfg11.win 5).blk t).view.set := by
  have hi0 : (i 0).val < 320000 := (i 0).isLt
  have hi1 : (i 1).val < 128 := (i 1).isLt
  have hN : cfg11.N = 80 := N_11
  let t : Fin cfg11.N := ⟨(i 0).val / 4000, by rw [hN]; omega⟩
  have ht : t.val = (i 0).val / 4000 := rfl
  obtain ⟨a0, a1, b0, b1, c0, c1, d0, d1, e0, e1, f0, f1⟩ := idx_facts11 t
  refine ⟨t, flush11_5 t, ?_⟩
  rw [mem_blk11_5]
  intro a
  match a with
  | ⟨0, _⟩ => show win11_5.index t (0 : Fin 2) * 4000 ≤ (i 0).val ∧ (i 0).val < win11_5.index t (0 : Fin 2) * 4000 + 4000; omega
  | ⟨1, _⟩ => show win11_5.index t (1 : Fin 2) * 128 ≤ (i 1).val ∧ (i 1).val < win11_5.index t (1 : Fin 2) * 128 + 128; omega

/-- The first output array after the run: the sum of the three input arrays. -/
theorem final11_4 (c : Dev nD) : (dat11 (F := Ideal) V c).arrAt 4 cfg11.N
    = sum3_11 (V c (Pipeline.arrRef spec11 0)) (V c (Pipeline.arrRef spec11 1)) (V c (Pipeline.arrRef spec11 2)) :=
  (dat11 (F := Ideal) V c).arrAt_eq_of_cover 4 _ (fun t _ => flushed11_4_eq V c t) cover11_4

/-- The second output array after the run: the gated message of the four input arrays. -/
theorem final11_5 (c : Dev nD) : (dat11 (F := Ideal) V c).arrAt 5 cfg11.N
    = gated11 (V c (Pipeline.arrRef spec11 0)) (V c (Pipeline.arrRef spec11 1)) (V c (Pipeline.arrRef spec11 2)) (V c (Pipeline.arrRef spec11 3)) :=
  (dat11 (F := Ideal) V c).arrAt_eq_of_cover 5 _ (fun t _ => flushed11_5_eq V c t) cover11_5

/-- The first output array, as a matrix, is the edge pre-activation of the three input matrices. -/
theorem arrAt11_out4 (c : Dev nD) :
    Cert.Stage.toMat ((dat11 (F := Ideal) V c).arrAt 4 cfg11.N)
      = Cert.Stage.ehat (Cert.Stage.toMat (V c (Pipeline.arrRef spec11 0))) (Cert.Stage.toMat (V c (Pipeline.arrRef spec11 1)))
          (Cert.Stage.toMat (V c (Pipeline.arrRef spec11 2))) := by
  rw [final11_4]; rfl

/-- The second output array, as a matrix, is the gated message of that pre-activation and the fourth input matrix. -/
theorem arrAt11_out5 (c : Dev nD) :
    Cert.Stage.toMat ((dat11 (F := Ideal) V c).arrAt 5 cfg11.N)
      = Cert.Stage.msg (Cert.Stage.ehat (Cert.Stage.toMat (V c (Pipeline.arrRef spec11 0))) (Cert.Stage.toMat (V c (Pipeline.arrRef spec11 1)))
          (Cert.Stage.toMat (V c (Pipeline.arrRef spec11 2)))) (Cert.Stage.toMat (V c (Pipeline.arrRef spec11 3))) := by
  rw [final11_5]; rfl

end Region11

end Cert.KernelIdeal.RgVal

end
-- ==== Proof.Rg12Val.lean ====
/-
  Region 12 of the kernel program, its values at the extended reals: the two output rows the region leaves are the
  column mean of its 320000 x 128 input over all rows and the column variance as mean of squares minus squared mean.
  The 80 block sums of 4000 rows regroup into one sum over 320000 rows (row = 4000 * block + offset); addition of
  extended reals is commutative and associative, so no finiteness is needed.
-/
import proofs.«418385_j87393994539142_1_alg».proof.Proof.Rg12
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.RgVal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx
open Cert.KernelIdeal Cert.KernelIdeal.Gen Cert.KernelIdeal.Rg
open scoped BigOperators

theorem hz12 : (![0, 0] : Fin 2 → Nat) = fun _ => 0 := funext fun a => by fin_cases a <;> rfl

/-- The row count 320000 as the kernel's f32 literal. -/
abbrev cnt12 : EReal := Ideal.ofBits .f32 0x489C4000#32

/-- Summing 80 blocks of 4000 consecutive terms is summing all 320000 terms (row = 4000 * block + offset). -/
theorem sum_blocks12 {M : Type} [AddCommMonoid M] (f : Fin 320000 → M) :
    ∑ s : Fin 80, ∑ r : Fin 4000, f ⟨4000 * s.val + r.val, by have := s.isLt; have := r.isLt; omega⟩ = ∑ i : Fin 320000, f i := by
  have e := Equiv.sum_comp (finProdFinEquiv : Fin 80 × Fin 4000 ≃ Fin (80 * 4000)) f
  rw [← e, Fintype.sum_prod_type]
  refine Finset.sum_congr rfl fun s _ => Finset.sum_congr rfl fun r _ => congrArg f (Fin.ext ?_)
  show 4000 * s.val + r.val = r.val + 4000 * s.val
  omega

/-- A lane sum over the 4000 rows of a block, at column q. -/
theorem colsum12_apply (x : FVec Ideal S4000x128 .f32) (hφ : FKind.Formats .f32)
    (hacc : (0x00000000#32 : BitVec FTy.f32.bits) = FKind.add.neutral .f32 hφ) (q : Fin 128) :
    multiReduction (F := Ideal) .add [0] S128 x 0x00000000#32 reduces_S4000x128_S128 hφ hacc (ix1 q) = ∑ r : Fin 4000, x (ix2 r q) := by
  refine (Ideal.multiReduction_add_single x 0x00000000#32 reduces_S4000x128_S128 hφ hacc (ix1 q)).trans ?_
  exact Finset.sum_congr rfl fun r _ => congrArg x (funext fun a => by match a with | ⟨0, _⟩ => rfl | ⟨1, _⟩ => rfl)

theorem payZ0_12_apply (q : Fin 128) : k12_pay1 (F := Ideal) (ix2 (0 : Fin 1) q) = 0 := by
  unfold k12_pay1
  simp only [shapeCast_self, broadcast_apply]
  exact Ideal.ofBits_zero_f32
theorem payZ1_12_apply (q : Fin 128) : k12_pay2 (F := Ideal) (ix2 (0 : Fin 1) q) = 0 := by
  unfold k12_pay2
  simp only [shapeCast_self, broadcast_apply]
  exact Ideal.ofBits_zero_f32

theorem payAdd_12_apply (x : Vec Ideal S4000x128 .f32) (s : Vec Ideal S1x128 .f32) (q : Fin 128) :
    k12_pay4 (F := Ideal) x s (ix2 (0 : Fin 1) q) = s (ix2 0 q) + ∑ r : Fin 4000, x (ix2 r q) := by
  unfold k12_pay4 k12_pay3
  simp only [shapeCast_self, addf_apply]
  rw [shapeCast_a_1a_apply]
  exact congrArg _ (colsum12_apply _ _ _ q)

theorem paySq_12_apply (x : Vec Ideal S4000x128 .f32) (s : Vec Ideal S1x128 .f32) (q : Fin 128) :
    k12_pay5 (F := Ideal) x s (ix2 (0 : Fin 1) q) = s (ix2 0 q) + ∑ r : Fin 4000, x (ix2 r q) * x (ix2 r q) := by
  unfold k12_pay5 k12_pay3
  simp only [shapeCast_self, addf_apply]
  rw [shapeCast_a_1a_apply]
  refine congrArg _ ((colsum12_apply _ _ _ q).trans ?_)
  exact Finset.sum_congr rfl fun r _ => mulf_apply _ _ _

theorem payMean_12_apply (s : Vec Ideal S1x128 .f32) (q : Fin 128) :
    k12_pay6 (F := Ideal) s (ix2 (0 : Fin 1) q) = Ideal.div (s (ix2 0 q)) cnt12 := by
  unfold k12_pay6
  simp only [divf_apply, broadcast_apply]
  rfl

theorem payVar_12_apply (s0 s1 : Vec Ideal S1x128 .f32) (q : Fin 128) :
    k12_pay7 (F := Ideal) s0 s1 (ix2 (0 : Fin 1) q)
      = Ideal.div (s1 (ix2 0 q)) cnt12 - Ideal.div (s0 (ix2 0 q)) cnt12 * Ideal.div (s0 (ix2 0 q)) cnt12 := by
  unfold k12_pay7
  simp only [subf_apply, mulf_apply, divf_apply, broadcast_apply, payMean_12_apply]
  rfl

theorem init12_0_apply (q : Fin 128) : init12_0 (F := Ideal) (ix2 (0 : Fin 1) q) = 0 := by
  unfold init12_0; rw [View.canon_unit_zero hz12]; exact payZ0_12_apply q
theorem init12_1_apply (q : Fin 128) : init12_1 (F := Ideal) (ix2 (0 : Fin 1) q) = 0 := by
  unfold init12_1; rw [View.canon_unit_zero hz12]; exact payZ1_12_apply q

theorem step12_0_apply (x : Vec Ideal S4000x128 .f32) (s : Vec Ideal S1x128 .f32) (q : Fin 128) :
    step12_0 x s (ix2 (0 : Fin 1) q) = s (ix2 0 q) + ∑ r : Fin 4000, x (ix2 r q) := by
  unfold step12_0; rw [View.canon_unit_zero hz12]
  simp only [View.ld_unit_zero (S := S4000x128) hz12, View.ld_unit_zero (S := S1x128) hz12]
  exact payAdd_12_apply x s q
theorem step12_1_apply (x : Vec Ideal S4000x128 .f32) (s : Vec Ideal S1x128 .f32) (q : Fin 128) :
    step12_1 x s (ix2 (0 : Fin 1) q) = s (ix2 0 q) + ∑ r : Fin 4000, x (ix2 r q) * x (ix2 r q) := by
  unfold step12_1; rw [View.canon_unit_zero hz12]
  simp only [View.ld_unit_zero (S := S4000x128) hz12, View.ld_unit_zero (S := S1x128) hz12]
  exact paySq_12_apply x s q
theorem out12_1_apply (s : Vec Ideal S1x128 .f32) (q : Fin 128) :
    out12_1 s (ix2 (0 : Fin 1) q) = Ideal.div (s (ix2 0 q)) cnt12 := by
  unfold out12_1; rw [View.canon_unit_zero hz12]
  simp only [View.ld_unit_zero (S := S1x128) hz12]
  exact payMean_12_apply s q
theorem out12_2_apply (s0 s1 : Vec Ideal S1x128 .f32) (q : Fin 128) :
    out12_2 s0 s1 (ix2 (0 : Fin 1) q)
      = Ideal.div (s1 (ix2 0 q)) cnt12 - Ideal.div (s0 (ix2 0 q)) cnt12 * Ideal.div (s0 (ix2 0 q)) cnt12 := by
  unfold out12_2; rw [View.canon_unit_zero hz12]
  simp only [View.ld_unit_zero (S := S1x128) hz12]
  exact payVar_12_apply s0 s1 q

section Regions
variable (V : (c : Dev nD) → (b : Ref sig .tc) → Buf (Elt Ideal) ((c : Thread nD τ).loc b))

/-- The input array is never written back. -/
theorem arrAt12_in_0 (c : Dev nD) : (dat12 (F := Ideal) V c).arrAt 0 cfg12.N = V c (Pipeline.arrRef spec12 0) :=
  ((dat12 (F := Ideal) V c).arrAt_in 0 rfl cfg12.N).trans (A_eq12 V c 0)

/-- The block index maps over the grid: the input's row block is the point, its column block 0; each output row is one block. -/
theorem idx12_0 : ∀ t : Fin cfg12.N, win12_0.index t (0 : Fin 2) = t.val ∧ win12_0.index t (1 : Fin 2) = 0 :=
  (by decide +kernel : ∀ t : Fin grid12.N, win12_0.index t (0 : Fin 2) = t.val ∧ win12_0.index t (1 : Fin 2) = 0)
theorem idx12_1 : ∀ t : Fin cfg12.N, win12_1.index t (0 : Fin 2) = 0 ∧ win12_1.index t (1 : Fin 2) = 0 :=
  (by decide +kernel : ∀ t : Fin grid12.N, win12_1.index t (0 : Fin 2) = 0 ∧ win12_1.index t (1 : Fin 2) = 0)
theorem idx12_2 : ∀ t : Fin cfg12.N, win12_2.index t (0 : Fin 2) = 0 ∧ win12_2.index t (1 : Fin 2) = 0 :=
  (by decide +kernel : ∀ t : Fin grid12.N, win12_2.index t (0 : Fin 2) = 0 ∧ win12_2.index t (1 : Fin 2) = 0)

/-- The input array, indexed by row and column. -/
abbrev X12in (c : Dev nD) : S320000x128.Idx → EReal := V c (Pipeline.arrRef spec12 0)

/-- The input's block at a point, indexed by row and column. -/
abbrev blk12 (c : Dev nD) (t : Fin cfg12.N) : S4000x128.Idx → EReal := iblk12 V c 0 t

/-- Row r of block t is row 4000 t + r of the array. -/
theorem iblk12_0_apply (c : Dev nD) (t : Fin cfg12.N) (r : Fin 4000) (q : Fin 128) :
    blk12 V c t (ix2 r q)
      = X12in V c (ix2 ⟨4000 * t.val + r.val, by have := lt_of_lt_of_eq t.isLt (show cfg12.N = 80 from N_12); have := r.isLt; omega⟩ q) := by
  show V c (Pipeline.arrRef spec12 0) (((cfg12.win 0).blk t).view.emb (ix2 r q)) = V c (Pipeline.arrRef spec12 0) _
  refine congrArg _ (funext fun a => Fin.ext ?_)
  match a with
  | ⟨0, _⟩ => show win12_0.index t (0 : Fin 2) * 4000 + 1 * r.val = 4000 * t.val + r.val; have := (idx12_0 t).1; omega
  | ⟨1, _⟩ => show win12_0.index t (1 : Fin 2) * 128 + 1 * q.val = q.val; have := (idx12_0 t).2; omega

/-- Block s's column sums, of the entries and of their squares (zero past the grid). -/
def bsum12 (c : Dev nD) (q : Fin 128) (s : ℕ) : EReal :=
  if h : s < cfg12.N then ∑ r : Fin 4000, blk12 V c ⟨s, h⟩ (ix2 r q) else 0
def bsq12 (c : Dev nD) (q : Fin 128) (s : ℕ) : EReal :=
  if h : s < cfg12.N then ∑ r : Fin 4000, blk12 V c ⟨s, h⟩ (ix2 r q) * blk12 V c ⟨s, h⟩ (ix2 r q) else 0

theorem acc12_at_zero (c : Dev nD) (hn : 0 < cfg12.N) :
    acc12 V c 0 hn = (step12_0 (iblk12 V c 0 ⟨0, hn⟩) init12_0, step12_1 (iblk12 V c 0 ⟨0, hn⟩) init12_1) := rfl
theorem acc12_at_succ (c : Dev nD) (n : ℕ) (hn : n + 1 < cfg12.N) :
    acc12 V c (n + 1) hn = (step12_0 (iblk12 V c 0 ⟨n + 1, hn⟩) (acc12 V c n (Nat.lt_of_succ_lt hn)).1,
      step12_1 (iblk12 V c 0 ⟨n + 1, hn⟩) (acc12 V c n (Nat.lt_of_succ_lt hn)).2) := rfl

/-- The running rows after point n are the sums of the blocks' column sums up to n. -/
theorem acc12_fst (c : Dev nD) (q : Fin 128) : ∀ (n : ℕ) (hn : n < cfg12.N),
    (acc12 V c n hn).1 (ix2 (0 : Fin 1) q) = ∑ s ∈ Finset.range (n + 1), bsum12 V c q s
  | 0, hn => by
    rw [acc12_at_zero, Finset.sum_range_one]
    refine (step12_0_apply (iblk12 V c 0 ⟨0, hn⟩) init12_0 q).trans ?_
    rw [init12_0_apply, zero_add]; unfold bsum12; rw [dif_pos hn]
  | n + 1, hn => by
    rw [acc12_at_succ, Finset.sum_range_succ, ← acc12_fst c q n (Nat.lt_of_succ_lt hn)]
    refine (step12_0_apply (iblk12 V c 0 ⟨n + 1, hn⟩) _ q).trans ?_
    unfold bsum12; rw [dif_pos hn]
theorem acc12_snd (c : Dev nD) (q : Fin 128) : ∀ (n : ℕ) (hn : n < cfg12.N),
    (acc12 V c n hn).2 (ix2 (0 : Fin 1) q) = ∑ s ∈ Finset.range (n + 1), bsq12 V c q s
  | 0, hn => by
    rw [acc12_at_zero, Finset.sum_range_one]
    refine (step12_1_apply (iblk12 V c 0 ⟨0, hn⟩) init12_1 q).trans ?_
    rw [init12_1_apply, zero_add]; unfold bsq12; rw [dif_pos hn]
  | n + 1, hn => by
    rw [acc12_at_succ, Finset.sum_range_succ, ← acc12_snd c q n (Nat.lt_of_succ_lt hn)]
    refine (step12_1_apply (iblk12 V c 0 ⟨n + 1, hn⟩) _ q).trans ?_
    unfold bsq12; rw [dif_pos hn]

/-- After the last point they are the sums over all 320000 rows. -/
theorem acc12_fst_last (c : Dev nD) (q : Fin 128) (hn : 79 < cfg12.N) :
    (acc12 V c 79 hn).1 (ix2 (0 : Fin 1) q) = ∑ i : Fin 320000, X12in V c (ix2 i q) := by
  rw [acc12_fst V c q 79 hn]
  show ∑ s ∈ Finset.range 80, bsum12 V c q s = _
  rw [Finset.sum_range, ← sum_blocks12 (fun i => X12in V c (ix2 i q))]
  refine Finset.sum_congr rfl fun s _ => ?_
  have hs : s.val < cfg12.N := lt_of_lt_of_eq s.isLt (show cfg12.N = 80 from N_12).symm
  unfold bsum12; rw [dif_pos hs]
  exact Finset.sum_congr rfl fun r _ => iblk12_0_apply V c ⟨s.val, hs⟩ r q
theorem acc12_snd_last (c : Dev nD) (q : Fin 128) (hn : 79 < cfg12.N) :
    (acc12 V c 79 hn).2 (ix2 (0 : Fin 1) q) = ∑ i : Fin 320000, X12in V c (ix2 i q) * X12in V c (ix2 i q) := by
  rw [acc12_snd V c q 79 hn]
  show ∑ s ∈ Finset.range 80, bsq12 V c q s = _
  rw [Finset.sum_range, ← sum_blocks12 (fun i => X12in V c (ix2 i q) * X12in V c (ix2 i q))]
  refine Finset.sum_congr rfl fun s _ => ?_
  have hs : s.val < cfg12.N := lt_of_lt_of_eq s.isLt (show cfg12.N = 80 from N_12).symm
  unfold bsq12; rw [dif_pos hs]
  exact Finset.sum_congr rfl fun r _ => by rw [iblk12_0_apply V c ⟨s.val, hs⟩ r q]

/-- An index of an output row's array is in point t's block iff each coordinate is in the block's range. -/
theorem mem_blk12_1 (t : Fin cfg12.N) (i : S1x128.Idx) :
    i ∈ ((cfg12.win 1).blk t).view.set ↔ ∀ a : Fin 2, win12_1.index t a * S1x128.size a ≤ (i a).val ∧ (i a).val < win12_1.index t a * S1x128.size a + S1x128.size a := by
  show i ∈ ((View.whole (Pipeline.arrRef spec12 1)).slice (win12_1.rect t)).set ↔ _
  rw [View.set_slice_whole, Rect.mem_set_unit]
  exact Iff.rfl
theorem mem_blk12_2 (t : Fin cfg12.N) (i : S1x128.Idx) :
    i ∈ ((cfg12.win 2).blk t).view.set ↔ ∀ a : Fin 2, win12_2.index t a * S1x128.size a ≤ (i a).val ∧ (i a).val < win12_2.index t a * S1x128.size a + S1x128.size a := by
  show i ∈ ((View.whole (Pipeline.arrRef spec12 2)).slice (win12_2.rect t)).set ↔ _
  rw [View.set_slice_whole, Rect.mem_set_unit]
  exact Iff.rfl

/-- The two output rows as functions of the input array: the column mean, and the mean of squares minus the squared mean. -/
def G12_1 (c : Dev nD) : S1x128.Idx → EReal := fun i =>
  Ideal.div (∑ r : Fin 320000, X12in V c (ix2 r ⟨(i 1).val, idx2_lt1 i⟩)) cnt12
def G12_2 (c : Dev nD) : S1x128.Idx → EReal := fun i =>
  Ideal.div (∑ r : Fin 320000, X12in V c (ix2 r ⟨(i 1).val, idx2_lt1 i⟩) * X12in V c (ix2 r ⟨(i 1).val, idx2_lt1 i⟩)) cnt12
    - Ideal.div (∑ r : Fin 320000, X12in V c (ix2 r ⟨(i 1).val, idx2_lt1 i⟩)) cnt12
      * Ideal.div (∑ r : Fin 320000, X12in V c (ix2 r ⟨(i 1).val, idx2_lt1 i⟩)) cnt12

/-- What the last point writes back into output row 1 is that row of the input array. -/
theorem flushed12_1_eq (c : Dev nD) (t : Fin cfg12.N) (hf : (cfg12.win 1).flush t = true) :
    (dat12 (F := Ideal) V c).flushed 1 t = ((cfg12.win 1).blk t).view.read (Elt Ideal) (G12_1 V c) := by
  have h79 : t.val = 79 := by
    have := (flush12_1 t).mp hf; have := lt_of_lt_of_eq t.isLt (show cfg12.N = 80 from N_12); omega
  show (cfg12.win 1).cut (grid12.coords t) ((dat12 (F := Ideal) V c).after 1 t) = _
  rw [after12_1]
  funext j
  obtain ⟨p, q, rfl⟩ : ∃ (p : Fin 1) (q : Fin 128), j = ix2 p q := ⟨j 0, j 1, eq_ix2 j⟩
  obtain rfl : p = 0 := Subsingleton.elim _ _
  show out12_1 (acc12 V c t.val t.isLt).1 (ix2 0 q) = G12_1 V c (((cfg12.win 1).blk t).view.emb (ix2 0 q))
  rw [out12_1_apply]
  have e : (acc12 V c t.val t.isLt).1 (ix2 (0 : Fin 1) q) = ∑ i : Fin 320000, X12in V c (ix2 i q) := by
    obtain ⟨n, hn⟩ := t
    obtain rfl : n = 79 := h79
    exact acc12_fst_last V c q hn
  rw [e]
  unfold G12_1
  have hq : (⟨((((cfg12.win 1).blk t).view.emb (ix2 (0 : Fin 1) q)) 1).val, idx2_lt1 _⟩ : Fin 128) = q :=
    Fin.ext (by show win12_1.index t (1 : Fin 2) * 128 + 1 * q.val = q.val; have := (idx12_1 t).2; omega)
  rw [hq]

theorem flushed12_2_eq (c : Dev nD) (t : Fin cfg12.N) (hf : (cfg12.win 2).flush t = true) :
    (dat12 (F := Ideal) V c).flushed 2 t = ((cfg12.win 2).blk t).view.read (Elt Ideal) (G12_2 V c) := by
  have h79 : t.val = 79 := by
    have := (flush12_2 t).mp hf; have := lt_of_lt_of_eq t.isLt (show cfg12.N = 80 from N_12); omega
  show (cfg12.win 2).cut (grid12.coords t) ((dat12 (F := Ideal) V c).after 2 t) = _
  rw [after12_2]
  funext j
  obtain ⟨p, q, rfl⟩ : ∃ (p : Fin 1) (q : Fin 128), j = ix2 p q := ⟨j 0, j 1, eq_ix2 j⟩
  obtain rfl : p = 0 := Subsingleton.elim _ _
  show out12_2 (acc12 V c t.val t.isLt).1 (acc12 V c t.val t.isLt).2 (ix2 0 q) = G12_2 V c (((cfg12.win 2).blk t).view.emb (ix2 0 q))
  rw [out12_2_apply]
  have e0 : (acc12 V c t.val t.isLt).1 (ix2 (0 : Fin 1) q) = ∑ i : Fin 320000, X12in V c (ix2 i q) := by
    obtain ⟨n, hn⟩ := t
    obtain rfl : n = 79 := h79
    exact acc12_fst_last V c q hn
  have e1 : (acc12 V c t.val t.isLt).2 (ix2 (0 : Fin 1) q) = ∑ i : Fin 320000, X12in V c (ix2 i q) * X12in V c (ix2 i q) := by
    obtain ⟨n, hn⟩ := t
    obtain rfl : n = 79 := h79
    exact acc12_snd_last V c q hn
  rw [e0, e1]
  unfold G12_2
  have hq : (⟨((((cfg12.win 2).blk t).view.emb (ix2 (0 : Fin 1) q)) 1).val, idx2_lt1 _⟩ : Fin 128) = q :=
    Fin.ext (by show win12_2.index t (1 : Fin 2) * 128 + 1 * q.val = q.val; have := (idx12_2 t).2; omega)
  rw [hq]

/-- Every index of an output row is in the last point's block. -/
theorem cover12_1 (i : S1x128.Idx) : ∃ t : Fin cfg12.N, (cfg12.win 1).flush t = true ∧ i ∈ ((cfg12.win 1).blk t).view.set := by
  refine ⟨⟨79, by decide⟩, (flush12_1 _).mpr rfl, ?_⟩
  rw [mem_blk12_1]
  intro a
  match a with
  | ⟨0, _⟩ => show win12_1.index _ (0 : Fin 2) * 1 ≤ (i 0).val ∧ (i 0).val < win12_1.index _ (0 : Fin 2) * 1 + 1; have := (idx12_1 ⟨79, by decide⟩).1; have := idx2_lt0 i; omega
  | ⟨1, _⟩ => show win12_1.index _ (1 : Fin 2) * 128 ≤ (i 1).val ∧ (i 1).val < win12_1.index _ (1 : Fin 2) * 128 + 128; have := (idx12_1 ⟨79, by decide⟩).2; have := idx2_lt1 i; omega
theorem cover12_2 (i : S1x128.Idx) : ∃ t : Fin cfg12.N, (cfg12.win 2).flush t = true ∧ i ∈ ((cfg12.win 2).blk t).view.set := by
  refine ⟨⟨79, by decide⟩, (flush12_2 _).mpr rfl, ?_⟩
  rw [mem_blk12_2]
  intro a
  match a with
  | ⟨0, _⟩ => show win12_2.index _ (0 : Fin 2) * 1 ≤ (i 0).val ∧ (i 0).val < win12_2.index _ (0 : Fin 2) * 1 + 1; have := (idx12_2 ⟨79, by decide⟩).1; have := idx2_lt0 i; omega
  | ⟨1, _⟩ => show win12_2.index _ (1 : Fin 2) * 128 ≤ (i 1).val ∧ (i 1).val < win12_2.index _ (1 : Fin 2) * 128 + 128; have := (idx12_2 ⟨79, by decide⟩).2; have := idx2_lt1 i; omega

/-- The output rows after the region. -/
theorem final12_1 (c : Dev nD) : (dat12 (F := Ideal) V c).arrAt 1 cfg12.N = G12_1 V c :=
  (dat12 (F := Ideal) V c).arrAt_eq_of_cover 1 (G12_1 V c) (fun t hf => flushed12_1_eq V c t hf) cover12_1
theorem final12_2 (c : Dev nD) : (dat12 (F := Ideal) V c).arrAt 2 cfg12.N = G12_2 V c :=
  (dat12 (F := Ideal) V c).arrAt_eq_of_cover 2 (G12_2 V c) (fun t hf => flushed12_2_eq V c t hf) cover12_2

/-- Output row 1 after the region is the column mean of the input array over all 320000 rows. -/
theorem arrAt12_out1 (c : Dev nD) :
    Cert.Stage.toRow1 ((dat12 (F := Ideal) V c).arrAt 1 cfg12.N) = Cert.Stage.colMean cnt12 (Cert.Stage.toMat (V c (Pipeline.arrRef spec12 0))) := by
  rw [final12_1]; rfl
/-- Output row 2 after the region is its column variance, as mean of squares minus squared mean. -/
theorem arrAt12_out2 (c : Dev nD) :
    Cert.Stage.toRow1 ((dat12 (F := Ideal) V c).arrAt 2 cfg12.N) = Cert.Stage.colVarSq cnt12 (Cert.Stage.toMat (V c (Pipeline.arrRef spec12 0))) := by
  rw [final12_2]; rfl

end Regions

end Cert.KernelIdeal.RgVal

end
-- ==== Proof.Rg13Val.lean ====
import proofs.«418385_j87393994539142_1_alg».proof.Proof.Rg13
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

/-!
# Kernel region 13: what the region leaves in its arrays, over the extended reals

The six arrays the region reads are never written back, so they end as they were found. The output array is
written back block by block, 80 blocks of 4000 rows; block t holds, at row p and column q, the normalised,
rectified value of row 4000 t + p of the operand plus the same row of the residual. The blocks tile the 320000
rows, so the whole output array is one function of the six input arrays: the stage  res + max (g (x - mu)
rsqrt (var + eps) + be) 0  taken entry by entry, the four rows read at the entry's column.
-/

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region13
variable (V : (c : Dev nD) → (b : Ref sig .tc) → Buf (Elt Ideal) ((c : Thread nD τ).loc b))

/-! ## The arrays the region only reads -/

theorem arrAt13_in_0 (c : Dev nD) : (dat13 (F := Ideal) V c).arrAt 0 cfg13.N = V c (Pipeline.arrRef spec13 0) :=
  ((dat13 V c).arrAt_in 0 rfl _).trans (A_eq13 V c 0)
theorem arrAt13_in_1 (c : Dev nD) : (dat13 (F := Ideal) V c).arrAt 1 cfg13.N = V c (Pipeline.arrRef spec13 1) :=
  ((dat13 V c).arrAt_in 1 rfl _).trans (A_eq13 V c 1)
theorem arrAt13_in_2 (c : Dev nD) : (dat13 (F := Ideal) V c).arrAt 2 cfg13.N = V c (Pipeline.arrRef spec13 2) :=
  ((dat13 V c).arrAt_in 2 rfl _).trans (A_eq13 V c 2)
theorem arrAt13_in_3 (c : Dev nD) : (dat13 (F := Ideal) V c).arrAt 3 cfg13.N = V c (Pipeline.arrRef spec13 3) :=
  ((dat13 V c).arrAt_in 3 rfl _).trans (A_eq13 V c 3)
theorem arrAt13_in_4 (c : Dev nD) : (dat13 (F := Ideal) V c).arrAt 4 cfg13.N = V c (Pipeline.arrRef spec13 4) :=
  ((dat13 V c).arrAt_in 4 rfl _).trans (A_eq13 V c 4)
theorem arrAt13_in_5 (c : Dev nD) : (dat13 (F := Ideal) V c).arrAt 5 cfg13.N = V c (Pipeline.arrRef spec13 5) :=
  ((dat13 V c).arrAt_in 5 rfl _).trans (A_eq13 V c 5)

/-! ## The body's value at an entry of the block -/

theorem zeros13 : (![0, 0] : Fin 2 → Nat) = fun _ => 0 := funext fun a => by fin_cases a <;> rfl

/-- The value the body stores at row p, column q of the block, from the six blocks it loads: the residual plus
    the rectified normalised operand, the four rows read at column q. The zero the rectifier compares with is the
    real number zero; the small constant added to the variance stays the word it is printed as. -/
theorem pay13_apply (x r : Vec Ideal S4000x128 .f32) (mu var g be : Vec Ideal S1x128 .f32) (p : Fin 4000) (q : Fin 128) :
    k13_pay1 x g mu var be r (ix2 p q)
      = r (ix2 p q) + max (g (ix2 (0 : Fin 1) q) * (x (ix2 p q) - mu (ix2 (0 : Fin 1) q))
          * Ideal.rsqrt (var (ix2 (0 : Fin 1) q) + Ideal.ofBits .f32 0x3727C5AC#32) + be (ix2 (0 : Fin 1) q)) 0 := by
  unfold k13_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply, broadcast_apply]
  show _ + max (_ * _ * Ideal.rsqrt (var (ix2 (0 : Fin 1) q) + Ideal.ofBits .f32 0x3727C5AC#32) + _) (Ideal.ofBits .f32 0x00000000#32) = _
  rw [Ideal.ofBits_zero_f32]

/-! ## The output array as one function of the input arrays -/

/-- The stage, entry by entry, as a function of the six whole arrays. -/
def bn13 (a0 a1 : S320000x128.Idx → EReal) (a2 a3 a4 a5 : S1x128.Idx → EReal) : S320000x128.Idx → EReal :=
  fun i => Cert.Stage.bnRelu (Ideal.ofBits .f32 0x3727C5AC#32) (Cert.Stage.toMat a0) (Cert.Stage.toMat a1)
    (Cert.Stage.toRow1 a2) (Cert.Stage.toRow1 a3) (Cert.Stage.toRow1 a4) (Cert.Stage.toRow1 a5) (i 0) (i 1)

/-- The stage at row P, column q, spelt out. -/
theorem bn13_apply (a0 a1 : S320000x128.Idx → EReal) (a2 a3 a4 a5 : S1x128.Idx → EReal) (P : Fin 320000) (q : Fin 128) :
    bn13 a0 a1 a2 a3 a4 a5 (ix2 P q)
      = a1 (ix2 P q) + max (a4 (ix2 (0 : Fin 1) q) * (a0 (ix2 P q) - a2 (ix2 (0 : Fin 1) q))
          * Ideal.rsqrt (a3 (ix2 (0 : Fin 1) q) + Ideal.ofBits .f32 0x3727C5AC#32) + a5 (ix2 (0 : Fin 1) q)) 0 := rfl

/-- Where each window's block sits at grid point t: the two operands and the output at row block t, the four
    rows at the one block there is. Decided over the 80 points. -/
theorem index13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

/-- Row p of block t is row 4000 t + p of the array. -/
theorem row13_lt (t : Fin cfg13.N) (p : Fin 4000) : 4000 * t.val + p.val < 320000 := by
  have ht : t.val < 80 := Nat.lt_of_lt_of_eq t.isLt N_13
  have hp := p.isLt
  omega

/-- An operand block (window 0 or 1) at row p, column q is the array at row 4000 t + p, column q. -/
theorem iblk13_0_apply (c : Dev nD) (t : Fin cfg13.N) (p : Fin 4000) (q : Fin 128) :
    (iblk13 V c 0 t : Vec Ideal S4000x128 .f32) (ix2 p q)
      = (V c (Pipeline.arrRef spec13 0) : S320000x128.Idx → EReal) (ix2 ⟨4000 * t.val + p.val, row13_lt t p⟩ q) := by
  obtain ⟨e00, e01, -⟩ := index13 t
  unfold iblk13
  rw [View.read_apply]
  refine congrArg (V c (Pipeline.arrRef spec13 0) : S320000x128.Idx → EReal) (funext fun a => Fin.ext ?_)
  match a with
  | ⟨0, _⟩ => show win13_0.index t (0 : Fin 2) * 4000 + 1 * p.val = 4000 * t.val + p.val; omega
  | ⟨1, _⟩ => show win13_0.index t (1 : Fin 2) * 128 + 1 * q.val = q.val; omega

theorem iblk13_1_apply (c : Dev nD) (t : Fin cfg13.N) (p : Fin 4000) (q : Fin 128) :
    (iblk13 V c 1 t : Vec Ideal S4000x128 .f32) (ix2 p q)
      = (V c (Pipeline.arrRef spec13 1) : S320000x128.Idx → EReal) (ix2 ⟨4000 * t.val + p.val, row13_lt t p⟩ q) := by
  obtain ⟨-, -, e10, e11, -⟩ := index13 t
  unfold iblk13
  rw [View.read_apply]
  refine congrArg (V c (Pipeline.arrRef spec13 1) : S320000x128.Idx → EReal) (funext fun a => Fin.ext ?_)
  match a with
  | ⟨0, _⟩ => show win13_1.index t (0 : Fin 2) * 4000 + 1 * p.val = 4000 * t.val + p.val; omega
  | ⟨1, _⟩ => show win13_1.index t (1 : Fin 2) * 128 + 1 * q.val = q.val; omega

/-- A row block (windows 2 to 5) at column q is the one-row array at column q, at every point. -/
theorem iblk13_2_apply (c : Dev nD) (t : Fin cfg13.N) (q : Fin 128) :
    (iblk13 V c 2 t : Vec Ideal S1x128 .f32) (ix2 (0 : Fin 1) q)
      = (V c (Pipeline.arrRef spec13 2) : S1x128.Idx → EReal) (ix2 (0 : Fin 1) q) := by
  obtain ⟨-, -, -, -, e20, e21, -⟩ := index13 t
  unfold iblk13
  rw [View.read_apply]
  refine congrArg (V c (Pipeline.arrRef spec13 2) : S1x128.Idx → EReal) (funext fun a => Fin.ext ?_)
  match a with
  | ⟨0, _⟩ => show win13_2.index t (0 : Fin 2) * 1 + 1 * 0 = 0; omega
  | ⟨1, _⟩ => show win13_2.index t (1 : Fin 2) * 128 + 1 * q.val = q.val; omega

theorem iblk13_3_apply (c : Dev nD) (t : Fin cfg13.N) (q : Fin 128) :
    (iblk13 V c 3 t : Vec Ideal S1x128 .f32) (ix2 (0 : Fin 1) q)
      = (V c (Pipeline.arrRef spec13 3) : S1x128.Idx → EReal) (ix2 (0 : Fin 1) q) := by
  obtain ⟨-, -, -, -, -, -, e30, e31, -⟩ := index13 t
  unfold iblk13
  rw [View.read_apply]
  refine congrArg (V c (Pipeline.arrRef spec13 3) : S1x128.Idx → EReal) (funext fun a => Fin.ext ?_)
  match a with
  | ⟨0, _⟩ => show win13_3.index t (0 : Fin 2) * 1 + 1 * 0 = 0; omega
  | ⟨1, _⟩ => show win13_3.index t (1 : Fin 2) * 128 + 1 * q.val = q.val; omega

theorem iblk13_4_apply (c : Dev nD) (t : Fin cfg13.N) (q : Fin 128) :
    (iblk13 V c 4 t : Vec Ideal S1x128 .f32) (ix2 (0 : Fin 1) q)
      = (V c (Pipeline.arrRef spec13 4) : S1x128.Idx → EReal) (ix2 (0 : Fin 1) q) := by
  obtain ⟨-, -, -, -, -, -, -, -, e40, e41, -⟩ := index13 t
  unfold iblk13
  rw [View.read_apply]
  refine congrArg (V c (Pipeline.arrRef spec13 4) : S1x128.Idx → EReal) (funext fun a => Fin.ext ?_)
  match a with
  | ⟨0, _⟩ => show win13_4.index t (0 : Fin 2) * 1 + 1 * 0 = 0; omega
  | ⟨1, _⟩ => show win13_4.index t (1 : Fin 2) * 128 + 1 * q.val = q.val; omega

theorem iblk13_5_apply (c : Dev nD) (t : Fin cfg13.N) (q : Fin 128) :
    (iblk13 V c 5 t : Vec Ideal S1x128 .f32) (ix2 (0 : Fin 1) q)
      = (V c (Pipeline.arrRef spec13 5) : S1x128.Idx → EReal) (ix2 (0 : Fin 1) q) := by
  obtain ⟨-, -, -, -, -, -, -, -, -, -, e50, e51, -⟩ := index13 t
  unfold iblk13
  rw [View.read_apply]
  refine congrArg (V c (Pipeline.arrRef spec13 5) : S1x128.Idx → EReal) (funext fun a => Fin.ext ?_)
  match a with
  | ⟨0, _⟩ => show win13_5.index t (0 : Fin 2) * 1 + 1 * 0 = 0; omega
  | ⟨1, _⟩ => show win13_5.index t (1 : Fin 2) * 128 + 1 * q.val = q.val; omega

/-- Row p, column q of the output's block t sits at row 4000 t + p, column q of the output array. -/
theorem emb13_out (t : Fin cfg13.N) (p : Fin 4000) (q : Fin 128) :
    (((cfg13.win 6).blk t).view.emb (ix2 p q) : S320000x128.Idx) = ix2 ⟨4000 * t.val + p.val, row13_lt t p⟩ q := by
  obtain ⟨-, -, -, -, -, -, -, -, -, -, -, -, e60, e61⟩ := index13 t
  refine funext fun a => Fin.ext ?_
  match a with
  | ⟨0, _⟩ => show win13_6.index t (0 : Fin 2) * 4000 + 1 * p.val = 4000 * t.val + p.val; omega
  | ⟨1, _⟩ => show win13_6.index t (1 : Fin 2) * 128 + 1 * q.val = q.val; omega

/-- What point t writes back is block t of the stage of the six arrays as the region finds them. -/
theorem flushed13_eq (c : Dev nD) (t : Fin cfg13.N) :
    (dat13 (F := Ideal) V c).flushed 6 t = ((cfg13.win 6).blk t).view.read (Elt Ideal)
      (bn13 (V c (Pipeline.arrRef spec13 0)) (V c (Pipeline.arrRef spec13 1)) (V c (Pipeline.arrRef spec13 2))
        (V c (Pipeline.arrRef spec13 3)) (V c (Pipeline.arrRef spec13 4)) (V c (Pipeline.arrRef spec13 5))) := by
  show (cfg13.win 6).cut (grid13.coords t) ((dat13 V c).after 6 t) = _
  rw [after13_6]
  unfold out13_6
  rw [View.canon_unit_zero zeros13]
  simp only [View.ld_unit_zero (S := S4000x128) zeros13, View.ld_unit_zero (S := S1x128) zeros13]
  funext j
  obtain ⟨p, q, rfl⟩ : ∃ (p : Fin 4000) (q : Fin 128), j = ix2 p q := ⟨j 0, j 1, eq_ix2 j⟩
  refine (pay13_apply _ _ _ _ _ _ p q).trans ?_
  rw [View.read_apply, emb13_out, bn13_apply, iblk13_0_apply, iblk13_1_apply, iblk13_2_apply, iblk13_3_apply, iblk13_4_apply, iblk13_5_apply]
  rfl

/-- An index of the output array is in point t's block exactly when each coordinate is in the block's range. -/
theorem mem_blk13 (t : Fin cfg13.N) (i : S320000x128.Idx) :
    i ∈ ((cfg13.win 6).blk t).view.set ↔ ∀ a : Fin 2, win13_6.index t a * S4000x128.size a ≤ (i a).val
      ∧ (i a).val < win13_6.index t a * S4000x128.size a + S4000x128.size a := by
  show i ∈ ((View.whole main_v111).slice (win13_6.rect t)).set ↔ _
  rw [View.set_slice_whole, Rect.mem_set_unit]
  exact Iff.rfl

/-- Every row of the output array is in some point's block: row P in the block of point P / 4000. -/
theorem cover13 (i : S320000x128.Idx) :
    ∃ t : Fin cfg13.N, (cfg13.win 6).flush t = true ∧ i ∈ ((cfg13.win 6).blk t).view.set := by
  have hi0 : (i 0).val < 320000 := (i 0).isLt
  have hi1 : (i 1).val < 128 := (i 1).isLt
  have hlt : (i 0).val / 4000 < cfg13.N := by rw [show cfg13.N = 80 from N_13]; omega
  obtain ⟨-, -, -, -, -, -, -, -, -, -, -, -, e60, e61⟩ := index13 ⟨(i 0).val / 4000, hlt⟩
  refine ⟨⟨(i 0).val / 4000, hlt⟩, flush13_6 _, ?_⟩
  rw [mem_blk13]
  intro a
  match a with
  | ⟨0, _⟩ =>
    show win13_6.index ⟨(i 0).val / 4000, hlt⟩ (0 : Fin 2) * 4000 ≤ (i 0).val
      ∧ (i 0).val < win13_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win13_6.index ⟨(i 0).val / 4000, hlt⟩ (1 : Fin 2) * 128 ≤ (i 1).val
      ∧ (i 1).val < win13_6.index ⟨(i 0).val / 4000, hlt⟩ (1 : Fin 2) * 128 + 128
    rw [e61]; omega

/-- The output array after the run is the stage of the six input arrays. -/
theorem final13 (c : Dev nD) : (dat13 (F := Ideal) V c).arrAt 6 cfg13.N
    = bn13 (V c (Pipeline.arrRef spec13 0)) (V c (Pipeline.arrRef spec13 1)) (V c (Pipeline.arrRef spec13 2))
        (V c (Pipeline.arrRef spec13 3)) (V c (Pipeline.arrRef spec13 4)) (V c (Pipeline.arrRef spec13 5)) :=
  (dat13 V c).arrAt_eq_of_cover 6 _ (fun t _ => flushed13_eq V c t) cover13

/-- The same, read as matrices and rows. -/
theorem arrAt13_out (c : Dev nD) :
    Cert.Stage.toMat ((dat13 (F := Ideal) V c).arrAt 6 cfg13.N)
      = Cert.Stage.bnRelu (Ideal.ofBits .f32 0x3727C5AC#32) (Cert.Stage.toMat (V c (Pipeline.arrRef spec13 0)))
          (Cert.Stage.toMat (V c (Pipeline.arrRef spec13 1))) (Cert.Stage.toRow1 (V c (Pipeline.arrRef spec13 2)))
          (Cert.Stage.toRow1 (V c (Pipeline.arrRef spec13 3))) (Cert.Stage.toRow1 (V c (Pipeline.arrRef spec13 4)))
          (Cert.Stage.toRow1 (V c (Pipeline.arrRef spec13 5))) := by
  rw [final13]
  rfl

end Region13

end Cert.KernelIdeal.RgVal

end
-- ==== Proof.Rg14Val.lean ====
/-
  Region 14 of the kernel program, its values at the extended reals: the two output rows the region leaves are the
  column mean of its 20000 x 128 input over all rows and the column variance as mean of squares minus squared mean.
  The 10 block sums of 2000 rows regroup into one sum over 20000 rows (row = 2000 * block + offset); addition of
  extended reals is commutative and associative, so no finiteness is needed.
-/
import proofs.«418385_j87393994539142_1_alg».proof.Proof.Rg14
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.RgVal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx
open Cert.KernelIdeal Cert.KernelIdeal.Gen Cert.KernelIdeal.Rg
open scoped BigOperators

theorem hz14 : (![0, 0] : Fin 2 → Nat) = fun _ => 0 := funext fun a => by fin_cases a <;> rfl

/-- The row count 20000 as the kernel's f32 literal. -/
abbrev cnt14 : EReal := Ideal.ofBits .f32 0x469C4000#32

/-- Summing 10 blocks of 2000 consecutive terms is summing all 20000 terms (row = 2000 * block + offset). -/
theorem sum_blocks14 {M : Type} [AddCommMonoid M] (f : Fin 20000 → M) :
    ∑ s : Fin 10, ∑ r : Fin 2000, f ⟨2000 * s.val + r.val, by have := s.isLt; have := r.isLt; omega⟩ = ∑ i : Fin 20000, f i := by
  have e := Equiv.sum_comp (finProdFinEquiv : Fin 10 × Fin 2000 ≃ Fin (10 * 2000)) f
  rw [← e, Fintype.sum_prod_type]
  refine Finset.sum_congr rfl fun s _ => Finset.sum_congr rfl fun r _ => congrArg f (Fin.ext ?_)
  show 2000 * s.val + r.val = r.val + 2000 * s.val
  omega

/-- A lane sum over the 2000 rows of a block, at column q. -/
theorem colsum14_apply (x : FVec Ideal S2000x128 .f32) (hφ : FKind.Formats .f32)
    (hacc : (0x00000000#32 : BitVec FTy.f32.bits) = FKind.add.neutral .f32 hφ) (q : Fin 128) :
    multiReduction (F := Ideal) .add [0] S128 x 0x00000000#32 reduces_S2000x128_S128 hφ hacc (ix1 q) = ∑ r : Fin 2000, x (ix2 r q) := by
  refine (Ideal.multiReduction_add_single x 0x00000000#32 reduces_S2000x128_S128 hφ hacc (ix1 q)).trans ?_
  exact Finset.sum_congr rfl fun r _ => congrArg x (funext fun a => by match a with | ⟨0, _⟩ => rfl | ⟨1, _⟩ => rfl)

theorem payZ0_14_apply (q : Fin 128) : k14_pay1 (F := Ideal) (ix2 (0 : Fin 1) q) = 0 := by
  unfold k14_pay1
  simp only [shapeCast_self, broadcast_apply]
  exact Ideal.ofBits_zero_f32
theorem payZ1_14_apply (q : Fin 128) : k14_pay2 (F := Ideal) (ix2 (0 : Fin 1) q) = 0 := by
  unfold k14_pay2
  simp only [shapeCast_self, broadcast_apply]
  exact Ideal.ofBits_zero_f32

theorem payAdd_14_apply (x : Vec Ideal S2000x128 .f32) (s : Vec Ideal S1x128 .f32) (q : Fin 128) :
    k14_pay4 (F := Ideal) x s (ix2 (0 : Fin 1) q) = s (ix2 0 q) + ∑ r : Fin 2000, x (ix2 r q) := by
  unfold k14_pay4 k14_pay3
  simp only [shapeCast_self, addf_apply]
  rw [shapeCast_a_1a_apply]
  exact congrArg _ (colsum14_apply _ _ _ q)

theorem paySq_14_apply (x : Vec Ideal S2000x128 .f32) (s : Vec Ideal S1x128 .f32) (q : Fin 128) :
    k14_pay5 (F := Ideal) x s (ix2 (0 : Fin 1) q) = s (ix2 0 q) + ∑ r : Fin 2000, x (ix2 r q) * x (ix2 r q) := by
  unfold k14_pay5 k14_pay3
  simp only [shapeCast_self, addf_apply]
  rw [shapeCast_a_1a_apply]
  refine congrArg _ ((colsum14_apply _ _ _ q).trans ?_)
  exact Finset.sum_congr rfl fun r _ => mulf_apply _ _ _

theorem payMean_14_apply (s : Vec Ideal S1x128 .f32) (q : Fin 128) :
    k14_pay6 (F := Ideal) s (ix2 (0 : Fin 1) q) = Ideal.div (s (ix2 0 q)) cnt14 := by
  unfold k14_pay6
  simp only [divf_apply, broadcast_apply]
  rfl

theorem payVar_14_apply (s0 s1 : Vec Ideal S1x128 .f32) (q : Fin 128) :
    k14_pay7 (F := Ideal) s0 s1 (ix2 (0 : Fin 1) q)
      = Ideal.div (s1 (ix2 0 q)) cnt14 - Ideal.div (s0 (ix2 0 q)) cnt14 * Ideal.div (s0 (ix2 0 q)) cnt14 := by
  unfold k14_pay7
  simp only [subf_apply, mulf_apply, divf_apply, broadcast_apply, payMean_14_apply]
  rfl

theorem init14_0_apply (q : Fin 128) : init14_0 (F := Ideal) (ix2 (0 : Fin 1) q) = 0 := by
  unfold init14_0; rw [View.canon_unit_zero hz14]; exact payZ0_14_apply q
theorem init14_1_apply (q : Fin 128) : init14_1 (F := Ideal) (ix2 (0 : Fin 1) q) = 0 := by
  unfold init14_1; rw [View.canon_unit_zero hz14]; exact payZ1_14_apply q

theorem step14_0_apply (x : Vec Ideal S2000x128 .f32) (s : Vec Ideal S1x128 .f32) (q : Fin 128) :
    step14_0 x s (ix2 (0 : Fin 1) q) = s (ix2 0 q) + ∑ r : Fin 2000, x (ix2 r q) := by
  unfold step14_0; rw [View.canon_unit_zero hz14]
  simp only [View.ld_unit_zero (S := S2000x128) hz14, View.ld_unit_zero (S := S1x128) hz14]
  exact payAdd_14_apply x s q
theorem step14_1_apply (x : Vec Ideal S2000x128 .f32) (s : Vec Ideal S1x128 .f32) (q : Fin 128) :
    step14_1 x s (ix2 (0 : Fin 1) q) = s (ix2 0 q) + ∑ r : Fin 2000, x (ix2 r q) * x (ix2 r q) := by
  unfold step14_1; rw [View.canon_unit_zero hz14]
  simp only [View.ld_unit_zero (S := S2000x128) hz14, View.ld_unit_zero (S := S1x128) hz14]
  exact paySq_14_apply x s q
theorem out14_1_apply (s : Vec Ideal S1x128 .f32) (q : Fin 128) :
    out14_1 s (ix2 (0 : Fin 1) q) = Ideal.div (s (ix2 0 q)) cnt14 := by
  unfold out14_1; rw [View.canon_unit_zero hz14]
  simp only [View.ld_unit_zero (S := S1x128) hz14]
  exact payMean_14_apply s q
theorem out14_2_apply (s0 s1 : Vec Ideal S1x128 .f32) (q : Fin 128) :
    out14_2 s0 s1 (ix2 (0 : Fin 1) q)
      = Ideal.div (s1 (ix2 0 q)) cnt14 - Ideal.div (s0 (ix2 0 q)) cnt14 * Ideal.div (s0 (ix2 0 q)) cnt14 := by
  unfold out14_2; rw [View.canon_unit_zero hz14]
  simp only [View.ld_unit_zero (S := S1x128) hz14]
  exact payVar_14_apply s0 s1 q

section Regions
variable (V : (c : Dev nD) → (b : Ref sig .tc) → Buf (Elt Ideal) ((c : Thread nD τ).loc b))

/-- The input array is never written back. -/
theorem arrAt14_in_0 (c : Dev nD) : (dat14 (F := Ideal) V c).arrAt 0 cfg14.N = V c (Pipeline.arrRef spec14 0) :=
  ((dat14 (F := Ideal) V c).arrAt_in 0 rfl cfg14.N).trans (A_eq14 V c 0)

/-- The block index maps over the grid: the input's row block is the point, its column block 0; each output row is one block. -/
theorem idx14_0 : ∀ t : Fin cfg14.N, win14_0.index t (0 : Fin 2) = t.val ∧ win14_0.index t (1 : Fin 2) = 0 :=
  (by decide +kernel : ∀ t : Fin grid14.N, win14_0.index t (0 : Fin 2) = t.val ∧ win14_0.index t (1 : Fin 2) = 0)
theorem idx14_1 : ∀ t : Fin cfg14.N, win14_1.index t (0 : Fin 2) = 0 ∧ win14_1.index t (1 : Fin 2) = 0 :=
  (by decide +kernel : ∀ t : Fin grid14.N, win14_1.index t (0 : Fin 2) = 0 ∧ win14_1.index t (1 : Fin 2) = 0)
theorem idx14_2 : ∀ t : Fin cfg14.N, win14_2.index t (0 : Fin 2) = 0 ∧ win14_2.index t (1 : Fin 2) = 0 :=
  (by decide +kernel : ∀ t : Fin grid14.N, win14_2.index t (0 : Fin 2) = 0 ∧ win14_2.index t (1 : Fin 2) = 0)

/-- The input array, indexed by row and column. -/
abbrev X14in (c : Dev nD) : S20000x128.Idx → EReal := V c (Pipeline.arrRef spec14 0)

/-- The input's block at a point, indexed by row and column. -/
abbrev blk14 (c : Dev nD) (t : Fin cfg14.N) : S2000x128.Idx → EReal := iblk14 V c 0 t

/-- Row r of block t is row 2000 t + r of the array. -/
theorem iblk14_0_apply (c : Dev nD) (t : Fin cfg14.N) (r : Fin 2000) (q : Fin 128) :
    blk14 V c t (ix2 r q)
      = X14in V c (ix2 ⟨2000 * t.val + r.val, by have := lt_of_lt_of_eq t.isLt (show cfg14.N = 10 from N_14); have := r.isLt; omega⟩ q) := by
  show V c (Pipeline.arrRef spec14 0) (((cfg14.win 0).blk t).view.emb (ix2 r q)) = V c (Pipeline.arrRef spec14 0) _
  refine congrArg _ (funext fun a => Fin.ext ?_)
  match a with
  | ⟨0, _⟩ => show win14_0.index t (0 : Fin 2) * 2000 + 1 * r.val = 2000 * t.val + r.val; have := (idx14_0 t).1; omega
  | ⟨1, _⟩ => show win14_0.index t (1 : Fin 2) * 128 + 1 * q.val = q.val; have := (idx14_0 t).2; omega

/-- Block s's column sums, of the entries and of their squares (zero past the grid). -/
def bsum14 (c : Dev nD) (q : Fin 128) (s : ℕ) : EReal :=
  if h : s < cfg14.N then ∑ r : Fin 2000, blk14 V c ⟨s, h⟩ (ix2 r q) else 0
def bsq14 (c : Dev nD) (q : Fin 128) (s : ℕ) : EReal :=
  if h : s < cfg14.N then ∑ r : Fin 2000, blk14 V c ⟨s, h⟩ (ix2 r q) * blk14 V c ⟨s, h⟩ (ix2 r q) else 0

theorem acc14_at_zero (c : Dev nD) (hn : 0 < cfg14.N) :
    acc14 V c 0 hn = (step14_0 (iblk14 V c 0 ⟨0, hn⟩) init14_0, step14_1 (iblk14 V c 0 ⟨0, hn⟩) init14_1) := rfl
theorem acc14_at_succ (c : Dev nD) (n : ℕ) (hn : n + 1 < cfg14.N) :
    acc14 V c (n + 1) hn = (step14_0 (iblk14 V c 0 ⟨n + 1, hn⟩) (acc14 V c n (Nat.lt_of_succ_lt hn)).1,
      step14_1 (iblk14 V c 0 ⟨n + 1, hn⟩) (acc14 V c n (Nat.lt_of_succ_lt hn)).2) := rfl

/-- The running rows after point n are the sums of the blocks' column sums up to n. -/
theorem acc14_fst (c : Dev nD) (q : Fin 128) : ∀ (n : ℕ) (hn : n < cfg14.N),
    (acc14 V c n hn).1 (ix2 (0 : Fin 1) q) = ∑ s ∈ Finset.range (n + 1), bsum14 V c q s
  | 0, hn => by
    rw [acc14_at_zero, Finset.sum_range_one]
    refine (step14_0_apply (iblk14 V c 0 ⟨0, hn⟩) init14_0 q).trans ?_
    rw [init14_0_apply, zero_add]; unfold bsum14; rw [dif_pos hn]
  | n + 1, hn => by
    rw [acc14_at_succ, Finset.sum_range_succ, ← acc14_fst c q n (Nat.lt_of_succ_lt hn)]
    refine (step14_0_apply (iblk14 V c 0 ⟨n + 1, hn⟩) _ q).trans ?_
    unfold bsum14; rw [dif_pos hn]
theorem acc14_snd (c : Dev nD) (q : Fin 128) : ∀ (n : ℕ) (hn : n < cfg14.N),
    (acc14 V c n hn).2 (ix2 (0 : Fin 1) q) = ∑ s ∈ Finset.range (n + 1), bsq14 V c q s
  | 0, hn => by
    rw [acc14_at_zero, Finset.sum_range_one]
    refine (step14_1_apply (iblk14 V c 0 ⟨0, hn⟩) init14_1 q).trans ?_
    rw [init14_1_apply, zero_add]; unfold bsq14; rw [dif_pos hn]
  | n + 1, hn => by
    rw [acc14_at_succ, Finset.sum_range_succ, ← acc14_snd c q n (Nat.lt_of_succ_lt hn)]
    refine (step14_1_apply (iblk14 V c 0 ⟨n + 1, hn⟩) _ q).trans ?_
    unfold bsq14; rw [dif_pos hn]

/-- After the last point they are the sums over all 20000 rows. -/
theorem acc14_fst_last (c : Dev nD) (q : Fin 128) (hn : 9 < cfg14.N) :
    (acc14 V c 9 hn).1 (ix2 (0 : Fin 1) q) = ∑ i : Fin 20000, X14in V c (ix2 i q) := by
  rw [acc14_fst V c q 9 hn]
  show ∑ s ∈ Finset.range 10, bsum14 V c q s = _
  rw [Finset.sum_range, ← sum_blocks14 (fun i => X14in V c (ix2 i q))]
  refine Finset.sum_congr rfl fun s _ => ?_
  have hs : s.val < cfg14.N := lt_of_lt_of_eq s.isLt (show cfg14.N = 10 from N_14).symm
  unfold bsum14; rw [dif_pos hs]
  exact Finset.sum_congr rfl fun r _ => iblk14_0_apply V c ⟨s.val, hs⟩ r q
theorem acc14_snd_last (c : Dev nD) (q : Fin 128) (hn : 9 < cfg14.N) :
    (acc14 V c 9 hn).2 (ix2 (0 : Fin 1) q) = ∑ i : Fin 20000, X14in V c (ix2 i q) * X14in V c (ix2 i q) := by
  rw [acc14_snd V c q 9 hn]
  show ∑ s ∈ Finset.range 10, bsq14 V c q s = _
  rw [Finset.sum_range, ← sum_blocks14 (fun i => X14in V c (ix2 i q) * X14in V c (ix2 i q))]
  refine Finset.sum_congr rfl fun s _ => ?_
  have hs : s.val < cfg14.N := lt_of_lt_of_eq s.isLt (show cfg14.N = 10 from N_14).symm
  unfold bsq14; rw [dif_pos hs]
  exact Finset.sum_congr rfl fun r _ => by rw [iblk14_0_apply V c ⟨s.val, hs⟩ r q]

/-- An index of an output row's array is in point t's block iff each coordinate is in the block's range. -/
theorem mem_blk14_1 (t : Fin cfg14.N) (i : S1x128.Idx) :
    i ∈ ((cfg14.win 1).blk t).view.set ↔ ∀ a : Fin 2, win14_1.index t a * S1x128.size a ≤ (i a).val ∧ (i a).val < win14_1.index t a * S1x128.size a + S1x128.size a := by
  show i ∈ ((View.whole (Pipeline.arrRef spec14 1)).slice (win14_1.rect t)).set ↔ _
  rw [View.set_slice_whole, Rect.mem_set_unit]
  exact Iff.rfl
theorem mem_blk14_2 (t : Fin cfg14.N) (i : S1x128.Idx) :
    i ∈ ((cfg14.win 2).blk t).view.set ↔ ∀ a : Fin 2, win14_2.index t a * S1x128.size a ≤ (i a).val ∧ (i a).val < win14_2.index t a * S1x128.size a + S1x128.size a := by
  show i ∈ ((View.whole (Pipeline.arrRef spec14 2)).slice (win14_2.rect t)).set ↔ _
  rw [View.set_slice_whole, Rect.mem_set_unit]
  exact Iff.rfl

/-- The two output rows as functions of the input array: the column mean, and the mean of squares minus the squared mean. -/
def G14_1 (c : Dev nD) : S1x128.Idx → EReal := fun i =>
  Ideal.div (∑ r : Fin 20000, X14in V c (ix2 r ⟨(i 1).val, idx2_lt1 i⟩)) cnt14
def G14_2 (c : Dev nD) : S1x128.Idx → EReal := fun i =>
  Ideal.div (∑ r : Fin 20000, X14in V c (ix2 r ⟨(i 1).val, idx2_lt1 i⟩) * X14in V c (ix2 r ⟨(i 1).val, idx2_lt1 i⟩)) cnt14
    - Ideal.div (∑ r : Fin 20000, X14in V c (ix2 r ⟨(i 1).val, idx2_lt1 i⟩)) cnt14
      * Ideal.div (∑ r : Fin 20000, X14in V c (ix2 r ⟨(i 1).val, idx2_lt1 i⟩)) cnt14

/-- What the last point writes back into output row 1 is that row of the input array. -/
theorem flushed14_1_eq (c : Dev nD) (t : Fin cfg14.N) (hf : (cfg14.win 1).flush t = true) :
    (dat14 (F := Ideal) V c).flushed 1 t = ((cfg14.win 1).blk t).view.read (Elt Ideal) (G14_1 V c) := by
  have h79 : t.val = 9 := by
    have := (flush14_1 t).mp hf; have := lt_of_lt_of_eq t.isLt (show cfg14.N = 10 from N_14); omega
  show (cfg14.win 1).cut (grid14.coords t) ((dat14 (F := Ideal) V c).after 1 t) = _
  rw [after14_1]
  funext j
  obtain ⟨p, q, rfl⟩ : ∃ (p : Fin 1) (q : Fin 128), j = ix2 p q := ⟨j 0, j 1, eq_ix2 j⟩
  obtain rfl : p = 0 := Subsingleton.elim _ _
  show out14_1 (acc14 V c t.val t.isLt).1 (ix2 0 q) = G14_1 V c (((cfg14.win 1).blk t).view.emb (ix2 0 q))
  rw [out14_1_apply]
  have e : (acc14 V c t.val t.isLt).1 (ix2 (0 : Fin 1) q) = ∑ i : Fin 20000, X14in V c (ix2 i q) := by
    obtain ⟨n, hn⟩ := t
    obtain rfl : n = 9 := h79
    exact acc14_fst_last V c q hn
  rw [e]
  unfold G14_1
  have hq : (⟨((((cfg14.win 1).blk t).view.emb (ix2 (0 : Fin 1) q)) 1).val, idx2_lt1 _⟩ : Fin 128) = q :=
    Fin.ext (by show win14_1.index t (1 : Fin 2) * 128 + 1 * q.val = q.val; have := (idx14_1 t).2; omega)
  rw [hq]

theorem flushed14_2_eq (c : Dev nD) (t : Fin cfg14.N) (hf : (cfg14.win 2).flush t = true) :
    (dat14 (F := Ideal) V c).flushed 2 t = ((cfg14.win 2).blk t).view.read (Elt Ideal) (G14_2 V c) := by
  have h79 : t.val = 9 := by
    have := (flush14_2 t).mp hf; have := lt_of_lt_of_eq t.isLt (show cfg14.N = 10 from N_14); omega
  show (cfg14.win 2).cut (grid14.coords t) ((dat14 (F := Ideal) V c).after 2 t) = _
  rw [after14_2]
  funext j
  obtain ⟨p, q, rfl⟩ : ∃ (p : Fin 1) (q : Fin 128), j = ix2 p q := ⟨j 0, j 1, eq_ix2 j⟩
  obtain rfl : p = 0 := Subsingleton.elim _ _
  show out14_2 (acc14 V c t.val t.isLt).1 (acc14 V c t.val t.isLt).2 (ix2 0 q) = G14_2 V c (((cfg14.win 2).blk t).view.emb (ix2 0 q))
  rw [out14_2_apply]
  have e0 : (acc14 V c t.val t.isLt).1 (ix2 (0 : Fin 1) q) = ∑ i : Fin 20000, X14in V c (ix2 i q) := by
    obtain ⟨n, hn⟩ := t
    obtain rfl : n = 9 := h79
    exact acc14_fst_last V c q hn
  have e1 : (acc14 V c t.val t.isLt).2 (ix2 (0 : Fin 1) q) = ∑ i : Fin 20000, X14in V c (ix2 i q) * X14in V c (ix2 i q) := by
    obtain ⟨n, hn⟩ := t
    obtain rfl : n = 9 := h79
    exact acc14_snd_last V c q hn
  rw [e0, e1]
  unfold G14_2
  have hq : (⟨((((cfg14.win 2).blk t).view.emb (ix2 (0 : Fin 1) q)) 1).val, idx2_lt1 _⟩ : Fin 128) = q :=
    Fin.ext (by show win14_2.index t (1 : Fin 2) * 128 + 1 * q.val = q.val; have := (idx14_2 t).2; omega)
  rw [hq]

/-- Every index of an output row is in the last point's block. -/
theorem cover14_1 (i : S1x128.Idx) : ∃ t : Fin cfg14.N, (cfg14.win 1).flush t = true ∧ i ∈ ((cfg14.win 1).blk t).view.set := by
  refine ⟨⟨9, by decide⟩, (flush14_1 _).mpr rfl, ?_⟩
  rw [mem_blk14_1]
  intro a
  match a with
  | ⟨0, _⟩ => show win14_1.index _ (0 : Fin 2) * 1 ≤ (i 0).val ∧ (i 0).val < win14_1.index _ (0 : Fin 2) * 1 + 1; have := (idx14_1 ⟨9, by decide⟩).1; have := idx2_lt0 i; omega
  | ⟨1, _⟩ => show win14_1.index _ (1 : Fin 2) * 128 ≤ (i 1).val ∧ (i 1).val < win14_1.index _ (1 : Fin 2) * 128 + 128; have := (idx14_1 ⟨9, by decide⟩).2; have := idx2_lt1 i; omega
theorem cover14_2 (i : S1x128.Idx) : ∃ t : Fin cfg14.N, (cfg14.win 2).flush t = true ∧ i ∈ ((cfg14.win 2).blk t).view.set := by
  refine ⟨⟨9, by decide⟩, (flush14_2 _).mpr rfl, ?_⟩
  rw [mem_blk14_2]
  intro a
  match a with
  | ⟨0, _⟩ => show win14_2.index _ (0 : Fin 2) * 1 ≤ (i 0).val ∧ (i 0).val < win14_2.index _ (0 : Fin 2) * 1 + 1; have := (idx14_2 ⟨9, by decide⟩).1; have := idx2_lt0 i; omega
  | ⟨1, _⟩ => show win14_2.index _ (1 : Fin 2) * 128 ≤ (i 1).val ∧ (i 1).val < win14_2.index _ (1 : Fin 2) * 128 + 128; have := (idx14_2 ⟨9, by decide⟩).2; have := idx2_lt1 i; omega

/-- The output rows after the region. -/
theorem final14_1 (c : Dev nD) : (dat14 (F := Ideal) V c).arrAt 1 cfg14.N = G14_1 V c :=
  (dat14 (F := Ideal) V c).arrAt_eq_of_cover 1 (G14_1 V c) (fun t hf => flushed14_1_eq V c t hf) cover14_1
theorem final14_2 (c : Dev nD) : (dat14 (F := Ideal) V c).arrAt 2 cfg14.N = G14_2 V c :=
  (dat14 (F := Ideal) V c).arrAt_eq_of_cover 2 (G14_2 V c) (fun t hf => flushed14_2_eq V c t hf) cover14_2

/-- Output row 1 after the region is the column mean of the input array over all 20000 rows. -/
theorem arrAt14_out1 (c : Dev nD) :
    Cert.Stage.toRow1 ((dat14 (F := Ideal) V c).arrAt 1 cfg14.N) = Cert.Stage.colMean cnt14 (Cert.Stage.toMat (V c (Pipeline.arrRef spec14 0))) := by
  rw [final14_1]; rfl
/-- Output row 2 after the region is its column variance, as mean of squares minus squared mean. -/
theorem arrAt14_out2 (c : Dev nD) :
    Cert.Stage.toRow1 ((dat14 (F := Ideal) V c).arrAt 2 cfg14.N) = Cert.Stage.colVarSq cnt14 (Cert.Stage.toMat (V c (Pipeline.arrRef spec14 0))) := by
  rw [final14_2]; rfl

end Regions

end Cert.KernelIdeal.RgVal

end
-- ==== Proof.Rg15Val.lean ====
import proofs.«418385_j87393994539142_1_alg».proof.Proof.Rg15
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

/-!
# Kernel region 15: what the region leaves in its arrays, over the extended reals

The six arrays the region reads are never written back, so they end as they were found. The output array is
written back block by block, 10 blocks of 2000 rows; block t holds, at row p and column q, the normalised,
rectified value of row 2000 t + p of the operand plus the same row of the residual. The blocks tile the 20000
rows, so the whole output array is one function of the six input arrays: the stage  res + max (g (x - mu)
rsqrt (var + eps) + be) 0  taken entry by entry, the four rows read at the entry's column.
-/

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region15
variable (V : (c : Dev nD) → (b : Ref sig .tc) → Buf (Elt Ideal) ((c : Thread nD τ).loc b))

/-! ## The arrays the region only reads -/

theorem arrAt15_in_0 (c : Dev nD) : (dat15 (F := Ideal) V c).arrAt 0 cfg15.N = V c (Pipeline.arrRef spec15 0) :=
  ((dat15 V c).arrAt_in 0 rfl _).trans (A_eq15 V c 0)
theorem arrAt15_in_1 (c : Dev nD) : (dat15 (F := Ideal) V c).arrAt 1 cfg15.N = V c (Pipeline.arrRef spec15 1) :=
  ((dat15 V c).arrAt_in 1 rfl _).trans (A_eq15 V c 1)
theorem arrAt15_in_2 (c : Dev nD) : (dat15 (F := Ideal) V c).arrAt 2 cfg15.N = V c (Pipeline.arrRef spec15 2) :=
  ((dat15 V c).arrAt_in 2 rfl _).trans (A_eq15 V c 2)
theorem arrAt15_in_3 (c : Dev nD) : (dat15 (F := Ideal) V c).arrAt 3 cfg15.N = V c (Pipeline.arrRef spec15 3) :=
  ((dat15 V c).arrAt_in 3 rfl _).trans (A_eq15 V c 3)
theorem arrAt15_in_4 (c : Dev nD) : (dat15 (F := Ideal) V c).arrAt 4 cfg15.N = V c (Pipeline.arrRef spec15 4) :=
  ((dat15 V c).arrAt_in 4 rfl _).trans (A_eq15 V c 4)
theorem arrAt15_in_5 (c : Dev nD) : (dat15 (F := Ideal) V c).arrAt 5 cfg15.N = V c (Pipeline.arrRef spec15 5) :=
  ((dat15 V c).arrAt_in 5 rfl _).trans (A_eq15 V c 5)

/-! ## The body's value at an entry of the block -/

theorem zeros15 : (![0, 0] : Fin 2 → Nat) = fun _ => 0 := funext fun a => by fin_cases a <;> rfl

/-- The value the body stores at row p, column q of the block, from the six blocks it loads: the residual plus
    the rectified normalised operand, the four rows read at column q. The zero the rectifier compares with is the
    real number zero; the small constant added to the variance stays the word it is printed as. -/
theorem pay15_apply (x r : Vec Ideal S2000x128 .f32) (mu var g be : Vec Ideal S1x128 .f32) (p : Fin 2000) (q : Fin 128) :
    k15_pay1 x g mu var be r (ix2 p q)
      = r (ix2 p q) + max (g (ix2 (0 : Fin 1) q) * (x (ix2 p q) - mu (ix2 (0 : Fin 1) q))
          * Ideal.rsqrt (var (ix2 (0 : Fin 1) q) + Ideal.ofBits .f32 0x3727C5AC#32) + be (ix2 (0 : Fin 1) q)) 0 := by
  unfold k15_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply, broadcast_apply]
  show _ + max (_ * _ * Ideal.rsqrt (var (ix2 (0 : Fin 1) q) + Ideal.ofBits .f32 0x3727C5AC#32) + _) (Ideal.ofBits .f32 0x00000000#32) = _
  rw [Ideal.ofBits_zero_f32]

/-! ## The output array as one function of the input arrays -/

/-- The stage, entry by entry, as a function of the six whole arrays. -/
def bn15 (a0 a1 : S20000x128.Idx → EReal) (a2 a3 a4 a5 : S1x128.Idx → EReal) : S20000x128.Idx → EReal :=
  fun i => Cert.Stage.bnRelu (Ideal.ofBits .f32 0x3727C5AC#32) (Cert.Stage.toMat a0) (Cert.Stage.toMat a1)
    (Cert.Stage.toRow1 a2) (Cert.Stage.toRow1 a3) (Cert.Stage.toRow1 a4) (Cert.Stage.toRow1 a5) (i 0) (i 1)

/-- The stage at row P, column q, spelt out. -/
theorem bn15_apply (a0 a1 : S20000x128.Idx → EReal) (a2 a3 a4 a5 : S1x128.Idx → EReal) (P : Fin 20000) (q : Fin 128) :
    bn15 a0 a1 a2 a3 a4 a5 (ix2 P q)
      = a1 (ix2 P q) + max (a4 (ix2 (0 : Fin 1) q) * (a0 (ix2 P q) - a2 (ix2 (0 : Fin 1) q))
          * Ideal.rsqrt (a3 (ix2 (0 : Fin 1) q) + Ideal.ofBits .f32 0x3727C5AC#32) + a5 (ix2 (0 : Fin 1) q)) 0 := rfl

/-- Where each window's block sits at grid point t: the two operands and the output at row block t, the four
    rows at the one block there is. Decided over the 10 points. -/
theorem index15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = t.val ∧ win15_6.index t (1 : Fin 2) = 0 :=
  (by decide +kernel : ∀ t : Fin grid15.N, _)

/-- Row p of block t is row 2000 t + p of the array. -/
theorem row15_lt (t : Fin cfg15.N) (p : Fin 2000) : 2000 * t.val + p.val < 20000 := by
  have ht : t.val < 10 := Nat.lt_of_lt_of_eq t.isLt N_15
  have hp := p.isLt
  omega

/-- An operand block (window 0 or 1) at row p, column q is the array at row 2000 t + p, column q. -/
theorem iblk15_0_apply (c : Dev nD) (t : Fin cfg15.N) (p : Fin 2000) (q : Fin 128) :
    (iblk15 V c 0 t : Vec Ideal S2000x128 .f32) (ix2 p q)
      = (V c (Pipeline.arrRef spec15 0) : S20000x128.Idx → EReal) (ix2 ⟨2000 * t.val + p.val, row15_lt t p⟩ q) := by
  obtain ⟨e00, e01, -⟩ := index15 t
  unfold iblk15
  rw [View.read_apply]
  refine congrArg (V c (Pipeline.arrRef spec15 0) : S20000x128.Idx → EReal) (funext fun a => Fin.ext ?_)
  match a with
  | ⟨0, _⟩ => show win15_0.index t (0 : Fin 2) * 2000 + 1 * p.val = 2000 * t.val + p.val; omega
  | ⟨1, _⟩ => show win15_0.index t (1 : Fin 2) * 128 + 1 * q.val = q.val; omega

theorem iblk15_1_apply (c : Dev nD) (t : Fin cfg15.N) (p : Fin 2000) (q : Fin 128) :
    (iblk15 V c 1 t : Vec Ideal S2000x128 .f32) (ix2 p q)
      = (V c (Pipeline.arrRef spec15 1) : S20000x128.Idx → EReal) (ix2 ⟨2000 * t.val + p.val, row15_lt t p⟩ q) := by
  obtain ⟨-, -, e10, e11, -⟩ := index15 t
  unfold iblk15
  rw [View.read_apply]
  refine congrArg (V c (Pipeline.arrRef spec15 1) : S20000x128.Idx → EReal) (funext fun a => Fin.ext ?_)
  match a with
  | ⟨0, _⟩ => show win15_1.index t (0 : Fin 2) * 2000 + 1 * p.val = 2000 * t.val + p.val; omega
  | ⟨1, _⟩ => show win15_1.index t (1 : Fin 2) * 128 + 1 * q.val = q.val; omega

/-- A row block (windows 2 to 5) at column q is the one-row array at column q, at every point. -/
theorem iblk15_2_apply (c : Dev nD) (t : Fin cfg15.N) (q : Fin 128) :
    (iblk15 V c 2 t : Vec Ideal S1x128 .f32) (ix2 (0 : Fin 1) q)
      = (V c (Pipeline.arrRef spec15 2) : S1x128.Idx → EReal) (ix2 (0 : Fin 1) q) := by
  obtain ⟨-, -, -, -, e20, e21, -⟩ := index15 t
  unfold iblk15
  rw [View.read_apply]
  refine congrArg (V c (Pipeline.arrRef spec15 2) : S1x128.Idx → EReal) (funext fun a => Fin.ext ?_)
  match a with
  | ⟨0, _⟩ => show win15_2.index t (0 : Fin 2) * 1 + 1 * 0 = 0; omega
  | ⟨1, _⟩ => show win15_2.index t (1 : Fin 2) * 128 + 1 * q.val = q.val; omega

theorem iblk15_3_apply (c : Dev nD) (t : Fin cfg15.N) (q : Fin 128) :
    (iblk15 V c 3 t : Vec Ideal S1x128 .f32) (ix2 (0 : Fin 1) q)
      = (V c (Pipeline.arrRef spec15 3) : S1x128.Idx → EReal) (ix2 (0 : Fin 1) q) := by
  obtain ⟨-, -, -, -, -, -, e30, e31, -⟩ := index15 t
  unfold iblk15
  rw [View.read_apply]
  refine congrArg (V c (Pipeline.arrRef spec15 3) : S1x128.Idx → EReal) (funext fun a => Fin.ext ?_)
  match a with
  | ⟨0, _⟩ => show win15_3.index t (0 : Fin 2) * 1 + 1 * 0 = 0; omega
  | ⟨1, _⟩ => show win15_3.index t (1 : Fin 2) * 128 + 1 * q.val = q.val; omega

theorem iblk15_4_apply (c : Dev nD) (t : Fin cfg15.N) (q : Fin 128) :
    (iblk15 V c 4 t : Vec Ideal S1x128 .f32) (ix2 (0 : Fin 1) q)
      = (V c (Pipeline.arrRef spec15 4) : S1x128.Idx → EReal) (ix2 (0 : Fin 1) q) := by
  obtain ⟨-, -, -, -, -, -, -, -, e40, e41, -⟩ := index15 t
  unfold iblk15
  rw [View.read_apply]
  refine congrArg (V c (Pipeline.arrRef spec15 4) : S1x128.Idx → EReal) (funext fun a => Fin.ext ?_)
  match a with
  | ⟨0, _⟩ => show win15_4.index t (0 : Fin 2) * 1 + 1 * 0 = 0; omega
  | ⟨1, _⟩ => show win15_4.index t (1 : Fin 2) * 128 + 1 * q.val = q.val; omega

theorem iblk15_5_apply (c : Dev nD) (t : Fin cfg15.N) (q : Fin 128) :
    (iblk15 V c 5 t : Vec Ideal S1x128 .f32) (ix2 (0 : Fin 1) q)
      = (V c (Pipeline.arrRef spec15 5) : S1x128.Idx → EReal) (ix2 (0 : Fin 1) q) := by
  obtain ⟨-, -, -, -, -, -, -, -, -, -, e50, e51, -⟩ := index15 t
  unfold iblk15
  rw [View.read_apply]
  refine congrArg (V c (Pipeline.arrRef spec15 5) : S1x128.Idx → EReal) (funext fun a => Fin.ext ?_)
  match a with
  | ⟨0, _⟩ => show win15_5.index t (0 : Fin 2) * 1 + 1 * 0 = 0; omega
  | ⟨1, _⟩ => show win15_5.index t (1 : Fin 2) * 128 + 1 * q.val = q.val; omega

/-- Row p, column q of the output's block t sits at row 2000 t + p, column q of the output array. -/
theorem emb15_out (t : Fin cfg15.N) (p : Fin 2000) (q : Fin 128) :
    (((cfg15.win 6).blk t).view.emb (ix2 p q) : S20000x128.Idx) = ix2 ⟨2000 * t.val + p.val, row15_lt t p⟩ q := by
  obtain ⟨-, -, -, -, -, -, -, -, -, -, -, -, e60, e61⟩ := index15 t
  refine funext fun a => Fin.ext ?_
  match a with
  | ⟨0, _⟩ => show win15_6.index t (0 : Fin 2) * 2000 + 1 * p.val = 2000 * t.val + p.val; omega
  | ⟨1, _⟩ => show win15_6.index t (1 : Fin 2) * 128 + 1 * q.val = q.val; omega

/-- What point t writes back is block t of the stage of the six arrays as the region finds them. -/
theorem flushed15_eq (c : Dev nD) (t : Fin cfg15.N) :
    (dat15 (F := Ideal) V c).flushed 6 t = ((cfg15.win 6).blk t).view.read (Elt Ideal)
      (bn15 (V c (Pipeline.arrRef spec15 0)) (V c (Pipeline.arrRef spec15 1)) (V c (Pipeline.arrRef spec15 2))
        (V c (Pipeline.arrRef spec15 3)) (V c (Pipeline.arrRef spec15 4)) (V c (Pipeline.arrRef spec15 5))) := by
  show (cfg15.win 6).cut (grid15.coords t) ((dat15 V c).after 6 t) = _
  rw [after15_6]
  unfold out15_6
  rw [View.canon_unit_zero zeros15]
  simp only [View.ld_unit_zero (S := S2000x128) zeros15, View.ld_unit_zero (S := S1x128) zeros15]
  funext j
  obtain ⟨p, q, rfl⟩ : ∃ (p : Fin 2000) (q : Fin 128), j = ix2 p q := ⟨j 0, j 1, eq_ix2 j⟩
  refine (pay15_apply _ _ _ _ _ _ p q).trans ?_
  rw [View.read_apply, emb15_out, bn15_apply, iblk15_0_apply, iblk15_1_apply, iblk15_2_apply, iblk15_3_apply, iblk15_4_apply, iblk15_5_apply]
  rfl

/-- An index of the output array is in point t's block exactly when each coordinate is in the block's range. -/
theorem mem_blk15 (t : Fin cfg15.N) (i : S20000x128.Idx) :
    i ∈ ((cfg15.win 6).blk t).view.set ↔ ∀ a : Fin 2, win15_6.index t a * S2000x128.size a ≤ (i a).val
      ∧ (i a).val < win15_6.index t a * S2000x128.size a + S2000x128.size a := by
  show i ∈ ((View.whole main_v123).slice (win15_6.rect t)).set ↔ _
  rw [View.set_slice_whole, Rect.mem_set_unit]
  exact Iff.rfl

/-- Every row of the output array is in some point's block: row P in the block of point P / 2000. -/
theorem cover15 (i : S20000x128.Idx) :
    ∃ t : Fin cfg15.N, (cfg15.win 6).flush t = true ∧ i ∈ ((cfg15.win 6).blk t).view.set := by
  have hi0 : (i 0).val < 20000 := (i 0).isLt
  have hi1 : (i 1).val < 128 := (i 1).isLt
  have hlt : (i 0).val / 2000 < cfg15.N := by rw [show cfg15.N = 10 from N_15]; omega
  obtain ⟨-, -, -, -, -, -, -, -, -, -, -, -, e60, e61⟩ := index15 ⟨(i 0).val / 2000, hlt⟩
  refine ⟨⟨(i 0).val / 2000, hlt⟩, flush15_6 _, ?_⟩
  rw [mem_blk15]
  intro a
  match a with
  | ⟨0, _⟩ =>
    show win15_6.index ⟨(i 0).val / 2000, hlt⟩ (0 : Fin 2) * 2000 ≤ (i 0).val
      ∧ (i 0).val < win15_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win15_6.index ⟨(i 0).val / 2000, hlt⟩ (1 : Fin 2) * 128 ≤ (i 1).val
      ∧ (i 1).val < win15_6.index ⟨(i 0).val / 2000, hlt⟩ (1 : Fin 2) * 128 + 128
    rw [e61]; omega

/-- The output array after the run is the stage of the six input arrays. -/
theorem final15 (c : Dev nD) : (dat15 (F := Ideal) V c).arrAt 6 cfg15.N
    = bn15 (V c (Pipeline.arrRef spec15 0)) (V c (Pipeline.arrRef spec15 1)) (V c (Pipeline.arrRef spec15 2))
        (V c (Pipeline.arrRef spec15 3)) (V c (Pipeline.arrRef spec15 4)) (V c (Pipeline.arrRef spec15 5)) :=
  (dat15 V c).arrAt_eq_of_cover 6 _ (fun t _ => flushed15_eq V c t) cover15

/-- The same, read as matrices and rows. -/
theorem arrAt15_out (c : Dev nD) :
    Cert.Stage.toMat ((dat15 (F := Ideal) V c).arrAt 6 cfg15.N)
      = Cert.Stage.bnRelu (Ideal.ofBits .f32 0x3727C5AC#32) (Cert.Stage.toMat (V c (Pipeline.arrRef spec15 0)))
          (Cert.Stage.toMat (V c (Pipeline.arrRef spec15 1))) (Cert.Stage.toRow1 (V c (Pipeline.arrRef spec15 2)))
          (Cert.Stage.toRow1 (V c (Pipeline.arrRef spec15 3))) (Cert.Stage.toRow1 (V c (Pipeline.arrRef spec15 4)))
          (Cert.Stage.toRow1 (V c (Pipeline.arrRef spec15 5))) := by
  rw [final15]
  rfl

end Region15

end Cert.KernelIdeal.RgVal

end
-- ==== Proof.Rg16Val.lean ====
import proofs.«418385_j87393994539142_1_alg».proof.Proof.Rg16
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 16 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 10 points tile the array. -/

/-! ## The matrix product of a row block at an entry -/

/-- On the result's row axis the left operand reads the result's row. -/
theorem lhs_mm16_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- On its column axis the left operand reads the contraction position. -/
theorem lhs_mm16_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
/-- On its row axis the right operand reads the contraction position. -/
theorem rhs_mm16_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
/-- On its column axis the right operand reads the result's column. -/
theorem rhs_mm16_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The product of a row block with the matrix into a zero accumulator, at entry (p, q): the inner product of
    row p of the block with column q of the matrix. -/
theorem mm16_apply {φ₁ φ₂ : FTy} (l : FVec Ideal S2000x128 φ₁) (r : FVec Ideal S128x512 φ₂) (p : Fin 2000) (q : Fin 512) :
    matmul dot_S2000x128_S128x512_S2000x512_1_0_0_1_n_n none l r (constant (F := Ideal) S2000x512 .f32 0x0#32) (ix2 p q)
      = ∑ k : Fin 128, l (ix2 p k) * r (ix2 k q) := by
  show FloatOps.matmul _ _ _ _ _ _ = _
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact lhs_mm16_0 _ _
    | ⟨1, _⟩ => exact (lhs_mm16_1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (rhs_mm16_0 _ _).trans hk
    | ⟨1, _⟩ => exact rhs_mm16_1 _ _)
  rw [el, er]

/-- The bias row spread over the block's rows, at entry (p, q): the row's entry q. -/
theorem bias16_apply (b : Vec Ideal S1x512 .f32) (p : Fin 2000) (q : Fin 512) :
    broadcastTo S2000x512 b broadcasts_S1x512_S2000x512 (ix2 p q) = b (ix2 (0 : Fin 1) q) :=
  broadcastTo_apply b broadcasts_S1x512_S2000x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The body's payload at entry (p, q) of the block: row p of the x block against column q of W, plus the
    bias at q. A change of float format is the identity on the extended reals, and so is a change of shape to
    the same shape. -/
theorem pay16_apply (x0 : Vec Ideal S2000x128 .f32) (x1 : Vec Ideal S128x512 .f32) (x2 : Vec Ideal S1x512 .f32) (p : Fin 2000) (q : Fin 512) :
    k16_pay1 (F := Ideal) x0 x1 x2 (ix2 p q) = (∑ k : Fin 128, x0 (ix2 p k) * x1 (ix2 k q)) + x2 (ix2 (0 : Fin 1) q) := by
  unfold k16_pay1
  simp only [shapeCast_self]
  rw [addf_apply, mm16_apply, bias16_apply]
  rfl

/-! ## The blocks over the grid -/

theorem hz16 : (![0, 0] : Fin 2 → Nat) = fun _ => 0 := funext fun a => by fin_cases a <;> rfl

/-- The windows' block indices over the grid: the x block and the output block sit at row block t, column
    block 0; W and the bias are at block (0, 0) at every point. -/
theorem idx_facts16 : ∀ t : Fin cfg16.N, win16_0.index t (0 : Fin 2) = t.val
    ∧ win16_0.index t (1 : Fin 2) = 0
    ∧ win16_1.index t (0 : Fin 2) = 0
    ∧ win16_1.index t (1 : Fin 2) = 0
    ∧ win16_2.index t (0 : Fin 2) = 0
    ∧ win16_2.index t (1 : Fin 2) = 0
    ∧ win16_3.index t (0 : Fin 2) = t.val
    ∧ win16_3.index t (1 : Fin 2) = 0 :=
  (by decide +kernel : ∀ t : Fin grid16.N, _)

/-- An index of the output array is in point t's block iff each coordinate is in the block's range. -/
theorem mem_blk16 (t : Fin cfg16.N) (i : S20000x512.Idx) :
    i ∈ ((cfg16.win 3).blk t).view.set ↔ ∀ a : Fin 2, win16_3.index t a * S2000x512.size a ≤ (i a).val ∧ (i a).val < win16_3.index t a * S2000x512.size a + S2000x512.size a := by
  show i ∈ ((View.whole main_v147).slice (win16_3.rect t)).set ↔ _
  rw [View.set_slice_whole, Rect.mem_set_unit]
  exact Iff.rfl

/-- Every row of the output array lies in the block of the point its row block names. -/
theorem cover16 (i : S20000x512.Idx) : ∃ t : Fin cfg16.N, (cfg16.win 3).flush t = true ∧ i ∈ ((cfg16.win 3).blk t).view.set := by
  have hi0 : (i 0).val < 20000 := (i 0).isLt
  have hi1 : (i 1).val < 512 := (i 1).isLt
  let t : Fin cfg16.N := ⟨(i 0).val / 2000, by show (i 0).val / 2000 < grid16.N; rw [N_16]; omega⟩
  obtain ⟨-, -, -, -, -, -, e6, e7⟩ := idx_facts16 t
  have ht : t.val = (i 0).val / 2000 := rfl
  refine ⟨t, flush16_3 t, ?_⟩
  rw [mem_blk16]
  intro a
  match a with
  | ⟨0, _⟩ => show win16_3.index t (0 : Fin 2) * 2000 ≤ (i 0).val ∧ (i 0).val < win16_3.index t (0 : Fin 2) * 2000 + 2000; omega
  | ⟨1, _⟩ => show win16_3.index t (1 : Fin 2) * 512 ≤ (i 1).val ∧ (i 1).val < win16_3.index t (1 : Fin 2) * 512 + 512; omega

/-! ## The arrays after the run -/

/-- The affine map of whole arrays, index by index: entry i is the inner product of row i 0 of x with column
    i 1 of W, plus the bias at i 1. -/
def G16 (a0 : S20000x128.Idx → EReal) (a1 : S128x512.Idx → EReal) (a2 : S1x512.Idx → EReal) : S20000x512.Idx → EReal :=
  fun i => (∑ k : Fin 128, a0 (ix2 (n0 := 20000) (i 0) k) * a1 (ix2 k (n1 := 512) (i 1))) + a2 (ix2 (0 : Fin 1) (n1 := 512) (i 1))

section Region16
variable (V : (c : Dev nD) → (b : Ref sig .tc) → Buf (Elt Ideal) ((c : Thread nD τ).loc b))

/-- The array of x is never written back. -/
theorem arrAt16_in_0 (c : Dev nD) : (dat16 (F := Ideal) V c).arrAt 0 cfg16.N = V c (Pipeline.arrRef spec16 0) :=
  ((dat16 (F := Ideal) V c).arrAt_in 0 rfl _).trans (A_eq16 V c 0)
/-- The array of W is never written back. -/
theorem arrAt16_in_1 (c : Dev nD) : (dat16 (F := Ideal) V c).arrAt 1 cfg16.N = V c (Pipeline.arrRef spec16 1) :=
  ((dat16 (F := Ideal) V c).arrAt_in 1 rfl _).trans (A_eq16 V c 1)
/-- The array of the bias is never written back. -/
theorem arrAt16_in_2 (c : Dev nD) : (dat16 (F := Ideal) V c).arrAt 2 cfg16.N = V c (Pipeline.arrRef spec16 2) :=
  ((dat16 (F := Ideal) V c).arrAt_in 2 rfl _).trans (A_eq16 V c 2)

/-- What point t writes back is block t of the affine map of the arrays as the region finds them: the x block's
    row p is row p of the output block's row range, W and the bias are read whole. -/
theorem flushed16_eq (c : Dev nD) (t : Fin cfg16.N) :
    (dat16 (F := Ideal) V c).flushed 3 t = ((cfg16.win 3).blk t).view.read (Elt Ideal)
      (G16 (V c (Pipeline.arrRef spec16 0)) (V c (Pipeline.arrRef spec16 1)) (V c (Pipeline.arrRef spec16 2))) := by
  show (cfg16.win 3).cut (grid16.coords t) ((dat16 (F := Ideal) V c).after 3 t) = _
  rw [after16_3]
  unfold out16_3
  rw [View.canon_unit_zero hz16]
  simp only [View.ld_unit_zero (S := S2000x128) hz16, View.ld_unit_zero (S := S128x512) hz16, View.ld_unit_zero (S := S1x512) hz16]
  obtain ⟨e0, e1, e2, e3, e4, e5, e6, e7⟩ := idx_facts16 t
  funext j
  obtain ⟨p, q, rfl⟩ : ∃ (p : Fin 2000) (q : Fin 512), j = ix2 p q := ⟨j 0, j 1, eq_ix2 j⟩
  refine (pay16_apply _ _ _ p q).trans ?_
  have hx : ∀ k : Fin 128, iblk16 V c 0 t (ix2 p k)
      = V c (Pipeline.arrRef spec16 0) (ix2 (n0 := 20000) ((((cfg16.win 3).blk t).view.emb (ix2 p q)) 0) k) := fun k => by
    show V c (Pipeline.arrRef spec16 0) (((cfg16.win 0).blk t).view.emb (ix2 p k)) = _
    refine congrArg _ (funext fun a => Fin.ext ?_)
    match a with
    | ⟨0, _⟩ => show win16_0.index t (0 : Fin 2) * 2000 + 1 * p.val = win16_3.index t (0 : Fin 2) * 2000 + 1 * p.val; omega
    | ⟨1, _⟩ => show win16_0.index t (1 : Fin 2) * 128 + 1 * k.val = k.val; omega
  have hw : ∀ k : Fin 128, iblk16 V c 1 t (ix2 k q)
      = V c (Pipeline.arrRef spec16 1) (ix2 k (n1 := 512) ((((cfg16.win 3).blk t).view.emb (ix2 p q)) 1)) := fun k => by
    show V c (Pipeline.arrRef spec16 1) (((cfg16.win 1).blk t).view.emb (ix2 k q)) = _
    refine congrArg _ (funext fun a => Fin.ext ?_)
    match a with
    | ⟨0, _⟩ => show win16_1.index t (0 : Fin 2) * 128 + 1 * k.val = k.val; omega
    | ⟨1, _⟩ => show win16_1.index t (1 : Fin 2) * 512 + 1 * q.val = win16_3.index t (1 : Fin 2) * 512 + 1 * q.val; omega
  have hb : iblk16 V c 2 t (ix2 (0 : Fin 1) q)
      = V c (Pipeline.arrRef spec16 2) (ix2 (0 : Fin 1) (n1 := 512) ((((cfg16.win 3).blk t).view.emb (ix2 p q)) 1)) := by
    show V c (Pipeline.arrRef spec16 2) (((cfg16.win 2).blk t).view.emb (ix2 (0 : Fin 1) q)) = _
    refine congrArg _ (funext fun a => Fin.ext ?_)
    match a with
    | ⟨0, _⟩ => show win16_2.index t (0 : Fin 2) * 1 + 1 * 0 = 0; omega
    | ⟨1, _⟩ => show win16_2.index t (1 : Fin 2) * 512 + 1 * q.val = win16_3.index t (1 : Fin 2) * 512 + 1 * q.val; omega
  rw [hb, Finset.sum_congr rfl fun k _ => by rw [hx k, hw k]]
  rfl

/-- The output array after the run is the affine map of the arrays as the region finds them. -/
theorem final16 (c : Dev nD) : (dat16 (F := Ideal) V c).arrAt 3 cfg16.N
    = G16 (V c (Pipeline.arrRef spec16 0)) (V c (Pipeline.arrRef spec16 1)) (V c (Pipeline.arrRef spec16 2)) :=
  (dat16 (F := Ideal) V c).arrAt_eq_of_cover 3 _ (fun t _ => flushed16_eq V c t) cover16

/-- The output array after the run, as a matrix: the affine map of rows of the matrices the input arrays hold. -/
theorem arrAt16_out (c : Dev nD) : Cert.Stage.toMat ((dat16 (F := Ideal) V c).arrAt 3 cfg16.N)
    = Cert.Stage.lin (Cert.Stage.toMat (V c (Pipeline.arrRef spec16 0))) (Cert.Stage.toMat (V c (Pipeline.arrRef spec16 1)))
        (Cert.Stage.toRow1 (V c (Pipeline.arrRef spec16 2))) := by
  rw [final16]
  rfl

end Region16

end Cert.KernelIdeal.RgVal

end
-- ==== Proof.Rg17Val.lean ====
import proofs.«418385_j87393994539142_1_alg».proof.Proof.Rg17
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat Cfg Window)
open scoped BigOperators

/-! # Kernel region 17 at the extended reals: what the run leaves in the region's arrays

The three input arrays are never written back. The output array ends at the affine map of the input arrays:
entry (i, j) is the inner product of row i of x with column j of W, plus the bias at j. The body's payload is
read at an entry of its block; the block each point writes back is the block of that one whole-array function;
the blocks of the 80 points tile the array. -/

/-! ## The matrix product of a row block at an entry -/

/-- On the result's row axis the left operand reads the result's row. -/
theorem lhs_mm17_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- On its column axis the left operand reads the contraction position. -/
theorem lhs_mm17_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- On its row axis the right operand reads the contraction position. -/
theorem rhs_mm17_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- On its column axis the right operand reads the result's column. -/
theorem rhs_mm17_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a row block with the matrix into a zero accumulator, at entry (p, q): the inner product of
    row p of the block with column q of the matrix. -/
theorem mm17_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x0#32) (ix2 p q)
      = ∑ k : Fin 128, l (ix2 p k) * r (ix2 k q) := by
  show FloatOps.matmul _ _ _ _ _ _ = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_mm17_0 _ _
    | ⟨1, _⟩ => exact (lhs_mm17_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_mm17_0 _ _).trans hk
    | ⟨1, _⟩ => exact rhs_mm17_1 _ _)
  rw [el, er]

/-- The bias row spread over the block's rows, at entry (p, q): the row's entry q. -/
theorem bias17_apply (b : Vec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's payload at entry (p, q) of the block: row p of the x block against column q of W, plus the
    bias at q. A change of float format is the identity on the extended reals, and so is a change of shape to
    the same shape. -/
theorem pay17_apply (x0 : Vec Ideal S4000x128 .f32) (x1 : Vec Ideal S128x128 .f32) (x2 : Vec Ideal S1x128 .f32) (p : Fin 4000) (q : Fin 128) :
    k17_pay1 (F := Ideal) x0 x1 x2 (ix2 p q) = (∑ k : Fin 128, x0 (ix2 p k) * x1 (ix2 k q)) + x2 (ix2 (0 : Fin 1) q) := by
  unfold k17_pay1
  simp only [shapeCast_self]
  rw [addf_apply, mm17_apply, bias17_apply]
  rfl

/-! ## The blocks over the grid -/

theorem hz17 : (![0, 0] : Fin 2 → Nat) = fun _ => 0 := funext fun a => by fin_cases a <;> rfl

/-- The windows' block indices over the grid: the x block and the output block sit at row block t, column
    block 0; W and the bias are at block (0, 0) at every point. -/
theorem idx_facts17 : ∀ t : Fin cfg17.N, win17_0.index t (0 : Fin 2) = t.val
    ∧ win17_0.index t (1 : Fin 2) = 0
    ∧ win17_1.index t (0 : Fin 2) = 0
    ∧ win17_1.index t (1 : Fin 2) = 0
    ∧ win17_2.index t (0 : Fin 2) = 0
    ∧ win17_2.index t (1 : Fin 2) = 0
    ∧ win17_3.index t (0 : Fin 2) = t.val
    ∧ win17_3.index t (1 : Fin 2) = 0 :=
  (by decide +kernel : ∀ t : Fin grid17.N, _)

/-- An index of the output array is in point t's block iff each coordinate is in the block's range. -/
theorem mem_blk17 (t : Fin cfg17.N) (i : S320000x128.Idx) :
    i ∈ ((cfg17.win 3).blk t).view.set ↔ ∀ a : Fin 2, win17_3.index t a * S4000x128.size a ≤ (i a).val ∧ (i a).val < win17_3.index t a * S4000x128.size a + S4000x128.size a := by
  show i ∈ ((View.whole main_v157).slice (win17_3.rect t)).set ↔ _
  rw [View.set_slice_whole, Rect.mem_set_unit]
  exact Iff.rfl

/-- Every row of the output array lies in the block of the point its row block names. -/
theorem cover17 (i : S320000x128.Idx) : ∃ t : Fin cfg17.N, (cfg17.win 3).flush t = true ∧ i ∈ ((cfg17.win 3).blk t).view.set := by
  have hi0 : (i 0).val < 320000 := (i 0).isLt
  have hi1 : (i 1).val < 128 := (i 1).isLt
  let t : Fin cfg17.N := ⟨(i 0).val / 4000, by show (i 0).val / 4000 < grid17.N; rw [N_17]; omega⟩
  obtain ⟨-, -, -, -, -, -, e6, e7⟩ := idx_facts17 t
  have ht : t.val = (i 0).val / 4000 := rfl
  refine ⟨t, flush17_3 t, ?_⟩
  rw [mem_blk17]
  intro a
  match a with
  | ⟨0, _⟩ => show win17_3.index t (0 : Fin 2) * 4000 ≤ (i 0).val ∧ (i 0).val < win17_3.index t (0 : Fin 2) * 4000 + 4000; omega
  | ⟨1, _⟩ => show win17_3.index t (1 : Fin 2) * 128 ≤ (i 1).val ∧ (i 1).val < win17_3.index t (1 : Fin 2) * 128 + 128; omega

/-! ## The arrays after the run -/

/-- The affine map of whole arrays, index by index: entry i is the inner product of row i 0 of x with column
    i 1 of W, plus the bias at i 1. -/
def G17 (a0 : S320000x128.Idx → EReal) (a1 : S128x128.Idx → EReal) (a2 : S1x128.Idx → EReal) : S320000x128.Idx → EReal :=
  fun i => (∑ k : Fin 128, a0 (ix2 (n0 := 320000) (i 0) k) * a1 (ix2 k (n1 := 128) (i 1))) + a2 (ix2 (0 : Fin 1) (n1 := 128) (i 1))

section Region17
variable (V : (c : Dev nD) → (b : Ref sig .tc) → Buf (Elt Ideal) ((c : Thread nD τ).loc b))

/-- The array of x is never written back. -/
theorem arrAt17_in_0 (c : Dev nD) : (dat17 (F := Ideal) V c).arrAt 0 cfg17.N = V c (Pipeline.arrRef spec17 0) :=
  ((dat17 (F := Ideal) V c).arrAt_in 0 rfl _).trans (A_eq17 V c 0)
/-- The array of W is never written back. -/
theorem arrAt17_in_1 (c : Dev nD) : (dat17 (F := Ideal) V c).arrAt 1 cfg17.N = V c (Pipeline.arrRef spec17 1) :=
  ((dat17 (F := Ideal) V c).arrAt_in 1 rfl _).trans (A_eq17 V c 1)
/-- The array of the bias is never written back. -/
theorem arrAt17_in_2 (c : Dev nD) : (dat17 (F := Ideal) V c).arrAt 2 cfg17.N = V c (Pipeline.arrRef spec17 2) :=
  ((dat17 (F := Ideal) V c).arrAt_in 2 rfl _).trans (A_eq17 V c 2)

/-- What point t writes back is block t of the affine map of the arrays as the region finds them: the x block's
    row p is row p of the output block's row range, W and the bias are read whole. -/
theorem flushed17_eq (c : Dev nD) (t : Fin cfg17.N) :
    (dat17 (F := Ideal) V c).flushed 3 t = ((cfg17.win 3).blk t).view.read (Elt Ideal)
      (G17 (V c (Pipeline.arrRef spec17 0)) (V c (Pipeline.arrRef spec17 1)) (V c (Pipeline.arrRef spec17 2))) := by
  show (cfg17.win 3).cut (grid17.coords t) ((dat17 (F := Ideal) V c).after 3 t) = _
  rw [after17_3]
  unfold out17_3
  rw [View.canon_unit_zero hz17]
  simp only [View.ld_unit_zero (S := S4000x128) hz17, View.ld_unit_zero (S := S128x128) hz17, View.ld_unit_zero (S := S1x128) hz17]
  obtain ⟨e0, e1, e2, e3, e4, e5, e6, e7⟩ := idx_facts17 t
  funext j
  obtain ⟨p, q, rfl⟩ : ∃ (p : Fin 4000) (q : Fin 128), j = ix2 p q := ⟨j 0, j 1, eq_ix2 j⟩
  refine (pay17_apply _ _ _ p q).trans ?_
  have hx : ∀ k : Fin 128, iblk17 V c 0 t (ix2 p k)
      = V c (Pipeline.arrRef spec17 0) (ix2 (n0 := 320000) ((((cfg17.win 3).blk t).view.emb (ix2 p q)) 0) k) := fun k => by
    show V c (Pipeline.arrRef spec17 0) (((cfg17.win 0).blk t).view.emb (ix2 p k)) = _
    refine congrArg _ (funext fun a => Fin.ext ?_)
    match a with
    | ⟨0, _⟩ => show win17_0.index t (0 : Fin 2) * 4000 + 1 * p.val = win17_3.index t (0 : Fin 2) * 4000 + 1 * p.val; omega
    | ⟨1, _⟩ => show win17_0.index t (1 : Fin 2) * 128 + 1 * k.val = k.val; omega
  have hw : ∀ k : Fin 128, iblk17 V c 1 t (ix2 k q)
      = V c (Pipeline.arrRef spec17 1) (ix2 k (n1 := 128) ((((cfg17.win 3).blk t).view.emb (ix2 p q)) 1)) := fun k => by
    show V c (Pipeline.arrRef spec17 1) (((cfg17.win 1).blk t).view.emb (ix2 k q)) = _
    refine congrArg _ (funext fun a => Fin.ext ?_)
    match a with
    | ⟨0, _⟩ => show win17_1.index t (0 : Fin 2) * 128 + 1 * k.val = k.val; omega
    | ⟨1, _⟩ => show win17_1.index t (1 : Fin 2) * 128 + 1 * q.val = win17_3.index t (1 : Fin 2) * 128 + 1 * q.val; omega
  have hb : iblk17 V c 2 t (ix2 (0 : Fin 1) q)
      = V c (Pipeline.arrRef spec17 2) (ix2 (0 : Fin 1) (n1 := 128) ((((cfg17.win 3).blk t).view.emb (ix2 p q)) 1)) := by
    show V c (Pipeline.arrRef spec17 2) (((cfg17.win 2).blk t).view.emb (ix2 (0 : Fin 1) q)) = _
    refine congrArg _ (funext fun a => Fin.ext ?_)
    match a with
    | ⟨0, _⟩ => show win17_2.index t (0 : Fin 2) * 1 + 1 * 0 = 0; omega
    | ⟨1, _⟩ => show win17_2.index t (1 : Fin 2) * 128 + 1 * q.val = win17_3.index t (1 : Fin 2) * 128 + 1 * q.val; omega
  rw [hb, Finset.sum_congr rfl fun k _ => by rw [hx k, hw k]]
  rfl

/-- The output array after the run is the affine map of the arrays as the region finds them. -/
theorem final17 (c : Dev nD) : (dat17 (F := Ideal) V c).arrAt 3 cfg17.N
    = G17 (V c (Pipeline.arrRef spec17 0)) (V c (Pipeline.arrRef spec17 1)) (V c (Pipeline.arrRef spec17 2)) :=
  (dat17 (F := Ideal) V c).arrAt_eq_of_cover 3 _ (fun t _ => flushed17_eq V c t) cover17

/-- The output array after the run, as a matrix: the affine map of rows of the matrices the input arrays hold. -/
theorem arrAt17_out (c : Dev nD) : Cert.Stage.toMat ((dat17 (F := Ideal) V c).arrAt 3 cfg17.N)
    = Cert.Stage.lin (Cert.Stage.toMat (V c (Pipeline.arrRef spec17 0))) (Cert.Stage.toMat (V c (Pipeline.arrRef spec17 1)))
        (Cert.Stage.toRow1 (V c (Pipeline.arrRef spec17 2))) := by
  rw [final17]
  rfl

end Region17

end Cert.KernelIdeal.RgVal

end
-- ==== Proof.Rg18Val.lean ====
/- What kernel region 18 (the gate kernel) leaves in its arrays, at the extended reals: the four input arrays are as the
   region found them; the first output array is the entrywise sum of the first three inputs, the second the logistic of
   that sum times the fourth input, both as whole 320000 x 128 matrices. Row r of an output is written by the grid point
   r / 4000, whose block is rows 4000 t … 4000 t + 3999 of each array. -/
import proofs.«418385_j87393994539142_1_alg».proof.Proof.Rg18
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region18
variable (V : (c : Dev nD) → (b : Ref sig .tc) → Buf (Elt Ideal) ((c : Thread nD τ).loc b))

/-! # The input arrays are never written back -/

theorem arrAt18_in_0 (c : Dev nD) : (dat18 (F := Ideal) V c).arrAt 0 cfg18.N = V c (Pipeline.arrRef spec18 0) :=
  ((dat18 (F := Ideal) V c).arrAt_in 0 rfl cfg18.N).trans (A_eq18 V c 0)
theorem arrAt18_in_1 (c : Dev nD) : (dat18 (F := Ideal) V c).arrAt 1 cfg18.N = V c (Pipeline.arrRef spec18 1) :=
  ((dat18 (F := Ideal) V c).arrAt_in 1 rfl cfg18.N).trans (A_eq18 V c 1)
theorem arrAt18_in_2 (c : Dev nD) : (dat18 (F := Ideal) V c).arrAt 2 cfg18.N = V c (Pipeline.arrRef spec18 2) :=
  ((dat18 (F := Ideal) V c).arrAt_in 2 rfl cfg18.N).trans (A_eq18 V c 2)
theorem arrAt18_in_3 (c : Dev nD) : (dat18 (F := Ideal) V c).arrAt 3 cfg18.N = V c (Pipeline.arrRef spec18 3) :=
  ((dat18 (F := Ideal) V c).arrAt_in 3 rfl cfg18.N).trans (A_eq18 V c 3)

/-! # The output arrays as functions of the input arrays, index by index -/

/-- The zero offsets of a whole-block rectangle. -/
theorem hz18 : (![0, 0] : Fin 2 → Nat) = fun _ => 0 := funext fun a => by fin_cases a <;> rfl

/-- The pre-activation array: the entrywise sum of three arrays. -/
def sum3_18 (a0 a1 a2 : S320000x128.Idx → EReal) : S320000x128.Idx → EReal := fun i => a0 i + a1 i + a2 i

/-- The message array: the logistic of the pre-activation times a fourth array, entrywise. -/
def gated18 (a0 a1 a2 a3 : S320000x128.Idx → EReal) : S320000x128.Idx → EReal :=
  fun i => Ideal.logistic (a0 i + a1 i + a2 i) * a3 i

/-- The body's first payload is the entrywise sum of its three loaded blocks. -/
theorem pay1_18_eq (x0 x1 x2 : Vec Ideal S4000x128 .f32) :
    k18_pay1 x0 x1 x2 = fun j => x0 j + x1 j + x2 j := by
  unfold k18_pay1
  simp only [shapeCast_self]
  rfl

/-- The body's second payload is the logistic of that sum times the fourth loaded block, entrywise. -/
theorem pay2_18_eq (x0 x1 x2 x3 : Vec Ideal S4000x128 .f32) :
    k18_pay2 x0 x1 x2 x3 = fun j => Ideal.logistic (x0 j + x1 j + x2 j) * x3 j := by
  unfold k18_pay2
  rw [pay1_18_eq]
  simp only [shapeCast_self]
  rfl

/-- Every window's block at grid point t is row block t, column block 0 (decided over the 80 points). -/
theorem idx_facts18 : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0
    ∧ win18_3.index t (0 : Fin 2) = t.val ∧ win18_3.index t (1 : Fin 2) = 0
    ∧ win18_4.index t (0 : Fin 2) = t.val ∧ win18_4.index t (1 : Fin 2) = 0
    ∧ win18_5.index t (0 : Fin 2) = t.val ∧ win18_5.index t (1 : Fin 2) = 0 :=
  (by decide +kernel : ∀ t : Fin grid18.N, _)

/-- An index of window w's block at point t sits in the array where the same index of window w' 's block does. -/
theorem emb18_0_4 (t : Fin cfg18.N) (j : S4000x128.Idx) : ((cfg18.win 0).blk t).view.emb j = ((cfg18.win 4).blk t).view.emb j := by
  obtain ⟨a0, a1, b0, b1, c0, c1, d0, d1, e0, e1, f0, f1⟩ := idx_facts18 t
  funext a; apply Fin.ext
  match a with
  | ⟨0, _⟩ => show win18_0.index t (0 : Fin 2) * 4000 + 1 * (j 0).val = win18_4.index t (0 : Fin 2) * 4000 + 1 * (j 0).val; omega
  | ⟨1, _⟩ => show win18_0.index t (1 : Fin 2) * 128 + 1 * (j 1).val = win18_4.index t (1 : Fin 2) * 128 + 1 * (j 1).val; omega
theorem emb18_1_4 (t : Fin cfg18.N) (j : S4000x128.Idx) : ((cfg18.win 1).blk t).view.emb j = ((cfg18.win 4).blk t).view.emb j := by
  obtain ⟨a0, a1, b0, b1, c0, c1, d0, d1, e0, e1, f0, f1⟩ := idx_facts18 t
  funext a; apply Fin.ext
  match a with
  | ⟨0, _⟩ => show win18_1.index t (0 : Fin 2) * 4000 + 1 * (j 0).val = win18_4.index t (0 : Fin 2) * 4000 + 1 * (j 0).val; omega
  | ⟨1, _⟩ => show win18_1.index t (1 : Fin 2) * 128 + 1 * (j 1).val = win18_4.index t (1 : Fin 2) * 128 + 1 * (j 1).val; omega
theorem emb18_2_4 (t : Fin cfg18.N) (j : S4000x128.Idx) : ((cfg18.win 2).blk t).view.emb j = ((cfg18.win 4).blk t).view.emb j := by
  obtain ⟨a0, a1, b0, b1, c0, c1, d0, d1, e0, e1, f0, f1⟩ := idx_facts18 t
  funext a; apply Fin.ext
  match a with
  | ⟨0, _⟩ => show win18_2.index t (0 : Fin 2) * 4000 + 1 * (j 0).val = win18_4.index t (0 : Fin 2) * 4000 + 1 * (j 0).val; omega
  | ⟨1, _⟩ => show win18_2.index t (1 : Fin 2) * 128 + 1 * (j 1).val = win18_4.index t (1 : Fin 2) * 128 + 1 * (j 1).val; omega
theorem emb18_0_5 (t : Fin cfg18.N) (j : S4000x128.Idx) : ((cfg18.win 0).blk t).view.emb j = ((cfg18.win 5).blk t).view.emb j := by
  obtain ⟨a0, a1, b0, b1, c0, c1, d0, d1, e0, e1, f0, f1⟩ := idx_facts18 t
  funext a; apply Fin.ext
  match a with
  | ⟨0, _⟩ => show win18_0.index t (0 : Fin 2) * 4000 + 1 * (j 0).val = win18_5.index t (0 : Fin 2) * 4000 + 1 * (j 0).val; omega
  | ⟨1, _⟩ => show win18_0.index t (1 : Fin 2) * 128 + 1 * (j 1).val = win18_5.index t (1 : Fin 2) * 128 + 1 * (j 1).val; omega
theorem emb18_1_5 (t : Fin cfg18.N) (j : S4000x128.Idx) : ((cfg18.win 1).blk t).view.emb j = ((cfg18.win 5).blk t).view.emb j := by
  obtain ⟨a0, a1, b0, b1, c0, c1, d0, d1, e0, e1, f0, f1⟩ := idx_facts18 t
  funext a; apply Fin.ext
  match a with
  | ⟨0, _⟩ => show win18_1.index t (0 : Fin 2) * 4000 + 1 * (j 0).val = win18_5.index t (0 : Fin 2) * 4000 + 1 * (j 0).val; omega
  | ⟨1, _⟩ => show win18_1.index t (1 : Fin 2) * 128 + 1 * (j 1).val = win18_5.index t (1 : Fin 2) * 128 + 1 * (j 1).val; omega
theorem emb18_2_5 (t : Fin cfg18.N) (j : S4000x128.Idx) : ((cfg18.win 2).blk t).view.emb j = ((cfg18.win 5).blk t).view.emb j := by
  obtain ⟨a0, a1, b0, b1, c0, c1, d0, d1, e0, e1, f0, f1⟩ := idx_facts18 t
  funext a; apply Fin.ext
  match a with
  | ⟨0, _⟩ => show win18_2.index t (0 : Fin 2) * 4000 + 1 * (j 0).val = win18_5.index t (0 : Fin 2) * 4000 + 1 * (j 0).val; omega
  | ⟨1, _⟩ => show win18_2.index t (1 : Fin 2) * 128 + 1 * (j 1).val = win18_5.index t (1 : Fin 2) * 128 + 1 * (j 1).val; omega
theorem emb18_3_5 (t : Fin cfg18.N) (j : S4000x128.Idx) : ((cfg18.win 3).blk t).view.emb j = ((cfg18.win 5).blk t).view.emb j := by
  obtain ⟨a0, a1, b0, b1, c0, c1, d0, d1, e0, e1, f0, f1⟩ := idx_facts18 t
  funext a; apply Fin.ext
  match a with
  | ⟨0, _⟩ => show win18_3.index t (0 : Fin 2) * 4000 + 1 * (j 0).val = win18_5.index t (0 : Fin 2) * 4000 + 1 * (j 0).val; omega
  | ⟨1, _⟩ => show win18_3.index t (1 : Fin 2) * 128 + 1 * (j 1).val = win18_5.index t (1 : Fin 2) * 128 + 1 * (j 1).val; omega

/-- Block t of the entrywise sum of three arrays is the body's first payload of their blocks at t. -/
theorem blk18_sum3 (a0 a1 a2 : S320000x128.Idx → EReal) (t : Fin cfg18.N) :
    k18_pay1 (F := Ideal) (((cfg18.win 0).blk t).view.read (Elt Ideal) a0) (((cfg18.win 1).blk t).view.read (Elt Ideal) a1)
        (((cfg18.win 2).blk t).view.read (Elt Ideal) a2)
      = ((cfg18.win 4).blk t).view.read (Elt Ideal) (sum3_18 a0 a1 a2) := by
  rw [pay1_18_eq]
  funext j
  show a0 (((cfg18.win 0).blk t).view.emb j) + a1 (((cfg18.win 1).blk t).view.emb j) + a2 (((cfg18.win 2).blk t).view.emb j)
    = a0 (((cfg18.win 4).blk t).view.emb j) + a1 (((cfg18.win 4).blk t).view.emb j) + a2 (((cfg18.win 4).blk t).view.emb j)
  rw [emb18_0_4, emb18_1_4, emb18_2_4]

/-- Block t of the gated message of four arrays is the body's second payload of their blocks at t. -/
theorem blk18_gated (a0 a1 a2 a3 : S320000x128.Idx → EReal) (t : Fin cfg18.N) :
    k18_pay2 (F := Ideal) (((cfg18.win 0).blk t).view.read (Elt Ideal) a0) (((cfg18.win 1).blk t).view.read (Elt Ideal) a1)
        (((cfg18.win 2).blk t).view.read (Elt Ideal) a2) (((cfg18.win 3).blk t).view.read (Elt Ideal) a3)
      = ((cfg18.win 5).blk t).view.read (Elt Ideal) (gated18 a0 a1 a2 a3) := by
  rw [pay2_18_eq]
  funext j
  show Ideal.logistic (a0 (((cfg18.win 0).blk t).view.emb j) + a1 (((cfg18.win 1).blk t).view.emb j) + a2 (((cfg18.win 2).blk t).view.emb j))
      * a3 (((cfg18.win 3).blk t).view.emb j)
    = Ideal.logistic (a0 (((cfg18.win 5).blk t).view.emb j) + a1 (((cfg18.win 5).blk t).view.emb j) + a2 (((cfg18.win 5).blk t).view.emb j))
      * a3 (((cfg18.win 5).blk t).view.emb j)
  rw [emb18_0_5, emb18_1_5, emb18_2_5, emb18_3_5]

/-- What point t writes back to the first output array is block t of the sum of the three input arrays. -/
theorem flushed18_4_eq (c : Dev nD) (t : Fin cfg18.N) :
    (dat18 (F := Ideal) V c).flushed 4 t = ((cfg18.win 4).blk t).view.read (Elt Ideal)
      (sum3_18 (V c (Pipeline.arrRef spec18 0)) (V c (Pipeline.arrRef spec18 1)) (V c (Pipeline.arrRef spec18 2))) := by
  show (cfg18.win 4).cut (grid18.coords t) ((dat18 (F := Ideal) V c).after 4 t) = _
  rw [after18_4]
  unfold out18_4
  rw [View.canon_unit_zero hz18]
  simp only [View.ld_unit_zero (S := S4000x128) hz18]
  unfold iblk18
  exact blk18_sum3 _ _ _ t

/-- What point t writes back to the second output array is block t of the gated message of the four input arrays. -/
theorem flushed18_5_eq (c : Dev nD) (t : Fin cfg18.N) :
    (dat18 (F := Ideal) V c).flushed 5 t = ((cfg18.win 5).blk t).view.read (Elt Ideal)
      (gated18 (V c (Pipeline.arrRef spec18 0)) (V c (Pipeline.arrRef spec18 1)) (V c (Pipeline.arrRef spec18 2)) (V c (Pipeline.arrRef spec18 3))) := by
  show (cfg18.win 5).cut (grid18.coords t) ((dat18 (F := Ideal) V c).after 5 t) = _
  rw [after18_5]
  unfold out18_5
  rw [View.canon_unit_zero hz18]
  simp only [View.ld_unit_zero (S := S4000x128) hz18]
  unfold iblk18
  exact blk18_gated _ _ _ _ t

/-- An index of the array is in point t's block of an output window iff each coordinate is in the block's range. -/
theorem mem_blk18_4 (t : Fin cfg18.N) (i : S320000x128.Idx) :
    i ∈ ((cfg18.win 4).blk t).view.set ↔ ∀ a : Fin 2, win18_4.index t a * S4000x128.size a ≤ (i a).val ∧ (i a).val < win18_4.index t a * S4000x128.size a + S4000x128.size a := by
  show i ∈ ((View.whole main_v161_0).slice (win18_4.rect t)).set ↔ _
  rw [View.set_slice_whole, Rect.mem_set_unit]
  exact Iff.rfl
theorem mem_blk18_5 (t : Fin cfg18.N) (i : S320000x128.Idx) :
    i ∈ ((cfg18.win 5).blk t).view.set ↔ ∀ a : Fin 2, win18_5.index t a * S4000x128.size a ≤ (i a).val ∧ (i a).val < win18_5.index t a * S4000x128.size a + S4000x128.size a := by
  show i ∈ ((View.whole main_v161_1).slice (win18_5.rect t)).set ↔ _
  rw [View.set_slice_whole, Rect.mem_set_unit]
  exact Iff.rfl

/-- Row r of an output array lies in the block of the point r / 4000. -/
theorem cover18_4 (i : S320000x128.Idx) : ∃ t : Fin cfg18.N, (cfg18.win 4).flush t = true ∧ i ∈ ((cfg18.win 4).blk t).view.set := by
  have hi0 : (i 0).val < 320000 := (i 0).isLt
  have hi1 : (i 1).val < 128 := (i 1).isLt
  have hN : cfg18.N = 80 := N_18
  let t : Fin cfg18.N := ⟨(i 0).val / 4000, by rw [hN]; omega⟩
  have ht : t.val = (i 0).val / 4000 := rfl
  obtain ⟨a0, a1, b0, b1, c0, c1, d0, d1, e0, e1, f0, f1⟩ := idx_facts18 t
  refine ⟨t, flush18_4 t, ?_⟩
  rw [mem_blk18_4]
  intro a
  match a with
  | ⟨0, _⟩ => show win18_4.index t (0 : Fin 2) * 4000 ≤ (i 0).val ∧ (i 0).val < win18_4.index t (0 : Fin 2) * 4000 + 4000; omega
  | ⟨1, _⟩ => show win18_4.index t (1 : Fin 2) * 128 ≤ (i 1).val ∧ (i 1).val < win18_4.index t (1 : Fin 2) * 128 + 128; omega
theorem cover18_5 (i : S320000x128.Idx) : ∃ t : Fin cfg18.N, (cfg18.win 5).flush t = true ∧ i ∈ ((cfg18.win 5).blk t).view.set := by
  have hi0 : (i 0).val < 320000 := (i 0).isLt
  have hi1 : (i 1).val < 128 := (i 1).isLt
  have hN : cfg18.N = 80 := N_18
  let t : Fin cfg18.N := ⟨(i 0).val / 4000, by rw [hN]; omega⟩
  have ht : t.val = (i 0).val / 4000 := rfl
  obtain ⟨a0, a1, b0, b1, c0, c1, d0, d1, e0, e1, f0, f1⟩ := idx_facts18 t
  refine ⟨t, flush18_5 t, ?_⟩
  rw [mem_blk18_5]
  intro a
  match a with
  | ⟨0, _⟩ => show win18_5.index t (0 : Fin 2) * 4000 ≤ (i 0).val ∧ (i 0).val < win18_5.index t (0 : Fin 2) * 4000 + 4000; omega
  | ⟨1, _⟩ => show win18_5.index t (1 : Fin 2) * 128 ≤ (i 1).val ∧ (i 1).val < win18_5.index t (1 : Fin 2) * 128 + 128; omega

/-- The first output array after the run: the sum of the three input arrays. -/
theorem final18_4 (c : Dev nD) : (dat18 (F := Ideal) V c).arrAt 4 cfg18.N
    = sum3_18 (V c (Pipeline.arrRef spec18 0)) (V c (Pipeline.arrRef spec18 1)) (V c (Pipeline.arrRef spec18 2)) :=
  (dat18 (F := Ideal) V c).arrAt_eq_of_cover 4 _ (fun t _ => flushed18_4_eq V c t) cover18_4

/-- The second output array after the run: the gated message of the four input arrays. -/
theorem final18_5 (c : Dev nD) : (dat18 (F := Ideal) V c).arrAt 5 cfg18.N
    = gated18 (V c (Pipeline.arrRef spec18 0)) (V c (Pipeline.arrRef spec18 1)) (V c (Pipeline.arrRef spec18 2)) (V c (Pipeline.arrRef spec18 3)) :=
  (dat18 (F := Ideal) V c).arrAt_eq_of_cover 5 _ (fun t _ => flushed18_5_eq V c t) cover18_5

/-- The first output array, as a matrix, is the edge pre-activation of the three input matrices. -/
theorem arrAt18_out4 (c : Dev nD) :
    Cert.Stage.toMat ((dat18 (F := Ideal) V c).arrAt 4 cfg18.N)
      = Cert.Stage.ehat (Cert.Stage.toMat (V c (Pipeline.arrRef spec18 0))) (Cert.Stage.toMat (V c (Pipeline.arrRef spec18 1)))
          (Cert.Stage.toMat (V c (Pipeline.arrRef spec18 2))) := by
  rw [final18_4]; rfl

/-- The second output array, as a matrix, is the gated message of that pre-activation and the fourth input matrix. -/
theorem arrAt18_out5 (c : Dev nD) :
    Cert.Stage.toMat ((dat18 (F := Ideal) V c).arrAt 5 cfg18.N)
      = Cert.Stage.msg (Cert.Stage.ehat (Cert.Stage.toMat (V c (Pipeline.arrRef spec18 0))) (Cert.Stage.toMat (V c (Pipeline.arrRef spec18 1)))
          (Cert.Stage.toMat (V c (Pipeline.arrRef spec18 2)))) (Cert.Stage.toMat (V c (Pipeline.arrRef spec18 3))) := by
  rw [final18_5]; rfl

end Region18

end Cert.KernelIdeal.RgVal

end
-- ==== Proof.Rg19Val.lean ====
/-
  Region 19 of the kernel program, its values at the extended reals: the two output rows the region leaves are the
  column mean of its 320000 x 128 input over all rows and the column variance as mean of squares minus squared mean.
  The 80 block sums of 4000 rows regroup into one sum over 320000 rows (row = 4000 * block + offset); addition of
  extended reals is commutative and associative, so no finiteness is needed.
-/
import proofs.«418385_j87393994539142_1_alg».proof.Proof.Rg19
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.RgVal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx
open Cert.KernelIdeal Cert.KernelIdeal.Gen Cert.KernelIdeal.Rg
open scoped BigOperators

theorem hz19 : (![0, 0] : Fin 2 → Nat) = fun _ => 0 := funext fun a => by fin_cases a <;> rfl

/-- The row count 320000 as the kernel's f32 literal. -/
abbrev cnt19 : EReal := Ideal.ofBits .f32 0x489C4000#32

/-- Summing 80 blocks of 4000 consecutive terms is summing all 320000 terms (row = 4000 * block + offset). -/
theorem sum_blocks19 {M : Type} [AddCommMonoid M] (f : Fin 320000 → M) :
    ∑ s : Fin 80, ∑ r : Fin 4000, f ⟨4000 * s.val + r.val, by have := s.isLt; have := r.isLt; omega⟩ = ∑ i : Fin 320000, f i := by
  have e := Equiv.sum_comp (finProdFinEquiv : Fin 80 × Fin 4000 ≃ Fin (80 * 4000)) f
  rw [← e, Fintype.sum_prod_type]
  refine Finset.sum_congr rfl fun s _ => Finset.sum_congr rfl fun r _ => congrArg f (Fin.ext ?_)
  show 4000 * s.val + r.val = r.val + 4000 * s.val
  omega

/-- A lane sum over the 4000 rows of a block, at column q. -/
theorem colsum19_apply (x : FVec Ideal S4000x128 .f32) (hφ : FKind.Formats .f32)
    (hacc : (0x00000000#32 : BitVec FTy.f32.bits) = FKind.add.neutral .f32 hφ) (q : Fin 128) :
    multiReduction (F := Ideal) .add [0] S128 x 0x00000000#32 reduces_S4000x128_S128 hφ hacc (ix1 q) = ∑ r : Fin 4000, x (ix2 r q) := by
  refine (Ideal.multiReduction_add_single x 0x00000000#32 reduces_S4000x128_S128 hφ hacc (ix1 q)).trans ?_
  exact Finset.sum_congr rfl fun r _ => congrArg x (funext fun a => by match a with | ⟨0, _⟩ => rfl | ⟨1, _⟩ => rfl)

theorem payZ0_19_apply (q : Fin 128) : k19_pay1 (F := Ideal) (ix2 (0 : Fin 1) q) = 0 := by
  unfold k19_pay1
  simp only [shapeCast_self, broadcast_apply]
  exact Ideal.ofBits_zero_f32
theorem payZ1_19_apply (q : Fin 128) : k19_pay2 (F := Ideal) (ix2 (0 : Fin 1) q) = 0 := by
  unfold k19_pay2
  simp only [shapeCast_self, broadcast_apply]
  exact Ideal.ofBits_zero_f32

theorem payAdd_19_apply (x : Vec Ideal S4000x128 .f32) (s : Vec Ideal S1x128 .f32) (q : Fin 128) :
    k19_pay4 (F := Ideal) x s (ix2 (0 : Fin 1) q) = s (ix2 0 q) + ∑ r : Fin 4000, x (ix2 r q) := by
  unfold k19_pay4 k19_pay3
  simp only [shapeCast_self, addf_apply]
  rw [shapeCast_a_1a_apply]
  exact congrArg _ (colsum19_apply _ _ _ q)

theorem paySq_19_apply (x : Vec Ideal S4000x128 .f32) (s : Vec Ideal S1x128 .f32) (q : Fin 128) :
    k19_pay5 (F := Ideal) x s (ix2 (0 : Fin 1) q) = s (ix2 0 q) + ∑ r : Fin 4000, x (ix2 r q) * x (ix2 r q) := by
  unfold k19_pay5 k19_pay3
  simp only [shapeCast_self, addf_apply]
  rw [shapeCast_a_1a_apply]
  refine congrArg _ ((colsum19_apply _ _ _ q).trans ?_)
  exact Finset.sum_congr rfl fun r _ => mulf_apply _ _ _

theorem payMean_19_apply (s : Vec Ideal S1x128 .f32) (q : Fin 128) :
    k19_pay6 (F := Ideal) s (ix2 (0 : Fin 1) q) = Ideal.div (s (ix2 0 q)) cnt19 := by
  unfold k19_pay6
  simp only [divf_apply, broadcast_apply]
  rfl

theorem payVar_19_apply (s0 s1 : Vec Ideal S1x128 .f32) (q : Fin 128) :
    k19_pay7 (F := Ideal) s0 s1 (ix2 (0 : Fin 1) q)
      = Ideal.div (s1 (ix2 0 q)) cnt19 - Ideal.div (s0 (ix2 0 q)) cnt19 * Ideal.div (s0 (ix2 0 q)) cnt19 := by
  unfold k19_pay7
  simp only [subf_apply, mulf_apply, divf_apply, broadcast_apply, payMean_19_apply]
  rfl

theorem init19_0_apply (q : Fin 128) : init19_0 (F := Ideal) (ix2 (0 : Fin 1) q) = 0 := by
  unfold init19_0; rw [View.canon_unit_zero hz19]; exact payZ0_19_apply q
theorem init19_1_apply (q : Fin 128) : init19_1 (F := Ideal) (ix2 (0 : Fin 1) q) = 0 := by
  unfold init19_1; rw [View.canon_unit_zero hz19]; exact payZ1_19_apply q

theorem step19_0_apply (x : Vec Ideal S4000x128 .f32) (s : Vec Ideal S1x128 .f32) (q : Fin 128) :
    step19_0 x s (ix2 (0 : Fin 1) q) = s (ix2 0 q) + ∑ r : Fin 4000, x (ix2 r q) := by
  unfold step19_0; rw [View.canon_unit_zero hz19]
  simp only [View.ld_unit_zero (S := S4000x128) hz19, View.ld_unit_zero (S := S1x128) hz19]
  exact payAdd_19_apply x s q
theorem step19_1_apply (x : Vec Ideal S4000x128 .f32) (s : Vec Ideal S1x128 .f32) (q : Fin 128) :
    step19_1 x s (ix2 (0 : Fin 1) q) = s (ix2 0 q) + ∑ r : Fin 4000, x (ix2 r q) * x (ix2 r q) := by
  unfold step19_1; rw [View.canon_unit_zero hz19]
  simp only [View.ld_unit_zero (S := S4000x128) hz19, View.ld_unit_zero (S := S1x128) hz19]
  exact paySq_19_apply x s q
theorem out19_1_apply (s : Vec Ideal S1x128 .f32) (q : Fin 128) :
    out19_1 s (ix2 (0 : Fin 1) q) = Ideal.div (s (ix2 0 q)) cnt19 := by
  unfold out19_1; rw [View.canon_unit_zero hz19]
  simp only [View.ld_unit_zero (S := S1x128) hz19]
  exact payMean_19_apply s q
theorem out19_2_apply (s0 s1 : Vec Ideal S1x128 .f32) (q : Fin 128) :
    out19_2 s0 s1 (ix2 (0 : Fin 1) q)
      = Ideal.div (s1 (ix2 0 q)) cnt19 - Ideal.div (s0 (ix2 0 q)) cnt19 * Ideal.div (s0 (ix2 0 q)) cnt19 := by
  unfold out19_2; rw [View.canon_unit_zero hz19]
  simp only [View.ld_unit_zero (S := S1x128) hz19]
  exact payVar_19_apply s0 s1 q

section Regions
variable (V : (c : Dev nD) → (b : Ref sig .tc) → Buf (Elt Ideal) ((c : Thread nD τ).loc b))

/-- The input array is never written back. -/
theorem arrAt19_in_0 (c : Dev nD) : (dat19 (F := Ideal) V c).arrAt 0 cfg19.N = V c (Pipeline.arrRef spec19 0) :=
  ((dat19 (F := Ideal) V c).arrAt_in 0 rfl cfg19.N).trans (A_eq19 V c 0)

/-- The block index maps over the grid: the input's row block is the point, its column block 0; each output row is one block. -/
theorem idx19_0 : ∀ t : Fin cfg19.N, win19_0.index t (0 : Fin 2) = t.val ∧ win19_0.index t (1 : Fin 2) = 0 :=
  (by decide +kernel : ∀ t : Fin grid19.N, win19_0.index t (0 : Fin 2) = t.val ∧ win19_0.index t (1 : Fin 2) = 0)
theorem idx19_1 : ∀ t : Fin cfg19.N, win19_1.index t (0 : Fin 2) = 0 ∧ win19_1.index t (1 : Fin 2) = 0 :=
  (by decide +kernel : ∀ t : Fin grid19.N, win19_1.index t (0 : Fin 2) = 0 ∧ win19_1.index t (1 : Fin 2) = 0)
theorem idx19_2 : ∀ t : Fin cfg19.N, win19_2.index t (0 : Fin 2) = 0 ∧ win19_2.index t (1 : Fin 2) = 0 :=
  (by decide +kernel : ∀ t : Fin grid19.N, win19_2.index t (0 : Fin 2) = 0 ∧ win19_2.index t (1 : Fin 2) = 0)

/-- The input array, indexed by row and column. -/
abbrev X19in (c : Dev nD) : S320000x128.Idx → EReal := V c (Pipeline.arrRef spec19 0)

/-- The input's block at a point, indexed by row and column. -/
abbrev blk19 (c : Dev nD) (t : Fin cfg19.N) : S4000x128.Idx → EReal := iblk19 V c 0 t

/-- Row r of block t is row 4000 t + r of the array. -/
theorem iblk19_0_apply (c : Dev nD) (t : Fin cfg19.N) (r : Fin 4000) (q : Fin 128) :
    blk19 V c t (ix2 r q)
      = X19in V c (ix2 ⟨4000 * t.val + r.val, by have := lt_of_lt_of_eq t.isLt (show cfg19.N = 80 from N_19); have := r.isLt; omega⟩ q) := by
  show V c (Pipeline.arrRef spec19 0) (((cfg19.win 0).blk t).view.emb (ix2 r q)) = V c (Pipeline.arrRef spec19 0) _
  refine congrArg _ (funext fun a => Fin.ext ?_)
  match a with
  | ⟨0, _⟩ => show win19_0.index t (0 : Fin 2) * 4000 + 1 * r.val = 4000 * t.val + r.val; have := (idx19_0 t).1; omega
  | ⟨1, _⟩ => show win19_0.index t (1 : Fin 2) * 128 + 1 * q.val = q.val; have := (idx19_0 t).2; omega

/-- Block s's column sums, of the entries and of their squares (zero past the grid). -/
def bsum19 (c : Dev nD) (q : Fin 128) (s : ℕ) : EReal :=
  if h : s < cfg19.N then ∑ r : Fin 4000, blk19 V c ⟨s, h⟩ (ix2 r q) else 0
def bsq19 (c : Dev nD) (q : Fin 128) (s : ℕ) : EReal :=
  if h : s < cfg19.N then ∑ r : Fin 4000, blk19 V c ⟨s, h⟩ (ix2 r q) * blk19 V c ⟨s, h⟩ (ix2 r q) else 0

theorem acc19_at_zero (c : Dev nD) (hn : 0 < cfg19.N) :
    acc19 V c 0 hn = (step19_0 (iblk19 V c 0 ⟨0, hn⟩) init19_0, step19_1 (iblk19 V c 0 ⟨0, hn⟩) init19_1) := rfl
theorem acc19_at_succ (c : Dev nD) (n : ℕ) (hn : n + 1 < cfg19.N) :
    acc19 V c (n + 1) hn = (step19_0 (iblk19 V c 0 ⟨n + 1, hn⟩) (acc19 V c n (Nat.lt_of_succ_lt hn)).1,
      step19_1 (iblk19 V c 0 ⟨n + 1, hn⟩) (acc19 V c n (Nat.lt_of_succ_lt hn)).2) := rfl

/-- The running rows after point n are the sums of the blocks' column sums up to n. -/
theorem acc19_fst (c : Dev nD) (q : Fin 128) : ∀ (n : ℕ) (hn : n < cfg19.N),
    (acc19 V c n hn).1 (ix2 (0 : Fin 1) q) = ∑ s ∈ Finset.range (n + 1), bsum19 V c q s
  | 0, hn => by
    rw [acc19_at_zero, Finset.sum_range_one]
    refine (step19_0_apply (iblk19 V c 0 ⟨0, hn⟩) init19_0 q).trans ?_
    rw [init19_0_apply, zero_add]; unfold bsum19; rw [dif_pos hn]
  | n + 1, hn => by
    rw [acc19_at_succ, Finset.sum_range_succ, ← acc19_fst c q n (Nat.lt_of_succ_lt hn)]
    refine (step19_0_apply (iblk19 V c 0 ⟨n + 1, hn⟩) _ q).trans ?_
    unfold bsum19; rw [dif_pos hn]
theorem acc19_snd (c : Dev nD) (q : Fin 128) : ∀ (n : ℕ) (hn : n < cfg19.N),
    (acc19 V c n hn).2 (ix2 (0 : Fin 1) q) = ∑ s ∈ Finset.range (n + 1), bsq19 V c q s
  | 0, hn => by
    rw [acc19_at_zero, Finset.sum_range_one]
    refine (step19_1_apply (iblk19 V c 0 ⟨0, hn⟩) init19_1 q).trans ?_
    rw [init19_1_apply, zero_add]; unfold bsq19; rw [dif_pos hn]
  | n + 1, hn => by
    rw [acc19_at_succ, Finset.sum_range_succ, ← acc19_snd c q n (Nat.lt_of_succ_lt hn)]
    refine (step19_1_apply (iblk19 V c 0 ⟨n + 1, hn⟩) _ q).trans ?_
    unfold bsq19; rw [dif_pos hn]

/-- After the last point they are the sums over all 320000 rows. -/
theorem acc19_fst_last (c : Dev nD) (q : Fin 128) (hn : 79 < cfg19.N) :
    (acc19 V c 79 hn).1 (ix2 (0 : Fin 1) q) = ∑ i : Fin 320000, X19in V c (ix2 i q) := by
  rw [acc19_fst V c q 79 hn]
  show ∑ s ∈ Finset.range 80, bsum19 V c q s = _
  rw [Finset.sum_range, ← sum_blocks19 (fun i => X19in V c (ix2 i q))]
  refine Finset.sum_congr rfl fun s _ => ?_
  have hs : s.val < cfg19.N := lt_of_lt_of_eq s.isLt (show cfg19.N = 80 from N_19).symm
  unfold bsum19; rw [dif_pos hs]
  exact Finset.sum_congr rfl fun r _ => iblk19_0_apply V c ⟨s.val, hs⟩ r q
theorem acc19_snd_last (c : Dev nD) (q : Fin 128) (hn : 79 < cfg19.N) :
    (acc19 V c 79 hn).2 (ix2 (0 : Fin 1) q) = ∑ i : Fin 320000, X19in V c (ix2 i q) * X19in V c (ix2 i q) := by
  rw [acc19_snd V c q 79 hn]
  show ∑ s ∈ Finset.range 80, bsq19 V c q s = _
  rw [Finset.sum_range, ← sum_blocks19 (fun i => X19in V c (ix2 i q) * X19in V c (ix2 i q))]
  refine Finset.sum_congr rfl fun s _ => ?_
  have hs : s.val < cfg19.N := lt_of_lt_of_eq s.isLt (show cfg19.N = 80 from N_19).symm
  unfold bsq19; rw [dif_pos hs]
  exact Finset.sum_congr rfl fun r _ => by rw [iblk19_0_apply V c ⟨s.val, hs⟩ r q]

/-- An index of an output row's array is in point t's block iff each coordinate is in the block's range. -/
theorem mem_blk19_1 (t : Fin cfg19.N) (i : S1x128.Idx) :
    i ∈ ((cfg19.win 1).blk t).view.set ↔ ∀ a : Fin 2, win19_1.index t a * S1x128.size a ≤ (i a).val ∧ (i a).val < win19_1.index t a * S1x128.size a + S1x128.size a := by
  show i ∈ ((View.whole (Pipeline.arrRef spec19 1)).slice (win19_1.rect t)).set ↔ _
  rw [View.set_slice_whole, Rect.mem_set_unit]
  exact Iff.rfl
theorem mem_blk19_2 (t : Fin cfg19.N) (i : S1x128.Idx) :
    i ∈ ((cfg19.win 2).blk t).view.set ↔ ∀ a : Fin 2, win19_2.index t a * S1x128.size a ≤ (i a).val ∧ (i a).val < win19_2.index t a * S1x128.size a + S1x128.size a := by
  show i ∈ ((View.whole (Pipeline.arrRef spec19 2)).slice (win19_2.rect t)).set ↔ _
  rw [View.set_slice_whole, Rect.mem_set_unit]
  exact Iff.rfl

/-- The two output rows as functions of the input array: the column mean, and the mean of squares minus the squared mean. -/
def G19_1 (c : Dev nD) : S1x128.Idx → EReal := fun i =>
  Ideal.div (∑ r : Fin 320000, X19in V c (ix2 r ⟨(i 1).val, idx2_lt1 i⟩)) cnt19
def G19_2 (c : Dev nD) : S1x128.Idx → EReal := fun i =>
  Ideal.div (∑ r : Fin 320000, X19in V c (ix2 r ⟨(i 1).val, idx2_lt1 i⟩) * X19in V c (ix2 r ⟨(i 1).val, idx2_lt1 i⟩)) cnt19
    - Ideal.div (∑ r : Fin 320000, X19in V c (ix2 r ⟨(i 1).val, idx2_lt1 i⟩)) cnt19
      * Ideal.div (∑ r : Fin 320000, X19in V c (ix2 r ⟨(i 1).val, idx2_lt1 i⟩)) cnt19

/-- What the last point writes back into output row 1 is that row of the input array. -/
theorem flushed19_1_eq (c : Dev nD) (t : Fin cfg19.N) (hf : (cfg19.win 1).flush t = true) :
    (dat19 (F := Ideal) V c).flushed 1 t = ((cfg19.win 1).blk t).view.read (Elt Ideal) (G19_1 V c) := by
  have h79 : t.val = 79 := by
    have := (flush19_1 t).mp hf; have := lt_of_lt_of_eq t.isLt (show cfg19.N = 80 from N_19); omega
  show (cfg19.win 1).cut (grid19.coords t) ((dat19 (F := Ideal) V c).after 1 t) = _
  rw [after19_1]
  funext j
  obtain ⟨p, q, rfl⟩ : ∃ (p : Fin 1) (q : Fin 128), j = ix2 p q := ⟨j 0, j 1, eq_ix2 j⟩
  obtain rfl : p = 0 := Subsingleton.elim _ _
  show out19_1 (acc19 V c t.val t.isLt).1 (ix2 0 q) = G19_1 V c (((cfg19.win 1).blk t).view.emb (ix2 0 q))
  rw [out19_1_apply]
  have e : (acc19 V c t.val t.isLt).1 (ix2 (0 : Fin 1) q) = ∑ i : Fin 320000, X19in V c (ix2 i q) := by
    obtain ⟨n, hn⟩ := t
    obtain rfl : n = 79 := h79
    exact acc19_fst_last V c q hn
  rw [e]
  unfold G19_1
  have hq : (⟨((((cfg19.win 1).blk t).view.emb (ix2 (0 : Fin 1) q)) 1).val, idx2_lt1 _⟩ : Fin 128) = q :=
    Fin.ext (by show win19_1.index t (1 : Fin 2) * 128 + 1 * q.val = q.val; have := (idx19_1 t).2; omega)
  rw [hq]

theorem flushed19_2_eq (c : Dev nD) (t : Fin cfg19.N) (hf : (cfg19.win 2).flush t = true) :
    (dat19 (F := Ideal) V c).flushed 2 t = ((cfg19.win 2).blk t).view.read (Elt Ideal) (G19_2 V c) := by
  have h79 : t.val = 79 := by
    have := (flush19_2 t).mp hf; have := lt_of_lt_of_eq t.isLt (show cfg19.N = 80 from N_19); omega
  show (cfg19.win 2).cut (grid19.coords t) ((dat19 (F := Ideal) V c).after 2 t) = _
  rw [after19_2]
  funext j
  obtain ⟨p, q, rfl⟩ : ∃ (p : Fin 1) (q : Fin 128), j = ix2 p q := ⟨j 0, j 1, eq_ix2 j⟩
  obtain rfl : p = 0 := Subsingleton.elim _ _
  show out19_2 (acc19 V c t.val t.isLt).1 (acc19 V c t.val t.isLt).2 (ix2 0 q) = G19_2 V c (((cfg19.win 2).blk t).view.emb (ix2 0 q))
  rw [out19_2_apply]
  have e0 : (acc19 V c t.val t.isLt).1 (ix2 (0 : Fin 1) q) = ∑ i : Fin 320000, X19in V c (ix2 i q) := by
    obtain ⟨n, hn⟩ := t
    obtain rfl : n = 79 := h79
    exact acc19_fst_last V c q hn
  have e1 : (acc19 V c t.val t.isLt).2 (ix2 (0 : Fin 1) q) = ∑ i : Fin 320000, X19in V c (ix2 i q) * X19in V c (ix2 i q) := by
    obtain ⟨n, hn⟩ := t
    obtain rfl : n = 79 := h79
    exact acc19_snd_last V c q hn
  rw [e0, e1]
  unfold G19_2
  have hq : (⟨((((cfg19.win 2).blk t).view.emb (ix2 (0 : Fin 1) q)) 1).val, idx2_lt1 _⟩ : Fin 128) = q :=
    Fin.ext (by show win19_2.index t (1 : Fin 2) * 128 + 1 * q.val = q.val; have := (idx19_2 t).2; omega)
  rw [hq]

/-- Every index of an output row is in the last point's block. -/
theorem cover19_1 (i : S1x128.Idx) : ∃ t : Fin cfg19.N, (cfg19.win 1).flush t = true ∧ i ∈ ((cfg19.win 1).blk t).view.set := by
  refine ⟨⟨79, by decide⟩, (flush19_1 _).mpr rfl, ?_⟩
  rw [mem_blk19_1]
  intro a
  match a with
  | ⟨0, _⟩ => show win19_1.index _ (0 : Fin 2) * 1 ≤ (i 0).val ∧ (i 0).val < win19_1.index _ (0 : Fin 2) * 1 + 1; have := (idx19_1 ⟨79, by decide⟩).1; have := idx2_lt0 i; omega
  | ⟨1, _⟩ => show win19_1.index _ (1 : Fin 2) * 128 ≤ (i 1).val ∧ (i 1).val < win19_1.index _ (1 : Fin 2) * 128 + 128; have := (idx19_1 ⟨79, by decide⟩).2; have := idx2_lt1 i; omega
theorem cover19_2 (i : S1x128.Idx) : ∃ t : Fin cfg19.N, (cfg19.win 2).flush t = true ∧ i ∈ ((cfg19.win 2).blk t).view.set := by
  refine ⟨⟨79, by decide⟩, (flush19_2 _).mpr rfl, ?_⟩
  rw [mem_blk19_2]
  intro a
  match a with
  | ⟨0, _⟩ => show win19_2.index _ (0 : Fin 2) * 1 ≤ (i 0).val ∧ (i 0).val < win19_2.index _ (0 : Fin 2) * 1 + 1; have := (idx19_2 ⟨79, by decide⟩).1; have := idx2_lt0 i; omega
  | ⟨1, _⟩ => show win19_2.index _ (1 : Fin 2) * 128 ≤ (i 1).val ∧ (i 1).val < win19_2.index _ (1 : Fin 2) * 128 + 128; have := (idx19_2 ⟨79, by decide⟩).2; have := idx2_lt1 i; omega

/-- The output rows after the region. -/
theorem final19_1 (c : Dev nD) : (dat19 (F := Ideal) V c).arrAt 1 cfg19.N = G19_1 V c :=
  (dat19 (F := Ideal) V c).arrAt_eq_of_cover 1 (G19_1 V c) (fun t hf => flushed19_1_eq V c t hf) cover19_1
theorem final19_2 (c : Dev nD) : (dat19 (F := Ideal) V c).arrAt 2 cfg19.N = G19_2 V c :=
  (dat19 (F := Ideal) V c).arrAt_eq_of_cover 2 (G19_2 V c) (fun t hf => flushed19_2_eq V c t hf) cover19_2

/-- Output row 1 after the region is the column mean of the input array over all 320000 rows. -/
theorem arrAt19_out1 (c : Dev nD) :
    Cert.Stage.toRow1 ((dat19 (F := Ideal) V c).arrAt 1 cfg19.N) = Cert.Stage.colMean cnt19 (Cert.Stage.toMat (V c (Pipeline.arrRef spec19 0))) := by
  rw [final19_1]; rfl
/-- Output row 2 after the region is its column variance, as mean of squares minus squared mean. -/
theorem arrAt19_out2 (c : Dev nD) :
    Cert.Stage.toRow1 ((dat19 (F := Ideal) V c).arrAt 2 cfg19.N) = Cert.Stage.colVarSq cnt19 (Cert.Stage.toMat (V c (Pipeline.arrRef spec19 0))) := by
  rw [final19_2]; rfl

end Regions

end Cert.KernelIdeal.RgVal

end
-- ==== Proof.Rg20Val.lean ====
import proofs.«418385_j87393994539142_1_alg».proof.Proof.Rg20
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

/-!
# Kernel region 20: what the region leaves in its arrays, over the extended reals

The six arrays the region reads are never written back, so they end as they were found. The output array is
written back block by block, 80 blocks of 4000 rows; block t holds, at row p and column q, the normalised,
rectified value of row 4000 t + p of the operand plus the same row of the residual. The blocks tile the 320000
rows, so the whole output array is one function of the six input arrays: the stage  res + max (g (x - mu)
rsqrt (var + eps) + be) 0  taken entry by entry, the four rows read at the entry's column.
-/

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region20
variable (V : (c : Dev nD) → (b : Ref sig .tc) → Buf (Elt Ideal) ((c : Thread nD τ).loc b))

/-! ## The arrays the region only reads -/

theorem arrAt20_in_0 (c : Dev nD) : (dat20 (F := Ideal) V c).arrAt 0 cfg20.N = V c (Pipeline.arrRef spec20 0) :=
  ((dat20 V c).arrAt_in 0 rfl _).trans (A_eq20 V c 0)
theorem arrAt20_in_1 (c : Dev nD) : (dat20 (F := Ideal) V c).arrAt 1 cfg20.N = V c (Pipeline.arrRef spec20 1) :=
  ((dat20 V c).arrAt_in 1 rfl _).trans (A_eq20 V c 1)
theorem arrAt20_in_2 (c : Dev nD) : (dat20 (F := Ideal) V c).arrAt 2 cfg20.N = V c (Pipeline.arrRef spec20 2) :=
  ((dat20 V c).arrAt_in 2 rfl _).trans (A_eq20 V c 2)
theorem arrAt20_in_3 (c : Dev nD) : (dat20 (F := Ideal) V c).arrAt 3 cfg20.N = V c (Pipeline.arrRef spec20 3) :=
  ((dat20 V c).arrAt_in 3 rfl _).trans (A_eq20 V c 3)
theorem arrAt20_in_4 (c : Dev nD) : (dat20 (F := Ideal) V c).arrAt 4 cfg20.N = V c (Pipeline.arrRef spec20 4) :=
  ((dat20 V c).arrAt_in 4 rfl _).trans (A_eq20 V c 4)
theorem arrAt20_in_5 (c : Dev nD) : (dat20 (F := Ideal) V c).arrAt 5 cfg20.N = V c (Pipeline.arrRef spec20 5) :=
  ((dat20 V c).arrAt_in 5 rfl _).trans (A_eq20 V c 5)

/-! ## The body's value at an entry of the block -/

theorem zeros20 : (![0, 0] : Fin 2 → Nat) = fun _ => 0 := funext fun a => by fin_cases a <;> rfl

/-- The value the body stores at row p, column q of the block, from the six blocks it loads: the residual plus
    the rectified normalised operand, the four rows read at column q. The zero the rectifier compares with is the
    real number zero; the small constant added to the variance stays the word it is printed as. -/
theorem pay20_apply (x r : Vec Ideal S4000x128 .f32) (mu var g be : Vec Ideal S1x128 .f32) (p : Fin 4000) (q : Fin 128) :
    k20_pay1 x g mu var be r (ix2 p q)
      = r (ix2 p q) + max (g (ix2 (0 : Fin 1) q) * (x (ix2 p q) - mu (ix2 (0 : Fin 1) q))
          * Ideal.rsqrt (var (ix2 (0 : Fin 1) q) + Ideal.ofBits .f32 0x3727C5AC#32) + be (ix2 (0 : Fin 1) q)) 0 := by
  unfold k20_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply, broadcast_apply]
  show _ + max (_ * _ * Ideal.rsqrt (var (ix2 (0 : Fin 1) q) + Ideal.ofBits .f32 0x3727C5AC#32) + _) (Ideal.ofBits .f32 0x00000000#32) = _
  rw [Ideal.ofBits_zero_f32]

/-! ## The output array as one function of the input arrays -/

/-- The stage, entry by entry, as a function of the six whole arrays. -/
def bn20 (a0 a1 : S320000x128.Idx → EReal) (a2 a3 a4 a5 : S1x128.Idx → EReal) : S320000x128.Idx → EReal :=
  fun i => Cert.Stage.bnRelu (Ideal.ofBits .f32 0x3727C5AC#32) (Cert.Stage.toMat a0) (Cert.Stage.toMat a1)
    (Cert.Stage.toRow1 a2) (Cert.Stage.toRow1 a3) (Cert.Stage.toRow1 a4) (Cert.Stage.toRow1 a5) (i 0) (i 1)

/-- The stage at row P, column q, spelt out. -/
theorem bn20_apply (a0 a1 : S320000x128.Idx → EReal) (a2 a3 a4 a5 : S1x128.Idx → EReal) (P : Fin 320000) (q : Fin 128) :
    bn20 a0 a1 a2 a3 a4 a5 (ix2 P q)
      = a1 (ix2 P q) + max (a4 (ix2 (0 : Fin 1) q) * (a0 (ix2 P q) - a2 (ix2 (0 : Fin 1) q))
          * Ideal.rsqrt (a3 (ix2 (0 : Fin 1) q) + Ideal.ofBits .f32 0x3727C5AC#32) + a5 (ix2 (0 : Fin 1) q)) 0 := rfl

/-- Where each window's block sits at grid point t: the two operands and the output at row block t, the four
    rows at the one block there is. Decided over the 80 points. -/
theorem index20 : ∀ t : Fin cfg20.N,
    win20_0.index t (0 : Fin 2) = t.val ∧ win20_0.index t (1 : Fin 2) = 0
    ∧ win20_1.index t (0 : Fin 2) = t.val ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = 0 ∧ win20_5.index t (1 : Fin 2) = 0
    ∧ win20_6.index t (0 : Fin 2) = t.val ∧ win20_6.index t (1 : Fin 2) = 0 :=
  (by decide +kernel : ∀ t : Fin grid20.N, _)

/-- Row p of block t is row 4000 t + p of the array. -/
theorem row20_lt (t : Fin cfg20.N) (p : Fin 4000) : 4000 * t.val + p.val < 320000 := by
  have ht : t.val < 80 := Nat.lt_of_lt_of_eq t.isLt N_20
  have hp := p.isLt
  omega

/-- An operand block (window 0 or 1) at row p, column q is the array at row 4000 t + p, column q. -/
theorem iblk20_0_apply (c : Dev nD) (t : Fin cfg20.N) (p : Fin 4000) (q : Fin 128) :
    (iblk20 V c 0 t : Vec Ideal S4000x128 .f32) (ix2 p q)
      = (V c (Pipeline.arrRef spec20 0) : S320000x128.Idx → EReal) (ix2 ⟨4000 * t.val + p.val, row20_lt t p⟩ q) := by
  obtain ⟨e00, e01, -⟩ := index20 t
  unfold iblk20
  rw [View.read_apply]
  refine congrArg (V c (Pipeline.arrRef spec20 0) : S320000x128.Idx → EReal) (funext fun a => Fin.ext ?_)
  match a with
  | ⟨0, _⟩ => show win20_0.index t (0 : Fin 2) * 4000 + 1 * p.val = 4000 * t.val + p.val; omega
  | ⟨1, _⟩ => show win20_0.index t (1 : Fin 2) * 128 + 1 * q.val = q.val; omega

theorem iblk20_1_apply (c : Dev nD) (t : Fin cfg20.N) (p : Fin 4000) (q : Fin 128) :
    (iblk20 V c 1 t : Vec Ideal S4000x128 .f32) (ix2 p q)
      = (V c (Pipeline.arrRef spec20 1) : S320000x128.Idx → EReal) (ix2 ⟨4000 * t.val + p.val, row20_lt t p⟩ q) := by
  obtain ⟨-, -, e10, e11, -⟩ := index20 t
  unfold iblk20
  rw [View.read_apply]
  refine congrArg (V c (Pipeline.arrRef spec20 1) : S320000x128.Idx → EReal) (funext fun a => Fin.ext ?_)
  match a with
  | ⟨0, _⟩ => show win20_1.index t (0 : Fin 2) * 4000 + 1 * p.val = 4000 * t.val + p.val; omega
  | ⟨1, _⟩ => show win20_1.index t (1 : Fin 2) * 128 + 1 * q.val = q.val; omega

/-- A row block (windows 2 to 5) at column q is the one-row array at column q, at every point. -/
theorem iblk20_2_apply (c : Dev nD) (t : Fin cfg20.N) (q : Fin 128) :
    (iblk20 V c 2 t : Vec Ideal S1x128 .f32) (ix2 (0 : Fin 1) q)
      = (V c (Pipeline.arrRef spec20 2) : S1x128.Idx → EReal) (ix2 (0 : Fin 1) q) := by
  obtain ⟨-, -, -, -, e20, e21, -⟩ := index20 t
  unfold iblk20
  rw [View.read_apply]
  refine congrArg (V c (Pipeline.arrRef spec20 2) : S1x128.Idx → EReal) (funext fun a => Fin.ext ?_)
  match a with
  | ⟨0, _⟩ => show win20_2.index t (0 : Fin 2) * 1 + 1 * 0 = 0; omega
  | ⟨1, _⟩ => show win20_2.index t (1 : Fin 2) * 128 + 1 * q.val = q.val; omega

theorem iblk20_3_apply (c : Dev nD) (t : Fin cfg20.N) (q : Fin 128) :
    (iblk20 V c 3 t : Vec Ideal S1x128 .f32) (ix2 (0 : Fin 1) q)
      = (V c (Pipeline.arrRef spec20 3) : S1x128.Idx → EReal) (ix2 (0 : Fin 1) q) := by
  obtain ⟨-, -, -, -, -, -, e30, e31, -⟩ := index20 t
  unfold iblk20
  rw [View.read_apply]
  refine congrArg (V c (Pipeline.arrRef spec20 3) : S1x128.Idx → EReal) (funext fun a => Fin.ext ?_)
  match a with
  | ⟨0, _⟩ => show win20_3.index t (0 : Fin 2) * 1 + 1 * 0 = 0; omega
  | ⟨1, _⟩ => show win20_3.index t (1 : Fin 2) * 128 + 1 * q.val = q.val; omega

theorem iblk20_4_apply (c : Dev nD) (t : Fin cfg20.N) (q : Fin 128) :
    (iblk20 V c 4 t : Vec Ideal S1x128 .f32) (ix2 (0 : Fin 1) q)
      = (V c (Pipeline.arrRef spec20 4) : S1x128.Idx → EReal) (ix2 (0 : Fin 1) q) := by
  obtain ⟨-, -, -, -, -, -, -, -, e40, e41, -⟩ := index20 t
  unfold iblk20
  rw [View.read_apply]
  refine congrArg (V c (Pipeline.arrRef spec20 4) : S1x128.Idx → EReal) (funext fun a => Fin.ext ?_)
  match a with
  | ⟨0, _⟩ => show win20_4.index t (0 : Fin 2) * 1 + 1 * 0 = 0; omega
  | ⟨1, _⟩ => show win20_4.index t (1 : Fin 2) * 128 + 1 * q.val = q.val; omega

theorem iblk20_5_apply (c : Dev nD) (t : Fin cfg20.N) (q : Fin 128) :
    (iblk20 V c 5 t : Vec Ideal S1x128 .f32) (ix2 (0 : Fin 1) q)
      = (V c (Pipeline.arrRef spec20 5) : S1x128.Idx → EReal) (ix2 (0 : Fin 1) q) := by
  obtain ⟨-, -, -, -, -, -, -, -, -, -, e50, e51, -⟩ := index20 t
  unfold iblk20
  rw [View.read_apply]
  refine congrArg (V c (Pipeline.arrRef spec20 5) : S1x128.Idx → EReal) (funext fun a => Fin.ext ?_)
  match a with
  | ⟨0, _⟩ => show win20_5.index t (0 : Fin 2) * 1 + 1 * 0 = 0; omega
  | ⟨1, _⟩ => show win20_5.index t (1 : Fin 2) * 128 + 1 * q.val = q.val; omega

/-- Row p, column q of the output's block t sits at row 4000 t + p, column q of the output array. -/
theorem emb20_out (t : Fin cfg20.N) (p : Fin 4000) (q : Fin 128) :
    (((cfg20.win 6).blk t).view.emb (ix2 p q) : S320000x128.Idx) = ix2 ⟨4000 * t.val + p.val, row20_lt t p⟩ q := by
  obtain ⟨-, -, -, -, -, -, -, -, -, -, -, -, e60, e61⟩ := index20 t
  refine funext fun a => Fin.ext ?_
  match a with
  | ⟨0, _⟩ => show win20_6.index t (0 : Fin 2) * 4000 + 1 * p.val = 4000 * t.val + p.val; omega
  | ⟨1, _⟩ => show win20_6.index t (1 : Fin 2) * 128 + 1 * q.val = q.val; omega

/-- What point t writes back is block t of the stage of the six arrays as the region finds them. -/
theorem flushed20_eq (c : Dev nD) (t : Fin cfg20.N) :
    (dat20 (F := Ideal) V c).flushed 6 t = ((cfg20.win 6).blk t).view.read (Elt Ideal)
      (bn20 (V c (Pipeline.arrRef spec20 0)) (V c (Pipeline.arrRef spec20 1)) (V c (Pipeline.arrRef spec20 2))
        (V c (Pipeline.arrRef spec20 3)) (V c (Pipeline.arrRef spec20 4)) (V c (Pipeline.arrRef spec20 5))) := by
  show (cfg20.win 6).cut (grid20.coords t) ((dat20 V c).after 6 t) = _
  rw [after20_6]
  unfold out20_6
  rw [View.canon_unit_zero zeros20]
  simp only [View.ld_unit_zero (S := S4000x128) zeros20, View.ld_unit_zero (S := S1x128) zeros20]
  funext j
  obtain ⟨p, q, rfl⟩ : ∃ (p : Fin 4000) (q : Fin 128), j = ix2 p q := ⟨j 0, j 1, eq_ix2 j⟩
  refine (pay20_apply _ _ _ _ _ _ p q).trans ?_
  rw [View.read_apply, emb20_out, bn20_apply, iblk20_0_apply, iblk20_1_apply, iblk20_2_apply, iblk20_3_apply, iblk20_4_apply, iblk20_5_apply]
  rfl

/-- An index of the output array is in point t's block exactly when each coordinate is in the block's range. -/
theorem mem_blk20 (t : Fin cfg20.N) (i : S320000x128.Idx) :
    i ∈ ((cfg20.win 6).blk t).view.set ↔ ∀ a : Fin 2, win20_6.index t a * S4000x128.size a ≤ (i a).val
      ∧ (i a).val < win20_6.index t a * S4000x128.size a + S4000x128.size a := by
  show i ∈ ((View.whole main_v169).slice (win20_6.rect t)).set ↔ _
  rw [View.set_slice_whole, Rect.mem_set_unit]
  exact Iff.rfl

/-- Every row of the output array is in some point's block: row P in the block of point P / 4000. -/
theorem cover20 (i : S320000x128.Idx) :
    ∃ t : Fin cfg20.N, (cfg20.win 6).flush t = true ∧ i ∈ ((cfg20.win 6).blk t).view.set := by
  have hi0 : (i 0).val < 320000 := (i 0).isLt
  have hi1 : (i 1).val < 128 := (i 1).isLt
  have hlt : (i 0).val / 4000 < cfg20.N := by rw [show cfg20.N = 80 from N_20]; omega
  obtain ⟨-, -, -, -, -, -, -, -, -, -, -, -, e60, e61⟩ := index20 ⟨(i 0).val / 4000, hlt⟩
  refine ⟨⟨(i 0).val / 4000, hlt⟩, flush20_6 _, ?_⟩
  rw [mem_blk20]
  intro a
  match a with
  | ⟨0, _⟩ =>
    show win20_6.index ⟨(i 0).val / 4000, hlt⟩ (0 : Fin 2) * 4000 ≤ (i 0).val
      ∧ (i 0).val < win20_6.index ⟨(i 0).val / 4000, hlt⟩ (0 : Fin 2) * 4000 + 4000
    rw [e60]; show (i 0).val / 4000 * 4000 ≤ (i 0).val ∧ (i 0).val < (i 0).val / 4000 * 4000 + 4000; omega
  | ⟨1, _⟩ =>
    show win20_6.index ⟨(i 0).val / 4000, hlt⟩ (1 : Fin 2) * 128 ≤ (i 1).val
      ∧ (i 1).val < win20_6.index ⟨(i 0).val / 4000, hlt⟩ (1 : Fin 2) * 128 + 128
    rw [e61]; omega

/-- The output array after the run is the stage of the six input arrays. -/
theorem final20 (c : Dev nD) : (dat20 (F := Ideal) V c).arrAt 6 cfg20.N
    = bn20 (V c (Pipeline.arrRef spec20 0)) (V c (Pipeline.arrRef spec20 1)) (V c (Pipeline.arrRef spec20 2))
        (V c (Pipeline.arrRef spec20 3)) (V c (Pipeline.arrRef spec20 4)) (V c (Pipeline.arrRef spec20 5)) :=
  (dat20 V c).arrAt_eq_of_cover 6 _ (fun t _ => flushed20_eq V c t) cover20

/-- The same, read as matrices and rows. -/
theorem arrAt20_out (c : Dev nD) :
    Cert.Stage.toMat ((dat20 (F := Ideal) V c).arrAt 6 cfg20.N)
      = Cert.Stage.bnRelu (Ideal.ofBits .f32 0x3727C5AC#32) (Cert.Stage.toMat (V c (Pipeline.arrRef spec20 0)))
          (Cert.Stage.toMat (V c (Pipeline.arrRef spec20 1))) (Cert.Stage.toRow1 (V c (Pipeline.arrRef spec20 2)))
          (Cert.Stage.toRow1 (V c (Pipeline.arrRef spec20 3))) (Cert.Stage.toRow1 (V c (Pipeline.arrRef spec20 4)))
          (Cert.Stage.toRow1 (V c (Pipeline.arrRef spec20 5))) := by
  rw [final20]
  rfl

end Region20

end Cert.KernelIdeal.RgVal

end
-- ==== Proof.Rg21Val.lean ====
/-
  Region 21 of the kernel program, its values at the extended reals: the two output rows the region leaves are the
  column mean of its 20000 x 128 input over all rows and the column variance as mean of squares minus squared mean.
  The 10 block sums of 2000 rows regroup into one sum over 20000 rows (row = 2000 * block + offset); addition of
  extended reals is commutative and associative, so no finiteness is needed.
-/
import proofs.«418385_j87393994539142_1_alg».proof.Proof.Rg21
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.RgVal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx
open Cert.KernelIdeal Cert.KernelIdeal.Gen Cert.KernelIdeal.Rg
open scoped BigOperators

theorem hz21 : (![0, 0] : Fin 2 → Nat) = fun _ => 0 := funext fun a => by fin_cases a <;> rfl

/-- The row count 20000 as the kernel's f32 literal. -/
abbrev cnt21 : EReal := Ideal.ofBits .f32 0x469C4000#32

/-- Summing 10 blocks of 2000 consecutive terms is summing all 20000 terms (row = 2000 * block + offset). -/
theorem sum_blocks21 {M : Type} [AddCommMonoid M] (f : Fin 20000 → M) :
    ∑ s : Fin 10, ∑ r : Fin 2000, f ⟨2000 * s.val + r.val, by have := s.isLt; have := r.isLt; omega⟩ = ∑ i : Fin 20000, f i := by
  have e := Equiv.sum_comp (finProdFinEquiv : Fin 10 × Fin 2000 ≃ Fin (10 * 2000)) f
  rw [← e, Fintype.sum_prod_type]
  refine Finset.sum_congr rfl fun s _ => Finset.sum_congr rfl fun r _ => congrArg f (Fin.ext ?_)
  show 2000 * s.val + r.val = r.val + 2000 * s.val
  omega

/-- A lane sum over the 2000 rows of a block, at column q. -/
theorem colsum21_apply (x : FVec Ideal S2000x128 .f32) (hφ : FKind.Formats .f32)
    (hacc : (0x00000000#32 : BitVec FTy.f32.bits) = FKind.add.neutral .f32 hφ) (q : Fin 128) :
    multiReduction (F := Ideal) .add [0] S128 x 0x00000000#32 reduces_S2000x128_S128 hφ hacc (ix1 q) = ∑ r : Fin 2000, x (ix2 r q) := by
  refine (Ideal.multiReduction_add_single x 0x00000000#32 reduces_S2000x128_S128 hφ hacc (ix1 q)).trans ?_
  exact Finset.sum_congr rfl fun r _ => congrArg x (funext fun a => by match a with | ⟨0, _⟩ => rfl | ⟨1, _⟩ => rfl)

theorem payZ0_21_apply (q : Fin 128) : k21_pay1 (F := Ideal) (ix2 (0 : Fin 1) q) = 0 := by
  unfold k21_pay1
  simp only [shapeCast_self, broadcast_apply]
  exact Ideal.ofBits_zero_f32
theorem payZ1_21_apply (q : Fin 128) : k21_pay2 (F := Ideal) (ix2 (0 : Fin 1) q) = 0 := by
  unfold k21_pay2
  simp only [shapeCast_self, broadcast_apply]
  exact Ideal.ofBits_zero_f32

theorem payAdd_21_apply (x : Vec Ideal S2000x128 .f32) (s : Vec Ideal S1x128 .f32) (q : Fin 128) :
    k21_pay4 (F := Ideal) x s (ix2 (0 : Fin 1) q) = s (ix2 0 q) + ∑ r : Fin 2000, x (ix2 r q) := by
  unfold k21_pay4 k21_pay3
  simp only [shapeCast_self, addf_apply]
  rw [shapeCast_a_1a_apply]
  exact congrArg _ (colsum21_apply _ _ _ q)

theorem paySq_21_apply (x : Vec Ideal S2000x128 .f32) (s : Vec Ideal S1x128 .f32) (q : Fin 128) :
    k21_pay5 (F := Ideal) x s (ix2 (0 : Fin 1) q) = s (ix2 0 q) + ∑ r : Fin 2000, x (ix2 r q) * x (ix2 r q) := by
  unfold k21_pay5 k21_pay3
  simp only [shapeCast_self, addf_apply]
  rw [shapeCast_a_1a_apply]
  refine congrArg _ ((colsum21_apply _ _ _ q).trans ?_)
  exact Finset.sum_congr rfl fun r _ => mulf_apply _ _ _

theorem payMean_21_apply (s : Vec Ideal S1x128 .f32) (q : Fin 128) :
    k21_pay6 (F := Ideal) s (ix2 (0 : Fin 1) q) = Ideal.div (s (ix2 0 q)) cnt21 := by
  unfold k21_pay6
  simp only [divf_apply, broadcast_apply]
  rfl

theorem payVar_21_apply (s0 s1 : Vec Ideal S1x128 .f32) (q : Fin 128) :
    k21_pay7 (F := Ideal) s0 s1 (ix2 (0 : Fin 1) q)
      = Ideal.div (s1 (ix2 0 q)) cnt21 - Ideal.div (s0 (ix2 0 q)) cnt21 * Ideal.div (s0 (ix2 0 q)) cnt21 := by
  unfold k21_pay7
  simp only [subf_apply, mulf_apply, divf_apply, broadcast_apply, payMean_21_apply]
  rfl

theorem init21_0_apply (q : Fin 128) : init21_0 (F := Ideal) (ix2 (0 : Fin 1) q) = 0 := by
  unfold init21_0; rw [View.canon_unit_zero hz21]; exact payZ0_21_apply q
theorem init21_1_apply (q : Fin 128) : init21_1 (F := Ideal) (ix2 (0 : Fin 1) q) = 0 := by
  unfold init21_1; rw [View.canon_unit_zero hz21]; exact payZ1_21_apply q

theorem step21_0_apply (x : Vec Ideal S2000x128 .f32) (s : Vec Ideal S1x128 .f32) (q : Fin 128) :
    step21_0 x s (ix2 (0 : Fin 1) q) = s (ix2 0 q) + ∑ r : Fin 2000, x (ix2 r q) := by
  unfold step21_0; rw [View.canon_unit_zero hz21]
  simp only [View.ld_unit_zero (S := S2000x128) hz21, View.ld_unit_zero (S := S1x128) hz21]
  exact payAdd_21_apply x s q
theorem step21_1_apply (x : Vec Ideal S2000x128 .f32) (s : Vec Ideal S1x128 .f32) (q : Fin 128) :
    step21_1 x s (ix2 (0 : Fin 1) q) = s (ix2 0 q) + ∑ r : Fin 2000, x (ix2 r q) * x (ix2 r q) := by
  unfold step21_1; rw [View.canon_unit_zero hz21]
  simp only [View.ld_unit_zero (S := S2000x128) hz21, View.ld_unit_zero (S := S1x128) hz21]
  exact paySq_21_apply x s q
theorem out21_1_apply (s : Vec Ideal S1x128 .f32) (q : Fin 128) :
    out21_1 s (ix2 (0 : Fin 1) q) = Ideal.div (s (ix2 0 q)) cnt21 := by
  unfold out21_1; rw [View.canon_unit_zero hz21]
  simp only [View.ld_unit_zero (S := S1x128) hz21]
  exact payMean_21_apply s q
theorem out21_2_apply (s0 s1 : Vec Ideal S1x128 .f32) (q : Fin 128) :
    out21_2 s0 s1 (ix2 (0 : Fin 1) q)
      = Ideal.div (s1 (ix2 0 q)) cnt21 - Ideal.div (s0 (ix2 0 q)) cnt21 * Ideal.div (s0 (ix2 0 q)) cnt21 := by
  unfold out21_2; rw [View.canon_unit_zero hz21]
  simp only [View.ld_unit_zero (S := S1x128) hz21]
  exact payVar_21_apply s0 s1 q

section Regions
variable (V : (c : Dev nD) → (b : Ref sig .tc) → Buf (Elt Ideal) ((c : Thread nD τ).loc b))

/-- The input array is never written back. -/
theorem arrAt21_in_0 (c : Dev nD) : (dat21 (F := Ideal) V c).arrAt 0 cfg21.N = V c (Pipeline.arrRef spec21 0) :=
  ((dat21 (F := Ideal) V c).arrAt_in 0 rfl cfg21.N).trans (A_eq21 V c 0)

/-- The block index maps over the grid: the input's row block is the point, its column block 0; each output row is one block. -/
theorem idx21_0 : ∀ t : Fin cfg21.N, win21_0.index t (0 : Fin 2) = t.val ∧ win21_0.index t (1 : Fin 2) = 0 :=
  (by decide +kernel : ∀ t : Fin grid21.N, win21_0.index t (0 : Fin 2) = t.val ∧ win21_0.index t (1 : Fin 2) = 0)
theorem idx21_1 : ∀ t : Fin cfg21.N, win21_1.index t (0 : Fin 2) = 0 ∧ win21_1.index t (1 : Fin 2) = 0 :=
  (by decide +kernel : ∀ t : Fin grid21.N, win21_1.index t (0 : Fin 2) = 0 ∧ win21_1.index t (1 : Fin 2) = 0)
theorem idx21_2 : ∀ t : Fin cfg21.N, win21_2.index t (0 : Fin 2) = 0 ∧ win21_2.index t (1 : Fin 2) = 0 :=
  (by decide +kernel : ∀ t : Fin grid21.N, win21_2.index t (0 : Fin 2) = 0 ∧ win21_2.index t (1 : Fin 2) = 0)

/-- The input array, indexed by row and column. -/
abbrev X21in (c : Dev nD) : S20000x128.Idx → EReal := V c (Pipeline.arrRef spec21 0)

/-- The input's block at a point, indexed by row and column. -/
abbrev blk21 (c : Dev nD) (t : Fin cfg21.N) : S2000x128.Idx → EReal := iblk21 V c 0 t

/-- Row r of block t is row 2000 t + r of the array. -/
theorem iblk21_0_apply (c : Dev nD) (t : Fin cfg21.N) (r : Fin 2000) (q : Fin 128) :
    blk21 V c t (ix2 r q)
      = X21in V c (ix2 ⟨2000 * t.val + r.val, by have := lt_of_lt_of_eq t.isLt (show cfg21.N = 10 from N_21); have := r.isLt; omega⟩ q) := by
  show V c (Pipeline.arrRef spec21 0) (((cfg21.win 0).blk t).view.emb (ix2 r q)) = V c (Pipeline.arrRef spec21 0) _
  refine congrArg _ (funext fun a => Fin.ext ?_)
  match a with
  | ⟨0, _⟩ => show win21_0.index t (0 : Fin 2) * 2000 + 1 * r.val = 2000 * t.val + r.val; have := (idx21_0 t).1; omega
  | ⟨1, _⟩ => show win21_0.index t (1 : Fin 2) * 128 + 1 * q.val = q.val; have := (idx21_0 t).2; omega

/-- Block s's column sums, of the entries and of their squares (zero past the grid). -/
def bsum21 (c : Dev nD) (q : Fin 128) (s : ℕ) : EReal :=
  if h : s < cfg21.N then ∑ r : Fin 2000, blk21 V c ⟨s, h⟩ (ix2 r q) else 0
def bsq21 (c : Dev nD) (q : Fin 128) (s : ℕ) : EReal :=
  if h : s < cfg21.N then ∑ r : Fin 2000, blk21 V c ⟨s, h⟩ (ix2 r q) * blk21 V c ⟨s, h⟩ (ix2 r q) else 0

theorem acc21_at_zero (c : Dev nD) (hn : 0 < cfg21.N) :
    acc21 V c 0 hn = (step21_0 (iblk21 V c 0 ⟨0, hn⟩) init21_0, step21_1 (iblk21 V c 0 ⟨0, hn⟩) init21_1) := rfl
theorem acc21_at_succ (c : Dev nD) (n : ℕ) (hn : n + 1 < cfg21.N) :
    acc21 V c (n + 1) hn = (step21_0 (iblk21 V c 0 ⟨n + 1, hn⟩) (acc21 V c n (Nat.lt_of_succ_lt hn)).1,
      step21_1 (iblk21 V c 0 ⟨n + 1, hn⟩) (acc21 V c n (Nat.lt_of_succ_lt hn)).2) := rfl

/-- The running rows after point n are the sums of the blocks' column sums up to n. -/
theorem acc21_fst (c : Dev nD) (q : Fin 128) : ∀ (n : ℕ) (hn : n < cfg21.N),
    (acc21 V c n hn).1 (ix2 (0 : Fin 1) q) = ∑ s ∈ Finset.range (n + 1), bsum21 V c q s
  | 0, hn => by
    rw [acc21_at_zero, Finset.sum_range_one]
    refine (step21_0_apply (iblk21 V c 0 ⟨0, hn⟩) init21_0 q).trans ?_
    rw [init21_0_apply, zero_add]; unfold bsum21; rw [dif_pos hn]
  | n + 1, hn => by
    rw [acc21_at_succ, Finset.sum_range_succ, ← acc21_fst c q n (Nat.lt_of_succ_lt hn)]
    refine (step21_0_apply (iblk21 V c 0 ⟨n + 1, hn⟩) _ q).trans ?_
    unfold bsum21; rw [dif_pos hn]
theorem acc21_snd (c : Dev nD) (q : Fin 128) : ∀ (n : ℕ) (hn : n < cfg21.N),
    (acc21 V c n hn).2 (ix2 (0 : Fin 1) q) = ∑ s ∈ Finset.range (n + 1), bsq21 V c q s
  | 0, hn => by
    rw [acc21_at_zero, Finset.sum_range_one]
    refine (step21_1_apply (iblk21 V c 0 ⟨0, hn⟩) init21_1 q).trans ?_
    rw [init21_1_apply, zero_add]; unfold bsq21; rw [dif_pos hn]
  | n + 1, hn => by
    rw [acc21_at_succ, Finset.sum_range_succ, ← acc21_snd c q n (Nat.lt_of_succ_lt hn)]
    refine (step21_1_apply (iblk21 V c 0 ⟨n + 1, hn⟩) _ q).trans ?_
    unfold bsq21; rw [dif_pos hn]

/-- After the last point they are the sums over all 20000 rows. -/
theorem acc21_fst_last (c : Dev nD) (q : Fin 128) (hn : 9 < cfg21.N) :
    (acc21 V c 9 hn).1 (ix2 (0 : Fin 1) q) = ∑ i : Fin 20000, X21in V c (ix2 i q) := by
  rw [acc21_fst V c q 9 hn]
  show ∑ s ∈ Finset.range 10, bsum21 V c q s = _
  rw [Finset.sum_range, ← sum_blocks21 (fun i => X21in V c (ix2 i q))]
  refine Finset.sum_congr rfl fun s _ => ?_
  have hs : s.val < cfg21.N := lt_of_lt_of_eq s.isLt (show cfg21.N = 10 from N_21).symm
  unfold bsum21; rw [dif_pos hs]
  exact Finset.sum_congr rfl fun r _ => iblk21_0_apply V c ⟨s.val, hs⟩ r q
theorem acc21_snd_last (c : Dev nD) (q : Fin 128) (hn : 9 < cfg21.N) :
    (acc21 V c 9 hn).2 (ix2 (0 : Fin 1) q) = ∑ i : Fin 20000, X21in V c (ix2 i q) * X21in V c (ix2 i q) := by
  rw [acc21_snd V c q 9 hn]
  show ∑ s ∈ Finset.range 10, bsq21 V c q s = _
  rw [Finset.sum_range, ← sum_blocks21 (fun i => X21in V c (ix2 i q) * X21in V c (ix2 i q))]
  refine Finset.sum_congr rfl fun s _ => ?_
  have hs : s.val < cfg21.N := lt_of_lt_of_eq s.isLt (show cfg21.N = 10 from N_21).symm
  unfold bsq21; rw [dif_pos hs]
  exact Finset.sum_congr rfl fun r _ => by rw [iblk21_0_apply V c ⟨s.val, hs⟩ r q]

/-- An index of an output row's array is in point t's block iff each coordinate is in the block's range. -/
theorem mem_blk21_1 (t : Fin cfg21.N) (i : S1x128.Idx) :
    i ∈ ((cfg21.win 1).blk t).view.set ↔ ∀ a : Fin 2, win21_1.index t a * S1x128.size a ≤ (i a).val ∧ (i a).val < win21_1.index t a * S1x128.size a + S1x128.size a := by
  show i ∈ ((View.whole (Pipeline.arrRef spec21 1)).slice (win21_1.rect t)).set ↔ _
  rw [View.set_slice_whole, Rect.mem_set_unit]
  exact Iff.rfl
theorem mem_blk21_2 (t : Fin cfg21.N) (i : S1x128.Idx) :
    i ∈ ((cfg21.win 2).blk t).view.set ↔ ∀ a : Fin 2, win21_2.index t a * S1x128.size a ≤ (i a).val ∧ (i a).val < win21_2.index t a * S1x128.size a + S1x128.size a := by
  show i ∈ ((View.whole (Pipeline.arrRef spec21 2)).slice (win21_2.rect t)).set ↔ _
  rw [View.set_slice_whole, Rect.mem_set_unit]
  exact Iff.rfl

/-- The two output rows as functions of the input array: the column mean, and the mean of squares minus the squared mean. -/
def G21_1 (c : Dev nD) : S1x128.Idx → EReal := fun i =>
  Ideal.div (∑ r : Fin 20000, X21in V c (ix2 r ⟨(i 1).val, idx2_lt1 i⟩)) cnt21
def G21_2 (c : Dev nD) : S1x128.Idx → EReal := fun i =>
  Ideal.div (∑ r : Fin 20000, X21in V c (ix2 r ⟨(i 1).val, idx2_lt1 i⟩) * X21in V c (ix2 r ⟨(i 1).val, idx2_lt1 i⟩)) cnt21
    - Ideal.div (∑ r : Fin 20000, X21in V c (ix2 r ⟨(i 1).val, idx2_lt1 i⟩)) cnt21
      * Ideal.div (∑ r : Fin 20000, X21in V c (ix2 r ⟨(i 1).val, idx2_lt1 i⟩)) cnt21

/-- What the last point writes back into output row 1 is that row of the input array. -/
theorem flushed21_1_eq (c : Dev nD) (t : Fin cfg21.N) (hf : (cfg21.win 1).flush t = true) :
    (dat21 (F := Ideal) V c).flushed 1 t = ((cfg21.win 1).blk t).view.read (Elt Ideal) (G21_1 V c) := by
  have h79 : t.val = 9 := by
    have := (flush21_1 t).mp hf; have := lt_of_lt_of_eq t.isLt (show cfg21.N = 10 from N_21); omega
  show (cfg21.win 1).cut (grid21.coords t) ((dat21 (F := Ideal) V c).after 1 t) = _
  rw [after21_1]
  funext j
  obtain ⟨p, q, rfl⟩ : ∃ (p : Fin 1) (q : Fin 128), j = ix2 p q := ⟨j 0, j 1, eq_ix2 j⟩
  obtain rfl : p = 0 := Subsingleton.elim _ _
  show out21_1 (acc21 V c t.val t.isLt).1 (ix2 0 q) = G21_1 V c (((cfg21.win 1).blk t).view.emb (ix2 0 q))
  rw [out21_1_apply]
  have e : (acc21 V c t.val t.isLt).1 (ix2 (0 : Fin 1) q) = ∑ i : Fin 20000, X21in V c (ix2 i q) := by
    obtain ⟨n, hn⟩ := t
    obtain rfl : n = 9 := h79
    exact acc21_fst_last V c q hn
  rw [e]
  unfold G21_1
  have hq : (⟨((((cfg21.win 1).blk t).view.emb (ix2 (0 : Fin 1) q)) 1).val, idx2_lt1 _⟩ : Fin 128) = q :=
    Fin.ext (by show win21_1.index t (1 : Fin 2) * 128 + 1 * q.val = q.val; have := (idx21_1 t).2; omega)
  rw [hq]

theorem flushed21_2_eq (c : Dev nD) (t : Fin cfg21.N) (hf : (cfg21.win 2).flush t = true) :
    (dat21 (F := Ideal) V c).flushed 2 t = ((cfg21.win 2).blk t).view.read (Elt Ideal) (G21_2 V c) := by
  have h79 : t.val = 9 := by
    have := (flush21_2 t).mp hf; have := lt_of_lt_of_eq t.isLt (show cfg21.N = 10 from N_21); omega
  show (cfg21.win 2).cut (grid21.coords t) ((dat21 (F := Ideal) V c).after 2 t) = _
  rw [after21_2]
  funext j
  obtain ⟨p, q, rfl⟩ : ∃ (p : Fin 1) (q : Fin 128), j = ix2 p q := ⟨j 0, j 1, eq_ix2 j⟩
  obtain rfl : p = 0 := Subsingleton.elim _ _
  show out21_2 (acc21 V c t.val t.isLt).1 (acc21 V c t.val t.isLt).2 (ix2 0 q) = G21_2 V c (((cfg21.win 2).blk t).view.emb (ix2 0 q))
  rw [out21_2_apply]
  have e0 : (acc21 V c t.val t.isLt).1 (ix2 (0 : Fin 1) q) = ∑ i : Fin 20000, X21in V c (ix2 i q) := by
    obtain ⟨n, hn⟩ := t
    obtain rfl : n = 9 := h79
    exact acc21_fst_last V c q hn
  have e1 : (acc21 V c t.val t.isLt).2 (ix2 (0 : Fin 1) q) = ∑ i : Fin 20000, X21in V c (ix2 i q) * X21in V c (ix2 i q) := by
    obtain ⟨n, hn⟩ := t
    obtain rfl : n = 9 := h79
    exact acc21_snd_last V c q hn
  rw [e0, e1]
  unfold G21_2
  have hq : (⟨((((cfg21.win 2).blk t).view.emb (ix2 (0 : Fin 1) q)) 1).val, idx2_lt1 _⟩ : Fin 128) = q :=
    Fin.ext (by show win21_2.index t (1 : Fin 2) * 128 + 1 * q.val = q.val; have := (idx21_2 t).2; omega)
  rw [hq]

/-- Every index of an output row is in the last point's block. -/
theorem cover21_1 (i : S1x128.Idx) : ∃ t : Fin cfg21.N, (cfg21.win 1).flush t = true ∧ i ∈ ((cfg21.win 1).blk t).view.set := by
  refine ⟨⟨9, by decide⟩, (flush21_1 _).mpr rfl, ?_⟩
  rw [mem_blk21_1]
  intro a
  match a with
  | ⟨0, _⟩ => show win21_1.index _ (0 : Fin 2) * 1 ≤ (i 0).val ∧ (i 0).val < win21_1.index _ (0 : Fin 2) * 1 + 1; have := (idx21_1 ⟨9, by decide⟩).1; have := idx2_lt0 i; omega
  | ⟨1, _⟩ => show win21_1.index _ (1 : Fin 2) * 128 ≤ (i 1).val ∧ (i 1).val < win21_1.index _ (1 : Fin 2) * 128 + 128; have := (idx21_1 ⟨9, by decide⟩).2; have := idx2_lt1 i; omega
theorem cover21_2 (i : S1x128.Idx) : ∃ t : Fin cfg21.N, (cfg21.win 2).flush t = true ∧ i ∈ ((cfg21.win 2).blk t).view.set := by
  refine ⟨⟨9, by decide⟩, (flush21_2 _).mpr rfl, ?_⟩
  rw [mem_blk21_2]
  intro a
  match a with
  | ⟨0, _⟩ => show win21_2.index _ (0 : Fin 2) * 1 ≤ (i 0).val ∧ (i 0).val < win21_2.index _ (0 : Fin 2) * 1 + 1; have := (idx21_2 ⟨9, by decide⟩).1; have := idx2_lt0 i; omega
  | ⟨1, _⟩ => show win21_2.index _ (1 : Fin 2) * 128 ≤ (i 1).val ∧ (i 1).val < win21_2.index _ (1 : Fin 2) * 128 + 128; have := (idx21_2 ⟨9, by decide⟩).2; have := idx2_lt1 i; omega

/-- The output rows after the region. -/
theorem final21_1 (c : Dev nD) : (dat21 (F := Ideal) V c).arrAt 1 cfg21.N = G21_1 V c :=
  (dat21 (F := Ideal) V c).arrAt_eq_of_cover 1 (G21_1 V c) (fun t hf => flushed21_1_eq V c t hf) cover21_1
theorem final21_2 (c : Dev nD) : (dat21 (F := Ideal) V c).arrAt 2 cfg21.N = G21_2 V c :=
  (dat21 (F := Ideal) V c).arrAt_eq_of_cover 2 (G21_2 V c) (fun t hf => flushed21_2_eq V c t hf) cover21_2

/-- Output row 1 after the region is the column mean of the input array over all 20000 rows. -/
theorem arrAt21_out1 (c : Dev nD) :
    Cert.Stage.toRow1 ((dat21 (F := Ideal) V c).arrAt 1 cfg21.N) = Cert.Stage.colMean cnt21 (Cert.Stage.toMat (V c (Pipeline.arrRef spec21 0))) := by
  rw [final21_1]; rfl
/-- Output row 2 after the region is its column variance, as mean of squares minus squared mean. -/
theorem arrAt21_out2 (c : Dev nD) :
    Cert.Stage.toRow1 ((dat21 (F := Ideal) V c).arrAt 2 cfg21.N) = Cert.Stage.colVarSq cnt21 (Cert.Stage.toMat (V c (Pipeline.arrRef spec21 0))) := by
  rw [final21_2]; rfl

end Regions

end Cert.KernelIdeal.RgVal

end
-- ==== Proof.Rg22Val.lean ====
import proofs.«418385_j87393994539142_1_alg».proof.Proof.Rg22
import proofs.«418385_j87393994539142_1_alg».proof.Proof.Stage
import Idealize.ShloMosaic.Lib.Pipeline.Value
import Idealize.ShloMosaic.Lib.ValueIdx
import Idealize.ShloMosaic.Lib.ValueLayout
import Idealize.ShloMosaic.PureOps.Ideal.Laws

/-!
# Kernel region 22: what the region leaves in its arrays, over the extended reals

The six arrays the region reads are never written back, so they end as they were found. The output array is
written back block by block, 10 blocks of 2000 rows; block t holds, at row p and column q, the normalised,
rectified value of row 2000 t + p of the operand plus the same row of the residual. The blocks tile the 20000
rows, so the whole output array is one function of the six input arrays: the stage  res + max (g (x - mu)
rsqrt (var + eps) + be) 0  taken entry by entry, the four rows read at the entry's column.
-/

set_option maxRecDepth 16384

noncomputable section

namespace Cert.KernelIdeal.RgVal

open Cert.KernelIdeal Cert.KernelIdeal.Gen Cert.KernelIdeal.Rg
open Idealize.ShloMosaic Idealize.ShloMosaic.TcCoe Idealize.SL.Sem Idealize.ShloMosaic.ValueIdx
open Idealize.ShloMosaic.Pipeline (Dat)

section Region22
variable (V : (c : Dev nD) → (b : Ref sig .tc) → Buf (Elt Ideal) ((c : Thread nD τ).loc b))

/-! ## The arrays the region only reads -/

theorem arrAt22_in_0 (c : Dev nD) : (dat22 (F := Ideal) V c).arrAt 0 cfg22.N = V c (Pipeline.arrRef spec22 0) :=
  ((dat22 V c).arrAt_in 0 rfl _).trans (A_eq22 V c 0)
theorem arrAt22_in_1 (c : Dev nD) : (dat22 (F := Ideal) V c).arrAt 1 cfg22.N = V c (Pipeline.arrRef spec22 1) :=
  ((dat22 V c).arrAt_in 1 rfl _).trans (A_eq22 V c 1)
theorem arrAt22_in_2 (c : Dev nD) : (dat22 (F := Ideal) V c).arrAt 2 cfg22.N = V c (Pipeline.arrRef spec22 2) :=
  ((dat22 V c).arrAt_in 2 rfl _).trans (A_eq22 V c 2)
theorem arrAt22_in_3 (c : Dev nD) : (dat22 (F := Ideal) V c).arrAt 3 cfg22.N = V c (Pipeline.arrRef spec22 3) :=
  ((dat22 V c).arrAt_in 3 rfl _).trans (A_eq22 V c 3)
theorem arrAt22_in_4 (c : Dev nD) : (dat22 (F := Ideal) V c).arrAt 4 cfg22.N = V c (Pipeline.arrRef spec22 4) :=
  ((dat22 V c).arrAt_in 4 rfl _).trans (A_eq22 V c 4)
theorem arrAt22_in_5 (c : Dev nD) : (dat22 (F := Ideal) V c).arrAt 5 cfg22.N = V c (Pipeline.arrRef spec22 5) :=
  ((dat22 V c).arrAt_in 5 rfl _).trans (A_eq22 V c 5)

/-! ## The body's value at an entry of the block -/

theorem zeros22 : (![0, 0] : Fin 2 → Nat) = fun _ => 0 := funext fun a => by fin_cases a <;> rfl

/-- The value the body stores at row p, column q of the block, from the six blocks it loads: the residual plus
    the rectified normalised operand, the four rows read at column q. The zero the rectifier compares with is the
    real number zero; the small constant added to the variance stays the word it is printed as. -/
theorem pay22_apply (x r : Vec Ideal S2000x128 .f32) (mu var g be : Vec Ideal S1x128 .f32) (p : Fin 2000) (q : Fin 128) :
    k22_pay1 x g mu var be r (ix2 p q)
      = r (ix2 p q) + max (g (ix2 (0 : Fin 1) q) * (x (ix2 p q) - mu (ix2 (0 : Fin 1) q))
          * Ideal.rsqrt (var (ix2 (0 : Fin 1) q) + Ideal.ofBits .f32 0x3727C5AC#32) + be (ix2 (0 : Fin 1) q)) 0 := by
  unfold k22_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply, broadcast_apply]
  show _ + max (_ * _ * Ideal.rsqrt (var (ix2 (0 : Fin 1) q) + Ideal.ofBits .f32 0x3727C5AC#32) + _) (Ideal.ofBits .f32 0x00000000#32) = _
  rw [Ideal.ofBits_zero_f32]

/-! ## The output array as one function of the input arrays -/

/-- The stage, entry by entry, as a function of the six whole arrays. -/
def bn22 (a0 a1 : S20000x128.Idx → EReal) (a2 a3 a4 a5 : S1x128.Idx → EReal) : S20000x128.Idx → EReal :=
  fun i => Cert.Stage.bnRelu (Ideal.ofBits .f32 0x3727C5AC#32) (Cert.Stage.toMat a0) (Cert.Stage.toMat a1)
    (Cert.Stage.toRow1 a2) (Cert.Stage.toRow1 a3) (Cert.Stage.toRow1 a4) (Cert.Stage.toRow1 a5) (i 0) (i 1)

/-- The stage at row P, column q, spelt out. -/
theorem bn22_apply (a0 a1 : S20000x128.Idx → EReal) (a2 a3 a4 a5 : S1x128.Idx → EReal) (P : Fin 20000) (q : Fin 128) :
    bn22 a0 a1 a2 a3 a4 a5 (ix2 P q)
      = a1 (ix2 P q) + max (a4 (ix2 (0 : Fin 1) q) * (a0 (ix2 P q) - a2 (ix2 (0 : Fin 1) q))
          * Ideal.rsqrt (a3 (ix2 (0 : Fin 1) q) + Ideal.ofBits .f32 0x3727C5AC#32) + a5 (ix2 (0 : Fin 1) q)) 0 := rfl

/-- Where each window's block sits at grid point t: the two operands and the output at row block t, the four
    rows at the one block there is. Decided over the 10 points. -/
theorem index22 : ∀ t : Fin cfg22.N,
    win22_0.index t (0 : Fin 2) = t.val ∧ win22_0.index t (1 : Fin 2) = 0
    ∧ win22_1.index t (0 : Fin 2) = t.val ∧ win22_1.index t (1 : Fin 2) = 0
    ∧ win22_2.index t (0 : Fin 2) = 0 ∧ win22_2.index t (1 : Fin 2) = 0
    ∧ win22_3.index t (0 : Fin 2) = 0 ∧ win22_3.index t (1 : Fin 2) = 0
    ∧ win22_4.index t (0 : Fin 2) = 0 ∧ win22_4.index t (1 : Fin 2) = 0
    ∧ win22_5.index t (0 : Fin 2) = 0 ∧ win22_5.index t (1 : Fin 2) = 0
    ∧ win22_6.index t (0 : Fin 2) = t.val ∧ win22_6.index t (1 : Fin 2) = 0 :=
  (by decide +kernel : ∀ t : Fin grid22.N, _)

/-- Row p of block t is row 2000 t + p of the array. -/
theorem row22_lt (t : Fin cfg22.N) (p : Fin 2000) : 2000 * t.val + p.val < 20000 := by
  have ht : t.val < 10 := Nat.lt_of_lt_of_eq t.isLt N_22
  have hp := p.isLt
  omega

/-- An operand block (window 0 or 1) at row p, column q is the array at row 2000 t + p, column q. -/
theorem iblk22_0_apply (c : Dev nD) (t : Fin cfg22.N) (p : Fin 2000) (q : Fin 128) :
    (iblk22 V c 0 t : Vec Ideal S2000x128 .f32) (ix2 p q)
      = (V c (Pipeline.arrRef spec22 0) : S20000x128.Idx → EReal) (ix2 ⟨2000 * t.val + p.val, row22_lt t p⟩ q) := by
  obtain ⟨e00, e01, -⟩ := index22 t
  unfold iblk22
  rw [View.read_apply]
  refine congrArg (V c (Pipeline.arrRef spec22 0) : S20000x128.Idx → EReal) (funext fun a => Fin.ext ?_)
  match a with
  | ⟨0, _⟩ => show win22_0.index t (0 : Fin 2) * 2000 + 1 * p.val = 2000 * t.val + p.val; omega
  | ⟨1, _⟩ => show win22_0.index t (1 : Fin 2) * 128 + 1 * q.val = q.val; omega

theorem iblk22_1_apply (c : Dev nD) (t : Fin cfg22.N) (p : Fin 2000) (q : Fin 128) :
    (iblk22 V c 1 t : Vec Ideal S2000x128 .f32) (ix2 p q)
      = (V c (Pipeline.arrRef spec22 1) : S20000x128.Idx → EReal) (ix2 ⟨2000 * t.val + p.val, row22_lt t p⟩ q) := by
  obtain ⟨-, -, e10, e11, -⟩ := index22 t
  unfold iblk22
  rw [View.read_apply]
  refine congrArg (V c (Pipeline.arrRef spec22 1) : S20000x128.Idx → EReal) (funext fun a => Fin.ext ?_)
  match a with
  | ⟨0, _⟩ => show win22_1.index t (0 : Fin 2) * 2000 + 1 * p.val = 2000 * t.val + p.val; omega
  | ⟨1, _⟩ => show win22_1.index t (1 : Fin 2) * 128 + 1 * q.val = q.val; omega

/-- A row block (windows 2 to 5) at column q is the one-row array at column q, at every point. -/
theorem iblk22_2_apply (c : Dev nD) (t : Fin cfg22.N) (q : Fin 128) :
    (iblk22 V c 2 t : Vec Ideal S1x128 .f32) (ix2 (0 : Fin 1) q)
      = (V c (Pipeline.arrRef spec22 2) : S1x128.Idx → EReal) (ix2 (0 : Fin 1) q) := by
  obtain ⟨-, -, -, -, e20, e21, -⟩ := index22 t
  unfold iblk22
  rw [View.read_apply]
  refine congrArg (V c (Pipeline.arrRef spec22 2) : S1x128.Idx → EReal) (funext fun a => Fin.ext ?_)
  match a with
  | ⟨0, _⟩ => show win22_2.index t (0 : Fin 2) * 1 + 1 * 0 = 0; omega
  | ⟨1, _⟩ => show win22_2.index t (1 : Fin 2) * 128 + 1 * q.val = q.val; omega

theorem iblk22_3_apply (c : Dev nD) (t : Fin cfg22.N) (q : Fin 128) :
    (iblk22 V c 3 t : Vec Ideal S1x128 .f32) (ix2 (0 : Fin 1) q)
      = (V c (Pipeline.arrRef spec22 3) : S1x128.Idx → EReal) (ix2 (0 : Fin 1) q) := by
  obtain ⟨-, -, -, -, -, -, e30, e31, -⟩ := index22 t
  unfold iblk22
  rw [View.read_apply]
  refine congrArg (V c (Pipeline.arrRef spec22 3) : S1x128.Idx → EReal) (funext fun a => Fin.ext ?_)
  match a with
  | ⟨0, _⟩ => show win22_3.index t (0 : Fin 2) * 1 + 1 * 0 = 0; omega
  | ⟨1, _⟩ => show win22_3.index t (1 : Fin 2) * 128 + 1 * q.val = q.val; omega

theorem iblk22_4_apply (c : Dev nD) (t : Fin cfg22.N) (q : Fin 128) :
    (iblk22 V c 4 t : Vec Ideal S1x128 .f32) (ix2 (0 : Fin 1) q)
      = (V c (Pipeline.arrRef spec22 4) : S1x128.Idx → EReal) (ix2 (0 : Fin 1) q) := by
  obtain ⟨-, -, -, -, -, -, -, -, e40, e41, -⟩ := index22 t
  unfold iblk22
  rw [View.read_apply]
  refine congrArg (V c (Pipeline.arrRef spec22 4) : S1x128.Idx → EReal) (funext fun a => Fin.ext ?_)
  match a with
  | ⟨0, _⟩ => show win22_4.index t (0 : Fin 2) * 1 + 1 * 0 = 0; omega
  | ⟨1, _⟩ => show win22_4.index t (1 : Fin 2) * 128 + 1 * q.val = q.val; omega

theorem iblk22_5_apply (c : Dev nD) (t : Fin cfg22.N) (q : Fin 128) :
    (iblk22 V c 5 t : Vec Ideal S1x128 .f32) (ix2 (0 : Fin 1) q)
      = (V c (Pipeline.arrRef spec22 5) : S1x128.Idx → EReal) (ix2 (0 : Fin 1) q) := by
  obtain ⟨-, -, -, -, -, -, -, -, -, -, e50, e51, -⟩ := index22 t
  unfold iblk22
  rw [View.read_apply]
  refine congrArg (V c (Pipeline.arrRef spec22 5) : S1x128.Idx → EReal) (funext fun a => Fin.ext ?_)
  match a with
  | ⟨0, _⟩ => show win22_5.index t (0 : Fin 2) * 1 + 1 * 0 = 0; omega
  | ⟨1, _⟩ => show win22_5.index t (1 : Fin 2) * 128 + 1 * q.val = q.val; omega

/-- Row p, column q of the output's block t sits at row 2000 t + p, column q of the output array. -/
theorem emb22_out (t : Fin cfg22.N) (p : Fin 2000) (q : Fin 128) :
    (((cfg22.win 6).blk t).view.emb (ix2 p q) : S20000x128.Idx) = ix2 ⟨2000 * t.val + p.val, row22_lt t p⟩ q := by
  obtain ⟨-, -, -, -, -, -, -, -, -, -, -, -, e60, e61⟩ := index22 t
  refine funext fun a => Fin.ext ?_
  match a with
  | ⟨0, _⟩ => show win22_6.index t (0 : Fin 2) * 2000 + 1 * p.val = 2000 * t.val + p.val; omega
  | ⟨1, _⟩ => show win22_6.index t (1 : Fin 2) * 128 + 1 * q.val = q.val; omega

/-- What point t writes back is block t of the stage of the six arrays as the region finds them. -/
theorem flushed22_eq (c : Dev nD) (t : Fin cfg22.N) :
    (dat22 (F := Ideal) V c).flushed 6 t = ((cfg22.win 6).blk t).view.read (Elt Ideal)
      (bn22 (V c (Pipeline.arrRef spec22 0)) (V c (Pipeline.arrRef spec22 1)) (V c (Pipeline.arrRef spec22 2))
        (V c (Pipeline.arrRef spec22 3)) (V c (Pipeline.arrRef spec22 4)) (V c (Pipeline.arrRef spec22 5))) := by
  show (cfg22.win 6).cut (grid22.coords t) ((dat22 V c).after 6 t) = _
  rw [after22_6]
  unfold out22_6
  rw [View.canon_unit_zero zeros22]
  simp only [View.ld_unit_zero (S := S2000x128) zeros22, View.ld_unit_zero (S := S1x128) zeros22]
  funext j
  obtain ⟨p, q, rfl⟩ : ∃ (p : Fin 2000) (q : Fin 128), j = ix2 p q := ⟨j 0, j 1, eq_ix2 j⟩
  refine (pay22_apply _ _ _ _ _ _ p q).trans ?_
  rw [View.read_apply, emb22_out, bn22_apply, iblk22_0_apply, iblk22_1_apply, iblk22_2_apply, iblk22_3_apply, iblk22_4_apply, iblk22_5_apply]
  rfl

/-- An index of the output array is in point t's block exactly when each coordinate is in the block's range. -/
theorem mem_blk22 (t : Fin cfg22.N) (i : S20000x128.Idx) :
    i ∈ ((cfg22.win 6).blk t).view.set ↔ ∀ a : Fin 2, win22_6.index t a * S2000x128.size a ≤ (i a).val
      ∧ (i a).val < win22_6.index t a * S2000x128.size a + S2000x128.size a := by
  show i ∈ ((View.whole main_v181).slice (win22_6.rect t)).set ↔ _
  rw [View.set_slice_whole, Rect.mem_set_unit]
  exact Iff.rfl

/-- Every row of the output array is in some point's block: row P in the block of point P / 2000. -/
theorem cover22 (i : S20000x128.Idx) :
    ∃ t : Fin cfg22.N, (cfg22.win 6).flush t = true ∧ i ∈ ((cfg22.win 6).blk t).view.set := by
  have hi0 : (i 0).val < 20000 := (i 0).isLt
  have hi1 : (i 1).val < 128 := (i 1).isLt
  have hlt : (i 0).val / 2000 < cfg22.N := by rw [show cfg22.N = 10 from N_22]; omega
  obtain ⟨-, -, -, -, -, -, -, -, -, -, -, -, e60, e61⟩ := index22 ⟨(i 0).val / 2000, hlt⟩
  refine ⟨⟨(i 0).val / 2000, hlt⟩, flush22_6 _, ?_⟩
  rw [mem_blk22]
  intro a
  match a with
  | ⟨0, _⟩ =>
    show win22_6.index ⟨(i 0).val / 2000, hlt⟩ (0 : Fin 2) * 2000 ≤ (i 0).val
      ∧ (i 0).val < win22_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win22_6.index ⟨(i 0).val / 2000, hlt⟩ (1 : Fin 2) * 128 ≤ (i 1).val
      ∧ (i 1).val < win22_6.index ⟨(i 0).val / 2000, hlt⟩ (1 : Fin 2) * 128 + 128
    rw [e61]; omega

/-- The output array after the run is the stage of the six input arrays. -/
theorem final22 (c : Dev nD) : (dat22 (F := Ideal) V c).arrAt 6 cfg22.N
    = bn22 (V c (Pipeline.arrRef spec22 0)) (V c (Pipeline.arrRef spec22 1)) (V c (Pipeline.arrRef spec22 2))
        (V c (Pipeline.arrRef spec22 3)) (V c (Pipeline.arrRef spec22 4)) (V c (Pipeline.arrRef spec22 5)) :=
  (dat22 V c).arrAt_eq_of_cover 6 _ (fun t _ => flushed22_eq V c t) cover22

/-- The same, read as matrices and rows. -/
theorem arrAt22_out (c : Dev nD) :
    Cert.Stage.toMat ((dat22 (F := Ideal) V c).arrAt 6 cfg22.N)
      = Cert.Stage.bnRelu (Ideal.ofBits .f32 0x3727C5AC#32) (Cert.Stage.toMat (V c (Pipeline.arrRef spec22 0)))
          (Cert.Stage.toMat (V c (Pipeline.arrRef spec22 1))) (Cert.Stage.toRow1 (V c (Pipeline.arrRef spec22 2)))
          (Cert.Stage.toRow1 (V c (Pipeline.arrRef spec22 3))) (Cert.Stage.toRow1 (V c (Pipeline.arrRef spec22 4)))
          (Cert.Stage.toRow1 (V c (Pipeline.arrRef spec22 5))) := by
  rw [final22]
  rfl

end Region22

end Cert.KernelIdeal.RgVal

end
-- ==== Proof.KernelIdealAsmVal.lean ====
import proofs.«418385_j87393994539142_1_alg».proof.Proof.KernelIdealAsm
import proofs.«418385_j87393994539142_1_alg».proof.Proof.KValCore
import proofs.«418385_j87393994539142_1_alg».proof.Proof.Rg0Val
import proofs.«418385_j87393994539142_1_alg».proof.Proof.Rg1Val
import proofs.«418385_j87393994539142_1_alg».proof.Proof.Rg2Val
import proofs.«418385_j87393994539142_1_alg».proof.Proof.Rg3Val
import proofs.«418385_j87393994539142_1_alg».proof.Proof.Rg4Val
import proofs.«418385_j87393994539142_1_alg».proof.Proof.Rg5Val
import proofs.«418385_j87393994539142_1_alg».proof.Proof.Rg6Val
import proofs.«418385_j87393994539142_1_alg».proof.Proof.Rg7Val
import proofs.«418385_j87393994539142_1_alg».proof.Proof.Rg8Val
import proofs.«418385_j87393994539142_1_alg».proof.Proof.Rg9Val
import proofs.«418385_j87393994539142_1_alg».proof.Proof.Rg10Val
import proofs.«418385_j87393994539142_1_alg».proof.Proof.Rg11Val
import proofs.«418385_j87393994539142_1_alg».proof.Proof.Rg12Val
import proofs.«418385_j87393994539142_1_alg».proof.Proof.Rg13Val
import proofs.«418385_j87393994539142_1_alg».proof.Proof.Rg14Val
import proofs.«418385_j87393994539142_1_alg».proof.Proof.Rg15Val
import proofs.«418385_j87393994539142_1_alg».proof.Proof.Rg16Val
import proofs.«418385_j87393994539142_1_alg».proof.Proof.Rg17Val
import proofs.«418385_j87393994539142_1_alg».proof.Proof.Rg18Val
import proofs.«418385_j87393994539142_1_alg».proof.Proof.Rg19Val
import proofs.«418385_j87393994539142_1_alg».proof.Proof.Rg20Val
import proofs.«418385_j87393994539142_1_alg».proof.Proof.Rg21Val
import proofs.«418385_j87393994539142_1_alg».proof.Proof.Rg22Val

/-! # What every region leaves, as stage functions

Region K's output arrays after its run are its value lemma's stage function of its input arrays; the input arrays
are the valuation the region is entered from read at the region's input buffers. -/

set_option maxRecDepth 16384

noncomputable section

namespace Cert.KernelIdeal.AsmVal

open Cert.KernelIdeal Cert.KernelIdeal.Gen Cert.KernelIdeal.Asm Cert.KernelIdeal.RgVal Cert.Stage
open Idealize.ShloMosaic Idealize.ShloMosaic.TcCoe

variable (m : (ℓ : Loc nD τ sig) → Buf (Elt Ideal) ℓ) (c : Dev nD)

/-- Every region's outputs, read as stage functions of the valuation the region is entered from. -/
theorem region_vals : Cert.KVal.RegionVals m (outs m) c where
  r0 := by rw [outs0_3 m c]; exact arrAt0_out (asV (V1 m)) c
  r1 := by rw [outs1_3 m c]; exact arrAt1_out (asV (V3 m (outs m))) c
  r2 := by rw [outs2_3 m c]; exact arrAt2_out (asV (V5 m (outs m))) c
  r3 := by rw [outs3_3 m c]; exact arrAt3_out (asV (V7 m (outs m))) c
  r4a := by rw [outs4_4 m c]; exact arrAt4_out4 (asV (V11 m (outs m))) c
  r4b := by rw [outs4_5 m c]; exact arrAt4_out5 (asV (V11 m (outs m))) c
  r5a := by rw [outs5_1 m c]; exact arrAt5_out1 (asV (V12 m (outs m))) c
  r5b := by rw [outs5_2 m c]; exact arrAt5_out2 (asV (V12 m (outs m))) c
  r6 := by rw [outs6_6 m c]; exact arrAt6_out (asV (V14 m (outs m))) c
  r7a := by rw [outs7_1 m c]; exact arrAt7_out1 (asV (V16 m (outs m))) c
  r7b := by rw [outs7_2 m c]; exact arrAt7_out2 (asV (V16 m (outs m))) c
  r8 := by rw [outs8_6 m c]; exact arrAt8_out (asV (V18 m (outs m))) c
  r9 := by rw [outs9_3 m c]; exact arrAt9_out (asV (V20 m (outs m))) c
  r10 := by rw [outs10_3 m c]; exact arrAt10_out (asV (V22 m (outs m))) c
  r11a := by rw [outs11_4 m c]; exact arrAt11_out4 (asV (V26 m (outs m))) c
  r11b := by rw [outs11_5 m c]; exact arrAt11_out5 (asV (V26 m (outs m))) c
  r12a := by rw [outs12_1 m c]; exact arrAt12_out1 (asV (V27 m (outs m))) c
  r12b := by rw [outs12_2 m c]; exact arrAt12_out2 (asV (V27 m (outs m))) c
  r13 := by rw [outs13_6 m c]; exact arrAt13_out (asV (V29 m (outs m))) c
  r14a := by rw [outs14_1 m c]; exact arrAt14_out1 (asV (V31 m (outs m))) c
  r14b := by rw [outs14_2 m c]; exact arrAt14_out2 (asV (V31 m (outs m))) c
  r15 := by rw [outs15_6 m c]; exact arrAt15_out (asV (V33 m (outs m))) c
  r16 := by rw [outs16_3 m c]; exact arrAt16_out (asV (V35 m (outs m))) c
  r17 := by rw [outs17_3 m c]; exact arrAt17_out (asV (V37 m (outs m))) c
  r18a := by rw [outs18_4 m c]; exact arrAt18_out4 (asV (V41 m (outs m))) c
  r18b := by rw [outs18_5 m c]; exact arrAt18_out5 (asV (V41 m (outs m))) c
  r19a := by rw [outs19_1 m c]; exact arrAt19_out1 (asV (V42 m (outs m))) c
  r19b := by rw [outs19_2 m c]; exact arrAt19_out2 (asV (V42 m (outs m))) c
  r20 := by rw [outs20_6 m c]; exact arrAt20_out (asV (V44 m (outs m))) c
  r21a := by rw [outs21_1 m c]; exact arrAt21_out1 (asV (V46 m (outs m))) c
  r21b := by rw [outs21_2 m c]; exact arrAt21_out2 (asV (V46 m (outs m))) c
  r22 := by rw [outs22_6 m c]; exact arrAt22_out (asV (V48 m (outs m))) c

end Cert.KernelIdeal.AsmVal

end
-- ==== Proof.KHostA.lean ====
import proofs.«418385_j87393994539142_1_alg».proof.Proof.KernelIdealRegionsP
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-! # The kernel program's layout stretches, read at an index

Between its kernel regions the program slices, reshapes and concatenates its parameter arrays on the host. Each lemma
here says which element of which argument a result buffer holds at an index, for arbitrary launch contents and
arbitrary contents left by the regions. -/

set_option maxRecDepth 16384

noncomputable section

namespace Cert.KHostA.Lib

open Cert.KernelIdeal Cert.KernelIdeal.Gen Idealize.ShloMosaic Idealize.ShloMosaic.TcCoe Idealize.ShloMosaic.ValueIdx Idealize.ShloMosaic.StableHlo

/-! ## Reshapes between a block and the same block with unit axes, read at an index -/

section Reads
variable {α : Type}

/-- A vector laid out as one row. -/
theorem row_of_vec (x : S128.Idx → α) (j : Fin 128) :
    shapeCast S1x128 x shapeCasts_S128_S1x128 (ix2 (0 : Fin 1) j) = x (ix1 j) :=
  shapeCast_apply x shapeCasts_S128_S1x128 _ (ix1 j)
    (by rewrite [Shape.rowMajor_val_two, Shape.rowMajor_val_one]; show j.val = 0 * 128 + j.val; omega)

/-- One row read as a vector. -/
theorem vec_of_row (x : S1x128.Idx → α) (j : Fin 128) :
    shapeCast S128 x shapeCasts_S1x128_S128 (ix1 j) = x (ix2 (0 : Fin 1) j) :=
  shapeCast_apply x shapeCasts_S1x128_S128 _ (ix2 (0 : Fin 1) j)
    (by rewrite [Shape.rowMajor_val_two, Shape.rowMajor_val_one]; show 0 * 128 + j.val = j.val; omega)

/-- A 1×1×128 block read as a vector. -/
theorem vec_of_unit_row (x : S1x1x128.Idx → α) (j : Fin 128) :
    shapeCast S128 x shapeCasts_S1x1x128_S128 (ix1 j) = x (ix3 (0 : Fin 1) (0 : Fin 1) j) :=
  shapeCast_apply x shapeCasts_S1x1x128_S128 _ (ix3 (0 : Fin 1) (0 : Fin 1) j)
    (by rewrite [Shape.rowMajor_val_three, Shape.rowMajor_val_one]; show (0 * 1 + 0) * 128 + j.val = j.val; omega)

/-- A 1×128×128 block read as a matrix. -/
theorem mat_of_slab (x : S1x128x128.Idx → α) (k j : Fin 128) :
    shapeCast S128x128 x shapeCasts_S1x128x128_S128x128 (ix2 k j) = x (ix3 (0 : Fin 1) k j) :=
  shapeCast_apply x shapeCasts_S1x128x128_S128x128 _ (ix3 (0 : Fin 1) k j)
    (by rewrite [Shape.rowMajor_val_three, Shape.rowMajor_val_two]; show (0 * 128 + k.val) * 128 + j.val = k.val * 128 + j.val; omega)

/-- A layer's 1×5×128×128 block read as five matrices. -/
theorem slabs_of_layer (x : S1x5x128x128.Idx → α) (p : Fin 5) (k j : Fin 128) :
    shapeCast S5x128x128 x shapeCasts_S1x5x128x128_S5x128x128 (ix3 p k j) = x (ix4 (0 : Fin 1) p k j) :=
  shapeCast_apply x shapeCasts_S1x5x128x128_S5x128x128 _ (ix4 (0 : Fin 1) p k j)
    (by rewrite [Shape.rowMajor_val_four, Shape.rowMajor_val_three]
        show ((0 * 5 + p.val) * 128 + k.val) * 128 + j.val = (p.val * 128 + k.val) * 128 + j.val; omega)

/-- A layer's 1×5×128 block read as five rows. -/
theorem rows_of_layer (x : S1x5x128.Idx → α) (p : Fin 5) (j : Fin 128) :
    shapeCast S5x128 x shapeCasts_S1x5x128_S5x128 (ix2 p j) = x (ix3 (0 : Fin 1) p j) :=
  shapeCast_apply x shapeCasts_S1x5x128_S5x128 _ (ix3 (0 : Fin 1) p j)
    (by rewrite [Shape.rowMajor_val_three, Shape.rowMajor_val_two]
        show (0 * 5 + p.val) * 128 + j.val = p.val * 128 + j.val; omega)

/-- A 512-vector laid out as one row. -/
theorem row_of_vec512 (x : S512.Idx → α) (j : Fin 512) :
    shapeCast S1x512 x shapeCasts_S512_S1x512 (ix2 (0 : Fin 1) j) = x (ix1 j) :=
  shapeCast_apply x shapeCasts_S512_S1x512 _ (ix1 j)
    (by rewrite [Shape.rowMajor_val_two, Shape.rowMajor_val_one]; show j.val = 0 * 512 + j.val; omega)

end Reads

/-! ## The parameter arrays' slices, read at an index (any layer `l` of three) -/

section Slices
variable {α : Type}

/-- Layer `l`'s five weight matrices: matrix `p` at `(k, j)` is the argument at `(l, p, k, j)`. -/
theorem slabs_apply (l : Fin 3) (x : S3x5x128x128.Idx → α) (h : S3x5x128x128.Slices ![l.val, 0, 0, 0] S1x5x128x128)
    (p : Fin 5) (k j : Fin 128) :
    shapeCast S5x128x128 (extractStridedSlice S1x5x128x128 ![l.val, 0, 0, 0] x h) shapeCasts_S1x5x128x128_S5x128x128 (ix3 p k j)
      = x (ix4 l p k j) := by
  refine (slabs_of_layer _ p k j).trans ?_
  exact extractStridedSlice_apply ![l.val, 0, 0, 0] x h _ (ix4 l p k j) (fun a => match a with
    | ⟨0, _⟩ => by show l.val = l.val + 0; omega
    | ⟨1, _⟩ => by show p.val = 0 + p.val; omega
    | ⟨2, _⟩ => by show k.val = 0 + k.val; omega
    | ⟨3, _⟩ => by show j.val = 0 + j.val; omega)

/-- Matrix `p` of five, cut out as a matrix. -/
theorem slab_apply (p : Fin 5) (y : S5x128x128.Idx → α) (h : S5x128x128.Slices ![p.val, 0, 0] S1x128x128) (k j : Fin 128) :
    shapeCast S128x128 (extractStridedSlice S1x128x128 ![p.val, 0, 0] y h) shapeCasts_S1x128x128_S128x128 (ix2 k j) = y (ix3 p k j) := by
  refine (mat_of_slab _ k j).trans ?_
  exact extractStridedSlice_apply ![p.val, 0, 0] y h _ (ix3 p k j) (fun a => match a with
    | ⟨0, _⟩ => by show p.val = p.val + 0; omega
    | ⟨1, _⟩ => by show k.val = 0 + k.val; omega
    | ⟨2, _⟩ => by show j.val = 0 + j.val; omega)

/-- Layer `l`'s five bias rows: row `p` at `j` is the argument at `(l, p, j)`. -/
theorem rows_apply (l : Fin 3) (x : S3x5x128.Idx → α) (h : S3x5x128.Slices ![l.val, 0, 0] S1x5x128) (p : Fin 5) (j : Fin 128) :
    shapeCast S5x128 (extractStridedSlice S1x5x128 ![l.val, 0, 0] x h) shapeCasts_S1x5x128_S5x128 (ix2 p j) = x (ix3 l p j) := by
  refine (rows_of_layer _ p j).trans ?_
  exact extractStridedSlice_apply ![l.val, 0, 0] x h _ (ix3 l p j) (fun a => match a with
    | ⟨0, _⟩ => by show l.val = l.val + 0; omega
    | ⟨1, _⟩ => by show p.val = 0 + p.val; omega
    | ⟨2, _⟩ => by show j.val = 0 + j.val; omega)

/-- Row `p` of five, cut out as a vector. -/
theorem row_apply (p : Fin 5) (y : S5x128.Idx → α) (h : S5x128.Slices ![p.val, 0] S1x128) (j : Fin 128) :
    shapeCast S128 (extractStridedSlice S1x128 ![p.val, 0] y h) shapeCasts_S1x128_S128 (ix1 j) = y (ix2 p j) := by
  refine (vec_of_row _ j).trans ?_
  exact extractStridedSlice_apply ![p.val, 0] y h _ (ix2 p j) (fun a => match a with
    | ⟨0, _⟩ => by show p.val = p.val + 0; omega
    | ⟨1, _⟩ => by show j.val = 0 + j.val; omega)

/-- Row `q` of layer `l`'s two normalization rows, cut out and laid out as one row. -/
theorem norm_row_apply (l : Fin 3) (q : Fin 2) (x : S3x2x128.Idx → α) (h : S3x2x128.Slices ![l.val, q.val, 0] S1x1x128) (j : Fin 128) :
    shapeCast S1x128 (shapeCast S128 (extractStridedSlice S1x1x128 ![l.val, q.val, 0] x h) shapeCasts_S1x1x128_S128) shapeCasts_S128_S1x128
      (ix2 (0 : Fin 1) j) = x (ix3 l q j) := by
  refine (row_of_vec _ j).trans ?_
  refine (vec_of_unit_row _ j).trans ?_
  exact extractStridedSlice_apply ![l.val, q.val, 0] x h _ (ix3 l q j) (fun a => match a with
    | ⟨0, _⟩ => by show l.val = l.val + 0; omega
    | ⟨1, _⟩ => by show q.val = q.val + 0; omega
    | ⟨2, _⟩ => by show j.val = 0 + j.val; omega)

/-- A band of 128 columns starting at column `o` of a 512-column array. -/
theorem col_apply (o : Nat) (x : S20000x512.Idx → α) (h : S20000x512.Slices ![0, o] S20000x128) (i : Fin 20000) (j : Fin 128)
    (ho : o + j.val < 512) :
    extractStridedSlice S20000x128 ![0, o] x h (ix2 i j) = x (ix2 i (⟨o + j.val, ho⟩ : Fin 512)) :=
  extractStridedSlice_apply ![0, o] x h _ (ix2 i (⟨o + j.val, ho⟩ : Fin 512)) (fun a => match a with
    | ⟨0, _⟩ => by show i.val = 0 + i.val; omega
    | ⟨1, _⟩ => by show o + j.val = o + j.val; rfl)

end Slices

/-! ## No item before a stretch writes the parameter arrays the stretch reads -/

section Persist
variable (m : (ℓ : Loc nD τ sig) → Buf (Elt Ideal) ℓ) (outs : Outs (F := Ideal)) (c : Dev nD)

theorem V4_main_arg7 : V4 m outs c main_arg7 = m ((c : Thread nD τ).loc main_arg7) :=
  (V4_of m outs c main_arg7 (by decide)).trans <| (V3_of m outs c main_arg7 (by decide)).trans <| (V2_of m outs c main_arg7 (by decide)).trans <| (V1_of m c main_arg7 (by decide))
theorem V19_main_arg7 : V19 m outs c main_arg7 = m ((c : Thread nD τ).loc main_arg7) :=
  (V19_of m outs c main_arg7 (by decide)).trans <| (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| V4_main_arg7 m outs c
theorem V34_main_arg7 : V34 m outs c main_arg7 = m ((c : Thread nD τ).loc main_arg7) :=
  (V34_of m outs c main_arg7 (by decide)).trans <| (V33_of m outs c main_arg7 (by decide)).trans <| (V32_of m outs c main_arg7 (by decide)).trans <| (V31_of m outs c main_arg7 (by decide)).trans <| (V30_of m outs c main_arg7 (by decide)).trans <| (V29_of m outs c main_arg7 (by decide)).trans <| (V28_of m outs c main_arg7 (by decide)).trans <| (V27_of m outs c main_arg7 (by decide)).trans <| (V26_of m outs c main_arg7 (by decide)).trans <| (V25_of m outs c main_arg7 (by decide)).trans <| (V24_of m outs c main_arg7 (by decide)).trans <| (V23_of m outs c main_arg7 (by decide)).trans <| (V22_of m outs c main_arg7 (by decide)).trans <| (V21_of m outs c main_arg7 (by decide)).trans <| (V20_of m outs c main_arg7 (by decide)).trans <| V19_main_arg7 m outs c
theorem V4_main_arg8 : V4 m outs c main_arg8 = m ((c : Thread nD τ).loc main_arg8) :=
  (V4_of m outs c main_arg8 (by decide)).trans <| (V3_of m outs c main_arg8 (by decide)).trans <| (V2_of m outs c main_arg8 (by decide)).trans <| (V1_of m c main_arg8 (by decide))
theorem V19_main_arg8 : V19 m outs c main_arg8 = m ((c : Thread nD τ).loc main_arg8) :=
  (V19_of m outs c main_arg8 (by decide)).trans <| (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| V4_main_arg8 m outs c
theorem V34_main_arg8 : V34 m outs c main_arg8 = m ((c : Thread nD τ).loc main_arg8) :=
  (V34_of m outs c main_arg8 (by decide)).trans <| (V33_of m outs c main_arg8 (by decide)).trans <| (V32_of m outs c main_arg8 (by decide)).trans <| (V31_of m outs c main_arg8 (by decide)).trans <| (V30_of m outs c main_arg8 (by decide)).trans <| (V29_of m outs c main_arg8 (by decide)).trans <| (V28_of m outs c main_arg8 (by decide)).trans <| (V27_of m outs c main_arg8 (by decide)).trans <| (V26_of m outs c main_arg8 (by decide)).trans <| (V25_of m outs c main_arg8 (by decide)).trans <| (V24_of m outs c main_arg8 (by decide)).trans <| (V23_of m outs c main_arg8 (by decide)).trans <| (V22_of m outs c main_arg8 (by decide)).trans <| (V21_of m outs c main_arg8 (by decide)).trans <| (V20_of m outs c main_arg8 (by decide)).trans <| V19_main_arg8 m outs c
theorem V13_main_arg9 : V13 m outs c main_arg9 = m ((c : Thread nD τ).loc main_arg9) :=
  (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))
theorem V17_main_arg9 : V17 m outs c main_arg9 = m ((c : Thread nD τ).loc main_arg9) :=
  (V17_of m outs c main_arg9 (by decide)).trans <| (V16_of m outs c main_arg9 (by decide)).trans <| (V15_of m outs c main_arg9 (by decide)).trans <| (V14_of m outs c main_arg9 (by decide)).trans <| V13_main_arg9 m outs c
theorem V28_main_arg9 : V28 m outs c main_arg9 = m ((c : Thread nD τ).loc main_arg9) :=
  (V28_of m outs c main_arg9 (by decide)).trans <| (V27_of m outs c main_arg9 (by decide)).trans <| (V26_of m outs c main_arg9 (by decide)).trans <| (V25_of m outs c main_arg9 (by decide)).trans <| (V24_of m outs c main_arg9 (by decide)).trans <| (V23_of m outs c main_arg9 (by decide)).trans <| (V22_of m outs c main_arg9 (by decide)).trans <| (V21_of m outs c main_arg9 (by decide)).trans <| (V20_of m outs c main_arg9 (by decide)).trans <| (V19_of m outs c main_arg9 (by decide)).trans <| (V18_of m outs c main_arg9 (by decide)).trans <| V17_main_arg9 m outs c
theorem V32_main_arg9 : V32 m outs c main_arg9 = m ((c : Thread nD τ).loc main_arg9) :=
  (V32_of m outs c main_arg9 (by decide)).trans <| (V31_of m outs c main_arg9 (by decide)).trans <| (V30_of m outs c main_arg9 (by decide)).trans <| (V29_of m outs c main_arg9 (by decide)).trans <| V28_main_arg9 m outs c
theorem V43_main_arg9 : V43 m outs c main_arg9 = m ((c : Thread nD τ).loc main_arg9) :=
  (V43_of m outs c main_arg9 (by decide)).trans <| (V42_of m outs c main_arg9 (by decide)).trans <| (V41_of m outs c main_arg9 (by decide)).trans <| (V40_of m outs c main_arg9 (by decide)).trans <| (V39_of m outs c main_arg9 (by decide)).trans <| (V38_of m outs c main_arg9 (by decide)).trans <| (V37_of m outs c main_arg9 (by decide)).trans <| (V36_of m outs c main_arg9 (by decide)).trans <| (V35_of m outs c main_arg9 (by decide)).trans <| (V34_of m outs c main_arg9 (by decide)).trans <| (V33_of m outs c main_arg9 (by decide)).trans <| V32_main_arg9 m outs c
theorem V47_main_arg9 : V47 m outs c main_arg9 = m ((c : Thread nD τ).loc main_arg9) :=
  (V47_of m outs c main_arg9 (by decide)).trans <| (V46_of m outs c main_arg9 (by decide)).trans <| (V45_of m outs c main_arg9 (by decide)).trans <| (V44_of m outs c main_arg9 (by decide)).trans <| V43_main_arg9 m outs c
theorem V13_main_arg10 : V13 m outs c main_arg10 = m ((c : Thread nD τ).loc main_arg10) :=
  (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))
theorem V17_main_arg10 : V17 m outs c main_arg10 = m ((c : Thread nD τ).loc main_arg10) :=
  (V17_of m outs c main_arg10 (by decide)).trans <| (V16_of m outs c main_arg10 (by decide)).trans <| (V15_of m outs c main_arg10 (by decide)).trans <| (V14_of m outs c main_arg10 (by decide)).trans <| V13_main_arg10 m outs c
theorem V28_main_arg10 : V28 m outs c main_arg10 = m ((c : Thread nD τ).loc main_arg10) :=
  (V28_of m outs c main_arg10 (by decide)).trans <| (V27_of m outs c main_arg10 (by decide)).trans <| (V26_of m outs c main_arg10 (by decide)).trans <| (V25_of m outs c main_arg10 (by decide)).trans <| (V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| V17_main_arg10 m outs c
theorem V32_main_arg10 : V32 m outs c main_arg10 = m ((c : Thread nD τ).loc main_arg10) :=
  (V32_of m outs c main_arg10 (by decide)).trans <| (V31_of m outs c main_arg10 (by decide)).trans <| (V30_of m outs c main_arg10 (by decide)).trans <| (V29_of m outs c main_arg10 (by decide)).trans <| V28_main_arg10 m outs c
theorem V43_main_arg10 : V43 m outs c main_arg10 = m ((c : Thread nD τ).loc main_arg10) :=
  (V43_of m outs c main_arg10 (by decide)).trans <| (V42_of m outs c main_arg10 (by decide)).trans <| (V41_of m outs c main_arg10 (by decide)).trans <| (V40_of m outs c main_arg10 (by decide)).trans <| (V39_of m outs c main_arg10 (by decide)).trans <| (V38_of m outs c main_arg10 (by decide)).trans <| (V37_of m outs c main_arg10 (by decide)).trans <| (V36_of m outs c main_arg10 (by decide)).trans <| (V35_of m outs c main_arg10 (by decide)).trans <| (V34_of m outs c main_arg10 (by decide)).trans <| (V33_of m outs c main_arg10 (by decide)).trans <| V32_main_arg10 m outs c
theorem V47_main_arg10 : V47 m outs c main_arg10 = m ((c : Thread nD τ).loc main_arg10) :=
  (V47_of m outs c main_arg10 (by decide)).trans <| (V46_of m outs c main_arg10 (by decide)).trans <| (V45_of m outs c main_arg10 (by decide)).trans <| (V44_of m outs c main_arg10 (by decide)).trans <| V43_main_arg10 m outs c
theorem V49_main_arg11 : V49 m outs c main_arg11 = m ((c : Thread nD τ).loc main_arg11) :=
  (V49_of m outs c main_arg11 (by decide)).trans <| (V48_of m outs c main_arg11 (by decide)).trans <| (V47_of m outs c main_arg11 (by decide)).trans <| (V46_of m outs c main_arg11 (by decide)).trans <| (V45_of m outs c main_arg11 (by decide)).trans <| (V44_of m outs c main_arg11 (by decide)).trans <| (V43_of m outs c main_arg11 (by decide)).trans <| (V42_of m outs c main_arg11 (by decide)).trans <| (V41_of m outs c main_arg11 (by decide)).trans <| (V40_of m outs c main_arg11 (by decide)).trans <| (V39_of m outs c main_arg11 (by decide)).trans <| (V38_of m outs c main_arg11 (by decide)).trans <| (V37_of m outs c main_arg11 (by decide)).trans <| (V36_of m outs c main_arg11 (by decide)).trans <| (V35_of m outs c main_arg11 (by decide)).trans <| (V34_of m outs c main_arg11 (by decide)).trans <| (V33_of m outs c main_arg11 (by decide)).trans <| (V32_of m outs c main_arg11 (by decide)).trans <| (V31_of m outs c main_arg11 (by decide)).trans <| (V30_of m outs c main_arg11 (by decide)).trans <| (V29_of m outs c main_arg11 (by decide)).trans <| (V28_of m outs c main_arg11 (by decide)).trans <| (V27_of m outs c main_arg11 (by decide)).trans <| (V26_of m outs c main_arg11 (by decide)).trans <| (V25_of m outs c main_arg11 (by decide)).trans <| (V24_of m outs c main_arg11 (by decide)).trans <| (V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
theorem V49_main_arg12 : V49 m outs c main_arg12 = m ((c : Thread nD τ).loc main_arg12) :=
  (V49_of m outs c main_arg12 (by decide)).trans <| (V48_of m outs c main_arg12 (by decide)).trans <| (V47_of m outs c main_arg12 (by decide)).trans <| (V46_of m outs c main_arg12 (by decide)).trans <| (V45_of m outs c main_arg12 (by decide)).trans <| (V44_of m outs c main_arg12 (by decide)).trans <| (V43_of m outs c main_arg12 (by decide)).trans <| (V42_of m outs c main_arg12 (by decide)).trans <| (V41_of m outs c main_arg12 (by decide)).trans <| (V40_of m outs c main_arg12 (by decide)).trans <| (V39_of m outs c main_arg12 (by decide)).trans <| (V38_of m outs c main_arg12 (by decide)).trans <| (V37_of m outs c main_arg12 (by decide)).trans <| (V36_of m outs c main_arg12 (by decide)).trans <| (V35_of m outs c main_arg12 (by decide)).trans <| (V34_of m outs c main_arg12 (by decide)).trans <| (V33_of m outs c main_arg12 (by decide)).trans <| (V32_of m outs c main_arg12 (by decide)).trans <| (V31_of m outs c main_arg12 (by decide)).trans <| (V30_of m outs c main_arg12 (by decide)).trans <| (V29_of m outs c main_arg12 (by decide)).trans <| (V28_of m outs c main_arg12 (by decide)).trans <| (V27_of m outs c main_arg12 (by decide)).trans <| (V26_of m outs c main_arg12 (by decide)).trans <| (V25_of m outs c main_arg12 (by decide)).trans <| (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide))
theorem V51_main_arg13 : V51 m outs c main_arg13 = m ((c : Thread nD τ).loc main_arg13) :=
  (V51_of m outs c main_arg13 (by decide)).trans <| (V50_of m outs c main_arg13 (by decide)).trans <| (V49_of m outs c main_arg13 (by decide)).trans <| (V48_of m outs c main_arg13 (by decide)).trans <| (V47_of m outs c main_arg13 (by decide)).trans <| (V46_of m outs c main_arg13 (by decide)).trans <| (V45_of m outs c main_arg13 (by decide)).trans <| (V44_of m outs c main_arg13 (by decide)).trans <| (V43_of m outs c main_arg13 (by decide)).trans <| (V42_of m outs c main_arg13 (by decide)).trans <| (V41_of m outs c main_arg13 (by decide)).trans <| (V40_of m outs c main_arg13 (by decide)).trans <| (V39_of m outs c main_arg13 (by decide)).trans <| (V38_of m outs c main_arg13 (by decide)).trans <| (V37_of m outs c main_arg13 (by decide)).trans <| (V36_of m outs c main_arg13 (by decide)).trans <| (V35_of m outs c main_arg13 (by decide)).trans <| (V34_of m outs c main_arg13 (by decide)).trans <| (V33_of m outs c main_arg13 (by decide)).trans <| (V32_of m outs c main_arg13 (by decide)).trans <| (V31_of m outs c main_arg13 (by decide)).trans <| (V30_of m outs c main_arg13 (by decide)).trans <| (V29_of m outs c main_arg13 (by decide)).trans <| (V28_of m outs c main_arg13 (by decide)).trans <| (V27_of m outs c main_arg13 (by decide)).trans <| (V26_of m outs c main_arg13 (by decide)).trans <| (V25_of m outs c main_arg13 (by decide)).trans <| (V24_of m outs c main_arg13 (by decide)).trans <| (V23_of m outs c main_arg13 (by decide)).trans <| (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide))
theorem V51_main_arg14 : V51 m outs c main_arg14 = m ((c : Thread nD τ).loc main_arg14) :=
  (V51_of m outs c main_arg14 (by decide)).trans <| (V50_of m outs c main_arg14 (by decide)).trans <| (V49_of m outs c main_arg14 (by decide)).trans <| (V48_of m outs c main_arg14 (by decide)).trans <| (V47_of m outs c main_arg14 (by decide)).trans <| (V46_of m outs c main_arg14 (by decide)).trans <| (V45_of m outs c main_arg14 (by decide)).trans <| (V44_of m outs c main_arg14 (by decide)).trans <| (V43_of m outs c main_arg14 (by decide)).trans <| (V42_of m outs c main_arg14 (by decide)).trans <| (V41_of m outs c main_arg14 (by decide)).trans <| (V40_of m outs c main_arg14 (by decide)).trans <| (V39_of m outs c main_arg14 (by decide)).trans <| (V38_of m outs c main_arg14 (by decide)).trans <| (V37_of m outs c main_arg14 (by decide)).trans <| (V36_of m outs c main_arg14 (by decide)).trans <| (V35_of m outs c main_arg14 (by decide)).trans <| (V34_of m outs c main_arg14 (by decide)).trans <| (V33_of m outs c main_arg14 (by decide)).trans <| (V32_of m outs c main_arg14 (by decide)).trans <| (V31_of m outs c main_arg14 (by decide)).trans <| (V30_of m outs c main_arg14 (by decide)).trans <| (V29_of m outs c main_arg14 (by decide)).trans <| (V28_of m outs c main_arg14 (by decide)).trans <| (V27_of m outs c main_arg14 (by decide)).trans <| (V26_of m outs c main_arg14 (by decide)).trans <| (V25_of m outs c main_arg14 (by decide)).trans <| (V24_of m outs c main_arg14 (by decide)).trans <| (V23_of m outs c main_arg14 (by decide)).trans <| (V22_of m outs c main_arg14 (by decide)).trans <| (V21_of m outs c main_arg14 (by decide)).trans <| (V20_of m outs c main_arg14 (by decide)).trans <| (V19_of m outs c main_arg14 (by decide)).trans <| (V18_of m outs c main_arg14 (by decide)).trans <| (V17_of m outs c main_arg14 (by decide)).trans <| (V16_of m outs c main_arg14 (by decide)).trans <| (V15_of m outs c main_arg14 (by decide)).trans <| (V14_of m outs c main_arg14 (by decide)).trans <| (V13_of m outs c main_arg14 (by decide)).trans <| (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide))

end Persist

end Cert.KHostA.Lib

namespace Cert.KHostA

open Cert.KernelIdeal Cert.KernelIdeal.Gen Idealize.ShloMosaic Idealize.ShloMosaic.TcCoe Idealize.ShloMosaic.ValueIdx Idealize.ShloMosaic.StableHlo
open Cert.KHostA.Lib

variable (m : (ℓ : Loc nD τ sig) → Buf (Elt Ideal) ℓ) (outs : Outs (F := Ideal)) (c : Dev nD)

/-! ## The embedding -/

/-- The node bias row: argument 4 laid out as one row. -/
theorem b_node (j : Fin 128) :
    V1 m c main_v4 (ix2 (0 : Fin 1) j) = m ((c : Thread nD τ).loc main_arg4) (ix1 j) := by
  have e : (V1 m c main_v4 : S1x128.Idx → EReal) = shapeCast S1x128 (m ((c : Thread nD τ).loc main_arg4) : S128.Idx → EReal) shapeCasts_S128_S1x128 := by
    show StableHlo.after hostOps0 _ (Proc.devRef .tc main_v4) = _
    after_results
    rfl
  rw [e]
  exact row_of_vec _ j

/-- The source word of edge `e`: row 0 of the edge-index argument. -/
theorem src_word (e : Fin 320000) :
    V1 m c main_v1 (ix1 e) = m ((c : Thread nD τ).loc main_arg1) (ix2 (0 : Fin 2) e) := by
  have h : (V1 m c main_v1 : (⟨S320000, .i32⟩ : BufTy).Contents (Elt Ideal)) =
      shapeCast S320000 (extractStridedSlice S1x320000 ![0, 0] (m ((c : Thread nD τ).loc main_arg1) : (⟨S2x320000, .i32⟩ : BufTy).Contents (Elt Ideal)) slices_S2x320000_S1x320000_0_0) shapeCasts_S1x320000_S320000 := by
    show StableHlo.after hostOps0 _ (Proc.devRef .tc main_v1) = _
    after_results
    rfl
  rw [h]
  refine (shapeCast_apply _ shapeCasts_S1x320000_S320000 _ (ix2 (0 : Fin 1) e)
    (by rewrite [Shape.rowMajor_val_two, Shape.rowMajor_val_one]; show 0 * 320000 + e.val = e.val; omega)).trans ?_
  exact extractStridedSlice_apply ![0, 0] _ slices_S2x320000_S1x320000_0_0 _ (ix2 (0 : Fin 2) e) (fun a => match a with
    | ⟨0, _⟩ => by show (0 : Nat) = 0 + 0; omega
    | ⟨1, _⟩ => by show e.val = 0 + e.val; omega)

/-- The destination word of edge `e`: row 1 of the edge-index argument. -/
theorem dst_word (e : Fin 320000) :
    V1 m c main_v3 (ix1 e) = m ((c : Thread nD τ).loc main_arg1) (ix2 (1 : Fin 2) e) := by
  have h : (V1 m c main_v3 : (⟨S320000, .i32⟩ : BufTy).Contents (Elt Ideal)) =
      shapeCast S320000 (extractStridedSlice S1x320000 ![1, 0] (m ((c : Thread nD τ).loc main_arg1) : (⟨S2x320000, .i32⟩ : BufTy).Contents (Elt Ideal)) slices_S2x320000_S1x320000_1_0) shapeCasts_S1x320000_S320000 := by
    show StableHlo.after hostOps0 _ (Proc.devRef .tc main_v3) = _
    after_results
    rfl
  rw [h]
  refine (shapeCast_apply _ shapeCasts_S1x320000_S320000 _ (ix2 (0 : Fin 1) e)
    (by rewrite [Shape.rowMajor_val_two, Shape.rowMajor_val_one]; show 0 * 320000 + e.val = e.val; omega)).trans ?_
  exact extractStridedSlice_apply ![1, 0] _ slices_S2x320000_S1x320000_1_0 _ (ix2 (1 : Fin 2) e) (fun a => match a with
    | ⟨0, _⟩ => by show (1 : Nat) = 1 + 0; omega
    | ⟨1, _⟩ => by show e.val = 0 + e.val; omega)

/-- Argument 6 is untouched up to the second host stretch. -/
theorem V2_main_arg6 : V2 m outs c main_arg6 = m ((c : Thread nD τ).loc main_arg6) :=
  (V2_of m outs c main_arg6 (by decide)).trans <| (V1_of m c main_arg6 (by decide))

/-- The edge bias row: argument 6 laid out as one row. -/
theorem b_edge (j : Fin 128) :
    V3 m outs c main_v6 (ix2 (0 : Fin 1) j) = m ((c : Thread nD τ).loc main_arg6) (ix1 j) := by
  have e : (V3 m outs c main_v6 : S1x128.Idx → EReal) = shapeCast S1x128 (V2 m outs c main_arg6 : S128.Idx → EReal) shapeCasts_S128_S1x128 := by
    show StableHlo.after hostOps1 _ (Proc.devRef .tc main_v6) = _
    after_results
    rfl
  rw [e, V2_main_arg6]
  exact row_of_vec _ j

/-! ## Layer 0 -/

/-- The layer's five weight matrices: the layer's block of argument 7 with its unit axis dropped. -/
abbrev slabs (x : S3x5x128x128.Idx → EReal) : S5x128x128.Idx → EReal :=
  shapeCast S5x128x128 (extractStridedSlice S1x5x128x128 ![0, 0, 0, 0] x slices_S3x5x128x128_S1x5x128x128_0_0_0_0) shapeCasts_S1x5x128x128_S5x128x128

/-- The layer's five bias rows: the layer's block of argument 8 with its unit axis dropped. -/
abbrev rows (x : S3x5x128.Idx → EReal) : S5x128.Idx → EReal :=
  shapeCast S5x128 (extractStridedSlice S1x5x128 ![0, 0, 0] x slices_S3x5x128_S1x5x128_0_0_0) shapeCasts_S1x5x128_S5x128

theorem slabs_eq : (V5 m outs c main_v9 : S5x128x128.Idx → EReal) = slabs (V4 m outs c main_arg7) := by
  show StableHlo.after hostOps2 _ (Proc.devRef .tc main_v9) = _
  after_results
  rfl

theorem rows_eq : (V5 m outs c main_v11 : S5x128.Idx → EReal) = rows (V4 m outs c main_arg8) := by
  show StableHlo.after hostOps2 _ (Proc.devRef .tc main_v11) = _
  after_results
  rfl

/-- What the layer's first host stretch leaves in the concatenated weight buffer: matrices 0, 1, 3, 4 side by side. -/
theorem wcat_eq : (V5 m outs c main_v20 : S128x512.Idx → EReal) =
    concatenate S128x512 1
      [⟨S128x128, shapeCast S128x128 (extractStridedSlice S1x128x128 ![0, 0, 0] (slabs (V4 m outs c main_arg7)) slices_S5x128x128_S1x128x128_0_0_0) shapeCasts_S1x128x128_S128x128⟩,
       ⟨S128x128, shapeCast S128x128 (extractStridedSlice S1x128x128 ![1, 0, 0] (slabs (V4 m outs c main_arg7)) slices_S5x128x128_S1x128x128_1_0_0) shapeCasts_S1x128x128_S128x128⟩,
       ⟨S128x128, shapeCast S128x128 (extractStridedSlice S1x128x128 ![3, 0, 0] (slabs (V4 m outs c main_arg7)) slices_S5x128x128_S1x128x128_3_0_0) shapeCasts_S1x128x128_S128x128⟩,
       ⟨S128x128, shapeCast S128x128 (extractStridedSlice S1x128x128 ![4, 0, 0] (slabs (V4 m outs c main_arg7)) slices_S5x128x128_S1x128x128_4_0_0) shapeCasts_S1x128x128_S128x128⟩]
      concatenates_S128x128_S128x128_S128x128_S128x128_S128x512_d1 := by
  show StableHlo.after hostOps2 _ (Proc.devRef .tc main_v20) = _
  after_results
  rfl

theorem wcat_0 (k j : Fin 128) :
    V5 m outs c main_v20 (ix2 k (⟨0 + j.val, by have := j.isLt; omega⟩ : Fin 512))
      = m ((c : Thread nD τ).loc main_arg7) (ix4 (0 : Fin 3) (0 : Fin 5) k j) := by
  rw [wcat_eq, V4_main_arg7]
  refine (concatenate_apply_piece (t := S128x512) (1 : Fin S128x512.rank) _ _ _
    0 ?hk S128x128 ?x ?hxk rfl 0 ?hpre (ix2 k j) ?hi ?ha).trans ?fin
  case hxk => rfl
  case hk => show (0 : Nat) < 4; omega
  case hpre => rfl
  case hi =>
    exact fun b => match b with
      | ⟨0, _⟩ => fun _ => rfl
      | ⟨1, _⟩ => fun h => absurd (Fin.ext rfl) h
  case ha => rfl
  case fin =>
    exact (slab_apply (0 : Fin 5) _ slices_S5x128x128_S1x128x128_0_0_0 k j).trans
      (slabs_apply (0 : Fin 3) _ slices_S3x5x128x128_S1x5x128x128_0_0_0_0 (0 : Fin 5) k j)

theorem wcat_1 (k j : Fin 128) :
    V5 m outs c main_v20 (ix2 k (⟨128 + j.val, by have := j.isLt; omega⟩ : Fin 512))
      = m ((c : Thread nD τ).loc main_arg7) (ix4 (0 : Fin 3) (1 : Fin 5) k j) := by
  rw [wcat_eq, V4_main_arg7]
  refine (concatenate_apply_piece (t := S128x512) (1 : Fin S128x512.rank) _ _ _
    1 ?hk S128x128 ?x ?hxk rfl 128 ?hpre (ix2 k j) ?hi ?ha).trans ?fin
  case hxk => rfl
  case hk => show (1 : Nat) < 4; omega
  case hpre => rfl
  case hi =>
    exact fun b => match b with
      | ⟨0, _⟩ => fun _ => rfl
      | ⟨1, _⟩ => fun h => absurd (Fin.ext rfl) h
  case ha => rfl
  case fin =>
    exact (slab_apply (1 : Fin 5) _ slices_S5x128x128_S1x128x128_1_0_0 k j).trans
      (slabs_apply (0 : Fin 3) _ slices_S3x5x128x128_S1x5x128x128_0_0_0_0 (1 : Fin 5) k j)

theorem wcat_2 (k j : Fin 128) :
    V5 m outs c main_v20 (ix2 k (⟨256 + j.val, by have := j.isLt; omega⟩ : Fin 512))
      = m ((c : Thread nD τ).loc main_arg7) (ix4 (0 : Fin 3) (3 : Fin 5) k j) := by
  rw [wcat_eq, V4_main_arg7]
  refine (concatenate_apply_piece (t := S128x512) (1 : Fin S128x512.rank) _ _ _
    2 ?hk S128x128 ?x ?hxk rfl 256 ?hpre (ix2 k j) ?hi ?ha).trans ?fin
  case hxk => rfl
  case hk => show (2 : Nat) < 4; omega
  case hpre => rfl
  case hi =>
    exact fun b => match b with
      | ⟨0, _⟩ => fun _ => rfl
      | ⟨1, _⟩ => fun h => absurd (Fin.ext rfl) h
  case ha => rfl
  case fin =>
    exact (slab_apply (3 : Fin 5) _ slices_S5x128x128_S1x128x128_3_0_0 k j).trans
      (slabs_apply (0 : Fin 3) _ slices_S3x5x128x128_S1x5x128x128_0_0_0_0 (3 : Fin 5) k j)

theorem wcat_3 (k j : Fin 128) :
    V5 m outs c main_v20 (ix2 k (⟨384 + j.val, by have := j.isLt; omega⟩ : Fin 512))
      = m ((c : Thread nD τ).loc main_arg7) (ix4 (0 : Fin 3) (4 : Fin 5) k j) := by
  rw [wcat_eq, V4_main_arg7]
  refine (concatenate_apply_piece (t := S128x512) (1 : Fin S128x512.rank) _ _ _
    3 ?hk S128x128 ?x ?hxk rfl 384 ?hpre (ix2 k j) ?hi ?ha).trans ?fin
  case hxk => rfl
  case hk => show (3 : Nat) < 4; omega
  case hpre => rfl
  case hi =>
    exact fun b => match b with
      | ⟨0, _⟩ => fun _ => rfl
      | ⟨1, _⟩ => fun h => absurd (Fin.ext rfl) h
  case ha => rfl
  case fin =>
    exact (slab_apply (4 : Fin 5) _ slices_S5x128x128_S1x128x128_4_0_0 k j).trans
      (slabs_apply (0 : Fin 3) _ slices_S3x5x128x128_S1x5x128x128_0_0_0_0 (4 : Fin 5) k j)

/-- What the layer's first host stretch leaves in the concatenated bias buffer: rows 0, 1, 3, 4 end to end, as one row. -/
theorem bcat_eq : (V5 m outs c main_v30 : S1x512.Idx → EReal) =
    shapeCast S1x512 (concatenate S512 0
      [⟨S128, shapeCast S128 (extractStridedSlice S1x128 ![0, 0] (rows (V4 m outs c main_arg8)) slices_S5x128_S1x128_0_0) shapeCasts_S1x128_S128⟩,
       ⟨S128, shapeCast S128 (extractStridedSlice S1x128 ![1, 0] (rows (V4 m outs c main_arg8)) slices_S5x128_S1x128_1_0) shapeCasts_S1x128_S128⟩,
       ⟨S128, shapeCast S128 (extractStridedSlice S1x128 ![3, 0] (rows (V4 m outs c main_arg8)) slices_S5x128_S1x128_3_0) shapeCasts_S1x128_S128⟩,
       ⟨S128, shapeCast S128 (extractStridedSlice S1x128 ![4, 0] (rows (V4 m outs c main_arg8)) slices_S5x128_S1x128_4_0) shapeCasts_S1x128_S128⟩]
      concatenates_S128_S128_S128_S128_S512_d0) shapeCasts_S512_S1x512 := by
  show StableHlo.after hostOps2 _ (Proc.devRef .tc main_v30) = _
  after_results
  rfl

theorem bcat_0 (j : Fin 128) :
    V5 m outs c main_v30 (ix2 (0 : Fin 1) (⟨0 + j.val, by have := j.isLt; omega⟩ : Fin 512))
      = m ((c : Thread nD τ).loc main_arg8) (ix3 (0 : Fin 3) (0 : Fin 5) j) := by
  rw [bcat_eq, V4_main_arg8]
  refine (row_of_vec512 _ _).trans ?_
  refine (concatenate_apply_piece (t := S512) (0 : Fin S512.rank) _ _ _
    0 ?hk S128 ?x ?hxk rfl 0 ?hpre (ix1 j) ?hi ?ha).trans ?fin
  case hxk => rfl
  case hk => show (0 : Nat) < 4; omega
  case hpre => rfl
  case hi =>
    exact fun b => match b with
      | ⟨0, _⟩ => fun h => absurd (Fin.ext rfl) h
  case ha => rfl
  case fin =>
    exact (row_apply (0 : Fin 5) _ slices_S5x128_S1x128_0_0 j).trans
      (rows_apply (0 : Fin 3) _ slices_S3x5x128_S1x5x128_0_0_0 (0 : Fin 5) j)

theorem bcat_1 (j : Fin 128) :
    V5 m outs c main_v30 (ix2 (0 : Fin 1) (⟨128 + j.val, by have := j.isLt; omega⟩ : Fin 512))
      = m ((c : Thread nD τ).loc main_arg8) (ix3 (0 : Fin 3) (1 : Fin 5) j) := by
  rw [bcat_eq, V4_main_arg8]
  refine (row_of_vec512 _ _).trans ?_
  refine (concatenate_apply_piece (t := S512) (0 : Fin S512.rank) _ _ _
    1 ?hk S128 ?x ?hxk rfl 128 ?hpre (ix1 j) ?hi ?ha).trans ?fin
  case hxk => rfl
  case hk => show (1 : Nat) < 4; omega
  case hpre => rfl
  case hi =>
    exact fun b => match b with
      | ⟨0, _⟩ => fun h => absurd (Fin.ext rfl) h
  case ha => rfl
  case fin =>
    exact (row_apply (1 : Fin 5) _ slices_S5x128_S1x128_1_0 j).trans
      (rows_apply (0 : Fin 3) _ slices_S3x5x128_S1x5x128_0_0_0 (1 : Fin 5) j)

theorem bcat_2 (j : Fin 128) :
    V5 m outs c main_v30 (ix2 (0 : Fin 1) (⟨256 + j.val, by have := j.isLt; omega⟩ : Fin 512))
      = m ((c : Thread nD τ).loc main_arg8) (ix3 (0 : Fin 3) (3 : Fin 5) j) := by
  rw [bcat_eq, V4_main_arg8]
  refine (row_of_vec512 _ _).trans ?_
  refine (concatenate_apply_piece (t := S512) (0 : Fin S512.rank) _ _ _
    2 ?hk S128 ?x ?hxk rfl 256 ?hpre (ix1 j) ?hi ?ha).trans ?fin
  case hxk => rfl
  case hk => show (2 : Nat) < 4; omega
  case hpre => rfl
  case hi =>
    exact fun b => match b with
      | ⟨0, _⟩ => fun h => absurd (Fin.ext rfl) h
  case ha => rfl
  case fin =>
    exact (row_apply (3 : Fin 5) _ slices_S5x128_S1x128_3_0 j).trans
      (rows_apply (0 : Fin 3) _ slices_S3x5x128_S1x5x128_0_0_0 (3 : Fin 5) j)

theorem bcat_3 (j : Fin 128) :
    V5 m outs c main_v30 (ix2 (0 : Fin 1) (⟨384 + j.val, by have := j.isLt; omega⟩ : Fin 512))
      = m ((c : Thread nD τ).loc main_arg8) (ix3 (0 : Fin 3) (4 : Fin 5) j) := by
  rw [bcat_eq, V4_main_arg8]
  refine (row_of_vec512 _ _).trans ?_
  refine (concatenate_apply_piece (t := S512) (0 : Fin S512.rank) _ _ _
    3 ?hk S128 ?x ?hxk rfl 384 ?hpre (ix1 j) ?hi ?ha).trans ?fin
  case hxk => rfl
  case hk => show (3 : Nat) < 4; omega
  case hpre => rfl
  case hi =>
    exact fun b => match b with
      | ⟨0, _⟩ => fun h => absurd (Fin.ext rfl) h
  case ha => rfl
  case fin =>
    exact (row_apply (4 : Fin 5) _ slices_S5x128_S1x128_4_0 j).trans
      (rows_apply (0 : Fin 3) _ slices_S3x5x128_S1x5x128_0_0_0 (4 : Fin 5) j)

theorem cols_0 (i : Fin 20000) (j : Fin 128) :
    V7 m outs c main_v32 (ix2 i j) = V6 m outs c main_v31 (ix2 i (⟨0 + j.val, by have := j.isLt; omega⟩ : Fin 512)) := by
  have e : (V7 m outs c main_v32 : S20000x128.Idx → EReal) =
      extractStridedSlice S20000x128 ![0, 0] (V6 m outs c main_v31) slices_S20000x512_S20000x128_0_0 := by
    show StableHlo.after hostOps3 _ (Proc.devRef .tc main_v32) = _
    after_results
  rw [e]
  exact col_apply 0 _ slices_S20000x512_S20000x128_0_0 i j _

theorem cols_1 (i : Fin 20000) (j : Fin 128) :
    V7 m outs c main_v33 (ix2 i j) = V6 m outs c main_v31 (ix2 i (⟨128 + j.val, by have := j.isLt; omega⟩ : Fin 512)) := by
  have e : (V7 m outs c main_v33 : S20000x128.Idx → EReal) =
      extractStridedSlice S20000x128 ![0, 128] (V6 m outs c main_v31) slices_S20000x512_S20000x128_0_128 := by
    show StableHlo.after hostOps3 _ (Proc.devRef .tc main_v33) = _
    after_results
  rw [e]
  exact col_apply 128 _ slices_S20000x512_S20000x128_0_128 i j _

theorem cols_2 (i : Fin 20000) (j : Fin 128) :
    V7 m outs c main_v34 (ix2 i j) = V6 m outs c main_v31 (ix2 i (⟨256 + j.val, by have := j.isLt; omega⟩ : Fin 512)) := by
  have e : (V7 m outs c main_v34 : S20000x128.Idx → EReal) =
      extractStridedSlice S20000x128 ![0, 256] (V6 m outs c main_v31) slices_S20000x512_S20000x128_0_256 := by
    show StableHlo.after hostOps3 _ (Proc.devRef .tc main_v34) = _
    after_results
  rw [e]
  exact col_apply 256 _ slices_S20000x512_S20000x128_0_256 i j _

theorem cols_3 (i : Fin 20000) (j : Fin 128) :
    V7 m outs c main_v35 (ix2 i j) = V6 m outs c main_v31 (ix2 i (⟨384 + j.val, by have := j.isLt; omega⟩ : Fin 512)) := by
  have e : (V7 m outs c main_v35 : S20000x128.Idx → EReal) =
      extractStridedSlice S20000x128 ![0, 384] (V6 m outs c main_v31) slices_S20000x512_S20000x128_0_384 := by
    show StableHlo.after hostOps3 _ (Proc.devRef .tc main_v35) = _
    after_results
  rw [e]
  exact col_apply 384 _ slices_S20000x512_S20000x128_0_384 i j _

/-- Weight matrix 2 of the layer. -/
theorem w2 (k j : Fin 128) :
    V7 m outs c main_v37 (ix2 k j) = m ((c : Thread nD τ).loc main_arg7) (ix4 (0 : Fin 3) (2 : Fin 5) k j) := by
  have e : (V7 m outs c main_v37 : S128x128.Idx → EReal) =
      shapeCast S128x128 (extractStridedSlice S1x128x128 ![2, 0, 0] (V6 m outs c main_v9) slices_S5x128x128_S1x128x128_2_0_0) shapeCasts_S1x128x128_S128x128 := by
    show StableHlo.after hostOps3 _ (Proc.devRef .tc main_v37) = _
    after_results
    rfl
  rw [e, V6_of m outs c main_v9 (by decide), slabs_eq, V4_main_arg7]
  exact (slab_apply (2 : Fin 5) _ slices_S5x128x128_S1x128x128_2_0_0 k j).trans
    (slabs_apply (0 : Fin 3) _ slices_S3x5x128x128_S1x5x128x128_0_0_0_0 (2 : Fin 5) k j)

/-- Bias row 2 of the layer, as one row. -/
theorem b2 (j : Fin 128) :
    V7 m outs c main_v40 (ix2 (0 : Fin 1) j) = m ((c : Thread nD τ).loc main_arg8) (ix3 (0 : Fin 3) (2 : Fin 5) j) := by
  have e : (V7 m outs c main_v40 : S1x128.Idx → EReal) =
      shapeCast S1x128 (shapeCast S128 (extractStridedSlice S1x128 ![2, 0] (V6 m outs c main_v11) slices_S5x128_S1x128_2_0) shapeCasts_S1x128_S128) shapeCasts_S128_S1x128 := by
    show StableHlo.after hostOps3 _ (Proc.devRef .tc main_v40) = _
    after_results
    rfl
  rw [e, V6_of m outs c main_v11 (by decide), rows_eq, V4_main_arg8]
  refine (row_of_vec _ j).trans ?_
  exact (row_apply (2 : Fin 5) _ slices_S5x128_S1x128_2_0 j).trans
    (rows_apply (0 : Fin 3) _ slices_S3x5x128_S1x5x128_0_0_0 (2 : Fin 5) j)

/-- The edge normalization's scale row. -/
theorem gE (j : Fin 128) :
    V14 m outs c main_v49 (ix2 (0 : Fin 1) j) = m ((c : Thread nD τ).loc main_arg9) (ix3 (0 : Fin 3) (1 : Fin 2) j) := by
  have e : (V14 m outs c main_v49 : S1x128.Idx → EReal) =
      shapeCast S1x128 (shapeCast S128 (extractStridedSlice S1x1x128 ![0, 1, 0] (V13 m outs c main_arg9) slices_S3x2x128_S1x1x128_0_1_0) shapeCasts_S1x1x128_S128) shapeCasts_S128_S1x128 := by
    show StableHlo.after hostOps6 _ (Proc.devRef .tc main_v49) = _
    after_results
    rfl
  rw [e, V13_main_arg9]
  exact norm_row_apply (0 : Fin 3) (1 : Fin 2) _ slices_S3x2x128_S1x1x128_0_1_0 j

/-- The edge normalization's shift row. -/
theorem beE (j : Fin 128) :
    V14 m outs c main_v52 (ix2 (0 : Fin 1) j) = m ((c : Thread nD τ).loc main_arg10) (ix3 (0 : Fin 3) (1 : Fin 2) j) := by
  have e : (V14 m outs c main_v52 : S1x128.Idx → EReal) =
      shapeCast S1x128 (shapeCast S128 (extractStridedSlice S1x1x128 ![0, 1, 0] (V13 m outs c main_arg10) slices_S3x2x128_S1x1x128_0_1_0) shapeCasts_S1x1x128_S128) shapeCasts_S128_S1x128 := by
    show StableHlo.after hostOps6 _ (Proc.devRef .tc main_v52) = _
    after_results
    rfl
  rw [e, V13_main_arg10]
  exact norm_row_apply (0 : Fin 3) (1 : Fin 2) _ slices_S3x2x128_S1x1x128_0_1_0 j

/-- The node normalization's scale row. -/
theorem gN (j : Fin 128) :
    V18 m outs c main_v61 (ix2 (0 : Fin 1) j) = m ((c : Thread nD τ).loc main_arg9) (ix3 (0 : Fin 3) (0 : Fin 2) j) := by
  have e : (V18 m outs c main_v61 : S1x128.Idx → EReal) =
      shapeCast S1x128 (shapeCast S128 (extractStridedSlice S1x1x128 ![0, 0, 0] (V17 m outs c main_arg9) slices_S3x2x128_S1x1x128_0_0_0) shapeCasts_S1x1x128_S128) shapeCasts_S128_S1x128 := by
    show StableHlo.after hostOps8 _ (Proc.devRef .tc main_v61) = _
    after_results
    rfl
  rw [e, V17_main_arg9]
  exact norm_row_apply (0 : Fin 3) (0 : Fin 2) _ slices_S3x2x128_S1x1x128_0_0_0 j

/-- The node normalization's shift row. -/
theorem beN (j : Fin 128) :
    V18 m outs c main_v64 (ix2 (0 : Fin 1) j) = m ((c : Thread nD τ).loc main_arg10) (ix3 (0 : Fin 3) (0 : Fin 2) j) := by
  have e : (V18 m outs c main_v64 : S1x128.Idx → EReal) =
      shapeCast S1x128 (shapeCast S128 (extractStridedSlice S1x1x128 ![0, 0, 0] (V17 m outs c main_arg10) slices_S3x2x128_S1x1x128_0_0_0) shapeCasts_S1x1x128_S128) shapeCasts_S128_S1x128 := by
    show StableHlo.after hostOps8 _ (Proc.devRef .tc main_v64) = _
    after_results
    rfl
  rw [e, V17_main_arg10]
  exact norm_row_apply (0 : Fin 3) (0 : Fin 2) _ slices_S3x2x128_S1x1x128_0_0_0 j

/-! ## End of layer 0 -/

end Cert.KHostA
-- ==== Proof.KHostA1.lean ====
import proofs.«418385_j87393994539142_1_alg».proof.Proof.KHostA

/-! # The kernel program's layout stretches of layer 1, read at an index -/

set_option maxRecDepth 16384

noncomputable section

namespace Cert.KHostA1

open Cert.KernelIdeal Cert.KernelIdeal.Gen Idealize.ShloMosaic Idealize.ShloMosaic.TcCoe Idealize.ShloMosaic.ValueIdx Idealize.ShloMosaic.StableHlo
open Cert.KHostA.Lib

variable (m : (ℓ : Loc nD τ sig) → Buf (Elt Ideal) ℓ) (outs : Outs (F := Ideal)) (c : Dev nD)

/-! ## Layer 1 -/

/-- The layer's five weight matrices: the layer's block of argument 7 with its unit axis dropped. -/
abbrev slabs (x : S3x5x128x128.Idx → EReal) : S5x128x128.Idx → EReal :=
  shapeCast S5x128x128 (extractStridedSlice S1x5x128x128 ![1, 0, 0, 0] x slices_S3x5x128x128_S1x5x128x128_1_0_0_0) shapeCasts_S1x5x128x128_S5x128x128

/-- The layer's five bias rows: the layer's block of argument 8 with its unit axis dropped. -/
abbrev rows (x : S3x5x128.Idx → EReal) : S5x128.Idx → EReal :=
  shapeCast S5x128 (extractStridedSlice S1x5x128 ![1, 0, 0] x slices_S3x5x128_S1x5x128_1_0_0) shapeCasts_S1x5x128_S5x128

theorem slabs_eq : (V20 m outs c main_v67 : S5x128x128.Idx → EReal) = slabs (V19 m outs c main_arg7) := by
  show StableHlo.after hostOps9 _ (Proc.devRef .tc main_v67) = _
  after_results
  rfl

theorem rows_eq : (V20 m outs c main_v69 : S5x128.Idx → EReal) = rows (V19 m outs c main_arg8) := by
  show StableHlo.after hostOps9 _ (Proc.devRef .tc main_v69) = _
  after_results
  rfl

/-- What the layer's first host stretch leaves in the concatenated weight buffer: matrices 0, 1, 3, 4 side by side. -/
theorem wcat_eq : (V20 m outs c main_v78 : S128x512.Idx → EReal) =
    concatenate S128x512 1
      [⟨S128x128, shapeCast S128x128 (extractStridedSlice S1x128x128 ![0, 0, 0] (slabs (V19 m outs c main_arg7)) slices_S5x128x128_S1x128x128_0_0_0) shapeCasts_S1x128x128_S128x128⟩,
       ⟨S128x128, shapeCast S128x128 (extractStridedSlice S1x128x128 ![1, 0, 0] (slabs (V19 m outs c main_arg7)) slices_S5x128x128_S1x128x128_1_0_0) shapeCasts_S1x128x128_S128x128⟩,
       ⟨S128x128, shapeCast S128x128 (extractStridedSlice S1x128x128 ![3, 0, 0] (slabs (V19 m outs c main_arg7)) slices_S5x128x128_S1x128x128_3_0_0) shapeCasts_S1x128x128_S128x128⟩,
       ⟨S128x128, shapeCast S128x128 (extractStridedSlice S1x128x128 ![4, 0, 0] (slabs (V19 m outs c main_arg7)) slices_S5x128x128_S1x128x128_4_0_0) shapeCasts_S1x128x128_S128x128⟩]
      concatenates_S128x128_S128x128_S128x128_S128x128_S128x512_d1 := by
  show StableHlo.after hostOps9 _ (Proc.devRef .tc main_v78) = _
  after_results
  rfl

theorem wcat_0 (k j : Fin 128) :
    V20 m outs c main_v78 (ix2 k (⟨0 + j.val, by have := j.isLt; omega⟩ : Fin 512))
      = m ((c : Thread nD τ).loc main_arg7) (ix4 (1 : Fin 3) (0 : Fin 5) k j) := by
  rw [wcat_eq, V19_main_arg7]
  refine (concatenate_apply_piece (t := S128x512) (1 : Fin S128x512.rank) _ _ _
    0 ?hk S128x128 ?x ?hxk rfl 0 ?hpre (ix2 k j) ?hi ?ha).trans ?fin
  case hxk => rfl
  case hk => show (0 : Nat) < 4; omega
  case hpre => rfl
  case hi =>
    exact fun b => match b with
      | ⟨0, _⟩ => fun _ => rfl
      | ⟨1, _⟩ => fun h => absurd (Fin.ext rfl) h
  case ha => rfl
  case fin =>
    exact (slab_apply (0 : Fin 5) _ slices_S5x128x128_S1x128x128_0_0_0 k j).trans
      (slabs_apply (1 : Fin 3) _ slices_S3x5x128x128_S1x5x128x128_1_0_0_0 (0 : Fin 5) k j)

theorem wcat_1 (k j : Fin 128) :
    V20 m outs c main_v78 (ix2 k (⟨128 + j.val, by have := j.isLt; omega⟩ : Fin 512))
      = m ((c : Thread nD τ).loc main_arg7) (ix4 (1 : Fin 3) (1 : Fin 5) k j) := by
  rw [wcat_eq, V19_main_arg7]
  refine (concatenate_apply_piece (t := S128x512) (1 : Fin S128x512.rank) _ _ _
    1 ?hk S128x128 ?x ?hxk rfl 128 ?hpre (ix2 k j) ?hi ?ha).trans ?fin
  case hxk => rfl
  case hk => show (1 : Nat) < 4; omega
  case hpre => rfl
  case hi =>
    exact fun b => match b with
      | ⟨0, _⟩ => fun _ => rfl
      | ⟨1, _⟩ => fun h => absurd (Fin.ext rfl) h
  case ha => rfl
  case fin =>
    exact (slab_apply (1 : Fin 5) _ slices_S5x128x128_S1x128x128_1_0_0 k j).trans
      (slabs_apply (1 : Fin 3) _ slices_S3x5x128x128_S1x5x128x128_1_0_0_0 (1 : Fin 5) k j)

theorem wcat_2 (k j : Fin 128) :
    V20 m outs c main_v78 (ix2 k (⟨256 + j.val, by have := j.isLt; omega⟩ : Fin 512))
      = m ((c : Thread nD τ).loc main_arg7) (ix4 (1 : Fin 3) (3 : Fin 5) k j) := by
  rw [wcat_eq, V19_main_arg7]
  refine (concatenate_apply_piece (t := S128x512) (1 : Fin S128x512.rank) _ _ _
    2 ?hk S128x128 ?x ?hxk rfl 256 ?hpre (ix2 k j) ?hi ?ha).trans ?fin
  case hxk => rfl
  case hk => show (2 : Nat) < 4; omega
  case hpre => rfl
  case hi =>
    exact fun b => match b with
      | ⟨0, _⟩ => fun _ => rfl
      | ⟨1, _⟩ => fun h => absurd (Fin.ext rfl) h
  case ha => rfl
  case fin =>
    exact (slab_apply (3 : Fin 5) _ slices_S5x128x128_S1x128x128_3_0_0 k j).trans
      (slabs_apply (1 : Fin 3) _ slices_S3x5x128x128_S1x5x128x128_1_0_0_0 (3 : Fin 5) k j)

theorem wcat_3 (k j : Fin 128) :
    V20 m outs c main_v78 (ix2 k (⟨384 + j.val, by have := j.isLt; omega⟩ : Fin 512))
      = m ((c : Thread nD τ).loc main_arg7) (ix4 (1 : Fin 3) (4 : Fin 5) k j) := by
  rw [wcat_eq, V19_main_arg7]
  refine (concatenate_apply_piece (t := S128x512) (1 : Fin S128x512.rank) _ _ _
    3 ?hk S128x128 ?x ?hxk rfl 384 ?hpre (ix2 k j) ?hi ?ha).trans ?fin
  case hxk => rfl
  case hk => show (3 : Nat) < 4; omega
  case hpre => rfl
  case hi =>
    exact fun b => match b with
      | ⟨0, _⟩ => fun _ => rfl
      | ⟨1, _⟩ => fun h => absurd (Fin.ext rfl) h
  case ha => rfl
  case fin =>
    exact (slab_apply (4 : Fin 5) _ slices_S5x128x128_S1x128x128_4_0_0 k j).trans
      (slabs_apply (1 : Fin 3) _ slices_S3x5x128x128_S1x5x128x128_1_0_0_0 (4 : Fin 5) k j)

/-- What the layer's first host stretch leaves in the concatenated bias buffer: rows 0, 1, 3, 4 end to end, as one row. -/
theorem bcat_eq : (V20 m outs c main_v88 : S1x512.Idx → EReal) =
    shapeCast S1x512 (concatenate S512 0
      [⟨S128, shapeCast S128 (extractStridedSlice S1x128 ![0, 0] (rows (V19 m outs c main_arg8)) slices_S5x128_S1x128_0_0) shapeCasts_S1x128_S128⟩,
       ⟨S128, shapeCast S128 (extractStridedSlice S1x128 ![1, 0] (rows (V19 m outs c main_arg8)) slices_S5x128_S1x128_1_0) shapeCasts_S1x128_S128⟩,
       ⟨S128, shapeCast S128 (extractStridedSlice S1x128 ![3, 0] (rows (V19 m outs c main_arg8)) slices_S5x128_S1x128_3_0) shapeCasts_S1x128_S128⟩,
       ⟨S128, shapeCast S128 (extractStridedSlice S1x128 ![4, 0] (rows (V19 m outs c main_arg8)) slices_S5x128_S1x128_4_0) shapeCasts_S1x128_S128⟩]
      concatenates_S128_S128_S128_S128_S512_d0) shapeCasts_S512_S1x512 := by
  show StableHlo.after hostOps9 _ (Proc.devRef .tc main_v88) = _
  after_results
  rfl

theorem bcat_0 (j : Fin 128) :
    V20 m outs c main_v88 (ix2 (0 : Fin 1) (⟨0 + j.val, by have := j.isLt; omega⟩ : Fin 512))
      = m ((c : Thread nD τ).loc main_arg8) (ix3 (1 : Fin 3) (0 : Fin 5) j) := by
  rw [bcat_eq, V19_main_arg8]
  refine (row_of_vec512 _ _).trans ?_
  refine (concatenate_apply_piece (t := S512) (0 : Fin S512.rank) _ _ _
    0 ?hk S128 ?x ?hxk rfl 0 ?hpre (ix1 j) ?hi ?ha).trans ?fin
  case hxk => rfl
  case hk => show (0 : Nat) < 4; omega
  case hpre => rfl
  case hi =>
    exact fun b => match b with
      | ⟨0, _⟩ => fun h => absurd (Fin.ext rfl) h
  case ha => rfl
  case fin =>
    exact (row_apply (0 : Fin 5) _ slices_S5x128_S1x128_0_0 j).trans
      (rows_apply (1 : Fin 3) _ slices_S3x5x128_S1x5x128_1_0_0 (0 : Fin 5) j)

theorem bcat_1 (j : Fin 128) :
    V20 m outs c main_v88 (ix2 (0 : Fin 1) (⟨128 + j.val, by have := j.isLt; omega⟩ : Fin 512))
      = m ((c : Thread nD τ).loc main_arg8) (ix3 (1 : Fin 3) (1 : Fin 5) j) := by
  rw [bcat_eq, V19_main_arg8]
  refine (row_of_vec512 _ _).trans ?_
  refine (concatenate_apply_piece (t := S512) (0 : Fin S512.rank) _ _ _
    1 ?hk S128 ?x ?hxk rfl 128 ?hpre (ix1 j) ?hi ?ha).trans ?fin
  case hxk => rfl
  case hk => show (1 : Nat) < 4; omega
  case hpre => rfl
  case hi =>
    exact fun b => match b with
      | ⟨0, _⟩ => fun h => absurd (Fin.ext rfl) h
  case ha => rfl
  case fin =>
    exact (row_apply (1 : Fin 5) _ slices_S5x128_S1x128_1_0 j).trans
      (rows_apply (1 : Fin 3) _ slices_S3x5x128_S1x5x128_1_0_0 (1 : Fin 5) j)

theorem bcat_2 (j : Fin 128) :
    V20 m outs c main_v88 (ix2 (0 : Fin 1) (⟨256 + j.val, by have := j.isLt; omega⟩ : Fin 512))
      = m ((c : Thread nD τ).loc main_arg8) (ix3 (1 : Fin 3) (3 : Fin 5) j) := by
  rw [bcat_eq, V19_main_arg8]
  refine (row_of_vec512 _ _).trans ?_
  refine (concatenate_apply_piece (t := S512) (0 : Fin S512.rank) _ _ _
    2 ?hk S128 ?x ?hxk rfl 256 ?hpre (ix1 j) ?hi ?ha).trans ?fin
  case hxk => rfl
  case hk => show (2 : Nat) < 4; omega
  case hpre => rfl
  case hi =>
    exact fun b => match b with
      | ⟨0, _⟩ => fun h => absurd (Fin.ext rfl) h
  case ha => rfl
  case fin =>
    exact (row_apply (3 : Fin 5) _ slices_S5x128_S1x128_3_0 j).trans
      (rows_apply (1 : Fin 3) _ slices_S3x5x128_S1x5x128_1_0_0 (3 : Fin 5) j)

theorem bcat_3 (j : Fin 128) :
    V20 m outs c main_v88 (ix2 (0 : Fin 1) (⟨384 + j.val, by have := j.isLt; omega⟩ : Fin 512))
      = m ((c : Thread nD τ).loc main_arg8) (ix3 (1 : Fin 3) (4 : Fin 5) j) := by
  rw [bcat_eq, V19_main_arg8]
  refine (row_of_vec512 _ _).trans ?_
  refine (concatenate_apply_piece (t := S512) (0 : Fin S512.rank) _ _ _
    3 ?hk S128 ?x ?hxk rfl 384 ?hpre (ix1 j) ?hi ?ha).trans ?fin
  case hxk => rfl
  case hk => show (3 : Nat) < 4; omega
  case hpre => rfl
  case hi =>
    exact fun b => match b with
      | ⟨0, _⟩ => fun h => absurd (Fin.ext rfl) h
  case ha => rfl
  case fin =>
    exact (row_apply (4 : Fin 5) _ slices_S5x128_S1x128_4_0 j).trans
      (rows_apply (1 : Fin 3) _ slices_S3x5x128_S1x5x128_1_0_0 (4 : Fin 5) j)

theorem cols_0 (i : Fin 20000) (j : Fin 128) :
    V22 m outs c main_v90 (ix2 i j) = V21 m outs c main_v89 (ix2 i (⟨0 + j.val, by have := j.isLt; omega⟩ : Fin 512)) := by
  have e : (V22 m outs c main_v90 : S20000x128.Idx → EReal) =
      extractStridedSlice S20000x128 ![0, 0] (V21 m outs c main_v89) slices_S20000x512_S20000x128_0_0 := by
    show StableHlo.after hostOps10 _ (Proc.devRef .tc main_v90) = _
    after_results
  rw [e]
  exact col_apply 0 _ slices_S20000x512_S20000x128_0_0 i j _

theorem cols_1 (i : Fin 20000) (j : Fin 128) :
    V22 m outs c main_v91 (ix2 i j) = V21 m outs c main_v89 (ix2 i (⟨128 + j.val, by have := j.isLt; omega⟩ : Fin 512)) := by
  have e : (V22 m outs c main_v91 : S20000x128.Idx → EReal) =
      extractStridedSlice S20000x128 ![0, 128] (V21 m outs c main_v89) slices_S20000x512_S20000x128_0_128 := by
    show StableHlo.after hostOps10 _ (Proc.devRef .tc main_v91) = _
    after_results
  rw [e]
  exact col_apply 128 _ slices_S20000x512_S20000x128_0_128 i j _

theorem cols_2 (i : Fin 20000) (j : Fin 128) :
    V22 m outs c main_v92 (ix2 i j) = V21 m outs c main_v89 (ix2 i (⟨256 + j.val, by have := j.isLt; omega⟩ : Fin 512)) := by
  have e : (V22 m outs c main_v92 : S20000x128.Idx → EReal) =
      extractStridedSlice S20000x128 ![0, 256] (V21 m outs c main_v89) slices_S20000x512_S20000x128_0_256 := by
    show StableHlo.after hostOps10 _ (Proc.devRef .tc main_v92) = _
    after_results
  rw [e]
  exact col_apply 256 _ slices_S20000x512_S20000x128_0_256 i j _

theorem cols_3 (i : Fin 20000) (j : Fin 128) :
    V22 m outs c main_v93 (ix2 i j) = V21 m outs c main_v89 (ix2 i (⟨384 + j.val, by have := j.isLt; omega⟩ : Fin 512)) := by
  have e : (V22 m outs c main_v93 : S20000x128.Idx → EReal) =
      extractStridedSlice S20000x128 ![0, 384] (V21 m outs c main_v89) slices_S20000x512_S20000x128_0_384 := by
    show StableHlo.after hostOps10 _ (Proc.devRef .tc main_v93) = _
    after_results
  rw [e]
  exact col_apply 384 _ slices_S20000x512_S20000x128_0_384 i j _

/-- Weight matrix 2 of the layer. -/
theorem w2 (k j : Fin 128) :
    V22 m outs c main_v95 (ix2 k j) = m ((c : Thread nD τ).loc main_arg7) (ix4 (1 : Fin 3) (2 : Fin 5) k j) := by
  have e : (V22 m outs c main_v95 : S128x128.Idx → EReal) =
      shapeCast S128x128 (extractStridedSlice S1x128x128 ![2, 0, 0] (V21 m outs c main_v67) slices_S5x128x128_S1x128x128_2_0_0) shapeCasts_S1x128x128_S128x128 := by
    show StableHlo.after hostOps10 _ (Proc.devRef .tc main_v95) = _
    after_results
    rfl
  rw [e, V21_of m outs c main_v67 (by decide), slabs_eq, V19_main_arg7]
  exact (slab_apply (2 : Fin 5) _ slices_S5x128x128_S1x128x128_2_0_0 k j).trans
    (slabs_apply (1 : Fin 3) _ slices_S3x5x128x128_S1x5x128x128_1_0_0_0 (2 : Fin 5) k j)

/-- Bias row 2 of the layer, as one row. -/
theorem b2 (j : Fin 128) :
    V22 m outs c main_v98 (ix2 (0 : Fin 1) j) = m ((c : Thread nD τ).loc main_arg8) (ix3 (1 : Fin 3) (2 : Fin 5) j) := by
  have e : (V22 m outs c main_v98 : S1x128.Idx → EReal) =
      shapeCast S1x128 (shapeCast S128 (extractStridedSlice S1x128 ![2, 0] (V21 m outs c main_v69) slices_S5x128_S1x128_2_0) shapeCasts_S1x128_S128) shapeCasts_S128_S1x128 := by
    show StableHlo.after hostOps10 _ (Proc.devRef .tc main_v98) = _
    after_results
    rfl
  rw [e, V21_of m outs c main_v69 (by decide), rows_eq, V19_main_arg8]
  refine (row_of_vec _ j).trans ?_
  exact (row_apply (2 : Fin 5) _ slices_S5x128_S1x128_2_0 j).trans
    (rows_apply (1 : Fin 3) _ slices_S3x5x128_S1x5x128_1_0_0 (2 : Fin 5) j)

/-- The edge normalization's scale row. -/
theorem gE (j : Fin 128) :
    V29 m outs c main_v107 (ix2 (0 : Fin 1) j) = m ((c : Thread nD τ).loc main_arg9) (ix3 (1 : Fin 3) (1 : Fin 2) j) := by
  have e : (V29 m outs c main_v107 : S1x128.Idx → EReal) =
      shapeCast S1x128 (shapeCast S128 (extractStridedSlice S1x1x128 ![1, 1, 0] (V28 m outs c main_arg9) slices_S3x2x128_S1x1x128_1_1_0) shapeCasts_S1x1x128_S128) shapeCasts_S128_S1x128 := by
    show StableHlo.after hostOps13 _ (Proc.devRef .tc main_v107) = _
    after_results
    rfl
  rw [e, V28_main_arg9]
  exact norm_row_apply (1 : Fin 3) (1 : Fin 2) _ slices_S3x2x128_S1x1x128_1_1_0 j

/-- The edge normalization's shift row. -/
theorem beE (j : Fin 128) :
    V29 m outs c main_v110 (ix2 (0 : Fin 1) j) = m ((c : Thread nD τ).loc main_arg10) (ix3 (1 : Fin 3) (1 : Fin 2) j) := by
  have e : (V29 m outs c main_v110 : S1x128.Idx → EReal) =
      shapeCast S1x128 (shapeCast S128 (extractStridedSlice S1x1x128 ![1, 1, 0] (V28 m outs c main_arg10) slices_S3x2x128_S1x1x128_1_1_0) shapeCasts_S1x1x128_S128) shapeCasts_S128_S1x128 := by
    show StableHlo.after hostOps13 _ (Proc.devRef .tc main_v110) = _
    after_results
    rfl
  rw [e, V28_main_arg10]
  exact norm_row_apply (1 : Fin 3) (1 : Fin 2) _ slices_S3x2x128_S1x1x128_1_1_0 j

/-- The node normalization's scale row. -/
theorem gN (j : Fin 128) :
    V33 m outs c main_v119 (ix2 (0 : Fin 1) j) = m ((c : Thread nD τ).loc main_arg9) (ix3 (1 : Fin 3) (0 : Fin 2) j) := by
  have e : (V33 m outs c main_v119 : S1x128.Idx → EReal) =
      shapeCast S1x128 (shapeCast S128 (extractStridedSlice S1x1x128 ![1, 0, 0] (V32 m outs c main_arg9) slices_S3x2x128_S1x1x128_1_0_0) shapeCasts_S1x1x128_S128) shapeCasts_S128_S1x128 := by
    show StableHlo.after hostOps15 _ (Proc.devRef .tc main_v119) = _
    after_results
    rfl
  rw [e, V32_main_arg9]
  exact norm_row_apply (1 : Fin 3) (0 : Fin 2) _ slices_S3x2x128_S1x1x128_1_0_0 j

/-- The node normalization's shift row. -/
theorem beN (j : Fin 128) :
    V33 m outs c main_v122 (ix2 (0 : Fin 1) j) = m ((c : Thread nD τ).loc main_arg10) (ix3 (1 : Fin 3) (0 : Fin 2) j) := by
  have e : (V33 m outs c main_v122 : S1x128.Idx → EReal) =
      shapeCast S1x128 (shapeCast S128 (extractStridedSlice S1x1x128 ![1, 0, 0] (V32 m outs c main_arg10) slices_S3x2x128_S1x1x128_1_0_0) shapeCasts_S1x1x128_S128) shapeCasts_S128_S1x128 := by
    show StableHlo.after hostOps15 _ (Proc.devRef .tc main_v122) = _
    after_results
    rfl
  rw [e, V32_main_arg10]
  exact norm_row_apply (1 : Fin 3) (0 : Fin 2) _ slices_S3x2x128_S1x1x128_1_0_0 j

/-! ## End of layer 1 -/

end Cert.KHostA1
-- ==== Proof.KHostA2.lean ====
import proofs.«418385_j87393994539142_1_alg».proof.Proof.KHostA

/-! # The kernel program's layout stretches of layer 2, read at an index -/

set_option maxRecDepth 16384

noncomputable section

namespace Cert.KHostA2

open Cert.KernelIdeal Cert.KernelIdeal.Gen Idealize.ShloMosaic Idealize.ShloMosaic.TcCoe Idealize.ShloMosaic.ValueIdx Idealize.ShloMosaic.StableHlo
open Cert.KHostA.Lib

variable (m : (ℓ : Loc nD τ sig) → Buf (Elt Ideal) ℓ) (outs : Outs (F := Ideal)) (c : Dev nD)

/-! ## Layer 2 -/

/-- The layer's five weight matrices: the layer's block of argument 7 with its unit axis dropped. -/
abbrev slabs (x : S3x5x128x128.Idx → EReal) : S5x128x128.Idx → EReal :=
  shapeCast S5x128x128 (extractStridedSlice S1x5x128x128 ![2, 0, 0, 0] x slices_S3x5x128x128_S1x5x128x128_2_0_0_0) shapeCasts_S1x5x128x128_S5x128x128

/-- The layer's five bias rows: the layer's block of argument 8 with its unit axis dropped. -/
abbrev rows (x : S3x5x128.Idx → EReal) : S5x128.Idx → EReal :=
  shapeCast S5x128 (extractStridedSlice S1x5x128 ![2, 0, 0] x slices_S3x5x128_S1x5x128_2_0_0) shapeCasts_S1x5x128_S5x128

theorem slabs_eq : (V35 m outs c main_v125 : S5x128x128.Idx → EReal) = slabs (V34 m outs c main_arg7) := by
  show StableHlo.after hostOps16 _ (Proc.devRef .tc main_v125) = _
  after_results
  rfl

theorem rows_eq : (V35 m outs c main_v127 : S5x128.Idx → EReal) = rows (V34 m outs c main_arg8) := by
  show StableHlo.after hostOps16 _ (Proc.devRef .tc main_v127) = _
  after_results
  rfl

/-- What the layer's first host stretch leaves in the concatenated weight buffer: matrices 0, 1, 3, 4 side by side. -/
theorem wcat_eq : (V35 m outs c main_v136 : S128x512.Idx → EReal) =
    concatenate S128x512 1
      [⟨S128x128, shapeCast S128x128 (extractStridedSlice S1x128x128 ![0, 0, 0] (slabs (V34 m outs c main_arg7)) slices_S5x128x128_S1x128x128_0_0_0) shapeCasts_S1x128x128_S128x128⟩,
       ⟨S128x128, shapeCast S128x128 (extractStridedSlice S1x128x128 ![1, 0, 0] (slabs (V34 m outs c main_arg7)) slices_S5x128x128_S1x128x128_1_0_0) shapeCasts_S1x128x128_S128x128⟩,
       ⟨S128x128, shapeCast S128x128 (extractStridedSlice S1x128x128 ![3, 0, 0] (slabs (V34 m outs c main_arg7)) slices_S5x128x128_S1x128x128_3_0_0) shapeCasts_S1x128x128_S128x128⟩,
       ⟨S128x128, shapeCast S128x128 (extractStridedSlice S1x128x128 ![4, 0, 0] (slabs (V34 m outs c main_arg7)) slices_S5x128x128_S1x128x128_4_0_0) shapeCasts_S1x128x128_S128x128⟩]
      concatenates_S128x128_S128x128_S128x128_S128x128_S128x512_d1 := by
  show StableHlo.after hostOps16 _ (Proc.devRef .tc main_v136) = _
  after_results
  rfl

theorem wcat_0 (k j : Fin 128) :
    V35 m outs c main_v136 (ix2 k (⟨0 + j.val, by have := j.isLt; omega⟩ : Fin 512))
      = m ((c : Thread nD τ).loc main_arg7) (ix4 (2 : Fin 3) (0 : Fin 5) k j) := by
  rw [wcat_eq, V34_main_arg7]
  refine (concatenate_apply_piece (t := S128x512) (1 : Fin S128x512.rank) _ _ _
    0 ?hk S128x128 ?x ?hxk rfl 0 ?hpre (ix2 k j) ?hi ?ha).trans ?fin
  case hxk => rfl
  case hk => show (0 : Nat) < 4; omega
  case hpre => rfl
  case hi =>
    exact fun b => match b with
      | ⟨0, _⟩ => fun _ => rfl
      | ⟨1, _⟩ => fun h => absurd (Fin.ext rfl) h
  case ha => rfl
  case fin =>
    exact (slab_apply (0 : Fin 5) _ slices_S5x128x128_S1x128x128_0_0_0 k j).trans
      (slabs_apply (2 : Fin 3) _ slices_S3x5x128x128_S1x5x128x128_2_0_0_0 (0 : Fin 5) k j)

theorem wcat_1 (k j : Fin 128) :
    V35 m outs c main_v136 (ix2 k (⟨128 + j.val, by have := j.isLt; omega⟩ : Fin 512))
      = m ((c : Thread nD τ).loc main_arg7) (ix4 (2 : Fin 3) (1 : Fin 5) k j) := by
  rw [wcat_eq, V34_main_arg7]
  refine (concatenate_apply_piece (t := S128x512) (1 : Fin S128x512.rank) _ _ _
    1 ?hk S128x128 ?x ?hxk rfl 128 ?hpre (ix2 k j) ?hi ?ha).trans ?fin
  case hxk => rfl
  case hk => show (1 : Nat) < 4; omega
  case hpre => rfl
  case hi =>
    exact fun b => match b with
      | ⟨0, _⟩ => fun _ => rfl
      | ⟨1, _⟩ => fun h => absurd (Fin.ext rfl) h
  case ha => rfl
  case fin =>
    exact (slab_apply (1 : Fin 5) _ slices_S5x128x128_S1x128x128_1_0_0 k j).trans
      (slabs_apply (2 : Fin 3) _ slices_S3x5x128x128_S1x5x128x128_2_0_0_0 (1 : Fin 5) k j)

theorem wcat_2 (k j : Fin 128) :
    V35 m outs c main_v136 (ix2 k (⟨256 + j.val, by have := j.isLt; omega⟩ : Fin 512))
      = m ((c : Thread nD τ).loc main_arg7) (ix4 (2 : Fin 3) (3 : Fin 5) k j) := by
  rw [wcat_eq, V34_main_arg7]
  refine (concatenate_apply_piece (t := S128x512) (1 : Fin S128x512.rank) _ _ _
    2 ?hk S128x128 ?x ?hxk rfl 256 ?hpre (ix2 k j) ?hi ?ha).trans ?fin
  case hxk => rfl
  case hk => show (2 : Nat) < 4; omega
  case hpre => rfl
  case hi =>
    exact fun b => match b with
      | ⟨0, _⟩ => fun _ => rfl
      | ⟨1, _⟩ => fun h => absurd (Fin.ext rfl) h
  case ha => rfl
  case fin =>
    exact (slab_apply (3 : Fin 5) _ slices_S5x128x128_S1x128x128_3_0_0 k j).trans
      (slabs_apply (2 : Fin 3) _ slices_S3x5x128x128_S1x5x128x128_2_0_0_0 (3 : Fin 5) k j)

theorem wcat_3 (k j : Fin 128) :
    V35 m outs c main_v136 (ix2 k (⟨384 + j.val, by have := j.isLt; omega⟩ : Fin 512))
      = m ((c : Thread nD τ).loc main_arg7) (ix4 (2 : Fin 3) (4 : Fin 5) k j) := by
  rw [wcat_eq, V34_main_arg7]
  refine (concatenate_apply_piece (t := S128x512) (1 : Fin S128x512.rank) _ _ _
    3 ?hk S128x128 ?x ?hxk rfl 384 ?hpre (ix2 k j) ?hi ?ha).trans ?fin
  case hxk => rfl
  case hk => show (3 : Nat) < 4; omega
  case hpre => rfl
  case hi =>
    exact fun b => match b with
      | ⟨0, _⟩ => fun _ => rfl
      | ⟨1, _⟩ => fun h => absurd (Fin.ext rfl) h
  case ha => rfl
  case fin =>
    exact (slab_apply (4 : Fin 5) _ slices_S5x128x128_S1x128x128_4_0_0 k j).trans
      (slabs_apply (2 : Fin 3) _ slices_S3x5x128x128_S1x5x128x128_2_0_0_0 (4 : Fin 5) k j)

/-- What the layer's first host stretch leaves in the concatenated bias buffer: rows 0, 1, 3, 4 end to end, as one row. -/
theorem bcat_eq : (V35 m outs c main_v146 : S1x512.Idx → EReal) =
    shapeCast S1x512 (concatenate S512 0
      [⟨S128, shapeCast S128 (extractStridedSlice S1x128 ![0, 0] (rows (V34 m outs c main_arg8)) slices_S5x128_S1x128_0_0) shapeCasts_S1x128_S128⟩,
       ⟨S128, shapeCast S128 (extractStridedSlice S1x128 ![1, 0] (rows (V34 m outs c main_arg8)) slices_S5x128_S1x128_1_0) shapeCasts_S1x128_S128⟩,
       ⟨S128, shapeCast S128 (extractStridedSlice S1x128 ![3, 0] (rows (V34 m outs c main_arg8)) slices_S5x128_S1x128_3_0) shapeCasts_S1x128_S128⟩,
       ⟨S128, shapeCast S128 (extractStridedSlice S1x128 ![4, 0] (rows (V34 m outs c main_arg8)) slices_S5x128_S1x128_4_0) shapeCasts_S1x128_S128⟩]
      concatenates_S128_S128_S128_S128_S512_d0) shapeCasts_S512_S1x512 := by
  show StableHlo.after hostOps16 _ (Proc.devRef .tc main_v146) = _
  after_results
  rfl

theorem bcat_0 (j : Fin 128) :
    V35 m outs c main_v146 (ix2 (0 : Fin 1) (⟨0 + j.val, by have := j.isLt; omega⟩ : Fin 512))
      = m ((c : Thread nD τ).loc main_arg8) (ix3 (2 : Fin 3) (0 : Fin 5) j) := by
  rw [bcat_eq, V34_main_arg8]
  refine (row_of_vec512 _ _).trans ?_
  refine (concatenate_apply_piece (t := S512) (0 : Fin S512.rank) _ _ _
    0 ?hk S128 ?x ?hxk rfl 0 ?hpre (ix1 j) ?hi ?ha).trans ?fin
  case hxk => rfl
  case hk => show (0 : Nat) < 4; omega
  case hpre => rfl
  case hi =>
    exact fun b => match b with
      | ⟨0, _⟩ => fun h => absurd (Fin.ext rfl) h
  case ha => rfl
  case fin =>
    exact (row_apply (0 : Fin 5) _ slices_S5x128_S1x128_0_0 j).trans
      (rows_apply (2 : Fin 3) _ slices_S3x5x128_S1x5x128_2_0_0 (0 : Fin 5) j)

theorem bcat_1 (j : Fin 128) :
    V35 m outs c main_v146 (ix2 (0 : Fin 1) (⟨128 + j.val, by have := j.isLt; omega⟩ : Fin 512))
      = m ((c : Thread nD τ).loc main_arg8) (ix3 (2 : Fin 3) (1 : Fin 5) j) := by
  rw [bcat_eq, V34_main_arg8]
  refine (row_of_vec512 _ _).trans ?_
  refine (concatenate_apply_piece (t := S512) (0 : Fin S512.rank) _ _ _
    1 ?hk S128 ?x ?hxk rfl 128 ?hpre (ix1 j) ?hi ?ha).trans ?fin
  case hxk => rfl
  case hk => show (1 : Nat) < 4; omega
  case hpre => rfl
  case hi =>
    exact fun b => match b with
      | ⟨0, _⟩ => fun h => absurd (Fin.ext rfl) h
  case ha => rfl
  case fin =>
    exact (row_apply (1 : Fin 5) _ slices_S5x128_S1x128_1_0 j).trans
      (rows_apply (2 : Fin 3) _ slices_S3x5x128_S1x5x128_2_0_0 (1 : Fin 5) j)

theorem bcat_2 (j : Fin 128) :
    V35 m outs c main_v146 (ix2 (0 : Fin 1) (⟨256 + j.val, by have := j.isLt; omega⟩ : Fin 512))
      = m ((c : Thread nD τ).loc main_arg8) (ix3 (2 : Fin 3) (3 : Fin 5) j) := by
  rw [bcat_eq, V34_main_arg8]
  refine (row_of_vec512 _ _).trans ?_
  refine (concatenate_apply_piece (t := S512) (0 : Fin S512.rank) _ _ _
    2 ?hk S128 ?x ?hxk rfl 256 ?hpre (ix1 j) ?hi ?ha).trans ?fin
  case hxk => rfl
  case hk => show (2 : Nat) < 4; omega
  case hpre => rfl
  case hi =>
    exact fun b => match b with
      | ⟨0, _⟩ => fun h => absurd (Fin.ext rfl) h
  case ha => rfl
  case fin =>
    exact (row_apply (3 : Fin 5) _ slices_S5x128_S1x128_3_0 j).trans
      (rows_apply (2 : Fin 3) _ slices_S3x5x128_S1x5x128_2_0_0 (3 : Fin 5) j)

theorem bcat_3 (j : Fin 128) :
    V35 m outs c main_v146 (ix2 (0 : Fin 1) (⟨384 + j.val, by have := j.isLt; omega⟩ : Fin 512))
      = m ((c : Thread nD τ).loc main_arg8) (ix3 (2 : Fin 3) (4 : Fin 5) j) := by
  rw [bcat_eq, V34_main_arg8]
  refine (row_of_vec512 _ _).trans ?_
  refine (concatenate_apply_piece (t := S512) (0 : Fin S512.rank) _ _ _
    3 ?hk S128 ?x ?hxk rfl 384 ?hpre (ix1 j) ?hi ?ha).trans ?fin
  case hxk => rfl
  case hk => show (3 : Nat) < 4; omega
  case hpre => rfl
  case hi =>
    exact fun b => match b with
      | ⟨0, _⟩ => fun h => absurd (Fin.ext rfl) h
  case ha => rfl
  case fin =>
    exact (row_apply (4 : Fin 5) _ slices_S5x128_S1x128_4_0 j).trans
      (rows_apply (2 : Fin 3) _ slices_S3x5x128_S1x5x128_2_0_0 (4 : Fin 5) j)

theorem cols_0 (i : Fin 20000) (j : Fin 128) :
    V37 m outs c main_v148 (ix2 i j) = V36 m outs c main_v147 (ix2 i (⟨0 + j.val, by have := j.isLt; omega⟩ : Fin 512)) := by
  have e : (V37 m outs c main_v148 : S20000x128.Idx → EReal) =
      extractStridedSlice S20000x128 ![0, 0] (V36 m outs c main_v147) slices_S20000x512_S20000x128_0_0 := by
    show StableHlo.after hostOps17 _ (Proc.devRef .tc main_v148) = _
    after_results
  rw [e]
  exact col_apply 0 _ slices_S20000x512_S20000x128_0_0 i j _

theorem cols_1 (i : Fin 20000) (j : Fin 128) :
    V37 m outs c main_v149 (ix2 i j) = V36 m outs c main_v147 (ix2 i (⟨128 + j.val, by have := j.isLt; omega⟩ : Fin 512)) := by
  have e : (V37 m outs c main_v149 : S20000x128.Idx → EReal) =
      extractStridedSlice S20000x128 ![0, 128] (V36 m outs c main_v147) slices_S20000x512_S20000x128_0_128 := by
    show StableHlo.after hostOps17 _ (Proc.devRef .tc main_v149) = _
    after_results
  rw [e]
  exact col_apply 128 _ slices_S20000x512_S20000x128_0_128 i j _

theorem cols_2 (i : Fin 20000) (j : Fin 128) :
    V37 m outs c main_v150 (ix2 i j) = V36 m outs c main_v147 (ix2 i (⟨256 + j.val, by have := j.isLt; omega⟩ : Fin 512)) := by
  have e : (V37 m outs c main_v150 : S20000x128.Idx → EReal) =
      extractStridedSlice S20000x128 ![0, 256] (V36 m outs c main_v147) slices_S20000x512_S20000x128_0_256 := by
    show StableHlo.after hostOps17 _ (Proc.devRef .tc main_v150) = _
    after_results
  rw [e]
  exact col_apply 256 _ slices_S20000x512_S20000x128_0_256 i j _

theorem cols_3 (i : Fin 20000) (j : Fin 128) :
    V37 m outs c main_v151 (ix2 i j) = V36 m outs c main_v147 (ix2 i (⟨384 + j.val, by have := j.isLt; omega⟩ : Fin 512)) := by
  have e : (V37 m outs c main_v151 : S20000x128.Idx → EReal) =
      extractStridedSlice S20000x128 ![0, 384] (V36 m outs c main_v147) slices_S20000x512_S20000x128_0_384 := by
    show StableHlo.after hostOps17 _ (Proc.devRef .tc main_v151) = _
    after_results
  rw [e]
  exact col_apply 384 _ slices_S20000x512_S20000x128_0_384 i j _

/-- Weight matrix 2 of the layer. -/
theorem w2 (k j : Fin 128) :
    V37 m outs c main_v153 (ix2 k j) = m ((c : Thread nD τ).loc main_arg7) (ix4 (2 : Fin 3) (2 : Fin 5) k j) := by
  have e : (V37 m outs c main_v153 : S128x128.Idx → EReal) =
      shapeCast S128x128 (extractStridedSlice S1x128x128 ![2, 0, 0] (V36 m outs c main_v125) slices_S5x128x128_S1x128x128_2_0_0) shapeCasts_S1x128x128_S128x128 := by
    show StableHlo.after hostOps17 _ (Proc.devRef .tc main_v153) = _
    after_results
    rfl
  rw [e, V36_of m outs c main_v125 (by decide), slabs_eq, V34_main_arg7]
  exact (slab_apply (2 : Fin 5) _ slices_S5x128x128_S1x128x128_2_0_0 k j).trans
    (slabs_apply (2 : Fin 3) _ slices_S3x5x128x128_S1x5x128x128_2_0_0_0 (2 : Fin 5) k j)

/-- Bias row 2 of the layer, as one row. -/
theorem b2 (j : Fin 128) :
    V37 m outs c main_v156 (ix2 (0 : Fin 1) j) = m ((c : Thread nD τ).loc main_arg8) (ix3 (2 : Fin 3) (2 : Fin 5) j) := by
  have e : (V37 m outs c main_v156 : S1x128.Idx → EReal) =
      shapeCast S1x128 (shapeCast S128 (extractStridedSlice S1x128 ![2, 0] (V36 m outs c main_v127) slices_S5x128_S1x128_2_0) shapeCasts_S1x128_S128) shapeCasts_S128_S1x128 := by
    show StableHlo.after hostOps17 _ (Proc.devRef .tc main_v156) = _
    after_results
    rfl
  rw [e, V36_of m outs c main_v127 (by decide), rows_eq, V34_main_arg8]
  refine (row_of_vec _ j).trans ?_
  exact (row_apply (2 : Fin 5) _ slices_S5x128_S1x128_2_0 j).trans
    (rows_apply (2 : Fin 3) _ slices_S3x5x128_S1x5x128_2_0_0 (2 : Fin 5) j)

/-- The edge normalization's scale row. -/
theorem gE (j : Fin 128) :
    V44 m outs c main_v165 (ix2 (0 : Fin 1) j) = m ((c : Thread nD τ).loc main_arg9) (ix3 (2 : Fin 3) (1 : Fin 2) j) := by
  have e : (V44 m outs c main_v165 : S1x128.Idx → EReal) =
      shapeCast S1x128 (shapeCast S128 (extractStridedSlice S1x1x128 ![2, 1, 0] (V43 m outs c main_arg9) slices_S3x2x128_S1x1x128_2_1_0) shapeCasts_S1x1x128_S128) shapeCasts_S128_S1x128 := by
    show StableHlo.after hostOps20 _ (Proc.devRef .tc main_v165) = _
    after_results
    rfl
  rw [e, V43_main_arg9]
  exact norm_row_apply (2 : Fin 3) (1 : Fin 2) _ slices_S3x2x128_S1x1x128_2_1_0 j

/-- The edge normalization's shift row. -/
theorem beE (j : Fin 128) :
    V44 m outs c main_v168 (ix2 (0 : Fin 1) j) = m ((c : Thread nD τ).loc main_arg10) (ix3 (2 : Fin 3) (1 : Fin 2) j) := by
  have e : (V44 m outs c main_v168 : S1x128.Idx → EReal) =
      shapeCast S1x128 (shapeCast S128 (extractStridedSlice S1x1x128 ![2, 1, 0] (V43 m outs c main_arg10) slices_S3x2x128_S1x1x128_2_1_0) shapeCasts_S1x1x128_S128) shapeCasts_S128_S1x128 := by
    show StableHlo.after hostOps20 _ (Proc.devRef .tc main_v168) = _
    after_results
    rfl
  rw [e, V43_main_arg10]
  exact norm_row_apply (2 : Fin 3) (1 : Fin 2) _ slices_S3x2x128_S1x1x128_2_1_0 j

/-- The node normalization's scale row. -/
theorem gN (j : Fin 128) :
    V48 m outs c main_v177 (ix2 (0 : Fin 1) j) = m ((c : Thread nD τ).loc main_arg9) (ix3 (2 : Fin 3) (0 : Fin 2) j) := by
  have e : (V48 m outs c main_v177 : S1x128.Idx → EReal) =
      shapeCast S1x128 (shapeCast S128 (extractStridedSlice S1x1x128 ![2, 0, 0] (V47 m outs c main_arg9) slices_S3x2x128_S1x1x128_2_0_0) shapeCasts_S1x1x128_S128) shapeCasts_S128_S1x128 := by
    show StableHlo.after hostOps22 _ (Proc.devRef .tc main_v177) = _
    after_results
    rfl
  rw [e, V47_main_arg9]
  exact norm_row_apply (2 : Fin 3) (0 : Fin 2) _ slices_S3x2x128_S1x1x128_2_0_0 j

/-- The node normalization's shift row. -/
theorem beN (j : Fin 128) :
    V48 m outs c main_v180 (ix2 (0 : Fin 1) j) = m ((c : Thread nD τ).loc main_arg10) (ix3 (2 : Fin 3) (0 : Fin 2) j) := by
  have e : (V48 m outs c main_v180 : S1x128.Idx → EReal) =
      shapeCast S1x128 (shapeCast S128 (extractStridedSlice S1x1x128 ![2, 0, 0] (V47 m outs c main_arg10) slices_S3x2x128_S1x1x128_2_0_0) shapeCasts_S1x1x128_S128) shapeCasts_S128_S1x128 := by
    show StableHlo.after hostOps22 _ (Proc.devRef .tc main_v180) = _
    after_results
    rfl
  rw [e, V47_main_arg10]
  exact norm_row_apply (2 : Fin 3) (0 : Fin 2) _ slices_S3x2x128_S1x1x128_2_0_0 j

/-! ## End of layer 2 -/

end Cert.KHostA2
-- ==== Proof.KHostB.lean ====
/-
  The index-dependent host stretches of the kernel program's first layer, read at one entry, for any launch memory,
  any contents the regions leave, and any core.

  The program selects rows of a node array three times per layer (once by the edges' targets, twice by their
  sources) and adds the edges' message rows onto their targets. A row selection is printed as: move a negative
  index word up by the row count, test the moved word against [0, rows − 1], gather (the start clamped), and put a
  junk word where the test fails. When every index word is already in range the move is the identity and the test
  passes everywhere, so entry (e, j) is column j of the row that word e names. The scatter-add of rows onto zeros,
  added to the node array, is at (i, j) the node entry plus the sum over the edges whose target is i of their
  entries in column j.
-/
import proofs.«418385_j87393994539142_1_alg».proof.Proof.KernelIdealRegionsP
import proofs.«418385_j87393994539142_1_alg».proof.Proof.LibGatherScatter
import proofs.«418385_j87393994539142_1_alg».proof.Proof.Net
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KHostB

open Cert.KernelIdeal Cert.KernelIdeal.Gen Idealize.ShloMosaic Idealize.ShloMosaic.TcCoe Idealize.ShloMosaic.ValueIdx Idealize.ShloMosaic.StableHlo

/-- Contents moved to a buffer's own type and back are the contents. -/
theorem ofBuf_toBuf {T : BufTy} {Val : EltTy → Type} (x : StableHlo.TRef sig T) (v : T.Contents Val) :
    x.ofBuf (x.toBuf v) = v := by
  simp only [StableHlo.TRef.ofBuf, StableHlo.TRef.toBuf, cast_cast, cast_eq]

/-- Contents read as an array of extended reals of shape s (the identity; it only states the type). -/
abbrev rd (s : Shape) (X : s.Idx → EReal) : s.Idx → EReal := X

/-! ## One row selection, as a function of the table and the index words -/

/-- The index words with every word below 0 moved up by 20000. -/
def wrapW (w : IVec S320000 32) : IVec S320000 32 :=
  select (cmpi .slt w (broadcastInDim S320000 ![] bcast_S_S320000 (constantI S_ 32 0#32)))
    (addi w (broadcastInDim S320000 ![] bcast_S_S320000 (constantI S_ 32 20000#32))) w

/-- The words as one column of start indices. -/
def colW (w : IVec S320000 32) : IVec S320000x1 32 := broadcastInDim S320000x1 ![0] bcast_S320000_S320000x1_0 w

/-- Per start index: is it inside [0, 19999]? -/
def okW (col : IVec S320000x1 32) : IVec S320000 1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- One row selection x[w]: a word below 0 is moved up by 20000; the rows the moved words name are gathered (the
    start clamped into the table); a row whose moved word is outside [0, 19999] is replaced by the junk word. -/
def takeFn (x : FVec Ideal S20000x128 .f32) (w : IVec S320000 32) : FVec Ideal S320000x128 .f32 :=
  select (broadcastInDim S320000x128 ![0] bcast_S320000_S320000x128_0 (okW (colW (wrapW w))))
    (Host.gather gather_S20000x128_S320000x1_S320000x128_1_0_n_n_0_1_1128 x (colW (wrapW w)))
    (broadcastInDim S320000x128 ![] bcast_S_S320000x128 (constant (F := Ideal) S_ .f32 0x7FC00000#32))

/-- A left fold by and over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by and, from one, of an array whose every entry is one is one everywhere. -/
theorem reduce_andi_ones {s t u : Shape} {axes : List (Fin s.rank)} (h : s.ReducesTo axes t) (hu : 0 < u.numel)
    (x : s.Idx → BitVec 1) (init : u.Idx → BitVec 1) (hx : ∀ i, x i = 1#1) (hinit : ∀ k, init k = 1#1) (j : t.Idx) :
    Host.reduce IntOp.andi x init h hu j = 1#1 := by
  rw [Host.reduce_eq_foldl, hinit]
  exact foldl_andi_ones x hx _

/-- A selection on the word one takes the first branch; on any other word the second. -/
theorem select_one {α : Type} (a b : α) : Scalar.select (1#1 : BitVec 1) a b = a := by
  unfold Scalar.select; exact if_pos rfl
theorem select_ne_one {α : Type} (c : BitVec 1) (h : c ≠ 1#1) (a b : α) : Scalar.select c a b = b := by
  unfold Scalar.select; exact if_neg h

/-- A non-negative word is not below 0. -/
theorem slt_zero_ne_one (a : BitVec 32) (h : 0 ≤ a.toInt) : IntOp.cmpi .slt a 0#32 ≠ 1#1 := by
  unfold IntOp.cmpi
  rw [Ne, StableHlo.Predicate.ofBool_eq_one_iff]
  simp only [BitVec.slt, decide_eq_true_eq, BitVec.toInt_zero]
  omega

/-- A non-negative word is at least 0. -/
theorem sge_zero_eq_one (a : BitVec 32) (h : 0 ≤ a.toInt) : IntOp.cmpi .sge a 0#32 = 1#1 := by
  unfold IntOp.cmpi
  rw [StableHlo.Predicate.ofBool_eq_one_iff]
  simp only [BitVec.sle, decide_eq_true_eq, BitVec.toInt_zero]
  exact h

/-- A word below 20000 is at most 19999. -/
theorem sle_top_eq_one (a : BitVec 32) (h : a.toInt < 20000) : IntOp.cmpi .sle a 19999#32 = 1#1 := by
  unfold IntOp.cmpi
  rw [StableHlo.Predicate.ofBool_eq_one_iff]
  have h2 : (19999#32 : BitVec 32).toInt = 19999 := by decide
  simp only [BitVec.sle, decide_eq_true_eq, h2]
  omega

/-- In-range words are left as they are. -/
theorem wrapW_id (w : IVec S320000 32) (hw : ∀ e, 0 ≤ (w e).toInt ∧ (w e).toInt < 20000) : wrapW w = w := by
  funext i
  show Scalar.select (IntOp.cmpi .slt (w i) 0#32) _ (w i) = w i
  exact select_ne_one _ (slt_zero_ne_one (w i) (hw i).1) _ _

/-- The column of start indices holds word e at row e. -/
theorem colW_apply (w : IVec S320000 32) (e : Fin 320000) : colW w (ix2 e (0 : Fin 1)) = w (ix1 e) := by
  unfold colW
  rw [← Cert.LibGS.ixP_eq_ix2, Cert.LibGS.ix1_eq_ofFin]
  exact StableHlo.Predicate.bcast_col1 _ w e

/-- In-range words are all inside [0, 19999]. -/
theorem okW_ones (w : IVec S320000 32) (hw : ∀ e, 0 ≤ (w e).toInt ∧ (w e).toInt < 20000) (i : S320000.Idx) :
    okW (colW w) i = 1#1 := by
  unfold okW
  refine reduce_andi_ones _ _ _ _ (fun k => ?_) (fun _ => rfl) i
  have hk : 0 ≤ (colW w k).toInt ∧ (colW w k).toInt < 20000 := hw _
  show IntOp.andi (IntOp.cmpi .sge (colW w k) 0#32) (IntOp.cmpi .sle (colW w k) 19999#32) = 1#1
  rw [sge_zero_eq_one _ hk.1, sle_top_eq_one _ hk.2]
  decide

/-- THE ROW SELECTION AT ONE ENTRY, for in-range words: entry (e, j) is column j of the table row word e names. -/
theorem takeFn_apply (x : FVec Ideal S20000x128 .f32) (w : IVec S320000 32)
    (hw : ∀ e, 0 ≤ (w e).toInt ∧ (w e).toInt < 20000) (e : Fin 320000) (j : Fin 128) :
    takeFn x w (ix2 e j) = x (ix2 (Cert.Net.node (w (ix1 e))) j) := by
  unfold takeFn
  rw [wrapW_id w hw]
  show Scalar.select (okW (colW w) _) (Host.gather gather_S20000x128_S320000x1_S320000x128_1_0_n_n_0_1_1128 x (colW w) (ix2 e j)) _ = _
  rw [okW_ones w hw, select_one, Cert.LibGS.gather_rows_gen _ (by decide) rfl rfl rfl rfl rfl rfl, colW_apply]
  rfl

/-- For an in-range word, naming node i is being the integer i. -/
theorem node_eq_iff (w : BitVec 32) (hw : 0 ≤ w.toInt ∧ w.toInt < 20000) (i : Fin 20000) :
    Cert.Net.node w = i ↔ w.toInt = (i.val : ℤ) := by
  unfold Cert.Net.node Cert.LibGS.rowOf
  rw [Fin.ext_iff]
  show min w.toInt.toNat (20000 - 1) = i.val ↔ _
  have := i.isLt
  omega

variable (m : (ℓ : Loc nD τ sig) → Buf (Elt Ideal) ℓ) (outs : Outs (F := Ideal)) (c : Dev nD)

/-- The edge-index argument on core c. -/
abbrev arg1 : IVec S2x320000 32 := m ((c.tc : Thread nD τ).loc main_arg1)

/-! ## The source and target words -/

/-- Row r of the edge-index array, cut out as one row and laid out as a vector, holds entry (r, e) at e. -/
theorem row_word (a : IVec S2x320000 32) (r : Fin 2) (h : S2x320000.Slices ![r.val, 0] S1x320000) (e : Fin 320000) :
    shapeCast S320000 (extractStridedSlice S1x320000 ![r.val, 0] a h) shapeCasts_S1x320000_S320000 (ix1 e) = a (ix2 r e) := by
  rw [shapeCast_apply _ shapeCasts_S1x320000_S320000 (ix1 e) (ix2 (0 : Fin 1) e)
    (by rewrite [Shape.rowMajor_val_two, Shape.rowMajor_val_one]; show 0 * 320000 + e.val = e.val; omega)]
  exact extractStridedSlice_apply ![r.val, 0] a h (ix2 (0 : Fin 1) e) (ix2 r e) (fun b => match b with
    | ⟨0, _⟩ => by show r.val = r.val + 0; omega
    | ⟨1, _⟩ => by show e.val = 0 + e.val; omega)

/-- After the first host stretch the source words are row 0 of the edge-index argument. -/
theorem src_word1 (e : Fin 320000) : V1 m c main_v1 (ix1 e) = arg1 m c (ix2 (0 : Fin 2) e) := by
  have h : (V1 m c main_v1 : S320000.Idx → BitVec 32)
      = shapeCast S320000 (extractStridedSlice S1x320000 ![0, 0] (arg1 m c) slices_S2x320000_S1x320000_0_0) shapeCasts_S1x320000_S320000 := by
    show StableHlo.after hostOps0 _ (Proc.devRef .tc main_v1) = _
    after_results
    rfl
  rw [h]
  exact row_word (arg1 m c) (0 : Fin 2) slices_S2x320000_S1x320000_0_0 e

/-- After the first host stretch the target words are row 1 of the edge-index argument. -/
theorem dst_word1 (e : Fin 320000) : V1 m c main_v3 (ix1 e) = arg1 m c (ix2 (1 : Fin 2) e) := by
  have h : (V1 m c main_v3 : S320000.Idx → BitVec 32)
      = shapeCast S320000 (extractStridedSlice S1x320000 ![1, 0] (arg1 m c) slices_S2x320000_S1x320000_1_0) shapeCasts_S1x320000_S320000 := by
    show StableHlo.after hostOps0 _ (Proc.devRef .tc main_v3) = _
    after_results
    rfl
  rw [h]
  exact row_word (arg1 m c) (1 : Fin 2) slices_S2x320000_S1x320000_1_0 e

/-- Nothing up to the fourth region touches the source or the target words. -/
theorem src_buf8 : V8 m outs c main_v1 = V1 m c main_v1 := by
  rw [V8_of m outs c main_v1 (by decide), V7_of m outs c main_v1 (by decide), V6_of m outs c main_v1 (by decide),
    V5_of m outs c main_v1 (by decide), V4_of m outs c main_v1 (by decide), V3_of m outs c main_v1 (by decide),
    V2_of m outs c main_v1 (by decide)]
theorem dst_buf8 : V8 m outs c main_v3 = V1 m c main_v3 := by
  rw [V8_of m outs c main_v3 (by decide), V7_of m outs c main_v3 (by decide), V6_of m outs c main_v3 (by decide),
    V5_of m outs c main_v3 (by decide), V4_of m outs c main_v3 (by decide), V3_of m outs c main_v3 (by decide),
    V2_of m outs c main_v3 (by decide)]

/-- Nothing between that point and the scatter stretch touches the target words. -/
theorem dst_buf15 : V15 m outs c main_v3 = V1 m c main_v3 := by
  rw [V15_of m outs c main_v3 (by decide), V14_of m outs c main_v3 (by decide), V13_of m outs c main_v3 (by decide), V12_of m outs c main_v3 (by decide), V11_of m outs c main_v3 (by decide), V10_of m outs c main_v3 (by decide), V9_of m outs c main_v3 (by decide), dst_buf8]

/-! ## The three row selections -/

set_option maxHeartbeats 4000000 in
/-- The first selection stretch, from any contents W: the row selection of main_v34 by the target words. -/
theorem stretch_D (W : Valuation τ sig (Elt Ideal)) :
    (StableHlo.after hostOps4 W (Proc.devRef .tc main_v42) : S320000x128.Idx → EReal)
      = takeFn (W (Proc.devRef .tc main_v34) : S20000x128.Idx → EReal) (W (Proc.devRef .tc main_v3) : S320000.Idx → BitVec 32) := by
  after_results
  simp only [ofBuf_toBuf]
  have ew : ((TRef.of main_v3 : TRef sig ⟨S320000, .i32⟩).ofBuf (Val := Elt Ideal) (W (Proc.devRef .tc main_v3)) : S320000.Idx → BitVec 32)
      = (W (Proc.devRef .tc main_v3) : S320000.Idx → BitVec 32) := rfl
  have et : ((TRef.of main_v34 : TRef sig ⟨S20000x128, .f32⟩).ofBuf (Val := Elt Ideal) (W (Proc.devRef .tc main_v34)) : S20000x128.Idx → EReal)
      = (W (Proc.devRef .tc main_v34) : S20000x128.Idx → EReal) := rfl
  have eout : ∀ X : S320000x128.Idx → EReal,
      ((TRef.of main_v42 : TRef sig ⟨S320000x128, .f32⟩).toBuf (Val := Elt Ideal) X : S320000x128.Idx → EReal) = X := fun _ => rfl
  rw [ew, et]
  refine (eout _).trans ?_
  rfl

/-- Dh[dst]: row e of the first selection is the row of main_v34 that edge e's target names. -/
theorem take_D (hidx : ∀ i, 0 ≤ (arg1 m c i).toInt ∧ (arg1 m c i).toInt < 20000) (e : Fin 320000) (j : Fin 128) :
    V9 m outs c main_v42 (ix2 e j)
      = V8 m outs c main_v34 (ix2 (Cert.Net.node (arg1 m c (ix2 (1 : Fin 2) e))) j) := by
  have hw : ∀ e' : S320000.Idx, 0 ≤ ((V8 m outs c main_v3 : S320000.Idx → BitVec 32) e').toInt
      ∧ ((V8 m outs c main_v3 : S320000.Idx → BitVec 32) e').toInt < 20000 := by
    intro e'
    obtain ⟨k, rfl⟩ : ∃ k : Fin 320000, e' = ix1 k := ⟨e' 0, eq_ix1 e'⟩
    rw [dst_buf8, dst_word1]
    exact hidx _
  rw [show (V9 m outs c main_v42 : S320000x128.Idx → EReal) = _ from stretch_D (V8 m outs c),
    takeFn_apply _ _ hw, dst_buf8, dst_word1]

set_option maxHeartbeats 4000000 in
/-- The second selection stretch, from any contents W: the row selection of main_v35 by the source words. -/
theorem stretch_E (W : Valuation τ sig (Elt Ideal)) :
    (StableHlo.after hostOps4_1 W (Proc.devRef .tc main_v43) : S320000x128.Idx → EReal)
      = takeFn (W (Proc.devRef .tc main_v35) : S20000x128.Idx → EReal) (W (Proc.devRef .tc main_v1) : S320000.Idx → BitVec 32) := by
  after_results
  simp only [ofBuf_toBuf]
  have ew : ((TRef.of main_v1 : TRef sig ⟨S320000, .i32⟩).ofBuf (Val := Elt Ideal) (W (Proc.devRef .tc main_v1)) : S320000.Idx → BitVec 32)
      = (W (Proc.devRef .tc main_v1) : S320000.Idx → BitVec 32) := rfl
  have et : ((TRef.of main_v35 : TRef sig ⟨S20000x128, .f32⟩).ofBuf (Val := Elt Ideal) (W (Proc.devRef .tc main_v35)) : S20000x128.Idx → EReal)
      = (W (Proc.devRef .tc main_v35) : S20000x128.Idx → EReal) := rfl
  have eout : ∀ X : S320000x128.Idx → EReal,
      ((TRef.of main_v43 : TRef sig ⟨S320000x128, .f32⟩).toBuf (Val := Elt Ideal) X : S320000x128.Idx → EReal) = X := fun _ => rfl
  rw [ew, et]
  refine (eout _).trans ?_
  rfl

/-- Eh[src]: row e of the second selection is the row of main_v35 that edge e's source names. -/
theorem take_E (hidx : ∀ i, 0 ≤ (arg1 m c i).toInt ∧ (arg1 m c i).toInt < 20000) (e : Fin 320000) (j : Fin 128) :
    V10 m outs c main_v43 (ix2 e j)
      = V8 m outs c main_v35 (ix2 (Cert.Net.node (arg1 m c (ix2 (0 : Fin 2) e))) j) := by
  have s : V9 m outs c main_v1 = V1 m c main_v1 := by rw [V9_of m outs c main_v1 (by decide), src_buf8]
  have hw : ∀ e' : S320000.Idx, 0 ≤ ((V9 m outs c main_v1 : S320000.Idx → BitVec 32) e').toInt
      ∧ ((V9 m outs c main_v1 : S320000.Idx → BitVec 32) e').toInt < 20000 := by
    intro e'
    obtain ⟨k, rfl⟩ : ∃ k : Fin 320000, e' = ix1 k := ⟨e' 0, eq_ix1 e'⟩
    rw [s, src_word1]
    exact hidx _
  rw [show (V10 m outs c main_v43 : S320000x128.Idx → EReal) = _ from stretch_E (V9 m outs c),
    takeFn_apply _ _ hw, s, src_word1, V9_of m outs c main_v35 (by decide)]

set_option maxHeartbeats 4000000 in
/-- The third selection stretch, from any contents W: the row selection of main_v33 by the source words. -/
theorem stretch_B (W : Valuation τ sig (Elt Ideal)) :
    (StableHlo.after hostOps4_2 W (Proc.devRef .tc main_v44) : S320000x128.Idx → EReal)
      = takeFn (W (Proc.devRef .tc main_v33) : S20000x128.Idx → EReal) (W (Proc.devRef .tc main_v1) : S320000.Idx → BitVec 32) := by
  after_results
  simp only [ofBuf_toBuf]
  have ew : ((TRef.of main_v1 : TRef sig ⟨S320000, .i32⟩).ofBuf (Val := Elt Ideal) (W (Proc.devRef .tc main_v1)) : S320000.Idx → BitVec 32)
      = (W (Proc.devRef .tc main_v1) : S320000.Idx → BitVec 32) := rfl
  have et : ((TRef.of main_v33 : TRef sig ⟨S20000x128, .f32⟩).ofBuf (Val := Elt Ideal) (W (Proc.devRef .tc main_v33)) : S20000x128.Idx → EReal)
      = (W (Proc.devRef .tc main_v33) : S20000x128.Idx → EReal) := rfl
  have eout : ∀ X : S320000x128.Idx → EReal,
      ((TRef.of main_v44 : TRef sig ⟨S320000x128, .f32⟩).toBuf (Val := Elt Ideal) X : S320000x128.Idx → EReal) = X := fun _ => rfl
  rw [ew, et]
  refine (eout _).trans ?_
  rfl

/-- Bh[src]: row e of the third selection is the row of main_v33 that edge e's source names. -/
theorem take_B (hidx : ∀ i, 0 ≤ (arg1 m c i).toInt ∧ (arg1 m c i).toInt < 20000) (e : Fin 320000) (j : Fin 128) :
    V11 m outs c main_v44 (ix2 e j)
      = V8 m outs c main_v33 (ix2 (Cert.Net.node (arg1 m c (ix2 (0 : Fin 2) e))) j) := by
  have s : V10 m outs c main_v1 = V1 m c main_v1 := by
    rw [V10_of m outs c main_v1 (by decide), V9_of m outs c main_v1 (by decide), src_buf8]
  have hw : ∀ e' : S320000.Idx, 0 ≤ ((V10 m outs c main_v1 : S320000.Idx → BitVec 32) e').toInt
      ∧ ((V10 m outs c main_v1 : S320000.Idx → BitVec 32) e').toInt < 20000 := by
    intro e'
    obtain ⟨k, rfl⟩ : ∃ k : Fin 320000, e' = ix1 k := ⟨e' 0, eq_ix1 e'⟩
    rw [s, src_word1]
    exact hidx _
  rw [show (V11 m outs c main_v44 : S320000x128.Idx → EReal) = _ from stretch_B (V10 m outs c),
    takeFn_apply _ _ hw, s, src_word1, V10_of m outs c main_v33 (by decide), V9_of m outs c main_v33 (by decide)]

/-! ## The scatter-add of the messages onto their targets -/

set_option maxHeartbeats 4000000 in
/-- The scatter stretch, from any contents W: main_v32 plus the scatter-add onto zeros of the rows of main_v45_1 by the target column. -/
theorem stretch_add (W : Valuation τ sig (Elt Ideal)) :
    (StableHlo.after hostOps7 W (Proc.devRef .tc main_v57) : S20000x128.Idx → EReal)
      = addf (W (Proc.devRef .tc main_v32) : S20000x128.Idx → EReal)
          (Host.scatterAdd scatter_S20000x128_S320000x1_S320000x128_1_0_0_1
            (broadcastInDim S20000x128 ![] bcast_S_S20000x128 (constant (F := Ideal) S_ .f32 0x00000000#32))
            (colW (W (Proc.devRef .tc main_v3) : S320000.Idx → BitVec 32))
            (W (Proc.devRef .tc main_v45_1) : S320000x128.Idx → EReal)) := by
  after_results
  rfl

/-- x + Σ over the edges into node i of their message rows, with the node array x and the message array u named. -/
theorem xadd_gen (hidx : ∀ i, 0 ≤ (arg1 m c i).toInt ∧ (arg1 m c i).toInt < 20000) (i : Fin 20000) (j : Fin 128)
    (x : S20000x128.Idx → EReal) (u : S320000x128.Idx → EReal)
    (hx : (V15 m outs c main_v32 : S20000x128.Idx → EReal) = x) (hu : (V15 m outs c main_v45_1 : S320000x128.Idx → EReal) = u) :
    V16 m outs c main_v57 (ix2 i j)
      = x (ix2 i j) + ∑ e ∈ Finset.univ.filter (fun e : Fin 320000 => Cert.Net.node (arg1 m c (ix2 (1 : Fin 2) e)) = i), u (ix2 e j) := by
  rw [show (V16 m outs c main_v57 : S20000x128.Idx → EReal) = _ from stretch_add (V15 m outs c), hx, hu]
  show x (ix2 i j)
      + Ideal.hostScatterAdd scatter_S20000x128_S320000x1_S320000x128_1_0_0_1
          (broadcastInDim S20000x128 ![] bcast_S_S20000x128 (constant (F := Ideal) S_ .f32 0x00000000#32))
          (colW (V15 m outs c main_v3 : S320000.Idx → BitVec 32)) u (ix2 i j) = _
  rw [Cert.LibGS.scatterAdd_rows_gen _ rfl rfl rfl rfl]
  have hz : broadcastInDim S20000x128 ![] bcast_S_S20000x128 (constant (F := Ideal) S_ .f32 0x00000000#32) (ix2 i j) = (0 : EReal) :=
    Ideal.ofBits_zero_f32
  rw [hz, zero_add]
  refine congrArg (fun t => x (ix2 i j) + t) (Finset.sum_congr (Finset.filter_congr fun e _ => ?_) (fun _ _ => rfl))
  rw [colW_apply, dst_buf15, dst_word1]
  exact (node_eq_iff _ (hidx _) i).symm

/-- The same with the two arrays read off the buffers. -/
theorem xadd (hidx : ∀ i, 0 ≤ (arg1 m c i).toInt ∧ (arg1 m c i).toInt < 20000) (i : Fin 20000) (j : Fin 128) :
    V16 m outs c main_v57 (ix2 i j)
      = rd S20000x128 (V15 m outs c main_v32) (ix2 i j)
        + ∑ e ∈ Finset.univ.filter (fun e : Fin 320000 => Cert.Net.node (arg1 m c (ix2 (1 : Fin 2) e)) = i),
            rd S320000x128 (V15 m outs c main_v45_1) (ix2 e j) :=
  xadd_gen m outs c hidx i j _ _ rfl rfl

end Cert.KHostB

end
-- ==== Proof.KHostB1.lean ====
import proofs.«418385_j87393994539142_1_alg».proof.Proof.KHostB

set_option maxRecDepth 16384

noncomputable section

open scoped BigOperators

namespace Cert.KHostB1

open Cert.KernelIdeal Cert.KernelIdeal.Gen Idealize.ShloMosaic Idealize.ShloMosaic.TcCoe Idealize.ShloMosaic.ValueIdx Idealize.ShloMosaic.StableHlo Cert.KHostB

variable (m : (ℓ : Loc nD τ sig) → Buf (Elt Ideal) ℓ) (outs : Outs (F := Ideal)) (c : Dev nD)

/-! ## The source and target words at layer 1's valuations -/

/-- Nothing up to this layer's first selection stretch touches the source words. -/
theorem src_buf23 : V23 m outs c main_v1 = V1 m c main_v1 := by
  rw [V23_of m outs c main_v1 (by decide),
    V22_of m outs c main_v1 (by decide),
    V21_of m outs c main_v1 (by decide),
    V20_of m outs c main_v1 (by decide),
    V19_of m outs c main_v1 (by decide),
    V18_of m outs c main_v1 (by decide),
    V17_of m outs c main_v1 (by decide),
    V16_of m outs c main_v1 (by decide),
    V15_of m outs c main_v1 (by decide),
    V14_of m outs c main_v1 (by decide),
    V13_of m outs c main_v1 (by decide),
    V12_of m outs c main_v1 (by decide),
    V11_of m outs c main_v1 (by decide),
    V10_of m outs c main_v1 (by decide),
    V9_of m outs c main_v1 (by decide),
    src_buf8]

/-- Nor the target words. -/
theorem dst_buf23 : V23 m outs c main_v3 = V1 m c main_v3 := by
  rw [V23_of m outs c main_v3 (by decide),
    V22_of m outs c main_v3 (by decide),
    V21_of m outs c main_v3 (by decide),
    V20_of m outs c main_v3 (by decide),
    V19_of m outs c main_v3 (by decide),
    V18_of m outs c main_v3 (by decide),
    V17_of m outs c main_v3 (by decide),
    V16_of m outs c main_v3 (by decide),
    dst_buf15]

/-- Nothing between that stretch and this layer's scatter stretch touches the target words. -/
theorem dst_buf30 : V30 m outs c main_v3 = V1 m c main_v3 := by
  rw [V30_of m outs c main_v3 (by decide),
    V29_of m outs c main_v3 (by decide),
    V28_of m outs c main_v3 (by decide),
    V27_of m outs c main_v3 (by decide),
    V26_of m outs c main_v3 (by decide),
    V25_of m outs c main_v3 (by decide),
    V24_of m outs c main_v3 (by decide),
    dst_buf23]

/-! ## The three row selections -/

set_option maxHeartbeats 4000000 in
/-- The first selection stretch, from any contents W: the row selection of main_v92 by the target words. -/
theorem stretch_D (W : Valuation τ sig (Elt Ideal)) :
    (StableHlo.after hostOps11 W (Proc.devRef .tc main_v100) : S320000x128.Idx → EReal)
      = takeFn (W (Proc.devRef .tc main_v92) : S20000x128.Idx → EReal) (W (Proc.devRef .tc main_v3) : S320000.Idx → BitVec 32) := by
  after_results
  simp only [ofBuf_toBuf]
  have ew : ((TRef.of main_v3 : TRef sig ⟨S320000, .i32⟩).ofBuf (Val := Elt Ideal) (W (Proc.devRef .tc main_v3)) : S320000.Idx → BitVec 32)
      = (W (Proc.devRef .tc main_v3) : S320000.Idx → BitVec 32) := rfl
  have et : ((TRef.of main_v92 : TRef sig ⟨S20000x128, .f32⟩).ofBuf (Val := Elt Ideal) (W (Proc.devRef .tc main_v92)) : S20000x128.Idx → EReal)
      = (W (Proc.devRef .tc main_v92) : S20000x128.Idx → EReal) := rfl
  have eout : ∀ X : S320000x128.Idx → EReal,
      ((TRef.of main_v100 : TRef sig ⟨S320000x128, .f32⟩).toBuf (Val := Elt Ideal) X : S320000x128.Idx → EReal) = X := fun _ => rfl
  rw [ew, et]
  refine (eout _).trans ?_
  rfl

/-- Dh[dst]: row e of the first selection is the row of main_v92 that edge e's target names. -/
theorem take_D (hidx : ∀ i, 0 ≤ (arg1 m c i).toInt ∧ (arg1 m c i).toInt < 20000) (e : Fin 320000) (j : Fin 128) :
    V24 m outs c main_v100 (ix2 e j)
      = V23 m outs c main_v92 (ix2 (Cert.Net.node (arg1 m c (ix2 (1 : Fin 2) e))) j) := by
  have hw : ∀ e' : S320000.Idx, 0 ≤ ((V23 m outs c main_v3 : S320000.Idx → BitVec 32) e').toInt
      ∧ ((V23 m outs c main_v3 : S320000.Idx → BitVec 32) e').toInt < 20000 := by
    intro e'
    obtain ⟨k, rfl⟩ : ∃ k : Fin 320000, e' = ix1 k := ⟨e' 0, eq_ix1 e'⟩
    rw [dst_buf23, dst_word1]
    exact hidx _
  rw [show (V24 m outs c main_v100 : S320000x128.Idx → EReal) = _ from stretch_D (V23 m outs c),
    takeFn_apply _ _ hw, dst_buf23, dst_word1]

set_option maxHeartbeats 4000000 in
/-- The second selection stretch, from any contents W: the row selection of main_v93 by the source words. -/
theorem stretch_E (W : Valuation τ sig (Elt Ideal)) :
    (StableHlo.after hostOps11_1 W (Proc.devRef .tc main_v101) : S320000x128.Idx → EReal)
      = takeFn (W (Proc.devRef .tc main_v93) : S20000x128.Idx → EReal) (W (Proc.devRef .tc main_v1) : S320000.Idx → BitVec 32) := by
  after_results
  simp only [ofBuf_toBuf]
  have ew : ((TRef.of main_v1 : TRef sig ⟨S320000, .i32⟩).ofBuf (Val := Elt Ideal) (W (Proc.devRef .tc main_v1)) : S320000.Idx → BitVec 32)
      = (W (Proc.devRef .tc main_v1) : S320000.Idx → BitVec 32) := rfl
  have et : ((TRef.of main_v93 : TRef sig ⟨S20000x128, .f32⟩).ofBuf (Val := Elt Ideal) (W (Proc.devRef .tc main_v93)) : S20000x128.Idx → EReal)
      = (W (Proc.devRef .tc main_v93) : S20000x128.Idx → EReal) := rfl
  have eout : ∀ X : S320000x128.Idx → EReal,
      ((TRef.of main_v101 : TRef sig ⟨S320000x128, .f32⟩).toBuf (Val := Elt Ideal) X : S320000x128.Idx → EReal) = X := fun _ => rfl
  rw [ew, et]
  refine (eout _).trans ?_
  rfl

/-- Eh[src]: row e of the second selection is the row of main_v93 that edge e's source names. -/
theorem take_E (hidx : ∀ i, 0 ≤ (arg1 m c i).toInt ∧ (arg1 m c i).toInt < 20000) (e : Fin 320000) (j : Fin 128) :
    V25 m outs c main_v101 (ix2 e j)
      = V23 m outs c main_v93 (ix2 (Cert.Net.node (arg1 m c (ix2 (0 : Fin 2) e))) j) := by
  have s : V24 m outs c main_v1 = V1 m c main_v1 := by rw [V24_of m outs c main_v1 (by decide), src_buf23]
  have hw : ∀ e' : S320000.Idx, 0 ≤ ((V24 m outs c main_v1 : S320000.Idx → BitVec 32) e').toInt
      ∧ ((V24 m outs c main_v1 : S320000.Idx → BitVec 32) e').toInt < 20000 := by
    intro e'
    obtain ⟨k, rfl⟩ : ∃ k : Fin 320000, e' = ix1 k := ⟨e' 0, eq_ix1 e'⟩
    rw [s, src_word1]
    exact hidx _
  rw [show (V25 m outs c main_v101 : S320000x128.Idx → EReal) = _ from stretch_E (V24 m outs c),
    takeFn_apply _ _ hw, s, src_word1, V24_of m outs c main_v93 (by decide)]

set_option maxHeartbeats 4000000 in
/-- The third selection stretch, from any contents W: the row selection of main_v91 by the source words. -/
theorem stretch_B (W : Valuation τ sig (Elt Ideal)) :
    (StableHlo.after hostOps11_2 W (Proc.devRef .tc main_v102) : S320000x128.Idx → EReal)
      = takeFn (W (Proc.devRef .tc main_v91) : S20000x128.Idx → EReal) (W (Proc.devRef .tc main_v1) : S320000.Idx → BitVec 32) := by
  after_results
  simp only [ofBuf_toBuf]
  have ew : ((TRef.of main_v1 : TRef sig ⟨S320000, .i32⟩).ofBuf (Val := Elt Ideal) (W (Proc.devRef .tc main_v1)) : S320000.Idx → BitVec 32)
      = (W (Proc.devRef .tc main_v1) : S320000.Idx → BitVec 32) := rfl
  have et : ((TRef.of main_v91 : TRef sig ⟨S20000x128, .f32⟩).ofBuf (Val := Elt Ideal) (W (Proc.devRef .tc main_v91)) : S20000x128.Idx → EReal)
      = (W (Proc.devRef .tc main_v91) : S20000x128.Idx → EReal) := rfl
  have eout : ∀ X : S320000x128.Idx → EReal,
      ((TRef.of main_v102 : TRef sig ⟨S320000x128, .f32⟩).toBuf (Val := Elt Ideal) X : S320000x128.Idx → EReal) = X := fun _ => rfl
  rw [ew, et]
  refine (eout _).trans ?_
  rfl

/-- Bh[src]: row e of the third selection is the row of main_v91 that edge e's source names. -/
theorem take_B (hidx : ∀ i, 0 ≤ (arg1 m c i).toInt ∧ (arg1 m c i).toInt < 20000) (e : Fin 320000) (j : Fin 128) :
    V26 m outs c main_v102 (ix2 e j)
      = V23 m outs c main_v91 (ix2 (Cert.Net.node (arg1 m c (ix2 (0 : Fin 2) e))) j) := by
  have s : V25 m outs c main_v1 = V1 m c main_v1 := by
    rw [V25_of m outs c main_v1 (by decide), V24_of m outs c main_v1 (by decide), src_buf23]
  have hw : ∀ e' : S320000.Idx, 0 ≤ ((V25 m outs c main_v1 : S320000.Idx → BitVec 32) e').toInt
      ∧ ((V25 m outs c main_v1 : S320000.Idx → BitVec 32) e').toInt < 20000 := by
    intro e'
    obtain ⟨k, rfl⟩ : ∃ k : Fin 320000, e' = ix1 k := ⟨e' 0, eq_ix1 e'⟩
    rw [s, src_word1]
    exact hidx _
  rw [show (V26 m outs c main_v102 : S320000x128.Idx → EReal) = _ from stretch_B (V25 m outs c),
    takeFn_apply _ _ hw, s, src_word1, V25_of m outs c main_v91 (by decide), V24_of m outs c main_v91 (by decide)]

/-! ## The scatter-add of the messages onto their targets -/

set_option maxHeartbeats 4000000 in
/-- The scatter stretch, from any contents W: main_v90 plus the scatter-add onto zeros of the rows of main_v103_1 by the target column. -/
theorem stretch_add (W : Valuation τ sig (Elt Ideal)) :
    (StableHlo.after hostOps14 W (Proc.devRef .tc main_v115) : S20000x128.Idx → EReal)
      = addf (W (Proc.devRef .tc main_v90) : S20000x128.Idx → EReal)
          (Host.scatterAdd scatter_S20000x128_S320000x1_S320000x128_1_0_0_1
            (broadcastInDim S20000x128 ![] bcast_S_S20000x128 (constant (F := Ideal) S_ .f32 0x00000000#32))
            (colW (W (Proc.devRef .tc main_v3) : S320000.Idx → BitVec 32))
            (W (Proc.devRef .tc main_v103_1) : S320000x128.Idx → EReal)) := by
  after_results
  rfl

/-- x + Σ over the edges into node i of their message rows, with the node array x and the message array u named. -/
theorem xadd_gen (hidx : ∀ i, 0 ≤ (arg1 m c i).toInt ∧ (arg1 m c i).toInt < 20000) (i : Fin 20000) (j : Fin 128)
    (x : S20000x128.Idx → EReal) (u : S320000x128.Idx → EReal)
    (hx : (V30 m outs c main_v90 : S20000x128.Idx → EReal) = x) (hu : (V30 m outs c main_v103_1 : S320000x128.Idx → EReal) = u) :
    V31 m outs c main_v115 (ix2 i j)
      = x (ix2 i j) + ∑ e ∈ Finset.univ.filter (fun e : Fin 320000 => Cert.Net.node (arg1 m c (ix2 (1 : Fin 2) e)) = i), u (ix2 e j) := by
  rw [show (V31 m outs c main_v115 : S20000x128.Idx → EReal) = _ from stretch_add (V30 m outs c), hx, hu]
  show x (ix2 i j)
      + Ideal.hostScatterAdd scatter_S20000x128_S320000x1_S320000x128_1_0_0_1
          (broadcastInDim S20000x128 ![] bcast_S_S20000x128 (constant (F := Ideal) S_ .f32 0x00000000#32))
          (colW (V30 m outs c main_v3 : S320000.Idx → BitVec 32)) u (ix2 i j) = _
  rw [Cert.LibGS.scatterAdd_rows_gen _ rfl rfl rfl rfl]
  have hz : broadcastInDim S20000x128 ![] bcast_S_S20000x128 (constant (F := Ideal) S_ .f32 0x00000000#32) (ix2 i j) = (0 : EReal) :=
    Ideal.ofBits_zero_f32
  rw [hz, zero_add]
  refine congrArg (fun t => x (ix2 i j) + t) (Finset.sum_congr (Finset.filter_congr fun e _ => ?_) (fun _ _ => rfl))
  rw [colW_apply, dst_buf30, dst_word1]
  exact (node_eq_iff _ (hidx _) i).symm

/-- The same with the two arrays read off the buffers. -/
theorem xadd (hidx : ∀ i, 0 ≤ (arg1 m c i).toInt ∧ (arg1 m c i).toInt < 20000) (i : Fin 20000) (j : Fin 128) :
    V31 m outs c main_v115 (ix2 i j)
      = rd S20000x128 (V30 m outs c main_v90) (ix2 i j)
        + ∑ e ∈ Finset.univ.filter (fun e : Fin 320000 => Cert.Net.node (arg1 m c (ix2 (1 : Fin 2) e)) = i),
            rd S320000x128 (V30 m outs c main_v103_1) (ix2 e j) :=
  xadd_gen m outs c hidx i j _ _ rfl rfl

end Cert.KHostB1

end
-- ==== Proof.KHostB2.lean ====
import proofs.«418385_j87393994539142_1_alg».proof.Proof.KHostB1

set_option maxRecDepth 16384

noncomputable section

open scoped BigOperators

namespace Cert.KHostB2

open Cert.KernelIdeal Cert.KernelIdeal.Gen Idealize.ShloMosaic Idealize.ShloMosaic.TcCoe Idealize.ShloMosaic.ValueIdx Idealize.ShloMosaic.StableHlo Cert.KHostB Cert.KHostB1

variable (m : (ℓ : Loc nD τ sig) → Buf (Elt Ideal) ℓ) (outs : Outs (F := Ideal)) (c : Dev nD)

/-! ## The source and target words at layer 2's valuations -/

/-- Nothing up to this layer's first selection stretch touches the source words. -/
theorem src_buf38 : V38 m outs c main_v1 = V1 m c main_v1 := by
  rw [V38_of m outs c main_v1 (by decide),
    V37_of m outs c main_v1 (by decide),
    V36_of m outs c main_v1 (by decide),
    V35_of m outs c main_v1 (by decide),
    V34_of m outs c main_v1 (by decide),
    V33_of m outs c main_v1 (by decide),
    V32_of m outs c main_v1 (by decide),
    V31_of m outs c main_v1 (by decide),
    V30_of m outs c main_v1 (by decide),
    V29_of m outs c main_v1 (by decide),
    V28_of m outs c main_v1 (by decide),
    V27_of m outs c main_v1 (by decide),
    V26_of m outs c main_v1 (by decide),
    V25_of m outs c main_v1 (by decide),
    V24_of m outs c main_v1 (by decide),
    src_buf23]

/-- Nor the target words. -/
theorem dst_buf38 : V38 m outs c main_v3 = V1 m c main_v3 := by
  rw [V38_of m outs c main_v3 (by decide),
    V37_of m outs c main_v3 (by decide),
    V36_of m outs c main_v3 (by decide),
    V35_of m outs c main_v3 (by decide),
    V34_of m outs c main_v3 (by decide),
    V33_of m outs c main_v3 (by decide),
    V32_of m outs c main_v3 (by decide),
    V31_of m outs c main_v3 (by decide),
    dst_buf30]

/-- Nothing between that stretch and this layer's scatter stretch touches the target words. -/
theorem dst_buf45 : V45 m outs c main_v3 = V1 m c main_v3 := by
  rw [V45_of m outs c main_v3 (by decide),
    V44_of m outs c main_v3 (by decide),
    V43_of m outs c main_v3 (by decide),
    V42_of m outs c main_v3 (by decide),
    V41_of m outs c main_v3 (by decide),
    V40_of m outs c main_v3 (by decide),
    V39_of m outs c main_v3 (by decide),
    dst_buf38]

/-! ## The three row selections -/

set_option maxHeartbeats 4000000 in
/-- The first selection stretch, from any contents W: the row selection of main_v150 by the target words. -/
theorem stretch_D (W : Valuation τ sig (Elt Ideal)) :
    (StableHlo.after hostOps18 W (Proc.devRef .tc main_v158) : S320000x128.Idx → EReal)
      = takeFn (W (Proc.devRef .tc main_v150) : S20000x128.Idx → EReal) (W (Proc.devRef .tc main_v3) : S320000.Idx → BitVec 32) := by
  after_results
  simp only [ofBuf_toBuf]
  have ew : ((TRef.of main_v3 : TRef sig ⟨S320000, .i32⟩).ofBuf (Val := Elt Ideal) (W (Proc.devRef .tc main_v3)) : S320000.Idx → BitVec 32)
      = (W (Proc.devRef .tc main_v3) : S320000.Idx → BitVec 32) := rfl
  have et : ((TRef.of main_v150 : TRef sig ⟨S20000x128, .f32⟩).ofBuf (Val := Elt Ideal) (W (Proc.devRef .tc main_v150)) : S20000x128.Idx → EReal)
      = (W (Proc.devRef .tc main_v150) : S20000x128.Idx → EReal) := rfl
  have eout : ∀ X : S320000x128.Idx → EReal,
      ((TRef.of main_v158 : TRef sig ⟨S320000x128, .f32⟩).toBuf (Val := Elt Ideal) X : S320000x128.Idx → EReal) = X := fun _ => rfl
  rw [ew, et]
  refine (eout _).trans ?_
  rfl

/-- Dh[dst]: row e of the first selection is the row of main_v150 that edge e's target names. -/
theorem take_D (hidx : ∀ i, 0 ≤ (arg1 m c i).toInt ∧ (arg1 m c i).toInt < 20000) (e : Fin 320000) (j : Fin 128) :
    V39 m outs c main_v158 (ix2 e j)
      = V38 m outs c main_v150 (ix2 (Cert.Net.node (arg1 m c (ix2 (1 : Fin 2) e))) j) := by
  have hw : ∀ e' : S320000.Idx, 0 ≤ ((V38 m outs c main_v3 : S320000.Idx → BitVec 32) e').toInt
      ∧ ((V38 m outs c main_v3 : S320000.Idx → BitVec 32) e').toInt < 20000 := by
    intro e'
    obtain ⟨k, rfl⟩ : ∃ k : Fin 320000, e' = ix1 k := ⟨e' 0, eq_ix1 e'⟩
    rw [dst_buf38, dst_word1]
    exact hidx _
  rw [show (V39 m outs c main_v158 : S320000x128.Idx → EReal) = _ from stretch_D (V38 m outs c),
    takeFn_apply _ _ hw, dst_buf38, dst_word1]

set_option maxHeartbeats 4000000 in
/-- The second selection stretch, from any contents W: the row selection of main_v151 by the source words. -/
theorem stretch_E (W : Valuation τ sig (Elt Ideal)) :
    (StableHlo.after hostOps18_1 W (Proc.devRef .tc main_v159) : S320000x128.Idx → EReal)
      = takeFn (W (Proc.devRef .tc main_v151) : S20000x128.Idx → EReal) (W (Proc.devRef .tc main_v1) : S320000.Idx → BitVec 32) := by
  after_results
  simp only [ofBuf_toBuf]
  have ew : ((TRef.of main_v1 : TRef sig ⟨S320000, .i32⟩).ofBuf (Val := Elt Ideal) (W (Proc.devRef .tc main_v1)) : S320000.Idx → BitVec 32)
      = (W (Proc.devRef .tc main_v1) : S320000.Idx → BitVec 32) := rfl
  have et : ((TRef.of main_v151 : TRef sig ⟨S20000x128, .f32⟩).ofBuf (Val := Elt Ideal) (W (Proc.devRef .tc main_v151)) : S20000x128.Idx → EReal)
      = (W (Proc.devRef .tc main_v151) : S20000x128.Idx → EReal) := rfl
  have eout : ∀ X : S320000x128.Idx → EReal,
      ((TRef.of main_v159 : TRef sig ⟨S320000x128, .f32⟩).toBuf (Val := Elt Ideal) X : S320000x128.Idx → EReal) = X := fun _ => rfl
  rw [ew, et]
  refine (eout _).trans ?_
  rfl

/-- Eh[src]: row e of the second selection is the row of main_v151 that edge e's source names. -/
theorem take_E (hidx : ∀ i, 0 ≤ (arg1 m c i).toInt ∧ (arg1 m c i).toInt < 20000) (e : Fin 320000) (j : Fin 128) :
    V40 m outs c main_v159 (ix2 e j)
      = V38 m outs c main_v151 (ix2 (Cert.Net.node (arg1 m c (ix2 (0 : Fin 2) e))) j) := by
  have s : V39 m outs c main_v1 = V1 m c main_v1 := by rw [V39_of m outs c main_v1 (by decide), src_buf38]
  have hw : ∀ e' : S320000.Idx, 0 ≤ ((V39 m outs c main_v1 : S320000.Idx → BitVec 32) e').toInt
      ∧ ((V39 m outs c main_v1 : S320000.Idx → BitVec 32) e').toInt < 20000 := by
    intro e'
    obtain ⟨k, rfl⟩ : ∃ k : Fin 320000, e' = ix1 k := ⟨e' 0, eq_ix1 e'⟩
    rw [s, src_word1]
    exact hidx _
  rw [show (V40 m outs c main_v159 : S320000x128.Idx → EReal) = _ from stretch_E (V39 m outs c),
    takeFn_apply _ _ hw, s, src_word1, V39_of m outs c main_v151 (by decide)]

set_option maxHeartbeats 4000000 in
/-- The third selection stretch, from any contents W: the row selection of main_v149 by the source words. -/
theorem stretch_B (W : Valuation τ sig (Elt Ideal)) :
    (StableHlo.after hostOps18_2 W (Proc.devRef .tc main_v160) : S320000x128.Idx → EReal)
      = takeFn (W (Proc.devRef .tc main_v149) : S20000x128.Idx → EReal) (W (Proc.devRef .tc main_v1) : S320000.Idx → BitVec 32) := by
  after_results
  simp only [ofBuf_toBuf]
  have ew : ((TRef.of main_v1 : TRef sig ⟨S320000, .i32⟩).ofBuf (Val := Elt Ideal) (W (Proc.devRef .tc main_v1)) : S320000.Idx → BitVec 32)
      = (W (Proc.devRef .tc main_v1) : S320000.Idx → BitVec 32) := rfl
  have et : ((TRef.of main_v149 : TRef sig ⟨S20000x128, .f32⟩).ofBuf (Val := Elt Ideal) (W (Proc.devRef .tc main_v149)) : S20000x128.Idx → EReal)
      = (W (Proc.devRef .tc main_v149) : S20000x128.Idx → EReal) := rfl
  have eout : ∀ X : S320000x128.Idx → EReal,
      ((TRef.of main_v160 : TRef sig ⟨S320000x128, .f32⟩).toBuf (Val := Elt Ideal) X : S320000x128.Idx → EReal) = X := fun _ => rfl
  rw [ew, et]
  refine (eout _).trans ?_
  rfl

/-- Bh[src]: row e of the third selection is the row of main_v149 that edge e's source names. -/
theorem take_B (hidx : ∀ i, 0 ≤ (arg1 m c i).toInt ∧ (arg1 m c i).toInt < 20000) (e : Fin 320000) (j : Fin 128) :
    V41 m outs c main_v160 (ix2 e j)
      = V38 m outs c main_v149 (ix2 (Cert.Net.node (arg1 m c (ix2 (0 : Fin 2) e))) j) := by
  have s : V40 m outs c main_v1 = V1 m c main_v1 := by
    rw [V40_of m outs c main_v1 (by decide), V39_of m outs c main_v1 (by decide), src_buf38]
  have hw : ∀ e' : S320000.Idx, 0 ≤ ((V40 m outs c main_v1 : S320000.Idx → BitVec 32) e').toInt
      ∧ ((V40 m outs c main_v1 : S320000.Idx → BitVec 32) e').toInt < 20000 := by
    intro e'
    obtain ⟨k, rfl⟩ : ∃ k : Fin 320000, e' = ix1 k := ⟨e' 0, eq_ix1 e'⟩
    rw [s, src_word1]
    exact hidx _
  rw [show (V41 m outs c main_v160 : S320000x128.Idx → EReal) = _ from stretch_B (V40 m outs c),
    takeFn_apply _ _ hw, s, src_word1, V40_of m outs c main_v149 (by decide), V39_of m outs c main_v149 (by decide)]

/-! ## The scatter-add of the messages onto their targets -/

set_option maxHeartbeats 4000000 in
/-- The scatter stretch, from any contents W: main_v148 plus the scatter-add onto zeros of the rows of main_v161_1 by the target column. -/
theorem stretch_add (W : Valuation τ sig (Elt Ideal)) :
    (StableHlo.after hostOps21 W (Proc.devRef .tc main_v173) : S20000x128.Idx → EReal)
      = addf (W (Proc.devRef .tc main_v148) : S20000x128.Idx → EReal)
          (Host.scatterAdd scatter_S20000x128_S320000x1_S320000x128_1_0_0_1
            (broadcastInDim S20000x128 ![] bcast_S_S20000x128 (constant (F := Ideal) S_ .f32 0x00000000#32))
            (colW (W (Proc.devRef .tc main_v3) : S320000.Idx → BitVec 32))
            (W (Proc.devRef .tc main_v161_1) : S320000x128.Idx → EReal)) := by
  after_results
  rfl

/-- x + Σ over the edges into node i of their message rows, with the node array x and the message array u named. -/
theorem xadd_gen (hidx : ∀ i, 0 ≤ (arg1 m c i).toInt ∧ (arg1 m c i).toInt < 20000) (i : Fin 20000) (j : Fin 128)
    (x : S20000x128.Idx → EReal) (u : S320000x128.Idx → EReal)
    (hx : (V45 m outs c main_v148 : S20000x128.Idx → EReal) = x) (hu : (V45 m outs c main_v161_1 : S320000x128.Idx → EReal) = u) :
    V46 m outs c main_v173 (ix2 i j)
      = x (ix2 i j) + ∑ e ∈ Finset.univ.filter (fun e : Fin 320000 => Cert.Net.node (arg1 m c (ix2 (1 : Fin 2) e)) = i), u (ix2 e j) := by
  rw [show (V46 m outs c main_v173 : S20000x128.Idx → EReal) = _ from stretch_add (V45 m outs c), hx, hu]
  show x (ix2 i j)
      + Ideal.hostScatterAdd scatter_S20000x128_S320000x1_S320000x128_1_0_0_1
          (broadcastInDim S20000x128 ![] bcast_S_S20000x128 (constant (F := Ideal) S_ .f32 0x00000000#32))
          (colW (V45 m outs c main_v3 : S320000.Idx → BitVec 32)) u (ix2 i j) = _
  rw [Cert.LibGS.scatterAdd_rows_gen _ rfl rfl rfl rfl]
  have hz : broadcastInDim S20000x128 ![] bcast_S_S20000x128 (constant (F := Ideal) S_ .f32 0x00000000#32) (ix2 i j) = (0 : EReal) :=
    Ideal.ofBits_zero_f32
  rw [hz, zero_add]
  refine congrArg (fun t => x (ix2 i j) + t) (Finset.sum_congr (Finset.filter_congr fun e _ => ?_) (fun _ _ => rfl))
  rw [colW_apply, dst_buf45, dst_word1]
  exact (node_eq_iff _ (hidx _) i).symm

/-- The same with the two arrays read off the buffers. -/
theorem xadd (hidx : ∀ i, 0 ≤ (arg1 m c i).toInt ∧ (arg1 m c i).toInt < 20000) (i : Fin 20000) (j : Fin 128) :
    V46 m outs c main_v173 (ix2 i j)
      = rd S20000x128 (V45 m outs c main_v148) (ix2 i j)
        + ∑ e ∈ Finset.univ.filter (fun e : Fin 320000 => Cert.Net.node (arg1 m c (ix2 (1 : Fin 2) e)) = i),
            rd S320000x128 (V45 m outs c main_v161_1) (ix2 e j) :=
  xadd_gen m outs c hidx i j _ _ rfl rfl

end Cert.KHostB2

end
-- ==== Proof.KHostHead.lean ====
/-
  The head of the kernel's program: after the last kernel region the host takes the column mean of the node features
  (the column sums from zero divided by the row count), lays it out as one row, applies an affine map, clamps at
  zero, and applies a second affine map. Read index by index these operations are the network's head applied to the
  node features the last region leaves, with the last four arguments as its two weight matrices and two bias rows.
-/
import proofs.«418385_j87393994539142_1_alg».proof.Proof.KernelIdealRegionsP
import proofs.«418385_j87393994539142_1_alg».proof.Proof.Net
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KHostHead

open Cert.KernelIdeal Cert.KernelIdeal.Gen Idealize.ShloMosaic Idealize.ShloMosaic.TcCoe Idealize.ShloMosaic.ValueIdx Idealize.ShloMosaic.StableHlo

/-! ## The two matrix products read at an index -/

theorem lhs_a_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhs_a_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhs_a_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_a_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- A row times a 128 × 128 matrix: entry j is the inner product of the row with column j. -/
theorem dot_a (l : FVec Ideal S1x128 .f32) (w : FVec Ideal S128x128 .f32) (j : Fin 128) :
    Host.dotGeneral (F := Ideal) dot_S1x128_S128x128_S1x128_1_0_0_1_n_n none l w (ix2 (0 : Fin 1) j)
      = ∑ k : Fin 128, l (ix2 (0 : Fin 1) k) * w (ix2 k j) := by
  simp only [Host.dotGeneral]
  rw [Ideal.dotGeneral_apply, ← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 (0 : Fin 1) j) ((ValueIdx.contrEquiv1 dot_S1x128_S128x128_S1x128_1_0_0_1_n_n 128 rfl rfl).symm k) = ix2 (0 : Fin 1) k := funext fun a => Fin.ext (by
    match a with
    | ⟨0, _⟩ => exact lhs_a_0 _ _
    | ⟨1, _⟩ => exact (lhs_a_1 _ _).trans hk)
  have er : dot_S1x128_S128x128_S1x128_1_0_0_1_n_n.rhsIdx (ix2 (0 : Fin 1) j) ((ValueIdx.contrEquiv1 dot_S1x128_S128x128_S1x128_1_0_0_1_n_n 128 rfl rfl).symm k) = ix2 k j := funext fun a => Fin.ext (by
    match a with
    | ⟨0, _⟩ => exact (rhs_a_0 _ _).trans hk
    | ⟨1, _⟩ => exact rhs_a_1 _ _)
  rw [el, er]

theorem lhs_b_0 (i : S1x64.Idx) (q : dot_S1x128_S128x64_S1x64_1_0_0_1_n_n.contr.Idx) :
    (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide), dif_pos (show (0 : Fin S1x128.rank) ∈ dot_S1x128_S128x64_S1x64_1_0_0_1_n_n.lhsNonContracting by decide)]
  rfl
theorem lhs_b_1 (i : S1x64.Idx) (q : dot_S1x128_S128x64_S1x64_1_0_0_1_n_n.contr.Idx) :
    (dot_S1x128_S128x64_S1x64_1_0_0_1_n_n.lhsIdx i q 1).val = (q ⟨0, by decide⟩).val :=
  dot_S1x128_S128x64_S1x64_1_0_0_1_n_n.lhsIdx_val_of_single rfl i q
theorem rhs_b_0 (i : S1x64.Idx) (q : dot_S1x128_S128x64_S1x64_1_0_0_1_n_n.contr.Idx) :
    (dot_S1x128_S128x64_S1x64_1_0_0_1_n_n.rhsIdx i q 0).val = (q ⟨0, by decide⟩).val :=
  dot_S1x128_S128x64_S1x64_1_0_0_1_n_n.rhsIdx_val_of_single rfl i q
theorem rhs_b_1 (i : S1x64.Idx) (q : dot_S1x128_S128x64_S1x64_1_0_0_1_n_n.contr.Idx) :
    (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide), dif_pos (show (1 : Fin S128x64.rank) ∈ dot_S1x128_S128x64_S1x64_1_0_0_1_n_n.rhsNonContracting by decide)]
  rfl

/-- A row times a 128 × 64 matrix: entry j is the inner product of the row with column j. -/
theorem dot_b (l : FVec Ideal S1x128 .f32) (w : FVec Ideal S128x64 .f32) (j : Fin 64) :
    Host.dotGeneral (F := Ideal) dot_S1x128_S128x64_S1x64_1_0_0_1_n_n none l w (ix2 (0 : Fin 1) j)
      = ∑ k : Fin 128, l (ix2 (0 : Fin 1) k) * w (ix2 k j) := by
  simp only [Host.dotGeneral]
  rw [Ideal.dotGeneral_apply, ← Equiv.sum_comp (ValueIdx.contrEquiv1 dot_S1x128_S128x64_S1x64_1_0_0_1_n_n 128 rfl rfl).symm]
  refine Finset.sum_congr rfl fun k _ => ?_
  have hk := ValueIdx.contrEquiv1_symm_val dot_S1x128_S128x64_S1x64_1_0_0_1_n_n 128 rfl rfl k
  have el : dot_S1x128_S128x64_S1x64_1_0_0_1_n_n.lhsIdx (ix2 (0 : Fin 1) j) ((ValueIdx.contrEquiv1 dot_S1x128_S128x64_S1x64_1_0_0_1_n_n 128 rfl rfl).symm k) = ix2 (0 : Fin 1) k := funext fun a => Fin.ext (by
    match a with
    | ⟨0, _⟩ => exact lhs_b_0 _ _
    | ⟨1, _⟩ => exact (lhs_b_1 _ _).trans hk)
  have er : dot_S1x128_S128x64_S1x64_1_0_0_1_n_n.rhsIdx (ix2 (0 : Fin 1) j) ((ValueIdx.contrEquiv1 dot_S1x128_S128x64_S1x64_1_0_0_1_n_n 128 rfl rfl).symm k) = ix2 k j := funext fun a => Fin.ext (by
    match a with
    | ⟨0, _⟩ => exact (rhs_b_0 _ _).trans hk
    | ⟨1, _⟩ => exact rhs_b_1 _ _)
  rw [el, er]

/-! ## The three stretches as functions, read at an index -/

/-- A vector laid out as one row. -/
theorem row128 (b : FVec Ideal S128 .f32) (j : Fin 128) :
    broadcastInDim S1x128 ![1] bcast_S128_S1x128_1 b (ix2 (0 : Fin 1) j) = b (ix1 j) :=
  broadcastInDim_apply _ bcast_S128_S1x128_1 b _ (ix1 j) (fun a => match a with
    | ⟨0, _⟩ => by show j.val = if (128 : Nat) = 1 then 0 else j.val; rw [if_neg (by decide)])

/-- A vector laid out as one row. -/
theorem row64 (b : FVec Ideal S64 .f32) (j : Fin 64) :
    broadcastInDim S1x64 ![1] bcast_S64_S1x64_1 b (ix2 (0 : Fin 1) j) = b (ix1 j) :=
  broadcastInDim_apply _ bcast_S64_S1x64_1 b _ (ix1 j) (fun a => match a with
    | ⟨0, _⟩ => by show j.val = if (64 : Nat) = 1 then 0 else j.val; rw [if_neg (by decide)])

/-- The column mean as one row: the column sums from zero, divided by the row count. -/
def meanRow (h : FVec Ideal S20000x128 .f32) : FVec Ideal S1x128 .f32 :=
  Host.divf (F := Ideal)
    (broadcastInDim S1x128 ![1] bcast_S128_S1x128_1
      (Host.reduceAdd (F := Ideal) h (constant (F := Ideal) S_ .f32 0x00000000#32) reducesTo_S20000x128_S128_d0 h_S_))
    (broadcastInDim S1x128 ![] bcast_S_S1x128 (constant (F := Ideal) S_ .f32 0x469C4000#32))

/-- Entry j of the mean row is the column mean of column j. -/
theorem meanRow_apply (h : FVec Ideal S20000x128 .f32) (j : Fin 128) :
    meanRow h (ix2 (0 : Fin 1) j) = Cert.Stage.colMean Cert.Net.cN (Cert.Stage.toMat h) j := by
  have e1 : broadcastInDim S1x128 ![1] bcast_S128_S1x128_1
        (Host.reduceAdd (F := Ideal) h (constant (F := Ideal) S_ .f32 0x00000000#32) reducesTo_S20000x128_S128_d0 h_S_) (ix2 (0 : Fin 1) j)
      = ∑ i : Fin 20000, h (ix2 i j) := by
    rw [row128]
    simp only [Host.reduceAdd, Ideal.hostReduceAdd_def]
    rw [Ideal.hostReduceAdd_single reducesTo_S20000x128_S128_d0 (by decide)]
    refine Eq.trans ?_ (zero_add _)
    refine congrArg₂ (· + ·) Ideal.ofBits_zero_f32 (Finset.sum_congr rfl fun k _ => ?_)
    exact congrArg h (funext fun a => Fin.ext (by match a with | ⟨0, _⟩ => rfl | ⟨1, _⟩ => rfl))
  have e2 : broadcastInDim S1x128 ![] bcast_S_S1x128 (constant (F := Ideal) S_ .f32 0x469C4000#32) (ix2 (0 : Fin 1) j) = Cert.Net.cN :=
    broadcastInDim_apply _ bcast_S_S1x128 _ _ (fun a => a.elim0) (fun a => a.elim0)
  show Ideal.div _ _ = Ideal.div _ _
  rw [e1, e2]
  rfl

/-- The first stretch: the mean row times the first weight matrix plus the first bias row. -/
def hidden (h : FVec Ideal S20000x128 .f32) (w : FVec Ideal S128x128 .f32) (b : FVec Ideal S128 .f32) : FVec Ideal S1x128 .f32 :=
  addf (Host.dotGeneral (F := Ideal) dot_S1x128_S128x128_S1x128_1_0_0_1_n_n none (meanRow h) w) (broadcastInDim S1x128 ![1] bcast_S128_S1x128_1 b)

theorem hidden_apply (h : FVec Ideal S20000x128 .f32) (w : FVec Ideal S128x128 .f32) (b : FVec Ideal S128 .f32) (j : Fin 128) :
    hidden h w b (ix2 (0 : Fin 1) j)
      = (∑ k : Fin 128, Cert.Stage.colMean Cert.Net.cN (Cert.Stage.toMat h) k * w (ix2 k j)) + b (ix1 j) := by
  unfold hidden
  rw [addf_apply, dot_a, row128]
  refine congrArg (· + b (ix1 j)) (Finset.sum_congr rfl fun k _ => ?_)
  rw [meanRow_apply]

/-- The second stretch: the clamp at zero. -/
def clamp (x : FVec Ideal S1x128 .f32) : FVec Ideal S1x128 .f32 :=
  maximumf x (broadcastInDim S1x128 ![] bcast_S_S1x128 (constant (F := Ideal) S_ .f32 0x00000000#32))

theorem clamp_apply (x : FVec Ideal S1x128 .f32) (j : Fin 128) : clamp x (ix2 (0 : Fin 1) j) = max (x (ix2 (0 : Fin 1) j)) 0 := by
  unfold clamp
  rw [maximumf_apply]
  have e : broadcastInDim S1x128 ![] bcast_S_S1x128 (constant (F := Ideal) S_ .f32 0x00000000#32) (ix2 (0 : Fin 1) j) = 0 :=
    (broadcastInDim_apply _ bcast_S_S1x128 _ _ (fun a => a.elim0) (fun a => a.elim0)).trans Ideal.ofBits_zero_f32
  rw [e]

/-- The third stretch: the clamped row times the second weight matrix plus the second bias row. -/
def outRow (x : FVec Ideal S1x128 .f32) (w : FVec Ideal S128x64 .f32) (b : FVec Ideal S64 .f32) : FVec Ideal S1x64 .f32 :=
  addf (Host.dotGeneral (F := Ideal) dot_S1x128_S128x64_S1x64_1_0_0_1_n_n none x w) (broadcastInDim S1x64 ![1] bcast_S64_S1x64_1 b)

theorem outRow_apply (x : FVec Ideal S1x128 .f32) (w : FVec Ideal S128x64 .f32) (b : FVec Ideal S64 .f32) (j : Fin 64) :
    outRow x w b (ix2 (0 : Fin 1) j) = (∑ k : Fin 128, x (ix2 (0 : Fin 1) k) * w (ix2 k j)) + b (ix1 j) := by
  unfold outRow
  rw [addf_apply, dot_b, row64]

/-! ## The stretches on the buffers -/

section Buffers

variable (m : (ℓ : Loc nD τ sig) → Buf (Elt Ideal) ℓ) (outs : Outs (F := Ideal)) (c : Dev nD)

/-- No item before the first stretch writes the first weight matrix. -/
theorem w1_kept : V49 m outs c main_arg11 = m ((c : Thread nD τ).loc main_arg11) :=
  (V50_of m outs c main_arg11 (by decide)).symm.trans <| (V51_of m outs c main_arg11 (by decide)).symm.trans <|
    (V52_of m outs c main_arg11 (by decide)).symm.trans <| V52_main_arg11 m outs c
/-- No item before the first stretch writes the first bias row. -/
theorem b1_kept : V49 m outs c main_arg12 = m ((c : Thread nD τ).loc main_arg12) :=
  (V50_of m outs c main_arg12 (by decide)).symm.trans <| (V51_of m outs c main_arg12 (by decide)).symm.trans <|
    (V52_of m outs c main_arg12 (by decide)).symm.trans <| V52_main_arg12 m outs c
/-- No item before the third stretch writes the second weight matrix. -/
theorem w2_kept : V51 m outs c main_arg13 = m ((c : Thread nD τ).loc main_arg13) :=
  (V52_of m outs c main_arg13 (by decide)).symm.trans <| V52_main_arg13 m outs c
/-- No item before the third stretch writes the second bias row. -/
theorem b2_kept : V51 m outs c main_arg14 = m ((c : Thread nD τ).loc main_arg14) :=
  (V52_of m outs c main_arg14 (by decide)).symm.trans <| V52_main_arg14 m outs c

/-- What the first stretch leaves. -/
theorem stretch1 : (V50 m outs c main_v188 : S1x128.Idx → EReal)
    = hidden (V49 m outs c main_v181) (V49 m outs c main_arg11) (V49 m outs c main_arg12) := by
  show StableHlo.after hostOps23 _ (Proc.devRef .tc main_v188) = _
  after_results
  rfl

/-- What the second stretch leaves. -/
theorem stretch2 : (V51 m outs c main_v189 : S1x128.Idx → EReal) = clamp (V50 m outs c main_v188) := by
  show StableHlo.after hostOps23_1 _ (Proc.devRef .tc main_v189) = _
  after_results
  rfl

/-- What the third stretch leaves. -/
theorem stretch3 : (V52 m outs c main_v192 : S1x64.Idx → EReal)
    = outRow (V51 m outs c main_v189) (V51 m outs c main_arg13) (V51 m outs c main_arg14) := by
  show StableHlo.after hostOps23_2 _ (Proc.devRef .tc main_v192) = _
  after_results
  rfl

/-- The program's result is the network's head applied to the node features the last region leaves. -/
theorem head : Cert.Stage.toMat (V52 m outs c main_v192)
    = Cert.Net.tail (Cert.Net.paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
        (Cert.Stage.toMat (V49 m outs c main_v181)) := by
  funext i j
  obtain rfl : i = 0 := Subsingleton.elim _ _
  show (V52 m outs c main_v192 : S1x64.Idx → EReal) (ix2 (0 : Fin 1) j)
    = (∑ k : Fin 128, max ((∑ k' : Fin 128, Cert.Stage.colMean Cert.Net.cN (Cert.Stage.toMat (V49 m outs c main_v181)) k'
          * (m ((c : Thread nD τ).loc main_arg11)) (ix2 k' k)) + (m ((c : Thread nD τ).loc main_arg12)) (ix1 k)) 0 * (m ((c : Thread nD τ).loc main_arg13)) (ix2 k j)) + (m ((c : Thread nD τ).loc main_arg14)) (ix1 j)
  rw [stretch3, outRow_apply, w2_kept, b2_kept]
  refine congrArg (· + (m ((c : Thread nD τ).loc main_arg14)) (ix1 j)) (Finset.sum_congr rfl fun k _ => ?_)
  rw [stretch2, clamp_apply, stretch1, hidden_apply, w1_kept, b1_kept]

end Buffers

end Cert.KHostHead

end
-- ==== Proof.KVal.lean ====
/-
  The kernel program's result is the network of its arguments (variance as mean of squares minus squared mean),
  given what each kernel region leaves and that every edge index names a node: the host stretches' outputs are the
  slices, blocks, selected rows and sums the layer lemmas ask for.
-/
import proofs.«418385_j87393994539142_1_alg».proof.Proof.KValCore
import proofs.«418385_j87393994539142_1_alg».proof.Proof.KHostA
import proofs.«418385_j87393994539142_1_alg».proof.Proof.KHostA1
import proofs.«418385_j87393994539142_1_alg».proof.Proof.KHostA2
import proofs.«418385_j87393994539142_1_alg».proof.Proof.KHostB
import proofs.«418385_j87393994539142_1_alg».proof.Proof.KHostB1
import proofs.«418385_j87393994539142_1_alg».proof.Proof.KHostB2
import proofs.«418385_j87393994539142_1_alg».proof.Proof.KHostHead

set_option maxRecDepth 16384

noncomputable section

open scoped BigOperators

namespace Cert.KVal

open Cert.KernelIdeal Cert.KernelIdeal.Gen
open Idealize.ShloMosaic Idealize.ShloMosaic.TcCoe Idealize.ShloMosaic.ValueIdx
open Cert.Stage Cert.Alg Cert.Net

variable (m : (ℓ : Loc nD τ sig) → Buf (Elt Ideal) ℓ) (outs : Outs (F := Ideal)) (c : Dev nD)

/-- The host stretches leave what the layer lemmas ask of them. -/
theorem hostVals (hidx : ∀ i, 0 ≤ (m ((c : Thread nD τ).loc main_arg1) i).toInt ∧ (m ((c : Thread nD τ).loc main_arg1) i).toInt < 20000) :
    HostVals m outs c where
  b_node := fun j => Cert.KHostA.b_node m c j
  b_edge := fun j => Cert.KHostA.b_edge m outs c j
  l0_wcat_0 := fun k j => Cert.KHostA.wcat_0 m outs c k j
  l0_wcat_1 := fun k j => Cert.KHostA.wcat_1 m outs c k j
  l0_wcat_2 := fun k j => Cert.KHostA.wcat_2 m outs c k j
  l0_wcat_3 := fun k j => Cert.KHostA.wcat_3 m outs c k j
  l0_bcat_0 := fun j => Cert.KHostA.bcat_0 m outs c j
  l0_bcat_1 := fun j => Cert.KHostA.bcat_1 m outs c j
  l0_bcat_2 := fun j => Cert.KHostA.bcat_2 m outs c j
  l0_bcat_3 := fun j => Cert.KHostA.bcat_3 m outs c j
  l0_cols_0 := fun i j => Cert.KHostA.cols_0 m outs c i j
  l0_cols_1 := fun i j => Cert.KHostA.cols_1 m outs c i j
  l0_cols_2 := fun i j => Cert.KHostA.cols_2 m outs c i j
  l0_cols_3 := fun i j => Cert.KHostA.cols_3 m outs c i j
  l0_w2 := fun k j => Cert.KHostA.w2 m outs c k j
  l0_b2 := fun j => Cert.KHostA.b2 m outs c j
  l0_gE := fun j => Cert.KHostA.gE m outs c j
  l0_beE := fun j => Cert.KHostA.beE m outs c j
  l0_gN := fun j => Cert.KHostA.gN m outs c j
  l0_beN := fun j => Cert.KHostA.beN m outs c j
  l0_take_D := fun x j => Cert.KHostB.take_D m outs c hidx x j
  l0_take_E := fun x j => Cert.KHostB.take_E m outs c hidx x j
  l0_take_B := fun x j => Cert.KHostB.take_B m outs c hidx x j
  l0_xadd := fun i j => Cert.KHostB.xadd m outs c hidx i j
  l1_wcat_0 := fun k j => Cert.KHostA1.wcat_0 m outs c k j
  l1_wcat_1 := fun k j => Cert.KHostA1.wcat_1 m outs c k j
  l1_wcat_2 := fun k j => Cert.KHostA1.wcat_2 m outs c k j
  l1_wcat_3 := fun k j => Cert.KHostA1.wcat_3 m outs c k j
  l1_bcat_0 := fun j => Cert.KHostA1.bcat_0 m outs c j
  l1_bcat_1 := fun j => Cert.KHostA1.bcat_1 m outs c j
  l1_bcat_2 := fun j => Cert.KHostA1.bcat_2 m outs c j
  l1_bcat_3 := fun j => Cert.KHostA1.bcat_3 m outs c j
  l1_cols_0 := fun i j => Cert.KHostA1.cols_0 m outs c i j
  l1_cols_1 := fun i j => Cert.KHostA1.cols_1 m outs c i j
  l1_cols_2 := fun i j => Cert.KHostA1.cols_2 m outs c i j
  l1_cols_3 := fun i j => Cert.KHostA1.cols_3 m outs c i j
  l1_w2 := fun k j => Cert.KHostA1.w2 m outs c k j
  l1_b2 := fun j => Cert.KHostA1.b2 m outs c j
  l1_gE := fun j => Cert.KHostA1.gE m outs c j
  l1_beE := fun j => Cert.KHostA1.beE m outs c j
  l1_gN := fun j => Cert.KHostA1.gN m outs c j
  l1_beN := fun j => Cert.KHostA1.beN m outs c j
  l1_take_D := fun x j => Cert.KHostB1.take_D m outs c hidx x j
  l1_take_E := fun x j => Cert.KHostB1.take_E m outs c hidx x j
  l1_take_B := fun x j => Cert.KHostB1.take_B m outs c hidx x j
  l1_xadd := fun i j => Cert.KHostB1.xadd m outs c hidx i j
  l2_wcat_0 := fun k j => Cert.KHostA2.wcat_0 m outs c k j
  l2_wcat_1 := fun k j => Cert.KHostA2.wcat_1 m outs c k j
  l2_wcat_2 := fun k j => Cert.KHostA2.wcat_2 m outs c k j
  l2_wcat_3 := fun k j => Cert.KHostA2.wcat_3 m outs c k j
  l2_bcat_0 := fun j => Cert.KHostA2.bcat_0 m outs c j
  l2_bcat_1 := fun j => Cert.KHostA2.bcat_1 m outs c j
  l2_bcat_2 := fun j => Cert.KHostA2.bcat_2 m outs c j
  l2_bcat_3 := fun j => Cert.KHostA2.bcat_3 m outs c j
  l2_cols_0 := fun i j => Cert.KHostA2.cols_0 m outs c i j
  l2_cols_1 := fun i j => Cert.KHostA2.cols_1 m outs c i j
  l2_cols_2 := fun i j => Cert.KHostA2.cols_2 m outs c i j
  l2_cols_3 := fun i j => Cert.KHostA2.cols_3 m outs c i j
  l2_w2 := fun k j => Cert.KHostA2.w2 m outs c k j
  l2_b2 := fun j => Cert.KHostA2.b2 m outs c j
  l2_gE := fun j => Cert.KHostA2.gE m outs c j
  l2_beE := fun j => Cert.KHostA2.beE m outs c j
  l2_gN := fun j => Cert.KHostA2.gN m outs c j
  l2_beN := fun j => Cert.KHostA2.beN m outs c j
  l2_take_D := fun x j => Cert.KHostB2.take_D m outs c hidx x j
  l2_take_E := fun x j => Cert.KHostB2.take_E m outs c hidx x j
  l2_take_B := fun x j => Cert.KHostB2.take_B m outs c hidx x j
  l2_xadd := fun i j => Cert.KHostB2.xadd m outs c hidx i j
  head := Cert.KHostHead.head m outs c

/-- The result buffer holds the network of the arguments. -/
theorem kval (hidx : ∀ i, 0 ≤ (m ((c : Thread nD τ).loc main_arg1) i).toInt ∧ (m ((c : Thread nD τ).loc main_arg1) i).toInt < 20000)
    (H : RegionVals m outs c) :
    toMat (V52 m outs c main_v192) = KNet (paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  kval_of m outs c (hostVals m outs c hidx) H

end Cert.KVal

end
-- ==== Proof.RefA.lean ====
/-
  The reference's embeddings and the linear part of its first gated layer, stage by stage, as the network's stages
  of matrices. The two embeddings and the five projections are affine maps of rows; a projection's weight matrix and
  bias row are the slices (l, k, ·, ·) and (l, k, ·) of the stacked arrays, l the layer and k the projection. The
  row selections read the projection's row that the edge's target or source word names: the word is in range, so the
  wrap of a negative word leaves it as it is, and the clamp of the selection too. The gate is the logistic spelt
  1 / (1 + exp (−x)). The aggregation adds to a zero array every message row whose target word is the node.
-/
import proofs.«418385_j87393994539142_1_alg».proof.Proof.RefRead
import proofs.«418385_j87393994539142_1_alg».proof.Proof.Net

noncomputable section

open scoped BigOperators

namespace Cert.RefA

open Idealize.ShloMosaic Idealize.ShloMosaic.ValueIdx Cert.Stage Cert.Alg Cert.ReferenceIdeal Cert.ReferenceIdeal.Read

/-! ## Words -/

/-- The single-precision word of 1.0 denotes 1. -/
theorem one_word : (FloatOps.ofBits .f32 0x3F800000#32 : Ideal .f32) = 1 := by
  show Ideal.ofBits .f32 0x3F800000#32 = 1
  simp [Ideal.ofBits, Ideal.ieee, -EReal.coe_mul]; norm_num

/-- The zero word denotes 0. -/
theorem zero_word : (FloatOps.ofBits .f32 0x00000000#32 : Ideal .f32) = 0 := Ideal.ofBits_zero_f32

/-- A word that is not negative as a signed integer is not below zero. -/
theorem cmp_neg (w : BitVec 32) (h : 0 ≤ w.toInt) : IntOp.cmpi .slt w 0#32 = 0#1 := by
  have hs : w.slt 0#32 = false := by
    rw [BitVec.slt, decide_eq_false_iff_not]
    show ¬ w.toInt < 0
    omega
  show BitVec.ofBool (w.slt 0#32) = 0#1
  rw [hs]; rfl

/-- The node an in-range word names is the word's value. -/
theorem node_val (w : BitVec 32) (hw : 0 ≤ w.toInt ∧ w.toInt < 20000) : (Cert.Net.node w).val = w.toInt.toNat := by
  show min w.toInt.toNat (20000 - 1) = w.toInt.toNat
  omega

/-- An in-range word names node i exactly when its signed value is i. -/
theorem node_eq_iff (w : BitVec 32) (hw : 0 ≤ w.toInt ∧ w.toInt < 20000) (i : Fin 20000) :
    Cert.Net.node w = i ↔ w.toInt = (i.val : ℤ) := by
  have hi := i.isLt
  constructor
  · intro h
    have h2 : min w.toInt.toNat (20000 - 1) = i.val := congrArg Fin.val h
    omega
  · intro h
    apply Fin.ext
    show min w.toInt.toNat (20000 - 1) = i.val
    omega

/-! ## The index words -/

theorem i1 (e : Fin 320000) : idx_main_v1 (ix1 e) = ix2 (0 : Fin 1) e :=
  funext fun a => Fin.ext (by
    have he := e.isLt
    match a with
    | ⟨0, _⟩ => rfl
    | ⟨1, _⟩ => show e.val % 320000 = e.val; omega)
theorem i0 (e : Fin 320000) : idx_main_v0 (ix2 (0 : Fin 1) e) = ix2 (0 : Fin 2) e :=
  funext fun a => Fin.ext (by match a with | ⟨0, _⟩ => rfl | ⟨1, _⟩ => rfl)
theorem i3 (e : Fin 320000) : idx_main_v3 (ix1 e) = ix2 (0 : Fin 1) e :=
  funext fun a => Fin.ext (by
    have he := e.isLt
    match a with
    | ⟨0, _⟩ => rfl
    | ⟨1, _⟩ => show e.val % 320000 = e.val; omega)
theorem i2 (e : Fin 320000) : idx_main_v2 (ix2 (0 : Fin 1) e) = ix2 (1 : Fin 2) e :=
  funext fun a => Fin.ext (by match a with | ⟨0, _⟩ => rfl | ⟨1, _⟩ => rfl)

/-- The source word of edge e is entry (0, e) of the index array. -/
theorem word_src (x1 : IVec ⟨2, ![2, 320000]⟩ 32) (e : Fin 320000) :
    val_main_v1 (F := Ideal) x1 (ix1 e) = x1 (ix2 (0 : Fin 2) e) := by
  rw [val_main_v1_apply, i1, val_main_v0_apply, i0]
/-- The target word of edge e is entry (1, e) of the index array. -/
theorem word_dst (x1 : IVec ⟨2, ![2, 320000]⟩ 32) (e : Fin 320000) :
    val_main_v3 (F := Ideal) x1 (ix1 e) = x1 (ix2 (1 : Fin 2) e) := by
  rw [val_main_v3_apply, i3, val_main_v2_apply, i2]

/-! ## The embeddings -/

theorem l4 (i : Fin 20000) (j k : Fin 128) : lidx_main_v4 (ix2 i j) k = ix2 i k :=
  funext fun a => Fin.ext (by match a with | ⟨0, _⟩ => rfl | ⟨1, _⟩ => rfl)
theorem r4 (i : Fin 20000) (j k : Fin 128) : ridx_main_v4 (ix2 i j) k = ix2 k j :=
  funext fun a => Fin.ext (by match a with | ⟨0, _⟩ => rfl | ⟨1, _⟩ => rfl)
theorem i6 (i : Fin 20000) (j : Fin 128) : idx_main_v6 (ix2 i j) = ix2 (0 : Fin 1) j :=
  funext fun a => Fin.ext (by match a with | ⟨0, _⟩ => rfl | ⟨1, _⟩ => rfl)
theorem i5 (j : Fin 128) : idx_main_v5 (ix2 (0 : Fin 1) j) = ix1 j :=
  funext fun a => Fin.ext (by match a with | ⟨0, _⟩ => rfl)
theorem l8 (i : Fin 320000) (j k : Fin 128) : lidx_main_v8 (ix2 i j) k = ix2 i k :=
  funext fun a => Fin.ext (by match a with | ⟨0, _⟩ => rfl | ⟨1, _⟩ => rfl)
theorem r8 (i : Fin 320000) (j k : Fin 128) : ridx_main_v8 (ix2 i j) k = ix2 k j :=
  funext fun a => Fin.ext (by match a with | ⟨0, _⟩ => rfl | ⟨1, _⟩ => rfl)
theorem i10 (i : Fin 320000) (j : Fin 128) : idx_main_v10 (ix2 i j) = ix2 (0 : Fin 1) j :=
  funext fun a => Fin.ext (by match a with | ⟨0, _⟩ => rfl | ⟨1, _⟩ => rfl)
theorem i9 (j : Fin 128) : idx_main_v9 (ix2 (0 : Fin 1) j) = ix1 j :=
  funext fun a => Fin.ext (by match a with | ⟨0, _⟩ => rfl)

section Embeddings

variable (x0 : (⟨2, ![20000, 128]⟩ : Shape).Idx → EReal)
  (x1 : IVec ⟨2, ![2, 320000]⟩ 32)
  (x2 : (⟨2, ![320000, 128]⟩ : Shape).Idx → EReal)
  (x3 : (⟨2, ![128, 128]⟩ : Shape).Idx → EReal)
  (x4 : (⟨1, ![128]⟩ : Shape).Idx → EReal)
  (x5 : (⟨2, ![128, 128]⟩ : Shape).Idx → EReal)
  (x6 : (⟨1, ![128]⟩ : Shape).Idx → EReal)
  (x7 : (⟨4, ![3, 5, 128, 128]⟩ : Shape).Idx → EReal)
  (x8 : (⟨3, ![3, 5, 128]⟩ : Shape).Idx → EReal)
  (x9 : (⟨3, ![3, 2, 128]⟩ : Shape).Idx → EReal)
  (x10 : (⟨3, ![3, 2, 128]⟩ : Shape).Idx → EReal)
  (x11 : (⟨2, ![128, 128]⟩ : Shape).Idx → EReal)
  (x12 : (⟨1, ![128]⟩ : Shape).Idx → EReal)
  (x13 : (⟨2, ![128, 64]⟩ : Shape).Idx → EReal)
  (x14 : (⟨1, ![64]⟩ : Shape).Idx → EReal)

/-- The embedded node features are the affine map of the node features. -/
theorem emb_h : toMat (val_main_v7 (F := Ideal) x0 x3 x4) = (Cert.Net.emb (Cert.Net.paramsOf x0 x1 x2 x3 x4 x5 x6 x7 x8 x9 x10 x11 x12 x13 x14)).1 := by
  funext i j
  show val_main_v7 (F := Ideal) x0 x3 x4 (ix2 i j) = (∑ k : Fin 128, x0 (ix2 i k) * x3 (ix2 k j)) + x4 (ix1 j)
  rw [val_main_v7_apply, val_main_v4_apply, val_main_v6_apply, i6, val_main_v5_apply, i5, Ideal.addf_def]
  congr 1
  refine Finset.sum_congr rfl fun k _ => ?_
  rw [l4, r4]

/-- The embedded edge features are the affine map of the edge features. -/
theorem emb_e : toMat (val_main_v11 (F := Ideal) x2 x5 x6) = (Cert.Net.emb (Cert.Net.paramsOf x0 x1 x2 x3 x4 x5 x6 x7 x8 x9 x10 x11 x12 x13 x14)).2 := by
  funext i j
  show val_main_v11 (F := Ideal) x2 x5 x6 (ix2 i j) = (∑ k : Fin 128, x2 (ix2 i k) * x5 (ix2 k j)) + x6 (ix1 j)
  rw [val_main_v11_apply, val_main_v8_apply, val_main_v10_apply, i10, val_main_v9_apply, i9, Ideal.addf_def]
  congr 1
  refine Finset.sum_congr rfl fun k _ => ?_
  rw [l8, r8]

end Embeddings

/-! ## The layer: index equations -/

theorem i13 (s : Fin 5) (k j : Fin 128) : idx_main_v13 (ix3 s k j) = ix4 (0 : Fin 1) s k j :=
  funext fun a => Fin.ext (by
    have hs := s.isLt; have hk := k.isLt; have hj := j.isLt
    match a with
    | ⟨0, _⟩ => rfl
    | ⟨1, _⟩ => show ((s.val * 128 + k.val) * 128 + j.val) / 16384 % 5 = s.val; omega
    | ⟨2, _⟩ => show ((s.val * 128 + k.val) * 128 + j.val) / 128 % 128 = k.val; omega
    | ⟨3, _⟩ => show ((s.val * 128 + k.val) * 128 + j.val) % 128 = j.val; omega)
theorem i12 (s : Fin 5) (k j : Fin 128) : idx_main_v12 (ix4 (0 : Fin 1) s k j) = ix4 (0 : Fin 3) s k j :=
  funext fun a => Fin.ext (by match a with | ⟨0, _⟩ => rfl | ⟨1, _⟩ => rfl | ⟨2, _⟩ => rfl | ⟨3, _⟩ => rfl)
theorem i15 (s : Fin 5) (j : Fin 128) : idx_main_v15 (ix2 s j) = ix3 (0 : Fin 1) s j :=
  funext fun a => Fin.ext (by
    have hs := s.isLt; have hj := j.isLt
    match a with
    | ⟨0, _⟩ => rfl
    | ⟨1, _⟩ => show (s.val * 128 + j.val) / 128 % 5 = s.val; omega
    | ⟨2, _⟩ => show (s.val * 128 + j.val) % 128 = j.val; omega)
theorem i14 (s : Fin 5) (j : Fin 128) : idx_main_v14 (ix3 (0 : Fin 1) s j) = ix3 (0 : Fin 3) s j :=
  funext fun a => Fin.ext (by match a with | ⟨0, _⟩ => rfl | ⟨1, _⟩ => rfl | ⟨2, _⟩ => rfl)
theorem i17 (k j : Fin 128) : idx_main_v17 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i16 (k j : Fin 128) : idx_main_v16 (ix3 (0 : Fin 1) k j) = ix3 (0 : Fin 5) k j :=
  funext fun a => Fin.ext (by match a with | ⟨0, _⟩ => rfl | ⟨1, _⟩ => rfl | ⟨2, _⟩ => rfl)
theorem i22 (i : Fin 20000) (j : Fin 128) : idx_main_v22 (ix2 i j) = ix2 (0 : Fin 1) j :=
  funext fun a => Fin.ext (by match a with | ⟨0, _⟩ => rfl | ⟨1, _⟩ => rfl)
theorem i21 (j : Fin 128) : idx_main_v21 (ix2 (0 : Fin 1) j) = ix1 j :=
  funext fun a => Fin.ext (by match a with | ⟨0, _⟩ => rfl)
theorem i20 (j : Fin 128) : idx_main_v20 (ix1 j) = ix2 (0 : Fin 1) j :=
  funext fun a => Fin.ext (by
    have hj := j.isLt
    match a with
    | ⟨0, _⟩ => rfl
    | ⟨1, _⟩ => show j.val % 128 = j.val; omega)
theorem i19 (j : Fin 128) : idx_main_v19 (ix2 (0 : Fin 1) j) = ix2 (0 : Fin 5) j :=
  funext fun a => Fin.ext (by match a with | ⟨0, _⟩ => rfl | ⟨1, _⟩ => rfl)
theorem l18 (i : Fin 20000) (j k : Fin 128) : lidx_main_v18 (ix2 i j) k = ix2 i k :=
  funext fun a => Fin.ext (by match a with | ⟨0, _⟩ => rfl | ⟨1, _⟩ => rfl)
theorem r18 (i : Fin 20000) (j k : Fin 128) : ridx_main_v18 (ix2 i j) k = ix2 k j :=
  funext fun a => Fin.ext (by match a with | ⟨0, _⟩ => rfl | ⟨1, _⟩ => rfl)
theorem i25 (k j : Fin 128) : idx_main_v25 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i24 (k j : Fin 128) : idx_main_v24 (ix3 (0 : Fin 1) k j) = ix3 (1 : Fin 5) k j :=
  funext fun a => Fin.ext (by match a with | ⟨0, _⟩ => rfl | ⟨1, _⟩ => rfl | ⟨2, _⟩ => rfl)
theorem i30 (i : Fin 20000) (j : Fin 128) : idx_main_v30 (ix2 i j) = ix2 (0 : Fin 1) j :=
  funext fun a => Fin.ext (by match a with | ⟨0, _⟩ => rfl | ⟨1, _⟩ => rfl)
theorem i29 (j : Fin 128) : idx_main_v29 (ix2 (0 : Fin 1) j) = ix1 j :=
  funext fun a => Fin.ext (by match a with | ⟨0, _⟩ => rfl)
theorem i28 (j : Fin 128) : idx_main_v28 (ix1 j) = ix2 (0 : Fin 1) j :=
  funext fun a => Fin.ext (by
    have hj := j.isLt
    match a with
    | ⟨0, _⟩ => rfl
    | ⟨1, _⟩ => show j.val % 128 = j.val; omega)
theorem i27 (j : Fin 128) : idx_main_v27 (ix2 (0 : Fin 1) j) = ix2 (1 : Fin 5) j :=
  funext fun a => Fin.ext (by match a with | ⟨0, _⟩ => rfl | ⟨1, _⟩ => rfl)
theorem l26 (i : Fin 20000) (j k : Fin 128) : lidx_main_v26 (ix2 i j) k = ix2 i k :=
  funext fun a => Fin.ext (by match a with | ⟨0, _⟩ => rfl | ⟨1, _⟩ => rfl)
theorem r26 (i : Fin 20000) (j k : Fin 128) : ridx_main_v26 (ix2 i j) k = ix2 k j :=
  funext fun a => Fin.ext (by match a with | ⟨0, _⟩ => rfl | ⟨1, _⟩ => rfl)
theorem i33 (k j : Fin 128) : idx_main_v33 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i32 (k j : Fin 128) : idx_main_v32 (ix3 (0 : Fin 1) k j) = ix3 (2 : Fin 5) k j :=
  funext fun a => Fin.ext (by match a with | ⟨0, _⟩ => rfl | ⟨1, _⟩ => rfl | ⟨2, _⟩ => rfl)
theorem i38 (i : Fin 320000) (j : Fin 128) : idx_main_v38 (ix2 i j) = ix2 (0 : Fin 1) j :=
  funext fun a => Fin.ext (by match a with | ⟨0, _⟩ => rfl | ⟨1, _⟩ => rfl)
theorem i37 (j : Fin 128) : idx_main_v37 (ix2 (0 : Fin 1) j) = ix1 j :=
  funext fun a => Fin.ext (by match a with | ⟨0, _⟩ => rfl)
theorem i36 (j : Fin 128) : idx_main_v36 (ix1 j) = ix2 (0 : Fin 1) j :=
  funext fun a => Fin.ext (by
    have hj := j.isLt
    match a with
    | ⟨0, _⟩ => rfl
    | ⟨1, _⟩ => show j.val % 128 = j.val; omega)
theorem i35 (j : Fin 128) : idx_main_v35 (ix2 (0 : Fin 1) j) = ix2 (2 : Fin 5) j :=
  funext fun a => Fin.ext (by match a with | ⟨0, _⟩ => rfl | ⟨1, _⟩ => rfl)
theorem l34 (i : Fin 320000) (j k : Fin 128) : lidx_main_v34 (ix2 i j) k = ix2 i k :=
  funext fun a => Fin.ext (by match a with | ⟨0, _⟩ => rfl | ⟨1, _⟩ => rfl)
theorem r34 (i : Fin 320000) (j k : Fin 128) : ridx_main_v34 (ix2 i j) k = ix2 k j :=
  funext fun a => Fin.ext (by match a with | ⟨0, _⟩ => rfl | ⟨1, _⟩ => rfl)
theorem i41 (k j : Fin 128) : idx_main_v41 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i40 (k j : Fin 128) : idx_main_v40 (ix3 (0 : Fin 1) k j) = ix3 (3 : Fin 5) k j :=
  funext fun a => Fin.ext (by match a with | ⟨0, _⟩ => rfl | ⟨1, _⟩ => rfl | ⟨2, _⟩ => rfl)
theorem i46 (i : Fin 20000) (j : Fin 128) : idx_main_v46 (ix2 i j) = ix2 (0 : Fin 1) j :=
  funext fun a => Fin.ext (by match a with | ⟨0, _⟩ => rfl | ⟨1, _⟩ => rfl)
theorem i45 (j : Fin 128) : idx_main_v45 (ix2 (0 : Fin 1) j) = ix1 j :=
  funext fun a => Fin.ext (by match a with | ⟨0, _⟩ => rfl)
theorem i44 (j : Fin 128) : idx_main_v44 (ix1 j) = ix2 (0 : Fin 1) j :=
  funext fun a => Fin.ext (by
    have hj := j.isLt
    match a with
    | ⟨0, _⟩ => rfl
    | ⟨1, _⟩ => show j.val % 128 = j.val; omega)
theorem i43 (j : Fin 128) : idx_main_v43 (ix2 (0 : Fin 1) j) = ix2 (3 : Fin 5) j :=
  funext fun a => Fin.ext (by match a with | ⟨0, _⟩ => rfl | ⟨1, _⟩ => rfl)
theorem l42 (i : Fin 20000) (j k : Fin 128) : lidx_main_v42 (ix2 i j) k = ix2 i k :=
  funext fun a => Fin.ext (by match a with | ⟨0, _⟩ => rfl | ⟨1, _⟩ => rfl)
theorem r42 (i : Fin 20000) (j k : Fin 128) : ridx_main_v42 (ix2 i j) k = ix2 k j :=
  funext fun a => Fin.ext (by match a with | ⟨0, _⟩ => rfl | ⟨1, _⟩ => rfl)
theorem i49 (k j : Fin 128) : idx_main_v49 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i48 (k j : Fin 128) : idx_main_v48 (ix3 (0 : Fin 1) k j) = ix3 (4 : Fin 5) k j :=
  funext fun a => Fin.ext (by match a with | ⟨0, _⟩ => rfl | ⟨1, _⟩ => rfl | ⟨2, _⟩ => rfl)
theorem i54 (i : Fin 20000) (j : Fin 128) : idx_main_v54 (ix2 i j) = ix2 (0 : Fin 1) j :=
  funext fun a => Fin.ext (by match a with | ⟨0, _⟩ => rfl | ⟨1, _⟩ => rfl)
theorem i53 (j : Fin 128) : idx_main_v53 (ix2 (0 : Fin 1) j) = ix1 j :=
  funext fun a => Fin.ext (by match a with | ⟨0, _⟩ => rfl)
theorem i52 (j : Fin 128) : idx_main_v52 (ix1 j) = ix2 (0 : Fin 1) j :=
  funext fun a => Fin.ext (by
    have hj := j.isLt
    match a with
    | ⟨0, _⟩ => rfl
    | ⟨1, _⟩ => show j.val % 128 = j.val; omega)
theorem i51 (j : Fin 128) : idx_main_v51 (ix2 (0 : Fin 1) j) = ix2 (4 : Fin 5) j :=
  funext fun a => Fin.ext (by match a with | ⟨0, _⟩ => rfl | ⟨1, _⟩ => rfl)
theorem l50 (i : Fin 20000) (j k : Fin 128) : lidx_main_v50 (ix2 i j) k = ix2 i k :=
  funext fun a => Fin.ext (by match a with | ⟨0, _⟩ => rfl | ⟨1, _⟩ => rfl)
theorem r50 (i : Fin 20000) (j k : Fin 128) : ridx_main_v50 (ix2 i j) k = ix2 k j :=
  funext fun a => Fin.ext (by match a with | ⟨0, _⟩ => rfl | ⟨1, _⟩ => rfl)
theorem i61 (e : Fin 320000) : idx_main_v61 (ix2 e (0 : Fin 1)) = ix1 e :=
  funext fun a => Fin.ext (by match a with | ⟨0, _⟩ => rfl)
theorem i69 (e : Fin 320000) : idx_main_v69 (ix2 e (0 : Fin 1)) = ix1 e :=
  funext fun a => Fin.ext (by match a with | ⟨0, _⟩ => rfl)
theorem i114 (e : Fin 320000) : idx_main_v114 (ix2 e (0 : Fin 1)) = ix1 e :=
  funext fun a => Fin.ext (by match a with | ⟨0, _⟩ => rfl)
theorem i118 (e : Fin 320000) : idx_main_v118 (ix2 e (0 : Fin 1)) = ix1 e :=
  funext fun a => Fin.ext (by match a with | ⟨0, _⟩ => rfl)

/-! ## The layer: values -/

section Layer

variable (x0 : (⟨2, ![20000, 128]⟩ : Shape).Idx → EReal)
  (x1 : IVec ⟨2, ![2, 320000]⟩ 32)
  (x2 : (⟨2, ![320000, 128]⟩ : Shape).Idx → EReal)
  (x3 : (⟨2, ![128, 128]⟩ : Shape).Idx → EReal)
  (x4 : (⟨1, ![128]⟩ : Shape).Idx → EReal)
  (x5 : (⟨2, ![128, 128]⟩ : Shape).Idx → EReal)
  (x6 : (⟨1, ![128]⟩ : Shape).Idx → EReal)
  (x7 : (⟨4, ![3, 5, 128, 128]⟩ : Shape).Idx → EReal)
  (x8 : (⟨3, ![3, 5, 128]⟩ : Shape).Idx → EReal)
  (x9 : (⟨3, ![3, 2, 128]⟩ : Shape).Idx → EReal)
  (x10 : (⟨3, ![3, 2, 128]⟩ : Shape).Idx → EReal)
  (x11 : (⟨2, ![128, 128]⟩ : Shape).Idx → EReal)
  (x12 : (⟨1, ![128]⟩ : Shape).Idx → EReal)
  (x13 : (⟨2, ![128, 64]⟩ : Shape).Idx → EReal)
  (x14 : (⟨1, ![64]⟩ : Shape).Idx → EReal)

include x0 x1 x2 x3 x4 x5 x6 x7 x8 x9 x10 x11 x12 x13 x14

/-- The weight matrix of projection 0 is slice (0, 0, ·, ·) of the stacked weights. -/
theorem W0_read (k j : Fin 128) :
    val_main_v17 (F := Ideal) x7 (ix2 k j) = x7 (ix4 (0 : Fin 3) (0 : Fin 5) k j) := by
  rw [val_main_v17_apply, i17, val_main_v16_apply, i16, val_main_v13_apply, i13, val_main_v12_apply, i12]
/-- The bias row of projection 0 is slice (0, 0, ·) of the stacked biases, whatever the row. -/
theorem b0_read (i : Fin 20000) (j : Fin 128) :
    val_main_v22 (F := Ideal) x8 (ix2 i j) = x8 (ix3 (0 : Fin 3) (0 : Fin 5) j) := by
  rw [val_main_v22_apply, i22, val_main_v21_apply, i21, val_main_v20_apply, i20,
    val_main_v19_apply, i19, val_main_v15_apply, i15, val_main_v14_apply, i14]
/-- Projection 0 of the layer's node input is the affine map with the layer's matrix 0 and bias row 0. -/
theorem l0_Ah (h : Mat 20000 128) (hh : toMat (val_main_v7 (F := Ideal) x0 x3 x4) = h) :
    toMat (val_main_v23 (F := Ideal) x0 x3 x4 x7 x8) = lin h ((Cert.Net.paramsOf x0 x1 x2 x3 x4 x5 x6 x7 x8 x9 x10 x11 x12 x13 x14).L 0).W0 ((Cert.Net.paramsOf x0 x1 x2 x3 x4 x5 x6 x7 x8 x9 x10 x11 x12 x13 x14).L 0).b0 := by
  subst hh
  funext i j
  show val_main_v23 (F := Ideal) x0 x3 x4 x7 x8 (ix2 i j)
    = (∑ k : Fin 128, val_main_v7 (F := Ideal) x0 x3 x4 (ix2 i k) * x7 (ix4 (0 : Fin 3) (0 : Fin 5) k j)) + x8 (ix3 (0 : Fin 3) (0 : Fin 5) j)
  rw [val_main_v23_apply, val_main_v18_apply, b0_read x0 x1 x2 x3 x4 x5 x6 x7 x8 x9 x10 x11 x12 x13 x14, Ideal.addf_def]
  congr 1
  refine Finset.sum_congr rfl fun k _ => ?_
  rw [l18, r18, W0_read x0 x1 x2 x3 x4 x5 x6 x7 x8 x9 x10 x11 x12 x13 x14]

/-- The weight matrix of projection 1 is slice (0, 1, ·, ·) of the stacked weights. -/
theorem W1_read (k j : Fin 128) :
    val_main_v25 (F := Ideal) x7 (ix2 k j) = x7 (ix4 (0 : Fin 3) (1 : Fin 5) k j) := by
  rw [val_main_v25_apply, i25, val_main_v24_apply, i24, val_main_v13_apply, i13, val_main_v12_apply, i12]
/-- The bias row of projection 1 is slice (0, 1, ·) of the stacked biases, whatever the row. -/
theorem b1_read (i : Fin 20000) (j : Fin 128) :
    val_main_v30 (F := Ideal) x8 (ix2 i j) = x8 (ix3 (0 : Fin 3) (1 : Fin 5) j) := by
  rw [val_main_v30_apply, i30, val_main_v29_apply, i29, val_main_v28_apply, i28,
    val_main_v27_apply, i27, val_main_v15_apply, i15, val_main_v14_apply, i14]
/-- Projection 1 of the layer's node input is the affine map with the layer's matrix 1 and bias row 1. -/
theorem l0_Bh (h : Mat 20000 128) (hh : toMat (val_main_v7 (F := Ideal) x0 x3 x4) = h) :
    toMat (val_main_v31 (F := Ideal) x0 x3 x4 x7 x8) = lin h ((Cert.Net.paramsOf x0 x1 x2 x3 x4 x5 x6 x7 x8 x9 x10 x11 x12 x13 x14).L 0).W1 ((Cert.Net.paramsOf x0 x1 x2 x3 x4 x5 x6 x7 x8 x9 x10 x11 x12 x13 x14).L 0).b1 := by
  subst hh
  funext i j
  show val_main_v31 (F := Ideal) x0 x3 x4 x7 x8 (ix2 i j)
    = (∑ k : Fin 128, val_main_v7 (F := Ideal) x0 x3 x4 (ix2 i k) * x7 (ix4 (0 : Fin 3) (1 : Fin 5) k j)) + x8 (ix3 (0 : Fin 3) (1 : Fin 5) j)
  rw [val_main_v31_apply, val_main_v26_apply, b1_read x0 x1 x2 x3 x4 x5 x6 x7 x8 x9 x10 x11 x12 x13 x14, Ideal.addf_def]
  congr 1
  refine Finset.sum_congr rfl fun k _ => ?_
  rw [l26, r26, W1_read x0 x1 x2 x3 x4 x5 x6 x7 x8 x9 x10 x11 x12 x13 x14]

/-- The weight matrix of projection 2 is slice (0, 2, ·, ·) of the stacked weights. -/
theorem W2_read (k j : Fin 128) :
    val_main_v33 (F := Ideal) x7 (ix2 k j) = x7 (ix4 (0 : Fin 3) (2 : Fin 5) k j) := by
  rw [val_main_v33_apply, i33, val_main_v32_apply, i32, val_main_v13_apply, i13, val_main_v12_apply, i12]
/-- The bias row of projection 2 is slice (0, 2, ·) of the stacked biases, whatever the row. -/
theorem b2_read (i : Fin 320000) (j : Fin 128) :
    val_main_v38 (F := Ideal) x8 (ix2 i j) = x8 (ix3 (0 : Fin 3) (2 : Fin 5) j) := by
  rw [val_main_v38_apply, i38, val_main_v37_apply, i37, val_main_v36_apply, i36,
    val_main_v35_apply, i35, val_main_v15_apply, i15, val_main_v14_apply, i14]
/-- Projection 2 of the layer's edge input is the affine map with the layer's matrix 2 and bias row 2. -/
theorem l0_Ce (e : Mat 320000 128) (he : toMat (val_main_v11 (F := Ideal) x2 x5 x6) = e) :
    toMat (val_main_v39 (F := Ideal) x2 x5 x6 x7 x8) = lin e ((Cert.Net.paramsOf x0 x1 x2 x3 x4 x5 x6 x7 x8 x9 x10 x11 x12 x13 x14).L 0).W2 ((Cert.Net.paramsOf x0 x1 x2 x3 x4 x5 x6 x7 x8 x9 x10 x11 x12 x13 x14).L 0).b2 := by
  subst he
  funext i j
  show val_main_v39 (F := Ideal) x2 x5 x6 x7 x8 (ix2 i j)
    = (∑ k : Fin 128, val_main_v11 (F := Ideal) x2 x5 x6 (ix2 i k) * x7 (ix4 (0 : Fin 3) (2 : Fin 5) k j)) + x8 (ix3 (0 : Fin 3) (2 : Fin 5) j)
  rw [val_main_v39_apply, val_main_v34_apply, b2_read x0 x1 x2 x3 x4 x5 x6 x7 x8 x9 x10 x11 x12 x13 x14, Ideal.addf_def]
  congr 1
  refine Finset.sum_congr rfl fun k _ => ?_
  rw [l34, r34, W2_read x0 x1 x2 x3 x4 x5 x6 x7 x8 x9 x10 x11 x12 x13 x14]

/-- The weight matrix of projection 3 is slice (0, 3, ·, ·) of the stacked weights. -/
theorem W3_read (k j : Fin 128) :
    val_main_v41 (F := Ideal) x7 (ix2 k j) = x7 (ix4 (0 : Fin 3) (3 : Fin 5) k j) := by
  rw [val_main_v41_apply, i41, val_main_v40_apply, i40, val_main_v13_apply, i13, val_main_v12_apply, i12]
/-- The bias row of projection 3 is slice (0, 3, ·) of the stacked biases, whatever the row. -/
theorem b3_read (i : Fin 20000) (j : Fin 128) :
    val_main_v46 (F := Ideal) x8 (ix2 i j) = x8 (ix3 (0 : Fin 3) (3 : Fin 5) j) := by
  rw [val_main_v46_apply, i46, val_main_v45_apply, i45, val_main_v44_apply, i44,
    val_main_v43_apply, i43, val_main_v15_apply, i15, val_main_v14_apply, i14]
/-- Projection 3 of the layer's node input is the affine map with the layer's matrix 3 and bias row 3. -/
theorem l0_Dh (h : Mat 20000 128) (hh : toMat (val_main_v7 (F := Ideal) x0 x3 x4) = h) :
    toMat (val_main_v47 (F := Ideal) x0 x3 x4 x7 x8) = lin h ((Cert.Net.paramsOf x0 x1 x2 x3 x4 x5 x6 x7 x8 x9 x10 x11 x12 x13 x14).L 0).W3 ((Cert.Net.paramsOf x0 x1 x2 x3 x4 x5 x6 x7 x8 x9 x10 x11 x12 x13 x14).L 0).b3 := by
  subst hh
  funext i j
  show val_main_v47 (F := Ideal) x0 x3 x4 x7 x8 (ix2 i j)
    = (∑ k : Fin 128, val_main_v7 (F := Ideal) x0 x3 x4 (ix2 i k) * x7 (ix4 (0 : Fin 3) (3 : Fin 5) k j)) + x8 (ix3 (0 : Fin 3) (3 : Fin 5) j)
  rw [val_main_v47_apply, val_main_v42_apply, b3_read x0 x1 x2 x3 x4 x5 x6 x7 x8 x9 x10 x11 x12 x13 x14, Ideal.addf_def]
  congr 1
  refine Finset.sum_congr rfl fun k _ => ?_
  rw [l42, r42, W3_read x0 x1 x2 x3 x4 x5 x6 x7 x8 x9 x10 x11 x12 x13 x14]

/-- The weight matrix of projection 4 is slice (0, 4, ·, ·) of the stacked weights. -/
theorem W4_read (k j : Fin 128) :
    val_main_v49 (F := Ideal) x7 (ix2 k j) = x7 (ix4 (0 : Fin 3) (4 : Fin 5) k j) := by
  rw [val_main_v49_apply, i49, val_main_v48_apply, i48, val_main_v13_apply, i13, val_main_v12_apply, i12]
/-- The bias row of projection 4 is slice (0, 4, ·) of the stacked biases, whatever the row. -/
theorem b4_read (i : Fin 20000) (j : Fin 128) :
    val_main_v54 (F := Ideal) x8 (ix2 i j) = x8 (ix3 (0 : Fin 3) (4 : Fin 5) j) := by
  rw [val_main_v54_apply, i54, val_main_v53_apply, i53, val_main_v52_apply, i52,
    val_main_v51_apply, i51, val_main_v15_apply, i15, val_main_v14_apply, i14]
/-- Projection 4 of the layer's node input is the affine map with the layer's matrix 4 and bias row 4. -/
theorem l0_Eh (h : Mat 20000 128) (hh : toMat (val_main_v7 (F := Ideal) x0 x3 x4) = h) :
    toMat (val_main_v55 (F := Ideal) x0 x3 x4 x7 x8) = lin h ((Cert.Net.paramsOf x0 x1 x2 x3 x4 x5 x6 x7 x8 x9 x10 x11 x12 x13 x14).L 0).W4 ((Cert.Net.paramsOf x0 x1 x2 x3 x4 x5 x6 x7 x8 x9 x10 x11 x12 x13 x14).L 0).b4 := by
  subst hh
  funext i j
  show val_main_v55 (F := Ideal) x0 x3 x4 x7 x8 (ix2 i j)
    = (∑ k : Fin 128, val_main_v7 (F := Ideal) x0 x3 x4 (ix2 i k) * x7 (ix4 (0 : Fin 3) (4 : Fin 5) k j)) + x8 (ix3 (0 : Fin 3) (4 : Fin 5) j)
  rw [val_main_v55_apply, val_main_v50_apply, b4_read x0 x1 x2 x3 x4 x5 x6 x7 x8 x9 x10 x11 x12 x13 x14, Ideal.addf_def]
  congr 1
  refine Finset.sum_congr rfl fun k _ => ?_
  rw [l50, r50, W4_read x0 x1 x2 x3 x4 x5 x6 x7 x8 x9 x10 x11 x12 x13 x14]

/-- The wrapped target word is the word itself when the word is in range. -/
theorem wrap60 (hidx : ∀ i, 0 ≤ (x1 i).toInt ∧ (x1 i).toInt < 20000) (e : Fin 320000) :
    val_main_v60 (F := Ideal) x1 (ix1 e) = x1 (ix2 (1 : Fin 2) e) := by
  rw [val_main_v60_apply, val_main_v57_apply, val_main_v56_apply, val_main_c_apply, Cert.RefA.word_dst,
    Cert.RefA.cmp_neg _ (hidx _).1, select_zero]
/-- The row selection reads the table's row the edge's target names. -/
theorem g62 (hidx : ∀ i, 0 ≤ (x1 i).toInt ∧ (x1 i).toInt < 20000) (e : Fin 320000) (j : Fin 128) :
    val_main_v62 (F := Ideal) x0 x1 x3 x4 x7 x8 (ix2 e j)
      = val_main_v47 (F := Ideal) x0 x3 x4 x7 x8 (ix2 (Cert.Net.node (x1 (ix2 (1 : Fin 2) e))) j) := by
  unfold val_main_v62
  rw [Cert.LibGS.gather_rows_gen gather_S20000x128_S320000x1_S320000x128_1_0_n_n_0_1_1128 (by decide) rfl rfl rfl rfl rfl rfl,
    val_main_v61_apply, i61, wrap60 x0 x1 x2 x3 x4 x5 x6 x7 x8 x9 x10 x11 x12 x13 x14 hidx]
  rfl

/-- The wrapped source word is the word itself when the word is in range. -/
theorem wrap68 (hidx : ∀ i, 0 ≤ (x1 i).toInt ∧ (x1 i).toInt < 20000) (e : Fin 320000) :
    val_main_v68 (F := Ideal) x1 (ix1 e) = x1 (ix2 (0 : Fin 2) e) := by
  rw [val_main_v68_apply, val_main_v65_apply, val_main_v64_apply, val_main_c_1_apply, Cert.RefA.word_src,
    Cert.RefA.cmp_neg _ (hidx _).1, select_zero]
/-- The row selection reads the table's row the edge's source names. -/
theorem g70 (hidx : ∀ i, 0 ≤ (x1 i).toInt ∧ (x1 i).toInt < 20000) (e : Fin 320000) (j : Fin 128) :
    val_main_v70 (F := Ideal) x0 x1 x3 x4 x7 x8 (ix2 e j)
      = val_main_v55 (F := Ideal) x0 x3 x4 x7 x8 (ix2 (Cert.Net.node (x1 (ix2 (0 : Fin 2) e))) j) := by
  unfold val_main_v70
  rw [Cert.LibGS.gather_rows_gen gather_S20000x128_S320000x1_S320000x128_1_0_n_n_0_1_1128 (by decide) rfl rfl rfl rfl rfl rfl,
    val_main_v69_apply, i69, wrap68 x0 x1 x2 x3 x4 x5 x6 x7 x8 x9 x10 x11 x12 x13 x14 hidx]
  rfl

/-- The wrapped source word is the word itself when the word is in range. -/
theorem wrap113 (hidx : ∀ i, 0 ≤ (x1 i).toInt ∧ (x1 i).toInt < 20000) (e : Fin 320000) :
    val_main_v113 (F := Ideal) x1 (ix1 e) = x1 (ix2 (0 : Fin 2) e) := by
  rw [val_main_v113_apply, val_main_v110_apply, val_main_v109_apply, val_main_c_9_apply, Cert.RefA.word_src,
    Cert.RefA.cmp_neg _ (hidx _).1, select_zero]
/-- The row selection reads the table's row the edge's source names. -/
theorem g115 (hidx : ∀ i, 0 ≤ (x1 i).toInt ∧ (x1 i).toInt < 20000) (e : Fin 320000) (j : Fin 128) :
    val_main_v115 (F := Ideal) x0 x1 x3 x4 x7 x8 (ix2 e j)
      = val_main_v31 (F := Ideal) x0 x3 x4 x7 x8 (ix2 (Cert.Net.node (x1 (ix2 (0 : Fin 2) e))) j) := by
  unfold val_main_v115
  rw [Cert.LibGS.gather_rows_gen gather_S20000x128_S320000x1_S320000x128_1_0_n_n_0_1_1128 (by decide) rfl rfl rfl rfl rfl rfl,
    val_main_v114_apply, i114, wrap113 x0 x1 x2 x3 x4 x5 x6 x7 x8 x9 x10 x11 x12 x13 x14 hidx]
  rfl

/-- The edge pre-activation is the edge's own projection plus its target's and its source's. -/
theorem l0_ehat (h : Mat 20000 128) (e : Mat 320000 128) (hh : toMat (val_main_v7 (F := Ideal) x0 x3 x4) = h) (he : toMat (val_main_v11 (F := Ideal) x2 x5 x6) = e)
    (hidx : ∀ i, 0 ≤ (x1 i).toInt ∧ (x1 i).toInt < 20000) :
    toMat (val_main_v71 (F := Ideal) x0 x1 x2 x3 x4 x5 x6 x7 x8)
      = ehat (lin e ((Cert.Net.paramsOf x0 x1 x2 x3 x4 x5 x6 x7 x8 x9 x10 x11 x12 x13 x14).L 0).W2 ((Cert.Net.paramsOf x0 x1 x2 x3 x4 x5 x6 x7 x8 x9 x10 x11 x12 x13 x14).L 0).b2) (rows (lin h ((Cert.Net.paramsOf x0 x1 x2 x3 x4 x5 x6 x7 x8 x9 x10 x11 x12 x13 x14).L 0).W3 ((Cert.Net.paramsOf x0 x1 x2 x3 x4 x5 x6 x7 x8 x9 x10 x11 x12 x13 x14).L 0).b3) (Cert.Net.paramsOf x0 x1 x2 x3 x4 x5 x6 x7 x8 x9 x10 x11 x12 x13 x14).dst) (rows (lin h ((Cert.Net.paramsOf x0 x1 x2 x3 x4 x5 x6 x7 x8 x9 x10 x11 x12 x13 x14).L 0).W4 ((Cert.Net.paramsOf x0 x1 x2 x3 x4 x5 x6 x7 x8 x9 x10 x11 x12 x13 x14).L 0).b4) (Cert.Net.paramsOf x0 x1 x2 x3 x4 x5 x6 x7 x8 x9 x10 x11 x12 x13 x14).src) := by
  rw [← l0_Ce x0 x1 x2 x3 x4 x5 x6 x7 x8 x9 x10 x11 x12 x13 x14 e he, ← l0_Dh x0 x1 x2 x3 x4 x5 x6 x7 x8 x9 x10 x11 x12 x13 x14 h hh, ← l0_Eh x0 x1 x2 x3 x4 x5 x6 x7 x8 x9 x10 x11 x12 x13 x14 h hh]
  funext a j
  show val_main_v71 (F := Ideal) x0 x1 x2 x3 x4 x5 x6 x7 x8 (ix2 a j)
    = val_main_v39 (F := Ideal) x2 x5 x6 x7 x8 (ix2 a j)
      + val_main_v47 (F := Ideal) x0 x3 x4 x7 x8 (ix2 (Cert.Net.node (x1 (ix2 (1 : Fin 2) a))) j)
      + val_main_v55 (F := Ideal) x0 x3 x4 x7 x8 (ix2 (Cert.Net.node (x1 (ix2 (0 : Fin 2) a))) j)
  rw [val_main_v71_apply, val_main_v63_apply, g62 x0 x1 x2 x3 x4 x5 x6 x7 x8 x9 x10 x11 x12 x13 x14 hidx, g70 x0 x1 x2 x3 x4 x5 x6 x7 x8 x9 x10 x11 x12 x13 x14 hidx, Ideal.addf_def, Ideal.addf_def]

/-- The gated message is the logistic of the pre-activation times the source's projection. -/
theorem l0_msg (h : Mat 20000 128) (hh : toMat (val_main_v7 (F := Ideal) x0 x3 x4) = h) (hidx : ∀ i, 0 ≤ (x1 i).toInt ∧ (x1 i).toInt < 20000) :
    toMat (val_main_v116 (F := Ideal) x0 x1 x2 x3 x4 x5 x6 x7 x8)
      = msg (toMat (val_main_v71 (F := Ideal) x0 x1 x2 x3 x4 x5 x6 x7 x8)) (rows (lin h ((Cert.Net.paramsOf x0 x1 x2 x3 x4 x5 x6 x7 x8 x9 x10 x11 x12 x13 x14).L 0).W1 ((Cert.Net.paramsOf x0 x1 x2 x3 x4 x5 x6 x7 x8 x9 x10 x11 x12 x13 x14).L 0).b1) (Cert.Net.paramsOf x0 x1 x2 x3 x4 x5 x6 x7 x8 x9 x10 x11 x12 x13 x14).src) := by
  rw [← l0_Bh x0 x1 x2 x3 x4 x5 x6 x7 x8 x9 x10 x11 x12 x13 x14 h hh]
  funext a j
  show val_main_v116 (F := Ideal) x0 x1 x2 x3 x4 x5 x6 x7 x8 (ix2 a j)
    = Ideal.logistic (val_main_v71 (F := Ideal) x0 x1 x2 x3 x4 x5 x6 x7 x8 (ix2 a j))
      * val_main_v31 (F := Ideal) x0 x3 x4 x7 x8 (ix2 (Cert.Net.node (x1 (ix2 (0 : Fin 2) a))) j)
  rw [val_main_v116_apply, val_main_v77_apply, val_main_v76_apply, val_main_cst_3_apply, val_main_v75_apply,
    val_main_v74_apply, val_main_cst_apply, val_main_v73_apply, val_main_v72_apply, g115 x0 x1 x2 x3 x4 x5 x6 x7 x8 x9 x10 x11 x12 x13 x14 hidx, Cert.RefA.one_word]
  rfl

/-- The aggregation at node i is the sum of the message rows whose target is i. -/
theorem s119 (hidx : ∀ i, 0 ≤ (x1 i).toInt ∧ (x1 i).toInt < 20000) (i : Fin 20000) (j : Fin 128) :
    val_main_v119 (F := Ideal) x0 x1 x2 x3 x4 x5 x6 x7 x8 (ix2 i j)
      = ∑ e ∈ Finset.univ.filter (fun e : Fin 320000 => Cert.Net.node (x1 (ix2 (1 : Fin 2) e)) = i),
          val_main_v116 (F := Ideal) x0 x1 x2 x3 x4 x5 x6 x7 x8 (ix2 e j) := by
  unfold val_main_v119 Host.scatterAdd
  rw [Ideal.hostScatterAdd_def,
    Cert.LibGS.scatterAdd_rows_gen scatter_S20000x128_S320000x1_S320000x128_1_0_0_1 rfl rfl rfl rfl,
    val_main_v117_apply, val_main_cst_11_apply, Cert.RefA.zero_word, zero_add]
  refine Finset.sum_congr (Finset.filter_congr fun e _ => ?_) (fun _ _ => rfl)
  rw [val_main_v118_apply, i118, Cert.RefA.word_dst]
  exact (Cert.RefA.node_eq_iff _ (hidx _) i).symm

/-- The node pre-activation is the node's first projection plus the aggregated messages. -/
theorem l0_xadd (h : Mat 20000 128) (hh : toMat (val_main_v7 (F := Ideal) x0 x3 x4) = h) (hidx : ∀ i, 0 ≤ (x1 i).toInt ∧ (x1 i).toInt < 20000) :
    toMat (val_main_v120 (F := Ideal) x0 x1 x2 x3 x4 x5 x6 x7 x8)
      = madd (lin h ((Cert.Net.paramsOf x0 x1 x2 x3 x4 x5 x6 x7 x8 x9 x10 x11 x12 x13 x14).L 0).W0 ((Cert.Net.paramsOf x0 x1 x2 x3 x4 x5 x6 x7 x8 x9 x10 x11 x12 x13 x14).L 0).b0) (segSum (toMat (val_main_v116 (F := Ideal) x0 x1 x2 x3 x4 x5 x6 x7 x8)) (Cert.Net.paramsOf x0 x1 x2 x3 x4 x5 x6 x7 x8 x9 x10 x11 x12 x13 x14).dst) := by
  rw [← l0_Ah x0 x1 x2 x3 x4 x5 x6 x7 x8 x9 x10 x11 x12 x13 x14 h hh]
  funext i j
  show val_main_v120 (F := Ideal) x0 x1 x2 x3 x4 x5 x6 x7 x8 (ix2 i j)
    = val_main_v23 (F := Ideal) x0 x3 x4 x7 x8 (ix2 i j)
      + ∑ e ∈ Finset.univ.filter (fun e : Fin 320000 => Cert.Net.node (x1 (ix2 (1 : Fin 2) e)) = i),
          val_main_v116 (F := Ideal) x0 x1 x2 x3 x4 x5 x6 x7 x8 (ix2 e j)
  rw [val_main_v120_apply, s119 x0 x1 x2 x3 x4 x5 x6 x7 x8 x9 x10 x11 x12 x13 x14 hidx, Ideal.addf_def]

end Layer

end Cert.RefA

end
-- ==== Proof.RefA1.lean ====
/-
  The linear part of the reference's second gated layer, stage by stage, as the network's stages of matrices: the five
  projections are affine maps of rows whose weight matrices and bias rows are the slices (1, k, ·, ·) and (1, k, ·)
  of the stacked arrays; the row selections read the projection's row that the edge's target or source word names
  (the word is in range, so the wrap of a negative word leaves it as it is); the gate is the logistic spelt
  1 / (1 + exp (−x)); the aggregation adds to a zero array every message row whose target word is the node.
-/
import proofs.«418385_j87393994539142_1_alg».proof.Proof.RefA

noncomputable section

open scoped BigOperators

namespace Cert.RefA1

open Idealize.ShloMosaic Idealize.ShloMosaic.ValueIdx Cert.Stage Cert.Alg Cert.ReferenceIdeal Cert.ReferenceIdeal.Read

/-! ## The layer: index equations -/

theorem i153 (s : Fin 5) (k j : Fin 128) : idx_main_v153 (ix3 s k j) = ix4 (0 : Fin 1) s k j :=
  funext fun a => Fin.ext (by
    have hs := s.isLt; have hk := k.isLt; have hj := j.isLt
    match a with
    | ⟨0, _⟩ => rfl
    | ⟨1, _⟩ => show ((s.val * 128 + k.val) * 128 + j.val) / 16384 % 5 = s.val; omega
    | ⟨2, _⟩ => show ((s.val * 128 + k.val) * 128 + j.val) / 128 % 128 = k.val; omega
    | ⟨3, _⟩ => show ((s.val * 128 + k.val) * 128 + j.val) % 128 = j.val; omega)
theorem i152 (s : Fin 5) (k j : Fin 128) : idx_main_v152 (ix4 (0 : Fin 1) s k j) = ix4 (1 : Fin 3) s k j :=
  funext fun a => Fin.ext (by match a with | ⟨0, _⟩ => rfl | ⟨1, _⟩ => rfl | ⟨2, _⟩ => rfl | ⟨3, _⟩ => rfl)
theorem i155 (s : Fin 5) (j : Fin 128) : idx_main_v155 (ix2 s j) = ix3 (0 : Fin 1) s j :=
  funext fun a => Fin.ext (by
    have hs := s.isLt; have hj := j.isLt
    match a with
    | ⟨0, _⟩ => rfl
    | ⟨1, _⟩ => show (s.val * 128 + j.val) / 128 % 5 = s.val; omega
    | ⟨2, _⟩ => show (s.val * 128 + j.val) % 128 = j.val; omega)
theorem i154 (s : Fin 5) (j : Fin 128) : idx_main_v154 (ix3 (0 : Fin 1) s j) = ix3 (1 : Fin 3) s j :=
  funext fun a => Fin.ext (by match a with | ⟨0, _⟩ => rfl | ⟨1, _⟩ => rfl | ⟨2, _⟩ => rfl)
theorem i157 (k j : Fin 128) : idx_main_v157 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i156 (k j : Fin 128) : idx_main_v156 (ix3 (0 : Fin 1) k j) = ix3 (0 : Fin 5) k j :=
  funext fun a => Fin.ext (by match a with | ⟨0, _⟩ => rfl | ⟨1, _⟩ => rfl | ⟨2, _⟩ => rfl)
theorem i162 (i : Fin 20000) (j : Fin 128) : idx_main_v162 (ix2 i j) = ix2 (0 : Fin 1) j :=
  funext fun a => Fin.ext (by match a with | ⟨0, _⟩ => rfl | ⟨1, _⟩ => rfl)
theorem i161 (j : Fin 128) : idx_main_v161 (ix2 (0 : Fin 1) j) = ix1 j :=
  funext fun a => Fin.ext (by match a with | ⟨0, _⟩ => rfl)
theorem i160 (j : Fin 128) : idx_main_v160 (ix1 j) = ix2 (0 : Fin 1) j :=
  funext fun a => Fin.ext (by
    have hj := j.isLt
    match a with
    | ⟨0, _⟩ => rfl
    | ⟨1, _⟩ => show j.val % 128 = j.val; omega)
theorem i159 (j : Fin 128) : idx_main_v159 (ix2 (0 : Fin 1) j) = ix2 (0 : Fin 5) j :=
  funext fun a => Fin.ext (by match a with | ⟨0, _⟩ => rfl | ⟨1, _⟩ => rfl)
theorem l158 (i : Fin 20000) (j k : Fin 128) : lidx_main_v158 (ix2 i j) k = ix2 i k :=
  funext fun a => Fin.ext (by match a with | ⟨0, _⟩ => rfl | ⟨1, _⟩ => rfl)
theorem r158 (i : Fin 20000) (j k : Fin 128) : ridx_main_v158 (ix2 i j) k = ix2 k j :=
  funext fun a => Fin.ext (by match a with | ⟨0, _⟩ => rfl | ⟨1, _⟩ => rfl)
theorem i165 (k j : Fin 128) : idx_main_v165 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i164 (k j : Fin 128) : idx_main_v164 (ix3 (0 : Fin 1) k j) = ix3 (1 : Fin 5) k j :=
  funext fun a => Fin.ext (by match a with | ⟨0, _⟩ => rfl | ⟨1, _⟩ => rfl | ⟨2, _⟩ => rfl)
theorem i170 (i : Fin 20000) (j : Fin 128) : idx_main_v170 (ix2 i j) = ix2 (0 : Fin 1) j :=
  funext fun a => Fin.ext (by match a with | ⟨0, _⟩ => rfl | ⟨1, _⟩ => rfl)
theorem i169 (j : Fin 128) : idx_main_v169 (ix2 (0 : Fin 1) j) = ix1 j :=
  funext fun a => Fin.ext (by match a with | ⟨0, _⟩ => rfl)
theorem i168 (j : Fin 128) : idx_main_v168 (ix1 j) = ix2 (0 : Fin 1) j :=
  funext fun a => Fin.ext (by
    have hj := j.isLt
    match a with
    | ⟨0, _⟩ => rfl
    | ⟨1, _⟩ => show j.val % 128 = j.val; omega)
theorem i167 (j : Fin 128) : idx_main_v167 (ix2 (0 : Fin 1) j) = ix2 (1 : Fin 5) j :=
  funext fun a => Fin.ext (by match a with | ⟨0, _⟩ => rfl | ⟨1, _⟩ => rfl)
theorem l166 (i : Fin 20000) (j k : Fin 128) : lidx_main_v166 (ix2 i j) k = ix2 i k :=
  funext fun a => Fin.ext (by match a with | ⟨0, _⟩ => rfl | ⟨1, _⟩ => rfl)
theorem r166 (i : Fin 20000) (j k : Fin 128) : ridx_main_v166 (ix2 i j) k = ix2 k j :=
  funext fun a => Fin.ext (by match a with | ⟨0, _⟩ => rfl | ⟨1, _⟩ => rfl)
theorem i173 (k j : Fin 128) : idx_main_v173 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i172 (k j : Fin 128) : idx_main_v172 (ix3 (0 : Fin 1) k j) = ix3 (2 : Fin 5) k j :=
  funext fun a => Fin.ext (by match a with | ⟨0, _⟩ => rfl | ⟨1, _⟩ => rfl | ⟨2, _⟩ => rfl)
theorem i178 (i : Fin 320000) (j : Fin 128) : idx_main_v178 (ix2 i j) = ix2 (0 : Fin 1) j :=
  funext fun a => Fin.ext (by match a with | ⟨0, _⟩ => rfl | ⟨1, _⟩ => rfl)
theorem i177 (j : Fin 128) : idx_main_v177 (ix2 (0 : Fin 1) j) = ix1 j :=
  funext fun a => Fin.ext (by match a with | ⟨0, _⟩ => rfl)
theorem i176 (j : Fin 128) : idx_main_v176 (ix1 j) = ix2 (0 : Fin 1) j :=
  funext fun a => Fin.ext (by
    have hj := j.isLt
    match a with
    | ⟨0, _⟩ => rfl
    | ⟨1, _⟩ => show j.val % 128 = j.val; omega)
theorem i175 (j : Fin 128) : idx_main_v175 (ix2 (0 : Fin 1) j) = ix2 (2 : Fin 5) j :=
  funext fun a => Fin.ext (by match a with | ⟨0, _⟩ => rfl | ⟨1, _⟩ => rfl)
theorem l174 (i : Fin 320000) (j k : Fin 128) : lidx_main_v174 (ix2 i j) k = ix2 i k :=
  funext fun a => Fin.ext (by match a with | ⟨0, _⟩ => rfl | ⟨1, _⟩ => rfl)
theorem r174 (i : Fin 320000) (j k : Fin 128) : ridx_main_v174 (ix2 i j) k = ix2 k j :=
  funext fun a => Fin.ext (by match a with | ⟨0, _⟩ => rfl | ⟨1, _⟩ => rfl)
theorem i181 (k j : Fin 128) : idx_main_v181 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i180 (k j : Fin 128) : idx_main_v180 (ix3 (0 : Fin 1) k j) = ix3 (3 : Fin 5) k j :=
  funext fun a => Fin.ext (by match a with | ⟨0, _⟩ => rfl | ⟨1, _⟩ => rfl | ⟨2, _⟩ => rfl)
theorem i186 (i : Fin 20000) (j : Fin 128) : idx_main_v186 (ix2 i j) = ix2 (0 : Fin 1) j :=
  funext fun a => Fin.ext (by match a with | ⟨0, _⟩ => rfl | ⟨1, _⟩ => rfl)
theorem i185 (j : Fin 128) : idx_main_v185 (ix2 (0 : Fin 1) j) = ix1 j :=
  funext fun a => Fin.ext (by match a with | ⟨0, _⟩ => rfl)
theorem i184 (j : Fin 128) : idx_main_v184 (ix1 j) = ix2 (0 : Fin 1) j :=
  funext fun a => Fin.ext (by
    have hj := j.isLt
    match a with
    | ⟨0, _⟩ => rfl
    | ⟨1, _⟩ => show j.val % 128 = j.val; omega)
theorem i183 (j : Fin 128) : idx_main_v183 (ix2 (0 : Fin 1) j) = ix2 (3 : Fin 5) j :=
  funext fun a => Fin.ext (by match a with | ⟨0, _⟩ => rfl | ⟨1, _⟩ => rfl)
theorem l182 (i : Fin 20000) (j k : Fin 128) : lidx_main_v182 (ix2 i j) k = ix2 i k :=
  funext fun a => Fin.ext (by match a with | ⟨0, _⟩ => rfl | ⟨1, _⟩ => rfl)
theorem r182 (i : Fin 20000) (j k : Fin 128) : ridx_main_v182 (ix2 i j) k = ix2 k j :=
  funext fun a => Fin.ext (by match a with | ⟨0, _⟩ => rfl | ⟨1, _⟩ => rfl)
theorem i189 (k j : Fin 128) : idx_main_v189 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i188 (k j : Fin 128) : idx_main_v188 (ix3 (0 : Fin 1) k j) = ix3 (4 : Fin 5) k j :=
  funext fun a => Fin.ext (by match a with | ⟨0, _⟩ => rfl | ⟨1, _⟩ => rfl | ⟨2, _⟩ => rfl)
theorem i194 (i : Fin 20000) (j : Fin 128) : idx_main_v194 (ix2 i j) = ix2 (0 : Fin 1) j :=
  funext fun a => Fin.ext (by match a with | ⟨0, _⟩ => rfl | ⟨1, _⟩ => rfl)
theorem i193 (j : Fin 128) : idx_main_v193 (ix2 (0 : Fin 1) j) = ix1 j :=
  funext fun a => Fin.ext (by match a with | ⟨0, _⟩ => rfl)
theorem i192 (j : Fin 128) : idx_main_v192 (ix1 j) = ix2 (0 : Fin 1) j :=
  funext fun a => Fin.ext (by
    have hj := j.isLt
    match a with
    | ⟨0, _⟩ => rfl
    | ⟨1, _⟩ => show j.val % 128 = j.val; omega)
theorem i191 (j : Fin 128) : idx_main_v191 (ix2 (0 : Fin 1) j) = ix2 (4 : Fin 5) j :=
  funext fun a => Fin.ext (by match a with | ⟨0, _⟩ => rfl | ⟨1, _⟩ => rfl)
theorem l190 (i : Fin 20000) (j k : Fin 128) : lidx_main_v190 (ix2 i j) k = ix2 i k :=
  funext fun a => Fin.ext (by match a with | ⟨0, _⟩ => rfl | ⟨1, _⟩ => rfl)
theorem r190 (i : Fin 20000) (j k : Fin 128) : ridx_main_v190 (ix2 i j) k = ix2 k j :=
  funext fun a => Fin.ext (by match a with | ⟨0, _⟩ => rfl | ⟨1, _⟩ => rfl)
theorem i201 (e : Fin 320000) : idx_main_v201 (ix2 e (0 : Fin 1)) = ix1 e :=
  funext fun a => Fin.ext (by match a with | ⟨0, _⟩ => rfl)
theorem i209 (e : Fin 320000) : idx_main_v209 (ix2 e (0 : Fin 1)) = ix1 e :=
  funext fun a => Fin.ext (by match a with | ⟨0, _⟩ => rfl)
theorem i254 (e : Fin 320000) : idx_main_v254 (ix2 e (0 : Fin 1)) = ix1 e :=
  funext fun a => Fin.ext (by match a with | ⟨0, _⟩ => rfl)
theorem i258 (e : Fin 320000) : idx_main_v258 (ix2 e (0 : Fin 1)) = ix1 e :=
  funext fun a => Fin.ext (by match a with | ⟨0, _⟩ => rfl)

/-! ## The layer: values -/

section Layer

variable (x0 : (⟨2, ![20000, 128]⟩ : Shape).Idx → EReal)
  (x1 : IVec ⟨2, ![2, 320000]⟩ 32)
  (x2 : (⟨2, ![320000, 128]⟩ : Shape).Idx → EReal)
  (x3 : (⟨2, ![128, 128]⟩ : Shape).Idx → EReal)
  (x4 : (⟨1, ![128]⟩ : Shape).Idx → EReal)
  (x5 : (⟨2, ![128, 128]⟩ : Shape).Idx → EReal)
  (x6 : (⟨1, ![128]⟩ : Shape).Idx → EReal)
  (x7 : (⟨4, ![3, 5, 128, 128]⟩ : Shape).Idx → EReal)
  (x8 : (⟨3, ![3, 5, 128]⟩ : Shape).Idx → EReal)
  (x9 : (⟨3, ![3, 2, 128]⟩ : Shape).Idx → EReal)
  (x10 : (⟨3, ![3, 2, 128]⟩ : Shape).Idx → EReal)
  (x11 : (⟨2, ![128, 128]⟩ : Shape).Idx → EReal)
  (x12 : (⟨1, ![128]⟩ : Shape).Idx → EReal)
  (x13 : (⟨2, ![128, 64]⟩ : Shape).Idx → EReal)
  (x14 : (⟨1, ![64]⟩ : Shape).Idx → EReal)

include x0 x1 x2 x3 x4 x5 x6 x7 x8 x9 x10 x11 x12 x13 x14

/-- The weight matrix of projection 0 is slice (1, 0, ·, ·) of the stacked weights. -/
theorem W0_read (k j : Fin 128) :
    val_main_v157 (F := Ideal) x7 (ix2 k j) = x7 (ix4 (1 : Fin 3) (0 : Fin 5) k j) := by
  rw [val_main_v157_apply, i157, val_main_v156_apply, i156, val_main_v153_apply, i153, val_main_v152_apply, i152]
/-- The bias row of projection 0 is slice (1, 0, ·) of the stacked biases, whatever the row. -/
theorem b0_read (i : Fin 20000) (j : Fin 128) :
    val_main_v162 (F := Ideal) x8 (ix2 i j) = x8 (ix3 (1 : Fin 3) (0 : Fin 5) j) := by
  rw [val_main_v162_apply, i162, val_main_v161_apply, i161, val_main_v160_apply, i160,
    val_main_v159_apply, i159, val_main_v155_apply, i155, val_main_v154_apply, i154]
/-- Projection 0 of the layer's node input is the affine map with the layer's matrix 0 and bias row 0. -/
theorem l1_Ah (h : Mat 20000 128) (hh : toMat (val_main_v151 (F := Ideal) x0 x1 x2 x3 x4 x5 x6 x7 x8 x9 x10) = h) :
    toMat (val_main_v163 (F := Ideal) x0 x1 x2 x3 x4 x5 x6 x7 x8 x9 x10) = lin h ((Cert.Net.paramsOf x0 x1 x2 x3 x4 x5 x6 x7 x8 x9 x10 x11 x12 x13 x14).L 1).W0 ((Cert.Net.paramsOf x0 x1 x2 x3 x4 x5 x6 x7 x8 x9 x10 x11 x12 x13 x14).L 1).b0 := by
  subst hh
  funext i j
  show val_main_v163 (F := Ideal) x0 x1 x2 x3 x4 x5 x6 x7 x8 x9 x10 (ix2 i j)
    = (∑ k : Fin 128, val_main_v151 (F := Ideal) x0 x1 x2 x3 x4 x5 x6 x7 x8 x9 x10 (ix2 i k) * x7 (ix4 (1 : Fin 3) (0 : Fin 5) k j)) + x8 (ix3 (1 : Fin 3) (0 : Fin 5) j)
  rw [val_main_v163_apply, val_main_v158_apply, b0_read x0 x1 x2 x3 x4 x5 x6 x7 x8 x9 x10 x11 x12 x13 x14, Ideal.addf_def]
  congr 1
  refine Finset.sum_congr rfl fun k _ => ?_
  rw [l158, r158, W0_read x0 x1 x2 x3 x4 x5 x6 x7 x8 x9 x10 x11 x12 x13 x14]

/-- The weight matrix of projection 1 is slice (1, 1, ·, ·) of the stacked weights. -/
theorem W1_read (k j : Fin 128) :
    val_main_v165 (F := Ideal) x7 (ix2 k j) = x7 (ix4 (1 : Fin 3) (1 : Fin 5) k j) := by
  rw [val_main_v165_apply, i165, val_main_v164_apply, i164, val_main_v153_apply, i153, val_main_v152_apply, i152]
/-- The bias row of projection 1 is slice (1, 1, ·) of the stacked biases, whatever the row. -/
theorem b1_read (i : Fin 20000) (j : Fin 128) :
    val_main_v170 (F := Ideal) x8 (ix2 i j) = x8 (ix3 (1 : Fin 3) (1 : Fin 5) j) := by
  rw [val_main_v170_apply, i170, val_main_v169_apply, i169, val_main_v168_apply, i168,
    val_main_v167_apply, i167, val_main_v155_apply, i155, val_main_v154_apply, i154]
/-- Projection 1 of the layer's node input is the affine map with the layer's matrix 1 and bias row 1. -/
theorem l1_Bh (h : Mat 20000 128) (hh : toMat (val_main_v151 (F := Ideal) x0 x1 x2 x3 x4 x5 x6 x7 x8 x9 x10) = h) :
    toMat (val_main_v171 (F := Ideal) x0 x1 x2 x3 x4 x5 x6 x7 x8 x9 x10) = lin h ((Cert.Net.paramsOf x0 x1 x2 x3 x4 x5 x6 x7 x8 x9 x10 x11 x12 x13 x14).L 1).W1 ((Cert.Net.paramsOf x0 x1 x2 x3 x4 x5 x6 x7 x8 x9 x10 x11 x12 x13 x14).L 1).b1 := by
  subst hh
  funext i j
  show val_main_v171 (F := Ideal) x0 x1 x2 x3 x4 x5 x6 x7 x8 x9 x10 (ix2 i j)
    = (∑ k : Fin 128, val_main_v151 (F := Ideal) x0 x1 x2 x3 x4 x5 x6 x7 x8 x9 x10 (ix2 i k) * x7 (ix4 (1 : Fin 3) (1 : Fin 5) k j)) + x8 (ix3 (1 : Fin 3) (1 : Fin 5) j)
  rw [val_main_v171_apply, val_main_v166_apply, b1_read x0 x1 x2 x3 x4 x5 x6 x7 x8 x9 x10 x11 x12 x13 x14, Ideal.addf_def]
  congr 1
  refine Finset.sum_congr rfl fun k _ => ?_
  rw [l166, r166, W1_read x0 x1 x2 x3 x4 x5 x6 x7 x8 x9 x10 x11 x12 x13 x14]

/-- The weight matrix of projection 2 is slice (1, 2, ·, ·) of the stacked weights. -/
theorem W2_read (k j : Fin 128) :
    val_main_v173 (F := Ideal) x7 (ix2 k j) = x7 (ix4 (1 : Fin 3) (2 : Fin 5) k j) := by
  rw [val_main_v173_apply, i173, val_main_v172_apply, i172, val_main_v153_apply, i153, val_main_v152_apply, i152]
/-- The bias row of projection 2 is slice (1, 2, ·) of the stacked biases, whatever the row. -/
theorem b2_read (i : Fin 320000) (j : Fin 128) :
    val_main_v178 (F := Ideal) x8 (ix2 i j) = x8 (ix3 (1 : Fin 3) (2 : Fin 5) j) := by
  rw [val_main_v178_apply, i178, val_main_v177_apply, i177, val_main_v176_apply, i176,
    val_main_v175_apply, i175, val_main_v155_apply, i155, val_main_v154_apply, i154]
/-- Projection 2 of the layer's edge input is the affine map with the layer's matrix 2 and bias row 2. -/
theorem l1_Ce (e : Mat 320000 128) (he : toMat (val_main_v108 (F := Ideal) x0 x1 x2 x3 x4 x5 x6 x7 x8 x9 x10) = e) :
    toMat (val_main_v179 (F := Ideal) x0 x1 x2 x3 x4 x5 x6 x7 x8 x9 x10) = lin e ((Cert.Net.paramsOf x0 x1 x2 x3 x4 x5 x6 x7 x8 x9 x10 x11 x12 x13 x14).L 1).W2 ((Cert.Net.paramsOf x0 x1 x2 x3 x4 x5 x6 x7 x8 x9 x10 x11 x12 x13 x14).L 1).b2 := by
  subst he
  funext i j
  show val_main_v179 (F := Ideal) x0 x1 x2 x3 x4 x5 x6 x7 x8 x9 x10 (ix2 i j)
    = (∑ k : Fin 128, val_main_v108 (F := Ideal) x0 x1 x2 x3 x4 x5 x6 x7 x8 x9 x10 (ix2 i k) * x7 (ix4 (1 : Fin 3) (2 : Fin 5) k j)) + x8 (ix3 (1 : Fin 3) (2 : Fin 5) j)
  rw [val_main_v179_apply, val_main_v174_apply, b2_read x0 x1 x2 x3 x4 x5 x6 x7 x8 x9 x10 x11 x12 x13 x14, Ideal.addf_def]
  congr 1
  refine Finset.sum_congr rfl fun k _ => ?_
  rw [l174, r174, W2_read x0 x1 x2 x3 x4 x5 x6 x7 x8 x9 x10 x11 x12 x13 x14]

/-- The weight matrix of projection 3 is slice (1, 3, ·, ·) of the stacked weights. -/
theorem W3_read (k j : Fin 128) :
    val_main_v181 (F := Ideal) x7 (ix2 k j) = x7 (ix4 (1 : Fin 3) (3 : Fin 5) k j) := by
  rw [val_main_v181_apply, i181, val_main_v180_apply, i180, val_main_v153_apply, i153, val_main_v152_apply, i152]
/-- The bias row of projection 3 is slice (1, 3, ·) of the stacked biases, whatever the row. -/
theorem b3_read (i : Fin 20000) (j : Fin 128) :
    val_main_v186 (F := Ideal) x8 (ix2 i j) = x8 (ix3 (1 : Fin 3) (3 : Fin 5) j) := by
  rw [val_main_v186_apply, i186, val_main_v185_apply, i185, val_main_v184_apply, i184,
    val_main_v183_apply, i183, val_main_v155_apply, i155, val_main_v154_apply, i154]
/-- Projection 3 of the layer's node input is the affine map with the layer's matrix 3 and bias row 3. -/
theorem l1_Dh (h : Mat 20000 128) (hh : toMat (val_main_v151 (F := Ideal) x0 x1 x2 x3 x4 x5 x6 x7 x8 x9 x10) = h) :
    toMat (val_main_v187 (F := Ideal) x0 x1 x2 x3 x4 x5 x6 x7 x8 x9 x10) = lin h ((Cert.Net.paramsOf x0 x1 x2 x3 x4 x5 x6 x7 x8 x9 x10 x11 x12 x13 x14).L 1).W3 ((Cert.Net.paramsOf x0 x1 x2 x3 x4 x5 x6 x7 x8 x9 x10 x11 x12 x13 x14).L 1).b3 := by
  subst hh
  funext i j
  show val_main_v187 (F := Ideal) x0 x1 x2 x3 x4 x5 x6 x7 x8 x9 x10 (ix2 i j)
    = (∑ k : Fin 128, val_main_v151 (F := Ideal) x0 x1 x2 x3 x4 x5 x6 x7 x8 x9 x10 (ix2 i k) * x7 (ix4 (1 : Fin 3) (3 : Fin 5) k j)) + x8 (ix3 (1 : Fin 3) (3 : Fin 5) j)
  rw [val_main_v187_apply, val_main_v182_apply, b3_read x0 x1 x2 x3 x4 x5 x6 x7 x8 x9 x10 x11 x12 x13 x14, Ideal.addf_def]
  congr 1
  refine Finset.sum_congr rfl fun k _ => ?_
  rw [l182, r182, W3_read x0 x1 x2 x3 x4 x5 x6 x7 x8 x9 x10 x11 x12 x13 x14]

/-- The weight matrix of projection 4 is slice (1, 4, ·, ·) of the stacked weights. -/
theorem W4_read (k j : Fin 128) :
    val_main_v189 (F := Ideal) x7 (ix2 k j) = x7 (ix4 (1 : Fin 3) (4 : Fin 5) k j) := by
  rw [val_main_v189_apply, i189, val_main_v188_apply, i188, val_main_v153_apply, i153, val_main_v152_apply, i152]
/-- The bias row of projection 4 is slice (1, 4, ·) of the stacked biases, whatever the row. -/
theorem b4_read (i : Fin 20000) (j : Fin 128) :
    val_main_v194 (F := Ideal) x8 (ix2 i j) = x8 (ix3 (1 : Fin 3) (4 : Fin 5) j) := by
  rw [val_main_v194_apply, i194, val_main_v193_apply, i193, val_main_v192_apply, i192,
    val_main_v191_apply, i191, val_main_v155_apply, i155, val_main_v154_apply, i154]
/-- Projection 4 of the layer's node input is the affine map with the layer's matrix 4 and bias row 4. -/
theorem l1_Eh (h : Mat 20000 128) (hh : toMat (val_main_v151 (F := Ideal) x0 x1 x2 x3 x4 x5 x6 x7 x8 x9 x10) = h) :
    toMat (val_main_v195 (F := Ideal) x0 x1 x2 x3 x4 x5 x6 x7 x8 x9 x10) = lin h ((Cert.Net.paramsOf x0 x1 x2 x3 x4 x5 x6 x7 x8 x9 x10 x11 x12 x13 x14).L 1).W4 ((Cert.Net.paramsOf x0 x1 x2 x3 x4 x5 x6 x7 x8 x9 x10 x11 x12 x13 x14).L 1).b4 := by
  subst hh
  funext i j
  show val_main_v195 (F := Ideal) x0 x1 x2 x3 x4 x5 x6 x7 x8 x9 x10 (ix2 i j)
    = (∑ k : Fin 128, val_main_v151 (F := Ideal) x0 x1 x2 x3 x4 x5 x6 x7 x8 x9 x10 (ix2 i k) * x7 (ix4 (1 : Fin 3) (4 : Fin 5) k j)) + x8 (ix3 (1 : Fin 3) (4 : Fin 5) j)
  rw [val_main_v195_apply, val_main_v190_apply, b4_read x0 x1 x2 x3 x4 x5 x6 x7 x8 x9 x10 x11 x12 x13 x14, Ideal.addf_def]
  congr 1
  refine Finset.sum_congr rfl fun k _ => ?_
  rw [l190, r190, W4_read x0 x1 x2 x3 x4 x5 x6 x7 x8 x9 x10 x11 x12 x13 x14]

/-- The wrapped target word is the word itself when the word is in range. -/
theorem wrap200 (hidx : ∀ i, 0 ≤ (x1 i).toInt ∧ (x1 i).toInt < 20000) (e : Fin 320000) :
    val_main_v200 (F := Ideal) x1 (ix1 e) = x1 (ix2 (1 : Fin 2) e) := by
  rw [val_main_v200_apply, val_main_v197_apply, val_main_v196_apply, val_main_c_17_apply, Cert.RefA.word_dst,
    Cert.RefA.cmp_neg _ (hidx _).1, select_zero]
/-- The row selection reads the table's row the edge's target names. -/
theorem g202 (hidx : ∀ i, 0 ≤ (x1 i).toInt ∧ (x1 i).toInt < 20000) (e : Fin 320000) (j : Fin 128) :
    val_main_v202 (F := Ideal) x0 x1 x2 x3 x4 x5 x6 x7 x8 x9 x10 (ix2 e j)
      = val_main_v187 (F := Ideal) x0 x1 x2 x3 x4 x5 x6 x7 x8 x9 x10 (ix2 (Cert.Net.node (x1 (ix2 (1 : Fin 2) e))) j) := by
  unfold val_main_v202
  rw [Cert.LibGS.gather_rows_gen gather_S20000x128_S320000x1_S320000x128_1_0_n_n_0_1_1128 (by decide) rfl rfl rfl rfl rfl rfl,
    val_main_v201_apply, i201, wrap200 x0 x1 x2 x3 x4 x5 x6 x7 x8 x9 x10 x11 x12 x13 x14 hidx]
  rfl

/-- The wrapped source word is the word itself when the word is in range. -/
theorem wrap208 (hidx : ∀ i, 0 ≤ (x1 i).toInt ∧ (x1 i).toInt < 20000) (e : Fin 320000) :
    val_main_v208 (F := Ideal) x1 (ix1 e) = x1 (ix2 (0 : Fin 2) e) := by
  rw [val_main_v208_apply, val_main_v205_apply, val_main_v204_apply, val_main_c_19_apply, Cert.RefA.word_src,
    Cert.RefA.cmp_neg _ (hidx _).1, select_zero]
/-- The row selection reads the table's row the edge's source names. -/
theorem g210 (hidx : ∀ i, 0 ≤ (x1 i).toInt ∧ (x1 i).toInt < 20000) (e : Fin 320000) (j : Fin 128) :
    val_main_v210 (F := Ideal) x0 x1 x2 x3 x4 x5 x6 x7 x8 x9 x10 (ix2 e j)
      = val_main_v195 (F := Ideal) x0 x1 x2 x3 x4 x5 x6 x7 x8 x9 x10 (ix2 (Cert.Net.node (x1 (ix2 (0 : Fin 2) e))) j) := by
  unfold val_main_v210
  rw [Cert.LibGS.gather_rows_gen gather_S20000x128_S320000x1_S320000x128_1_0_n_n_0_1_1128 (by decide) rfl rfl rfl rfl rfl rfl,
    val_main_v209_apply, i209, wrap208 x0 x1 x2 x3 x4 x5 x6 x7 x8 x9 x10 x11 x12 x13 x14 hidx]
  rfl

/-- The wrapped source word is the word itself when the word is in range. -/
theorem wrap253 (hidx : ∀ i, 0 ≤ (x1 i).toInt ∧ (x1 i).toInt < 20000) (e : Fin 320000) :
    val_main_v253 (F := Ideal) x1 (ix1 e) = x1 (ix2 (0 : Fin 2) e) := by
  rw [val_main_v253_apply, val_main_v250_apply, val_main_v249_apply, val_main_c_28_apply, Cert.RefA.word_src,
    Cert.RefA.cmp_neg _ (hidx _).1, select_zero]
/-- The row selection reads the table's row the edge's source names. -/
theorem g255 (hidx : ∀ i, 0 ≤ (x1 i).toInt ∧ (x1 i).toInt < 20000) (e : Fin 320000) (j : Fin 128) :
    val_main_v255 (F := Ideal) x0 x1 x2 x3 x4 x5 x6 x7 x8 x9 x10 (ix2 e j)
      = val_main_v171 (F := Ideal) x0 x1 x2 x3 x4 x5 x6 x7 x8 x9 x10 (ix2 (Cert.Net.node (x1 (ix2 (0 : Fin 2) e))) j) := by
  unfold val_main_v255
  rw [Cert.LibGS.gather_rows_gen gather_S20000x128_S320000x1_S320000x128_1_0_n_n_0_1_1128 (by decide) rfl rfl rfl rfl rfl rfl,
    val_main_v254_apply, i254, wrap253 x0 x1 x2 x3 x4 x5 x6 x7 x8 x9 x10 x11 x12 x13 x14 hidx]
  rfl

/-- The edge pre-activation is the edge's own projection plus its target's and its source's. -/
theorem l1_ehat (h : Mat 20000 128) (e : Mat 320000 128) (hh : toMat (val_main_v151 (F := Ideal) x0 x1 x2 x3 x4 x5 x6 x7 x8 x9 x10) = h) (he : toMat (val_main_v108 (F := Ideal) x0 x1 x2 x3 x4 x5 x6 x7 x8 x9 x10) = e)
    (hidx : ∀ i, 0 ≤ (x1 i).toInt ∧ (x1 i).toInt < 20000) :
    toMat (val_main_v211 (F := Ideal) x0 x1 x2 x3 x4 x5 x6 x7 x8 x9 x10)
      = ehat (lin e ((Cert.Net.paramsOf x0 x1 x2 x3 x4 x5 x6 x7 x8 x9 x10 x11 x12 x13 x14).L 1).W2 ((Cert.Net.paramsOf x0 x1 x2 x3 x4 x5 x6 x7 x8 x9 x10 x11 x12 x13 x14).L 1).b2) (rows (lin h ((Cert.Net.paramsOf x0 x1 x2 x3 x4 x5 x6 x7 x8 x9 x10 x11 x12 x13 x14).L 1).W3 ((Cert.Net.paramsOf x0 x1 x2 x3 x4 x5 x6 x7 x8 x9 x10 x11 x12 x13 x14).L 1).b3) (Cert.Net.paramsOf x0 x1 x2 x3 x4 x5 x6 x7 x8 x9 x10 x11 x12 x13 x14).dst) (rows (lin h ((Cert.Net.paramsOf x0 x1 x2 x3 x4 x5 x6 x7 x8 x9 x10 x11 x12 x13 x14).L 1).W4 ((Cert.Net.paramsOf x0 x1 x2 x3 x4 x5 x6 x7 x8 x9 x10 x11 x12 x13 x14).L 1).b4) (Cert.Net.paramsOf x0 x1 x2 x3 x4 x5 x6 x7 x8 x9 x10 x11 x12 x13 x14).src) := by
  rw [← l1_Ce x0 x1 x2 x3 x4 x5 x6 x7 x8 x9 x10 x11 x12 x13 x14 e he, ← l1_Dh x0 x1 x2 x3 x4 x5 x6 x7 x8 x9 x10 x11 x12 x13 x14 h hh, ← l1_Eh x0 x1 x2 x3 x4 x5 x6 x7 x8 x9 x10 x11 x12 x13 x14 h hh]
  funext a j
  show val_main_v211 (F := Ideal) x0 x1 x2 x3 x4 x5 x6 x7 x8 x9 x10 (ix2 a j)
    = val_main_v179 (F := Ideal) x0 x1 x2 x3 x4 x5 x6 x7 x8 x9 x10 (ix2 a j)
      + val_main_v187 (F := Ideal) x0 x1 x2 x3 x4 x5 x6 x7 x8 x9 x10 (ix2 (Cert.Net.node (x1 (ix2 (1 : Fin 2) a))) j)
      + val_main_v195 (F := Ideal) x0 x1 x2 x3 x4 x5 x6 x7 x8 x9 x10 (ix2 (Cert.Net.node (x1 (ix2 (0 : Fin 2) a))) j)
  rw [val_main_v211_apply, val_main_v203_apply, g202 x0 x1 x2 x3 x4 x5 x6 x7 x8 x9 x10 x11 x12 x13 x14 hidx, g210 x0 x1 x2 x3 x4 x5 x6 x7 x8 x9 x10 x11 x12 x13 x14 hidx, Ideal.addf_def, Ideal.addf_def]

/-- The gated message is the logistic of the pre-activation times the source's projection. -/
theorem l1_msg (h : Mat 20000 128) (hh : toMat (val_main_v151 (F := Ideal) x0 x1 x2 x3 x4 x5 x6 x7 x8 x9 x10) = h) (hidx : ∀ i, 0 ≤ (x1 i).toInt ∧ (x1 i).toInt < 20000) :
    toMat (val_main_v256 (F := Ideal) x0 x1 x2 x3 x4 x5 x6 x7 x8 x9 x10)
      = msg (toMat (val_main_v211 (F := Ideal) x0 x1 x2 x3 x4 x5 x6 x7 x8 x9 x10)) (rows (lin h ((Cert.Net.paramsOf x0 x1 x2 x3 x4 x5 x6 x7 x8 x9 x10 x11 x12 x13 x14).L 1).W1 ((Cert.Net.paramsOf x0 x1 x2 x3 x4 x5 x6 x7 x8 x9 x10 x11 x12 x13 x14).L 1).b1) (Cert.Net.paramsOf x0 x1 x2 x3 x4 x5 x6 x7 x8 x9 x10 x11 x12 x13 x14).src) := by
  rw [← l1_Bh x0 x1 x2 x3 x4 x5 x6 x7 x8 x9 x10 x11 x12 x13 x14 h hh]
  funext a j
  show val_main_v256 (F := Ideal) x0 x1 x2 x3 x4 x5 x6 x7 x8 x9 x10 (ix2 a j)
    = Ideal.logistic (val_main_v211 (F := Ideal) x0 x1 x2 x3 x4 x5 x6 x7 x8 x9 x10 (ix2 a j))
      * val_main_v171 (F := Ideal) x0 x1 x2 x3 x4 x5 x6 x7 x8 x9 x10 (ix2 (Cert.Net.node (x1 (ix2 (0 : Fin 2) a))) j)
  rw [val_main_v256_apply, val_main_v217_apply, val_main_v216_apply, val_main_cst_22_apply, val_main_v215_apply,
    val_main_v214_apply, val_main_cst_21_apply, val_main_v213_apply, val_main_v212_apply, g255 x0 x1 x2 x3 x4 x5 x6 x7 x8 x9 x10 x11 x12 x13 x14 hidx, Cert.RefA.one_word]
  rfl

/-- The aggregation at node i is the sum of the message rows whose target is i. -/
theorem s259 (hidx : ∀ i, 0 ≤ (x1 i).toInt ∧ (x1 i).toInt < 20000) (i : Fin 20000) (j : Fin 128) :
    val_main_v259 (F := Ideal) x0 x1 x2 x3 x4 x5 x6 x7 x8 x9 x10 (ix2 i j)
      = ∑ e ∈ Finset.univ.filter (fun e : Fin 320000 => Cert.Net.node (x1 (ix2 (1 : Fin 2) e)) = i),
          val_main_v256 (F := Ideal) x0 x1 x2 x3 x4 x5 x6 x7 x8 x9 x10 (ix2 e j) := by
  unfold val_main_v259 Host.scatterAdd
  rw [Ideal.hostScatterAdd_def,
    Cert.LibGS.scatterAdd_rows_gen scatter_S20000x128_S320000x1_S320000x128_1_0_0_1 rfl rfl rfl rfl,
    val_main_v257_apply, val_main_cst_30_apply, Cert.RefA.zero_word, zero_add]
  refine Finset.sum_congr (Finset.filter_congr fun e _ => ?_) (fun _ _ => rfl)
  rw [val_main_v258_apply, i258, Cert.RefA.word_dst]
  exact (Cert.RefA.node_eq_iff _ (hidx _) i).symm

/-- The node pre-activation is the node's first projection plus the aggregated messages. -/
theorem l1_xadd (h : Mat 20000 128) (hh : toMat (val_main_v151 (F := Ideal) x0 x1 x2 x3 x4 x5 x6 x7 x8 x9 x10) = h) (hidx : ∀ i, 0 ≤ (x1 i).toInt ∧ (x1 i).toInt < 20000) :
    toMat (val_main_v260 (F := Ideal) x0 x1 x2 x3 x4 x5 x6 x7 x8 x9 x10)
      = madd (lin h ((Cert.Net.paramsOf x0 x1 x2 x3 x4 x5 x6 x7 x8 x9 x10 x11 x12 x13 x14).L 1).W0 ((Cert.Net.paramsOf x0 x1 x2 x3 x4 x5 x6 x7 x8 x9 x10 x11 x12 x13 x14).L 1).b0) (segSum (toMat (val_main_v256 (F := Ideal) x0 x1 x2 x3 x4 x5 x6 x7 x8 x9 x10)) (Cert.Net.paramsOf x0 x1 x2 x3 x4 x5 x6 x7 x8 x9 x10 x11 x12 x13 x14).dst) := by
  rw [← l1_Ah x0 x1 x2 x3 x4 x5 x6 x7 x8 x9 x10 x11 x12 x13 x14 h hh]
  funext i j
  show val_main_v260 (F := Ideal) x0 x1 x2 x3 x4 x5 x6 x7 x8 x9 x10 (ix2 i j)
    = val_main_v163 (F := Ideal) x0 x1 x2 x3 x4 x5 x6 x7 x8 x9 x10 (ix2 i j)
      + ∑ e ∈ Finset.univ.filter (fun e : Fin 320000 => Cert.Net.node (x1 (ix2 (1 : Fin 2) e)) = i),
          val_main_v256 (F := Ideal) x0 x1 x2 x3 x4 x5 x6 x7 x8 x9 x10 (ix2 e j)
  rw [val_main_v260_apply, s259 x0 x1 x2 x3 x4 x5 x6 x7 x8 x9 x10 x11 x12 x13 x14 hidx, Ideal.addf_def]

end Layer

end Cert.RefA1

end
-- ==== Proof.RefA2.lean ====
/-
  The linear part of the reference's third gated layer, stage by stage, as the network's stages of matrices: the five
  projections are affine maps of rows whose weight matrices and bias rows are the slices (2, k, ·, ·) and (2, k, ·)
  of the stacked arrays; the row selections read the projection's row that the edge's target or source word names
  (the word is in range, so the wrap of a negative word leaves it as it is); the gate is the logistic spelt
  1 / (1 + exp (−x)); the aggregation adds to a zero array every message row whose target word is the node.
-/
import proofs.«418385_j87393994539142_1_alg».proof.Proof.RefA

noncomputable section

open scoped BigOperators

namespace Cert.RefA2

open Idealize.ShloMosaic Idealize.ShloMosaic.ValueIdx Cert.Stage Cert.Alg Cert.ReferenceIdeal Cert.ReferenceIdeal.Read

/-! ## The layer: index equations -/

theorem i293 (s : Fin 5) (k j : Fin 128) : idx_main_v293 (ix3 s k j) = ix4 (0 : Fin 1) s k j :=
  funext fun a => Fin.ext (by
    have hs := s.isLt; have hk := k.isLt; have hj := j.isLt
    match a with
    | ⟨0, _⟩ => rfl
    | ⟨1, _⟩ => show ((s.val * 128 + k.val) * 128 + j.val) / 16384 % 5 = s.val; omega
    | ⟨2, _⟩ => show ((s.val * 128 + k.val) * 128 + j.val) / 128 % 128 = k.val; omega
    | ⟨3, _⟩ => show ((s.val * 128 + k.val) * 128 + j.val) % 128 = j.val; omega)
theorem i292 (s : Fin 5) (k j : Fin 128) : idx_main_v292 (ix4 (0 : Fin 1) s k j) = ix4 (2 : Fin 3) s k j :=
  funext fun a => Fin.ext (by match a with | ⟨0, _⟩ => rfl | ⟨1, _⟩ => rfl | ⟨2, _⟩ => rfl | ⟨3, _⟩ => rfl)
theorem i295 (s : Fin 5) (j : Fin 128) : idx_main_v295 (ix2 s j) = ix3 (0 : Fin 1) s j :=
  funext fun a => Fin.ext (by
    have hs := s.isLt; have hj := j.isLt
    match a with
    | ⟨0, _⟩ => rfl
    | ⟨1, _⟩ => show (s.val * 128 + j.val) / 128 % 5 = s.val; omega
    | ⟨2, _⟩ => show (s.val * 128 + j.val) % 128 = j.val; omega)
theorem i294 (s : Fin 5) (j : Fin 128) : idx_main_v294 (ix3 (0 : Fin 1) s j) = ix3 (2 : Fin 3) s j :=
  funext fun a => Fin.ext (by match a with | ⟨0, _⟩ => rfl | ⟨1, _⟩ => rfl | ⟨2, _⟩ => rfl)
theorem i297 (k j : Fin 128) : idx_main_v297 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i296 (k j : Fin 128) : idx_main_v296 (ix3 (0 : Fin 1) k j) = ix3 (0 : Fin 5) k j :=
  funext fun a => Fin.ext (by match a with | ⟨0, _⟩ => rfl | ⟨1, _⟩ => rfl | ⟨2, _⟩ => rfl)
theorem i302 (i : Fin 20000) (j : Fin 128) : idx_main_v302 (ix2 i j) = ix2 (0 : Fin 1) j :=
  funext fun a => Fin.ext (by match a with | ⟨0, _⟩ => rfl | ⟨1, _⟩ => rfl)
theorem i301 (j : Fin 128) : idx_main_v301 (ix2 (0 : Fin 1) j) = ix1 j :=
  funext fun a => Fin.ext (by match a with | ⟨0, _⟩ => rfl)
theorem i300 (j : Fin 128) : idx_main_v300 (ix1 j) = ix2 (0 : Fin 1) j :=
  funext fun a => Fin.ext (by
    have hj := j.isLt
    match a with
    | ⟨0, _⟩ => rfl
    | ⟨1, _⟩ => show j.val % 128 = j.val; omega)
theorem i299 (j : Fin 128) : idx_main_v299 (ix2 (0 : Fin 1) j) = ix2 (0 : Fin 5) j :=
  funext fun a => Fin.ext (by match a with | ⟨0, _⟩ => rfl | ⟨1, _⟩ => rfl)
theorem l298 (i : Fin 20000) (j k : Fin 128) : lidx_main_v298 (ix2 i j) k = ix2 i k :=
  funext fun a => Fin.ext (by match a with | ⟨0, _⟩ => rfl | ⟨1, _⟩ => rfl)
theorem r298 (i : Fin 20000) (j k : Fin 128) : ridx_main_v298 (ix2 i j) k = ix2 k j :=
  funext fun a => Fin.ext (by match a with | ⟨0, _⟩ => rfl | ⟨1, _⟩ => rfl)
theorem i305 (k j : Fin 128) : idx_main_v305 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i304 (k j : Fin 128) : idx_main_v304 (ix3 (0 : Fin 1) k j) = ix3 (1 : Fin 5) k j :=
  funext fun a => Fin.ext (by match a with | ⟨0, _⟩ => rfl | ⟨1, _⟩ => rfl | ⟨2, _⟩ => rfl)
theorem i310 (i : Fin 20000) (j : Fin 128) : idx_main_v310 (ix2 i j) = ix2 (0 : Fin 1) j :=
  funext fun a => Fin.ext (by match a with | ⟨0, _⟩ => rfl | ⟨1, _⟩ => rfl)
theorem i309 (j : Fin 128) : idx_main_v309 (ix2 (0 : Fin 1) j) = ix1 j :=
  funext fun a => Fin.ext (by match a with | ⟨0, _⟩ => rfl)
theorem i308 (j : Fin 128) : idx_main_v308 (ix1 j) = ix2 (0 : Fin 1) j :=
  funext fun a => Fin.ext (by
    have hj := j.isLt
    match a with
    | ⟨0, _⟩ => rfl
    | ⟨1, _⟩ => show j.val % 128 = j.val; omega)
theorem i307 (j : Fin 128) : idx_main_v307 (ix2 (0 : Fin 1) j) = ix2 (1 : Fin 5) j :=
  funext fun a => Fin.ext (by match a with | ⟨0, _⟩ => rfl | ⟨1, _⟩ => rfl)
theorem l306 (i : Fin 20000) (j k : Fin 128) : lidx_main_v306 (ix2 i j) k = ix2 i k :=
  funext fun a => Fin.ext (by match a with | ⟨0, _⟩ => rfl | ⟨1, _⟩ => rfl)
theorem r306 (i : Fin 20000) (j k : Fin 128) : ridx_main_v306 (ix2 i j) k = ix2 k j :=
  funext fun a => Fin.ext (by match a with | ⟨0, _⟩ => rfl | ⟨1, _⟩ => rfl)
theorem i313 (k j : Fin 128) : idx_main_v313 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i312 (k j : Fin 128) : idx_main_v312 (ix3 (0 : Fin 1) k j) = ix3 (2 : Fin 5) k j :=
  funext fun a => Fin.ext (by match a with | ⟨0, _⟩ => rfl | ⟨1, _⟩ => rfl | ⟨2, _⟩ => rfl)
theorem i318 (i : Fin 320000) (j : Fin 128) : idx_main_v318 (ix2 i j) = ix2 (0 : Fin 1) j :=
  funext fun a => Fin.ext (by match a with | ⟨0, _⟩ => rfl | ⟨1, _⟩ => rfl)
theorem i317 (j : Fin 128) : idx_main_v317 (ix2 (0 : Fin 1) j) = ix1 j :=
  funext fun a => Fin.ext (by match a with | ⟨0, _⟩ => rfl)
theorem i316 (j : Fin 128) : idx_main_v316 (ix1 j) = ix2 (0 : Fin 1) j :=
  funext fun a => Fin.ext (by
    have hj := j.isLt
    match a with
    | ⟨0, _⟩ => rfl
    | ⟨1, _⟩ => show j.val % 128 = j.val; omega)
theorem i315 (j : Fin 128) : idx_main_v315 (ix2 (0 : Fin 1) j) = ix2 (2 : Fin 5) j :=
  funext fun a => Fin.ext (by match a with | ⟨0, _⟩ => rfl | ⟨1, _⟩ => rfl)
theorem l314 (i : Fin 320000) (j k : Fin 128) : lidx_main_v314 (ix2 i j) k = ix2 i k :=
  funext fun a => Fin.ext (by match a with | ⟨0, _⟩ => rfl | ⟨1, _⟩ => rfl)
theorem r314 (i : Fin 320000) (j k : Fin 128) : ridx_main_v314 (ix2 i j) k = ix2 k j :=
  funext fun a => Fin.ext (by match a with | ⟨0, _⟩ => rfl | ⟨1, _⟩ => rfl)
theorem i321 (k j : Fin 128) : idx_main_v321 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i320 (k j : Fin 128) : idx_main_v320 (ix3 (0 : Fin 1) k j) = ix3 (3 : Fin 5) k j :=
  funext fun a => Fin.ext (by match a with | ⟨0, _⟩ => rfl | ⟨1, _⟩ => rfl | ⟨2, _⟩ => rfl)
theorem i326 (i : Fin 20000) (j : Fin 128) : idx_main_v326 (ix2 i j) = ix2 (0 : Fin 1) j :=
  funext fun a => Fin.ext (by match a with | ⟨0, _⟩ => rfl | ⟨1, _⟩ => rfl)
theorem i325 (j : Fin 128) : idx_main_v325 (ix2 (0 : Fin 1) j) = ix1 j :=
  funext fun a => Fin.ext (by match a with | ⟨0, _⟩ => rfl)
theorem i324 (j : Fin 128) : idx_main_v324 (ix1 j) = ix2 (0 : Fin 1) j :=
  funext fun a => Fin.ext (by
    have hj := j.isLt
    match a with
    | ⟨0, _⟩ => rfl
    | ⟨1, _⟩ => show j.val % 128 = j.val; omega)
theorem i323 (j : Fin 128) : idx_main_v323 (ix2 (0 : Fin 1) j) = ix2 (3 : Fin 5) j :=
  funext fun a => Fin.ext (by match a with | ⟨0, _⟩ => rfl | ⟨1, _⟩ => rfl)
theorem l322 (i : Fin 20000) (j k : Fin 128) : lidx_main_v322 (ix2 i j) k = ix2 i k :=
  funext fun a => Fin.ext (by match a with | ⟨0, _⟩ => rfl | ⟨1, _⟩ => rfl)
theorem r322 (i : Fin 20000) (j k : Fin 128) : ridx_main_v322 (ix2 i j) k = ix2 k j :=
  funext fun a => Fin.ext (by match a with | ⟨0, _⟩ => rfl | ⟨1, _⟩ => rfl)
theorem i329 (k j : Fin 128) : idx_main_v329 (ix2 k j) = ix3 (0 : Fin 1) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)
theorem i328 (k j : Fin 128) : idx_main_v328 (ix3 (0 : Fin 1) k j) = ix3 (4 : Fin 5) k j :=
  funext fun a => Fin.ext (by match a with | ⟨0, _⟩ => rfl | ⟨1, _⟩ => rfl | ⟨2, _⟩ => rfl)
theorem i334 (i : Fin 20000) (j : Fin 128) : idx_main_v334 (ix2 i j) = ix2 (0 : Fin 1) j :=
  funext fun a => Fin.ext (by match a with | ⟨0, _⟩ => rfl | ⟨1, _⟩ => rfl)
theorem i333 (j : Fin 128) : idx_main_v333 (ix2 (0 : Fin 1) j) = ix1 j :=
  funext fun a => Fin.ext (by match a with | ⟨0, _⟩ => rfl)
theorem i332 (j : Fin 128) : idx_main_v332 (ix1 j) = ix2 (0 : Fin 1) j :=
  funext fun a => Fin.ext (by
    have hj := j.isLt
    match a with
    | ⟨0, _⟩ => rfl
    | ⟨1, _⟩ => show j.val % 128 = j.val; omega)
theorem i331 (j : Fin 128) : idx_main_v331 (ix2 (0 : Fin 1) j) = ix2 (4 : Fin 5) j :=
  funext fun a => Fin.ext (by match a with | ⟨0, _⟩ => rfl | ⟨1, _⟩ => rfl)
theorem l330 (i : Fin 20000) (j k : Fin 128) : lidx_main_v330 (ix2 i j) k = ix2 i k :=
  funext fun a => Fin.ext (by match a with | ⟨0, _⟩ => rfl | ⟨1, _⟩ => rfl)
theorem r330 (i : Fin 20000) (j k : Fin 128) : ridx_main_v330 (ix2 i j) k = ix2 k j :=
  funext fun a => Fin.ext (by match a with | ⟨0, _⟩ => rfl | ⟨1, _⟩ => rfl)
theorem i341 (e : Fin 320000) : idx_main_v341 (ix2 e (0 : Fin 1)) = ix1 e :=
  funext fun a => Fin.ext (by match a with | ⟨0, _⟩ => rfl)
theorem i349 (e : Fin 320000) : idx_main_v349 (ix2 e (0 : Fin 1)) = ix1 e :=
  funext fun a => Fin.ext (by match a with | ⟨0, _⟩ => rfl)
theorem i394 (e : Fin 320000) : idx_main_v394 (ix2 e (0 : Fin 1)) = ix1 e :=
  funext fun a => Fin.ext (by match a with | ⟨0, _⟩ => rfl)
theorem i398 (e : Fin 320000) : idx_main_v398 (ix2 e (0 : Fin 1)) = ix1 e :=
  funext fun a => Fin.ext (by match a with | ⟨0, _⟩ => rfl)

/-! ## The layer: values -/

section Layer

variable (x0 : (⟨2, ![20000, 128]⟩ : Shape).Idx → EReal)
  (x1 : IVec ⟨2, ![2, 320000]⟩ 32)
  (x2 : (⟨2, ![320000, 128]⟩ : Shape).Idx → EReal)
  (x3 : (⟨2, ![128, 128]⟩ : Shape).Idx → EReal)
  (x4 : (⟨1, ![128]⟩ : Shape).Idx → EReal)
  (x5 : (⟨2, ![128, 128]⟩ : Shape).Idx → EReal)
  (x6 : (⟨1, ![128]⟩ : Shape).Idx → EReal)
  (x7 : (⟨4, ![3, 5, 128, 128]⟩ : Shape).Idx → EReal)
  (x8 : (⟨3, ![3, 5, 128]⟩ : Shape).Idx → EReal)
  (x9 : (⟨3, ![3, 2, 128]⟩ : Shape).Idx → EReal)
  (x10 : (⟨3, ![3, 2, 128]⟩ : Shape).Idx → EReal)
  (x11 : (⟨2, ![128, 128]⟩ : Shape).Idx → EReal)
  (x12 : (⟨1, ![128]⟩ : Shape).Idx → EReal)
  (x13 : (⟨2, ![128, 64]⟩ : Shape).Idx → EReal)
  (x14 : (⟨1, ![64]⟩ : Shape).Idx → EReal)

include x0 x1 x2 x3 x4 x5 x6 x7 x8 x9 x10 x11 x12 x13 x14

/-- The weight matrix of projection 0 is slice (2, 0, ·, ·) of the stacked weights. -/
theorem W0_read (k j : Fin 128) :
    val_main_v297 (F := Ideal) x7 (ix2 k j) = x7 (ix4 (2 : Fin 3) (0 : Fin 5) k j) := by
  rw [val_main_v297_apply, i297, val_main_v296_apply, i296, val_main_v293_apply, i293, val_main_v292_apply, i292]
/-- The bias row of projection 0 is slice (2, 0, ·) of the stacked biases, whatever the row. -/
theorem b0_read (i : Fin 20000) (j : Fin 128) :
    val_main_v302 (F := Ideal) x8 (ix2 i j) = x8 (ix3 (2 : Fin 3) (0 : Fin 5) j) := by
  rw [val_main_v302_apply, i302, val_main_v301_apply, i301, val_main_v300_apply, i300,
    val_main_v299_apply, i299, val_main_v295_apply, i295, val_main_v294_apply, i294]
/-- Projection 0 of the layer's node input is the affine map with the layer's matrix 0 and bias row 0. -/
theorem l2_Ah (h : Mat 20000 128) (hh : toMat (val_main_v291 (F := Ideal) x0 x1 x2 x3 x4 x5 x6 x7 x8 x9 x10) = h) :
    toMat (val_main_v303 (F := Ideal) x0 x1 x2 x3 x4 x5 x6 x7 x8 x9 x10) = lin h ((Cert.Net.paramsOf x0 x1 x2 x3 x4 x5 x6 x7 x8 x9 x10 x11 x12 x13 x14).L 2).W0 ((Cert.Net.paramsOf x0 x1 x2 x3 x4 x5 x6 x7 x8 x9 x10 x11 x12 x13 x14).L 2).b0 := by
  subst hh
  funext i j
  show val_main_v303 (F := Ideal) x0 x1 x2 x3 x4 x5 x6 x7 x8 x9 x10 (ix2 i j)
    = (∑ k : Fin 128, val_main_v291 (F := Ideal) x0 x1 x2 x3 x4 x5 x6 x7 x8 x9 x10 (ix2 i k) * x7 (ix4 (2 : Fin 3) (0 : Fin 5) k j)) + x8 (ix3 (2 : Fin 3) (0 : Fin 5) j)
  rw [val_main_v303_apply, val_main_v298_apply, b0_read x0 x1 x2 x3 x4 x5 x6 x7 x8 x9 x10 x11 x12 x13 x14, Ideal.addf_def]
  congr 1
  refine Finset.sum_congr rfl fun k _ => ?_
  rw [l298, r298, W0_read x0 x1 x2 x3 x4 x5 x6 x7 x8 x9 x10 x11 x12 x13 x14]

/-- The weight matrix of projection 1 is slice (2, 1, ·, ·) of the stacked weights. -/
theorem W1_read (k j : Fin 128) :
    val_main_v305 (F := Ideal) x7 (ix2 k j) = x7 (ix4 (2 : Fin 3) (1 : Fin 5) k j) := by
  rw [val_main_v305_apply, i305, val_main_v304_apply, i304, val_main_v293_apply, i293, val_main_v292_apply, i292]
/-- The bias row of projection 1 is slice (2, 1, ·) of the stacked biases, whatever the row. -/
theorem b1_read (i : Fin 20000) (j : Fin 128) :
    val_main_v310 (F := Ideal) x8 (ix2 i j) = x8 (ix3 (2 : Fin 3) (1 : Fin 5) j) := by
  rw [val_main_v310_apply, i310, val_main_v309_apply, i309, val_main_v308_apply, i308,
    val_main_v307_apply, i307, val_main_v295_apply, i295, val_main_v294_apply, i294]
/-- Projection 1 of the layer's node input is the affine map with the layer's matrix 1 and bias row 1. -/
theorem l2_Bh (h : Mat 20000 128) (hh : toMat (val_main_v291 (F := Ideal) x0 x1 x2 x3 x4 x5 x6 x7 x8 x9 x10) = h) :
    toMat (val_main_v311 (F := Ideal) x0 x1 x2 x3 x4 x5 x6 x7 x8 x9 x10) = lin h ((Cert.Net.paramsOf x0 x1 x2 x3 x4 x5 x6 x7 x8 x9 x10 x11 x12 x13 x14).L 2).W1 ((Cert.Net.paramsOf x0 x1 x2 x3 x4 x5 x6 x7 x8 x9 x10 x11 x12 x13 x14).L 2).b1 := by
  subst hh
  funext i j
  show val_main_v311 (F := Ideal) x0 x1 x2 x3 x4 x5 x6 x7 x8 x9 x10 (ix2 i j)
    = (∑ k : Fin 128, val_main_v291 (F := Ideal) x0 x1 x2 x3 x4 x5 x6 x7 x8 x9 x10 (ix2 i k) * x7 (ix4 (2 : Fin 3) (1 : Fin 5) k j)) + x8 (ix3 (2 : Fin 3) (1 : Fin 5) j)
  rw [val_main_v311_apply, val_main_v306_apply, b1_read x0 x1 x2 x3 x4 x5 x6 x7 x8 x9 x10 x11 x12 x13 x14, Ideal.addf_def]
  congr 1
  refine Finset.sum_congr rfl fun k _ => ?_
  rw [l306, r306, W1_read x0 x1 x2 x3 x4 x5 x6 x7 x8 x9 x10 x11 x12 x13 x14]

/-- The weight matrix of projection 2 is slice (2, 2, ·, ·) of the stacked weights. -/
theorem W2_read (k j : Fin 128) :
    val_main_v313 (F := Ideal) x7 (ix2 k j) = x7 (ix4 (2 : Fin 3) (2 : Fin 5) k j) := by
  rw [val_main_v313_apply, i313, val_main_v312_apply, i312, val_main_v293_apply, i293, val_main_v292_apply, i292]
/-- The bias row of projection 2 is slice (2, 2, ·) of the stacked biases, whatever the row. -/
theorem b2_read (i : Fin 320000) (j : Fin 128) :
    val_main_v318 (F := Ideal) x8 (ix2 i j) = x8 (ix3 (2 : Fin 3) (2 : Fin 5) j) := by
  rw [val_main_v318_apply, i318, val_main_v317_apply, i317, val_main_v316_apply, i316,
    val_main_v315_apply, i315, val_main_v295_apply, i295, val_main_v294_apply, i294]
/-- Projection 2 of the layer's edge input is the affine map with the layer's matrix 2 and bias row 2. -/
theorem l2_Ce (e : Mat 320000 128) (he : toMat (val_main_v248 (F := Ideal) x0 x1 x2 x3 x4 x5 x6 x7 x8 x9 x10) = e) :
    toMat (val_main_v319 (F := Ideal) x0 x1 x2 x3 x4 x5 x6 x7 x8 x9 x10) = lin e ((Cert.Net.paramsOf x0 x1 x2 x3 x4 x5 x6 x7 x8 x9 x10 x11 x12 x13 x14).L 2).W2 ((Cert.Net.paramsOf x0 x1 x2 x3 x4 x5 x6 x7 x8 x9 x10 x11 x12 x13 x14).L 2).b2 := by
  subst he
  funext i j
  show val_main_v319 (F := Ideal) x0 x1 x2 x3 x4 x5 x6 x7 x8 x9 x10 (ix2 i j)
    = (∑ k : Fin 128, val_main_v248 (F := Ideal) x0 x1 x2 x3 x4 x5 x6 x7 x8 x9 x10 (ix2 i k) * x7 (ix4 (2 : Fin 3) (2 : Fin 5) k j)) + x8 (ix3 (2 : Fin 3) (2 : Fin 5) j)
  rw [val_main_v319_apply, val_main_v314_apply, b2_read x0 x1 x2 x3 x4 x5 x6 x7 x8 x9 x10 x11 x12 x13 x14, Ideal.addf_def]
  congr 1
  refine Finset.sum_congr rfl fun k _ => ?_
  rw [l314, r314, W2_read x0 x1 x2 x3 x4 x5 x6 x7 x8 x9 x10 x11 x12 x13 x14]

/-- The weight matrix of projection 3 is slice (2, 3, ·, ·) of the stacked weights. -/
theorem W3_read (k j : Fin 128) :
    val_main_v321 (F := Ideal) x7 (ix2 k j) = x7 (ix4 (2 : Fin 3) (3 : Fin 5) k j) := by
  rw [val_main_v321_apply, i321, val_main_v320_apply, i320, val_main_v293_apply, i293, val_main_v292_apply, i292]
/-- The bias row of projection 3 is slice (2, 3, ·) of the stacked biases, whatever the row. -/
theorem b3_read (i : Fin 20000) (j : Fin 128) :
    val_main_v326 (F := Ideal) x8 (ix2 i j) = x8 (ix3 (2 : Fin 3) (3 : Fin 5) j) := by
  rw [val_main_v326_apply, i326, val_main_v325_apply, i325, val_main_v324_apply, i324,
    val_main_v323_apply, i323, val_main_v295_apply, i295, val_main_v294_apply, i294]
/-- Projection 3 of the layer's node input is the affine map with the layer's matrix 3 and bias row 3. -/
theorem l2_Dh (h : Mat 20000 128) (hh : toMat (val_main_v291 (F := Ideal) x0 x1 x2 x3 x4 x5 x6 x7 x8 x9 x10) = h) :
    toMat (val_main_v327 (F := Ideal) x0 x1 x2 x3 x4 x5 x6 x7 x8 x9 x10) = lin h ((Cert.Net.paramsOf x0 x1 x2 x3 x4 x5 x6 x7 x8 x9 x10 x11 x12 x13 x14).L 2).W3 ((Cert.Net.paramsOf x0 x1 x2 x3 x4 x5 x6 x7 x8 x9 x10 x11 x12 x13 x14).L 2).b3 := by
  subst hh
  funext i j
  show val_main_v327 (F := Ideal) x0 x1 x2 x3 x4 x5 x6 x7 x8 x9 x10 (ix2 i j)
    = (∑ k : Fin 128, val_main_v291 (F := Ideal) x0 x1 x2 x3 x4 x5 x6 x7 x8 x9 x10 (ix2 i k) * x7 (ix4 (2 : Fin 3) (3 : Fin 5) k j)) + x8 (ix3 (2 : Fin 3) (3 : Fin 5) j)
  rw [val_main_v327_apply, val_main_v322_apply, b3_read x0 x1 x2 x3 x4 x5 x6 x7 x8 x9 x10 x11 x12 x13 x14, Ideal.addf_def]
  congr 1
  refine Finset.sum_congr rfl fun k _ => ?_
  rw [l322, r322, W3_read x0 x1 x2 x3 x4 x5 x6 x7 x8 x9 x10 x11 x12 x13 x14]

/-- The weight matrix of projection 4 is slice (2, 4, ·, ·) of the stacked weights. -/
theorem W4_read (k j : Fin 128) :
    val_main_v329 (F := Ideal) x7 (ix2 k j) = x7 (ix4 (2 : Fin 3) (4 : Fin 5) k j) := by
  rw [val_main_v329_apply, i329, val_main_v328_apply, i328, val_main_v293_apply, i293, val_main_v292_apply, i292]
/-- The bias row of projection 4 is slice (2, 4, ·) of the stacked biases, whatever the row. -/
theorem b4_read (i : Fin 20000) (j : Fin 128) :
    val_main_v334 (F := Ideal) x8 (ix2 i j) = x8 (ix3 (2 : Fin 3) (4 : Fin 5) j) := by
  rw [val_main_v334_apply, i334, val_main_v333_apply, i333, val_main_v332_apply, i332,
    val_main_v331_apply, i331, val_main_v295_apply, i295, val_main_v294_apply, i294]
/-- Projection 4 of the layer's node input is the affine map with the layer's matrix 4 and bias row 4. -/
theorem l2_Eh (h : Mat 20000 128) (hh : toMat (val_main_v291 (F := Ideal) x0 x1 x2 x3 x4 x5 x6 x7 x8 x9 x10) = h) :
    toMat (val_main_v335 (F := Ideal) x0 x1 x2 x3 x4 x5 x6 x7 x8 x9 x10) = lin h ((Cert.Net.paramsOf x0 x1 x2 x3 x4 x5 x6 x7 x8 x9 x10 x11 x12 x13 x14).L 2).W4 ((Cert.Net.paramsOf x0 x1 x2 x3 x4 x5 x6 x7 x8 x9 x10 x11 x12 x13 x14).L 2).b4 := by
  subst hh
  funext i j
  show val_main_v335 (F := Ideal) x0 x1 x2 x3 x4 x5 x6 x7 x8 x9 x10 (ix2 i j)
    = (∑ k : Fin 128, val_main_v291 (F := Ideal) x0 x1 x2 x3 x4 x5 x6 x7 x8 x9 x10 (ix2 i k) * x7 (ix4 (2 : Fin 3) (4 : Fin 5) k j)) + x8 (ix3 (2 : Fin 3) (4 : Fin 5) j)
  rw [val_main_v335_apply, val_main_v330_apply, b4_read x0 x1 x2 x3 x4 x5 x6 x7 x8 x9 x10 x11 x12 x13 x14, Ideal.addf_def]
  congr 1
  refine Finset.sum_congr rfl fun k _ => ?_
  rw [l330, r330, W4_read x0 x1 x2 x3 x4 x5 x6 x7 x8 x9 x10 x11 x12 x13 x14]

/-- The wrapped target word is the word itself when the word is in range. -/
theorem wrap340 (hidx : ∀ i, 0 ≤ (x1 i).toInt ∧ (x1 i).toInt < 20000) (e : Fin 320000) :
    val_main_v340 (F := Ideal) x1 (ix1 e) = x1 (ix2 (1 : Fin 2) e) := by
  rw [val_main_v340_apply, val_main_v337_apply, val_main_v336_apply, val_main_c_36_apply, Cert.RefA.word_dst,
    Cert.RefA.cmp_neg _ (hidx _).1, select_zero]
/-- The row selection reads the table's row the edge's target names. -/
theorem g342 (hidx : ∀ i, 0 ≤ (x1 i).toInt ∧ (x1 i).toInt < 20000) (e : Fin 320000) (j : Fin 128) :
    val_main_v342 (F := Ideal) x0 x1 x2 x3 x4 x5 x6 x7 x8 x9 x10 (ix2 e j)
      = val_main_v327 (F := Ideal) x0 x1 x2 x3 x4 x5 x6 x7 x8 x9 x10 (ix2 (Cert.Net.node (x1 (ix2 (1 : Fin 2) e))) j) := by
  unfold val_main_v342
  rw [Cert.LibGS.gather_rows_gen gather_S20000x128_S320000x1_S320000x128_1_0_n_n_0_1_1128 (by decide) rfl rfl rfl rfl rfl rfl,
    val_main_v341_apply, i341, wrap340 x0 x1 x2 x3 x4 x5 x6 x7 x8 x9 x10 x11 x12 x13 x14 hidx]
  rfl

/-- The wrapped source word is the word itself when the word is in range. -/
theorem wrap348 (hidx : ∀ i, 0 ≤ (x1 i).toInt ∧ (x1 i).toInt < 20000) (e : Fin 320000) :
    val_main_v348 (F := Ideal) x1 (ix1 e) = x1 (ix2 (0 : Fin 2) e) := by
  rw [val_main_v348_apply, val_main_v345_apply, val_main_v344_apply, val_main_c_38_apply, Cert.RefA.word_src,
    Cert.RefA.cmp_neg _ (hidx _).1, select_zero]
/-- The row selection reads the table's row the edge's source names. -/
theorem g350 (hidx : ∀ i, 0 ≤ (x1 i).toInt ∧ (x1 i).toInt < 20000) (e : Fin 320000) (j : Fin 128) :
    val_main_v350 (F := Ideal) x0 x1 x2 x3 x4 x5 x6 x7 x8 x9 x10 (ix2 e j)
      = val_main_v335 (F := Ideal) x0 x1 x2 x3 x4 x5 x6 x7 x8 x9 x10 (ix2 (Cert.Net.node (x1 (ix2 (0 : Fin 2) e))) j) := by
  unfold val_main_v350
  rw [Cert.LibGS.gather_rows_gen gather_S20000x128_S320000x1_S320000x128_1_0_n_n_0_1_1128 (by decide) rfl rfl rfl rfl rfl rfl,
    val_main_v349_apply, i349, wrap348 x0 x1 x2 x3 x4 x5 x6 x7 x8 x9 x10 x11 x12 x13 x14 hidx]
  rfl

/-- The wrapped source word is the word itself when the word is in range. -/
theorem wrap393 (hidx : ∀ i, 0 ≤ (x1 i).toInt ∧ (x1 i).toInt < 20000) (e : Fin 320000) :
    val_main_v393 (F := Ideal) x1 (ix1 e) = x1 (ix2 (0 : Fin 2) e) := by
  rw [val_main_v393_apply, val_main_v390_apply, val_main_v389_apply, val_main_c_47_apply, Cert.RefA.word_src,
    Cert.RefA.cmp_neg _ (hidx _).1, select_zero]
/-- The row selection reads the table's row the edge's source names. -/
theorem g395 (hidx : ∀ i, 0 ≤ (x1 i).toInt ∧ (x1 i).toInt < 20000) (e : Fin 320000) (j : Fin 128) :
    val_main_v395 (F := Ideal) x0 x1 x2 x3 x4 x5 x6 x7 x8 x9 x10 (ix2 e j)
      = val_main_v311 (F := Ideal) x0 x1 x2 x3 x4 x5 x6 x7 x8 x9 x10 (ix2 (Cert.Net.node (x1 (ix2 (0 : Fin 2) e))) j) := by
  unfold val_main_v395
  rw [Cert.LibGS.gather_rows_gen gather_S20000x128_S320000x1_S320000x128_1_0_n_n_0_1_1128 (by decide) rfl rfl rfl rfl rfl rfl,
    val_main_v394_apply, i394, wrap393 x0 x1 x2 x3 x4 x5 x6 x7 x8 x9 x10 x11 x12 x13 x14 hidx]
  rfl

/-- The edge pre-activation is the edge's own projection plus its target's and its source's. -/
theorem l2_ehat (h : Mat 20000 128) (e : Mat 320000 128) (hh : toMat (val_main_v291 (F := Ideal) x0 x1 x2 x3 x4 x5 x6 x7 x8 x9 x10) = h) (he : toMat (val_main_v248 (F := Ideal) x0 x1 x2 x3 x4 x5 x6 x7 x8 x9 x10) = e)
    (hidx : ∀ i, 0 ≤ (x1 i).toInt ∧ (x1 i).toInt < 20000) :
    toMat (val_main_v351 (F := Ideal) x0 x1 x2 x3 x4 x5 x6 x7 x8 x9 x10)
      = ehat (lin e ((Cert.Net.paramsOf x0 x1 x2 x3 x4 x5 x6 x7 x8 x9 x10 x11 x12 x13 x14).L 2).W2 ((Cert.Net.paramsOf x0 x1 x2 x3 x4 x5 x6 x7 x8 x9 x10 x11 x12 x13 x14).L 2).b2) (rows (lin h ((Cert.Net.paramsOf x0 x1 x2 x3 x4 x5 x6 x7 x8 x9 x10 x11 x12 x13 x14).L 2).W3 ((Cert.Net.paramsOf x0 x1 x2 x3 x4 x5 x6 x7 x8 x9 x10 x11 x12 x13 x14).L 2).b3) (Cert.Net.paramsOf x0 x1 x2 x3 x4 x5 x6 x7 x8 x9 x10 x11 x12 x13 x14).dst) (rows (lin h ((Cert.Net.paramsOf x0 x1 x2 x3 x4 x5 x6 x7 x8 x9 x10 x11 x12 x13 x14).L 2).W4 ((Cert.Net.paramsOf x0 x1 x2 x3 x4 x5 x6 x7 x8 x9 x10 x11 x12 x13 x14).L 2).b4) (Cert.Net.paramsOf x0 x1 x2 x3 x4 x5 x6 x7 x8 x9 x10 x11 x12 x13 x14).src) := by
  rw [← l2_Ce x0 x1 x2 x3 x4 x5 x6 x7 x8 x9 x10 x11 x12 x13 x14 e he, ← l2_Dh x0 x1 x2 x3 x4 x5 x6 x7 x8 x9 x10 x11 x12 x13 x14 h hh, ← l2_Eh x0 x1 x2 x3 x4 x5 x6 x7 x8 x9 x10 x11 x12 x13 x14 h hh]
  funext a j
  show val_main_v351 (F := Ideal) x0 x1 x2 x3 x4 x5 x6 x7 x8 x9 x10 (ix2 a j)
    = val_main_v319 (F := Ideal) x0 x1 x2 x3 x4 x5 x6 x7 x8 x9 x10 (ix2 a j)
      + val_main_v327 (F := Ideal) x0 x1 x2 x3 x4 x5 x6 x7 x8 x9 x10 (ix2 (Cert.Net.node (x1 (ix2 (1 : Fin 2) a))) j)
      + val_main_v335 (F := Ideal) x0 x1 x2 x3 x4 x5 x6 x7 x8 x9 x10 (ix2 (Cert.Net.node (x1 (ix2 (0 : Fin 2) a))) j)
  rw [val_main_v351_apply, val_main_v343_apply, g342 x0 x1 x2 x3 x4 x5 x6 x7 x8 x9 x10 x11 x12 x13 x14 hidx, g350 x0 x1 x2 x3 x4 x5 x6 x7 x8 x9 x10 x11 x12 x13 x14 hidx, Ideal.addf_def, Ideal.addf_def]

/-- The gated message is the logistic of the pre-activation times the source's projection. -/
theorem l2_msg (h : Mat 20000 128) (hh : toMat (val_main_v291 (F := Ideal) x0 x1 x2 x3 x4 x5 x6 x7 x8 x9 x10) = h) (hidx : ∀ i, 0 ≤ (x1 i).toInt ∧ (x1 i).toInt < 20000) :
    toMat (val_main_v396 (F := Ideal) x0 x1 x2 x3 x4 x5 x6 x7 x8 x9 x10)
      = msg (toMat (val_main_v351 (F := Ideal) x0 x1 x2 x3 x4 x5 x6 x7 x8 x9 x10)) (rows (lin h ((Cert.Net.paramsOf x0 x1 x2 x3 x4 x5 x6 x7 x8 x9 x10 x11 x12 x13 x14).L 2).W1 ((Cert.Net.paramsOf x0 x1 x2 x3 x4 x5 x6 x7 x8 x9 x10 x11 x12 x13 x14).L 2).b1) (Cert.Net.paramsOf x0 x1 x2 x3 x4 x5 x6 x7 x8 x9 x10 x11 x12 x13 x14).src) := by
  rw [← l2_Bh x0 x1 x2 x3 x4 x5 x6 x7 x8 x9 x10 x11 x12 x13 x14 h hh]
  funext a j
  show val_main_v396 (F := Ideal) x0 x1 x2 x3 x4 x5 x6 x7 x8 x9 x10 (ix2 a j)
    = Ideal.logistic (val_main_v351 (F := Ideal) x0 x1 x2 x3 x4 x5 x6 x7 x8 x9 x10 (ix2 a j))
      * val_main_v311 (F := Ideal) x0 x1 x2 x3 x4 x5 x6 x7 x8 x9 x10 (ix2 (Cert.Net.node (x1 (ix2 (0 : Fin 2) a))) j)
  rw [val_main_v396_apply, val_main_v357_apply, val_main_v356_apply, val_main_cst_41_apply, val_main_v355_apply,
    val_main_v354_apply, val_main_cst_40_apply, val_main_v353_apply, val_main_v352_apply, g395 x0 x1 x2 x3 x4 x5 x6 x7 x8 x9 x10 x11 x12 x13 x14 hidx, Cert.RefA.one_word]
  rfl

/-- The aggregation at node i is the sum of the message rows whose target is i. -/
theorem s399 (hidx : ∀ i, 0 ≤ (x1 i).toInt ∧ (x1 i).toInt < 20000) (i : Fin 20000) (j : Fin 128) :
    val_main_v399 (F := Ideal) x0 x1 x2 x3 x4 x5 x6 x7 x8 x9 x10 (ix2 i j)
      = ∑ e ∈ Finset.univ.filter (fun e : Fin 320000 => Cert.Net.node (x1 (ix2 (1 : Fin 2) e)) = i),
          val_main_v396 (F := Ideal) x0 x1 x2 x3 x4 x5 x6 x7 x8 x9 x10 (ix2 e j) := by
  unfold val_main_v399 Host.scatterAdd
  rw [Ideal.hostScatterAdd_def,
    Cert.LibGS.scatterAdd_rows_gen scatter_S20000x128_S320000x1_S320000x128_1_0_0_1 rfl rfl rfl rfl,
    val_main_v397_apply, val_main_cst_49_apply, Cert.RefA.zero_word, zero_add]
  refine Finset.sum_congr (Finset.filter_congr fun e _ => ?_) (fun _ _ => rfl)
  rw [val_main_v398_apply, i398, Cert.RefA.word_dst]
  exact (Cert.RefA.node_eq_iff _ (hidx _) i).symm

/-- The node pre-activation is the node's first projection plus the aggregated messages. -/
theorem l2_xadd (h : Mat 20000 128) (hh : toMat (val_main_v291 (F := Ideal) x0 x1 x2 x3 x4 x5 x6 x7 x8 x9 x10) = h) (hidx : ∀ i, 0 ≤ (x1 i).toInt ∧ (x1 i).toInt < 20000) :
    toMat (val_main_v400 (F := Ideal) x0 x1 x2 x3 x4 x5 x6 x7 x8 x9 x10)
      = madd (lin h ((Cert.Net.paramsOf x0 x1 x2 x3 x4 x5 x6 x7 x8 x9 x10 x11 x12 x13 x14).L 2).W0 ((Cert.Net.paramsOf x0 x1 x2 x3 x4 x5 x6 x7 x8 x9 x10 x11 x12 x13 x14).L 2).b0) (segSum (toMat (val_main_v396 (F := Ideal) x0 x1 x2 x3 x4 x5 x6 x7 x8 x9 x10)) (Cert.Net.paramsOf x0 x1 x2 x3 x4 x5 x6 x7 x8 x9 x10 x11 x12 x13 x14).dst) := by
  rw [← l2_Ah x0 x1 x2 x3 x4 x5 x6 x7 x8 x9 x10 x11 x12 x13 x14 h hh]
  funext i j
  show val_main_v400 (F := Ideal) x0 x1 x2 x3 x4 x5 x6 x7 x8 x9 x10 (ix2 i j)
    = val_main_v303 (F := Ideal) x0 x1 x2 x3 x4 x5 x6 x7 x8 x9 x10 (ix2 i j)
      + ∑ e ∈ Finset.univ.filter (fun e : Fin 320000 => Cert.Net.node (x1 (ix2 (1 : Fin 2) e)) = i),
          val_main_v396 (F := Ideal) x0 x1 x2 x3 x4 x5 x6 x7 x8 x9 x10 (ix2 e j)
  rw [val_main_v400_apply, s399 x0 x1 x2 x3 x4 x5 x6 x7 x8 x9 x10 x11 x12 x13 x14 hidx, Ideal.addf_def]

end Layer

end Cert.RefA2

end
-- ==== Proof.RefB.lean ====
/-
  The reference's normalisation blocks of layer 0 and its head, read as stages of the network.

  Each gated layer ends its edge side and its node side with the same block: the column mean of a pre-activation
  (the column's sum divided by the row count), the column variance as the mean of the squared deviations from that
  mean, the pre-activation normalised by the two, scaled and shifted by the layer's rows, clamped at zero and added
  to the layer's input. Read index by index, the reference's operations for that block are the stage
  `bnRelu` at the stages `colMean` and `colVarDev` of the pre-activation. The head is the column mean of the
  last node features pushed through two affine maps with a clamp at zero between them: the stage `tail`.
-/
import proofs.«418385_j87393994539142_1_alg».proof.Proof.RefRead
import proofs.«418385_j87393994539142_1_alg».proof.Proof.Net
import Idealize.ShloMosaic.PureOps.Ideal.Laws
import Idealize.ShloMosaic.Lib.ValueIdx

noncomputable section

open scoped BigOperators

namespace Cert.RefB

open Idealize.ShloMosaic Idealize.ShloMosaic.ValueIdx Cert.Stage Cert.ReferenceIdeal Cert.ReferenceIdeal.Gen
  Cert.ReferenceIdeal.Read

variable
  (x0 : (⟨S20000x128, .f32⟩ : BufTy).Contents (Elt Ideal))
  (x1 : (⟨S2x320000, .i32⟩ : BufTy).Contents (Elt Ideal))
  (x2 : (⟨S320000x128, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S3x5x128x128, .f32⟩ : BufTy).Contents (Elt Ideal))
  (x8 : (⟨S3x5x128, .f32⟩ : BufTy).Contents (Elt Ideal))
  (x9 : (⟨S3x2x128, .f32⟩ : BufTy).Contents (Elt Ideal))
  (x10 : (⟨S3x2x128, .f32⟩ : BufTy).Contents (Elt Ideal))
  (x11 : (⟨S128x128, .f32⟩ : BufTy).Contents (Elt Ideal))
  (x12 : (⟨S128, .f32⟩ : BufTy).Contents (Elt Ideal))
  (x13 : (⟨S128x64, .f32⟩ : BufTy).Contents (Elt Ideal))
  (x14 : (⟨S64, .f32⟩ : BufTy).Contents (Elt Ideal))

/-! ## Layer 0, the edge side: the batch statistics of the pre-activation and the normalised, clamped update -/

/-- The column mean of the edge pre-activation: the column's sum over the 320000 rows, divided by the row count. -/
theorem l0_meanE (j : Fin 128) :
    val_main_v84 (F := Ideal) x0 x1 x2 x3 x4 x5 x6 x7 x8 (ix1 j)
      = colMean Cert.Net.cE (toMat (val_main_v71 (F := Ideal) x0 x1 x2 x3 x4 x5 x6 x7 x8)) j := by
  rw [val_main_v84_apply, val_main_v82_apply, val_main_v83_apply, val_main_cst_4_apply, val_main_cst_5_apply]
  generalize val_main_v71 (F := Ideal) x0 x1 x2 x3 x4 x5 x6 x7 x8 = y
  simp only [Ideal.hostDivf_def, Ideal.ofBits_def, Ideal.ofBits_zero_f32, zero_add]
  have hs : (∑ k : Fin 320000, y (idx_main_v82 (ix1 j) k)) = ∑ k : Fin 320000, y (ix2 k j) :=
    Finset.sum_congr rfl fun k _ =>
      congrArg y (funext fun a => Fin.ext (by match a with | ⟨0, _⟩ => rfl | ⟨1, _⟩ => rfl))
  rw [hs]
  rfl

/-- The column variance of the edge pre-activation, as the mean of the squared deviations from the column mean. -/
theorem l0_varE (j : Fin 128) :
    val_main_v91 (F := Ideal) x0 x1 x2 x3 x4 x5 x6 x7 x8 (ix1 j)
      = colVarDev Cert.Net.cE (toMat (val_main_v71 (F := Ideal) x0 x1 x2 x3 x4 x5 x6 x7 x8)) j := by
  rw [val_main_v91_apply, val_main_v89_apply, val_main_v90_apply, val_main_cst_6_apply, val_main_cst_7_apply]
  simp only [Ideal.hostDivf_def, Ideal.ofBits_def, Ideal.ofBits_zero_f32, zero_add]
  have hterm : ∀ k : Fin 320000,
      val_main_v88 (F := Ideal) x0 x1 x2 x3 x4 x5 x6 x7 x8 (idx_main_v89 (ix1 j) k)
        = (val_main_v71 (F := Ideal) x0 x1 x2 x3 x4 x5 x6 x7 x8 (ix2 k j)
            - colMean Cert.Net.cE (toMat (val_main_v71 (F := Ideal) x0 x1 x2 x3 x4 x5 x6 x7 x8)) j)
          * (val_main_v71 (F := Ideal) x0 x1 x2 x3 x4 x5 x6 x7 x8 (ix2 k j)
            - colMean Cert.Net.cE (toMat (val_main_v71 (F := Ideal) x0 x1 x2 x3 x4 x5 x6 x7 x8)) j) := by
    intro k
    have hk : idx_main_v89 (ix1 j) k = ix2 k j :=
      funext fun a => Fin.ext (by match a with | ⟨0, _⟩ => rfl | ⟨1, _⟩ => rfl)
    have hi : idx_main_v85 (idx_main_v86 (ix2 k j)) = ix1 j :=
      funext fun a => Fin.ext (by match a with | ⟨0, _⟩ => rfl)
    rw [hk, val_main_v88_apply, val_main_v87_apply, val_main_v86_apply, val_main_v85_apply, hi, l0_meanE]
    simp only [Ideal.mulf_def, Ideal.subf_def]
  rw [Finset.sum_congr rfl fun k _ => hterm k]
  generalize val_main_v71 (F := Ideal) x0 x1 x2 x3 x4 x5 x6 x7 x8 = y
  rfl

/-- The edge update of layer 0: the residual plus the clamped, scaled and shifted normalisation of the pre-activation
    by its column mean and variance. -/
theorem l0_bnE :
    toMat (val_main_v108 (F := Ideal) x0 x1 x2 x3 x4 x5 x6 x7 x8 x9 x10)
      = bnRelu Cert.Net.eps (toMat (val_main_v71 (F := Ideal) x0 x1 x2 x3 x4 x5 x6 x7 x8))
          (toMat (val_main_v11 (F := Ideal) x2 x5 x6))
          (colMean Cert.Net.cE (toMat (val_main_v71 (F := Ideal) x0 x1 x2 x3 x4 x5 x6 x7 x8)))
          (colVarDev Cert.Net.cE (toMat (val_main_v71 (F := Ideal) x0 x1 x2 x3 x4 x5 x6 x7 x8)))
          ((Cert.Net.paramsOf x0 x1 x2 x3 x4 x5 x6 x7 x8 x9 x10 x11 x12 x13 x14).L 0).gE
          ((Cert.Net.paramsOf x0 x1 x2 x3 x4 x5 x6 x7 x8 x9 x10 x11 x12 x13 x14).L 0).beE := by
  funext i j
  show val_main_v108 (F := Ideal) x0 x1 x2 x3 x4 x5 x6 x7 x8 x9 x10 (ix2 i j) = _
  have h1 : idx_main_v92 (idx_main_v93 (ix2 i j)) = ix1 j :=
    funext fun a => Fin.ext (by match a with | ⟨0, _⟩ => rfl)
  have h2 : idx_main_v101 (idx_main_v102 (ix2 i j)) = ix1 j :=
    funext fun a => Fin.ext (by match a with | ⟨0, _⟩ => rfl)
  have h3 : idx_main_v78 (idx_main_v79 (idx_main_v95 (idx_main_v96 (ix2 i j)))) = ix3 (0 : Fin 3) (1 : Fin 2) j :=
    funext fun a => Fin.ext (by
      match a with
      | ⟨0, _⟩ => rfl
      | ⟨1, _⟩ => rfl
      | ⟨2, _⟩ => exact Nat.mod_eq_of_lt j.isLt)
  have h4 : idx_main_v80 (idx_main_v81 (idx_main_v104 (idx_main_v105 (ix2 i j)))) = ix3 (0 : Fin 3) (1 : Fin 2) j :=
    funext fun a => Fin.ext (by
      match a with
      | ⟨0, _⟩ => rfl
      | ⟨1, _⟩ => rfl
      | ⟨2, _⟩ => exact Nat.mod_eq_of_lt j.isLt)
  rw [val_main_v108_apply, val_main_v107_apply, val_main_v106_apply, val_main_v103_apply, val_main_v97_apply,
    val_main_v96_apply, val_main_v95_apply, val_main_v79_apply, val_main_v78_apply, h3,
    val_main_v94_apply, val_main_v93_apply, val_main_v92_apply, h1, l0_meanE,
    val_main_v102_apply, val_main_v101_apply, h2, val_main_v100_apply, val_main_v99_apply, l0_varE,
    val_main_v98_apply, val_main_cst_8_apply,
    val_main_v105_apply, val_main_v104_apply, val_main_v81_apply, val_main_v80_apply, h4,
    val_main_call0_v0_apply, val_main_call0_cst_apply]
  simp only [Ideal.addf_def, Ideal.mulf_def, Ideal.subf_def, Ideal.maximumf_def, Ideal.hostUnary_rsqrt_def,
    Ideal.ofBits_def, Ideal.ofBits_zero_f32]
  generalize val_main_v71 (F := Ideal) x0 x1 x2 x3 x4 x5 x6 x7 x8 = y
  generalize val_main_v11 (F := Ideal) x2 x5 x6 = r
  rfl

/-! ## Layer 0, the node side: the batch statistics of the aggregated projection and the normalised, clamped update -/

/-- The column mean of the node pre-activation: the column's sum over the 20000 rows, divided by the row count. -/
theorem l0_meanN (j : Fin 128) :
    val_main_v127 (F := Ideal) x0 x1 x2 x3 x4 x5 x6 x7 x8 (ix1 j)
      = colMean Cert.Net.cN (toMat (val_main_v120 (F := Ideal) x0 x1 x2 x3 x4 x5 x6 x7 x8)) j := by
  rw [val_main_v127_apply, val_main_v125_apply, val_main_v126_apply, val_main_cst_12_apply, val_main_cst_13_apply]
  generalize val_main_v120 (F := Ideal) x0 x1 x2 x3 x4 x5 x6 x7 x8 = y
  simp only [Ideal.hostDivf_def, Ideal.ofBits_def, Ideal.ofBits_zero_f32, zero_add]
  have hs : (∑ k : Fin 20000, y (idx_main_v125 (ix1 j) k)) = ∑ k : Fin 20000, y (ix2 k j) :=
    Finset.sum_congr rfl fun k _ =>
      congrArg y (funext fun a => Fin.ext (by match a with | ⟨0, _⟩ => rfl | ⟨1, _⟩ => rfl))
  rw [hs]
  rfl

/-- The column variance of the node pre-activation, as the mean of the squared deviations from the column mean. -/
theorem l0_varN (j : Fin 128) :
    val_main_v134 (F := Ideal) x0 x1 x2 x3 x4 x5 x6 x7 x8 (ix1 j)
      = colVarDev Cert.Net.cN (toMat (val_main_v120 (F := Ideal) x0 x1 x2 x3 x4 x5 x6 x7 x8)) j := by
  rw [val_main_v134_apply, val_main_v132_apply, val_main_v133_apply, val_main_cst_14_apply, val_main_cst_15_apply]
  simp only [Ideal.hostDivf_def, Ideal.ofBits_def, Ideal.ofBits_zero_f32, zero_add]
  have hterm : ∀ k : Fin 20000,
      val_main_v131 (F := Ideal) x0 x1 x2 x3 x4 x5 x6 x7 x8 (idx_main_v132 (ix1 j) k)
        = (val_main_v120 (F := Ideal) x0 x1 x2 x3 x4 x5 x6 x7 x8 (ix2 k j)
            - colMean Cert.Net.cN (toMat (val_main_v120 (F := Ideal) x0 x1 x2 x3 x4 x5 x6 x7 x8)) j)
          * (val_main_v120 (F := Ideal) x0 x1 x2 x3 x4 x5 x6 x7 x8 (ix2 k j)
            - colMean Cert.Net.cN (toMat (val_main_v120 (F := Ideal) x0 x1 x2 x3 x4 x5 x6 x7 x8)) j) := by
    intro k
    have hk : idx_main_v132 (ix1 j) k = ix2 k j :=
      funext fun a => Fin.ext (by match a with | ⟨0, _⟩ => rfl | ⟨1, _⟩ => rfl)
    have hi : idx_main_v128 (idx_main_v129 (ix2 k j)) = ix1 j :=
      funext fun a => Fin.ext (by match a with | ⟨0, _⟩ => rfl)
    rw [hk, val_main_v131_apply, val_main_v130_apply, val_main_v129_apply, val_main_v128_apply, hi, l0_meanN]
    simp only [Ideal.mulf_def, Ideal.subf_def]
  rw [Finset.sum_congr rfl fun k _ => hterm k]
  generalize val_main_v120 (F := Ideal) x0 x1 x2 x3 x4 x5 x6 x7 x8 = y
  rfl

/-- The node update of layer 0: the residual plus the clamped, scaled and shifted normalisation of the pre-activation
    by its column mean and variance. -/
theorem l0_bnN :
    toMat (val_main_v151 (F := Ideal) x0 x1 x2 x3 x4 x5 x6 x7 x8 x9 x10)
      = bnRelu Cert.Net.eps (toMat (val_main_v120 (F := Ideal) x0 x1 x2 x3 x4 x5 x6 x7 x8))
          (toMat (val_main_v7 (F := Ideal) x0 x3 x4))
          (colMean Cert.Net.cN (toMat (val_main_v120 (F := Ideal) x0 x1 x2 x3 x4 x5 x6 x7 x8)))
          (colVarDev Cert.Net.cN (toMat (val_main_v120 (F := Ideal) x0 x1 x2 x3 x4 x5 x6 x7 x8)))
          ((Cert.Net.paramsOf x0 x1 x2 x3 x4 x5 x6 x7 x8 x9 x10 x11 x12 x13 x14).L 0).gN
          ((Cert.Net.paramsOf x0 x1 x2 x3 x4 x5 x6 x7 x8 x9 x10 x11 x12 x13 x14).L 0).beN := by
  funext i j
  show val_main_v151 (F := Ideal) x0 x1 x2 x3 x4 x5 x6 x7 x8 x9 x10 (ix2 i j) = _
  have h1 : idx_main_v135 (idx_main_v136 (ix2 i j)) = ix1 j :=
    funext fun a => Fin.ext (by match a with | ⟨0, _⟩ => rfl)
  have h2 : idx_main_v144 (idx_main_v145 (ix2 i j)) = ix1 j :=
    funext fun a => Fin.ext (by match a with | ⟨0, _⟩ => rfl)
  have h3 : idx_main_v121 (idx_main_v122 (idx_main_v138 (idx_main_v139 (ix2 i j)))) = ix3 (0 : Fin 3) (0 : Fin 2) j :=
    funext fun a => Fin.ext (by
      match a with
      | ⟨0, _⟩ => rfl
      | ⟨1, _⟩ => rfl
      | ⟨2, _⟩ => exact Nat.mod_eq_of_lt j.isLt)
  have h4 : idx_main_v123 (idx_main_v124 (idx_main_v147 (idx_main_v148 (ix2 i j)))) = ix3 (0 : Fin 3) (0 : Fin 2) j :=
    funext fun a => Fin.ext (by
      match a with
      | ⟨0, _⟩ => rfl
      | ⟨1, _⟩ => rfl
      | ⟨2, _⟩ => exact Nat.mod_eq_of_lt j.isLt)
  rw [val_main_v151_apply, val_main_v150_apply, val_main_v149_apply, val_main_v146_apply, val_main_v140_apply,
    val_main_v139_apply, val_main_v138_apply, val_main_v122_apply, val_main_v121_apply, h3,
    val_main_v137_apply, val_main_v136_apply, val_main_v135_apply, h1, l0_meanN,
    val_main_v145_apply, val_main_v144_apply, h2, val_main_v143_apply, val_main_v142_apply, l0_varN,
    val_main_v141_apply, val_main_cst_16_apply,
    val_main_v148_apply, val_main_v147_apply, val_main_v124_apply, val_main_v123_apply, h4,
    val_main_call1_v0_apply, val_main_call1_cst_apply]
  simp only [Ideal.addf_def, Ideal.mulf_def, Ideal.subf_def, Ideal.maximumf_def, Ideal.hostUnary_rsqrt_def,
    Ideal.ofBits_def, Ideal.ofBits_zero_f32]
  generalize val_main_v120 (F := Ideal) x0 x1 x2 x3 x4 x5 x6 x7 x8 = y
  generalize val_main_v7 (F := Ideal) x0 x3 x4 = r
  rfl

/-! ## The head: the column mean of the last node features, two affine maps with a clamp at zero between them -/

/-- The head's one row of column means: the column's sum over the 20000 rows, divided by the row count. -/
theorem head_mean (i0 : Fin 1) (j : Fin 128) :
    val_main_v435 (F := Ideal) x0 x1 x2 x3 x4 x5 x6 x7 x8 x9 x10 (ix2 i0 j)
      = colMean Cert.Net.cN (toMat (val_main_v431 (F := Ideal) x0 x1 x2 x3 x4 x5 x6 x7 x8 x9 x10)) j := by
  have hi : idx_main_v433 (ix2 i0 j) = ix1 j :=
    funext fun a => Fin.ext (by match a with | ⟨0, _⟩ => rfl)
  rw [val_main_v435_apply, val_main_v433_apply, hi, val_main_v432_apply, val_main_v434_apply,
    val_main_cst_55_apply, val_main_cst_56_apply]
  generalize val_main_v431 (F := Ideal) x0 x1 x2 x3 x4 x5 x6 x7 x8 x9 x10 = y
  simp only [Ideal.hostDivf_def, Ideal.ofBits_def, Ideal.ofBits_zero_f32, zero_add]
  have hs : (∑ k : Fin 20000, y (idx_main_v432 (ix1 j) k)) = ∑ k : Fin 20000, y (ix2 k j) :=
    Finset.sum_congr rfl fun k _ =>
      congrArg y (funext fun a => Fin.ext (by match a with | ⟨0, _⟩ => rfl | ⟨1, _⟩ => rfl))
  rw [hs]
  rfl

/-- The head's hidden row: the first affine map of the column means, clamped at zero. -/
theorem head_hidden (i0 : Fin 1) (k : Fin 128) :
    val_main_v439 (F := Ideal) x0 x1 x2 x3 x4 x5 x6 x7 x8 x9 x10 x11 x12 (ix2 i0 k)
      = max (lin (fun (_ : Fin 1) k' =>
            colMean Cert.Net.cN (toMat (val_main_v431 (F := Ideal) x0 x1 x2 x3 x4 x5 x6 x7 x8 x9 x10)) k')
          (toMat x11) (toRow x12) i0 k) 0 := by
  have hterm : ∀ k' : Fin 128,
      val_main_v435 (F := Ideal) x0 x1 x2 x3 x4 x5 x6 x7 x8 x9 x10 (lidx_main_v436 (ix2 i0 k) k')
          * x11 (ridx_main_v436 (ix2 i0 k) k')
        = colMean Cert.Net.cN (toMat (val_main_v431 (F := Ideal) x0 x1 x2 x3 x4 x5 x6 x7 x8 x9 x10)) k'
          * x11 (ix2 k' k) := by
    intro k'
    have hl : lidx_main_v436 (ix2 i0 k) k' = ix2 i0 k' :=
      funext fun a => Fin.ext (by match a with | ⟨0, _⟩ => rfl | ⟨1, _⟩ => rfl)
    have hr : ridx_main_v436 (ix2 i0 k) k' = ix2 k' k :=
      funext fun a => Fin.ext (by match a with | ⟨0, _⟩ => rfl | ⟨1, _⟩ => rfl)
    rw [hl, hr, head_mean]
  have hb : idx_main_v437 (ix2 i0 k) = ix1 k :=
    funext fun a => Fin.ext (by match a with | ⟨0, _⟩ => rfl)
  rw [val_main_v439_apply, val_main_v438_apply, val_main_v436_apply, val_main_v437_apply, hb,
    val_main_call6_v0_apply, val_main_call6_cst_apply, Finset.sum_congr rfl fun k' _ => hterm k']
  simp only [Ideal.addf_def, Ideal.maximumf_def, Ideal.ofBits_def, Ideal.ofBits_zero_f32]
  generalize val_main_v431 (F := Ideal) x0 x1 x2 x3 x4 x5 x6 x7 x8 x9 x10 = y
  rfl

/-- The reference's result is the head applied to the node features the third layer leaves. -/
theorem head :
    toMat (val_main_v442 (F := Ideal) x0 x1 x2 x3 x4 x5 x6 x7 x8 x9 x10 x11 x12 x13 x14)
      = Cert.Net.tail (Cert.Net.paramsOf x0 x1 x2 x3 x4 x5 x6 x7 x8 x9 x10 x11 x12 x13 x14)
          (toMat (val_main_v431 (F := Ideal) x0 x1 x2 x3 x4 x5 x6 x7 x8 x9 x10)) := by
  funext i j
  show val_main_v442 (F := Ideal) x0 x1 x2 x3 x4 x5 x6 x7 x8 x9 x10 x11 x12 x13 x14 (ix2 i j) = _
  have hterm : ∀ k : Fin 128,
      val_main_v439 (F := Ideal) x0 x1 x2 x3 x4 x5 x6 x7 x8 x9 x10 x11 x12 (lidx_main_v440 (ix2 i j) k)
          * x13 (ridx_main_v440 (ix2 i j) k)
        = max (lin (fun (_ : Fin 1) k' =>
              colMean Cert.Net.cN (toMat (val_main_v431 (F := Ideal) x0 x1 x2 x3 x4 x5 x6 x7 x8 x9 x10)) k')
            (toMat x11) (toRow x12) i k) 0 * x13 (ix2 k j) := by
    intro k
    have hl : lidx_main_v440 (ix2 i j) k = ix2 i k :=
      funext fun a => Fin.ext (by match a with | ⟨0, _⟩ => rfl | ⟨1, _⟩ => rfl)
    have hr : ridx_main_v440 (ix2 i j) k = ix2 k j :=
      funext fun a => Fin.ext (by match a with | ⟨0, _⟩ => rfl | ⟨1, _⟩ => rfl)
    rw [hl, hr, head_hidden]
  have hb : idx_main_v441 (ix2 i j) = ix1 j :=
    funext fun a => Fin.ext (by match a with | ⟨0, _⟩ => rfl)
  rw [val_main_v442_apply, val_main_v440_apply, val_main_v441_apply, hb,
    Finset.sum_congr rfl fun k _ => hterm k]
  simp only [Ideal.addf_def]
  generalize val_main_v431 (F := Ideal) x0 x1 x2 x3 x4 x5 x6 x7 x8 x9 x10 = y
  rfl

end Cert.RefB

end
-- ==== Proof.RefB1.lean ====
/-
  The reference's normalisation blocks of layer 1, read as stages of the network: the same block as layer 0's
  (column mean, column variance as mean of squared deviations, normalise, scale, shift, clamp at zero, add the
  layer's input), at this layer's operations and this layer's scale and shift rows.
-/
import proofs.«418385_j87393994539142_1_alg».proof.Proof.RefRead
import proofs.«418385_j87393994539142_1_alg».proof.Proof.Net
import Idealize.ShloMosaic.PureOps.Ideal.Laws
import Idealize.ShloMosaic.Lib.ValueIdx

noncomputable section

open scoped BigOperators

namespace Cert.RefB1

open Idealize.ShloMosaic Idealize.ShloMosaic.ValueIdx Cert.Stage Cert.ReferenceIdeal Cert.ReferenceIdeal.Gen
  Cert.ReferenceIdeal.Read

variable
  (x0 : (⟨S20000x128, .f32⟩ : BufTy).Contents (Elt Ideal))
  (x1 : (⟨S2x320000, .i32⟩ : BufTy).Contents (Elt Ideal))
  (x2 : (⟨S320000x128, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S3x5x128x128, .f32⟩ : BufTy).Contents (Elt Ideal))
  (x8 : (⟨S3x5x128, .f32⟩ : BufTy).Contents (Elt Ideal))
  (x9 : (⟨S3x2x128, .f32⟩ : BufTy).Contents (Elt Ideal))
  (x10 : (⟨S3x2x128, .f32⟩ : BufTy).Contents (Elt Ideal))
  (x11 : (⟨S128x128, .f32⟩ : BufTy).Contents (Elt Ideal))
  (x12 : (⟨S128, .f32⟩ : BufTy).Contents (Elt Ideal))
  (x13 : (⟨S128x64, .f32⟩ : BufTy).Contents (Elt Ideal))
  (x14 : (⟨S64, .f32⟩ : BufTy).Contents (Elt Ideal))

/-! ## Layer 1, the edge side: the batch statistics of the pre-activation and the normalised, clamped update -/

/-- The column mean of the edge pre-activation: the column's sum over the 320000 rows, divided by the row count. -/
theorem l1_meanE (j : Fin 128) :
    val_main_v224 (F := Ideal) x0 x1 x2 x3 x4 x5 x6 x7 x8 x9 x10 (ix1 j)
      = colMean Cert.Net.cE (toMat (val_main_v211 (F := Ideal) x0 x1 x2 x3 x4 x5 x6 x7 x8 x9 x10)) j := by
  rw [val_main_v224_apply, val_main_v222_apply, val_main_v223_apply, val_main_cst_23_apply, val_main_cst_24_apply]
  generalize val_main_v211 (F := Ideal) x0 x1 x2 x3 x4 x5 x6 x7 x8 x9 x10 = y
  simp only [Ideal.hostDivf_def, Ideal.ofBits_def, Ideal.ofBits_zero_f32, zero_add]
  have hs : (∑ k : Fin 320000, y (idx_main_v222 (ix1 j) k)) = ∑ k : Fin 320000, y (ix2 k j) :=
    Finset.sum_congr rfl fun k _ =>
      congrArg y (funext fun a => Fin.ext (by match a with | ⟨0, _⟩ => rfl | ⟨1, _⟩ => rfl))
  rw [hs]
  rfl

/-- The column variance of the edge pre-activation, as the mean of the squared deviations from the column mean. -/
theorem l1_varE (j : Fin 128) :
    val_main_v231 (F := Ideal) x0 x1 x2 x3 x4 x5 x6 x7 x8 x9 x10 (ix1 j)
      = colVarDev Cert.Net.cE (toMat (val_main_v211 (F := Ideal) x0 x1 x2 x3 x4 x5 x6 x7 x8 x9 x10)) j := by
  rw [val_main_v231_apply, val_main_v229_apply, val_main_v230_apply, val_main_cst_25_apply, val_main_cst_26_apply]
  simp only [Ideal.hostDivf_def, Ideal.ofBits_def, Ideal.ofBits_zero_f32, zero_add]
  have hterm : ∀ k : Fin 320000,
      val_main_v228 (F := Ideal) x0 x1 x2 x3 x4 x5 x6 x7 x8 x9 x10 (idx_main_v229 (ix1 j) k)
        = (val_main_v211 (F := Ideal) x0 x1 x2 x3 x4 x5 x6 x7 x8 x9 x10 (ix2 k j)
            - colMean Cert.Net.cE (toMat (val_main_v211 (F := Ideal) x0 x1 x2 x3 x4 x5 x6 x7 x8 x9 x10)) j)
          * (val_main_v211 (F := Ideal) x0 x1 x2 x3 x4 x5 x6 x7 x8 x9 x10 (ix2 k j)
            - colMean Cert.Net.cE (toMat (val_main_v211 (F := Ideal) x0 x1 x2 x3 x4 x5 x6 x7 x8 x9 x10)) j) := by
    intro k
    have hk : idx_main_v229 (ix1 j) k = ix2 k j :=
      funext fun a => Fin.ext (by match a with | ⟨0, _⟩ => rfl | ⟨1, _⟩ => rfl)
    have hi : idx_main_v225 (idx_main_v226 (ix2 k j)) = ix1 j :=
      funext fun a => Fin.ext (by match a with | ⟨0, _⟩ => rfl)
    rw [hk, val_main_v228_apply, val_main_v227_apply, val_main_v226_apply, val_main_v225_apply, hi, l1_meanE]
    simp only [Ideal.mulf_def, Ideal.subf_def]
  rw [Finset.sum_congr rfl fun k _ => hterm k]
  generalize val_main_v211 (F := Ideal) x0 x1 x2 x3 x4 x5 x6 x7 x8 x9 x10 = y
  rfl

/-- The edge update of layer 1: the residual plus the clamped, scaled and shifted normalisation of the pre-activation
    by its column mean and variance. -/
theorem l1_bnE :
    toMat (val_main_v248 (F := Ideal) x0 x1 x2 x3 x4 x5 x6 x7 x8 x9 x10)
      = bnRelu Cert.Net.eps (toMat (val_main_v211 (F := Ideal) x0 x1 x2 x3 x4 x5 x6 x7 x8 x9 x10))
          (toMat (val_main_v108 (F := Ideal) x0 x1 x2 x3 x4 x5 x6 x7 x8 x9 x10))
          (colMean Cert.Net.cE (toMat (val_main_v211 (F := Ideal) x0 x1 x2 x3 x4 x5 x6 x7 x8 x9 x10)))
          (colVarDev Cert.Net.cE (toMat (val_main_v211 (F := Ideal) x0 x1 x2 x3 x4 x5 x6 x7 x8 x9 x10)))
          ((Cert.Net.paramsOf x0 x1 x2 x3 x4 x5 x6 x7 x8 x9 x10 x11 x12 x13 x14).L 1).gE
          ((Cert.Net.paramsOf x0 x1 x2 x3 x4 x5 x6 x7 x8 x9 x10 x11 x12 x13 x14).L 1).beE := by
  funext i j
  show val_main_v248 (F := Ideal) x0 x1 x2 x3 x4 x5 x6 x7 x8 x9 x10 (ix2 i j) = _
  have h1 : idx_main_v232 (idx_main_v233 (ix2 i j)) = ix1 j :=
    funext fun a => Fin.ext (by match a with | ⟨0, _⟩ => rfl)
  have h2 : idx_main_v241 (idx_main_v242 (ix2 i j)) = ix1 j :=
    funext fun a => Fin.ext (by match a with | ⟨0, _⟩ => rfl)
  have h3 : idx_main_v218 (idx_main_v219 (idx_main_v235 (idx_main_v236 (ix2 i j)))) = ix3 (1 : Fin 3) (1 : Fin 2) j :=
    funext fun a => Fin.ext (by
      match a with
      | ⟨0, _⟩ => rfl
      | ⟨1, _⟩ => rfl
      | ⟨2, _⟩ => exact Nat.mod_eq_of_lt j.isLt)
  have h4 : idx_main_v220 (idx_main_v221 (idx_main_v244 (idx_main_v245 (ix2 i j)))) = ix3 (1 : Fin 3) (1 : Fin 2) j :=
    funext fun a => Fin.ext (by
      match a with
      | ⟨0, _⟩ => rfl
      | ⟨1, _⟩ => rfl
      | ⟨2, _⟩ => exact Nat.mod_eq_of_lt j.isLt)
  rw [val_main_v248_apply, val_main_v247_apply, val_main_v246_apply, val_main_v243_apply, val_main_v237_apply,
    val_main_v236_apply, val_main_v235_apply, val_main_v219_apply, val_main_v218_apply, h3,
    val_main_v234_apply, val_main_v233_apply, val_main_v232_apply, h1, l1_meanE,
    val_main_v242_apply, val_main_v241_apply, h2, val_main_v240_apply, val_main_v239_apply, l1_varE,
    val_main_v238_apply, val_main_cst_27_apply,
    val_main_v245_apply, val_main_v244_apply, val_main_v221_apply, val_main_v220_apply, h4,
    val_main_call2_v0_apply, val_main_call2_cst_apply]
  simp only [Ideal.addf_def, Ideal.mulf_def, Ideal.subf_def, Ideal.maximumf_def, Ideal.hostUnary_rsqrt_def,
    Ideal.ofBits_def, Ideal.ofBits_zero_f32]
  generalize val_main_v211 (F := Ideal) x0 x1 x2 x3 x4 x5 x6 x7 x8 x9 x10 = y
  generalize val_main_v108 (F := Ideal) x0 x1 x2 x3 x4 x5 x6 x7 x8 x9 x10 = r
  rfl

/-! ## Layer 1, the node side: the batch statistics of the aggregated projection and the normalised, clamped update -/

/-- The column mean of the node pre-activation: the column's sum over the 20000 rows, divided by the row count. -/
theorem l1_meanN (j : Fin 128) :
    val_main_v267 (F := Ideal) x0 x1 x2 x3 x4 x5 x6 x7 x8 x9 x10 (ix1 j)
      = colMean Cert.Net.cN (toMat (val_main_v260 (F := Ideal) x0 x1 x2 x3 x4 x5 x6 x7 x8 x9 x10)) j := by
  rw [val_main_v267_apply, val_main_v265_apply, val_main_v266_apply, val_main_cst_31_apply, val_main_cst_32_apply]
  generalize val_main_v260 (F := Ideal) x0 x1 x2 x3 x4 x5 x6 x7 x8 x9 x10 = y
  simp only [Ideal.hostDivf_def, Ideal.ofBits_def, Ideal.ofBits_zero_f32, zero_add]
  have hs : (∑ k : Fin 20000, y (idx_main_v265 (ix1 j) k)) = ∑ k : Fin 20000, y (ix2 k j) :=
    Finset.sum_congr rfl fun k _ =>
      congrArg y (funext fun a => Fin.ext (by match a with | ⟨0, _⟩ => rfl | ⟨1, _⟩ => rfl))
  rw [hs]
  rfl

/-- The column variance of the node pre-activation, as the mean of the squared deviations from the column mean. -/
theorem l1_varN (j : Fin 128) :
    val_main_v274 (F := Ideal) x0 x1 x2 x3 x4 x5 x6 x7 x8 x9 x10 (ix1 j)
      = colVarDev Cert.Net.cN (toMat (val_main_v260 (F := Ideal) x0 x1 x2 x3 x4 x5 x6 x7 x8 x9 x10)) j := by
  rw [val_main_v274_apply, val_main_v272_apply, val_main_v273_apply, val_main_cst_33_apply, val_main_cst_34_apply]
  simp only [Ideal.hostDivf_def, Ideal.ofBits_def, Ideal.ofBits_zero_f32, zero_add]
  have hterm : ∀ k : Fin 20000,
      val_main_v271 (F := Ideal) x0 x1 x2 x3 x4 x5 x6 x7 x8 x9 x10 (idx_main_v272 (ix1 j) k)
        = (val_main_v260 (F := Ideal) x0 x1 x2 x3 x4 x5 x6 x7 x8 x9 x10 (ix2 k j)
            - colMean Cert.Net.cN (toMat (val_main_v260 (F := Ideal) x0 x1 x2 x3 x4 x5 x6 x7 x8 x9 x10)) j)
          * (val_main_v260 (F := Ideal) x0 x1 x2 x3 x4 x5 x6 x7 x8 x9 x10 (ix2 k j)
            - colMean Cert.Net.cN (toMat (val_main_v260 (F := Ideal) x0 x1 x2 x3 x4 x5 x6 x7 x8 x9 x10)) j) := by
    intro k
    have hk : idx_main_v272 (ix1 j) k = ix2 k j :=
      funext fun a => Fin.ext (by match a with | ⟨0, _⟩ => rfl | ⟨1, _⟩ => rfl)
    have hi : idx_main_v268 (idx_main_v269 (ix2 k j)) = ix1 j :=
      funext fun a => Fin.ext (by match a with | ⟨0, _⟩ => rfl)
    rw [hk, val_main_v271_apply, val_main_v270_apply, val_main_v269_apply, val_main_v268_apply, hi, l1_meanN]
    simp only [Ideal.mulf_def, Ideal.subf_def]
  rw [Finset.sum_congr rfl fun k _ => hterm k]
  generalize val_main_v260 (F := Ideal) x0 x1 x2 x3 x4 x5 x6 x7 x8 x9 x10 = y
  rfl

/-- The node update of layer 1: the residual plus the clamped, scaled and shifted normalisation of the pre-activation
    by its column mean and variance. -/
theorem l1_bnN :
    toMat (val_main_v291 (F := Ideal) x0 x1 x2 x3 x4 x5 x6 x7 x8 x9 x10)
      = bnRelu Cert.Net.eps (toMat (val_main_v260 (F := Ideal) x0 x1 x2 x3 x4 x5 x6 x7 x8 x9 x10))
          (toMat (val_main_v151 (F := Ideal) x0 x1 x2 x3 x4 x5 x6 x7 x8 x9 x10))
          (colMean Cert.Net.cN (toMat (val_main_v260 (F := Ideal) x0 x1 x2 x3 x4 x5 x6 x7 x8 x9 x10)))
          (colVarDev Cert.Net.cN (toMat (val_main_v260 (F := Ideal) x0 x1 x2 x3 x4 x5 x6 x7 x8 x9 x10)))
          ((Cert.Net.paramsOf x0 x1 x2 x3 x4 x5 x6 x7 x8 x9 x10 x11 x12 x13 x14).L 1).gN
          ((Cert.Net.paramsOf x0 x1 x2 x3 x4 x5 x6 x7 x8 x9 x10 x11 x12 x13 x14).L 1).beN := by
  funext i j
  show val_main_v291 (F := Ideal) x0 x1 x2 x3 x4 x5 x6 x7 x8 x9 x10 (ix2 i j) = _
  have h1 : idx_main_v275 (idx_main_v276 (ix2 i j)) = ix1 j :=
    funext fun a => Fin.ext (by match a with | ⟨0, _⟩ => rfl)
  have h2 : idx_main_v284 (idx_main_v285 (ix2 i j)) = ix1 j :=
    funext fun a => Fin.ext (by match a with | ⟨0, _⟩ => rfl)
  have h3 : idx_main_v261 (idx_main_v262 (idx_main_v278 (idx_main_v279 (ix2 i j)))) = ix3 (1 : Fin 3) (0 : Fin 2) j :=
    funext fun a => Fin.ext (by
      match a with
      | ⟨0, _⟩ => rfl
      | ⟨1, _⟩ => rfl
      | ⟨2, _⟩ => exact Nat.mod_eq_of_lt j.isLt)
  have h4 : idx_main_v263 (idx_main_v264 (idx_main_v287 (idx_main_v288 (ix2 i j)))) = ix3 (1 : Fin 3) (0 : Fin 2) j :=
    funext fun a => Fin.ext (by
      match a with
      | ⟨0, _⟩ => rfl
      | ⟨1, _⟩ => rfl
      | ⟨2, _⟩ => exact Nat.mod_eq_of_lt j.isLt)
  rw [val_main_v291_apply, val_main_v290_apply, val_main_v289_apply, val_main_v286_apply, val_main_v280_apply,
    val_main_v279_apply, val_main_v278_apply, val_main_v262_apply, val_main_v261_apply, h3,
    val_main_v277_apply, val_main_v276_apply, val_main_v275_apply, h1, l1_meanN,
    val_main_v285_apply, val_main_v284_apply, h2, val_main_v283_apply, val_main_v282_apply, l1_varN,
    val_main_v281_apply, val_main_cst_35_apply,
    val_main_v288_apply, val_main_v287_apply, val_main_v264_apply, val_main_v263_apply, h4,
    val_main_call3_v0_apply, val_main_call3_cst_apply]
  simp only [Ideal.addf_def, Ideal.mulf_def, Ideal.subf_def, Ideal.maximumf_def, Ideal.hostUnary_rsqrt_def,
    Ideal.ofBits_def, Ideal.ofBits_zero_f32]
  generalize val_main_v260 (F := Ideal) x0 x1 x2 x3 x4 x5 x6 x7 x8 x9 x10 = y
  generalize val_main_v151 (F := Ideal) x0 x1 x2 x3 x4 x5 x6 x7 x8 x9 x10 = r
  rfl

end Cert.RefB1

end
-- ==== Proof.RefB2.lean ====
/-
  The reference's normalisation blocks of layer 2, read as stages of the network: the same block as layer 0's
  (column mean, column variance as mean of squared deviations, normalise, scale, shift, clamp at zero, add the
  layer's input), at this layer's operations and this layer's scale and shift rows.
-/
import proofs.«418385_j87393994539142_1_alg».proof.Proof.RefRead
import proofs.«418385_j87393994539142_1_alg».proof.Proof.Net
import Idealize.ShloMosaic.PureOps.Ideal.Laws
import Idealize.ShloMosaic.Lib.ValueIdx

noncomputable section

open scoped BigOperators

namespace Cert.RefB2

open Idealize.ShloMosaic Idealize.ShloMosaic.ValueIdx Cert.Stage Cert.ReferenceIdeal Cert.ReferenceIdeal.Gen
  Cert.ReferenceIdeal.Read

variable
  (x0 : (⟨S20000x128, .f32⟩ : BufTy).Contents (Elt Ideal))
  (x1 : (⟨S2x320000, .i32⟩ : BufTy).Contents (Elt Ideal))
  (x2 : (⟨S320000x128, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S3x5x128x128, .f32⟩ : BufTy).Contents (Elt Ideal))
  (x8 : (⟨S3x5x128, .f32⟩ : BufTy).Contents (Elt Ideal))
  (x9 : (⟨S3x2x128, .f32⟩ : BufTy).Contents (Elt Ideal))
  (x10 : (⟨S3x2x128, .f32⟩ : BufTy).Contents (Elt Ideal))
  (x11 : (⟨S128x128, .f32⟩ : BufTy).Contents (Elt Ideal))
  (x12 : (⟨S128, .f32⟩ : BufTy).Contents (Elt Ideal))
  (x13 : (⟨S128x64, .f32⟩ : BufTy).Contents (Elt Ideal))
  (x14 : (⟨S64, .f32⟩ : BufTy).Contents (Elt Ideal))

/-! ## Layer 2, the edge side: the batch statistics of the pre-activation and the normalised, clamped update -/

/-- The column mean of the edge pre-activation: the column's sum over the 320000 rows, divided by the row count. -/
theorem l2_meanE (j : Fin 128) :
    val_main_v364 (F := Ideal) x0 x1 x2 x3 x4 x5 x6 x7 x8 x9 x10 (ix1 j)
      = colMean Cert.Net.cE (toMat (val_main_v351 (F := Ideal) x0 x1 x2 x3 x4 x5 x6 x7 x8 x9 x10)) j := by
  rw [val_main_v364_apply, val_main_v362_apply, val_main_v363_apply, val_main_cst_42_apply, val_main_cst_43_apply]
  generalize val_main_v351 (F := Ideal) x0 x1 x2 x3 x4 x5 x6 x7 x8 x9 x10 = y
  simp only [Ideal.hostDivf_def, Ideal.ofBits_def, Ideal.ofBits_zero_f32, zero_add]
  have hs : (∑ k : Fin 320000, y (idx_main_v362 (ix1 j) k)) = ∑ k : Fin 320000, y (ix2 k j) :=
    Finset.sum_congr rfl fun k _ =>
      congrArg y (funext fun a => Fin.ext (by match a with | ⟨0, _⟩ => rfl | ⟨1, _⟩ => rfl))
  rw [hs]
  rfl

/-- The column variance of the edge pre-activation, as the mean of the squared deviations from the column mean. -/
theorem l2_varE (j : Fin 128) :
    val_main_v371 (F := Ideal) x0 x1 x2 x3 x4 x5 x6 x7 x8 x9 x10 (ix1 j)
      = colVarDev Cert.Net.cE (toMat (val_main_v351 (F := Ideal) x0 x1 x2 x3 x4 x5 x6 x7 x8 x9 x10)) j := by
  rw [val_main_v371_apply, val_main_v369_apply, val_main_v370_apply, val_main_cst_44_apply, val_main_cst_45_apply]
  simp only [Ideal.hostDivf_def, Ideal.ofBits_def, Ideal.ofBits_zero_f32, zero_add]
  have hterm : ∀ k : Fin 320000,
      val_main_v368 (F := Ideal) x0 x1 x2 x3 x4 x5 x6 x7 x8 x9 x10 (idx_main_v369 (ix1 j) k)
        = (val_main_v351 (F := Ideal) x0 x1 x2 x3 x4 x5 x6 x7 x8 x9 x10 (ix2 k j)
            - colMean Cert.Net.cE (toMat (val_main_v351 (F := Ideal) x0 x1 x2 x3 x4 x5 x6 x7 x8 x9 x10)) j)
          * (val_main_v351 (F := Ideal) x0 x1 x2 x3 x4 x5 x6 x7 x8 x9 x10 (ix2 k j)
            - colMean Cert.Net.cE (toMat (val_main_v351 (F := Ideal) x0 x1 x2 x3 x4 x5 x6 x7 x8 x9 x10)) j) := by
    intro k
    have hk : idx_main_v369 (ix1 j) k = ix2 k j :=
      funext fun a => Fin.ext (by match a with | ⟨0, _⟩ => rfl | ⟨1, _⟩ => rfl)
    have hi : idx_main_v365 (idx_main_v366 (ix2 k j)) = ix1 j :=
      funext fun a => Fin.ext (by match a with | ⟨0, _⟩ => rfl)
    rw [hk, val_main_v368_apply, val_main_v367_apply, val_main_v366_apply, val_main_v365_apply, hi, l2_meanE]
    simp only [Ideal.mulf_def, Ideal.subf_def]
  rw [Finset.sum_congr rfl fun k _ => hterm k]
  generalize val_main_v351 (F := Ideal) x0 x1 x2 x3 x4 x5 x6 x7 x8 x9 x10 = y
  rfl

/-- The edge update of layer 2: the residual plus the clamped, scaled and shifted normalisation of the pre-activation
    by its column mean and variance. -/
theorem l2_bnE :
    toMat (val_main_v388 (F := Ideal) x0 x1 x2 x3 x4 x5 x6 x7 x8 x9 x10)
      = bnRelu Cert.Net.eps (toMat (val_main_v351 (F := Ideal) x0 x1 x2 x3 x4 x5 x6 x7 x8 x9 x10))
          (toMat (val_main_v248 (F := Ideal) x0 x1 x2 x3 x4 x5 x6 x7 x8 x9 x10))
          (colMean Cert.Net.cE (toMat (val_main_v351 (F := Ideal) x0 x1 x2 x3 x4 x5 x6 x7 x8 x9 x10)))
          (colVarDev Cert.Net.cE (toMat (val_main_v351 (F := Ideal) x0 x1 x2 x3 x4 x5 x6 x7 x8 x9 x10)))
          ((Cert.Net.paramsOf x0 x1 x2 x3 x4 x5 x6 x7 x8 x9 x10 x11 x12 x13 x14).L 2).gE
          ((Cert.Net.paramsOf x0 x1 x2 x3 x4 x5 x6 x7 x8 x9 x10 x11 x12 x13 x14).L 2).beE := by
  funext i j
  show val_main_v388 (F := Ideal) x0 x1 x2 x3 x4 x5 x6 x7 x8 x9 x10 (ix2 i j) = _
  have h1 : idx_main_v372 (idx_main_v373 (ix2 i j)) = ix1 j :=
    funext fun a => Fin.ext (by match a with | ⟨0, _⟩ => rfl)
  have h2 : idx_main_v381 (idx_main_v382 (ix2 i j)) = ix1 j :=
    funext fun a => Fin.ext (by match a with | ⟨0, _⟩ => rfl)
  have h3 : idx_main_v358 (idx_main_v359 (idx_main_v375 (idx_main_v376 (ix2 i j)))) = ix3 (2 : Fin 3) (1 : Fin 2) j :=
    funext fun a => Fin.ext (by
      match a with
      | ⟨0, _⟩ => rfl
      | ⟨1, _⟩ => rfl
      | ⟨2, _⟩ => exact Nat.mod_eq_of_lt j.isLt)
  have h4 : idx_main_v360 (idx_main_v361 (idx_main_v384 (idx_main_v385 (ix2 i j)))) = ix3 (2 : Fin 3) (1 : Fin 2) j :=
    funext fun a => Fin.ext (by
      match a with
      | ⟨0, _⟩ => rfl
      | ⟨1, _⟩ => rfl
      | ⟨2, _⟩ => exact Nat.mod_eq_of_lt j.isLt)
  rw [val_main_v388_apply, val_main_v387_apply, val_main_v386_apply, val_main_v383_apply, val_main_v377_apply,
    val_main_v376_apply, val_main_v375_apply, val_main_v359_apply, val_main_v358_apply, h3,
    val_main_v374_apply, val_main_v373_apply, val_main_v372_apply, h1, l2_meanE,
    val_main_v382_apply, val_main_v381_apply, h2, val_main_v380_apply, val_main_v379_apply, l2_varE,
    val_main_v378_apply, val_main_cst_46_apply,
    val_main_v385_apply, val_main_v384_apply, val_main_v361_apply, val_main_v360_apply, h4,
    val_main_call4_v0_apply, val_main_call4_cst_apply]
  simp only [Ideal.addf_def, Ideal.mulf_def, Ideal.subf_def, Ideal.maximumf_def, Ideal.hostUnary_rsqrt_def,
    Ideal.ofBits_def, Ideal.ofBits_zero_f32]
  generalize val_main_v351 (F := Ideal) x0 x1 x2 x3 x4 x5 x6 x7 x8 x9 x10 = y
  generalize val_main_v248 (F := Ideal) x0 x1 x2 x3 x4 x5 x6 x7 x8 x9 x10 = r
  rfl

/-! ## Layer 2, the node side: the batch statistics of the aggregated projection and the normalised, clamped update -/

/-- The column mean of the node pre-activation: the column's sum over the 20000 rows, divided by the row count. -/
theorem l2_meanN (j : Fin 128) :
    val_main_v407 (F := Ideal) x0 x1 x2 x3 x4 x5 x6 x7 x8 x9 x10 (ix1 j)
      = colMean Cert.Net.cN (toMat (val_main_v400 (F := Ideal) x0 x1 x2 x3 x4 x5 x6 x7 x8 x9 x10)) j := by
  rw [val_main_v407_apply, val_main_v405_apply, val_main_v406_apply, val_main_cst_50_apply, val_main_cst_51_apply]
  generalize val_main_v400 (F := Ideal) x0 x1 x2 x3 x4 x5 x6 x7 x8 x9 x10 = y
  simp only [Ideal.hostDivf_def, Ideal.ofBits_def, Ideal.ofBits_zero_f32, zero_add]
  have hs : (∑ k : Fin 20000, y (idx_main_v405 (ix1 j) k)) = ∑ k : Fin 20000, y (ix2 k j) :=
    Finset.sum_congr rfl fun k _ =>
      congrArg y (funext fun a => Fin.ext (by match a with | ⟨0, _⟩ => rfl | ⟨1, _⟩ => rfl))
  rw [hs]
  rfl

/-- The column variance of the node pre-activation, as the mean of the squared deviations from the column mean. -/
theorem l2_varN (j : Fin 128) :
    val_main_v414 (F := Ideal) x0 x1 x2 x3 x4 x5 x6 x7 x8 x9 x10 (ix1 j)
      = colVarDev Cert.Net.cN (toMat (val_main_v400 (F := Ideal) x0 x1 x2 x3 x4 x5 x6 x7 x8 x9 x10)) j := by
  rw [val_main_v414_apply, val_main_v412_apply, val_main_v413_apply, val_main_cst_52_apply, val_main_cst_53_apply]
  simp only [Ideal.hostDivf_def, Ideal.ofBits_def, Ideal.ofBits_zero_f32, zero_add]
  have hterm : ∀ k : Fin 20000,
      val_main_v411 (F := Ideal) x0 x1 x2 x3 x4 x5 x6 x7 x8 x9 x10 (idx_main_v412 (ix1 j) k)
        = (val_main_v400 (F := Ideal) x0 x1 x2 x3 x4 x5 x6 x7 x8 x9 x10 (ix2 k j)
            - colMean Cert.Net.cN (toMat (val_main_v400 (F := Ideal) x0 x1 x2 x3 x4 x5 x6 x7 x8 x9 x10)) j)
          * (val_main_v400 (F := Ideal) x0 x1 x2 x3 x4 x5 x6 x7 x8 x9 x10 (ix2 k j)
            - colMean Cert.Net.cN (toMat (val_main_v400 (F := Ideal) x0 x1 x2 x3 x4 x5 x6 x7 x8 x9 x10)) j) := by
    intro k
    have hk : idx_main_v412 (ix1 j) k = ix2 k j :=
      funext fun a => Fin.ext (by match a with | ⟨0, _⟩ => rfl | ⟨1, _⟩ => rfl)
    have hi : idx_main_v408 (idx_main_v409 (ix2 k j)) = ix1 j :=
      funext fun a => Fin.ext (by match a with | ⟨0, _⟩ => rfl)
    rw [hk, val_main_v411_apply, val_main_v410_apply, val_main_v409_apply, val_main_v408_apply, hi, l2_meanN]
    simp only [Ideal.mulf_def, Ideal.subf_def]
  rw [Finset.sum_congr rfl fun k _ => hterm k]
  generalize val_main_v400 (F := Ideal) x0 x1 x2 x3 x4 x5 x6 x7 x8 x9 x10 = y
  rfl

/-- The node update of layer 2: the residual plus the clamped, scaled and shifted normalisation of the pre-activation
    by its column mean and variance. -/
theorem l2_bnN :
    toMat (val_main_v431 (F := Ideal) x0 x1 x2 x3 x4 x5 x6 x7 x8 x9 x10)
      = bnRelu Cert.Net.eps (toMat (val_main_v400 (F := Ideal) x0 x1 x2 x3 x4 x5 x6 x7 x8 x9 x10))
          (toMat (val_main_v291 (F := Ideal) x0 x1 x2 x3 x4 x5 x6 x7 x8 x9 x10))
          (colMean Cert.Net.cN (toMat (val_main_v400 (F := Ideal) x0 x1 x2 x3 x4 x5 x6 x7 x8 x9 x10)))
          (colVarDev Cert.Net.cN (toMat (val_main_v400 (F := Ideal) x0 x1 x2 x3 x4 x5 x6 x7 x8 x9 x10)))
          ((Cert.Net.paramsOf x0 x1 x2 x3 x4 x5 x6 x7 x8 x9 x10 x11 x12 x13 x14).L 2).gN
          ((Cert.Net.paramsOf x0 x1 x2 x3 x4 x5 x6 x7 x8 x9 x10 x11 x12 x13 x14).L 2).beN := by
  funext i j
  show val_main_v431 (F := Ideal) x0 x1 x2 x3 x4 x5 x6 x7 x8 x9 x10 (ix2 i j) = _
  have h1 : idx_main_v415 (idx_main_v416 (ix2 i j)) = ix1 j :=
    funext fun a => Fin.ext (by match a with | ⟨0, _⟩ => rfl)
  have h2 : idx_main_v424 (idx_main_v425 (ix2 i j)) = ix1 j :=
    funext fun a => Fin.ext (by match a with | ⟨0, _⟩ => rfl)
  have h3 : idx_main_v401 (idx_main_v402 (idx_main_v418 (idx_main_v419 (ix2 i j)))) = ix3 (2 : Fin 3) (0 : Fin 2) j :=
    funext fun a => Fin.ext (by
      match a with
      | ⟨0, _⟩ => rfl
      | ⟨1, _⟩ => rfl
      | ⟨2, _⟩ => exact Nat.mod_eq_of_lt j.isLt)
  have h4 : idx_main_v403 (idx_main_v404 (idx_main_v427 (idx_main_v428 (ix2 i j)))) = ix3 (2 : Fin 3) (0 : Fin 2) j :=
    funext fun a => Fin.ext (by
      match a with
      | ⟨0, _⟩ => rfl
      | ⟨1, _⟩ => rfl
      | ⟨2, _⟩ => exact Nat.mod_eq_of_lt j.isLt)
  rw [val_main_v431_apply, val_main_v430_apply, val_main_v429_apply, val_main_v426_apply, val_main_v420_apply,
    val_main_v419_apply, val_main_v418_apply, val_main_v402_apply, val_main_v401_apply, h3,
    val_main_v417_apply, val_main_v416_apply, val_main_v415_apply, h1, l2_meanN,
    val_main_v425_apply, val_main_v424_apply, h2, val_main_v423_apply, val_main_v422_apply, l2_varN,
    val_main_v421_apply, val_main_cst_54_apply,
    val_main_v428_apply, val_main_v427_apply, val_main_v404_apply, val_main_v403_apply, h4,
    val_main_call5_v0_apply, val_main_call5_cst_apply]
  simp only [Ideal.addf_def, Ideal.mulf_def, Ideal.subf_def, Ideal.maximumf_def, Ideal.hostUnary_rsqrt_def,
    Ideal.ofBits_def, Ideal.ofBits_zero_f32]
  generalize val_main_v400 (F := Ideal) x0 x1 x2 x3 x4 x5 x6 x7 x8 x9 x10 = y
  generalize val_main_v291 (F := Ideal) x0 x1 x2 x3 x4 x5 x6 x7 x8 x9 x10 = r
  rfl

end Cert.RefB2

end
-- ==== Proof.RefValue.lean ====
/-
  The reference's result as a function of its arguments: the network with the variance as mean of squared
  deviations.

  The reference embeds the node and edge features, runs three gated layers and applies the head. Each layer's
  stages (the five affine maps, the edge pre-activation, the gated messages, their sum into the nodes, the two
  normalisation blocks) have been read as the network's stages of matrices; a layer is their composition, and the
  whole program the composition of the embedding, the three layers and the head.
-/
import proofs.«418385_j87393994539142_1_alg».proof.Proof.RefA
import proofs.«418385_j87393994539142_1_alg».proof.Proof.RefA1
import proofs.«418385_j87393994539142_1_alg».proof.Proof.RefA2
import proofs.«418385_j87393994539142_1_alg».proof.Proof.RefB
import proofs.«418385_j87393994539142_1_alg».proof.Proof.RefB1
import proofs.«418385_j87393994539142_1_alg».proof.Proof.RefB2
import proofs.«418385_j87393994539142_1_alg».proof.Proof.Net

noncomputable section

open scoped BigOperators

namespace Cert.RefValue

open Idealize.ShloMosaic Idealize.ShloMosaic.ValueIdx Cert.Stage Cert.Alg Cert.ReferenceIdeal Cert.ReferenceIdeal.Gen
  Cert.ReferenceIdeal.Read

/-- A layer is the composition of its stages: if the pre-activation, the messages, the aggregated projection and
    the two updates are the stages of the layer's inputs, the pair of updates is the layer. -/
theorem layer_of {N E D : Nat} (cN cE eps : EReal) (p : LayerW D) (src dst : Fin E → Fin N)
    (h : Mat N D) (e : Mat E D) (eh : Mat E D) (m : Mat E D) (xa : Mat N D) (e' : Mat E D) (h' : Mat N D)
    (heh : eh = ehat (lin e p.W2 p.b2) (rows (lin h p.W3 p.b3) dst) (rows (lin h p.W4 p.b4) src))
    (hm : m = msg eh (rows (lin h p.W1 p.b1) src))
    (hxa : xa = madd (lin h p.W0 p.b0) (segSum m dst))
    (he' : e' = bnRelu eps eh e (colMean cE eh) (colVarDev cE eh) p.gE p.beE)
    (hh' : h' = bnRelu eps xa h (colMean cN xa) (colVarDev cN xa) p.gN p.beN) :
    (h', e') = RLayer cN cE eps p src dst h e := by
  subst hh' he' hxa hm heh
  rfl

/-- The network is the head of the third layer's node output, the layers chained from the embedding. -/
theorem RNet_eq (P : Cert.Net.Params) :
    Cert.Net.RNet P
      = Cert.Net.tail P
          (RLayer Cert.Net.cN Cert.Net.cE Cert.Net.eps (P.L 2) P.src P.dst
            (RLayer Cert.Net.cN Cert.Net.cE Cert.Net.eps (P.L 1) P.src P.dst
              (RLayer Cert.Net.cN Cert.Net.cE Cert.Net.eps (P.L 0) P.src P.dst (Cert.Net.emb P).1 (Cert.Net.emb P).2).1
              (RLayer Cert.Net.cN Cert.Net.cE Cert.Net.eps (P.L 0) P.src P.dst (Cert.Net.emb P).1 (Cert.Net.emb P).2).2).1
            (RLayer Cert.Net.cN Cert.Net.cE Cert.Net.eps (P.L 1) P.src P.dst
              (RLayer Cert.Net.cN Cert.Net.cE Cert.Net.eps (P.L 0) P.src P.dst (Cert.Net.emb P).1 (Cert.Net.emb P).2).1
              (RLayer Cert.Net.cN Cert.Net.cE Cert.Net.eps (P.L 0) P.src P.dst (Cert.Net.emb P).1 (Cert.Net.emb P).2).2).2).1 :=
  rfl

variable
  (x0 : (⟨S20000x128, .f32⟩ : BufTy).Contents (Elt Ideal))
  (x1 : (⟨S2x320000, .i32⟩ : BufTy).Contents (Elt Ideal))
  (x2 : (⟨S320000x128, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S3x5x128x128, .f32⟩ : BufTy).Contents (Elt Ideal))
  (x8 : (⟨S3x5x128, .f32⟩ : BufTy).Contents (Elt Ideal))
  (x9 : (⟨S3x2x128, .f32⟩ : BufTy).Contents (Elt Ideal))
  (x10 : (⟨S3x2x128, .f32⟩ : BufTy).Contents (Elt Ideal))
  (x11 : (⟨S128x128, .f32⟩ : BufTy).Contents (Elt Ideal))
  (x12 : (⟨S128, .f32⟩ : BufTy).Contents (Elt Ideal))
  (x13 : (⟨S128x64, .f32⟩ : BufTy).Contents (Elt Ideal))
  (x14 : (⟨S64, .f32⟩ : BufTy).Contents (Elt Ideal))

/-- Layer 0 of the reference is the network's layer at that layer's weights. -/
theorem layer0 (hidx : ∀ i, 0 ≤ (x1 i).toInt ∧ (x1 i).toInt < 20000) :
    (toMat (val_main_v151 (F := Ideal) x0 x1 x2 x3 x4 x5 x6 x7 x8 x9 x10), toMat (val_main_v108 (F := Ideal) x0 x1 x2 x3 x4 x5 x6 x7 x8 x9 x10))
      = RLayer Cert.Net.cN Cert.Net.cE Cert.Net.eps ((Cert.Net.paramsOf x0 x1 x2 x3 x4 x5 x6 x7 x8 x9 x10 x11 x12 x13 x14).L 0) (Cert.Net.paramsOf x0 x1 x2 x3 x4 x5 x6 x7 x8 x9 x10 x11 x12 x13 x14).src (Cert.Net.paramsOf x0 x1 x2 x3 x4 x5 x6 x7 x8 x9 x10 x11 x12 x13 x14).dst
          (toMat (val_main_v7 (F := Ideal) x0 x3 x4)) (toMat (val_main_v11 (F := Ideal) x2 x5 x6)) :=
  layer_of _ _ _ _ _ _ _ _ _ _ _ _ _
    (Cert.RefA.l0_ehat x0 x1 x2 x3 x4 x5 x6 x7 x8 x9 x10 x11 x12 x13 x14 _ _ rfl rfl hidx)
    (Cert.RefA.l0_msg x0 x1 x2 x3 x4 x5 x6 x7 x8 x9 x10 x11 x12 x13 x14 _ rfl hidx)
    (Cert.RefA.l0_xadd x0 x1 x2 x3 x4 x5 x6 x7 x8 x9 x10 x11 x12 x13 x14 _ rfl hidx)
    (Cert.RefB.l0_bnE x0 x1 x2 x3 x4 x5 x6 x7 x8 x9 x10 x11 x12 x13 x14)
    (Cert.RefB.l0_bnN x0 x1 x2 x3 x4 x5 x6 x7 x8 x9 x10 x11 x12 x13 x14)

/-- Layer 1 of the reference is the network's layer at that layer's weights. -/
theorem layer1 (hidx : ∀ i, 0 ≤ (x1 i).toInt ∧ (x1 i).toInt < 20000) :
    (toMat (val_main_v291 (F := Ideal) x0 x1 x2 x3 x4 x5 x6 x7 x8 x9 x10), toMat (val_main_v248 (F := Ideal) x0 x1 x2 x3 x4 x5 x6 x7 x8 x9 x10))
      = RLayer Cert.Net.cN Cert.Net.cE Cert.Net.eps ((Cert.Net.paramsOf x0 x1 x2 x3 x4 x5 x6 x7 x8 x9 x10 x11 x12 x13 x14).L 1) (Cert.Net.paramsOf x0 x1 x2 x3 x4 x5 x6 x7 x8 x9 x10 x11 x12 x13 x14).src (Cert.Net.paramsOf x0 x1 x2 x3 x4 x5 x6 x7 x8 x9 x10 x11 x12 x13 x14).dst
          (toMat (val_main_v151 (F := Ideal) x0 x1 x2 x3 x4 x5 x6 x7 x8 x9 x10)) (toMat (val_main_v108 (F := Ideal) x0 x1 x2 x3 x4 x5 x6 x7 x8 x9 x10)) :=
  layer_of _ _ _ _ _ _ _ _ _ _ _ _ _
    (Cert.RefA1.l1_ehat x0 x1 x2 x3 x4 x5 x6 x7 x8 x9 x10 x11 x12 x13 x14 _ _ rfl rfl hidx)
    (Cert.RefA1.l1_msg x0 x1 x2 x3 x4 x5 x6 x7 x8 x9 x10 x11 x12 x13 x14 _ rfl hidx)
    (Cert.RefA1.l1_xadd x0 x1 x2 x3 x4 x5 x6 x7 x8 x9 x10 x11 x12 x13 x14 _ rfl hidx)
    (Cert.RefB1.l1_bnE x0 x1 x2 x3 x4 x5 x6 x7 x8 x9 x10 x11 x12 x13 x14)
    (Cert.RefB1.l1_bnN x0 x1 x2 x3 x4 x5 x6 x7 x8 x9 x10 x11 x12 x13 x14)

/-- Layer 2 of the reference is the network's layer at that layer's weights. -/
theorem layer2 (hidx : ∀ i, 0 ≤ (x1 i).toInt ∧ (x1 i).toInt < 20000) :
    (toMat (val_main_v431 (F := Ideal) x0 x1 x2 x3 x4 x5 x6 x7 x8 x9 x10), toMat (val_main_v388 (F := Ideal) x0 x1 x2 x3 x4 x5 x6 x7 x8 x9 x10))
      = RLayer Cert.Net.cN Cert.Net.cE Cert.Net.eps ((Cert.Net.paramsOf x0 x1 x2 x3 x4 x5 x6 x7 x8 x9 x10 x11 x12 x13 x14).L 2) (Cert.Net.paramsOf x0 x1 x2 x3 x4 x5 x6 x7 x8 x9 x10 x11 x12 x13 x14).src (Cert.Net.paramsOf x0 x1 x2 x3 x4 x5 x6 x7 x8 x9 x10 x11 x12 x13 x14).dst
          (toMat (val_main_v291 (F := Ideal) x0 x1 x2 x3 x4 x5 x6 x7 x8 x9 x10)) (toMat (val_main_v248 (F := Ideal) x0 x1 x2 x3 x4 x5 x6 x7 x8 x9 x10)) :=
  layer_of _ _ _ _ _ _ _ _ _ _ _ _ _
    (Cert.RefA2.l2_ehat x0 x1 x2 x3 x4 x5 x6 x7 x8 x9 x10 x11 x12 x13 x14 _ _ rfl rfl hidx)
    (Cert.RefA2.l2_msg x0 x1 x2 x3 x4 x5 x6 x7 x8 x9 x10 x11 x12 x13 x14 _ rfl hidx)
    (Cert.RefA2.l2_xadd x0 x1 x2 x3 x4 x5 x6 x7 x8 x9 x10 x11 x12 x13 x14 _ rfl hidx)
    (Cert.RefB2.l2_bnE x0 x1 x2 x3 x4 x5 x6 x7 x8 x9 x10 x11 x12 x13 x14)
    (Cert.RefB2.l2_bnN x0 x1 x2 x3 x4 x5 x6 x7 x8 x9 x10 x11 x12 x13 x14)

/-- The reference's result is the network, with the variance as mean of squared deviations, of the parameters read
    off its arguments. -/
theorem ref_value (hidx : ∀ i, 0 ≤ (x1 i).toInt ∧ (x1 i).toInt < 20000) :
    Cert.Stage.toMat (Cert.ReferenceIdeal.Read.val_main_v442 (F := Ideal) x0 x1 x2 x3 x4 x5 x6 x7 x8 x9 x10 x11 x12 x13 x14)
      = Cert.Net.RNet (Cert.Net.paramsOf x0 x1 x2 x3 x4 x5 x6 x7 x8 x9 x10 x11 x12 x13 x14) := by
  have e0 : RLayer Cert.Net.cN Cert.Net.cE Cert.Net.eps ((Cert.Net.paramsOf x0 x1 x2 x3 x4 x5 x6 x7 x8 x9 x10 x11 x12 x13 x14).L 0) (Cert.Net.paramsOf x0 x1 x2 x3 x4 x5 x6 x7 x8 x9 x10 x11 x12 x13 x14).src (Cert.Net.paramsOf x0 x1 x2 x3 x4 x5 x6 x7 x8 x9 x10 x11 x12 x13 x14).dst
        (Cert.Net.emb (Cert.Net.paramsOf x0 x1 x2 x3 x4 x5 x6 x7 x8 x9 x10 x11 x12 x13 x14)).1 (Cert.Net.emb (Cert.Net.paramsOf x0 x1 x2 x3 x4 x5 x6 x7 x8 x9 x10 x11 x12 x13 x14)).2
      = (toMat (val_main_v151 (F := Ideal) x0 x1 x2 x3 x4 x5 x6 x7 x8 x9 x10), toMat (val_main_v108 (F := Ideal) x0 x1 x2 x3 x4 x5 x6 x7 x8 x9 x10)) := by
    rw [← Cert.RefA.emb_h x0 x1 x2 x3 x4 x5 x6 x7 x8 x9 x10 x11 x12 x13 x14, ← Cert.RefA.emb_e x0 x1 x2 x3 x4 x5 x6 x7 x8 x9 x10 x11 x12 x13 x14]
    exact (layer0 x0 x1 x2 x3 x4 x5 x6 x7 x8 x9 x10 x11 x12 x13 x14 hidx).symm
  have e1 : RLayer Cert.Net.cN Cert.Net.cE Cert.Net.eps ((Cert.Net.paramsOf x0 x1 x2 x3 x4 x5 x6 x7 x8 x9 x10 x11 x12 x13 x14).L 1) (Cert.Net.paramsOf x0 x1 x2 x3 x4 x5 x6 x7 x8 x9 x10 x11 x12 x13 x14).src (Cert.Net.paramsOf x0 x1 x2 x3 x4 x5 x6 x7 x8 x9 x10 x11 x12 x13 x14).dst
        (toMat (val_main_v151 (F := Ideal) x0 x1 x2 x3 x4 x5 x6 x7 x8 x9 x10), toMat (val_main_v108 (F := Ideal) x0 x1 x2 x3 x4 x5 x6 x7 x8 x9 x10)).1
        (toMat (val_main_v151 (F := Ideal) x0 x1 x2 x3 x4 x5 x6 x7 x8 x9 x10), toMat (val_main_v108 (F := Ideal) x0 x1 x2 x3 x4 x5 x6 x7 x8 x9 x10)).2
      = (toMat (val_main_v291 (F := Ideal) x0 x1 x2 x3 x4 x5 x6 x7 x8 x9 x10), toMat (val_main_v248 (F := Ideal) x0 x1 x2 x3 x4 x5 x6 x7 x8 x9 x10)) :=
    (layer1 x0 x1 x2 x3 x4 x5 x6 x7 x8 x9 x10 x11 x12 x13 x14 hidx).symm
  have e2 : RLayer Cert.Net.cN Cert.Net.cE Cert.Net.eps ((Cert.Net.paramsOf x0 x1 x2 x3 x4 x5 x6 x7 x8 x9 x10 x11 x12 x13 x14).L 2) (Cert.Net.paramsOf x0 x1 x2 x3 x4 x5 x6 x7 x8 x9 x10 x11 x12 x13 x14).src (Cert.Net.paramsOf x0 x1 x2 x3 x4 x5 x6 x7 x8 x9 x10 x11 x12 x13 x14).dst
        (toMat (val_main_v291 (F := Ideal) x0 x1 x2 x3 x4 x5 x6 x7 x8 x9 x10), toMat (val_main_v248 (F := Ideal) x0 x1 x2 x3 x4 x5 x6 x7 x8 x9 x10)).1
        (toMat (val_main_v291 (F := Ideal) x0 x1 x2 x3 x4 x5 x6 x7 x8 x9 x10), toMat (val_main_v248 (F := Ideal) x0 x1 x2 x3 x4 x5 x6 x7 x8 x9 x10)).2
      = (toMat (val_main_v431 (F := Ideal) x0 x1 x2 x3 x4 x5 x6 x7 x8 x9 x10), toMat (val_main_v388 (F := Ideal) x0 x1 x2 x3 x4 x5 x6 x7 x8 x9 x10)) :=
    (layer2 x0 x1 x2 x3 x4 x5 x6 x7 x8 x9 x10 x11 x12 x13 x14 hidx).symm
  rw [Cert.RefB.head x0 x1 x2 x3 x4 x5 x6 x7 x8 x9 x10 x11 x12 x13 x14, RNet_eq, e0, e1, e2]

end Cert.RefValue

end
-- ==== Proof.PreFacts.lean ====
/-
  The precondition of the certificate, decoded: the printed predicate of the fifteen argument arrays is the conjunction of
  "every entry of each float array has absolute value below +∞" (fourteen arrays) and "every entry of the edge-index array is
  at least 0 and below 20000". At the ideal instance a float is an extended real, so the first says each entry is a real.
-/
import proofs.«418385_j87393994539142_1_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

/-- The scalar shape has one index. -/
instance subsingleton_scalar_idx : Subsingleton S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real whose absolute value is below +∞ is a real. -/
theorem real_of_abs_lt_top (x : EReal) (h : Ideal.cmp .olt (max x (-x)) (⊤ : EReal) = 1#1) : ∃ r : ℝ, x = (r : EReal) := by
  unfold Ideal.cmp at h
  rw [StableHlo.Predicate.ofBool_eq_one_iff, decide_eq_true_eq, max_lt_iff] at h
  induction x using EReal.rec with
  | bot => exact absurd h.2 (by simp)
  | coe r => exact ⟨r, rfl⟩
  | top => exact absurd h.1 (lt_irrefl _)

/-- If the conjunction over all entries of |x| < +∞ holds, every entry of x is a real. -/
theorem all_real {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi
          (cmpf .olt (Host.absf x) (broadcastInDim s ![] hb (constant (F := Ideal) S_ .f32 0x7F800000#32)))
          (constantI S_ 1 1#1) hr h0 ValueIdx.ix0 = 1#1) :
    ∀ i, ∃ r : ℝ, x i = (r : EReal) := by
  intro i
  have hi := Host.reduce_andi_all _ _ hr h0 _ e i
  refine real_of_abs_lt_top (x i) ?_
  rw [← inf_bits]
  exact hi

/-- If the conjunction over all entries of 0 ≤ x holds (signed), every entry is non-negative. -/
theorem all_nonneg {s : Shape} {axes : List (Fin s.rank)} (hb : S_.BroadcastsInDim s (![] : Fin 0 → Fin s.rank))
    (hr : s.ReducesTo axes S_) (h0 : 0 < S_.numel) (x : IVec s 32)
    (e : Host.reduce IntOp.andi
          (cmpi .sge x (broadcastInDim s ![] hb (constantI S_ 32 0#32)))
          (constantI S_ 1 1#1) hr h0 ValueIdx.ix0 = 1#1) :
    ∀ i, 0 ≤ (x i).toInt := by
  intro i
  have hi : IntOp.cmpi .sge (x i) 0#32 = 1#1 := Host.reduce_andi_all _ _ hr h0 _ e i
  unfold IntOp.cmpi at hi
  rw [StableHlo.Predicate.ofBool_eq_one_iff] at hi
  simpa [BitVec.sle] using hi

/-- If the conjunction over all entries of x < 20000 holds (signed), every entry is below 20000. -/
theorem all_lt {s : Shape} {axes : List (Fin s.rank)} (hb : S_.BroadcastsInDim s (![] : Fin 0 → Fin s.rank))
    (hr : s.ReducesTo axes S_) (h0 : 0 < S_.numel) (x : IVec s 32)
    (e : Host.reduce IntOp.andi
          (cmpi .slt x (broadcastInDim s ![] hb (constantI S_ 32 20000#32)))
          (constantI S_ 1 1#1) hr h0 ValueIdx.ix0 = 1#1) :
    ∀ i, (x i).toInt < 20000 := by
  intro i
  have hi : IntOp.cmpi .slt (x i) 20000#32 = 1#1 := Host.reduce_andi_all _ _ hr h0 _ e i
  unfold IntOp.cmpi at hi
  rw [StableHlo.Predicate.ofBool_eq_one_iff] at hi
  have h2 : (20000#32 : BitVec 32).toInt = 20000 := by decide
  simpa [BitVec.slt, h2] using hi

/-- What the precondition says of the fifteen argument arrays: every float entry is a real, every edge index lies in [0, 20000). -/
structure Out (a0 : FVec Ideal S20000x128 .f32) (a1 : IVec S2x320000 32) (a2 : FVec Ideal S320000x128 .f32) (a3 : FVec Ideal S128x128 .f32) (a4 : FVec Ideal S128 .f32) (a5 : FVec Ideal S128x128 .f32) (a6 : FVec Ideal S128 .f32) (a7 : FVec Ideal S3x5x128x128 .f32) (a8 : FVec Ideal S3x5x128 .f32) (a9 : FVec Ideal S3x2x128 .f32) (a10 : FVec Ideal S3x2x128 .f32) (a11 : FVec Ideal S128x128 .f32) (a12 : FVec Ideal S128 .f32) (a13 : FVec Ideal S128x64 .f32) (a14 : FVec Ideal S64 .f32) : Prop where
  f0 : ∀ i, ∃ r : ℝ, a0 i = (r : EReal)
  f2 : ∀ i, ∃ r : ℝ, a2 i = (r : EReal)
  f3 : ∀ i, ∃ r : ℝ, a3 i = (r : EReal)
  f4 : ∀ i, ∃ r : ℝ, a4 i = (r : EReal)
  f5 : ∀ i, ∃ r : ℝ, a5 i = (r : EReal)
  f6 : ∀ i, ∃ r : ℝ, a6 i = (r : EReal)
  f7 : ∀ i, ∃ r : ℝ, a7 i = (r : EReal)
  f8 : ∀ i, ∃ r : ℝ, a8 i = (r : EReal)
  f9 : ∀ i, ∃ r : ℝ, a9 i = (r : EReal)
  f10 : ∀ i, ∃ r : ℝ, a10 i = (r : EReal)
  f11 : ∀ i, ∃ r : ℝ, a11 i = (r : EReal)
  f12 : ∀ i, ∃ r : ℝ, a12 i = (r : EReal)
  f13 : ∀ i, ∃ r : ℝ, a13 i = (r : EReal)
  f14 : ∀ i, ∃ r : ℝ, a14 i = (r : EReal)
  idx : ∀ i, 0 ≤ (a1 i).toInt ∧ (a1 i).toInt < 20000

/-- The printed precondition, all ones, gives the facts above. -/
theorem out_of_pre [Cert.Pre_finite_inputs.Facts] (a0 : FVec Ideal S20000x128 .f32) (a1 : IVec S2x320000 32) (a2 : FVec Ideal S320000x128 .f32) (a3 : FVec Ideal S128x128 .f32) (a4 : FVec Ideal S128 .f32) (a5 : FVec Ideal S128x128 .f32) (a6 : FVec Ideal S128 .f32) (a7 : FVec Ideal S3x5x128x128 .f32) (a8 : FVec Ideal S3x5x128 .f32) (a9 : FVec Ideal S3x2x128 .f32) (a10 : FVec Ideal S3x2x128 .f32) (a11 : FVec Ideal S128x128 .f32) (a12 : FVec Ideal S128 .f32) (a13 : FVec Ideal S128x64 .f32) (a14 : FVec Ideal S64 .f32)
    (h : Cert.Pre_finite_inputs.fn (F := Ideal) a0 a1 a2 a3 a4 a5 a6 a7 a8 a9 a10 a11 a12 a13 a14 = (fun _ => 1#1)) :
    Out a0 a1 a2 a3 a4 a5 a6 a7 a8 a9 a10 a11 a12 a13 a14 := by
  have h := congrFun h ValueIdx.ix0
  dsimp only [fn, fn_part1, fn_part2, fn_part3, fn_part4, andi] at h
  obtain ⟨h, hlt⟩ := IntOp.andi_eq_one.1 h
  obtain ⟨h, hge⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  exact
    { f0 := all_real _ _ _ a0 h
      f2 := all_real _ _ _ a2 h2
      f3 := all_real _ _ _ a3 h3
      f4 := all_real _ _ _ a4 h4
      f5 := all_real _ _ _ a5 h5
      f6 := all_real _ _ _ a6 h6
      f7 := all_real _ _ _ a7 h7
      f8 := all_real _ _ _ a8 h8
      f9 := all_real _ _ _ a9 h9
      f10 := all_real _ _ _ a10 h10
      f11 := all_real _ _ _ a11 h11
      f12 := all_real _ _ _ a12 h12
      f13 := all_real _ _ _ a13 h13
      f14 := all_real _ _ _ a14 h14
      idx := fun i => ⟨all_nonneg _ _ _ a1 hge i, all_lt _ _ _ a1 hlt i⟩ }

end Cert.PreFacts

end
-- ==== Proof.NetEq.lean ====
/-
  The two spellings of the whole network are one function on real arguments.

  The three literal words the programs carry denote the reals 20000, 320000 and a positive guard. The argument
  arrays' entries are reals, so every parameter of the network is real; the embedded features are then real, each
  layer in turn is the same in both spellings and hands real features to the next, and the shared head is applied
  to equal node features.
-/
import proofs.«418385_j87393994539142_1_alg».proof.Proof.Net
import proofs.«418385_j87393994539142_1_alg».proof.Proof.PreFacts
import Mathlib.Tactic.NormNum
import Mathlib.Tactic.Positivity

noncomputable section

open scoped BigOperators

namespace Cert.NetEq

open Idealize.ShloMosaic Idealize.ShloMosaic.ValueIdx Cert.Stage Cert.Alg Cert.Net Cert.Pre_finite_inputs

/-! ### The three literal words -/

/-- The word 0x469C4000 denotes 20000: significand 2^23 + 1851392 = 10240000, exponent 141 − 127 − 23 = −9. -/
theorem cN_eq : Cert.Net.cN = ((20000 : ℝ) : EReal) := by
  simp [Cert.Net.cN, Ideal.ofBits, Ideal.ieee, -EReal.coe_mul]; norm_num

/-- The word 0x489C4000 denotes 320000: the same significand, exponent 145 − 127 − 23 = −5. -/
theorem cE_eq : Cert.Net.cE = ((320000 : ℝ) : EReal) := by
  simp [Cert.Net.cE, Ideal.ofBits, Ideal.ieee, -EReal.coe_mul]; norm_num

/-- The word 0x3727C5AC denotes the positive real 10995116 · 2^(−40). -/
theorem eps_pos : ∃ ε : ℝ, 0 < ε ∧ Cert.Net.eps = ((ε : ℝ) : EReal) := by
  refine ⟨10995116 * (2 : ℝ) ^ (-40 : Int), by positivity, ?_⟩
  simp [Cert.Net.eps, Ideal.ofBits, Ideal.ieee, -EReal.coe_mul]

/-! ### Real arguments give real parameters -/

/-- Every parameter of the network is a real number. -/
structure _root_.Cert.Net.Params.AllFin (P : Cert.Net.Params) : Prop where
  x0 : MFin P.x0
  ea : MFin P.ea
  nW : MFin P.nW
  nb : RFin P.nb
  eW : MFin P.eW
  eb : RFin P.eb
  L : ∀ l, (P.L l).AllFin
  cW1 : MFin P.cW1
  cb1 : RFin P.cb1
  cW2 : MFin P.cW2
  cb2 : RFin P.cb2

/-- The parameters read off arrays of reals are real. -/
theorem allFin_paramsOf
    (a0 : FVec Ideal S20000x128 .f32) (a1 : IVec S2x320000 32) (a2 : FVec Ideal S320000x128 .f32)
    (a3 : FVec Ideal S128x128 .f32) (a4 : FVec Ideal S128 .f32) (a5 : FVec Ideal S128x128 .f32)
    (a6 : FVec Ideal S128 .f32) (a7 : FVec Ideal S3x5x128x128 .f32) (a8 : FVec Ideal S3x5x128 .f32)
    (a9 : FVec Ideal S3x2x128 .f32) (a10 : FVec Ideal S3x2x128 .f32) (a11 : FVec Ideal S128x128 .f32)
    (a12 : FVec Ideal S128 .f32) (a13 : FVec Ideal S128x64 .f32) (a14 : FVec Ideal S64 .f32)
    (h : Cert.PreFacts.Out a0 a1 a2 a3 a4 a5 a6 a7 a8 a9 a10 a11 a12 a13 a14) :
    (Cert.Net.paramsOf a0 a1 a2 a3 a4 a5 a6 a7 a8 a9 a10 a11 a12 a13 a14).AllFin where
  x0 := fun i j => h.f0 (ix2 i j)
  ea := fun i j => h.f2 (ix2 i j)
  nW := fun i j => h.f3 (ix2 i j)
  nb := fun j => h.f4 (ix1 j)
  eW := fun i j => h.f5 (ix2 i j)
  eb := fun j => h.f6 (ix1 j)
  L := fun l =>
    { W0 := fun k j => h.f7 (ix4 l (0 : Fin 5) k j)
      W1 := fun k j => h.f7 (ix4 l (1 : Fin 5) k j)
      W2 := fun k j => h.f7 (ix4 l (2 : Fin 5) k j)
      W3 := fun k j => h.f7 (ix4 l (3 : Fin 5) k j)
      W4 := fun k j => h.f7 (ix4 l (4 : Fin 5) k j)
      b0 := fun j => h.f8 (ix3 l (0 : Fin 5) j)
      b1 := fun j => h.f8 (ix3 l (1 : Fin 5) j)
      b2 := fun j => h.f8 (ix3 l (2 : Fin 5) j)
      b3 := fun j => h.f8 (ix3 l (3 : Fin 5) j)
      b4 := fun j => h.f8 (ix3 l (4 : Fin 5) j)
      gN := fun j => h.f9 (ix3 l (0 : Fin 2) j)
      beN := fun j => h.f10 (ix3 l (0 : Fin 2) j)
      gE := fun j => h.f9 (ix3 l (1 : Fin 2) j)
      beE := fun j => h.f10 (ix3 l (1 : Fin 2) j) }
  cW1 := fun i j => h.f11 (ix2 i j)
  cb1 := fun j => h.f12 (ix1 j)
  cW2 := fun i j => h.f13 (ix2 i j)
  cb2 := fun j => h.f14 (ix1 j)

/-! ### The two networks agree -/

/-- On real parameters the network with either spelling of the variance is the same function. -/
theorem net_eq (P : Cert.Net.Params) (hP : P.AllFin) : Cert.Net.KNet P = Cert.Net.RNet P := by
  obtain ⟨ε, hε, heps⟩ := eps_pos
  have hcN : Cert.Net.cN = ((((20000 : ℕ) : ℝ)) : EReal) := by rw [cN_eq]; norm_num
  have hcE : Cert.Net.cE = ((((320000 : ℕ) : ℝ)) : EReal) := by rw [cE_eq]; norm_num
  have hN : 0 < 20000 := by norm_num
  have hE : 0 < 320000 := by norm_num
  have hx : MFin (emb P).1 := lin_fin hP.x0 hP.nW hP.nb
  have he : MFin (emb P).2 := lin_fin hP.ea hP.eW hP.eb
  obtain ⟨e1, x1, y1⟩ := layer_eq cN cE eps ε hcN hcE hN hE heps hε (P.L 0) (hP.L 0) P.src P.dst _ _ hx he
  obtain ⟨e2, x2, y2⟩ := layer_eq cN cE eps ε hcN hcE hN hE heps hε (P.L 1) (hP.L 1) P.src P.dst _ _ x1 y1
  obtain ⟨e3, _, _⟩ := layer_eq cN cE eps ε hcN hcE hN hE heps hε (P.L 2) (hP.L 2) P.src P.dst _ _ x2 y2
  show tail P (KLayer cN cE eps (P.L 2) P.src P.dst
        (KLayer cN cE eps (P.L 1) P.src P.dst
          (KLayer cN cE eps (P.L 0) P.src P.dst (emb P).1 (emb P).2).1
          (KLayer cN cE eps (P.L 0) P.src P.dst (emb P).1 (emb P).2).2).1
        (KLayer cN cE eps (P.L 1) P.src P.dst
          (KLayer cN cE eps (P.L 0) P.src P.dst (emb P).1 (emb P).2).1
          (KLayer cN cE eps (P.L 0) P.src P.dst (emb P).1 (emb P).2).2).2).1 = RNet P
  rw [e1, e2, e3]
  rfl

end Cert.NetEq

end
-- ==== Proof.Bridge.lean ====
/-
  The two programs' results are one array.

  The kernel program's result buffer ends at the last valuation's contents, which is the network in its first
  spelling (variance as mean of squares minus squared mean) of the arguments; the reference's ends at its last stage,
  the network in its second spelling (variance as mean of squared deviations). Under the precondition every float
  argument is finite and every index word names a node, and there the two spellings are one function.
-/
import proofs.«418385_j87393994539142_1_alg».proof.Proof.KernelIdealAsmVal
import proofs.«418385_j87393994539142_1_alg».proof.Proof.KVal
import proofs.«418385_j87393994539142_1_alg».proof.Proof.RefValue
import proofs.«418385_j87393994539142_1_alg».proof.Proof.NetEq

set_option maxRecDepth 16384

noncomputable section

namespace Cert.Bridge

open Idealize.ShloMosaic Idealize.ShloMosaic.TcCoe Idealize.ShloMosaic.ValueIdx Cert.Stage

/-- A rank-2 array is determined by its matrix reading. -/
theorem toMat_inj {R C : Nat} (a b : (⟨2, ![R, C]⟩ : Shape).Idx → EReal) (h : toMat a = toMat b) : a = b := by
  funext i
  rw [eq_ix2 i]
  exact congrFun (congrFun h (i 0)) (i 1)

/-- Under the precondition, the reference's last stage of the kernel program's arguments is the contents the kernel
    program's result buffer ends at: both are the network of the arguments, in its two spellings. -/
theorem result_eq [Cert.Pre_finite_inputs.Facts] (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (fun _ => 1#1)) :
    Cert.ReferenceIdeal.Read.val_main_v442 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.KernelIdeal.Gen.V52 m (Cert.KernelIdeal.Asm.outs m) c Cert.KernelIdeal.main_v192 := by
  have hO := Cert.PreFacts.out_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) hpre
  refine toMat_inj (R := 1) (C := 64) _ _ ?_
  calc toMat (Cert.ReferenceIdeal.Read.val_main_v442 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
      = Cert.Net.RNet (Cert.Net.paramsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) :=
        Cert.RefValue.ref_value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) hO.idx
    _ = Cert.Net.KNet (Cert.Net.paramsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) :=
        (Cert.NetEq.net_eq _ (Cert.NetEq.allFin_paramsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) hO)).symm
    _ = toMat (Cert.KernelIdeal.Gen.V52 m (Cert.KernelIdeal.Asm.outs m) c Cert.KernelIdeal.main_v192) :=
        (Cert.KVal.kval m (Cert.KernelIdeal.Asm.outs m) c hO.idx (Cert.KernelIdeal.AsmVal.region_vals m c)).symm

end Cert.Bridge

end
-- ==== Proof.lean ====
/-
  The five claims of this certificate.

  The kernel program is a three-layer gated graph network written as 23 kernel launches among host operations; the
  reference computes the same network with plain array operations. The frames: each program terminates from every
  memory and leaves its fifteen arguments as launched (the kernel program's run is assembled from one record per
  launch; the reference's run is carried stage by stage through its operations). The idealization changed nothing in
  the kernel's text, so nothing is owed for it. The equivalence: at the ideal instance the kernel program's result is
  the network with each batch variance spelt as mean of squares minus squared mean and the four node projections
  taken as column blocks of one wide product, the reference's the network with the variance as mean of squared
  deviations and four separate products; for finite arguments and index words that name nodes these are one
  function of the arguments.
-/
import proofs.«418385_j87393994539142_1_alg».proof.Defs
import proofs.«418385_j87393994539142_1_alg».proof.Proof.Gen.Kernel
import proofs.«418385_j87393994539142_1_alg».proof.Proof.Gen.KernelIdeal
import proofs.«418385_j87393994539142_1_alg».proof.Proof.Gen.ReferenceIdeal
import proofs.«418385_j87393994539142_1_alg».proof.Proof.Gen.Pre_finite_inputs
import proofs.«418385_j87393994539142_1_alg».proof.Proof.KernelAsm
import proofs.«418385_j87393994539142_1_alg».proof.Proof.KernelIdealAsm
import proofs.«418385_j87393994539142_1_alg».proof.Proof.RefRun
import proofs.«418385_j87393994539142_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched: the assembled run, its
    statement about the result dropped. -/
theorem frame_k : Cert.frame_Kernel := fun m ρ _ =>
  (θ_run Cert.Kernel.defs _ _).mono (fun _ h c => (h c).2) (Cert.Kernel.Asm.run (F := Bits) m ρ)

/-- The same for the idealized kernel program. -/
theorem frame_ki : Cert.frame_KernelIdeal := fun m ρ _ =>
  (θ_run Cert.KernelIdeal.defs _ _).mono (fun _ h c => (h c).2) (Cert.KernelIdeal.Asm.run (F := Ideal) m ρ)

/-- The reference runs to the end and leaves its arguments as launched. -/
theorem frame_r : Cert.frame_ReferenceIdeal := fun m ρ _ =>
  (θ_run Cert.ReferenceIdeal.defs _ _).mono (fun _ h c => (h c).2) (Cert.RefRun.run (F := Ideal) m ρ)

/-- From memories that agree on the arguments both programs end with the same result: the kernel program's at the
    last valuation's contents, the reference's at its last stage of its own arguments, which are the kernel's. -/
theorem algebraic : Cert.algebraic_KernelIdeal_ReferenceIdeal := by
  intro m ρ m' ρ' hpre hagree
  refine ⟨fun c => Cert.KernelIdeal.Gen.V52 m (Cert.KernelIdeal.Asm.outs m) c Cert.KernelIdeal.main_v192,
    Cert.KernelIdeal.Asm.run (F := Ideal) m ρ, ?_⟩
  refine (θ_run Cert.ReferenceIdeal.defs _ _).mono (fun _ h c => ⟨(h c).1.trans ?_, (h c).2⟩) (Cert.RefRun.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
